-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S512x1024 : Shape := ⟨2, ![512, 1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S1024x512 .f32) (main_arg1 : FVec F S512x1024 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  main_v8
-- ==== Pre_finite_inputs_ReferenceIdeal.lean ====
abbrev S8192x512 : Shape := ⟨2, ![8192, 512]⟩
abbrev S512x1024 : Shape := ⟨2, ![512, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S8192x512 .f32) (main_arg1 : FVec F S512x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  main_v8
-- ==== Kernel.lean ====
abbrev S1024x512 : Shape := ⟨2, ![1024, 512]⟩
abbrev S512x1024 : Shape := ⟨2, ![512, 1024]⟩
abbrev S8192x1024 : Shape := ⟨2, ![8192, 1024]⟩
abbrev S8x352x512 : Shape := ⟨3, ![8, 352, 512]⟩
abbrev S8x336x512 : Shape := ⟨3, ![8, 336, 512]⟩
abbrev S2x352x1024 : Shape := ⟨3, ![2, 352, 1024]⟩
abbrev S2x336x1024 : Shape := ⟨3, ![2, 336, 1024]⟩
abbrev S3x8 : Shape := ⟨2, ![3, 8]⟩
abbrev S_ : Shape := ⟨0, ![]⟩
abbrev S352x512 : Shape := ⟨2, ![352, 512]⟩
abbrev S1x352x512 : Shape := ⟨3, ![1, 352, 512]⟩
abbrev S336x512 : Shape := ⟨2, ![336, 512]⟩
abbrev S1x336x512 : Shape := ⟨3, ![1, 336, 512]⟩
abbrev S1x1 : Shape := ⟨2, ![1, 1]⟩
abbrev S352x1024 : Shape := ⟨2, ![352, 1024]⟩
abbrev S1x352x1024 : Shape := ⟨3, ![1, 352, 1024]⟩
abbrev S336x1024 : Shape := ⟨2, ![336, 1024]⟩
abbrev S1x336x1024 : Shape := ⟨3, ![1, 336, 1024]⟩
abbrev S1x176x512 : Shape := ⟨3, ![1, 176, 512]⟩
abbrev S176x512 : Shape := ⟨2, ![176, 512]⟩
abbrev S1x160x512 : Shape := ⟨3, ![1, 160, 512]⟩
abbrev S160x512 : Shape := ⟨2, ![160, 512]⟩
abbrev S176x1024 : Shape := ⟨2, ![176, 1024]⟩
abbrev S1x176x1024 : Shape := ⟨3, ![1, 176, 1024]⟩
abbrev S160x1024 : Shape := ⟨2, ![160, 1024]⟩
abbrev S1x160x1024 : Shape := ⟨3, ![1, 160, 1024]⟩

abbrev nBuf : Space → Nat
  | .hbm => 3
  | .vmem => 9
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S8192x1024, .f32⟩
  | .local _ .vmem, ⟨0, _⟩ => ⟨S1024x512, .f32⟩
  | .local _ .vmem, ⟨1, _⟩ => ⟨S512x1024, .f32⟩
  | .local _ .vmem, ⟨2, _⟩ => ⟨S512x1024, .bf16⟩
  | .local _ .vmem, ⟨3, _⟩ => ⟨S8x352x512, .bf16⟩
  | .local _ .vmem, ⟨4, _⟩ => ⟨S8x336x512, .bf16⟩
  | .local _ .vmem, ⟨5, _⟩ => ⟨S8x336x512, .bf16⟩
  | .local _ .vmem, ⟨6, _⟩ => ⟨S2x352x1024, .f32⟩
  | .local _ .vmem, ⟨7, _⟩ => ⟨S2x336x1024, .f32⟩
  | .local _ .vmem, ⟨8, _⟩ => ⟨S2x336x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 1 74 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_22 : BitVec 32 := 1#32
  let v31 : BitVec 32 := Scalar.xori v2 c1_i32_22
  let c1_i32_27 : BitVec 32 := 1#32
  let v32 : BitVec 32 := Scalar.muli v31 c1_i32_27
  let v33 : BitVec 32 := Scalar.addi c0_i32_28 v32
  v33.toNat
def k0_dev5 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_35 : BitVec 32 := 3#32
  let v40 : BitVec 32 := Scalar.xori v2 c3_i32_35
  let c1_i32_40 : BitVec 32 := 1#32
  let v41 : BitVec 32 := Scalar.muli v40 c1_i32_40
  let v42 : BitVec 32 := Scalar.addi c0_i32_41 v41
  v42.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_48 : BitVec 32 := 4#32
  let v49 : BitVec 32 := Scalar.xori v2 c4_i32_48
  let c1_i32_52 : BitVec 32 := 1#32
  let v50 : BitVec 32 := Scalar.muli v49 c1_i32_52
  let v51 : BitVec 32 := Scalar.addi c0_i32_53 v50
  v51.toNat
def k0_dev7 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_60 : BitVec 32 := 3#32
  let v58 : BitVec 32 := Scalar.xori v2 c3_i32_60
  let c1_i32_65 : BitVec 32 := 1#32
  let v59 : BitVec 32 := Scalar.muli v58 c1_i32_65
  let v60 : BitVec 32 := Scalar.addi c0_i32_66 v59
  v60.toNat
def k0_dev8 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_73 : BitVec 32 := 4#32
  let v67 : BitVec 32 := Scalar.xori v2 c4_i32_73
  let c1_i32_78 : BitVec 32 := 1#32
  let v68 : BitVec 32 := Scalar.muli v67 c1_i32_78
  let v69 : BitVec 32 := Scalar.addi c0_i32_79 v68
  v69.toNat
def k0_dev9 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_86 : BitVec 32 := 1#32
  let v76 : BitVec 32 := Scalar.xori v2 c1_i32_86
  let c1_i32_91 : BitVec 32 := 1#32
  let v77 : BitVec 32 := Scalar.muli v76 c1_i32_91
  let v78 : BitVec 32 := Scalar.addi c0_i32_92 v77
  v78.toNat
def k0_dev10 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_99 : BitVec 32 := 4#32
  let v85 : BitVec 32 := Scalar.xori v2 c4_i32_99
  let c1_i32_104 : BitVec 32 := 1#32
  let v86 : BitVec 32 := Scalar.muli v85 c1_i32_104
  let v87 : BitVec 32 := Scalar.addi c0_i32_105 v86
  v87.toNat
def k0_dev11 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_112 : BitVec 32 := 1#32
  let v94 : BitVec 32 := Scalar.xori v2 c1_i32_112
  let c1_i32_117 : BitVec 32 := 1#32
  let v95 : BitVec 32 := Scalar.muli v94 c1_i32_117
  let v96 : BitVec 32 := Scalar.addi c0_i32_118 v95
  v96.toNat
def k0_dev12 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_125 : BitVec 32 := 3#32
  let v103 : BitVec 32 := Scalar.xori v2 c3_i32_125
  let c1_i32_130 : BitVec 32 := 1#32
  let v104 : BitVec 32 := Scalar.muli v103 c1_i32_130
  let v105 : BitVec 32 := Scalar.addi c0_i32_131 v104
  v105.toNat
def k0_off1 (d0 : Dev nD) (c0_i32_150 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v125 : BitVec 32 := Scalar.xori v2 c0_i32_150
  let c1024_i32 : BitVec 32 := 1024#32
  let v126 : BitVec 32 := Scalar.muli v125 c1024_i32
  let c0_i32_151 : BitVec 32 := 0#32
  let v127 : BitVec 32 := Scalar.addi v126 c0_i32_151
  let c0_i32_155 : BitVec 32 := 0#32
  ![v127.toNat, 0]
def k0_off2 (d0 : Dev nD) (c0_i32_167 : BitVec 32) (c352_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v140 : BitVec 32 := Scalar.xori v2 c0_i32_167
  let c1024_i32_168 : BitVec 32 := 1024#32
  let v141 : BitVec 32 := Scalar.muli v140 c1024_i32_168
  let v142 : BitVec 32 := Scalar.addi v141 c352_i32
  let c0_i32_172 : BitVec 32 := 0#32
  ![v142.toNat, 0]
def k0_dev13 (d0 : Dev nD) : Nat :=
  let c0_i32_221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_215 : BitVec 32 := 3#32
  let v173 : BitVec 32 := Scalar.xori v2 c3_i32_215
  let c1_i32_220 : BitVec 32 := 1#32
  let v174 : BitVec 32 := Scalar.muli v173 c1_i32_220
  let v175 : BitVec 32 := Scalar.addi c0_i32_221 v174
  v175.toNat
def k0_dev14 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_228 : BitVec 32 := 4#32
  let v182 : BitVec 32 := Scalar.xori v2 c4_i32_228
  let c1_i32_233 : BitVec 32 := 1#32
  let v183 : BitVec 32 := Scalar.muli v182 c1_i32_233
  let v184 : BitVec 32 := Scalar.addi c0_i32_234 v183
  v184.toNat
def k0_dev15 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_263 : BitVec 32 := 4#32
  let v201 : BitVec 32 := Scalar.xori v2 c4_i32_263
  let c1_i32_268 : BitVec 32 := 1#32
  let v202 : BitVec 32 := Scalar.muli v201 c1_i32_268
  let v203 : BitVec 32 := Scalar.addi c0_i32_269 v202
  v203.toNat
def k0_dev16 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_276 : BitVec 32 := 1#32
  let v210 : BitVec 32 := Scalar.xori v2 c1_i32_276
  let c1_i32_281 : BitVec 32 := 1#32
  let v211 : BitVec 32 := Scalar.muli v210 c1_i32_281
  let v212 : BitVec 32 := Scalar.addi c0_i32_282 v211
  v212.toNat
def k0_dev17 (d0 : Dev nD) : Nat :=
  let c0_i32_318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_312 : BitVec 32 := 1#32
  let v229 : BitVec 32 := Scalar.xori v2 c1_i32_312
  let c1_i32_317 : BitVec 32 := 1#32
  let v230 : BitVec 32 := Scalar.muli v229 c1_i32_317
  let v231 : BitVec 32 := Scalar.addi c0_i32_318 v230
  v231.toNat
def k0_dev18 (d0 : Dev nD) : Nat :=
  let c0_i32_331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_325 : BitVec 32 := 3#32
  let v238 : BitVec 32 := Scalar.xori v2 c3_i32_325
  let c1_i32_330 : BitVec 32 := 1#32
  let v239 : BitVec 32 := Scalar.muli v238 c1_i32_330
  let v240 : BitVec 32 := Scalar.addi c0_i32_331 v239
  v240.toNat
def k0_dev19 (d0 : Dev nD) : Nat :=
  let c0_i32_420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_414 : BitVec 32 := 4#32
  let v302 : BitVec 32 := Scalar.xori v2 c4_i32_414
  let c1_i32_419 : BitVec 32 := 1#32
  let v303 : BitVec 32 := Scalar.muli v302 c1_i32_419
  let v304 : BitVec 32 := Scalar.addi c0_i32_420 v303
  v304.toNat
def k0_dev20 (d0 : Dev nD) : Nat :=
  let c0_i32_455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_449 : BitVec 32 := 1#32
  let v321 : BitVec 32 := Scalar.xori v2 c1_i32_449
  let c1_i32_454 : BitVec 32 := 1#32
  let v322 : BitVec 32 := Scalar.muli v321 c1_i32_454
  let v323 : BitVec 32 := Scalar.addi c0_i32_455 v322
  v323.toNat
def k0_dev21 (d0 : Dev nD) : Nat :=
  let c0_i32_491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_485 : BitVec 32 := 3#32
  let v340 : BitVec 32 := Scalar.xori v2 c3_i32_485
  let c1_i32_490 : BitVec 32 := 1#32
  let v341 : BitVec 32 := Scalar.muli v340 c1_i32_490
  let v342 : BitVec 32 := Scalar.addi c0_i32_491 v341
  v342.toNat
def k0_dev22 (d0 : Dev nD) : Nat :=
  let c0_i32_745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_738 : BitVec 32 := 4#32
  let v509 : BitVec 32 := Scalar.xori v2 c4_i32_738
  let c1_i32_744 : BitVec 32 := 1#32
  let v510 : BitVec 32 := Scalar.muli v509 c1_i32_744
  let v511 : BitVec 32 := Scalar.addi c0_i32_745 v510
  v511.toNat
def k0_dev23 (d0 : Dev nD) : Nat :=
  let c0_i32_758 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_750 : BitVec 32 := 4#32
  let v520 : BitVec 32 := Scalar.xori v2 c4_i32_750
  let c1_i32_757 : BitVec 32 := 1#32
  let v521 : BitVec 32 := Scalar.muli v520 c1_i32_757
  let v522 : BitVec 32 := Scalar.addi c0_i32_758 v521
  v522.toNat
def k0_dev24 (d0 : Dev nD) : Nat :=
  let c0_i32_793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_785 : BitVec 32 := 1#32
  let v541 : BitVec 32 := Scalar.xori v2 c1_i32_785
  let c1_i32_792 : BitVec 32 := 1#32
  let v542 : BitVec 32 := Scalar.muli v541 c1_i32_792
  let v543 : BitVec 32 := Scalar.addi c0_i32_793 v542
  v543.toNat
def k0_dev25 (d0 : Dev nD) : Nat :=
  let c0_i32_806 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_798 : BitVec 32 := 1#32
  let v552 : BitVec 32 := Scalar.xori v2 c1_i32_798
  let c1_i32_805 : BitVec 32 := 1#32
  let v553 : BitVec 32 := Scalar.muli v552 c1_i32_805
  let v554 : BitVec 32 := Scalar.addi c0_i32_806 v553
  v554.toNat
def k0_dev26 (d0 : Dev nD) : Nat :=
  let c0_i32_842 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_834 : BitVec 32 := 3#32
  let v573 : BitVec 32 := Scalar.xori v2 c3_i32_834
  let c1_i32_841 : BitVec 32 := 1#32
  let v574 : BitVec 32 := Scalar.muli v573 c1_i32_841
  let v575 : BitVec 32 := Scalar.addi c0_i32_842 v574
  v575.toNat
def k0_dev27 (d0 : Dev nD) : Nat :=
  let c0_i32_855 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_847 : BitVec 32 := 3#32
  let v584 : BitVec 32 := Scalar.xori v2 c3_i32_847
  let c1_i32_854 : BitVec 32 := 1#32
  let v585 : BitVec 32 := Scalar.muli v584 c1_i32_854
  let v586 : BitVec 32 := Scalar.addi c0_i32_855 v585
  v586.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S352x512_0_0 : ∀ a, (![0, 0] : Fin 2 → Nat) a + S352x512.size a ≤ S1024x512.size a
  h_S352x512 : 0 < S352x512.numel
  shapeCasts_S352x512_S352x512 : S352x512.ShapeCasts S352x512
  bitsLt_bf16_f32 : FTy.bits .bf16 < FTy.bits .f32
  inb_S8x352x512_S1x352x512_0_0_0 : ∀ a, (![0, 0, 0] : Fin 3 → Nat) a + S1x352x512.size a ≤ S8x352x512.size a
  h_S1x352x512 : 0 < S1x352x512.numel
  shapeCasts_S1x352x512_S352x512 : S1x352x512.ShapeCasts S352x512
  shapeCasts_S352x512_S1x352x512 : S352x512.ShapeCasts S1x352x512
  packedbf16_S8x352x512_S1x352x512_0_0_0 : (Rect.unit (s := S8x352x512) ![0, 0, 0] S1x352x512.size inb_S8x352x512_S1x352x512_0_0_0).PackedRows (EltTy.packing .bf16)
  inb_S1024x512_S336x512_352_0 : ∀ a, (![352, 0] : Fin 2 → Nat) a + S336x512.size a ≤ S1024x512.size a
  h_S336x512 : 0 < S336x512.numel
  shapeCasts_S336x512_S336x512 : S336x512.ShapeCasts S336x512
  inb_S8x336x512_S1x336x512_0_0_0 : ∀ a, (![0, 0, 0] : Fin 3 → Nat) a + S1x336x512.size a ≤ S8x336x512.size a
  h_S1x336x512 : 0 < S1x336x512.numel
  shapeCasts_S1x336x512_S336x512 : S1x336x512.ShapeCasts S336x512
  shapeCasts_S336x512_S1x336x512 : S336x512.ShapeCasts S1x336x512
  packedbf16_S8x336x512_S1x336x512_0_0_0 : (Rect.unit (s := S8x336x512) ![0, 0, 0] S1x336x512.size inb_S8x336x512_S1x336x512_0_0_0).PackedRows (EltTy.packing .bf16)
  inb_S1024x512_S336x512_688_0 : ∀ a, (![688, 0] : Fin 2 → Nat) a + S336x512.size a ≤ S1024x512.size a
  hamt_3 : (3#32 : BitVec 32).msb = false
  inb_S3x8_S1x1_0_0 : ∀ a, (![0, 0] : Fin 2 → Nat) a + S1x1.size a ≤ S3x8.size a
  squeezes_S1x1_S_ : S1x1.Squeezes S_
  inb_S8x352x512_S1x352x512_1_0_0 : ∀ a, (![1, 0, 0] : Fin 3 → Nat) a + S1x352x512.size a ≤ S8x352x512.size a
  wordsbf16_S8x352x512_S1x352x512_0_0_0 : (Rect.unit (s := S8x352x512) ![0, 0, 0] S1x352x512.size inb_S8x352x512_S1x352x512_0_0_0).WholeWords (EltTy.packing .bf16)
  wordsbf16_S8x352x512_S1x352x512_1_0_0 : (Rect.unit (s := S8x352x512) ![1, 0, 0] S1x352x512.size inb_S8x352x512_S1x352x512_1_0_0).WholeWords (EltTy.packing .bf16)
  inb_S3x8_S1x1_1_0 : ∀ a, (![1, 0] : Fin 2 → Nat) a + S1x1.size a ≤ S3x8.size a
  inb_S8x336x512_S1x336x512_1_0_0 : ∀ a, (![1, 0, 0] : Fin 3 → Nat) a + S1x336x512.size a ≤ S8x336x512.size a
  wordsbf16_S8x336x512_S1x336x512_0_0_0 : (Rect.unit (s := S8x336x512) ![0, 0, 0] S1x336x512.size inb_S8x336x512_S1x336x512_0_0_0).WholeWords (EltTy.packing .bf16)
  wordsbf16_S8x336x512_S1x336x512_1_0_0 : (Rect.unit (s := S8x336x512) ![1, 0, 0] S1x336x512.size inb_S8x336x512_S1x336x512_1_0_0).WholeWords (EltTy.packing .bf16)
  inb_S3x8_S1x1_2_0 : ∀ a, (![2, 0] : Fin 2 → Nat) a + S1x1.size a ≤ S3x8.size a
  inb_S3x8_S1x1_0_1 : ∀ a, (![0, 1] : Fin 2 → Nat) a + S1x1.size a ≤ S3x8.size a
  inb_S8x352x512_S1x352x512_2_0_0 : ∀ a, (![2, 0, 0] : Fin 3 → Nat) a + S1x352x512.size a ≤ S8x352x512.size a
  wordsbf16_S8x352x512_S1x352x512_2_0_0 : (Rect.unit (s := S8x352x512) ![2, 0, 0] S1x352x512.size inb_S8x352x512_S1x352x512_2_0_0).WholeWords (EltTy.packing .bf16)
  inb_S3x8_S1x1_1_1 : ∀ a, (![1, 1] : Fin 2 → Nat) a + S1x1.size a ≤ S3x8.size a
  inb_S8x336x512_S1x336x512_2_0_0 : ∀ a, (![2, 0, 0] : Fin 3 → Nat) a + S1x336x512.size a ≤ S8x336x512.size a
  wordsbf16_S8x336x512_S1x336x512_2_0_0 : (Rect.unit (s := S8x336x512) ![2, 0, 0] S1x336x512.size inb_S8x336x512_S1x336x512_2_0_0).WholeWords (EltTy.packing .bf16)
  inb_S3x8_S1x1_2_1 : ∀ a, (![2, 1] : Fin 2 → Nat) a + S1x1.size a ≤ S3x8.size a
  inb_S3x8_S1x1_0_3 : ∀ a, (![0, 3] : Fin 2 → Nat) a + S1x1.size a ≤ S3x8.size a
  inb_S8x352x512_S1x352x512_4_0_0 : ∀ a, (![4, 0, 0] : Fin 3 → Nat) a + S1x352x512.size a ≤ S8x352x512.size a
  wordsbf16_S8x352x512_S1x352x512_4_0_0 : (Rect.unit (s := S8x352x512) ![4, 0, 0] S1x352x512.size inb_S8x352x512_S1x352x512_4_0_0).WholeWords (EltTy.packing .bf16)
  inb_S3x8_S1x1_1_3 : ∀ a, (![1, 3] : Fin 2 → Nat) a + S1x1.size a ≤ S3x8.size a
  inb_S8x336x512_S1x336x512_4_0_0 : ∀ a, (![4, 0, 0] : Fin 3 → Nat) a + S1x336x512.size a ≤ S8x336x512.size a
  wordsbf16_S8x336x512_S1x336x512_4_0_0 : (Rect.unit (s := S8x336x512) ![4, 0, 0] S1x336x512.size inb_S8x336x512_S1x336x512_4_0_0).WholeWords (EltTy.packing .bf16)
  inb_S3x8_S1x1_2_3 : ∀ a, (![2, 3] : Fin 2 → Nat) a + S1x1.size a ≤ S3x8.size a
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  inb_S2x352x1024_S1x352x1024_0_0_0 : ∀ a, (![0, 0, 0] : Fin 3 → Nat) a + S1x352x1024.size a ≤ S2x352x1024.size a
  h_S1x352x1024 : 0 < S1x352x1024.numel
  shapeCasts_S1x352x1024_S352x1024 : S1x352x1024.ShapeCasts S352x1024
  shapeCasts_S352x1024_S1x352x1024 : S352x1024.ShapeCasts S1x352x1024
  squeezes_S1x352x1024_S352x1024 : S1x352x1024.Squeezes S352x1024
  inb_S2x336x1024_S1x336x1024_0_0_0 : ∀ a, (![0, 0, 0] : Fin 3 → Nat) a + S1x336x1024.size a ≤ S2x336x1024.size a
  h_S1x336x1024 : 0 < S1x336x1024.numel
  shapeCasts_S1x336x1024_S336x1024 : S1x336x1024.ShapeCasts S336x1024
  shapeCasts_S336x1024_S1x336x1024 : S336x1024.ShapeCasts S1x336x1024
  squeezes_S1x336x1024_S336x1024 : S1x336x1024.Squeezes S336x1024
  inb_S3x8_S1x1_0_2 : ∀ a, (![0, 2] : Fin 2 → Nat) a + S1x1.size a ≤ S3x8.size a
  inb_S8x352x512_S1x352x512_3_0_0 : ∀ a, (![3, 0, 0] : Fin 3 → Nat) a + S1x352x512.size a ≤ S8x352x512.size a
  wordsbf16_S8x352x512_S1x352x512_3_0_0 : (Rect.unit (s := S8x352x512) ![3, 0, 0] S1x352x512.size inb_S8x352x512_S1x352x512_3_0_0).WholeWords (EltTy.packing .bf16)
  inb_S3x8_S1x1_0_4 : ∀ a, (![0, 4] : Fin 2 → Nat) a + S1x1.size a ≤ S3x8.size a
  inb_S8x352x512_S1x352x512_5_0_0 : ∀ a, (![5, 0, 0] : Fin 3 → Nat) a + S1x352x512.size a ≤ S8x352x512.size a
  wordsbf16_S8x352x512_S1x352x512_5_0_0 : (Rect.unit (s := S8x352x512) ![5, 0, 0] S1x352x512.size inb_S8x352x512_S1x352x512_5_0_0).WholeWords (EltTy.packing .bf16)
  inb_S3x8_S1x1_1_2 : ∀ a, (![1, 2] : Fin 2 → Nat) a + S1x1.size a ≤ S3x8.size a
  inb_S8x336x512_S1x336x512_3_0_0 : ∀ a, (![3, 0, 0] : Fin 3 → Nat) a + S1x336x512.size a ≤ S8x336x512.size a
  wordsbf16_S8x336x512_S1x336x512_3_0_0 : (Rect.unit (s := S8x336x512) ![3, 0, 0] S1x336x512.size inb_S8x336x512_S1x336x512_3_0_0).WholeWords (EltTy.packing .bf16)
  inb_S3x8_S1x1_1_4 : ∀ a, (![1, 4] : Fin 2 → Nat) a + S1x1.size a ≤ S3x8.size a
  inb_S8x336x512_S1x336x512_5_0_0 : ∀ a, (![5, 0, 0] : Fin 3 → Nat) a + S1x336x512.size a ≤ S8x336x512.size a
  wordsbf16_S8x336x512_S1x336x512_5_0_0 : (Rect.unit (s := S8x336x512) ![5, 0, 0] S1x336x512.size inb_S8x336x512_S1x336x512_5_0_0).WholeWords (EltTy.packing .bf16)
  inb_S3x8_S1x1_2_2 : ∀ a, (![2, 2] : Fin 2 → Nat) a + S1x1.size a ≤ S3x8.size a
  inb_S3x8_S1x1_2_4 : ∀ a, (![2, 4] : Fin 2 → Nat) a + S1x1.size a ≤ S3x8.size a
  inb_S2x352x1024_S1x352x1024_1_0_0 : ∀ a, (![1, 0, 0] : Fin 3 → Nat) a + S1x352x1024.size a ≤ S2x352x1024.size a
  inb_S2x336x1024_S1x336x1024_1_0_0 : ∀ a, (![1, 0, 0] : Fin 3 → Nat) a + S1x336x1024.size a ≤ S2x336x1024.size a
  inb_S3x8_S1x1_0_5 : ∀ a, (![0, 5] : Fin 2 → Nat) a + S1x1.size a ≤ S3x8.size a
  inb_S8x352x512_S1x352x512_6_0_0 : ∀ a, (![6, 0, 0] : Fin 3 → Nat) a + S1x352x512.size a ≤ S8x352x512.size a
  wordsbf16_S8x352x512_S1x352x512_6_0_0 : (Rect.unit (s := S8x352x512) ![6, 0, 0] S1x352x512.size inb_S8x352x512_S1x352x512_6_0_0).WholeWords (EltTy.packing .bf16)
  inb_S3x8_S1x1_1_5 : ∀ a, (![1, 5] : Fin 2 → Nat) a + S1x1.size a ≤ S3x8.size a
  inb_S8x336x512_S1x336x512_6_0_0 : ∀ a, (![6, 0, 0] : Fin 3 → Nat) a + S1x336x512.size a ≤ S8x336x512.size a
  wordsbf16_S8x336x512_S1x336x512_6_0_0 : (Rect.unit (s := S8x336x512) ![6, 0, 0] S1x336x512.size inb_S8x336x512_S1x336x512_6_0_0).WholeWords (EltTy.packing .bf16)
  inb_S3x8_S1x1_2_5 : ∀ a, (![2, 5] : Fin 2 → Nat) a + S1x1.size a ≤ S3x8.size a
  inb_S8192x1024_S352x1024_0_0 : ∀ a, (![0, 0] : Fin 2 → Nat) a + S352x1024.size a ≤ S8192x1024.size a
  inb_S8192x1024_S336x1024_0_0 : ∀ a, (![0, 0] : Fin 2 → Nat) a + S336x1024.size a ≤ S8192x1024.size a
  inb_S3x8_S1x1_0_6 : ∀ a, (![0, 6] : Fin 2 → Nat) a + S1x1.size a ≤ S3x8.size a
  inb_S8x352x512_S1x176x512_7_0_0 : ∀ a, (![7, 0, 0] : Fin 3 → Nat) a + S1x176x512.size a ≤ S8x352x512.size a
  squeezes_S1x176x512_S176x512 : S1x176x512.Squeezes S176x512
  inb_S8x352x512_S1x176x512_3_0_0 : ∀ a, (![3, 0, 0] : Fin 3 → Nat) a + S1x176x512.size a ≤ S8x352x512.size a
  wordsbf16_S8x352x512_S1x176x512_3_0_0 : (Rect.unit (s := S8x352x512) ![3, 0, 0] S1x176x512.size inb_S8x352x512_S1x176x512_3_0_0).WholeWords (EltTy.packing .bf16)
  wordsbf16_S8x352x512_S1x176x512_7_0_0 : (Rect.unit (s := S8x352x512) ![7, 0, 0] S1x176x512.size inb_S8x352x512_S1x176x512_7_0_0).WholeWords (EltTy.packing .bf16)
  inb_S3x8_S1x1_0_7 : ∀ a, (![0, 7] : Fin 2 → Nat) a + S1x1.size a ≤ S3x8.size a
  inb_S8x352x512_S1x176x512_7_176_0 : ∀ a, (![7, 176, 0] : Fin 3 → Nat) a + S1x176x512.size a ≤ S8x352x512.size a
  inb_S8x352x512_S1x176x512_3_176_0 : ∀ a, (![3, 176, 0] : Fin 3 → Nat) a + S1x176x512.size a ≤ S8x352x512.size a
  wordsbf16_S8x352x512_S1x176x512_3_176_0 : (Rect.unit (s := S8x352x512) ![3, 176, 0] S1x176x512.size inb_S8x352x512_S1x176x512_3_176_0).WholeWords (EltTy.packing .bf16)
  wordsbf16_S8x352x512_S1x176x512_7_176_0 : (Rect.unit (s := S8x352x512) ![7, 176, 0] S1x176x512.size inb_S8x352x512_S1x176x512_7_176_0).WholeWords (EltTy.packing .bf16)
  inb_S3x8_S1x1_1_6 : ∀ a, (![1, 6] : Fin 2 → Nat) a + S1x1.size a ≤ S3x8.size a
  inb_S8x336x512_S1x176x512_7_0_0 : ∀ a, (![7, 0, 0] : Fin 3 → Nat) a + S1x176x512.size a ≤ S8x336x512.size a
  inb_S8x336x512_S1x176x512_3_0_0 : ∀ a, (![3, 0, 0] : Fin 3 → Nat) a + S1x176x512.size a ≤ S8x336x512.size a
  wordsbf16_S8x336x512_S1x176x512_3_0_0 : (Rect.unit (s := S8x336x512) ![3, 0, 0] S1x176x512.size inb_S8x336x512_S1x176x512_3_0_0).WholeWords (EltTy.packing .bf16)
  wordsbf16_S8x336x512_S1x176x512_7_0_0 : (Rect.unit (s := S8x336x512) ![7, 0, 0] S1x176x512.size inb_S8x336x512_S1x176x512_7_0_0).WholeWords (EltTy.packing .bf16)
  inb_S3x8_S1x1_1_7 : ∀ a, (![1, 7] : Fin 2 → Nat) a + S1x1.size a ≤ S3x8.size a
  inb_S8x336x512_S1x160x512_7_176_0 : ∀ a, (![7, 176, 0] : Fin 3 → Nat) a + S1x160x512.size a ≤ S8x336x512.size a
  squeezes_S1x160x512_S160x512 : S1x160x512.Squeezes S160x512
  inb_S8x336x512_S1x160x512_3_176_0 : ∀ a, (![3, 176, 0] : Fin 3 → Nat) a + S1x160x512.size a ≤ S8x336x512.size a
  wordsbf16_S8x336x512_S1x160x512_3_176_0 : (Rect.unit (s := S8x336x512) ![3, 176, 0] S1x160x512.size inb_S8x336x512_S1x160x512_3_176_0).WholeWords (EltTy.packing .bf16)
  wordsbf16_S8x336x512_S1x160x512_7_176_0 : (Rect.unit (s := S8x336x512) ![7, 176, 0] S1x160x512.size inb_S8x336x512_S1x160x512_7_176_0).WholeWords (EltTy.packing .bf16)
  inb_S3x8_S1x1_2_6 : ∀ a, (![2, 6] : Fin 2 → Nat) a + S1x1.size a ≤ S3x8.size a
  inb_S3x8_S1x1_2_7 : ∀ a, (![2, 7] : Fin 2 → Nat) a + S1x1.size a ≤ S3x8.size a
  h_S1x176x512 : 0 < S1x176x512.numel
  shapeCasts_S1x176x512_S176x512 : S1x176x512.ShapeCasts S176x512
  inb_S2x352x1024_S1x176x1024_1_0_0 : ∀ a, (![1, 0, 0] : Fin 3 → Nat) a + S1x176x1024.size a ≤ S2x352x1024.size a
  h_S1x176x1024 : 0 < S1x176x1024.numel
  shapeCasts_S1x176x1024_S176x1024 : S1x176x1024.ShapeCasts S176x1024
  shapeCasts_S176x1024_S1x176x1024 : S176x1024.ShapeCasts S1x176x1024
  inb_S2x336x1024_S1x176x1024_1_0_0 : ∀ a, (![1, 0, 0] : Fin 3 → Nat) a + S1x176x1024.size a ≤ S2x336x1024.size a
  inb_S2x352x1024_S1x176x1024_1_176_0 : ∀ a, (![1, 176, 0] : Fin 3 → Nat) a + S1x176x1024.size a ≤ S2x352x1024.size a
  h_S1x160x512 : 0 < S1x160x512.numel
  shapeCasts_S1x160x512_S160x512 : S1x160x512.ShapeCasts S160x512
  inb_S2x336x1024_S1x160x1024_1_176_0 : ∀ a, (![1, 176, 0] : Fin 3 → Nat) a + S1x160x1024.size a ≤ S2x336x1024.size a
  h_S1x160x1024 : 0 < S1x160x1024.numel
  shapeCasts_S1x160x1024_S160x1024 : S1x160x1024.ShapeCasts S160x1024
  shapeCasts_S160x1024_S1x160x1024 : S160x1024.ShapeCasts S1x160x1024
  dot_S352x512_S512x1024_S352x1024_1_0_0_1_n_n_wf : DotDims.WF S352x512 S512x1024 S352x1024 [1] [0] [0] [1] [] []
  dot_S336x512_S512x1024_S336x1024_1_0_0_1_n_n_wf : DotDims.WF S336x512 S512x1024 S336x1024 [1] [0] [0] [1] [] []
  dot_S176x512_S512x1024_S176x1024_1_0_0_1_n_n_wf : DotDims.WF S176x512 S512x1024 S176x1024 [1] [0] [0] [1] [] []
  dot_S160x512_S512x1024_S160x1024_1_0_0_1_n_n_wf : DotDims.WF S160x512 S512x1024 S160x1024 [1] [0] [0] [1] [] []
  hcc0_scratch7 : 2 + S3x8.numel ≤ 74
  hcc0_scratch8 : 26 + S3x8.numel ≤ 74
  hcc0_scratch9 : 50 + S3x8.numel ≤ 74
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_off1_inb : ∀ d0 : Dev nD, ∀ (r : Fin 8), ∀ a, (k0_off1 d0 (BitVec.ofNat 32 r.val)) a + S352x1024.size a ≤ S8192x1024.size a
  k0_off2_inb : ∀ d0 : Dev nD, ∀ (r₁ : Fin 8) (r₂ : Fin 2), ∀ a, (k0_off2 d0 (BitVec.ofNat 32 r₁.val) (BitVec.ofNat 32 (352 + 336 * r₂.val))) a + S336x1024.size a ≤ S8192x1024.size a
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  hstage0_0 : ∀ j, (stage0_0 j).IsWhole
  hstage0_1 : ∀ j, (stage0_1 j).IsWhole

variable [Facts₀]

abbrev cc0_scratch7 : DmaSems sig S3x8 := SemArray.consecutive 2 S3x8 hcc0_scratch7
abbrev cc0_scratch8 : DmaSems sig S3x8 := SemArray.consecutive 26 S3x8 hcc0_scratch8
abbrev cc0_scratch9 : DmaSems sig S3x8 := SemArray.consecutive 50 S3x8 hcc0_scratch9
def dot_S352x512_S512x1024_S352x1024_1_0_0_1_n_n : DotDims S352x512 S512x1024 S352x1024 where
  lhsContracting := [1]
  rhsContracting := [0]
  lhsNonContracting := [0]
  rhsNonContracting := [1]
  lhsBatch := []
  rhsBatch := []
  wf := dot_S352x512_S512x1024_S352x1024_1_0_0_1_n_n_wf
def dot_S336x512_S512x1024_S336x1024_1_0_0_1_n_n : DotDims S336x512 S512x1024 S336x1024 where
  lhsContracting := [1]
  rhsContracting := [0]
  lhsNonContracting := [0]
  rhsNonContracting := [1]
  lhsBatch := []
  rhsBatch := []
  wf := dot_S336x512_S512x1024_S336x1024_1_0_0_1_n_n_wf
def dot_S176x512_S512x1024_S176x1024_1_0_0_1_n_n : DotDims S176x512 S512x1024 S176x1024 where
  lhsContracting := [1]
  rhsContracting := [0]
  lhsNonContracting := [0]
  rhsNonContracting := [1]
  lhsBatch := []
  rhsBatch := []
  wf := dot_S176x512_S512x1024_S176x1024_1_0_0_1_n_n_wf
def dot_S160x512_S512x1024_S160x1024_1_0_0_1_n_n : DotDims S160x512 S512x1024 S160x1024 where
  lhsContracting := [1]
  rhsContracting := [0]
  lhsNonContracting := [0]
  rhsNonContracting := [1]
  lhsBatch := []
  rhsBatch := []
  wf := dot_S160x512_S512x1024_S160x1024_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x512_S512x1024_S8192x1024_1_0_0_1_n_n_wf : DotDims.WF S8192x512 S512x1024 S8192x1024 [1] [0] [0] [1] [] []

variable [Facts₀]

def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf

class Facts : Prop extends Facts₀ where

variable [Facts]
-- ==== Proof.Cells.lean ====
import proofs.«900891_g7700000000000892_dist_matmul_m_i_outrep_m1024_n1024_k512_v7x_i8_f32_1_alg».proof.KernelIdeal
import proofs.«900891_g7700000000000892_dist_matmul_m_i_outrep_m1024_n1024_k512_v7x_i8_f32_1_alg».proof.Proof.Gen.KernelIdeal

/-!
The mesh arithmetic of the gather: eight devices indexed by three bits, a partner being the device whose index
differs by a fixed mask (`xr c k`, bitwise exclusive or), and the table `mask` that says, for each of the three
row groups, which device's rows sit in slot `j` of a device's gather buffer: slot `j` of device `c` holds the
rows of device `xr c (mask g j)`. The kernel's printed device chains and row offsets are these, decided over
the mesh.
-/

noncomputable section

namespace Cert.KernelIdeal.DM

open Idealize.ShloMosaic Idealize.ShloMosaic.TcCoe
open Cert.KernelIdeal Cert.KernelIdeal.Gen

/-- The device whose index differs from `c`'s by the mask `k`. -/
def xr (c : Dev nD) (k : Fin 8) : Dev nD := ⟨c.val ^^^ k.val, by revert c k; decide⟩

theorem xr_xr : ∀ (c : Dev nD) (k : Fin 8), xr (xr c k) k = c := by decide
theorem xr_zero : ∀ c : Dev nD, xr c 0 = c := by decide
theorem xr_inj : ∀ (c : Dev nD) (k k' : Fin 8), xr c k = xr c k' → k = k' := by decide

/-- The exchange direction of round `r` in row group `g`: each group walks the three directions 1, 3, 4 in its own
    rotation. -/
def ord : Fin 3 → Fin 3 → Fin 8 := ![![1, 3, 4], ![3, 4, 1], ![4, 1, 3]]

/-- Slot `j` of row group `g`'s gather buffer on device `c` holds the rows of device `xr c (mask g j)`. -/
def mask : Fin 3 → Fin 8 → Fin 8 := ![![0, 1, 3, 2, 4, 5, 7, 6], ![0, 3, 4, 7, 1, 2, 5, 6], ![0, 4, 1, 5, 3, 7, 2, 6]]

theorem mask_inj : ∀ (g : Fin 3) (j j' : Fin 8), mask g j = mask g j' → j = j' := by decide
theorem mask_surj : ∀ (g : Fin 3) (k : Fin 8), ∃ j, mask g j = k := by decide

/-! The printed device chains. -/
theorem dev1_eq : ∀ c : Dev nD, (⟨k0_dev1 c, k0_dev1_lt c⟩ : Dev nD) = xr c 1 := by decide +kernel
theorem dev2_eq : ∀ c : Dev nD, (⟨k0_dev2 c, k0_dev2_lt c⟩ : Dev nD) = xr c 3 := by decide +kernel
theorem dev3_eq : ∀ c : Dev nD, (⟨k0_dev3 c, k0_dev3_lt c⟩ : Dev nD) = xr c 4 := by decide +kernel
theorem dev4_eq : ∀ c : Dev nD, (⟨k0_dev4 c, k0_dev4_lt c⟩ : Dev nD) = xr c 1 := by decide +kernel
theorem dev5_eq : ∀ c : Dev nD, (⟨k0_dev5 c, k0_dev5_lt c⟩ : Dev nD) = xr c 3 := by decide +kernel
theorem dev6_eq : ∀ c : Dev nD, (⟨k0_dev6 c, k0_dev6_lt c⟩ : Dev nD) = xr c 4 := by decide +kernel
theorem dev7_eq : ∀ c : Dev nD, (⟨k0_dev7 c, k0_dev7_lt c⟩ : Dev nD) = xr c 3 := by decide +kernel
theorem dev8_eq : ∀ c : Dev nD, (⟨k0_dev8 c, k0_dev8_lt c⟩ : Dev nD) = xr c 4 := by decide +kernel
theorem dev9_eq : ∀ c : Dev nD, (⟨k0_dev9 c, k0_dev9_lt c⟩ : Dev nD) = xr c 1 := by decide +kernel
theorem dev10_eq : ∀ c : Dev nD, (⟨k0_dev10 c, k0_dev10_lt c⟩ : Dev nD) = xr c 4 := by decide +kernel
theorem dev11_eq : ∀ c : Dev nD, (⟨k0_dev11 c, k0_dev11_lt c⟩ : Dev nD) = xr c 1 := by decide +kernel
theorem dev12_eq : ∀ c : Dev nD, (⟨k0_dev12 c, k0_dev12_lt c⟩ : Dev nD) = xr c 3 := by decide +kernel
theorem dev13_eq : ∀ c : Dev nD, (⟨k0_dev13 c, k0_dev13_lt c⟩ : Dev nD) = xr c 3 := by decide +kernel
theorem dev14_eq : ∀ c : Dev nD, (⟨k0_dev14 c, k0_dev14_lt c⟩ : Dev nD) = xr c 4 := by decide +kernel
theorem dev15_eq : ∀ c : Dev nD, (⟨k0_dev15 c, k0_dev15_lt c⟩ : Dev nD) = xr c 4 := by decide +kernel
theorem dev16_eq : ∀ c : Dev nD, (⟨k0_dev16 c, k0_dev16_lt c⟩ : Dev nD) = xr c 1 := by decide +kernel
theorem dev17_eq : ∀ c : Dev nD, (⟨k0_dev17 c, k0_dev17_lt c⟩ : Dev nD) = xr c 1 := by decide +kernel
theorem dev18_eq : ∀ c : Dev nD, (⟨k0_dev18 c, k0_dev18_lt c⟩ : Dev nD) = xr c 3 := by decide +kernel
theorem dev19_eq : ∀ c : Dev nD, (⟨k0_dev19 c, k0_dev19_lt c⟩ : Dev nD) = xr c 4 := by decide +kernel
theorem dev20_eq : ∀ c : Dev nD, (⟨k0_dev20 c, k0_dev20_lt c⟩ : Dev nD) = xr c 1 := by decide +kernel
theorem dev21_eq : ∀ c : Dev nD, (⟨k0_dev21 c, k0_dev21_lt c⟩ : Dev nD) = xr c 3 := by decide +kernel
theorem dev22_eq : ∀ c : Dev nD, (⟨k0_dev22 c, k0_dev22_lt c⟩ : Dev nD) = xr c 4 := by decide +kernel
theorem dev23_eq : ∀ c : Dev nD, (⟨k0_dev23 c, k0_dev23_lt c⟩ : Dev nD) = xr c 4 := by decide +kernel
theorem dev24_eq : ∀ c : Dev nD, (⟨k0_dev24 c, k0_dev24_lt c⟩ : Dev nD) = xr c 1 := by decide +kernel
theorem dev25_eq : ∀ c : Dev nD, (⟨k0_dev25 c, k0_dev25_lt c⟩ : Dev nD) = xr c 1 := by decide +kernel
theorem dev26_eq : ∀ c : Dev nD, (⟨k0_dev26 c, k0_dev26_lt c⟩ : Dev nD) = xr c 3 := by decide +kernel
theorem dev27_eq : ∀ c : Dev nD, (⟨k0_dev27 c, k0_dev27_lt c⟩ : Dev nD) = xr c 3 := by decide +kernel

/-! The printed row offsets of the result's pieces. -/
theorem off1_eq : ∀ (c : Dev nD) (k : Fin 8), k0_off1 c (BitVec.ofNat 32 k.val) = ![(xr c k).val * 1024, 0] := by decide +kernel
theorem off2_eq : ∀ (c : Dev nD) (k : Fin 8) (r : Fin 2), k0_off2 c (BitVec.ofNat 32 k.val) (BitVec.ofNat 32 (352 + 336 * r.val)) = ![(xr c k).val * 1024 + (352 + 336 * r.val), 0] := by decide +kernel

end Cert.KernelIdeal.DM

end
-- ==== Proof.Sched.lean ====
import proofs.«900891_g7700000000000892_dist_matmul_m_i_outrep_m1024_n1024_k512_v7x_i8_f32_1_alg».proof.Proof.Cells
import proofs.«900891_g7700000000000892_dist_matmul_m_i_outrep_m1024_n1024_k512_v7x_i8_f32_1_alg».proof.Proof.Gen.KernelIdeal.Skeleton
import proofs.«900891_g7700000000000892_dist_matmul_m_i_outrep_m1024_n1024_k512_v7x_i8_f32_1_alg».proof.Proof.Gen.KernelIdeal.Launch
import proofs.«900891_g7700000000000892_dist_matmul_m_i_outrep_m1024_n1024_k512_v7x_i8_f32_1_alg».proof.Proof.Gen.KernelIdeal.Points
import Idealize.ShloMosaic.Lib.Pipeline.Launch
import Idealize.ShloMosaic.Lib.Pipeline.Kit
import Idealize.ShloMosaic.Lib.Tactic

/-!
The exchange protocol of the gather as a schedule of rounds.

Every device owns 73 semaphore cells: the entry barrier, and for each of the three row groups eight send cells,
eight receive cells and eight copy cells. Each cell lives one round. The barrier's round has three unit duties, one
per neighbour (the devices at masks 1, 3 and 4); a neighbour's signal hands over the slots of ITS gather buffers
that this device will later fill, so that no transfer can land before its target has entered the kernel. A receive
cell's one duty is paid by the partner's transfer and hands back the filled slot, which then holds the partner's
source slot. A send cell's duty returns the share of the source slot that the transfer was reading. A copy cell's
duty is paid by the device's own copy of a finished product block into its rows of the result.

What a slot holds is named from the start: slot `k` of group `g` on device `c` holds the narrowed rows of group `g`
of the block of the left factor owned by device `xr c (mask g k)`.
-/

noncomputable section

namespace Cert.KernelIdeal.DM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duty names `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Buffers -/

abbrev aM : Memref sig .tc .vmem S1024x512 .f32 := Memref.whole cc0_stg0_0
abbrev bM : Memref sig .tc .vmem S512x1024 .f32 := Memref.whole cc0_stg1_0
abbrev oM : Memref sig .tc .hbm S8192x1024 .f32 := Memref.whole main_v1
abbrev b16M : Memref sig .tc .vmem S512x1024 .bf16 := Memref.whole cc0_scratch0
abbrev g0M : Memref sig .tc .vmem S8x352x512 .bf16 := Memref.whole cc0_scratch1
abbrev g1M : Memref sig .tc .vmem S8x336x512 .bf16 := Memref.whole cc0_scratch2
abbrev g2M : Memref sig .tc .vmem S8x336x512 .bf16 := Memref.whole cc0_scratch3
abbrev s0M : Memref sig .tc .vmem S2x352x1024 .f32 := Memref.whole cc0_scratch4
abbrev s1M : Memref sig .tc .vmem S2x336x1024 .f32 := Memref.whole cc0_scratch5
abbrev s2M : Memref sig .tc .vmem S2x336x1024 .f32 := Memref.whole cc0_scratch6

/-- Slot `k` of the first group's gather buffer, and of the other two groups'. -/
def gs0 (k : Fin 8) : Memref sig .tc .vmem S1x352x512 .bf16 :=
  g0M.slice (Rect.unit (s := S8x352x512) ![k.val, 0, 0] S1x352x512.size (by revert k; decide)) (fun _ => rfl)
def gs1 (k : Fin 8) : Memref sig .tc .vmem S1x336x512 .bf16 :=
  g1M.slice (Rect.unit (s := S8x336x512) ![k.val, 0, 0] S1x336x512.size (by revert k; decide)) (fun _ => rfl)
def gs2 (k : Fin 8) : Memref sig .tc .vmem S1x336x512 .bf16 :=
  g2M.slice (Rect.unit (s := S8x336x512) ![k.val, 0, 0] S1x336x512.size (by revert k; decide)) (fun _ => rfl)

/-- The two parts of a slot that the last exchange moves separately: rows below 176, and the rest. -/
def ga0 (k : Fin 8) : Memref sig .tc .vmem S1x176x512 .bf16 :=
  g0M.slice (Rect.unit (s := S8x352x512) ![k.val, 0, 0] S1x176x512.size (by revert k; decide)) (fun _ => rfl)
def gb0 (k : Fin 8) : Memref sig .tc .vmem S1x176x512 .bf16 :=
  g0M.slice (Rect.unit (s := S8x352x512) ![k.val, 176, 0] S1x176x512.size (by revert k; decide)) (fun _ => rfl)
def ga1 (k : Fin 8) : Memref sig .tc .vmem S1x176x512 .bf16 :=
  g1M.slice (Rect.unit (s := S8x336x512) ![k.val, 0, 0] S1x176x512.size (by revert k; decide)) (fun _ => rfl)
def gb1 (k : Fin 8) : Memref sig .tc .vmem S1x160x512 .bf16 :=
  g1M.slice (Rect.unit (s := S8x336x512) ![k.val, 176, 0] S1x160x512.size (by revert k; decide)) (fun _ => rfl)
def ga2 (k : Fin 8) : Memref sig .tc .vmem S1x176x512 .bf16 :=
  g2M.slice (Rect.unit (s := S8x336x512) ![k.val, 0, 0] S1x176x512.size (by revert k; decide)) (fun _ => rfl)
def gb2 (k : Fin 8) : Memref sig .tc .vmem S1x160x512 .bf16 :=
  g2M.slice (Rect.unit (s := S8x336x512) ![k.val, 176, 0] S1x160x512.size (by revert k; decide)) (fun _ => rfl)

/-! ## Cells -/

/-- The entry barrier's semaphore. -/
abbrev barS : Sem sig := (SemArray.scalar (sig.barrier 0 rfl) : Sems sig S_).sem

/-- The send, receive and copy semaphore of group `g` at position `k`: the three arrays lie one after the other. -/
def sendS (g : Fin 3) (k : Fin 8) : DmaSem sig := ⟨2 + 8 * g.val + k.val, by revert g k; decide⟩
def recvS (g : Fin 3) (k : Fin 8) : DmaSem sig := ⟨26 + 8 * g.val + k.val, by revert g k; decide⟩
def copyS (g : Fin 3) (k : Fin 8) : DmaSem sig := ⟨50 + 8 * g.val + k.val, by revert g k; decide⟩

abbrev barCell (c : Dev nD) : GSem nD τ sig := ((c : Thread nD τ), .reg barS)
abbrev sendCell (c : Dev nD) (g : Fin 3) (k : Fin 8) : GSem nD τ sig := ((c : Thread nD τ), .dma (sendS g k))
abbrev recvCell (c : Dev nD) (g : Fin 3) (k : Fin 8) : GSem nD τ sig := ((c : Thread nD τ), .dma (recvS g k))
abbrev copyCell (c : Dev nD) (g : Fin 3) (k : Fin 8) : GSem nD τ sig := ((c : Thread nD τ), .dma (copyS g k))

/-- The three neighbours of the entry handshake, in the order they are signalled. -/
def dir : Fin 3 → Fin 8 := ![1, 3, 4]

/-- Exchange step `st` of a group: the round of the doubling it belongs to, its source slot and its target slot. The
    last two steps are the two parts of the move of slot 3 to slot 7. -/
def rnd : Fin 8 → Fin 3 := ![0, 1, 1, 2, 2, 2, 2, 2]
def srcSlot : Fin 8 → Fin 8 := ![0, 0, 1, 0, 1, 2, 3, 3]
def dstSlot : Fin 8 → Fin 8 := ![1, 2, 3, 4, 5, 6, 7, 7]

/-- The partner of device `c` in step `st` of group `g`. -/
def partner (c : Dev nD) (g : Fin 3) (st : Fin 8) : Dev nD := xr c (ord g (rnd st))

theorem partner_partner : ∀ (c : Dev nD) (g : Fin 3) (st : Fin 8), partner (partner c g st) g st = c := by decide
/-- A transfer keeps the origin: what lands in the partner's target slot is owned by the device the source slot's
    rows came from. -/
theorem origin_step : ∀ (c : Dev nD) (g : Fin 3) (st : Fin 8),
    xr (partner c g st) (mask g (dstSlot st)) = xr c (mask g (srcSlot st)) := by decide

/-! ## Named values -/

/-- A device's block of the left factor and its copy of the right factor, as the pipeline stages them. -/
def xstg (c : Dev nD) : (cc0_stg0_0 : Ref sig .tc).ty.Contents (Elt F) :=
  (win0_0.blk t0_0).view.read (Elt F) (m ((c : Thread nD τ).loc main_arg0))
def ystg (c : Dev nD) : (cc0_stg1_0 : Ref sig .tc).ty.Contents (Elt F) :=
  (win0_1.blk t0_0).view.read (Elt F) (m ((c : Thread nD τ).loc main_arg1))

/-- The narrowed rows of each group of device `o`'s block: what a gather slot whose origin is `o` holds. -/
def sv0 (o : Dev nD) : Vec F S1x352x512 .bf16 :=
  k0_pay1 ((aM : Memref sig .tc .vmem S1024x512 .f32).view.readAt (Elt F) (Rect.unit (s := S1024x512) ![0, 0] S352x512.size inb_S1024x512_S352x512_0_0).toLoadRect (xstg m o))
def sv1 (o : Dev nD) : Vec F S1x336x512 .bf16 :=
  k0_pay2 ((aM : Memref sig .tc .vmem S1024x512 .f32).view.readAt (Elt F) (Rect.unit (s := S1024x512) ![352, 0] S336x512.size inb_S1024x512_S336x512_352_0).toLoadRect (xstg m o))
def sv2 (o : Dev nD) : Vec F S1x336x512 .bf16 :=
  k0_pay4 (k0_pay3 ((aM : Memref sig .tc .vmem S1024x512 .f32).view.readAt (Elt F) (Rect.unit (s := S1024x512) ![688, 0] S336x512.size inb_S1024x512_S336x512_688_0).toLoadRect (xstg m o)))
/-- The narrowed right factor. -/
def bv (c : Dev nD) : Vec F S512x1024 .bf16 :=
  k0_pay5 ((bM : Memref sig .tc .vmem S512x1024 .f32).view.readAt (Elt F) (Rect.unit (s := S512x1024) ![0, 0] S512x1024.size inb_S512x1024_S512x1024_0_0).toLoadRect (ystg m c))

/-- Rows below 176 of a slot's value, and the rows from 176 on. -/
def topA {e : EltTy} (v : Vec F S1x352x512 e) : Vec F S1x176x512 e :=
  fun i => v ((Rect.unit (s := S1x352x512) ![0, 0, 0] S1x176x512.size (by decide)).emb i)
def botA {e : EltTy} (v : Vec F S1x352x512 e) : Vec F S1x176x512 e :=
  fun i => v ((Rect.unit (s := S1x352x512) ![0, 176, 0] S1x176x512.size (by decide)).emb i)
def topB {e : EltTy} (v : Vec F S1x336x512 e) : Vec F S1x176x512 e :=
  fun i => v ((Rect.unit (s := S1x336x512) ![0, 0, 0] S1x176x512.size (by decide)).emb i)
def botB {e : EltTy} (v : Vec F S1x336x512 e) : Vec F S1x160x512 e :=
  fun i => v ((Rect.unit (s := S1x336x512) ![0, 176, 0] S1x160x512.size (by decide)).emb i)

/-- The product of a block of narrowed rows with the narrowed right factor, accumulated from zero. -/
def prod352 (a : Vec F S1x352x512 .bf16) (b : Vec F S512x1024 .bf16) : FVec F S352x1024 .f32 :=
  matmul dot_S352x512_S512x1024_S352x1024_1_0_0_1_n_n none (shapeCast S352x512 a shapeCasts_S1x352x512_S352x512) b (constant S352x1024 .f32 0x00000000#32)
def prod336 (a : Vec F S1x336x512 .bf16) (b : Vec F S512x1024 .bf16) : FVec F S336x1024 .f32 :=
  matmul dot_S336x512_S512x1024_S336x1024_1_0_0_1_n_n none (shapeCast S336x512 a shapeCasts_S1x336x512_S336x512) b (constant S336x1024 .f32 0x00000000#32)
def prod176 (a : Vec F S1x176x512 .bf16) (b : Vec F S512x1024 .bf16) : FVec F S176x1024 .f32 :=
  matmul dot_S176x512_S512x1024_S176x1024_1_0_0_1_n_n none (shapeCast S176x512 a shapeCasts_S1x176x512_S176x512) b (constant S176x1024 .f32 0x00000000#32)
def prod160 (a : Vec F S1x160x512 .bf16) (b : Vec F S512x1024 .bf16) : FVec F S160x1024 .f32 :=
  matmul dot_S160x512_S512x1024_S160x1024_1_0_0_1_n_n none (shapeCast S160x512 a shapeCasts_S1x160x512_S160x512) b (constant S160x1024 .f32 0x00000000#32)

/-! ## Assertions about a piece of a buffer -/

/-- The elements under `M` on device `c`, at some contents; and held at share `q`, reading `v` through `M`. Both are
    kept behind a constant that does not unfold, so that two of them are told apart by their arguments alone; the two
    theorems after them say what they are. -/
def AnySpec (F : FTy → Type) : Type :=
  { f : (sp : Space) → (s : Shape) → (e : EltTy) → Dev nD → Memref sig .tc sp s e → sProp (MT nD τ sig Unit (Elt F) ℕ UU ℕ) //
    f = fun sp s e c M => iprop(∃ g : Buf (Elt F) (M.view.loc (c : Thread nD τ)), M.view.loc (c : Thread nD τ) ↦[M.view.set]{fullShare} g) }
instance (F : FTy → Type) : Nonempty (AnySpec F) := ⟨⟨_, rfl⟩⟩
opaque anyImpl (F : FTy → Type) : AnySpec F := ⟨_, rfl⟩

def HoldsSpec (F : FTy → Type) : Type :=
  { f : (sp : Space) → (s : Shape) → (e : EltTy) → Dev nD → Memref sig .tc sp s e → PosShare TreeShare → (s.Idx → Elt F e) → sProp (MT nD τ sig Unit (Elt F) ℕ UU ℕ) //
    f = fun sp s e c M q v => iprop(∃ g : Buf (Elt F) (M.view.loc (c : Thread nD τ)), (M.view.loc (c : Thread nD τ) ↦[M.view.set]{q} g) ∗ ⌜M.view.read (Elt F) g = v⌝) }
instance (F : FTy → Type) : Nonempty (HoldsSpec F) := ⟨⟨_, rfl⟩⟩
opaque holdsImpl (F : FTy → Type) : HoldsSpec F := ⟨_, rfl⟩

def anyPts {sp : Space} {s : Shape} {e : EltTy} (c : Dev nD) (M : Memref sig .tc sp s e) : sProp 𝕄 :=
  (anyImpl F).1 sp s e c M
def holdsPts {sp : Space} {s : Shape} {e : EltTy} (c : Dev nD) (M : Memref sig .tc sp s e) (q : PosShare TreeShare) (v : s.Idx → Elt F e) : sProp 𝕄 :=
  (holdsImpl F).1 sp s e c M q v

omit [FloatOps F] in
theorem anyPts_eq {sp : Space} {s : Shape} {e : EltTy} (c : Dev nD) (M : Memref sig .tc sp s e) :
    anyPts (F := F) c M = iprop(∃ f : Buf (Elt F) (M.view.loc (c : Thread nD τ)), M.view.loc (c : Thread nD τ) ↦[M.view.set]{fullShare} f) :=
  congrFun (congrFun (congrFun (congrFun (congrFun (anyImpl F).2 sp) s) e) c) M
omit [FloatOps F] in
theorem holdsPts_eq {sp : Space} {s : Shape} {e : EltTy} (c : Dev nD) (M : Memref sig .tc sp s e) (q : PosShare TreeShare) (v : s.Idx → Elt F e) :
    holdsPts (F := F) c M q v = iprop(∃ f : Buf (Elt F) (M.view.loc (c : Thread nD τ)), (M.view.loc (c : Thread nD τ) ↦[M.view.set]{q} f) ∗ ⌜M.view.read (Elt F) f = v⌝) :=
  congrFun (congrFun (congrFun (congrFun (congrFun (congrFun (congrFun (holdsImpl F).2 sp) s) e) c) M) q) v

omit [FloatOps F] in
instance anyPts_storable {sp : Space} {s : Shape} {e : EltTy} (c : Dev nD) (M : Memref sig .tc sp s e) :
    BI.Storable (upEmb : UEmb _ 𝕄) (anyPts (F := F) c M) := by rw [anyPts_eq]; infer_instance
omit [FloatOps F] in
instance holdsPts_storable {sp : Space} {s : Shape} {e : EltTy} (c : Dev nD) (M : Memref sig .tc sp s e) (q) (v) :
    BI.Storable (upEmb : UEmb _ 𝕄) (holdsPts (F := F) c M q v) := by rw [holdsPts_eq]; infer_instance

/-! ## Stage slots and the result's pieces -/

/-- Stage slot `p` of each group, as a product block is copied out of it. -/
def ss0 (p : Fin 2) : Memref sig .tc .vmem S352x1024 .f32 :=
  (s0M.slice (Rect.unit (s := S2x352x1024) ![p.val, 0, 0] S1x352x1024.size (by revert p; decide)) (fun _ => rfl)).squeeze S352x1024 squeezes_S1x352x1024_S352x1024
def ss1 (p : Fin 2) : Memref sig .tc .vmem S336x1024 .f32 :=
  (s1M.slice (Rect.unit (s := S2x336x1024) ![p.val, 0, 0] S1x336x1024.size (by revert p; decide)) (fun _ => rfl)).squeeze S336x1024 squeezes_S1x336x1024_S336x1024
def ss2 (p : Fin 2) : Memref sig .tc .vmem S336x1024 .f32 :=
  (s2M.slice (Rect.unit (s := S2x336x1024) ![p.val, 0, 0] S1x336x1024.size (by revert p; decide)) (fun _ => rfl)).squeeze S336x1024 squeezes_S1x336x1024_S336x1024

/-- The rows of the result that hold the product of the first group's rows of device `xr c k`; and of the second
    (`r = 0`) and third (`r = 1`) groups'. -/
def op0 (c : Dev nD) (k : Fin 8) : Memref sig .tc .hbm S352x1024 .f32 :=
  oM.slice (Rect.unit (s := S8192x1024) (k0_off1 c (BitVec.ofNat 32 k.val)) S352x1024.size (k0_off1_inb c k)) (fun _ => rfl)
def op12 (c : Dev nD) (k : Fin 8) (r : Fin 2) : Memref sig .tc .hbm S336x1024 .f32 :=
  oM.slice (Rect.unit (s := S8192x1024) (k0_off2 c (BitVec.ofNat 32 k.val) (BitVec.ofNat 32 (352 + 336 * r.val))) S336x1024.size (k0_off2_inb c k r)) (fun _ => rfl)

/-- The stage slot a product block goes through: blocks alternate between the two. -/
def par (j : Fin 8) : Fin 2 := ⟨j.val % 2, Nat.mod_lt _ (by decide)⟩

def topRA {e : EltTy} (v : Vec F S352x1024 e) : Vec F S176x1024 e :=
  fun i => v ((Rect.unit (s := S352x1024) ![0, 0] S176x1024.size (by decide)).emb i)
def botRA {e : EltTy} (v : Vec F S352x1024 e) : Vec F S176x1024 e :=
  fun i => v ((Rect.unit (s := S352x1024) ![176, 0] S176x1024.size (by decide)).emb i)
def topRB {e : EltTy} (v : Vec F S336x1024 e) : Vec F S176x1024 e :=
  fun i => v ((Rect.unit (s := S336x1024) ![0, 0] S176x1024.size (by decide)).emb i)
def botRB {e : EltTy} (v : Vec F S336x1024 e) : Vec F S160x1024 e :=
  fun i => v ((Rect.unit (s := S336x1024) ![176, 0] S160x1024.size (by decide)).emb i)

/-- Product block `j` of each group on device `c`: one product of the slot's rows, except the last block, whose rows
    below 176 and from 176 on are two products of the two parts of slot 7. -/
def stageOK0 (c : Dev nD) (j : Fin 8) (v : Vec F S352x1024 .f32) : Prop :=
  if j = 7 then topRA v = prod176 (topA (sv0 m (xr c (mask 0 7)))) (bv m c) ∧ botRA v = prod176 (botA (sv0 m (xr c (mask 0 7)))) (bv m c)
  else v = prod352 (sv0 m (xr c (mask 0 j))) (bv m c)
def stageOK1 (c : Dev nD) (j : Fin 8) (v : Vec F S336x1024 .f32) : Prop :=
  if j = 7 then topRB v = prod176 (topB (sv1 m (xr c (mask 1 7)))) (bv m c) ∧ botRB v = prod160 (botB (sv1 m (xr c (mask 1 7)))) (bv m c)
  else v = prod336 (sv1 m (xr c (mask 1 j))) (bv m c)
def stageOK2 (c : Dev nD) (j : Fin 8) (v : Vec F S336x1024 .f32) : Prop :=
  if j = 7 then topRB v = prod176 (topB (sv2 m (xr c (mask 2 7)))) (bv m c) ∧ botRB v = prod160 (botB (sv2 m (xr c (mask 2 7)))) (bv m c)
  else v = prod336 (sv2 m (xr c (mask 2 j))) (bv m c)

/-! ## What each duty hands over -/

/-- The share of a source slot a transfer reads: the slot's kept half is the right one; the left half is cut among
    the transfers that read the slot at the same time. -/
def qs : Fin 8 → PosShare TreeShare :=
  ![fullShare.left.left.left, fullShare.left.left.right, fullShare.left.left, fullShare.left.right, fullShare.left.right,
    fullShare.left, fullShare.left, fullShare.left]

/-- The target of step `st` of group `g` on device `p`, at some contents: what `p` gives its partner at entry. -/
def dstAny (p : Dev nD) (g : Fin 3) (st : Fin 8) : sProp 𝕄 := match g with
  | 0 => if st = 6 then anyPts p (ga0 7) else if st = 7 then anyPts p (gb0 7) else anyPts p (gs0 (dstSlot st))
  | 1 => if st = 6 then anyPts p (ga1 7) else if st = 7 then anyPts p (gb1 7) else anyPts p (gs1 (dstSlot st))
  | 2 => if st = 6 then anyPts p (ga2 7) else if st = 7 then anyPts p (gb2 7) else anyPts p (gs2 (dstSlot st))

/-- A neighbour's entry signal: the targets on that neighbour of every step this device will run towards it, and
    that the neighbour's receive cells of those steps are at their first round. -/
def towards (d : Fin 3) : Finset (Fin 3 × Fin 8) := Finset.univ.filter fun gs => ord gs.1 (rnd gs.2) = dir d

omit [FloatOps F] in
instance dstAny_storable (p : Dev nD) (g : Fin 3) (st : Fin 8) : BI.Storable (upEmb : UEmb _ 𝕄) (dstAny (F := F) p g st) := by
  unfold dstAny
  fin_cases g <;> dsimp only <;> (repeat' split) <;> infer_instance

def barPay (c : Dev nD) (d : Fin 3) : sProp 𝕄 :=
  bigSep (towards d) fun gs : Fin 3 × Fin 8 =>
    iprop(dstAny (F := F) (xr c (dir d)) gs.1 gs.2 ∗ reached ER (recvCell (xr c (dir d)) gs.1 gs.2) 0)

/-- A landed transfer: the target holds the rows of the device the partner's source slot held. -/
def recvPay (c : Dev nD) (g : Fin 3) (st : Fin 8) : sProp 𝕄 := match g with
  | 0 => if st = 6 then holdsPts c (ga0 7) fullShare (topA (sv0 m (xr c (mask 0 7))))
      else if st = 7 then holdsPts c (gb0 7) fullShare (botA (sv0 m (xr c (mask 0 7))))
      else holdsPts c (gs0 (dstSlot st)) fullShare (sv0 m (xr c (mask 0 (dstSlot st))))
  | 1 => if st = 6 then holdsPts c (ga1 7) fullShare (topB (sv1 m (xr c (mask 1 7))))
      else if st = 7 then holdsPts c (gb1 7) fullShare (botB (sv1 m (xr c (mask 1 7))))
      else holdsPts c (gs1 (dstSlot st)) fullShare (sv1 m (xr c (mask 1 (dstSlot st))))
  | 2 => if st = 6 then holdsPts c (ga2 7) fullShare (topB (sv2 m (xr c (mask 2 7))))
      else if st = 7 then holdsPts c (gb2 7) fullShare (botB (sv2 m (xr c (mask 2 7))))
      else holdsPts c (gs2 (dstSlot st)) fullShare (sv2 m (xr c (mask 2 (dstSlot st))))

/-- A transfer fully read: the share of its source comes back. -/
def sendPay (c : Dev nD) (g : Fin 3) (st : Fin 8) : sProp 𝕄 := match g with
  | 0 => if st = 6 then holdsPts c (ga0 3) (qs st) (topA (sv0 m (xr c (mask 0 3))))
      else if st = 7 then holdsPts c (gb0 3) (qs st) (botA (sv0 m (xr c (mask 0 3))))
      else holdsPts c (gs0 (srcSlot st)) (qs st) (sv0 m (xr c (mask 0 (srcSlot st))))
  | 1 => if st = 6 then holdsPts c (ga1 3) (qs st) (topB (sv1 m (xr c (mask 1 3))))
      else if st = 7 then holdsPts c (gb1 3) (qs st) (botB (sv1 m (xr c (mask 1 3))))
      else holdsPts c (gs1 (srcSlot st)) (qs st) (sv1 m (xr c (mask 1 (srcSlot st))))
  | 2 => if st = 6 then holdsPts c (ga2 3) (qs st) (topB (sv2 m (xr c (mask 2 3))))
      else if st = 7 then holdsPts c (gb2 3) (qs st) (botB (sv2 m (xr c (mask 2 3))))
      else holdsPts c (gs2 (srcSlot st)) (qs st) (sv2 m (xr c (mask 2 (srcSlot st))))

/-- A product block copied out: its rows of the result hold it, and the stage slot is free again. -/
def copyPay (c : Dev nD) (g : Fin 3) (j : Fin 8) : sProp 𝕄 := match g with
  | 0 => iprop(∃ v, ⌜stageOK0 m c j v⌝ ∗ holdsPts c (op0 c (mask 0 j)) fullShare v ∗ holdsPts c (ss0 (par j)) fullShare v)
  | 1 => iprop(∃ v, ⌜stageOK1 m c j v⌝ ∗ holdsPts c (op12 c (mask 1 j) 0) fullShare v ∗ holdsPts c (ss1 (par j)) fullShare v)
  | 2 => iprop(∃ v, ⌜stageOK2 m c j v⌝ ∗ holdsPts c (op12 c (mask 2 j) 1) fullShare v ∗ holdsPts c (ss2 (par j)) fullShare v)

/-! ## The schedule -/

/-- Which array, group and position a transfer semaphore is. -/
def qa (q : DmaSem sig) : ℕ := (q.val - 2) / 24
def qg (q : DmaSem sig) : Fin 3 := ⟨((q.val - 2) % 24) / 8, by omega⟩
def qk (q : DmaSem sig) : Fin 8 := ⟨(q.val - 2) % 8, by omega⟩

theorem qa_send : ∀ (g : Fin 3) (k : Fin 8), qa (sendS g k) = 0 := by decide
theorem qa_recv : ∀ (g : Fin 3) (k : Fin 8), qa (recvS g k) = 1 := by decide
theorem qa_copy : ∀ (g : Fin 3) (k : Fin 8), qa (copyS g k) = 2 := by decide
theorem qg_send : ∀ (g : Fin 3) (k : Fin 8), qg (sendS g k) = g := by decide
theorem qg_recv : ∀ (g : Fin 3) (k : Fin 8), qg (recvS g k) = g := by decide
theorem qg_copy : ∀ (g : Fin 3) (k : Fin 8), qg (copyS g k) = g := by decide
theorem qk_send : ∀ (g : Fin 3) (k : Fin 8), qk (sendS g k) = k := by decide
theorem qk_recv : ∀ (g : Fin 3) (k : Fin 8), qk (recvS g k) = k := by decide
theorem qk_copy : ∀ (g : Fin 3) (k : Fin 8), qk (copyS g k) = k := by decide
theorem two_le_send : ∀ (g : Fin 3) (k : Fin 8), 2 ≤ (sendS g k).val := by decide
theorem two_le_recv : ∀ (g : Fin 3) (k : Fin 8), 2 ≤ (recvS g k).val := by decide
theorem two_le_copy : ∀ (g : Fin 3) (k : Fin 8), 2 ≤ (copyS g k).val := by decide

/-- The credit of one exchange step, and of one copy of a product block. -/
def xferAmt (g : Fin 3) (st : Fin 8) : ℕ := match g with
  | 0 => if st = 6 then (ga0 0).view.dmaCredit else if st = 7 then (gb0 0).view.dmaCredit else (gs0 0).view.dmaCredit
  | 1 => if st = 6 then (ga1 0).view.dmaCredit else if st = 7 then (gb1 0).view.dmaCredit else (gs1 0).view.dmaCredit
  | 2 => if st = 6 then (ga2 0).view.dmaCredit else if st = 7 then (gb2 0).view.dmaCredit else (gs2 0).view.dmaCredit
def copyAmt (g : Fin 3) : ℕ := match g with
  | 0 => (op0 0 0).view.dmaCredit
  | 1 => (op12 0 0 0).view.dmaCredit
  | 2 => (op12 0 0 1).view.dmaCredit

theorem xferAmt_pos (g : Fin 3) (st : Fin 8) : 0 < xferAmt g st := by
  unfold xferAmt
  fin_cases g <;> dsimp only <;> (repeat' split) <;> exact View.dmaCredit_pos _ (by decide)
theorem copyAmt_pos (g : Fin 3) : 0 < copyAmt g := by
  unfold copyAmt
  fin_cases g <;> exact View.dmaCredit_pos _ (by decide)

def amtOf (q : DmaSem sig) : ℕ := if qa q = 2 then copyAmt (qg q) else xferAmt (qg q) (qk q)

theorem amtOf_pos (q : DmaSem sig) : 0 < amtOf q := by
  unfold amtOf; split
  · exact copyAmt_pos _
  · exact xferAmt_pos _ _

def dmaPay (c : Dev nD) (q : DmaSem sig) : sProp 𝕄 :=
  if qa q = 0 then sendPay m c (qg q) (qk q) else if qa q = 1 then recvPay m c (qg q) (qk q) else copyPay m c (qg q) (qk q)

/-- One round. A barrier cell has three unit duties, one per neighbour; each transfer cell of the three arrays one
    duty of the credit of what it moves. -/
def Rd : Rounds.Schedule (GSem nD τ sig) (Fin 3) 𝕄 where
  duties g r := if r = 0 ∧ g.1.2 = .tc then
      (match g.2 with | .reg s => if s = barS then Finset.univ else ∅ | .dma q => if 2 ≤ q.val then {0} else ∅) else ∅
  unitless _ := False
  amount g _ _ := match g.2 with | .reg _ => 1 | .dma q => amtOf q
  payload g _ d := match g.2 with
    | .reg s => if s = barS then barPay g.1.1 d else iprop(emp)
    | .dma q => if 2 ≤ q.val then dmaPay m g.1.1 q else iprop(emp)
  amount_pos g _ _ _ := by
    rcases g with ⟨t, sm⟩
    cases sm with
    | reg s => exact Nat.one_pos
    | dma q => exact amtOf_pos q

/-! ## The schedule's tables -/

omit [FloatOps F] in
instance barPay_storable (c : Dev nD) (d : Fin 3) : BI.Storable (upEmb : UEmb _ 𝕄) (barPay (F := F) c d) := by
  unfold barPay; infer_instance

instance Rd_payload_storable (x : GSem nD τ sig) (r : ℕ) (d : Fin 3) :
    BI.Storable (upEmb : UEmb _ 𝕄) ((Rd (F := F) m).payload x r d) := by
  rcases x with ⟨t, sm⟩
  cases sm with
  | reg s =>
    show BI.Storable upEmb (if s = barS then barPay t.1 d else iprop(emp))
    split <;> infer_instance
  | dma q =>
    show BI.Storable upEmb (if 2 ≤ q.val then dmaPay m t.1 q else iprop(emp))
    unfold dmaPay sendPay recvPay copyPay
    (repeat' split) <;> infer_instance

section Tables
variable (c : Dev nD) (g : Fin 3) (k : Fin 8)

theorem duties_bar : (Rd (F := F) m).duties (barCell c) 0 = Finset.univ := by
  dsimp only [Rd]; rw [if_pos ⟨rfl, rfl⟩]; exact if_pos rfl
theorem duties_send : (Rd (F := F) m).duties (sendCell c g k) 0 = {0} := by
  dsimp only [Rd]; rw [if_pos ⟨rfl, rfl⟩]; exact if_pos (two_le_send g k)
theorem duties_recv : (Rd (F := F) m).duties (recvCell c g k) 0 = {0} := by
  dsimp only [Rd]; rw [if_pos ⟨rfl, rfl⟩]; exact if_pos (two_le_recv g k)
theorem duties_copy : (Rd (F := F) m).duties (copyCell c g k) 0 = {0} := by
  dsimp only [Rd]; rw [if_pos ⟨rfl, rfl⟩]; exact if_pos (two_le_copy g k)
theorem duties_later (x : GSem nD τ sig) : ∀ r, 1 ≤ r → (Rd (F := F) m).duties x r = ∅ :=
  fun r hr => by dsimp only [Rd]; rw [if_neg fun h => by omega]

theorem amount_bar (d : Fin 3) : (Rd (F := F) m).amount (barCell c) 0 d = 1 := rfl
theorem amount_send (d : Fin 3) : (Rd (F := F) m).amount (sendCell c g k) 0 d = xferAmt g k := by
  show amtOf (sendS g k) = _; unfold amtOf; rw [qa_send, qg_send, qk_send]; exact if_neg (by decide)
theorem amount_recv (d : Fin 3) : (Rd (F := F) m).amount (recvCell c g k) 0 d = xferAmt g k := by
  show amtOf (recvS g k) = _; unfold amtOf; rw [qa_recv, qg_recv, qk_recv]; exact if_neg (by decide)
theorem amount_copy (d : Fin 3) : (Rd (F := F) m).amount (copyCell c g k) 0 d = copyAmt g := by
  show amtOf (copyS g k) = _; unfold amtOf; rw [qa_copy, qg_copy]; exact if_pos rfl

theorem payload_bar (d : Fin 3) : (Rd (F := F) m).payload (barCell c) 0 d = barPay c d := by
  dsimp only [Rd]; exact if_pos rfl
theorem payload_send (d : Fin 3) : (Rd (F := F) m).payload (sendCell c g k) 0 d = sendPay m c g k := by
  dsimp only [Rd]; rw [if_pos (two_le_send g k)]; unfold dmaPay; rw [qa_send, qg_send, qk_send]; exact if_pos rfl
theorem payload_recv (d : Fin 3) : (Rd (F := F) m).payload (recvCell c g k) 0 d = recvPay m c g k := by
  dsimp only [Rd]; rw [if_pos (two_le_recv g k)]; unfold dmaPay; rw [qa_recv, qg_recv, qk_recv, if_neg (by decide)]; exact if_pos rfl
theorem payload_copy (d : Fin 3) : (Rd (F := F) m).payload (copyCell c g k) 0 d = copyPay m c g k := by
  dsimp only [Rd]; rw [if_pos (two_le_copy g k)]; unfold dmaPay; rw [qa_copy, qg_copy, qk_copy, if_neg (by decide)]; exact if_neg (by decide)

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c g k) 0 = xferAmt g k := by
  unfold Schedule.expect Schedule.amountOf; rw [duties_send, Finset.sum_singleton, amount_send]
theorem expect_recv : (Rd (F := F) m).expect (recvCell c g k) 0 = xferAmt g k := by
  unfold Schedule.expect Schedule.amountOf; rw [duties_recv, Finset.sum_singleton, amount_recv]
theorem expect_copy : (Rd (F := F) m).expect (copyCell c g k) 0 = copyAmt g := by
  unfold Schedule.expect Schedule.amountOf; rw [duties_copy, Finset.sum_singleton, amount_copy]

/-- The whole of a barrier round: the three neighbours' hand-overs. -/
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [(0 : Fin 3), 1, 2] (by decide) (by decide)]
  simp only [bigSepL_cons_cons, bigSepL_singleton, payload_bar]
  rfl
theorem rest_send : bigSep ((Rd (F := F) m).duties (sendCell c g k) 0 \ ∅) (fun d => (Rd (F := F) m).payload (sendCell c g k) 0 d) = sendPay m c g k := by
  rw [Finset.sdiff_empty, duties_send, bigSep_singleton, payload_send]
theorem rest_recv : bigSep ((Rd (F := F) m).duties (recvCell c g k) 0 \ ∅) (fun d => (Rd (F := F) m).payload (recvCell c g k) 0 d) = recvPay m c g k := by
  rw [Finset.sdiff_empty, duties_recv, bigSep_singleton, payload_recv]
theorem rest_copy : bigSep ((Rd (F := F) m).duties (copyCell c g k) 0 \ ∅) (fun d => (Rd (F := F) m).payload (copyCell c g k) 0 d) = copyPay m c g k := by
  rw [Finset.sdiff_empty, duties_copy, bigSep_singleton, payload_copy]

end Tables

end Cert.KernelIdeal.DM

end
-- ==== Proof.LaunchSetup.lean ====
import proofs.«900891_g7700000000000892_dist_matmul_m_i_outrep_m1024_n1024_k512_v7x_i8_f32_1_alg».proof.Proof.Sched

/-!
The cells of the protocol enumerated for the launch, and the protocol's ghost state.

Each device has seventy-three cells: the barrier cell (the runtime's barrier semaphore, not scoped to the kernel) and
its own seventy-two DMA semaphores, three arrays (send, receive, copy) of three row groups by eight steps. They are
indexed by a sum type so that a conjunction over all of them splits by part without being written out. Stated for
any schedule with three duty names: the persistent records every device may hold of every cell, what stays with
one device (its positions and the tokens of the duties it pays), the funding of all cells from the launch element,
the allocation of every cell's invariant in one step over all devices, and the dealing of the minted tokens to their
payers (a barrier duty to the neighbour at its mask, a receive duty to the partner of its step).
-/

noncomputable section

namespace Cert.KernelIdeal.DM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The enumeration -/

/-- A device's own semaphores by array (0 send, 1 receive, 2 copy), row group and step. -/
abbrev OIx : Type := Fin 3 × Fin 3 × Fin 8
/-- A device's cells: the barrier cell, or one of its own. -/
abbrev CIx : Type := Unit ⊕ OIx

/-- The three arrays of own semaphores. -/
def arrS : Fin 3 → Fin 3 → Fin 8 → DmaSem sig := ![sendS, recvS, copyS]

/-- The kernel's own (scoped) semaphore cells. -/
def osem (k : OIx) : SemLoc sig := .dma (arrS k.1 k.2.1 k.2.2)

/-- All of a device's cells. -/
def csem : CIx → SemLoc sig
  | .inl _ => .reg barS
  | .inr k => osem k

/-- The cell of a device under an index. -/
abbrev kcell (ck : Dev nD × CIx) : GSem nD τ sig := ((ck.1 : Thread nD τ), csem ck.2)

theorem kcell_bar (c : Dev nD) : kcell (c, .inl ()) = barCell c := rfl
theorem kcell_send (c : Dev nD) (g : Fin 3) (k : Fin 8) : kcell (c, .inr (0, g, k)) = sendCell c g k := rfl
theorem kcell_recv (c : Dev nD) (g : Fin 3) (k : Fin 8) : kcell (c, .inr (1, g, k)) = recvCell c g k := rfl
theorem kcell_copy (c : Dev nD) (g : Fin 3) (k : Fin 8) : kcell (c, .inr (2, g, k)) = copyCell c g k := rfl

/-- The own semaphores are scoped, pairwise distinct, and none is a staging semaphore. -/
theorem ownSemFacts : Pipeline.OwnSemFacts cfg0.spec osem := by decide +kernel

theorem csem_injective : Function.Injective csem := by decide +kernel

theorem kcell_injective : Function.Injective (kcell : Dev nD × CIx → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- The cells of all devices. -/
def allCells : Finset (GSem nD τ sig) := Finset.univ.map ⟨kcell, kcell_injective⟩

/-- A device's minted duty tokens: the barrier cell's three duties, and the one duty of each own cell. -/
abbrev TIx : Type := Fin 3 ⊕ OIx

def tokOf (cj : Dev nD × TIx) : GSem nD τ sig × ℕ × Fin 3 :=
  match cj.2 with
  | .inl d => (kcell (cj.1, .inl ()), 0, d)
  | .inr k => (kcell (cj.1, .inr k), 0, 0)

theorem tokOf_injective : Function.Injective tokOf := by
  rintro ⟨c, j⟩ ⟨c', j'⟩ h
  have h1 : c = c' := by
    have := congrArg (fun x : GSem nD τ sig × ℕ × Fin 3 => x.1.1.1) h
    rcases j with d | k <;> rcases j' with d' | k' <;> exact this
  subst h1
  rcases j with d | k <;> rcases j' with d' | k'
  · have h2 : d = d' := congrArg (fun x : GSem nD τ sig × ℕ × Fin 3 => x.2.2) h
    rw [h2]
  · have h2 : csem (.inl ()) = csem (.inr k') := congrArg (fun x : GSem nD τ sig × ℕ × Fin 3 => x.1.2) h
    exact absurd (csem_injective h2) (fun h' => by cases h')
  · have h2 : csem (.inr k) = csem (.inl ()) := congrArg (fun x : GSem nD τ sig × ℕ × Fin 3 => x.1.2) h
    exact absurd (csem_injective h2) (fun h' => by cases h')
  · have h2 : csem (.inr k) = csem (.inr k') := congrArg (fun x : GSem nD τ sig × ℕ × Fin 3 => x.1.2) h
    rw [Sum.inr.inj (csem_injective h2)]

/-- The duty tokens of all devices' cells. -/
def allToks : Finset (GSem nD τ sig × ℕ × Fin 3) := Finset.univ.map ⟨tokOf, tokOf_injective⟩

/-! ## Conjunctions over the index, by part -/

theorem bigSep_fin3 {M : Type} [URA M] (Φ : Fin 3 → sProp M) : bigSep Finset.univ Φ = iprop(Φ 0 ∗ Φ 1 ∗ Φ 2) :=
  bigSep_univ_eq_bigSepL [0, 1, 2] (by decide) (by decide) Φ

/-- Over a device's cells: the barrier cell, then its own. -/
theorem bigSep_CIx {M : Type} [URA M] (Φ : CIx → sProp M) :
    bigSep Finset.univ Φ = iprop(Φ (.inl ()) ∗ bigSep Finset.univ fun k : OIx => Φ (.inr k)) := by
  rw [bigSep_univ_sum, bigSep_univ_of_subsingleton ()]
  rfl

/-- Over a device's own cells: the send, the receive and the copy array. -/
theorem bigSep_OIx {M : Type} [URA M] (Φ : OIx → sProp M) :
    bigSep Finset.univ Φ = iprop((bigSep Finset.univ fun gk : Fin 3 × Fin 8 => Φ (0, gk)) ∗ (bigSep Finset.univ fun gk : Fin 3 × Fin 8 => Φ (1, gk))
      ∗ bigSep Finset.univ fun gk : Fin 3 × Fin 8 => Φ (2, gk)) := by
  rw [bigSep_univ_prod, bigSep_fin3]

/-- A family of conjuncts indexed by device and by `j`, each dealt to another device by a bijection depending on `j`. -/
theorem bigSep_deal {M : Type} [URA M] {J : Type} [Fintype J] (e : J → Dev nD ≃ Dev nD) (Φ : Dev nD → J → sProp M) :
    (bigSep Finset.univ fun c : Dev nD => bigSep Finset.univ fun j : J => Φ c j)
      = bigSep Finset.univ fun c : Dev nD => bigSep Finset.univ fun j : J => Φ (e j c) j := by
  rw [bigSep_univ_comm (fun (c : Dev nD) (j : J) => Φ c j), bigSep_univ_comm (fun (c : Dev nD) (j : J) => Φ (e j c) j)]
  exact bigSep_congr fun j _ => bigSep_univ_equiv (e j) (fun c => Φ c j)

/-- Exclusive or with a fixed mask, and the partner map of a step, as bijections of the devices. -/
def xrE (k : Fin 8) : Dev nD ≃ Dev nD := ⟨fun c => xr c k, fun c => xr c k, fun c => xr_xr c k, fun c => xr_xr c k⟩
def partnerE (g : Fin 3) (st : Fin 8) : Dev nD ≃ Dev nD :=
  ⟨fun c => partner c g st, fun c => partner c g st, fun c => partner_partner c g st, fun c => partner_partner c g st⟩

/-! ## The protocol's ghost state, per device -/

section Ghost

variable (Rd : Rounds.Schedule (GSem nD τ sig) (Fin 3) (MT nD τ sig Unit (Elt F) ℕ UU ℕ))

/-- What every device may hold of every cell, being persistent: that a name carries the cell's invariant, and that the
    cell has reached round 0. -/
def records (K : Dev nD × CIx → ℕ) : sProp 𝕄 :=
  iprop((bigSep Finset.univ fun ck : Dev nD × CIx => cellInv ER Rd (K ck) (kcell ck))
    ∗ bigSep Finset.univ fun ck : Dev nD × CIx => reached ER (kcell ck) 0)

instance records_persistent (K : Dev nD × CIx → ℕ) : BI.Persistent (records Rd K) := by unfold records; infer_instance

omit [FloatOps F] in
theorem records_inv (K : Dev nD × CIx → ℕ) (ck : Dev nD × CIx) : records Rd K ⊢ cellInv ER Rd (K ck) (kcell ck) :=
  sep_elim_left.trans (bigSep_elim (Finset.mem_univ ck))
omit [FloatOps F] in
theorem records_reached (K : Dev nD × CIx → ℕ) (ck : Dev nD × CIx) : records Rd K ⊢ reached ER (kcell ck) 0 :=
  sep_elim_right.trans (bigSep_elim (Finset.mem_univ ck))

/-- The tokens of the duties device `c` pays: one unit on each neighbour's barrier cell, the transfer onto its partner's
    receive cell in every step, and the one duty of each of its own send and copy cells. -/
def payToks (c : Dev nD) : sProp 𝕄 :=
  iprop((bigSep Finset.univ fun d : Fin 3 => dutyTok ER (barCell (xr c (dir d))) 0 d)
    ∗ bigSep Finset.univ fun gk : Fin 3 × Fin 8 =>
        iprop(dutyTok ER (recvCell (partner c gk.1 gk.2) gk.1 gk.2) 0 0 ∗ dutyTok ER (sendCell c gk.1 gk.2) 0 0 ∗ dutyTok ER (copyCell c gk.1 gk.2) 0 0))

/-- What stays with device `c` alone: its position at round 0 of each of its cells, and the tokens it pays with. -/
def linear (c : Dev nD) : sProp 𝕄 :=
  iprop((bigSep Finset.univ fun k : CIx => atPos ER (kcell (c, k)) 0 ∅ 0) ∗ payToks c)

/-- The protocol's ghost state device `c` starts from, the invariants at the names `K`. -/
def ghost (K : Dev nD × CIx → ℕ) (c : Dev nD) : sProp 𝕄 := iprop(records Rd K ∗ linear c)

/-! ## Funding the cells -/

/-- The duty tokens of device `c`'s own cells, as minted. -/
def toks (c : Dev nD) : sProp 𝕄 :=
  iprop((bigSep Finset.univ fun d : Fin 3 => dutyTok ER (barCell c) 0 d) ∗ bigSep Finset.univ fun k : OIx => dutyTok ER (kcell (c, .inr k)) 0 0)

/-- What the launch element deals device `c`: the round state, the position and the reached mark of each of its cells, and
    their duty tokens. -/
def G (c : Dev nD) : sProp 𝕄 :=
  iprop((bigSep Finset.univ fun k : CIx => roundState ER Rd (kcell (c, k)) 0)
    ∗ (bigSep Finset.univ fun k : CIx => iprop(atPos ER (kcell (c, k)) 0 ∅ 0 ∗ reached ER (kcell (c, k)) 0)) ∗ toks c)

/-- What the allocation of all invariants at once makes of it. -/
def G' (c : Dev nD) : sProp 𝕄 := iprop(∃ K, ghost Rd K c)

omit [FloatOps F] in
theorem fund_cells : BI.own (ER (initOf allCells allToks)) ⊢ (|==> bigSep Finset.univ (G Rd) : sProp 𝕄) := by
  have hX (Φ : GSem nD τ sig → sProp 𝕄) : bigSep allCells Φ = bigSep Finset.univ fun c : Dev nD => bigSep Finset.univ fun k : CIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER Rd allCells allToks) $$ HX with ⟨Hst, Hr, Hat, Htok⟩
  imodintro
  ihave Hst' := (Entails.of_eq (hX fun g => roundState ER Rd g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- The counters of a device's cells at zero, from the launch's two groups. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [unscopedSems0_eq, bigSep_CIx]
  unfold Pipeline.ownSems0
  iintro ⟨HS, HB⟩
  isplitl [HB]; · iexact HB
  iexact HS

omit [FloatOps F] in
/-- Each cell of a device gets its invariant, at some name. -/
theorem core_alloc [∀ g r d, BI.Storable (upEmb : UEmb _ (MT nD τ sig Unit (Elt F) ℕ UU ℕ)) (Rd.payload g r d)] (c : Dev nD) :
    iprop(Pipeline.ownSems0 (Ix := Unit) (Name := ℕ) (U := UU) (Lvl := ℕ) (Val := Elt F) (τ := τ) osem c ∗ unscopedSems0 c ∗ G Rd c)
      ⊢ |={Set.univ}=> iprop((bigSep Finset.univ fun k : CIx => iprop(∃ κ : ℕ, cellInv ER Rd κ (kcell (c, k))))
          ∗ (bigSep Finset.univ fun k : CIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER Rd (kcell (c, k)) 0)
      ⊢ (|={Set.univ}=> bigSep Finset.univ fun k : CIx => iprop(∃ κ : ℕ, cellInv ER Rd κ (kcell (c, k))) : sProp 𝕄) from by
        rw [← bigSep_sep']
        exact (bigSep_mono fun k _ => (Rounds.body_intro ER Rd (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt to their payers: a barrier cell's duty `d` to the neighbour at mask `dir d`, a receive cell's duty to
    the partner of its step; the send and copy cells' stay. -/
theorem toks_around : (bigSep Finset.univ fun c : Dev nD => (toks c : sProp 𝕄)) ⊢ bigSep Finset.univ fun c : Dev nD => payToks c := by
  have hB := bigSep_deal (fun d : Fin 3 => xrE (dir d)) (fun (c : Dev nD) (d : Fin 3) => (dutyTok ER (barCell c) 0 d : sProp 𝕄))
  have hR := bigSep_deal (fun gk : Fin 3 × Fin 8 => partnerE gk.1 gk.2)
    (fun (c : Dev nD) (gk : Fin 3 × Fin 8) => (dutyTok ER (recvCell c gk.1 gk.2) 0 0 : sProp 𝕄))
  unfold toks payToks
  simp only [bigSep_OIx, bigSep_sep']
  iintro ⟨HB, HS, HR, HC⟩
  isplitl [HB]; · iapply (Entails.of_eq hB); iexact HB
  isplitl [HR]; · iapply (Entails.of_eq hR); iexact HR
  isplitl [HS]; · iexact HS
  iexact HC

omit [FloatOps F] in
theorem regroup :
    (bigSep Finset.univ fun c : Dev nD => iprop((bigSep Finset.univ fun k : CIx => iprop(∃ κ : ℕ, cellInv ER Rd κ (kcell (c, k))))
          ∗ (bigSep Finset.univ fun k : CIx => iprop(atPos ER (kcell (c, k)) 0 ∅ 0 ∗ reached ER (kcell (c, k)) 0)) ∗ toks c) : sProp 𝕄)
      ⊢ bigSep Finset.univ (G' Rd) := by
  rw [bigSep_sep', bigSep_sep', ← bigSep_univ_prod (fun ck : Dev nD × CIx => iprop(∃ κ : ℕ, cellInv ER Rd κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER Rd κ (kcell ck) : sProp 𝕄))) $$ HI
  icases HK with ⟨%K, #HI⟩
  ihave Htk := (toks_around (F := F)) $$ Htok
  iapply (bigSep_with_persistent (R := records Rd K) (Ψ := G' Rd) (Φ := linear) fun c _ => by
    unfold G' ghost; iintro H; iexists K; iexact H)
  isplitr
  · unfold records; isplitl; · iexact HI
    iexact HR
  · unfold linear
    rw [bigSep_sep']
    isplitl [Hat]; · iexact Hat
    iexact Htk

omit [FloatOps F] in
/-- The global step: the own and the unscoped semaphores of every device at once. -/
theorem glob [∀ g r d, BI.Storable (upEmb : UEmb _ (MT nD τ sig Unit (Elt F) ℕ UU ℕ)) (Rd.payload g r d)] : (bigSep Finset.univ fun c => iprop(Pipeline.ownSems0 (Ix := Unit) (Name := ℕ) (U := UU) (Lvl := ℕ) (Val := Elt F) (τ := τ) osem c ∗ unscopedSems0 c ∗ G Rd c) : sProp 𝕄)
    ⊢ |={Set.univ}=> bigSep Finset.univ (G' Rd) :=
  ((bigSep_mono fun c _ => core_alloc Rd c).trans (bigSep_fupd _ _)).trans (BI.fupd_mono (regroup Rd))

end Ghost

/-! ## The launch element -/

section Fund

variable (Rd : Rounds.Schedule (GSem nD τ sig) (Fin 3) (MT nD τ sig Unit (Elt F) ℕ UU ℕ))

/-- The launch element: the pipeline's staging cells in the first copy of the algebra, the protocol's cells in the second. -/
def u₀ : UU :=
  (initOf (Pipeline.cells cfgs cellOf_inj) (Pipeline.launchToks cfgs cellOf_inj), initOf allCells allToks)

omit [FloatOps F] in
theorem fund_all :
    (ownU u₀ : sProp 𝕄) ⊢ |={Set.univ}=> iprop(BI.own (EP (initOf (Pipeline.cells cfgs cellOf_inj) (Pipeline.launchToks cfgs cellOf_inj))) ∗ bigSep Finset.univ (G Rd)) := by
  unfold u₀
  iintro Hu
  ihave H := (ownU_pair _ _) $$ Hu
  icases H with ⟨HP, HX⟩
  imod (fund_cells Rd) $$ HX with HG
  imodintro
  isplitl [HP] <;> iassumption

end Fund

/-- info: 'Cert.KernelIdeal.DM.glob' depends on axioms: [propext, Classical.choice, Quot.sound] -/
#guard_msgs in #print axioms glob

/-- info: 'Cert.KernelIdeal.DM.fund_all' depends on axioms: [propext, Classical.choice, Quot.sound] -/
#guard_msgs in #print axioms fund_all

end Cert.KernelIdeal.DM

end
-- ==== Proof.State.lean ====
import proofs.«900891_g7700000000000892_dist_matmul_m_i_outrep_m1024_n1024_k512_v7x_i8_f32_1_alg».proof.Proof.Sched
import proofs.«900891_g7700000000000892_dist_matmul_m_i_outrep_m1024_n1024_k512_v7x_i8_f32_1_alg».proof.Proof.LaunchSetup

/-!
What a device owes and in which order it pays; the levels that keep every wait below what is still owed.

A device pays, in program order: one unit to each neighbour's barrier; then, step by step, the credit of each transfer
to its partner's receive cell. A wait is allowed when the waited cell's level lies below the level of every cell still
owed. Send, copy and staging cells sit at level 0, the barrier at 1, the receive cells of steps 0, 1, 3 at 2, of steps
2, 4, 5 at 3, of the two last steps at 4: each receive wait of the program comes before the first payment of a higher
level's step that is still to start, and after every payment at its own level or below.
-/

noncomputable section

namespace Cert.KernelIdeal.DM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## Levels -/

def L (g : GSem nD τ sig) : Finset Unit := if g.1.2 = .tc then {()} else ∅

/-- The level of a receive cell's step. -/
def stLv : Fin 8 → ℕ := ![2, 2, 3, 2, 3, 3, 4, 4]

def lv (g : GSem nD τ sig) (_ : Unit) : ℕ := match g.2 with
  | .reg s => if s = barS then 1 else 0
  | .dma q => if 2 ≤ q.val ∧ qa q = 1 then stLv (qk q) else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by
  show (if (barS : Sem sig) = barS then 1 else 0) = 1
  exact if_pos rfl
theorem lv_send : ∀ (c : Dev nD) (g : Fin 3) (k : Fin 8), lv (sendCell c g k) () = 0 := by
  intro c g k; show (if 2 ≤ (sendS g k).val ∧ qa (sendS g k) = 1 then _ else 0) = 0
  rw [qa_send]; exact if_neg (fun h => absurd h.2 (by decide))
theorem lv_copy : ∀ (c : Dev nD) (g : Fin 3) (k : Fin 8), lv (copyCell c g k) () = 0 := by
  intro c g k; show (if 2 ≤ (copyS g k).val ∧ qa (copyS g k) = 1 then _ else 0) = 0
  rw [qa_copy]; exact if_neg (fun h => absurd h.2 (by decide))
theorem lv_recv : ∀ (c : Dev nD) (g : Fin 3) (k : Fin 8), lv (recvCell c g k) () = stLv k := by
  intro c g k; show (if 2 ≤ (recvS g k).val ∧ qa (recvS g k) = 1 then stLv (qk (recvS g k)) else 0) = _
  rw [qa_recv, qk_recv]; exact if_pos ⟨two_le_recv g k, rfl⟩

/-- Everything owed in `O` is owed to a TensorCore cell of level above `n`. -/
def Above (n : ℕ) (O : CellTallies nD τ sig Unit) : Prop :=
  ∀ (g : GSem nD τ sig) (u : Unit), 0 < O g u → g.1.2 = .tc ∧ n < lv g u

theorem above_zero (n : ℕ) : Above n (0 : CellTallies nD τ sig Unit) := fun g u h => absurd h (Nat.lt_irrefl 0)
theorem above_add {n : ℕ} {O O' : CellTallies nD τ sig Unit} (h : Above n O) (h' : Above n O') : Above n (O + O') := by
  intro g u hg
  rw [Pi.add_apply, Finsupp.add_apply] at hg
  rcases Nat.add_pos_iff_pos_or_pos.mp hg with h1 | h1
  · exact h g u h1
  · exact h' g u h1
theorem above_tally {n k : ℕ} (g : GSem nD τ sig) (hg : g.1.2 = .tc) (hn : n < lv g ()) : Above n (tallyAt g () k) := by
  intro g' u h
  rw [tallyAt_apply] at h
  by_cases e : g' = g ∧ u = ()
  · rw [e.1]; exact ⟨hg, hn⟩
  · rw [if_neg e] at h; exact absurd h (Nat.lt_irrefl 0)
theorem above_mono {n n' : ℕ} {O : CellTallies nD τ sig Unit} (h : Above n O) (hn : n' ≤ n) : Above n' O :=
  fun g u hg => ⟨(h g u hg).1, Nat.lt_of_le_of_lt hn (h g u hg).2⟩

omit [FloatOps F] in
/-- A wait on a TensorCore cell of level `n` while everything owed lies above `n`. -/
theorem mayWait_of_above (c : Dev nD) (sm : SemLoc sig) (O : CellTallies nD τ sig Unit)
    (hO : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by
      have := (hO g u hg).1
      rcases g with ⟨⟨d, κ⟩, s⟩
      simp only at this; subst this
      exact Finset.mem_singleton_self _)
    (fun p hp => by rw [Finset.mem_singleton.mp hp])
    (fun g u hg => (hO g u hg).2)

/-! ## What a device owes, in the order it pays -/

/-- The credit device `c` owes its partner's receive cell for step `st` of group `g`. -/
def owedStep (c : Dev nD) (g : Fin 3) (st : Fin 8) : CellTallies nD τ sig Unit :=
  tallyAt (recvCell (partner c g st) g st) () (xferAmt g st)
/-- The unit device `c` owes the barrier of its neighbour in direction `d`. -/
def owedBar (c : Dev nD) (d : Fin 3) : CellTallies nD τ sig Unit := tallyAt (barCell (xr c (dir d))) () 1

/-- What is still owed when the payments in `l` are still to come, the head paid first. -/
def Orem : List (CellTallies nD τ sig Unit) → CellTallies nD τ sig Unit
  | [] => 0
  | x :: xs => Orem xs + x

/-- The payments of device `c` in program order. -/
def payList (c : Dev nD) : List (CellTallies nD τ sig Unit) :=
  [owedBar c 0, owedBar c 1, owedBar c 2,
   owedStep c 0 0, owedStep c 1 0, owedStep c 2 0,
   owedStep c 0 1, owedStep c 1 1, owedStep c 2 1,
   owedStep c 0 3, owedStep c 1 3, owedStep c 2 3,
   owedStep c 0 2, owedStep c 0 4, owedStep c 1 2, owedStep c 1 4, owedStep c 2 2, owedStep c 2 4,
   owedStep c 0 5, owedStep c 1 5, owedStep c 2 5,
   owedStep c 0 6, owedStep c 0 7, owedStep c 1 6, owedStep c 1 7, owedStep c 2 6, owedStep c 2 7]

def O₀ (c : Dev nD) : CellTallies nD τ sig Unit := Orem (payList c)

/-- What the others owe device `c`: its barrier's three units and each receive cell's transfer, listed as `payList`
    lists what `c` owes them. -/
def ownStep (c : Dev nD) (g : Fin 3) (st : Fin 8) : CellTallies nD τ sig Unit := tallyAt (recvCell c g st) () (xferAmt g st)
def ownBar (c : Dev nD) : CellTallies nD τ sig Unit := tallyAt (barCell c) () 1
def ownList (c : Dev nD) : List (CellTallies nD τ sig Unit) :=
  [ownBar c, ownBar c, ownBar c,
   ownStep c 0 0, ownStep c 1 0, ownStep c 2 0,
   ownStep c 0 1, ownStep c 1 1, ownStep c 2 1,
   ownStep c 0 3, ownStep c 1 3, ownStep c 2 3,
   ownStep c 0 2, ownStep c 0 4, ownStep c 1 2, ownStep c 1 4, ownStep c 2 2, ownStep c 2 4,
   ownStep c 0 5, ownStep c 1 5, ownStep c 2 5,
   ownStep c 0 6, ownStep c 0 7, ownStep c 1 6, ownStep c 1 7, ownStep c 2 6, ownStep c 2 7]

theorem above_owedStep (c : Dev nD) (g : Fin 3) (st : Fin 8) {n : ℕ} (h : n < stLv st) : Above n (owedStep c g st) :=
  above_tally _ rfl (by rw [lv_recv]; exact h)
theorem above_owedBar (c : Dev nD) (d : Fin 3) : Above 0 (owedBar c d) :=
  above_tally _ rfl (by rw [lv_bar]; decide)

/-! ## What a device's body starts from and ends with -/

variable (m : (ℓ : Loc nD τ sig) → Buf (Elt F) ℓ)

/-- The one grid point. -/
theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The ghost state at some names, the credit of everything others will pay this device (three units on its barrier,
    each receive cell's transfer) as one token, and the levels. -/
def start (c : Dev nD) : sProp 𝕄 :=
  iprop((∃ K, ghost (Rd m) K c) ∗ cred (Orem (ownList c)) ∗ levAts L lv)

/-- A whole buffer of device `c` at some contents. -/
def anyBuf (c : Dev nD) (b : Ref sig .tc) : sProp 𝕄 :=
  iprop(∃ f : Buf (Elt F) ((c : Thread nD τ).loc b), ((c : Thread nD τ).loc b) ↦{fullShare} f)

/-- The seven scratch buffers, each whole at some contents. -/
def scr (c : Dev nD) : sProp 𝕄 :=
  iprop(anyBuf c cc0_scratch0 ∗ anyBuf c cc0_scratch1 ∗ anyBuf c cc0_scratch2 ∗ anyBuf c cc0_scratch3
    ∗ anyBuf c cc0_scratch4 ∗ anyBuf c cc0_scratch5 ∗ anyBuf c cc0_scratch6)

/-- The result buffer holds every product block in its rows: the block of group `g` and slot `j`, whose rows of the
    left factor belong to device `xr c (mask g j)`, read through its piece of the result. -/
def outOK (c : Dev nD) (X : Buf (Elt F) ((c : Thread nD τ).loc main_v1)) : Prop :=
  (∀ j : Fin 8, stageOK0 m c j ((op0 c (mask 0 j)).view.read (Elt F) X))
  ∧ (∀ j : Fin 8, stageOK1 m c j ((op12 c (mask 1 j) 0).view.read (Elt F) X))
  ∧ (∀ j : Fin 8, stageOK2 m c j ((op12 c (mask 2 j) 1).view.read (Elt F) X))

def Φ₀ (c : Dev nD) : sProp 𝕄 :=
  iprop(start m c ∗ (((c : Thread nD τ).loc main_v1) ↦{fullShare} m ((c : Thread nD τ).loc main_v1)) ∗ scr c)

/-- After the body: the scratch buffers back, the result holding every product block, the 72 own cells closed. -/
def Φ₁ (c : Dev nD) : sProp 𝕄 :=
  iprop(scr c ∗ (∃ X, ⌜outOK m c X⌝ ∗ (((c : Thread nD τ).loc main_v1) ↦{fullShare} X))
    ∗ bigSep Finset.univ fun k : OIx => semVal (kcell (c, Sum.inr k)) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => ystg m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A staged input held whole at a named value. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xstg m c) ∗ stg c cc0_stg1_0 (ystg m c))

/-- The body as the pipeline calls it at the one grid point. -/
abbrev theBody : Prog (TpuEff nD τ sig (Elt F) Λ₀ .tc) PUnit := bodyAt0 (F := F) t0_0

end Cert.KernelIdeal.DM

end
-- ==== Proof.Launch.lean ====
import proofs.«900891_g7700000000000892_dist_matmul_m_i_outrep_m1024_n1024_k512_v7x_i8_f32_1_alg».proof.Proof.State

/-!
The launch: from the body obligation of every device to the run of the whole mesh.

The launch element funds the pipeline's staging cells and the protocol's cells; one step over all devices allocates
every cell's invariant and deals the duty tokens to their payers; the credit the launch deals a device is the credit
of everything it waits for, since what the devices owe, summed over the mesh, is what they wait for; the staging
waits lie below everything a device owes. The result array is no window's: it enters the region as the rest of the
unscoped buffers and is read back from the last point's assertion against the final state.
-/

noncomputable section

namespace Cert.KernelIdeal.DM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The launch credit -/

theorem sum_owedStep (g : Fin 3) (st : Fin 8) : ∑ d : Dev nD, owedStep d g st = ∑ d : Dev nD, ownStep d g st :=
  Equiv.sum_comp (partnerE g st) (fun d : Dev nD => ownStep d g st)
theorem sum_owedBar (dd : Fin 3) : ∑ d : Dev nD, owedBar d dd = ∑ d : Dev nD, ownBar d :=
  Equiv.sum_comp (xrE (dir dd)) (fun d : Dev nD => ownBar d)

/-- Summed over the devices, what is owed is what is waited for. -/
theorem sum_O₀ : (∑ d : Dev nD, O₀ d) = ∑ d : Dev nD, Orem (ownList d) := by
  simp only [O₀, payList, ownList, Orem, Finset.sum_add_distrib, sum_owedStep, sum_owedBar]

/-- What a device waits for is on its own cells. -/
theorem ownList_on (d : Dev nD) (g : GSem nD τ sig) (h : Orem (ownList d) g ≠ 0) : g.1 = (d.tc : Thread nD τ) := by
  by_contra hne
  apply h
  have hc (sm : SemLoc sig) (n : ℕ) : (tallyAt (((d.tc : Thread nD τ), sm) : GSem nD τ sig) () n : CellTallies nD τ sig Unit) g = 0 :=
    tallyAt_ne_cell (fun e => hne (congrArg Prod.fst e)) () n
  simp only [ownList, ownStep, ownBar, Orem, Pi.add_apply, Pi.zero_apply, hc, add_zero]

omit [FloatOps F] in
/-- The launch deals device `c` the credit of everything it waits for. -/
theorem launchCred_eq (c : Dev nD) : (Pipeline.launchCred O₀ c : sProp 𝕄) = cred (Orem (ownList c)) :=
  Pipeline.launchCred_of_sum O₀ (fun d => Orem (ownList d)) sum_O₀ ownList_on c

/-! ## The staging waits -/

/-- Everything a device owes lies above level 0. -/
theorem above_Orem {n : ℕ} {l : List (CellTallies nD τ sig Unit)} (h : ∀ x ∈ l, Above n x) : Above n (Orem l) := by
  induction l with
  | nil => exact above_zero n
  | cons x xs ih => exact above_add (ih fun y hy => h y (List.mem_cons_of_mem _ hy)) (h x List.mem_cons_self)

theorem above_O₀ (c : Dev nD) : Above 0 (O₀ c) := by
  have hb (d : Fin 3) : Above 0 (owedBar c d) := above_owedBar c d
  have hs (g : Fin 3) (st : Fin 8) : Above 0 (owedStep c g st) := above_owedStep c g st (by revert st; decide)
  refine above_Orem ?_
  unfold payList
  simp only [List.forall_mem_cons, hb, hs, true_and]
  intro x hx; cases hx

variable (m : (ℓ : Loc nD τ sig) → Buf (Elt F) ℓ)

theorem waits (c : Dev nD) : (levAts L lv : sProp 𝕄) ⊢ Pipeline.cellsWaits cfgs (dats m) () 0 c :=
  Pipeline.cellsWaits_intro cfgs (dats m) () 0 c fun w s t =>
    mayWait_of_above c _ _ (by
      have h0 : lv ((c : Thread nD τ), SemLoc.dma (((cfgs 0).win w).sem s)) () = 0 := by
        fin_cases w <;> fin_cases s <;> rfl
      rw [h0]
      rcases t with ⟨_ | _, ht⟩
      · exact above_O₀ c
      · exact above_zero 0)

/-! ## The theorem's side conditions -/

theorem share_eq (c : Dev nD) (w : Fin cfg0.W) : (dats m 0 c).share w = fullShare := by unfold Dat.share; split <;> rfl

/-- What a device carries into the region beside the pipeline's own: its start and the result array as launched. -/
def X₀ (c : Dev nD) : sProp 𝕄 :=
  iprop(start m c ∗ (((c : Thread nD τ).loc main_v1) ↦{fullShare} m ((c : Thread nD τ).loc main_v1)))
/-- What it carries out: the result array holding every product block. -/
def Y₁ (c : Dev nD) : sProp 𝕄 :=
  iprop(∃ X, ⌜outOK m c X⌝ ∗ (((c : Thread nD τ).loc main_v1) ↦{fullShare} X))

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Rd m) c)
      ⊢ |={Set.univ}=> iprop(X₀ m c ∗ emp) := by
  rw [Pipeline.unscopedRestP_none, unscopedRest0_eq, launchCred_eq]
  iintro ⟨Hout, Hlev, Hcr, -, HG⟩
  imodintro
  unfold X₀ start G'
  isplitl
  · isplitr [Hout]
    · isplitl [HG]; · iexact HG
      isplitl [Hcr]; · iexact Hcr
      iexact Hlev
    · iexact Hout
  · iempintro

theorem phi0_intro (c : Dev nD) :
    iprop(X₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X₀ scr anyBuf
  iintro ⟨⟨Hs, Ho⟩, -, Hr⟩
  isplitl [Hs]; · iexact Hs
  isplitl [Ho]; · iexact Ho
  iexact Hr

theorem phi1_exit (c : Dev nD) :
    (dats m 0 c).Φ (Fin.last cfg0.N) ⊢ iprop(Y₁ m c ∗ Pipeline.ownSems0 osem c ∗ Pipeline.scopedRest cfg0.spec c) := by
  rw [show (dats m 0 c).Φ (Fin.last cfg0.N) = Φ₁ m c from rfl, scopedRest0_eq]
  unfold Φ₁ Y₁ scr anyBuf Pipeline.ownSems0
  iintro ⟨Hr, Ho, Hz⟩
  isplitl [Ho]; · iexact Ho
  isplitl [Hz]; · iexact Hz
  iexact Hr

/-! ## The run -/

set_option maxRecDepth 65536 in
/-- At the compiled mesh of eight devices, for any float values, from any memory with zero counters, given the body
    obligation of every device: every weakly fair execution of the program terminates, and every final state has each
    device's result array holding every product block in its rows and both factors unchanged. -/
theorem run_main (m : (ℓ : Loc nD τ sig) → Buf (Elt F) ℓ) (ρ : Dev nD → PrngReg)
    (hbody : ∀ c : Dev nD, BodyObligation (dats (F := F) m 0 c) (defs₀ (F := F)) 𝒱₀ () Set.univ) :
    θ_run (defs (F := F)) (onTc (τ := τ) (main (F := F))) ⟨m, fun _ => 0, ρ⟩
      (fun r => ∀ c : Dev nD, outOK m c (r.2.mem ((c.tc : Thread nD τ).loc main_v1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (Rd m)) (G' := G' (Rd m)) (u₀ := u₀)
    (hu₀ := fund_all (Rd m))
    (hglob := glob (Rd m))
    (hA := fun _ _ => rfl) (hpf := fun _ k => k.elim0)
    (X := X₀ m) (Y := Y₁ m) (Z := fun _ => iprop(emp))
    (hX := start_intro m ρ) (hin := phi0_intro m) (hout := phi1_exit m)
    (QY := fun c s => outOK m c (s.mem ((c.tc : Thread nD τ).loc main_v1)))
    (hY := fun c s' => by
      unfold Y₁
      iintro ⟨⟨%X, %hX, Hx⟩, -, HSI⟩
      icombine HSI Hx gives %hx
      imodintro
      isplitr
      · ipureintro
        rw [Buf.eq_of_forall_mem_univ hx]; exact hX
      iexact HSI)
    (hQ := fun s h c => ⟨(h c).2.2,
      ((h c).1 0).trans ((dats (F := F) m 0 c).arrAt_in (0 : Fin 2) rfl _),
      ((h c).1 1).trans ((dats (F := F) m 0 c).arrAt_in (1 : Fin 2) rfl _)⟩)

/-- info: 'Cert.KernelIdeal.DM.run_main' depends on axioms: [propext, Classical.choice, Quot.sound] -/
#guard_msgs in #print axioms run_main

end Cert.KernelIdeal.DM

end
-- ==== Proof.Atoms.lean ====
import proofs.«900891_g7700000000000892_dist_matmul_m_i_outrep_m1024_n1024_k512_v7x_i8_f32_1_alg».proof.Proof.State

/-!
The few assertions about a device's buffers that pass between the steps of its body and are not already named with
the schedule: the two staged inputs held whole, and a stage slot whose rows below 176 already hold the first part of
the last product block.
-/

noncomputable section

namespace Cert.KernelIdeal.DM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The device's block of the left factor, and its copy of the right factor, staged whole. -/
def inA (c : Dev nD) : sProp 𝕄 := ((c : Thread nD τ).loc cc0_stg0_0) ↦{fullShare} xstg m c
def inB (c : Dev nD) : sProp 𝕄 := ((c : Thread nD τ).loc cc0_stg1_0) ↦{fullShare} ystg m c

/-- Stage slot 1 of each group once the rows below 176 of the last product block are in it. -/
def stageTop0 (c : Dev nD) : sProp 𝕄 :=
  iprop(∃ f : Buf (Elt F) ((ss0 1).view.loc (c : Thread nD τ)), ((ss0 1).view.loc (c : Thread nD τ) ↦[(ss0 1).view.set]{fullShare} f)
    ∗ ⌜topRA ((ss0 1).view.read (Elt F) f) = prod176 (topA (sv0 m (xr c (mask 0 7)))) (bv m c)⌝)
def stageTop1 (c : Dev nD) : sProp 𝕄 :=
  iprop(∃ f : Buf (Elt F) ((ss1 1).view.loc (c : Thread nD τ)), ((ss1 1).view.loc (c : Thread nD τ) ↦[(ss1 1).view.set]{fullShare} f)
    ∗ ⌜topRB ((ss1 1).view.read (Elt F) f) = prod176 (topB (sv1 m (xr c (mask 1 7)))) (bv m c)⌝)
def stageTop2 (c : Dev nD) : sProp 𝕄 :=
  iprop(∃ f : Buf (Elt F) ((ss2 1).view.loc (c : Thread nD τ)), ((ss2 1).view.loc (c : Thread nD τ) ↦[(ss2 1).view.set]{fullShare} f)
    ∗ ⌜topRB ((ss2 1).view.read (Elt F) f) = prod176 (topB (sv2 m (xr c (mask 2 7)))) (bv m c)⌝)

/-- Product block `j` of each group sitting in its stage slot. -/
def stageHas0 (c : Dev nD) (j : Fin 8) : sProp 𝕄 := iprop(∃ w, ⌜stageOK0 m c j w⌝ ∗ holdsPts c (ss0 (par j)) fullShare w)
def stageHas1 (c : Dev nD) (j : Fin 8) : sProp 𝕄 := iprop(∃ w, ⌜stageOK1 m c j w⌝ ∗ holdsPts c (ss1 (par j)) fullShare w)
def stageHas2 (c : Dev nD) (j : Fin 8) : sProp 𝕄 := iprop(∃ w, ⌜stageOK2 m c j w⌝ ∗ holdsPts c (ss2 (par j)) fullShare w)

/-- Product block `j` of each group landed in its rows of the result. -/
def pieceDone0 (c : Dev nD) (j : Fin 8) : sProp 𝕄 := iprop(∃ w, ⌜stageOK0 m c j w⌝ ∗ holdsPts c (op0 c (mask 0 j)) fullShare w)
def pieceDone1 (c : Dev nD) (j : Fin 8) : sProp 𝕄 := iprop(∃ w, ⌜stageOK1 m c j w⌝ ∗ holdsPts c (op12 c (mask 1 j) 0) fullShare w)
def pieceDone2 (c : Dev nD) (j : Fin 8) : sProp 𝕄 := iprop(∃ w, ⌜stageOK2 m c j w⌝ ∗ holdsPts c (op12 c (mask 2 j) 1) fullShare w)

/-! ## By group -/

/-- Slot `k` of group `g`'s gather buffer at some contents; filled, at share `q`; the two parts of a filled slot. -/
def slotAny (c : Dev nD) (g : Fin 3) (k : Fin 8) : sProp 𝕄 := match g with
  | 0 => anyPts c (gs0 k) | 1 => anyPts c (gs1 k) | 2 => anyPts c (gs2 k)
def slotHas (c : Dev nD) (g : Fin 3) (k : Fin 8) (q : PosShare TreeShare) : sProp 𝕄 := match g with
  | 0 => holdsPts c (gs0 k) q (sv0 m (xr c (mask 0 k)))
  | 1 => holdsPts c (gs1 k) q (sv1 m (xr c (mask 1 k)))
  | 2 => holdsPts c (gs2 k) q (sv2 m (xr c (mask 2 k)))
def slotTop (c : Dev nD) (g : Fin 3) (k : Fin 8) (q : PosShare TreeShare) : sProp 𝕄 := match g with
  | 0 => holdsPts c (ga0 k) q (topA (sv0 m (xr c (mask 0 k))))
  | 1 => holdsPts c (ga1 k) q (topB (sv1 m (xr c (mask 1 k))))
  | 2 => holdsPts c (ga2 k) q (topB (sv2 m (xr c (mask 2 k))))
def slotBot (c : Dev nD) (g : Fin 3) (k : Fin 8) (q : PosShare TreeShare) : sProp 𝕄 := match g with
  | 0 => holdsPts c (gb0 k) q (botA (sv0 m (xr c (mask 0 k))))
  | 1 => holdsPts c (gb1 k) q (botB (sv1 m (xr c (mask 1 k))))
  | 2 => holdsPts c (gb2 k) q (botB (sv2 m (xr c (mask 2 k))))
def stageAny (c : Dev nD) (g : Fin 3) (p : Fin 2) : sProp 𝕄 := match g with
  | 0 => anyPts c (ss0 p) | 1 => anyPts c (ss1 p) | 2 => anyPts c (ss2 p)
def stageHas (c : Dev nD) (g : Fin 3) (j : Fin 8) : sProp 𝕄 := match g with
  | 0 => stageHas0 m c j | 1 => stageHas1 m c j | 2 => stageHas2 m c j
def stageTop (c : Dev nD) (g : Fin 3) : sProp 𝕄 := match g with
  | 0 => stageTop0 m c | 1 => stageTop1 m c | 2 => stageTop2 m c
def pieceAny (c : Dev nD) (g : Fin 3) (j : Fin 8) : sProp 𝕄 := match g with
  | 0 => anyPts c (op0 c (mask 0 j)) | 1 => anyPts c (op12 c (mask 1 j) 0) | 2 => anyPts c (op12 c (mask 2 j) 1)
def pieceDone (c : Dev nD) (g : Fin 3) (j : Fin 8) : sProp 𝕄 := match g with
  | 0 => pieceDone0 m c j | 1 => pieceDone1 m c j | 2 => pieceDone2 m c j

/-! ## What the body's first step has in hand, and what its last step must have -/

/-- Everything the body starts from, piece by piece: the shared records and levels, what is owed, the credit of what
    the others will pay, the positions and duty tokens of the device's cells, the staged inputs, and every buffer cut
    into the pieces the program handles: slot 0 of each gather buffer kept, the other slots as the targets to hand over
    at entry, the stage slots, the pieces of the result. -/
def Init (K : Dev nD × CIx → ℕ) (c : Dev nD) : sProp 𝕄 :=
  iprop(records (Rd m) K ∗ levAts L lv ∗ (∃ W, owes (c : Thread nD τ) (O₀ c) W)
    ∗ cred (tallyAt (barCell c) () 3)
    ∗ (bigSep Finset.univ fun gk : Fin 3 × Fin 8 => cred (tallyAt (recvCell c gk.1 gk.2) () (xferAmt gk.1 gk.2)))
    ∗ linear c
    ∗ inA m c ∗ inB m c ∗ anyPts c b16M
    ∗ (bigSep Finset.univ fun g : Fin 3 => slotAny c g 0)
    ∗ (bigSep Finset.univ fun gk : Fin 3 × Fin 8 => dstAny c gk.1 gk.2)
    ∗ (bigSep Finset.univ fun gp : Fin 3 × Fin 2 => stageAny c gp.1 gp.2)
    ∗ (bigSep Finset.univ fun gj : Fin 3 × Fin 8 => pieceAny c gj.1 gj.2))

/-- The shares of a group's gather buffer at the end: slot 0 in the four shares it was cut in, slot 1 in three, slot 2
    in two, slot 3 as its kept half and the two parts of the other half, slots 4 to 6 whole, slot 7 in its two parts. -/
def laneEnd (c : Dev nD) (g : Fin 3) : sProp 𝕄 :=
  iprop(slotHas m c g 0 fullShare.left.left.left ∗ slotHas m c g 0 fullShare.left.left.right ∗ slotHas m c g 0 fullShare.left.right ∗ slotHas m c g 0 fullShare.right
    ∗ slotHas m c g 1 fullShare.left.left ∗ slotHas m c g 1 fullShare.left.right ∗ slotHas m c g 1 fullShare.right
    ∗ slotHas m c g 2 fullShare.left ∗ slotHas m c g 2 fullShare.right
    ∗ slotTop m c g 3 fullShare.left ∗ slotBot m c g 3 fullShare.left ∗ slotHas m c g 3 fullShare.right
    ∗ slotHas m c g 4 fullShare ∗ slotHas m c g 5 fullShare ∗ slotHas m c g 6 fullShare
    ∗ slotTop m c g 7 fullShare ∗ slotBot m c g 7 fullShare)

/-- Everything in hand after the body's last wait. -/
def Final (K : Dev nD × CIx → ℕ) (c : Dev nD) : sProp 𝕄 :=
  iprop(records (Rd m) K ∗ (∃ W, owes (c : Thread nD τ) 0 W)
    ∗ (bigSep Finset.univ fun k : OIx => atPos ER (kcell (c, Sum.inr k)) 1 ∅ 0)
    ∗ inA m c ∗ inB m c ∗ holdsPts c b16M fullShare (bv m c)
    ∗ (bigSep Finset.univ fun g : Fin 3 => laneEnd m c g)
    ∗ (bigSep Finset.univ fun gp : Fin 3 × Fin 2 => stageAny c gp.1 gp.2)
    ∗ (bigSep Finset.univ fun gj : Fin 3 × Fin 8 => pieceDone m c gj.1 gj.2))

end Cert.KernelIdeal.DM

end
-- ==== Proof.BodyWrap.lean ====
import proofs.«900891_g7700000000000892_dist_matmul_m_i_outrep_m1024_n1024_k512_v7x_i8_f32_1_alg».proof.Proof.Atoms
set_option maxRecDepth 16384

/-!
The body obligation of the launch theorem at the one grid point, from the run of a device's body: the pipeline's two
windows are opened, the staged inputs are named, and the run is applied.
-/
noncomputable section
namespace Cert.KernelIdeal.DM
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (K : Dev nD × CIx → ℕ)

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The run of device `c`'s body from what the launch hands it to what it hands back. -/
def SoundBody : Prop :=
  ∀ (c : Dev nD) (Kt : PUnit → sProp 𝕄),
    iprop(bodyPre m c ∗ (bodyPost m c -∗ Kt ⟨⟩))
      ⊢ wp frame (wpE (defs₀ (F := F)) 𝒱₀ (c : Thread nD τ) none) Set.univ (cc0_body aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9) Kt

theorem body_obligation (h : SoundBody m) (c : Dev nD) : BodyObligation (dats (F := F) m 0 c) (defs₀ (F := F)) 𝒱₀ () Set.univ := fun t => by
  rw [fin_N t]
  rw [bigSep_W, bigSep_W]
  simp only [owns_whole_eq]
  show bodyPre m c ⊢ wp frame (wpE (defs₀ (F := F)) 𝒱₀ (c : Thread nD τ) none) Set.univ (cc0_body aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9) (fun _ => bodyPost m c)
  iintro H
  iapply (h c fun _ => bodyPost m c)
  isplitl [H]
  · iexact H
  · iintro H; iexact H

end Cert.KernelIdeal.DM
end
-- ==== Proof.OpsWait.lean ====
import proofs.«900891_g7700000000000892_dist_matmul_m_i_outrep_m1024_n1024_k512_v7x_i8_f32_1_alg».proof.Proof.Atoms
import Idealize.ShloMosaic.Lib.Rounds
import Idealize.ShloMosaic.Rules.Auth
import Idealize.ShloMosaic.Rules.Footprints

/-!
The waits of a device on its own transfer cells, the closing of those cells, and the bookkeeping around them.

Each of a device's seventy-two transfer cells lives one round with one duty, so a wait for the cell's whole amount is
a wait for the rest of its round: it hands over the duty's payload (the share of the source back, the filled target,
or the copied product block with its stage slot) and moves the device to round 1, from where no round has a duty and
the cell can be closed, its counter at zero. A wait is allowed when everything the device still owes lies above the
waited cell's level. Beside the three waits: the split of the launch credit into one token per cell, and the
conjunctions over (group, step) written out term by term.
-/

noncomputable section

namespace Cert.KernelIdeal.DM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Conjunctions over (group, step), term by term -/

/-- A conjunction over the twenty-four (group, step) pairs, in lexicographic order. -/
theorem bigSep_gk {M : Type} [URA M] (Φ : Fin 3 × Fin 8 → sProp M) :
    bigSep Finset.univ Φ = iprop(Φ (0, 0) ∗ Φ (0, 1) ∗ Φ (0, 2) ∗ Φ (0, 3) ∗ Φ (0, 4) ∗ Φ (0, 5) ∗ Φ (0, 6) ∗ Φ (0, 7) ∗ Φ (1, 0) ∗ Φ (1, 1) ∗ Φ (1, 2) ∗ Φ (1, 3) ∗ Φ (1, 4) ∗ Φ (1, 5) ∗ Φ (1, 6) ∗ Φ (1, 7) ∗ Φ (2, 0) ∗ Φ (2, 1) ∗ Φ (2, 2) ∗ Φ (2, 3) ∗ Φ (2, 4) ∗ Φ (2, 5) ∗ Φ (2, 6) ∗ Φ (2, 7)) := by
  rw [bigSep_univ_eq_bigSepL [(0, 0), (0, 1), (0, 2), (0, 3), (0, 4), (0, 5), (0, 6), (0, 7), (1, 0), (1, 1), (1, 2), (1, 3), (1, 4), (1, 5), (1, 6), (1, 7), (2, 0), (2, 1), (2, 2), (2, 3), (2, 4), (2, 5), (2, 6), (2, 7)] (by decide) (by decide)]
  simp only [bigSepL_cons_cons, bigSepL_singleton]
  rfl

variable (m : (ℓ : Loc nD τ sig) → Buf (Elt F) ℓ) (K : Dev nD × CIx → ℕ) (c : Dev nD)

omit [FloatOps F] in
/-- What stays with a device, by kind of cell: its positions on the barrier cell and on the three arrays of transfer
    cells, the three barrier tokens it pays its neighbours with, and the tokens of its partners' receive cells, of its
    own send cells and of its own copy cells. -/
theorem linear_eq :
    (linear c : sProp 𝕄) = iprop((atPos ER (barCell c) 0 ∅ 0
        ∗ (bigSep Finset.univ fun gk : Fin 3 × Fin 8 => atPos ER (sendCell c gk.1 gk.2) 0 ∅ 0)
        ∗ (bigSep Finset.univ fun gk : Fin 3 × Fin 8 => atPos ER (recvCell c gk.1 gk.2) 0 ∅ 0)
        ∗ (bigSep Finset.univ fun gk : Fin 3 × Fin 8 => atPos ER (copyCell c gk.1 gk.2) 0 ∅ 0))
      ∗ (dutyTok ER (barCell (xr c (dir 0))) 0 0 ∗ dutyTok ER (barCell (xr c (dir 1))) 0 1 ∗ dutyTok ER (barCell (xr c (dir 2))) 0 2)
      ∗ (bigSep Finset.univ fun gk : Fin 3 × Fin 8 => dutyTok ER (recvCell (partner c gk.1 gk.2) gk.1 gk.2) 0 0)
      ∗ (bigSep Finset.univ fun gk : Fin 3 × Fin 8 => dutyTok ER (sendCell c gk.1 gk.2) 0 0)
      ∗ (bigSep Finset.univ fun gk : Fin 3 × Fin 8 => dutyTok ER (copyCell c gk.1 gk.2) 0 0)) := by
  unfold linear payToks
  rw [bigSep_CIx, bigSep_OIx, bigSep_fin3]
  simp only [bigSep_sep']
  rfl

/-! ## The launch credit, one token per cell -/

omit [FloatOps F] in
/-- The credit of everything others pay a device: three units on its barrier cell, and each receive cell's transfer. -/
theorem credits_split :
    (cred (Orem (ownList c)) : sProp 𝕄) ⊢ iprop(cred (tallyAt (barCell c) () 3)
      ∗ bigSep Finset.univ fun gk : Fin 3 × Fin 8 => cred (tallyAt (recvCell c gk.1 gk.2) () (xferAmt gk.1 gk.2))) := by
  have h3 : (tallyAt (barCell c) () 3 : CellTallies nD τ sig Unit)
      = tallyAt (barCell c) () 1 + (tallyAt (barCell c) () 1 + tallyAt (barCell c) () 1) := by
    rw [tallyAt_add, tallyAt_add]
  rw [bigSep_gk, h3]
  simp only [ownList, Orem, ownStep, ownBar]
  iintro H
  icases H with ⟨⟨⟨⟨⟨⟨⟨⟨⟨⟨⟨⟨⟨⟨⟨⟨⟨⟨⟨⟨⟨⟨⟨⟨⟨⟨⟨-, S2_7⟩, S2_6⟩, S1_7⟩, S1_6⟩, S0_7⟩, S0_6⟩, S2_5⟩, S1_5⟩, S0_5⟩, S2_4⟩, S2_2⟩, S1_4⟩, S1_2⟩, S0_4⟩, S0_2⟩, S2_3⟩, S1_3⟩, S0_3⟩, S2_1⟩, S1_1⟩, S0_1⟩, S2_0⟩, S1_0⟩, S0_0⟩, B3⟩, B2⟩, B1⟩
  isplitl [B1 B2 B3]
  · isplitl [B1]; · iexact B1
    isplitl [B2]; · iexact B2
    iexact B3
  isplitl [S0_0]; · iexact S0_0
  isplitl [S0_1]; · iexact S0_1
  isplitl [S0_2]; · iexact S0_2
  isplitl [S0_3]; · iexact S0_3
  isplitl [S0_4]; · iexact S0_4
  isplitl [S0_5]; · iexact S0_5
  isplitl [S0_6]; · iexact S0_6
  isplitl [S0_7]; · iexact S0_7
  isplitl [S1_0]; · iexact S1_0
  isplitl [S1_1]; · iexact S1_1
  isplitl [S1_2]; · iexact S1_2
  isplitl [S1_3]; · iexact S1_3
  isplitl [S1_4]; · iexact S1_4
  isplitl [S1_5]; · iexact S1_5
  isplitl [S1_6]; · iexact S1_6
  isplitl [S1_7]; · iexact S1_7
  isplitl [S2_0]; · iexact S2_0
  isplitl [S2_1]; · iexact S2_1
  isplitl [S2_2]; · iexact S2_2
  isplitl [S2_3]; · iexact S2_3
  isplitl [S2_4]; · iexact S2_4
  isplitl [S2_5]; · iexact S2_5
  isplitl [S2_6]; · iexact S2_6
  iexact S2_7

/-! ## The three waits -/

/-- The wait on the send cell of step `st` of group `g`: the share of the source slot comes back. -/
theorem wait_send (g : Fin 3) (st : Fin 8) (O : CellTallies nD τ sig Unit) (W : Waits sig Unit) (hab : Above 0 O)
    {sp sp' : Space} {s s' : Shape} {e e' : EltTy} {sem : DmaSem sig}
    {src : Memref sig .tc sp' s' e'} {κ' : Kind} {dst : Memref sig κ' sp s e}
    {hsrc : src.view.WordExact} {hdst : dst.view.WordExact}
    (hsem : sem = sendS g st) (hamt : dst.view.dmaCredit = xferAmt g st)
    {α : Type} {Q : α → sProp 𝕄} {k : PUnit → Prog (TpuEff nD τ sig (Elt F) Λ₀ .tc) α} :
    iprop(records (Rd m) K ∗ levAts L lv ∗ cred (tallyAt (sendCell c g st) () (xferAmt g st))
        ∗ atPos ER (sendCell c g st) 0 ∅ 0 ∗ owes (c : Thread nD τ) O W)
      ⊢ iprop(((sendPay m c g st ∗ atPos ER (sendCell c g st) 1 ∅ 0
              ∗ owes (c : Thread nD τ) O (insert (SemLoc.dma (sendS g st), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hsem
  iintro ⟨#Hrec, #Hlev, Hc, Hat, HO⟩ Hk
  iapply (Rounds.wp_wait_rest_token 𝒱₀ ER (Rd m) (c : Thread nD τ) none (κ := K (c, Sum.inr (0, g, st)))
      (w := .waitDma2 (sendS g st) src dst hsrc hdst) (sm := .dma (sendS g st)) (k' := dst.view.dmaCredit)
      (wpE_waitDma2_eq 𝒱₀ (c : Thread nD τ) none Set.univ) (Set.mem_univ _) () (O := O) (W := W) (R := 0) (m := 0) (T := ∅)
      (by rw [Nat.zero_add, hamt, expect_send])) $$ [Hc HO Hat]
  · isplitr; · iapply (records_inv (Rd m) K (c, Sum.inr (0, g, st))); iexact Hrec
    isplitl [Hc]; · rw [hamt]; iexact Hc
    isplitl [HO]; · iexact HO
    isplitr; · iapply (mayWait_of_above c (.dma (sendS g st)) O (by rw [lv_send]; exact hab)); iexact Hlev
    iexact Hat
  iintro ⟨HO, Hat, -, Hpay⟩
  iapply Hk
  isplitl [Hpay]; · iapply (Entails.of_eq (rest_send m c g st)); iexact Hpay
  isplitl [Hat]; · iexact Hat
  iexact HO

/-- The wait on the receive cell of step `st` of group `g`: the target slot comes filled with the partner's rows. -/
theorem wait_recv (g : Fin 3) (st : Fin 8) (O : CellTallies nD τ sig Unit) (W : Waits sig Unit) (hab : Above (stLv st) O)
    {sp sp' : Space} {s s' : Shape} {e e' : EltTy} {sem : DmaSem sig}
    {src : Memref sig .tc sp' s' e'} {κ' : Kind} {dst : Memref sig κ' sp s e}
    {hsrc : src.view.WordExact} {hdst : dst.view.WordExact}
    (hsem : sem = recvS g st) (hamt : dst.view.dmaCredit = xferAmt g st)
    {α : Type} {Q : α → sProp 𝕄} {k : PUnit → Prog (TpuEff nD τ sig (Elt F) Λ₀ .tc) α} :
    iprop(records (Rd m) K ∗ levAts L lv ∗ cred (tallyAt (recvCell c g st) () (xferAmt g st))
        ∗ atPos ER (recvCell c g st) 0 ∅ 0 ∗ owes (c : Thread nD τ) O W)
      ⊢ iprop(((recvPay m c g st ∗ atPos ER (recvCell c g st) 1 ∅ 0
              ∗ owes (c : Thread nD τ) O (insert (SemLoc.dma (recvS g st), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hsem
  iintro ⟨#Hrec, #Hlev, Hc, Hat, HO⟩ Hk
  iapply (Rounds.wp_wait_rest_token 𝒱₀ ER (Rd m) (c : Thread nD τ) none (κ := K (c, Sum.inr (1, g, st)))
      (w := .waitDma2 (recvS g st) src dst hsrc hdst) (sm := .dma (recvS g st)) (k' := dst.view.dmaCredit)
      (wpE_waitDma2_eq 𝒱₀ (c : Thread nD τ) none Set.univ) (Set.mem_univ _) () (O := O) (W := W) (R := 0) (m := 0) (T := ∅)
      (by rw [Nat.zero_add, hamt, expect_recv])) $$ [Hc HO Hat]
  · isplitr; · iapply (records_inv (Rd m) K (c, Sum.inr (1, g, st))); iexact Hrec
    isplitl [Hc]; · rw [hamt]; iexact Hc
    isplitl [HO]; · iexact HO
    isplitr; · iapply (mayWait_of_above c (.dma (recvS g st)) O (by rw [lv_recv]; exact hab)); iexact Hlev
    iexact Hat
  iintro ⟨HO, Hat, -, Hpay⟩
  iapply Hk
  isplitl [Hpay]; · iapply (Entails.of_eq (rest_recv m c g st)); iexact Hpay
  isplitl [Hat]; · iexact Hat
  iexact HO

/-- The wait on the copy cell of product block `j` of group `g`: the block's rows of the result hold it, and its
    stage slot is free again. -/
theorem wait_copy (g : Fin 3) (j : Fin 8) (O : CellTallies nD τ sig Unit) (W : Waits sig Unit) (hab : Above 0 O)
    {sp sp' : Space} {s s' : Shape} {e e' : EltTy} {sem : DmaSem sig}
    {src : Memref sig .tc sp' s' e'} {κ' : Kind} {dst : Memref sig κ' sp s e}
    {hsrc : src.view.WordExact} {hdst : dst.view.WordExact}
    (hsem : sem = copyS g j) (hamt : dst.view.dmaCredit = copyAmt g)
    {α : Type} {Q : α → sProp 𝕄} {k : PUnit → Prog (TpuEff nD τ sig (Elt F) Λ₀ .tc) α} :
    iprop(records (Rd m) K ∗ levAts L lv ∗ cred (tallyAt (copyCell c g j) () (copyAmt g))
        ∗ atPos ER (copyCell c g j) 0 ∅ 0 ∗ owes (c : Thread nD τ) O W)
      ⊢ iprop(((copyPay m c g j ∗ atPos ER (copyCell c g j) 1 ∅ 0
              ∗ owes (c : Thread nD τ) O (insert (SemLoc.dma (copyS g j), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hsem
  iintro ⟨#Hrec, #Hlev, Hc, Hat, HO⟩ Hk
  iapply (Rounds.wp_wait_rest_token 𝒱₀ ER (Rd m) (c : Thread nD τ) none (κ := K (c, Sum.inr (2, g, j)))
      (w := .waitDma2 (copyS g j) src dst hsrc hdst) (sm := .dma (copyS g j)) (k' := dst.view.dmaCredit)
      (wpE_waitDma2_eq 𝒱₀ (c : Thread nD τ) none Set.univ) (Set.mem_univ _) () (O := O) (W := W) (R := 0) (m := 0) (T := ∅)
      (by rw [Nat.zero_add, hamt, expect_copy])) $$ [Hc HO Hat]
  · isplitr; · iapply (records_inv (Rd m) K (c, Sum.inr (2, g, j))); iexact Hrec
    isplitl [Hc]; · rw [hamt]; iexact Hc
    isplitl [HO]; · iexact HO
    isplitr; · iapply (mayWait_of_above c (.dma (copyS g j)) O (by rw [lv_copy]; exact hab)); iexact Hlev
    iexact Hat
  iintro ⟨HO, Hat, -, Hpay⟩
  iapply Hk
  isplitl [Hpay]; · iapply (Entails.of_eq (rest_copy m c g j)); iexact Hpay
  isplitl [Hat]; · iexact Hat
  iexact HO

/-! ## Closing the own cells -/

/-- An own transfer cell past its one round is closed: its counter is at zero and stays. -/
theorem close_cell (k : OIx) :
    iprop(records (Rd m) K ∗ atPos ER (kcell (c, Sum.inr k)) 1 ∅ 0) ⊢ (|={Set.univ}=> semVal (kcell (c, Sum.inr k)) 0 : sProp 𝕄) := by
  iintro ⟨#Hrec, Hat⟩
  iapply (Rounds.cell_close ER (Rd m) (Set.mem_univ (K (c, Sum.inr k))) (fun h => h) (R := 1) (duties_later m (kcell (c, Sum.inr k))))
  isplitr; · iapply (records_inv (Rd m) K (c, Sum.inr k)); iexact Hrec
  iexact Hat

theorem close_send (g : Fin 3) (st : Fin 8) :
    iprop(records (Rd m) K ∗ atPos ER (sendCell c g st) 1 ∅ 0) ⊢ (|={Set.univ}=> semVal (sendCell c g st) 0 : sProp 𝕄) :=
  close_cell m K c (0, g, st)
theorem close_recv (g : Fin 3) (st : Fin 8) :
    iprop(records (Rd m) K ∗ atPos ER (recvCell c g st) 1 ∅ 0) ⊢ (|={Set.univ}=> semVal (recvCell c g st) 0 : sProp 𝕄) :=
  close_cell m K c (1, g, st)
theorem close_copy (g : Fin 3) (j : Fin 8) :
    iprop(records (Rd m) K ∗ atPos ER (copyCell c g j) 1 ∅ 0) ⊢ (|={Set.univ}=> semVal (copyCell c g j) 0 : sProp 𝕄) :=
  close_cell m K c (2, g, j)

/-- All seventy-two own cells, each past its one round, closed at once. -/
theorem close_all :
    iprop(records (Rd m) K
        ∗ (bigSep Finset.univ fun gk : Fin 3 × Fin 8 => atPos ER (sendCell c gk.1 gk.2) 1 ∅ 0)
        ∗ (bigSep Finset.univ fun gk : Fin 3 × Fin 8 => atPos ER (recvCell c gk.1 gk.2) 1 ∅ 0)
        ∗ (bigSep Finset.univ fun gk : Fin 3 × Fin 8 => atPos ER (copyCell c gk.1 gk.2) 1 ∅ 0))
      ⊢ (|={Set.univ}=> bigSep Finset.univ fun k : OIx => semVal (kcell (c, Sum.inr k)) 0 : sProp 𝕄) := by
  have h : iprop(records (Rd m) K ∗ bigSep Finset.univ fun k : OIx => atPos ER (kcell (c, Sum.inr k)) 1 ∅ 0)
      ⊢ (|={Set.univ}=> bigSep Finset.univ fun k : OIx => semVal (kcell (c, Sum.inr k)) 0 : sProp 𝕄) :=
    (bigSep_with_persistent (R := records (Rd m) K) (Φ := fun k : OIx => (atPos ER (kcell (c, Sum.inr k)) 1 ∅ 0 : sProp 𝕄))
      (Ψ := fun k : OIx => iprop(|={Set.univ}=> semVal (kcell (c, Sum.inr k)) 0)) fun k _ => close_cell m K c k).trans (bigSep_fupd _ _)
  iintro ⟨#Hrec, HS, HR, HC⟩
  iapply h
  isplitr; · iexact Hrec
  rw [bigSep_OIx]
  isplitl [HS]; · iexact HS
  isplitl [HR]; · iexact HR
  iexact HC

/-! ## The waits as printed

A wait names a target view only for its credit, which on this chip depends on the view's shape and element type alone:
steps 0 to 5 move a whole slot, the two last steps the two parts of one, flattened to rows by lanes; a copy moves a
product block. With the target's shape fixed by the step, the amount is the step's. -/

/-- The shape of the target of a transfer wait, and of a copy wait. -/
def xferShape (g : Fin 3) (st : Fin 8) : Shape := match g with
  | 0 => if st = 6 then S176x512 else if st = 7 then S176x512 else S1x352x512
  | 1 => if st = 6 then S176x512 else if st = 7 then S160x512 else S1x336x512
  | 2 => if st = 6 then S176x512 else if st = 7 then S160x512 else S1x336x512
def copyShape (g : Fin 3) : Shape := match g with
  | 0 => S352x1024
  | 1 => S336x1024
  | 2 => S336x1024

/-! The targets the printed waits name: a slot, one of the two parts of a slot flattened to rows by lanes, or the first
rows of the result (a copy wait names them whatever piece the copy wrote: only the credit matters). -/
abbrev qa0 (k : Fin 8) : Memref sig .tc .vmem S176x512 .bf16 := (ga0 k).squeeze S176x512 squeezes_S1x176x512_S176x512
abbrev qb0 (k : Fin 8) : Memref sig .tc .vmem S176x512 .bf16 := (gb0 k).squeeze S176x512 squeezes_S1x176x512_S176x512
abbrev qa1 (k : Fin 8) : Memref sig .tc .vmem S176x512 .bf16 := (ga1 k).squeeze S176x512 squeezes_S1x176x512_S176x512
abbrev qb1 (k : Fin 8) : Memref sig .tc .vmem S160x512 .bf16 := (gb1 k).squeeze S160x512 squeezes_S1x160x512_S160x512
abbrev qa2 (k : Fin 8) : Memref sig .tc .vmem S176x512 .bf16 := (ga2 k).squeeze S176x512 squeezes_S1x176x512_S176x512
abbrev qb2 (k : Fin 8) : Memref sig .tc .vmem S160x512 .bf16 := (gb2 k).squeeze S160x512 squeezes_S1x160x512_S160x512
abbrev cw0 : Memref sig .tc .hbm S352x1024 .f32 :=
  oM.slice (Rect.unit (s := S8192x1024) ![0, 0] S352x1024.size inb_S8192x1024_S352x1024_0_0) (fun _ => rfl)
abbrev cw12 : Memref sig .tc .hbm S336x1024 .f32 :=
  oM.slice (Rect.unit (s := S8192x1024) ![0, 0] S336x1024.size inb_S8192x1024_S336x1024_0_0) (fun _ => rfl)

theorem xferCredit_eq : ∀ (g : Fin 3) (st : Fin 8), RefSig.tileCredit (xferShape g st) .bf16 = xferAmt g st := by decide
theorem copyCredit_eq : ∀ g : Fin 3, RefSig.tileCredit (copyShape g) .f32 = copyAmt g := by decide

theorem amt_xfer (g : Fin 3) (st : Fin 8) {sp : Space} (dst : Memref sig .tc sp (xferShape g st) .bf16) :
    dst.view.dmaCredit = xferAmt g st := xferCredit_eq g st
theorem amt_copy (g : Fin 3) {sp : Space} (dst : Memref sig .tc sp (copyShape g) .f32) :
    dst.view.dmaCredit = copyAmt g := copyCredit_eq g

/-- The same, its two side conditions decided: for the printed wait of this step, whose target has the step's shape. -/
theorem wait_send' (g : Fin 3) (st : Fin 8) (O : CellTallies nD τ sig Unit) (W : Waits sig Unit) (hab : Above 0 O)
    {sp sp' : Space} {s' : Shape} {e' : EltTy}
    {src : Memref sig .tc sp' s' e'} {dst : Memref sig .tc sp (xferShape g st) .bf16}
    {hsrc : src.view.WordExact} {hdst : dst.view.WordExact}
    {α : Type} {Q : α → sProp 𝕄} {k : PUnit → Prog (TpuEff nD τ sig (Elt F) Λ₀ .tc) α} :
    iprop(records (Rd m) K ∗ levAts L lv ∗ cred (tallyAt (sendCell c g st) () (xferAmt g st))
        ∗ atPos ER (sendCell c g st) 0 ∅ 0 ∗ owes (c : Thread nD τ) O W)
      ⊢ iprop(((sendPay m c g st ∗ atPos ER (sendCell c g st) 1 ∅ 0
              ∗ owes (c : Thread nD τ) O (insert (SemLoc.dma (sendS g st), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS g st) src dst hsrc hdst) k) Q) :=
  wait_send m K c g st O W hab rfl (amt_xfer g st dst)

/-- The same, its two side conditions decided: for the printed wait of this step, whose target has the step's shape. -/
theorem wait_recv' (g : Fin 3) (st : Fin 8) (O : CellTallies nD τ sig Unit) (W : Waits sig Unit) (hab : Above (stLv st) O)
    {sp sp' : Space} {s' : Shape} {e' : EltTy}
    {src : Memref sig .tc sp' s' e'} {dst : Memref sig .tc sp (xferShape g st) .bf16}
    {hsrc : src.view.WordExact} {hdst : dst.view.WordExact}
    {α : Type} {Q : α → sProp 𝕄} {k : PUnit → Prog (TpuEff nD τ sig (Elt F) Λ₀ .tc) α} :
    iprop(records (Rd m) K ∗ levAts L lv ∗ cred (tallyAt (recvCell c g st) () (xferAmt g st))
        ∗ atPos ER (recvCell c g st) 0 ∅ 0 ∗ owes (c : Thread nD τ) O W)
      ⊢ iprop(((recvPay m c g st ∗ atPos ER (recvCell c g st) 1 ∅ 0
              ∗ owes (c : Thread nD τ) O (insert (SemLoc.dma (recvS g st), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS g st) src dst hsrc hdst) k) Q) :=
  wait_recv m K c g st O W hab rfl (amt_xfer g st dst)

/-- The same, its two side conditions decided: for the printed wait of this step, whose target has the step's shape. -/
theorem wait_copy' (g : Fin 3) (j : Fin 8) (O : CellTallies nD τ sig Unit) (W : Waits sig Unit) (hab : Above 0 O)
    {sp sp' : Space} {s' : Shape} {e' : EltTy}
    {src : Memref sig .tc sp' s' e'} {dst : Memref sig .tc sp (copyShape g) .f32}
    {hsrc : src.view.WordExact} {hdst : dst.view.WordExact}
    {α : Type} {Q : α → sProp 𝕄} {k : PUnit → Prog (TpuEff nD τ sig (Elt F) Λ₀ .tc) α} :
    iprop(records (Rd m) K ∗ levAts L lv ∗ cred (tallyAt (copyCell c g j) () (copyAmt g))
        ∗ atPos ER (copyCell c g j) 0 ∅ 0 ∗ owes (c : Thread nD τ) O W)
      ⊢ iprop(((copyPay m c g j ∗ atPos ER (copyCell c g j) 1 ∅ 0
              ∗ owes (c : Thread nD τ) O (insert (SemLoc.dma (copyS g j), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (copyS g j) src dst hsrc hdst) k) Q) :=
  wait_copy m K c g j O W hab rfl (amt_copy g dst)

/-- info: 'Cert.KernelIdeal.DM.bigSep_gk' depends on axioms: [propext, Classical.choice, Quot.sound] -/
#guard_msgs in #print axioms bigSep_gk

/-- info: 'Cert.KernelIdeal.DM.linear_eq' depends on axioms: [propext, Classical.choice, Quot.sound] -/
#guard_msgs in #print axioms linear_eq

/-- info: 'Cert.KernelIdeal.DM.credits_split' depends on axioms: [propext, Classical.choice, Quot.sound] -/
#guard_msgs in #print axioms credits_split

/-- info: 'Cert.KernelIdeal.DM.wait_send' depends on axioms: [propext, Classical.choice, Quot.sound] -/
#guard_msgs in #print axioms wait_send

/-- info: 'Cert.KernelIdeal.DM.wait_recv' depends on axioms: [propext, Classical.choice, Quot.sound] -/
#guard_msgs in #print axioms wait_recv

/-- info: 'Cert.KernelIdeal.DM.wait_copy' depends on axioms: [propext, Classical.choice, Quot.sound] -/
#guard_msgs in #print axioms wait_copy

/-- info: 'Cert.KernelIdeal.DM.close_cell' depends on axioms: [propext, Classical.choice, Quot.sound] -/
#guard_msgs in #print axioms close_cell

/-- info: 'Cert.KernelIdeal.DM.close_send' depends on axioms: [propext, Classical.choice, Quot.sound] -/
#guard_msgs in #print axioms close_send

/-- info: 'Cert.KernelIdeal.DM.close_recv' depends on axioms: [propext, Classical.choice, Quot.sound] -/
#guard_msgs in #print axioms close_recv

/-- info: 'Cert.KernelIdeal.DM.close_copy' depends on axioms: [propext, Classical.choice, Quot.sound] -/
#guard_msgs in #print axioms close_copy

/-- info: 'Cert.KernelIdeal.DM.close_all' depends on axioms: [propext, Classical.choice, Quot.sound] -/
#guard_msgs in #print axioms close_all

/-- info: 'Cert.KernelIdeal.DM.wait_send'' depends on axioms: [propext, Classical.choice, Quot.sound] -/
#guard_msgs in #print axioms wait_send'

/-- info: 'Cert.KernelIdeal.DM.wait_recv'' depends on axioms: [propext, Classical.choice, Quot.sound] -/
#guard_msgs in #print axioms wait_recv'

/-- info: 'Cert.KernelIdeal.DM.wait_copy'' depends on axioms: [propext, Classical.choice, Quot.sound] -/
#guard_msgs in #print axioms wait_copy'

/-- info: 'Cert.KernelIdeal.DM.amt_xfer' depends on axioms: [propext, Classical.choice, Quot.sound] -/
#guard_msgs in #print axioms amt_xfer

/-- info: 'Cert.KernelIdeal.DM.amt_copy' depends on axioms: [propext, Classical.choice, Quot.sound] -/
#guard_msgs in #print axioms amt_copy

end Cert.KernelIdeal.DM

end
-- ==== Proof.OpsCopy.lean ====
import proofs.«900891_g7700000000000892_dist_matmul_m_i_outrep_m1024_n1024_k512_v7x_i8_f32_1_alg».proof.Proof.Atoms

/-!
Moving a device's buffers between the forms the steps of its body use.

A finished product block is copied from its stage slot into its rows of the result: the copy's landing hands back,
on the copy cell, those rows holding the block and the stage slot free again. Around the body the result buffer is
cut into its 24 pieces (three row groups for each of the eight devices' rows) and put together again once every
piece holds its block; the gather buffers are cut into their eight slots, the stage buffers into their two, and the
two slots that the last exchange moves in two parts into their rows below 176 and the rest. A filled slot is shared
by halves between the loads that read it and the transfers that read it at the same time, and the halves are put
together again at the end.
-/

noncomputable section

namespace Cert.KernelIdeal.DM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-! ## Conjunctions over two and over eight -/

theorem bigSep_fin2 {M : Type} [URA M] (Φ : Fin 2 → sProp M) : bigSep Finset.univ Φ = iprop(Φ 0 ∗ Φ 1) :=
  bigSep_univ_eq_bigSepL [0, 1] (by decide) (by decide) Φ

theorem bigSep_fin8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The copy of a product block into the result -/

/-- The copy rule at this schedule: a full stage slot reading `w` and the free rows of the result pay the copy cell's
    one duty, whose payload is made of the rows now reading `w` and the slot, still reading `w`. -/
theorem op_copy_gen {s : Shape} (g : Fin 3) (j : Fin 8) (src : Memref sig .tc .vmem s .f32) (dst : Memref sig .tc .hbm s .f32)
    (hN : dst.view.amount (.dma (copyS g j)) = copyAmt g) (w : s.Idx → Elt F .f32)
    (hpay : iprop(holdsPts c dst fullShare w ∗ holdsPts c src fullShare w) ⊢ copyPay m c g j)
    {hsrc : src.view.WordExact} {hdst : dst.view.WordExact}
    {hsem : DmaTarget.Typed (nD := nD) .vmem (.dma (copyS g j)) (.here dst : DmaTarget nD τ sig (c : Thread nD τ).2 .hbm s .f32)}
    {α : Type} {Q : α → sProp 𝕄} {kk : PUnit → Prog (TpuEff nD τ sig (Elt F) Λ₀ .tc) α} :
    iprop(records (Rd m) K ∗ holdsPts c src fullShare w ∗ anyPts c dst ∗ dutyTok ER (copyCell c g j) 0 0)
      ⊢ iprop((cred (tallyAt (copyCell c g j) () (copyAmt g)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.here dst) (.dma (copyS g j)) hsrc hdst hsem) kk) Q) := by
  simp only [holdsPts_eq, anyPts_eq]
  iintro ⟨#Hrec, ⟨%fs, Hsrc, %hfs⟩, ⟨%fd, Hdst⟩, Htok⟩ Hk
  ihave #HI := (records_inv (Rd m) K (c, .inr (2, g, j))) $$ Hrec
  ihave #Hr := (records_reached (Rd m) K (c, .inr (2, g, j))) $$ Hrec
  iapply (Rounds.wp_copy_pointsTo 𝒱₀ ER (Rd m) (c : Thread nD τ) none (src := src) (dst := dst) (q := fullShare) (fs := fs) (fd := fd)
      (r := 0) (d := 0) (κ := K (c, .inr (2, g, j)))
      (by rw [duties_copy]; exact Finset.mem_singleton_self _) () (copyAmt g) hN (amount_copy m c g j 0)
      (by
        rw [payload_copy]
        refine BIBase.Entails.trans ?_ hpay
        simp only [holdsPts_eq]
        iintro ⟨Hd, Hs⟩
        isplitl [Hd]
        · iexists (dst.view.write (Elt F) fd (src.view.read (Elt F) fs) Finset.univ)
          isplitl [Hd]; · iexact Hd
          ipureintro; rw [View.read_write_univ]; exact hfs
        · iexists fs
          isplitl [Hs]; · iexact Hs
          ipureintro; exact hfs)) $$ [Hsrc Hdst Htok]
  · isplitr; · iexact HI
    isplitl [Hsrc]; · iexact Hsrc
    isplitl [Hdst]; · iexact Hdst
    isplitl [Htok]; · iexact Htok
    iexact Hr
  iexact Hk

theorem op_copy0 (j : Fin 8) (p : Fin 2) (k : Fin 8) (hp : par j = p) (hk : mask 0 j = k)
    {hsrc : (ss0 p).view.WordExact} {hdst : (op0 c k).view.WordExact}
    {hsem : DmaTarget.Typed (nD := nD) .vmem (.dma (copyS 0 j)) (.here (op0 c k) : DmaTarget nD τ sig (c : Thread nD τ).2 .hbm S352x1024 .f32)}
    {α : Type} {Q : α → sProp 𝕄} {kk : PUnit → Prog (TpuEff nD τ sig (Elt F) Λ₀ .tc) α} :
    iprop(records (Rd m) K ∗ stageHas0 m c j ∗ pieceAny c 0 j ∗ dutyTok ER (copyCell c 0 j) 0 0)
      ⊢ iprop((cred (tallyAt (copyCell c 0 j) () (copyAmt 0)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (ss0 p) (.here (op0 c k)) (.dma (copyS 0 j)) hsrc hdst hsem) kk) Q) := by
  subst hp hk
  unfold stageHas0
  rw [show pieceAny (F := F) c 0 j = anyPts c (op0 c (mask 0 j)) from rfl]
  iintro ⟨#Hrec, ⟨%w, %hw, Hs⟩, Hd, Htok⟩
  iapply (op_copy_gen m K c 0 j (ss0 (par j)) (op0 c (mask 0 j)) rfl w
      (by
        unfold copyPay
        iintro ⟨Hd, Hs⟩
        iexists w
        isplitr; · ipureintro; exact hw
        isplitl [Hd]; · iexact Hd
        iexact Hs))
  isplitr; · iexact Hrec
  isplitl [Hs]; · iexact Hs
  isplitl [Hd]; · iexact Hd
  iexact Htok

theorem op_copy1 (j : Fin 8) (p : Fin 2) (k : Fin 8) (hp : par j = p) (hk : mask 1 j = k)
    {hsrc : (ss1 p).view.WordExact} {hdst : (op12 c k 0).view.WordExact}
    {hsem : DmaTarget.Typed (nD := nD) .vmem (.dma (copyS 1 j)) (.here (op12 c k 0) : DmaTarget nD τ sig (c : Thread nD τ).2 .hbm S336x1024 .f32)}
    {α : Type} {Q : α → sProp 𝕄} {kk : PUnit → Prog (TpuEff nD τ sig (Elt F) Λ₀ .tc) α} :
    iprop(records (Rd m) K ∗ stageHas1 m c j ∗ pieceAny c 1 j ∗ dutyTok ER (copyCell c 1 j) 0 0)
      ⊢ iprop((cred (tallyAt (copyCell c 1 j) () (copyAmt 1)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (ss1 p) (.here (op12 c k 0)) (.dma (copyS 1 j)) hsrc hdst hsem) kk) Q) := by
  subst hp hk
  unfold stageHas1
  rw [show pieceAny (F := F) c 1 j = anyPts c (op12 c (mask 1 j) 0) from rfl]
  iintro ⟨#Hrec, ⟨%w, %hw, Hs⟩, Hd, Htok⟩
  iapply (op_copy_gen m K c 1 j (ss1 (par j)) (op12 c (mask 1 j) 0) rfl w
      (by
        unfold copyPay
        iintro ⟨Hd, Hs⟩
        iexists w
        isplitr; · ipureintro; exact hw
        isplitl [Hd]; · iexact Hd
        iexact Hs))
  isplitr; · iexact Hrec
  isplitl [Hs]; · iexact Hs
  isplitl [Hd]; · iexact Hd
  iexact Htok

theorem op_copy2 (j : Fin 8) (p : Fin 2) (k : Fin 8) (hp : par j = p) (hk : mask 2 j = k)
    {hsrc : (ss2 p).view.WordExact} {hdst : (op12 c k 1).view.WordExact}
    {hsem : DmaTarget.Typed (nD := nD) .vmem (.dma (copyS 2 j)) (.here (op12 c k 1) : DmaTarget nD τ sig (c : Thread nD τ).2 .hbm S336x1024 .f32)}
    {α : Type} {Q : α → sProp 𝕄} {kk : PUnit → Prog (TpuEff nD τ sig (Elt F) Λ₀ .tc) α} :
    iprop(records (Rd m) K ∗ stageHas2 m c j ∗ pieceAny c 2 j ∗ dutyTok ER (copyCell c 2 j) 0 0)
      ⊢ iprop((cred (tallyAt (copyCell c 2 j) () (copyAmt 2)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (ss2 p) (.here (op12 c k 1)) (.dma (copyS 2 j)) hsrc hdst hsem) kk) Q) := by
  subst hp hk
  unfold stageHas2
  rw [show pieceAny (F := F) c 2 j = anyPts c (op12 c (mask 2 j) 1) from rfl]
  iintro ⟨#Hrec, ⟨%w, %hw, Hs⟩, Hd, Htok⟩
  iapply (op_copy_gen m K c 2 j (ss2 (par j)) (op12 c (mask 2 j) 1) rfl w
      (by
        unfold copyPay
        iintro ⟨Hd, Hs⟩
        iexists w
        isplitr; · ipureintro; exact hw
        isplitl [Hd]; · iexact Hd
        iexact Hs))
  isplitr; · iexact Hrec
  isplitl [Hs]; · iexact Hs
  isplitl [Hd]; · iexact Hd
  iexact Htok

omit [FloatOps F] in
/-- What a piece holds may be forgotten. -/
theorem holdsPts_any {sp : Space} {s : Shape} {e : EltTy} (M : Memref sig .tc sp s e) (v : s.Idx → Elt F e) :
    holdsPts c M fullShare v ⊢ anyPts c M := by
  simp only [holdsPts_eq, anyPts_eq]
  iintro ⟨%f, H, -⟩
  iexists f
  iexact H

/-- A landed copy: the block in its rows of the result, and the stage slot free again. -/
theorem copyPay_split0 (j : Fin 8) : copyPay m c 0 j ⊢ iprop(pieceDone0 m c j ∗ anyPts c (ss0 (par j))) := by
  rw [show copyPay m c 0 j = iprop(∃ v, ⌜stageOK0 m c j v⌝ ∗ holdsPts c (op0 c (mask 0 j)) fullShare v ∗ holdsPts c (ss0 (par j)) fullShare v) from rfl]
  unfold pieceDone0
  iintro ⟨%v, %hv, Hd, Hs⟩
  isplitl [Hd]
  · iexists v
    isplitr; · ipureintro; exact hv
    iexact Hd
  · iapply (holdsPts_any c (ss0 (par j)) v)
    iexact Hs
theorem copyPay_split1 (j : Fin 8) : copyPay m c 1 j ⊢ iprop(pieceDone1 m c j ∗ anyPts c (ss1 (par j))) := by
  rw [show copyPay m c 1 j = iprop(∃ v, ⌜stageOK1 m c j v⌝ ∗ holdsPts c (op12 c (mask 1 j) 0) fullShare v ∗ holdsPts c (ss1 (par j)) fullShare v) from rfl]
  unfold pieceDone1
  iintro ⟨%v, %hv, Hd, Hs⟩
  isplitl [Hd]
  · iexists v
    isplitr; · ipureintro; exact hv
    iexact Hd
  · iapply (holdsPts_any c (ss1 (par j)) v)
    iexact Hs
theorem copyPay_split2 (j : Fin 8) : copyPay m c 2 j ⊢ iprop(pieceDone2 m c j ∗ anyPts c (ss2 (par j))) := by
  rw [show copyPay m c 2 j = iprop(∃ v, ⌜stageOK2 m c j v⌝ ∗ holdsPts c (op12 c (mask 2 j) 1) fullShare v ∗ holdsPts c (ss2 (par j)) fullShare v) from rfl]
  unfold pieceDone2
  iintro ⟨%v, %hv, Hd, Hs⟩
  isplitl [Hd]
  · iexists v
    isplitr; · ipureintro; exact hv
    iexact Hd
  · iapply (holdsPts_any c (ss2 (par j)) v)
    iexact Hs
theorem copyPay_split (g : Fin 3) (j : Fin 8) : copyPay m c g j ⊢ iprop(pieceDone m c g j ∗ stageAny c g (par j)) := by
  match g with
  | 0 => exact copyPay_split0 m c j
  | 1 => exact copyPay_split1 m c j
  | 2 => exact copyPay_split2 m c j

/-! ## A buffer cut into a family of pieces -/

section Family
variable {sp : Space} {s : Shape} {e : EltTy}

omit [FloatOps F] in
/-- Pieces on pairwise disjoint element sets, each at contents of its own satisfying a property that only looks at the
    piece, are one points-to over their union at contents satisfying every piece's property. -/
theorem any_join_family {ℓ : Loc nD τ sig} {T : Type} [DecidableEq T] (S : Finset T) (Kt : T → Finset (Idx ℓ)) (P : T → Buf (Elt F) ℓ → Prop)
    (hP : ∀ t (f g : Buf (Elt F) ℓ), (∀ i ∈ Kt t, f i = g i) → P t f → P t g)
    (hd : ∀ t ∈ S, ∀ t' ∈ S, t ≠ t' → Disjoint (Kt t) (Kt t')) (f₀ : Buf (Elt F) ℓ) (q : PosShare TreeShare) :
    (bigSep S (fun t => iprop(∃ f : Buf (Elt F) ℓ, (ℓ ↦[Kt t]{q} f) ∗ ⌜P t f⌝)) : sProp 𝕄)
      ⊢ iprop(∃ g : Buf (Elt F) ℓ, (ℓ ↦[S.biUnion Kt]{q} g) ∗ ⌜∀ t ∈ S, P t g⌝) := by
  classical
  induction S using Finset.induction_on with
  | empty =>
    iintro -
    iexists f₀
    isplitl
    · rw [Finset.biUnion_empty, pointsTo_empty]; iempintro
    · ipureintro; intro t ht; exact absurd ht (Finset.notMem_empty _)
  | insert t S ht ih =>
    rw [bigSep_insert ht, Finset.biUnion_insert]
    have hd' : Disjoint (Kt t) (S.biUnion Kt) :=
      (Finset.disjoint_biUnion_right _ _ _).mpr fun t' ht' =>
        hd t (Finset.mem_insert_self _ _) t' (Finset.mem_insert_of_mem ht') (fun e => ht (e ▸ ht'))
    refine (show iprop((∃ f : Buf (Elt F) ℓ, (ℓ ↦[Kt t]{q} f) ∗ ⌜P t f⌝)
        ∗ bigSep S (fun t => iprop(∃ f : Buf (Elt F) ℓ, (ℓ ↦[Kt t]{q} f) ∗ ⌜P t f⌝))) ⊢ _ from ?_)
    iintro ⟨⟨%f, Ht, %hf⟩, HS⟩
    ihave H := (ih fun t₁ h₁ t₂ h₂ => hd t₁ (Finset.mem_insert_of_mem h₁) t₂ (Finset.mem_insert_of_mem h₂)) $$ HS
    icases H with ⟨%g, HS, %hg⟩
    iexists (S.biUnion Kt).piecewise g f
    isplitl
    · iapply (pointsTo_join hd')
      isplitl [Ht]; · iexact Ht
      iexact HS
    · ipureintro
      intro t' ht'
      rcases Finset.mem_insert.mp ht' with h | h
      · rw [h]
        exact hP t f _ (fun i hi => (Finset.piecewise_eq_of_notMem _ _ _ (Finset.disjoint_left.mp hd' hi)).symm) hf
      · exact hP t' g _ (fun i hi => (Finset.piecewise_eq_of_mem _ _ _ (Finset.mem_biUnion.mpr ⟨t', h, hi⟩)).symm) (hg t' h)

omit [FloatOps F] in
/-- A view's elements are those of a family of its rectangles that covers its shape. -/
theorem set_eq_biUnion_slices (v : View sig .tc sp s e) {T : Type} [DecidableEq T] (S : Finset T) (R : T → Rect s)
    (hcov : ∀ x : s.Idx, ∃ t ∈ S, x ∈ (R t).set) : v.set = S.biUnion fun t => (v.slice (R t)).set := by
  ext i
  rw [Finset.mem_biUnion]
  constructor
  · intro hi
    obtain ⟨x, -, rfl⟩ := Finset.mem_map.mp hi
    obtain ⟨t, ht, hx⟩ := hcov x
    exact ⟨t, ht, by rw [View.set_slice]; exact Finset.mem_map_of_mem _ hx⟩
  · rintro ⟨t, -, hi⟩
    exact View.set_slice_subset v (R t) hi

omit [FloatOps F] in
theorem slices_disjoint (v : View sig .tc sp s e) {r r' : Rect s} (h : Disjoint r.set r'.set) : Disjoint (v.slice r).set (v.slice r').set := by
  rw [View.set_slice, View.set_slice]; exact (Finset.disjoint_map _).mpr h

end Family

/-! ## The rows of the result's pieces -/

theorem xr_surj : ∀ (c d : Dev nD), ∃ k : Fin 8, xr c k = d := by decide

/-- The first row of a group's rows inside a device's 1024 rows, and how many rows the group has. -/
def rowOff : Fin 3 → ℕ := ![0, 352, 688]
def rowLen : Fin 3 → ℕ := ![352, 336, 336]

theorem rowOff_len : ∀ g : Fin 3, rowOff g + rowLen g ≤ 1024 := by decide
theorem rows_apart : ∀ g g' : Fin 3, g ≠ g' → rowOff g + rowLen g ≤ rowOff g' ∨ rowOff g' + rowLen g' ≤ rowOff g := by decide

/-- The rectangle of the result that holds the product of group `g`'s rows of device `xr c k`. -/
def pieceRect (g : Fin 3) (k : Fin 8) : Rect S8192x1024 := match g with
  | 0 => Rect.unit (s := S8192x1024) (k0_off1 c (BitVec.ofNat 32 k.val)) S352x1024.size (k0_off1_inb c k)
  | 1 => Rect.unit (s := S8192x1024) (k0_off2 c (BitVec.ofNat 32 k.val) (BitVec.ofNat 32 (352 + 336 * (0 : Fin 2).val))) S336x1024.size (k0_off2_inb c k 0)
  | 2 => Rect.unit (s := S8192x1024) (k0_off2 c (BitVec.ofNat 32 k.val) (BitVec.ofNat 32 (352 + 336 * (1 : Fin 2).val))) S336x1024.size (k0_off2_inb c k 1)

theorem mem_pieceRect (g : Fin 3) (k : Fin 8) (i : S8192x1024.Idx) :
    i ∈ (pieceRect c g k).set ↔ (xr c k).val * 1024 + rowOff g ≤ (i 0).val ∧ (i 0).val < (xr c k).val * 1024 + rowOff g + rowLen g := by
  have h1 : (i 1).val < 1024 := (i 1).isLt
  match g with
  | 0 =>
    unfold pieceRect
    rw [Rect.mem_set_unit, off1_eq]
    constructor
    · intro h; have := h 0; simp [rowOff, rowLen] at this ⊢; omega
    · intro h a; simp [rowOff, rowLen] at h; fin_cases a <;> simp <;> omega
  | 1 =>
    unfold pieceRect
    rw [Rect.mem_set_unit, off2_eq]
    constructor
    · intro h; have := h 0; simp [rowOff, rowLen] at this ⊢; omega
    · intro h a; simp [rowOff, rowLen] at h; fin_cases a <;> simp <;> omega
  | 2 =>
    unfold pieceRect
    rw [Rect.mem_set_unit, off2_eq]
    constructor
    · intro h; have := h 0; simp [rowOff, rowLen] at this ⊢; omega
    · intro h a; simp [rowOff, rowLen] at h; fin_cases a <;> simp <;> omega

theorem pieceRect_disj (gj gj' : Fin 3 × Fin 8) (hne : gj ≠ gj') :
    Disjoint (pieceRect c gj.1 (mask gj.1 gj.2)).set (pieceRect c gj'.1 (mask gj'.1 gj'.2)).set := by
  obtain ⟨g, j⟩ := gj
  obtain ⟨g', j'⟩ := gj'
  refine Finset.disjoint_left.mpr fun i hi hi' => ?_
  rw [mem_pieceRect] at hi hi'
  have hg := rowOff_len g
  have hg' := rowOff_len g'
  have hx : (xr c (mask g j)).val = (xr c (mask g' j')).val := by dsimp only at hi hi'; omega
  have hk : mask g j = mask g' j' := xr_inj c _ _ (Fin.ext hx)
  by_cases hgg : g = g'
  · subst hgg
    exact hne (by rw [mask_inj g j j' hk])
  · have := rows_apart g g' hgg
    dsimp only at hi hi'
    omega

theorem pieceRect_cover (x : S8192x1024.Idx) : ∃ gj ∈ (Finset.univ : Finset (Fin 3 × Fin 8)), x ∈ (pieceRect c gj.1 (mask gj.1 gj.2)).set := by
  have h0 : (x 0).val < 8192 := (x 0).isLt
  obtain ⟨k, hk⟩ := xr_surj c ⟨(x 0).val / 1024, by show _ < 8; omega⟩
  have hkv : (xr c k).val = (x 0).val / 1024 := congrArg Fin.val hk
  have key : ∀ g : Fin 3, rowOff g ≤ (x 0).val % 1024 → (x 0).val % 1024 < rowOff g + rowLen g →
      ∃ gj ∈ (Finset.univ : Finset (Fin 3 × Fin 8)), x ∈ (pieceRect c gj.1 (mask gj.1 gj.2)).set := by
    intro g h1 h2
    obtain ⟨j, hj⟩ := mask_surj g k
    refine ⟨(g, j), Finset.mem_univ _, ?_⟩
    rw [mem_pieceRect]
    dsimp only
    rw [hj, hkv]
    omega
  by_cases ha : (x 0).val % 1024 < 352
  · exact key 0 (by simp [rowOff]) (by simp [rowOff, rowLen]; omega)
  · by_cases hb : (x 0).val % 1024 < 688
    · exact key 1 (by simp [rowOff]; omega) (by simp [rowOff, rowLen]; omega)
    · exact key 2 (by simp [rowOff]; omega) (by simp [rowOff, rowLen]; omega)

/-- The elements of the result buffer under the piece of group `gj.1` at slot `gj.2`. -/
def pieceSet (gj : Fin 3 × Fin 8) : Finset (Idx ((c : Thread nD τ).loc main_v1)) :=
  ((oM : Memref sig .tc .hbm S8192x1024 .f32).view.slice (pieceRect c gj.1 (mask gj.1 gj.2))).set

/-- The result buffer's elements are those of its 24 pieces. -/
theorem out_univ_eq : (Finset.univ : Finset (Idx ((c : Thread nD τ).loc main_v1))) = (Finset.univ : Finset (Fin 3 × Fin 8)).biUnion (pieceSet c) :=
  (View.set_whole main_v1).symm.trans
    (set_eq_biUnion_slices (oM : Memref sig .tc .hbm S8192x1024 .f32).view Finset.univ (fun gj : Fin 3 × Fin 8 => pieceRect c gj.1 (mask gj.1 gj.2)) (pieceRect_cover c))

theorem out_pieces_disj : ∀ t ∈ (Finset.univ : Finset (Fin 3 × Fin 8)), ∀ t' ∈ (Finset.univ : Finset (Fin 3 × Fin 8)), t ≠ t' →
    Disjoint (pieceSet c t) (pieceSet c t') :=
  fun t _ t' _ hne => slices_disjoint _ (pieceRect_disj c t t' hne)

omit [FloatOps F] in
theorem piece_intro (gj : Fin 3 × Fin 8) (X : Buf (Elt F) ((c : Thread nD τ).loc main_v1)) :
    ((((c : Thread nD τ).loc main_v1) ↦[pieceSet c gj]{fullShare} X) : sProp 𝕄) ⊢ pieceAny c gj.1 gj.2 := by
  obtain ⟨g, j⟩ := gj
  match g with
  | 0 =>
    show (((op0 c (mask 0 j)).view.loc (c : Thread nD τ) ↦[(op0 c (mask 0 j)).view.set]{fullShare} X) : sProp 𝕄) ⊢ anyPts c (op0 c (mask 0 j))
    simp only [anyPts_eq]; iintro H; iexists X; iexact H
  | 1 =>
    show (((op12 c (mask 1 j) 0).view.loc (c : Thread nD τ) ↦[(op12 c (mask 1 j) 0).view.set]{fullShare} X) : sProp 𝕄) ⊢ anyPts c (op12 c (mask 1 j) 0)
    simp only [anyPts_eq]; iintro H; iexists X; iexact H
  | 2 =>
    show (((op12 c (mask 2 j) 1).view.loc (c : Thread nD τ) ↦[(op12 c (mask 2 j) 1).view.set]{fullShare} X) : sProp 𝕄) ⊢ anyPts c (op12 c (mask 2 j) 1)
    simp only [anyPts_eq]; iintro H; iexists X; iexact H

/-- What a landed piece says of the whole buffer's contents. -/
def pieceOK (gj : Fin 3 × Fin 8) (X : Buf (Elt F) ((c : Thread nD τ).loc main_v1)) : Prop := match gj.1 with
  | 0 => stageOK0 m c gj.2 ((op0 c (mask 0 gj.2)).view.read (Elt F) X)
  | 1 => stageOK1 m c gj.2 ((op12 c (mask 1 gj.2) 0).view.read (Elt F) X)
  | 2 => stageOK2 m c gj.2 ((op12 c (mask 2 gj.2) 1).view.read (Elt F) X)

omit [FloatOps F] in
/-- A property of what a memref reads only looks at the memref's elements. -/
theorem ok_congr {sp : Space} {s : Shape} {e : EltTy} (M : Memref sig .tc sp s e) (P : (s.Idx → Elt F e) → Prop)
    (f g : Buf (Elt F) (M.view.loc (c : Thread nD τ))) (h : ∀ i ∈ M.view.set, f i = g i) :
    P (M.view.read (Elt F) f) → P (M.view.read (Elt F) g) := by
  rw [View.read_congr h]; exact id

theorem pieceOK_congr0 (j : Fin 8) (f g : Buf (Elt F) ((c : Thread nD τ).loc main_v1))
    (h : ∀ i ∈ pieceSet c (0, j), f i = g i) : pieceOK m c (0, j) f → pieceOK m c (0, j) g := by
  have h' : ∀ i ∈ (op0 c (mask 0 j)).view.set, f i = g i := h
  show stageOK0 m c j ((op0 c (mask 0 j)).view.read (Elt F) f) → stageOK0 m c j ((op0 c (mask 0 j)).view.read (Elt F) g)
  rw [View.read_congr h']; exact id

theorem pieceOK_congr1 (j : Fin 8) (f g : Buf (Elt F) ((c : Thread nD τ).loc main_v1))
    (h : ∀ i ∈ pieceSet c (1, j), f i = g i) : pieceOK m c (1, j) f → pieceOK m c (1, j) g := by
  have h' : ∀ i ∈ (op12 c (mask 1 j) 0).view.set, f i = g i := h
  show stageOK1 m c j ((op12 c (mask 1 j) 0).view.read (Elt F) f) → stageOK1 m c j ((op12 c (mask 1 j) 0).view.read (Elt F) g)
  rw [View.read_congr h']; exact id

theorem pieceOK_congr2 (j : Fin 8) (f g : Buf (Elt F) ((c : Thread nD τ).loc main_v1))
    (h : ∀ i ∈ pieceSet c (2, j), f i = g i) : pieceOK m c (2, j) f → pieceOK m c (2, j) g := by
  have h' : ∀ i ∈ (op12 c (mask 2 j) 1).view.set, f i = g i := h
  show stageOK2 m c j ((op12 c (mask 2 j) 1).view.read (Elt F) f) → stageOK2 m c j ((op12 c (mask 2 j) 1).view.read (Elt F) g)
  rw [View.read_congr h']; exact id

theorem pieceOK_congr (gj : Fin 3 × Fin 8) (f g : Buf (Elt F) ((c : Thread nD τ).loc main_v1))
    (h : ∀ i ∈ pieceSet c gj, f i = g i) : pieceOK m c gj f → pieceOK m c gj g := by
  obtain ⟨g', j⟩ := gj
  have hg : ∀ x : Fin 3, x = 0 ∨ x = 1 ∨ x = 2 := by decide
  rcases hg g' with rfl | rfl | rfl
  · exact pieceOK_congr0 m c j f g h
  · exact pieceOK_congr1 m c j f g h
  · exact pieceOK_congr2 m c j f g h

theorem piece_elim (gj : Fin 3 × Fin 8) :
    pieceDone m c gj.1 gj.2 ⊢ iprop(∃ f : Buf (Elt F) ((c : Thread nD τ).loc main_v1),
      (((c : Thread nD τ).loc main_v1) ↦[pieceSet c gj]{fullShare} f) ∗ ⌜pieceOK m c gj f⌝) := by
  obtain ⟨g, j⟩ := gj
  match g with
  | 0 =>
    show pieceDone0 m c j ⊢ iprop(∃ f : Buf (Elt F) ((op0 c (mask 0 j)).view.loc (c : Thread nD τ)),
      ((op0 c (mask 0 j)).view.loc (c : Thread nD τ) ↦[(op0 c (mask 0 j)).view.set]{fullShare} f) ∗ ⌜stageOK0 m c j ((op0 c (mask 0 j)).view.read (Elt F) f)⌝)
    unfold pieceDone0; simp only [holdsPts_eq]
    iintro ⟨%w, %hw, %f, H, %hf⟩
    iexists f
    isplitl [H]; · iexact H
    ipureintro; rw [hf]; exact hw
  | 1 =>
    show pieceDone1 m c j ⊢ iprop(∃ f : Buf (Elt F) ((op12 c (mask 1 j) 0).view.loc (c : Thread nD τ)),
      ((op12 c (mask 1 j) 0).view.loc (c : Thread nD τ) ↦[(op12 c (mask 1 j) 0).view.set]{fullShare} f) ∗ ⌜stageOK1 m c j ((op12 c (mask 1 j) 0).view.read (Elt F) f)⌝)
    unfold pieceDone1; simp only [holdsPts_eq]
    iintro ⟨%w, %hw, %f, H, %hf⟩
    iexists f
    isplitl [H]; · iexact H
    ipureintro; rw [hf]; exact hw
  | 2 =>
    show pieceDone2 m c j ⊢ iprop(∃ f : Buf (Elt F) ((op12 c (mask 2 j) 1).view.loc (c : Thread nD τ)),
      ((op12 c (mask 2 j) 1).view.loc (c : Thread nD τ) ↦[(op12 c (mask 2 j) 1).view.set]{fullShare} f) ∗ ⌜stageOK2 m c j ((op12 c (mask 2 j) 1).view.read (Elt F) f)⌝)
    unfold pieceDone2; simp only [holdsPts_eq]
    iintro ⟨%w, %hw, %f, H, %hf⟩
    iexists f
    isplitl [H]; · iexact H
    ipureintro; rw [hf]; exact hw

/-! ## The result buffer and its 24 pieces -/

omit [FloatOps F] in
theorem out_split (X : Buf (Elt F) ((c : Thread nD τ).loc main_v1)) :
    ((((c : Thread nD τ).loc main_v1) ↦{fullShare} X) : sProp 𝕄)
      ⊢ bigSep Finset.univ fun gj : Fin 3 × Fin 8 => pieceAny c gj.1 gj.2 := by
  rw [out_univ_eq c, pointsTo_biUnion _ _ (out_pieces_disj c)]
  exact bigSep_mono fun gj _ => piece_intro c gj X

theorem out_join :
    (bigSep Finset.univ fun gj : Fin 3 × Fin 8 => pieceDone m c gj.1 gj.2)
      ⊢ iprop(∃ X, ⌜outOK m c X⌝ ∗ (((c : Thread nD τ).loc main_v1) ↦{fullShare} X)) := by
  refine BIBase.Entails.trans (bigSep_mono fun gj _ => piece_elim m c gj) ?_
  refine BIBase.Entails.trans (any_join_family Finset.univ (pieceSet c) (pieceOK m c) (pieceOK_congr m c) (out_pieces_disj c)
    (m ((c : Thread nD τ).loc main_v1)) fullShare) ?_
  rw [← out_univ_eq c]
  iintro ⟨%X, H, %hX⟩
  iexists X
  isplitr
  · ipureintro
    exact ⟨fun j => hX (0, j) (Finset.mem_univ _), fun j => hX (1, j) (Finset.mem_univ _), fun j => hX (2, j) (Finset.mem_univ _)⟩
  · iexact H

/-! ## Shares of a filled piece -/

omit [FloatOps F] in
/-- Two contents that read alike through a view agree on the view's elements. -/
theorem read_eq_on {sp : Space} {s : Shape} {e : EltTy} (v : View sig .tc sp s e) {f g : v.ty.Contents (Elt F)}
    (h : v.read (Elt F) f = v.read (Elt F) g) : ∀ i ∈ v.set, f i = g i := by
  intro i hi
  obtain ⟨x, -, rfl⟩ := Finset.mem_map.mp hi
  have hx := congrFun h x
  rw [View.read_apply, View.read_apply] at hx
  exact (cast_inj _).mp hx

omit [FloatOps F] in
theorem share_split {sp : Space} {s : Shape} {e : EltTy} (M : Memref sig .tc sp s e) (q : PosShare TreeShare) (v : s.Idx → Elt F e) :
    holdsPts c M q v ⊢ iprop(holdsPts c M q.left v ∗ holdsPts c M q.right v) := by
  simp only [holdsPts_eq]
  iintro ⟨%f, H, %hf⟩
  ihave H2 := (pointsTo_share (PosShare.mem_left_op_right q)).1 $$ H
  icases H2 with ⟨Hl, Hr⟩
  isplitl [Hl]
  · iexists f
    isplitl [Hl]; · iexact Hl
    ipureintro; exact hf
  · iexists f
    isplitl [Hr]; · iexact Hr
    ipureintro; exact hf
omit [FloatOps F] in
theorem share_join {sp : Space} {s : Shape} {e : EltTy} (M : Memref sig .tc sp s e) (q : PosShare TreeShare) (v : s.Idx → Elt F e) :
    iprop(holdsPts c M q.left v ∗ holdsPts c M q.right v) ⊢ holdsPts c M q v := by
  simp only [holdsPts_eq]
  iintro ⟨⟨%f, Hl, %hf⟩, ⟨%f', Hr, %hf'⟩⟩
  ihave Hr' := (Entails.of_eq (pointsTo_congr (q := q.right) (read_eq_on M.view (hf'.trans hf.symm)))) $$ Hr
  iexists f
  isplitl [Hl Hr']
  · iapply (pointsTo_share (PosShare.mem_left_op_right q)).2
    isplitl [Hl]; · iexact Hl
    iexact Hr'
  · ipureintro; exact hf

/-! ## Rectangles cut along one axis -/

/-- A unit-stride rectangle cut in two along the axis `a₀`. -/
theorem unit_split_axis {s : Shape} (a₀ : Fin s.rank) (o sz oa sza ob szb : Fin s.rank → ℕ)
    (inb : ∀ a, o a + sz a ≤ s.size a) (inba : ∀ a, oa a + sza a ≤ s.size a) (inbb : ∀ a, ob a + szb a ≤ s.size a)
    (hoff : ∀ a, a ≠ a₀ → oa a = o a ∧ ob a = o a ∧ sza a = sz a ∧ szb a = sz a)
    (h0 : oa a₀ = o a₀ ∧ ob a₀ = o a₀ + sza a₀ ∧ sz a₀ = sza a₀ + szb a₀) :
    (Rect.unit o sz inb).set = (Rect.unit oa sza inba).set ∪ (Rect.unit ob szb inbb).set := by
  ext i
  rw [Finset.mem_union, Rect.mem_set_unit, Rect.mem_set_unit, Rect.mem_set_unit]
  constructor
  · intro h
    by_cases hi : (i a₀ : ℕ) < ob a₀
    · left; intro a
      by_cases ha : a = a₀
      · subst ha; have := h a; omega
      · have := h a; have := hoff a ha; omega
    · right; intro a
      by_cases ha : a = a₀
      · subst ha; have := h a; omega
      · have := h a; have := hoff a ha; omega
  · rintro (h | h) <;> intro a <;> by_cases ha : a = a₀
    · subst ha; have := h a; omega
    · have := h a; have := hoff a ha; omega
    · subst ha; have := h a; omega
    · have := h a; have := hoff a ha; omega

theorem unit_disj_axis {s : Shape} (a₀ : Fin s.rank) (oa sza ob szb : Fin s.rank → ℕ)
    (inba : ∀ a, oa a + sza a ≤ s.size a) (inbb : ∀ a, ob a + szb a ≤ s.size a) (h : oa a₀ + sza a₀ ≤ ob a₀) :
    Disjoint (Rect.unit oa sza inba).set (Rect.unit ob szb inbb).set :=
  Rect.unit_disjoint a₀ (Or.inl h)

/-! ## Pieces of one buffer: the general lemmas -/

section Generic
variable {sp : Space} {s : Shape} {e : EltTy}

omit [FloatOps F] in
/-- A rectangle of a memref cut in two. -/
theorem slice_cut2 (Mw : Memref sig .tc sp s e) (r ra rb : Rect s) (hr : ∀ a, r.stride a = 1) (ha : ∀ a, ra.stride a = 1) (hb : ∀ a, rb.stride a = 1)
    (hS : r.set = ra.set ∪ rb.set) (hd : Disjoint ra.set rb.set) (q : PosShare TreeShare) (f : Buf (Elt F) (Mw.view.loc (c : Thread nD τ))) :
    ((Mw.view.loc (c : Thread nD τ) ↦[(Mw.slice r hr).view.set]{q} f : sProp 𝕄)
      ⊣⊢ iprop((Mw.view.loc (c : Thread nD τ) ↦[(Mw.slice ra ha).view.set]{q} f) ∗ (Mw.view.loc (c : Thread nD τ) ↦[(Mw.slice rb hb).view.set]{q} f))) := by
  show ((Mw.view.loc (c : Thread nD τ) ↦[(Mw.view.slice r).set]{q} f : sProp 𝕄)
      ⊣⊢ iprop((Mw.view.loc (c : Thread nD τ) ↦[(Mw.view.slice ra).set]{q} f) ∗ (Mw.view.loc (c : Thread nD τ) ↦[(Mw.view.slice rb).set]{q} f)))
  rw [View.set_slice, View.set_slice, View.set_slice, hS, Finset.map_union]
  exact pointsTo_union ((Finset.disjoint_map _).mpr hd)

omit [FloatOps F] in
/-- Reading a rectangle inside a rectangle. -/
theorem read_slice_sub (Mw : Memref sig .tc sp s e) (o oa oρ rsz sz : Fin s.rank → ℕ)
    (inb : ∀ a, o a + rsz a ≤ s.size a) (inba : ∀ a, oa a + sz a ≤ s.size a) (inbρ : ∀ a, oρ a + sz a ≤ rsz a)
    (h : ∀ a, oa a = o a + oρ a) (f : Mw.view.ty.Contents (Elt F)) (x : (⟨s.rank, sz⟩ : Shape).Idx) :
    (Mw.slice (Rect.unit oa sz inba) (fun _ => rfl)).view.read (Elt F) f x
      = (Mw.slice (Rect.unit o rsz inb) (fun _ => rfl)).view.read (Elt F) f ((Rect.unit (s := ⟨s.rank, rsz⟩) oρ sz inbρ).emb x) := by
  rw [View.read_apply, View.read_apply]
  have he : (Mw.slice (Rect.unit oa sz inba) (fun _ => rfl)).view.emb x
      = (Mw.slice (Rect.unit o rsz inb) (fun _ => rfl)).view.emb ((Rect.unit (s := ⟨s.rank, rsz⟩) oρ sz inbρ).emb x) := by
    show Mw.view.emb ((Rect.unit oa sz inba).emb x) = Mw.view.emb ((Rect.unit o rsz inb).emb ((Rect.unit (s := ⟨s.rank, rsz⟩) oρ sz inbρ).emb x))
    congr 1
    funext a
    apply Fin.ext
    simp only [Rect.emb_apply, Rect.off_unit, Rect.stride_unit, Nat.one_mul, h a]
    omega
  rw [he]

end Generic

section Generic2
variable {sp : Space} {s : Shape} {e : EltTy}

omit [FloatOps F] in
/-- Two rectangles of a memref, held at different contents, joined. -/
theorem slice_join2 (Mw : Memref sig .tc sp s e) (r ra rb : Rect s) (hr : ∀ a, r.stride a = 1) (ha : ∀ a, ra.stride a = 1) (hb : ∀ a, rb.stride a = 1)
    (hS : r.set = ra.set ∪ rb.set) (hd : Disjoint ra.set rb.set) (q : PosShare TreeShare) (fa fb : Buf (Elt F) (Mw.view.loc (c : Thread nD τ))) :
    (iprop((Mw.view.loc (c : Thread nD τ) ↦[(Mw.slice ra ha).view.set]{q} fa) ∗ (Mw.view.loc (c : Thread nD τ) ↦[(Mw.slice rb hb).view.set]{q} fb)) : sProp 𝕄)
      ⊢ (Mw.view.loc (c : Thread nD τ) ↦[(Mw.slice r hr).view.set]{q} ((Mw.slice rb hb).view.set.piecewise fb fa)) := by
  show (iprop((Mw.view.loc (c : Thread nD τ) ↦[(Mw.view.slice ra).set]{q} fa) ∗ (Mw.view.loc (c : Thread nD τ) ↦[(Mw.view.slice rb).set]{q} fb)) : sProp 𝕄)
      ⊢ (Mw.view.loc (c : Thread nD τ) ↦[(Mw.view.slice r).set]{q} ((Mw.view.slice rb).set.piecewise fb fa))
  rw [View.set_slice, View.set_slice, View.set_slice, hS, Finset.map_union]
  exact pointsTo_join ((Finset.disjoint_map _).mpr hd)

end Generic2

/-! ## The two parts of a slot: sets and readings -/

theorem gs0_rects (k : Fin 8) :
    (Rect.unit (s := S8x352x512) ![k.val, 0, 0] S1x352x512.size (by revert k; decide)).set
      = (Rect.unit (s := S8x352x512) ![k.val, 0, 0] S1x176x512.size (by revert k; decide)).set
        ∪ (Rect.unit (s := S8x352x512) ![k.val, 176, 0] S1x176x512.size (by revert k; decide)).set :=
  unit_split_axis (s := S8x352x512) 1 _ _ _ _ _ _ _ _ _
    (by intro a ha; fin_cases a <;> first | exact absurd rfl ha | simp)
    (by simp)
theorem gs0_rects_disj (k : Fin 8) :
    Disjoint (Rect.unit (s := S8x352x512) ![k.val, 0, 0] S1x176x512.size (by revert k; decide)).set
      (Rect.unit (s := S8x352x512) ![k.val, 176, 0] S1x176x512.size (by revert k; decide)).set :=
  unit_disj_axis (s := S8x352x512) 1 _ _ _ _ _ _ (by simp)

omit [FloatOps F] in
theorem gs0_cut_pts (k : Fin 8) (q : PosShare TreeShare) (f : Buf (Elt F) ((gs0 k).view.loc (c : Thread nD τ))) :
    (((gs0 k).view.loc (c : Thread nD τ) ↦[(gs0 k).view.set]{q} f : sProp 𝕄)
      ⊣⊢ iprop(((ga0 k).view.loc (c : Thread nD τ) ↦[(ga0 k).view.set]{q} f) ∗ ((gb0 k).view.loc (c : Thread nD τ) ↦[(gb0 k).view.set]{q} f))) :=
  slice_cut2 c g0M _ _ _ (fun _ => rfl) (fun _ => rfl) (fun _ => rfl) (gs0_rects k) (gs0_rects_disj k) q f

omit [FloatOps F] in
theorem gs0_join_pts (k : Fin 8) (q : PosShare TreeShare) (fa : Buf (Elt F) ((ga0 k).view.loc (c : Thread nD τ))) (fb : Buf (Elt F) ((gb0 k).view.loc (c : Thread nD τ))) :
    (iprop(((ga0 k).view.loc (c : Thread nD τ) ↦[(ga0 k).view.set]{q} fa) ∗ ((gb0 k).view.loc (c : Thread nD τ) ↦[(gb0 k).view.set]{q} fb)) : sProp 𝕄)
      ⊢ ((gs0 k).view.loc (c : Thread nD τ) ↦[(gs0 k).view.set]{q} ((gb0 k).view.set.piecewise fb fa)) :=
  slice_join2 c g0M _ _ _ (fun _ => rfl) (fun _ => rfl) (fun _ => rfl) (gs0_rects k) (gs0_rects_disj k) q fa fb

omit [FloatOps F] in
theorem read_ga0 (k : Fin 8) (f : Buf (Elt F) ((gs0 k).view.loc (c : Thread nD τ))) :
    (ga0 k).view.read (Elt F) f = topA ((gs0 k).view.read (Elt F) f) :=
  funext fun x => read_slice_sub g0M ![k.val, 0, 0] ![k.val, 0, 0] ![0, 0, 0] S1x352x512.size S1x176x512.size _ _ _
    (by intro a; fin_cases a <;> simp) f x
omit [FloatOps F] in
theorem read_gb0 (k : Fin 8) (f : Buf (Elt F) ((gs0 k).view.loc (c : Thread nD τ))) :
    (gb0 k).view.read (Elt F) f = botA ((gs0 k).view.read (Elt F) f) :=
  funext fun x => read_slice_sub g0M ![k.val, 0, 0] ![k.val, 176, 0] ![0, 176, 0] S1x352x512.size S1x176x512.size _ _ _
    (by intro a; fin_cases a <;> simp) f x

theorem gs1_rects (k : Fin 8) :
    (Rect.unit (s := S8x336x512) ![k.val, 0, 0] S1x336x512.size (by revert k; decide)).set
      = (Rect.unit (s := S8x336x512) ![k.val, 0, 0] S1x176x512.size (by revert k; decide)).set
        ∪ (Rect.unit (s := S8x336x512) ![k.val, 176, 0] S1x160x512.size (by revert k; decide)).set :=
  unit_split_axis (s := S8x336x512) 1 _ _ _ _ _ _ _ _ _
    (by intro a ha; fin_cases a <;> first | exact absurd rfl ha | simp)
    (by simp)
theorem gs1_rects_disj (k : Fin 8) :
    Disjoint (Rect.unit (s := S8x336x512) ![k.val, 0, 0] S1x176x512.size (by revert k; decide)).set
      (Rect.unit (s := S8x336x512) ![k.val, 176, 0] S1x160x512.size (by revert k; decide)).set :=
  unit_disj_axis (s := S8x336x512) 1 _ _ _ _ _ _ (by simp)

omit [FloatOps F] in
theorem gs1_cut_pts (k : Fin 8) (q : PosShare TreeShare) (f : Buf (Elt F) ((gs1 k).view.loc (c : Thread nD τ))) :
    (((gs1 k).view.loc (c : Thread nD τ) ↦[(gs1 k).view.set]{q} f : sProp 𝕄)
      ⊣⊢ iprop(((ga1 k).view.loc (c : Thread nD τ) ↦[(ga1 k).view.set]{q} f) ∗ ((gb1 k).view.loc (c : Thread nD τ) ↦[(gb1 k).view.set]{q} f))) :=
  slice_cut2 c g1M _ _ _ (fun _ => rfl) (fun _ => rfl) (fun _ => rfl) (gs1_rects k) (gs1_rects_disj k) q f

omit [FloatOps F] in
theorem gs1_join_pts (k : Fin 8) (q : PosShare TreeShare) (fa : Buf (Elt F) ((ga1 k).view.loc (c : Thread nD τ))) (fb : Buf (Elt F) ((gb1 k).view.loc (c : Thread nD τ))) :
    (iprop(((ga1 k).view.loc (c : Thread nD τ) ↦[(ga1 k).view.set]{q} fa) ∗ ((gb1 k).view.loc (c : Thread nD τ) ↦[(gb1 k).view.set]{q} fb)) : sProp 𝕄)
      ⊢ ((gs1 k).view.loc (c : Thread nD τ) ↦[(gs1 k).view.set]{q} ((gb1 k).view.set.piecewise fb fa)) :=
  slice_join2 c g1M _ _ _ (fun _ => rfl) (fun _ => rfl) (fun _ => rfl) (gs1_rects k) (gs1_rects_disj k) q fa fb

omit [FloatOps F] in
theorem read_ga1 (k : Fin 8) (f : Buf (Elt F) ((gs1 k).view.loc (c : Thread nD τ))) :
    (ga1 k).view.read (Elt F) f = topB ((gs1 k).view.read (Elt F) f) :=
  funext fun x => read_slice_sub g1M ![k.val, 0, 0] ![k.val, 0, 0] ![0, 0, 0] S1x336x512.size S1x176x512.size _ _ _
    (by intro a; fin_cases a <;> simp) f x
omit [FloatOps F] in
theorem read_gb1 (k : Fin 8) (f : Buf (Elt F) ((gs1 k).view.loc (c : Thread nD τ))) :
    (gb1 k).view.read (Elt F) f = botB ((gs1 k).view.read (Elt F) f) :=
  funext fun x => read_slice_sub g1M ![k.val, 0, 0] ![k.val, 176, 0] ![0, 176, 0] S1x336x512.size S1x160x512.size _ _ _
    (by intro a; fin_cases a <;> simp) f x

theorem gs2_rects (k : Fin 8) :
    (Rect.unit (s := S8x336x512) ![k.val, 0, 0] S1x336x512.size (by revert k; decide)).set
      = (Rect.unit (s := S8x336x512) ![k.val, 0, 0] S1x176x512.size (by revert k; decide)).set
        ∪ (Rect.unit (s := S8x336x512) ![k.val, 176, 0] S1x160x512.size (by revert k; decide)).set :=
  unit_split_axis (s := S8x336x512) 1 _ _ _ _ _ _ _ _ _
    (by intro a ha; fin_cases a <;> first | exact absurd rfl ha | simp)
    (by simp)
theorem gs2_rects_disj (k : Fin 8) :
    Disjoint (Rect.unit (s := S8x336x512) ![k.val, 0, 0] S1x176x512.size (by revert k; decide)).set
      (Rect.unit (s := S8x336x512) ![k.val, 176, 0] S1x160x512.size (by revert k; decide)).set :=
  unit_disj_axis (s := S8x336x512) 1 _ _ _ _ _ _ (by simp)

omit [FloatOps F] in
theorem gs2_cut_pts (k : Fin 8) (q : PosShare TreeShare) (f : Buf (Elt F) ((gs2 k).view.loc (c : Thread nD τ))) :
    (((gs2 k).view.loc (c : Thread nD τ) ↦[(gs2 k).view.set]{q} f : sProp 𝕄)
      ⊣⊢ iprop(((ga2 k).view.loc (c : Thread nD τ) ↦[(ga2 k).view.set]{q} f) ∗ ((gb2 k).view.loc (c : Thread nD τ) ↦[(gb2 k).view.set]{q} f))) :=
  slice_cut2 c g2M _ _ _ (fun _ => rfl) (fun _ => rfl) (fun _ => rfl) (gs2_rects k) (gs2_rects_disj k) q f

omit [FloatOps F] in
theorem gs2_join_pts (k : Fin 8) (q : PosShare TreeShare) (fa : Buf (Elt F) ((ga2 k).view.loc (c : Thread nD τ))) (fb : Buf (Elt F) ((gb2 k).view.loc (c : Thread nD τ))) :
    (iprop(((ga2 k).view.loc (c : Thread nD τ) ↦[(ga2 k).view.set]{q} fa) ∗ ((gb2 k).view.loc (c : Thread nD τ) ↦[(gb2 k).view.set]{q} fb)) : sProp 𝕄)
      ⊢ ((gs2 k).view.loc (c : Thread nD τ) ↦[(gs2 k).view.set]{q} ((gb2 k).view.set.piecewise fb fa)) :=
  slice_join2 c g2M _ _ _ (fun _ => rfl) (fun _ => rfl) (fun _ => rfl) (gs2_rects k) (gs2_rects_disj k) q fa fb

omit [FloatOps F] in
theorem read_ga2 (k : Fin 8) (f : Buf (Elt F) ((gs2 k).view.loc (c : Thread nD τ))) :
    (ga2 k).view.read (Elt F) f = topB ((gs2 k).view.read (Elt F) f) :=
  funext fun x => read_slice_sub g2M ![k.val, 0, 0] ![k.val, 0, 0] ![0, 0, 0] S1x336x512.size S1x176x512.size _ _ _
    (by intro a; fin_cases a <;> simp) f x
omit [FloatOps F] in
theorem read_gb2 (k : Fin 8) (f : Buf (Elt F) ((gs2 k).view.loc (c : Thread nD τ))) :
    (gb2 k).view.read (Elt F) f = botB ((gs2 k).view.read (Elt F) f) :=
  funext fun x => read_slice_sub g2M ![k.val, 0, 0] ![k.val, 176, 0] ![0, 176, 0] S1x336x512.size S1x160x512.size _ _ _
    (by intro a; fin_cases a <;> simp) f x

/-! ## A slot's value from the values of its two parts -/

/-- Two functions on a shape that agree on two rectangles covering it are equal. -/
theorem ext_of_cover {s : Shape} {α : Type} (u v : s.Idx → α) (ra rb : Rect s) (hcov : ∀ x, x ∈ ra.set ∨ x ∈ rb.set)
    (ha : ∀ y, u (ra.emb y) = v (ra.emb y)) (hb : ∀ y, u (rb.emb y) = v (rb.emb y)) : u = v := by
  funext x
  rcases hcov x with h | h
  · obtain ⟨y, hy⟩ := ra.exists_idx_of_mem h
    rw [← hy]; exact ha y
  · obtain ⟨y, hy⟩ := rb.exists_idx_of_mem h
    rw [← hy]; exact hb y

omit [FloatOps F] in
theorem top_bot_extA {e : EltTy} (u v : Vec F S1x352x512 e) (ht : topA u = topA v) (hb : botA u = botA v) : u = v :=
  ext_of_cover u v (Rect.unit (s := S1x352x512) ![0, 0, 0] S1x176x512.size (by decide)) (Rect.unit (s := S1x352x512) ![0, 176, 0] S1x176x512.size (by decide))
    (fun x => by
      have h0 := (x 0).isLt; have h1 := (x 1).isLt; have h2 := (x 2).isLt
      by_cases hx : (x 1).val < 176
      · exact Or.inl (Rect.mem_set_unit.mpr fun a => by fin_cases a <;> simp at h0 h1 h2 ⊢ <;> omega)
      · exact Or.inr (Rect.mem_set_unit.mpr fun a => by fin_cases a <;> simp at h0 h1 h2 ⊢ <;> omega))
    (fun y => congrFun ht y) (fun y => congrFun hb y)
omit [FloatOps F] in
theorem top_bot_extB {e : EltTy} (u v : Vec F S1x336x512 e) (ht : topB u = topB v) (hb : botB u = botB v) : u = v :=
  ext_of_cover u v (Rect.unit (s := S1x336x512) ![0, 0, 0] S1x176x512.size (by decide)) (Rect.unit (s := S1x336x512) ![0, 176, 0] S1x160x512.size (by decide))
    (fun x => by
      have h0 := (x 0).isLt; have h1 := (x 1).isLt; have h2 := (x 2).isLt
      by_cases hx : (x 1).val < 176
      · exact Or.inl (Rect.mem_set_unit.mpr fun a => by fin_cases a <;> simp at h0 h1 h2 ⊢ <;> omega)
      · exact Or.inr (Rect.mem_set_unit.mpr fun a => by fin_cases a <;> simp at h0 h1 h2 ⊢ <;> omega))
    (fun y => congrFun ht y) (fun y => congrFun hb y)

omit [FloatOps F] in
theorem gs0_read_join (k : Fin 8) (fa : Buf (Elt F) ((ga0 k).view.loc (c : Thread nD τ))) (fb : Buf (Elt F) ((gb0 k).view.loc (c : Thread nD τ)))
    (v : Vec F S1x352x512 .bf16) (hfa : (ga0 k).view.read (Elt F) fa = topA v) (hfb : (gb0 k).view.read (Elt F) fb = botA v) :
    (gs0 k).view.read (Elt F) ((gb0 k).view.set.piecewise fb fa) = v := by
  have hd : Disjoint (α := Finset (Idx ((c : Thread nD τ).loc cc0_scratch1))) (ga0 k).view.set (gb0 k).view.set :=
    slices_disjoint (g0M : Memref sig .tc .vmem S8x352x512 .bf16).view (gs0_rects_disj k)
  have h1 : (ga0 k).view.read (Elt F) ((gb0 k).view.set.piecewise fb fa) = (ga0 k).view.read (Elt F) fa :=
    View.read_congr fun i hi => Finset.piecewise_eq_of_notMem _ _ _ (Finset.disjoint_left.mp hd hi)
  have h2 : (gb0 k).view.read (Elt F) ((gb0 k).view.set.piecewise fb fa) = (gb0 k).view.read (Elt F) fb :=
    View.read_congr fun i hi => Finset.piecewise_eq_of_mem _ _ _ hi
  apply top_bot_extA
  · exact (read_ga0 c k ((gb0 k).view.set.piecewise fb fa)).symm.trans (h1.trans hfa)
  · exact (read_gb0 c k ((gb0 k).view.set.piecewise fb fa)).symm.trans (h2.trans hfb)

omit [FloatOps F] in
theorem gs1_read_join (k : Fin 8) (fa : Buf (Elt F) ((ga1 k).view.loc (c : Thread nD τ))) (fb : Buf (Elt F) ((gb1 k).view.loc (c : Thread nD τ)))
    (v : Vec F S1x336x512 .bf16) (hfa : (ga1 k).view.read (Elt F) fa = topB v) (hfb : (gb1 k).view.read (Elt F) fb = botB v) :
    (gs1 k).view.read (Elt F) ((gb1 k).view.set.piecewise fb fa) = v := by
  have hd : Disjoint (α := Finset (Idx ((c : Thread nD τ).loc cc0_scratch2))) (ga1 k).view.set (gb1 k).view.set :=
    slices_disjoint (g1M : Memref sig .tc .vmem S8x336x512 .bf16).view (gs1_rects_disj k)
  have h1 : (ga1 k).view.read (Elt F) ((gb1 k).view.set.piecewise fb fa) = (ga1 k).view.read (Elt F) fa :=
    View.read_congr fun i hi => Finset.piecewise_eq_of_notMem _ _ _ (Finset.disjoint_left.mp hd hi)
  have h2 : (gb1 k).view.read (Elt F) ((gb1 k).view.set.piecewise fb fa) = (gb1 k).view.read (Elt F) fb :=
    View.read_congr fun i hi => Finset.piecewise_eq_of_mem _ _ _ hi
  apply top_bot_extB
  · exact (read_ga1 c k ((gb1 k).view.set.piecewise fb fa)).symm.trans (h1.trans hfa)
  · exact (read_gb1 c k ((gb1 k).view.set.piecewise fb fa)).symm.trans (h2.trans hfb)

omit [FloatOps F] in
theorem gs2_read_join (k : Fin 8) (fa : Buf (Elt F) ((ga2 k).view.loc (c : Thread nD τ))) (fb : Buf (Elt F) ((gb2 k).view.loc (c : Thread nD τ)))
    (v : Vec F S1x336x512 .bf16) (hfa : (ga2 k).view.read (Elt F) fa = topB v) (hfb : (gb2 k).view.read (Elt F) fb = botB v) :
    (gs2 k).view.read (Elt F) ((gb2 k).view.set.piecewise fb fa) = v := by
  have hd : Disjoint (α := Finset (Idx ((c : Thread nD τ).loc cc0_scratch3))) (ga2 k).view.set (gb2 k).view.set :=
    slices_disjoint (g2M : Memref sig .tc .vmem S8x336x512 .bf16).view (gs2_rects_disj k)
  have h1 : (ga2 k).view.read (Elt F) ((gb2 k).view.set.piecewise fb fa) = (ga2 k).view.read (Elt F) fa :=
    View.read_congr fun i hi => Finset.piecewise_eq_of_notMem _ _ _ (Finset.disjoint_left.mp hd hi)
  have h2 : (gb2 k).view.read (Elt F) ((gb2 k).view.set.piecewise fb fa) = (gb2 k).view.read (Elt F) fb :=
    View.read_congr fun i hi => Finset.piecewise_eq_of_mem _ _ _ hi
  apply top_bot_extB
  · exact (read_ga2 c k ((gb2 k).view.set.piecewise fb fa)).symm.trans (h1.trans hfa)
  · exact (read_gb2 c k ((gb2 k).view.set.piecewise fb fa)).symm.trans (h2.trans hfb)

/-! ## The two parts of a slot -/

omit [FloatOps F] in
theorem gs0_parts (k : Fin 8) : anyPts (F := F) c (gs0 k) ⊢ iprop(anyPts c (ga0 k) ∗ anyPts c (gb0 k)) := by
  simp only [anyPts_eq]
  iintro ⟨%f, H⟩
  ihave H := (gs0_cut_pts c k fullShare f).1 $$ H
  icases H with ⟨Ha, Hb⟩
  isplitl [Ha]
  · iexists f; iexact Ha
  · iexists f; iexact Hb
omit [FloatOps F] in
theorem gs0_unparts (k : Fin 8) : iprop(anyPts (F := F) c (ga0 k) ∗ anyPts c (gb0 k)) ⊢ anyPts c (gs0 k) := by
  simp only [anyPts_eq]
  iintro ⟨⟨%fa, Ha⟩, ⟨%fb, Hb⟩⟩
  iexists ((gb0 k).view.set.piecewise fb fa)
  iapply (gs0_join_pts c k fullShare fa fb)
  isplitl [Ha]; · iexact Ha
  iexact Hb
omit [FloatOps F] in
theorem gs0_parts_val (k : Fin 8) (q : PosShare TreeShare) (v : Vec F S1x352x512 .bf16) :
    holdsPts c (gs0 k) q v ⊢ iprop(holdsPts c (ga0 k) q (topA v) ∗ holdsPts c (gb0 k) q (botA v)) := by
  simp only [holdsPts_eq]
  iintro ⟨%f, H, %hf⟩
  ihave H := (gs0_cut_pts c k q f).1 $$ H
  icases H with ⟨Ha, Hb⟩
  isplitl [Ha]
  · iexists f
    isplitl [Ha]; · iexact Ha
    ipureintro; rw [read_ga0 c k f, hf]
  · iexists f
    isplitl [Hb]; · iexact Hb
    ipureintro; rw [read_gb0 c k f, hf]
omit [FloatOps F] in
theorem gs0_unparts_val (k : Fin 8) (q : PosShare TreeShare) (v : Vec F S1x352x512 .bf16) :
    iprop(holdsPts c (ga0 k) q (topA v) ∗ holdsPts c (gb0 k) q (botA v)) ⊢ holdsPts c (gs0 k) q v := by
  simp only [holdsPts_eq]
  iintro ⟨⟨%fa, Ha, %hfa⟩, ⟨%fb, Hb, %hfb⟩⟩
  iexists ((gb0 k).view.set.piecewise fb fa)
  isplitl
  · iapply (gs0_join_pts c k q fa fb)
    isplitl [Ha]; · iexact Ha
    iexact Hb
  · ipureintro
    exact gs0_read_join c k fa fb v hfa hfb

omit [FloatOps F] in
theorem gs1_parts (k : Fin 8) : anyPts (F := F) c (gs1 k) ⊢ iprop(anyPts c (ga1 k) ∗ anyPts c (gb1 k)) := by
  simp only [anyPts_eq]
  iintro ⟨%f, H⟩
  ihave H := (gs1_cut_pts c k fullShare f).1 $$ H
  icases H with ⟨Ha, Hb⟩
  isplitl [Ha]
  · iexists f; iexact Ha
  · iexists f; iexact Hb
omit [FloatOps F] in
theorem gs1_unparts (k : Fin 8) : iprop(anyPts (F := F) c (ga1 k) ∗ anyPts c (gb1 k)) ⊢ anyPts c (gs1 k) := by
  simp only [anyPts_eq]
  iintro ⟨⟨%fa, Ha⟩, ⟨%fb, Hb⟩⟩
  iexists ((gb1 k).view.set.piecewise fb fa)
  iapply (gs1_join_pts c k fullShare fa fb)
  isplitl [Ha]; · iexact Ha
  iexact Hb
omit [FloatOps F] in
theorem gs1_parts_val (k : Fin 8) (q : PosShare TreeShare) (v : Vec F S1x336x512 .bf16) :
    holdsPts c (gs1 k) q v ⊢ iprop(holdsPts c (ga1 k) q (topB v) ∗ holdsPts c (gb1 k) q (botB v)) := by
  simp only [holdsPts_eq]
  iintro ⟨%f, H, %hf⟩
  ihave H := (gs1_cut_pts c k q f).1 $$ H
  icases H with ⟨Ha, Hb⟩
  isplitl [Ha]
  · iexists f
    isplitl [Ha]; · iexact Ha
    ipureintro; rw [read_ga1 c k f, hf]
  · iexists f
    isplitl [Hb]; · iexact Hb
    ipureintro; rw [read_gb1 c k f, hf]
omit [FloatOps F] in
theorem gs1_unparts_val (k : Fin 8) (q : PosShare TreeShare) (v : Vec F S1x336x512 .bf16) :
    iprop(holdsPts c (ga1 k) q (topB v) ∗ holdsPts c (gb1 k) q (botB v)) ⊢ holdsPts c (gs1 k) q v := by
  simp only [holdsPts_eq]
  iintro ⟨⟨%fa, Ha, %hfa⟩, ⟨%fb, Hb, %hfb⟩⟩
  iexists ((gb1 k).view.set.piecewise fb fa)
  isplitl
  · iapply (gs1_join_pts c k q fa fb)
    isplitl [Ha]; · iexact Ha
    iexact Hb
  · ipureintro
    exact gs1_read_join c k fa fb v hfa hfb

omit [FloatOps F] in
theorem gs2_parts (k : Fin 8) : anyPts (F := F) c (gs2 k) ⊢ iprop(anyPts c (ga2 k) ∗ anyPts c (gb2 k)) := by
  simp only [anyPts_eq]
  iintro ⟨%f, H⟩
  ihave H := (gs2_cut_pts c k fullShare f).1 $$ H
  icases H with ⟨Ha, Hb⟩
  isplitl [Ha]
  · iexists f; iexact Ha
  · iexists f; iexact Hb
omit [FloatOps F] in
theorem gs2_unparts (k : Fin 8) : iprop(anyPts (F := F) c (ga2 k) ∗ anyPts c (gb2 k)) ⊢ anyPts c (gs2 k) := by
  simp only [anyPts_eq]
  iintro ⟨⟨%fa, Ha⟩, ⟨%fb, Hb⟩⟩
  iexists ((gb2 k).view.set.piecewise fb fa)
  iapply (gs2_join_pts c k fullShare fa fb)
  isplitl [Ha]; · iexact Ha
  iexact Hb
omit [FloatOps F] in
theorem gs2_parts_val (k : Fin 8) (q : PosShare TreeShare) (v : Vec F S1x336x512 .bf16) :
    holdsPts c (gs2 k) q v ⊢ iprop(holdsPts c (ga2 k) q (topB v) ∗ holdsPts c (gb2 k) q (botB v)) := by
  simp only [holdsPts_eq]
  iintro ⟨%f, H, %hf⟩
  ihave H := (gs2_cut_pts c k q f).1 $$ H
  icases H with ⟨Ha, Hb⟩
  isplitl [Ha]
  · iexists f
    isplitl [Ha]; · iexact Ha
    ipureintro; rw [read_ga2 c k f, hf]
  · iexists f
    isplitl [Hb]; · iexact Hb
    ipureintro; rw [read_gb2 c k f, hf]
omit [FloatOps F] in
theorem gs2_unparts_val (k : Fin 8) (q : PosShare TreeShare) (v : Vec F S1x336x512 .bf16) :
    iprop(holdsPts c (ga2 k) q (topB v) ∗ holdsPts c (gb2 k) q (botB v)) ⊢ holdsPts c (gs2 k) q v := by
  simp only [holdsPts_eq]
  iintro ⟨⟨%fa, Ha, %hfa⟩, ⟨%fb, Hb, %hfb⟩⟩
  iexists ((gb2 k).view.set.piecewise fb fa)
  isplitl
  · iapply (gs2_join_pts c k q fa fb)
    isplitl [Ha]; · iexact Ha
    iexact Hb
  · ipureintro
    exact gs2_read_join c k fa fb v hfa hfb

/-! ## A filled slot cut for the transfers that read it, by group

Slot 0 is read by the steps 0, 1 and 3 at once, slot 1 by the steps 2 and 4, slot 2 by step 5, slot 3 by the two parts
of the last step, each part its own rows; the right half stays with the device's own loads. -/

omit [FloatOps F] in
theorem cut4 {sp : Space} {s : Shape} {e : EltTy} (M : Memref sig .tc sp s e) (v : s.Idx → Elt F e) :
    holdsPts c M fullShare v ⊢ iprop(holdsPts c M fullShare.left.left.left v ∗ holdsPts c M fullShare.left.left.right v
      ∗ holdsPts c M fullShare.left.right v ∗ holdsPts c M fullShare.right v) := by
  iintro H
  ihave H := (share_split c M fullShare v) $$ H
  icases H with ⟨HL, HR⟩
  ihave HL := (share_split c M fullShare.left v) $$ HL
  icases HL with ⟨HLL, HLR⟩
  ihave HLL := (share_split c M fullShare.left.left v) $$ HLL
  icases HLL with ⟨HLLL, HLLR⟩
  isplitl [HLLL]; · iexact HLLL
  isplitl [HLLR]; · iexact HLLR
  isplitl [HLR]; · iexact HLR
  iexact HR
omit [FloatOps F] in
theorem cut3 {sp : Space} {s : Shape} {e : EltTy} (M : Memref sig .tc sp s e) (v : s.Idx → Elt F e) :
    holdsPts c M fullShare v ⊢ iprop(holdsPts c M fullShare.left.left v ∗ holdsPts c M fullShare.left.right v ∗ holdsPts c M fullShare.right v) := by
  iintro H
  ihave H := (share_split c M fullShare v) $$ H
  icases H with ⟨HL, HR⟩
  ihave HL := (share_split c M fullShare.left v) $$ HL
  icases HL with ⟨HLL, HLR⟩
  isplitl [HLL]; · iexact HLL
  isplitl [HLR]; · iexact HLR
  iexact HR
omit [FloatOps F] in
theorem uncut4 {sp : Space} {s : Shape} {e : EltTy} (M : Memref sig .tc sp s e) (v : s.Idx → Elt F e) :
    iprop(holdsPts c M fullShare.left.left.left v ∗ holdsPts c M fullShare.left.left.right v
      ∗ holdsPts c M fullShare.left.right v ∗ holdsPts c M fullShare.right v) ⊢ holdsPts c M fullShare v := by
  iintro ⟨HLLL, HLLR, HLR, HR⟩
  iapply (share_join c M fullShare v)
  isplitr [HR]
  · iapply (share_join c M fullShare.left v)
    isplitr [HLR]
    · iapply (share_join c M fullShare.left.left v)
      isplitl [HLLL]; · iexact HLLL
      iexact HLLR
    · iexact HLR
  · iexact HR
omit [FloatOps F] in
theorem uncut3 {sp : Space} {s : Shape} {e : EltTy} (M : Memref sig .tc sp s e) (v : s.Idx → Elt F e) :
    iprop(holdsPts c M fullShare.left.left v ∗ holdsPts c M fullShare.left.right v ∗ holdsPts c M fullShare.right v) ⊢ holdsPts c M fullShare v := by
  iintro ⟨HLL, HLR, HR⟩
  iapply (share_join c M fullShare v)
  isplitr [HR]
  · iapply (share_join c M fullShare.left v)
    isplitl [HLL]; · iexact HLL
    iexact HLR
  · iexact HR

theorem slot0_cut (g : Fin 3) : slotHas m c g 0 fullShare
    ⊢ iprop(slotHas m c g 0 fullShare.left.left.left ∗ slotHas m c g 0 fullShare.left.left.right ∗ slotHas m c g 0 fullShare.left.right ∗ slotHas m c g 0 fullShare.right) := by
  match g with
  | 0 => exact cut4 c (gs0 0) _
  | 1 => exact cut4 c (gs1 0) _
  | 2 => exact cut4 c (gs2 0) _
theorem slot1_cut (g : Fin 3) : slotHas m c g 1 fullShare
    ⊢ iprop(slotHas m c g 1 fullShare.left.left ∗ slotHas m c g 1 fullShare.left.right ∗ slotHas m c g 1 fullShare.right) := by
  match g with
  | 0 => exact cut3 c (gs0 1) _
  | 1 => exact cut3 c (gs1 1) _
  | 2 => exact cut3 c (gs2 1) _
theorem slot2_cut (g : Fin 3) : slotHas m c g 2 fullShare ⊢ iprop(slotHas m c g 2 fullShare.left ∗ slotHas m c g 2 fullShare.right) := by
  match g with
  | 0 => exact share_split c (gs0 2) fullShare _
  | 1 => exact share_split c (gs1 2) fullShare _
  | 2 => exact share_split c (gs2 2) fullShare _
theorem slot3_cut (g : Fin 3) : slotHas m c g 3 fullShare
    ⊢ iprop(slotTop m c g 3 fullShare.left ∗ slotBot m c g 3 fullShare.left ∗ slotHas m c g 3 fullShare.right) := by
  match g with
  | 0 =>
    show holdsPts c (gs0 3) fullShare (sv0 m (xr c (mask 0 3))) ⊢ iprop(holdsPts c (ga0 3) fullShare.left (topA (sv0 m (xr c (mask 0 3)))) ∗ holdsPts c (gb0 3) fullShare.left (botA (sv0 m (xr c (mask 0 3)))) ∗ holdsPts c (gs0 3) fullShare.right (sv0 m (xr c (mask 0 3))))
    iintro H
    ihave H := (share_split c (gs0 3) fullShare _) $$ H
    icases H with ⟨HL, HR⟩
    ihave HL := (gs0_parts_val c 3 fullShare.left _) $$ HL
    icases HL with ⟨Ha, Hb⟩
    isplitl [Ha]; · iexact Ha
    isplitl [Hb]; · iexact Hb
    iexact HR
  | 1 =>
    show holdsPts c (gs1 3) fullShare (sv1 m (xr c (mask 1 3))) ⊢ iprop(holdsPts c (ga1 3) fullShare.left (topB (sv1 m (xr c (mask 1 3)))) ∗ holdsPts c (gb1 3) fullShare.left (botB (sv1 m (xr c (mask 1 3)))) ∗ holdsPts c (gs1 3) fullShare.right (sv1 m (xr c (mask 1 3))))
    iintro H
    ihave H := (share_split c (gs1 3) fullShare _) $$ H
    icases H with ⟨HL, HR⟩
    ihave HL := (gs1_parts_val c 3 fullShare.left _) $$ HL
    icases HL with ⟨Ha, Hb⟩
    isplitl [Ha]; · iexact Ha
    isplitl [Hb]; · iexact Hb
    iexact HR
  | 2 =>
    show holdsPts c (gs2 3) fullShare (sv2 m (xr c (mask 2 3))) ⊢ iprop(holdsPts c (ga2 3) fullShare.left (topB (sv2 m (xr c (mask 2 3)))) ∗ holdsPts c (gb2 3) fullShare.left (botB (sv2 m (xr c (mask 2 3)))) ∗ holdsPts c (gs2 3) fullShare.right (sv2 m (xr c (mask 2 3))))
    iintro H
    ihave H := (share_split c (gs2 3) fullShare _) $$ H
    icases H with ⟨HL, HR⟩
    ihave HL := (gs2_parts_val c 3 fullShare.left _) $$ HL
    icases HL with ⟨Ha, Hb⟩
    isplitl [Ha]; · iexact Ha
    isplitl [Hb]; · iexact Hb
    iexact HR
/-- A slot in its two parts, read as one (for a load of the whole slot). -/
theorem slot_whole (g : Fin 3) (k : Fin 8) (q : PosShare TreeShare) : iprop(slotTop m c g k q ∗ slotBot m c g k q) ⊢ slotHas m c g k q := by
  match g with
  | 0 => exact gs0_unparts_val c k q _
  | 1 => exact gs1_unparts_val c k q _
  | 2 => exact gs2_unparts_val c k q _
theorem slot_halves (g : Fin 3) (k : Fin 8) (q : PosShare TreeShare) : slotHas m c g k q ⊢ iprop(slotTop m c g k q ∗ slotBot m c g k q) := by
  match g with
  | 0 => exact gs0_parts_val c k q _
  | 1 => exact gs1_parts_val c k q _
  | 2 => exact gs2_parts_val c k q _

/-! ## A buffer whole and as its one piece -/

omit [FloatOps F] in
theorem anyBuf_whole (b : Ref sig .tc) : anyBuf (F := F) c b = anyPts c (Memref.whole b) := by
  unfold anyBuf; simp only [anyPts_eq]
  simp only [Memref.view_whole, View.set_whole]

/-! ## A whole buffer cut into a family of rectangles -/

section Whole
variable (b : Ref sig .tc) {T : Type} [DecidableEq T] [Fintype T] (R : T → Rect b.ty.shape) (hR : ∀ t a, (R t).stride a = 1)

omit [FloatOps F] in
theorem whole_univ_eq (hcov : ∀ x : b.ty.shape.Idx, ∃ t ∈ (Finset.univ : Finset T), x ∈ (R t).set) :
    (Finset.univ : Finset (Idx ((c : Thread nD τ).loc b))) = (Finset.univ : Finset T).biUnion fun t => ((View.whole b).slice (R t)).set :=
  (View.set_whole b).symm.trans (set_eq_biUnion_slices (View.whole b) Finset.univ R hcov)

omit [FloatOps F] in
theorem whole_split (hcov : ∀ x : b.ty.shape.Idx, ∃ t ∈ (Finset.univ : Finset T), x ∈ (R t).set)
    (hd : ∀ t t', t ≠ t' → Disjoint (R t).set (R t').set) :
    anyBuf (F := F) c b ⊢ bigSep Finset.univ fun t => anyPts c ((Memref.whole b).slice (R t) (hR t)) := by
  have key : ∀ f : Buf (Elt F) ((c : Thread nD τ).loc b), ((((c : Thread nD τ).loc b) ↦{fullShare} f) : sProp 𝕄)
      ⊢ bigSep Finset.univ fun t => anyPts c ((Memref.whole b).slice (R t) (hR t)) := by
    intro f
    rw [whole_univ_eq c b R hcov, pointsTo_biUnion _ _ (fun t _ t' _ hne => slices_disjoint (View.whole b) (hd t t' hne))]
    refine bigSep_mono fun t _ => ?_
    show ((((Memref.whole b).slice (R t) (hR t)).view.loc (c : Thread nD τ) ↦[((Memref.whole b).slice (R t) (hR t)).view.set]{fullShare} f) : sProp 𝕄)
      ⊢ anyPts c ((Memref.whole b).slice (R t) (hR t))
    simp only [anyPts_eq]; iintro H; iexists f; iexact H
  unfold anyBuf
  iintro ⟨%f, H⟩
  iapply (key f)
  iexact H

omit [FloatOps F] in
theorem whole_join (hcov : ∀ x : b.ty.shape.Idx, ∃ t ∈ (Finset.univ : Finset T), x ∈ (R t).set)
    (hd : ∀ t t', t ≠ t' → Disjoint (R t).set (R t').set) (f₀ : Buf (Elt F) ((c : Thread nD τ).loc b)) :
    (bigSep Finset.univ fun t => anyPts (F := F) c ((Memref.whole b).slice (R t) (hR t))) ⊢ anyBuf c b := by
  refine BIBase.Entails.trans (bigSep_mono fun t _ =>
    (show anyPts (F := F) c ((Memref.whole b).slice (R t) (hR t)) ⊢ iprop(∃ f : Buf (Elt F) ((c : Thread nD τ).loc b),
        (((c : Thread nD τ).loc b) ↦[((View.whole b).slice (R t)).set]{fullShare} f) ∗ ⌜True⌝) from by
      rw [anyPts_eq]
      show iprop(∃ f : Buf (Elt F) ((c : Thread nD τ).loc b), (((c : Thread nD τ).loc b) ↦[((View.whole b).slice (R t)).set]{fullShare} f)) ⊢ _
      iintro ⟨%f, H⟩; iexists f; isplitl [H]; · iexact H
      ipureintro; trivial)) ?_
  refine BIBase.Entails.trans (any_join_family (ℓ := (c : Thread nD τ).loc b) Finset.univ (fun t => ((View.whole b).slice (R t)).set) (fun _ _ => True)
    (fun _ _ _ _ h => h) (fun t _ t' _ hne => slices_disjoint (View.whole b) (hd t t' hne)) f₀ fullShare) ?_
  rw [← whole_univ_eq c b R hcov]
  unfold anyBuf
  iintro ⟨%X, H, -⟩
  iexists X
  iexact H

end Whole

section Squeeze
variable {sp : Space} {s s' : Shape} {e : EltTy}

omit [FloatOps F] in
theorem anyPts_squeeze (M : Memref sig .tc sp s e) (h : s.Squeezes s') : anyPts (F := F) c (M.squeeze s' h) = anyPts c M := by
  simp only [anyPts_eq]
  show iprop(∃ f : Buf (Elt F) (M.view.loc (c : Thread nD τ)), M.view.loc (c : Thread nD τ) ↦[(M.view.reshape s' h.numel_eq).set]{fullShare} f) = _
  rw [View.set_reshape]

end Squeeze

/-! ## The slots of the gather and stage buffers -/

theorem slabA_inb : ∀ k : Fin 8, ∀ a, (![k.val, 0, 0] : Fin 3 → ℕ) a + S1x352x512.size a ≤ S8x352x512.size a := by decide
/-- Slab `k` of the leading axis. -/
def slabA (k : Fin 8) : Rect S8x352x512 := Rect.unit (s := S8x352x512) ![k.val, 0, 0] S1x352x512.size (slabA_inb k)
theorem slabA_cover (x : S8x352x512.Idx) : ∃ k ∈ (Finset.univ : Finset (Fin 8)), x ∈ (slabA k).set := by
  have h0 : (x 0).val < 8 := (x 0).isLt
  have h1 := (x 1).isLt
  have h2 := (x 2).isLt
  refine ⟨⟨(x 0).val, h0⟩, Finset.mem_univ _, Rect.mem_set_unit.mpr fun a => ?_⟩
  fin_cases a <;> simp at h1 h2 ⊢ <;> omega
theorem slabA_disj (k k' : Fin 8) (h : k ≠ k') : Disjoint (slabA k).set (slabA k').set :=
  Rect.unit_disjoint 0 (by have := Fin.val_ne_of_ne h; simp; omega)

theorem slabB_inb : ∀ k : Fin 8, ∀ a, (![k.val, 0, 0] : Fin 3 → ℕ) a + S1x336x512.size a ≤ S8x336x512.size a := by decide
/-- Slab `k` of the leading axis. -/
def slabB (k : Fin 8) : Rect S8x336x512 := Rect.unit (s := S8x336x512) ![k.val, 0, 0] S1x336x512.size (slabB_inb k)
theorem slabB_cover (x : S8x336x512.Idx) : ∃ k ∈ (Finset.univ : Finset (Fin 8)), x ∈ (slabB k).set := by
  have h0 : (x 0).val < 8 := (x 0).isLt
  have h1 := (x 1).isLt
  have h2 := (x 2).isLt
  refine ⟨⟨(x 0).val, h0⟩, Finset.mem_univ _, Rect.mem_set_unit.mpr fun a => ?_⟩
  fin_cases a <;> simp at h1 h2 ⊢ <;> omega
theorem slabB_disj (k k' : Fin 8) (h : k ≠ k') : Disjoint (slabB k).set (slabB k').set :=
  Rect.unit_disjoint 0 (by have := Fin.val_ne_of_ne h; simp; omega)

theorem stgA_inb : ∀ k : Fin 2, ∀ a, (![k.val, 0, 0] : Fin 3 → ℕ) a + S1x352x1024.size a ≤ S2x352x1024.size a := by decide
/-- Slab `k` of the leading axis. -/
def stgA (k : Fin 2) : Rect S2x352x1024 := Rect.unit (s := S2x352x1024) ![k.val, 0, 0] S1x352x1024.size (stgA_inb k)
theorem stgA_cover (x : S2x352x1024.Idx) : ∃ k ∈ (Finset.univ : Finset (Fin 2)), x ∈ (stgA k).set := by
  have h0 : (x 0).val < 2 := (x 0).isLt
  have h1 := (x 1).isLt
  have h2 := (x 2).isLt
  refine ⟨⟨(x 0).val, h0⟩, Finset.mem_univ _, Rect.mem_set_unit.mpr fun a => ?_⟩
  fin_cases a <;> simp at h1 h2 ⊢ <;> omega
theorem stgA_disj (k k' : Fin 2) (h : k ≠ k') : Disjoint (stgA k).set (stgA k').set :=
  Rect.unit_disjoint 0 (by have := Fin.val_ne_of_ne h; simp; omega)

theorem stgB_inb : ∀ k : Fin 2, ∀ a, (![k.val, 0, 0] : Fin 3 → ℕ) a + S1x336x1024.size a ≤ S2x336x1024.size a := by decide
/-- Slab `k` of the leading axis. -/
def stgB (k : Fin 2) : Rect S2x336x1024 := Rect.unit (s := S2x336x1024) ![k.val, 0, 0] S1x336x1024.size (stgB_inb k)
theorem stgB_cover (x : S2x336x1024.Idx) : ∃ k ∈ (Finset.univ : Finset (Fin 2)), x ∈ (stgB k).set := by
  have h0 : (x 0).val < 2 := (x 0).isLt
  have h1 := (x 1).isLt
  have h2 := (x 2).isLt
  refine ⟨⟨(x 0).val, h0⟩, Finset.mem_univ _, Rect.mem_set_unit.mpr fun a => ?_⟩
  fin_cases a <;> simp at h1 h2 ⊢ <;> omega
theorem stgB_disj (k k' : Fin 2) (h : k ≠ k') : Disjoint (stgB k).set (stgB k').set :=
  Rect.unit_disjoint 0 (by have := Fin.val_ne_of_ne h; simp; omega)

omit [FloatOps F] in
theorem gs0_split8 : anyBuf (F := F) c cc0_scratch1 ⊢ iprop(anyPts c (gs0 0) ∗ anyPts c (gs0 1) ∗ anyPts c (gs0 2) ∗ anyPts c (gs0 3)
    ∗ anyPts c (gs0 4) ∗ anyPts c (gs0 5) ∗ anyPts c (gs0 6) ∗ anyPts c (gs0 7)) := by
  refine BIBase.Entails.trans (whole_split c cc0_scratch1 slabA (fun _ _ => rfl) slabA_cover slabA_disj) ?_
  exact Entails.of_eq (bigSep_fin8 (fun k : Fin 8 => anyPts (F := F) c (gs0 k)))

omit [FloatOps F] in
theorem gs0_join8 : iprop(anyPts (F := F) c (gs0 0) ∗ anyPts c (gs0 1) ∗ anyPts c (gs0 2) ∗ anyPts c (gs0 3)
    ∗ anyPts c (gs0 4) ∗ anyPts c (gs0 5) ∗ anyPts c (gs0 6) ∗ anyPts c (gs0 7)) ⊢ anyBuf c cc0_scratch1 := by
  have key : ∀ f₀ : Buf (Elt F) ((c : Thread nD τ).loc cc0_scratch1),
      iprop(anyPts (F := F) c (gs0 0) ∗ anyPts c (gs0 1) ∗ anyPts c (gs0 2) ∗ anyPts c (gs0 3)
        ∗ anyPts c (gs0 4) ∗ anyPts c (gs0 5) ∗ anyPts c (gs0 6) ∗ anyPts c (gs0 7)) ⊢ anyBuf c cc0_scratch1 := fun f₀ =>
    BIBase.Entails.trans (Entails.of_eq (bigSep_fin8 (fun k : Fin 8 => anyPts (F := F) c (gs0 k))).symm)
      (whole_join c cc0_scratch1 slabA (fun _ _ => rfl) slabA_cover slabA_disj f₀)
  simp only [anyPts_eq]
  iintro ⟨⟨%f0, H0⟩, H⟩
  iapply (key f0)
  simp only [anyPts_eq]
  isplitl [H0]; · iexists f0; iexact H0
  iexact H

omit [FloatOps F] in
theorem gs1_split8 : anyBuf (F := F) c cc0_scratch2 ⊢ iprop(anyPts c (gs1 0) ∗ anyPts c (gs1 1) ∗ anyPts c (gs1 2) ∗ anyPts c (gs1 3)
    ∗ anyPts c (gs1 4) ∗ anyPts c (gs1 5) ∗ anyPts c (gs1 6) ∗ anyPts c (gs1 7)) := by
  refine BIBase.Entails.trans (whole_split c cc0_scratch2 slabB (fun _ _ => rfl) slabB_cover slabB_disj) ?_
  exact Entails.of_eq (bigSep_fin8 (fun k : Fin 8 => anyPts (F := F) c (gs1 k)))

omit [FloatOps F] in
theorem gs1_join8 : iprop(anyPts (F := F) c (gs1 0) ∗ anyPts c (gs1 1) ∗ anyPts c (gs1 2) ∗ anyPts c (gs1 3)
    ∗ anyPts c (gs1 4) ∗ anyPts c (gs1 5) ∗ anyPts c (gs1 6) ∗ anyPts c (gs1 7)) ⊢ anyBuf c cc0_scratch2 := by
  have key : ∀ f₀ : Buf (Elt F) ((c : Thread nD τ).loc cc0_scratch2),
      iprop(anyPts (F := F) c (gs1 0) ∗ anyPts c (gs1 1) ∗ anyPts c (gs1 2) ∗ anyPts c (gs1 3)
        ∗ anyPts c (gs1 4) ∗ anyPts c (gs1 5) ∗ anyPts c (gs1 6) ∗ anyPts c (gs1 7)) ⊢ anyBuf c cc0_scratch2 := fun f₀ =>
    BIBase.Entails.trans (Entails.of_eq (bigSep_fin8 (fun k : Fin 8 => anyPts (F := F) c (gs1 k))).symm)
      (whole_join c cc0_scratch2 slabB (fun _ _ => rfl) slabB_cover slabB_disj f₀)
  simp only [anyPts_eq]
  iintro ⟨⟨%f0, H0⟩, H⟩
  iapply (key f0)
  simp only [anyPts_eq]
  isplitl [H0]; · iexists f0; iexact H0
  iexact H

omit [FloatOps F] in
theorem gs2_split8 : anyBuf (F := F) c cc0_scratch3 ⊢ iprop(anyPts c (gs2 0) ∗ anyPts c (gs2 1) ∗ anyPts c (gs2 2) ∗ anyPts c (gs2 3)
    ∗ anyPts c (gs2 4) ∗ anyPts c (gs2 5) ∗ anyPts c (gs2 6) ∗ anyPts c (gs2 7)) := by
  refine BIBase.Entails.trans (whole_split c cc0_scratch3 slabB (fun _ _ => rfl) slabB_cover slabB_disj) ?_
  exact Entails.of_eq (bigSep_fin8 (fun k : Fin 8 => anyPts (F := F) c (gs2 k)))

omit [FloatOps F] in
theorem gs2_join8 : iprop(anyPts (F := F) c (gs2 0) ∗ anyPts c (gs2 1) ∗ anyPts c (gs2 2) ∗ anyPts c (gs2 3)
    ∗ anyPts c (gs2 4) ∗ anyPts c (gs2 5) ∗ anyPts c (gs2 6) ∗ anyPts c (gs2 7)) ⊢ anyBuf c cc0_scratch3 := by
  have key : ∀ f₀ : Buf (Elt F) ((c : Thread nD τ).loc cc0_scratch3),
      iprop(anyPts (F := F) c (gs2 0) ∗ anyPts c (gs2 1) ∗ anyPts c (gs2 2) ∗ anyPts c (gs2 3)
        ∗ anyPts c (gs2 4) ∗ anyPts c (gs2 5) ∗ anyPts c (gs2 6) ∗ anyPts c (gs2 7)) ⊢ anyBuf c cc0_scratch3 := fun f₀ =>
    BIBase.Entails.trans (Entails.of_eq (bigSep_fin8 (fun k : Fin 8 => anyPts (F := F) c (gs2 k))).symm)
      (whole_join c cc0_scratch3 slabB (fun _ _ => rfl) slabB_cover slabB_disj f₀)
  simp only [anyPts_eq]
  iintro ⟨⟨%f0, H0⟩, H⟩
  iapply (key f0)
  simp only [anyPts_eq]
  isplitl [H0]; · iexists f0; iexact H0
  iexact H

omit [FloatOps F] in
theorem ss0_unsq (p : Fin 2) : anyPts (F := F) c (ss0 p) = anyPts c ((Memref.whole cc0_scratch4).slice (stgA p) (fun _ => rfl)) :=
  anyPts_squeeze c ((Memref.whole cc0_scratch4).slice (stgA p) (fun _ => rfl)) squeezes_S1x352x1024_S352x1024

omit [FloatOps F] in
theorem ss1_unsq (p : Fin 2) : anyPts (F := F) c (ss1 p) = anyPts c ((Memref.whole cc0_scratch5).slice (stgB p) (fun _ => rfl)) :=
  anyPts_squeeze c ((Memref.whole cc0_scratch5).slice (stgB p) (fun _ => rfl)) squeezes_S1x336x1024_S336x1024

omit [FloatOps F] in
theorem ss2_unsq (p : Fin 2) : anyPts (F := F) c (ss2 p) = anyPts c ((Memref.whole cc0_scratch6).slice (stgB p) (fun _ => rfl)) :=
  anyPts_squeeze c ((Memref.whole cc0_scratch6).slice (stgB p) (fun _ => rfl)) squeezes_S1x336x1024_S336x1024

/-! ## The scratch buffers and their pieces -/

omit [FloatOps F] in
theorem b16_split : anyBuf (F := F) c cc0_scratch0 ⊢ anyPts c b16M := by
  exact Entails.of_eq (anyBuf_whole c cc0_scratch0)
omit [FloatOps F] in
theorem b16_join (v : S512x1024.Idx → Elt F .bf16) : holdsPts c b16M fullShare v ⊢ anyBuf c cc0_scratch0 := by
  exact (holdsPts_any c b16M v).trans (Entails.of_eq (anyBuf_whole c cc0_scratch0).symm)

omit [FloatOps F] in
theorem gs0_split : anyBuf (F := F) c cc0_scratch1 ⊢ iprop(slotAny c 0 0 ∗ bigSep Finset.univ fun st : Fin 8 => dstAny c 0 st) := by
  rw [bigSep_fin8 (fun st : Fin 8 => dstAny (F := F) c 0 st)]
  show anyBuf (F := F) c _ ⊢ iprop(anyPts c (gs0 0) ∗ anyPts c (gs0 1) ∗ anyPts c (gs0 2) ∗ anyPts c (gs0 3) ∗ anyPts c (gs0 4)
    ∗ anyPts c (gs0 5) ∗ anyPts c (gs0 6) ∗ anyPts c (ga0 7) ∗ anyPts c (gb0 7))
  refine BIBase.Entails.trans (gs0_split8 c) ?_
  iintro ⟨H0, H1, H2, H3, H4, H5, H6, H7⟩
  ihave H7 := (gs0_parts c 7) $$ H7
  icases H7 with ⟨H7a, H7b⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7a]; · iexact H7a
  iexact H7b
theorem gs0_join : laneEnd m c 0 ⊢ anyBuf c cc0_scratch1 := by
  unfold laneEnd
  show iprop(holdsPts c (gs0 0) fullShare.left.left.left (sv0 m (xr c (mask 0 0))) ∗ holdsPts c (gs0 0) fullShare.left.left.right (sv0 m (xr c (mask 0 0)))
      ∗ holdsPts c (gs0 0) fullShare.left.right (sv0 m (xr c (mask 0 0))) ∗ holdsPts c (gs0 0) fullShare.right (sv0 m (xr c (mask 0 0)))
      ∗ holdsPts c (gs0 1) fullShare.left.left (sv0 m (xr c (mask 0 1))) ∗ holdsPts c (gs0 1) fullShare.left.right (sv0 m (xr c (mask 0 1))) ∗ holdsPts c (gs0 1) fullShare.right (sv0 m (xr c (mask 0 1)))
      ∗ holdsPts c (gs0 2) fullShare.left (sv0 m (xr c (mask 0 2))) ∗ holdsPts c (gs0 2) fullShare.right (sv0 m (xr c (mask 0 2)))
      ∗ holdsPts c (ga0 3) fullShare.left (topA (sv0 m (xr c (mask 0 3)))) ∗ holdsPts c (gb0 3) fullShare.left (botA (sv0 m (xr c (mask 0 3)))) ∗ holdsPts c (gs0 3) fullShare.right (sv0 m (xr c (mask 0 3)))
      ∗ holdsPts c (gs0 4) fullShare (sv0 m (xr c (mask 0 4))) ∗ holdsPts c (gs0 5) fullShare (sv0 m (xr c (mask 0 5))) ∗ holdsPts c (gs0 6) fullShare (sv0 m (xr c (mask 0 6)))
      ∗ holdsPts c (ga0 7) fullShare (topA (sv0 m (xr c (mask 0 7)))) ∗ holdsPts c (gb0 7) fullShare (botA (sv0 m (xr c (mask 0 7))))) ⊢ anyBuf c _
  iintro ⟨A0, A1, A2, A3, B0, B1, B2, C0, C1, D0, D1, D2, E4, E5, E6, T7, U7⟩
  iapply (gs0_join8 c)
  isplitl [A0 A1 A2 A3]
  · iapply (holdsPts_any c (gs0 0) (sv0 m (xr c (mask 0 0))))
    iapply (uncut4 c (gs0 0) (sv0 m (xr c (mask 0 0))))
    isplitl [A0]; · iexact A0
    isplitl [A1]; · iexact A1
    isplitl [A2]; · iexact A2
    iexact A3
  isplitl [B0 B1 B2]
  · iapply (holdsPts_any c (gs0 1) (sv0 m (xr c (mask 0 1))))
    iapply (uncut3 c (gs0 1) (sv0 m (xr c (mask 0 1))))
    isplitl [B0]; · iexact B0
    isplitl [B1]; · iexact B1
    iexact B2
  isplitl [C0 C1]
  · iapply (holdsPts_any c (gs0 2) (sv0 m (xr c (mask 0 2))))
    iapply (share_join c (gs0 2) fullShare (sv0 m (xr c (mask 0 2))))
    isplitl [C0]; · iexact C0
    iexact C1
  isplitl [D0 D1 D2]
  · ihave D2 := (gs0_parts_val c 3 fullShare.right (sv0 m (xr c (mask 0 3)))) $$ D2
    icases D2 with ⟨D2a, D2b⟩
    iapply (gs0_unparts c 3)
    isplitl [D0 D2a]
    · iapply (holdsPts_any c (ga0 3) (topA (sv0 m (xr c (mask 0 3)))))
      iapply (share_join c (ga0 3) fullShare (topA (sv0 m (xr c (mask 0 3)))))
      isplitl [D0]; · iexact D0
      iexact D2a
    · iapply (holdsPts_any c (gb0 3) (botA (sv0 m (xr c (mask 0 3)))))
      iapply (share_join c (gb0 3) fullShare (botA (sv0 m (xr c (mask 0 3)))))
      isplitl [D1]; · iexact D1
      iexact D2b
  isplitl [E4]; · iapply (holdsPts_any c (gs0 4) (sv0 m (xr c (mask 0 4)))); iexact E4
  isplitl [E5]; · iapply (holdsPts_any c (gs0 5) (sv0 m (xr c (mask 0 5)))); iexact E5
  isplitl [E6]; · iapply (holdsPts_any c (gs0 6) (sv0 m (xr c (mask 0 6)))); iexact E6
  iapply (gs0_unparts c 7)
  isplitl [T7]
  · iapply (holdsPts_any c (ga0 7) (topA (sv0 m (xr c (mask 0 7))))); iexact T7
  · iapply (holdsPts_any c (gb0 7) (botA (sv0 m (xr c (mask 0 7))))); iexact U7

omit [FloatOps F] in
theorem gs1_split : anyBuf (F := F) c cc0_scratch2 ⊢ iprop(slotAny c 1 0 ∗ bigSep Finset.univ fun st : Fin 8 => dstAny c 1 st) := by
  rw [bigSep_fin8 (fun st : Fin 8 => dstAny (F := F) c 1 st)]
  show anyBuf (F := F) c _ ⊢ iprop(anyPts c (gs1 0) ∗ anyPts c (gs1 1) ∗ anyPts c (gs1 2) ∗ anyPts c (gs1 3) ∗ anyPts c (gs1 4)
    ∗ anyPts c (gs1 5) ∗ anyPts c (gs1 6) ∗ anyPts c (ga1 7) ∗ anyPts c (gb1 7))
  refine BIBase.Entails.trans (gs1_split8 c) ?_
  iintro ⟨H0, H1, H2, H3, H4, H5, H6, H7⟩
  ihave H7 := (gs1_parts c 7) $$ H7
  icases H7 with ⟨H7a, H7b⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7a]; · iexact H7a
  iexact H7b
theorem gs1_join : laneEnd m c 1 ⊢ anyBuf c cc0_scratch2 := by
  unfold laneEnd
  show iprop(holdsPts c (gs1 0) fullShare.left.left.left (sv1 m (xr c (mask 1 0))) ∗ holdsPts c (gs1 0) fullShare.left.left.right (sv1 m (xr c (mask 1 0)))
      ∗ holdsPts c (gs1 0) fullShare.left.right (sv1 m (xr c (mask 1 0))) ∗ holdsPts c (gs1 0) fullShare.right (sv1 m (xr c (mask 1 0)))
      ∗ holdsPts c (gs1 1) fullShare.left.left (sv1 m (xr c (mask 1 1))) ∗ holdsPts c (gs1 1) fullShare.left.right (sv1 m (xr c (mask 1 1))) ∗ holdsPts c (gs1 1) fullShare.right (sv1 m (xr c (mask 1 1)))
      ∗ holdsPts c (gs1 2) fullShare.left (sv1 m (xr c (mask 1 2))) ∗ holdsPts c (gs1 2) fullShare.right (sv1 m (xr c (mask 1 2)))
      ∗ holdsPts c (ga1 3) fullShare.left (topB (sv1 m (xr c (mask 1 3)))) ∗ holdsPts c (gb1 3) fullShare.left (botB (sv1 m (xr c (mask 1 3)))) ∗ holdsPts c (gs1 3) fullShare.right (sv1 m (xr c (mask 1 3)))
      ∗ holdsPts c (gs1 4) fullShare (sv1 m (xr c (mask 1 4))) ∗ holdsPts c (gs1 5) fullShare (sv1 m (xr c (mask 1 5))) ∗ holdsPts c (gs1 6) fullShare (sv1 m (xr c (mask 1 6)))
      ∗ holdsPts c (ga1 7) fullShare (topB (sv1 m (xr c (mask 1 7)))) ∗ holdsPts c (gb1 7) fullShare (botB (sv1 m (xr c (mask 1 7))))) ⊢ anyBuf c _
  iintro ⟨A0, A1, A2, A3, B0, B1, B2, C0, C1, D0, D1, D2, E4, E5, E6, T7, U7⟩
  iapply (gs1_join8 c)
  isplitl [A0 A1 A2 A3]
  · iapply (holdsPts_any c (gs1 0) (sv1 m (xr c (mask 1 0))))
    iapply (uncut4 c (gs1 0) (sv1 m (xr c (mask 1 0))))
    isplitl [A0]; · iexact A0
    isplitl [A1]; · iexact A1
    isplitl [A2]; · iexact A2
    iexact A3
  isplitl [B0 B1 B2]
  · iapply (holdsPts_any c (gs1 1) (sv1 m (xr c (mask 1 1))))
    iapply (uncut3 c (gs1 1) (sv1 m (xr c (mask 1 1))))
    isplitl [B0]; · iexact B0
    isplitl [B1]; · iexact B1
    iexact B2
  isplitl [C0 C1]
  · iapply (holdsPts_any c (gs1 2) (sv1 m (xr c (mask 1 2))))
    iapply (share_join c (gs1 2) fullShare (sv1 m (xr c (mask 1 2))))
    isplitl [C0]; · iexact C0
    iexact C1
  isplitl [D0 D1 D2]
  · ihave D2 := (gs1_parts_val c 3 fullShare.right (sv1 m (xr c (mask 1 3)))) $$ D2
    icases D2 with ⟨D2a, D2b⟩
    iapply (gs1_unparts c 3)
    isplitl [D0 D2a]
    · iapply (holdsPts_any c (ga1 3) (topB (sv1 m (xr c (mask 1 3)))))
      iapply (share_join c (ga1 3) fullShare (topB (sv1 m (xr c (mask 1 3)))))
      isplitl [D0]; · iexact D0
      iexact D2a
    · iapply (holdsPts_any c (gb1 3) (botB (sv1 m (xr c (mask 1 3)))))
      iapply (share_join c (gb1 3) fullShare (botB (sv1 m (xr c (mask 1 3)))))
      isplitl [D1]; · iexact D1
      iexact D2b
  isplitl [E4]; · iapply (holdsPts_any c (gs1 4) (sv1 m (xr c (mask 1 4)))); iexact E4
  isplitl [E5]; · iapply (holdsPts_any c (gs1 5) (sv1 m (xr c (mask 1 5)))); iexact E5
  isplitl [E6]; · iapply (holdsPts_any c (gs1 6) (sv1 m (xr c (mask 1 6)))); iexact E6
  iapply (gs1_unparts c 7)
  isplitl [T7]
  · iapply (holdsPts_any c (ga1 7) (topB (sv1 m (xr c (mask 1 7))))); iexact T7
  · iapply (holdsPts_any c (gb1 7) (botB (sv1 m (xr c (mask 1 7))))); iexact U7

omit [FloatOps F] in
theorem gs2_split : anyBuf (F := F) c cc0_scratch3 ⊢ iprop(slotAny c 2 0 ∗ bigSep Finset.univ fun st : Fin 8 => dstAny c 2 st) := by
  rw [bigSep_fin8 (fun st : Fin 8 => dstAny (F := F) c 2 st)]
  show anyBuf (F := F) c _ ⊢ iprop(anyPts c (gs2 0) ∗ anyPts c (gs2 1) ∗ anyPts c (gs2 2) ∗ anyPts c (gs2 3) ∗ anyPts c (gs2 4)
    ∗ anyPts c (gs2 5) ∗ anyPts c (gs2 6) ∗ anyPts c (ga2 7) ∗ anyPts c (gb2 7))
  refine BIBase.Entails.trans (gs2_split8 c) ?_
  iintro ⟨H0, H1, H2, H3, H4, H5, H6, H7⟩
  ihave H7 := (gs2_parts c 7) $$ H7
  icases H7 with ⟨H7a, H7b⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7a]; · iexact H7a
  iexact H7b
theorem gs2_join : laneEnd m c 2 ⊢ anyBuf c cc0_scratch3 := by
  unfold laneEnd
  show iprop(holdsPts c (gs2 0) fullShare.left.left.left (sv2 m (xr c (mask 2 0))) ∗ holdsPts c (gs2 0) fullShare.left.left.right (sv2 m (xr c (mask 2 0)))
      ∗ holdsPts c (gs2 0) fullShare.left.right (sv2 m (xr c (mask 2 0))) ∗ holdsPts c (gs2 0) fullShare.right (sv2 m (xr c (mask 2 0)))
      ∗ holdsPts c (gs2 1) fullShare.left.left (sv2 m (xr c (mask 2 1))) ∗ holdsPts c (gs2 1) fullShare.left.right (sv2 m (xr c (mask 2 1))) ∗ holdsPts c (gs2 1) fullShare.right (sv2 m (xr c (mask 2 1)))
      ∗ holdsPts c (gs2 2) fullShare.left (sv2 m (xr c (mask 2 2))) ∗ holdsPts c (gs2 2) fullShare.right (sv2 m (xr c (mask 2 2)))
      ∗ holdsPts c (ga2 3) fullShare.left (topB (sv2 m (xr c (mask 2 3)))) ∗ holdsPts c (gb2 3) fullShare.left (botB (sv2 m (xr c (mask 2 3)))) ∗ holdsPts c (gs2 3) fullShare.right (sv2 m (xr c (mask 2 3)))
      ∗ holdsPts c (gs2 4) fullShare (sv2 m (xr c (mask 2 4))) ∗ holdsPts c (gs2 5) fullShare (sv2 m (xr c (mask 2 5))) ∗ holdsPts c (gs2 6) fullShare (sv2 m (xr c (mask 2 6)))
      ∗ holdsPts c (ga2 7) fullShare (topB (sv2 m (xr c (mask 2 7)))) ∗ holdsPts c (gb2 7) fullShare (botB (sv2 m (xr c (mask 2 7))))) ⊢ anyBuf c _
  iintro ⟨A0, A1, A2, A3, B0, B1, B2, C0, C1, D0, D1, D2, E4, E5, E6, T7, U7⟩
  iapply (gs2_join8 c)
  isplitl [A0 A1 A2 A3]
  · iapply (holdsPts_any c (gs2 0) (sv2 m (xr c (mask 2 0))))
    iapply (uncut4 c (gs2 0) (sv2 m (xr c (mask 2 0))))
    isplitl [A0]; · iexact A0
    isplitl [A1]; · iexact A1
    isplitl [A2]; · iexact A2
    iexact A3
  isplitl [B0 B1 B2]
  · iapply (holdsPts_any c (gs2 1) (sv2 m (xr c (mask 2 1))))
    iapply (uncut3 c (gs2 1) (sv2 m (xr c (mask 2 1))))
    isplitl [B0]; · iexact B0
    isplitl [B1]; · iexact B1
    iexact B2
  isplitl [C0 C1]
  · iapply (holdsPts_any c (gs2 2) (sv2 m (xr c (mask 2 2))))
    iapply (share_join c (gs2 2) fullShare (sv2 m (xr c (mask 2 2))))
    isplitl [C0]; · iexact C0
    iexact C1
  isplitl [D0 D1 D2]
  · ihave D2 := (gs2_parts_val c 3 fullShare.right (sv2 m (xr c (mask 2 3)))) $$ D2
    icases D2 with ⟨D2a, D2b⟩
    iapply (gs2_unparts c 3)
    isplitl [D0 D2a]
    · iapply (holdsPts_any c (ga2 3) (topB (sv2 m (xr c (mask 2 3)))))
      iapply (share_join c (ga2 3) fullShare (topB (sv2 m (xr c (mask 2 3)))))
      isplitl [D0]; · iexact D0
      iexact D2a
    · iapply (holdsPts_any c (gb2 3) (botB (sv2 m (xr c (mask 2 3)))))
      iapply (share_join c (gb2 3) fullShare (botB (sv2 m (xr c (mask 2 3)))))
      isplitl [D1]; · iexact D1
      iexact D2b
  isplitl [E4]; · iapply (holdsPts_any c (gs2 4) (sv2 m (xr c (mask 2 4)))); iexact E4
  isplitl [E5]; · iapply (holdsPts_any c (gs2 5) (sv2 m (xr c (mask 2 5)))); iexact E5
  isplitl [E6]; · iapply (holdsPts_any c (gs2 6) (sv2 m (xr c (mask 2 6)))); iexact E6
  iapply (gs2_unparts c 7)
  isplitl [T7]
  · iapply (holdsPts_any c (ga2 7) (topB (sv2 m (xr c (mask 2 7))))); iexact T7
  · iapply (holdsPts_any c (gb2 7) (botB (sv2 m (xr c (mask 2 7))))); iexact U7

omit [FloatOps F] in
theorem ss0_split : anyBuf (F := F) c cc0_scratch4 ⊢ iprop(stageAny c 0 0 ∗ stageAny c 0 1) := by
  show anyBuf (F := F) c cc0_scratch4 ⊢ iprop(anyPts c (ss0 0) ∗ anyPts c (ss0 1))
  rw [ss0_unsq c 0, ss0_unsq c 1]
  refine BIBase.Entails.trans (whole_split c cc0_scratch4 stgA (fun _ _ => rfl) stgA_cover stgA_disj) ?_
  exact Entails.of_eq (bigSep_fin2 (fun p : Fin 2 => anyPts (F := F) c ((Memref.whole cc0_scratch4).slice (stgA p) (fun _ => rfl))))
omit [FloatOps F] in
theorem ss0_join : iprop(stageAny (F := F) c 0 0 ∗ stageAny c 0 1) ⊢ anyBuf c cc0_scratch4 := by
  show iprop(anyPts (F := F) c (ss0 0) ∗ anyPts c (ss0 1)) ⊢ anyBuf c cc0_scratch4
  rw [ss0_unsq c 0, ss0_unsq c 1]
  have key : ∀ f₀ : Buf (Elt F) ((c : Thread nD τ).loc cc0_scratch4),
      iprop(anyPts (F := F) c ((Memref.whole cc0_scratch4).slice (stgA 0) (fun _ => rfl)) ∗ anyPts c ((Memref.whole cc0_scratch4).slice (stgA 1) (fun _ => rfl))) ⊢ anyBuf c cc0_scratch4 := fun f₀ =>
    BIBase.Entails.trans (Entails.of_eq (bigSep_fin2 (fun p : Fin 2 => anyPts (F := F) c ((Memref.whole cc0_scratch4).slice (stgA p) (fun _ => rfl)))).symm)
      (whole_join c cc0_scratch4 stgA (fun _ _ => rfl) stgA_cover stgA_disj f₀)
  simp only [anyPts_eq]
  iintro ⟨⟨%f0, H0⟩, H⟩
  iapply (key f0)
  simp only [anyPts_eq]
  isplitl [H0]; · iexists f0; iexact H0
  iexact H

omit [FloatOps F] in
theorem ss1_split : anyBuf (F := F) c cc0_scratch5 ⊢ iprop(stageAny c 1 0 ∗ stageAny c 1 1) := by
  show anyBuf (F := F) c cc0_scratch5 ⊢ iprop(anyPts c (ss1 0) ∗ anyPts c (ss1 1))
  rw [ss1_unsq c 0, ss1_unsq c 1]
  refine BIBase.Entails.trans (whole_split c cc0_scratch5 stgB (fun _ _ => rfl) stgB_cover stgB_disj) ?_
  exact Entails.of_eq (bigSep_fin2 (fun p : Fin 2 => anyPts (F := F) c ((Memref.whole cc0_scratch5).slice (stgB p) (fun _ => rfl))))
omit [FloatOps F] in
theorem ss1_join : iprop(stageAny (F := F) c 1 0 ∗ stageAny c 1 1) ⊢ anyBuf c cc0_scratch5 := by
  show iprop(anyPts (F := F) c (ss1 0) ∗ anyPts c (ss1 1)) ⊢ anyBuf c cc0_scratch5
  rw [ss1_unsq c 0, ss1_unsq c 1]
  have key : ∀ f₀ : Buf (Elt F) ((c : Thread nD τ).loc cc0_scratch5),
      iprop(anyPts (F := F) c ((Memref.whole cc0_scratch5).slice (stgB 0) (fun _ => rfl)) ∗ anyPts c ((Memref.whole cc0_scratch5).slice (stgB 1) (fun _ => rfl))) ⊢ anyBuf c cc0_scratch5 := fun f₀ =>
    BIBase.Entails.trans (Entails.of_eq (bigSep_fin2 (fun p : Fin 2 => anyPts (F := F) c ((Memref.whole cc0_scratch5).slice (stgB p) (fun _ => rfl)))).symm)
      (whole_join c cc0_scratch5 stgB (fun _ _ => rfl) stgB_cover stgB_disj f₀)
  simp only [anyPts_eq]
  iintro ⟨⟨%f0, H0⟩, H⟩
  iapply (key f0)
  simp only [anyPts_eq]
  isplitl [H0]; · iexists f0; iexact H0
  iexact H

omit [FloatOps F] in
theorem ss2_split : anyBuf (F := F) c cc0_scratch6 ⊢ iprop(stageAny c 2 0 ∗ stageAny c 2 1) := by
  show anyBuf (F := F) c cc0_scratch6 ⊢ iprop(anyPts c (ss2 0) ∗ anyPts c (ss2 1))
  rw [ss2_unsq c 0, ss2_unsq c 1]
  refine BIBase.Entails.trans (whole_split c cc0_scratch6 stgB (fun _ _ => rfl) stgB_cover stgB_disj) ?_
  exact Entails.of_eq (bigSep_fin2 (fun p : Fin 2 => anyPts (F := F) c ((Memref.whole cc0_scratch6).slice (stgB p) (fun _ => rfl))))
omit [FloatOps F] in
theorem ss2_join : iprop(stageAny (F := F) c 2 0 ∗ stageAny c 2 1) ⊢ anyBuf c cc0_scratch6 := by
  show iprop(anyPts (F := F) c (ss2 0) ∗ anyPts c (ss2 1)) ⊢ anyBuf c cc0_scratch6
  rw [ss2_unsq c 0, ss2_unsq c 1]
  have key : ∀ f₀ : Buf (Elt F) ((c : Thread nD τ).loc cc0_scratch6),
      iprop(anyPts (F := F) c ((Memref.whole cc0_scratch6).slice (stgB 0) (fun _ => rfl)) ∗ anyPts c ((Memref.whole cc0_scratch6).slice (stgB 1) (fun _ => rfl))) ⊢ anyBuf c cc0_scratch6 := fun f₀ =>
    BIBase.Entails.trans (Entails.of_eq (bigSep_fin2 (fun p : Fin 2 => anyPts (F := F) c ((Memref.whole cc0_scratch6).slice (stgB p) (fun _ => rfl)))).symm)
      (whole_join c cc0_scratch6 stgB (fun _ _ => rfl) stgB_cover stgB_disj f₀)
  simp only [anyPts_eq]
  iintro ⟨⟨%f0, H0⟩, H⟩
  iapply (key f0)
  simp only [anyPts_eq]
  isplitl [H0]; · iexists f0; iexact H0
  iexact H

/-! The seven scratch buffers cut into the pieces the body starts from, and put together from the pieces it ends with. -/

omit [FloatOps F] in
theorem scr_split : scr (F := F) c
    ⊢ iprop(anyPts c b16M ∗ (bigSep Finset.univ fun g : Fin 3 => slotAny c g 0) ∗ (bigSep Finset.univ fun gk : Fin 3 × Fin 8 => dstAny c gk.1 gk.2)
        ∗ bigSep Finset.univ fun gp : Fin 3 × Fin 2 => stageAny c gp.1 gp.2) := by
  rw [bigSep_fin3 (fun g : Fin 3 => slotAny (F := F) c g 0), bigSep_univ_prod (fun gk : Fin 3 × Fin 8 => dstAny (F := F) c gk.1 gk.2), bigSep_fin3,
    bigSep_univ_prod (fun gp : Fin 3 × Fin 2 => stageAny (F := F) c gp.1 gp.2), bigSep_fin3]
  simp only [bigSep_fin2]
  show scr (F := F) c ⊢ iprop(anyPts c b16M ∗ (slotAny c 0 0 ∗ slotAny c 1 0 ∗ slotAny c 2 0)
    ∗ ((bigSep Finset.univ fun st : Fin 8 => dstAny c 0 st) ∗ (bigSep Finset.univ fun st : Fin 8 => dstAny c 1 st) ∗ (bigSep Finset.univ fun st : Fin 8 => dstAny c 2 st))
    ∗ ((stageAny c 0 0 ∗ stageAny c 0 1) ∗ (stageAny c 1 0 ∗ stageAny c 1 1) ∗ (stageAny c 2 0 ∗ stageAny c 2 1)))
  unfold scr
  iintro ⟨B, G0, G1, G2, S0, S1, S2⟩
  ihave B := (b16_split c) $$ B
  ihave G0 := (gs0_split c) $$ G0
  icases G0 with ⟨G0a, G0b⟩
  ihave G1 := (gs1_split c) $$ G1
  icases G1 with ⟨G1a, G1b⟩
  ihave G2 := (gs2_split c) $$ G2
  icases G2 with ⟨G2a, G2b⟩
  ihave S0 := (ss0_split c) $$ S0
  ihave S1 := (ss1_split c) $$ S1
  ihave S2 := (ss2_split c) $$ S2
  isplitl [B]; · iexact B
  isplitl [G0a G1a G2a]
  · isplitl [G0a]; · iexact G0a
    isplitl [G1a]; · iexact G1a
    iexact G2a
  isplitl [G0b G1b G2b]
  · isplitl [G0b]; · iexact G0b
    isplitl [G1b]; · iexact G1b
    iexact G2b
  isplitl [S0]; · iexact S0
  isplitl [S1]; · iexact S1
  iexact S2
theorem scr_join : iprop(holdsPts c b16M fullShare (bv m c) ∗ (bigSep Finset.univ fun g : Fin 3 => laneEnd m c g)
        ∗ bigSep Finset.univ fun gp : Fin 3 × Fin 2 => stageAny c gp.1 gp.2)
    ⊢ scr c := by
  rw [bigSep_fin3 (fun g : Fin 3 => laneEnd m c g), bigSep_univ_prod (fun gp : Fin 3 × Fin 2 => stageAny (F := F) c gp.1 gp.2), bigSep_fin3]
  simp only [bigSep_fin2]
  show iprop(holdsPts c b16M fullShare (bv m c) ∗ (laneEnd m c 0 ∗ laneEnd m c 1 ∗ laneEnd m c 2)
    ∗ ((stageAny c 0 0 ∗ stageAny c 0 1) ∗ (stageAny c 1 0 ∗ stageAny c 1 1) ∗ (stageAny c 2 0 ∗ stageAny c 2 1))) ⊢ scr c
  unfold scr
  iintro ⟨B, ⟨L0, L1, L2⟩, S0, S1, S2⟩
  isplitl [B]; · iapply (b16_join c (bv m c)); iexact B
  isplitl [L0]; · iapply (gs0_join m c); iexact L0
  isplitl [L1]; · iapply (gs1_join m c); iexact L1
  isplitl [L2]; · iapply (gs2_join m c); iexact L2
  isplitl [S0]; · iapply (ss0_join c); iexact S0
  isplitl [S1]; · iapply (ss1_join c); iexact S1
  iapply (ss2_join c); iexact S2

/-- info: 'Cert.KernelIdeal.DM.op_copy0' depends on axioms: [propext, Classical.choice, Quot.sound] -/
#guard_msgs in #print axioms op_copy0
/-- info: 'Cert.KernelIdeal.DM.out_join' depends on axioms: [propext, Classical.choice, Quot.sound] -/
#guard_msgs in #print axioms out_join
/-- info: 'Cert.KernelIdeal.DM.scr_join' depends on axioms: [propext, Classical.choice, Quot.sound] -/
#guard_msgs in #print axioms scr_join

end Cert.KernelIdeal.DM

end
-- ==== Proof.BodyEnds.lean ====
import proofs.«900891_g7700000000000892_dist_matmul_m_i_outrep_m1024_n1024_k512_v7x_i8_f32_1_alg».proof.Proof.Atoms
import proofs.«900891_g7700000000000892_dist_matmul_m_i_outrep_m1024_n1024_k512_v7x_i8_f32_1_alg».proof.Proof.OpsWait
import proofs.«900891_g7700000000000892_dist_matmul_m_i_outrep_m1024_n1024_k512_v7x_i8_f32_1_alg».proof.Proof.OpsCopy

/-!
The two ends of a device's body. At the start, what the launch hands the body is opened into the pieces its steps
handle: the staged inputs are named, the ghost state is opened into the shared records and what stays with the
device, the one credit token is split, and the buffers are cut. At the end, the device's own cells are closed and the
pieces are joined back into what the body must hand over.
-/

noncomputable section

namespace Cert.KernelIdeal.DM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The staged inputs, named -/

/-- Both windows are fetched at the one point: each staging buffer holds its whole array. -/
theorem before_0 (c : Dev nD) (d) : (dats m 0 c).before (0 : Fin 2) t₀ d = xstg m c := by
  unfold Dat.before; rw [if_pos (fetch0_0 t₀)]; rfl
theorem before_1 (c : Dev nD) (d) : (dats m 0 c).before (1 : Fin 2) t₀ d = ystg m c := by
  unfold Dat.before; rw [if_pos (fetch0_1 t₀)]; rfl

/-! ## The start -/

/-- From what the launch hands the body to the pieces its first step has in hand, given how the credit token splits
    and how the result and the scratch buffers are cut. -/
theorem prologue_of
    (hcred : ∀ c : Dev nD, (cred (Orem (ownList c)) : sProp 𝕄)
      ⊢ iprop(cred (tallyAt (barCell c) () 3) ∗ bigSep Finset.univ fun gk : Fin 3 × Fin 8 => cred (tallyAt (recvCell c gk.1 gk.2) () (xferAmt gk.1 gk.2))))
    (hout : ∀ (c : Dev nD) (X : Buf (Elt F) ((c : Thread nD τ).loc main_v1)),
      ((((c : Thread nD τ).loc main_v1) ↦{fullShare} X) : sProp 𝕄) ⊢ bigSep Finset.univ fun gj : Fin 3 × Fin 8 => pieceAny c gj.1 gj.2)
    (hscr : ∀ c : Dev nD, (scr c : sProp 𝕄)
      ⊢ iprop(anyPts c b16M ∗ (bigSep Finset.univ fun g : Fin 3 => slotAny c g 0)
          ∗ (bigSep Finset.univ fun gk : Fin 3 × Fin 8 => dstAny c gk.1 gk.2)
          ∗ (bigSep Finset.univ fun gp : Fin 3 × Fin 2 => stageAny c gp.1 gp.2)))
    (c : Dev nD) : bodyPre m c ⊢ (iprop(∃ K, Init m K c) : sProp 𝕄) := by
  unfold bodyPre Φ₀ start ghost
  iintro ⟨⟨⟨⟨%K, #Hrec, Hlin⟩, Hcr, #Hlev⟩, Ho, Hscr⟩, Howes, ⟨%d0, %g0, %hg0, Ha⟩, ⟨%d1, %g1, %hg1, Hb⟩⟩
  have hx : g0 = xstg m c := by rw [hg0]; exact before_0 m c d0
  have hy : g1 = ystg m c := by rw [hg1]; exact before_1 m c d1
  subst hx; subst hy
  unfold Dat.owesAt Pipeline.owesWithin
  icases Howes with ⟨%W, %hW, HO⟩
  ihave Hc := (hcred c) $$ Hcr
  icases Hc with ⟨Hc3, Hcs⟩
  ihave Hp := (hout c _) $$ Ho
  ihave Hs := (hscr c) $$ Hscr
  icases Hs with ⟨Hb16, Hs0, Hdst, Hstage⟩
  iexists K
  unfold Init inA inB
  isplitr; · iexact Hrec
  isplitr; · iexact Hlev
  isplitl [HO]; · iexists W; iexact HO
  isplitl [Hc3]; · iexact Hc3
  isplitl [Hcs]; · iexact Hcs
  isplitl [Hlin]; · iexact Hlin
  isplitl [Ha]; · iexact Ha
  isplitl [Hb]; · iexact Hb
  isplitl [Hb16]; · iexact Hb16
  isplitl [Hs0]; · iexact Hs0
  isplitl [Hdst]; · iexact Hdst
  isplitl [Hstage]; · iexact Hstage
  iexact Hp

/-! ## The end -/

/-- From what is in hand after the last wait to what the body hands back, given how the device's own cells close and
    how the scratch buffers and the result are joined. -/
theorem epilogue_of
    (hclose : ∀ (K : Dev nD × CIx → ℕ) (c : Dev nD),
      iprop(records (Rd m) K ∗ bigSep Finset.univ fun k : OIx => atPos ER (kcell (c, Sum.inr k)) 1 ∅ 0)
        ⊢ (|={Set.univ}=> bigSep Finset.univ fun k : OIx => semVal (kcell (c, Sum.inr k)) 0 : sProp 𝕄))
    (hsj : ∀ c : Dev nD, iprop(holdsPts c b16M fullShare (bv m c) ∗ (bigSep Finset.univ fun g : Fin 3 => laneEnd m c g)
        ∗ (bigSep Finset.univ fun gp : Fin 3 × Fin 2 => stageAny c gp.1 gp.2)) ⊢ (scr c : sProp 𝕄))
    (hoj : ∀ c : Dev nD, (bigSep Finset.univ fun gj : Fin 3 × Fin 8 => pieceDone m c gj.1 gj.2)
        ⊢ (iprop(∃ X, ⌜outOK m c X⌝ ∗ (((c : Thread nD τ).loc main_v1) ↦{fullShare} X)) : sProp 𝕄))
    (K : Dev nD × CIx → ℕ) (c : Dev nD) : Final m K c ⊢ (|={Set.univ}=> bodyPost m c : sProp 𝕄) := by
  unfold Final inA inB
  iintro ⟨#Hrec, ⟨%W, HO⟩, Hat, Ha, Hb, Hb16, Hlanes, Hstage, Hpieces⟩
  imod (hclose K c) $$ [Hat] with Hz
  · isplitr; · iexact Hrec
    iexact Hat
  imodintro
  ihave Hscr := (hsj c) $$ [Hb16 Hlanes Hstage]
  · isplitl [Hb16]; · iexact Hb16
    isplitl [Hlanes] <;> iassumption
  ihave Hout := (hoj c) $$ Hpieces
  unfold bodyPost Φ₁ Dat.owesAt Pipeline.owesWithin
  isplitl [Hscr Hout Hz]
  · isplitl [Hscr]; · iexact Hscr
    isplitl [Hout]; · iexact Hout
    iexact Hz
  isplitl [HO]
  · iexists W
    isplitr; · ipureintro; exact fun _ _ => Or.inl trivial
    iexact HO
  isplitl [Ha]
  · iexists _
    isplitr; · ipureintro; rfl
    iexact Ha
  · iexists _
    isplitr; · ipureintro; rfl
    iexact Hb

/-! ## The two ends -/

/-- The own cells close from their positions past their one round, array by array. -/
theorem close_own (K : Dev nD × CIx → ℕ) (c : Dev nD) :
    iprop(records (Rd m) K ∗ bigSep Finset.univ fun k : OIx => atPos ER (kcell (c, Sum.inr k)) 1 ∅ 0)
      ⊢ (|={Set.univ}=> bigSep Finset.univ fun k : OIx => semVal (kcell (c, Sum.inr k)) 0 : sProp 𝕄) := by
  rw [bigSep_OIx (fun k : OIx => (atPos ER (kcell (c, Sum.inr k)) 1 ∅ 0 : sProp 𝕄))]
  exact close_all m K c

theorem prologue (c : Dev nD) : bodyPre m c ⊢ (iprop(∃ K, Init m K c) : sProp 𝕄) :=
  prologue_of m (fun c => credits_split c) (fun c X => out_split c X) (fun c => scr_split c) c

theorem epilogue (K : Dev nD × CIx → ℕ) (c : Dev nD) : Final m K c ⊢ (|={Set.univ}=> bodyPost m c : sProp 𝕄) :=
  epilogue_of m (close_own m) (fun c => scr_join m c) (fun c => out_join m c) K c

/-- info: 'Cert.KernelIdeal.DM.prologue' depends on axioms: [propext, Classical.choice, Quot.sound] -/
#guard_msgs in #print axioms prologue

/-- info: 'Cert.KernelIdeal.DM.epilogue' depends on axioms: [propext, Classical.choice, Quot.sound] -/
#guard_msgs in #print axioms epilogue

end Cert.KernelIdeal.DM

end
-- ==== Proof.ChainSpecs.lean ====
/- GENERATED by: bun scratch/gen_partspecs.js "$KIT/certs/proofs/900891_g7700000000000892_dist_matmul_m_i_outrep_m1024_n1024_k512_v7x_i8_f32_1_alg" "proofs.«900891_g7700000000000892_dist_matmul_m_i_outrep_m1024_n1024_k512_v7x_i8_f32_1_alg».proof" "chainspecs" (run from the unit directory; the script is filed beside this module): the
   pieces of state a device's body starts from and ends with, listed one by one. -/
import proofs.«900891_g7700000000000892_dist_matmul_m_i_outrep_m1024_n1024_k512_v7x_i8_f32_1_alg».proof.Proof.Atoms
set_option maxRecDepth 16384
noncomputable section
namespace Cert.KernelIdeal.DM
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (K : Dev nD × CIx → ℕ)

/-- Everything the body starts from, one piece at a time. -/
def InitChain (c : Dev nD) : sProp 𝕄 :=
  iprop(records (Rd m) K ∗ levAts L lv
    ∗ (∃ W, owes (c : Thread nD τ) (Orem ((payList c).drop 0)) W)
    ∗ cred (tallyAt (barCell c) () 3)
    ∗ cred (tallyAt (recvCell c 0 0) () (xferAmt 0 0))
    ∗ cred (tallyAt (recvCell c 0 1) () (xferAmt 0 1))
    ∗ cred (tallyAt (recvCell c 0 2) () (xferAmt 0 2))
    ∗ cred (tallyAt (recvCell c 0 3) () (xferAmt 0 3))
    ∗ cred (tallyAt (recvCell c 0 4) () (xferAmt 0 4))
    ∗ cred (tallyAt (recvCell c 0 5) () (xferAmt 0 5))
    ∗ cred (tallyAt (recvCell c 0 6) () (xferAmt 0 6))
    ∗ cred (tallyAt (recvCell c 0 7) () (xferAmt 0 7))
    ∗ cred (tallyAt (recvCell c 1 0) () (xferAmt 1 0))
    ∗ cred (tallyAt (recvCell c 1 1) () (xferAmt 1 1))
    ∗ cred (tallyAt (recvCell c 1 2) () (xferAmt 1 2))
    ∗ cred (tallyAt (recvCell c 1 3) () (xferAmt 1 3))
    ∗ cred (tallyAt (recvCell c 1 4) () (xferAmt 1 4))
    ∗ cred (tallyAt (recvCell c 1 5) () (xferAmt 1 5))
    ∗ cred (tallyAt (recvCell c 1 6) () (xferAmt 1 6))
    ∗ cred (tallyAt (recvCell c 1 7) () (xferAmt 1 7))
    ∗ cred (tallyAt (recvCell c 2 0) () (xferAmt 2 0))
    ∗ cred (tallyAt (recvCell c 2 1) () (xferAmt 2 1))
    ∗ cred (tallyAt (recvCell c 2 2) () (xferAmt 2 2))
    ∗ cred (tallyAt (recvCell c 2 3) () (xferAmt 2 3))
    ∗ cred (tallyAt (recvCell c 2 4) () (xferAmt 2 4))
    ∗ cred (tallyAt (recvCell c 2 5) () (xferAmt 2 5))
    ∗ cred (tallyAt (recvCell c 2 6) () (xferAmt 2 6))
    ∗ cred (tallyAt (recvCell c 2 7) () (xferAmt 2 7))
    ∗ atPos ER (barCell c) 0 ∅ 0
    ∗ atPos ER (sendCell c 0 0) 0 ∅ 0
    ∗ atPos ER (sendCell c 0 1) 0 ∅ 0
    ∗ atPos ER (sendCell c 0 2) 0 ∅ 0
    ∗ atPos ER (sendCell c 0 3) 0 ∅ 0
    ∗ atPos ER (sendCell c 0 4) 0 ∅ 0
    ∗ atPos ER (sendCell c 0 5) 0 ∅ 0
    ∗ atPos ER (sendCell c 0 6) 0 ∅ 0
    ∗ atPos ER (sendCell c 0 7) 0 ∅ 0
    ∗ atPos ER (sendCell c 1 0) 0 ∅ 0
    ∗ atPos ER (sendCell c 1 1) 0 ∅ 0
    ∗ atPos ER (sendCell c 1 2) 0 ∅ 0
    ∗ atPos ER (sendCell c 1 3) 0 ∅ 0
    ∗ atPos ER (sendCell c 1 4) 0 ∅ 0
    ∗ atPos ER (sendCell c 1 5) 0 ∅ 0
    ∗ atPos ER (sendCell c 1 6) 0 ∅ 0
    ∗ atPos ER (sendCell c 1 7) 0 ∅ 0
    ∗ atPos ER (sendCell c 2 0) 0 ∅ 0
    ∗ atPos ER (sendCell c 2 1) 0 ∅ 0
    ∗ atPos ER (sendCell c 2 2) 0 ∅ 0
    ∗ atPos ER (sendCell c 2 3) 0 ∅ 0
    ∗ atPos ER (sendCell c 2 4) 0 ∅ 0
    ∗ atPos ER (sendCell c 2 5) 0 ∅ 0
    ∗ atPos ER (sendCell c 2 6) 0 ∅ 0
    ∗ atPos ER (sendCell c 2 7) 0 ∅ 0
    ∗ atPos ER (recvCell c 0 0) 0 ∅ 0
    ∗ atPos ER (recvCell c 0 1) 0 ∅ 0
    ∗ atPos ER (recvCell c 0 2) 0 ∅ 0
    ∗ atPos ER (recvCell c 0 3) 0 ∅ 0
    ∗ atPos ER (recvCell c 0 4) 0 ∅ 0
    ∗ atPos ER (recvCell c 0 5) 0 ∅ 0
    ∗ atPos ER (recvCell c 0 6) 0 ∅ 0
    ∗ atPos ER (recvCell c 0 7) 0 ∅ 0
    ∗ atPos ER (recvCell c 1 0) 0 ∅ 0
    ∗ atPos ER (recvCell c 1 1) 0 ∅ 0
    ∗ atPos ER (recvCell c 1 2) 0 ∅ 0
    ∗ atPos ER (recvCell c 1 3) 0 ∅ 0
    ∗ atPos ER (recvCell c 1 4) 0 ∅ 0
    ∗ atPos ER (recvCell c 1 5) 0 ∅ 0
    ∗ atPos ER (recvCell c 1 6) 0 ∅ 0
    ∗ atPos ER (recvCell c 1 7) 0 ∅ 0
    ∗ atPos ER (recvCell c 2 0) 0 ∅ 0
    ∗ atPos ER (recvCell c 2 1) 0 ∅ 0
    ∗ atPos ER (recvCell c 2 2) 0 ∅ 0
    ∗ atPos ER (recvCell c 2 3) 0 ∅ 0
    ∗ atPos ER (recvCell c 2 4) 0 ∅ 0
    ∗ atPos ER (recvCell c 2 5) 0 ∅ 0
    ∗ atPos ER (recvCell c 2 6) 0 ∅ 0
    ∗ atPos ER (recvCell c 2 7) 0 ∅ 0
    ∗ atPos ER (copyCell c 0 0) 0 ∅ 0
    ∗ atPos ER (copyCell c 0 1) 0 ∅ 0
    ∗ atPos ER (copyCell c 0 2) 0 ∅ 0
    ∗ atPos ER (copyCell c 0 3) 0 ∅ 0
    ∗ atPos ER (copyCell c 0 4) 0 ∅ 0
    ∗ atPos ER (copyCell c 0 5) 0 ∅ 0
    ∗ atPos ER (copyCell c 0 6) 0 ∅ 0
    ∗ atPos ER (copyCell c 0 7) 0 ∅ 0
    ∗ atPos ER (copyCell c 1 0) 0 ∅ 0
    ∗ atPos ER (copyCell c 1 1) 0 ∅ 0
    ∗ atPos ER (copyCell c 1 2) 0 ∅ 0
    ∗ atPos ER (copyCell c 1 3) 0 ∅ 0
    ∗ atPos ER (copyCell c 1 4) 0 ∅ 0
    ∗ atPos ER (copyCell c 1 5) 0 ∅ 0
    ∗ atPos ER (copyCell c 1 6) 0 ∅ 0
    ∗ atPos ER (copyCell c 1 7) 0 ∅ 0
    ∗ atPos ER (copyCell c 2 0) 0 ∅ 0
    ∗ atPos ER (copyCell c 2 1) 0 ∅ 0
    ∗ atPos ER (copyCell c 2 2) 0 ∅ 0
    ∗ atPos ER (copyCell c 2 3) 0 ∅ 0
    ∗ atPos ER (copyCell c 2 4) 0 ∅ 0
    ∗ atPos ER (copyCell c 2 5) 0 ∅ 0
    ∗ atPos ER (copyCell c 2 6) 0 ∅ 0
    ∗ atPos ER (copyCell c 2 7) 0 ∅ 0
    ∗ dutyTok ER (barCell (xr c (dir 0))) 0 0
    ∗ dutyTok ER (barCell (xr c (dir 1))) 0 1
    ∗ dutyTok ER (barCell (xr c (dir 2))) 0 2
    ∗ dutyTok ER (recvCell (partner c 0 0) 0 0) 0 0
    ∗ dutyTok ER (recvCell (partner c 0 1) 0 1) 0 0
    ∗ dutyTok ER (recvCell (partner c 0 2) 0 2) 0 0
    ∗ dutyTok ER (recvCell (partner c 0 3) 0 3) 0 0
    ∗ dutyTok ER (recvCell (partner c 0 4) 0 4) 0 0
    ∗ dutyTok ER (recvCell (partner c 0 5) 0 5) 0 0
    ∗ dutyTok ER (recvCell (partner c 0 6) 0 6) 0 0
    ∗ dutyTok ER (recvCell (partner c 0 7) 0 7) 0 0
    ∗ dutyTok ER (recvCell (partner c 1 0) 1 0) 0 0
    ∗ dutyTok ER (recvCell (partner c 1 1) 1 1) 0 0
    ∗ dutyTok ER (recvCell (partner c 1 2) 1 2) 0 0
    ∗ dutyTok ER (recvCell (partner c 1 3) 1 3) 0 0
    ∗ dutyTok ER (recvCell (partner c 1 4) 1 4) 0 0
    ∗ dutyTok ER (recvCell (partner c 1 5) 1 5) 0 0
    ∗ dutyTok ER (recvCell (partner c 1 6) 1 6) 0 0
    ∗ dutyTok ER (recvCell (partner c 1 7) 1 7) 0 0
    ∗ dutyTok ER (recvCell (partner c 2 0) 2 0) 0 0
    ∗ dutyTok ER (recvCell (partner c 2 1) 2 1) 0 0
    ∗ dutyTok ER (recvCell (partner c 2 2) 2 2) 0 0
    ∗ dutyTok ER (recvCell (partner c 2 3) 2 3) 0 0
    ∗ dutyTok ER (recvCell (partner c 2 4) 2 4) 0 0
    ∗ dutyTok ER (recvCell (partner c 2 5) 2 5) 0 0
    ∗ dutyTok ER (recvCell (partner c 2 6) 2 6) 0 0
    ∗ dutyTok ER (recvCell (partner c 2 7) 2 7) 0 0
    ∗ dutyTok ER (sendCell c 0 0) 0 0
    ∗ dutyTok ER (sendCell c 0 1) 0 0
    ∗ dutyTok ER (sendCell c 0 2) 0 0
    ∗ dutyTok ER (sendCell c 0 3) 0 0
    ∗ dutyTok ER (sendCell c 0 4) 0 0
    ∗ dutyTok ER (sendCell c 0 5) 0 0
    ∗ dutyTok ER (sendCell c 0 6) 0 0
    ∗ dutyTok ER (sendCell c 0 7) 0 0
    ∗ dutyTok ER (sendCell c 1 0) 0 0
    ∗ dutyTok ER (sendCell c 1 1) 0 0
    ∗ dutyTok ER (sendCell c 1 2) 0 0
    ∗ dutyTok ER (sendCell c 1 3) 0 0
    ∗ dutyTok ER (sendCell c 1 4) 0 0
    ∗ dutyTok ER (sendCell c 1 5) 0 0
    ∗ dutyTok ER (sendCell c 1 6) 0 0
    ∗ dutyTok ER (sendCell c 1 7) 0 0
    ∗ dutyTok ER (sendCell c 2 0) 0 0
    ∗ dutyTok ER (sendCell c 2 1) 0 0
    ∗ dutyTok ER (sendCell c 2 2) 0 0
    ∗ dutyTok ER (sendCell c 2 3) 0 0
    ∗ dutyTok ER (sendCell c 2 4) 0 0
    ∗ dutyTok ER (sendCell c 2 5) 0 0
    ∗ dutyTok ER (sendCell c 2 6) 0 0
    ∗ dutyTok ER (sendCell c 2 7) 0 0
    ∗ dutyTok ER (copyCell c 0 0) 0 0
    ∗ dutyTok ER (copyCell c 0 1) 0 0
    ∗ dutyTok ER (copyCell c 0 2) 0 0
    ∗ dutyTok ER (copyCell c 0 3) 0 0
    ∗ dutyTok ER (copyCell c 0 4) 0 0
    ∗ dutyTok ER (copyCell c 0 5) 0 0
    ∗ dutyTok ER (copyCell c 0 6) 0 0
    ∗ dutyTok ER (copyCell c 0 7) 0 0
    ∗ dutyTok ER (copyCell c 1 0) 0 0
    ∗ dutyTok ER (copyCell c 1 1) 0 0
    ∗ dutyTok ER (copyCell c 1 2) 0 0
    ∗ dutyTok ER (copyCell c 1 3) 0 0
    ∗ dutyTok ER (copyCell c 1 4) 0 0
    ∗ dutyTok ER (copyCell c 1 5) 0 0
    ∗ dutyTok ER (copyCell c 1 6) 0 0
    ∗ dutyTok ER (copyCell c 1 7) 0 0
    ∗ dutyTok ER (copyCell c 2 0) 0 0
    ∗ dutyTok ER (copyCell c 2 1) 0 0
    ∗ dutyTok ER (copyCell c 2 2) 0 0
    ∗ dutyTok ER (copyCell c 2 3) 0 0
    ∗ dutyTok ER (copyCell c 2 4) 0 0
    ∗ dutyTok ER (copyCell c 2 5) 0 0
    ∗ dutyTok ER (copyCell c 2 6) 0 0
    ∗ dutyTok ER (copyCell c 2 7) 0 0
    ∗ inA m c
    ∗ inB m c
    ∗ anyPts c b16M
    ∗ slotAny c 0 0
    ∗ slotAny c 1 0
    ∗ slotAny c 2 0
    ∗ dstAny c 0 0
    ∗ dstAny c 0 1
    ∗ dstAny c 0 2
    ∗ dstAny c 0 3
    ∗ dstAny c 0 4
    ∗ dstAny c 0 5
    ∗ dstAny c 0 6
    ∗ dstAny c 0 7
    ∗ dstAny c 1 0
    ∗ dstAny c 1 1
    ∗ dstAny c 1 2
    ∗ dstAny c 1 3
    ∗ dstAny c 1 4
    ∗ dstAny c 1 5
    ∗ dstAny c 1 6
    ∗ dstAny c 1 7
    ∗ dstAny c 2 0
    ∗ dstAny c 2 1
    ∗ dstAny c 2 2
    ∗ dstAny c 2 3
    ∗ dstAny c 2 4
    ∗ dstAny c 2 5
    ∗ dstAny c 2 6
    ∗ dstAny c 2 7
    ∗ stageAny c 0 0
    ∗ stageAny c 0 1
    ∗ stageAny c 1 0
    ∗ stageAny c 1 1
    ∗ stageAny c 2 0
    ∗ stageAny c 2 1
    ∗ pieceAny c 0 0
    ∗ pieceAny c 0 1
    ∗ pieceAny c 0 2
    ∗ pieceAny c 0 3
    ∗ pieceAny c 0 4
    ∗ pieceAny c 0 5
    ∗ pieceAny c 0 6
    ∗ pieceAny c 0 7
    ∗ pieceAny c 1 0
    ∗ pieceAny c 1 1
    ∗ pieceAny c 1 2
    ∗ pieceAny c 1 3
    ∗ pieceAny c 1 4
    ∗ pieceAny c 1 5
    ∗ pieceAny c 1 6
    ∗ pieceAny c 1 7
    ∗ pieceAny c 2 0
    ∗ pieceAny c 2 1
    ∗ pieceAny c 2 2
    ∗ pieceAny c 2 3
    ∗ pieceAny c 2 4
    ∗ pieceAny c 2 5
    ∗ pieceAny c 2 6
    ∗ pieceAny c 2 7)

/-- Everything the body ends with, one piece at a time. -/
def FinalChain (c : Dev nD) : sProp 𝕄 :=
  iprop(records (Rd m) K
    ∗ (∃ W, owes (c : Thread nD τ) (Orem ((payList c).drop 27)) W)
    ∗ atPos ER (sendCell c 0 0) 1 ∅ 0
    ∗ atPos ER (sendCell c 0 1) 1 ∅ 0
    ∗ atPos ER (sendCell c 0 2) 1 ∅ 0
    ∗ atPos ER (sendCell c 0 3) 1 ∅ 0
    ∗ atPos ER (sendCell c 0 4) 1 ∅ 0
    ∗ atPos ER (sendCell c 0 5) 1 ∅ 0
    ∗ atPos ER (sendCell c 0 6) 1 ∅ 0
    ∗ atPos ER (sendCell c 0 7) 1 ∅ 0
    ∗ atPos ER (sendCell c 1 0) 1 ∅ 0
    ∗ atPos ER (sendCell c 1 1) 1 ∅ 0
    ∗ atPos ER (sendCell c 1 2) 1 ∅ 0
    ∗ atPos ER (sendCell c 1 3) 1 ∅ 0
    ∗ atPos ER (sendCell c 1 4) 1 ∅ 0
    ∗ atPos ER (sendCell c 1 5) 1 ∅ 0
    ∗ atPos ER (sendCell c 1 6) 1 ∅ 0
    ∗ atPos ER (sendCell c 1 7) 1 ∅ 0
    ∗ atPos ER (sendCell c 2 0) 1 ∅ 0
    ∗ atPos ER (sendCell c 2 1) 1 ∅ 0
    ∗ atPos ER (sendCell c 2 2) 1 ∅ 0
    ∗ atPos ER (sendCell c 2 3) 1 ∅ 0
    ∗ atPos ER (sendCell c 2 4) 1 ∅ 0
    ∗ atPos ER (sendCell c 2 5) 1 ∅ 0
    ∗ atPos ER (sendCell c 2 6) 1 ∅ 0
    ∗ atPos ER (sendCell c 2 7) 1 ∅ 0
    ∗ atPos ER (recvCell c 0 0) 1 ∅ 0
    ∗ atPos ER (recvCell c 0 1) 1 ∅ 0
    ∗ atPos ER (recvCell c 0 2) 1 ∅ 0
    ∗ atPos ER (recvCell c 0 3) 1 ∅ 0
    ∗ atPos ER (recvCell c 0 4) 1 ∅ 0
    ∗ atPos ER (recvCell c 0 5) 1 ∅ 0
    ∗ atPos ER (recvCell c 0 6) 1 ∅ 0
    ∗ atPos ER (recvCell c 0 7) 1 ∅ 0
    ∗ atPos ER (recvCell c 1 0) 1 ∅ 0
    ∗ atPos ER (recvCell c 1 1) 1 ∅ 0
    ∗ atPos ER (recvCell c 1 2) 1 ∅ 0
    ∗ atPos ER (recvCell c 1 3) 1 ∅ 0
    ∗ atPos ER (recvCell c 1 4) 1 ∅ 0
    ∗ atPos ER (recvCell c 1 5) 1 ∅ 0
    ∗ atPos ER (recvCell c 1 6) 1 ∅ 0
    ∗ atPos ER (recvCell c 1 7) 1 ∅ 0
    ∗ atPos ER (recvCell c 2 0) 1 ∅ 0
    ∗ atPos ER (recvCell c 2 1) 1 ∅ 0
    ∗ atPos ER (recvCell c 2 2) 1 ∅ 0
    ∗ atPos ER (recvCell c 2 3) 1 ∅ 0
    ∗ atPos ER (recvCell c 2 4) 1 ∅ 0
    ∗ atPos ER (recvCell c 2 5) 1 ∅ 0
    ∗ atPos ER (recvCell c 2 6) 1 ∅ 0
    ∗ atPos ER (recvCell c 2 7) 1 ∅ 0
    ∗ atPos ER (copyCell c 0 0) 1 ∅ 0
    ∗ atPos ER (copyCell c 0 1) 1 ∅ 0
    ∗ atPos ER (copyCell c 0 2) 1 ∅ 0
    ∗ atPos ER (copyCell c 0 3) 1 ∅ 0
    ∗ atPos ER (copyCell c 0 4) 1 ∅ 0
    ∗ atPos ER (copyCell c 0 5) 1 ∅ 0
    ∗ atPos ER (copyCell c 0 6) 1 ∅ 0
    ∗ atPos ER (copyCell c 0 7) 1 ∅ 0
    ∗ atPos ER (copyCell c 1 0) 1 ∅ 0
    ∗ atPos ER (copyCell c 1 1) 1 ∅ 0
    ∗ atPos ER (copyCell c 1 2) 1 ∅ 0
    ∗ atPos ER (copyCell c 1 3) 1 ∅ 0
    ∗ atPos ER (copyCell c 1 4) 1 ∅ 0
    ∗ atPos ER (copyCell c 1 5) 1 ∅ 0
    ∗ atPos ER (copyCell c 1 6) 1 ∅ 0
    ∗ atPos ER (copyCell c 1 7) 1 ∅ 0
    ∗ atPos ER (copyCell c 2 0) 1 ∅ 0
    ∗ atPos ER (copyCell c 2 1) 1 ∅ 0
    ∗ atPos ER (copyCell c 2 2) 1 ∅ 0
    ∗ atPos ER (copyCell c 2 3) 1 ∅ 0
    ∗ atPos ER (copyCell c 2 4) 1 ∅ 0
    ∗ atPos ER (copyCell c 2 5) 1 ∅ 0
    ∗ atPos ER (copyCell c 2 6) 1 ∅ 0
    ∗ atPos ER (copyCell c 2 7) 1 ∅ 0
    ∗ inA m c
    ∗ inB m c
    ∗ holdsPts c b16M fullShare (bv m c)
    ∗ slotHas m c 0 0 fullShare.left.left.left
    ∗ slotHas m c 0 0 fullShare.left.left.right
    ∗ slotHas m c 0 0 fullShare.left.right
    ∗ slotHas m c 0 0 fullShare.right
    ∗ slotHas m c 0 1 fullShare.left.left
    ∗ slotHas m c 0 1 fullShare.left.right
    ∗ slotHas m c 0 1 fullShare.right
    ∗ slotHas m c 0 2 fullShare.left
    ∗ slotHas m c 0 2 fullShare.right
    ∗ slotTop m c 0 3 fullShare.left
    ∗ slotBot m c 0 3 fullShare.left
    ∗ slotHas m c 0 3 fullShare.right
    ∗ slotHas m c 0 4 fullShare
    ∗ slotHas m c 0 5 fullShare
    ∗ slotHas m c 0 6 fullShare
    ∗ slotTop m c 0 7 fullShare
    ∗ slotBot m c 0 7 fullShare
    ∗ slotHas m c 1 0 fullShare.left.left.left
    ∗ slotHas m c 1 0 fullShare.left.left.right
    ∗ slotHas m c 1 0 fullShare.left.right
    ∗ slotHas m c 1 0 fullShare.right
    ∗ slotHas m c 1 1 fullShare.left.left
    ∗ slotHas m c 1 1 fullShare.left.right
    ∗ slotHas m c 1 1 fullShare.right
    ∗ slotHas m c 1 2 fullShare.left
    ∗ slotHas m c 1 2 fullShare.right
    ∗ slotTop m c 1 3 fullShare.left
    ∗ slotBot m c 1 3 fullShare.left
    ∗ slotHas m c 1 3 fullShare.right
    ∗ slotHas m c 1 4 fullShare
    ∗ slotHas m c 1 5 fullShare
    ∗ slotHas m c 1 6 fullShare
    ∗ slotTop m c 1 7 fullShare
    ∗ slotBot m c 1 7 fullShare
    ∗ slotHas m c 2 0 fullShare.left.left.left
    ∗ slotHas m c 2 0 fullShare.left.left.right
    ∗ slotHas m c 2 0 fullShare.left.right
    ∗ slotHas m c 2 0 fullShare.right
    ∗ slotHas m c 2 1 fullShare.left.left
    ∗ slotHas m c 2 1 fullShare.left.right
    ∗ slotHas m c 2 1 fullShare.right
    ∗ slotHas m c 2 2 fullShare.left
    ∗ slotHas m c 2 2 fullShare.right
    ∗ slotTop m c 2 3 fullShare.left
    ∗ slotBot m c 2 3 fullShare.left
    ∗ slotHas m c 2 3 fullShare.right
    ∗ slotHas m c 2 4 fullShare
    ∗ slotHas m c 2 5 fullShare
    ∗ slotHas m c 2 6 fullShare
    ∗ slotTop m c 2 7 fullShare
    ∗ slotBot m c 2 7 fullShare
    ∗ stageAny c 0 0
    ∗ stageAny c 0 1
    ∗ stageAny c 1 0
    ∗ stageAny c 1 1
    ∗ stageAny c 2 0
    ∗ stageAny c 2 1
    ∗ pieceDone m c 0 0
    ∗ pieceDone m c 0 1
    ∗ pieceDone m c 0 2
    ∗ pieceDone m c 0 3
    ∗ pieceDone m c 0 4
    ∗ pieceDone m c 0 5
    ∗ pieceDone m c 0 6
    ∗ pieceDone m c 0 7
    ∗ pieceDone m c 1 0
    ∗ pieceDone m c 1 1
    ∗ pieceDone m c 1 2
    ∗ pieceDone m c 1 3
    ∗ pieceDone m c 1 4
    ∗ pieceDone m c 1 5
    ∗ pieceDone m c 1 6
    ∗ pieceDone m c 1 7
    ∗ pieceDone m c 2 0
    ∗ pieceDone m c 2 1
    ∗ pieceDone m c 2 2
    ∗ pieceDone m c 2 3
    ∗ pieceDone m c 2 4
    ∗ pieceDone m c 2 5
    ∗ pieceDone m c 2 6
    ∗ pieceDone m c 2 7)

end Cert.KernelIdeal.DM
end
-- ==== Proof.ChainEnds.lean ====
import proofs.«900891_g7700000000000892_dist_matmul_m_i_outrep_m1024_n1024_k512_v7x_i8_f32_1_alg».proof.Proof.ChainSpecs
import proofs.«900891_g7700000000000892_dist_matmul_m_i_outrep_m1024_n1024_k512_v7x_i8_f32_1_alg».proof.Proof.OpsWait
import proofs.«900891_g7700000000000892_dist_matmul_m_i_outrep_m1024_n1024_k512_v7x_i8_f32_1_alg».proof.Proof.OpsCopy

/-!
What a device's body starts from and ends with, as the conjunctions over cells, slots and pieces in which the two
ends of the body state it, against the same pieces listed one by one: each indexed conjunction is its list of
conjuncts in lexicographic order, and the nesting of the conjunctions is immaterial.
-/

noncomputable section

namespace Cert.KernelIdeal.DM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ)

/-- A conjunction over the stage slots of the three groups, listed. -/
theorem bigSep_gp {M : Type} [URA M] (Φ : Fin 3 × Fin 2 → sProp M) :
    bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ

omit [FloatOps F] in
theorem sep_assoc_eq (P Q R : sProp 𝕄) : iprop((P ∗ Q) ∗ R) = iprop(P ∗ Q ∗ R) :=
  BI.Entails.antisymm (Laws.sep_assoc (P := P) (Q := Q) (R := R)).1 (Laws.sep_assoc (P := P) (Q := Q) (R := R)).2

theorem init_chain (c : Dev nD) : Init m K c ⊢ InitChain m K c := by
  refine Entails.of_eq ?_
  unfold Init InitChain
  rw [linear_eq c]
  simp only [bigSep_gk, bigSep_fin3, bigSep_gp, sep_assoc_eq]
  rfl

theorem final_chain (c : Dev nD) : FinalChain m K c ⊢ Final m K c := by
  refine Entails.of_eq ?_
  unfold Final FinalChain laneEnd
  rw [bigSep_OIx (fun k : OIx => (atPos ER (kcell (c, Sum.inr k)) 1 ∅ 0 : sProp 𝕄))]
  simp only [bigSep_gk, bigSep_fin3, bigSep_gp, sep_assoc_eq]
  rfl

/-- info: 'Cert.KernelIdeal.DM.init_chain' depends on axioms: [propext, Classical.choice, Quot.sound] -/
#guard_msgs in #print axioms init_chain

/-- info: 'Cert.KernelIdeal.DM.final_chain' depends on axioms: [propext, Classical.choice, Quot.sound] -/
#guard_msgs in #print axioms final_chain

end Cert.KernelIdeal.DM

end
-- ==== Proof.Body.lean ====
import proofs.«900891_g7700000000000892_dist_matmul_m_i_outrep_m1024_n1024_k512_v7x_i8_f32_1_alg».proof.Proof.BodyWrap
import proofs.«900891_g7700000000000892_dist_matmul_m_i_outrep_m1024_n1024_k512_v7x_i8_f32_1_alg».proof.Proof.BodyEnds
import proofs.«900891_g7700000000000892_dist_matmul_m_i_outrep_m1024_n1024_k512_v7x_i8_f32_1_alg».proof.Proof.ChainEnds

/-!
The run of a device's body, assembled: the start opens what the launch hands over into the listed pieces, the middle
runs the program from those to the listed pieces of the end, and the end closes the own cells, joins the pieces and
hands back what the pipeline expects. The end's closing is an update, absorbed by the program's postcondition.
-/

noncomputable section

namespace Cert.KernelIdeal.DM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The body's run from the run of its middle, between the pieces listed one by one. -/
theorem sound_body_of
    (hmid : ∀ (K : Dev nD × CIx → ℕ) (c : Dev nD) (Kt : PUnit → sProp 𝕄),
      iprop(InitChain m K c ∗ (FinalChain m K c -∗ Kt ⟨⟩))
        ⊢ wp frame (wpE (defs₀ (F := F)) 𝒱₀ (c : Thread nD τ) none) Set.univ (cc0_body aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9) Kt) :
    SoundBody m := by
  intro c Kt
  iintro ⟨Hpre, HK⟩
  ihave H := (prologue m c) $$ Hpre
  icases H with ⟨%K, Hinit⟩
  ihave Hchain := (init_chain m K c) $$ Hinit
  iapply (wp_fupd frame (wpE (defs₀ (F := F)) 𝒱₀ (c : Thread nD τ) none) Set.univ _ Kt)
  iapply (hmid K c (fun r => iprop(|={Set.univ}[frame]=> Kt r)))
  isplitl [Hchain]; · iexact Hchain
  iintro Hfin
  ihave Hfinal := (final_chain m K c) $$ Hfin
  imod (epilogue m K c) $$ Hfinal with Hpost
  imodintro
  iapply HK; iexact Hpost

/-- The library's body obligation on every device, from the run of the middle. -/
theorem body_obl_of
    (hmid : ∀ (K : Dev nD × CIx → ℕ) (c : Dev nD) (Kt : PUnit → sProp 𝕄),
      iprop(InitChain m K c ∗ (FinalChain m K c -∗ Kt ⟨⟩))
        ⊢ wp frame (wpE (defs₀ (F := F)) 𝒱₀ (c : Thread nD τ) none) Set.univ (cc0_body aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9) Kt)
    (c : Dev nD) : BodyObligation (dats (F := F) m 0 c) (defs₀ (F := F)) 𝒱₀ () Set.univ :=
  body_obligation m (sound_body_of m hmid) c

/-- info: 'Cert.KernelIdeal.DM.sound_body_of' depends on axioms: [propext, Classical.choice, Quot.sound] -/
#guard_msgs in #print axioms sound_body_of

end Cert.KernelIdeal.DM

end
-- ==== Proof.SepAC.lean ====
import proofs.«900891_g7700000000000892_dist_matmul_m_i_outrep_m1024_n1024_k512_v7x_i8_f32_1_alg».proof.Proof.Atoms

/-!
Separating conjunction of assertions over the body's state is associative and commutative as an equality, with the empty
assertion as its unit: what lets a conjunction of many pieces be reordered in one step.
-/

noncomputable section

namespace Cert.KernelIdeal.DM

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig Unit (Elt F) ℕ UU ℕ

theorem sepc_assoc (P Q R : sProp 𝕄) : iprop((P ∗ Q) ∗ R) = iprop(P ∗ Q ∗ R) :=
  BI.Entails.antisymm (Laws.sep_assoc (P := P) (Q := Q) (R := R)).1 (Laws.sep_assoc (P := P) (Q := Q) (R := R)).2
theorem sepc_comm (P Q : sProp 𝕄) : iprop(P ∗ Q) = iprop(Q ∗ P) :=
  BI.Entails.antisymm (Laws.sep_comm (P := P) (Q := Q)).1 (Laws.sep_comm (P := Q) (Q := P)).1
theorem sepc_left_comm (P Q R : sProp 𝕄) : iprop(P ∗ Q ∗ R) = iprop(Q ∗ P ∗ R) := by
  rw [← sepc_assoc, ← sepc_assoc, sepc_comm P Q]
theorem sepc_emp_left (P : sProp 𝕄) : iprop(emp ∗ P) = P :=
  BI.Entails.antisymm (Laws.emp_sep (P := P)).1 (Laws.emp_sep (P := P)).2
theorem sepc_emp_right (P : sProp 𝕄) : iprop(P ∗ emp) = P :=
  BI.Entails.antisymm (Laws.sep_emp (P := P)).1 (Laws.sep_emp (P := P)).2

instance sepc_isAssoc : Std.Associative (α := sProp 𝕄) (fun a b => iprop(a ∗ b)) := ⟨sepc_assoc⟩
instance sepc_isComm : Std.Commutative (α := sProp 𝕄) (fun a b => iprop(a ∗ b)) := ⟨sepc_comm⟩

/-- Two pieces held separately are held together. -/
theorem pair_intro (P Q : sProp 𝕄) : P ⊢ iprop(Q -∗ P ∗ Q) := by
  iintro HP HQ
  isplitl [HP]
  · iexact HP
  · iexact HQ

end Cert.KernelIdeal.DM

end
-- ==== Proof.ChainDefs.lean ====
/- GENERATED by: bun scratch/gen_partspecs.js "$KIT/certs/proofs/900891_g7700000000000892_dist_matmul_m_i_outrep_m1024_n1024_k512_v7x_i8_f32_1_alg" "proofs.«900891_g7700000000000892_dist_matmul_m_i_outrep_m1024_n1024_k512_v7x_i8_f32_1_alg».proof" "chaindefs" (run from the unit directory; the script is filed beside this module): the
   pieces of the body's state in bundles — those of the start not yet taken, step by step, and those only the end
   needs, as they accumulate. -/
import proofs.«900891_g7700000000000892_dist_matmul_m_i_outrep_m1024_n1024_k512_v7x_i8_f32_1_alg».proof.Proof.ChainSpecs
import proofs.«900891_g7700000000000892_dist_matmul_m_i_outrep_m1024_n1024_k512_v7x_i8_f32_1_alg».proof.Proof.SepAC
set_option maxRecDepth 16384
noncomputable section
namespace Cert.KernelIdeal.DM
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (K : Dev nD × CIx → ℕ)

/-- The pieces of the start first taken at step 45, and those taken later. -/
def InitFrom45 (m : (ℓ : Loc nD τ sig) → Buf (Elt F) ℓ) (K : Dev nD × CIx → ℕ) (c : Dev nD) : sProp 𝕄 :=
  iprop(atPos ER (copyCell c 0 6) 0 ∅ 0
      ∗ atPos ER (copyCell c 0 7) 0 ∅ 0
      ∗ atPos ER (copyCell c 1 6) 0 ∅ 0
      ∗ atPos ER (copyCell c 1 7) 0 ∅ 0
      ∗ atPos ER (copyCell c 2 6) 0 ∅ 0)

/-- The pieces of the start first taken at step 44, and those taken later. -/
def InitFrom44 (m : (ℓ : Loc nD τ sig) → Buf (Elt F) ℓ) (K : Dev nD × CIx → ℕ) (c : Dev nD) : sProp 𝕄 :=
  iprop(cred (tallyAt (recvCell c 2 7) () (xferAmt 2 7))
      ∗ atPos ER (recvCell c 2 7) 0 ∅ 0
      ∗ dutyTok ER (copyCell c 2 7) 0 0
      ∗ pieceAny c 2 7
      ∗ InitFrom45 m K c)

/-- The pieces of the start first taken at step 43, and those taken later. -/
def InitFrom43 (m : (ℓ : Loc nD τ sig) → Buf (Elt F) ℓ) (K : Dev nD × CIx → ℕ) (c : Dev nD) : sProp 𝕄 :=
  iprop(cred (tallyAt (recvCell c 1 7) () (xferAmt 1 7))
      ∗ atPos ER (sendCell c 2 7) 0 ∅ 0
      ∗ atPos ER (recvCell c 1 7) 0 ∅ 0
      ∗ dutyTok ER (copyCell c 1 7) 0 0
      ∗ pieceAny c 1 7
      ∗ InitFrom44 m K c)

/-- The pieces of the start first taken at step 42, and those taken later. -/
def InitFrom42 (m : (ℓ : Loc nD τ sig) → Buf (Elt F) ℓ) (K : Dev nD × CIx → ℕ) (c : Dev nD) : sProp 𝕄 :=
  iprop(atPos ER (sendCell c 1 7) 0 ∅ 0
      ∗ dutyTok ER (copyCell c 0 7) 0 0
      ∗ pieceAny c 0 7
      ∗ InitFrom43 m K c)

/-- The pieces of the start first taken at step 41, and those taken later. -/
def InitFrom41 (m : (ℓ : Loc nD τ sig) → Buf (Elt F) ℓ) (K : Dev nD × CIx → ℕ) (c : Dev nD) : sProp 𝕄 :=
  iprop(cred (tallyAt (recvCell c 0 7) () (xferAmt 0 7))
      ∗ atPos ER (sendCell c 0 7) 0 ∅ 0
      ∗ atPos ER (recvCell c 0 7) 0 ∅ 0
      ∗ InitFrom42 m K c)

/-- The pieces of the start first taken at step 40, and those taken later. -/
def InitFrom40 (m : (ℓ : Loc nD τ sig) → Buf (Elt F) ℓ) (K : Dev nD × CIx → ℕ) (c : Dev nD) : sProp 𝕄 :=
  iprop(cred (tallyAt (recvCell c 2 6) () (xferAmt 2 6))
      ∗ atPos ER (sendCell c 2 6) 0 ∅ 0
      ∗ atPos ER (recvCell c 2 6) 0 ∅ 0
      ∗ atPos ER (copyCell c 2 5) 0 ∅ 0
      ∗ InitFrom41 m K c)

/-- The pieces of the start first taken at step 39, and those taken later. -/
def InitFrom39 (m : (ℓ : Loc nD τ sig) → Buf (Elt F) ℓ) (K : Dev nD × CIx → ℕ) (c : Dev nD) : sProp 𝕄 :=
  iprop(cred (tallyAt (recvCell c 1 6) () (xferAmt 1 6))
      ∗ atPos ER (sendCell c 1 6) 0 ∅ 0
      ∗ atPos ER (recvCell c 1 6) 0 ∅ 0
      ∗ atPos ER (copyCell c 1 5) 0 ∅ 0
      ∗ InitFrom40 m K c)

/-- The pieces of the start first taken at step 38, and those taken later. -/
def InitFrom38 (m : (ℓ : Loc nD τ sig) → Buf (Elt F) ℓ) (K : Dev nD × CIx → ℕ) (c : Dev nD) : sProp 𝕄 :=
  iprop(cred (tallyAt (recvCell c 0 6) () (xferAmt 0 6))
      ∗ atPos ER (sendCell c 0 6) 0 ∅ 0
      ∗ atPos ER (recvCell c 0 6) 0 ∅ 0
      ∗ atPos ER (copyCell c 0 5) 0 ∅ 0
      ∗ InitFrom39 m K c)

/-- The pieces of the start first taken at step 37, and those taken later. -/
def InitFrom37 (m : (ℓ : Loc nD τ sig) → Buf (Elt F) ℓ) (K : Dev nD × CIx → ℕ) (c : Dev nD) : sProp 𝕄 :=
  iprop(atPos ER (copyCell c 2 4) 0 ∅ 0
      ∗ dutyTok ER (copyCell c 2 6) 0 0
      ∗ pieceAny c 2 6
      ∗ InitFrom38 m K c)

/-- The pieces of the start first taken at step 36, and those taken later. -/
def InitFrom36 (m : (ℓ : Loc nD τ sig) → Buf (Elt F) ℓ) (K : Dev nD × CIx → ℕ) (c : Dev nD) : sProp 𝕄 :=
  iprop(cred (tallyAt (recvCell c 2 5) () (xferAmt 2 5))
      ∗ atPos ER (sendCell c 2 5) 0 ∅ 0
      ∗ atPos ER (recvCell c 2 5) 0 ∅ 0
      ∗ dutyTok ER (copyCell c 1 6) 0 0
      ∗ pieceAny c 1 6
      ∗ InitFrom37 m K c)

/-- The pieces of the start first taken at step 35, and those taken later. -/
def InitFrom35 (m : (ℓ : Loc nD τ sig) → Buf (Elt F) ℓ) (K : Dev nD × CIx → ℕ) (c : Dev nD) : sProp 𝕄 :=
  iprop(cred (tallyAt (recvCell c 1 5) () (xferAmt 1 5))
      ∗ atPos ER (sendCell c 1 5) 0 ∅ 0
      ∗ atPos ER (recvCell c 1 5) 0 ∅ 0
      ∗ atPos ER (copyCell c 1 4) 0 ∅ 0
      ∗ InitFrom36 m K c)

/-- The pieces of the start first taken at step 34, and those taken later. -/
def InitFrom34 (m : (ℓ : Loc nD τ sig) → Buf (Elt F) ℓ) (K : Dev nD × CIx → ℕ) (c : Dev nD) : sProp 𝕄 :=
  iprop(cred (tallyAt (recvCell c 0 5) () (xferAmt 0 5))
      ∗ atPos ER (recvCell c 0 5) 0 ∅ 0
      ∗ atPos ER (copyCell c 0 4) 0 ∅ 0
      ∗ dutyTok ER (copyCell c 0 6) 0 0
      ∗ pieceAny c 0 6
      ∗ InitFrom35 m K c)

/-- The pieces of the start first taken at step 33, and those taken later. -/
def InitFrom33 (m : (ℓ : Loc nD τ sig) → Buf (Elt F) ℓ) (K : Dev nD × CIx → ℕ) (c : Dev nD) : sProp 𝕄 :=
  iprop(atPos ER (sendCell c 0 5) 0 ∅ 0
      ∗ atPos ER (copyCell c 2 3) 0 ∅ 0
      ∗ dutyTok ER (copyCell c 2 5) 0 0
      ∗ pieceAny c 2 5
      ∗ InitFrom34 m K c)

/-- The pieces of the start first taken at step 32, and those taken later. -/
def InitFrom32 (m : (ℓ : Loc nD τ sig) → Buf (Elt F) ℓ) (K : Dev nD × CIx → ℕ) (c : Dev nD) : sProp 𝕄 :=
  iprop(cred (tallyAt (recvCell c 2 4) () (xferAmt 2 4))
      ∗ atPos ER (sendCell c 2 4) 0 ∅ 0
      ∗ atPos ER (recvCell c 2 4) 0 ∅ 0
      ∗ dutyTok ER (copyCell c 1 5) 0 0
      ∗ pieceAny c 1 5
      ∗ InitFrom33 m K c)

/-- The pieces of the start first taken at step 31, and those taken later. -/
def InitFrom31 (m : (ℓ : Loc nD τ sig) → Buf (Elt F) ℓ) (K : Dev nD × CIx → ℕ) (c : Dev nD) : sProp 𝕄 :=
  iprop(cred (tallyAt (recvCell c 1 4) () (xferAmt 1 4))
      ∗ atPos ER (sendCell c 1 4) 0 ∅ 0
      ∗ atPos ER (recvCell c 1 4) 0 ∅ 0
      ∗ atPos ER (copyCell c 1 3) 0 ∅ 0
      ∗ InitFrom32 m K c)

/-- The pieces of the start first taken at step 30, and those taken later. -/
def InitFrom30 (m : (ℓ : Loc nD τ sig) → Buf (Elt F) ℓ) (K : Dev nD × CIx → ℕ) (c : Dev nD) : sProp 𝕄 :=
  iprop(cred (tallyAt (recvCell c 0 4) () (xferAmt 0 4))
      ∗ atPos ER (recvCell c 0 4) 0 ∅ 0
      ∗ atPos ER (copyCell c 0 3) 0 ∅ 0
      ∗ dutyTok ER (copyCell c 0 5) 0 0
      ∗ pieceAny c 0 5
      ∗ InitFrom31 m K c)

/-- The pieces of the start first taken at step 29, and those taken later. -/
def InitFrom29 (m : (ℓ : Loc nD τ sig) → Buf (Elt F) ℓ) (K : Dev nD × CIx → ℕ) (c : Dev nD) : sProp 𝕄 :=
  iprop(atPos ER (sendCell c 0 4) 0 ∅ 0
      ∗ dutyTok ER (copyCell c 2 3) 0 0
      ∗ pieceAny c 2 3
      ∗ InitFrom30 m K c)

/-- The pieces of the start first taken at step 28, and those taken later. -/
def InitFrom28 (m : (ℓ : Loc nD τ sig) → Buf (Elt F) ℓ) (K : Dev nD × CIx → ℕ) (c : Dev nD) : sProp 𝕄 :=
  iprop(atPos ER (copyCell c 1 1) 0 ∅ 0
      ∗ atPos ER (copyCell c 2 1) 0 ∅ 0
      ∗ dutyTok ER (copyCell c 1 3) 0 0
      ∗ pieceAny c 1 3
      ∗ InitFrom29 m K c)

/-- The pieces of the start first taken at step 27, and those taken later. -/
def InitFrom27 (m : (ℓ : Loc nD τ sig) → Buf (Elt F) ℓ) (K : Dev nD × CIx → ℕ) (c : Dev nD) : sProp 𝕄 :=
  iprop(atPos ER (copyCell c 0 1) 0 ∅ 0
      ∗ dutyTok ER (recvCell (partner c 2 7) 2 7) 0 0
      ∗ dutyTok ER (sendCell c 2 7) 0 0
      ∗ dutyTok ER (copyCell c 0 3) 0 0
      ∗ pieceAny c 0 3
      ∗ InitFrom28 m K c)

/-- The pieces of the start first taken at step 26, and those taken later. -/
def InitFrom26 (m : (ℓ : Loc nD τ sig) → Buf (Elt F) ℓ) (K : Dev nD × CIx → ℕ) (c : Dev nD) : sProp 𝕄 :=
  iprop(cred (tallyAt (recvCell c 2 2) () (xferAmt 2 2))
      ∗ atPos ER (recvCell c 2 2) 0 ∅ 0
      ∗ dutyTok ER (recvCell (partner c 2 6) 2 6) 0 0
      ∗ dutyTok ER (sendCell c 2 6) 0 0
      ∗ InitFrom27 m K c)

/-- The pieces of the start first taken at step 25, and those taken later. -/
def InitFrom25 (m : (ℓ : Loc nD τ sig) → Buf (Elt F) ℓ) (K : Dev nD × CIx → ℕ) (c : Dev nD) : sProp 𝕄 :=
  iprop(atPos ER (sendCell c 2 2) 0 ∅ 0
      ∗ dutyTok ER (recvCell (partner c 1 6) 1 6) 0 0
      ∗ dutyTok ER (recvCell (partner c 1 7) 1 7) 0 0
      ∗ dutyTok ER (sendCell c 1 6) 0 0
      ∗ dutyTok ER (sendCell c 1 7) 0 0
      ∗ InitFrom26 m K c)

/-- The pieces of the start first taken at step 24, and those taken later. -/
def InitFrom24 (m : (ℓ : Loc nD τ sig) → Buf (Elt F) ℓ) (K : Dev nD × CIx → ℕ) (c : Dev nD) : sProp 𝕄 :=
  iprop(cred (tallyAt (recvCell c 1 2) () (xferAmt 1 2))
      ∗ atPos ER (sendCell c 1 2) 0 ∅ 0
      ∗ atPos ER (recvCell c 1 2) 0 ∅ 0
      ∗ dutyTok ER (recvCell (partner c 0 7) 0 7) 0 0
      ∗ dutyTok ER (sendCell c 0 7) 0 0
      ∗ InitFrom25 m K c)

/-- The pieces of the start first taken at step 23, and those taken later. -/
def InitFrom23 (m : (ℓ : Loc nD τ sig) → Buf (Elt F) ℓ) (K : Dev nD × CIx → ℕ) (c : Dev nD) : sProp 𝕄 :=
  iprop(cred (tallyAt (recvCell c 0 2) () (xferAmt 0 2))
      ∗ atPos ER (sendCell c 0 2) 0 ∅ 0
      ∗ atPos ER (recvCell c 0 2) 0 ∅ 0
      ∗ dutyTok ER (recvCell (partner c 0 6) 0 6) 0 0
      ∗ dutyTok ER (sendCell c 0 6) 0 0
      ∗ InitFrom24 m K c)

/-- The pieces of the start first taken at step 22, and those taken later. -/
def InitFrom22 (m : (ℓ : Loc nD τ sig) → Buf (Elt F) ℓ) (K : Dev nD × CIx → ℕ) (c : Dev nD) : sProp 𝕄 :=
  iprop(atPos ER (copyCell c 2 2) 0 ∅ 0
      ∗ dutyTok ER (copyCell c 2 4) 0 0
      ∗ pieceAny c 2 4
      ∗ InitFrom23 m K c)

/-- The pieces of the start first taken at step 21, and those taken later. -/
def InitFrom21 (m : (ℓ : Loc nD τ sig) → Buf (Elt F) ℓ) (K : Dev nD × CIx → ℕ) (c : Dev nD) : sProp 𝕄 :=
  iprop(cred (tallyAt (recvCell c 2 3) () (xferAmt 2 3))
      ∗ atPos ER (sendCell c 2 3) 0 ∅ 0
      ∗ atPos ER (recvCell c 2 3) 0 ∅ 0
      ∗ dutyTok ER (copyCell c 1 4) 0 0
      ∗ pieceAny c 1 4
      ∗ InitFrom22 m K c)

/-- The pieces of the start first taken at step 20, and those taken later. -/
def InitFrom20 (m : (ℓ : Loc nD τ sig) → Buf (Elt F) ℓ) (K : Dev nD × CIx → ℕ) (c : Dev nD) : sProp 𝕄 :=
  iprop(cred (tallyAt (recvCell c 1 3) () (xferAmt 1 3))
      ∗ atPos ER (sendCell c 1 3) 0 ∅ 0
      ∗ atPos ER (recvCell c 1 3) 0 ∅ 0
      ∗ atPos ER (copyCell c 1 2) 0 ∅ 0
      ∗ dutyTok ER (copyCell c 0 4) 0 0
      ∗ pieceAny c 0 4
      ∗ InitFrom21 m K c)

/-- The pieces of the start first taken at step 19, and those taken later. -/
def InitFrom19 (m : (ℓ : Loc nD τ sig) → Buf (Elt F) ℓ) (K : Dev nD × CIx → ℕ) (c : Dev nD) : sProp 𝕄 :=
  iprop(cred (tallyAt (recvCell c 0 3) () (xferAmt 0 3))
      ∗ atPos ER (recvCell c 0 3) 0 ∅ 0
      ∗ atPos ER (copyCell c 0 2) 0 ∅ 0
      ∗ InitFrom20 m K c)

/-- The pieces of the start first taken at step 18, and those taken later. -/
def InitFrom18 (m : (ℓ : Loc nD τ sig) → Buf (Elt F) ℓ) (K : Dev nD × CIx → ℕ) (c : Dev nD) : sProp 𝕄 :=
  iprop(atPos ER (sendCell c 0 3) 0 ∅ 0
      ∗ atPos ER (copyCell c 2 0) 0 ∅ 0
      ∗ dutyTok ER (copyCell c 2 2) 0 0
      ∗ pieceAny c 2 2
      ∗ InitFrom19 m K c)

/-- The pieces of the start first taken at step 17, and those taken later. -/
def InitFrom17 (m : (ℓ : Loc nD τ sig) → Buf (Elt F) ℓ) (K : Dev nD × CIx → ℕ) (c : Dev nD) : sProp 𝕄 :=
  iprop(atPos ER (copyCell c 1 0) 0 ∅ 0
      ∗ dutyTok ER (copyCell c 0 2) 0 0
      ∗ dutyTok ER (copyCell c 1 2) 0 0
      ∗ pieceAny c 0 2
      ∗ pieceAny c 1 2
      ∗ InitFrom18 m K c)

/-- The pieces of the start first taken at step 16, and those taken later. -/
def InitFrom16 (m : (ℓ : Loc nD τ sig) → Buf (Elt F) ℓ) (K : Dev nD × CIx → ℕ) (c : Dev nD) : sProp 𝕄 :=
  iprop(atPos ER (copyCell c 0 0) 0 ∅ 0
      ∗ dutyTok ER (recvCell (partner c 2 5) 2 5) 0 0
      ∗ dutyTok ER (sendCell c 2 5) 0 0
      ∗ InitFrom17 m K c)

/-- The pieces of the start first taken at step 15, and those taken later. -/
def InitFrom15 (m : (ℓ : Loc nD τ sig) → Buf (Elt F) ℓ) (K : Dev nD × CIx → ℕ) (c : Dev nD) : sProp 𝕄 :=
  iprop(cred (tallyAt (recvCell c 2 1) () (xferAmt 2 1))
      ∗ atPos ER (sendCell c 2 1) 0 ∅ 0
      ∗ atPos ER (recvCell c 2 1) 0 ∅ 0
      ∗ dutyTok ER (recvCell (partner c 1 5) 1 5) 0 0
      ∗ dutyTok ER (sendCell c 1 5) 0 0
      ∗ InitFrom16 m K c)

/-- The pieces of the start first taken at step 14, and those taken later. -/
def InitFrom14 (m : (ℓ : Loc nD τ sig) → Buf (Elt F) ℓ) (K : Dev nD × CIx → ℕ) (c : Dev nD) : sProp 𝕄 :=
  iprop(cred (tallyAt (recvCell c 1 1) () (xferAmt 1 1))
      ∗ atPos ER (sendCell c 1 1) 0 ∅ 0
      ∗ atPos ER (recvCell c 1 1) 0 ∅ 0
      ∗ dutyTok ER (recvCell (partner c 0 5) 0 5) 0 0
      ∗ dutyTok ER (sendCell c 0 5) 0 0
      ∗ InitFrom15 m K c)

/-- The pieces of the start first taken at step 13, and those taken later. -/
def InitFrom13 (m : (ℓ : Loc nD τ sig) → Buf (Elt F) ℓ) (K : Dev nD × CIx → ℕ) (c : Dev nD) : sProp 𝕄 :=
  iprop(cred (tallyAt (recvCell c 0 1) () (xferAmt 0 1))
      ∗ atPos ER (sendCell c 0 1) 0 ∅ 0
      ∗ atPos ER (recvCell c 0 1) 0 ∅ 0
      ∗ dutyTok ER (copyCell c 2 1) 0 0
      ∗ pieceAny c 2 1
      ∗ InitFrom14 m K c)

/-- The pieces of the start first taken at step 12, and those taken later. -/
def InitFrom12 (m : (ℓ : Loc nD τ sig) → Buf (Elt F) ℓ) (K : Dev nD × CIx → ℕ) (c : Dev nD) : sProp 𝕄 :=
  iprop(dutyTok ER (copyCell c 0 1) 0 0
      ∗ dutyTok ER (copyCell c 1 1) 0 0
      ∗ stageAny c 1 1
      ∗ stageAny c 2 1
      ∗ pieceAny c 0 1
      ∗ pieceAny c 1 1
      ∗ InitFrom13 m K c)

/-- The pieces of the start first taken at step 11, and those taken later. -/
def InitFrom11 (m : (ℓ : Loc nD τ sig) → Buf (Elt F) ℓ) (K : Dev nD × CIx → ℕ) (c : Dev nD) : sProp 𝕄 :=
  iprop(dutyTok ER (recvCell (partner c 2 2) 2 2) 0 0
      ∗ dutyTok ER (recvCell (partner c 2 4) 2 4) 0 0
      ∗ dutyTok ER (sendCell c 2 2) 0 0
      ∗ dutyTok ER (sendCell c 2 4) 0 0
      ∗ stageAny c 0 1
      ∗ InitFrom12 m K c)

/-- The pieces of the start first taken at step 10, and those taken later. -/
def InitFrom10 (m : (ℓ : Loc nD τ sig) → Buf (Elt F) ℓ) (K : Dev nD × CIx → ℕ) (c : Dev nD) : sProp 𝕄 :=
  iprop(cred (tallyAt (recvCell c 2 0) () (xferAmt 2 0))
      ∗ atPos ER (sendCell c 2 0) 0 ∅ 0
      ∗ atPos ER (recvCell c 2 0) 0 ∅ 0
      ∗ dutyTok ER (recvCell (partner c 1 4) 1 4) 0 0
      ∗ dutyTok ER (sendCell c 1 4) 0 0
      ∗ InitFrom11 m K c)

/-- The pieces of the start first taken at step 9, and those taken later. -/
def InitFrom9 (m : (ℓ : Loc nD τ sig) → Buf (Elt F) ℓ) (K : Dev nD × CIx → ℕ) (c : Dev nD) : sProp 𝕄 :=
  iprop(cred (tallyAt (recvCell c 1 0) () (xferAmt 1 0))
      ∗ atPos ER (sendCell c 1 0) 0 ∅ 0
      ∗ atPos ER (recvCell c 1 0) 0 ∅ 0
      ∗ dutyTok ER (recvCell (partner c 1 2) 1 2) 0 0
      ∗ dutyTok ER (sendCell c 1 2) 0 0
      ∗ InitFrom10 m K c)

/-- The pieces of the start first taken at step 8, and those taken later. -/
def InitFrom8 (m : (ℓ : Loc nD τ sig) → Buf (Elt F) ℓ) (K : Dev nD × CIx → ℕ) (c : Dev nD) : sProp 𝕄 :=
  iprop(cred (tallyAt (recvCell c 0 0) () (xferAmt 0 0))
      ∗ atPos ER (recvCell c 0 0) 0 ∅ 0
      ∗ dutyTok ER (recvCell (partner c 0 2) 0 2) 0 0
      ∗ dutyTok ER (recvCell (partner c 0 4) 0 4) 0 0
      ∗ dutyTok ER (sendCell c 0 2) 0 0
      ∗ dutyTok ER (sendCell c 0 4) 0 0
      ∗ InitFrom9 m K c)

/-- The pieces of the start first taken at step 7, and those taken later. -/
def InitFrom7 (m : (ℓ : Loc nD τ sig) → Buf (Elt F) ℓ) (K : Dev nD × CIx → ℕ) (c : Dev nD) : sProp 𝕄 :=
  iprop(atPos ER (sendCell c 0 0) 0 ∅ 0
      ∗ dutyTok ER (copyCell c 2 0) 0 0
      ∗ stageAny c 2 0
      ∗ pieceAny c 2 0
      ∗ InitFrom8 m K c)

/-- The pieces of the start first taken at step 6, and those taken later. -/
def InitFrom6 (m : (ℓ : Loc nD τ sig) → Buf (Elt F) ℓ) (K : Dev nD × CIx → ℕ) (c : Dev nD) : sProp 𝕄 :=
  iprop(dutyTok ER (copyCell c 0 0) 0 0
      ∗ dutyTok ER (copyCell c 1 0) 0 0
      ∗ stageAny c 0 0
      ∗ stageAny c 1 0
      ∗ pieceAny c 0 0
      ∗ pieceAny c 1 0
      ∗ InitFrom7 m K c)

/-- The pieces of the start first taken at step 5, and those taken later. -/
def InitFrom5 (m : (ℓ : Loc nD τ sig) → Buf (Elt F) ℓ) (K : Dev nD × CIx → ℕ) (c : Dev nD) : sProp 𝕄 :=
  iprop(dutyTok ER (recvCell (partner c 1 3) 1 3) 0 0
      ∗ dutyTok ER (recvCell (partner c 2 3) 2 3) 0 0
      ∗ dutyTok ER (sendCell c 1 3) 0 0
      ∗ dutyTok ER (sendCell c 2 3) 0 0
      ∗ inB m c
      ∗ anyPts c b16M
      ∗ InitFrom6 m K c)

/-- The pieces of the start first taken at step 4, and those taken later. -/
def InitFrom4 (m : (ℓ : Loc nD τ sig) → Buf (Elt F) ℓ) (K : Dev nD × CIx → ℕ) (c : Dev nD) : sProp 𝕄 :=
  iprop(dutyTok ER (recvCell (partner c 0 3) 0 3) 0 0
      ∗ dutyTok ER (recvCell (partner c 1 1) 1 1) 0 0
      ∗ dutyTok ER (recvCell (partner c 2 1) 2 1) 0 0
      ∗ dutyTok ER (sendCell c 0 3) 0 0
      ∗ dutyTok ER (sendCell c 1 1) 0 0
      ∗ dutyTok ER (sendCell c 2 1) 0 0
      ∗ InitFrom5 m K c)

/-- The pieces of the start first taken at step 3, and those taken later. -/
def InitFrom3 (m : (ℓ : Loc nD τ sig) → Buf (Elt F) ℓ) (K : Dev nD × CIx → ℕ) (c : Dev nD) : sProp 𝕄 :=
  iprop(dutyTok ER (recvCell (partner c 0 1) 0 1) 0 0
      ∗ dutyTok ER (recvCell (partner c 2 0) 2 0) 0 0
      ∗ dutyTok ER (sendCell c 0 1) 0 0
      ∗ dutyTok ER (sendCell c 2 0) 0 0
      ∗ InitFrom4 m K c)

/-- The pieces of the start first taken at step 2, and those taken later. -/
def InitFrom2 (m : (ℓ : Loc nD τ sig) → Buf (Elt F) ℓ) (K : Dev nD × CIx → ℕ) (c : Dev nD) : sProp 𝕄 :=
  iprop(cred (tallyAt (barCell c) () 3)
      ∗ atPos ER (barCell c) 0 ∅ 0
      ∗ dutyTok ER (recvCell (partner c 0 0) 0 0) 0 0
      ∗ dutyTok ER (recvCell (partner c 1 0) 1 0) 0 0
      ∗ dutyTok ER (sendCell c 0 0) 0 0
      ∗ dutyTok ER (sendCell c 1 0) 0 0
      ∗ slotAny c 2 0
      ∗ InitFrom3 m K c)

/-- The pieces of the start first taken at step 1, and those taken later. -/
def InitFrom1 (m : (ℓ : Loc nD τ sig) → Buf (Elt F) ℓ) (K : Dev nD × CIx → ℕ) (c : Dev nD) : sProp 𝕄 :=
  iprop((∃ W, owes (c : Thread nD τ) (Orem ((payList c).drop 0)) W)
      ∗ dutyTok ER (barCell (xr c (dir 0))) 0 0
      ∗ dutyTok ER (barCell (xr c (dir 1))) 0 1
      ∗ dutyTok ER (barCell (xr c (dir 2))) 0 2
      ∗ inA m c
      ∗ slotAny c 0 0
      ∗ slotAny c 1 0
      ∗ dstAny c 0 0
      ∗ dstAny c 0 1
      ∗ dstAny c 0 2
      ∗ dstAny c 0 3
      ∗ dstAny c 0 4
      ∗ dstAny c 0 5
      ∗ dstAny c 0 6
      ∗ dstAny c 0 7
      ∗ dstAny c 1 0
      ∗ dstAny c 1 1
      ∗ dstAny c 1 2
      ∗ dstAny c 1 3
      ∗ dstAny c 1 4
      ∗ dstAny c 1 5
      ∗ dstAny c 1 6
      ∗ dstAny c 1 7
      ∗ dstAny c 2 0
      ∗ dstAny c 2 1
      ∗ dstAny c 2 2
      ∗ dstAny c 2 3
      ∗ dstAny c 2 4
      ∗ dstAny c 2 5
      ∗ dstAny c 2 6
      ∗ dstAny c 2 7
      ∗ InitFrom2 m K c)

/-- The pieces only the end needs, up to step 1. -/
def Done1 (m : (ℓ : Loc nD τ sig) → Buf (Elt F) ℓ) (K : Dev nD × CIx → ℕ) (c : Dev nD) : sProp 𝕄 :=
  iprop(inA m c)

/-- The pieces only the end needs, up to step 2. -/
def Done2 (m : (ℓ : Loc nD τ sig) → Buf (Elt F) ℓ) (K : Dev nD × CIx → ℕ) (c : Dev nD) : sProp 𝕄 :=
  iprop(Done1 m K c
      ∗ atPos ER (barCell c) 1 ∅ 0)

/-- The pieces only the end needs, up to step 5. -/
def Done5 (m : (ℓ : Loc nD τ sig) → Buf (Elt F) ℓ) (K : Dev nD × CIx → ℕ) (c : Dev nD) : sProp 𝕄 :=
  iprop(Done2 m K c
      ∗ inB m c
      ∗ slotHas m c 0 0 fullShare.right)

/-- The pieces only the end needs, up to step 6. -/
def Done6 (m : (ℓ : Loc nD τ sig) → Buf (Elt F) ℓ) (K : Dev nD × CIx → ℕ) (c : Dev nD) : sProp 𝕄 :=
  iprop(Done5 m K c
      ∗ slotHas m c 1 0 fullShare.right)

/-- The pieces only the end needs, up to step 7. -/
def Done7 (m : (ℓ : Loc nD τ sig) → Buf (Elt F) ℓ) (K : Dev nD × CIx → ℕ) (c : Dev nD) : sProp 𝕄 :=
  iprop(Done6 m K c
      ∗ slotHas m c 2 0 fullShare.right
      ∗ atPos ER (sendCell c 0 0) 1 ∅ 0
      ∗ slotHas m c 0 0 fullShare.left.left.left)

/-- The pieces only the end needs, up to step 8. -/
def Done8 (m : (ℓ : Loc nD τ sig) → Buf (Elt F) ℓ) (K : Dev nD × CIx → ℕ) (c : Dev nD) : sProp 𝕄 :=
  iprop(Done7 m K c
      ∗ atPos ER (recvCell c 0 0) 1 ∅ 0)

/-- The pieces only the end needs, up to step 9. -/
def Done9 (m : (ℓ : Loc nD τ sig) → Buf (Elt F) ℓ) (K : Dev nD × CIx → ℕ) (c : Dev nD) : sProp 𝕄 :=
  iprop(Done8 m K c
      ∗ atPos ER (sendCell c 1 0) 1 ∅ 0
      ∗ slotHas m c 1 0 fullShare.left.left.left
      ∗ atPos ER (recvCell c 1 0) 1 ∅ 0)

/-- The pieces only the end needs, up to step 10. -/
def Done10 (m : (ℓ : Loc nD τ sig) → Buf (Elt F) ℓ) (K : Dev nD × CIx → ℕ) (c : Dev nD) : sProp 𝕄 :=
  iprop(Done9 m K c
      ∗ atPos ER (sendCell c 2 0) 1 ∅ 0
      ∗ slotHas m c 2 0 fullShare.left.left.left
      ∗ atPos ER (recvCell c 2 0) 1 ∅ 0)

/-- The pieces only the end needs, up to step 11. -/
def Done11 (m : (ℓ : Loc nD τ sig) → Buf (Elt F) ℓ) (K : Dev nD × CIx → ℕ) (c : Dev nD) : sProp 𝕄 :=
  iprop(Done10 m K c
      ∗ slotHas m c 0 1 fullShare.right)

/-- The pieces only the end needs, up to step 12. -/
def Done12 (m : (ℓ : Loc nD τ sig) → Buf (Elt F) ℓ) (K : Dev nD × CIx → ℕ) (c : Dev nD) : sProp 𝕄 :=
  iprop(Done11 m K c
      ∗ slotHas m c 1 1 fullShare.right
      ∗ slotHas m c 2 1 fullShare.right)

/-- The pieces only the end needs, up to step 13. -/
def Done13 (m : (ℓ : Loc nD τ sig) → Buf (Elt F) ℓ) (K : Dev nD × CIx → ℕ) (c : Dev nD) : sProp 𝕄 :=
  iprop(Done12 m K c
      ∗ atPos ER (sendCell c 0 1) 1 ∅ 0
      ∗ slotHas m c 0 0 fullShare.left.left.right
      ∗ atPos ER (recvCell c 0 1) 1 ∅ 0)

/-- The pieces only the end needs, up to step 14. -/
def Done14 (m : (ℓ : Loc nD τ sig) → Buf (Elt F) ℓ) (K : Dev nD × CIx → ℕ) (c : Dev nD) : sProp 𝕄 :=
  iprop(Done13 m K c
      ∗ atPos ER (sendCell c 1 1) 1 ∅ 0
      ∗ slotHas m c 1 0 fullShare.left.left.right
      ∗ atPos ER (recvCell c 1 1) 1 ∅ 0)

/-- The pieces only the end needs, up to step 15. -/
def Done15 (m : (ℓ : Loc nD τ sig) → Buf (Elt F) ℓ) (K : Dev nD × CIx → ℕ) (c : Dev nD) : sProp 𝕄 :=
  iprop(Done14 m K c
      ∗ atPos ER (sendCell c 2 1) 1 ∅ 0
      ∗ slotHas m c 2 0 fullShare.left.left.right
      ∗ atPos ER (recvCell c 2 1) 1 ∅ 0)

/-- The pieces only the end needs, up to step 16. -/
def Done16 (m : (ℓ : Loc nD τ sig) → Buf (Elt F) ℓ) (K : Dev nD × CIx → ℕ) (c : Dev nD) : sProp 𝕄 :=
  iprop(Done15 m K c
      ∗ atPos ER (copyCell c 0 0) 1 ∅ 0
      ∗ pieceDone m c 0 0
      ∗ slotHas m c 0 2 fullShare.right)

/-- The pieces only the end needs, up to step 17. -/
def Done17 (m : (ℓ : Loc nD τ sig) → Buf (Elt F) ℓ) (K : Dev nD × CIx → ℕ) (c : Dev nD) : sProp 𝕄 :=
  iprop(Done16 m K c
      ∗ atPos ER (copyCell c 1 0) 1 ∅ 0
      ∗ pieceDone m c 1 0
      ∗ slotHas m c 1 2 fullShare.right)

/-- The pieces only the end needs, up to step 18. -/
def Done18 (m : (ℓ : Loc nD τ sig) → Buf (Elt F) ℓ) (K : Dev nD × CIx → ℕ) (c : Dev nD) : sProp 𝕄 :=
  iprop(Done17 m K c
      ∗ atPos ER (copyCell c 2 0) 1 ∅ 0
      ∗ pieceDone m c 2 0
      ∗ slotHas m c 2 2 fullShare.right
      ∗ atPos ER (sendCell c 0 3) 1 ∅ 0
      ∗ slotHas m c 0 0 fullShare.left.right)

/-- The pieces only the end needs, up to step 19. -/
def Done19 (m : (ℓ : Loc nD τ sig) → Buf (Elt F) ℓ) (K : Dev nD × CIx → ℕ) (c : Dev nD) : sProp 𝕄 :=
  iprop(Done18 m K c
      ∗ atPos ER (recvCell c 0 3) 1 ∅ 0
      ∗ slotHas m c 0 4 fullShare
      ∗ atPos ER (copyCell c 0 2) 1 ∅ 0
      ∗ pieceDone m c 0 2)

/-- The pieces only the end needs, up to step 20. -/
def Done20 (m : (ℓ : Loc nD τ sig) → Buf (Elt F) ℓ) (K : Dev nD × CIx → ℕ) (c : Dev nD) : sProp 𝕄 :=
  iprop(Done19 m K c
      ∗ atPos ER (sendCell c 1 3) 1 ∅ 0
      ∗ slotHas m c 1 0 fullShare.left.right
      ∗ atPos ER (recvCell c 1 3) 1 ∅ 0
      ∗ slotHas m c 1 4 fullShare
      ∗ atPos ER (copyCell c 1 2) 1 ∅ 0
      ∗ pieceDone m c 1 2)

/-- The pieces only the end needs, up to step 21. -/
def Done21 (m : (ℓ : Loc nD τ sig) → Buf (Elt F) ℓ) (K : Dev nD × CIx → ℕ) (c : Dev nD) : sProp 𝕄 :=
  iprop(Done20 m K c
      ∗ atPos ER (sendCell c 2 3) 1 ∅ 0
      ∗ slotHas m c 2 0 fullShare.left.right
      ∗ atPos ER (recvCell c 2 3) 1 ∅ 0)

/-- The pieces only the end needs, up to step 22. -/
def Done22 (m : (ℓ : Loc nD τ sig) → Buf (Elt F) ℓ) (K : Dev nD × CIx → ℕ) (c : Dev nD) : sProp 𝕄 :=
  iprop(Done21 m K c
      ∗ atPos ER (copyCell c 2 2) 1 ∅ 0
      ∗ pieceDone m c 2 2
      ∗ slotHas m c 2 4 fullShare)

/-- The pieces only the end needs, up to step 23. -/
def Done23 (m : (ℓ : Loc nD τ sig) → Buf (Elt F) ℓ) (K : Dev nD × CIx → ℕ) (c : Dev nD) : sProp 𝕄 :=
  iprop(Done22 m K c
      ∗ atPos ER (sendCell c 0 2) 1 ∅ 0
      ∗ slotHas m c 0 1 fullShare.left.left
      ∗ atPos ER (recvCell c 0 2) 1 ∅ 0)

/-- The pieces only the end needs, up to step 24. -/
def Done24 (m : (ℓ : Loc nD τ sig) → Buf (Elt F) ℓ) (K : Dev nD × CIx → ℕ) (c : Dev nD) : sProp 𝕄 :=
  iprop(Done23 m K c
      ∗ atPos ER (sendCell c 1 2) 1 ∅ 0
      ∗ slotHas m c 1 1 fullShare.left.left
      ∗ atPos ER (recvCell c 1 2) 1 ∅ 0)

/-- The pieces only the end needs, up to step 25. -/
def Done25 (m : (ℓ : Loc nD τ sig) → Buf (Elt F) ℓ) (K : Dev nD × CIx → ℕ) (c : Dev nD) : sProp 𝕄 :=
  iprop(Done24 m K c
      ∗ atPos ER (sendCell c 2 2) 1 ∅ 0
      ∗ slotHas m c 2 1 fullShare.left.left)

/-- The pieces only the end needs, up to step 26. -/
def Done26 (m : (ℓ : Loc nD τ sig) → Buf (Elt F) ℓ) (K : Dev nD × CIx → ℕ) (c : Dev nD) : sProp 𝕄 :=
  iprop(Done25 m K c
      ∗ atPos ER (recvCell c 2 2) 1 ∅ 0)

/-- The pieces only the end needs, up to step 27. -/
def Done27 (m : (ℓ : Loc nD τ sig) → Buf (Elt F) ℓ) (K : Dev nD × CIx → ℕ) (c : Dev nD) : sProp 𝕄 :=
  iprop(Done26 m K c
      ∗ atPos ER (copyCell c 0 1) 1 ∅ 0
      ∗ pieceDone m c 0 1
      ∗ slotHas m c 0 3 fullShare.right)

/-- The pieces only the end needs, up to step 28. -/
def Done28 (m : (ℓ : Loc nD τ sig) → Buf (Elt F) ℓ) (K : Dev nD × CIx → ℕ) (c : Dev nD) : sProp 𝕄 :=
  iprop(Done27 m K c
      ∗ atPos ER (copyCell c 1 1) 1 ∅ 0
      ∗ pieceDone m c 1 1
      ∗ slotHas m c 1 3 fullShare.right
      ∗ atPos ER (copyCell c 2 1) 1 ∅ 0
      ∗ pieceDone m c 2 1
      ∗ slotHas m c 2 3 fullShare.right)

/-- The pieces only the end needs, up to step 29. -/
def Done29 (m : (ℓ : Loc nD τ sig) → Buf (Elt F) ℓ) (K : Dev nD × CIx → ℕ) (c : Dev nD) : sProp 𝕄 :=
  iprop(Done28 m K c
      ∗ atPos ER (sendCell c 0 4) 1 ∅ 0
      ∗ slotHas m c 0 1 fullShare.left.right)

/-- The pieces only the end needs, up to step 30. -/
def Done30 (m : (ℓ : Loc nD τ sig) → Buf (Elt F) ℓ) (K : Dev nD × CIx → ℕ) (c : Dev nD) : sProp 𝕄 :=
  iprop(Done29 m K c
      ∗ atPos ER (recvCell c 0 4) 1 ∅ 0
      ∗ slotHas m c 0 5 fullShare
      ∗ atPos ER (copyCell c 0 3) 1 ∅ 0
      ∗ pieceDone m c 0 3)

/-- The pieces only the end needs, up to step 31. -/
def Done31 (m : (ℓ : Loc nD τ sig) → Buf (Elt F) ℓ) (K : Dev nD × CIx → ℕ) (c : Dev nD) : sProp 𝕄 :=
  iprop(Done30 m K c
      ∗ atPos ER (sendCell c 1 4) 1 ∅ 0
      ∗ slotHas m c 1 1 fullShare.left.right
      ∗ atPos ER (recvCell c 1 4) 1 ∅ 0
      ∗ slotHas m c 1 5 fullShare
      ∗ atPos ER (copyCell c 1 3) 1 ∅ 0
      ∗ pieceDone m c 1 3)

/-- The pieces only the end needs, up to step 32. -/
def Done32 (m : (ℓ : Loc nD τ sig) → Buf (Elt F) ℓ) (K : Dev nD × CIx → ℕ) (c : Dev nD) : sProp 𝕄 :=
  iprop(Done31 m K c
      ∗ atPos ER (sendCell c 2 4) 1 ∅ 0
      ∗ slotHas m c 2 1 fullShare.left.right
      ∗ atPos ER (recvCell c 2 4) 1 ∅ 0)

/-- The pieces only the end needs, up to step 33. -/
def Done33 (m : (ℓ : Loc nD τ sig) → Buf (Elt F) ℓ) (K : Dev nD × CIx → ℕ) (c : Dev nD) : sProp 𝕄 :=
  iprop(Done32 m K c
      ∗ atPos ER (copyCell c 2 3) 1 ∅ 0
      ∗ pieceDone m c 2 3
      ∗ slotHas m c 2 5 fullShare
      ∗ atPos ER (sendCell c 0 5) 1 ∅ 0
      ∗ slotHas m c 0 2 fullShare.left)

/-- The pieces only the end needs, up to step 34. -/
def Done34 (m : (ℓ : Loc nD τ sig) → Buf (Elt F) ℓ) (K : Dev nD × CIx → ℕ) (c : Dev nD) : sProp 𝕄 :=
  iprop(Done33 m K c
      ∗ atPos ER (recvCell c 0 5) 1 ∅ 0
      ∗ slotHas m c 0 6 fullShare
      ∗ atPos ER (copyCell c 0 4) 1 ∅ 0
      ∗ pieceDone m c 0 4)

/-- The pieces only the end needs, up to step 35. -/
def Done35 (m : (ℓ : Loc nD τ sig) → Buf (Elt F) ℓ) (K : Dev nD × CIx → ℕ) (c : Dev nD) : sProp 𝕄 :=
  iprop(Done34 m K c
      ∗ atPos ER (sendCell c 1 5) 1 ∅ 0
      ∗ slotHas m c 1 2 fullShare.left
      ∗ atPos ER (recvCell c 1 5) 1 ∅ 0
      ∗ slotHas m c 1 6 fullShare
      ∗ atPos ER (copyCell c 1 4) 1 ∅ 0
      ∗ pieceDone m c 1 4)

/-- The pieces only the end needs, up to step 36. -/
def Done36 (m : (ℓ : Loc nD τ sig) → Buf (Elt F) ℓ) (K : Dev nD × CIx → ℕ) (c : Dev nD) : sProp 𝕄 :=
  iprop(Done35 m K c
      ∗ atPos ER (sendCell c 2 5) 1 ∅ 0
      ∗ slotHas m c 2 2 fullShare.left
      ∗ atPos ER (recvCell c 2 5) 1 ∅ 0)

/-- The pieces only the end needs, up to step 37. -/
def Done37 (m : (ℓ : Loc nD τ sig) → Buf (Elt F) ℓ) (K : Dev nD × CIx → ℕ) (c : Dev nD) : sProp 𝕄 :=
  iprop(Done36 m K c
      ∗ atPos ER (copyCell c 2 4) 1 ∅ 0
      ∗ pieceDone m c 2 4
      ∗ slotHas m c 2 6 fullShare)

/-- The pieces only the end needs, up to step 38. -/
def Done38 (m : (ℓ : Loc nD τ sig) → Buf (Elt F) ℓ) (K : Dev nD × CIx → ℕ) (c : Dev nD) : sProp 𝕄 :=
  iprop(Done37 m K c
      ∗ atPos ER (sendCell c 0 6) 1 ∅ 0
      ∗ slotTop m c 0 3 fullShare.left
      ∗ atPos ER (recvCell c 0 6) 1 ∅ 0
      ∗ slotTop m c 0 7 fullShare
      ∗ atPos ER (copyCell c 0 5) 1 ∅ 0
      ∗ pieceDone m c 0 5)

/-- The pieces only the end needs, up to step 39. -/
def Done39 (m : (ℓ : Loc nD τ sig) → Buf (Elt F) ℓ) (K : Dev nD × CIx → ℕ) (c : Dev nD) : sProp 𝕄 :=
  iprop(Done38 m K c
      ∗ atPos ER (sendCell c 1 6) 1 ∅ 0
      ∗ slotTop m c 1 3 fullShare.left
      ∗ atPos ER (recvCell c 1 6) 1 ∅ 0
      ∗ slotTop m c 1 7 fullShare
      ∗ atPos ER (copyCell c 1 5) 1 ∅ 0
      ∗ pieceDone m c 1 5)

/-- The pieces only the end needs, up to step 40. -/
def Done40 (m : (ℓ : Loc nD τ sig) → Buf (Elt F) ℓ) (K : Dev nD × CIx → ℕ) (c : Dev nD) : sProp 𝕄 :=
  iprop(Done39 m K c
      ∗ atPos ER (sendCell c 2 6) 1 ∅ 0
      ∗ slotTop m c 2 3 fullShare.left
      ∗ atPos ER (recvCell c 2 6) 1 ∅ 0
      ∗ slotTop m c 2 7 fullShare
      ∗ atPos ER (copyCell c 2 5) 1 ∅ 0
      ∗ pieceDone m c 2 5)

/-- The pieces only the end needs, up to step 41. -/
def Done41 (m : (ℓ : Loc nD τ sig) → Buf (Elt F) ℓ) (K : Dev nD × CIx → ℕ) (c : Dev nD) : sProp 𝕄 :=
  iprop(Done40 m K c
      ∗ atPos ER (sendCell c 0 7) 1 ∅ 0
      ∗ slotBot m c 0 3 fullShare.left
      ∗ atPos ER (recvCell c 0 7) 1 ∅ 0
      ∗ slotBot m c 0 7 fullShare)

/-- The pieces only the end needs, up to step 42. -/
def Done42 (m : (ℓ : Loc nD τ sig) → Buf (Elt F) ℓ) (K : Dev nD × CIx → ℕ) (c : Dev nD) : sProp 𝕄 :=
  iprop(Done41 m K c
      ∗ atPos ER (sendCell c 1 7) 1 ∅ 0
      ∗ slotBot m c 1 3 fullShare.left)

/-- The pieces only the end needs, up to step 43. -/
def Done43 (m : (ℓ : Loc nD τ sig) → Buf (Elt F) ℓ) (K : Dev nD × CIx → ℕ) (c : Dev nD) : sProp 𝕄 :=
  iprop(Done42 m K c
      ∗ atPos ER (recvCell c 1 7) 1 ∅ 0
      ∗ slotBot m c 1 7 fullShare
      ∗ atPos ER (sendCell c 2 7) 1 ∅ 0
      ∗ slotBot m c 2 3 fullShare.left)

/-- The pieces only the end needs, up to step 44. -/
def Done44 (m : (ℓ : Loc nD τ sig) → Buf (Elt F) ℓ) (K : Dev nD × CIx → ℕ) (c : Dev nD) : sProp 𝕄 :=
  iprop(Done43 m K c
      ∗ atPos ER (recvCell c 2 7) 1 ∅ 0
      ∗ slotBot m c 2 7 fullShare
      ∗ holdsPts c b16M fullShare (bv m c))

/-- The pieces only the end needs, up to step 45. -/
def Done45 (m : (ℓ : Loc nD τ sig) → Buf (Elt F) ℓ) (K : Dev nD × CIx → ℕ) (c : Dev nD) : sProp 𝕄 :=
  iprop(Done44 m K c
      ∗ atPos ER (copyCell c 0 6) 1 ∅ 0
      ∗ pieceDone m c 0 6
      ∗ stageAny c 0 0
      ∗ atPos ER (copyCell c 0 7) 1 ∅ 0
      ∗ pieceDone m c 0 7
      ∗ stageAny c 0 1
      ∗ atPos ER (copyCell c 1 6) 1 ∅ 0
      ∗ pieceDone m c 1 6
      ∗ stageAny c 1 0
      ∗ atPos ER (copyCell c 1 7) 1 ∅ 0
      ∗ pieceDone m c 1 7
      ∗ stageAny c 1 1
      ∗ atPos ER (copyCell c 2 6) 1 ∅ 0
      ∗ pieceDone m c 2 6
      ∗ stageAny c 2 0)

/-- The pieces only the end needs, up to step 46. -/
def Done46 (m : (ℓ : Loc nD τ sig) → Buf (Elt F) ℓ) (K : Dev nD × CIx → ℕ) (c : Dev nD) : sProp 𝕄 :=
  iprop(Done45 m K c
      ∗ (∃ W, owes (c : Thread nD τ) (Orem ((payList c).drop 27)) W)
      ∗ atPos ER (copyCell c 2 7) 1 ∅ 0
      ∗ pieceDone m c 2 7
      ∗ stageAny c 2 1)

end Cert.KernelIdeal.DM
end
-- ==== Proof.ChainEqs1.lean ====
/- GENERATED by: bun scratch/gen_partspecs.js "$KIT/certs/proofs/900891_g7700000000000892_dist_matmul_m_i_outrep_m1024_n1024_k512_v7x_i8_f32_1_alg" "proofs.«900891_g7700000000000892_dist_matmul_m_i_outrep_m1024_n1024_k512_v7x_i8_f32_1_alg».proof" "chaineqs" "1" "12" (run from the unit directory; the script is filed beside this module): the
   state before each step of the body regrouped as that step's pieces and the rest, steps 1 to 12. -/
import proofs.«900891_g7700000000000892_dist_matmul_m_i_outrep_m1024_n1024_k512_v7x_i8_f32_1_alg».proof.Proof.ChainDefs
set_option maxRecDepth 16384
noncomputable section
namespace Cert.KernelIdeal.DM
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (K : Dev nD × CIx → ℕ)

attribute [local irreducible] cred atPos dutyTok owes reached records inA inB slotAny slotHas slotTop slotBot stageAny stageHas stageTop pieceAny pieceDone dstAny anyPts holdsPts Orem payList tallyAt xferAmt copyAmt partner xr mask

set_option maxHeartbeats 2000000 in
theorem eq_start (c : Dev nD) : InitChain m K c = (iprop(records (Rd m) K ∗ levAts L lv ∗ atPos ER (copyCell c 2 7) 0 ∅ 0
      ∗ InitFrom1 m K c) : sProp 𝕄) := by
  unfold InitChain InitFrom1 InitFrom2 InitFrom3 InitFrom4 InitFrom5 InitFrom6 InitFrom7 InitFrom8 InitFrom9 InitFrom10 InitFrom11 InitFrom12 InitFrom13 InitFrom14 InitFrom15 InitFrom16 InitFrom17 InitFrom18 InitFrom19 InitFrom20 InitFrom21 InitFrom22 InitFrom23 InitFrom24 InitFrom25 InitFrom26 InitFrom27 InitFrom28 InitFrom29 InitFrom30 InitFrom31 InitFrom32 InitFrom33 InitFrom34 InitFrom35 InitFrom36 InitFrom37 InitFrom38 InitFrom39 InitFrom40 InitFrom41 InitFrom42 InitFrom43 InitFrom44 InitFrom45
  ac_rfl

set_option maxHeartbeats 2000000 in
theorem eq_step1 (c : Dev nD) :
    (iprop(atPos ER (copyCell c 2 7) 0 ∅ 0
      ∗ InitFrom1 m K c) : sProp 𝕄)
    = iprop((dutyTok ER (barCell (xr c (dir 0))) 0 0
      ∗ dstAny c 0 0
      ∗ dstAny c 1 3
      ∗ dstAny c 1 4
      ∗ dstAny c 1 5
      ∗ dstAny c 1 6
      ∗ dstAny c 1 7
      ∗ dstAny c 2 1
      ∗ dstAny c 2 2
      ∗ (∃ W, owes (c : Thread nD τ) (Orem ((payList c).drop 0)) W)
      ∗ dutyTok ER (barCell (xr c (dir 1))) 0 1
      ∗ dstAny c 0 1
      ∗ dstAny c 0 2
      ∗ dstAny c 1 0
      ∗ dstAny c 2 3
      ∗ dstAny c 2 4
      ∗ dstAny c 2 5
      ∗ dstAny c 2 6
      ∗ dstAny c 2 7
      ∗ dutyTok ER (barCell (xr c (dir 2))) 0 2
      ∗ dstAny c 0 3
      ∗ dstAny c 0 4
      ∗ dstAny c 0 5
      ∗ dstAny c 0 6
      ∗ dstAny c 0 7
      ∗ dstAny c 1 1
      ∗ dstAny c 1 2
      ∗ dstAny c 2 0
      ∗ inA m c
      ∗ slotAny c 0 0
      ∗ slotAny c 1 0)
      ∗ (atPos ER (copyCell c 2 7) 0 ∅ 0
      ∗ InitFrom2 m K c)) := by
  unfold InitFrom1
  ac_rfl

set_option maxHeartbeats 2000000 in
theorem eq_step2 (c : Dev nD) :
    (iprop(((∃ W, owes (c : Thread nD τ) (Orem ((payList c).drop 3)) W)
      ∗ inA m c
      ∗ slotHas m c 0 0 fullShare.left.left.left
      ∗ slotHas m c 0 0 fullShare.left.left.right
      ∗ slotHas m c 0 0 fullShare.left.right
      ∗ slotHas m c 0 0 fullShare.right
      ∗ slotHas m c 1 0 fullShare.left.left.left
      ∗ slotHas m c 1 0 fullShare.left.left.right
      ∗ slotHas m c 1 0 fullShare.left.right
      ∗ slotHas m c 1 0 fullShare.right)
      ∗ (atPos ER (copyCell c 2 7) 0 ∅ 0
      ∗ InitFrom2 m K c)) : sProp 𝕄)
    = iprop((slotAny c 2 0
      ∗ cred (tallyAt (barCell c) () 3)
      ∗ atPos ER (barCell c) 0 ∅ 0
      ∗ (∃ W, owes (c : Thread nD τ) (Orem ((payList c).drop 3)) W)
      ∗ slotHas m c 0 0 fullShare.left.left.left
      ∗ dutyTok ER (sendCell c 0 0) 0 0
      ∗ dutyTok ER (recvCell (partner c 0 0) 0 0) 0 0
      ∗ slotHas m c 1 0 fullShare.left.left.left
      ∗ dutyTok ER (sendCell c 1 0) 0 0
      ∗ dutyTok ER (recvCell (partner c 1 0) 1 0) 0 0)
      ∗ (atPos ER (copyCell c 2 7) 0 ∅ 0
      ∗ slotHas m c 0 0 fullShare.left.left.right
      ∗ slotHas m c 0 0 fullShare.left.right
      ∗ slotHas m c 0 0 fullShare.right
      ∗ slotHas m c 1 0 fullShare.left.left.right
      ∗ slotHas m c 1 0 fullShare.left.right
      ∗ slotHas m c 1 0 fullShare.right
      ∗ Done1 m K c
      ∗ InitFrom3 m K c)) := by
  unfold InitFrom2 Done1
  ac_rfl

set_option maxHeartbeats 2000000 in
theorem eq_step3 (c : Dev nD) :
    (iprop((slotHas m c 2 0 fullShare.left.left.left
      ∗ slotHas m c 2 0 fullShare.left.left.right
      ∗ slotHas m c 2 0 fullShare.left.right
      ∗ slotHas m c 2 0 fullShare.right
      ∗ atPos ER (barCell c) 1 ∅ 0
      ∗ dstAny (partner c 0 1) 0 1
      ∗ dstAny (partner c 0 2) 0 2
      ∗ dstAny (partner c 0 3) 0 3
      ∗ dstAny (partner c 0 4) 0 4
      ∗ dstAny (partner c 0 5) 0 5
      ∗ dstAny (partner c 0 6) 0 6
      ∗ dstAny (partner c 0 7) 0 7
      ∗ dstAny (partner c 1 1) 1 1
      ∗ dstAny (partner c 1 2) 1 2
      ∗ dstAny (partner c 1 3) 1 3
      ∗ dstAny (partner c 1 4) 1 4
      ∗ dstAny (partner c 1 5) 1 5
      ∗ dstAny (partner c 1 6) 1 6
      ∗ dstAny (partner c 1 7) 1 7
      ∗ dstAny (partner c 2 0) 2 0
      ∗ dstAny (partner c 2 1) 2 1
      ∗ dstAny (partner c 2 2) 2 2
      ∗ dstAny (partner c 2 3) 2 3
      ∗ dstAny (partner c 2 4) 2 4
      ∗ dstAny (partner c 2 5) 2 5
      ∗ dstAny (partner c 2 6) 2 6
      ∗ dstAny (partner c 2 7) 2 7
      ∗ cred (tallyAt (sendCell c 0 0) () (xferAmt 0 0))
      ∗ (∃ W, owes (c : Thread nD τ) (Orem ((payList c).drop 5)) W)
      ∗ cred (tallyAt (sendCell c 1 0) () (xferAmt 1 0)))
      ∗ (atPos ER (copyCell c 2 7) 0 ∅ 0
      ∗ slotHas m c 0 0 fullShare.left.left.right
      ∗ slotHas m c 0 0 fullShare.left.right
      ∗ slotHas m c 0 0 fullShare.right
      ∗ slotHas m c 1 0 fullShare.left.left.right
      ∗ slotHas m c 1 0 fullShare.left.right
      ∗ slotHas m c 1 0 fullShare.right
      ∗ Done1 m K c
      ∗ InitFrom3 m K c)) : sProp 𝕄)
    = iprop((slotHas m c 2 0 fullShare.left.left.left
      ∗ dstAny (partner c 2 0) 2 0
      ∗ dutyTok ER (sendCell c 2 0) 0 0
      ∗ dutyTok ER (recvCell (partner c 2 0) 2 0) 0 0
      ∗ (∃ W, owes (c : Thread nD τ) (Orem ((payList c).drop 5)) W)
      ∗ slotHas m c 0 0 fullShare.left.left.right
      ∗ dstAny (partner c 0 1) 0 1
      ∗ dutyTok ER (sendCell c 0 1) 0 0
      ∗ dutyTok ER (recvCell (partner c 0 1) 0 1) 0 0)
      ∗ (atPos ER (copyCell c 2 7) 0 ∅ 0
      ∗ slotHas m c 0 0 fullShare.left.right
      ∗ slotHas m c 0 0 fullShare.right
      ∗ slotHas m c 1 0 fullShare.left.left.right
      ∗ slotHas m c 1 0 fullShare.left.right
      ∗ slotHas m c 1 0 fullShare.right
      ∗ slotHas m c 2 0 fullShare.left.left.right
      ∗ slotHas m c 2 0 fullShare.left.right
      ∗ slotHas m c 2 0 fullShare.right
      ∗ dstAny (partner c 0 2) 0 2
      ∗ dstAny (partner c 0 3) 0 3
      ∗ dstAny (partner c 0 4) 0 4
      ∗ dstAny (partner c 0 5) 0 5
      ∗ dstAny (partner c 0 6) 0 6
      ∗ dstAny (partner c 0 7) 0 7
      ∗ dstAny (partner c 1 1) 1 1
      ∗ dstAny (partner c 1 2) 1 2
      ∗ dstAny (partner c 1 3) 1 3
      ∗ dstAny (partner c 1 4) 1 4
      ∗ dstAny (partner c 1 5) 1 5
      ∗ dstAny (partner c 1 6) 1 6
      ∗ dstAny (partner c 1 7) 1 7
      ∗ dstAny (partner c 2 1) 2 1
      ∗ dstAny (partner c 2 2) 2 2
      ∗ dstAny (partner c 2 3) 2 3
      ∗ dstAny (partner c 2 4) 2 4
      ∗ dstAny (partner c 2 5) 2 5
      ∗ dstAny (partner c 2 6) 2 6
      ∗ dstAny (partner c 2 7) 2 7
      ∗ cred (tallyAt (sendCell c 0 0) () (xferAmt 0 0))
      ∗ cred (tallyAt (sendCell c 1 0) () (xferAmt 1 0))
      ∗ Done2 m K c
      ∗ InitFrom4 m K c)) := by
  unfold InitFrom3 Done2
  ac_rfl

set_option maxHeartbeats 2000000 in
theorem eq_step4 (c : Dev nD) :
    (iprop((cred (tallyAt (sendCell c 2 0) () (xferAmt 2 0))
      ∗ (∃ W, owes (c : Thread nD τ) (Orem ((payList c).drop 7)) W)
      ∗ cred (tallyAt (sendCell c 0 1) () (xferAmt 0 1)))
      ∗ (atPos ER (copyCell c 2 7) 0 ∅ 0
      ∗ slotHas m c 0 0 fullShare.left.right
      ∗ slotHas m c 0 0 fullShare.right
      ∗ slotHas m c 1 0 fullShare.left.left.right
      ∗ slotHas m c 1 0 fullShare.left.right
      ∗ slotHas m c 1 0 fullShare.right
      ∗ slotHas m c 2 0 fullShare.left.left.right
      ∗ slotHas m c 2 0 fullShare.left.right
      ∗ slotHas m c 2 0 fullShare.right
      ∗ dstAny (partner c 0 2) 0 2
      ∗ dstAny (partner c 0 3) 0 3
      ∗ dstAny (partner c 0 4) 0 4
      ∗ dstAny (partner c 0 5) 0 5
      ∗ dstAny (partner c 0 6) 0 6
      ∗ dstAny (partner c 0 7) 0 7
      ∗ dstAny (partner c 1 1) 1 1
      ∗ dstAny (partner c 1 2) 1 2
      ∗ dstAny (partner c 1 3) 1 3
      ∗ dstAny (partner c 1 4) 1 4
      ∗ dstAny (partner c 1 5) 1 5
      ∗ dstAny (partner c 1 6) 1 6
      ∗ dstAny (partner c 1 7) 1 7
      ∗ dstAny (partner c 2 1) 2 1
      ∗ dstAny (partner c 2 2) 2 2
      ∗ dstAny (partner c 2 3) 2 3
      ∗ dstAny (partner c 2 4) 2 4
      ∗ dstAny (partner c 2 5) 2 5
      ∗ dstAny (partner c 2 6) 2 6
      ∗ dstAny (partner c 2 7) 2 7
      ∗ cred (tallyAt (sendCell c 0 0) () (xferAmt 0 0))
      ∗ cred (tallyAt (sendCell c 1 0) () (xferAmt 1 0))
      ∗ Done2 m K c
      ∗ InitFrom4 m K c)) : sProp 𝕄)
    = iprop((slotHas m c 1 0 fullShare.left.left.right
      ∗ dstAny (partner c 1 1) 1 1
      ∗ dutyTok ER (sendCell c 1 1) 0 0
      ∗ dutyTok ER (recvCell (partner c 1 1) 1 1) 0 0
      ∗ (∃ W, owes (c : Thread nD τ) (Orem ((payList c).drop 7)) W)
      ∗ slotHas m c 2 0 fullShare.left.left.right
      ∗ dstAny (partner c 2 1) 2 1
      ∗ dutyTok ER (sendCell c 2 1) 0 0
      ∗ dutyTok ER (recvCell (partner c 2 1) 2 1) 0 0
      ∗ slotHas m c 0 0 fullShare.left.right
      ∗ dstAny (partner c 0 3) 0 3
      ∗ dutyTok ER (sendCell c 0 3) 0 0
      ∗ dutyTok ER (recvCell (partner c 0 3) 0 3) 0 0)
      ∗ (atPos ER (copyCell c 2 7) 0 ∅ 0
      ∗ slotHas m c 0 0 fullShare.right
      ∗ slotHas m c 1 0 fullShare.left.right
      ∗ slotHas m c 1 0 fullShare.right
      ∗ slotHas m c 2 0 fullShare.left.right
      ∗ slotHas m c 2 0 fullShare.right
      ∗ dstAny (partner c 0 2) 0 2
      ∗ dstAny (partner c 0 4) 0 4
      ∗ dstAny (partner c 0 5) 0 5
      ∗ dstAny (partner c 0 6) 0 6
      ∗ dstAny (partner c 0 7) 0 7
      ∗ dstAny (partner c 1 2) 1 2
      ∗ dstAny (partner c 1 3) 1 3
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 3) 2 3
      ∗ dstAny (partner c 2 4) 2 4
      ∗ dstAny (partner c 2 5) 2 5
      ∗ dstAny (partner c 2 6) 2 6
      ∗ dstAny (partner c 2 7) 2 7
      ∗ cred (tallyAt (sendCell c 0 0) () (xferAmt 0 0))
      ∗ cred (tallyAt (sendCell c 1 0) () (xferAmt 1 0))
      ∗ cred (tallyAt (sendCell c 2 0) () (xferAmt 2 0))
      ∗ cred (tallyAt (sendCell c 0 1) () (xferAmt 0 1))
      ∗ Done2 m K c
      ∗ InitFrom5 m K c)) := by
  unfold InitFrom4
  ac_rfl

set_option maxHeartbeats 2000000 in
theorem eq_step5 (c : Dev nD) :
    (iprop((cred (tallyAt (sendCell c 1 1) () (xferAmt 1 1))
      ∗ cred (tallyAt (sendCell c 2 1) () (xferAmt 2 1))
      ∗ (∃ W, owes (c : Thread nD τ) (Orem ((payList c).drop 10)) W)
      ∗ cred (tallyAt (sendCell c 0 3) () (xferAmt 0 3)))
      ∗ (atPos ER (copyCell c 2 7) 0 ∅ 0
      ∗ slotHas m c 0 0 fullShare.right
      ∗ slotHas m c 1 0 fullShare.left.right
      ∗ slotHas m c 1 0 fullShare.right
      ∗ slotHas m c 2 0 fullShare.left.right
      ∗ slotHas m c 2 0 fullShare.right
      ∗ dstAny (partner c 0 2) 0 2
      ∗ dstAny (partner c 0 4) 0 4
      ∗ dstAny (partner c 0 5) 0 5
      ∗ dstAny (partner c 0 6) 0 6
      ∗ dstAny (partner c 0 7) 0 7
      ∗ dstAny (partner c 1 2) 1 2
      ∗ dstAny (partner c 1 3) 1 3
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 3) 2 3
      ∗ dstAny (partner c 2 4) 2 4
      ∗ dstAny (partner c 2 5) 2 5
      ∗ dstAny (partner c 2 6) 2 6
      ∗ dstAny (partner c 2 7) 2 7
      ∗ cred (tallyAt (sendCell c 0 0) () (xferAmt 0 0))
      ∗ cred (tallyAt (sendCell c 1 0) () (xferAmt 1 0))
      ∗ cred (tallyAt (sendCell c 2 0) () (xferAmt 2 0))
      ∗ cred (tallyAt (sendCell c 0 1) () (xferAmt 0 1))
      ∗ Done2 m K c
      ∗ InitFrom5 m K c)) : sProp 𝕄)
    = iprop((slotHas m c 1 0 fullShare.left.right
      ∗ dstAny (partner c 1 3) 1 3
      ∗ dutyTok ER (sendCell c 1 3) 0 0
      ∗ dutyTok ER (recvCell (partner c 1 3) 1 3) 0 0
      ∗ (∃ W, owes (c : Thread nD τ) (Orem ((payList c).drop 10)) W)
      ∗ slotHas m c 2 0 fullShare.left.right
      ∗ dstAny (partner c 2 3) 2 3
      ∗ dutyTok ER (sendCell c 2 3) 0 0
      ∗ dutyTok ER (recvCell (partner c 2 3) 2 3) 0 0
      ∗ inB m c
      ∗ anyPts c b16M
      ∗ slotHas m c 0 0 fullShare.right)
      ∗ (atPos ER (copyCell c 2 7) 0 ∅ 0
      ∗ slotHas m c 1 0 fullShare.right
      ∗ slotHas m c 2 0 fullShare.right
      ∗ dstAny (partner c 0 2) 0 2
      ∗ dstAny (partner c 0 4) 0 4
      ∗ dstAny (partner c 0 5) 0 5
      ∗ dstAny (partner c 0 6) 0 6
      ∗ dstAny (partner c 0 7) 0 7
      ∗ dstAny (partner c 1 2) 1 2
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 0 0) () (xferAmt 0 0))
      ∗ cred (tallyAt (sendCell c 1 0) () (xferAmt 1 0))
      ∗ cred (tallyAt (sendCell c 2 0) () (xferAmt 2 0))
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ Done2 m K c
      ∗ InitFrom6 m K c)) := by
  unfold InitFrom5
  ac_rfl

set_option maxHeartbeats 2000000 in
theorem eq_step6 (c : Dev nD) :
    (iprop((cred (tallyAt (sendCell c 1 3) () (xferAmt 1 3))
      ∗ (∃ W, owes (c : Thread nD τ) (Orem ((payList c).drop 12)) W)
      ∗ cred (tallyAt (sendCell c 2 3) () (xferAmt 2 3))
      ∗ inB m c
      ∗ holdsPts c b16M fullShare (bv m c)
      ∗ slotHas m c 0 0 fullShare.right)
      ∗ (atPos ER (copyCell c 2 7) 0 ∅ 0
      ∗ slotHas m c 1 0 fullShare.right
      ∗ slotHas m c 2 0 fullShare.right
      ∗ dstAny (partner c 0 2) 0 2
      ∗ dstAny (partner c 0 4) 0 4
      ∗ dstAny (partner c 0 5) 0 5
      ∗ dstAny (partner c 0 6) 0 6
      ∗ dstAny (partner c 0 7) 0 7
      ∗ dstAny (partner c 1 2) 1 2
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 0 0) () (xferAmt 0 0))
      ∗ cred (tallyAt (sendCell c 1 0) () (xferAmt 1 0))
      ∗ cred (tallyAt (sendCell c 2 0) () (xferAmt 2 0))
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ Done2 m K c
      ∗ InitFrom6 m K c)) : sProp 𝕄)
    = iprop((stageAny c 0 0
      ∗ pieceAny c 0 0
      ∗ dutyTok ER (copyCell c 0 0) 0 0
      ∗ slotHas m c 1 0 fullShare.right
      ∗ holdsPts c b16M fullShare (bv m c)
      ∗ stageAny c 1 0
      ∗ pieceAny c 1 0
      ∗ dutyTok ER (copyCell c 1 0) 0 0)
      ∗ (atPos ER (copyCell c 2 7) 0 ∅ 0
      ∗ slotHas m c 2 0 fullShare.right
      ∗ dstAny (partner c 0 2) 0 2
      ∗ dstAny (partner c 0 4) 0 4
      ∗ dstAny (partner c 0 5) 0 5
      ∗ dstAny (partner c 0 6) 0 6
      ∗ dstAny (partner c 0 7) 0 7
      ∗ dstAny (partner c 1 2) 1 2
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 0 0) () (xferAmt 0 0))
      ∗ cred (tallyAt (sendCell c 1 0) () (xferAmt 1 0))
      ∗ cred (tallyAt (sendCell c 2 0) () (xferAmt 2 0))
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ (∃ W, owes (c : Thread nD τ) (Orem ((payList c).drop 12)) W)
      ∗ cred (tallyAt (sendCell c 2 3) () (xferAmt 2 3))
      ∗ Done5 m K c
      ∗ InitFrom7 m K c)) := by
  unfold InitFrom6 Done5
  ac_rfl

set_option maxHeartbeats 2000000 in
theorem eq_step7 (c : Dev nD) :
    (iprop((cred (tallyAt (copyCell c 0 0) () (copyAmt 0))
      ∗ slotHas m c 1 0 fullShare.right
      ∗ holdsPts c b16M fullShare (bv m c)
      ∗ cred (tallyAt (copyCell c 1 0) () (copyAmt 1)))
      ∗ (atPos ER (copyCell c 2 7) 0 ∅ 0
      ∗ slotHas m c 2 0 fullShare.right
      ∗ dstAny (partner c 0 2) 0 2
      ∗ dstAny (partner c 0 4) 0 4
      ∗ dstAny (partner c 0 5) 0 5
      ∗ dstAny (partner c 0 6) 0 6
      ∗ dstAny (partner c 0 7) 0 7
      ∗ dstAny (partner c 1 2) 1 2
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 0 0) () (xferAmt 0 0))
      ∗ cred (tallyAt (sendCell c 1 0) () (xferAmt 1 0))
      ∗ cred (tallyAt (sendCell c 2 0) () (xferAmt 2 0))
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ (∃ W, owes (c : Thread nD τ) (Orem ((payList c).drop 12)) W)
      ∗ cred (tallyAt (sendCell c 2 3) () (xferAmt 2 3))
      ∗ Done5 m K c
      ∗ InitFrom7 m K c)) : sProp 𝕄)
    = iprop((slotHas m c 2 0 fullShare.right
      ∗ holdsPts c b16M fullShare (bv m c)
      ∗ stageAny c 2 0
      ∗ pieceAny c 2 0
      ∗ dutyTok ER (copyCell c 2 0) 0 0
      ∗ cred (tallyAt (sendCell c 0 0) () (xferAmt 0 0))
      ∗ atPos ER (sendCell c 0 0) 0 ∅ 0
      ∗ (∃ W, owes (c : Thread nD τ) (Orem ((payList c).drop 12)) W))
      ∗ (atPos ER (copyCell c 2 7) 0 ∅ 0
      ∗ dstAny (partner c 0 2) 0 2
      ∗ dstAny (partner c 0 4) 0 4
      ∗ dstAny (partner c 0 5) 0 5
      ∗ dstAny (partner c 0 6) 0 6
      ∗ dstAny (partner c 0 7) 0 7
      ∗ dstAny (partner c 1 2) 1 2
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 1 0) () (xferAmt 1 0))
      ∗ cred (tallyAt (sendCell c 2 0) () (xferAmt 2 0))
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ Done6 m K c
      ∗ InitFrom8 m K c)) := by
  unfold InitFrom7 Done6
  ac_rfl

set_option maxHeartbeats 2000000 in
theorem eq_step8 (c : Dev nD) :
    (iprop((slotHas m c 2 0 fullShare.right
      ∗ holdsPts c b16M fullShare (bv m c)
      ∗ cred (tallyAt (copyCell c 2 0) () (copyAmt 2))
      ∗ (∃ W, owes (c : Thread nD τ) (Orem ((payList c).drop 12)) W)
      ∗ atPos ER (sendCell c 0 0) 1 ∅ 0
      ∗ slotHas m c 0 0 fullShare.left.left.left)
      ∗ (atPos ER (copyCell c 2 7) 0 ∅ 0
      ∗ dstAny (partner c 0 2) 0 2
      ∗ dstAny (partner c 0 4) 0 4
      ∗ dstAny (partner c 0 5) 0 5
      ∗ dstAny (partner c 0 6) 0 6
      ∗ dstAny (partner c 0 7) 0 7
      ∗ dstAny (partner c 1 2) 1 2
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 1 0) () (xferAmt 1 0))
      ∗ cred (tallyAt (sendCell c 2 0) () (xferAmt 2 0))
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ Done6 m K c
      ∗ InitFrom8 m K c)) : sProp 𝕄)
    = iprop((cred (tallyAt (recvCell c 0 0) () (xferAmt 0 0))
      ∗ atPos ER (recvCell c 0 0) 0 ∅ 0
      ∗ (∃ W, owes (c : Thread nD τ) (Orem ((payList c).drop 12)) W)
      ∗ dstAny (partner c 0 2) 0 2
      ∗ dutyTok ER (sendCell c 0 2) 0 0
      ∗ dutyTok ER (recvCell (partner c 0 2) 0 2) 0 0
      ∗ dstAny (partner c 0 4) 0 4
      ∗ dutyTok ER (sendCell c 0 4) 0 0
      ∗ dutyTok ER (recvCell (partner c 0 4) 0 4) 0 0)
      ∗ (atPos ER (copyCell c 2 7) 0 ∅ 0
      ∗ dstAny (partner c 0 5) 0 5
      ∗ dstAny (partner c 0 6) 0 6
      ∗ dstAny (partner c 0 7) 0 7
      ∗ dstAny (partner c 1 2) 1 2
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 1 0) () (xferAmt 1 0))
      ∗ cred (tallyAt (sendCell c 2 0) () (xferAmt 2 0))
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ holdsPts c b16M fullShare (bv m c)
      ∗ cred (tallyAt (copyCell c 2 0) () (copyAmt 2))
      ∗ Done7 m K c
      ∗ InitFrom9 m K c)) := by
  unfold InitFrom8 Done7
  ac_rfl

set_option maxHeartbeats 2000000 in
theorem eq_step9 (c : Dev nD) :
    (iprop((atPos ER (recvCell c 0 0) 1 ∅ 0
      ∗ slotHas m c 0 1 fullShare.right
      ∗ cred (tallyAt (sendCell c 0 2) () (xferAmt 0 2))
      ∗ (∃ W, owes (c : Thread nD τ) (Orem ((payList c).drop 14)) W)
      ∗ cred (tallyAt (sendCell c 0 4) () (xferAmt 0 4)))
      ∗ (atPos ER (copyCell c 2 7) 0 ∅ 0
      ∗ dstAny (partner c 0 5) 0 5
      ∗ dstAny (partner c 0 6) 0 6
      ∗ dstAny (partner c 0 7) 0 7
      ∗ dstAny (partner c 1 2) 1 2
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 1 0) () (xferAmt 1 0))
      ∗ cred (tallyAt (sendCell c 2 0) () (xferAmt 2 0))
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ holdsPts c b16M fullShare (bv m c)
      ∗ cred (tallyAt (copyCell c 2 0) () (copyAmt 2))
      ∗ Done7 m K c
      ∗ InitFrom9 m K c)) : sProp 𝕄)
    = iprop((cred (tallyAt (sendCell c 1 0) () (xferAmt 1 0))
      ∗ atPos ER (sendCell c 1 0) 0 ∅ 0
      ∗ (∃ W, owes (c : Thread nD τ) (Orem ((payList c).drop 14)) W)
      ∗ cred (tallyAt (recvCell c 1 0) () (xferAmt 1 0))
      ∗ atPos ER (recvCell c 1 0) 0 ∅ 0
      ∗ dstAny (partner c 1 2) 1 2
      ∗ dutyTok ER (sendCell c 1 2) 0 0
      ∗ dutyTok ER (recvCell (partner c 1 2) 1 2) 0 0)
      ∗ (atPos ER (copyCell c 2 7) 0 ∅ 0
      ∗ dstAny (partner c 0 5) 0 5
      ∗ dstAny (partner c 0 6) 0 6
      ∗ dstAny (partner c 0 7) 0 7
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 2 0) () (xferAmt 2 0))
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ holdsPts c b16M fullShare (bv m c)
      ∗ cred (tallyAt (copyCell c 2 0) () (copyAmt 2))
      ∗ slotHas m c 0 1 fullShare.right
      ∗ cred (tallyAt (sendCell c 0 2) () (xferAmt 0 2))
      ∗ cred (tallyAt (sendCell c 0 4) () (xferAmt 0 4))
      ∗ Done8 m K c
      ∗ InitFrom10 m K c)) := by
  unfold InitFrom9 Done8
  ac_rfl

set_option maxHeartbeats 2000000 in
theorem eq_step10 (c : Dev nD) :
    (iprop((atPos ER (sendCell c 1 0) 1 ∅ 0
      ∗ slotHas m c 1 0 fullShare.left.left.left
      ∗ atPos ER (recvCell c 1 0) 1 ∅ 0
      ∗ slotHas m c 1 1 fullShare.left.right
      ∗ slotHas m c 1 1 fullShare.right
      ∗ (∃ W, owes (c : Thread nD τ) (Orem ((payList c).drop 15)) W)
      ∗ cred (tallyAt (sendCell c 1 2) () (xferAmt 1 2)))
      ∗ (atPos ER (copyCell c 2 7) 0 ∅ 0
      ∗ dstAny (partner c 0 5) 0 5
      ∗ dstAny (partner c 0 6) 0 6
      ∗ dstAny (partner c 0 7) 0 7
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 2 0) () (xferAmt 2 0))
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ holdsPts c b16M fullShare (bv m c)
      ∗ cred (tallyAt (copyCell c 2 0) () (copyAmt 2))
      ∗ slotHas m c 0 1 fullShare.right
      ∗ cred (tallyAt (sendCell c 0 2) () (xferAmt 0 2))
      ∗ cred (tallyAt (sendCell c 0 4) () (xferAmt 0 4))
      ∗ Done8 m K c
      ∗ InitFrom10 m K c)) : sProp 𝕄)
    = iprop((slotHas m c 1 1 fullShare.left.right
      ∗ dstAny (partner c 1 4) 1 4
      ∗ dutyTok ER (sendCell c 1 4) 0 0
      ∗ dutyTok ER (recvCell (partner c 1 4) 1 4) 0 0
      ∗ (∃ W, owes (c : Thread nD τ) (Orem ((payList c).drop 15)) W)
      ∗ cred (tallyAt (sendCell c 2 0) () (xferAmt 2 0))
      ∗ atPos ER (sendCell c 2 0) 0 ∅ 0
      ∗ cred (tallyAt (recvCell c 2 0) () (xferAmt 2 0))
      ∗ atPos ER (recvCell c 2 0) 0 ∅ 0)
      ∗ (atPos ER (copyCell c 2 7) 0 ∅ 0
      ∗ dstAny (partner c 0 5) 0 5
      ∗ dstAny (partner c 0 6) 0 6
      ∗ dstAny (partner c 0 7) 0 7
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ holdsPts c b16M fullShare (bv m c)
      ∗ cred (tallyAt (copyCell c 2 0) () (copyAmt 2))
      ∗ slotHas m c 0 1 fullShare.right
      ∗ cred (tallyAt (sendCell c 0 2) () (xferAmt 0 2))
      ∗ cred (tallyAt (sendCell c 0 4) () (xferAmt 0 4))
      ∗ slotHas m c 1 1 fullShare.right
      ∗ cred (tallyAt (sendCell c 1 2) () (xferAmt 1 2))
      ∗ Done9 m K c
      ∗ InitFrom11 m K c)) := by
  unfold InitFrom10 Done9
  ac_rfl

set_option maxHeartbeats 2000000 in
theorem eq_step11 (c : Dev nD) :
    (iprop((cred (tallyAt (sendCell c 1 4) () (xferAmt 1 4))
      ∗ atPos ER (sendCell c 2 0) 1 ∅ 0
      ∗ slotHas m c 2 0 fullShare.left.left.left
      ∗ (∃ W, owes (c : Thread nD τ) (Orem ((payList c).drop 16)) W)
      ∗ atPos ER (recvCell c 2 0) 1 ∅ 0
      ∗ slotHas m c 2 1 fullShare.left.left
      ∗ slotHas m c 2 1 fullShare.left.right
      ∗ slotHas m c 2 1 fullShare.right)
      ∗ (atPos ER (copyCell c 2 7) 0 ∅ 0
      ∗ dstAny (partner c 0 5) 0 5
      ∗ dstAny (partner c 0 6) 0 6
      ∗ dstAny (partner c 0 7) 0 7
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ holdsPts c b16M fullShare (bv m c)
      ∗ cred (tallyAt (copyCell c 2 0) () (copyAmt 2))
      ∗ slotHas m c 0 1 fullShare.right
      ∗ cred (tallyAt (sendCell c 0 2) () (xferAmt 0 2))
      ∗ cred (tallyAt (sendCell c 0 4) () (xferAmt 0 4))
      ∗ slotHas m c 1 1 fullShare.right
      ∗ cred (tallyAt (sendCell c 1 2) () (xferAmt 1 2))
      ∗ Done9 m K c
      ∗ InitFrom11 m K c)) : sProp 𝕄)
    = iprop((slotHas m c 2 1 fullShare.left.left
      ∗ dstAny (partner c 2 2) 2 2
      ∗ dutyTok ER (sendCell c 2 2) 0 0
      ∗ dutyTok ER (recvCell (partner c 2 2) 2 2) 0 0
      ∗ (∃ W, owes (c : Thread nD τ) (Orem ((payList c).drop 16)) W)
      ∗ slotHas m c 2 1 fullShare.left.right
      ∗ dstAny (partner c 2 4) 2 4
      ∗ dutyTok ER (sendCell c 2 4) 0 0
      ∗ dutyTok ER (recvCell (partner c 2 4) 2 4) 0 0
      ∗ slotHas m c 0 1 fullShare.right
      ∗ holdsPts c b16M fullShare (bv m c)
      ∗ stageAny c 0 1)
      ∗ (atPos ER (copyCell c 2 7) 0 ∅ 0
      ∗ dstAny (partner c 0 5) 0 5
      ∗ dstAny (partner c 0 6) 0 6
      ∗ dstAny (partner c 0 7) 0 7
      ∗ dstAny (partner c 1 5) 1 5
      ∗ dstAny (partner c 1 6) 1 6
      ∗ dstAny (partner c 1 7) 1 7
      ∗ dstAny (partner c 2 5) 2 5
      ∗ dstAny (partner c 2 6) 2 6
      ∗ dstAny (partner c 2 7) 2 7
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ slotHas m c 1 1 fullShare.right
      ∗ cred (tallyAt (sendCell c 1 2) () (xferAmt 1 2))
      ∗ cred (tallyAt (sendCell c 1 4) () (xferAmt 1 4))
      ∗ slotHas m c 2 1 fullShare.right
      ∗ Done10 m K c
      ∗ InitFrom12 m K c)) := by
  unfold InitFrom11 Done10
  ac_rfl

set_option maxHeartbeats 2000000 in
theorem eq_step12 (c : Dev nD) :
    (iprop((cred (tallyAt (sendCell c 2 2) () (xferAmt 2 2))
      ∗ (∃ W, owes (c : Thread nD τ) (Orem ((payList c).drop 18)) W)
      ∗ cred (tallyAt (sendCell c 2 4) () (xferAmt 2 4))
      ∗ slotHas m c 0 1 fullShare.right
      ∗ holdsPts c b16M fullShare (bv m c)
      ∗ stageHas m c 0 1)
      ∗ (atPos ER (copyCell c 2 7) 0 ∅ 0
      ∗ dstAny (partner c 0 5) 0 5
      ∗ dstAny (partner c 0 6) 0 6
      ∗ dstAny (partner c 0 7) 0 7
      ∗ dstAny (partner c 1 5) 1 5
      ∗ dstAny (partner c 1 6) 1 6
      ∗ dstAny (partner c 1 7) 1 7
      ∗ dstAny (partner c 2 5) 2 5
      ∗ dstAny (partner c 2 6) 2 6
      ∗ dstAny (partner c 2 7) 2 7
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ slotHas m c 1 1 fullShare.right
      ∗ cred (tallyAt (sendCell c 1 2) () (xferAmt 1 2))
      ∗ cred (tallyAt (sendCell c 1 4) () (xferAmt 1 4))
      ∗ slotHas m c 2 1 fullShare.right
      ∗ Done10 m K c
      ∗ InitFrom12 m K c)) : sProp 𝕄)
    = iprop((stageHas m c 0 1
      ∗ pieceAny c 0 1
      ∗ dutyTok ER (copyCell c 0 1) 0 0
      ∗ slotHas m c 1 1 fullShare.right
      ∗ holdsPts c b16M fullShare (bv m c)
      ∗ stageAny c 1 1
      ∗ pieceAny c 1 1
      ∗ dutyTok ER (copyCell c 1 1) 0 0
      ∗ slotHas m c 2 1 fullShare.right
      ∗ stageAny c 2 1)
      ∗ (atPos ER (copyCell c 2 7) 0 ∅ 0
      ∗ dstAny (partner c 0 5) 0 5
      ∗ dstAny (partner c 0 6) 0 6
      ∗ dstAny (partner c 0 7) 0 7
      ∗ dstAny (partner c 1 5) 1 5
      ∗ dstAny (partner c 1 6) 1 6
      ∗ dstAny (partner c 1 7) 1 7
      ∗ dstAny (partner c 2 5) 2 5
      ∗ dstAny (partner c 2 6) 2 6
      ∗ dstAny (partner c 2 7) 2 7
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ (∃ W, owes (c : Thread nD τ) (Orem ((payList c).drop 18)) W)
      ∗ cred (tallyAt (sendCell c 2 4) () (xferAmt 2 4))
      ∗ Done11 m K c
      ∗ InitFrom13 m K c)) := by
  unfold InitFrom12 Done11
  ac_rfl

end Cert.KernelIdeal.DM
end
-- ==== Proof.ChainEqs2.lean ====
/- GENERATED by: bun scratch/gen_partspecs.js "$KIT/certs/proofs/900891_g7700000000000892_dist_matmul_m_i_outrep_m1024_n1024_k512_v7x_i8_f32_1_alg" "proofs.«900891_g7700000000000892_dist_matmul_m_i_outrep_m1024_n1024_k512_v7x_i8_f32_1_alg».proof" "chaineqs" "13" "24" (run from the unit directory; the script is filed beside this module): the
   state before each step of the body regrouped as that step's pieces and the rest, steps 13 to 24. -/
import proofs.«900891_g7700000000000892_dist_matmul_m_i_outrep_m1024_n1024_k512_v7x_i8_f32_1_alg».proof.Proof.ChainDefs
set_option maxRecDepth 16384
noncomputable section
namespace Cert.KernelIdeal.DM
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (K : Dev nD × CIx → ℕ)

attribute [local irreducible] cred atPos dutyTok owes reached records inA inB slotAny slotHas slotTop slotBot stageAny stageHas stageTop pieceAny pieceDone dstAny anyPts holdsPts Orem payList tallyAt xferAmt copyAmt partner xr mask

set_option maxHeartbeats 2000000 in
theorem eq_step13 (c : Dev nD) :
    (iprop((cred (tallyAt (copyCell c 0 1) () (copyAmt 0))
      ∗ slotHas m c 1 1 fullShare.right
      ∗ holdsPts c b16M fullShare (bv m c)
      ∗ cred (tallyAt (copyCell c 1 1) () (copyAmt 1))
      ∗ slotHas m c 2 1 fullShare.right
      ∗ stageAny c 2 1)
      ∗ (atPos ER (copyCell c 2 7) 0 ∅ 0
      ∗ dstAny (partner c 0 5) 0 5
      ∗ dstAny (partner c 0 6) 0 6
      ∗ dstAny (partner c 0 7) 0 7
      ∗ dstAny (partner c 1 5) 1 5
      ∗ dstAny (partner c 1 6) 1 6
      ∗ dstAny (partner c 1 7) 1 7
      ∗ dstAny (partner c 2 5) 2 5
      ∗ dstAny (partner c 2 6) 2 6
      ∗ dstAny (partner c 2 7) 2 7
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ (∃ W, owes (c : Thread nD τ) (Orem ((payList c).drop 18)) W)
      ∗ cred (tallyAt (sendCell c 2 4) () (xferAmt 2 4))
      ∗ Done11 m K c
      ∗ InitFrom13 m K c)) : sProp 𝕄)
    = iprop((stageAny c 2 1
      ∗ pieceAny c 2 1
      ∗ dutyTok ER (copyCell c 2 1) 0 0
      ∗ cred (tallyAt (sendCell c 0 1) () (xferAmt 0 1))
      ∗ atPos ER (sendCell c 0 1) 0 ∅ 0
      ∗ (∃ W, owes (c : Thread nD τ) (Orem ((payList c).drop 18)) W)
      ∗ cred (tallyAt (recvCell c 0 1) () (xferAmt 0 1))
      ∗ atPos ER (recvCell c 0 1) 0 ∅ 0)
      ∗ (atPos ER (copyCell c 2 7) 0 ∅ 0
      ∗ dstAny (partner c 0 5) 0 5
      ∗ dstAny (partner c 0 6) 0 6
      ∗ dstAny (partner c 0 7) 0 7
      ∗ dstAny (partner c 1 5) 1 5
      ∗ dstAny (partner c 1 6) 1 6
      ∗ dstAny (partner c 1 7) 1 7
      ∗ dstAny (partner c 2 5) 2 5
      ∗ dstAny (partner c 2 6) 2 6
      ∗ dstAny (partner c 2 7) 2 7
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ holdsPts c b16M fullShare (bv m c)
      ∗ cred (tallyAt (copyCell c 1 1) () (copyAmt 1))
      ∗ Done12 m K c
      ∗ InitFrom14 m K c)) := by
  unfold InitFrom13 Done12
  ac_rfl

set_option maxHeartbeats 2000000 in
theorem eq_step14 (c : Dev nD) :
    (iprop((cred (tallyAt (copyCell c 2 1) () (copyAmt 2))
      ∗ atPos ER (sendCell c 0 1) 1 ∅ 0
      ∗ slotHas m c 0 0 fullShare.left.left.right
      ∗ (∃ W, owes (c : Thread nD τ) (Orem ((payList c).drop 18)) W)
      ∗ atPos ER (recvCell c 0 1) 1 ∅ 0
      ∗ slotHas m c 0 2 fullShare.left
      ∗ slotHas m c 0 2 fullShare.right)
      ∗ (atPos ER (copyCell c 2 7) 0 ∅ 0
      ∗ dstAny (partner c 0 5) 0 5
      ∗ dstAny (partner c 0 6) 0 6
      ∗ dstAny (partner c 0 7) 0 7
      ∗ dstAny (partner c 1 5) 1 5
      ∗ dstAny (partner c 1 6) 1 6
      ∗ dstAny (partner c 1 7) 1 7
      ∗ dstAny (partner c 2 5) 2 5
      ∗ dstAny (partner c 2 6) 2 6
      ∗ dstAny (partner c 2 7) 2 7
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ holdsPts c b16M fullShare (bv m c)
      ∗ cred (tallyAt (copyCell c 1 1) () (copyAmt 1))
      ∗ Done12 m K c
      ∗ InitFrom14 m K c)) : sProp 𝕄)
    = iprop((slotHas m c 0 2 fullShare.left
      ∗ dstAny (partner c 0 5) 0 5
      ∗ dutyTok ER (sendCell c 0 5) 0 0
      ∗ dutyTok ER (recvCell (partner c 0 5) 0 5) 0 0
      ∗ (∃ W, owes (c : Thread nD τ) (Orem ((payList c).drop 18)) W)
      ∗ cred (tallyAt (sendCell c 1 1) () (xferAmt 1 1))
      ∗ atPos ER (sendCell c 1 1) 0 ∅ 0
      ∗ cred (tallyAt (recvCell c 1 1) () (xferAmt 1 1))
      ∗ atPos ER (recvCell c 1 1) 0 ∅ 0)
      ∗ (atPos ER (copyCell c 2 7) 0 ∅ 0
      ∗ dstAny (partner c 0 6) 0 6
      ∗ dstAny (partner c 0 7) 0 7
      ∗ dstAny (partner c 1 5) 1 5
      ∗ dstAny (partner c 1 6) 1 6
      ∗ dstAny (partner c 1 7) 1 7
      ∗ dstAny (partner c 2 5) 2 5
      ∗ dstAny (partner c 2 6) 2 6
      ∗ dstAny (partner c 2 7) 2 7
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ holdsPts c b16M fullShare (bv m c)
      ∗ cred (tallyAt (copyCell c 1 1) () (copyAmt 1))
      ∗ cred (tallyAt (copyCell c 2 1) () (copyAmt 2))
      ∗ slotHas m c 0 2 fullShare.right
      ∗ Done13 m K c
      ∗ InitFrom15 m K c)) := by
  unfold InitFrom14 Done13
  ac_rfl

set_option maxHeartbeats 2000000 in
theorem eq_step15 (c : Dev nD) :
    (iprop((cred (tallyAt (sendCell c 0 5) () (xferAmt 0 5))
      ∗ atPos ER (sendCell c 1 1) 1 ∅ 0
      ∗ slotHas m c 1 0 fullShare.left.left.right
      ∗ (∃ W, owes (c : Thread nD τ) (Orem ((payList c).drop 19)) W)
      ∗ atPos ER (recvCell c 1 1) 1 ∅ 0
      ∗ slotHas m c 1 2 fullShare.left
      ∗ slotHas m c 1 2 fullShare.right)
      ∗ (atPos ER (copyCell c 2 7) 0 ∅ 0
      ∗ dstAny (partner c 0 6) 0 6
      ∗ dstAny (partner c 0 7) 0 7
      ∗ dstAny (partner c 1 5) 1 5
      ∗ dstAny (partner c 1 6) 1 6
      ∗ dstAny (partner c 1 7) 1 7
      ∗ dstAny (partner c 2 5) 2 5
      ∗ dstAny (partner c 2 6) 2 6
      ∗ dstAny (partner c 2 7) 2 7
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ holdsPts c b16M fullShare (bv m c)
      ∗ cred (tallyAt (copyCell c 1 1) () (copyAmt 1))
      ∗ cred (tallyAt (copyCell c 2 1) () (copyAmt 2))
      ∗ slotHas m c 0 2 fullShare.right
      ∗ Done13 m K c
      ∗ InitFrom15 m K c)) : sProp 𝕄)
    = iprop((slotHas m c 1 2 fullShare.left
      ∗ dstAny (partner c 1 5) 1 5
      ∗ dutyTok ER (sendCell c 1 5) 0 0
      ∗ dutyTok ER (recvCell (partner c 1 5) 1 5) 0 0
      ∗ (∃ W, owes (c : Thread nD τ) (Orem ((payList c).drop 19)) W)
      ∗ cred (tallyAt (sendCell c 2 1) () (xferAmt 2 1))
      ∗ atPos ER (sendCell c 2 1) 0 ∅ 0
      ∗ cred (tallyAt (recvCell c 2 1) () (xferAmt 2 1))
      ∗ atPos ER (recvCell c 2 1) 0 ∅ 0)
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 5) 2 5
      ∗ dstAny (partner c 2 6) 2 6
      ∗ dstAny (partner c 2 7) 2 7
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ holdsPts c b16M fullShare (bv m c)
      ∗ cred (tallyAt (copyCell c 1 1) () (copyAmt 1))
      ∗ cred (tallyAt (copyCell c 2 1) () (copyAmt 2))
      ∗ slotHas m c 0 2 fullShare.right
      ∗ cred (tallyAt (sendCell c 0 5) () (xferAmt 0 5))
      ∗ slotHas m c 1 2 fullShare.right
      ∗ Done14 m K c
      ∗ InitFrom16 m K c)) := by
  unfold InitFrom15 Done14
  ac_rfl

set_option maxHeartbeats 2000000 in
theorem eq_step16 (c : Dev nD) :
    (iprop((cred (tallyAt (sendCell c 1 5) () (xferAmt 1 5))
      ∗ atPos ER (sendCell c 2 1) 1 ∅ 0
      ∗ slotHas m c 2 0 fullShare.left.left.right
      ∗ (∃ W, owes (c : Thread nD τ) (Orem ((payList c).drop 20)) W)
      ∗ atPos ER (recvCell c 2 1) 1 ∅ 0
      ∗ slotHas m c 2 2 fullShare.left
      ∗ slotHas m c 2 2 fullShare.right)
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 5) 2 5
      ∗ dstAny (partner c 2 6) 2 6
      ∗ dstAny (partner c 2 7) 2 7
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ holdsPts c b16M fullShare (bv m c)
      ∗ cred (tallyAt (copyCell c 1 1) () (copyAmt 1))
      ∗ cred (tallyAt (copyCell c 2 1) () (copyAmt 2))
      ∗ slotHas m c 0 2 fullShare.right
      ∗ cred (tallyAt (sendCell c 0 5) () (xferAmt 0 5))
      ∗ slotHas m c 1 2 fullShare.right
      ∗ Done14 m K c
      ∗ InitFrom16 m K c)) : sProp 𝕄)
    = iprop((slotHas m c 2 2 fullShare.left
      ∗ dstAny (partner c 2 5) 2 5
      ∗ dutyTok ER (sendCell c 2 5) 0 0
      ∗ dutyTok ER (recvCell (partner c 2 5) 2 5) 0 0
      ∗ (∃ W, owes (c : Thread nD τ) (Orem ((payList c).drop 20)) W)
      ∗ cred (tallyAt (copyCell c 0 0) () (copyAmt 0))
      ∗ atPos ER (copyCell c 0 0) 0 ∅ 0
      ∗ slotHas m c 0 2 fullShare.right
      ∗ holdsPts c b16M fullShare (bv m c))
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ slotHas m c 1 2 fullShare.right
      ∗ cred (tallyAt (sendCell c 1 5) () (xferAmt 1 5))
      ∗ slotHas m c 2 2 fullShare.right
      ∗ Done15 m K c
      ∗ InitFrom17 m K c)) := by
  unfold InitFrom16 Done15
  ac_rfl

set_option maxHeartbeats 2000000 in
theorem eq_step17 (c : Dev nD) :
    (iprop((cred (tallyAt (sendCell c 2 5) () (xferAmt 2 5))
      ∗ (∃ W, owes (c : Thread nD τ) (Orem ((payList c).drop 21)) W)
      ∗ atPos ER (copyCell c 0 0) 1 ∅ 0
      ∗ pieceDone m c 0 0
      ∗ slotHas m c 0 2 fullShare.right
      ∗ holdsPts c b16M fullShare (bv m c)
      ∗ stageHas m c 0 2)
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ slotHas m c 1 2 fullShare.right
      ∗ cred (tallyAt (sendCell c 1 5) () (xferAmt 1 5))
      ∗ slotHas m c 2 2 fullShare.right
      ∗ Done15 m K c
      ∗ InitFrom17 m K c)) : sProp 𝕄)
    = iprop((stageHas m c 0 2
      ∗ pieceAny c 0 2
      ∗ dutyTok ER (copyCell c 0 2) 0 0
      ∗ cred (tallyAt (copyCell c 1 0) () (copyAmt 1))
      ∗ atPos ER (copyCell c 1 0) 0 ∅ 0
      ∗ (∃ W, owes (c : Thread nD τ) (Orem ((payList c).drop 21)) W)
      ∗ slotHas m c 1 2 fullShare.right
      ∗ holdsPts c b16M fullShare (bv m c)
      ∗ pieceAny c 1 2
      ∗ dutyTok ER (copyCell c 1 2) 0 0)
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ slotHas m c 2 2 fullShare.right
      ∗ cred (tallyAt (sendCell c 2 5) () (xferAmt 2 5))
      ∗ Done16 m K c
      ∗ InitFrom18 m K c)) := by
  unfold InitFrom17 Done16
  ac_rfl

set_option maxHeartbeats 2000000 in
theorem eq_step18 (c : Dev nD) :
    (iprop((cred (tallyAt (copyCell c 0 2) () (copyAmt 0))
      ∗ (∃ W, owes (c : Thread nD τ) (Orem ((payList c).drop 21)) W)
      ∗ atPos ER (copyCell c 1 0) 1 ∅ 0
      ∗ pieceDone m c 1 0
      ∗ slotHas m c 1 2 fullShare.right
      ∗ holdsPts c b16M fullShare (bv m c)
      ∗ cred (tallyAt (copyCell c 1 2) () (copyAmt 1)))
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ slotHas m c 2 2 fullShare.right
      ∗ cred (tallyAt (sendCell c 2 5) () (xferAmt 2 5))
      ∗ Done16 m K c
      ∗ InitFrom18 m K c)) : sProp 𝕄)
    = iprop((cred (tallyAt (copyCell c 2 0) () (copyAmt 2))
      ∗ atPos ER (copyCell c 2 0) 0 ∅ 0
      ∗ (∃ W, owes (c : Thread nD τ) (Orem ((payList c).drop 21)) W)
      ∗ slotHas m c 2 2 fullShare.right
      ∗ holdsPts c b16M fullShare (bv m c)
      ∗ pieceAny c 2 2
      ∗ dutyTok ER (copyCell c 2 2) 0 0
      ∗ cred (tallyAt (sendCell c 0 3) () (xferAmt 0 3))
      ∗ atPos ER (sendCell c 0 3) 0 ∅ 0)
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 1 3) () (xferAmt 1 3))
      ∗ cred (tallyAt (sendCell c 2 3) () (xferAmt 2 3))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 2) () (copyAmt 0))
      ∗ cred (tallyAt (copyCell c 1 2) () (copyAmt 1))
      ∗ Done17 m K c
      ∗ InitFrom19 m K c)) := by
  unfold InitFrom18 Done17
  ac_rfl

set_option maxHeartbeats 2000000 in
theorem eq_step19 (c : Dev nD) :
    (iprop((atPos ER (copyCell c 2 0) 1 ∅ 0
      ∗ pieceDone m c 2 0
      ∗ slotHas m c 2 2 fullShare.right
      ∗ holdsPts c b16M fullShare (bv m c)
      ∗ cred (tallyAt (copyCell c 2 2) () (copyAmt 2))
      ∗ (∃ W, owes (c : Thread nD τ) (Orem ((payList c).drop 21)) W)
      ∗ atPos ER (sendCell c 0 3) 1 ∅ 0
      ∗ slotHas m c 0 0 fullShare.left.right)
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 1 3) () (xferAmt 1 3))
      ∗ cred (tallyAt (sendCell c 2 3) () (xferAmt 2 3))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 2) () (copyAmt 0))
      ∗ cred (tallyAt (copyCell c 1 2) () (copyAmt 1))
      ∗ Done17 m K c
      ∗ InitFrom19 m K c)) : sProp 𝕄)
    = iprop((cred (tallyAt (recvCell c 0 3) () (xferAmt 0 3))
      ∗ atPos ER (recvCell c 0 3) 0 ∅ 0
      ∗ (∃ W, owes (c : Thread nD τ) (Orem ((payList c).drop 21)) W)
      ∗ cred (tallyAt (copyCell c 0 2) () (copyAmt 0))
      ∗ atPos ER (copyCell c 0 2) 0 ∅ 0
      ∗ holdsPts c b16M fullShare (bv m c))
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 1 3) () (xferAmt 1 3))
      ∗ cred (tallyAt (sendCell c 2 3) () (xferAmt 2 3))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 1 2) () (copyAmt 1))
      ∗ cred (tallyAt (copyCell c 2 2) () (copyAmt 2))
      ∗ Done18 m K c
      ∗ InitFrom20 m K c)) := by
  unfold InitFrom19 Done18
  ac_rfl

set_option maxHeartbeats 2000000 in
theorem eq_step20 (c : Dev nD) :
    (iprop((atPos ER (recvCell c 0 3) 1 ∅ 0
      ∗ slotHas m c 0 4 fullShare
      ∗ (∃ W, owes (c : Thread nD τ) (Orem ((payList c).drop 21)) W)
      ∗ atPos ER (copyCell c 0 2) 1 ∅ 0
      ∗ pieceDone m c 0 2
      ∗ holdsPts c b16M fullShare (bv m c)
      ∗ stageHas m c 0 4)
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 1 3) () (xferAmt 1 3))
      ∗ cred (tallyAt (sendCell c 2 3) () (xferAmt 2 3))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 1 2) () (copyAmt 1))
      ∗ cred (tallyAt (copyCell c 2 2) () (copyAmt 2))
      ∗ Done18 m K c
      ∗ InitFrom20 m K c)) : sProp 𝕄)
    = iprop((stageHas m c 0 4
      ∗ pieceAny c 0 4
      ∗ dutyTok ER (copyCell c 0 4) 0 0
      ∗ cred (tallyAt (sendCell c 1 3) () (xferAmt 1 3))
      ∗ atPos ER (sendCell c 1 3) 0 ∅ 0
      ∗ (∃ W, owes (c : Thread nD τ) (Orem ((payList c).drop 21)) W)
      ∗ cred (tallyAt (recvCell c 1 3) () (xferAmt 1 3))
      ∗ atPos ER (recvCell c 1 3) 0 ∅ 0
      ∗ cred (tallyAt (copyCell c 1 2) () (copyAmt 1))
      ∗ atPos ER (copyCell c 1 2) 0 ∅ 0
      ∗ holdsPts c b16M fullShare (bv m c))
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 2 3) () (xferAmt 2 3))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 2 2) () (copyAmt 2))
      ∗ Done19 m K c
      ∗ InitFrom21 m K c)) := by
  unfold InitFrom20 Done19
  ac_rfl

set_option maxHeartbeats 2000000 in
theorem eq_step21 (c : Dev nD) :
    (iprop((cred (tallyAt (copyCell c 0 4) () (copyAmt 0))
      ∗ atPos ER (sendCell c 1 3) 1 ∅ 0
      ∗ slotHas m c 1 0 fullShare.left.right
      ∗ atPos ER (recvCell c 1 3) 1 ∅ 0
      ∗ slotHas m c 1 4 fullShare
      ∗ (∃ W, owes (c : Thread nD τ) (Orem ((payList c).drop 21)) W)
      ∗ atPos ER (copyCell c 1 2) 1 ∅ 0
      ∗ pieceDone m c 1 2
      ∗ stageAny c 1 0
      ∗ holdsPts c b16M fullShare (bv m c))
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 2 3) () (xferAmt 2 3))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 2 2) () (copyAmt 2))
      ∗ Done19 m K c
      ∗ InitFrom21 m K c)) : sProp 𝕄)
    = iprop((stageAny c 1 0
      ∗ pieceAny c 1 4
      ∗ dutyTok ER (copyCell c 1 4) 0 0
      ∗ cred (tallyAt (sendCell c 2 3) () (xferAmt 2 3))
      ∗ atPos ER (sendCell c 2 3) 0 ∅ 0
      ∗ (∃ W, owes (c : Thread nD τ) (Orem ((payList c).drop 21)) W)
      ∗ cred (tallyAt (recvCell c 2 3) () (xferAmt 2 3))
      ∗ atPos ER (recvCell c 2 3) 0 ∅ 0)
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 2 2) () (copyAmt 2))
      ∗ cred (tallyAt (copyCell c 0 4) () (copyAmt 0))
      ∗ holdsPts c b16M fullShare (bv m c)
      ∗ Done20 m K c
      ∗ InitFrom22 m K c)) := by
  unfold InitFrom21 Done20
  ac_rfl

set_option maxHeartbeats 2000000 in
theorem eq_step22 (c : Dev nD) :
    (iprop((cred (tallyAt (copyCell c 1 4) () (copyAmt 1))
      ∗ atPos ER (sendCell c 2 3) 1 ∅ 0
      ∗ slotHas m c 2 0 fullShare.left.right
      ∗ (∃ W, owes (c : Thread nD τ) (Orem ((payList c).drop 21)) W)
      ∗ atPos ER (recvCell c 2 3) 1 ∅ 0
      ∗ slotHas m c 2 4 fullShare)
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 2 2) () (copyAmt 2))
      ∗ cred (tallyAt (copyCell c 0 4) () (copyAmt 0))
      ∗ holdsPts c b16M fullShare (bv m c)
      ∗ Done20 m K c
      ∗ InitFrom22 m K c)) : sProp 𝕄)
    = iprop((cred (tallyAt (copyCell c 2 2) () (copyAmt 2))
      ∗ atPos ER (copyCell c 2 2) 0 ∅ 0
      ∗ (∃ W, owes (c : Thread nD τ) (Orem ((payList c).drop 21)) W)
      ∗ slotHas m c 2 4 fullShare
      ∗ holdsPts c b16M fullShare (bv m c)
      ∗ pieceAny c 2 4
      ∗ dutyTok ER (copyCell c 2 4) 0 0)
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ Done21 m K c
      ∗ InitFrom23 m K c)) := by
  unfold InitFrom22 Done21
  ac_rfl

set_option maxHeartbeats 2000000 in
theorem eq_step23 (c : Dev nD) :
    (iprop(((∃ W, owes (c : Thread nD τ) (Orem ((payList c).drop 21)) W)
      ∗ atPos ER (copyCell c 2 2) 1 ∅ 0
      ∗ pieceDone m c 2 2
      ∗ slotHas m c 2 4 fullShare
      ∗ holdsPts c b16M fullShare (bv m c)
      ∗ cred (tallyAt (copyCell c 2 4) () (copyAmt 2)))
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ Done21 m K c
      ∗ InitFrom23 m K c)) : sProp 𝕄)
    = iprop((cred (tallyAt (sendCell c 0 2) () (xferAmt 0 2))
      ∗ atPos ER (sendCell c 0 2) 0 ∅ 0
      ∗ (∃ W, owes (c : Thread nD τ) (Orem ((payList c).drop 21)) W)
      ∗ cred (tallyAt (recvCell c 0 2) () (xferAmt 0 2))
      ∗ atPos ER (recvCell c 0 2) 0 ∅ 0
      ∗ dstAny (partner c 0 6) 0 6
      ∗ dutyTok ER (sendCell c 0 6) 0 0
      ∗ dutyTok ER (recvCell (partner c 0 6) 0 6) 0 0)
      ∗ (atPos ER (copyCell c 2 7) 0 ∅ 0
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ holdsPts c b16M fullShare (bv m c)
      ∗ cred (tallyAt (copyCell c 2 4) () (copyAmt 2))
      ∗ Done22 m K c
      ∗ InitFrom24 m K c)) := by
  unfold InitFrom23 Done22
  ac_rfl

set_option maxHeartbeats 2000000 in
theorem eq_step24 (c : Dev nD) :
    (iprop((atPos ER (sendCell c 0 2) 1 ∅ 0
      ∗ slotHas m c 0 1 fullShare.left.left
      ∗ atPos ER (recvCell c 0 2) 1 ∅ 0
      ∗ slotBot m c 0 3 fullShare.left
      ∗ slotHas m c 0 3 fullShare.right
      ∗ (∃ W, owes (c : Thread nD τ) (Orem ((payList c).drop 22)) W)
      ∗ cred (tallyAt (sendCell c 0 6) () (xferAmt 0 6)))
      ∗ (atPos ER (copyCell c 2 7) 0 ∅ 0
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ holdsPts c b16M fullShare (bv m c)
      ∗ cred (tallyAt (copyCell c 2 4) () (copyAmt 2))
      ∗ Done22 m K c
      ∗ InitFrom24 m K c)) : sProp 𝕄)
    = iprop((slotBot m c 0 3 fullShare.left
      ∗ dstAny (partner c 0 7) 0 7
      ∗ dutyTok ER (sendCell c 0 7) 0 0
      ∗ dutyTok ER (recvCell (partner c 0 7) 0 7) 0 0
      ∗ (∃ W, owes (c : Thread nD τ) (Orem ((payList c).drop 22)) W)
      ∗ cred (tallyAt (sendCell c 1 2) () (xferAmt 1 2))
      ∗ atPos ER (sendCell c 1 2) 0 ∅ 0
      ∗ cred (tallyAt (recvCell c 1 2) () (xferAmt 1 2))
      ∗ atPos ER (recvCell c 1 2) 0 ∅ 0)
      ∗ (atPos ER (copyCell c 2 7) 0 ∅ 0
      ∗ dstAny (partner c 1 6) 1 6
      ∗ dstAny (partner c 1 7) 1 7
      ∗ dstAny (partner c 2 6) 2 6
      ∗ dstAny (partner c 2 7) 2 7
      ∗ cred (tallyAt (sendCell c 0 4) () (xferAmt 0 4))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ holdsPts c b16M fullShare (bv m c)
      ∗ cred (tallyAt (copyCell c 2 4) () (copyAmt 2))
      ∗ slotHas m c 0 3 fullShare.right
      ∗ cred (tallyAt (sendCell c 0 6) () (xferAmt 0 6))
      ∗ Done23 m K c
      ∗ InitFrom25 m K c)) := by
  unfold InitFrom24 Done23
  ac_rfl

end Cert.KernelIdeal.DM
end
-- ==== Proof.ChainEqs3.lean ====
/- GENERATED by: bun scratch/gen_partspecs.js "$KIT/certs/proofs/900891_g7700000000000892_dist_matmul_m_i_outrep_m1024_n1024_k512_v7x_i8_f32_1_alg" "proofs.«900891_g7700000000000892_dist_matmul_m_i_outrep_m1024_n1024_k512_v7x_i8_f32_1_alg».proof" "chaineqs" "25" "36" (run from the unit directory; the script is filed beside this module): the
   state before each step of the body regrouped as that step's pieces and the rest, steps 25 to 36. -/
import proofs.«900891_g7700000000000892_dist_matmul_m_i_outrep_m1024_n1024_k512_v7x_i8_f32_1_alg».proof.Proof.ChainDefs
set_option maxRecDepth 16384
noncomputable section
namespace Cert.KernelIdeal.DM
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (K : Dev nD × CIx → ℕ)

attribute [local irreducible] cred atPos dutyTok owes reached records inA inB slotAny slotHas slotTop slotBot stageAny stageHas stageTop pieceAny pieceDone dstAny anyPts holdsPts Orem payList tallyAt xferAmt copyAmt partner xr mask

set_option maxHeartbeats 2000000 in
theorem eq_step25 (c : Dev nD) :
    (iprop((cred (tallyAt (sendCell c 0 7) () (xferAmt 0 7))
      ∗ atPos ER (sendCell c 1 2) 1 ∅ 0
      ∗ slotHas m c 1 1 fullShare.left.left
      ∗ (∃ W, owes (c : Thread nD τ) (Orem ((payList c).drop 23)) W)
      ∗ atPos ER (recvCell c 1 2) 1 ∅ 0
      ∗ slotTop m c 1 3 fullShare.left
      ∗ slotBot m c 1 3 fullShare.left
      ∗ slotHas m c 1 3 fullShare.right)
      ∗ (atPos ER (copyCell c 2 7) 0 ∅ 0
      ∗ dstAny (partner c 1 6) 1 6
      ∗ dstAny (partner c 1 7) 1 7
      ∗ dstAny (partner c 2 6) 2 6
      ∗ dstAny (partner c 2 7) 2 7
      ∗ cred (tallyAt (sendCell c 0 4) () (xferAmt 0 4))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ holdsPts c b16M fullShare (bv m c)
      ∗ cred (tallyAt (copyCell c 2 4) () (copyAmt 2))
      ∗ slotHas m c 0 3 fullShare.right
      ∗ cred (tallyAt (sendCell c 0 6) () (xferAmt 0 6))
      ∗ Done23 m K c
      ∗ InitFrom25 m K c)) : sProp 𝕄)
    = iprop((slotTop m c 1 3 fullShare.left
      ∗ dstAny (partner c 1 6) 1 6
      ∗ dutyTok ER (sendCell c 1 6) 0 0
      ∗ dutyTok ER (recvCell (partner c 1 6) 1 6) 0 0
      ∗ (∃ W, owes (c : Thread nD τ) (Orem ((payList c).drop 23)) W)
      ∗ slotBot m c 1 3 fullShare.left
      ∗ dstAny (partner c 1 7) 1 7
      ∗ dutyTok ER (sendCell c 1 7) 0 0
      ∗ dutyTok ER (recvCell (partner c 1 7) 1 7) 0 0
      ∗ cred (tallyAt (sendCell c 2 2) () (xferAmt 2 2))
      ∗ atPos ER (sendCell c 2 2) 0 ∅ 0)
      ∗ (atPos ER (copyCell c 2 7) 0 ∅ 0
      ∗ dstAny (partner c 2 6) 2 6
      ∗ dstAny (partner c 2 7) 2 7
      ∗ cred (tallyAt (sendCell c 0 4) () (xferAmt 0 4))
      ∗ cred (tallyAt (sendCell c 1 4) () (xferAmt 1 4))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ holdsPts c b16M fullShare (bv m c)
      ∗ cred (tallyAt (copyCell c 2 4) () (copyAmt 2))
      ∗ slotHas m c 0 3 fullShare.right
      ∗ cred (tallyAt (sendCell c 0 6) () (xferAmt 0 6))
      ∗ cred (tallyAt (sendCell c 0 7) () (xferAmt 0 7))
      ∗ slotHas m c 1 3 fullShare.right
      ∗ Done24 m K c
      ∗ InitFrom26 m K c)) := by
  unfold InitFrom25 Done24
  ac_rfl

set_option maxHeartbeats 2000000 in
theorem eq_step26 (c : Dev nD) :
    (iprop((cred (tallyAt (sendCell c 1 6) () (xferAmt 1 6))
      ∗ cred (tallyAt (sendCell c 1 7) () (xferAmt 1 7))
      ∗ (∃ W, owes (c : Thread nD τ) (Orem ((payList c).drop 25)) W)
      ∗ atPos ER (sendCell c 2 2) 1 ∅ 0
      ∗ slotHas m c 2 1 fullShare.left.left)
      ∗ (atPos ER (copyCell c 2 7) 0 ∅ 0
      ∗ dstAny (partner c 2 6) 2 6
      ∗ dstAny (partner c 2 7) 2 7
      ∗ cred (tallyAt (sendCell c 0 4) () (xferAmt 0 4))
      ∗ cred (tallyAt (sendCell c 1 4) () (xferAmt 1 4))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ holdsPts c b16M fullShare (bv m c)
      ∗ cred (tallyAt (copyCell c 2 4) () (copyAmt 2))
      ∗ slotHas m c 0 3 fullShare.right
      ∗ cred (tallyAt (sendCell c 0 6) () (xferAmt 0 6))
      ∗ cred (tallyAt (sendCell c 0 7) () (xferAmt 0 7))
      ∗ slotHas m c 1 3 fullShare.right
      ∗ Done24 m K c
      ∗ InitFrom26 m K c)) : sProp 𝕄)
    = iprop((cred (tallyAt (recvCell c 2 2) () (xferAmt 2 2))
      ∗ atPos ER (recvCell c 2 2) 0 ∅ 0
      ∗ (∃ W, owes (c : Thread nD τ) (Orem ((payList c).drop 25)) W)
      ∗ dstAny (partner c 2 6) 2 6
      ∗ dutyTok ER (sendCell c 2 6) 0 0
      ∗ dutyTok ER (recvCell (partner c 2 6) 2 6) 0 0)
      ∗ (atPos ER (copyCell c 2 7) 0 ∅ 0
      ∗ dstAny (partner c 2 7) 2 7
      ∗ cred (tallyAt (sendCell c 0 4) () (xferAmt 0 4))
      ∗ cred (tallyAt (sendCell c 1 4) () (xferAmt 1 4))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ holdsPts c b16M fullShare (bv m c)
      ∗ cred (tallyAt (copyCell c 2 4) () (copyAmt 2))
      ∗ slotHas m c 0 3 fullShare.right
      ∗ cred (tallyAt (sendCell c 0 6) () (xferAmt 0 6))
      ∗ cred (tallyAt (sendCell c 0 7) () (xferAmt 0 7))
      ∗ slotHas m c 1 3 fullShare.right
      ∗ cred (tallyAt (sendCell c 1 6) () (xferAmt 1 6))
      ∗ cred (tallyAt (sendCell c 1 7) () (xferAmt 1 7))
      ∗ Done25 m K c
      ∗ InitFrom27 m K c)) := by
  unfold InitFrom26 Done25
  ac_rfl

set_option maxHeartbeats 2000000 in
theorem eq_step27 (c : Dev nD) :
    (iprop((atPos ER (recvCell c 2 2) 1 ∅ 0
      ∗ slotBot m c 2 3 fullShare.left
      ∗ slotHas m c 2 3 fullShare.right
      ∗ (∃ W, owes (c : Thread nD τ) (Orem ((payList c).drop 26)) W)
      ∗ cred (tallyAt (sendCell c 2 6) () (xferAmt 2 6)))
      ∗ (atPos ER (copyCell c 2 7) 0 ∅ 0
      ∗ dstAny (partner c 2 7) 2 7
      ∗ cred (tallyAt (sendCell c 0 4) () (xferAmt 0 4))
      ∗ cred (tallyAt (sendCell c 1 4) () (xferAmt 1 4))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ holdsPts c b16M fullShare (bv m c)
      ∗ cred (tallyAt (copyCell c 2 4) () (copyAmt 2))
      ∗ slotHas m c 0 3 fullShare.right
      ∗ cred (tallyAt (sendCell c 0 6) () (xferAmt 0 6))
      ∗ cred (tallyAt (sendCell c 0 7) () (xferAmt 0 7))
      ∗ slotHas m c 1 3 fullShare.right
      ∗ cred (tallyAt (sendCell c 1 6) () (xferAmt 1 6))
      ∗ cred (tallyAt (sendCell c 1 7) () (xferAmt 1 7))
      ∗ Done25 m K c
      ∗ InitFrom27 m K c)) : sProp 𝕄)
    = iprop((slotBot m c 2 3 fullShare.left
      ∗ dstAny (partner c 2 7) 2 7
      ∗ dutyTok ER (sendCell c 2 7) 0 0
      ∗ dutyTok ER (recvCell (partner c 2 7) 2 7) 0 0
      ∗ (∃ W, owes (c : Thread nD τ) (Orem ((payList c).drop 26)) W)
      ∗ cred (tallyAt (copyCell c 0 1) () (copyAmt 0))
      ∗ atPos ER (copyCell c 0 1) 0 ∅ 0
      ∗ slotHas m c 0 3 fullShare.right
      ∗ holdsPts c b16M fullShare (bv m c)
      ∗ pieceAny c 0 3
      ∗ dutyTok ER (copyCell c 0 3) 0 0)
      ∗ (atPos ER (copyCell c 2 7) 0 ∅ 0
      ∗ cred (tallyAt (sendCell c 0 4) () (xferAmt 0 4))
      ∗ cred (tallyAt (sendCell c 1 4) () (xferAmt 1 4))
      ∗ cred (tallyAt (sendCell c 2 4) () (xferAmt 2 4))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ slotHas m c 1 3 fullShare.right
      ∗ cred (tallyAt (sendCell c 1 6) () (xferAmt 1 6))
      ∗ cred (tallyAt (sendCell c 1 7) () (xferAmt 1 7))
      ∗ slotHas m c 2 3 fullShare.right
      ∗ cred (tallyAt (sendCell c 2 6) () (xferAmt 2 6))
      ∗ Done26 m K c
      ∗ InitFrom28 m K c)) := by
  unfold InitFrom27 Done26
  ac_rfl

set_option maxHeartbeats 2000000 in
theorem eq_step28 (c : Dev nD) :
    (iprop((cred (tallyAt (sendCell c 2 7) () (xferAmt 2 7))
      ∗ (∃ W, owes (c : Thread nD τ) (Orem ((payList c).drop 27)) W)
      ∗ atPos ER (copyCell c 0 1) 1 ∅ 0
      ∗ pieceDone m c 0 1
      ∗ slotHas m c 0 3 fullShare.right
      ∗ holdsPts c b16M fullShare (bv m c)
      ∗ cred (tallyAt (copyCell c 0 3) () (copyAmt 0)))
      ∗ (atPos ER (copyCell c 2 7) 0 ∅ 0
      ∗ cred (tallyAt (sendCell c 0 4) () (xferAmt 0 4))
      ∗ cred (tallyAt (sendCell c 1 4) () (xferAmt 1 4))
      ∗ cred (tallyAt (sendCell c 2 4) () (xferAmt 2 4))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ slotHas m c 1 3 fullShare.right
      ∗ cred (tallyAt (sendCell c 1 6) () (xferAmt 1 6))
      ∗ cred (tallyAt (sendCell c 1 7) () (xferAmt 1 7))
      ∗ slotHas m c 2 3 fullShare.right
      ∗ cred (tallyAt (sendCell c 2 6) () (xferAmt 2 6))
      ∗ Done26 m K c
      ∗ InitFrom28 m K c)) : sProp 𝕄)
    = iprop((cred (tallyAt (copyCell c 1 1) () (copyAmt 1))
      ∗ atPos ER (copyCell c 1 1) 0 ∅ 0
      ∗ (∃ W, owes (c : Thread nD τ) (Orem ((payList c).drop 27)) W)
      ∗ slotHas m c 1 3 fullShare.right
      ∗ holdsPts c b16M fullShare (bv m c)
      ∗ pieceAny c 1 3
      ∗ dutyTok ER (copyCell c 1 3) 0 0
      ∗ cred (tallyAt (copyCell c 2 1) () (copyAmt 2))
      ∗ atPos ER (copyCell c 2 1) 0 ∅ 0
      ∗ slotHas m c 2 3 fullShare.right)
      ∗ (atPos ER (copyCell c 2 7) 0 ∅ 0
      ∗ cred (tallyAt (sendCell c 0 4) () (xferAmt 0 4))
      ∗ cred (tallyAt (sendCell c 1 4) () (xferAmt 1 4))
      ∗ cred (tallyAt (sendCell c 2 4) () (xferAmt 2 4))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 3) () (copyAmt 0))
      ∗ Done27 m K c
      ∗ InitFrom29 m K c)) := by
  unfold InitFrom28 Done27
  ac_rfl

set_option maxHeartbeats 2000000 in
theorem eq_step29 (c : Dev nD) :
    (iprop((atPos ER (copyCell c 1 1) 1 ∅ 0
      ∗ pieceDone m c 1 1
      ∗ slotHas m c 1 3 fullShare.right
      ∗ holdsPts c b16M fullShare (bv m c)
      ∗ cred (tallyAt (copyCell c 1 3) () (copyAmt 1))
      ∗ (∃ W, owes (c : Thread nD τ) (Orem ((payList c).drop 27)) W)
      ∗ atPos ER (copyCell c 2 1) 1 ∅ 0
      ∗ pieceDone m c 2 1
      ∗ stageAny c 2 1
      ∗ slotHas m c 2 3 fullShare.right)
      ∗ (atPos ER (copyCell c 2 7) 0 ∅ 0
      ∗ cred (tallyAt (sendCell c 0 4) () (xferAmt 0 4))
      ∗ cred (tallyAt (sendCell c 1 4) () (xferAmt 1 4))
      ∗ cred (tallyAt (sendCell c 2 4) () (xferAmt 2 4))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 3) () (copyAmt 0))
      ∗ Done27 m K c
      ∗ InitFrom29 m K c)) : sProp 𝕄)
    = iprop((stageAny c 2 1
      ∗ pieceAny c 2 3
      ∗ dutyTok ER (copyCell c 2 3) 0 0
      ∗ cred (tallyAt (sendCell c 0 4) () (xferAmt 0 4))
      ∗ atPos ER (sendCell c 0 4) 0 ∅ 0
      ∗ (∃ W, owes (c : Thread nD τ) (Orem ((payList c).drop 27)) W))
      ∗ (atPos ER (copyCell c 2 7) 0 ∅ 0
      ∗ cred (tallyAt (sendCell c 1 4) () (xferAmt 1 4))
      ∗ cred (tallyAt (sendCell c 2 4) () (xferAmt 2 4))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 3) () (copyAmt 0))
      ∗ holdsPts c b16M fullShare (bv m c)
      ∗ cred (tallyAt (copyCell c 1 3) () (copyAmt 1))
      ∗ Done28 m K c
      ∗ InitFrom30 m K c)) := by
  unfold InitFrom29 Done28
  ac_rfl

set_option maxHeartbeats 2000000 in
theorem eq_step30 (c : Dev nD) :
    (iprop((cred (tallyAt (copyCell c 2 3) () (copyAmt 2))
      ∗ (∃ W, owes (c : Thread nD τ) (Orem ((payList c).drop 27)) W)
      ∗ atPos ER (sendCell c 0 4) 1 ∅ 0
      ∗ slotHas m c 0 1 fullShare.left.right)
      ∗ (atPos ER (copyCell c 2 7) 0 ∅ 0
      ∗ cred (tallyAt (sendCell c 1 4) () (xferAmt 1 4))
      ∗ cred (tallyAt (sendCell c 2 4) () (xferAmt 2 4))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 3) () (copyAmt 0))
      ∗ holdsPts c b16M fullShare (bv m c)
      ∗ cred (tallyAt (copyCell c 1 3) () (copyAmt 1))
      ∗ Done28 m K c
      ∗ InitFrom30 m K c)) : sProp 𝕄)
    = iprop((cred (tallyAt (recvCell c 0 4) () (xferAmt 0 4))
      ∗ atPos ER (recvCell c 0 4) 0 ∅ 0
      ∗ (∃ W, owes (c : Thread nD τ) (Orem ((payList c).drop 27)) W)
      ∗ cred (tallyAt (copyCell c 0 3) () (copyAmt 0))
      ∗ atPos ER (copyCell c 0 3) 0 ∅ 0
      ∗ holdsPts c b16M fullShare (bv m c)
      ∗ pieceAny c 0 5
      ∗ dutyTok ER (copyCell c 0 5) 0 0)
      ∗ (atPos ER (copyCell c 2 7) 0 ∅ 0
      ∗ cred (tallyAt (sendCell c 1 4) () (xferAmt 1 4))
      ∗ cred (tallyAt (sendCell c 2 4) () (xferAmt 2 4))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 1 3) () (copyAmt 1))
      ∗ cred (tallyAt (copyCell c 2 3) () (copyAmt 2))
      ∗ Done29 m K c
      ∗ InitFrom31 m K c)) := by
  unfold InitFrom30 Done29
  ac_rfl

set_option maxHeartbeats 2000000 in
theorem eq_step31 (c : Dev nD) :
    (iprop((atPos ER (recvCell c 0 4) 1 ∅ 0
      ∗ slotHas m c 0 5 fullShare
      ∗ (∃ W, owes (c : Thread nD τ) (Orem ((payList c).drop 27)) W)
      ∗ atPos ER (copyCell c 0 3) 1 ∅ 0
      ∗ pieceDone m c 0 3
      ∗ holdsPts c b16M fullShare (bv m c)
      ∗ cred (tallyAt (copyCell c 0 5) () (copyAmt 0)))
      ∗ (atPos ER (copyCell c 2 7) 0 ∅ 0
      ∗ cred (tallyAt (sendCell c 1 4) () (xferAmt 1 4))
      ∗ cred (tallyAt (sendCell c 2 4) () (xferAmt 2 4))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 1 3) () (copyAmt 1))
      ∗ cred (tallyAt (copyCell c 2 3) () (copyAmt 2))
      ∗ Done29 m K c
      ∗ InitFrom31 m K c)) : sProp 𝕄)
    = iprop((cred (tallyAt (sendCell c 1 4) () (xferAmt 1 4))
      ∗ atPos ER (sendCell c 1 4) 0 ∅ 0
      ∗ (∃ W, owes (c : Thread nD τ) (Orem ((payList c).drop 27)) W)
      ∗ cred (tallyAt (recvCell c 1 4) () (xferAmt 1 4))
      ∗ atPos ER (recvCell c 1 4) 0 ∅ 0
      ∗ cred (tallyAt (copyCell c 1 3) () (copyAmt 1))
      ∗ atPos ER (copyCell c 1 3) 0 ∅ 0
      ∗ holdsPts c b16M fullShare (bv m c))
      ∗ (atPos ER (copyCell c 2 7) 0 ∅ 0
      ∗ cred (tallyAt (sendCell c 2 4) () (xferAmt 2 4))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 2 3) () (copyAmt 2))
      ∗ cred (tallyAt (copyCell c 0 5) () (copyAmt 0))
      ∗ Done30 m K c
      ∗ InitFrom32 m K c)) := by
  unfold InitFrom31 Done30
  ac_rfl

set_option maxHeartbeats 2000000 in
theorem eq_step32 (c : Dev nD) :
    (iprop((atPos ER (sendCell c 1 4) 1 ∅ 0
      ∗ slotHas m c 1 1 fullShare.left.right
      ∗ atPos ER (recvCell c 1 4) 1 ∅ 0
      ∗ slotHas m c 1 5 fullShare
      ∗ (∃ W, owes (c : Thread nD τ) (Orem ((payList c).drop 27)) W)
      ∗ atPos ER (copyCell c 1 3) 1 ∅ 0
      ∗ pieceDone m c 1 3
      ∗ holdsPts c b16M fullShare (bv m c)
      ∗ stageHas m c 1 5)
      ∗ (atPos ER (copyCell c 2 7) 0 ∅ 0
      ∗ cred (tallyAt (sendCell c 2 4) () (xferAmt 2 4))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 2 3) () (copyAmt 2))
      ∗ cred (tallyAt (copyCell c 0 5) () (copyAmt 0))
      ∗ Done30 m K c
      ∗ InitFrom32 m K c)) : sProp 𝕄)
    = iprop((stageHas m c 1 5
      ∗ pieceAny c 1 5
      ∗ dutyTok ER (copyCell c 1 5) 0 0
      ∗ cred (tallyAt (sendCell c 2 4) () (xferAmt 2 4))
      ∗ atPos ER (sendCell c 2 4) 0 ∅ 0
      ∗ (∃ W, owes (c : Thread nD τ) (Orem ((payList c).drop 27)) W)
      ∗ cred (tallyAt (recvCell c 2 4) () (xferAmt 2 4))
      ∗ atPos ER (recvCell c 2 4) 0 ∅ 0)
      ∗ (atPos ER (copyCell c 2 7) 0 ∅ 0
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 2 3) () (copyAmt 2))
      ∗ cred (tallyAt (copyCell c 0 5) () (copyAmt 0))
      ∗ holdsPts c b16M fullShare (bv m c)
      ∗ Done31 m K c
      ∗ InitFrom33 m K c)) := by
  unfold InitFrom32 Done31
  ac_rfl

set_option maxHeartbeats 2000000 in
theorem eq_step33 (c : Dev nD) :
    (iprop((cred (tallyAt (copyCell c 1 5) () (copyAmt 1))
      ∗ atPos ER (sendCell c 2 4) 1 ∅ 0
      ∗ slotHas m c 2 1 fullShare.left.right
      ∗ (∃ W, owes (c : Thread nD τ) (Orem ((payList c).drop 27)) W)
      ∗ atPos ER (recvCell c 2 4) 1 ∅ 0
      ∗ slotHas m c 2 5 fullShare)
      ∗ (atPos ER (copyCell c 2 7) 0 ∅ 0
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 2 3) () (copyAmt 2))
      ∗ cred (tallyAt (copyCell c 0 5) () (copyAmt 0))
      ∗ holdsPts c b16M fullShare (bv m c)
      ∗ Done31 m K c
      ∗ InitFrom33 m K c)) : sProp 𝕄)
    = iprop((cred (tallyAt (copyCell c 2 3) () (copyAmt 2))
      ∗ atPos ER (copyCell c 2 3) 0 ∅ 0
      ∗ (∃ W, owes (c : Thread nD τ) (Orem ((payList c).drop 27)) W)
      ∗ slotHas m c 2 5 fullShare
      ∗ holdsPts c b16M fullShare (bv m c)
      ∗ pieceAny c 2 5
      ∗ dutyTok ER (copyCell c 2 5) 0 0
      ∗ cred (tallyAt (sendCell c 0 5) () (xferAmt 0 5))
      ∗ atPos ER (sendCell c 0 5) 0 ∅ 0)
      ∗ (atPos ER (copyCell c 2 7) 0 ∅ 0
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 5) () (copyAmt 0))
      ∗ cred (tallyAt (copyCell c 1 5) () (copyAmt 1))
      ∗ Done32 m K c
      ∗ InitFrom34 m K c)) := by
  unfold InitFrom33 Done32
  ac_rfl

set_option maxHeartbeats 2000000 in
theorem eq_step34 (c : Dev nD) :
    (iprop((atPos ER (copyCell c 2 3) 1 ∅ 0
      ∗ pieceDone m c 2 3
      ∗ slotHas m c 2 5 fullShare
      ∗ holdsPts c b16M fullShare (bv m c)
      ∗ cred (tallyAt (copyCell c 2 5) () (copyAmt 2))
      ∗ (∃ W, owes (c : Thread nD τ) (Orem ((payList c).drop 27)) W)
      ∗ atPos ER (sendCell c 0 5) 1 ∅ 0
      ∗ slotHas m c 0 2 fullShare.left)
      ∗ (atPos ER (copyCell c 2 7) 0 ∅ 0
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 5) () (copyAmt 0))
      ∗ cred (tallyAt (copyCell c 1 5) () (copyAmt 1))
      ∗ Done32 m K c
      ∗ InitFrom34 m K c)) : sProp 𝕄)
    = iprop((cred (tallyAt (recvCell c 0 5) () (xferAmt 0 5))
      ∗ atPos ER (recvCell c 0 5) 0 ∅ 0
      ∗ (∃ W, owes (c : Thread nD τ) (Orem ((payList c).drop 27)) W)
      ∗ cred (tallyAt (copyCell c 0 4) () (copyAmt 0))
      ∗ atPos ER (copyCell c 0 4) 0 ∅ 0
      ∗ holdsPts c b16M fullShare (bv m c)
      ∗ pieceAny c 0 6
      ∗ dutyTok ER (copyCell c 0 6) 0 0)
      ∗ (atPos ER (copyCell c 2 7) 0 ∅ 0
      ∗ cred (tallyAt (sendCell c 1 5) () (xferAmt 1 5))
      ∗ cred (tallyAt (sendCell c 2 5) () (xferAmt 2 5))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 5) () (copyAmt 0))
      ∗ cred (tallyAt (copyCell c 1 5) () (copyAmt 1))
      ∗ cred (tallyAt (copyCell c 2 5) () (copyAmt 2))
      ∗ Done33 m K c
      ∗ InitFrom35 m K c)) := by
  unfold InitFrom34 Done33
  ac_rfl

set_option maxHeartbeats 2000000 in
theorem eq_step35 (c : Dev nD) :
    (iprop((atPos ER (recvCell c 0 5) 1 ∅ 0
      ∗ slotHas m c 0 6 fullShare
      ∗ (∃ W, owes (c : Thread nD τ) (Orem ((payList c).drop 27)) W)
      ∗ atPos ER (copyCell c 0 4) 1 ∅ 0
      ∗ pieceDone m c 0 4
      ∗ holdsPts c b16M fullShare (bv m c)
      ∗ cred (tallyAt (copyCell c 0 6) () (copyAmt 0)))
      ∗ (atPos ER (copyCell c 2 7) 0 ∅ 0
      ∗ cred (tallyAt (sendCell c 1 5) () (xferAmt 1 5))
      ∗ cred (tallyAt (sendCell c 2 5) () (xferAmt 2 5))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 5) () (copyAmt 0))
      ∗ cred (tallyAt (copyCell c 1 5) () (copyAmt 1))
      ∗ cred (tallyAt (copyCell c 2 5) () (copyAmt 2))
      ∗ Done33 m K c
      ∗ InitFrom35 m K c)) : sProp 𝕄)
    = iprop((cred (tallyAt (sendCell c 1 5) () (xferAmt 1 5))
      ∗ atPos ER (sendCell c 1 5) 0 ∅ 0
      ∗ (∃ W, owes (c : Thread nD τ) (Orem ((payList c).drop 27)) W)
      ∗ cred (tallyAt (recvCell c 1 5) () (xferAmt 1 5))
      ∗ atPos ER (recvCell c 1 5) 0 ∅ 0
      ∗ cred (tallyAt (copyCell c 1 4) () (copyAmt 1))
      ∗ atPos ER (copyCell c 1 4) 0 ∅ 0
      ∗ holdsPts c b16M fullShare (bv m c))
      ∗ (atPos ER (copyCell c 2 7) 0 ∅ 0
      ∗ cred (tallyAt (sendCell c 2 5) () (xferAmt 2 5))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 5) () (copyAmt 0))
      ∗ cred (tallyAt (copyCell c 1 5) () (copyAmt 1))
      ∗ cred (tallyAt (copyCell c 2 5) () (copyAmt 2))
      ∗ cred (tallyAt (copyCell c 0 6) () (copyAmt 0))
      ∗ Done34 m K c
      ∗ InitFrom36 m K c)) := by
  unfold InitFrom35 Done34
  ac_rfl

set_option maxHeartbeats 2000000 in
theorem eq_step36 (c : Dev nD) :
    (iprop((atPos ER (sendCell c 1 5) 1 ∅ 0
      ∗ slotHas m c 1 2 fullShare.left
      ∗ atPos ER (recvCell c 1 5) 1 ∅ 0
      ∗ slotHas m c 1 6 fullShare
      ∗ (∃ W, owes (c : Thread nD τ) (Orem ((payList c).drop 27)) W)
      ∗ atPos ER (copyCell c 1 4) 1 ∅ 0
      ∗ pieceDone m c 1 4
      ∗ stageAny c 1 0
      ∗ holdsPts c b16M fullShare (bv m c))
      ∗ (atPos ER (copyCell c 2 7) 0 ∅ 0
      ∗ cred (tallyAt (sendCell c 2 5) () (xferAmt 2 5))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 5) () (copyAmt 0))
      ∗ cred (tallyAt (copyCell c 1 5) () (copyAmt 1))
      ∗ cred (tallyAt (copyCell c 2 5) () (copyAmt 2))
      ∗ cred (tallyAt (copyCell c 0 6) () (copyAmt 0))
      ∗ Done34 m K c
      ∗ InitFrom36 m K c)) : sProp 𝕄)
    = iprop((stageAny c 1 0
      ∗ pieceAny c 1 6
      ∗ dutyTok ER (copyCell c 1 6) 0 0
      ∗ cred (tallyAt (sendCell c 2 5) () (xferAmt 2 5))
      ∗ atPos ER (sendCell c 2 5) 0 ∅ 0
      ∗ (∃ W, owes (c : Thread nD τ) (Orem ((payList c).drop 27)) W)
      ∗ cred (tallyAt (recvCell c 2 5) () (xferAmt 2 5))
      ∗ atPos ER (recvCell c 2 5) 0 ∅ 0)
      ∗ (atPos ER (copyCell c 2 7) 0 ∅ 0
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 5) () (copyAmt 0))
      ∗ cred (tallyAt (copyCell c 1 5) () (copyAmt 1))
      ∗ cred (tallyAt (copyCell c 2 5) () (copyAmt 2))
      ∗ cred (tallyAt (copyCell c 0 6) () (copyAmt 0))
      ∗ holdsPts c b16M fullShare (bv m c)
      ∗ Done35 m K c
      ∗ InitFrom37 m K c)) := by
  unfold InitFrom36 Done35
  ac_rfl

end Cert.KernelIdeal.DM
end
-- ==== Proof.ChainEqs4.lean ====
/- GENERATED by: bun scratch/gen_partspecs.js "$KIT/certs/proofs/900891_g7700000000000892_dist_matmul_m_i_outrep_m1024_n1024_k512_v7x_i8_f32_1_alg" "proofs.«900891_g7700000000000892_dist_matmul_m_i_outrep_m1024_n1024_k512_v7x_i8_f32_1_alg».proof" "chaineqs" "37" "47" (run from the unit directory; the script is filed beside this module): the
   state before each step of the body regrouped as that step's pieces and the rest, steps 37 to 47. -/
import proofs.«900891_g7700000000000892_dist_matmul_m_i_outrep_m1024_n1024_k512_v7x_i8_f32_1_alg».proof.Proof.ChainDefs
set_option maxRecDepth 16384
noncomputable section
namespace Cert.KernelIdeal.DM
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (K : Dev nD × CIx → ℕ)

attribute [local irreducible] cred atPos dutyTok owes reached records inA inB slotAny slotHas slotTop slotBot stageAny stageHas stageTop pieceAny pieceDone dstAny anyPts holdsPts Orem payList tallyAt xferAmt copyAmt partner xr mask

set_option maxHeartbeats 2000000 in
theorem eq_step37 (c : Dev nD) :
    (iprop((cred (tallyAt (copyCell c 1 6) () (copyAmt 1))
      ∗ atPos ER (sendCell c 2 5) 1 ∅ 0
      ∗ slotHas m c 2 2 fullShare.left
      ∗ (∃ W, owes (c : Thread nD τ) (Orem ((payList c).drop 27)) W)
      ∗ atPos ER (recvCell c 2 5) 1 ∅ 0
      ∗ slotHas m c 2 6 fullShare)
      ∗ (atPos ER (copyCell c 2 7) 0 ∅ 0
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 5) () (copyAmt 0))
      ∗ cred (tallyAt (copyCell c 1 5) () (copyAmt 1))
      ∗ cred (tallyAt (copyCell c 2 5) () (copyAmt 2))
      ∗ cred (tallyAt (copyCell c 0 6) () (copyAmt 0))
      ∗ holdsPts c b16M fullShare (bv m c)
      ∗ Done35 m K c
      ∗ InitFrom37 m K c)) : sProp 𝕄)
    = iprop((cred (tallyAt (copyCell c 2 4) () (copyAmt 2))
      ∗ atPos ER (copyCell c 2 4) 0 ∅ 0
      ∗ (∃ W, owes (c : Thread nD τ) (Orem ((payList c).drop 27)) W)
      ∗ slotHas m c 2 6 fullShare
      ∗ holdsPts c b16M fullShare (bv m c)
      ∗ pieceAny c 2 6
      ∗ dutyTok ER (copyCell c 2 6) 0 0)
      ∗ (atPos ER (copyCell c 2 7) 0 ∅ 0
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 5) () (copyAmt 0))
      ∗ cred (tallyAt (copyCell c 1 5) () (copyAmt 1))
      ∗ cred (tallyAt (copyCell c 2 5) () (copyAmt 2))
      ∗ cred (tallyAt (copyCell c 0 6) () (copyAmt 0))
      ∗ cred (tallyAt (copyCell c 1 6) () (copyAmt 1))
      ∗ Done36 m K c
      ∗ InitFrom38 m K c)) := by
  unfold InitFrom37 Done36
  ac_rfl

set_option maxHeartbeats 2000000 in
theorem eq_step38 (c : Dev nD) :
    (iprop(((∃ W, owes (c : Thread nD τ) (Orem ((payList c).drop 27)) W)
      ∗ atPos ER (copyCell c 2 4) 1 ∅ 0
      ∗ pieceDone m c 2 4
      ∗ slotHas m c 2 6 fullShare
      ∗ holdsPts c b16M fullShare (bv m c)
      ∗ cred (tallyAt (copyCell c 2 6) () (copyAmt 2)))
      ∗ (atPos ER (copyCell c 2 7) 0 ∅ 0
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 5) () (copyAmt 0))
      ∗ cred (tallyAt (copyCell c 1 5) () (copyAmt 1))
      ∗ cred (tallyAt (copyCell c 2 5) () (copyAmt 2))
      ∗ cred (tallyAt (copyCell c 0 6) () (copyAmt 0))
      ∗ cred (tallyAt (copyCell c 1 6) () (copyAmt 1))
      ∗ Done36 m K c
      ∗ InitFrom38 m K c)) : sProp 𝕄)
    = iprop((cred (tallyAt (sendCell c 0 6) () (xferAmt 0 6))
      ∗ atPos ER (sendCell c 0 6) 0 ∅ 0
      ∗ (∃ W, owes (c : Thread nD τ) (Orem ((payList c).drop 27)) W)
      ∗ cred (tallyAt (recvCell c 0 6) () (xferAmt 0 6))
      ∗ atPos ER (recvCell c 0 6) 0 ∅ 0
      ∗ cred (tallyAt (copyCell c 0 5) () (copyAmt 0))
      ∗ atPos ER (copyCell c 0 5) 0 ∅ 0
      ∗ holdsPts c b16M fullShare (bv m c))
      ∗ (atPos ER (copyCell c 2 7) 0 ∅ 0
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 1 5) () (copyAmt 1))
      ∗ cred (tallyAt (copyCell c 2 5) () (copyAmt 2))
      ∗ cred (tallyAt (copyCell c 0 6) () (copyAmt 0))
      ∗ cred (tallyAt (copyCell c 1 6) () (copyAmt 1))
      ∗ cred (tallyAt (copyCell c 2 6) () (copyAmt 2))
      ∗ Done37 m K c
      ∗ InitFrom39 m K c)) := by
  unfold InitFrom38 Done37
  ac_rfl

set_option maxHeartbeats 2000000 in
theorem eq_step39 (c : Dev nD) :
    (iprop((atPos ER (sendCell c 0 6) 1 ∅ 0
      ∗ slotTop m c 0 3 fullShare.left
      ∗ atPos ER (recvCell c 0 6) 1 ∅ 0
      ∗ slotTop m c 0 7 fullShare
      ∗ (∃ W, owes (c : Thread nD τ) (Orem ((payList c).drop 27)) W)
      ∗ atPos ER (copyCell c 0 5) 1 ∅ 0
      ∗ pieceDone m c 0 5
      ∗ holdsPts c b16M fullShare (bv m c)
      ∗ stageTop m c 0)
      ∗ (atPos ER (copyCell c 2 7) 0 ∅ 0
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 1 5) () (copyAmt 1))
      ∗ cred (tallyAt (copyCell c 2 5) () (copyAmt 2))
      ∗ cred (tallyAt (copyCell c 0 6) () (copyAmt 0))
      ∗ cred (tallyAt (copyCell c 1 6) () (copyAmt 1))
      ∗ cred (tallyAt (copyCell c 2 6) () (copyAmt 2))
      ∗ Done37 m K c
      ∗ InitFrom39 m K c)) : sProp 𝕄)
    = iprop((cred (tallyAt (sendCell c 1 6) () (xferAmt 1 6))
      ∗ atPos ER (sendCell c 1 6) 0 ∅ 0
      ∗ (∃ W, owes (c : Thread nD τ) (Orem ((payList c).drop 27)) W)
      ∗ cred (tallyAt (recvCell c 1 6) () (xferAmt 1 6))
      ∗ atPos ER (recvCell c 1 6) 0 ∅ 0
      ∗ cred (tallyAt (copyCell c 1 5) () (copyAmt 1))
      ∗ atPos ER (copyCell c 1 5) 0 ∅ 0
      ∗ holdsPts c b16M fullShare (bv m c))
      ∗ (atPos ER (copyCell c 2 7) 0 ∅ 0
      ∗ cred (tallyAt (sendCell c 0 7) () (xferAmt 0 7))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 2 5) () (copyAmt 2))
      ∗ cred (tallyAt (copyCell c 0 6) () (copyAmt 0))
      ∗ cred (tallyAt (copyCell c 1 6) () (copyAmt 1))
      ∗ cred (tallyAt (copyCell c 2 6) () (copyAmt 2))
      ∗ stageTop m c 0
      ∗ Done38 m K c
      ∗ InitFrom40 m K c)) := by
  unfold InitFrom39 Done38
  ac_rfl

set_option maxHeartbeats 2000000 in
theorem eq_step40 (c : Dev nD) :
    (iprop((atPos ER (sendCell c 1 6) 1 ∅ 0
      ∗ slotTop m c 1 3 fullShare.left
      ∗ atPos ER (recvCell c 1 6) 1 ∅ 0
      ∗ slotTop m c 1 7 fullShare
      ∗ (∃ W, owes (c : Thread nD τ) (Orem ((payList c).drop 27)) W)
      ∗ atPos ER (copyCell c 1 5) 1 ∅ 0
      ∗ pieceDone m c 1 5
      ∗ stageAny c 1 1
      ∗ holdsPts c b16M fullShare (bv m c))
      ∗ (atPos ER (copyCell c 2 7) 0 ∅ 0
      ∗ cred (tallyAt (sendCell c 0 7) () (xferAmt 0 7))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 2 5) () (copyAmt 2))
      ∗ cred (tallyAt (copyCell c 0 6) () (copyAmt 0))
      ∗ cred (tallyAt (copyCell c 1 6) () (copyAmt 1))
      ∗ cred (tallyAt (copyCell c 2 6) () (copyAmt 2))
      ∗ stageTop m c 0
      ∗ Done38 m K c
      ∗ InitFrom40 m K c)) : sProp 𝕄)
    = iprop((stageAny c 1 1
      ∗ cred (tallyAt (sendCell c 2 6) () (xferAmt 2 6))
      ∗ atPos ER (sendCell c 2 6) 0 ∅ 0
      ∗ (∃ W, owes (c : Thread nD τ) (Orem ((payList c).drop 27)) W)
      ∗ cred (tallyAt (recvCell c 2 6) () (xferAmt 2 6))
      ∗ atPos ER (recvCell c 2 6) 0 ∅ 0
      ∗ cred (tallyAt (copyCell c 2 5) () (copyAmt 2))
      ∗ atPos ER (copyCell c 2 5) 0 ∅ 0)
      ∗ (atPos ER (copyCell c 2 7) 0 ∅ 0
      ∗ cred (tallyAt (sendCell c 0 7) () (xferAmt 0 7))
      ∗ cred (tallyAt (sendCell c 1 7) () (xferAmt 1 7))
      ∗ cred (tallyAt (sendCell c 2 7) () (xferAmt 2 7))
      ∗ cred (tallyAt (copyCell c 0 6) () (copyAmt 0))
      ∗ cred (tallyAt (copyCell c 1 6) () (copyAmt 1))
      ∗ cred (tallyAt (copyCell c 2 6) () (copyAmt 2))
      ∗ stageTop m c 0
      ∗ holdsPts c b16M fullShare (bv m c)
      ∗ Done39 m K c
      ∗ InitFrom41 m K c)) := by
  unfold InitFrom40 Done39
  ac_rfl

set_option maxHeartbeats 2000000 in
theorem eq_step41 (c : Dev nD) :
    (iprop((stageTop m c 1
      ∗ atPos ER (sendCell c 2 6) 1 ∅ 0
      ∗ slotTop m c 2 3 fullShare.left
      ∗ atPos ER (recvCell c 2 6) 1 ∅ 0
      ∗ slotTop m c 2 7 fullShare
      ∗ (∃ W, owes (c : Thread nD τ) (Orem ((payList c).drop 27)) W)
      ∗ atPos ER (copyCell c 2 5) 1 ∅ 0
      ∗ pieceDone m c 2 5
      ∗ stageAny c 2 1)
      ∗ (atPos ER (copyCell c 2 7) 0 ∅ 0
      ∗ cred (tallyAt (sendCell c 0 7) () (xferAmt 0 7))
      ∗ cred (tallyAt (sendCell c 1 7) () (xferAmt 1 7))
      ∗ cred (tallyAt (sendCell c 2 7) () (xferAmt 2 7))
      ∗ cred (tallyAt (copyCell c 0 6) () (copyAmt 0))
      ∗ cred (tallyAt (copyCell c 1 6) () (copyAmt 1))
      ∗ cred (tallyAt (copyCell c 2 6) () (copyAmt 2))
      ∗ stageTop m c 0
      ∗ holdsPts c b16M fullShare (bv m c)
      ∗ Done39 m K c
      ∗ InitFrom41 m K c)) : sProp 𝕄)
    = iprop((holdsPts c b16M fullShare (bv m c)
      ∗ stageAny c 2 1
      ∗ cred (tallyAt (sendCell c 0 7) () (xferAmt 0 7))
      ∗ atPos ER (sendCell c 0 7) 0 ∅ 0
      ∗ (∃ W, owes (c : Thread nD τ) (Orem ((payList c).drop 27)) W)
      ∗ cred (tallyAt (recvCell c 0 7) () (xferAmt 0 7))
      ∗ atPos ER (recvCell c 0 7) 0 ∅ 0)
      ∗ (atPos ER (copyCell c 2 7) 0 ∅ 0
      ∗ cred (tallyAt (sendCell c 1 7) () (xferAmt 1 7))
      ∗ cred (tallyAt (sendCell c 2 7) () (xferAmt 2 7))
      ∗ cred (tallyAt (copyCell c 0 6) () (copyAmt 0))
      ∗ cred (tallyAt (copyCell c 1 6) () (copyAmt 1))
      ∗ cred (tallyAt (copyCell c 2 6) () (copyAmt 2))
      ∗ stageTop m c 0
      ∗ stageTop m c 1
      ∗ Done40 m K c
      ∗ InitFrom42 m K c)) := by
  unfold InitFrom41 Done40
  ac_rfl

set_option maxHeartbeats 2000000 in
theorem eq_step42 (c : Dev nD) :
    (iprop((holdsPts c b16M fullShare (bv m c)
      ∗ stageTop m c 2
      ∗ atPos ER (sendCell c 0 7) 1 ∅ 0
      ∗ slotBot m c 0 3 fullShare.left
      ∗ (∃ W, owes (c : Thread nD τ) (Orem ((payList c).drop 27)) W)
      ∗ atPos ER (recvCell c 0 7) 1 ∅ 0
      ∗ slotBot m c 0 7 fullShare)
      ∗ (atPos ER (copyCell c 2 7) 0 ∅ 0
      ∗ cred (tallyAt (sendCell c 1 7) () (xferAmt 1 7))
      ∗ cred (tallyAt (sendCell c 2 7) () (xferAmt 2 7))
      ∗ cred (tallyAt (copyCell c 0 6) () (copyAmt 0))
      ∗ cred (tallyAt (copyCell c 1 6) () (copyAmt 1))
      ∗ cred (tallyAt (copyCell c 2 6) () (copyAmt 2))
      ∗ stageTop m c 0
      ∗ stageTop m c 1
      ∗ Done40 m K c
      ∗ InitFrom42 m K c)) : sProp 𝕄)
    = iprop((stageTop m c 0
      ∗ pieceAny c 0 7
      ∗ dutyTok ER (copyCell c 0 7) 0 0
      ∗ cred (tallyAt (sendCell c 1 7) () (xferAmt 1 7))
      ∗ atPos ER (sendCell c 1 7) 0 ∅ 0
      ∗ (∃ W, owes (c : Thread nD τ) (Orem ((payList c).drop 27)) W))
      ∗ (atPos ER (copyCell c 2 7) 0 ∅ 0
      ∗ cred (tallyAt (sendCell c 2 7) () (xferAmt 2 7))
      ∗ cred (tallyAt (copyCell c 0 6) () (copyAmt 0))
      ∗ cred (tallyAt (copyCell c 1 6) () (copyAmt 1))
      ∗ cred (tallyAt (copyCell c 2 6) () (copyAmt 2))
      ∗ stageTop m c 1
      ∗ holdsPts c b16M fullShare (bv m c)
      ∗ stageTop m c 2
      ∗ Done41 m K c
      ∗ InitFrom43 m K c)) := by
  unfold InitFrom42 Done41
  ac_rfl

set_option maxHeartbeats 2000000 in
theorem eq_step43 (c : Dev nD) :
    (iprop((cred (tallyAt (copyCell c 0 7) () (copyAmt 0))
      ∗ (∃ W, owes (c : Thread nD τ) (Orem ((payList c).drop 27)) W)
      ∗ atPos ER (sendCell c 1 7) 1 ∅ 0
      ∗ slotBot m c 1 3 fullShare.left)
      ∗ (atPos ER (copyCell c 2 7) 0 ∅ 0
      ∗ cred (tallyAt (sendCell c 2 7) () (xferAmt 2 7))
      ∗ cred (tallyAt (copyCell c 0 6) () (copyAmt 0))
      ∗ cred (tallyAt (copyCell c 1 6) () (copyAmt 1))
      ∗ cred (tallyAt (copyCell c 2 6) () (copyAmt 2))
      ∗ stageTop m c 1
      ∗ holdsPts c b16M fullShare (bv m c)
      ∗ stageTop m c 2
      ∗ Done41 m K c
      ∗ InitFrom43 m K c)) : sProp 𝕄)
    = iprop((cred (tallyAt (recvCell c 1 7) () (xferAmt 1 7))
      ∗ atPos ER (recvCell c 1 7) 0 ∅ 0
      ∗ (∃ W, owes (c : Thread nD τ) (Orem ((payList c).drop 27)) W)
      ∗ holdsPts c b16M fullShare (bv m c)
      ∗ stageTop m c 1
      ∗ pieceAny c 1 7
      ∗ dutyTok ER (copyCell c 1 7) 0 0
      ∗ cred (tallyAt (sendCell c 2 7) () (xferAmt 2 7))
      ∗ atPos ER (sendCell c 2 7) 0 ∅ 0)
      ∗ (atPos ER (copyCell c 2 7) 0 ∅ 0
      ∗ cred (tallyAt (copyCell c 0 6) () (copyAmt 0))
      ∗ cred (tallyAt (copyCell c 1 6) () (copyAmt 1))
      ∗ cred (tallyAt (copyCell c 2 6) () (copyAmt 2))
      ∗ stageTop m c 2
      ∗ cred (tallyAt (copyCell c 0 7) () (copyAmt 0))
      ∗ Done42 m K c
      ∗ InitFrom44 m K c)) := by
  unfold InitFrom43 Done42
  ac_rfl

set_option maxHeartbeats 2000000 in
theorem eq_step44 (c : Dev nD) :
    (iprop((atPos ER (recvCell c 1 7) 1 ∅ 0
      ∗ slotBot m c 1 7 fullShare
      ∗ holdsPts c b16M fullShare (bv m c)
      ∗ cred (tallyAt (copyCell c 1 7) () (copyAmt 1))
      ∗ (∃ W, owes (c : Thread nD τ) (Orem ((payList c).drop 27)) W)
      ∗ atPos ER (sendCell c 2 7) 1 ∅ 0
      ∗ slotBot m c 2 3 fullShare.left)
      ∗ (atPos ER (copyCell c 2 7) 0 ∅ 0
      ∗ cred (tallyAt (copyCell c 0 6) () (copyAmt 0))
      ∗ cred (tallyAt (copyCell c 1 6) () (copyAmt 1))
      ∗ cred (tallyAt (copyCell c 2 6) () (copyAmt 2))
      ∗ stageTop m c 2
      ∗ cred (tallyAt (copyCell c 0 7) () (copyAmt 0))
      ∗ Done42 m K c
      ∗ InitFrom44 m K c)) : sProp 𝕄)
    = iprop((cred (tallyAt (recvCell c 2 7) () (xferAmt 2 7))
      ∗ atPos ER (recvCell c 2 7) 0 ∅ 0
      ∗ (∃ W, owes (c : Thread nD τ) (Orem ((payList c).drop 27)) W)
      ∗ holdsPts c b16M fullShare (bv m c)
      ∗ stageTop m c 2
      ∗ pieceAny c 2 7
      ∗ dutyTok ER (copyCell c 2 7) 0 0)
      ∗ (atPos ER (copyCell c 2 7) 0 ∅ 0
      ∗ cred (tallyAt (copyCell c 0 6) () (copyAmt 0))
      ∗ cred (tallyAt (copyCell c 1 6) () (copyAmt 1))
      ∗ cred (tallyAt (copyCell c 2 6) () (copyAmt 2))
      ∗ cred (tallyAt (copyCell c 0 7) () (copyAmt 0))
      ∗ cred (tallyAt (copyCell c 1 7) () (copyAmt 1))
      ∗ Done43 m K c
      ∗ InitFrom45 m K c)) := by
  unfold InitFrom44 Done43
  ac_rfl

set_option maxHeartbeats 2000000 in
theorem eq_step45 (c : Dev nD) :
    (iprop(((∃ W, owes (c : Thread nD τ) (Orem ((payList c).drop 27)) W)
      ∗ atPos ER (recvCell c 2 7) 1 ∅ 0
      ∗ slotBot m c 2 7 fullShare
      ∗ holdsPts c b16M fullShare (bv m c)
      ∗ cred (tallyAt (copyCell c 2 7) () (copyAmt 2)))
      ∗ (atPos ER (copyCell c 2 7) 0 ∅ 0
      ∗ cred (tallyAt (copyCell c 0 6) () (copyAmt 0))
      ∗ cred (tallyAt (copyCell c 1 6) () (copyAmt 1))
      ∗ cred (tallyAt (copyCell c 2 6) () (copyAmt 2))
      ∗ cred (tallyAt (copyCell c 0 7) () (copyAmt 0))
      ∗ cred (tallyAt (copyCell c 1 7) () (copyAmt 1))
      ∗ Done43 m K c
      ∗ InitFrom45 m K c)) : sProp 𝕄)
    = iprop((cred (tallyAt (copyCell c 0 6) () (copyAmt 0))
      ∗ atPos ER (copyCell c 0 6) 0 ∅ 0
      ∗ (∃ W, owes (c : Thread nD τ) (Orem ((payList c).drop 27)) W)
      ∗ cred (tallyAt (copyCell c 0 7) () (copyAmt 0))
      ∗ atPos ER (copyCell c 0 7) 0 ∅ 0
      ∗ cred (tallyAt (copyCell c 1 6) () (copyAmt 1))
      ∗ atPos ER (copyCell c 1 6) 0 ∅ 0
      ∗ cred (tallyAt (copyCell c 1 7) () (copyAmt 1))
      ∗ atPos ER (copyCell c 1 7) 0 ∅ 0
      ∗ cred (tallyAt (copyCell c 2 6) () (copyAmt 2))
      ∗ atPos ER (copyCell c 2 6) 0 ∅ 0)
      ∗ (atPos ER (copyCell c 2 7) 0 ∅ 0
      ∗ cred (tallyAt (copyCell c 2 7) () (copyAmt 2))
      ∗ Done44 m K c)) := by
  unfold InitFrom45 Done44
  ac_rfl

set_option maxHeartbeats 2000000 in
theorem eq_step46 (c : Dev nD) :
    (iprop((atPos ER (copyCell c 0 6) 1 ∅ 0
      ∗ pieceDone m c 0 6
      ∗ stageAny c 0 0
      ∗ atPos ER (copyCell c 0 7) 1 ∅ 0
      ∗ pieceDone m c 0 7
      ∗ stageAny c 0 1
      ∗ atPos ER (copyCell c 1 6) 1 ∅ 0
      ∗ pieceDone m c 1 6
      ∗ stageAny c 1 0
      ∗ atPos ER (copyCell c 1 7) 1 ∅ 0
      ∗ pieceDone m c 1 7
      ∗ stageAny c 1 1
      ∗ (∃ W, owes (c : Thread nD τ) (Orem ((payList c).drop 27)) W)
      ∗ atPos ER (copyCell c 2 6) 1 ∅ 0
      ∗ pieceDone m c 2 6
      ∗ stageAny c 2 0)
      ∗ (atPos ER (copyCell c 2 7) 0 ∅ 0
      ∗ cred (tallyAt (copyCell c 2 7) () (copyAmt 2))
      ∗ Done44 m K c)) : sProp 𝕄)
    = iprop((cred (tallyAt (copyCell c 2 7) () (copyAmt 2))
      ∗ atPos ER (copyCell c 2 7) 0 ∅ 0
      ∗ (∃ W, owes (c : Thread nD τ) (Orem ((payList c).drop 27)) W))
      ∗ (Done45 m K c)) := by
  unfold Done45
  ac_rfl

set_option maxHeartbeats 2000000 in
theorem eq_end (c : Dev nD) :
    (iprop(records (Rd m) K ∗ ((∃ W, owes (c : Thread nD τ) (Orem ((payList c).drop 27)) W)
      ∗ atPos ER (copyCell c 2 7) 1 ∅ 0
      ∗ pieceDone m c 2 7
      ∗ stageAny c 2 1)
      ∗ (Done45 m K c)) : sProp 𝕄)
    = iprop(atPos ER (barCell c) 1 ∅ 0 ∗ FinalChain m K c) := by
  unfold FinalChain Done45 Done44 Done43 Done42 Done41 Done40 Done39 Done38 Done37 Done36 Done35 Done34 Done33 Done32 Done31 Done30 Done29 Done28 Done27 Done26 Done25 Done24 Done23 Done22 Done21 Done20 Done19 Done18 Done17 Done16 Done15 Done14 Done13 Done12 Done11 Done10 Done9 Done8 Done7 Done6 Done5 Done2 Done1
  ac_rfl

end Cert.KernelIdeal.DM
end
-- ==== Proof.PartSpecs.lean ====
/- GENERATED by: bun scratch/gen_partspecs.js "$KIT/certs/proofs/900891_g7700000000000892_dist_matmul_m_i_outrep_m1024_n1024_k512_v7x_i8_f32_1_alg" "proofs.«900891_g7700000000000892_dist_matmul_m_i_outrep_m1024_n1024_k512_v7x_i8_f32_1_alg».proof" (run from the unit directory; the script is filed beside this module): the
   statement of each printed part's run, as a table of the pieces of state its operations consume and leave. -/
import proofs.«900891_g7700000000000892_dist_matmul_m_i_outrep_m1024_n1024_k512_v7x_i8_f32_1_alg».proof.Proof.Atoms
set_option maxRecDepth 16384
noncomputable section
namespace Cert.KernelIdeal.DM
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (K : Dev nD × CIx → ℕ)

/-- The narrowed rows of the third group of the device's own block, before they are given their leading unit axis. -/
def rows2 (c : Dev nD) : FVec F S336x512 .bf16 :=
  k0_pay3 ((aM : Memref sig .tc .vmem S1024x512 .f32).view.readAt (Elt F) (Rect.unit (s := S1024x512) ![688, 0] S336x512.size inb_S1024x512_S336x512_688_0).toLoadRect (xstg m c))

/-- Part 1: the entry signal to neighbour 0; the entry signal to neighbour 1; the entry signal to neighbour 2; a load of rows of the left factor; the load of slot 0 of group 0 before it is filled; the fill of slot 0 of group 0; a load of rows of the left factor; the load of slot 0 of group 1 before it is filled; the fill of slot 0 of group 1; a load of rows of the left factor. -/
def Part1Spec : Prop :=
  ∀ (c : Dev nD)  (Kt : (Σ' (d0 : Dev nD) (v2 : BitVec 32) (v3 : Sems sig S_), FVec F S336x512 .bf16) → sProp 𝕄),
    iprop(records (Rd m) K ∗ levAts L lv
        ∗ dutyTok ER (barCell (xr c (dir 0))) 0 0
        ∗ dstAny c 0 0
        ∗ dstAny c 1 3
        ∗ dstAny c 1 4
        ∗ dstAny c 1 5
        ∗ dstAny c 1 6
        ∗ dstAny c 1 7
        ∗ dstAny c 2 1
        ∗ dstAny c 2 2
        ∗ (∃ W, owes (c : Thread nD τ) (Orem ((payList c).drop 0)) W)
        ∗ dutyTok ER (barCell (xr c (dir 1))) 0 1
        ∗ dstAny c 0 1
        ∗ dstAny c 0 2
        ∗ dstAny c 1 0
        ∗ dstAny c 2 3
        ∗ dstAny c 2 4
        ∗ dstAny c 2 5
        ∗ dstAny c 2 6
        ∗ dstAny c 2 7
        ∗ dutyTok ER (barCell (xr c (dir 2))) 0 2
        ∗ dstAny c 0 3
        ∗ dstAny c 0 4
        ∗ dstAny c 0 5
        ∗ dstAny c 0 6
        ∗ dstAny c 0 7
        ∗ dstAny c 1 1
        ∗ dstAny c 1 2
        ∗ dstAny c 2 0
        ∗ inA m c
        ∗ slotAny c 0 0
        ∗ slotAny c 1 0
        ∗ (∀ r : (Σ' (d0 : Dev nD) (v2 : BitVec 32) (v3 : Sems sig S_), FVec F S336x512 .bf16), ⌜r.1 = c ∧ r.2.2.1 = (SemArray.scalar (sig.barrier 0 rfl) : Sems sig S_) ∧ r.2.2.2 = rows2 m c⌝ -∗ iprop((∃ W, owes (c : Thread nD τ) (Orem ((payList c).drop 3)) W)
        ∗ inA m c
        ∗ slotHas m c 0 0 fullShare.left.left.left
        ∗ slotHas m c 0 0 fullShare.left.left.right
        ∗ slotHas m c 0 0 fullShare.left.right
        ∗ slotHas m c 0 0 fullShare.right
        ∗ slotHas m c 1 0 fullShare.left.left.left
        ∗ slotHas m c 1 0 fullShare.left.left.right
        ∗ slotHas m c 1 0 fullShare.left.right
        ∗ slotHas m c 1 0 fullShare.right) -∗ Kt r))
      ⊢ wp frame (wpE (defs₀ (F := F)) 𝒱₀ (c : Thread nD τ) none) Set.univ (k0_part1 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 ) Kt

/-- Part 2: the load of slot 0 of group 2 before it is filled; the fill of slot 0 of group 2; the barrier wait; the transfer of step 0 of group 0; the transfer of step 0 of group 1. -/
def Part2Spec : Prop :=
  ∀ (c : Dev nD) (v2 : BitVec 32) (Kt : (Σ' (v31 : BitVec 32) (v40 : BitVec 32), BitVec 32) → sProp 𝕄),
    iprop(records (Rd m) K ∗ levAts L lv
        ∗ slotAny c 2 0
        ∗ cred (tallyAt (barCell c) () 3)
        ∗ atPos ER (barCell c) 0 ∅ 0
        ∗ (∃ W, owes (c : Thread nD τ) (Orem ((payList c).drop 3)) W)
        ∗ slotHas m c 0 0 fullShare.left.left.left
        ∗ dutyTok ER (sendCell c 0 0) 0 0
        ∗ dutyTok ER (recvCell (partner c 0 0) 0 0) 0 0
        ∗ slotHas m c 1 0 fullShare.left.left.left
        ∗ dutyTok ER (sendCell c 1 0) 0 0
        ∗ dutyTok ER (recvCell (partner c 1 0) 1 0) 0 0
        ∗ (∀ r : (Σ' (v31 : BitVec 32) (v40 : BitVec 32), BitVec 32), iprop(slotHas m c 2 0 fullShare.left.left.left
        ∗ slotHas m c 2 0 fullShare.left.left.right
        ∗ slotHas m c 2 0 fullShare.left.right
        ∗ slotHas m c 2 0 fullShare.right
        ∗ atPos ER (barCell c) 1 ∅ 0
        ∗ dstAny (partner c 0 1) 0 1
        ∗ dstAny (partner c 0 2) 0 2
        ∗ dstAny (partner c 0 3) 0 3
        ∗ dstAny (partner c 0 4) 0 4
        ∗ dstAny (partner c 0 5) 0 5
        ∗ dstAny (partner c 0 6) 0 6
        ∗ dstAny (partner c 0 7) 0 7
        ∗ dstAny (partner c 1 1) 1 1
        ∗ dstAny (partner c 1 2) 1 2
        ∗ dstAny (partner c 1 3) 1 3
        ∗ dstAny (partner c 1 4) 1 4
        ∗ dstAny (partner c 1 5) 1 5
        ∗ dstAny (partner c 1 6) 1 6
        ∗ dstAny (partner c 1 7) 1 7
        ∗ dstAny (partner c 2 0) 2 0
        ∗ dstAny (partner c 2 1) 2 1
        ∗ dstAny (partner c 2 2) 2 2
        ∗ dstAny (partner c 2 3) 2 3
        ∗ dstAny (partner c 2 4) 2 4
        ∗ dstAny (partner c 2 5) 2 5
        ∗ dstAny (partner c 2 6) 2 6
        ∗ dstAny (partner c 2 7) 2 7
        ∗ cred (tallyAt (sendCell c 0 0) () (xferAmt 0 0))
        ∗ (∃ W, owes (c : Thread nD τ) (Orem ((payList c).drop 5)) W)
        ∗ cred (tallyAt (sendCell c 1 0) () (xferAmt 1 0))) -∗ Kt r))
      ⊢ wp frame (wpE (defs₀ (F := F)) 𝒱₀ (c : Thread nD τ) none) Set.univ (k0_part2 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 (SemArray.scalar (sig.barrier 0 rfl)) (rows2 m c)) Kt

/-- Part 3: the transfer of step 0 of group 2; the transfer of step 1 of group 0. -/
def Part3Spec : Prop :=
  ∀ (c : Dev nD) (v2 : BitVec 32) (v49 : BitVec 32) (Kt : (Σ' (v58 : BitVec 32), BitVec 32) → sProp 𝕄),
    iprop(records (Rd m) K ∗ levAts L lv
        ∗ slotHas m c 2 0 fullShare.left.left.left
        ∗ dstAny (partner c 2 0) 2 0
        ∗ dutyTok ER (sendCell c 2 0) 0 0
        ∗ dutyTok ER (recvCell (partner c 2 0) 2 0) 0 0
        ∗ (∃ W, owes (c : Thread nD τ) (Orem ((payList c).drop 5)) W)
        ∗ slotHas m c 0 0 fullShare.left.left.right
        ∗ dstAny (partner c 0 1) 0 1
        ∗ dutyTok ER (sendCell c 0 1) 0 0
        ∗ dutyTok ER (recvCell (partner c 0 1) 0 1) 0 0
        ∗ (∀ r : (Σ' (v58 : BitVec 32), BitVec 32), iprop(cred (tallyAt (sendCell c 2 0) () (xferAmt 2 0))
        ∗ (∃ W, owes (c : Thread nD τ) (Orem ((payList c).drop 7)) W)
        ∗ cred (tallyAt (sendCell c 0 1) () (xferAmt 0 1))) -∗ Kt r))
      ⊢ wp frame (wpE (defs₀ (F := F)) 𝒱₀ (c : Thread nD τ) none) Set.univ (k0_part3 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v49) Kt

/-- Part 4: the transfer of step 1 of group 1; the transfer of step 1 of group 2; the transfer of step 3 of group 0. -/
def Part4Spec : Prop :=
  ∀ (c : Dev nD) (v2 : BitVec 32) (Kt : (Σ' (v76 : BitVec 32) (v85 : BitVec 32) (v94 : BitVec 32) (v95 : BitVec 32), BitVec 32) → sProp 𝕄),
    iprop(records (Rd m) K ∗ levAts L lv
        ∗ slotHas m c 1 0 fullShare.left.left.right
        ∗ dstAny (partner c 1 1) 1 1
        ∗ dutyTok ER (sendCell c 1 1) 0 0
        ∗ dutyTok ER (recvCell (partner c 1 1) 1 1) 0 0
        ∗ (∃ W, owes (c : Thread nD τ) (Orem ((payList c).drop 7)) W)
        ∗ slotHas m c 2 0 fullShare.left.left.right
        ∗ dstAny (partner c 2 1) 2 1
        ∗ dutyTok ER (sendCell c 2 1) 0 0
        ∗ dutyTok ER (recvCell (partner c 2 1) 2 1) 0 0
        ∗ slotHas m c 0 0 fullShare.left.right
        ∗ dstAny (partner c 0 3) 0 3
        ∗ dutyTok ER (sendCell c 0 3) 0 0
        ∗ dutyTok ER (recvCell (partner c 0 3) 0 3) 0 0
        ∗ (∀ r : (Σ' (v76 : BitVec 32) (v85 : BitVec 32) (v94 : BitVec 32) (v95 : BitVec 32), BitVec 32), iprop(cred (tallyAt (sendCell c 1 1) () (xferAmt 1 1))
        ∗ cred (tallyAt (sendCell c 2 1) () (xferAmt 2 1))
        ∗ (∃ W, owes (c : Thread nD τ) (Orem ((payList c).drop 10)) W)
        ∗ cred (tallyAt (sendCell c 0 3) () (xferAmt 0 3))) -∗ Kt r))
      ⊢ wp frame (wpE (defs₀ (F := F)) 𝒱₀ (c : Thread nD τ) none) Set.univ (k0_part4 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 5: the transfer of step 3 of group 1; the transfer of step 3 of group 2; the load of the right factor; the load of the narrowed right factor's buffer before it is filled; the fill of the narrowed right factor; the load of slot 0 of group 0; a load of the narrowed right factor. -/
def Part5Spec : Prop :=
  ∀ (c : Dev nD) (v2 : BitVec 32) (v95 : BitVec 32) (c0_i32_118 : BitVec 32) (Kt : (Σ' (v103 : BitVec 32), FVec F S352x1024 .f32) → sProp 𝕄),
    iprop(records (Rd m) K ∗ levAts L lv
        ∗ slotHas m c 1 0 fullShare.left.right
        ∗ dstAny (partner c 1 3) 1 3
        ∗ dutyTok ER (sendCell c 1 3) 0 0
        ∗ dutyTok ER (recvCell (partner c 1 3) 1 3) 0 0
        ∗ (∃ W, owes (c : Thread nD τ) (Orem ((payList c).drop 10)) W)
        ∗ slotHas m c 2 0 fullShare.left.right
        ∗ dstAny (partner c 2 3) 2 3
        ∗ dutyTok ER (sendCell c 2 3) 0 0
        ∗ dutyTok ER (recvCell (partner c 2 3) 2 3) 0 0
        ∗ inB m c
        ∗ anyPts c b16M
        ∗ slotHas m c 0 0 fullShare.right
        ∗ (∀ r : (Σ' (v103 : BitVec 32), FVec F S352x1024 .f32), ⌜r.2 = prod352 (sv0 m (xr c (mask 0 0))) (bv m c)⌝ -∗ iprop(cred (tallyAt (sendCell c 1 3) () (xferAmt 1 3))
        ∗ (∃ W, owes (c : Thread nD τ) (Orem ((payList c).drop 12)) W)
        ∗ cred (tallyAt (sendCell c 2 3) () (xferAmt 2 3))
        ∗ inB m c
        ∗ holdsPts c b16M fullShare (bv m c)
        ∗ slotHas m c 0 0 fullShare.right) -∗ Kt r))
      ⊢ wp frame (wpE (defs₀ (F := F)) 𝒱₀ (c : Thread nD τ) none) Set.univ (k0_part5 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v95 c0_i32_118) Kt

/-- Part 6: the load of stage slot 0 of group 0 before its store; the store of product block 0 of group 0; the copy of product block 0 of group 0 into the result; the load of slot 0 of group 1; a load of the narrowed right factor; the load of stage slot 0 of group 1 before its store; the store of product block 0 of group 1; the copy of product block 0 of group 1 into the result. -/
def Part6Spec : Prop :=
  ∀ (c : Dev nD) (v2 : BitVec 32) (Kt : (PUnit) → sProp 𝕄),
    iprop(records (Rd m) K ∗ levAts L lv
        ∗ stageAny c 0 0
        ∗ pieceAny c 0 0
        ∗ dutyTok ER (copyCell c 0 0) 0 0
        ∗ slotHas m c 1 0 fullShare.right
        ∗ holdsPts c b16M fullShare (bv m c)
        ∗ stageAny c 1 0
        ∗ pieceAny c 1 0
        ∗ dutyTok ER (copyCell c 1 0) 0 0
        ∗ (∀ r : (PUnit), iprop(cred (tallyAt (copyCell c 0 0) () (copyAmt 0))
        ∗ slotHas m c 1 0 fullShare.right
        ∗ holdsPts c b16M fullShare (bv m c)
        ∗ cred (tallyAt (copyCell c 1 0) () (copyAmt 1))) -∗ Kt r))
      ⊢ wp frame (wpE (defs₀ (F := F)) 𝒱₀ (c : Thread nD τ) none) Set.univ (k0_part6 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 (prod352 (sv0 m (xr c (mask 0 0))) (bv m c))) Kt

/-- Part 7: the load of slot 0 of group 2; a load of the narrowed right factor; the load of stage slot 0 of group 2 before its store; the store of product block 0 of group 2; the copy of product block 0 of group 2 into the result; the wait on the send cell 0 of group 0. -/
def Part7Spec : Prop :=
  ∀ (c : Dev nD) (v2 : BitVec 32) (v31 : BitVec 32) (Kt : (PUnit) → sProp 𝕄),
    iprop(records (Rd m) K ∗ levAts L lv
        ∗ slotHas m c 2 0 fullShare.right
        ∗ holdsPts c b16M fullShare (bv m c)
        ∗ stageAny c 2 0
        ∗ pieceAny c 2 0
        ∗ dutyTok ER (copyCell c 2 0) 0 0
        ∗ cred (tallyAt (sendCell c 0 0) () (xferAmt 0 0))
        ∗ atPos ER (sendCell c 0 0) 0 ∅ 0
        ∗ (∃ W, owes (c : Thread nD τ) (Orem ((payList c).drop 12)) W)
        ∗ (∀ r : (PUnit), iprop(slotHas m c 2 0 fullShare.right
        ∗ holdsPts c b16M fullShare (bv m c)
        ∗ cred (tallyAt (copyCell c 2 0) () (copyAmt 2))
        ∗ (∃ W, owes (c : Thread nD τ) (Orem ((payList c).drop 12)) W)
        ∗ atPos ER (sendCell c 0 0) 1 ∅ 0
        ∗ slotHas m c 0 0 fullShare.left.left.left) -∗ Kt r))
      ⊢ wp frame (wpE (defs₀ (F := F)) 𝒱₀ (c : Thread nD τ) none) Set.univ (k0_part7 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v31) Kt

/-- Part 8: the wait on the recv cell 0 of group 0; the transfer of step 2 of group 0; the transfer of step 4 of group 0. -/
def Part8Spec : Prop :=
  ∀ (c : Dev nD) (v2 : BitVec 32) (Kt : (Σ' (v173 : BitVec 32), BitVec 32) → sProp 𝕄),
    iprop(records (Rd m) K ∗ levAts L lv
        ∗ cred (tallyAt (recvCell c 0 0) () (xferAmt 0 0))
        ∗ atPos ER (recvCell c 0 0) 0 ∅ 0
        ∗ (∃ W, owes (c : Thread nD τ) (Orem ((payList c).drop 12)) W)
        ∗ dstAny (partner c 0 2) 0 2
        ∗ dutyTok ER (sendCell c 0 2) 0 0
        ∗ dutyTok ER (recvCell (partner c 0 2) 0 2) 0 0
        ∗ dstAny (partner c 0 4) 0 4
        ∗ dutyTok ER (sendCell c 0 4) 0 0
        ∗ dutyTok ER (recvCell (partner c 0 4) 0 4) 0 0
        ∗ (∀ r : (Σ' (v173 : BitVec 32), BitVec 32), iprop(atPos ER (recvCell c 0 0) 1 ∅ 0
        ∗ slotHas m c 0 1 fullShare.right
        ∗ cred (tallyAt (sendCell c 0 2) () (xferAmt 0 2))
        ∗ (∃ W, owes (c : Thread nD τ) (Orem ((payList c).drop 14)) W)
        ∗ cred (tallyAt (sendCell c 0 4) () (xferAmt 0 4))) -∗ Kt r))
      ⊢ wp frame (wpE (defs₀ (F := F)) 𝒱₀ (c : Thread nD τ) none) Set.univ (k0_part8 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 9: the wait on the send cell 0 of group 1; the wait on the recv cell 0 of group 1; the transfer of step 2 of group 1. -/
def Part9Spec : Prop :=
  ∀ (c : Dev nD) (v2 : BitVec 32) (v40 : BitVec 32) (Kt : (Σ' (v201 : BitVec 32) (v210 : BitVec 32), BitVec 32) → sProp 𝕄),
    iprop(records (Rd m) K ∗ levAts L lv
        ∗ cred (tallyAt (sendCell c 1 0) () (xferAmt 1 0))
        ∗ atPos ER (sendCell c 1 0) 0 ∅ 0
        ∗ (∃ W, owes (c : Thread nD τ) (Orem ((payList c).drop 14)) W)
        ∗ cred (tallyAt (recvCell c 1 0) () (xferAmt 1 0))
        ∗ atPos ER (recvCell c 1 0) 0 ∅ 0
        ∗ dstAny (partner c 1 2) 1 2
        ∗ dutyTok ER (sendCell c 1 2) 0 0
        ∗ dutyTok ER (recvCell (partner c 1 2) 1 2) 0 0
        ∗ (∀ r : (Σ' (v201 : BitVec 32) (v210 : BitVec 32), BitVec 32), iprop(atPos ER (sendCell c 1 0) 1 ∅ 0
        ∗ slotHas m c 1 0 fullShare.left.left.left
        ∗ atPos ER (recvCell c 1 0) 1 ∅ 0
        ∗ slotHas m c 1 1 fullShare.left.right
        ∗ slotHas m c 1 1 fullShare.right
        ∗ (∃ W, owes (c : Thread nD τ) (Orem ((payList c).drop 15)) W)
        ∗ cred (tallyAt (sendCell c 1 2) () (xferAmt 1 2))) -∗ Kt r))
      ⊢ wp frame (wpE (defs₀ (F := F)) 𝒱₀ (c : Thread nD τ) none) Set.univ (k0_part9 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v40) Kt

/-- Part 10: the transfer of step 4 of group 1; the wait on the send cell 0 of group 2; the wait on the recv cell 0 of group 2. -/
def Part10Spec : Prop :=
  ∀ (c : Dev nD) (v2 : BitVec 32) (v49 : BitVec 32) (v211 : BitVec 32) (Kt : (BitVec 32) → sProp 𝕄),
    iprop(records (Rd m) K ∗ levAts L lv
        ∗ slotHas m c 1 1 fullShare.left.right
        ∗ dstAny (partner c 1 4) 1 4
        ∗ dutyTok ER (sendCell c 1 4) 0 0
        ∗ dutyTok ER (recvCell (partner c 1 4) 1 4) 0 0
        ∗ (∃ W, owes (c : Thread nD τ) (Orem ((payList c).drop 15)) W)
        ∗ cred (tallyAt (sendCell c 2 0) () (xferAmt 2 0))
        ∗ atPos ER (sendCell c 2 0) 0 ∅ 0
        ∗ cred (tallyAt (recvCell c 2 0) () (xferAmt 2 0))
        ∗ atPos ER (recvCell c 2 0) 0 ∅ 0
        ∗ (∀ r : (BitVec 32), iprop(cred (tallyAt (sendCell c 1 4) () (xferAmt 1 4))
        ∗ atPos ER (sendCell c 2 0) 1 ∅ 0
        ∗ slotHas m c 2 0 fullShare.left.left.left
        ∗ (∃ W, owes (c : Thread nD τ) (Orem ((payList c).drop 16)) W)
        ∗ atPos ER (recvCell c 2 0) 1 ∅ 0
        ∗ slotHas m c 2 1 fullShare.left.left
        ∗ slotHas m c 2 1 fullShare.left.right
        ∗ slotHas m c 2 1 fullShare.right) -∗ Kt r))
      ⊢ wp frame (wpE (defs₀ (F := F)) 𝒱₀ (c : Thread nD τ) none) Set.univ (k0_part10 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v49 v211) Kt

/-- Part 11: the transfer of step 2 of group 2; the transfer of step 4 of group 2; the load of slot 1 of group 0; a load of the narrowed right factor; the load of stage slot 1 of group 0 before its store; the store of product block 1 of group 0. -/
def Part11Spec : Prop :=
  ∀ (c : Dev nD) (v2 : BitVec 32) (Kt : (BitVec 32) → sProp 𝕄),
    iprop(records (Rd m) K ∗ levAts L lv
        ∗ slotHas m c 2 1 fullShare.left.left
        ∗ dstAny (partner c 2 2) 2 2
        ∗ dutyTok ER (sendCell c 2 2) 0 0
        ∗ dutyTok ER (recvCell (partner c 2 2) 2 2) 0 0
        ∗ (∃ W, owes (c : Thread nD τ) (Orem ((payList c).drop 16)) W)
        ∗ slotHas m c 2 1 fullShare.left.right
        ∗ dstAny (partner c 2 4) 2 4
        ∗ dutyTok ER (sendCell c 2 4) 0 0
        ∗ dutyTok ER (recvCell (partner c 2 4) 2 4) 0 0
        ∗ slotHas m c 0 1 fullShare.right
        ∗ holdsPts c b16M fullShare (bv m c)
        ∗ stageAny c 0 1
        ∗ (∀ r : (BitVec 32), iprop(cred (tallyAt (sendCell c 2 2) () (xferAmt 2 2))
        ∗ (∃ W, owes (c : Thread nD τ) (Orem ((payList c).drop 18)) W)
        ∗ cred (tallyAt (sendCell c 2 4) () (xferAmt 2 4))
        ∗ slotHas m c 0 1 fullShare.right
        ∗ holdsPts c b16M fullShare (bv m c)
        ∗ stageHas m c 0 1) -∗ Kt r))
      ⊢ wp frame (wpE (defs₀ (F := F)) 𝒱₀ (c : Thread nD τ) none) Set.univ (k0_part11 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 12: the copy of product block 1 of group 0 into the result; the load of slot 1 of group 1; a load of the narrowed right factor; the load of stage slot 1 of group 1 before its store; the store of product block 1 of group 1; the copy of product block 1 of group 1 into the result; the load of slot 1 of group 2; a load of the narrowed right factor; the load of stage slot 1 of group 2 before its store. -/
def Part12Spec : Prop :=
  ∀ (c : Dev nD) (v2 : BitVec 32) (Kt : (Σ' (v280 : FVec F S336x1024 .f32), Vec F S1x336x1024 .f32) → sProp 𝕄),
    iprop(records (Rd m) K ∗ levAts L lv
        ∗ stageHas m c 0 1
        ∗ pieceAny c 0 1
        ∗ dutyTok ER (copyCell c 0 1) 0 0
        ∗ slotHas m c 1 1 fullShare.right
        ∗ holdsPts c b16M fullShare (bv m c)
        ∗ stageAny c 1 1
        ∗ pieceAny c 1 1
        ∗ dutyTok ER (copyCell c 1 1) 0 0
        ∗ slotHas m c 2 1 fullShare.right
        ∗ stageAny c 2 1
        ∗ (∀ r : (Σ' (v280 : FVec F S336x1024 .f32), Vec F S1x336x1024 .f32), ⌜r.1 = prod336 (sv2 m (xr c (mask 2 1))) (bv m c)⌝ -∗ iprop(cred (tallyAt (copyCell c 0 1) () (copyAmt 0))
        ∗ slotHas m c 1 1 fullShare.right
        ∗ holdsPts c b16M fullShare (bv m c)
        ∗ cred (tallyAt (copyCell c 1 1) () (copyAmt 1))
        ∗ slotHas m c 2 1 fullShare.right
        ∗ stageAny c 2 1) -∗ Kt r))
      ⊢ wp frame (wpE (defs₀ (F := F)) 𝒱₀ (c : Thread nD τ) none) Set.univ (k0_part12 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 13: the store of product block 1 of group 2; the copy of product block 1 of group 2 into the result; the wait on the send cell 1 of group 0; the wait on the recv cell 1 of group 0. -/
def Part13Spec : Prop :=
  ∀ (c : Dev nD) (v2 : BitVec 32) (v58 : BitVec 32) (v281 : Vec F S1x336x1024 .f32) (Kt : (BitVec 32) → sProp 𝕄),
    iprop(records (Rd m) K ∗ levAts L lv
        ∗ stageAny c 2 1
        ∗ pieceAny c 2 1
        ∗ dutyTok ER (copyCell c 2 1) 0 0
        ∗ cred (tallyAt (sendCell c 0 1) () (xferAmt 0 1))
        ∗ atPos ER (sendCell c 0 1) 0 ∅ 0
        ∗ (∃ W, owes (c : Thread nD τ) (Orem ((payList c).drop 18)) W)
        ∗ cred (tallyAt (recvCell c 0 1) () (xferAmt 0 1))
        ∗ atPos ER (recvCell c 0 1) 0 ∅ 0
        ∗ (∀ r : (BitVec 32), iprop(cred (tallyAt (copyCell c 2 1) () (copyAmt 2))
        ∗ atPos ER (sendCell c 0 1) 1 ∅ 0
        ∗ slotHas m c 0 0 fullShare.left.left.right
        ∗ (∃ W, owes (c : Thread nD τ) (Orem ((payList c).drop 18)) W)
        ∗ atPos ER (recvCell c 0 1) 1 ∅ 0
        ∗ slotHas m c 0 2 fullShare.left
        ∗ slotHas m c 0 2 fullShare.right) -∗ Kt r))
      ⊢ wp frame (wpE (defs₀ (F := F)) 𝒱₀ (c : Thread nD τ) none) Set.univ (k0_part13 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v58 (prod336 (sv2 m (xr c (mask 2 1))) (bv m c)) v281) Kt

/-- Part 14: the transfer of step 5 of group 0; the wait on the send cell 1 of group 1; the wait on the recv cell 1 of group 1. -/
def Part14Spec : Prop :=
  ∀ (c : Dev nD) (v2 : BitVec 32) (v67 : BitVec 32) (v302 : BitVec 32) (Kt : (BitVec 32) → sProp 𝕄),
    iprop(records (Rd m) K ∗ levAts L lv
        ∗ slotHas m c 0 2 fullShare.left
        ∗ dstAny (partner c 0 5) 0 5
        ∗ dutyTok ER (sendCell c 0 5) 0 0
        ∗ dutyTok ER (recvCell (partner c 0 5) 0 5) 0 0
        ∗ (∃ W, owes (c : Thread nD τ) (Orem ((payList c).drop 18)) W)
        ∗ cred (tallyAt (sendCell c 1 1) () (xferAmt 1 1))
        ∗ atPos ER (sendCell c 1 1) 0 ∅ 0
        ∗ cred (tallyAt (recvCell c 1 1) () (xferAmt 1 1))
        ∗ atPos ER (recvCell c 1 1) 0 ∅ 0
        ∗ (∀ r : (BitVec 32), iprop(cred (tallyAt (sendCell c 0 5) () (xferAmt 0 5))
        ∗ atPos ER (sendCell c 1 1) 1 ∅ 0
        ∗ slotHas m c 1 0 fullShare.left.left.right
        ∗ (∃ W, owes (c : Thread nD τ) (Orem ((payList c).drop 19)) W)
        ∗ atPos ER (recvCell c 1 1) 1 ∅ 0
        ∗ slotHas m c 1 2 fullShare.left
        ∗ slotHas m c 1 2 fullShare.right) -∗ Kt r))
      ⊢ wp frame (wpE (defs₀ (F := F)) 𝒱₀ (c : Thread nD τ) none) Set.univ (k0_part14 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v67 v302) Kt

/-- Part 15: the transfer of step 5 of group 1; the wait on the send cell 1 of group 2; the wait on the recv cell 1 of group 2. -/
def Part15Spec : Prop :=
  ∀ (c : Dev nD) (v2 : BitVec 32) (v76 : BitVec 32) (v321 : BitVec 32) (Kt : (Σ' (v340 : BitVec 32), BitVec 32) → sProp 𝕄),
    iprop(records (Rd m) K ∗ levAts L lv
        ∗ slotHas m c 1 2 fullShare.left
        ∗ dstAny (partner c 1 5) 1 5
        ∗ dutyTok ER (sendCell c 1 5) 0 0
        ∗ dutyTok ER (recvCell (partner c 1 5) 1 5) 0 0
        ∗ (∃ W, owes (c : Thread nD τ) (Orem ((payList c).drop 19)) W)
        ∗ cred (tallyAt (sendCell c 2 1) () (xferAmt 2 1))
        ∗ atPos ER (sendCell c 2 1) 0 ∅ 0
        ∗ cred (tallyAt (recvCell c 2 1) () (xferAmt 2 1))
        ∗ atPos ER (recvCell c 2 1) 0 ∅ 0
        ∗ (∀ r : (Σ' (v340 : BitVec 32), BitVec 32), iprop(cred (tallyAt (sendCell c 1 5) () (xferAmt 1 5))
        ∗ atPos ER (sendCell c 2 1) 1 ∅ 0
        ∗ slotHas m c 2 0 fullShare.left.left.right
        ∗ (∃ W, owes (c : Thread nD τ) (Orem ((payList c).drop 20)) W)
        ∗ atPos ER (recvCell c 2 1) 1 ∅ 0
        ∗ slotHas m c 2 2 fullShare.left
        ∗ slotHas m c 2 2 fullShare.right) -∗ Kt r))
      ⊢ wp frame (wpE (defs₀ (F := F)) 𝒱₀ (c : Thread nD τ) none) Set.univ (k0_part15 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v76 v321) Kt

/-- Part 16: the transfer of step 5 of group 2; the wait on the copy cell 0 of group 0; the load of slot 2 of group 0; a load of the narrowed right factor; the load of stage slot 0 of group 0 before its store; the store of product block 2 of group 0. -/
def Part16Spec : Prop :=
  ∀ (c : Dev nD) (v2 : BitVec 32) (v341 : BitVec 32) (Kt : (PUnit) → sProp 𝕄),
    iprop(records (Rd m) K ∗ levAts L lv
        ∗ slotHas m c 2 2 fullShare.left
        ∗ dstAny (partner c 2 5) 2 5
        ∗ dutyTok ER (sendCell c 2 5) 0 0
        ∗ dutyTok ER (recvCell (partner c 2 5) 2 5) 0 0
        ∗ (∃ W, owes (c : Thread nD τ) (Orem ((payList c).drop 20)) W)
        ∗ cred (tallyAt (copyCell c 0 0) () (copyAmt 0))
        ∗ atPos ER (copyCell c 0 0) 0 ∅ 0
        ∗ slotHas m c 0 2 fullShare.right
        ∗ holdsPts c b16M fullShare (bv m c)
        ∗ (∀ r : (PUnit), iprop(cred (tallyAt (sendCell c 2 5) () (xferAmt 2 5))
        ∗ (∃ W, owes (c : Thread nD τ) (Orem ((payList c).drop 21)) W)
        ∗ atPos ER (copyCell c 0 0) 1 ∅ 0
        ∗ pieceDone m c 0 0
        ∗ slotHas m c 0 2 fullShare.right
        ∗ holdsPts c b16M fullShare (bv m c)
        ∗ stageHas m c 0 2) -∗ Kt r))
      ⊢ wp frame (wpE (defs₀ (F := F)) 𝒱₀ (c : Thread nD τ) none) Set.univ (k0_part16 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v341) Kt

/-- Part 17: the copy of product block 2 of group 0 into the result; the wait on the copy cell 0 of group 1; the load of slot 2 of group 1; a load of the narrowed right factor; the load of stage slot 0 of group 1 before its store; the store of product block 2 of group 1; the copy of product block 2 of group 1 into the result. -/
def Part17Spec : Prop :=
  ∀ (c : Dev nD) (v2 : BitVec 32) (Kt : (PUnit) → sProp 𝕄),
    iprop(records (Rd m) K ∗ levAts L lv
        ∗ stageHas m c 0 2
        ∗ pieceAny c 0 2
        ∗ dutyTok ER (copyCell c 0 2) 0 0
        ∗ cred (tallyAt (copyCell c 1 0) () (copyAmt 1))
        ∗ atPos ER (copyCell c 1 0) 0 ∅ 0
        ∗ (∃ W, owes (c : Thread nD τ) (Orem ((payList c).drop 21)) W)
        ∗ slotHas m c 1 2 fullShare.right
        ∗ holdsPts c b16M fullShare (bv m c)
        ∗ pieceAny c 1 2
        ∗ dutyTok ER (copyCell c 1 2) 0 0
        ∗ (∀ r : (PUnit), iprop(cred (tallyAt (copyCell c 0 2) () (copyAmt 0))
        ∗ (∃ W, owes (c : Thread nD τ) (Orem ((payList c).drop 21)) W)
        ∗ atPos ER (copyCell c 1 0) 1 ∅ 0
        ∗ pieceDone m c 1 0
        ∗ slotHas m c 1 2 fullShare.right
        ∗ holdsPts c b16M fullShare (bv m c)
        ∗ cred (tallyAt (copyCell c 1 2) () (copyAmt 1))) -∗ Kt r))
      ⊢ wp frame (wpE (defs₀ (F := F)) 𝒱₀ (c : Thread nD τ) none) Set.univ (k0_part17 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 18: the wait on the copy cell 0 of group 2; the load of slot 2 of group 2; a load of the narrowed right factor; the load of stage slot 0 of group 2 before its store; the store of product block 2 of group 2; the copy of product block 2 of group 2 into the result; the wait on the send cell 3 of group 0. -/
def Part18Spec : Prop :=
  ∀ (c : Dev nD) (v2 : BitVec 32) (Kt : (BitVec 32) → sProp 𝕄),
    iprop(records (Rd m) K ∗ levAts L lv
        ∗ cred (tallyAt (copyCell c 2 0) () (copyAmt 2))
        ∗ atPos ER (copyCell c 2 0) 0 ∅ 0
        ∗ (∃ W, owes (c : Thread nD τ) (Orem ((payList c).drop 21)) W)
        ∗ slotHas m c 2 2 fullShare.right
        ∗ holdsPts c b16M fullShare (bv m c)
        ∗ pieceAny c 2 2
        ∗ dutyTok ER (copyCell c 2 2) 0 0
        ∗ cred (tallyAt (sendCell c 0 3) () (xferAmt 0 3))
        ∗ atPos ER (sendCell c 0 3) 0 ∅ 0
        ∗ (∀ r : (BitVec 32), iprop(atPos ER (copyCell c 2 0) 1 ∅ 0
        ∗ pieceDone m c 2 0
        ∗ slotHas m c 2 2 fullShare.right
        ∗ holdsPts c b16M fullShare (bv m c)
        ∗ cred (tallyAt (copyCell c 2 2) () (copyAmt 2))
        ∗ (∃ W, owes (c : Thread nD τ) (Orem ((payList c).drop 21)) W)
        ∗ atPos ER (sendCell c 0 3) 1 ∅ 0
        ∗ slotHas m c 0 0 fullShare.left.right) -∗ Kt r))
      ⊢ wp frame (wpE (defs₀ (F := F)) 𝒱₀ (c : Thread nD τ) none) Set.univ (k0_part18 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 19: the wait on the recv cell 3 of group 0; the wait on the copy cell 2 of group 0; the load of slot 4 of group 0; a load of the narrowed right factor; the load of stage slot 0 of group 0 before its store; the store of product block 4 of group 0. -/
def Part19Spec : Prop :=
  ∀ (c : Dev nD) (v2 : BitVec 32) (v85 : BitVec 32) (c1_i32_587 : BitVec 32) (Kt : (PUnit) → sProp 𝕄),
    iprop(records (Rd m) K ∗ levAts L lv
        ∗ cred (tallyAt (recvCell c 0 3) () (xferAmt 0 3))
        ∗ atPos ER (recvCell c 0 3) 0 ∅ 0
        ∗ (∃ W, owes (c : Thread nD τ) (Orem ((payList c).drop 21)) W)
        ∗ cred (tallyAt (copyCell c 0 2) () (copyAmt 0))
        ∗ atPos ER (copyCell c 0 2) 0 ∅ 0
        ∗ holdsPts c b16M fullShare (bv m c)
        ∗ (∀ r : (PUnit), iprop(atPos ER (recvCell c 0 3) 1 ∅ 0
        ∗ slotHas m c 0 4 fullShare
        ∗ (∃ W, owes (c : Thread nD τ) (Orem ((payList c).drop 21)) W)
        ∗ atPos ER (copyCell c 0 2) 1 ∅ 0
        ∗ pieceDone m c 0 2
        ∗ holdsPts c b16M fullShare (bv m c)
        ∗ stageHas m c 0 4) -∗ Kt r))
      ⊢ wp frame (wpE (defs₀ (F := F)) 𝒱₀ (c : Thread nD τ) none) Set.univ (k0_part19 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v85 c1_i32_587) Kt

/-- Part 20: the copy of product block 4 of group 0 into the result; the wait on the send cell 3 of group 1; the wait on the recv cell 3 of group 1; the wait on the copy cell 2 of group 1; the load of slot 4 of group 1; a load of the narrowed right factor. -/
def Part20Spec : Prop :=
  ∀ (c : Dev nD) (v94 : BitVec 32) (Kt : (FVec F S336x1024 .f32) → sProp 𝕄),
    iprop(records (Rd m) K ∗ levAts L lv
        ∗ stageHas m c 0 4
        ∗ pieceAny c 0 4
        ∗ dutyTok ER (copyCell c 0 4) 0 0
        ∗ cred (tallyAt (sendCell c 1 3) () (xferAmt 1 3))
        ∗ atPos ER (sendCell c 1 3) 0 ∅ 0
        ∗ (∃ W, owes (c : Thread nD τ) (Orem ((payList c).drop 21)) W)
        ∗ cred (tallyAt (recvCell c 1 3) () (xferAmt 1 3))
        ∗ atPos ER (recvCell c 1 3) 0 ∅ 0
        ∗ cred (tallyAt (copyCell c 1 2) () (copyAmt 1))
        ∗ atPos ER (copyCell c 1 2) 0 ∅ 0
        ∗ holdsPts c b16M fullShare (bv m c)
        ∗ (∀ r : (FVec F S336x1024 .f32), ⌜r = prod336 (sv1 m (xr c (mask 1 4))) (bv m c)⌝ -∗ iprop(cred (tallyAt (copyCell c 0 4) () (copyAmt 0))
        ∗ atPos ER (sendCell c 1 3) 1 ∅ 0
        ∗ slotHas m c 1 0 fullShare.left.right
        ∗ atPos ER (recvCell c 1 3) 1 ∅ 0
        ∗ slotHas m c 1 4 fullShare
        ∗ (∃ W, owes (c : Thread nD τ) (Orem ((payList c).drop 21)) W)
        ∗ atPos ER (copyCell c 1 2) 1 ∅ 0
        ∗ pieceDone m c 1 2
        ∗ stageAny c 1 0
        ∗ holdsPts c b16M fullShare (bv m c)) -∗ Kt r))
      ⊢ wp frame (wpE (defs₀ (F := F)) 𝒱₀ (c : Thread nD τ) none) Set.univ (k0_part20 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v94) Kt

/-- Part 21: the load of stage slot 0 of group 1 before its store; the store of product block 4 of group 1; the copy of product block 4 of group 1 into the result; the wait on the send cell 3 of group 2; the wait on the recv cell 3 of group 2. -/
def Part21Spec : Prop :=
  ∀ (c : Dev nD) (v2 : BitVec 32) (v103 : BitVec 32) (Kt : (PUnit) → sProp 𝕄),
    iprop(records (Rd m) K ∗ levAts L lv
        ∗ stageAny c 1 0
        ∗ pieceAny c 1 4
        ∗ dutyTok ER (copyCell c 1 4) 0 0
        ∗ cred (tallyAt (sendCell c 2 3) () (xferAmt 2 3))
        ∗ atPos ER (sendCell c 2 3) 0 ∅ 0
        ∗ (∃ W, owes (c : Thread nD τ) (Orem ((payList c).drop 21)) W)
        ∗ cred (tallyAt (recvCell c 2 3) () (xferAmt 2 3))
        ∗ atPos ER (recvCell c 2 3) 0 ∅ 0
        ∗ (∀ r : (PUnit), iprop(cred (tallyAt (copyCell c 1 4) () (copyAmt 1))
        ∗ atPos ER (sendCell c 2 3) 1 ∅ 0
        ∗ slotHas m c 2 0 fullShare.left.right
        ∗ (∃ W, owes (c : Thread nD τ) (Orem ((payList c).drop 21)) W)
        ∗ atPos ER (recvCell c 2 3) 1 ∅ 0
        ∗ slotHas m c 2 4 fullShare) -∗ Kt r))
      ⊢ wp frame (wpE (defs₀ (F := F)) 𝒱₀ (c : Thread nD τ) none) Set.univ (k0_part21 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v103 (prod336 (sv1 m (xr c (mask 1 4))) (bv m c))) Kt

/-- Part 22: the wait on the copy cell 2 of group 2; the load of slot 4 of group 2; a load of the narrowed right factor; the load of stage slot 0 of group 2 before its store; the store of product block 4 of group 2; the copy of product block 4 of group 2 into the result. -/
def Part22Spec : Prop :=
  ∀ (c : Dev nD) (v2 : BitVec 32) (Kt : (PUnit) → sProp 𝕄),
    iprop(records (Rd m) K ∗ levAts L lv
        ∗ cred (tallyAt (copyCell c 2 2) () (copyAmt 2))
        ∗ atPos ER (copyCell c 2 2) 0 ∅ 0
        ∗ (∃ W, owes (c : Thread nD τ) (Orem ((payList c).drop 21)) W)
        ∗ slotHas m c 2 4 fullShare
        ∗ holdsPts c b16M fullShare (bv m c)
        ∗ pieceAny c 2 4
        ∗ dutyTok ER (copyCell c 2 4) 0 0
        ∗ (∀ r : (PUnit), iprop((∃ W, owes (c : Thread nD τ) (Orem ((payList c).drop 21)) W)
        ∗ atPos ER (copyCell c 2 2) 1 ∅ 0
        ∗ pieceDone m c 2 2
        ∗ slotHas m c 2 4 fullShare
        ∗ holdsPts c b16M fullShare (bv m c)
        ∗ cred (tallyAt (copyCell c 2 4) () (copyAmt 2))) -∗ Kt r))
      ⊢ wp frame (wpE (defs₀ (F := F)) 𝒱₀ (c : Thread nD τ) none) Set.univ (k0_part22 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 23: the wait on the send cell 2 of group 0; the wait on the recv cell 2 of group 0; the transfer of step 6 of group 0. -/
def Part23Spec : Prop :=
  ∀ (c : Dev nD) (v2 : BitVec 32) (v173 : BitVec 32) (Kt : (Σ' (v509 : BitVec 32), BitVec 32) → sProp 𝕄),
    iprop(records (Rd m) K ∗ levAts L lv
        ∗ cred (tallyAt (sendCell c 0 2) () (xferAmt 0 2))
        ∗ atPos ER (sendCell c 0 2) 0 ∅ 0
        ∗ (∃ W, owes (c : Thread nD τ) (Orem ((payList c).drop 21)) W)
        ∗ cred (tallyAt (recvCell c 0 2) () (xferAmt 0 2))
        ∗ atPos ER (recvCell c 0 2) 0 ∅ 0
        ∗ dstAny (partner c 0 6) 0 6
        ∗ dutyTok ER (sendCell c 0 6) 0 0
        ∗ dutyTok ER (recvCell (partner c 0 6) 0 6) 0 0
        ∗ (∀ r : (Σ' (v509 : BitVec 32), BitVec 32), iprop(atPos ER (sendCell c 0 2) 1 ∅ 0
        ∗ slotHas m c 0 1 fullShare.left.left
        ∗ atPos ER (recvCell c 0 2) 1 ∅ 0
        ∗ slotBot m c 0 3 fullShare.left
        ∗ slotHas m c 0 3 fullShare.right
        ∗ (∃ W, owes (c : Thread nD τ) (Orem ((payList c).drop 22)) W)
        ∗ cred (tallyAt (sendCell c 0 6) () (xferAmt 0 6))) -∗ Kt r))
      ⊢ wp frame (wpE (defs₀ (F := F)) 𝒱₀ (c : Thread nD τ) none) Set.univ (k0_part23 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v173) Kt

/-- Part 24: the transfer of step 7 of group 0; the wait on the send cell 2 of group 1; the wait on the recv cell 2 of group 1. -/
def Part24Spec : Prop :=
  ∀ (c : Dev nD) (v2 : BitVec 32) (v201 : BitVec 32) (Kt : (BitVec 32) → sProp 𝕄),
    iprop(records (Rd m) K ∗ levAts L lv
        ∗ slotBot m c 0 3 fullShare.left
        ∗ dstAny (partner c 0 7) 0 7
        ∗ dutyTok ER (sendCell c 0 7) 0 0
        ∗ dutyTok ER (recvCell (partner c 0 7) 0 7) 0 0
        ∗ (∃ W, owes (c : Thread nD τ) (Orem ((payList c).drop 22)) W)
        ∗ cred (tallyAt (sendCell c 1 2) () (xferAmt 1 2))
        ∗ atPos ER (sendCell c 1 2) 0 ∅ 0
        ∗ cred (tallyAt (recvCell c 1 2) () (xferAmt 1 2))
        ∗ atPos ER (recvCell c 1 2) 0 ∅ 0
        ∗ (∀ r : (BitVec 32), iprop(cred (tallyAt (sendCell c 0 7) () (xferAmt 0 7))
        ∗ atPos ER (sendCell c 1 2) 1 ∅ 0
        ∗ slotHas m c 1 1 fullShare.left.left
        ∗ (∃ W, owes (c : Thread nD τ) (Orem ((payList c).drop 23)) W)
        ∗ atPos ER (recvCell c 1 2) 1 ∅ 0
        ∗ slotTop m c 1 3 fullShare.left
        ∗ slotBot m c 1 3 fullShare.left
        ∗ slotHas m c 1 3 fullShare.right) -∗ Kt r))
      ⊢ wp frame (wpE (defs₀ (F := F)) 𝒱₀ (c : Thread nD τ) none) Set.univ (k0_part24 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v201) Kt

/-- Part 25: the transfer of step 6 of group 1; the transfer of step 7 of group 1; the wait on the send cell 2 of group 2. -/
def Part25Spec : Prop :=
  ∀ (c : Dev nD) (v2 : BitVec 32) (v229 : BitVec 32) (Kt : (Σ' (v552 : BitVec 32), BitVec 32) → sProp 𝕄),
    iprop(records (Rd m) K ∗ levAts L lv
        ∗ slotTop m c 1 3 fullShare.left
        ∗ dstAny (partner c 1 6) 1 6
        ∗ dutyTok ER (sendCell c 1 6) 0 0
        ∗ dutyTok ER (recvCell (partner c 1 6) 1 6) 0 0
        ∗ (∃ W, owes (c : Thread nD τ) (Orem ((payList c).drop 23)) W)
        ∗ slotBot m c 1 3 fullShare.left
        ∗ dstAny (partner c 1 7) 1 7
        ∗ dutyTok ER (sendCell c 1 7) 0 0
        ∗ dutyTok ER (recvCell (partner c 1 7) 1 7) 0 0
        ∗ cred (tallyAt (sendCell c 2 2) () (xferAmt 2 2))
        ∗ atPos ER (sendCell c 2 2) 0 ∅ 0
        ∗ (∀ r : (Σ' (v552 : BitVec 32), BitVec 32), iprop(cred (tallyAt (sendCell c 1 6) () (xferAmt 1 6))
        ∗ cred (tallyAt (sendCell c 1 7) () (xferAmt 1 7))
        ∗ (∃ W, owes (c : Thread nD τ) (Orem ((payList c).drop 25)) W)
        ∗ atPos ER (sendCell c 2 2) 1 ∅ 0
        ∗ slotHas m c 2 1 fullShare.left.left) -∗ Kt r))
      ⊢ wp frame (wpE (defs₀ (F := F)) 𝒱₀ (c : Thread nD τ) none) Set.univ (k0_part25 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v229) Kt

/-- Part 26: the wait on the recv cell 2 of group 2; the transfer of step 6 of group 2. -/
def Part26Spec : Prop :=
  ∀ (c : Dev nD) (v2 : BitVec 32) (v567 : BitVec 32) (Kt : (Σ' (v573 : BitVec 32), BitVec 32) → sProp 𝕄),
    iprop(records (Rd m) K ∗ levAts L lv
        ∗ cred (tallyAt (recvCell c 2 2) () (xferAmt 2 2))
        ∗ atPos ER (recvCell c 2 2) 0 ∅ 0
        ∗ (∃ W, owes (c : Thread nD τ) (Orem ((payList c).drop 25)) W)
        ∗ dstAny (partner c 2 6) 2 6
        ∗ dutyTok ER (sendCell c 2 6) 0 0
        ∗ dutyTok ER (recvCell (partner c 2 6) 2 6) 0 0
        ∗ (∀ r : (Σ' (v573 : BitVec 32), BitVec 32), iprop(atPos ER (recvCell c 2 2) 1 ∅ 0
        ∗ slotBot m c 2 3 fullShare.left
        ∗ slotHas m c 2 3 fullShare.right
        ∗ (∃ W, owes (c : Thread nD τ) (Orem ((payList c).drop 26)) W)
        ∗ cred (tallyAt (sendCell c 2 6) () (xferAmt 2 6))) -∗ Kt r))
      ⊢ wp frame (wpE (defs₀ (F := F)) 𝒱₀ (c : Thread nD τ) none) Set.univ (k0_part26 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v567) Kt

/-- Part 27: the transfer of step 7 of group 2; the wait on the copy cell 1 of group 0; the load of slot 3 of group 0; a load of the narrowed right factor; the load of stage slot 1 of group 0 before its store; the store of product block 3 of group 0; the copy of product block 3 of group 0 into the result. -/
def Part27Spec : Prop :=
  ∀ (c : Dev nD) (v2 : BitVec 32) (Kt : (PUnit) → sProp 𝕄),
    iprop(records (Rd m) K ∗ levAts L lv
        ∗ slotBot m c 2 3 fullShare.left
        ∗ dstAny (partner c 2 7) 2 7
        ∗ dutyTok ER (sendCell c 2 7) 0 0
        ∗ dutyTok ER (recvCell (partner c 2 7) 2 7) 0 0
        ∗ (∃ W, owes (c : Thread nD τ) (Orem ((payList c).drop 26)) W)
        ∗ cred (tallyAt (copyCell c 0 1) () (copyAmt 0))
        ∗ atPos ER (copyCell c 0 1) 0 ∅ 0
        ∗ slotHas m c 0 3 fullShare.right
        ∗ holdsPts c b16M fullShare (bv m c)
        ∗ pieceAny c 0 3
        ∗ dutyTok ER (copyCell c 0 3) 0 0
        ∗ (∀ r : (PUnit), iprop(cred (tallyAt (sendCell c 2 7) () (xferAmt 2 7))
        ∗ (∃ W, owes (c : Thread nD τ) (Orem ((payList c).drop 27)) W)
        ∗ atPos ER (copyCell c 0 1) 1 ∅ 0
        ∗ pieceDone m c 0 1
        ∗ slotHas m c 0 3 fullShare.right
        ∗ holdsPts c b16M fullShare (bv m c)
        ∗ cred (tallyAt (copyCell c 0 3) () (copyAmt 0))) -∗ Kt r))
      ⊢ wp frame (wpE (defs₀ (F := F)) 𝒱₀ (c : Thread nD τ) none) Set.univ (k0_part27 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 28: the wait on the copy cell 1 of group 1; the load of slot 3 of group 1; a load of the narrowed right factor; the load of stage slot 1 of group 1 before its store; the store of product block 3 of group 1; the copy of product block 3 of group 1 into the result; the wait on the copy cell 1 of group 2; the load of slot 3 of group 2; a load of the narrowed right factor. -/
def Part28Spec : Prop :=
  ∀ (c : Dev nD) (v2 : BitVec 32) (Kt : (Σ' (v641 : FVec F S336x512 .bf16), Vec F S512x1024 .bf16) → sProp 𝕄),
    iprop(records (Rd m) K ∗ levAts L lv
        ∗ cred (tallyAt (copyCell c 1 1) () (copyAmt 1))
        ∗ atPos ER (copyCell c 1 1) 0 ∅ 0
        ∗ (∃ W, owes (c : Thread nD τ) (Orem ((payList c).drop 27)) W)
        ∗ slotHas m c 1 3 fullShare.right
        ∗ holdsPts c b16M fullShare (bv m c)
        ∗ pieceAny c 1 3
        ∗ dutyTok ER (copyCell c 1 3) 0 0
        ∗ cred (tallyAt (copyCell c 2 1) () (copyAmt 2))
        ∗ atPos ER (copyCell c 2 1) 0 ∅ 0
        ∗ slotHas m c 2 3 fullShare.right
        ∗ (∀ r : (Σ' (v641 : FVec F S336x512 .bf16), Vec F S512x1024 .bf16), ⌜r.1 = k0_pay23 (sv2 m (xr c (mask 2 3))) ∧ r.2 = bv m c⌝ -∗ iprop(atPos ER (copyCell c 1 1) 1 ∅ 0
        ∗ pieceDone m c 1 1
        ∗ slotHas m c 1 3 fullShare.right
        ∗ holdsPts c b16M fullShare (bv m c)
        ∗ cred (tallyAt (copyCell c 1 3) () (copyAmt 1))
        ∗ (∃ W, owes (c : Thread nD τ) (Orem ((payList c).drop 27)) W)
        ∗ atPos ER (copyCell c 2 1) 1 ∅ 0
        ∗ pieceDone m c 2 1
        ∗ stageAny c 2 1
        ∗ slotHas m c 2 3 fullShare.right) -∗ Kt r))
      ⊢ wp frame (wpE (defs₀ (F := F)) 𝒱₀ (c : Thread nD τ) none) Set.univ (k0_part28 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 29: the load of stage slot 1 of group 2 before its store; the store of product block 3 of group 2; the copy of product block 3 of group 2 into the result; the wait on the send cell 4 of group 0. -/
def Part29Spec : Prop :=
  ∀ (c : Dev nD) (v2 : BitVec 32) (v182 : BitVec 32) (Kt : (PUnit) → sProp 𝕄),
    iprop(records (Rd m) K ∗ levAts L lv
        ∗ stageAny c 2 1
        ∗ pieceAny c 2 3
        ∗ dutyTok ER (copyCell c 2 3) 0 0
        ∗ cred (tallyAt (sendCell c 0 4) () (xferAmt 0 4))
        ∗ atPos ER (sendCell c 0 4) 0 ∅ 0
        ∗ (∃ W, owes (c : Thread nD τ) (Orem ((payList c).drop 27)) W)
        ∗ (∀ r : (PUnit), iprop(cred (tallyAt (copyCell c 2 3) () (copyAmt 2))
        ∗ (∃ W, owes (c : Thread nD τ) (Orem ((payList c).drop 27)) W)
        ∗ atPos ER (sendCell c 0 4) 1 ∅ 0
        ∗ slotHas m c 0 1 fullShare.left.right) -∗ Kt r))
      ⊢ wp frame (wpE (defs₀ (F := F)) 𝒱₀ (c : Thread nD τ) none) Set.univ (k0_part29 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v182 (k0_pay23 (sv2 m (xr c (mask 2 3)))) (bv m c)) Kt

/-- Part 30: the wait on the recv cell 4 of group 0; the wait on the copy cell 3 of group 0; the load of slot 5 of group 0; a load of the narrowed right factor; the load of stage slot 1 of group 0 before its store; the store of product block 5 of group 0; the copy of product block 5 of group 0 into the result. -/
def Part30Spec : Prop :=
  ∀ (c : Dev nD) (v2 : BitVec 32) (Kt : (PUnit) → sProp 𝕄),
    iprop(records (Rd m) K ∗ levAts L lv
        ∗ cred (tallyAt (recvCell c 0 4) () (xferAmt 0 4))
        ∗ atPos ER (recvCell c 0 4) 0 ∅ 0
        ∗ (∃ W, owes (c : Thread nD τ) (Orem ((payList c).drop 27)) W)
        ∗ cred (tallyAt (copyCell c 0 3) () (copyAmt 0))
        ∗ atPos ER (copyCell c 0 3) 0 ∅ 0
        ∗ holdsPts c b16M fullShare (bv m c)
        ∗ pieceAny c 0 5
        ∗ dutyTok ER (copyCell c 0 5) 0 0
        ∗ (∀ r : (PUnit), iprop(atPos ER (recvCell c 0 4) 1 ∅ 0
        ∗ slotHas m c 0 5 fullShare
        ∗ (∃ W, owes (c : Thread nD τ) (Orem ((payList c).drop 27)) W)
        ∗ atPos ER (copyCell c 0 3) 1 ∅ 0
        ∗ pieceDone m c 0 3
        ∗ holdsPts c b16M fullShare (bv m c)
        ∗ cred (tallyAt (copyCell c 0 5) () (copyAmt 0))) -∗ Kt r))
      ⊢ wp frame (wpE (defs₀ (F := F)) 𝒱₀ (c : Thread nD τ) none) Set.univ (k0_part30 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 31: the wait on the send cell 4 of group 1; the wait on the recv cell 4 of group 1; the wait on the copy cell 3 of group 1; the load of slot 5 of group 1; a load of the narrowed right factor; the load of stage slot 1 of group 1 before its store; the store of product block 5 of group 1. -/
def Part31Spec : Prop :=
  ∀ (c : Dev nD) (v2 : BitVec 32) (v210 : BitVec 32) (Kt : (Σ' (v708 : BitVec 32), BitVec 32) → sProp 𝕄),
    iprop(records (Rd m) K ∗ levAts L lv
        ∗ cred (tallyAt (sendCell c 1 4) () (xferAmt 1 4))
        ∗ atPos ER (sendCell c 1 4) 0 ∅ 0
        ∗ (∃ W, owes (c : Thread nD τ) (Orem ((payList c).drop 27)) W)
        ∗ cred (tallyAt (recvCell c 1 4) () (xferAmt 1 4))
        ∗ atPos ER (recvCell c 1 4) 0 ∅ 0
        ∗ cred (tallyAt (copyCell c 1 3) () (copyAmt 1))
        ∗ atPos ER (copyCell c 1 3) 0 ∅ 0
        ∗ holdsPts c b16M fullShare (bv m c)
        ∗ (∀ r : (Σ' (v708 : BitVec 32), BitVec 32), iprop(atPos ER (sendCell c 1 4) 1 ∅ 0
        ∗ slotHas m c 1 1 fullShare.left.right
        ∗ atPos ER (recvCell c 1 4) 1 ∅ 0
        ∗ slotHas m c 1 5 fullShare
        ∗ (∃ W, owes (c : Thread nD τ) (Orem ((payList c).drop 27)) W)
        ∗ atPos ER (copyCell c 1 3) 1 ∅ 0
        ∗ pieceDone m c 1 3
        ∗ holdsPts c b16M fullShare (bv m c)
        ∗ stageHas m c 1 5) -∗ Kt r))
      ⊢ wp frame (wpE (defs₀ (F := F)) 𝒱₀ (c : Thread nD τ) none) Set.univ (k0_part31 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 v2 v210) Kt

/-- Part 32: the copy of product block 5 of group 1 into the result; the wait on the send cell 4 of group 2; the wait on the recv cell 4 of group 2. -/
def Part32Spec : Prop :=
  ∀ (c : Dev nD) (v238 : BitVec 32) (v708 : BitVec 32) (c352_i32_1022 : BitVec 32) (Kt : (PUnit) → sProp 𝕄),
    iprop(records (Rd m) K ∗ levAts L lv
        ∗ stageHas m c 1 5
        ∗ pieceAny c 1 5
        ∗ dutyTok ER (copyCell c 1 5) 0 0
        ∗ cred (tallyAt (sendCell c 2 4) () (xferAmt 2 4))
        ∗ atPos ER (sendCell c 2 4) 0 ∅ 0
        ∗ (∃ W, owes (c : Thread nD τ) (Orem ((payList c).drop 27)) W)
        ∗ cred (tallyAt (recvCell c 2 4) () (xferAmt 2 4))
        ∗ atPos ER (recvCell c 2 4) 0 ∅ 0
        ∗ (∀ r : (PUnit), iprop(cred (tallyAt (copyCell c 1 5) () (copyAmt 1))
        ∗ atPos ER (sendCell c 2 4) 1 ∅ 0
        ∗ slotHas m c 2 1 fullShare.left.right
        ∗ (∃ W, owes (c : Thread nD τ) (Orem ((payList c).drop 27)) W)
        ∗ atPos ER (recvCell c 2 4) 1 ∅ 0
        ∗ slotHas m c 2 5 fullShare) -∗ Kt r))
      ⊢ wp frame (wpE (defs₀ (F := F)) 𝒱₀ (c : Thread nD τ) none) Set.univ (k0_part32 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v238 v708 c352_i32_1022) Kt

/-- Part 33: the wait on the copy cell 3 of group 2; the load of slot 5 of group 2; a load of the narrowed right factor; the load of stage slot 1 of group 2 before its store; the store of product block 5 of group 2; the copy of product block 5 of group 2 into the result; the wait on the send cell 5 of group 0. -/
def Part33Spec : Prop :=
  ∀ (c : Dev nD) (v2 : BitVec 32) (v302 : BitVec 32) (Kt : (PUnit) → sProp 𝕄),
    iprop(records (Rd m) K ∗ levAts L lv
        ∗ cred (tallyAt (copyCell c 2 3) () (copyAmt 2))
        ∗ atPos ER (copyCell c 2 3) 0 ∅ 0
        ∗ (∃ W, owes (c : Thread nD τ) (Orem ((payList c).drop 27)) W)
        ∗ slotHas m c 2 5 fullShare
        ∗ holdsPts c b16M fullShare (bv m c)
        ∗ pieceAny c 2 5
        ∗ dutyTok ER (copyCell c 2 5) 0 0
        ∗ cred (tallyAt (sendCell c 0 5) () (xferAmt 0 5))
        ∗ atPos ER (sendCell c 0 5) 0 ∅ 0
        ∗ (∀ r : (PUnit), iprop(atPos ER (copyCell c 2 3) 1 ∅ 0
        ∗ pieceDone m c 2 3
        ∗ slotHas m c 2 5 fullShare
        ∗ holdsPts c b16M fullShare (bv m c)
        ∗ cred (tallyAt (copyCell c 2 5) () (copyAmt 2))
        ∗ (∃ W, owes (c : Thread nD τ) (Orem ((payList c).drop 27)) W)
        ∗ atPos ER (sendCell c 0 5) 1 ∅ 0
        ∗ slotHas m c 0 2 fullShare.left) -∗ Kt r))
      ⊢ wp frame (wpE (defs₀ (F := F)) 𝒱₀ (c : Thread nD τ) none) Set.univ (k0_part33 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v302) Kt

/-- Part 34: the wait on the recv cell 5 of group 0; the wait on the copy cell 4 of group 0; the load of slot 6 of group 0; a load of the narrowed right factor; the load of stage slot 0 of group 0 before its store; the store of product block 6 of group 0; the copy of product block 6 of group 0 into the result. -/
def Part34Spec : Prop :=
  ∀ (c : Dev nD) (v2 : BitVec 32) (Kt : (PUnit) → sProp 𝕄),
    iprop(records (Rd m) K ∗ levAts L lv
        ∗ cred (tallyAt (recvCell c 0 5) () (xferAmt 0 5))
        ∗ atPos ER (recvCell c 0 5) 0 ∅ 0
        ∗ (∃ W, owes (c : Thread nD τ) (Orem ((payList c).drop 27)) W)
        ∗ cred (tallyAt (copyCell c 0 4) () (copyAmt 0))
        ∗ atPos ER (copyCell c 0 4) 0 ∅ 0
        ∗ holdsPts c b16M fullShare (bv m c)
        ∗ pieceAny c 0 6
        ∗ dutyTok ER (copyCell c 0 6) 0 0
        ∗ (∀ r : (PUnit), iprop(atPos ER (recvCell c 0 5) 1 ∅ 0
        ∗ slotHas m c 0 6 fullShare
        ∗ (∃ W, owes (c : Thread nD τ) (Orem ((payList c).drop 27)) W)
        ∗ atPos ER (copyCell c 0 4) 1 ∅ 0
        ∗ pieceDone m c 0 4
        ∗ holdsPts c b16M fullShare (bv m c)
        ∗ cred (tallyAt (copyCell c 0 6) () (copyAmt 0))) -∗ Kt r))
      ⊢ wp frame (wpE (defs₀ (F := F)) 𝒱₀ (c : Thread nD τ) none) Set.univ (k0_part34 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 35: the wait on the send cell 5 of group 1; the wait on the recv cell 5 of group 1; the wait on the copy cell 4 of group 1; the load of slot 6 of group 1; a load of the narrowed right factor. -/
def Part35Spec : Prop :=
  ∀ (c : Dev nD) (v321 : BitVec 32) (Kt : (FVec F S336x1024 .f32) → sProp 𝕄),
    iprop(records (Rd m) K ∗ levAts L lv
        ∗ cred (tallyAt (sendCell c 1 5) () (xferAmt 1 5))
        ∗ atPos ER (sendCell c 1 5) 0 ∅ 0
        ∗ (∃ W, owes (c : Thread nD τ) (Orem ((payList c).drop 27)) W)
        ∗ cred (tallyAt (recvCell c 1 5) () (xferAmt 1 5))
        ∗ atPos ER (recvCell c 1 5) 0 ∅ 0
        ∗ cred (tallyAt (copyCell c 1 4) () (copyAmt 1))
        ∗ atPos ER (copyCell c 1 4) 0 ∅ 0
        ∗ holdsPts c b16M fullShare (bv m c)
        ∗ (∀ r : (FVec F S336x1024 .f32), ⌜r = prod336 (sv1 m (xr c (mask 1 6))) (bv m c)⌝ -∗ iprop(atPos ER (sendCell c 1 5) 1 ∅ 0
        ∗ slotHas m c 1 2 fullShare.left
        ∗ atPos ER (recvCell c 1 5) 1 ∅ 0
        ∗ slotHas m c 1 6 fullShare
        ∗ (∃ W, owes (c : Thread nD τ) (Orem ((payList c).drop 27)) W)
        ∗ atPos ER (copyCell c 1 4) 1 ∅ 0
        ∗ pieceDone m c 1 4
        ∗ stageAny c 1 0
        ∗ holdsPts c b16M fullShare (bv m c)) -∗ Kt r))
      ⊢ wp frame (wpE (defs₀ (F := F)) 𝒱₀ (c : Thread nD τ) none) Set.univ (k0_part35 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 v321) Kt

/-- Part 36: the load of stage slot 0 of group 1 before its store; the store of product block 6 of group 1; the copy of product block 6 of group 1 into the result; the wait on the send cell 5 of group 2; the wait on the recv cell 5 of group 2. -/
def Part36Spec : Prop :=
  ∀ (c : Dev nD) (v2 : BitVec 32) (v340 : BitVec 32) (Kt : (PUnit) → sProp 𝕄),
    iprop(records (Rd m) K ∗ levAts L lv
        ∗ stageAny c 1 0
        ∗ pieceAny c 1 6
        ∗ dutyTok ER (copyCell c 1 6) 0 0
        ∗ cred (tallyAt (sendCell c 2 5) () (xferAmt 2 5))
        ∗ atPos ER (sendCell c 2 5) 0 ∅ 0
        ∗ (∃ W, owes (c : Thread nD τ) (Orem ((payList c).drop 27)) W)
        ∗ cred (tallyAt (recvCell c 2 5) () (xferAmt 2 5))
        ∗ atPos ER (recvCell c 2 5) 0 ∅ 0
        ∗ (∀ r : (PUnit), iprop(cred (tallyAt (copyCell c 1 6) () (copyAmt 1))
        ∗ atPos ER (sendCell c 2 5) 1 ∅ 0
        ∗ slotHas m c 2 2 fullShare.left
        ∗ (∃ W, owes (c : Thread nD τ) (Orem ((payList c).drop 27)) W)
        ∗ atPos ER (recvCell c 2 5) 1 ∅ 0
        ∗ slotHas m c 2 6 fullShare) -∗ Kt r))
      ⊢ wp frame (wpE (defs₀ (F := F)) 𝒱₀ (c : Thread nD τ) none) Set.univ (k0_part36 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v340 (prod336 (sv1 m (xr c (mask 1 6))) (bv m c))) Kt

/-- Part 37: the wait on the copy cell 4 of group 2; the load of slot 6 of group 2; a load of the narrowed right factor; the load of stage slot 0 of group 2 before its store; the store of product block 6 of group 2; the copy of product block 6 of group 2 into the result. -/
def Part37Spec : Prop :=
  ∀ (c : Dev nD) (v2 : BitVec 32) (Kt : (PUnit) → sProp 𝕄),
    iprop(records (Rd m) K ∗ levAts L lv
        ∗ cred (tallyAt (copyCell c 2 4) () (copyAmt 2))
        ∗ atPos ER (copyCell c 2 4) 0 ∅ 0
        ∗ (∃ W, owes (c : Thread nD τ) (Orem ((payList c).drop 27)) W)
        ∗ slotHas m c 2 6 fullShare
        ∗ holdsPts c b16M fullShare (bv m c)
        ∗ pieceAny c 2 6
        ∗ dutyTok ER (copyCell c 2 6) 0 0
        ∗ (∀ r : (PUnit), iprop((∃ W, owes (c : Thread nD τ) (Orem ((payList c).drop 27)) W)
        ∗ atPos ER (copyCell c 2 4) 1 ∅ 0
        ∗ pieceDone m c 2 4
        ∗ slotHas m c 2 6 fullShare
        ∗ holdsPts c b16M fullShare (bv m c)
        ∗ cred (tallyAt (copyCell c 2 6) () (copyAmt 2))) -∗ Kt r))
      ⊢ wp frame (wpE (defs₀ (F := F)) 𝒱₀ (c : Thread nD τ) none) Set.univ (k0_part37 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 38: the wait on the send cell 6 of group 0; the wait on the recv cell 6 of group 0; the wait on the copy cell 5 of group 0; the load of slot 7 (rows below 176) of group 0; a load of the narrowed right factor; the load of stage slot 1 of group 0 before its store; the store of the rows below 176 of the last block of group 0. -/
def Part38Spec : Prop :=
  ∀ (c : Dev nD) (v509 : BitVec 32) (Kt : (PUnit) → sProp 𝕄),
    iprop(records (Rd m) K ∗ levAts L lv
        ∗ cred (tallyAt (sendCell c 0 6) () (xferAmt 0 6))
        ∗ atPos ER (sendCell c 0 6) 0 ∅ 0
        ∗ (∃ W, owes (c : Thread nD τ) (Orem ((payList c).drop 27)) W)
        ∗ cred (tallyAt (recvCell c 0 6) () (xferAmt 0 6))
        ∗ atPos ER (recvCell c 0 6) 0 ∅ 0
        ∗ cred (tallyAt (copyCell c 0 5) () (copyAmt 0))
        ∗ atPos ER (copyCell c 0 5) 0 ∅ 0
        ∗ holdsPts c b16M fullShare (bv m c)
        ∗ (∀ r : (PUnit), iprop(atPos ER (sendCell c 0 6) 1 ∅ 0
        ∗ slotTop m c 0 3 fullShare.left
        ∗ atPos ER (recvCell c 0 6) 1 ∅ 0
        ∗ slotTop m c 0 7 fullShare
        ∗ (∃ W, owes (c : Thread nD τ) (Orem ((payList c).drop 27)) W)
        ∗ atPos ER (copyCell c 0 5) 1 ∅ 0
        ∗ pieceDone m c 0 5
        ∗ holdsPts c b16M fullShare (bv m c)
        ∗ stageTop m c 0) -∗ Kt r))
      ⊢ wp frame (wpE (defs₀ (F := F)) 𝒱₀ (c : Thread nD τ) none) Set.univ (k0_part38 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 v509) Kt

/-- Part 39: the wait on the send cell 6 of group 1; the wait on the recv cell 6 of group 1; the wait on the copy cell 5 of group 1; the load of slot 7 (rows below 176) of group 1; a load of the narrowed right factor; the load of stage slot 1 of group 1 before its store. -/
def Part39Spec : Prop :=
  ∀ (c : Dev nD) (v541 : BitVec 32) (Kt : (Σ' (v883 : FVec F S176x1024 .f32), Vec F S1x176x1024 .f32) → sProp 𝕄),
    iprop(records (Rd m) K ∗ levAts L lv
        ∗ cred (tallyAt (sendCell c 1 6) () (xferAmt 1 6))
        ∗ atPos ER (sendCell c 1 6) 0 ∅ 0
        ∗ (∃ W, owes (c : Thread nD τ) (Orem ((payList c).drop 27)) W)
        ∗ cred (tallyAt (recvCell c 1 6) () (xferAmt 1 6))
        ∗ atPos ER (recvCell c 1 6) 0 ∅ 0
        ∗ cred (tallyAt (copyCell c 1 5) () (copyAmt 1))
        ∗ atPos ER (copyCell c 1 5) 0 ∅ 0
        ∗ holdsPts c b16M fullShare (bv m c)
        ∗ (∀ r : (Σ' (v883 : FVec F S176x1024 .f32), Vec F S1x176x1024 .f32), ⌜r.1 = prod176 (topB (sv1 m (xr c (mask 1 7)))) (bv m c)⌝ -∗ iprop(atPos ER (sendCell c 1 6) 1 ∅ 0
        ∗ slotTop m c 1 3 fullShare.left
        ∗ atPos ER (recvCell c 1 6) 1 ∅ 0
        ∗ slotTop m c 1 7 fullShare
        ∗ (∃ W, owes (c : Thread nD τ) (Orem ((payList c).drop 27)) W)
        ∗ atPos ER (copyCell c 1 5) 1 ∅ 0
        ∗ pieceDone m c 1 5
        ∗ stageAny c 1 1
        ∗ holdsPts c b16M fullShare (bv m c)) -∗ Kt r))
      ⊢ wp frame (wpE (defs₀ (F := F)) 𝒱₀ (c : Thread nD τ) none) Set.univ (k0_part39 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 v541) Kt

/-- Part 40: the store of the rows below 176 of the last block of group 1; the wait on the send cell 6 of group 2; the wait on the recv cell 6 of group 2; the wait on the copy cell 5 of group 2; the load of slot 7 (rows below 176) of group 2. -/
def Part40Spec : Prop :=
  ∀ (c : Dev nD) (v573 : BitVec 32) (v884 : Vec F S1x176x1024 .f32) (Kt : (FVec F S176x512 .bf16) → sProp 𝕄),
    iprop(records (Rd m) K ∗ levAts L lv
        ∗ stageAny c 1 1
        ∗ cred (tallyAt (sendCell c 2 6) () (xferAmt 2 6))
        ∗ atPos ER (sendCell c 2 6) 0 ∅ 0
        ∗ (∃ W, owes (c : Thread nD τ) (Orem ((payList c).drop 27)) W)
        ∗ cred (tallyAt (recvCell c 2 6) () (xferAmt 2 6))
        ∗ atPos ER (recvCell c 2 6) 0 ∅ 0
        ∗ cred (tallyAt (copyCell c 2 5) () (copyAmt 2))
        ∗ atPos ER (copyCell c 2 5) 0 ∅ 0
        ∗ (∀ r : (FVec F S176x512 .bf16), ⌜r = k0_pay35 (topB (sv2 m (xr c (mask 2 7))))⌝ -∗ iprop(stageTop m c 1
        ∗ atPos ER (sendCell c 2 6) 1 ∅ 0
        ∗ slotTop m c 2 3 fullShare.left
        ∗ atPos ER (recvCell c 2 6) 1 ∅ 0
        ∗ slotTop m c 2 7 fullShare
        ∗ (∃ W, owes (c : Thread nD τ) (Orem ((payList c).drop 27)) W)
        ∗ atPos ER (copyCell c 2 5) 1 ∅ 0
        ∗ pieceDone m c 2 5
        ∗ stageAny c 2 1) -∗ Kt r))
      ⊢ wp frame (wpE (defs₀ (F := F)) 𝒱₀ (c : Thread nD τ) none) Set.univ (k0_part40 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 v573 (prod176 (topB (sv1 m (xr c (mask 1 7)))) (bv m c)) v884) Kt

/-- Part 41: a load of the narrowed right factor; the load of stage slot 1 of group 2 before its store; the store of the rows below 176 of the last block of group 2; the wait on the send cell 7 of group 0; the wait on the recv cell 7 of group 0; the load of slot 7 (rows from 176) of group 0; a load of the narrowed right factor. -/
def Part41Spec : Prop :=
  ∀ (c : Dev nD) (v520 : BitVec 32) (Kt : (Σ' (v928 : FVec F S176x512 .bf16) (v929 : Vec F S512x1024 .bf16), FVec F S176x1024 .f32) → sProp 𝕄),
    iprop(records (Rd m) K ∗ levAts L lv
        ∗ holdsPts c b16M fullShare (bv m c)
        ∗ stageAny c 2 1
        ∗ cred (tallyAt (sendCell c 0 7) () (xferAmt 0 7))
        ∗ atPos ER (sendCell c 0 7) 0 ∅ 0
        ∗ (∃ W, owes (c : Thread nD τ) (Orem ((payList c).drop 27)) W)
        ∗ cred (tallyAt (recvCell c 0 7) () (xferAmt 0 7))
        ∗ atPos ER (recvCell c 0 7) 0 ∅ 0
        ∗ (∀ r : (Σ' (v928 : FVec F S176x512 .bf16) (v929 : Vec F S512x1024 .bf16), FVec F S176x1024 .f32), ⌜r.1 = k0_pay37 (botA (sv0 m (xr c (mask 0 7)))) ∧ r.2.1 = bv m c ∧ r.2.2 = constant S176x1024 .f32 0x00000000#32⌝ -∗ iprop(holdsPts c b16M fullShare (bv m c)
        ∗ stageTop m c 2
        ∗ atPos ER (sendCell c 0 7) 1 ∅ 0
        ∗ slotBot m c 0 3 fullShare.left
        ∗ (∃ W, owes (c : Thread nD τ) (Orem ((payList c).drop 27)) W)
        ∗ atPos ER (recvCell c 0 7) 1 ∅ 0
        ∗ slotBot m c 0 7 fullShare) -∗ Kt r))
      ⊢ wp frame (wpE (defs₀ (F := F)) 𝒱₀ (c : Thread nD τ) none) Set.univ (k0_part41 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 v520 (k0_pay35 (topB (sv2 m (xr c (mask 2 7)))))) Kt

/-- Part 42: the load of stage slot 1 of group 0 before its store; the store of the rows from 176 of the last block of group 0; the copy of product block 7 of group 0 into the result; the wait on the send cell 7 of group 1. -/
def Part42Spec : Prop :=
  ∀ (c : Dev nD) (v2 : BitVec 32) (v552 : BitVec 32) (Kt : (PUnit) → sProp 𝕄),
    iprop(records (Rd m) K ∗ levAts L lv
        ∗ stageTop m c 0
        ∗ pieceAny c 0 7
        ∗ dutyTok ER (copyCell c 0 7) 0 0
        ∗ cred (tallyAt (sendCell c 1 7) () (xferAmt 1 7))
        ∗ atPos ER (sendCell c 1 7) 0 ∅ 0
        ∗ (∃ W, owes (c : Thread nD τ) (Orem ((payList c).drop 27)) W)
        ∗ (∀ r : (PUnit), iprop(cred (tallyAt (copyCell c 0 7) () (copyAmt 0))
        ∗ (∃ W, owes (c : Thread nD τ) (Orem ((payList c).drop 27)) W)
        ∗ atPos ER (sendCell c 1 7) 1 ∅ 0
        ∗ slotBot m c 1 3 fullShare.left) -∗ Kt r))
      ⊢ wp frame (wpE (defs₀ (F := F)) 𝒱₀ (c : Thread nD τ) none) Set.univ (k0_part42 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v552 (k0_pay37 (botA (sv0 m (xr c (mask 0 7))))) (bv m c) (constant S176x1024 .f32 0x00000000#32)) Kt

/-- Part 43: the wait on the recv cell 7 of group 1; the load of slot 7 (rows from 176) of group 1; a load of the narrowed right factor; the load of stage slot 1 of group 1 before its store; the store of the rows from 176 of the last block of group 1; the copy of product block 7 of group 1 into the result; the wait on the send cell 7 of group 2. -/
def Part43Spec : Prop :=
  ∀ (c : Dev nD) (v2 : BitVec 32) (Kt : (PUnit) → sProp 𝕄),
    iprop(records (Rd m) K ∗ levAts L lv
        ∗ cred (tallyAt (recvCell c 1 7) () (xferAmt 1 7))
        ∗ atPos ER (recvCell c 1 7) 0 ∅ 0
        ∗ (∃ W, owes (c : Thread nD τ) (Orem ((payList c).drop 27)) W)
        ∗ holdsPts c b16M fullShare (bv m c)
        ∗ stageTop m c 1
        ∗ pieceAny c 1 7
        ∗ dutyTok ER (copyCell c 1 7) 0 0
        ∗ cred (tallyAt (sendCell c 2 7) () (xferAmt 2 7))
        ∗ atPos ER (sendCell c 2 7) 0 ∅ 0
        ∗ (∀ r : (PUnit), iprop(atPos ER (recvCell c 1 7) 1 ∅ 0
        ∗ slotBot m c 1 7 fullShare
        ∗ holdsPts c b16M fullShare (bv m c)
        ∗ cred (tallyAt (copyCell c 1 7) () (copyAmt 1))
        ∗ (∃ W, owes (c : Thread nD τ) (Orem ((payList c).drop 27)) W)
        ∗ atPos ER (sendCell c 2 7) 1 ∅ 0
        ∗ slotBot m c 2 3 fullShare.left) -∗ Kt r))
      ⊢ wp frame (wpE (defs₀ (F := F)) 𝒱₀ (c : Thread nD τ) none) Set.univ (k0_part43 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 44: the wait on the recv cell 7 of group 2; the load of slot 7 (rows from 176) of group 2; a load of the narrowed right factor; the load of stage slot 1 of group 2 before its store; the store of the rows from 176 of the last block of group 2; the copy of product block 7 of group 2 into the result. -/
def Part44Spec : Prop :=
  ∀ (c : Dev nD) (v2 : BitVec 32) (v584 : BitVec 32) (Kt : (PUnit) → sProp 𝕄),
    iprop(records (Rd m) K ∗ levAts L lv
        ∗ cred (tallyAt (recvCell c 2 7) () (xferAmt 2 7))
        ∗ atPos ER (recvCell c 2 7) 0 ∅ 0
        ∗ (∃ W, owes (c : Thread nD τ) (Orem ((payList c).drop 27)) W)
        ∗ holdsPts c b16M fullShare (bv m c)
        ∗ stageTop m c 2
        ∗ pieceAny c 2 7
        ∗ dutyTok ER (copyCell c 2 7) 0 0
        ∗ (∀ r : (PUnit), iprop((∃ W, owes (c : Thread nD τ) (Orem ((payList c).drop 27)) W)
        ∗ atPos ER (recvCell c 2 7) 1 ∅ 0
        ∗ slotBot m c 2 7 fullShare
        ∗ holdsPts c b16M fullShare (bv m c)
        ∗ cred (tallyAt (copyCell c 2 7) () (copyAmt 2))) -∗ Kt r))
      ⊢ wp frame (wpE (defs₀ (F := F)) 𝒱₀ (c : Thread nD τ) none) Set.univ (k0_part44 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v584) Kt

/-- Part 45: the wait on the copy cell 6 of group 0; the wait on the copy cell 7 of group 0; the wait on the copy cell 6 of group 1; the wait on the copy cell 7 of group 1; the wait on the copy cell 6 of group 2. -/
def Part45Spec : Prop :=
  ∀ (c : Dev nD)  (Kt : (PUnit) → sProp 𝕄),
    iprop(records (Rd m) K ∗ levAts L lv
        ∗ cred (tallyAt (copyCell c 0 6) () (copyAmt 0))
        ∗ atPos ER (copyCell c 0 6) 0 ∅ 0
        ∗ (∃ W, owes (c : Thread nD τ) (Orem ((payList c).drop 27)) W)
        ∗ cred (tallyAt (copyCell c 0 7) () (copyAmt 0))
        ∗ atPos ER (copyCell c 0 7) 0 ∅ 0
        ∗ cred (tallyAt (copyCell c 1 6) () (copyAmt 1))
        ∗ atPos ER (copyCell c 1 6) 0 ∅ 0
        ∗ cred (tallyAt (copyCell c 1 7) () (copyAmt 1))
        ∗ atPos ER (copyCell c 1 7) 0 ∅ 0
        ∗ cred (tallyAt (copyCell c 2 6) () (copyAmt 2))
        ∗ atPos ER (copyCell c 2 6) 0 ∅ 0
        ∗ (∀ r : (PUnit), iprop(atPos ER (copyCell c 0 6) 1 ∅ 0
        ∗ pieceDone m c 0 6
        ∗ stageAny c 0 0
        ∗ atPos ER (copyCell c 0 7) 1 ∅ 0
        ∗ pieceDone m c 0 7
        ∗ stageAny c 0 1
        ∗ atPos ER (copyCell c 1 6) 1 ∅ 0
        ∗ pieceDone m c 1 6
        ∗ stageAny c 1 0
        ∗ atPos ER (copyCell c 1 7) 1 ∅ 0
        ∗ pieceDone m c 1 7
        ∗ stageAny c 1 1
        ∗ (∃ W, owes (c : Thread nD τ) (Orem ((payList c).drop 27)) W)
        ∗ atPos ER (copyCell c 2 6) 1 ∅ 0
        ∗ pieceDone m c 2 6
        ∗ stageAny c 2 0) -∗ Kt r))
      ⊢ wp frame (wpE (defs₀ (F := F)) 𝒱₀ (c : Thread nD τ) none) Set.univ (k0_part45 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 ) Kt

/-- The tail of the body after its last printed part: the wait on the last copy. -/
def TailSpec : Prop :=
  ∀ (c : Dev nD) (Kt : PUnit → sProp 𝕄),
    iprop(records (Rd m) K ∗ levAts L lv
        ∗ cred (tallyAt (copyCell c 2 7) () (copyAmt 2))
        ∗ atPos ER (copyCell c 2 7) 0 ∅ 0
        ∗ (∃ W, owes (c : Thread nD τ) (Orem ((payList c).drop 27)) W)
        ∗ (iprop((∃ W, owes (c : Thread nD τ) (Orem ((payList c).drop 27)) W)
        ∗ atPos ER (copyCell c 2 7) 1 ∅ 0
        ∗ pieceDone m c 2 7
        ∗ stageAny c 2 1) -∗ Kt ⟨⟩))
      ⊢ wp frame (wpE (defs₀ (F := F)) 𝒱₀ (c : Thread nD τ) none) Set.univ (do
          let v1025 : DmaSems sig S1x1 := cc0_scratch9.slice (Rect.unit (s := S3x8) ![2, 7] S1x1.size inb_S3x8_S1x1_2_7)
          let v1026 : DmaSems sig S_ := v1025.squeeze S_ squeezes_S1x1_S_
          let v1027 : Memref sig .tc .hbm S336x1024 .f32 := oM.slice (Rect.unit (s := S8192x1024) ![0, 0] S336x1024.size inb_S8192x1024_S336x1024_0_0) (fun _ => rfl)
          let v1028 : Memref sig .tc .vmem S1x336x1024 .f32 := s2M.slice (Rect.unit (s := S2x336x1024) ![1, 0, 0] S1x336x1024.size inb_S2x336x1024_S1x336x1024_1_0_0) (fun _ => rfl)
          let v1029 : Memref sig .tc .vmem S336x1024 .f32 := v1028.squeeze S336x1024 squeezes_S1x336x1024_S336x1024
          Prog.lift (.waitDma2 v1026.sem v1029 v1027 ((View.wordExact_bits rfl).reshape _ _) (View.wordExact_bits rfl))
          pure ⟨⟩ : Prog (TpuEff nD τ sig (Elt F) Λ₀ .tc) PUnit) Kt

end Cert.KernelIdeal.DM
end
-- ==== Proof.BodyChain.lean ====
/- GENERATED by: bun scratch/gen_partspecs.js "$KIT/certs/proofs/900891_g7700000000000892_dist_matmul_m_i_outrep_m1024_n1024_k512_v7x_i8_f32_1_alg" "proofs.«900891_g7700000000000892_dist_matmul_m_i_outrep_m1024_n1024_k512_v7x_i8_f32_1_alg».proof" "chain2" "ChainEqs1,ChainEqs2,ChainEqs3,ChainEqs4" (run from the unit directory; the script is filed beside this module): the
   parts' runs applied one after the other along the body; the state is held as one conjunction, regrouped before each
   step as that step's pieces and the rest. -/
import proofs.«900891_g7700000000000892_dist_matmul_m_i_outrep_m1024_n1024_k512_v7x_i8_f32_1_alg».proof.Proof.ChainEqs1
import proofs.«900891_g7700000000000892_dist_matmul_m_i_outrep_m1024_n1024_k512_v7x_i8_f32_1_alg».proof.Proof.ChainEqs2
import proofs.«900891_g7700000000000892_dist_matmul_m_i_outrep_m1024_n1024_k512_v7x_i8_f32_1_alg».proof.Proof.ChainEqs3
import proofs.«900891_g7700000000000892_dist_matmul_m_i_outrep_m1024_n1024_k512_v7x_i8_f32_1_alg».proof.Proof.ChainEqs4
import proofs.«900891_g7700000000000892_dist_matmul_m_i_outrep_m1024_n1024_k512_v7x_i8_f32_1_alg».proof.Proof.PartSpecs
set_option maxRecDepth 16384
noncomputable section
namespace Cert.KernelIdeal.DM
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (K : Dev nD × CIx → ℕ)

set_option maxHeartbeats 4000000 in
theorem middle (h1 : Part1Spec m K) (h2 : Part2Spec m K) (h3 : Part3Spec m K) (h4 : Part4Spec m K) (h5 : Part5Spec m K) (h6 : Part6Spec m K) (h7 : Part7Spec m K) (h8 : Part8Spec m K) (h9 : Part9Spec m K) (h10 : Part10Spec m K) (h11 : Part11Spec m K) (h12 : Part12Spec m K) (h13 : Part13Spec m K) (h14 : Part14Spec m K) (h15 : Part15Spec m K) (h16 : Part16Spec m K) (h17 : Part17Spec m K) (h18 : Part18Spec m K) (h19 : Part19Spec m K) (h20 : Part20Spec m K) (h21 : Part21Spec m K) (h22 : Part22Spec m K) (h23 : Part23Spec m K) (h24 : Part24Spec m K) (h25 : Part25Spec m K) (h26 : Part26Spec m K) (h27 : Part27Spec m K) (h28 : Part28Spec m K) (h29 : Part29Spec m K) (h30 : Part30Spec m K) (h31 : Part31Spec m K) (h32 : Part32Spec m K) (h33 : Part33Spec m K) (h34 : Part34Spec m K) (h35 : Part35Spec m K) (h36 : Part36Spec m K) (h37 : Part37Spec m K) (h38 : Part38Spec m K) (h39 : Part39Spec m K) (h40 : Part40Spec m K) (h41 : Part41Spec m K) (h42 : Part42Spec m K) (h43 : Part43Spec m K) (h44 : Part44Spec m K) (h45 : Part45Spec m K) (hT : TailSpec m K) (c : Dev nD) (Kt : PUnit → sProp 𝕄) :
    iprop(InitChain m K c ∗ (FinalChain m K c -∗ Kt ⟨⟩))
      ⊢ wp frame (wpE (defs₀ (F := F)) 𝒱₀ (c : Thread nD τ) none) Set.univ (cc0_body aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9) Kt := by
  unfold cc0_body
  simp only [wp_bind]
  iintro ⟨HS, HFin⟩
  ihave HS := (Entails.of_eq (eq_start m K c)) $$ HS
  icases HS with ⟨#Hrec, #Hlev, HS⟩
  -- step 1
  ihave HS := (Entails.of_eq (eq_step1 m K c)) $$ HS
  icases HS with ⟨Hpre, HFr⟩
  icases Hpre with ⟨A1_0, A1_1, A1_2, A1_3, A1_4, A1_5, A1_6, A1_7, A1_8, A1_9, A1_10, A1_11, A1_12, A1_13, A1_14, A1_15, A1_16, A1_17, A1_18, A1_19, A1_20, A1_21, A1_22, A1_23, A1_24, A1_25, A1_26, A1_27, A1_28, A1_29, A1_30⟩
  iapply (h1 c _)
  iframe A1_0 A1_1 A1_2 A1_3 A1_4 A1_5 A1_6 A1_7 A1_8 A1_9 A1_10 A1_11 A1_12 A1_13 A1_14 A1_15 A1_16 A1_17 A1_18 A1_19 A1_20 A1_21 A1_22 A1_23 A1_24 A1_25 A1_26 A1_27 A1_28 A1_29 A1_30
  isplitr
  · iexact Hrec
  isplitr
  · iexact Hlev
  iintro %r1 %hr1 Hpost
  obtain ⟨d0_1, v2_1, v3_1, lst_1⟩ := r1
  dsimp only at hr1
  obtain ⟨hdev1, rfl, rfl⟩ := hr1
  subst d0_1
  dsimp only
  icombine Hpost HFr as HS
  -- step 2
  ihave HS := (Entails.of_eq (eq_step2 m K c)) $$ HS
  icases HS with ⟨Hpre, HFr⟩
  icases Hpre with ⟨A2_0, A2_1, A2_2, A2_3, A2_4, A2_5, A2_6, A2_7, A2_8, A2_9⟩
  iapply (h2 c _ _)
  iframe A2_0 A2_1 A2_2 A2_3 A2_4 A2_5 A2_6 A2_7 A2_8 A2_9
  isplitr
  · iexact Hrec
  isplitr
  · iexact Hlev
  iintro %r2 Hpost
  obtain ⟨v31_2, v40_2, lst_2⟩ := r2
  dsimp only
  icombine Hpost HFr as HS
  -- step 3
  ihave HS := (Entails.of_eq (eq_step3 m K c)) $$ HS
  icases HS with ⟨Hpre, HFr⟩
  icases Hpre with ⟨A3_0, A3_1, A3_2, A3_3, A3_4, A3_5, A3_6, A3_7, A3_8⟩
  iapply (h3 c _ _ _)
  iframe A3_0 A3_1 A3_2 A3_3 A3_4 A3_5 A3_6 A3_7 A3_8
  isplitr
  · iexact Hrec
  isplitr
  · iexact Hlev
  iintro %r3 Hpost
  obtain ⟨v58_3, lst_3⟩ := r3
  dsimp only
  icombine Hpost HFr as HS
  -- step 4
  ihave HS := (Entails.of_eq (eq_step4 m K c)) $$ HS
  icases HS with ⟨Hpre, HFr⟩
  icases Hpre with ⟨A4_0, A4_1, A4_2, A4_3, A4_4, A4_5, A4_6, A4_7, A4_8, A4_9, A4_10, A4_11, A4_12⟩
  iapply (h4 c _ _)
  iframe A4_0 A4_1 A4_2 A4_3 A4_4 A4_5 A4_6 A4_7 A4_8 A4_9 A4_10 A4_11 A4_12
  isplitr
  · iexact Hrec
  isplitr
  · iexact Hlev
  iintro %r4 Hpost
  obtain ⟨v76_4, v85_4, v94_4, v95_4, lst_4⟩ := r4
  dsimp only
  icombine Hpost HFr as HS
  -- step 5
  ihave HS := (Entails.of_eq (eq_step5 m K c)) $$ HS
  icases HS with ⟨Hpre, HFr⟩
  icases Hpre with ⟨A5_0, A5_1, A5_2, A5_3, A5_4, A5_5, A5_6, A5_7, A5_8, A5_9, A5_10, A5_11⟩
  iapply (h5 c _ _ _ _)
  iframe A5_0 A5_1 A5_2 A5_3 A5_4 A5_5 A5_6 A5_7 A5_8 A5_9 A5_10 A5_11
  isplitr
  · iexact Hrec
  isplitr
  · iexact Hlev
  iintro %r5 %hr5 Hpost
  obtain ⟨v103_5, lst_5⟩ := r5
  dsimp only at hr5
  subst hr5
  dsimp only
  icombine Hpost HFr as HS
  -- step 6
  ihave HS := (Entails.of_eq (eq_step6 m K c)) $$ HS
  icases HS with ⟨Hpre, HFr⟩
  icases Hpre with ⟨A6_0, A6_1, A6_2, A6_3, A6_4, A6_5, A6_6, A6_7⟩
  iapply (h6 c _ _)
  iframe A6_0 A6_1 A6_2 A6_3 A6_4 A6_5 A6_6 A6_7
  isplitr
  · iexact Hrec
  isplitr
  · iexact Hlev
  iintro %r6 Hpost
  icombine Hpost HFr as HS
  -- step 7
  ihave HS := (Entails.of_eq (eq_step7 m K c)) $$ HS
  icases HS with ⟨Hpre, HFr⟩
  icases Hpre with ⟨A7_0, A7_1, A7_2, A7_3, A7_4, A7_5, A7_6, A7_7⟩
  iapply (h7 c _ _ _)
  iframe A7_0 A7_1 A7_2 A7_3 A7_4 A7_5 A7_6 A7_7
  isplitr
  · iexact Hrec
  isplitr
  · iexact Hlev
  iintro %r7 Hpost
  icombine Hpost HFr as HS
  -- step 8
  ihave HS := (Entails.of_eq (eq_step8 m K c)) $$ HS
  icases HS with ⟨Hpre, HFr⟩
  icases Hpre with ⟨A8_0, A8_1, A8_2, A8_3, A8_4, A8_5, A8_6, A8_7, A8_8⟩
  iapply (h8 c _ _)
  iframe A8_0 A8_1 A8_2 A8_3 A8_4 A8_5 A8_6 A8_7 A8_8
  isplitr
  · iexact Hrec
  isplitr
  · iexact Hlev
  iintro %r8 Hpost
  obtain ⟨v173_8, lst_8⟩ := r8
  dsimp only
  icombine Hpost HFr as HS
  -- step 9
  ihave HS := (Entails.of_eq (eq_step9 m K c)) $$ HS
  icases HS with ⟨Hpre, HFr⟩
  icases Hpre with ⟨A9_0, A9_1, A9_2, A9_3, A9_4, A9_5, A9_6, A9_7⟩
  iapply (h9 c _ _ _)
  iframe A9_0 A9_1 A9_2 A9_3 A9_4 A9_5 A9_6 A9_7
  isplitr
  · iexact Hrec
  isplitr
  · iexact Hlev
  iintro %r9 Hpost
  obtain ⟨v201_9, v210_9, lst_9⟩ := r9
  dsimp only
  icombine Hpost HFr as HS
  -- step 10
  ihave HS := (Entails.of_eq (eq_step10 m K c)) $$ HS
  icases HS with ⟨Hpre, HFr⟩
  icases Hpre with ⟨A10_0, A10_1, A10_2, A10_3, A10_4, A10_5, A10_6, A10_7, A10_8⟩
  iapply (h10 c _ _ _ _)
  iframe A10_0 A10_1 A10_2 A10_3 A10_4 A10_5 A10_6 A10_7 A10_8
  isplitr
  · iexact Hrec
  isplitr
  · iexact Hlev
  iintro %r10 Hpost
  icombine Hpost HFr as HS
  -- step 11
  ihave HS := (Entails.of_eq (eq_step11 m K c)) $$ HS
  icases HS with ⟨Hpre, HFr⟩
  icases Hpre with ⟨A11_0, A11_1, A11_2, A11_3, A11_4, A11_5, A11_6, A11_7, A11_8, A11_9, A11_10, A11_11⟩
  iapply (h11 c _ _)
  iframe A11_0 A11_1 A11_2 A11_3 A11_4 A11_5 A11_6 A11_7 A11_8 A11_9 A11_10 A11_11
  isplitr
  · iexact Hrec
  isplitr
  · iexact Hlev
  iintro %r11 Hpost
  icombine Hpost HFr as HS
  -- step 12
  ihave HS := (Entails.of_eq (eq_step12 m K c)) $$ HS
  icases HS with ⟨Hpre, HFr⟩
  icases Hpre with ⟨A12_0, A12_1, A12_2, A12_3, A12_4, A12_5, A12_6, A12_7, A12_8, A12_9⟩
  iapply (h12 c _ _)
  iframe A12_0 A12_1 A12_2 A12_3 A12_4 A12_5 A12_6 A12_7 A12_8 A12_9
  isplitr
  · iexact Hrec
  isplitr
  · iexact Hlev
  iintro %r12 %hr12 Hpost
  obtain ⟨v280_12, lst_12⟩ := r12
  dsimp only at hr12
  subst hr12
  dsimp only
  icombine Hpost HFr as HS
  -- step 13
  ihave HS := (Entails.of_eq (eq_step13 m K c)) $$ HS
  icases HS with ⟨Hpre, HFr⟩
  icases Hpre with ⟨A13_0, A13_1, A13_2, A13_3, A13_4, A13_5, A13_6, A13_7⟩
  iapply (h13 c _ _ _ _)
  iframe A13_0 A13_1 A13_2 A13_3 A13_4 A13_5 A13_6 A13_7
  isplitr
  · iexact Hrec
  isplitr
  · iexact Hlev
  iintro %r13 Hpost
  icombine Hpost HFr as HS
  -- step 14
  ihave HS := (Entails.of_eq (eq_step14 m K c)) $$ HS
  icases HS with ⟨Hpre, HFr⟩
  icases Hpre with ⟨A14_0, A14_1, A14_2, A14_3, A14_4, A14_5, A14_6, A14_7, A14_8⟩
  iapply (h14 c _ _ _ _)
  iframe A14_0 A14_1 A14_2 A14_3 A14_4 A14_5 A14_6 A14_7 A14_8
  isplitr
  · iexact Hrec
  isplitr
  · iexact Hlev
  iintro %r14 Hpost
  icombine Hpost HFr as HS
  -- step 15
  ihave HS := (Entails.of_eq (eq_step15 m K c)) $$ HS
  icases HS with ⟨Hpre, HFr⟩
  icases Hpre with ⟨A15_0, A15_1, A15_2, A15_3, A15_4, A15_5, A15_6, A15_7, A15_8⟩
  iapply (h15 c _ _ _ _)
  iframe A15_0 A15_1 A15_2 A15_3 A15_4 A15_5 A15_6 A15_7 A15_8
  isplitr
  · iexact Hrec
  isplitr
  · iexact Hlev
  iintro %r15 Hpost
  obtain ⟨v340_15, lst_15⟩ := r15
  dsimp only
  icombine Hpost HFr as HS
  -- step 16
  ihave HS := (Entails.of_eq (eq_step16 m K c)) $$ HS
  icases HS with ⟨Hpre, HFr⟩
  icases Hpre with ⟨A16_0, A16_1, A16_2, A16_3, A16_4, A16_5, A16_6, A16_7, A16_8⟩
  iapply (h16 c _ _ _)
  iframe A16_0 A16_1 A16_2 A16_3 A16_4 A16_5 A16_6 A16_7 A16_8
  isplitr
  · iexact Hrec
  isplitr
  · iexact Hlev
  iintro %r16 Hpost
  icombine Hpost HFr as HS
  -- step 17
  ihave HS := (Entails.of_eq (eq_step17 m K c)) $$ HS
  icases HS with ⟨Hpre, HFr⟩
  icases Hpre with ⟨A17_0, A17_1, A17_2, A17_3, A17_4, A17_5, A17_6, A17_7, A17_8, A17_9⟩
  iapply (h17 c _ _)
  iframe A17_0 A17_1 A17_2 A17_3 A17_4 A17_5 A17_6 A17_7 A17_8 A17_9
  isplitr
  · iexact Hrec
  isplitr
  · iexact Hlev
  iintro %r17 Hpost
  icombine Hpost HFr as HS
  -- step 18
  ihave HS := (Entails.of_eq (eq_step18 m K c)) $$ HS
  icases HS with ⟨Hpre, HFr⟩
  icases Hpre with ⟨A18_0, A18_1, A18_2, A18_3, A18_4, A18_5, A18_6, A18_7, A18_8⟩
  iapply (h18 c _ _)
  iframe A18_0 A18_1 A18_2 A18_3 A18_4 A18_5 A18_6 A18_7 A18_8
  isplitr
  · iexact Hrec
  isplitr
  · iexact Hlev
  iintro %r18 Hpost
  icombine Hpost HFr as HS
  -- step 19
  ihave HS := (Entails.of_eq (eq_step19 m K c)) $$ HS
  icases HS with ⟨Hpre, HFr⟩
  icases Hpre with ⟨A19_0, A19_1, A19_2, A19_3, A19_4, A19_5⟩
  iapply (h19 c _ _ _ _)
  iframe A19_0 A19_1 A19_2 A19_3 A19_4 A19_5
  isplitr
  · iexact Hrec
  isplitr
  · iexact Hlev
  iintro %r19 Hpost
  icombine Hpost HFr as HS
  -- step 20
  ihave HS := (Entails.of_eq (eq_step20 m K c)) $$ HS
  icases HS with ⟨Hpre, HFr⟩
  icases Hpre with ⟨A20_0, A20_1, A20_2, A20_3, A20_4, A20_5, A20_6, A20_7, A20_8, A20_9, A20_10⟩
  iapply (h20 c _ _)
  iframe A20_0 A20_1 A20_2 A20_3 A20_4 A20_5 A20_6 A20_7 A20_8 A20_9 A20_10
  isplitr
  · iexact Hrec
  isplitr
  · iexact Hlev
  iintro %r20 %hr20 Hpost
  subst hr20
  icombine Hpost HFr as HS
  -- step 21
  ihave HS := (Entails.of_eq (eq_step21 m K c)) $$ HS
  icases HS with ⟨Hpre, HFr⟩
  icases Hpre with ⟨A21_0, A21_1, A21_2, A21_3, A21_4, A21_5, A21_6, A21_7⟩
  iapply (h21 c _ _ _)
  iframe A21_0 A21_1 A21_2 A21_3 A21_4 A21_5 A21_6 A21_7
  isplitr
  · iexact Hrec
  isplitr
  · iexact Hlev
  iintro %r21 Hpost
  icombine Hpost HFr as HS
  -- step 22
  ihave HS := (Entails.of_eq (eq_step22 m K c)) $$ HS
  icases HS with ⟨Hpre, HFr⟩
  icases Hpre with ⟨A22_0, A22_1, A22_2, A22_3, A22_4, A22_5, A22_6⟩
  iapply (h22 c _ _)
  iframe A22_0 A22_1 A22_2 A22_3 A22_4 A22_5 A22_6
  isplitr
  · iexact Hrec
  isplitr
  · iexact Hlev
  iintro %r22 Hpost
  icombine Hpost HFr as HS
  -- step 23
  ihave HS := (Entails.of_eq (eq_step23 m K c)) $$ HS
  icases HS with ⟨Hpre, HFr⟩
  icases Hpre with ⟨A23_0, A23_1, A23_2, A23_3, A23_4, A23_5, A23_6, A23_7⟩
  iapply (h23 c _ _ _)
  iframe A23_0 A23_1 A23_2 A23_3 A23_4 A23_5 A23_6 A23_7
  isplitr
  · iexact Hrec
  isplitr
  · iexact Hlev
  iintro %r23 Hpost
  obtain ⟨v509_23, lst_23⟩ := r23
  dsimp only
  icombine Hpost HFr as HS
  -- step 24
  ihave HS := (Entails.of_eq (eq_step24 m K c)) $$ HS
  icases HS with ⟨Hpre, HFr⟩
  icases Hpre with ⟨A24_0, A24_1, A24_2, A24_3, A24_4, A24_5, A24_6, A24_7, A24_8⟩
  iapply (h24 c _ _ _)
  iframe A24_0 A24_1 A24_2 A24_3 A24_4 A24_5 A24_6 A24_7 A24_8
  isplitr
  · iexact Hrec
  isplitr
  · iexact Hlev
  iintro %r24 Hpost
  icombine Hpost HFr as HS
  -- step 25
  ihave HS := (Entails.of_eq (eq_step25 m K c)) $$ HS
  icases HS with ⟨Hpre, HFr⟩
  icases Hpre with ⟨A25_0, A25_1, A25_2, A25_3, A25_4, A25_5, A25_6, A25_7, A25_8, A25_9, A25_10⟩
  iapply (h25 c _ _ _)
  iframe A25_0 A25_1 A25_2 A25_3 A25_4 A25_5 A25_6 A25_7 A25_8 A25_9 A25_10
  isplitr
  · iexact Hrec
  isplitr
  · iexact Hlev
  iintro %r25 Hpost
  obtain ⟨v552_25, lst_25⟩ := r25
  dsimp only
  icombine Hpost HFr as HS
  -- step 26
  ihave HS := (Entails.of_eq (eq_step26 m K c)) $$ HS
  icases HS with ⟨Hpre, HFr⟩
  icases Hpre with ⟨A26_0, A26_1, A26_2, A26_3, A26_4, A26_5⟩
  iapply (h26 c _ _ _)
  iframe A26_0 A26_1 A26_2 A26_3 A26_4 A26_5
  isplitr
  · iexact Hrec
  isplitr
  · iexact Hlev
  iintro %r26 Hpost
  obtain ⟨v573_26, lst_26⟩ := r26
  dsimp only
  icombine Hpost HFr as HS
  -- step 27
  ihave HS := (Entails.of_eq (eq_step27 m K c)) $$ HS
  icases HS with ⟨Hpre, HFr⟩
  icases Hpre with ⟨A27_0, A27_1, A27_2, A27_3, A27_4, A27_5, A27_6, A27_7, A27_8, A27_9, A27_10⟩
  iapply (h27 c _ _)
  iframe A27_0 A27_1 A27_2 A27_3 A27_4 A27_5 A27_6 A27_7 A27_8 A27_9 A27_10
  isplitr
  · iexact Hrec
  isplitr
  · iexact Hlev
  iintro %r27 Hpost
  icombine Hpost HFr as HS
  -- step 28
  ihave HS := (Entails.of_eq (eq_step28 m K c)) $$ HS
  icases HS with ⟨Hpre, HFr⟩
  icases Hpre with ⟨A28_0, A28_1, A28_2, A28_3, A28_4, A28_5, A28_6, A28_7, A28_8, A28_9⟩
  iapply (h28 c _ _)
  iframe A28_0 A28_1 A28_2 A28_3 A28_4 A28_5 A28_6 A28_7 A28_8 A28_9
  isplitr
  · iexact Hrec
  isplitr
  · iexact Hlev
  iintro %r28 %hr28 Hpost
  obtain ⟨v641_28, lst_28⟩ := r28
  dsimp only at hr28
  obtain ⟨rfl, rfl⟩ := hr28
  dsimp only
  icombine Hpost HFr as HS
  -- step 29
  ihave HS := (Entails.of_eq (eq_step29 m K c)) $$ HS
  icases HS with ⟨Hpre, HFr⟩
  icases Hpre with ⟨A29_0, A29_1, A29_2, A29_3, A29_4, A29_5⟩
  iapply (h29 c _ _ _)
  iframe A29_0 A29_1 A29_2 A29_3 A29_4 A29_5
  isplitr
  · iexact Hrec
  isplitr
  · iexact Hlev
  iintro %r29 Hpost
  icombine Hpost HFr as HS
  -- step 30
  ihave HS := (Entails.of_eq (eq_step30 m K c)) $$ HS
  icases HS with ⟨Hpre, HFr⟩
  icases Hpre with ⟨A30_0, A30_1, A30_2, A30_3, A30_4, A30_5, A30_6, A30_7⟩
  iapply (h30 c _ _)
  iframe A30_0 A30_1 A30_2 A30_3 A30_4 A30_5 A30_6 A30_7
  isplitr
  · iexact Hrec
  isplitr
  · iexact Hlev
  iintro %r30 Hpost
  icombine Hpost HFr as HS
  -- step 31
  ihave HS := (Entails.of_eq (eq_step31 m K c)) $$ HS
  icases HS with ⟨Hpre, HFr⟩
  icases Hpre with ⟨A31_0, A31_1, A31_2, A31_3, A31_4, A31_5, A31_6, A31_7⟩
  iapply (h31 c _ _ _)
  iframe A31_0 A31_1 A31_2 A31_3 A31_4 A31_5 A31_6 A31_7
  isplitr
  · iexact Hrec
  isplitr
  · iexact Hlev
  iintro %r31 Hpost
  obtain ⟨v708_31, lst_31⟩ := r31
  dsimp only
  icombine Hpost HFr as HS
  -- step 32
  ihave HS := (Entails.of_eq (eq_step32 m K c)) $$ HS
  icases HS with ⟨Hpre, HFr⟩
  icases Hpre with ⟨A32_0, A32_1, A32_2, A32_3, A32_4, A32_5, A32_6, A32_7⟩
  iapply (h32 c _ _ _ _)
  iframe A32_0 A32_1 A32_2 A32_3 A32_4 A32_5 A32_6 A32_7
  isplitr
  · iexact Hrec
  isplitr
  · iexact Hlev
  iintro %r32 Hpost
  icombine Hpost HFr as HS
  -- step 33
  ihave HS := (Entails.of_eq (eq_step33 m K c)) $$ HS
  icases HS with ⟨Hpre, HFr⟩
  icases Hpre with ⟨A33_0, A33_1, A33_2, A33_3, A33_4, A33_5, A33_6, A33_7, A33_8⟩
  iapply (h33 c _ _ _)
  iframe A33_0 A33_1 A33_2 A33_3 A33_4 A33_5 A33_6 A33_7 A33_8
  isplitr
  · iexact Hrec
  isplitr
  · iexact Hlev
  iintro %r33 Hpost
  icombine Hpost HFr as HS
  -- step 34
  ihave HS := (Entails.of_eq (eq_step34 m K c)) $$ HS
  icases HS with ⟨Hpre, HFr⟩
  icases Hpre with ⟨A34_0, A34_1, A34_2, A34_3, A34_4, A34_5, A34_6, A34_7⟩
  iapply (h34 c _ _)
  iframe A34_0 A34_1 A34_2 A34_3 A34_4 A34_5 A34_6 A34_7
  isplitr
  · iexact Hrec
  isplitr
  · iexact Hlev
  iintro %r34 Hpost
  icombine Hpost HFr as HS
  -- step 35
  ihave HS := (Entails.of_eq (eq_step35 m K c)) $$ HS
  icases HS with ⟨Hpre, HFr⟩
  icases Hpre with ⟨A35_0, A35_1, A35_2, A35_3, A35_4, A35_5, A35_6, A35_7⟩
  iapply (h35 c _ _)
  iframe A35_0 A35_1 A35_2 A35_3 A35_4 A35_5 A35_6 A35_7
  isplitr
  · iexact Hrec
  isplitr
  · iexact Hlev
  iintro %r35 %hr35 Hpost
  subst hr35
  icombine Hpost HFr as HS
  -- step 36
  ihave HS := (Entails.of_eq (eq_step36 m K c)) $$ HS
  icases HS with ⟨Hpre, HFr⟩
  icases Hpre with ⟨A36_0, A36_1, A36_2, A36_3, A36_4, A36_5, A36_6, A36_7⟩
  iapply (h36 c _ _ _)
  iframe A36_0 A36_1 A36_2 A36_3 A36_4 A36_5 A36_6 A36_7
  isplitr
  · iexact Hrec
  isplitr
  · iexact Hlev
  iintro %r36 Hpost
  icombine Hpost HFr as HS
  -- step 37
  ihave HS := (Entails.of_eq (eq_step37 m K c)) $$ HS
  icases HS with ⟨Hpre, HFr⟩
  icases Hpre with ⟨A37_0, A37_1, A37_2, A37_3, A37_4, A37_5, A37_6⟩
  iapply (h37 c _ _)
  iframe A37_0 A37_1 A37_2 A37_3 A37_4 A37_5 A37_6
  isplitr
  · iexact Hrec
  isplitr
  · iexact Hlev
  iintro %r37 Hpost
  icombine Hpost HFr as HS
  -- step 38
  ihave HS := (Entails.of_eq (eq_step38 m K c)) $$ HS
  icases HS with ⟨Hpre, HFr⟩
  icases Hpre with ⟨A38_0, A38_1, A38_2, A38_3, A38_4, A38_5, A38_6, A38_7⟩
  iapply (h38 c _ _)
  iframe A38_0 A38_1 A38_2 A38_3 A38_4 A38_5 A38_6 A38_7
  isplitr
  · iexact Hrec
  isplitr
  · iexact Hlev
  iintro %r38 Hpost
  icombine Hpost HFr as HS
  -- step 39
  ihave HS := (Entails.of_eq (eq_step39 m K c)) $$ HS
  icases HS with ⟨Hpre, HFr⟩
  icases Hpre with ⟨A39_0, A39_1, A39_2, A39_3, A39_4, A39_5, A39_6, A39_7⟩
  iapply (h39 c _ _)
  iframe A39_0 A39_1 A39_2 A39_3 A39_4 A39_5 A39_6 A39_7
  isplitr
  · iexact Hrec
  isplitr
  · iexact Hlev
  iintro %r39 %hr39 Hpost
  obtain ⟨v883_39, lst_39⟩ := r39
  dsimp only at hr39
  subst hr39
  dsimp only
  icombine Hpost HFr as HS
  -- step 40
  ihave HS := (Entails.of_eq (eq_step40 m K c)) $$ HS
  icases HS with ⟨Hpre, HFr⟩
  icases Hpre with ⟨A40_0, A40_1, A40_2, A40_3, A40_4, A40_5, A40_6, A40_7⟩
  iapply (h40 c _ _ _)
  iframe A40_0 A40_1 A40_2 A40_3 A40_4 A40_5 A40_6 A40_7
  isplitr
  · iexact Hrec
  isplitr
  · iexact Hlev
  iintro %r40 %hr40 Hpost
  subst hr40
  icombine Hpost HFr as HS
  -- step 41
  ihave HS := (Entails.of_eq (eq_step41 m K c)) $$ HS
  icases HS with ⟨Hpre, HFr⟩
  icases Hpre with ⟨A41_0, A41_1, A41_2, A41_3, A41_4, A41_5, A41_6⟩
  iapply (h41 c _ _)
  iframe A41_0 A41_1 A41_2 A41_3 A41_4 A41_5 A41_6
  isplitr
  · iexact Hrec
  isplitr
  · iexact Hlev
  iintro %r41 %hr41 Hpost
  obtain ⟨v928_41, v929_41, lst_41⟩ := r41
  dsimp only at hr41
  obtain ⟨rfl, rfl, rfl⟩ := hr41
  dsimp only
  icombine Hpost HFr as HS
  -- step 42
  ihave HS := (Entails.of_eq (eq_step42 m K c)) $$ HS
  icases HS with ⟨Hpre, HFr⟩
  icases Hpre with ⟨A42_0, A42_1, A42_2, A42_3, A42_4, A42_5⟩
  iapply (h42 c _ _ _)
  iframe A42_0 A42_1 A42_2 A42_3 A42_4 A42_5
  isplitr
  · iexact Hrec
  isplitr
  · iexact Hlev
  iintro %r42 Hpost
  icombine Hpost HFr as HS
  -- step 43
  ihave HS := (Entails.of_eq (eq_step43 m K c)) $$ HS
  icases HS with ⟨Hpre, HFr⟩
  icases Hpre with ⟨A43_0, A43_1, A43_2, A43_3, A43_4, A43_5, A43_6, A43_7, A43_8⟩
  iapply (h43 c _ _)
  iframe A43_0 A43_1 A43_2 A43_3 A43_4 A43_5 A43_6 A43_7 A43_8
  isplitr
  · iexact Hrec
  isplitr
  · iexact Hlev
  iintro %r43 Hpost
  icombine Hpost HFr as HS
  -- step 44
  ihave HS := (Entails.of_eq (eq_step44 m K c)) $$ HS
  icases HS with ⟨Hpre, HFr⟩
  icases Hpre with ⟨A44_0, A44_1, A44_2, A44_3, A44_4, A44_5, A44_6⟩
  iapply (h44 c _ _ _)
  iframe A44_0 A44_1 A44_2 A44_3 A44_4 A44_5 A44_6
  isplitr
  · iexact Hrec
  isplitr
  · iexact Hlev
  iintro %r44 Hpost
  icombine Hpost HFr as HS
  -- step 45
  ihave HS := (Entails.of_eq (eq_step45 m K c)) $$ HS
  icases HS with ⟨Hpre, HFr⟩
  icases Hpre with ⟨A45_0, A45_1, A45_2, A45_3, A45_4, A45_5, A45_6, A45_7, A45_8, A45_9, A45_10⟩
  iapply (h45 c _)
  iframe A45_0 A45_1 A45_2 A45_3 A45_4 A45_5 A45_6 A45_7 A45_8 A45_9 A45_10
  isplitr
  · iexact Hrec
  isplitr
  · iexact Hlev
  iintro %r45 Hpost
  icombine Hpost HFr as HS
  -- step 46
  ihave HS := (Entails.of_eq (eq_step46 m K c)) $$ HS
  icases HS with ⟨Hpre, HFr⟩
  icases Hpre with ⟨A46_0, A46_1, A46_2⟩
  iapply (hT c _)
  iframe A46_0 A46_1 A46_2
  isplitr
  · iexact Hrec
  isplitr
  · iexact Hlev
  iintro Hpost
  icombine Hpost HFr as HS
  -- the end
  simp only [wp_pure]
  imodintro
  iapply HFin
  ihave HS := (pair_intro _ _) $$ Hrec HS
  ihave HS := (Entails.of_eq (eq_end m K c)) $$ HS
  icases HS with ⟨-, HS⟩
  iexact HS

end Cert.KernelIdeal.DM
end
-- ==== Proof.OpsSend.lean ====
import proofs.«900891_g7700000000000892_dist_matmul_m_i_outrep_m1024_n1024_k512_v7x_i8_f32_1_alg».proof.Proof.Atoms

/-!
The steps of a device's body that speak to other devices: the entry signal to a neighbour, the wait on the own
barrier, and the transfer of one exchange step to its partner.

A signal to the neighbour in direction `d` pays duty `d` of that neighbour's barrier round and hands over this
device's own target slots of every step the neighbour runs towards it. The wait for the three units of the own
barrier returns, from the three neighbours, the target slots on them of all twenty-four steps. A transfer reads the
share of its source slot that the step holds, writes the partner's target slot it was given, and pays the partner's
receive cell: the landed target read through its view is the source's reading, and a step keeps the origin of the
rows it moves, so what lands is what the partner's schedule says its slot holds.
-/

noncomputable section

namespace Cert.KernelIdeal.DM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-! ## Reading a landed transfer -/

omit [FloatOps F] in
/-- Between two views re-indexed the same way: the target, read at its own indices after the source's reading was
    written through the re-indexed target, reads as the source does at its own indices. -/
theorem read_write_reshape {κ κ' : Kind} {sp sp' : Space} {s s' : Shape} {e : EltTy} (S : View sig κ sp s e) (D : View sig κ' sp' s e)
    (h : s'.numel = s.numel) (fd : D.ty.Contents (Elt F)) (fs : S.ty.Contents (Elt F)) :
    D.read (Elt F) ((D.reshape s' h).write (Elt F) fd ((S.reshape s' h).read (Elt F) fs) Finset.univ) = S.read (Elt F) fs := by
  funext x
  have hD : ∀ (G : D.ty.Contents (Elt F)) (y : s'.Idx),
      (D.reshape s' h).read (Elt F) G y = D.read (Elt F) G (Shape.reshapeEquiv h y) := fun _ _ => rfl
  have hS : ∀ y : s'.Idx, (S.reshape s' h).read (Elt F) fs y = S.read (Elt F) fs (Shape.reshapeEquiv h y) := fun _ => rfl
  have h1 := congrFun (View.read_write_univ (v := D.reshape s' h) fd ((S.reshape s' h).read (Elt F) fs)) ((Shape.reshapeEquiv h).symm x)
  rw [hD, hS, Equiv.apply_symm_apply] at h1
  exact h1

/-! ## The three neighbours' hand-overs together -/

theorem towards_cover : (Finset.univ : Finset (Fin 3 × Fin 8)) = towards 0 ∪ (towards 1 ∪ towards 2) := by decide
theorem towards_disj0 : Disjoint (towards 0) (towards 1 ∪ towards 2) := by decide
theorem towards_disj1 : Disjoint (towards 1) (towards 2) := by decide

omit [FloatOps F] in
/-- A neighbour's hand-over, its targets named by the steps' partner. -/
theorem barPay_targets (d : Fin 3) :
    barPay (F := F) c d ⊢ bigSep (towards d) fun gs : Fin 3 × Fin 8 => dstAny (F := F) (partner c gs.1 gs.2) gs.1 gs.2 := by
  have e : barPay (F := F) c d = bigSep (towards d) fun gs : Fin 3 × Fin 8 =>
      iprop(dstAny (F := F) (partner c gs.1 gs.2) gs.1 gs.2 ∗ reached ER (recvCell (partner c gs.1 gs.2) gs.1 gs.2) 0) := by
    unfold barPay
    refine bigSep_congr fun gs hgs => ?_
    have h : xr c (dir d) = partner c gs.1 gs.2 := by unfold partner; rw [(Finset.mem_filter.mp hgs).2]
    rw [h]
  rw [e, bigSep_sep']
  iintro ⟨H, -⟩; iexact H

omit [FloatOps F] in
theorem barPay_all :
    iprop(barPay (F := F) c 0 ∗ barPay c 1 ∗ barPay c 2)
      ⊢ bigSep Finset.univ fun gs : Fin 3 × Fin 8 => dstAny (F := F) (partner c gs.1 gs.2) gs.1 gs.2 := by
  have e : (bigSep Finset.univ fun gs : Fin 3 × Fin 8 => dstAny (F := F) (partner c gs.1 gs.2) gs.1 gs.2)
      = iprop((bigSep (towards 0) fun gs : Fin 3 × Fin 8 => dstAny (F := F) (partner c gs.1 gs.2) gs.1 gs.2)
          ∗ (bigSep (towards 1) fun gs : Fin 3 × Fin 8 => dstAny (F := F) (partner c gs.1 gs.2) gs.1 gs.2)
          ∗ bigSep (towards 2) fun gs : Fin 3 × Fin 8 => dstAny (F := F) (partner c gs.1 gs.2) gs.1 gs.2) := by
    rw [towards_cover, bigSep_union towards_disj0, bigSep_union towards_disj1]; rfl
  rw [e]
  iintro ⟨H0, H1, H2⟩
  isplitl [H0]; · iapply (barPay_targets c 0); iexact H0
  isplitl [H1]; · iapply (barPay_targets c 1); iexact H1
  iapply (barPay_targets c 2); iexact H2

/-! ## The entry handshake -/

/-- The entry signal to the neighbour in direction `d`. -/
theorem op_signal (d : Fin 3) {n : Dev nD} (hn : n = xr c (dir d)) {a : ℕ} (ha : a = 1)
    (R : CellTallies nD τ sig Unit) (W : Waits sig Unit)
    {α : Type} {Q : α → sProp 𝕄} {k : PUnit → Prog (TpuEff nD τ sig (Elt F) Λ₀ .tc) α} :
    iprop(records (Rd m) K ∗ owes (c : Thread nD τ) (R + owedBar c d) W ∗ dutyTok ER (barCell (xr c (dir d))) 0 d
        ∗ bigSep (towards d) (fun gs : Fin 3 × Fin 8 => dstAny (F := F) c gs.1 gs.2))
      ⊢ iprop((owes (c : Thread nD τ) R W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS a) k) Q) := by
  subst hn ha
  iintro ⟨#Hrec, HO, Htok, Hdst⟩ Hk
  iapply (Rounds.wp_signal 𝒱₀ ER (Rd m) (c : Thread nD τ) none (dst := (xr c (dir d) : Thread nD τ)) (κ := K (xr c (dir d), .inl ()))
      (d := d) (by rw [duties_bar]; exact Finset.mem_univ _) (amount_bar m (xr c (dir d)) d) () R rfl) $$ [HO Htok Hdst]
  · isplitr; · iapply (records_inv (Rd m) K (xr c (dir d), .inl ())); iexact Hrec
    isplitl [HO]; · iexact HO
    isplitl [Htok]; · iexact Htok
    isplitl [Hdst]
    · rw [payload_bar]; unfold barPay; rw [xr_xr, bigSep_sep']
      isplitl [Hdst]; · iexact Hdst
      iapply (bigSep_intro_persistent (R := records (Rd m) K) (S := towards d)
        (Φ := fun gs : Fin 3 × Fin 8 => reached ER (recvCell c gs.1 gs.2) 0)
        fun gs _ => records_reached (Rd m) K (c, .inr (1, gs.1, gs.2)))
      iexact Hrec
    · iapply (records_reached (Rd m) K (xr c (dir d), .inl ())); iexact Hrec
  iexact Hk

/-- The wait for the three units of the own barrier. -/
theorem op_barwait {a : ℕ} (ha : a = 3) (O : CellTallies nD τ sig Unit) (hO : Above 1 O) (W : Waits sig Unit)
    {α : Type} {Q : α → sProp 𝕄} {k : PUnit → Prog (TpuEff nD τ sig (Elt F) Λ₀ .tc) α} :
    iprop(records (Rd m) K ∗ levAts L lv ∗ cred (tallyAt (barCell c) () 3)
        ∗ atPos ER (barCell c) 0 ∅ 0 ∗ owes (c : Thread nD τ) O W)
      ⊢ iprop(((owes (c : Thread nD τ) O (insert (SemLoc.reg barS, ()) W) ∗ atPos ER (barCell c) 1 ∅ 0
              ∗ bigSep Finset.univ (fun gs : Fin 3 × Fin 8 => dstAny (F := F) (partner c gs.1 gs.2) gs.1 gs.2))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  iintro ⟨#Hrec, #Hlev, Hc, Hat, HO⟩ Hk
  iapply (Rounds.wp_wait_rest_token 𝒱₀ ER (Rd m) (c : Thread nD τ) none (κ := K (c, .inl ()))
      (wpE_semWait_eq 𝒱₀ (c : Thread nD τ) none Set.univ) (Set.mem_univ _) () (O := O) (W := W) (R := 0) (m := 0) (T := ∅)
      (by rw [expect_bar])) $$ [Hc HO Hat]
  · isplitr; · iapply (records_inv (Rd m) K (c, .inl ())); iexact Hrec
    isplitl [Hc]; · iexact Hc
    isplitl [HO]; · iexact HO
    isplitr; · iapply (mayWait_of_above c (.reg barS) O (by rw [lv_bar]; exact hO)); iexact Hlev
    iexact Hat
  iintro ⟨HO, Hat, -, Hpay⟩
  ihave Hp := (Entails.of_eq (rest_bar m c)) $$ Hpay
  iapply Hk
  isplitl [HO]; · iexact HO
  isplitl [Hat]; · iexact Hat
  iapply (barPay_all c); iexact Hp

/-! ## A transfer of one exchange step -/

/-- The transfer of step `st` of group `g`, through whatever views the source share and the target are held: the two
    duties' payloads are made from the source share and from the target rewritten. -/
theorem op_send_raw (g : Fin 3) (st : Fin 8) {s : Shape} {src dst : Memref sig .tc .vmem s .bf16}
    (fs : Buf (Elt F) (src.view.loc (c : Thread nD τ))) (fd : Buf (Elt F) (dst.view.loc (partner c g st : Thread nD τ)))
    (hN : dst.view.dmaCredit = xferAmt g st)
    (hpay₁ : (src.view.loc (c : Thread nD τ) ↦[src.view.set]{qs st} fs : sProp 𝕄) ⊢ sendPay m c g st)
    (hpay₂ : (dst.view.loc (partner c g st : Thread nD τ) ↦[dst.view.set]{fullShare}
        (dst.view.write (Elt F) fd (src.view.read (Elt F) fs) Finset.univ) : sProp 𝕄) ⊢ recvPay m (partner c g st) g st)
    (R : CellTallies nD τ sig Unit) (W : Waits sig Unit)
    {hsc : (dst : Memref sig (Dev.tc (partner c g st) : Thread nD τ).2.kind .vmem s .bf16).view.ref.isScScratch = false}
    {hsrc : src.view.WordExact} {hdst : dst.view.WordExact}
    {hsem : DmaTarget.Typed .vmem (.dma (recvS g st)) (.remote (Dev.tc (partner c g st) : Thread nD τ) dst (.dma (sendS g st)) hsc)}
    {α : Type} {Q : α → sProp 𝕄} {k : PUnit → Prog (TpuEff nD τ sig (Elt F) Λ₀ .tc) α} :
    iprop(records (Rd m) K ∗ (src.view.loc (c : Thread nD τ) ↦[src.view.set]{qs st} fs)
        ∗ (dst.view.loc (partner c g st : Thread nD τ) ↦[dst.view.set]{fullShare} fd)
        ∗ owes (c : Thread nD τ) (R + owedStep c g st) W
        ∗ dutyTok ER (sendCell c g st) 0 0 ∗ dutyTok ER (recvCell (partner c g st) g st) 0 0)
      ⊢ iprop(((cred (tallyAt (sendCell c g st) () (xferAmt g st)) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc (partner c g st) : Thread nD τ) dst (.dma (sendS g st)) hsc) (.dma (recvS g st)) hsrc hdst hsem) k) Q) := by
  iintro ⟨#Hrec, Hs, Hd, HO, Ht1, Ht2⟩ Hk
  iapply (Rounds.wp_send_pointsTo 𝒱₀ ER (Rd m) (c : Thread nD τ) none (c' := (partner c g st : Thread nD τ)) (src := src) (dst := dst)
      (q := qs st) (fs := fs) (fd := fd)
      (κ₁ := K (c, .inr (0, g, st))) (κ₂ := K (partner c g st, .inr (1, g, st)))
      (r₁ := 0) (r₂ := 0) (d₁ := 0) (d₂ := 0)
      (by rw [duties_send]; exact Finset.mem_singleton_self _) (by rw [duties_recv]; exact Finset.mem_singleton_self _)
      () () (xferAmt g st) (show dst.view.amount (.dma (recvS g st)) = xferAmt g st from hN) (amount_send m c g st 0) (amount_recv m (partner c g st) g st 0) R rfl (W := W)
      (by rw [payload_send]; exact hpay₁) (by rw [payload_recv]; exact hpay₂)) $$ [Hs Hd HO Ht1 Ht2]
  · isplitr; · iapply (records_inv (Rd m) K (c, .inr (0, g, st))); iexact Hrec
    isplitr; · iapply (records_inv (Rd m) K (partner c g st, .inr (1, g, st))); iexact Hrec
    isplitl [Hs]; · iexact Hs
    isplitl [Hd]; · iexact Hd
    isplitl [HO]; · iexact HO
    isplitl [Ht1]; · iexact Ht1
    isplitr; · iapply (records_reached (Rd m) K (c, .inr (0, g, st))); iexact Hrec
    isplitl [Ht2]; · iexact Ht2
    iapply (records_reached (Rd m) K (partner c g st, .inr (1, g, st))); iexact Hrec
  iexact Hk

/-! ### Row group 0: a whole slot, the rows below 176 of slot 3, the rows from 176 on -/

theorem op_send_g0 (st : Fin 8) (hst : st.val ≤ 5) {n : Dev nD} (hn : n = partner c 0 st)
    {sS sR : DmaSem sig} (hsS : sS = sendS 0 st) (hsR : sR = recvS 0 st)
    (R : CellTallies nD τ sig Unit) (W : Waits sig Unit)
    {hsc : ((gs0 (dstSlot st)) : Memref sig (Dev.tc n : Thread nD τ).2.kind .vmem S1x352x512 .bf16).view.ref.isScScratch = false}
    {hsrc : (gs0 (srcSlot st)).view.WordExact} {hdst : (gs0 (dstSlot st)).view.WordExact}
    {hsem : DmaTarget.Typed .vmem (.dma sR) (.remote (Dev.tc n : Thread nD τ) (gs0 (dstSlot st)) (.dma sS) hsc)}
    {α : Type} {Q : α → sProp 𝕄} {k : PUnit → Prog (TpuEff nD τ sig (Elt F) Λ₀ .tc) α} :
    iprop(records (Rd m) K ∗ holdsPts c (gs0 (srcSlot st)) (qs st) (sv0 m (xr c (mask 0 (srcSlot st)))) ∗ dstAny (F := F) (partner c 0 st) 0 st
        ∗ owes (c : Thread nD τ) (R + owedStep c 0 st) W
        ∗ dutyTok ER (sendCell c 0 st) 0 0 ∗ dutyTok ER (recvCell (partner c 0 st) 0 st) 0 0)
      ⊢ iprop(((cred (tallyAt (sendCell c 0 st) () (xferAmt 0 st)) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gs0 (srcSlot st)) (.remote (Dev.tc n : Thread nD τ) (gs0 (dstSlot st)) (.dma sS) hsc) (.dma sR) hsrc hdst hsem) k) Q) := by
  subst hn hsS hsR
  have h6 : st ≠ 6 := by rintro rfl; exact absurd hst (by decide)
  have h7 : st ≠ 7 := by rintro rfl; exact absurd hst (by decide)
  have eA : dstAny (F := F) (partner c 0 st) 0 st = anyPts (partner c 0 st) (gs0 (dstSlot st)) := by
    unfold dstAny; simp only [if_neg h6, if_neg h7]
  have eS : sendPay m c 0 st = holdsPts c (gs0 (srcSlot st)) (qs st) (sv0 m (xr c (mask 0 (srcSlot st)))) := by
    unfold sendPay; simp only [if_neg h6, if_neg h7]
  have eR : recvPay m (partner c 0 st) 0 st
      = holdsPts (partner c 0 st) (gs0 (dstSlot st)) fullShare (sv0 m (xr c (mask 0 (srcSlot st)))) := by
    unfold recvPay; simp only [if_neg h6, if_neg h7, origin_step]
  have hN : (gs0 (dstSlot st)).view.dmaCredit = xferAmt 0 st := by
    (unfold xferAmt; simp only [if_neg h6, if_neg h7]) <;> rfl
  rw [eA]; simp only [holdsPts_eq, anyPts_eq]
  iintro ⟨#Hrec, ⟨%fs, Hs, %hv⟩, ⟨%fd, Hd⟩, HO, Ht1, Ht2⟩ Hk
  iapply (op_send_raw m K c 0 st (src := gs0 (srcSlot st)) (dst := gs0 (dstSlot st)) fs fd hN
      (by rw [eS]; simp only [holdsPts_eq]; iintro H; iexists fs; isplitl [H]; · iexact H
          ipureintro; exact hv)
      (by rw [eR]; simp only [holdsPts_eq]; iintro H; iexists _; isplitl [H]; · iexact H
          ipureintro; rw [View.read_write_univ]; exact hv) R W) $$ [Hs Hd HO Ht1 Ht2]
  · isplitr; · iexact Hrec
    isplitl [Hs]; · iexact Hs
    isplitl [Hd]; · iexact Hd
    isplitl [HO]; · iexact HO
    isplitl [Ht1] <;> iassumption
  iexact Hk

theorem op_send_g0a {n : Dev nD} (hn : n = partner c 0 6)
    {sS sR : DmaSem sig} (hsS : sS = sendS 0 6) (hsR : sR = recvS 0 6)
    (R : CellTallies nD τ sig Unit) (W : Waits sig Unit)
    {hsc : (((ga0 7).squeeze S176x512 squeezes_S1x176x512_S176x512) : Memref sig (Dev.tc n : Thread nD τ).2.kind .vmem S176x512 .bf16).view.ref.isScScratch = false}
    {hsrc : ((ga0 3).squeeze S176x512 squeezes_S1x176x512_S176x512).view.WordExact} {hdst : ((ga0 7).squeeze S176x512 squeezes_S1x176x512_S176x512).view.WordExact}
    {hsem : DmaTarget.Typed .vmem (.dma sR) (.remote (Dev.tc n : Thread nD τ) ((ga0 7).squeeze S176x512 squeezes_S1x176x512_S176x512) (.dma sS) hsc)}
    {α : Type} {Q : α → sProp 𝕄} {k : PUnit → Prog (TpuEff nD τ sig (Elt F) Λ₀ .tc) α} :
    iprop(records (Rd m) K ∗ holdsPts c (ga0 3) (qs 6) (topA (sv0 m (xr c (mask 0 3)))) ∗ dstAny (F := F) (partner c 0 6) 0 6
        ∗ owes (c : Thread nD τ) (R + owedStep c 0 6) W
        ∗ dutyTok ER (sendCell c 0 6) 0 0 ∗ dutyTok ER (recvCell (partner c 0 6) 0 6) 0 0)
      ⊢ iprop(((cred (tallyAt (sendCell c 0 6) () (xferAmt 0 6)) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((ga0 3).squeeze S176x512 squeezes_S1x176x512_S176x512) (.remote (Dev.tc n : Thread nD τ) ((ga0 7).squeeze S176x512 squeezes_S1x176x512_S176x512) (.dma sS) hsc) (.dma sR) hsrc hdst hsem) k) Q) := by
  subst hn hsS hsR
  have hN : ((ga0 7).squeeze S176x512 squeezes_S1x176x512_S176x512).view.dmaCredit = xferAmt 0 6 := rfl
  have eS : sendPay m c 0 6 = holdsPts c (ga0 3) (qs 6) (topA (sv0 m (xr c (mask 0 3)))) := rfl
  have eR : recvPay m (partner c 0 6) 0 6
      = holdsPts (partner c 0 6) (ga0 7) fullShare (topA (sv0 m (xr c (mask 0 3)))) := by
    have h : xr (partner c 0 6) (mask 0 7) = xr c (mask 0 3) := origin_step c 0 6
    rw [← h]; rfl
  have es : ((ga0 3).squeeze S176x512 squeezes_S1x176x512_S176x512).view.set = (ga0 3).view.set := View.set_reshape _ _
  have ed : ((ga0 7).squeeze S176x512 squeezes_S1x176x512_S176x512).view.set = (ga0 7).view.set := View.set_reshape _ _
  have eA : dstAny (F := F) (partner c 0 6) 0 6 = anyPts (partner c 0 6) (ga0 7) := rfl
  rw [eA]; simp only [holdsPts_eq, anyPts_eq]
  iintro ⟨#Hrec, ⟨%fs, Hs, %hv⟩, ⟨%fd, Hd⟩, HO, Ht1, Ht2⟩ Hk
  iapply (op_send_raw m K c 0 6 (src := (ga0 3).squeeze S176x512 squeezes_S1x176x512_S176x512) (dst := (ga0 7).squeeze S176x512 squeezes_S1x176x512_S176x512) fs fd hN
      (by rw [eS, es]; simp only [holdsPts_eq]; iintro H; iexists fs; isplitl [H]; · iexact H
          ipureintro; exact hv)
      (by rw [eR, ed]; simp only [holdsPts_eq]; iintro H; iexists _; isplitl [H]; · iexact H
          ipureintro; exact (read_write_reshape (ga0 3).view (ga0 7).view _ fd fs).trans hv) R W) $$ [Hs Hd HO Ht1 Ht2]
  · isplitr; · iexact Hrec
    isplitl [Hs]; · rw [es]; iexact Hs
    isplitl [Hd]; · rw [ed]; iexact Hd
    isplitl [HO]; · iexact HO
    isplitl [Ht1] <;> iassumption
  iexact Hk

theorem op_send_g0b {n : Dev nD} (hn : n = partner c 0 7)
    {sS sR : DmaSem sig} (hsS : sS = sendS 0 7) (hsR : sR = recvS 0 7)
    (R : CellTallies nD τ sig Unit) (W : Waits sig Unit)
    {hsc : (((gb0 7).squeeze S176x512 squeezes_S1x176x512_S176x512) : Memref sig (Dev.tc n : Thread nD τ).2.kind .vmem S176x512 .bf16).view.ref.isScScratch = false}
    {hsrc : ((gb0 3).squeeze S176x512 squeezes_S1x176x512_S176x512).view.WordExact} {hdst : ((gb0 7).squeeze S176x512 squeezes_S1x176x512_S176x512).view.WordExact}
    {hsem : DmaTarget.Typed .vmem (.dma sR) (.remote (Dev.tc n : Thread nD τ) ((gb0 7).squeeze S176x512 squeezes_S1x176x512_S176x512) (.dma sS) hsc)}
    {α : Type} {Q : α → sProp 𝕄} {k : PUnit → Prog (TpuEff nD τ sig (Elt F) Λ₀ .tc) α} :
    iprop(records (Rd m) K ∗ holdsPts c (gb0 3) (qs 7) (botA (sv0 m (xr c (mask 0 3)))) ∗ dstAny (F := F) (partner c 0 7) 0 7
        ∗ owes (c : Thread nD τ) (R + owedStep c 0 7) W
        ∗ dutyTok ER (sendCell c 0 7) 0 0 ∗ dutyTok ER (recvCell (partner c 0 7) 0 7) 0 0)
      ⊢ iprop(((cred (tallyAt (sendCell c 0 7) () (xferAmt 0 7)) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((gb0 3).squeeze S176x512 squeezes_S1x176x512_S176x512) (.remote (Dev.tc n : Thread nD τ) ((gb0 7).squeeze S176x512 squeezes_S1x176x512_S176x512) (.dma sS) hsc) (.dma sR) hsrc hdst hsem) k) Q) := by
  subst hn hsS hsR
  have hN : ((gb0 7).squeeze S176x512 squeezes_S1x176x512_S176x512).view.dmaCredit = xferAmt 0 7 := rfl
  have eS : sendPay m c 0 7 = holdsPts c (gb0 3) (qs 7) (botA (sv0 m (xr c (mask 0 3)))) := rfl
  have eR : recvPay m (partner c 0 7) 0 7
      = holdsPts (partner c 0 7) (gb0 7) fullShare (botA (sv0 m (xr c (mask 0 3)))) := by
    have h : xr (partner c 0 7) (mask 0 7) = xr c (mask 0 3) := origin_step c 0 7
    rw [← h]; rfl
  have es : ((gb0 3).squeeze S176x512 squeezes_S1x176x512_S176x512).view.set = (gb0 3).view.set := View.set_reshape _ _
  have ed : ((gb0 7).squeeze S176x512 squeezes_S1x176x512_S176x512).view.set = (gb0 7).view.set := View.set_reshape _ _
  have eA : dstAny (F := F) (partner c 0 7) 0 7 = anyPts (partner c 0 7) (gb0 7) := rfl
  rw [eA]; simp only [holdsPts_eq, anyPts_eq]
  iintro ⟨#Hrec, ⟨%fs, Hs, %hv⟩, ⟨%fd, Hd⟩, HO, Ht1, Ht2⟩ Hk
  iapply (op_send_raw m K c 0 7 (src := (gb0 3).squeeze S176x512 squeezes_S1x176x512_S176x512) (dst := (gb0 7).squeeze S176x512 squeezes_S1x176x512_S176x512) fs fd hN
      (by rw [eS, es]; simp only [holdsPts_eq]; iintro H; iexists fs; isplitl [H]; · iexact H
          ipureintro; exact hv)
      (by rw [eR, ed]; simp only [holdsPts_eq]; iintro H; iexists _; isplitl [H]; · iexact H
          ipureintro; exact (read_write_reshape (gb0 3).view (gb0 7).view _ fd fs).trans hv) R W) $$ [Hs Hd HO Ht1 Ht2]
  · isplitr; · iexact Hrec
    isplitl [Hs]; · rw [es]; iexact Hs
    isplitl [Hd]; · rw [ed]; iexact Hd
    isplitl [HO]; · iexact HO
    isplitl [Ht1] <;> iassumption
  iexact Hk

/-! ### Row group 1: a whole slot, the rows below 176 of slot 3, the rows from 176 on -/

theorem op_send_g1 (st : Fin 8) (hst : st.val ≤ 5) {n : Dev nD} (hn : n = partner c 1 st)
    {sS sR : DmaSem sig} (hsS : sS = sendS 1 st) (hsR : sR = recvS 1 st)
    (R : CellTallies nD τ sig Unit) (W : Waits sig Unit)
    {hsc : ((gs1 (dstSlot st)) : Memref sig (Dev.tc n : Thread nD τ).2.kind .vmem S1x336x512 .bf16).view.ref.isScScratch = false}
    {hsrc : (gs1 (srcSlot st)).view.WordExact} {hdst : (gs1 (dstSlot st)).view.WordExact}
    {hsem : DmaTarget.Typed .vmem (.dma sR) (.remote (Dev.tc n : Thread nD τ) (gs1 (dstSlot st)) (.dma sS) hsc)}
    {α : Type} {Q : α → sProp 𝕄} {k : PUnit → Prog (TpuEff nD τ sig (Elt F) Λ₀ .tc) α} :
    iprop(records (Rd m) K ∗ holdsPts c (gs1 (srcSlot st)) (qs st) (sv1 m (xr c (mask 1 (srcSlot st)))) ∗ dstAny (F := F) (partner c 1 st) 1 st
        ∗ owes (c : Thread nD τ) (R + owedStep c 1 st) W
        ∗ dutyTok ER (sendCell c 1 st) 0 0 ∗ dutyTok ER (recvCell (partner c 1 st) 1 st) 0 0)
      ⊢ iprop(((cred (tallyAt (sendCell c 1 st) () (xferAmt 1 st)) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gs1 (srcSlot st)) (.remote (Dev.tc n : Thread nD τ) (gs1 (dstSlot st)) (.dma sS) hsc) (.dma sR) hsrc hdst hsem) k) Q) := by
  subst hn hsS hsR
  have h6 : st ≠ 6 := by rintro rfl; exact absurd hst (by decide)
  have h7 : st ≠ 7 := by rintro rfl; exact absurd hst (by decide)
  have eA : dstAny (F := F) (partner c 1 st) 1 st = anyPts (partner c 1 st) (gs1 (dstSlot st)) := by
    unfold dstAny; simp only [if_neg h6, if_neg h7]
  have eS : sendPay m c 1 st = holdsPts c (gs1 (srcSlot st)) (qs st) (sv1 m (xr c (mask 1 (srcSlot st)))) := by
    unfold sendPay; simp only [if_neg h6, if_neg h7]
  have eR : recvPay m (partner c 1 st) 1 st
      = holdsPts (partner c 1 st) (gs1 (dstSlot st)) fullShare (sv1 m (xr c (mask 1 (srcSlot st)))) := by
    unfold recvPay; simp only [if_neg h6, if_neg h7, origin_step]
  have hN : (gs1 (dstSlot st)).view.dmaCredit = xferAmt 1 st := by
    (unfold xferAmt; simp only [if_neg h6, if_neg h7]) <;> rfl
  rw [eA]; simp only [holdsPts_eq, anyPts_eq]
  iintro ⟨#Hrec, ⟨%fs, Hs, %hv⟩, ⟨%fd, Hd⟩, HO, Ht1, Ht2⟩ Hk
  iapply (op_send_raw m K c 1 st (src := gs1 (srcSlot st)) (dst := gs1 (dstSlot st)) fs fd hN
      (by rw [eS]; simp only [holdsPts_eq]; iintro H; iexists fs; isplitl [H]; · iexact H
          ipureintro; exact hv)
      (by rw [eR]; simp only [holdsPts_eq]; iintro H; iexists _; isplitl [H]; · iexact H
          ipureintro; rw [View.read_write_univ]; exact hv) R W) $$ [Hs Hd HO Ht1 Ht2]
  · isplitr; · iexact Hrec
    isplitl [Hs]; · iexact Hs
    isplitl [Hd]; · iexact Hd
    isplitl [HO]; · iexact HO
    isplitl [Ht1] <;> iassumption
  iexact Hk

theorem op_send_g1a {n : Dev nD} (hn : n = partner c 1 6)
    {sS sR : DmaSem sig} (hsS : sS = sendS 1 6) (hsR : sR = recvS 1 6)
    (R : CellTallies nD τ sig Unit) (W : Waits sig Unit)
    {hsc : (((ga1 7).squeeze S176x512 squeezes_S1x176x512_S176x512) : Memref sig (Dev.tc n : Thread nD τ).2.kind .vmem S176x512 .bf16).view.ref.isScScratch = false}
    {hsrc : ((ga1 3).squeeze S176x512 squeezes_S1x176x512_S176x512).view.WordExact} {hdst : ((ga1 7).squeeze S176x512 squeezes_S1x176x512_S176x512).view.WordExact}
    {hsem : DmaTarget.Typed .vmem (.dma sR) (.remote (Dev.tc n : Thread nD τ) ((ga1 7).squeeze S176x512 squeezes_S1x176x512_S176x512) (.dma sS) hsc)}
    {α : Type} {Q : α → sProp 𝕄} {k : PUnit → Prog (TpuEff nD τ sig (Elt F) Λ₀ .tc) α} :
    iprop(records (Rd m) K ∗ holdsPts c (ga1 3) (qs 6) (topB (sv1 m (xr c (mask 1 3)))) ∗ dstAny (F := F) (partner c 1 6) 1 6
        ∗ owes (c : Thread nD τ) (R + owedStep c 1 6) W
        ∗ dutyTok ER (sendCell c 1 6) 0 0 ∗ dutyTok ER (recvCell (partner c 1 6) 1 6) 0 0)
      ⊢ iprop(((cred (tallyAt (sendCell c 1 6) () (xferAmt 1 6)) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((ga1 3).squeeze S176x512 squeezes_S1x176x512_S176x512) (.remote (Dev.tc n : Thread nD τ) ((ga1 7).squeeze S176x512 squeezes_S1x176x512_S176x512) (.dma sS) hsc) (.dma sR) hsrc hdst hsem) k) Q) := by
  subst hn hsS hsR
  have hN : ((ga1 7).squeeze S176x512 squeezes_S1x176x512_S176x512).view.dmaCredit = xferAmt 1 6 := rfl
  have eS : sendPay m c 1 6 = holdsPts c (ga1 3) (qs 6) (topB (sv1 m (xr c (mask 1 3)))) := rfl
  have eR : recvPay m (partner c 1 6) 1 6
      = holdsPts (partner c 1 6) (ga1 7) fullShare (topB (sv1 m (xr c (mask 1 3)))) := by
    have h : xr (partner c 1 6) (mask 1 7) = xr c (mask 1 3) := origin_step c 1 6
    rw [← h]; rfl
  have es : ((ga1 3).squeeze S176x512 squeezes_S1x176x512_S176x512).view.set = (ga1 3).view.set := View.set_reshape _ _
  have ed : ((ga1 7).squeeze S176x512 squeezes_S1x176x512_S176x512).view.set = (ga1 7).view.set := View.set_reshape _ _
  have eA : dstAny (F := F) (partner c 1 6) 1 6 = anyPts (partner c 1 6) (ga1 7) := rfl
  rw [eA]; simp only [holdsPts_eq, anyPts_eq]
  iintro ⟨#Hrec, ⟨%fs, Hs, %hv⟩, ⟨%fd, Hd⟩, HO, Ht1, Ht2⟩ Hk
  iapply (op_send_raw m K c 1 6 (src := (ga1 3).squeeze S176x512 squeezes_S1x176x512_S176x512) (dst := (ga1 7).squeeze S176x512 squeezes_S1x176x512_S176x512) fs fd hN
      (by rw [eS, es]; simp only [holdsPts_eq]; iintro H; iexists fs; isplitl [H]; · iexact H
          ipureintro; exact hv)
      (by rw [eR, ed]; simp only [holdsPts_eq]; iintro H; iexists _; isplitl [H]; · iexact H
          ipureintro; exact (read_write_reshape (ga1 3).view (ga1 7).view _ fd fs).trans hv) R W) $$ [Hs Hd HO Ht1 Ht2]
  · isplitr; · iexact Hrec
    isplitl [Hs]; · rw [es]; iexact Hs
    isplitl [Hd]; · rw [ed]; iexact Hd
    isplitl [HO]; · iexact HO
    isplitl [Ht1] <;> iassumption
  iexact Hk

theorem op_send_g1b {n : Dev nD} (hn : n = partner c 1 7)
    {sS sR : DmaSem sig} (hsS : sS = sendS 1 7) (hsR : sR = recvS 1 7)
    (R : CellTallies nD τ sig Unit) (W : Waits sig Unit)
    {hsc : (((gb1 7).squeeze S160x512 squeezes_S1x160x512_S160x512) : Memref sig (Dev.tc n : Thread nD τ).2.kind .vmem S160x512 .bf16).view.ref.isScScratch = false}
    {hsrc : ((gb1 3).squeeze S160x512 squeezes_S1x160x512_S160x512).view.WordExact} {hdst : ((gb1 7).squeeze S160x512 squeezes_S1x160x512_S160x512).view.WordExact}
    {hsem : DmaTarget.Typed .vmem (.dma sR) (.remote (Dev.tc n : Thread nD τ) ((gb1 7).squeeze S160x512 squeezes_S1x160x512_S160x512) (.dma sS) hsc)}
    {α : Type} {Q : α → sProp 𝕄} {k : PUnit → Prog (TpuEff nD τ sig (Elt F) Λ₀ .tc) α} :
    iprop(records (Rd m) K ∗ holdsPts c (gb1 3) (qs 7) (botB (sv1 m (xr c (mask 1 3)))) ∗ dstAny (F := F) (partner c 1 7) 1 7
        ∗ owes (c : Thread nD τ) (R + owedStep c 1 7) W
        ∗ dutyTok ER (sendCell c 1 7) 0 0 ∗ dutyTok ER (recvCell (partner c 1 7) 1 7) 0 0)
      ⊢ iprop(((cred (tallyAt (sendCell c 1 7) () (xferAmt 1 7)) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((gb1 3).squeeze S160x512 squeezes_S1x160x512_S160x512) (.remote (Dev.tc n : Thread nD τ) ((gb1 7).squeeze S160x512 squeezes_S1x160x512_S160x512) (.dma sS) hsc) (.dma sR) hsrc hdst hsem) k) Q) := by
  subst hn hsS hsR
  have hN : ((gb1 7).squeeze S160x512 squeezes_S1x160x512_S160x512).view.dmaCredit = xferAmt 1 7 := rfl
  have eS : sendPay m c 1 7 = holdsPts c (gb1 3) (qs 7) (botB (sv1 m (xr c (mask 1 3)))) := rfl
  have eR : recvPay m (partner c 1 7) 1 7
      = holdsPts (partner c 1 7) (gb1 7) fullShare (botB (sv1 m (xr c (mask 1 3)))) := by
    have h : xr (partner c 1 7) (mask 1 7) = xr c (mask 1 3) := origin_step c 1 7
    rw [← h]; rfl
  have es : ((gb1 3).squeeze S160x512 squeezes_S1x160x512_S160x512).view.set = (gb1 3).view.set := View.set_reshape _ _
  have ed : ((gb1 7).squeeze S160x512 squeezes_S1x160x512_S160x512).view.set = (gb1 7).view.set := View.set_reshape _ _
  have eA : dstAny (F := F) (partner c 1 7) 1 7 = anyPts (partner c 1 7) (gb1 7) := rfl
  rw [eA]; simp only [holdsPts_eq, anyPts_eq]
  iintro ⟨#Hrec, ⟨%fs, Hs, %hv⟩, ⟨%fd, Hd⟩, HO, Ht1, Ht2⟩ Hk
  iapply (op_send_raw m K c 1 7 (src := (gb1 3).squeeze S160x512 squeezes_S1x160x512_S160x512) (dst := (gb1 7).squeeze S160x512 squeezes_S1x160x512_S160x512) fs fd hN
      (by rw [eS, es]; simp only [holdsPts_eq]; iintro H; iexists fs; isplitl [H]; · iexact H
          ipureintro; exact hv)
      (by rw [eR, ed]; simp only [holdsPts_eq]; iintro H; iexists _; isplitl [H]; · iexact H
          ipureintro; exact (read_write_reshape (gb1 3).view (gb1 7).view _ fd fs).trans hv) R W) $$ [Hs Hd HO Ht1 Ht2]
  · isplitr; · iexact Hrec
    isplitl [Hs]; · rw [es]; iexact Hs
    isplitl [Hd]; · rw [ed]; iexact Hd
    isplitl [HO]; · iexact HO
    isplitl [Ht1] <;> iassumption
  iexact Hk

/-! ### Row group 2: a whole slot, the rows below 176 of slot 3, the rows from 176 on -/

theorem op_send_g2 (st : Fin 8) (hst : st.val ≤ 5) {n : Dev nD} (hn : n = partner c 2 st)
    {sS sR : DmaSem sig} (hsS : sS = sendS 2 st) (hsR : sR = recvS 2 st)
    (R : CellTallies nD τ sig Unit) (W : Waits sig Unit)
    {hsc : ((gs2 (dstSlot st)) : Memref sig (Dev.tc n : Thread nD τ).2.kind .vmem S1x336x512 .bf16).view.ref.isScScratch = false}
    {hsrc : (gs2 (srcSlot st)).view.WordExact} {hdst : (gs2 (dstSlot st)).view.WordExact}
    {hsem : DmaTarget.Typed .vmem (.dma sR) (.remote (Dev.tc n : Thread nD τ) (gs2 (dstSlot st)) (.dma sS) hsc)}
    {α : Type} {Q : α → sProp 𝕄} {k : PUnit → Prog (TpuEff nD τ sig (Elt F) Λ₀ .tc) α} :
    iprop(records (Rd m) K ∗ holdsPts c (gs2 (srcSlot st)) (qs st) (sv2 m (xr c (mask 2 (srcSlot st)))) ∗ dstAny (F := F) (partner c 2 st) 2 st
        ∗ owes (c : Thread nD τ) (R + owedStep c 2 st) W
        ∗ dutyTok ER (sendCell c 2 st) 0 0 ∗ dutyTok ER (recvCell (partner c 2 st) 2 st) 0 0)
      ⊢ iprop(((cred (tallyAt (sendCell c 2 st) () (xferAmt 2 st)) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gs2 (srcSlot st)) (.remote (Dev.tc n : Thread nD τ) (gs2 (dstSlot st)) (.dma sS) hsc) (.dma sR) hsrc hdst hsem) k) Q) := by
  subst hn hsS hsR
  have h6 : st ≠ 6 := by rintro rfl; exact absurd hst (by decide)
  have h7 : st ≠ 7 := by rintro rfl; exact absurd hst (by decide)
  have eA : dstAny (F := F) (partner c 2 st) 2 st = anyPts (partner c 2 st) (gs2 (dstSlot st)) := by
    unfold dstAny; simp only [if_neg h6, if_neg h7]
  have eS : sendPay m c 2 st = holdsPts c (gs2 (srcSlot st)) (qs st) (sv2 m (xr c (mask 2 (srcSlot st)))) := by
    unfold sendPay; simp only [if_neg h6, if_neg h7]
  have eR : recvPay m (partner c 2 st) 2 st
      = holdsPts (partner c 2 st) (gs2 (dstSlot st)) fullShare (sv2 m (xr c (mask 2 (srcSlot st)))) := by
    unfold recvPay; simp only [if_neg h6, if_neg h7, origin_step]
  have hN : (gs2 (dstSlot st)).view.dmaCredit = xferAmt 2 st := by
    (unfold xferAmt; simp only [if_neg h6, if_neg h7]) <;> rfl
  rw [eA]; simp only [holdsPts_eq, anyPts_eq]
  iintro ⟨#Hrec, ⟨%fs, Hs, %hv⟩, ⟨%fd, Hd⟩, HO, Ht1, Ht2⟩ Hk
  iapply (op_send_raw m K c 2 st (src := gs2 (srcSlot st)) (dst := gs2 (dstSlot st)) fs fd hN
      (by rw [eS]; simp only [holdsPts_eq]; iintro H; iexists fs; isplitl [H]; · iexact H
          ipureintro; exact hv)
      (by rw [eR]; simp only [holdsPts_eq]; iintro H; iexists _; isplitl [H]; · iexact H
          ipureintro; rw [View.read_write_univ]; exact hv) R W) $$ [Hs Hd HO Ht1 Ht2]
  · isplitr; · iexact Hrec
    isplitl [Hs]; · iexact Hs
    isplitl [Hd]; · iexact Hd
    isplitl [HO]; · iexact HO
    isplitl [Ht1] <;> iassumption
  iexact Hk

theorem op_send_g2a {n : Dev nD} (hn : n = partner c 2 6)
    {sS sR : DmaSem sig} (hsS : sS = sendS 2 6) (hsR : sR = recvS 2 6)
    (R : CellTallies nD τ sig Unit) (W : Waits sig Unit)
    {hsc : (((ga2 7).squeeze S176x512 squeezes_S1x176x512_S176x512) : Memref sig (Dev.tc n : Thread nD τ).2.kind .vmem S176x512 .bf16).view.ref.isScScratch = false}
    {hsrc : ((ga2 3).squeeze S176x512 squeezes_S1x176x512_S176x512).view.WordExact} {hdst : ((ga2 7).squeeze S176x512 squeezes_S1x176x512_S176x512).view.WordExact}
    {hsem : DmaTarget.Typed .vmem (.dma sR) (.remote (Dev.tc n : Thread nD τ) ((ga2 7).squeeze S176x512 squeezes_S1x176x512_S176x512) (.dma sS) hsc)}
    {α : Type} {Q : α → sProp 𝕄} {k : PUnit → Prog (TpuEff nD τ sig (Elt F) Λ₀ .tc) α} :
    iprop(records (Rd m) K ∗ holdsPts c (ga2 3) (qs 6) (topB (sv2 m (xr c (mask 2 3)))) ∗ dstAny (F := F) (partner c 2 6) 2 6
        ∗ owes (c : Thread nD τ) (R + owedStep c 2 6) W
        ∗ dutyTok ER (sendCell c 2 6) 0 0 ∗ dutyTok ER (recvCell (partner c 2 6) 2 6) 0 0)
      ⊢ iprop(((cred (tallyAt (sendCell c 2 6) () (xferAmt 2 6)) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((ga2 3).squeeze S176x512 squeezes_S1x176x512_S176x512) (.remote (Dev.tc n : Thread nD τ) ((ga2 7).squeeze S176x512 squeezes_S1x176x512_S176x512) (.dma sS) hsc) (.dma sR) hsrc hdst hsem) k) Q) := by
  subst hn hsS hsR
  have hN : ((ga2 7).squeeze S176x512 squeezes_S1x176x512_S176x512).view.dmaCredit = xferAmt 2 6 := rfl
  have eS : sendPay m c 2 6 = holdsPts c (ga2 3) (qs 6) (topB (sv2 m (xr c (mask 2 3)))) := rfl
  have eR : recvPay m (partner c 2 6) 2 6
      = holdsPts (partner c 2 6) (ga2 7) fullShare (topB (sv2 m (xr c (mask 2 3)))) := by
    have h : xr (partner c 2 6) (mask 2 7) = xr c (mask 2 3) := origin_step c 2 6
    rw [← h]; rfl
  have es : ((ga2 3).squeeze S176x512 squeezes_S1x176x512_S176x512).view.set = (ga2 3).view.set := View.set_reshape _ _
  have ed : ((ga2 7).squeeze S176x512 squeezes_S1x176x512_S176x512).view.set = (ga2 7).view.set := View.set_reshape _ _
  have eA : dstAny (F := F) (partner c 2 6) 2 6 = anyPts (partner c 2 6) (ga2 7) := rfl
  rw [eA]; simp only [holdsPts_eq, anyPts_eq]
  iintro ⟨#Hrec, ⟨%fs, Hs, %hv⟩, ⟨%fd, Hd⟩, HO, Ht1, Ht2⟩ Hk
  iapply (op_send_raw m K c 2 6 (src := (ga2 3).squeeze S176x512 squeezes_S1x176x512_S176x512) (dst := (ga2 7).squeeze S176x512 squeezes_S1x176x512_S176x512) fs fd hN
      (by rw [eS, es]; simp only [holdsPts_eq]; iintro H; iexists fs; isplitl [H]; · iexact H
          ipureintro; exact hv)
      (by rw [eR, ed]; simp only [holdsPts_eq]; iintro H; iexists _; isplitl [H]; · iexact H
          ipureintro; exact (read_write_reshape (ga2 3).view (ga2 7).view _ fd fs).trans hv) R W) $$ [Hs Hd HO Ht1 Ht2]
  · isplitr; · iexact Hrec
    isplitl [Hs]; · rw [es]; iexact Hs
    isplitl [Hd]; · rw [ed]; iexact Hd
    isplitl [HO]; · iexact HO
    isplitl [Ht1] <;> iassumption
  iexact Hk

theorem op_send_g2b {n : Dev nD} (hn : n = partner c 2 7)
    {sS sR : DmaSem sig} (hsS : sS = sendS 2 7) (hsR : sR = recvS 2 7)
    (R : CellTallies nD τ sig Unit) (W : Waits sig Unit)
    {hsc : (((gb2 7).squeeze S160x512 squeezes_S1x160x512_S160x512) : Memref sig (Dev.tc n : Thread nD τ).2.kind .vmem S160x512 .bf16).view.ref.isScScratch = false}
    {hsrc : ((gb2 3).squeeze S160x512 squeezes_S1x160x512_S160x512).view.WordExact} {hdst : ((gb2 7).squeeze S160x512 squeezes_S1x160x512_S160x512).view.WordExact}
    {hsem : DmaTarget.Typed .vmem (.dma sR) (.remote (Dev.tc n : Thread nD τ) ((gb2 7).squeeze S160x512 squeezes_S1x160x512_S160x512) (.dma sS) hsc)}
    {α : Type} {Q : α → sProp 𝕄} {k : PUnit → Prog (TpuEff nD τ sig (Elt F) Λ₀ .tc) α} :
    iprop(records (Rd m) K ∗ holdsPts c (gb2 3) (qs 7) (botB (sv2 m (xr c (mask 2 3)))) ∗ dstAny (F := F) (partner c 2 7) 2 7
        ∗ owes (c : Thread nD τ) (R + owedStep c 2 7) W
        ∗ dutyTok ER (sendCell c 2 7) 0 0 ∗ dutyTok ER (recvCell (partner c 2 7) 2 7) 0 0)
      ⊢ iprop(((cred (tallyAt (sendCell c 2 7) () (xferAmt 2 7)) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((gb2 3).squeeze S160x512 squeezes_S1x160x512_S160x512) (.remote (Dev.tc n : Thread nD τ) ((gb2 7).squeeze S160x512 squeezes_S1x160x512_S160x512) (.dma sS) hsc) (.dma sR) hsrc hdst hsem) k) Q) := by
  subst hn hsS hsR
  have hN : ((gb2 7).squeeze S160x512 squeezes_S1x160x512_S160x512).view.dmaCredit = xferAmt 2 7 := rfl
  have eS : sendPay m c 2 7 = holdsPts c (gb2 3) (qs 7) (botB (sv2 m (xr c (mask 2 3)))) := rfl
  have eR : recvPay m (partner c 2 7) 2 7
      = holdsPts (partner c 2 7) (gb2 7) fullShare (botB (sv2 m (xr c (mask 2 3)))) := by
    have h : xr (partner c 2 7) (mask 2 7) = xr c (mask 2 3) := origin_step c 2 7
    rw [← h]; rfl
  have es : ((gb2 3).squeeze S160x512 squeezes_S1x160x512_S160x512).view.set = (gb2 3).view.set := View.set_reshape _ _
  have ed : ((gb2 7).squeeze S160x512 squeezes_S1x160x512_S160x512).view.set = (gb2 7).view.set := View.set_reshape _ _
  have eA : dstAny (F := F) (partner c 2 7) 2 7 = anyPts (partner c 2 7) (gb2 7) := rfl
  rw [eA]; simp only [holdsPts_eq, anyPts_eq]
  iintro ⟨#Hrec, ⟨%fs, Hs, %hv⟩, ⟨%fd, Hd⟩, HO, Ht1, Ht2⟩ Hk
  iapply (op_send_raw m K c 2 7 (src := (gb2 3).squeeze S160x512 squeezes_S1x160x512_S160x512) (dst := (gb2 7).squeeze S160x512 squeezes_S1x160x512_S160x512) fs fd hN
      (by rw [eS, es]; simp only [holdsPts_eq]; iintro H; iexists fs; isplitl [H]; · iexact H
          ipureintro; exact hv)
      (by rw [eR, ed]; simp only [holdsPts_eq]; iintro H; iexists _; isplitl [H]; · iexact H
          ipureintro; exact (read_write_reshape (gb2 3).view (gb2 7).view _ fd fs).trans hv) R W) $$ [Hs Hd HO Ht1 Ht2]
  · isplitr; · iexact Hrec
    isplitl [Hs]; · rw [es]; iexact Hs
    isplitl [Hd]; · rw [ed]; iexact Hd
    isplitl [HO]; · iexact HO
    isplitl [Ht1] <;> iassumption
  iexact Hk

/-- info: 'Cert.KernelIdeal.DM.op_signal' depends on axioms: [propext, Classical.choice, Quot.sound] -/
#guard_msgs in #print axioms op_signal

/-- info: 'Cert.KernelIdeal.DM.op_barwait' depends on axioms: [propext, Classical.choice, Quot.sound] -/
#guard_msgs in #print axioms op_barwait

/-- info: 'Cert.KernelIdeal.DM.op_send_g0' depends on axioms: [propext, Classical.choice, Quot.sound] -/
#guard_msgs in #print axioms op_send_g0

/-- info: 'Cert.KernelIdeal.DM.op_send_g0a' depends on axioms: [propext, Classical.choice, Quot.sound] -/
#guard_msgs in #print axioms op_send_g0a

/-- info: 'Cert.KernelIdeal.DM.op_send_g0b' depends on axioms: [propext, Classical.choice, Quot.sound] -/
#guard_msgs in #print axioms op_send_g0b

/-- info: 'Cert.KernelIdeal.DM.op_send_g1' depends on axioms: [propext, Classical.choice, Quot.sound] -/
#guard_msgs in #print axioms op_send_g1

/-- info: 'Cert.KernelIdeal.DM.op_send_g1a' depends on axioms: [propext, Classical.choice, Quot.sound] -/
#guard_msgs in #print axioms op_send_g1a

/-- info: 'Cert.KernelIdeal.DM.op_send_g1b' depends on axioms: [propext, Classical.choice, Quot.sound] -/
#guard_msgs in #print axioms op_send_g1b

/-- info: 'Cert.KernelIdeal.DM.op_send_g2' depends on axioms: [propext, Classical.choice, Quot.sound] -/
#guard_msgs in #print axioms op_send_g2

/-- info: 'Cert.KernelIdeal.DM.op_send_g2a' depends on axioms: [propext, Classical.choice, Quot.sound] -/
#guard_msgs in #print axioms op_send_g2a

/-- info: 'Cert.KernelIdeal.DM.op_send_g2b' depends on axioms: [propext, Classical.choice, Quot.sound] -/
#guard_msgs in #print axioms op_send_g2b

end Cert.KernelIdeal.DM

end
-- ==== Proof.OpsStore.lean ====
import proofs.«900891_g7700000000000892_dist_matmul_m_i_outrep_m1024_n1024_k512_v7x_i8_f32_1_alg».proof.Proof.Atoms
import Idealize.ShloMosaic.Lib.Pipeline.Value

/-!
Loads and stores of a device's body on pieces of its buffers.

A load through a rectangle of a buffer needs only the elements under that rectangle, at any share, and reads what
they hold; a store through a rectangle needs them whole and leaves the payload under them. A gather slot is a
rectangle of its buffer, so a load or a store at the slot's coordinates acts on the slot alone. A stage slot is the
same rectangle of its buffer seen without its leading unit axis: the elements are the same, and the block written
with a leading unit axis is read back, without it, as the block itself. The last product block is written in two
parts, rows below 176 and the rest, each a smaller rectangle inside the slot: the first store leaves the slot holding
the first product in its upper rows, the second leaves the lower rows holding the second product and the upper rows
as they were.
-/

noncomputable section

namespace Cert.KernelIdeal.DM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A band of rows of a slot seen without its leading unit axis

Slot `p` of a buffer of shape `[P, M, N]` is the rectangle `[p, 0, 0] : 1 × M × N`; seen without its leading axis it
has shape `[M, N]`. The rows `o ≤ · < o + n` of that view are the rectangle `[p, o, 0] : 1 × n × N` of the buffer. -/

section Band
variable {P Mr N p o n : ℕ}

/-- Row `i` of the band, placed in the buffer through the slot's view, is row `i` of the band's own rectangle. -/
theorem band_emb (h1 : ∀ a, (![p, 0, 0] : Fin 3 → ℕ) a + (![1, Mr, N] : Fin 3 → ℕ) a ≤ (⟨3, ![P, Mr, N]⟩ : Shape).size a)
    (h2 : ∀ a, (![o, 0] : Fin 2 → ℕ) a + (![n, N] : Fin 2 → ℕ) a ≤ (⟨2, ![Mr, N]⟩ : Shape).size a)
    (h3 : ∀ a, (![p, o, 0] : Fin 3 → ℕ) a + (![1, n, N] : Fin 3 → ℕ) a ≤ (⟨3, ![P, Mr, N]⟩ : Shape).size a)
    (hq : (⟨2, ![Mr, N]⟩ : Shape).numel = (⟨3, ![1, Mr, N]⟩ : Shape).numel)
    (hq' : (⟨2, ![n, N]⟩ : Shape).numel = (⟨3, ![1, n, N]⟩ : Shape).numel)
    (i : (⟨2, ![n, N]⟩ : Shape).Idx) :
    (Rect.unit (s := ⟨3, ![P, Mr, N]⟩) ![p, 0, 0] ![1, Mr, N] h1).emb
        (Shape.reshapeEquiv hq ((Rect.unit (s := ⟨2, ![Mr, N]⟩) ![o, 0] ![n, N] h2).emb i))
      = (Rect.unit (s := ⟨3, ![P, Mr, N]⟩) ![p, o, 0] ![1, n, N] h3).emb (Shape.reshapeEquiv hq' i) := by
  rw [Shape.reshapeEquiv_cons_one, Shape.reshapeEquiv_cons_one]
  funext a
  apply Fin.ext
  rw [Rect.emb_apply, Rect.emb_apply]
  simp only [Rect.off_unit, Rect.stride_unit, Nat.one_mul]
  match a with
  | ⟨0, _⟩ => rfl
  | ⟨1, _⟩ =>
    show 0 + ((Rect.unit (s := ⟨2, ![Mr, N]⟩) ![o, 0] ![n, N] h2).emb i 0 : ℕ) = o + (i 0 : ℕ)
    rw [Rect.emb_apply]; simp only [Rect.off_unit, Rect.stride_unit, Nat.one_mul]
    show 0 + (o + (i 0 : ℕ)) = o + (i 0 : ℕ)
    omega
  | ⟨2, _⟩ =>
    show 0 + ((Rect.unit (s := ⟨2, ![Mr, N]⟩) ![o, 0] ![n, N] h2).emb i 1 : ℕ) = 0 + (i 1 : ℕ)
    rw [Rect.emb_apply]; simp only [Rect.off_unit, Rect.stride_unit, Nat.one_mul]
    show 0 + (0 + (i 1 : ℕ)) = 0 + (i 1 : ℕ)
    omega

/-- A row outside the band, placed in the buffer through the slot's view, lies outside the band's rectangle. -/
theorem band_not_mem (h1 : ∀ a, (![p, 0, 0] : Fin 3 → ℕ) a + (![1, Mr, N] : Fin 3 → ℕ) a ≤ (⟨3, ![P, Mr, N]⟩ : Shape).size a)
    (h3 : ∀ a, (![p, o, 0] : Fin 3 → ℕ) a + (![1, n, N] : Fin 3 → ℕ) a ≤ (⟨3, ![P, Mr, N]⟩ : Shape).size a)
    (hq : (⟨2, ![Mr, N]⟩ : Shape).numel = (⟨3, ![1, Mr, N]⟩ : Shape).numel)
    (j : (⟨2, ![Mr, N]⟩ : Shape).Idx) (hj : ¬ (o ≤ (j 0 : ℕ) ∧ (j 0 : ℕ) < o + n)) :
    (Rect.unit (s := ⟨3, ![P, Mr, N]⟩) ![p, 0, 0] ![1, Mr, N] h1).emb (Shape.reshapeEquiv hq j)
      ∉ (Rect.unit (s := ⟨3, ![P, Mr, N]⟩) ![p, o, 0] ![1, n, N] h3).set := by
  rw [Rect.mem_set_unit]
  intro h
  have h' := h (1 : Fin 3)
  rw [Rect.emb_apply, Shape.reshapeEquiv_cons_one] at h'
  simp only [Rect.off_unit, Rect.stride_unit, Nat.one_mul] at h'
  apply hj
  change o ≤ 0 + (j 0 : ℕ) ∧ 0 + (j 0 : ℕ) < o + n at h'
  omega

end Band

section PartOfSlot
variable {κ : Kind} {sp : Space} {s s' : Shape} {e : EltTy} {Val : EltTy → Type}

/-- Read back, through a slot's view without its unit axes, an element just written through a smaller rectangle. -/
theorem sq_read_write_mem (V : View sig κ sp s e) (r r₁ : Rect s) (h : s'.numel = r.shape.numel) (f : V.ty.Contents Val)
    (w : r₁.shape.Idx → Val e) (i : s'.Idx) (y : r₁.shape.Idx) (hy : r.emb (Shape.reshapeEquiv h i) = r₁.emb y) :
    ((V.slice r).reshape s' h).read Val ((V.slice r₁).write Val f w Finset.univ) i = w y := by
  have he : ((V.slice r).reshape s' h).emb i = (V.slice r₁).emb y := by
    show V.emb (r.emb (Shape.reshapeEquiv h i)) = V.emb (r₁.emb y)
    rw [hy]
  have hw := View.write_emb_of_mem (v := V.slice r₁) (Val := Val) f w (M := Finset.univ) (x := y) (Finset.mem_univ y)
  rw [View.read_apply]
  show _root_.cast _ ((V.slice r₁).write Val f w Finset.univ (((V.slice r).reshape s' h).emb i)) = w y
  rw [he, hw, cast_cast, cast_eq]

/-- An element outside the smaller rectangle reads as before the write. -/
theorem sq_read_write_not_mem (V : View sig κ sp s e) (r r₁ : Rect s) (h : s'.numel = r.shape.numel) (f : V.ty.Contents Val)
    (w : r₁.shape.Idx → Val e) (j : s'.Idx) (hj : r.emb (Shape.reshapeEquiv h j) ∉ r₁.set) :
    ((V.slice r).reshape s' h).read Val ((V.slice r₁).write Val f w Finset.univ) j = ((V.slice r).reshape s' h).read Val f j := by
  have hn : ((V.slice r).reshape s' h).emb j ∉ (V.slice r₁).setOn Finset.univ := by
    rw [View.setOn_univ, View.set_slice]
    show V.emb (r.emb (Shape.reshapeEquiv h j)) ∉ _
    rw [Finset.mem_map']
    exact hj
  have hw := View.write_of_not_mem (v := V.slice r₁) (Val := Val) f w Finset.univ hn
  rw [View.read_apply, View.read_apply]
  show _root_.cast _ ((V.slice r₁).write Val f w Finset.univ (((V.slice r).reshape s' h).emb j)) = _root_.cast _ (f (((V.slice r).reshape s' h).emb j))
  rw [hw]

end PartOfSlot

section BandValue
variable {κ : Kind} {sp : Space} {e : EltTy} {Val : EltTy → Type} {P Mr N p o n : ℕ}

/-- A block written with a leading unit axis through the band's rectangle is read back, through the slot's view without
    that axis, as the block itself on the band's rows, -/
theorem band_read_write (V : View sig κ sp ⟨3, ![P, Mr, N]⟩ e)
    (h1 : ∀ a, (![p, 0, 0] : Fin 3 → ℕ) a + (![1, Mr, N] : Fin 3 → ℕ) a ≤ (⟨3, ![P, Mr, N]⟩ : Shape).size a)
    (h2 : ∀ a, (![o, 0] : Fin 2 → ℕ) a + (![n, N] : Fin 2 → ℕ) a ≤ (⟨2, ![Mr, N]⟩ : Shape).size a)
    (h3 : ∀ a, (![p, o, 0] : Fin 3 → ℕ) a + (![1, n, N] : Fin 3 → ℕ) a ≤ (⟨3, ![P, Mr, N]⟩ : Shape).size a)
    (hq : (⟨2, ![Mr, N]⟩ : Shape).numel = (⟨3, ![1, Mr, N]⟩ : Shape).numel)
    (hc : (⟨3, ![1, n, N]⟩ : Shape).numel = (⟨2, ![n, N]⟩ : Shape).numel)
    (f : V.ty.Contents Val) (X : (⟨2, ![n, N]⟩ : Shape).Idx → Val e) (i : (⟨2, ![n, N]⟩ : Shape).Idx) :
    ((V.slice (Rect.unit ![p, 0, 0] ![1, Mr, N] h1)).reshape ⟨2, ![Mr, N]⟩ hq).read Val
        ((V.slice (Rect.unit ![p, o, 0] ![1, n, N] h3)).write Val f (shapeCast ⟨3, ![1, n, N]⟩ X hc) Finset.univ)
        ((Rect.unit (s := ⟨2, ![Mr, N]⟩) ![o, 0] ![n, N] h2).emb i) = X i := by
  rw [sq_read_write_mem V _ _ hq f _ _ (Shape.reshapeEquiv hc.symm i) (band_emb h1 h2 h3 hq hc.symm i)]
  show X (Shape.reshapeEquiv hc (Shape.reshapeEquiv hc.symm i)) = X i
  rw [Shape.reshapeEquiv_reshapeEquiv, Shape.reshapeEquiv_self]

/-- and the rows outside the band read as before. -/
theorem band_read_keep (V : View sig κ sp ⟨3, ![P, Mr, N]⟩ e)
    (h1 : ∀ a, (![p, 0, 0] : Fin 3 → ℕ) a + (![1, Mr, N] : Fin 3 → ℕ) a ≤ (⟨3, ![P, Mr, N]⟩ : Shape).size a)
    (h3 : ∀ a, (![p, o, 0] : Fin 3 → ℕ) a + (![1, n, N] : Fin 3 → ℕ) a ≤ (⟨3, ![P, Mr, N]⟩ : Shape).size a)
    (hq : (⟨2, ![Mr, N]⟩ : Shape).numel = (⟨3, ![1, Mr, N]⟩ : Shape).numel)
    (f : V.ty.Contents Val) (w : (⟨3, ![1, n, N]⟩ : Shape).Idx → Val e)
    (j : (⟨2, ![Mr, N]⟩ : Shape).Idx) (hj : ¬ (o ≤ (j 0 : ℕ) ∧ (j 0 : ℕ) < o + n)) :
    ((V.slice (Rect.unit ![p, 0, 0] ![1, Mr, N] h1)).reshape ⟨2, ![Mr, N]⟩ hq).read Val
        ((V.slice (Rect.unit ![p, o, 0] ![1, n, N] h3)).write Val f w Finset.univ) j
      = ((V.slice (Rect.unit ![p, 0, 0] ![1, Mr, N] h1)).reshape ⟨2, ![Mr, N]⟩ hq).read Val f j :=
  sq_read_write_not_mem V _ _ hq f w j (band_not_mem h1 h3 hq j hj)

end BandValue

variable (m : (ℓ : Loc nD τ sig) → Buf (Elt F) ℓ) (c : Dev nD)
include m

/-! ## Any buffer, any rectangle -/

theorem op_load_any {cs : CoreSpace} {s : Shape} {e : EltTy} (M : Memref sig .tc cs s e) (r : Rect s) (hr : ∀ a, r.stride a = 1)
    {hl : M.view.LoadsAt r.toLoadRect} {α : Type} {Q : α → sProp 𝕄} {k : (r.shape.Idx → Elt F e) → Prog (TpuEff nD τ sig (Elt F) Λ₀ .tc) α} :
    anyPts c (M.slice r hr) ⊢ iprop((∀ x, anyPts c (M.slice r hr) -∗ wp frame (wpE (defs₀ (F := F)) 𝒱₀ (c : Thread nD τ) none) Set.univ (k x) Q)
      -∗ wp frame (wpE (defs₀ (F := F)) 𝒱₀ (c : Thread nD τ) none) Set.univ (.op (.load M r.toLoadRect hl) k) Q) := by
  simp only [anyPts_eq]
  iintro H Hk
  icases H with ⟨%f, Hp⟩
  iapply (wp_load 𝒱₀ (c : Thread nD τ) none Set.univ (m := M) (r := r.toLoadRect) (S := (M.slice r hr).view.set) (q := fullShare) (f := f)
    (Finset.subset_of_eq (View.set_slice (v := M.view) r).symm)) $$ Hp
  iintro Hp
  iapply Hk $$ %(M.view.readAt (Elt F) r.toLoadRect f)
  iexists f
  iexact Hp

theorem op_load_holds {cs : CoreSpace} {s : Shape} {e : EltTy} (M : Memref sig .tc cs s e) (r : Rect s) (hr : ∀ a, r.stride a = 1)
    (q : PosShare TreeShare) (v : r.shape.Idx → Elt F e)
    {hl : M.view.LoadsAt r.toLoadRect} {α : Type} {Q : α → sProp 𝕄} {k : (r.shape.Idx → Elt F e) → Prog (TpuEff nD τ sig (Elt F) Λ₀ .tc) α} :
    holdsPts c (M.slice r hr) q v ⊢ iprop((holdsPts c (M.slice r hr) q v -∗ wp frame (wpE (defs₀ (F := F)) 𝒱₀ (c : Thread nD τ) none) Set.univ (k v) Q)
      -∗ wp frame (wpE (defs₀ (F := F)) 𝒱₀ (c : Thread nD τ) none) Set.univ (.op (.load M r.toLoadRect hl) k) Q) := by
  simp only [holdsPts_eq]
  iintro H Hk
  icases H with ⟨%f, Hp, %hv⟩
  iapply (wp_load 𝒱₀ (c : Thread nD τ) none Set.univ (m := M) (r := r.toLoadRect) (S := (M.slice r hr).view.set) (q := q) (f := f)
    (Finset.subset_of_eq (View.set_slice (v := M.view) r).symm)) $$ Hp
  iintro Hp
  subst hv
  iapply Hk
  iexists f
  isplitl [Hp]
  · iexact Hp
  · ipureintro; rfl

theorem op_store_slice {cs : CoreSpace} {s : Shape} {e : EltTy} (M : Memref sig .tc cs s e) (r : Rect s) (hr : ∀ a, r.stride a = 1)
    {w : r.shape.Idx → Elt F e} {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    anyPts c (M.slice r hr) ⊢ iprop((holdsPts c (M.slice r hr) fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store M r w Finset.univ hx hm) k) Q) := by
  simp only [anyPts_eq, holdsPts_eq]
  iintro H Hk
  icases H with ⟨%f, Hp⟩
  iapply (wp_store 𝒱₀ (c : Thread nD τ) none Set.univ (m := M) (r := r) (w := w) (Mk := Finset.univ) (S := (M.slice r hr).view.set) (f := f)
    (Finset.Subset.refl _)) $$ Hp
  iintro Hp
  iapply Hk
  iexists ((M.access r).write (Elt F) f w Finset.univ)
  isplitl [Hp]
  · iexact Hp
  · ipureintro; exact View.read_write_univ (v := M.access r) f w

theorem op_load_any_sq {cs : CoreSpace} {s : Shape} {e : EltTy} (M : Memref sig .tc cs s e) (r : Rect s) (hr : ∀ a, r.stride a = 1)
    (s' : Shape) (hsq : r.shape.Squeezes s')
    {hl : M.view.LoadsAt r.toLoadRect} {α : Type} {Q : α → sProp 𝕄} {k : (r.shape.Idx → Elt F e) → Prog (TpuEff nD τ sig (Elt F) Λ₀ .tc) α} :
    anyPts c ((M.slice r hr).squeeze s' hsq) ⊢ iprop((∀ x, anyPts c ((M.slice r hr).squeeze s' hsq) -∗ wp frame (wpE (defs₀ (F := F)) 𝒱₀ (c : Thread nD τ) none) Set.univ (k x) Q)
      -∗ wp frame (wpE (defs₀ (F := F)) 𝒱₀ (c : Thread nD τ) none) Set.univ (.op (.load M r.toLoadRect hl) k) Q) := by
  simp only [anyPts_eq]
  iintro H Hk
  icases H with ⟨%f, Hp⟩
  iapply (wp_load 𝒱₀ (c : Thread nD τ) none Set.univ (m := M) (r := r.toLoadRect) (S := ((M.slice r hr).squeeze s' hsq).view.set) (q := fullShare) (f := f)
    (Finset.subset_of_eq ((View.set_slice (v := M.view) r).symm.trans (View.set_reshape (v := M.view.slice r) hsq.numel_eq).symm))) $$ Hp
  iintro Hp
  iapply Hk $$ %(M.view.readAt (Elt F) r.toLoadRect f)
  iexists f
  iexact Hp

theorem op_store_sq {cs : CoreSpace} {s : Shape} {e : EltTy} (M : Memref sig .tc cs s e) (r : Rect s) (hr : ∀ a, r.stride a = 1)
    (s' : Shape) (hsq : r.shape.Squeezes s') (X : s'.Idx → Elt F e) (hc : s'.ShapeCasts r.shape)
    {w : r.shape.Idx → Elt F e} (hw : w = shapeCast r.shape X hc)
    {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    anyPts c ((M.slice r hr).squeeze s' hsq) ⊢ iprop((holdsPts c ((M.slice r hr).squeeze s' hsq) fullShare X -∗ wp frame (wpE (defs₀ (F := F)) 𝒱₀ (c : Thread nD τ) none) Set.univ (k ⟨⟩) Q)
      -∗ wp frame (wpE (defs₀ (F := F)) 𝒱₀ (c : Thread nD τ) none) Set.univ (.op (.store M r w Finset.univ hx hm) k) Q) := by
  simp only [anyPts_eq, holdsPts_eq]
  iintro H Hk
  icases H with ⟨%f, Hp⟩
  iapply (wp_store 𝒱₀ (c : Thread nD τ) none Set.univ (m := M) (r := r) (w := w) (Mk := Finset.univ) (S := ((M.slice r hr).squeeze s' hsq).view.set) (f := f)
    (Finset.subset_of_eq (View.set_reshape (v := M.access r) hsq.numel_eq).symm)) $$ Hp
  iintro Hp
  iapply Hk
  iexists ((M.access r).write (Elt F) f w Finset.univ)
  isplitl [Hp]
  · iexact Hp
  · ipureintro
    funext i
    show (M.access r).read (Elt F) ((M.access r).write (Elt F) f w Finset.univ) (Shape.reshapeEquiv hsq.numel_eq i) = X i
    rw [View.read_write_univ, hw]
    show X (Shape.reshapeEquiv hc (Shape.reshapeEquiv hsq.numel_eq i)) = X i
    rw [Shape.reshapeEquiv_reshapeEquiv, Shape.reshapeEquiv_self]

section Generic2
variable {cs : CoreSpace} {s : Shape} {e : EltTy}

/-- The elements of a smaller rectangle lie under the slot's view. -/
theorem sq_sub (M : Memref sig .tc cs s e) (r : Rect s) (hr : ∀ a, r.stride a = 1) (s' : Shape) (hsq : r.shape.Squeezes s')
    (r₁ : Rect s) (hsub : r₁.set ⊆ r.set) : (M.view.slice r₁).set ⊆ ((M.slice r hr).squeeze s' hsq).view.set := by
  have e1 : ((M.slice r hr).squeeze s' hsq).view.set = r.set.map M.view.emb :=
    (View.set_reshape (v := M.view.slice r) hsq.numel_eq).trans (View.set_slice (v := M.view) r)
  rw [e1, View.set_slice]
  exact Finset.map_subset_map.mpr hsub

/-- A load at the coordinates of a smaller rectangle inside a slot held without its unit axes. -/
theorem op_load_part_sq (M : Memref sig .tc cs s e) (r : Rect s) (hr : ∀ a, r.stride a = 1) (s' : Shape) (hsq : r.shape.Squeezes s')
    (r₁ : Rect s) (hsub : r₁.set ⊆ r.set) (f : Buf (Elt F) (((M.slice r hr).squeeze s' hsq).view.loc (c : Thread nD τ)))
    {hl : M.view.LoadsAt r₁.toLoadRect} {α : Type} {Q : α → sProp 𝕄} {k : (r₁.shape.Idx → Elt F e) → Prog (TpuEff nD τ sig (Elt F) Λ₀ .tc) α} :
    (((M.slice r hr).squeeze s' hsq).view.loc (c : Thread nD τ) ↦[((M.slice r hr).squeeze s' hsq).view.set]{fullShare} f)
      ⊢ iprop((∀ x, (((M.slice r hr).squeeze s' hsq).view.loc (c : Thread nD τ) ↦[((M.slice r hr).squeeze s' hsq).view.set]{fullShare} f) -∗ wp frame (wpE (defs₀ (F := F)) 𝒱₀ (c : Thread nD τ) none) Set.univ (k x) Q)
      -∗ wp frame (wpE (defs₀ (F := F)) 𝒱₀ (c : Thread nD τ) none) Set.univ (.op (.load M r₁.toLoadRect hl) k) Q) := by
  iintro Hp Hk
  iapply (wp_load 𝒱₀ (c : Thread nD τ) none Set.univ (m := M) (r := r₁.toLoadRect) (S := ((M.slice r hr).squeeze s' hsq).view.set) (q := fullShare) (f := f)
    ((Finset.subset_of_eq (View.set_slice (v := M.view) r₁).symm).trans (sq_sub m M r hr s' hsq r₁ hsub))) $$ Hp
  iintro Hp
  iapply Hk $$ %_
  iexact Hp

/-- A store through a smaller rectangle inside a slot held without its unit axes. -/
theorem op_store_part_sq (M : Memref sig .tc cs s e) (r : Rect s) (hr : ∀ a, r.stride a = 1) (s' : Shape) (hsq : r.shape.Squeezes s')
    (r₁ : Rect s) (hsub : r₁.set ⊆ r.set) (f : Buf (Elt F) (((M.slice r hr).squeeze s' hsq).view.loc (c : Thread nD τ)))
    {w : r₁.shape.Idx → Elt F e} {hx : (M.access r₁).Stores Finset.univ} {hm : (Finset.univ : Finset r₁.shape.Idx) = Finset.univ ∨ ∀ a, r₁.stride a = 1}
    {α : Type} {Q : α → sProp 𝕄} {k : PUnit → Prog (TpuEff nD τ sig (Elt F) Λ₀ .tc) α} :
    (((M.slice r hr).squeeze s' hsq).view.loc (c : Thread nD τ) ↦[((M.slice r hr).squeeze s' hsq).view.set]{fullShare} f)
      ⊢ iprop(((((M.slice r hr).squeeze s' hsq).view.loc (c : Thread nD τ) ↦[((M.slice r hr).squeeze s' hsq).view.set]{fullShare}
            ((M.access r₁).write (Elt F) f w Finset.univ)) -∗ wp frame (wpE (defs₀ (F := F)) 𝒱₀ (c : Thread nD τ) none) Set.univ (k ⟨⟩) Q)
      -∗ wp frame (wpE (defs₀ (F := F)) 𝒱₀ (c : Thread nD τ) none) Set.univ (.op (.store M r₁ w Finset.univ hx hm) k) Q) := by
  iintro Hp Hk
  iapply (wp_store 𝒱₀ (c : Thread nD τ) none Set.univ (m := M) (r := r₁) (w := w) (Mk := Finset.univ) (S := ((M.slice r hr).squeeze s' hsq).view.set) (f := f)
    (sq_sub m M r hr s' hsq r₁ hsub)) $$ Hp
  iintro Hp
  iapply Hk
  iexact Hp

end Generic2

/-! ## The body's buffers -/

theorem op_load_A (R : LoadRect S1024x512) {hl : (aM : Memref sig .tc .vmem S1024x512 .f32).view.LoadsAt R}
    {α : Type} {Q : α → sProp 𝕄} {k : (R.shape.Idx → Elt F .f32) → Prog (TpuEff nD τ sig (Elt F) Λ₀ .tc) α} :
    inA m c ⊢ iprop((inA m c -∗ wp frame (wpE (defs₀ (F := F)) 𝒱₀ (c : Thread nD τ) none) Set.univ (k ((aM : Memref sig .tc .vmem S1024x512 .f32).view.readAt (Elt F) R (xstg m c))) Q)
      -∗ wp frame (wpE (defs₀ (F := F)) 𝒱₀ (c : Thread nD τ) none) Set.univ (.op (.load aM R hl) k) Q) := by
  unfold inA
  iintro H Hk
  iapply (wp_load 𝒱₀ (c : Thread nD τ) none Set.univ (m := aM) (r := R) (S := Finset.univ) (q := fullShare) (f := xstg m c) (Finset.subset_univ _)) $$ H
  iintro H
  iapply Hk
  iexact H

theorem op_load_B (R : LoadRect S512x1024) {hl : (bM : Memref sig .tc .vmem S512x1024 .f32).view.LoadsAt R}
    {α : Type} {Q : α → sProp 𝕄} {k : (R.shape.Idx → Elt F .f32) → Prog (TpuEff nD τ sig (Elt F) Λ₀ .tc) α} :
    inB m c ⊢ iprop((inB m c -∗ wp frame (wpE (defs₀ (F := F)) 𝒱₀ (c : Thread nD τ) none) Set.univ (k ((bM : Memref sig .tc .vmem S512x1024 .f32).view.readAt (Elt F) R (ystg m c))) Q)
      -∗ wp frame (wpE (defs₀ (F := F)) 𝒱₀ (c : Thread nD τ) none) Set.univ (.op (.load bM R hl) k) Q) := by
  unfold inB
  iintro H Hk
  iapply (wp_load 𝒱₀ (c : Thread nD τ) none Set.univ (m := bM) (r := R) (S := Finset.univ) (q := fullShare) (f := ystg m c) (Finset.subset_univ _)) $$ H
  iintro H
  iapply Hk
  iexact H

theorem op_load_b16_any  {hinb : ∀ a, (![0, 0] : Fin 2 → Nat) a + S512x1024.size a ≤ S512x1024.size a}
    {hl : (b16M : Memref sig .tc .vmem S512x1024 .bf16).view.LoadsAt (Rect.unit (s := S512x1024) ![0, 0] S512x1024.size hinb).toLoadRect}
    {α : Type} {Q : α → sProp 𝕄} {k : Vec F S512x1024 .bf16 → Prog (TpuEff nD τ sig (Elt F) Λ₀ .tc) α} :
    anyPts c b16M ⊢ iprop((∀ x, anyPts c b16M -∗ wp frame (wpE (defs₀ (F := F)) 𝒱₀ (c : Thread nD τ) none) Set.univ (k x) Q)
      -∗ wp frame (wpE (defs₀ (F := F)) 𝒱₀ (c : Thread nD τ) none) Set.univ (.op (.load b16M (Rect.unit (s := S512x1024) ![0, 0] S512x1024.size hinb).toLoadRect hl) k) Q) := by
  simp only [anyPts_eq]
  iintro H Hk
  icases H with ⟨%f, Hp⟩
  iapply (wp_load 𝒱₀ (c : Thread nD τ) none Set.univ (m := b16M) (r := (Rect.unit (s := S512x1024) ![0, 0] S512x1024.size hinb).toLoadRect) (S := (b16M : Memref sig .tc .vmem S512x1024 .bf16).view.set) (q := fullShare) (f := f)
    (View.setOn_subset_set _ _)) $$ Hp
  iintro Hp
  iapply Hk $$ %_
  iexists f
  iexact Hp

theorem op_store_b16  {w : Vec F S512x1024 .bf16} {hinb : ∀ a, (![0, 0] : Fin 2 → Nat) a + S512x1024.size a ≤ S512x1024.size a}
    {hx : ((b16M : Memref sig .tc .vmem S512x1024 .bf16).access (Rect.unit (s := S512x1024) ![0, 0] S512x1024.size hinb)).Stores Finset.univ} {hm : (Finset.univ : Finset (Rect.unit (s := S512x1024) ![0, 0] S512x1024.size hinb).shape.Idx) = Finset.univ ∨ ∀ a, (Rect.unit (s := S512x1024) ![0, 0] S512x1024.size hinb).stride a = 1}
    {α : Type} {Q : α → sProp 𝕄} {k : PUnit → Prog (TpuEff nD τ sig (Elt F) Λ₀ .tc) α} :
    anyPts c (b16M) ⊢ iprop((holdsPts c (b16M) fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store b16M (Rect.unit (s := S512x1024) ![0, 0] S512x1024.size hinb) w Finset.univ hx hm) k) Q) := by
  simp only [anyPts_eq, holdsPts_eq]
  iintro H Hk
  icases H with ⟨%f, Hp⟩
  iapply (wp_store 𝒱₀ (c : Thread nD τ) none Set.univ (m := b16M) (r := (Rect.unit (s := S512x1024) ![0, 0] S512x1024.size hinb)) (w := w) (Mk := Finset.univ) (S := (b16M : Memref sig .tc .vmem S512x1024 .bf16).view.set) (f := f)
    (View.set_slice_subset _ _)) $$ Hp
  iintro Hp
  have hz : (![0, 0] : Fin 2 → Nat) = fun _ => 0 := funext fun a => by fin_cases a <;> rfl
  rw [show ((b16M : Memref sig .tc .vmem S512x1024 .bf16).access (Rect.unit (s := S512x1024) ![0, 0] S512x1024.size hinb)).write (Elt F) f w Finset.univ = w from
    Memref.write_access_unit_zero_univ (Elt F) cc0_scratch0 hz hinb f w]
  iapply Hk
  iexists w
  isplitl [Hp]
  · iexact Hp
  · ipureintro; rfl

theorem op_load_b16  (q : PosShare TreeShare) (v : Vec F S512x1024 .bf16) {hinb : ∀ a, (![0, 0] : Fin 2 → Nat) a + S512x1024.size a ≤ S512x1024.size a}
    {hl : (b16M : Memref sig .tc .vmem S512x1024 .bf16).view.LoadsAt (Rect.unit (s := S512x1024) ![0, 0] S512x1024.size hinb).toLoadRect}
    {α : Type} {Q : α → sProp 𝕄} {k : Vec F S512x1024 .bf16 → Prog (TpuEff nD τ sig (Elt F) Λ₀ .tc) α} :
    holdsPts c (b16M) q v ⊢ iprop((holdsPts c (b16M) q v -∗ wp frame (wpE (defs₀ (F := F)) 𝒱₀ (c : Thread nD τ) none) Set.univ (k v) Q)
      -∗ wp frame (wpE (defs₀ (F := F)) 𝒱₀ (c : Thread nD τ) none) Set.univ (.op (.load b16M (Rect.unit (s := S512x1024) ![0, 0] S512x1024.size hinb).toLoadRect hl) k) Q) := by
  simp only [holdsPts_eq]
  iintro H Hk
  icases H with ⟨%f, Hp, %hv⟩
  iapply (wp_load 𝒱₀ (c : Thread nD τ) none Set.univ (m := b16M) (r := (Rect.unit (s := S512x1024) ![0, 0] S512x1024.size hinb).toLoadRect) (S := (b16M : Memref sig .tc .vmem S512x1024 .bf16).view.set) (q := q) (f := f)
    (View.setOn_subset_set _ _)) $$ Hp
  iintro Hp
  have hz : (![0, 0] : Fin 2 → Nat) = fun _ => 0 := funext fun a => by fin_cases a <;> rfl
  rw [show (b16M : Memref sig .tc .vmem S512x1024 .bf16).view.readAt (Elt F) (Rect.unit (s := S512x1024) ![0, 0] S512x1024.size hinb).toLoadRect f = v from
    (Memref.readAt_unit_zero (Elt F) cc0_scratch0 hz hinb f).trans hv]
  iapply Hk
  iexists f
  isplitl [Hp]
  · iexact Hp
  · ipureintro; exact hv

theorem op_load_gs0_any (j : Fin 8) {hinb : ∀ a, (![j.val, 0, 0] : Fin 3 → Nat) a + S1x352x512.size a ≤ S8x352x512.size a}
    {hl : (g0M : Memref sig .tc .vmem S8x352x512 .bf16).view.LoadsAt (Rect.unit (s := S8x352x512) ![j.val, 0, 0] S1x352x512.size hinb).toLoadRect}
    {α : Type} {Q : α → sProp 𝕄} {k : Vec F S1x352x512 .bf16 → Prog (TpuEff nD τ sig (Elt F) Λ₀ .tc) α} :
    anyPts c (gs0 j) ⊢ iprop((∀ x, anyPts c (gs0 j) -∗ wp frame (wpE (defs₀ (F := F)) 𝒱₀ (c : Thread nD τ) none) Set.univ (k x) Q)
      -∗ wp frame (wpE (defs₀ (F := F)) 𝒱₀ (c : Thread nD τ) none) Set.univ (.op (.load g0M (Rect.unit (s := S8x352x512) ![j.val, 0, 0] S1x352x512.size hinb).toLoadRect hl) k) Q) := by
  exact op_load_any m c g0M (Rect.unit (s := S8x352x512) ![j.val, 0, 0] S1x352x512.size hinb) (fun _ => rfl)

theorem op_store_gs0 (j : Fin 8) {w : Vec F S1x352x512 .bf16} {hinb : ∀ a, (![j.val, 0, 0] : Fin 3 → Nat) a + S1x352x512.size a ≤ S8x352x512.size a}
    {hx : ((g0M : Memref sig .tc .vmem S8x352x512 .bf16).access (Rect.unit (s := S8x352x512) ![j.val, 0, 0] S1x352x512.size hinb)).Stores Finset.univ} {hm : (Finset.univ : Finset (Rect.unit (s := S8x352x512) ![j.val, 0, 0] S1x352x512.size hinb).shape.Idx) = Finset.univ ∨ ∀ a, (Rect.unit (s := S8x352x512) ![j.val, 0, 0] S1x352x512.size hinb).stride a = 1}
    {α : Type} {Q : α → sProp 𝕄} {k : PUnit → Prog (TpuEff nD τ sig (Elt F) Λ₀ .tc) α} :
    anyPts c (gs0 j) ⊢ iprop((holdsPts c (gs0 j) fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store g0M (Rect.unit (s := S8x352x512) ![j.val, 0, 0] S1x352x512.size hinb) w Finset.univ hx hm) k) Q) := by
  exact op_store_slice m c g0M (Rect.unit (s := S8x352x512) ![j.val, 0, 0] S1x352x512.size hinb) (fun _ => rfl)

theorem op_load_gs0 (j : Fin 8) (q : PosShare TreeShare) (v : Vec F S1x352x512 .bf16) {hinb : ∀ a, (![j.val, 0, 0] : Fin 3 → Nat) a + S1x352x512.size a ≤ S8x352x512.size a}
    {hl : (g0M : Memref sig .tc .vmem S8x352x512 .bf16).view.LoadsAt (Rect.unit (s := S8x352x512) ![j.val, 0, 0] S1x352x512.size hinb).toLoadRect}
    {α : Type} {Q : α → sProp 𝕄} {k : Vec F S1x352x512 .bf16 → Prog (TpuEff nD τ sig (Elt F) Λ₀ .tc) α} :
    holdsPts c (gs0 j) q v ⊢ iprop((holdsPts c (gs0 j) q v -∗ wp frame (wpE (defs₀ (F := F)) 𝒱₀ (c : Thread nD τ) none) Set.univ (k v) Q)
      -∗ wp frame (wpE (defs₀ (F := F)) 𝒱₀ (c : Thread nD τ) none) Set.univ (.op (.load g0M (Rect.unit (s := S8x352x512) ![j.val, 0, 0] S1x352x512.size hinb).toLoadRect hl) k) Q) := by
  exact op_load_holds m c g0M (Rect.unit (s := S8x352x512) ![j.val, 0, 0] S1x352x512.size hinb) (fun _ => rfl) q v

theorem op_load_ga0 (j : Fin 8) (q : PosShare TreeShare) (v : Vec F S1x176x512 .bf16) {hinb : ∀ a, (![j.val, 0, 0] : Fin 3 → Nat) a + S1x176x512.size a ≤ S8x352x512.size a}
    {hl : (g0M : Memref sig .tc .vmem S8x352x512 .bf16).view.LoadsAt (Rect.unit (s := S8x352x512) ![j.val, 0, 0] S1x176x512.size hinb).toLoadRect}
    {α : Type} {Q : α → sProp 𝕄} {k : Vec F S1x176x512 .bf16 → Prog (TpuEff nD τ sig (Elt F) Λ₀ .tc) α} :
    holdsPts c (ga0 j) q v ⊢ iprop((holdsPts c (ga0 j) q v -∗ wp frame (wpE (defs₀ (F := F)) 𝒱₀ (c : Thread nD τ) none) Set.univ (k v) Q)
      -∗ wp frame (wpE (defs₀ (F := F)) 𝒱₀ (c : Thread nD τ) none) Set.univ (.op (.load g0M (Rect.unit (s := S8x352x512) ![j.val, 0, 0] S1x176x512.size hinb).toLoadRect hl) k) Q) := by
  exact op_load_holds m c g0M (Rect.unit (s := S8x352x512) ![j.val, 0, 0] S1x176x512.size hinb) (fun _ => rfl) q v

theorem op_load_gb0 (j : Fin 8) (q : PosShare TreeShare) (v : Vec F S1x176x512 .bf16) {hinb : ∀ a, (![j.val, 176, 0] : Fin 3 → Nat) a + S1x176x512.size a ≤ S8x352x512.size a}
    {hl : (g0M : Memref sig .tc .vmem S8x352x512 .bf16).view.LoadsAt (Rect.unit (s := S8x352x512) ![j.val, 176, 0] S1x176x512.size hinb).toLoadRect}
    {α : Type} {Q : α → sProp 𝕄} {k : Vec F S1x176x512 .bf16 → Prog (TpuEff nD τ sig (Elt F) Λ₀ .tc) α} :
    holdsPts c (gb0 j) q v ⊢ iprop((holdsPts c (gb0 j) q v -∗ wp frame (wpE (defs₀ (F := F)) 𝒱₀ (c : Thread nD τ) none) Set.univ (k v) Q)
      -∗ wp frame (wpE (defs₀ (F := F)) 𝒱₀ (c : Thread nD τ) none) Set.univ (.op (.load g0M (Rect.unit (s := S8x352x512) ![j.val, 176, 0] S1x176x512.size hinb).toLoadRect hl) k) Q) := by
  exact op_load_holds m c g0M (Rect.unit (s := S8x352x512) ![j.val, 176, 0] S1x176x512.size hinb) (fun _ => rfl) q v

theorem op_load_ss0_any (p : Fin 2) {hinb : ∀ a, (![p.val, 0, 0] : Fin 3 → Nat) a + S1x352x1024.size a ≤ S2x352x1024.size a}
    {hl : (s0M : Memref sig .tc .vmem S2x352x1024 .f32).view.LoadsAt (Rect.unit (s := S2x352x1024) ![p.val, 0, 0] S1x352x1024.size hinb).toLoadRect}
    {α : Type} {Q : α → sProp 𝕄} {k : Vec F S1x352x1024 .f32 → Prog (TpuEff nD τ sig (Elt F) Λ₀ .tc) α} :
    anyPts c (ss0 p) ⊢ iprop((∀ x, anyPts c (ss0 p) -∗ wp frame (wpE (defs₀ (F := F)) 𝒱₀ (c : Thread nD τ) none) Set.univ (k x) Q)
      -∗ wp frame (wpE (defs₀ (F := F)) 𝒱₀ (c : Thread nD τ) none) Set.univ (.op (.load s0M (Rect.unit (s := S2x352x1024) ![p.val, 0, 0] S1x352x1024.size hinb).toLoadRect hl) k) Q) := by
  exact op_load_any_sq m c s0M (Rect.unit (s := S2x352x1024) ![p.val, 0, 0] S1x352x1024.size hinb) (fun _ => rfl) S352x1024 squeezes_S1x352x1024_S352x1024

theorem op_store_ss0 (p : Fin 2) (X : Vec F S352x1024 .f32) {w : Vec F S1x352x1024 .f32}
    (hw : w = shapeCast S1x352x1024 X shapeCasts_S352x1024_S1x352x1024) {hinb : ∀ a, (![p.val, 0, 0] : Fin 3 → Nat) a + S1x352x1024.size a ≤ S2x352x1024.size a}
    {hx : ((s0M : Memref sig .tc .vmem S2x352x1024 .f32).access (Rect.unit (s := S2x352x1024) ![p.val, 0, 0] S1x352x1024.size hinb)).Stores Finset.univ} {hm : (Finset.univ : Finset (Rect.unit (s := S2x352x1024) ![p.val, 0, 0] S1x352x1024.size hinb).shape.Idx) = Finset.univ ∨ ∀ a, (Rect.unit (s := S2x352x1024) ![p.val, 0, 0] S1x352x1024.size hinb).stride a = 1}
    {α : Type} {Q : α → sProp 𝕄} {k : PUnit → Prog (TpuEff nD τ sig (Elt F) Λ₀ .tc) α} :
    anyPts c (ss0 p) ⊢ iprop((holdsPts c (ss0 p) fullShare X -∗ wp frame (wpE (defs₀ (F := F)) 𝒱₀ (c : Thread nD τ) none) Set.univ (k ⟨⟩) Q)
      -∗ wp frame (wpE (defs₀ (F := F)) 𝒱₀ (c : Thread nD τ) none) Set.univ (.op (.store s0M (Rect.unit (s := S2x352x1024) ![p.val, 0, 0] S1x352x1024.size hinb) w Finset.univ hx hm) k) Q) := by
  exact op_store_sq m c s0M (Rect.unit (s := S2x352x1024) ![p.val, 0, 0] S1x352x1024.size hinb) (fun _ => rfl) S352x1024 squeezes_S1x352x1024_S352x1024 X shapeCasts_S352x1024_S1x352x1024 hw

theorem op_load_ss0_top_any  {hinb : ∀ a, (![1, 0, 0] : Fin 3 → Nat) a + S1x176x1024.size a ≤ S2x352x1024.size a}
    {hl : (s0M : Memref sig .tc .vmem S2x352x1024 .f32).view.LoadsAt (Rect.unit (s := S2x352x1024) ![1, 0, 0] S1x176x1024.size hinb).toLoadRect}
    {α : Type} {Q : α → sProp 𝕄} {k : Vec F S1x176x1024 .f32 → Prog (TpuEff nD τ sig (Elt F) Λ₀ .tc) α} :
    anyPts c (ss0 1) ⊢ iprop((∀ x, anyPts c (ss0 1) -∗ wp frame (wpE (defs₀ (F := F)) 𝒱₀ (c : Thread nD τ) none) Set.univ (k x) Q)
      -∗ wp frame (wpE (defs₀ (F := F)) 𝒱₀ (c : Thread nD τ) none) Set.univ (.op (.load s0M (Rect.unit (s := S2x352x1024) ![1, 0, 0] S1x176x1024.size hinb).toLoadRect hl) k) Q) := by
  simp only [anyPts_eq]
  iintro H Hk
  icases H with ⟨%f, Hp⟩
  have H1 : ((ss0 1).view.loc (c : Thread nD τ) ↦[(ss0 1).view.set]{fullShare} f) ⊢ iprop((∀ x, ((ss0 1).view.loc (c : Thread nD τ) ↦[(ss0 1).view.set]{fullShare} f) -∗ wp frame (wpE (defs₀ (F := F)) 𝒱₀ (c : Thread nD τ) none) Set.univ (k x) Q)
      -∗ wp frame (wpE (defs₀ (F := F)) 𝒱₀ (c : Thread nD τ) none) Set.univ (.op (.load s0M (Rect.unit (s := S2x352x1024) ![1, 0, 0] S1x176x1024.size hinb).toLoadRect hl) k) Q) :=
    op_load_part_sq m c s0M (Rect.unit (s := S2x352x1024) ![(1 : Fin 2).val, 0, 0] S1x352x1024.size (by decide)) (fun _ => rfl) S352x1024 squeezes_S1x352x1024_S352x1024 (Rect.unit (s := S2x352x1024) ![1, 0, 0] S1x176x1024.size hinb) (Rect.set_subset_of_span _ _ (fun _ => rfl) (fun a => by
      show (![(1 : Fin 2).val, 0, 0] : Fin 3 → ℕ) a ≤ (![1, 0, 0] : Fin 3 → ℕ) a
        ∧ (![1, 0, 0] : Fin 3 → ℕ) a + 1 * S1x176x1024.size a ≤ (![(1 : Fin 2).val, 0, 0] : Fin 3 → ℕ) a + S1x352x1024.size a + (1 - 1)
      revert a; decide)) f
  iapply H1 $$ Hp
  iintro %x Hp
  iapply Hk $$ %x
  iexists f
  iexact Hp

theorem op_store_ss0_top (X : Vec F S176x1024 .f32) {w : Vec F S1x176x1024 .f32}
    (hw : w = shapeCast S1x176x1024 X shapeCasts_S176x1024_S1x176x1024)
    (hX : X = prod176 (topA (sv0 m (xr c (mask 0 7)))) (bv m c)) {hinb : ∀ a, (![1, 0, 0] : Fin 3 → Nat) a + S1x176x1024.size a ≤ S2x352x1024.size a}
    {hx : ((s0M : Memref sig .tc .vmem S2x352x1024 .f32).access (Rect.unit (s := S2x352x1024) ![1, 0, 0] S1x176x1024.size hinb)).Stores Finset.univ} {hm : (Finset.univ : Finset (Rect.unit (s := S2x352x1024) ![1, 0, 0] S1x176x1024.size hinb).shape.Idx) = Finset.univ ∨ ∀ a, (Rect.unit (s := S2x352x1024) ![1, 0, 0] S1x176x1024.size hinb).stride a = 1}
    {α : Type} {Q : α → sProp 𝕄} {k : PUnit → Prog (TpuEff nD τ sig (Elt F) Λ₀ .tc) α} :
    anyPts c (ss0 1) ⊢ iprop((stageTop0 m c -∗ wp frame (wpE (defs₀ (F := F)) 𝒱₀ (c : Thread nD τ) none) Set.univ (k ⟨⟩) Q)
      -∗ wp frame (wpE (defs₀ (F := F)) 𝒱₀ (c : Thread nD τ) none) Set.univ (.op (.store s0M (Rect.unit (s := S2x352x1024) ![1, 0, 0] S1x176x1024.size hinb) w Finset.univ hx hm) k) Q) := by
  subst hw
  simp only [anyPts_eq]; unfold stageTop0
  iintro H Hk
  icases H with ⟨%f, Hp⟩
  have H1 : ((ss0 1).view.loc (c : Thread nD τ) ↦[(ss0 1).view.set]{fullShare} f) ⊢ iprop((((ss0 1).view.loc (c : Thread nD τ) ↦[(ss0 1).view.set]{fullShare} (((s0M : Memref sig .tc .vmem S2x352x1024 .f32).access (Rect.unit (s := S2x352x1024) ![1, 0, 0] S1x176x1024.size hinb)).write (Elt F) f (shapeCast S1x176x1024 X shapeCasts_S176x1024_S1x176x1024) Finset.univ)) -∗ wp frame (wpE (defs₀ (F := F)) 𝒱₀ (c : Thread nD τ) none) Set.univ (k ⟨⟩) Q)
      -∗ wp frame (wpE (defs₀ (F := F)) 𝒱₀ (c : Thread nD τ) none) Set.univ (.op (.store s0M (Rect.unit (s := S2x352x1024) ![1, 0, 0] S1x176x1024.size hinb) (shapeCast S1x176x1024 X shapeCasts_S176x1024_S1x176x1024) Finset.univ hx hm) k) Q) :=
    op_store_part_sq m c s0M (Rect.unit (s := S2x352x1024) ![(1 : Fin 2).val, 0, 0] S1x352x1024.size (by decide)) (fun _ => rfl) S352x1024 squeezes_S1x352x1024_S352x1024 (Rect.unit (s := S2x352x1024) ![1, 0, 0] S1x176x1024.size hinb) (Rect.set_subset_of_span _ _ (fun _ => rfl) (fun a => by
      show (![(1 : Fin 2).val, 0, 0] : Fin 3 → ℕ) a ≤ (![1, 0, 0] : Fin 3 → ℕ) a
        ∧ (![1, 0, 0] : Fin 3 → ℕ) a + 1 * S1x176x1024.size a ≤ (![(1 : Fin 2).val, 0, 0] : Fin 3 → ℕ) a + S1x352x1024.size a + (1 - 1)
      revert a; decide)) f
  iapply H1 $$ Hp
  iintro Hp
  iapply Hk
  iexists (((s0M : Memref sig .tc .vmem S2x352x1024 .f32).access (Rect.unit (s := S2x352x1024) ![1, 0, 0] S1x176x1024.size hinb)).write (Elt F) f (shapeCast S1x176x1024 X shapeCasts_S176x1024_S1x176x1024) Finset.univ)
  isplitl [Hp]
  · iexact Hp
  · ipureintro
    rw [hX.symm]
    funext i
    exact band_read_write (V := (s0M : Memref sig .tc .vmem S2x352x1024 .f32).view) (P := 2) (Mr := 352) (N := 1024) (p := 1) (o := 0) (n := 176)
      (by decide) (by decide) (by decide) squeezes_S1x352x1024_S352x1024.numel_eq shapeCasts_S176x1024_S1x176x1024 f X i

theorem op_load_ss0_bot_any  {hinb : ∀ a, (![1, 176, 0] : Fin 3 → Nat) a + S1x176x1024.size a ≤ S2x352x1024.size a}
    {hl : (s0M : Memref sig .tc .vmem S2x352x1024 .f32).view.LoadsAt (Rect.unit (s := S2x352x1024) ![1, 176, 0] S1x176x1024.size hinb).toLoadRect}
    {α : Type} {Q : α → sProp 𝕄} {k : Vec F S1x176x1024 .f32 → Prog (TpuEff nD τ sig (Elt F) Λ₀ .tc) α} :
    stageTop0 m c ⊢ iprop((∀ x, stageTop0 m c -∗ wp frame (wpE (defs₀ (F := F)) 𝒱₀ (c : Thread nD τ) none) Set.univ (k x) Q)
      -∗ wp frame (wpE (defs₀ (F := F)) 𝒱₀ (c : Thread nD τ) none) Set.univ (.op (.load s0M (Rect.unit (s := S2x352x1024) ![1, 176, 0] S1x176x1024.size hinb).toLoadRect hl) k) Q) := by
  unfold stageTop0
  iintro H Hk
  icases H with ⟨%f, Hp, %hf⟩
  have H1 : ((ss0 1).view.loc (c : Thread nD τ) ↦[(ss0 1).view.set]{fullShare} f) ⊢ iprop((∀ x, ((ss0 1).view.loc (c : Thread nD τ) ↦[(ss0 1).view.set]{fullShare} f) -∗ wp frame (wpE (defs₀ (F := F)) 𝒱₀ (c : Thread nD τ) none) Set.univ (k x) Q)
      -∗ wp frame (wpE (defs₀ (F := F)) 𝒱₀ (c : Thread nD τ) none) Set.univ (.op (.load s0M (Rect.unit (s := S2x352x1024) ![1, 176, 0] S1x176x1024.size hinb).toLoadRect hl) k) Q) :=
    op_load_part_sq m c s0M (Rect.unit (s := S2x352x1024) ![(1 : Fin 2).val, 0, 0] S1x352x1024.size (by decide)) (fun _ => rfl) S352x1024 squeezes_S1x352x1024_S352x1024 (Rect.unit (s := S2x352x1024) ![1, 176, 0] S1x176x1024.size hinb) (Rect.set_subset_of_span _ _ (fun _ => rfl) (fun a => by
      show (![(1 : Fin 2).val, 0, 0] : Fin 3 → ℕ) a ≤ (![1, 176, 0] : Fin 3 → ℕ) a
        ∧ (![1, 176, 0] : Fin 3 → ℕ) a + 1 * S1x176x1024.size a ≤ (![(1 : Fin 2).val, 0, 0] : Fin 3 → ℕ) a + S1x352x1024.size a + (1 - 1)
      revert a; decide)) f
  iapply H1 $$ Hp
  iintro %x Hp
  iapply Hk $$ %x
  iexists f
  isplitl [Hp]
  · iexact Hp
  · ipureintro; exact hf

theorem op_store_ss0_bot (X : Vec F S176x1024 .f32) {w : Vec F S1x176x1024 .f32}
    (hw : w = shapeCast S1x176x1024 X shapeCasts_S176x1024_S1x176x1024)
    (hX : X = prod176 (botA (sv0 m (xr c (mask 0 7)))) (bv m c)) {hinb : ∀ a, (![1, 176, 0] : Fin 3 → Nat) a + S1x176x1024.size a ≤ S2x352x1024.size a}
    {hx : ((s0M : Memref sig .tc .vmem S2x352x1024 .f32).access (Rect.unit (s := S2x352x1024) ![1, 176, 0] S1x176x1024.size hinb)).Stores Finset.univ} {hm : (Finset.univ : Finset (Rect.unit (s := S2x352x1024) ![1, 176, 0] S1x176x1024.size hinb).shape.Idx) = Finset.univ ∨ ∀ a, (Rect.unit (s := S2x352x1024) ![1, 176, 0] S1x176x1024.size hinb).stride a = 1}
    {α : Type} {Q : α → sProp 𝕄} {k : PUnit → Prog (TpuEff nD τ sig (Elt F) Λ₀ .tc) α} :
    stageTop0 m c ⊢ iprop((stageHas0 m c 7 -∗ wp frame (wpE (defs₀ (F := F)) 𝒱₀ (c : Thread nD τ) none) Set.univ (k ⟨⟩) Q)
      -∗ wp frame (wpE (defs₀ (F := F)) 𝒱₀ (c : Thread nD τ) none) Set.univ (.op (.store s0M (Rect.unit (s := S2x352x1024) ![1, 176, 0] S1x176x1024.size hinb) w Finset.univ hx hm) k) Q) := by
  subst hw
  unfold stageTop0 stageHas0
  iintro H Hk
  icases H with ⟨%f, Hp, %hf⟩
  have H1 : ((ss0 1).view.loc (c : Thread nD τ) ↦[(ss0 1).view.set]{fullShare} f) ⊢ iprop((((ss0 1).view.loc (c : Thread nD τ) ↦[(ss0 1).view.set]{fullShare} (((s0M : Memref sig .tc .vmem S2x352x1024 .f32).access (Rect.unit (s := S2x352x1024) ![1, 176, 0] S1x176x1024.size hinb)).write (Elt F) f (shapeCast S1x176x1024 X shapeCasts_S176x1024_S1x176x1024) Finset.univ)) -∗ wp frame (wpE (defs₀ (F := F)) 𝒱₀ (c : Thread nD τ) none) Set.univ (k ⟨⟩) Q)
      -∗ wp frame (wpE (defs₀ (F := F)) 𝒱₀ (c : Thread nD τ) none) Set.univ (.op (.store s0M (Rect.unit (s := S2x352x1024) ![1, 176, 0] S1x176x1024.size hinb) (shapeCast S1x176x1024 X shapeCasts_S176x1024_S1x176x1024) Finset.univ hx hm) k) Q) :=
    op_store_part_sq m c s0M (Rect.unit (s := S2x352x1024) ![(1 : Fin 2).val, 0, 0] S1x352x1024.size (by decide)) (fun _ => rfl) S352x1024 squeezes_S1x352x1024_S352x1024 (Rect.unit (s := S2x352x1024) ![1, 176, 0] S1x176x1024.size hinb) (Rect.set_subset_of_span _ _ (fun _ => rfl) (fun a => by
      show (![(1 : Fin 2).val, 0, 0] : Fin 3 → ℕ) a ≤ (![1, 176, 0] : Fin 3 → ℕ) a
        ∧ (![1, 176, 0] : Fin 3 → ℕ) a + 1 * S1x176x1024.size a ≤ (![(1 : Fin 2).val, 0, 0] : Fin 3 → ℕ) a + S1x352x1024.size a + (1 - 1)
      revert a; decide)) f
  iapply H1 $$ Hp
  iintro Hp
  iapply Hk
  iexists ((ss0 1).view.read (Elt F) (((s0M : Memref sig .tc .vmem S2x352x1024 .f32).access (Rect.unit (s := S2x352x1024) ![1, 176, 0] S1x176x1024.size hinb)).write (Elt F) f (shapeCast S1x176x1024 X shapeCasts_S176x1024_S1x176x1024) Finset.univ))
  isplitr
  · ipureintro
    unfold stageOK0
    rw [if_pos rfl]
    refine ⟨?_, ?_⟩
    · rw [hf.symm]
      funext i
      refine band_read_keep (V := (s0M : Memref sig .tc .vmem S2x352x1024 .f32).view) (P := 2) (Mr := 352) (N := 1024) (p := 1) (o := 176) (n := 176)
        (by decide) (by decide) squeezes_S1x352x1024_S352x1024.numel_eq f _ _ (fun h => ?_)
      have hi : ((i 0 : Fin 176) : ℕ) < 176 := (i 0).isLt
      change 176 ≤ 0 + 1 * ((i 0 : Fin 176) : ℕ) ∧ _ at h
      omega
    · rw [hX.symm]
      funext i
      exact band_read_write (V := (s0M : Memref sig .tc .vmem S2x352x1024 .f32).view) (P := 2) (Mr := 352) (N := 1024) (p := 1) (o := 176) (n := 176)
        (by decide) (by decide) (by decide) squeezes_S1x352x1024_S352x1024.numel_eq shapeCasts_S176x1024_S1x176x1024 f X i
  · simp only [holdsPts_eq]
    iexists (((s0M : Memref sig .tc .vmem S2x352x1024 .f32).access (Rect.unit (s := S2x352x1024) ![1, 176, 0] S1x176x1024.size hinb)).write (Elt F) f (shapeCast S1x176x1024 X shapeCasts_S176x1024_S1x176x1024) Finset.univ)
    isplitl [Hp]
    · iexact Hp
    · ipureintro; rfl

theorem op_load_gs1_any (j : Fin 8) {hinb : ∀ a, (![j.val, 0, 0] : Fin 3 → Nat) a + S1x336x512.size a ≤ S8x336x512.size a}
    {hl : (g1M : Memref sig .tc .vmem S8x336x512 .bf16).view.LoadsAt (Rect.unit (s := S8x336x512) ![j.val, 0, 0] S1x336x512.size hinb).toLoadRect}
    {α : Type} {Q : α → sProp 𝕄} {k : Vec F S1x336x512 .bf16 → Prog (TpuEff nD τ sig (Elt F) Λ₀ .tc) α} :
    anyPts c (gs1 j) ⊢ iprop((∀ x, anyPts c (gs1 j) -∗ wp frame (wpE (defs₀ (F := F)) 𝒱₀ (c : Thread nD τ) none) Set.univ (k x) Q)
      -∗ wp frame (wpE (defs₀ (F := F)) 𝒱₀ (c : Thread nD τ) none) Set.univ (.op (.load g1M (Rect.unit (s := S8x336x512) ![j.val, 0, 0] S1x336x512.size hinb).toLoadRect hl) k) Q) := by
  exact op_load_any m c g1M (Rect.unit (s := S8x336x512) ![j.val, 0, 0] S1x336x512.size hinb) (fun _ => rfl)

theorem op_store_gs1 (j : Fin 8) {w : Vec F S1x336x512 .bf16} {hinb : ∀ a, (![j.val, 0, 0] : Fin 3 → Nat) a + S1x336x512.size a ≤ S8x336x512.size a}
    {hx : ((g1M : Memref sig .tc .vmem S8x336x512 .bf16).access (Rect.unit (s := S8x336x512) ![j.val, 0, 0] S1x336x512.size hinb)).Stores Finset.univ} {hm : (Finset.univ : Finset (Rect.unit (s := S8x336x512) ![j.val, 0, 0] S1x336x512.size hinb).shape.Idx) = Finset.univ ∨ ∀ a, (Rect.unit (s := S8x336x512) ![j.val, 0, 0] S1x336x512.size hinb).stride a = 1}
    {α : Type} {Q : α → sProp 𝕄} {k : PUnit → Prog (TpuEff nD τ sig (Elt F) Λ₀ .tc) α} :
    anyPts c (gs1 j) ⊢ iprop((holdsPts c (gs1 j) fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store g1M (Rect.unit (s := S8x336x512) ![j.val, 0, 0] S1x336x512.size hinb) w Finset.univ hx hm) k) Q) := by
  exact op_store_slice m c g1M (Rect.unit (s := S8x336x512) ![j.val, 0, 0] S1x336x512.size hinb) (fun _ => rfl)

theorem op_load_gs1 (j : Fin 8) (q : PosShare TreeShare) (v : Vec F S1x336x512 .bf16) {hinb : ∀ a, (![j.val, 0, 0] : Fin 3 → Nat) a + S1x336x512.size a ≤ S8x336x512.size a}
    {hl : (g1M : Memref sig .tc .vmem S8x336x512 .bf16).view.LoadsAt (Rect.unit (s := S8x336x512) ![j.val, 0, 0] S1x336x512.size hinb).toLoadRect}
    {α : Type} {Q : α → sProp 𝕄} {k : Vec F S1x336x512 .bf16 → Prog (TpuEff nD τ sig (Elt F) Λ₀ .tc) α} :
    holdsPts c (gs1 j) q v ⊢ iprop((holdsPts c (gs1 j) q v -∗ wp frame (wpE (defs₀ (F := F)) 𝒱₀ (c : Thread nD τ) none) Set.univ (k v) Q)
      -∗ wp frame (wpE (defs₀ (F := F)) 𝒱₀ (c : Thread nD τ) none) Set.univ (.op (.load g1M (Rect.unit (s := S8x336x512) ![j.val, 0, 0] S1x336x512.size hinb).toLoadRect hl) k) Q) := by
  exact op_load_holds m c g1M (Rect.unit (s := S8x336x512) ![j.val, 0, 0] S1x336x512.size hinb) (fun _ => rfl) q v

theorem op_load_ga1 (j : Fin 8) (q : PosShare TreeShare) (v : Vec F S1x176x512 .bf16) {hinb : ∀ a, (![j.val, 0, 0] : Fin 3 → Nat) a + S1x176x512.size a ≤ S8x336x512.size a}
    {hl : (g1M : Memref sig .tc .vmem S8x336x512 .bf16).view.LoadsAt (Rect.unit (s := S8x336x512) ![j.val, 0, 0] S1x176x512.size hinb).toLoadRect}
    {α : Type} {Q : α → sProp 𝕄} {k : Vec F S1x176x512 .bf16 → Prog (TpuEff nD τ sig (Elt F) Λ₀ .tc) α} :
    holdsPts c (ga1 j) q v ⊢ iprop((holdsPts c (ga1 j) q v -∗ wp frame (wpE (defs₀ (F := F)) 𝒱₀ (c : Thread nD τ) none) Set.univ (k v) Q)
      -∗ wp frame (wpE (defs₀ (F := F)) 𝒱₀ (c : Thread nD τ) none) Set.univ (.op (.load g1M (Rect.unit (s := S8x336x512) ![j.val, 0, 0] S1x176x512.size hinb).toLoadRect hl) k) Q) := by
  exact op_load_holds m c g1M (Rect.unit (s := S8x336x512) ![j.val, 0, 0] S1x176x512.size hinb) (fun _ => rfl) q v

theorem op_load_gb1 (j : Fin 8) (q : PosShare TreeShare) (v : Vec F S1x160x512 .bf16) {hinb : ∀ a, (![j.val, 176, 0] : Fin 3 → Nat) a + S1x160x512.size a ≤ S8x336x512.size a}
    {hl : (g1M : Memref sig .tc .vmem S8x336x512 .bf16).view.LoadsAt (Rect.unit (s := S8x336x512) ![j.val, 176, 0] S1x160x512.size hinb).toLoadRect}
    {α : Type} {Q : α → sProp 𝕄} {k : Vec F S1x160x512 .bf16 → Prog (TpuEff nD τ sig (Elt F) Λ₀ .tc) α} :
    holdsPts c (gb1 j) q v ⊢ iprop((holdsPts c (gb1 j) q v -∗ wp frame (wpE (defs₀ (F := F)) 𝒱₀ (c : Thread nD τ) none) Set.univ (k v) Q)
      -∗ wp frame (wpE (defs₀ (F := F)) 𝒱₀ (c : Thread nD τ) none) Set.univ (.op (.load g1M (Rect.unit (s := S8x336x512) ![j.val, 176, 0] S1x160x512.size hinb).toLoadRect hl) k) Q) := by
  exact op_load_holds m c g1M (Rect.unit (s := S8x336x512) ![j.val, 176, 0] S1x160x512.size hinb) (fun _ => rfl) q v

theorem op_load_ss1_any (p : Fin 2) {hinb : ∀ a, (![p.val, 0, 0] : Fin 3 → Nat) a + S1x336x1024.size a ≤ S2x336x1024.size a}
    {hl : (s1M : Memref sig .tc .vmem S2x336x1024 .f32).view.LoadsAt (Rect.unit (s := S2x336x1024) ![p.val, 0, 0] S1x336x1024.size hinb).toLoadRect}
    {α : Type} {Q : α → sProp 𝕄} {k : Vec F S1x336x1024 .f32 → Prog (TpuEff nD τ sig (Elt F) Λ₀ .tc) α} :
    anyPts c (ss1 p) ⊢ iprop((∀ x, anyPts c (ss1 p) -∗ wp frame (wpE (defs₀ (F := F)) 𝒱₀ (c : Thread nD τ) none) Set.univ (k x) Q)
      -∗ wp frame (wpE (defs₀ (F := F)) 𝒱₀ (c : Thread nD τ) none) Set.univ (.op (.load s1M (Rect.unit (s := S2x336x1024) ![p.val, 0, 0] S1x336x1024.size hinb).toLoadRect hl) k) Q) := by
  exact op_load_any_sq m c s1M (Rect.unit (s := S2x336x1024) ![p.val, 0, 0] S1x336x1024.size hinb) (fun _ => rfl) S336x1024 squeezes_S1x336x1024_S336x1024

theorem op_store_ss1 (p : Fin 2) (X : Vec F S336x1024 .f32) {w : Vec F S1x336x1024 .f32}
    (hw : w = shapeCast S1x336x1024 X shapeCasts_S336x1024_S1x336x1024) {hinb : ∀ a, (![p.val, 0, 0] : Fin 3 → Nat) a + S1x336x1024.size a ≤ S2x336x1024.size a}
    {hx : ((s1M : Memref sig .tc .vmem S2x336x1024 .f32).access (Rect.unit (s := S2x336x1024) ![p.val, 0, 0] S1x336x1024.size hinb)).Stores Finset.univ} {hm : (Finset.univ : Finset (Rect.unit (s := S2x336x1024) ![p.val, 0, 0] S1x336x1024.size hinb).shape.Idx) = Finset.univ ∨ ∀ a, (Rect.unit (s := S2x336x1024) ![p.val, 0, 0] S1x336x1024.size hinb).stride a = 1}
    {α : Type} {Q : α → sProp 𝕄} {k : PUnit → Prog (TpuEff nD τ sig (Elt F) Λ₀ .tc) α} :
    anyPts c (ss1 p) ⊢ iprop((holdsPts c (ss1 p) fullShare X -∗ wp frame (wpE (defs₀ (F := F)) 𝒱₀ (c : Thread nD τ) none) Set.univ (k ⟨⟩) Q)
      -∗ wp frame (wpE (defs₀ (F := F)) 𝒱₀ (c : Thread nD τ) none) Set.univ (.op (.store s1M (Rect.unit (s := S2x336x1024) ![p.val, 0, 0] S1x336x1024.size hinb) w Finset.univ hx hm) k) Q) := by
  exact op_store_sq m c s1M (Rect.unit (s := S2x336x1024) ![p.val, 0, 0] S1x336x1024.size hinb) (fun _ => rfl) S336x1024 squeezes_S1x336x1024_S336x1024 X shapeCasts_S336x1024_S1x336x1024 hw

theorem op_load_ss1_top_any  {hinb : ∀ a, (![1, 0, 0] : Fin 3 → Nat) a + S1x176x1024.size a ≤ S2x336x1024.size a}
    {hl : (s1M : Memref sig .tc .vmem S2x336x1024 .f32).view.LoadsAt (Rect.unit (s := S2x336x1024) ![1, 0, 0] S1x176x1024.size hinb).toLoadRect}
    {α : Type} {Q : α → sProp 𝕄} {k : Vec F S1x176x1024 .f32 → Prog (TpuEff nD τ sig (Elt F) Λ₀ .tc) α} :
    anyPts c (ss1 1) ⊢ iprop((∀ x, anyPts c (ss1 1) -∗ wp frame (wpE (defs₀ (F := F)) 𝒱₀ (c : Thread nD τ) none) Set.univ (k x) Q)
      -∗ wp frame (wpE (defs₀ (F := F)) 𝒱₀ (c : Thread nD τ) none) Set.univ (.op (.load s1M (Rect.unit (s := S2x336x1024) ![1, 0, 0] S1x176x1024.size hinb).toLoadRect hl) k) Q) := by
  simp only [anyPts_eq]
  iintro H Hk
  icases H with ⟨%f, Hp⟩
  have H1 : ((ss1 1).view.loc (c : Thread nD τ) ↦[(ss1 1).view.set]{fullShare} f) ⊢ iprop((∀ x, ((ss1 1).view.loc (c : Thread nD τ) ↦[(ss1 1).view.set]{fullShare} f) -∗ wp frame (wpE (defs₀ (F := F)) 𝒱₀ (c : Thread nD τ) none) Set.univ (k x) Q)
      -∗ wp frame (wpE (defs₀ (F := F)) 𝒱₀ (c : Thread nD τ) none) Set.univ (.op (.load s1M (Rect.unit (s := S2x336x1024) ![1, 0, 0] S1x176x1024.size hinb).toLoadRect hl) k) Q) :=
    op_load_part_sq m c s1M (Rect.unit (s := S2x336x1024) ![(1 : Fin 2).val, 0, 0] S1x336x1024.size (by decide)) (fun _ => rfl) S336x1024 squeezes_S1x336x1024_S336x1024 (Rect.unit (s := S2x336x1024) ![1, 0, 0] S1x176x1024.size hinb) (Rect.set_subset_of_span _ _ (fun _ => rfl) (fun a => by
      show (![(1 : Fin 2).val, 0, 0] : Fin 3 → ℕ) a ≤ (![1, 0, 0] : Fin 3 → ℕ) a
        ∧ (![1, 0, 0] : Fin 3 → ℕ) a + 1 * S1x176x1024.size a ≤ (![(1 : Fin 2).val, 0, 0] : Fin 3 → ℕ) a + S1x336x1024.size a + (1 - 1)
      revert a; decide)) f
  iapply H1 $$ Hp
  iintro %x Hp
  iapply Hk $$ %x
  iexists f
  iexact Hp

theorem op_store_ss1_top (X : Vec F S176x1024 .f32) {w : Vec F S1x176x1024 .f32}
    (hw : w = shapeCast S1x176x1024 X shapeCasts_S176x1024_S1x176x1024)
    (hX : X = prod176 (topB (sv1 m (xr c (mask 1 7)))) (bv m c)) {hinb : ∀ a, (![1, 0, 0] : Fin 3 → Nat) a + S1x176x1024.size a ≤ S2x336x1024.size a}
    {hx : ((s1M : Memref sig .tc .vmem S2x336x1024 .f32).access (Rect.unit (s := S2x336x1024) ![1, 0, 0] S1x176x1024.size hinb)).Stores Finset.univ} {hm : (Finset.univ : Finset (Rect.unit (s := S2x336x1024) ![1, 0, 0] S1x176x1024.size hinb).shape.Idx) = Finset.univ ∨ ∀ a, (Rect.unit (s := S2x336x1024) ![1, 0, 0] S1x176x1024.size hinb).stride a = 1}
    {α : Type} {Q : α → sProp 𝕄} {k : PUnit → Prog (TpuEff nD τ sig (Elt F) Λ₀ .tc) α} :
    anyPts c (ss1 1) ⊢ iprop((stageTop1 m c -∗ wp frame (wpE (defs₀ (F := F)) 𝒱₀ (c : Thread nD τ) none) Set.univ (k ⟨⟩) Q)
      -∗ wp frame (wpE (defs₀ (F := F)) 𝒱₀ (c : Thread nD τ) none) Set.univ (.op (.store s1M (Rect.unit (s := S2x336x1024) ![1, 0, 0] S1x176x1024.size hinb) w Finset.univ hx hm) k) Q) := by
  subst hw
  simp only [anyPts_eq]; unfold stageTop1
  iintro H Hk
  icases H with ⟨%f, Hp⟩
  have H1 : ((ss1 1).view.loc (c : Thread nD τ) ↦[(ss1 1).view.set]{fullShare} f) ⊢ iprop((((ss1 1).view.loc (c : Thread nD τ) ↦[(ss1 1).view.set]{fullShare} (((s1M : Memref sig .tc .vmem S2x336x1024 .f32).access (Rect.unit (s := S2x336x1024) ![1, 0, 0] S1x176x1024.size hinb)).write (Elt F) f (shapeCast S1x176x1024 X shapeCasts_S176x1024_S1x176x1024) Finset.univ)) -∗ wp frame (wpE (defs₀ (F := F)) 𝒱₀ (c : Thread nD τ) none) Set.univ (k ⟨⟩) Q)
      -∗ wp frame (wpE (defs₀ (F := F)) 𝒱₀ (c : Thread nD τ) none) Set.univ (.op (.store s1M (Rect.unit (s := S2x336x1024) ![1, 0, 0] S1x176x1024.size hinb) (shapeCast S1x176x1024 X shapeCasts_S176x1024_S1x176x1024) Finset.univ hx hm) k) Q) :=
    op_store_part_sq m c s1M (Rect.unit (s := S2x336x1024) ![(1 : Fin 2).val, 0, 0] S1x336x1024.size (by decide)) (fun _ => rfl) S336x1024 squeezes_S1x336x1024_S336x1024 (Rect.unit (s := S2x336x1024) ![1, 0, 0] S1x176x1024.size hinb) (Rect.set_subset_of_span _ _ (fun _ => rfl) (fun a => by
      show (![(1 : Fin 2).val, 0, 0] : Fin 3 → ℕ) a ≤ (![1, 0, 0] : Fin 3 → ℕ) a
        ∧ (![1, 0, 0] : Fin 3 → ℕ) a + 1 * S1x176x1024.size a ≤ (![(1 : Fin 2).val, 0, 0] : Fin 3 → ℕ) a + S1x336x1024.size a + (1 - 1)
      revert a; decide)) f
  iapply H1 $$ Hp
  iintro Hp
  iapply Hk
  iexists (((s1M : Memref sig .tc .vmem S2x336x1024 .f32).access (Rect.unit (s := S2x336x1024) ![1, 0, 0] S1x176x1024.size hinb)).write (Elt F) f (shapeCast S1x176x1024 X shapeCasts_S176x1024_S1x176x1024) Finset.univ)
  isplitl [Hp]
  · iexact Hp
  · ipureintro
    rw [hX.symm]
    funext i
    exact band_read_write (V := (s1M : Memref sig .tc .vmem S2x336x1024 .f32).view) (P := 2) (Mr := 336) (N := 1024) (p := 1) (o := 0) (n := 176)
      (by decide) (by decide) (by decide) squeezes_S1x336x1024_S336x1024.numel_eq shapeCasts_S176x1024_S1x176x1024 f X i

theorem op_load_ss1_bot_any  {hinb : ∀ a, (![1, 176, 0] : Fin 3 → Nat) a + S1x160x1024.size a ≤ S2x336x1024.size a}
    {hl : (s1M : Memref sig .tc .vmem S2x336x1024 .f32).view.LoadsAt (Rect.unit (s := S2x336x1024) ![1, 176, 0] S1x160x1024.size hinb).toLoadRect}
    {α : Type} {Q : α → sProp 𝕄} {k : Vec F S1x160x1024 .f32 → Prog (TpuEff nD τ sig (Elt F) Λ₀ .tc) α} :
    stageTop1 m c ⊢ iprop((∀ x, stageTop1 m c -∗ wp frame (wpE (defs₀ (F := F)) 𝒱₀ (c : Thread nD τ) none) Set.univ (k x) Q)
      -∗ wp frame (wpE (defs₀ (F := F)) 𝒱₀ (c : Thread nD τ) none) Set.univ (.op (.load s1M (Rect.unit (s := S2x336x1024) ![1, 176, 0] S1x160x1024.size hinb).toLoadRect hl) k) Q) := by
  unfold stageTop1
  iintro H Hk
  icases H with ⟨%f, Hp, %hf⟩
  have H1 : ((ss1 1).view.loc (c : Thread nD τ) ↦[(ss1 1).view.set]{fullShare} f) ⊢ iprop((∀ x, ((ss1 1).view.loc (c : Thread nD τ) ↦[(ss1 1).view.set]{fullShare} f) -∗ wp frame (wpE (defs₀ (F := F)) 𝒱₀ (c : Thread nD τ) none) Set.univ (k x) Q)
      -∗ wp frame (wpE (defs₀ (F := F)) 𝒱₀ (c : Thread nD τ) none) Set.univ (.op (.load s1M (Rect.unit (s := S2x336x1024) ![1, 176, 0] S1x160x1024.size hinb).toLoadRect hl) k) Q) :=
    op_load_part_sq m c s1M (Rect.unit (s := S2x336x1024) ![(1 : Fin 2).val, 0, 0] S1x336x1024.size (by decide)) (fun _ => rfl) S336x1024 squeezes_S1x336x1024_S336x1024 (Rect.unit (s := S2x336x1024) ![1, 176, 0] S1x160x1024.size hinb) (Rect.set_subset_of_span _ _ (fun _ => rfl) (fun a => by
      show (![(1 : Fin 2).val, 0, 0] : Fin 3 → ℕ) a ≤ (![1, 176, 0] : Fin 3 → ℕ) a
        ∧ (![1, 176, 0] : Fin 3 → ℕ) a + 1 * S1x160x1024.size a ≤ (![(1 : Fin 2).val, 0, 0] : Fin 3 → ℕ) a + S1x336x1024.size a + (1 - 1)
      revert a; decide)) f
  iapply H1 $$ Hp
  iintro %x Hp
  iapply Hk $$ %x
  iexists f
  isplitl [Hp]
  · iexact Hp
  · ipureintro; exact hf

theorem op_store_ss1_bot (X : Vec F S160x1024 .f32) {w : Vec F S1x160x1024 .f32}
    (hw : w = shapeCast S1x160x1024 X shapeCasts_S160x1024_S1x160x1024)
    (hX : X = prod160 (botB (sv1 m (xr c (mask 1 7)))) (bv m c)) {hinb : ∀ a, (![1, 176, 0] : Fin 3 → Nat) a + S1x160x1024.size a ≤ S2x336x1024.size a}
    {hx : ((s1M : Memref sig .tc .vmem S2x336x1024 .f32).access (Rect.unit (s := S2x336x1024) ![1, 176, 0] S1x160x1024.size hinb)).Stores Finset.univ} {hm : (Finset.univ : Finset (Rect.unit (s := S2x336x1024) ![1, 176, 0] S1x160x1024.size hinb).shape.Idx) = Finset.univ ∨ ∀ a, (Rect.unit (s := S2x336x1024) ![1, 176, 0] S1x160x1024.size hinb).stride a = 1}
    {α : Type} {Q : α → sProp 𝕄} {k : PUnit → Prog (TpuEff nD τ sig (Elt F) Λ₀ .tc) α} :
    stageTop1 m c ⊢ iprop((stageHas1 m c 7 -∗ wp frame (wpE (defs₀ (F := F)) 𝒱₀ (c : Thread nD τ) none) Set.univ (k ⟨⟩) Q)
      -∗ wp frame (wpE (defs₀ (F := F)) 𝒱₀ (c : Thread nD τ) none) Set.univ (.op (.store s1M (Rect.unit (s := S2x336x1024) ![1, 176, 0] S1x160x1024.size hinb) w Finset.univ hx hm) k) Q) := by
  subst hw
  unfold stageTop1 stageHas1
  iintro H Hk
  icases H with ⟨%f, Hp, %hf⟩
  have H1 : ((ss1 1).view.loc (c : Thread nD τ) ↦[(ss1 1).view.set]{fullShare} f) ⊢ iprop((((ss1 1).view.loc (c : Thread nD τ) ↦[(ss1 1).view.set]{fullShare} (((s1M : Memref sig .tc .vmem S2x336x1024 .f32).access (Rect.unit (s := S2x336x1024) ![1, 176, 0] S1x160x1024.size hinb)).write (Elt F) f (shapeCast S1x160x1024 X shapeCasts_S160x1024_S1x160x1024) Finset.univ)) -∗ wp frame (wpE (defs₀ (F := F)) 𝒱₀ (c : Thread nD τ) none) Set.univ (k ⟨⟩) Q)
      -∗ wp frame (wpE (defs₀ (F := F)) 𝒱₀ (c : Thread nD τ) none) Set.univ (.op (.store s1M (Rect.unit (s := S2x336x1024) ![1, 176, 0] S1x160x1024.size hinb) (shapeCast S1x160x1024 X shapeCasts_S160x1024_S1x160x1024) Finset.univ hx hm) k) Q) :=
    op_store_part_sq m c s1M (Rect.unit (s := S2x336x1024) ![(1 : Fin 2).val, 0, 0] S1x336x1024.size (by decide)) (fun _ => rfl) S336x1024 squeezes_S1x336x1024_S336x1024 (Rect.unit (s := S2x336x1024) ![1, 176, 0] S1x160x1024.size hinb) (Rect.set_subset_of_span _ _ (fun _ => rfl) (fun a => by
      show (![(1 : Fin 2).val, 0, 0] : Fin 3 → ℕ) a ≤ (![1, 176, 0] : Fin 3 → ℕ) a
        ∧ (![1, 176, 0] : Fin 3 → ℕ) a + 1 * S1x160x1024.size a ≤ (![(1 : Fin 2).val, 0, 0] : Fin 3 → ℕ) a + S1x336x1024.size a + (1 - 1)
      revert a; decide)) f
  iapply H1 $$ Hp
  iintro Hp
  iapply Hk
  iexists ((ss1 1).view.read (Elt F) (((s1M : Memref sig .tc .vmem S2x336x1024 .f32).access (Rect.unit (s := S2x336x1024) ![1, 176, 0] S1x160x1024.size hinb)).write (Elt F) f (shapeCast S1x160x1024 X shapeCasts_S160x1024_S1x160x1024) Finset.univ))
  isplitr
  · ipureintro
    unfold stageOK1
    rw [if_pos rfl]
    refine ⟨?_, ?_⟩
    · rw [hf.symm]
      funext i
      refine band_read_keep (V := (s1M : Memref sig .tc .vmem S2x336x1024 .f32).view) (P := 2) (Mr := 336) (N := 1024) (p := 1) (o := 176) (n := 160)
        (by decide) (by decide) squeezes_S1x336x1024_S336x1024.numel_eq f _ _ (fun h => ?_)
      have hi : ((i 0 : Fin 176) : ℕ) < 176 := (i 0).isLt
      change 176 ≤ 0 + 1 * ((i 0 : Fin 176) : ℕ) ∧ _ at h
      omega
    · rw [hX.symm]
      funext i
      exact band_read_write (V := (s1M : Memref sig .tc .vmem S2x336x1024 .f32).view) (P := 2) (Mr := 336) (N := 1024) (p := 1) (o := 176) (n := 160)
        (by decide) (by decide) (by decide) squeezes_S1x336x1024_S336x1024.numel_eq shapeCasts_S160x1024_S1x160x1024 f X i
  · simp only [holdsPts_eq]
    iexists (((s1M : Memref sig .tc .vmem S2x336x1024 .f32).access (Rect.unit (s := S2x336x1024) ![1, 176, 0] S1x160x1024.size hinb)).write (Elt F) f (shapeCast S1x160x1024 X shapeCasts_S160x1024_S1x160x1024) Finset.univ)
    isplitl [Hp]
    · iexact Hp
    · ipureintro; rfl

theorem op_load_gs2_any (j : Fin 8) {hinb : ∀ a, (![j.val, 0, 0] : Fin 3 → Nat) a + S1x336x512.size a ≤ S8x336x512.size a}
    {hl : (g2M : Memref sig .tc .vmem S8x336x512 .bf16).view.LoadsAt (Rect.unit (s := S8x336x512) ![j.val, 0, 0] S1x336x512.size hinb).toLoadRect}
    {α : Type} {Q : α → sProp 𝕄} {k : Vec F S1x336x512 .bf16 → Prog (TpuEff nD τ sig (Elt F) Λ₀ .tc) α} :
    anyPts c (gs2 j) ⊢ iprop((∀ x, anyPts c (gs2 j) -∗ wp frame (wpE (defs₀ (F := F)) 𝒱₀ (c : Thread nD τ) none) Set.univ (k x) Q)
      -∗ wp frame (wpE (defs₀ (F := F)) 𝒱₀ (c : Thread nD τ) none) Set.univ (.op (.load g2M (Rect.unit (s := S8x336x512) ![j.val, 0, 0] S1x336x512.size hinb).toLoadRect hl) k) Q) := by
  exact op_load_any m c g2M (Rect.unit (s := S8x336x512) ![j.val, 0, 0] S1x336x512.size hinb) (fun _ => rfl)

theorem op_store_gs2 (j : Fin 8) {w : Vec F S1x336x512 .bf16} {hinb : ∀ a, (![j.val, 0, 0] : Fin 3 → Nat) a + S1x336x512.size a ≤ S8x336x512.size a}
    {hx : ((g2M : Memref sig .tc .vmem S8x336x512 .bf16).access (Rect.unit (s := S8x336x512) ![j.val, 0, 0] S1x336x512.size hinb)).Stores Finset.univ} {hm : (Finset.univ : Finset (Rect.unit (s := S8x336x512) ![j.val, 0, 0] S1x336x512.size hinb).shape.Idx) = Finset.univ ∨ ∀ a, (Rect.unit (s := S8x336x512) ![j.val, 0, 0] S1x336x512.size hinb).stride a = 1}
    {α : Type} {Q : α → sProp 𝕄} {k : PUnit → Prog (TpuEff nD τ sig (Elt F) Λ₀ .tc) α} :
    anyPts c (gs2 j) ⊢ iprop((holdsPts c (gs2 j) fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store g2M (Rect.unit (s := S8x336x512) ![j.val, 0, 0] S1x336x512.size hinb) w Finset.univ hx hm) k) Q) := by
  exact op_store_slice m c g2M (Rect.unit (s := S8x336x512) ![j.val, 0, 0] S1x336x512.size hinb) (fun _ => rfl)

theorem op_load_gs2 (j : Fin 8) (q : PosShare TreeShare) (v : Vec F S1x336x512 .bf16) {hinb : ∀ a, (![j.val, 0, 0] : Fin 3 → Nat) a + S1x336x512.size a ≤ S8x336x512.size a}
    {hl : (g2M : Memref sig .tc .vmem S8x336x512 .bf16).view.LoadsAt (Rect.unit (s := S8x336x512) ![j.val, 0, 0] S1x336x512.size hinb).toLoadRect}
    {α : Type} {Q : α → sProp 𝕄} {k : Vec F S1x336x512 .bf16 → Prog (TpuEff nD τ sig (Elt F) Λ₀ .tc) α} :
    holdsPts c (gs2 j) q v ⊢ iprop((holdsPts c (gs2 j) q v -∗ wp frame (wpE (defs₀ (F := F)) 𝒱₀ (c : Thread nD τ) none) Set.univ (k v) Q)
      -∗ wp frame (wpE (defs₀ (F := F)) 𝒱₀ (c : Thread nD τ) none) Set.univ (.op (.load g2M (Rect.unit (s := S8x336x512) ![j.val, 0, 0] S1x336x512.size hinb).toLoadRect hl) k) Q) := by
  exact op_load_holds m c g2M (Rect.unit (s := S8x336x512) ![j.val, 0, 0] S1x336x512.size hinb) (fun _ => rfl) q v

theorem op_load_ga2 (j : Fin 8) (q : PosShare TreeShare) (v : Vec F S1x176x512 .bf16) {hinb : ∀ a, (![j.val, 0, 0] : Fin 3 → Nat) a + S1x176x512.size a ≤ S8x336x512.size a}
    {hl : (g2M : Memref sig .tc .vmem S8x336x512 .bf16).view.LoadsAt (Rect.unit (s := S8x336x512) ![j.val, 0, 0] S1x176x512.size hinb).toLoadRect}
    {α : Type} {Q : α → sProp 𝕄} {k : Vec F S1x176x512 .bf16 → Prog (TpuEff nD τ sig (Elt F) Λ₀ .tc) α} :
    holdsPts c (ga2 j) q v ⊢ iprop((holdsPts c (ga2 j) q v -∗ wp frame (wpE (defs₀ (F := F)) 𝒱₀ (c : Thread nD τ) none) Set.univ (k v) Q)
      -∗ wp frame (wpE (defs₀ (F := F)) 𝒱₀ (c : Thread nD τ) none) Set.univ (.op (.load g2M (Rect.unit (s := S8x336x512) ![j.val, 0, 0] S1x176x512.size hinb).toLoadRect hl) k) Q) := by
  exact op_load_holds m c g2M (Rect.unit (s := S8x336x512) ![j.val, 0, 0] S1x176x512.size hinb) (fun _ => rfl) q v

theorem op_load_gb2 (j : Fin 8) (q : PosShare TreeShare) (v : Vec F S1x160x512 .bf16) {hinb : ∀ a, (![j.val, 176, 0] : Fin 3 → Nat) a + S1x160x512.size a ≤ S8x336x512.size a}
    {hl : (g2M : Memref sig .tc .vmem S8x336x512 .bf16).view.LoadsAt (Rect.unit (s := S8x336x512) ![j.val, 176, 0] S1x160x512.size hinb).toLoadRect}
    {α : Type} {Q : α → sProp 𝕄} {k : Vec F S1x160x512 .bf16 → Prog (TpuEff nD τ sig (Elt F) Λ₀ .tc) α} :
    holdsPts c (gb2 j) q v ⊢ iprop((holdsPts c (gb2 j) q v -∗ wp frame (wpE (defs₀ (F := F)) 𝒱₀ (c : Thread nD τ) none) Set.univ (k v) Q)
      -∗ wp frame (wpE (defs₀ (F := F)) 𝒱₀ (c : Thread nD τ) none) Set.univ (.op (.load g2M (Rect.unit (s := S8x336x512) ![j.val, 176, 0] S1x160x512.size hinb).toLoadRect hl) k) Q) := by
  exact op_load_holds m c g2M (Rect.unit (s := S8x336x512) ![j.val, 176, 0] S1x160x512.size hinb) (fun _ => rfl) q v

theorem op_load_ss2_any (p : Fin 2) {hinb : ∀ a, (![p.val, 0, 0] : Fin 3 → Nat) a + S1x336x1024.size a ≤ S2x336x1024.size a}
    {hl : (s2M : Memref sig .tc .vmem S2x336x1024 .f32).view.LoadsAt (Rect.unit (s := S2x336x1024) ![p.val, 0, 0] S1x336x1024.size hinb).toLoadRect}
    {α : Type} {Q : α → sProp 𝕄} {k : Vec F S1x336x1024 .f32 → Prog (TpuEff nD τ sig (Elt F) Λ₀ .tc) α} :
    anyPts c (ss2 p) ⊢ iprop((∀ x, anyPts c (ss2 p) -∗ wp frame (wpE (defs₀ (F := F)) 𝒱₀ (c : Thread nD τ) none) Set.univ (k x) Q)
      -∗ wp frame (wpE (defs₀ (F := F)) 𝒱₀ (c : Thread nD τ) none) Set.univ (.op (.load s2M (Rect.unit (s := S2x336x1024) ![p.val, 0, 0] S1x336x1024.size hinb).toLoadRect hl) k) Q) := by
  exact op_load_any_sq m c s2M (Rect.unit (s := S2x336x1024) ![p.val, 0, 0] S1x336x1024.size hinb) (fun _ => rfl) S336x1024 squeezes_S1x336x1024_S336x1024

theorem op_store_ss2 (p : Fin 2) (X : Vec F S336x1024 .f32) {w : Vec F S1x336x1024 .f32}
    (hw : w = shapeCast S1x336x1024 X shapeCasts_S336x1024_S1x336x1024) {hinb : ∀ a, (![p.val, 0, 0] : Fin 3 → Nat) a + S1x336x1024.size a ≤ S2x336x1024.size a}
    {hx : ((s2M : Memref sig .tc .vmem S2x336x1024 .f32).access (Rect.unit (s := S2x336x1024) ![p.val, 0, 0] S1x336x1024.size hinb)).Stores Finset.univ} {hm : (Finset.univ : Finset (Rect.unit (s := S2x336x1024) ![p.val, 0, 0] S1x336x1024.size hinb).shape.Idx) = Finset.univ ∨ ∀ a, (Rect.unit (s := S2x336x1024) ![p.val, 0, 0] S1x336x1024.size hinb).stride a = 1}
    {α : Type} {Q : α → sProp 𝕄} {k : PUnit → Prog (TpuEff nD τ sig (Elt F) Λ₀ .tc) α} :
    anyPts c (ss2 p) ⊢ iprop((holdsPts c (ss2 p) fullShare X -∗ wp frame (wpE (defs₀ (F := F)) 𝒱₀ (c : Thread nD τ) none) Set.univ (k ⟨⟩) Q)
      -∗ wp frame (wpE (defs₀ (F := F)) 𝒱₀ (c : Thread nD τ) none) Set.univ (.op (.store s2M (Rect.unit (s := S2x336x1024) ![p.val, 0, 0] S1x336x1024.size hinb) w Finset.univ hx hm) k) Q) := by
  exact op_store_sq m c s2M (Rect.unit (s := S2x336x1024) ![p.val, 0, 0] S1x336x1024.size hinb) (fun _ => rfl) S336x1024 squeezes_S1x336x1024_S336x1024 X shapeCasts_S336x1024_S1x336x1024 hw

theorem op_load_ss2_top_any  {hinb : ∀ a, (![1, 0, 0] : Fin 3 → Nat) a + S1x176x1024.size a ≤ S2x336x1024.size a}
    {hl : (s2M : Memref sig .tc .vmem S2x336x1024 .f32).view.LoadsAt (Rect.unit (s := S2x336x1024) ![1, 0, 0] S1x176x1024.size hinb).toLoadRect}
    {α : Type} {Q : α → sProp 𝕄} {k : Vec F S1x176x1024 .f32 → Prog (TpuEff nD τ sig (Elt F) Λ₀ .tc) α} :
    anyPts c (ss2 1) ⊢ iprop((∀ x, anyPts c (ss2 1) -∗ wp frame (wpE (defs₀ (F := F)) 𝒱₀ (c : Thread nD τ) none) Set.univ (k x) Q)
      -∗ wp frame (wpE (defs₀ (F := F)) 𝒱₀ (c : Thread nD τ) none) Set.univ (.op (.load s2M (Rect.unit (s := S2x336x1024) ![1, 0, 0] S1x176x1024.size hinb).toLoadRect hl) k) Q) := by
  simp only [anyPts_eq]
  iintro H Hk
  icases H with ⟨%f, Hp⟩
  have H1 : ((ss2 1).view.loc (c : Thread nD τ) ↦[(ss2 1).view.set]{fullShare} f) ⊢ iprop((∀ x, ((ss2 1).view.loc (c : Thread nD τ) ↦[(ss2 1).view.set]{fullShare} f) -∗ wp frame (wpE (defs₀ (F := F)) 𝒱₀ (c : Thread nD τ) none) Set.univ (k x) Q)
      -∗ wp frame (wpE (defs₀ (F := F)) 𝒱₀ (c : Thread nD τ) none) Set.univ (.op (.load s2M (Rect.unit (s := S2x336x1024) ![1, 0, 0] S1x176x1024.size hinb).toLoadRect hl) k) Q) :=
    op_load_part_sq m c s2M (Rect.unit (s := S2x336x1024) ![(1 : Fin 2).val, 0, 0] S1x336x1024.size (by decide)) (fun _ => rfl) S336x1024 squeezes_S1x336x1024_S336x1024 (Rect.unit (s := S2x336x1024) ![1, 0, 0] S1x176x1024.size hinb) (Rect.set_subset_of_span _ _ (fun _ => rfl) (fun a => by
      show (![(1 : Fin 2).val, 0, 0] : Fin 3 → ℕ) a ≤ (![1, 0, 0] : Fin 3 → ℕ) a
        ∧ (![1, 0, 0] : Fin 3 → ℕ) a + 1 * S1x176x1024.size a ≤ (![(1 : Fin 2).val, 0, 0] : Fin 3 → ℕ) a + S1x336x1024.size a + (1 - 1)
      revert a; decide)) f
  iapply H1 $$ Hp
  iintro %x Hp
  iapply Hk $$ %x
  iexists f
  iexact Hp

theorem op_store_ss2_top (X : Vec F S176x1024 .f32) {w : Vec F S1x176x1024 .f32}
    (hw : w = shapeCast S1x176x1024 X shapeCasts_S176x1024_S1x176x1024)
    (hX : X = prod176 (topB (sv2 m (xr c (mask 2 7)))) (bv m c)) {hinb : ∀ a, (![1, 0, 0] : Fin 3 → Nat) a + S1x176x1024.size a ≤ S2x336x1024.size a}
    {hx : ((s2M : Memref sig .tc .vmem S2x336x1024 .f32).access (Rect.unit (s := S2x336x1024) ![1, 0, 0] S1x176x1024.size hinb)).Stores Finset.univ} {hm : (Finset.univ : Finset (Rect.unit (s := S2x336x1024) ![1, 0, 0] S1x176x1024.size hinb).shape.Idx) = Finset.univ ∨ ∀ a, (Rect.unit (s := S2x336x1024) ![1, 0, 0] S1x176x1024.size hinb).stride a = 1}
    {α : Type} {Q : α → sProp 𝕄} {k : PUnit → Prog (TpuEff nD τ sig (Elt F) Λ₀ .tc) α} :
    anyPts c (ss2 1) ⊢ iprop((stageTop2 m c -∗ wp frame (wpE (defs₀ (F := F)) 𝒱₀ (c : Thread nD τ) none) Set.univ (k ⟨⟩) Q)
      -∗ wp frame (wpE (defs₀ (F := F)) 𝒱₀ (c : Thread nD τ) none) Set.univ (.op (.store s2M (Rect.unit (s := S2x336x1024) ![1, 0, 0] S1x176x1024.size hinb) w Finset.univ hx hm) k) Q) := by
  subst hw
  simp only [anyPts_eq]; unfold stageTop2
  iintro H Hk
  icases H with ⟨%f, Hp⟩
  have H1 : ((ss2 1).view.loc (c : Thread nD τ) ↦[(ss2 1).view.set]{fullShare} f) ⊢ iprop((((ss2 1).view.loc (c : Thread nD τ) ↦[(ss2 1).view.set]{fullShare} (((s2M : Memref sig .tc .vmem S2x336x1024 .f32).access (Rect.unit (s := S2x336x1024) ![1, 0, 0] S1x176x1024.size hinb)).write (Elt F) f (shapeCast S1x176x1024 X shapeCasts_S176x1024_S1x176x1024) Finset.univ)) -∗ wp frame (wpE (defs₀ (F := F)) 𝒱₀ (c : Thread nD τ) none) Set.univ (k ⟨⟩) Q)
      -∗ wp frame (wpE (defs₀ (F := F)) 𝒱₀ (c : Thread nD τ) none) Set.univ (.op (.store s2M (Rect.unit (s := S2x336x1024) ![1, 0, 0] S1x176x1024.size hinb) (shapeCast S1x176x1024 X shapeCasts_S176x1024_S1x176x1024) Finset.univ hx hm) k) Q) :=
    op_store_part_sq m c s2M (Rect.unit (s := S2x336x1024) ![(1 : Fin 2).val, 0, 0] S1x336x1024.size (by decide)) (fun _ => rfl) S336x1024 squeezes_S1x336x1024_S336x1024 (Rect.unit (s := S2x336x1024) ![1, 0, 0] S1x176x1024.size hinb) (Rect.set_subset_of_span _ _ (fun _ => rfl) (fun a => by
      show (![(1 : Fin 2).val, 0, 0] : Fin 3 → ℕ) a ≤ (![1, 0, 0] : Fin 3 → ℕ) a
        ∧ (![1, 0, 0] : Fin 3 → ℕ) a + 1 * S1x176x1024.size a ≤ (![(1 : Fin 2).val, 0, 0] : Fin 3 → ℕ) a + S1x336x1024.size a + (1 - 1)
      revert a; decide)) f
  iapply H1 $$ Hp
  iintro Hp
  iapply Hk
  iexists (((s2M : Memref sig .tc .vmem S2x336x1024 .f32).access (Rect.unit (s := S2x336x1024) ![1, 0, 0] S1x176x1024.size hinb)).write (Elt F) f (shapeCast S1x176x1024 X shapeCasts_S176x1024_S1x176x1024) Finset.univ)
  isplitl [Hp]
  · iexact Hp
  · ipureintro
    rw [hX.symm]
    funext i
    exact band_read_write (V := (s2M : Memref sig .tc .vmem S2x336x1024 .f32).view) (P := 2) (Mr := 336) (N := 1024) (p := 1) (o := 0) (n := 176)
      (by decide) (by decide) (by decide) squeezes_S1x336x1024_S336x1024.numel_eq shapeCasts_S176x1024_S1x176x1024 f X i

theorem op_load_ss2_bot_any  {hinb : ∀ a, (![1, 176, 0] : Fin 3 → Nat) a + S1x160x1024.size a ≤ S2x336x1024.size a}
    {hl : (s2M : Memref sig .tc .vmem S2x336x1024 .f32).view.LoadsAt (Rect.unit (s := S2x336x1024) ![1, 176, 0] S1x160x1024.size hinb).toLoadRect}
    {α : Type} {Q : α → sProp 𝕄} {k : Vec F S1x160x1024 .f32 → Prog (TpuEff nD τ sig (Elt F) Λ₀ .tc) α} :
    stageTop2 m c ⊢ iprop((∀ x, stageTop2 m c -∗ wp frame (wpE (defs₀ (F := F)) 𝒱₀ (c : Thread nD τ) none) Set.univ (k x) Q)
      -∗ wp frame (wpE (defs₀ (F := F)) 𝒱₀ (c : Thread nD τ) none) Set.univ (.op (.load s2M (Rect.unit (s := S2x336x1024) ![1, 176, 0] S1x160x1024.size hinb).toLoadRect hl) k) Q) := by
  unfold stageTop2
  iintro H Hk
  icases H with ⟨%f, Hp, %hf⟩
  have H1 : ((ss2 1).view.loc (c : Thread nD τ) ↦[(ss2 1).view.set]{fullShare} f) ⊢ iprop((∀ x, ((ss2 1).view.loc (c : Thread nD τ) ↦[(ss2 1).view.set]{fullShare} f) -∗ wp frame (wpE (defs₀ (F := F)) 𝒱₀ (c : Thread nD τ) none) Set.univ (k x) Q)
      -∗ wp frame (wpE (defs₀ (F := F)) 𝒱₀ (c : Thread nD τ) none) Set.univ (.op (.load s2M (Rect.unit (s := S2x336x1024) ![1, 176, 0] S1x160x1024.size hinb).toLoadRect hl) k) Q) :=
    op_load_part_sq m c s2M (Rect.unit (s := S2x336x1024) ![(1 : Fin 2).val, 0, 0] S1x336x1024.size (by decide)) (fun _ => rfl) S336x1024 squeezes_S1x336x1024_S336x1024 (Rect.unit (s := S2x336x1024) ![1, 176, 0] S1x160x1024.size hinb) (Rect.set_subset_of_span _ _ (fun _ => rfl) (fun a => by
      show (![(1 : Fin 2).val, 0, 0] : Fin 3 → ℕ) a ≤ (![1, 176, 0] : Fin 3 → ℕ) a
        ∧ (![1, 176, 0] : Fin 3 → ℕ) a + 1 * S1x160x1024.size a ≤ (![(1 : Fin 2).val, 0, 0] : Fin 3 → ℕ) a + S1x336x1024.size a + (1 - 1)
      revert a; decide)) f
  iapply H1 $$ Hp
  iintro %x Hp
  iapply Hk $$ %x
  iexists f
  isplitl [Hp]
  · iexact Hp
  · ipureintro; exact hf

theorem op_store_ss2_bot (X : Vec F S160x1024 .f32) {w : Vec F S1x160x1024 .f32}
    (hw : w = shapeCast S1x160x1024 X shapeCasts_S160x1024_S1x160x1024)
    (hX : X = prod160 (botB (sv2 m (xr c (mask 2 7)))) (bv m c)) {hinb : ∀ a, (![1, 176, 0] : Fin 3 → Nat) a + S1x160x1024.size a ≤ S2x336x1024.size a}
    {hx : ((s2M : Memref sig .tc .vmem S2x336x1024 .f32).access (Rect.unit (s := S2x336x1024) ![1, 176, 0] S1x160x1024.size hinb)).Stores Finset.univ} {hm : (Finset.univ : Finset (Rect.unit (s := S2x336x1024) ![1, 176, 0] S1x160x1024.size hinb).shape.Idx) = Finset.univ ∨ ∀ a, (Rect.unit (s := S2x336x1024) ![1, 176, 0] S1x160x1024.size hinb).stride a = 1}
    {α : Type} {Q : α → sProp 𝕄} {k : PUnit → Prog (TpuEff nD τ sig (Elt F) Λ₀ .tc) α} :
    stageTop2 m c ⊢ iprop((stageHas2 m c 7 -∗ wp frame (wpE (defs₀ (F := F)) 𝒱₀ (c : Thread nD τ) none) Set.univ (k ⟨⟩) Q)
      -∗ wp frame (wpE (defs₀ (F := F)) 𝒱₀ (c : Thread nD τ) none) Set.univ (.op (.store s2M (Rect.unit (s := S2x336x1024) ![1, 176, 0] S1x160x1024.size hinb) w Finset.univ hx hm) k) Q) := by
  subst hw
  unfold stageTop2 stageHas2
  iintro H Hk
  icases H with ⟨%f, Hp, %hf⟩
  have H1 : ((ss2 1).view.loc (c : Thread nD τ) ↦[(ss2 1).view.set]{fullShare} f) ⊢ iprop((((ss2 1).view.loc (c : Thread nD τ) ↦[(ss2 1).view.set]{fullShare} (((s2M : Memref sig .tc .vmem S2x336x1024 .f32).access (Rect.unit (s := S2x336x1024) ![1, 176, 0] S1x160x1024.size hinb)).write (Elt F) f (shapeCast S1x160x1024 X shapeCasts_S160x1024_S1x160x1024) Finset.univ)) -∗ wp frame (wpE (defs₀ (F := F)) 𝒱₀ (c : Thread nD τ) none) Set.univ (k ⟨⟩) Q)
      -∗ wp frame (wpE (defs₀ (F := F)) 𝒱₀ (c : Thread nD τ) none) Set.univ (.op (.store s2M (Rect.unit (s := S2x336x1024) ![1, 176, 0] S1x160x1024.size hinb) (shapeCast S1x160x1024 X shapeCasts_S160x1024_S1x160x1024) Finset.univ hx hm) k) Q) :=
    op_store_part_sq m c s2M (Rect.unit (s := S2x336x1024) ![(1 : Fin 2).val, 0, 0] S1x336x1024.size (by decide)) (fun _ => rfl) S336x1024 squeezes_S1x336x1024_S336x1024 (Rect.unit (s := S2x336x1024) ![1, 176, 0] S1x160x1024.size hinb) (Rect.set_subset_of_span _ _ (fun _ => rfl) (fun a => by
      show (![(1 : Fin 2).val, 0, 0] : Fin 3 → ℕ) a ≤ (![1, 176, 0] : Fin 3 → ℕ) a
        ∧ (![1, 176, 0] : Fin 3 → ℕ) a + 1 * S1x160x1024.size a ≤ (![(1 : Fin 2).val, 0, 0] : Fin 3 → ℕ) a + S1x336x1024.size a + (1 - 1)
      revert a; decide)) f
  iapply H1 $$ Hp
  iintro Hp
  iapply Hk
  iexists ((ss2 1).view.read (Elt F) (((s2M : Memref sig .tc .vmem S2x336x1024 .f32).access (Rect.unit (s := S2x336x1024) ![1, 176, 0] S1x160x1024.size hinb)).write (Elt F) f (shapeCast S1x160x1024 X shapeCasts_S160x1024_S1x160x1024) Finset.univ))
  isplitr
  · ipureintro
    unfold stageOK2
    rw [if_pos rfl]
    refine ⟨?_, ?_⟩
    · rw [hf.symm]
      funext i
      refine band_read_keep (V := (s2M : Memref sig .tc .vmem S2x336x1024 .f32).view) (P := 2) (Mr := 336) (N := 1024) (p := 1) (o := 176) (n := 160)
        (by decide) (by decide) squeezes_S1x336x1024_S336x1024.numel_eq f _ _ (fun h => ?_)
      have hi : ((i 0 : Fin 176) : ℕ) < 176 := (i 0).isLt
      change 176 ≤ 0 + 1 * ((i 0 : Fin 176) : ℕ) ∧ _ at h
      omega
    · rw [hX.symm]
      funext i
      exact band_read_write (V := (s2M : Memref sig .tc .vmem S2x336x1024 .f32).view) (P := 2) (Mr := 336) (N := 1024) (p := 1) (o := 176) (n := 160)
        (by decide) (by decide) (by decide) squeezes_S1x336x1024_S336x1024.numel_eq shapeCasts_S160x1024_S1x160x1024 f X i
  · simp only [holdsPts_eq]
    iexists (((s2M : Memref sig .tc .vmem S2x336x1024 .f32).access (Rect.unit (s := S2x336x1024) ![1, 176, 0] S1x160x1024.size hinb)).write (Elt F) f (shapeCast S1x160x1024 X shapeCasts_S160x1024_S1x160x1024) Finset.univ)
    isplitl [Hp]
    · iexact Hp
    · ipureintro; rfl

/-- info: 'Cert.KernelIdeal.DM.op_store_ss0' depends on axioms: [propext, Classical.choice, Quot.sound] -/
#guard_msgs in #print axioms op_store_ss0

/-- info: 'Cert.KernelIdeal.DM.op_store_ss0_bot' depends on axioms: [propext, Classical.choice, Quot.sound] -/
#guard_msgs in #print axioms op_store_ss0_bot

/-- info: 'Cert.KernelIdeal.DM.op_store_ss1_bot' depends on axioms: [propext, Classical.choice, Quot.sound] -/
#guard_msgs in #print axioms op_store_ss1_bot

/-- info: 'Cert.KernelIdeal.DM.op_store_ss2_bot' depends on axioms: [propext, Classical.choice, Quot.sound] -/
#guard_msgs in #print axioms op_store_ss2_bot

end Cert.KernelIdeal.DM

end
-- ==== Proof.Parts_1_7.lean ====
import proofs.«900891_g7700000000000892_dist_matmul_m_i_outrep_m1024_n1024_k512_v7x_i8_f32_1_alg».proof.Proof.PartSpecs
import proofs.«900891_g7700000000000892_dist_matmul_m_i_outrep_m1024_n1024_k512_v7x_i8_f32_1_alg».proof.Proof.OpsSend
import proofs.«900891_g7700000000000892_dist_matmul_m_i_outrep_m1024_n1024_k512_v7x_i8_f32_1_alg».proof.Proof.OpsWait
import proofs.«900891_g7700000000000892_dist_matmul_m_i_outrep_m1024_n1024_k512_v7x_i8_f32_1_alg».proof.Proof.OpsStore
import proofs.«900891_g7700000000000892_dist_matmul_m_i_outrep_m1024_n1024_k512_v7x_i8_f32_1_alg».proof.Proof.OpsCopy
import proofs.«900891_g7700000000000892_dist_matmul_m_i_outrep_m1024_n1024_k512_v7x_i8_f32_1_alg».proof.Proof.Launch

/-!
The first seven parts of a device's body, each run from the pieces of state its steps consume to the pieces they
leave: the three entry signals and the fills of slot 0 of the gather buffers, the wait on the own barrier, the first
nine transfers, the narrowed right factor, and the first product block of each group stored and copied out.
-/

set_option maxRecDepth 16384

noncomputable section

namespace Cert.KernelIdeal.DM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ)

/-! ## A filled slot as a transfer's source -/

private theorem src_g0 (c : Dev nD) (st k : Fin 8) (q : PosShare TreeShare) (hk : srcSlot st = k) (hq : qs st = q) :
    slotHas m c 0 k q ⊢ holdsPts c (gs0 (srcSlot st)) (qs st) (sv0 m (xr c (mask 0 (srcSlot st)))) := by
  subst hk hq; exact Entails.of_eq rfl
private theorem src_g1 (c : Dev nD) (st k : Fin 8) (q : PosShare TreeShare) (hk : srcSlot st = k) (hq : qs st = q) :
    slotHas m c 1 k q ⊢ holdsPts c (gs1 (srcSlot st)) (qs st) (sv1 m (xr c (mask 1 (srcSlot st)))) := by
  subst hk hq; exact Entails.of_eq rfl
private theorem src_g2 (c : Dev nD) (st k : Fin 8) (q : PosShare TreeShare) (hk : srcSlot st = k) (hq : qs st = q) :
    slotHas m c 2 k q ⊢ holdsPts c (gs2 (srcSlot st)) (qs st) (sv2 m (xr c (mask 2 (srcSlot st)))) := by
  subst hk hq; exact Entails.of_eq rfl

/-! ## The targets handed to each neighbour at entry; slot 0 once filled -/

omit [FloatOps F] in
private theorem towards0_intro (c : Dev nD) :
    iprop(dstAny (F := F) c 0 0 ∗ dstAny c 1 3 ∗ dstAny c 1 4 ∗ dstAny c 1 5 ∗ dstAny c 1 6 ∗ dstAny c 1 7 ∗ dstAny c 2 1 ∗ dstAny c 2 2)
      ⊢ bigSep (towards 0) fun gs : Fin 3 × Fin 8 => dstAny (F := F) c gs.1 gs.2 :=
  by
  rw [bigSep_eq_bigSepL_of_eq (S := towards 0) [(0, 0), (1, 3), (1, 4), (1, 5), (1, 6), (1, 7), (2, 1), (2, 2)] (by decide) (by decide)]
  exact .rfl
omit [FloatOps F] in
private theorem towards1_intro (c : Dev nD) :
    iprop(dstAny (F := F) c 0 1 ∗ dstAny c 0 2 ∗ dstAny c 1 0 ∗ dstAny c 2 3 ∗ dstAny c 2 4 ∗ dstAny c 2 5 ∗ dstAny c 2 6 ∗ dstAny c 2 7)
      ⊢ bigSep (towards 1) fun gs : Fin 3 × Fin 8 => dstAny (F := F) c gs.1 gs.2 :=
  by
  rw [bigSep_eq_bigSepL_of_eq (S := towards 1) [(0, 1), (0, 2), (1, 0), (2, 3), (2, 4), (2, 5), (2, 6), (2, 7)] (by decide) (by decide)]
  exact .rfl
omit [FloatOps F] in
private theorem towards2_intro (c : Dev nD) :
    iprop(dstAny (F := F) c 0 3 ∗ dstAny c 0 4 ∗ dstAny c 0 5 ∗ dstAny c 0 6 ∗ dstAny c 0 7 ∗ dstAny c 1 1 ∗ dstAny c 1 2 ∗ dstAny c 2 0)
      ⊢ bigSep (towards 2) fun gs : Fin 3 × Fin 8 => dstAny (F := F) c gs.1 gs.2 :=
  by
  rw [bigSep_eq_bigSepL_of_eq (S := towards 2) [(0, 3), (0, 4), (0, 5), (0, 6), (0, 7), (1, 1), (1, 2), (2, 0)] (by decide) (by decide)]
  exact .rfl

private theorem fill0 (c : Dev nD) : holdsPts c (gs0 0) fullShare (sv0 m c) ⊢ slotHas m c 0 0 fullShare := by
  have e : slotHas m c 0 0 fullShare = holdsPts c (gs0 0) fullShare (sv0 m c) := by
    show holdsPts c (gs0 0) fullShare (sv0 m (xr c (mask 0 0))) = _
    rw [show mask 0 0 = 0 from rfl, xr_zero]
  rw [e]
private theorem fill1 (c : Dev nD) : holdsPts c (gs1 0) fullShare (sv1 m c) ⊢ slotHas m c 1 0 fullShare := by
  have e : slotHas m c 1 0 fullShare = holdsPts c (gs1 0) fullShare (sv1 m c) := by
    show holdsPts c (gs1 0) fullShare (sv1 m (xr c (mask 1 0))) = _
    rw [show mask 1 0 = 0 from rfl, xr_zero]
  rw [e]

/-! ## What is owed after the entry signals lies above the barrier's level -/

private theorem above1_drop3 (c : Dev nD) : Above 1 (Orem ((payList c).drop 3)) := by
  have hs (g : Fin 3) (st : Fin 8) : Above 1 (owedStep c g st) := above_owedStep c g st (by revert st; decide)
  refine above_Orem ?_
  unfold payList
  simp only [List.drop_succ_cons, List.drop_zero, List.forall_mem_cons, hs, true_and]
  intro x hx; cases hx

/-- The twenty-four targets handed over at the barrier, one by one. -/
private theorem dst_all (c : Dev nD) :
    (bigSep Finset.univ fun gs : Fin 3 × Fin 8 => dstAny (F := F) (partner c gs.1 gs.2) gs.1 gs.2)
      ⊢ iprop(dstAny (F := F) (partner c 0 0) 0 0 ∗ dstAny (partner c 0 1) 0 1 ∗ dstAny (partner c 0 2) 0 2 ∗ dstAny (partner c 0 3) 0 3
        ∗ dstAny (partner c 0 4) 0 4 ∗ dstAny (partner c 0 5) 0 5 ∗ dstAny (partner c 0 6) 0 6 ∗ dstAny (partner c 0 7) 0 7
        ∗ dstAny (partner c 1 0) 1 0 ∗ dstAny (partner c 1 1) 1 1 ∗ dstAny (partner c 1 2) 1 2 ∗ dstAny (partner c 1 3) 1 3
        ∗ dstAny (partner c 1 4) 1 4 ∗ dstAny (partner c 1 5) 1 5 ∗ dstAny (partner c 1 6) 1 6 ∗ dstAny (partner c 1 7) 1 7
        ∗ dstAny (partner c 2 0) 2 0 ∗ dstAny (partner c 2 1) 2 1 ∗ dstAny (partner c 2 2) 2 2 ∗ dstAny (partner c 2 3) 2 3
        ∗ dstAny (partner c 2 4) 2 4 ∗ dstAny (partner c 2 5) 2 5 ∗ dstAny (partner c 2 6) 2 6 ∗ dstAny (partner c 2 7) 2 7) :=
  Entails.of_eq (bigSep_gk _)

/-- The third group's slot 0 once the narrowed rows of the device's own block are stored in it. -/
private theorem fill2 (c : Dev nD) :
    holdsPts c (gs2 0) fullShare (shapeCast S1x336x512 (rows2 m c) shapeCasts_S336x512_S1x336x512) ⊢ slotHas m c 2 0 fullShare := by
  have e : slotHas m c 2 0 fullShare = holdsPts c (gs2 0) fullShare (sv2 m c) := by
    show holdsPts c (gs2 0) fullShare (sv2 m (xr c (mask 2 0))) = _
    rw [show mask 2 0 = 0 from rfl, xr_zero]
  rw [e]; exact Entails.of_eq rfl

/-! ## A product block in its stage slot -/

private theorem stageHas0_of (c : Dev nD) (j : Fin 8) (p : Fin 2) (hp : par j = p) (hj : j ≠ 7) :
    holdsPts c (ss0 p) fullShare (prod352 (sv0 m (xr c (mask 0 j))) (bv m c)) ⊢ stageHas0 m c j := by
  subst hp
  unfold stageHas0
  iintro H
  iexists _
  isplitr
  · ipureintro; unfold stageOK0; rw [if_neg hj]
  · iexact H
private theorem stageHas1_of (c : Dev nD) (j : Fin 8) (p : Fin 2) (hp : par j = p) (hj : j ≠ 7) :
    holdsPts c (ss1 p) fullShare (prod336 (sv1 m (xr c (mask 1 j))) (bv m c)) ⊢ stageHas1 m c j := by
  subst hp
  unfold stageHas1
  iintro H
  iexists _
  isplitr
  · ipureintro; unfold stageOK1; rw [if_neg hj]
  · iexact H
private theorem stageHas2_of (c : Dev nD) (j : Fin 8) (p : Fin 2) (hp : par j = p) (hj : j ≠ 7) :
    holdsPts c (ss2 p) fullShare (prod336 (sv2 m (xr c (mask 2 j))) (bv m c)) ⊢ stageHas2 m c j := by
  subst hp
  unfold stageHas2
  iintro H
  iexists _
  isplitr
  · ipureintro; unfold stageOK2; rw [if_neg hj]
  · iexact H

/-! ## Everything still owed lies above level 0 -/

private theorem owed_above0 (c : Dev nD) : ∀ x ∈ payList c, Above 0 x := by
  have hb (d : Fin 3) : Above 0 (owedBar c d) := above_owedBar c d
  have hs (g : Fin 3) (st : Fin 8) : Above 0 (owedStep c g st) := above_owedStep c g st (by revert st; decide)
  unfold payList
  simp only [List.forall_mem_cons, hb, hs, true_and]
  intro x hx; cases hx

private theorem rest_above0 (c : Dev nD) (n : ℕ) : Above 0 (Orem ((payList c).drop n)) :=
  above_Orem fun x hx => owed_above0 c x (List.mem_of_mem_drop hx)

/-- Part 1: the three entry signals, the fills of slot 0 of groups 0 and 1, and the load of the third group's rows. -/
theorem part1 : Part1Spec m K := by
  intro c Kt
  simp only [k0_part1, semSignalWord, semWaitWord, Prog.lift, Prog.bind_op, Prog.bind_ret, Prog.pure_eq_ret, wp_deviceId]
  iintro ⟨#Hrec, #Hlev, Ht0, A00, A13, A14, A15, A16, A17, A21, A22, ⟨%W, HO⟩, Ht1, B01, B02, B10, B23, B24, B25, B26, B27,
    Ht2, C03, C04, C05, C06, C07, C11, C12, C20, HA, Hs0, Hs1, HK⟩
  ihave Hd0 := (towards0_intro (F := F) c) $$ [A00 A13 A14 A15 A16 A17 A21 A22]
  · isplitl [A00]; · iexact A00
    isplitl [A13]; · iexact A13
    isplitl [A14]; · iexact A14
    isplitl [A15]; · iexact A15
    isplitl [A16]; · iexact A16
    isplitl [A17]; · iexact A17
    isplitl [A21]; · iexact A21
    iexact A22
  iapply (op_signal m K c 0 (dev1_eq c) (by decide) (Orem ((payList c).drop 1)) W) $$ [HO Ht0 Hd0]
  · isplitr; · iexact Hrec
    isplitl [HO]; · iexact HO
    isplitl [Ht0]; · iexact Ht0
    iexact Hd0
  iintro HO
  ihave Hd1 := (towards1_intro (F := F) c) $$ [B01 B02 B10 B23 B24 B25 B26 B27]
  · isplitl [B01]; · iexact B01
    isplitl [B02]; · iexact B02
    isplitl [B10]; · iexact B10
    isplitl [B23]; · iexact B23
    isplitl [B24]; · iexact B24
    isplitl [B25]; · iexact B25
    isplitl [B26]; · iexact B26
    iexact B27
  iapply (op_signal m K c 1 (dev2_eq c) (by decide) (Orem ((payList c).drop 2)) W) $$ [HO Ht1 Hd1]
  · isplitr; · iexact Hrec
    isplitl [HO]; · iexact HO
    isplitl [Ht1]; · iexact Ht1
    iexact Hd1
  iintro HO
  ihave Hd2 := (towards2_intro (F := F) c) $$ [C03 C04 C05 C06 C07 C11 C12 C20]
  · isplitl [C03]; · iexact C03
    isplitl [C04]; · iexact C04
    isplitl [C05]; · iexact C05
    isplitl [C06]; · iexact C06
    isplitl [C07]; · iexact C07
    isplitl [C11]; · iexact C11
    isplitl [C12]; · iexact C12
    iexact C20
  iapply (op_signal m K c 2 (dev3_eq c) (by decide) (Orem ((payList c).drop 3)) W) $$ [HO Ht2 Hd2]
  · isplitr; · iexact Hrec
    isplitl [HO]; · iexact HO
    isplitl [Ht2]; · iexact Ht2
    iexact Hd2
  iintro HO
  iapply (op_load_A m c _) $$ HA; iintro HA
  ihave Hs0 := (Entails.of_eq (show slotAny (F := F) c 0 0 = anyPts c (gs0 0) from rfl)) $$ Hs0
  iapply (op_load_gs0_any m c 0) $$ Hs0; iintro %x0 Hs0
  iapply (op_store_gs0 m c 0 (w := sv0 m c)) $$ Hs0; iintro Hs0
  ihave Hs0 := (fill0 m c) $$ Hs0
  ihave Hs0 := (slot0_cut m c 0) $$ Hs0
  icases Hs0 with ⟨Hs0a, Hs0b, Hs0c, Hs0d⟩
  iapply (op_load_A m c _) $$ HA; iintro HA
  ihave Hs1 := (Entails.of_eq (show slotAny (F := F) c 1 0 = anyPts c (gs1 0) from rfl)) $$ Hs1
  iapply (op_load_gs1_any m c 0) $$ Hs1; iintro %x1 Hs1
  iapply (op_store_gs1 m c 0 (w := sv1 m c)) $$ Hs1; iintro Hs1
  ihave Hs1 := (fill1 m c) $$ Hs1
  ihave Hs1 := (slot0_cut m c 1) $$ Hs1
  icases Hs1 with ⟨Hs1a, Hs1b, Hs1c, Hs1d⟩
  iapply (op_load_A m c _) $$ HA; iintro HA
  rw [wp_ret]; imodintro
  iapply HK $$ %_ %⟨rfl, rfl, rfl⟩
  isplitl [HO]; · iexists W; iexact HO
  isplitl [HA]; · iexact HA
  isplitl [Hs0a]; · iexact Hs0a
  isplitl [Hs0b]; · iexact Hs0b
  isplitl [Hs0c]; · iexact Hs0c
  isplitl [Hs0d]; · iexact Hs0d
  isplitl [Hs1a]; · iexact Hs1a
  isplitl [Hs1b]; · iexact Hs1b
  isplitl [Hs1c]; · iexact Hs1c
  iexact Hs1d

/-- Part 2: the fill of slot 0 of group 2, the wait on the own barrier, the transfers of step 0 of groups 0 and 1. -/
theorem part2 : Part2Spec m K := by
  intro c v2 Kt
  simp only [k0_part2, semSignalWord, semWaitWord, Prog.lift, Prog.bind_op, Prog.bind_ret, Prog.pure_eq_ret, wp_deviceId]
  iintro ⟨#Hrec, #Hlev, Hs2, Hcb, Hatb, ⟨%W, HO⟩, Hs00, Hts00, Htr00, Hs10, Hts10, Htr10, HK⟩
  ihave Hs2 := (Entails.of_eq (show slotAny (F := F) c 2 0 = anyPts c (gs2 0) from rfl)) $$ Hs2
  iapply (op_load_gs2_any m c 0) $$ Hs2; iintro %x Hs2
  iapply (op_store_gs2 m c 0) $$ Hs2; iintro Hs2
  ihave Hs2 := (fill2 m c) $$ Hs2
  ihave Hs2 := (slot0_cut m c 2) $$ Hs2
  icases Hs2 with ⟨Hs2a, Hs2b, Hs2c, Hs2d⟩
  iapply (op_barwait m K c (by decide) (Orem ((payList c).drop 3)) (above1_drop3 c) W) $$ [Hcb Hatb HO]
  · isplitr; · iexact Hrec
    isplitr; · iexact Hlev
    isplitl [Hcb]; · iexact Hcb
    isplitl [Hatb]; · iexact Hatb
    iexact HO
  iintro ⟨HO, Hatb, Hdst⟩
  ihave Hdst := (dst_all c) $$ Hdst
  icases Hdst with ⟨D00, D01, D02, D03, D04, D05, D06, D07, D10, D11, D12, D13, D14, D15, D16, D17, D20, D21, D22, D23, D24, D25, D26, D27⟩
  iapply (op_send_g0 m K c 0 (by decide) (dev4_eq c) (by decide +kernel) (by decide +kernel) (Orem ((payList c).drop 4)) (insert (SemLoc.reg barS, ()) W)) $$ [Hs00 D00 HO Hts00 Htr00]
  · isplitr; · iexact Hrec
    isplitl [Hs00]; · iapply (src_g0 m c 0 0 fullShare.left.left.left rfl rfl); iexact Hs00
    isplitl [D00]; · iexact D00
    isplitl [HO]; · iexact HO
    isplitl [Hts00]; · iexact Hts00
    iexact Htr00
  iintro ⟨Hc00, HO⟩
  iapply (op_send_g1 m K c 0 (by decide) (dev5_eq c) (by decide +kernel) (by decide +kernel) (Orem ((payList c).drop 5)) (insert (SemLoc.reg barS, ()) W)) $$ [Hs10 D10 HO Hts10 Htr10]
  · isplitr; · iexact Hrec
    isplitl [Hs10]; · iapply (src_g1 m c 0 0 fullShare.left.left.left rfl rfl); iexact Hs10
    isplitl [D10]; · iexact D10
    isplitl [HO]; · iexact HO
    isplitl [Hts10]; · iexact Hts10
    iexact Htr10
  iintro ⟨Hc10, HO⟩
  rw [wp_ret]; imodintro
  iapply HK
  isplitl [Hs2a]; · iexact Hs2a
  isplitl [Hs2b]; · iexact Hs2b
  isplitl [Hs2c]; · iexact Hs2c
  isplitl [Hs2d]; · iexact Hs2d
  isplitl [Hatb]; · iexact Hatb
  isplitl [D01]; · iexact D01
  isplitl [D02]; · iexact D02
  isplitl [D03]; · iexact D03
  isplitl [D04]; · iexact D04
  isplitl [D05]; · iexact D05
  isplitl [D06]; · iexact D06
  isplitl [D07]; · iexact D07
  isplitl [D11]; · iexact D11
  isplitl [D12]; · iexact D12
  isplitl [D13]; · iexact D13
  isplitl [D14]; · iexact D14
  isplitl [D15]; · iexact D15
  isplitl [D16]; · iexact D16
  isplitl [D17]; · iexact D17
  isplitl [D20]; · iexact D20
  isplitl [D21]; · iexact D21
  isplitl [D22]; · iexact D22
  isplitl [D23]; · iexact D23
  isplitl [D24]; · iexact D24
  isplitl [D25]; · iexact D25
  isplitl [D26]; · iexact D26
  isplitl [D27]; · iexact D27
  isplitl [Hc00]; · iexact Hc00
  isplitl [HO]; · iexists (insert (SemLoc.reg barS, ()) W); iexact HO
  iexact Hc10

/-- Part 3: the transfers of step 0 of group 2 and of step 1 of group 0. -/
theorem part3 : Part3Spec m K := by
  intro c v2 v49 Kt
  simp only [k0_part3, semSignalWord, semWaitWord, Prog.lift, Prog.bind_op, Prog.bind_ret, Prog.pure_eq_ret, wp_deviceId]
  iintro ⟨#Hrec, #Hlev, Hs20, Hd20, Hts20, Htr20, ⟨%W, HO⟩, Hs01, Hd01, Hts01, Htr01, HK⟩
  iapply (op_send_g2 m K c 0 (by decide) (dev6_eq c) (by decide +kernel) (by decide +kernel) (Orem ((payList c).drop 6)) W) $$ [Hs20 Hd20 HO Hts20 Htr20]
  · isplitr; · iexact Hrec
    isplitl [Hs20]; · iapply (src_g2 m c 0 0 fullShare.left.left.left rfl rfl); iexact Hs20
    isplitl [Hd20]; · iexact Hd20
    isplitl [HO]; · iexact HO
    isplitl [Hts20]; · iexact Hts20
    iexact Htr20
  iintro ⟨Hc20, HO⟩
  iapply (op_send_g0 m K c 1 (by decide) (dev7_eq c) (by decide +kernel) (by decide +kernel) (Orem ((payList c).drop 7)) W) $$ [Hs01 Hd01 HO Hts01 Htr01]
  · isplitr; · iexact Hrec
    isplitl [Hs01]; · iapply (src_g0 m c 1 0 fullShare.left.left.right rfl rfl); iexact Hs01
    isplitl [Hd01]; · iexact Hd01
    isplitl [HO]; · iexact HO
    isplitl [Hts01]; · iexact Hts01
    iexact Htr01
  iintro ⟨Hc01, HO⟩
  rw [wp_ret]; imodintro
  iapply HK
  isplitl [Hc20]; · iexact Hc20
  isplitl [HO]; · iexists W; iexact HO
  iexact Hc01

/-- Part 4: the transfers of step 1 of groups 1 and 2 and of step 3 of group 0. -/
theorem part4 : Part4Spec m K := by
  intro c v2 Kt
  simp only [k0_part4, semSignalWord, semWaitWord, Prog.lift, Prog.bind_op, Prog.bind_ret, Prog.pure_eq_ret, wp_deviceId]
  iintro ⟨#Hrec, #Hlev, Hs11, Hd11, Hts11, Htr11, ⟨%W, HO⟩, Hs21, Hd21, Hts21, Htr21, Hs03, Hd03, Hts03, Htr03, HK⟩
  iapply (op_send_g1 m K c 1 (by decide) (dev8_eq c) (by decide +kernel) (by decide +kernel) (Orem ((payList c).drop 8)) W) $$ [Hs11 Hd11 HO Hts11 Htr11]
  · isplitr; · iexact Hrec
    isplitl [Hs11]; · iapply (src_g1 m c 1 0 fullShare.left.left.right rfl rfl); iexact Hs11
    isplitl [Hd11]; · iexact Hd11
    isplitl [HO]; · iexact HO
    isplitl [Hts11]; · iexact Hts11
    iexact Htr11
  iintro ⟨Hc11, HO⟩
  iapply (op_send_g2 m K c 1 (by decide) (dev9_eq c) (by decide +kernel) (by decide +kernel) (Orem ((payList c).drop 9)) W) $$ [Hs21 Hd21 HO Hts21 Htr21]
  · isplitr; · iexact Hrec
    isplitl [Hs21]; · iapply (src_g2 m c 1 0 fullShare.left.left.right rfl rfl); iexact Hs21
    isplitl [Hd21]; · iexact Hd21
    isplitl [HO]; · iexact HO
    isplitl [Hts21]; · iexact Hts21
    iexact Htr21
  iintro ⟨Hc21, HO⟩
  iapply (op_send_g0 m K c 3 (by decide) (dev10_eq c) (by decide +kernel) (by decide +kernel) (Orem ((payList c).drop 10)) W) $$ [Hs03 Hd03 HO Hts03 Htr03]
  · isplitr; · iexact Hrec
    isplitl [Hs03]; · iapply (src_g0 m c 3 0 fullShare.left.right rfl rfl); iexact Hs03
    isplitl [Hd03]; · iexact Hd03
    isplitl [HO]; · iexact HO
    isplitl [Hts03]; · iexact Hts03
    iexact Htr03
  iintro ⟨Hc03, HO⟩
  rw [wp_ret]; imodintro
  iapply HK
  isplitl [Hc11]; · iexact Hc11
  isplitl [Hc21]; · iexact Hc21
  isplitl [HO]; · iexists W; iexact HO
  iexact Hc03

/-- Part 5: the transfers of step 3 of groups 1 and 2, the narrowed right factor, and the loads of the first product of
    group 0. -/
theorem part5 : Part5Spec m K := by
  intro c v2 v95 c0_i32_118 Kt
  simp only [k0_part5, semSignalWord, semWaitWord, Prog.lift, Prog.bind_op, Prog.bind_ret, Prog.pure_eq_ret, wp_deviceId]
  iintro ⟨#Hrec, #Hlev, Hs13, Hd13, Hts13, Htr13, ⟨%W, HO⟩, Hs23, Hd23, Hts23, Htr23, HB, Hb16, Hs00, HK⟩
  iapply (op_send_g1 m K c 3 (by decide) (dev11_eq c) (by decide +kernel) (by decide +kernel) (Orem ((payList c).drop 11)) W) $$ [Hs13 Hd13 HO Hts13 Htr13]
  · isplitr; · iexact Hrec
    isplitl [Hs13]; · iapply (src_g1 m c 3 0 fullShare.left.right rfl rfl); iexact Hs13
    isplitl [Hd13]; · iexact Hd13
    isplitl [HO]; · iexact HO
    isplitl [Hts13]; · iexact Hts13
    iexact Htr13
  iintro ⟨Hc13, HO⟩
  iapply (op_send_g2 m K c 3 (by decide) (dev12_eq c) (by decide +kernel) (by decide +kernel) (Orem ((payList c).drop 12)) W) $$ [Hs23 Hd23 HO Hts23 Htr23]
  · isplitr; · iexact Hrec
    isplitl [Hs23]; · iapply (src_g2 m c 3 0 fullShare.left.right rfl rfl); iexact Hs23
    isplitl [Hd23]; · iexact Hd23
    isplitl [HO]; · iexact HO
    isplitl [Hts23]; · iexact Hts23
    iexact Htr23
  iintro ⟨Hc23, HO⟩
  iapply (op_load_B m c _) $$ HB; iintro HB
  iapply (op_load_b16_any m c) $$ Hb16; iintro %x Hb16
  iapply (op_store_b16 m c (w := bv m c)) $$ Hb16; iintro Hb16
  ihave Hs00 := (Entails.of_eq (show slotHas m c 0 0 fullShare.right = holdsPts c (gs0 0) fullShare.right (sv0 m (xr c (mask 0 0))) from rfl)) $$ Hs00
  iapply (op_load_gs0 m c 0 fullShare.right _) $$ Hs00; iintro Hs00
  iapply (op_load_b16 m c fullShare _) $$ Hb16; iintro Hb16
  rw [wp_ret]; imodintro
  iapply HK $$ %_ %rfl
  isplitl [Hc13]; · iexact Hc13
  isplitl [HO]; · iexists W; iexact HO
  isplitl [Hc23]; · iexact Hc23
  isplitl [HB]; · iexact HB
  isplitl [Hb16]; · iexact Hb16
  iapply (Entails.of_eq (show holdsPts c (gs0 0) fullShare.right (sv0 m (xr c (mask 0 0))) = slotHas m c 0 0 fullShare.right from rfl)); iexact Hs00

/-- Part 6: the first product blocks of groups 0 and 1 stored into their stage slots and copied into the result. -/
theorem part6 : Part6Spec m K := by
  intro c v2 Kt
  simp only [k0_part6, semSignalWord, semWaitWord, Prog.lift, Prog.bind_op, Prog.bind_ret, Prog.pure_eq_ret, wp_deviceId]
  iintro ⟨#Hrec, #Hlev, Hst0, Hp0, Htc0, Hs10, Hb16, Hst1, Hp1, Htc1, HK⟩
  ihave Hst0 := (Entails.of_eq (show stageAny (F := F) c 0 0 = anyPts c (ss0 0) from rfl)) $$ Hst0
  iapply (op_load_ss0_any m c 0) $$ Hst0; iintro %x Hst0
  iapply (op_store_ss0 m c 0 (prod352 (sv0 m (xr c (mask 0 0))) (bv m c)) rfl) $$ Hst0; iintro Hst0
  ihave Hst0 := (stageHas0_of m c 0 0 rfl (by decide)) $$ Hst0
  iapply (op_copy0 m K c 0 0 0 rfl rfl) $$ [Hst0 Hp0 Htc0]
  · isplitr; · iexact Hrec
    isplitl [Hst0]; · iexact Hst0
    isplitl [Hp0]; · iexact Hp0
    iexact Htc0
  iintro Hcc0
  ihave Hs10 := (Entails.of_eq (show slotHas m c 1 0 fullShare.right = holdsPts c (gs1 0) fullShare.right (sv1 m (xr c (mask 1 0))) from rfl)) $$ Hs10
  iapply (op_load_gs1 m c 0 fullShare.right _) $$ Hs10; iintro Hs10
  iapply (op_load_b16 m c fullShare _) $$ Hb16; iintro Hb16
  ihave Hst1 := (Entails.of_eq (show stageAny (F := F) c 1 0 = anyPts c (ss1 0) from rfl)) $$ Hst1
  iapply (op_load_ss1_any m c 0) $$ Hst1; iintro %y Hst1
  iapply (op_store_ss1 m c 0 (prod336 (sv1 m (xr c (mask 1 0))) (bv m c)) rfl) $$ Hst1; iintro Hst1
  ihave Hst1 := (stageHas1_of m c 0 0 rfl (by decide)) $$ Hst1
  iapply (op_copy1 m K c 0 0 0 rfl rfl) $$ [Hst1 Hp1 Htc1]
  · isplitr; · iexact Hrec
    isplitl [Hst1]; · iexact Hst1
    isplitl [Hp1]; · iexact Hp1
    iexact Htc1
  iintro Hcc1
  rw [wp_ret]; imodintro
  iapply HK
  isplitl [Hcc0]; · iexact Hcc0
  isplitl [Hs10]; · iapply (Entails.of_eq (show holdsPts c (gs1 0) fullShare.right (sv1 m (xr c (mask 1 0))) = slotHas m c 1 0 fullShare.right from rfl)); iexact Hs10
  isplitl [Hb16]; · iexact Hb16
  iexact Hcc1

/-- Part 7: the first product block of group 2 stored and copied out, and the wait on the send cell of step 0 of group 0. -/
theorem part7 : Part7Spec m K := by
  intro c v2 v31 Kt
  simp only [k0_part7, semSignalWord, semWaitWord, Prog.lift, Prog.bind_op, Prog.bind_ret, Prog.pure_eq_ret, wp_deviceId]
  iintro ⟨#Hrec, #Hlev, Hs20, Hb16, Hst2, Hp2, Htc2, Hcs, Hat, ⟨%W, HO⟩, HK⟩
  ihave Hs20 := (Entails.of_eq (show slotHas m c 2 0 fullShare.right = holdsPts c (gs2 0) fullShare.right (sv2 m (xr c (mask 2 0))) from rfl)) $$ Hs20
  iapply (op_load_gs2 m c 0 fullShare.right _) $$ Hs20; iintro Hs20
  iapply (op_load_b16 m c fullShare _) $$ Hb16; iintro Hb16
  ihave Hst2 := (Entails.of_eq (show stageAny (F := F) c 2 0 = anyPts c (ss2 0) from rfl)) $$ Hst2
  iapply (op_load_ss2_any m c 0) $$ Hst2; iintro %y Hst2
  iapply (op_store_ss2 m c 0 (prod336 (sv2 m (xr c (mask 2 0))) (bv m c)) rfl) $$ Hst2; iintro Hst2
  ihave Hst2 := (stageHas2_of m c 0 0 rfl (by decide)) $$ Hst2
  iapply (op_copy2 m K c 0 0 0 rfl rfl) $$ [Hst2 Hp2 Htc2]
  · isplitr; · iexact Hrec
    isplitl [Hst2]; · iexact Hst2
    isplitl [Hp2]; · iexact Hp2
    iexact Htc2
  iintro Hcc2
  iapply (wait_send' m K c 0 0 (Orem ((payList c).drop 12)) W (rest_above0 c 12) (src := gs0 1) (dst := gs0 0) (Q := Kt)) $$ [Hcs Hat HO]
  · isplitr; · iexact Hrec
    isplitr; · iexact Hlev
    isplitl [Hcs]; · iexact Hcs
    isplitl [Hat]; · iexact Hat
    iexact HO
  iintro ⟨Hpay, Hat, HO⟩
  ihave Hpay := (Entails.of_eq (show sendPay m c 0 0 = slotHas m c 0 0 fullShare.left.left.left from rfl)) $$ Hpay
  rw [wp_ret]; imodintro
  iapply HK
  isplitl [Hs20]; · iapply (Entails.of_eq (show holdsPts c (gs2 0) fullShare.right (sv2 m (xr c (mask 2 0))) = slotHas m c 2 0 fullShare.right from rfl)); iexact Hs20
  isplitl [Hb16]; · iexact Hb16
  isplitl [Hcc2]; · iexact Hcc2
  isplitl [HO]; · iexists (insert (SemLoc.dma (sendS 0 0), ()) W); iexact HO
  isplitl [Hat]; · iexact Hat
  iexact Hpay

/-- info: 'Cert.KernelIdeal.DM.part1' depends on axioms: [propext, Classical.choice, Quot.sound] -/
#guard_msgs in #print axioms part1

/-- info: 'Cert.KernelIdeal.DM.part2' depends on axioms: [propext, Classical.choice, Quot.sound] -/
#guard_msgs in #print axioms part2

/-- info: 'Cert.KernelIdeal.DM.part3' depends on axioms: [propext, Classical.choice, Quot.sound] -/
#guard_msgs in #print axioms part3

/-- info: 'Cert.KernelIdeal.DM.part4' depends on axioms: [propext, Classical.choice, Quot.sound] -/
#guard_msgs in #print axioms part4

/-- info: 'Cert.KernelIdeal.DM.part5' depends on axioms: [propext, Classical.choice, Quot.sound] -/
#guard_msgs in #print axioms part5

/-- info: 'Cert.KernelIdeal.DM.part6' depends on axioms: [propext, Classical.choice, Quot.sound] -/
#guard_msgs in #print axioms part6

/-- info: 'Cert.KernelIdeal.DM.part7' depends on axioms: [propext, Classical.choice, Quot.sound] -/
#guard_msgs in #print axioms part7

end Cert.KernelIdeal.DM

end
-- ==== Proof.Parts_8_15.lean ====
import proofs.«900891_g7700000000000892_dist_matmul_m_i_outrep_m1024_n1024_k512_v7x_i8_f32_1_alg».proof.Proof.PartSpecs
import proofs.«900891_g7700000000000892_dist_matmul_m_i_outrep_m1024_n1024_k512_v7x_i8_f32_1_alg».proof.Proof.OpsSend
import proofs.«900891_g7700000000000892_dist_matmul_m_i_outrep_m1024_n1024_k512_v7x_i8_f32_1_alg».proof.Proof.OpsWait
import proofs.«900891_g7700000000000892_dist_matmul_m_i_outrep_m1024_n1024_k512_v7x_i8_f32_1_alg».proof.Proof.OpsStore
import proofs.«900891_g7700000000000892_dist_matmul_m_i_outrep_m1024_n1024_k512_v7x_i8_f32_1_alg».proof.Proof.OpsCopy
import proofs.«900891_g7700000000000892_dist_matmul_m_i_outrep_m1024_n1024_k512_v7x_i8_f32_1_alg».proof.Proof.Launch

/-!
The runs of parts 8 to 15 of a device's body: the waits that close the first two rounds of the exchange, the transfers
those waits free, and the second product block of each group stored and copied out. Each part is stepped one effect at
a time from the pieces of state its statement lists, and hands the statement's pieces on.
-/

set_option maxRecDepth 16384

noncomputable section

namespace Cert.KernelIdeal.DM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What is still owed lies above the waited cells -/

theorem p8_above2_drop12 (c : Dev nD) : Above 2 (Orem ((payList c).drop 12)) := by
  refine above_Orem fun x hx => ?_
  rw [show (payList c).drop 12 = [owedStep c 0 2, owedStep c 0 4, owedStep c 1 2, owedStep c 1 4, owedStep c 2 2, owedStep c 2 4, owedStep c 0 5, owedStep c 1 5, owedStep c 2 5, owedStep c 0 6, owedStep c 0 7, owedStep c 1 6, owedStep c 1 7, owedStep c 2 6, owedStep c 2 7] from rfl] at hx
  simp only [List.mem_cons, List.not_mem_nil, or_false] at hx
  rcases hx with rfl | rfl | rfl | rfl | rfl | rfl | rfl | rfl | rfl | rfl | rfl | rfl | rfl | rfl | rfl
  all_goals exact above_owedStep c _ _ (by decide)
theorem p8_above0_drop12 (c : Dev nD) : Above 0 (Orem ((payList c).drop 12)) := above_mono (p8_above2_drop12 c) (by decide)

theorem p8_above2_drop14 (c : Dev nD) : Above 2 (Orem ((payList c).drop 14)) := by
  refine above_Orem fun x hx => ?_
  rw [show (payList c).drop 14 = [owedStep c 1 2, owedStep c 1 4, owedStep c 2 2, owedStep c 2 4, owedStep c 0 5, owedStep c 1 5, owedStep c 2 5, owedStep c 0 6, owedStep c 0 7, owedStep c 1 6, owedStep c 1 7, owedStep c 2 6, owedStep c 2 7] from rfl] at hx
  simp only [List.mem_cons, List.not_mem_nil, or_false] at hx
  rcases hx with rfl | rfl | rfl | rfl | rfl | rfl | rfl | rfl | rfl | rfl | rfl | rfl | rfl
  all_goals exact above_owedStep c _ _ (by decide)
theorem p8_above0_drop14 (c : Dev nD) : Above 0 (Orem ((payList c).drop 14)) := above_mono (p8_above2_drop14 c) (by decide)

theorem p8_above2_drop16 (c : Dev nD) : Above 2 (Orem ((payList c).drop 16)) := by
  refine above_Orem fun x hx => ?_
  rw [show (payList c).drop 16 = [owedStep c 2 2, owedStep c 2 4, owedStep c 0 5, owedStep c 1 5, owedStep c 2 5, owedStep c 0 6, owedStep c 0 7, owedStep c 1 6, owedStep c 1 7, owedStep c 2 6, owedStep c 2 7] from rfl] at hx
  simp only [List.mem_cons, List.not_mem_nil, or_false] at hx
  rcases hx with rfl | rfl | rfl | rfl | rfl | rfl | rfl | rfl | rfl | rfl | rfl
  all_goals exact above_owedStep c _ _ (by decide)
theorem p8_above0_drop16 (c : Dev nD) : Above 0 (Orem ((payList c).drop 16)) := above_mono (p8_above2_drop16 c) (by decide)

theorem p8_above2_drop18 (c : Dev nD) : Above 2 (Orem ((payList c).drop 18)) := by
  refine above_Orem fun x hx => ?_
  rw [show (payList c).drop 18 = [owedStep c 0 5, owedStep c 1 5, owedStep c 2 5, owedStep c 0 6, owedStep c 0 7, owedStep c 1 6, owedStep c 1 7, owedStep c 2 6, owedStep c 2 7] from rfl] at hx
  simp only [List.mem_cons, List.not_mem_nil, or_false] at hx
  rcases hx with rfl | rfl | rfl | rfl | rfl | rfl | rfl | rfl | rfl
  all_goals exact above_owedStep c _ _ (by decide)
theorem p8_above0_drop18 (c : Dev nD) : Above 0 (Orem ((payList c).drop 18)) := above_mono (p8_above2_drop18 c) (by decide)

theorem p8_above2_drop19 (c : Dev nD) : Above 2 (Orem ((payList c).drop 19)) := by
  refine above_Orem fun x hx => ?_
  rw [show (payList c).drop 19 = [owedStep c 1 5, owedStep c 2 5, owedStep c 0 6, owedStep c 0 7, owedStep c 1 6, owedStep c 1 7, owedStep c 2 6, owedStep c 2 7] from rfl] at hx
  simp only [List.mem_cons, List.not_mem_nil, or_false] at hx
  rcases hx with rfl | rfl | rfl | rfl | rfl | rfl | rfl | rfl
  all_goals exact above_owedStep c _ _ (by decide)
theorem p8_above0_drop19 (c : Dev nD) : Above 0 (Orem ((payList c).drop 19)) := above_mono (p8_above2_drop19 c) (by decide)

theorem p8_above2_drop20 (c : Dev nD) : Above 2 (Orem ((payList c).drop 20)) := by
  refine above_Orem fun x hx => ?_
  rw [show (payList c).drop 20 = [owedStep c 2 5, owedStep c 0 6, owedStep c 0 7, owedStep c 1 6, owedStep c 1 7, owedStep c 2 6, owedStep c 2 7] from rfl] at hx
  simp only [List.mem_cons, List.not_mem_nil, or_false] at hx
  rcases hx with rfl | rfl | rfl | rfl | rfl | rfl | rfl
  all_goals exact above_owedStep c _ _ (by decide)
theorem p8_above0_drop20 (c : Dev nD) : Above 0 (Orem ((payList c).drop 20)) := above_mono (p8_above2_drop20 c) (by decide)

variable (m : (ℓ : Loc nD τ sig) → Buf (Elt F) ℓ) (K : Dev nD × CIx → ℕ)

/-- A filled slot at the share a step reads it at, as the transfer of that step takes it. -/
theorem p8_src0 (c : Dev nD) (k st : Fin 8) (q : PosShare TreeShare) (hk : srcSlot st = k) (hq : qs st = q) :
    slotHas m c 0 k q = holdsPts c (gs0 (srcSlot st)) (qs st) (sv0 m (xr c (mask 0 (srcSlot st)))) := by subst hk hq; rfl
theorem p8_src1 (c : Dev nD) (k st : Fin 8) (q : PosShare TreeShare) (hk : srcSlot st = k) (hq : qs st = q) :
    slotHas m c 1 k q = holdsPts c (gs1 (srcSlot st)) (qs st) (sv1 m (xr c (mask 1 (srcSlot st)))) := by subst hk hq; rfl
theorem p8_src2 (c : Dev nD) (k st : Fin 8) (q : PosShare TreeShare) (hk : srcSlot st = k) (hq : qs st = q) :
    slotHas m c 2 k q = holdsPts c (gs2 (srcSlot st)) (qs st) (sv2 m (xr c (mask 2 (srcSlot st)))) := by subst hk hq; rfl

/-- The by-group pieces at a named group. -/
theorem p8_slot0 (c : Dev nD) (k : Fin 8) (q : PosShare TreeShare) : slotHas m c 0 k q = holdsPts c (gs0 k) q (sv0 m (xr c (mask 0 k))) := rfl
theorem p8_slot1 (c : Dev nD) (k : Fin 8) (q : PosShare TreeShare) : slotHas m c 1 k q = holdsPts c (gs1 k) q (sv1 m (xr c (mask 1 k))) := rfl
theorem p8_slot2 (c : Dev nD) (k : Fin 8) (q : PosShare TreeShare) : slotHas m c 2 k q = holdsPts c (gs2 k) q (sv2 m (xr c (mask 2 k))) := rfl
omit [FloatOps F] in
theorem p8_stageAny0 (c : Dev nD) (p : Fin 2) : stageAny (F := F) c 0 p = anyPts c (ss0 p) := rfl
omit [FloatOps F] in
theorem p8_stageAny1 (c : Dev nD) (p : Fin 2) : stageAny (F := F) c 1 p = anyPts c (ss1 p) := rfl
omit [FloatOps F] in
theorem p8_stageAny2 (c : Dev nD) (p : Fin 2) : stageAny (F := F) c 2 p = anyPts c (ss2 p) := rfl

/-- A stored product block, other than the last, is the block its stage slot is to hold. -/
theorem p8_stageHas0 (c : Dev nD) (j : Fin 8) (p : Fin 2) (hp : par j = p) (hj : j ≠ 7) :
    holdsPts c (ss0 p) fullShare (prod352 (sv0 m (xr c (mask 0 j))) (bv m c)) ⊢ stageHas m c 0 j := by
  subst hp
  show _ ⊢ stageHas0 m c j
  unfold stageHas0
  iintro H; iexists _; isplitr
  · ipureintro; unfold stageOK0; rw [if_neg hj]
  · iexact H
theorem p8_stageHas1 (c : Dev nD) (j : Fin 8) (p : Fin 2) (hp : par j = p) (hj : j ≠ 7) :
    holdsPts c (ss1 p) fullShare (prod336 (sv1 m (xr c (mask 1 j))) (bv m c)) ⊢ stageHas m c 1 j := by
  subst hp
  show _ ⊢ stageHas1 m c j
  unfold stageHas1
  iintro H; iexists _; isplitr
  · ipureintro; unfold stageOK1; rw [if_neg hj]
  · iexact H
theorem p8_stageHas2 (c : Dev nD) (j : Fin 8) (p : Fin 2) (hp : par j = p) (hj : j ≠ 7) :
    holdsPts c (ss2 p) fullShare (prod336 (sv2 m (xr c (mask 2 j))) (bv m c)) ⊢ stageHas m c 2 j := by
  subst hp
  show _ ⊢ stageHas2 m c j
  unfold stageHas2
  iintro H; iexists _; isplitr
  · ipureintro; unfold stageOK2; rw [if_neg hj]
  · iexact H

theorem p8_stageHasG0 (c : Dev nD) (j : Fin 8) : stageHas m c 0 j = stageHas0 m c j := rfl
theorem p8_stageHasG1 (c : Dev nD) (j : Fin 8) : stageHas m c 1 j = stageHas1 m c j := rfl
theorem p8_stageHasG2 (c : Dev nD) (j : Fin 8) : stageHas m c 2 j = stageHas2 m c j := rfl

/-! ## The parts -/

theorem part8 : Part8Spec m K := by
  intro c v2 Kt
  simp only [k0_part8, semSignalWord, semWaitWord, Prog.lift, Prog.bind_op, Prog.bind_ret, Prog.pure_eq_ret, wp_deviceId]
  iintro ⟨#Hrec, #Hlev, Hc, Hat, HO, Hd2, Hts2, Htr2, Hd4, Hts4, Htr4, HK⟩
  icases HO with ⟨%W, HO⟩
  iapply (wait_recv' m K c 0 0 (Orem ((payList c).drop 12)) _ (p8_above2_drop12 c)) $$ [Hc Hat HO]
  · isplitr; · iexact Hrec
    isplitr; · iexact Hlev
    isplitl [Hc]; · iexact Hc
    isplitl [Hat]; · iexact Hat
    iexact HO
  iintro ⟨Hpay, Hat, HO⟩
  ihave Hs := (Entails.of_eq (show recvPay m c 0 0 = slotHas m c 0 1 fullShare from rfl)) $$ Hpay
  ihave Hs := (slot1_cut m c 0) $$ Hs
  icases Hs with ⟨HLL, HLR, HR⟩
  ihave HLL := (Entails.of_eq (p8_src0 m c 1 2 fullShare.left.left rfl rfl)) $$ HLL
  iapply (op_send_g0 m K c 2 (by decide) (dev13_eq c) (by decide +kernel) (by decide +kernel) (Orem ((payList c).drop 13)) _) $$ [HLL Hd2 HO Hts2 Htr2]
  · isplitr; · iexact Hrec
    isplitl [HLL]; · iexact HLL
    isplitl [Hd2]; · iexact Hd2
    isplitl [HO]; · iexact HO
    isplitl [Hts2]; · iexact Hts2
    iexact Htr2
  iintro ⟨Hc2, HO⟩
  ihave HLR := (Entails.of_eq (p8_src0 m c 1 4 fullShare.left.right rfl rfl)) $$ HLR
  iapply (op_send_g0 m K c 4 (by decide) (dev14_eq c) (by decide +kernel) (by decide +kernel) (Orem ((payList c).drop 14)) _) $$ [HLR Hd4 HO Hts4 Htr4]
  · isplitr; · iexact Hrec
    isplitl [HLR]; · iexact HLR
    isplitl [Hd4]; · iexact Hd4
    isplitl [HO]; · iexact HO
    isplitl [Hts4]; · iexact Hts4
    iexact Htr4
  iintro ⟨Hc4, HO⟩
  rw [wp_ret]; imodintro
  iapply HK
  isplitl [Hat]; · iexact Hat
  isplitl [HR]; · iexact HR
  isplitl [Hc2]; · iexact Hc2
  isplitl [HO]; · iexists _; iexact HO
  iexact Hc4

theorem part9 : Part9Spec m K := by
  intro c v2 v40 Kt
  simp only [k0_part9, semSignalWord, semWaitWord, Prog.lift, Prog.bind_op, Prog.bind_ret, Prog.pure_eq_ret, wp_deviceId]
  iintro ⟨#Hrec, #Hlev, Hcs, Hats, HO, Hcr, Hatr, Hd2, Hts2, Htr2, HK⟩
  icases HO with ⟨%W, HO⟩
  iapply (wait_send' m K c 1 0 (Orem ((payList c).drop 14)) _ (p8_above0_drop14 c)) $$ [Hcs Hats HO]
  · isplitr; · iexact Hrec
    isplitr; · iexact Hlev
    isplitl [Hcs]; · iexact Hcs
    isplitl [Hats]; · iexact Hats
    iexact HO
  iintro ⟨Hps, Hats, HO⟩
  ihave Hps := (Entails.of_eq (show sendPay m c 1 0 = slotHas m c 1 0 fullShare.left.left.left from rfl)) $$ Hps
  iapply (wait_recv' m K c 1 0 (Orem ((payList c).drop 14)) _ (p8_above2_drop14 c)) $$ [Hcr Hatr HO]
  · isplitr; · iexact Hrec
    isplitr; · iexact Hlev
    isplitl [Hcr]; · iexact Hcr
    isplitl [Hatr]; · iexact Hatr
    iexact HO
  iintro ⟨Hpr, Hatr, HO⟩
  ihave Hs := (Entails.of_eq (show recvPay m c 1 0 = slotHas m c 1 1 fullShare from rfl)) $$ Hpr
  ihave Hs := (slot1_cut m c 1) $$ Hs
  icases Hs with ⟨HLL, HLR, HR⟩
  ihave HLL := (Entails.of_eq (p8_src1 m c 1 2 fullShare.left.left rfl rfl)) $$ HLL
  iapply (op_send_g1 m K c 2 (by decide) (dev15_eq c) (by decide +kernel) (by decide +kernel) (Orem ((payList c).drop 15)) _) $$ [HLL Hd2 HO Hts2 Htr2]
  · isplitr; · iexact Hrec
    isplitl [HLL]; · iexact HLL
    isplitl [Hd2]; · iexact Hd2
    isplitl [HO]; · iexact HO
    isplitl [Hts2]; · iexact Hts2
    iexact Htr2
  iintro ⟨Hc2, HO⟩
  rw [wp_ret]; imodintro
  iapply HK
  isplitl [Hats]; · iexact Hats
  isplitl [Hps]; · iexact Hps
  isplitl [Hatr]; · iexact Hatr
  isplitl [HLR]; · iexact HLR
  isplitl [HR]; · iexact HR
  isplitl [HO]; · iexists _; iexact HO
  iexact Hc2

theorem part10 : Part10Spec m K := by
  intro c v2 v49 v211 Kt
  simp only [k0_part10, semSignalWord, semWaitWord, Prog.lift, Prog.bind_op, Prog.bind_ret, Prog.pure_eq_ret, wp_deviceId]
  iintro ⟨#Hrec, #Hlev, Hs4, Hd4, Hts4, Htr4, HO, Hcs, Hats, Hcr, Hatr, HK⟩
  icases HO with ⟨%W, HO⟩
  ihave Hs4 := (Entails.of_eq (p8_src1 m c 1 4 fullShare.left.right rfl rfl)) $$ Hs4
  iapply (op_send_g1 m K c 4 (by decide) (dev16_eq c) (by decide +kernel) (by decide +kernel) (Orem ((payList c).drop 16)) _) $$ [Hs4 Hd4 HO Hts4 Htr4]
  · isplitr; · iexact Hrec
    isplitl [Hs4]; · iexact Hs4
    isplitl [Hd4]; · iexact Hd4
    isplitl [HO]; · iexact HO
    isplitl [Hts4]; · iexact Hts4
    iexact Htr4
  iintro ⟨Hc4, HO⟩
  iapply (wait_send' m K c 2 0 (Orem ((payList c).drop 16)) _ (p8_above0_drop16 c)) $$ [Hcs Hats HO]
  · isplitr; · iexact Hrec
    isplitr; · iexact Hlev
    isplitl [Hcs]; · iexact Hcs
    isplitl [Hats]; · iexact Hats
    iexact HO
  iintro ⟨Hps, Hats, HO⟩
  ihave Hps := (Entails.of_eq (show sendPay m c 2 0 = slotHas m c 2 0 fullShare.left.left.left from rfl)) $$ Hps
  iapply (wait_recv' m K c 2 0 (Orem ((payList c).drop 16)) _ (p8_above2_drop16 c)) $$ [Hcr Hatr HO]
  · isplitr; · iexact Hrec
    isplitr; · iexact Hlev
    isplitl [Hcr]; · iexact Hcr
    isplitl [Hatr]; · iexact Hatr
    iexact HO
  iintro ⟨Hpr, Hatr, HO⟩
  ihave Hs := (Entails.of_eq (show recvPay m c 2 0 = slotHas m c 2 1 fullShare from rfl)) $$ Hpr
  ihave Hs := (slot1_cut m c 2) $$ Hs
  icases Hs with ⟨HLL, HLR, HR⟩
  rw [wp_ret]; imodintro
  iapply HK
  isplitl [Hc4]; · iexact Hc4
  isplitl [Hats]; · iexact Hats
  isplitl [Hps]; · iexact Hps
  isplitl [HO]; · iexists _; iexact HO
  isplitl [Hatr]; · iexact Hatr
  isplitl [HLL]; · iexact HLL
  isplitl [HLR]; · iexact HLR
  iexact HR

theorem part11 : Part11Spec m K := by
  intro c v2 Kt
  simp only [k0_part11, semSignalWord, semWaitWord, Prog.lift, Prog.bind_op, Prog.bind_ret, Prog.pure_eq_ret, wp_deviceId]
  iintro ⟨#Hrec, #Hlev, Hs2, Hd2, Hts2, Htr2, HO, Hs4, Hd4, Hts4, Htr4, Hg, Hb, Hst, HK⟩
  icases HO with ⟨%W, HO⟩
  ihave Hs2 := (Entails.of_eq (p8_src2 m c 1 2 fullShare.left.left rfl rfl)) $$ Hs2
  iapply (op_send_g2 m K c 2 (by decide) (dev17_eq c) (by decide +kernel) (by decide +kernel) (Orem ((payList c).drop 17)) _) $$ [Hs2 Hd2 HO Hts2 Htr2]
  · isplitr; · iexact Hrec
    isplitl [Hs2]; · iexact Hs2
    isplitl [Hd2]; · iexact Hd2
    isplitl [HO]; · iexact HO
    isplitl [Hts2]; · iexact Hts2
    iexact Htr2
  iintro ⟨Hc2, HO⟩
  ihave Hs4 := (Entails.of_eq (p8_src2 m c 1 4 fullShare.left.right rfl rfl)) $$ Hs4
  iapply (op_send_g2 m K c 4 (by decide) (dev18_eq c) (by decide +kernel) (by decide +kernel) (Orem ((payList c).drop 18)) _) $$ [Hs4 Hd4 HO Hts4 Htr4]
  · isplitr; · iexact Hrec
    isplitl [Hs4]; · iexact Hs4
    isplitl [Hd4]; · iexact Hd4
    isplitl [HO]; · iexact HO
    isplitl [Hts4]; · iexact Hts4
    iexact Htr4
  iintro ⟨Hc4, HO⟩
  ihave Hg := (Entails.of_eq (p8_slot0 m c 1 fullShare.right)) $$ Hg
  iapply (op_load_gs0 m c 1 fullShare.right _) $$ Hg; iintro Hg
  iapply (op_load_b16 m c fullShare _) $$ Hb; iintro Hb
  ihave Hst := (Entails.of_eq (p8_stageAny0 c 1)) $$ Hst
  iapply (op_load_ss0_any m c 1) $$ Hst; iintro %x Hst
  iapply (op_store_ss0 m c 1 (prod352 (sv0 m (xr c (mask 0 1))) (bv m c)) rfl) $$ Hst; iintro Hst
  ihave Hst := (p8_stageHas0 m c 1 1 rfl (by decide)) $$ Hst
  ihave Hg := (Entails.of_eq (p8_slot0 m c 1 fullShare.right).symm) $$ Hg
  rw [wp_ret]; imodintro
  iapply HK
  isplitl [Hc2]; · iexact Hc2
  isplitl [HO]; · iexists _; iexact HO
  isplitl [Hc4]; · iexact Hc4
  isplitl [Hg]; · iexact Hg
  isplitl [Hb]; · iexact Hb
  iexact Hst

theorem part12 : Part12Spec m K := by
  intro c v2 Kt
  simp only [k0_part12, semSignalWord, semWaitWord, Prog.lift, Prog.bind_op, Prog.bind_ret, Prog.pure_eq_ret, wp_deviceId]
  iintro ⟨#Hrec, #Hlev, Hsh0, Hp0, Htc0, Hg1, Hb, Hst1, Hp1, Htc1, Hg2, Hst2, HK⟩
  ihave Hsh0 := (Entails.of_eq (p8_stageHasG0 m c 1)) $$ Hsh0
  iapply (op_copy0 m K c 1 1 1 rfl rfl) $$ [Hsh0 Hp0 Htc0]
  · isplitr; · iexact Hrec
    isplitl [Hsh0]; · iexact Hsh0
    isplitl [Hp0]; · iexact Hp0
    iexact Htc0
  iintro Hcc0
  ihave Hg1 := (Entails.of_eq (p8_slot1 m c 1 fullShare.right)) $$ Hg1
  iapply (op_load_gs1 m c 1 fullShare.right _) $$ Hg1; iintro Hg1
  iapply (op_load_b16 m c fullShare _) $$ Hb; iintro Hb
  ihave Hst1 := (Entails.of_eq (p8_stageAny1 c 1)) $$ Hst1
  iapply (op_load_ss1_any m c 1) $$ Hst1; iintro %x1 Hst1
  iapply (op_store_ss1 m c 1 (prod336 (sv1 m (xr c (mask 1 1))) (bv m c)) rfl) $$ Hst1; iintro Hst1
  ihave Hst1 := (p8_stageHas1 m c 1 1 rfl (by decide)) $$ Hst1
  ihave Hst1 := (Entails.of_eq (p8_stageHasG1 m c 1)) $$ Hst1
  iapply (op_copy1 m K c 1 1 3 rfl rfl) $$ [Hst1 Hp1 Htc1]
  · isplitr; · iexact Hrec
    isplitl [Hst1]; · iexact Hst1
    isplitl [Hp1]; · iexact Hp1
    iexact Htc1
  iintro Hcc1
  ihave Hg2 := (Entails.of_eq (p8_slot2 m c 1 fullShare.right)) $$ Hg2
  iapply (op_load_gs2 m c 1 fullShare.right _) $$ Hg2; iintro Hg2
  iapply (op_load_b16 m c fullShare _) $$ Hb; iintro Hb
  ihave Hst2 := (Entails.of_eq (p8_stageAny2 c 1)) $$ Hst2
  iapply (op_load_ss2_any m c 1) $$ Hst2; iintro %x2 Hst2
  ihave Hg1 := (Entails.of_eq (p8_slot1 m c 1 fullShare.right).symm) $$ Hg1
  ihave Hg2 := (Entails.of_eq (p8_slot2 m c 1 fullShare.right).symm) $$ Hg2
  ihave Hst2 := (Entails.of_eq (p8_stageAny2 (F := F) c 1).symm) $$ Hst2
  rw [wp_ret]; imodintro
  iapply HK
  · ipureintro; rfl
  isplitl [Hcc0]; · iexact Hcc0
  isplitl [Hg1]; · iexact Hg1
  isplitl [Hb]; · iexact Hb
  isplitl [Hcc1]; · iexact Hcc1
  isplitl [Hg2]; · iexact Hg2
  iexact Hst2

theorem part13 : Part13Spec m K := by
  intro c v2 v58 v281 Kt
  simp only [k0_part13, semSignalWord, semWaitWord, Prog.lift, Prog.bind_op, Prog.bind_ret, Prog.pure_eq_ret, wp_deviceId]
  iintro ⟨#Hrec, #Hlev, Hst, Hpc, Htc, Hcs, Hats, HO, Hcr, Hatr, HK⟩
  icases HO with ⟨%W, HO⟩
  ihave Hst := (Entails.of_eq (p8_stageAny2 (F := F) c 1)) $$ Hst
  iapply (op_store_ss2 m c 1 (prod336 (sv2 m (xr c (mask 2 1))) (bv m c)) rfl) $$ Hst; iintro Hst
  ihave Hst := (p8_stageHas2 m c 1 1 rfl (by decide)) $$ Hst
  ihave Hst := (Entails.of_eq (p8_stageHasG2 m c 1)) $$ Hst
  iapply (op_copy2 m K c 1 1 4 rfl rfl) $$ [Hst Hpc Htc]
  · isplitr; · iexact Hrec
    isplitl [Hst]; · iexact Hst
    isplitl [Hpc]; · iexact Hpc
    iexact Htc
  iintro Hcc
  iapply (wait_send' m K c 0 1 (Orem ((payList c).drop 18)) _ (p8_above0_drop18 c)) $$ [Hcs Hats HO]
  · isplitr; · iexact Hrec
    isplitr; · iexact Hlev
    isplitl [Hcs]; · iexact Hcs
    isplitl [Hats]; · iexact Hats
    iexact HO
  iintro ⟨Hps, Hats, HO⟩
  ihave Hps := (Entails.of_eq (show sendPay m c 0 1 = slotHas m c 0 0 fullShare.left.left.right from rfl)) $$ Hps
  iapply (wait_recv' m K c 0 1 (Orem ((payList c).drop 18)) _ (p8_above2_drop18 c)) $$ [Hcr Hatr HO]
  · isplitr; · iexact Hrec
    isplitr; · iexact Hlev
    isplitl [Hcr]; · iexact Hcr
    isplitl [Hatr]; · iexact Hatr
    iexact HO
  iintro ⟨Hpr, Hatr, HO⟩
  ihave Hs := (Entails.of_eq (show recvPay m c 0 1 = slotHas m c 0 2 fullShare from rfl)) $$ Hpr
  ihave Hs := (slot2_cut m c 0) $$ Hs
  icases Hs with ⟨HL, HR⟩
  rw [wp_ret]; imodintro
  iapply HK
  isplitl [Hcc]; · iexact Hcc
  isplitl [Hats]; · iexact Hats
  isplitl [Hps]; · iexact Hps
  isplitl [HO]; · iexists _; iexact HO
  isplitl [Hatr]; · iexact Hatr
  isplitl [HL]; · iexact HL
  iexact HR

theorem part14 : Part14Spec m K := by
  intro c v2 v67 v302 Kt
  simp only [k0_part14, semSignalWord, semWaitWord, Prog.lift, Prog.bind_op, Prog.bind_ret, Prog.pure_eq_ret, wp_deviceId]
  iintro ⟨#Hrec, #Hlev, Hs5, Hd5, Hts5, Htr5, HO, Hcs, Hats, Hcr, Hatr, HK⟩
  icases HO with ⟨%W, HO⟩
  ihave Hs5 := (Entails.of_eq (p8_src0 m c 2 5 fullShare.left rfl rfl)) $$ Hs5
  iapply (op_send_g0 m K c 5 (by decide) (dev19_eq c) (by decide +kernel) (by decide +kernel) (Orem ((payList c).drop 19)) _) $$ [Hs5 Hd5 HO Hts5 Htr5]
  · isplitr; · iexact Hrec
    isplitl [Hs5]; · iexact Hs5
    isplitl [Hd5]; · iexact Hd5
    isplitl [HO]; · iexact HO
    isplitl [Hts5]; · iexact Hts5
    iexact Htr5
  iintro ⟨Hc5, HO⟩
  iapply (wait_send' m K c 1 1 (Orem ((payList c).drop 19)) _ (p8_above0_drop19 c)) $$ [Hcs Hats HO]
  · isplitr; · iexact Hrec
    isplitr; · iexact Hlev
    isplitl [Hcs]; · iexact Hcs
    isplitl [Hats]; · iexact Hats
    iexact HO
  iintro ⟨Hps, Hats, HO⟩
  ihave Hps := (Entails.of_eq (show sendPay m c 1 1 = slotHas m c 1 0 fullShare.left.left.right from rfl)) $$ Hps
  iapply (wait_recv' m K c 1 1 (Orem ((payList c).drop 19)) _ (p8_above2_drop19 c)) $$ [Hcr Hatr HO]
  · isplitr; · iexact Hrec
    isplitr; · iexact Hlev
    isplitl [Hcr]; · iexact Hcr
    isplitl [Hatr]; · iexact Hatr
    iexact HO
  iintro ⟨Hpr, Hatr, HO⟩
  ihave Hs := (Entails.of_eq (show recvPay m c 1 1 = slotHas m c 1 2 fullShare from rfl)) $$ Hpr
  ihave Hs := (slot2_cut m c 1) $$ Hs
  icases Hs with ⟨HL, HR⟩
  rw [wp_ret]; imodintro
  iapply HK
  isplitl [Hc5]; · iexact Hc5
  isplitl [Hats]; · iexact Hats
  isplitl [Hps]; · iexact Hps
  isplitl [HO]; · iexists _; iexact HO
  isplitl [Hatr]; · iexact Hatr
  isplitl [HL]; · iexact HL
  iexact HR

theorem part15 : Part15Spec m K := by
  intro c v2 v76 v321 Kt
  simp only [k0_part15, semSignalWord, semWaitWord, Prog.lift, Prog.bind_op, Prog.bind_ret, Prog.pure_eq_ret, wp_deviceId]
  iintro ⟨#Hrec, #Hlev, Hs5, Hd5, Hts5, Htr5, HO, Hcs, Hats, Hcr, Hatr, HK⟩
  icases HO with ⟨%W, HO⟩
  ihave Hs5 := (Entails.of_eq (p8_src1 m c 2 5 fullShare.left rfl rfl)) $$ Hs5
  iapply (op_send_g1 m K c 5 (by decide) (dev20_eq c) (by decide +kernel) (by decide +kernel) (Orem ((payList c).drop 20)) _) $$ [Hs5 Hd5 HO Hts5 Htr5]
  · isplitr; · iexact Hrec
    isplitl [Hs5]; · iexact Hs5
    isplitl [Hd5]; · iexact Hd5
    isplitl [HO]; · iexact HO
    isplitl [Hts5]; · iexact Hts5
    iexact Htr5
  iintro ⟨Hc5, HO⟩
  iapply (wait_send' m K c 2 1 (Orem ((payList c).drop 20)) _ (p8_above0_drop20 c)) $$ [Hcs Hats HO]
  · isplitr; · iexact Hrec
    isplitr; · iexact Hlev
    isplitl [Hcs]; · iexact Hcs
    isplitl [Hats]; · iexact Hats
    iexact HO
  iintro ⟨Hps, Hats, HO⟩
  ihave Hps := (Entails.of_eq (show sendPay m c 2 1 = slotHas m c 2 0 fullShare.left.left.right from rfl)) $$ Hps
  iapply (wait_recv' m K c 2 1 (Orem ((payList c).drop 20)) _ (p8_above2_drop20 c)) $$ [Hcr Hatr HO]
  · isplitr; · iexact Hrec
    isplitr; · iexact Hlev
    isplitl [Hcr]; · iexact Hcr
    isplitl [Hatr]; · iexact Hatr
    iexact HO
  iintro ⟨Hpr, Hatr, HO⟩
  ihave Hs := (Entails.of_eq (show recvPay m c 2 1 = slotHas m c 2 2 fullShare from rfl)) $$ Hpr
  ihave Hs := (slot2_cut m c 2) $$ Hs
  icases Hs with ⟨HL, HR⟩
  rw [wp_ret]; imodintro
  iapply HK
  isplitl [Hc5]; · iexact Hc5
  isplitl [Hats]; · iexact Hats
  isplitl [Hps]; · iexact Hps
  isplitl [HO]; · iexists _; iexact HO
  isplitl [Hatr]; · iexact Hatr
  isplitl [HL]; · iexact HL
  iexact HR

/-- info: 'Cert.KernelIdeal.DM.part8' depends on axioms: [propext, Classical.choice, Quot.sound] -/
#guard_msgs in #print axioms part8

/-- info: 'Cert.KernelIdeal.DM.part9' depends on axioms: [propext, Classical.choice, Quot.sound] -/
#guard_msgs in #print axioms part9

/-- info: 'Cert.KernelIdeal.DM.part10' depends on axioms: [propext, Classical.choice, Quot.sound] -/
#guard_msgs in #print axioms part10

/-- info: 'Cert.KernelIdeal.DM.part11' depends on axioms: [propext, Classical.choice, Quot.sound] -/
#guard_msgs in #print axioms part11

/-- info: 'Cert.KernelIdeal.DM.part12' depends on axioms: [propext, Classical.choice, Quot.sound] -/
#guard_msgs in #print axioms part12

/-- info: 'Cert.KernelIdeal.DM.part13' depends on axioms: [propext, Classical.choice, Quot.sound] -/
#guard_msgs in #print axioms part13

/-- info: 'Cert.KernelIdeal.DM.part14' depends on axioms: [propext, Classical.choice, Quot.sound] -/
#guard_msgs in #print axioms part14

/-- info: 'Cert.KernelIdeal.DM.part15' depends on axioms: [propext, Classical.choice, Quot.sound] -/
#guard_msgs in #print axioms part15

end Cert.KernelIdeal.DM

end
-- ==== Proof.Parts_16_22.lean ====
import proofs.«900891_g7700000000000892_dist_matmul_m_i_outrep_m1024_n1024_k512_v7x_i8_f32_1_alg».proof.Proof.PartSpecs
import proofs.«900891_g7700000000000892_dist_matmul_m_i_outrep_m1024_n1024_k512_v7x_i8_f32_1_alg».proof.Proof.OpsSend
import proofs.«900891_g7700000000000892_dist_matmul_m_i_outrep_m1024_n1024_k512_v7x_i8_f32_1_alg».proof.Proof.OpsWait
import proofs.«900891_g7700000000000892_dist_matmul_m_i_outrep_m1024_n1024_k512_v7x_i8_f32_1_alg».proof.Proof.OpsStore
import proofs.«900891_g7700000000000892_dist_matmul_m_i_outrep_m1024_n1024_k512_v7x_i8_f32_1_alg».proof.Proof.OpsCopy
import proofs.«900891_g7700000000000892_dist_matmul_m_i_outrep_m1024_n1024_k512_v7x_i8_f32_1_alg».proof.Proof.Launch

/-!
Parts 16 to 22 of a device's body: the last transfer of the third exchange round, and the product
blocks of slots 2 and 4 of the three row groups, each stored into its stage slot and copied into
its rows of the result once the copy that used the stage slot before has landed.
-/

set_option maxRecDepth 16384

noncomputable section

namespace Cert.KernelIdeal.DM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ)

/-! ## What is still owed from the twenty-first payment on lies above the levels waited at -/

theorem p16_above0_payList (c : Dev nD) : ∀ x ∈ payList c, Above 0 x := by
  have hb (d : Fin 3) : Above 0 (owedBar c d) := above_owedBar c d
  have hs (g : Fin 3) (st : Fin 8) : Above 0 (owedStep c g st) := above_owedStep c g st (by revert st; decide)
  unfold payList
  simp only [List.forall_mem_cons, hb, hs, true_and]
  intro x hx; cases hx

/-- Whatever is still to be paid lies above level 0. -/
theorem p16_above0_drop (c : Dev nD) (n : ℕ) : Above 0 (Orem ((payList c).drop n)) :=
  above_Orem fun x hx => p16_above0_payList c x (List.mem_of_mem_drop hx)

/-- After the twenty-first payment only the two last steps of each group are owed: level 4. -/
theorem p16_above2_drop21 (c : Dev nD) : Above 2 (Orem ((payList c).drop 21)) := by
  refine above_Orem ?_
  show ∀ x ∈ [owedStep c 0 6, owedStep c 0 7, owedStep c 1 6, owedStep c 1 7, owedStep c 2 6, owedStep c 2 7], Above 2 x
  have hs (g : Fin 3) (st : Fin 8) (h : 2 < stLv st) : Above 2 (owedStep c g st) := above_owedStep c g st h
  simp only [List.forall_mem_cons, hs _ _ (show 2 < stLv 6 by decide), hs _ _ (show 2 < stLv 7 by decide), true_and]
  intro x hx; cases hx

/-! ## The per-group spellings of the atoms, and the next payment -/

theorem p16_slotHas_0 (c : Dev nD) (k : Fin 8) (q : PosShare TreeShare) :
    slotHas m c 0 k q = holdsPts c (gs0 k) q (sv0 m (xr c (mask 0 k))) := rfl
theorem p16_slotHas_1 (c : Dev nD) (k : Fin 8) (q : PosShare TreeShare) :
    slotHas m c 1 k q = holdsPts c (gs1 k) q (sv1 m (xr c (mask 1 k))) := rfl
theorem p16_slotHas_2 (c : Dev nD) (k : Fin 8) (q : PosShare TreeShare) :
    slotHas m c 2 k q = holdsPts c (gs2 k) q (sv2 m (xr c (mask 2 k))) := rfl
omit [FloatOps F] in
theorem p16_stageAny_0 (c : Dev nD) (p : Fin 2) : stageAny (F := F) c 0 p = anyPts c (ss0 p) := rfl
omit [FloatOps F] in
theorem p16_stageAny_1 (c : Dev nD) (p : Fin 2) : stageAny (F := F) c 1 p = anyPts c (ss1 p) := rfl
omit [FloatOps F] in
theorem p16_stageAny_2 (c : Dev nD) (p : Fin 2) : stageAny (F := F) c 2 p = anyPts c (ss2 p) := rfl
theorem p16_stageHas_0 (c : Dev nD) (j : Fin 8) : stageHas m c 0 j = stageHas0 m c j := rfl
theorem p16_stageHas_1 (c : Dev nD) (j : Fin 8) : stageHas m c 1 j = stageHas1 m c j := rfl
theorem p16_stageHas_2 (c : Dev nD) (j : Fin 8) : stageHas m c 2 j = stageHas2 m c j := rfl

/-- A landed step-3 transfer hands back the share of slot 0 it read, and fills slot 4. -/
theorem p16_sendPay_3 (c : Dev nD) (g : Fin 3) : sendPay m c g 3 = slotHas m c g 0 fullShare.left.right := by
  fin_cases g <;> rfl
theorem p16_recvPay_3 (c : Dev nD) (g : Fin 3) : recvPay m c g 3 = slotHas m c g 4 fullShare := by
  fin_cases g <;> rfl

/-- The twenty-first payment is the transfer of step 5 of group 2. -/
theorem p16_Orem_drop20 (c : Dev nD) : Orem ((payList c).drop 20) = Orem ((payList c).drop 21) + owedStep c 2 5 := rfl

omit [FloatOps F] in
theorem p16_stageAny_par0 (c : Dev nD) (j : Fin 8) (p : Fin 2) (h : par j = p) : stageAny (F := F) c 0 (par j) = anyPts c (ss0 p) := by
  subst h; rfl
omit [FloatOps F] in
theorem p16_stageAny_par1 (c : Dev nD) (j : Fin 8) (p : Fin 2) (h : par j = p) : stageAny (F := F) c 1 (par j) = anyPts c (ss1 p) := by
  subst h; rfl
omit [FloatOps F] in
theorem p16_stageAny_par2 (c : Dev nD) (j : Fin 8) (p : Fin 2) (h : par j = p) : stageAny (F := F) c 2 (par j) = anyPts c (ss2 p) := by
  subst h; rfl

/-- A whole product block stored in its stage slot is product block j there (j below 7). -/
theorem p16_stageHas0_of (c : Dev nD) (j : Fin 8) (p : Fin 2) (hp : par j = p) (hj : j ≠ 7) :
    holdsPts c (ss0 p) fullShare (prod352 (sv0 m (xr c (mask 0 j))) (bv m c)) ⊢ stageHas0 m c j := by
  subst hp
  unfold stageHas0
  iintro H
  iexists (prod352 (sv0 m (xr c (mask 0 j))) (bv m c))
  isplitr; · ipureintro; unfold stageOK0; rw [if_neg hj]
  iexact H
theorem p16_stageHas1_of (c : Dev nD) (j : Fin 8) (p : Fin 2) (hp : par j = p) (hj : j ≠ 7) :
    holdsPts c (ss1 p) fullShare (prod336 (sv1 m (xr c (mask 1 j))) (bv m c)) ⊢ stageHas1 m c j := by
  subst hp
  unfold stageHas1
  iintro H
  iexists (prod336 (sv1 m (xr c (mask 1 j))) (bv m c))
  isplitr; · ipureintro; unfold stageOK1; rw [if_neg hj]
  iexact H
theorem p16_stageHas2_of (c : Dev nD) (j : Fin 8) (p : Fin 2) (hp : par j = p) (hj : j ≠ 7) :
    holdsPts c (ss2 p) fullShare (prod336 (sv2 m (xr c (mask 2 j))) (bv m c)) ⊢ stageHas2 m c j := by
  subst hp
  unfold stageHas2
  iintro H
  iexists (prod336 (sv2 m (xr c (mask 2 j))) (bv m c))
  isplitr; · ipureintro; unfold stageOK2; rw [if_neg hj]
  iexact H

/-! ## Part 16 -/

theorem part16 : Part16Spec m K := by
  intro c v2 v341 Kt
  rw [p16_Orem_drop20 c]
  iintro ⟨#Hrec, #Hlev, Hs22, Hdst, Htk1, Htk2, ⟨%W, HO⟩, Hcr, Hat, Hs02, Hb16, HK⟩
  simp only [k0_part16, semSignalWord, semWaitWord, Prog.lift, Prog.bind_op, Prog.bind_ret, Prog.pure_eq_ret, wp_deviceId]
  -- the transfer of step 5 of group 2, paid out of what is owed
  ihave Hs22 := (Entails.of_eq (p16_slotHas_2 m c 2 fullShare.left)) $$ Hs22
  iapply (op_send_g2 m K c 5 (by decide) (dev21_eq c) (by decide +kernel) (by decide +kernel) (Orem ((payList c).drop 21)) W) $$ [Hs22 Hdst HO Htk1 Htk2]
  · isplitr; · iexact Hrec
    isplitl [Hs22]; · iexact Hs22
    isplitl [Hdst]; · iexact Hdst
    isplitl [HO]; · iexact HO
    isplitl [Htk1]; · iexact Htk1
    iexact Htk2
  iintro ⟨Hcs, HO⟩
  -- block 0 of group 0 has landed: its stage slot is free again
  iapply (wait_copy' m K c 0 0 (Orem ((payList c).drop 21)) W (p16_above0_drop c 21) (src := ss0 0) (dst := cw0) (Q := Kt)) $$ [Hcr Hat HO]
  · isplitr; · iexact Hrec
    isplitr; · iexact Hlev
    isplitl [Hcr]; · iexact Hcr
    isplitl [Hat]; · iexact Hat
    iexact HO
  iintro ⟨Hpay, Hat, HO⟩
  ihave Hpd := (copyPay_split m c 0 0) $$ Hpay
  icases Hpd with ⟨Hpd, Hst⟩
  ihave Hst := (Entails.of_eq (p16_stageAny_par0 c 0 0 rfl)) $$ Hst
  -- slot 2 times the right factor, into stage slot 0
  ihave Hg := (Entails.of_eq (p16_slotHas_0 m c 2 fullShare.right)) $$ Hs02
  iapply (op_load_gs0 m c 2 fullShare.right _) $$ Hg
  iintro Hg
  iapply (op_load_b16 m c fullShare _) $$ Hb16
  iintro Hb16
  iapply (op_load_ss0_any m c 0) $$ Hst
  iintro %x Hst
  iapply (op_store_ss0 m c 0 (prod352 (sv0 m (xr c (mask 0 2))) (bv m c)) rfl) $$ Hst
  iintro Hst
  rw [wp_ret]
  imodintro
  iapply HK
  isplitl [Hcs]; · iexact Hcs
  isplitl [HO]; · iexists _; iexact HO
  isplitl [Hat]; · iexact Hat
  isplitl [Hpd]; · iexact Hpd
  isplitl [Hg]; · iapply (Entails.of_eq (p16_slotHas_0 m c 2 fullShare.right).symm); iexact Hg
  isplitl [Hb16]; · iexact Hb16
  iapply (Entails.of_eq (p16_stageHas_0 m c 2).symm)
  iapply (p16_stageHas0_of m c 2 0 rfl (by decide))
  iexact Hst

/-! ## Part 17 -/

theorem part17 : Part17Spec m K := by
  intro c v2 Kt
  iintro ⟨#Hrec, #Hlev, Hsh, Hpa, Htk, Hcr, Hat, ⟨%W, HO⟩, Hs12, Hb16, Hpa1, Htk1, HK⟩
  simp only [k0_part17, semSignalWord, semWaitWord, Prog.lift, Prog.bind_op, Prog.bind_ret, Prog.pure_eq_ret, wp_deviceId]
  -- block 2 of group 0 goes to its rows of the result
  ihave Hsh := (Entails.of_eq (p16_stageHas_0 m c 2)) $$ Hsh
  iapply (op_copy0 m K c 2 0 3 rfl rfl) $$ [Hsh Hpa Htk]
  · isplitr; · iexact Hrec
    isplitl [Hsh]; · iexact Hsh
    isplitl [Hpa]; · iexact Hpa
    iexact Htk
  iintro Hcc0
  -- block 0 of group 1 has landed
  iapply (wait_copy' m K c 1 0 (Orem ((payList c).drop 21)) W (p16_above0_drop c 21) (src := ss1 0) (dst := cw12) (Q := Kt)) $$ [Hcr Hat HO]
  · isplitr; · iexact Hrec
    isplitr; · iexact Hlev
    isplitl [Hcr]; · iexact Hcr
    isplitl [Hat]; · iexact Hat
    iexact HO
  iintro ⟨Hpay, Hat, HO⟩
  ihave Hpd := (copyPay_split m c 1 0) $$ Hpay
  icases Hpd with ⟨Hpd, Hst⟩
  ihave Hst := (Entails.of_eq (p16_stageAny_par1 c 0 0 rfl)) $$ Hst
  ihave Hg := (Entails.of_eq (p16_slotHas_1 m c 2 fullShare.right)) $$ Hs12
  iapply (op_load_gs1 m c 2 fullShare.right _) $$ Hg
  iintro Hg
  iapply (op_load_b16 m c fullShare _) $$ Hb16
  iintro Hb16
  iapply (op_load_ss1_any m c 0) $$ Hst
  iintro %x Hst
  iapply (op_store_ss1 m c 0 (prod336 (sv1 m (xr c (mask 1 2))) (bv m c)) rfl) $$ Hst
  iintro Hst
  -- block 2 of group 1 goes to its rows of the result
  ihave Hsh1 := (p16_stageHas1_of m c 2 0 rfl (by decide)) $$ Hst
  iapply (op_copy1 m K c 2 0 4 rfl rfl) $$ [Hsh1 Hpa1 Htk1]
  · isplitr; · iexact Hrec
    isplitl [Hsh1]; · iexact Hsh1
    isplitl [Hpa1]; · iexact Hpa1
    iexact Htk1
  iintro Hcc1
  rw [wp_ret]
  imodintro
  iapply HK
  isplitl [Hcc0]; · iexact Hcc0
  isplitl [HO]; · iexists _; iexact HO
  isplitl [Hat]; · iexact Hat
  isplitl [Hpd]; · iexact Hpd
  isplitl [Hg]; · iapply (Entails.of_eq (p16_slotHas_1 m c 2 fullShare.right).symm); iexact Hg
  isplitl [Hb16]; · iexact Hb16
  iexact Hcc1

/-! ## Part 18 -/

theorem part18 : Part18Spec m K := by
  intro c v2 Kt
  iintro ⟨#Hrec, #Hlev, Hcr, Hat, ⟨%W, HO⟩, Hs22, Hb16, Hpa, Htk, Hcrs, Hats, HK⟩
  simp only [k0_part18, semSignalWord, semWaitWord, Prog.lift, Prog.bind_op, Prog.bind_ret, Prog.pure_eq_ret, wp_deviceId]
  -- block 0 of group 2 has landed
  iapply (wait_copy' m K c 2 0 (Orem ((payList c).drop 21)) W (p16_above0_drop c 21) (src := ss2 0) (dst := cw12) (Q := Kt)) $$ [Hcr Hat HO]
  · isplitr; · iexact Hrec
    isplitr; · iexact Hlev
    isplitl [Hcr]; · iexact Hcr
    isplitl [Hat]; · iexact Hat
    iexact HO
  iintro ⟨Hpay, Hat, HO⟩
  ihave Hpd := (copyPay_split m c 2 0) $$ Hpay
  icases Hpd with ⟨Hpd, Hst⟩
  ihave Hst := (Entails.of_eq (p16_stageAny_par2 c 0 0 rfl)) $$ Hst
  ihave Hg := (Entails.of_eq (p16_slotHas_2 m c 2 fullShare.right)) $$ Hs22
  iapply (op_load_gs2 m c 2 fullShare.right _) $$ Hg
  iintro Hg
  iapply (op_load_b16 m c fullShare _) $$ Hb16
  iintro Hb16
  iapply (op_load_ss2_any m c 0) $$ Hst
  iintro %x Hst
  iapply (op_store_ss2 m c 0 (prod336 (sv2 m (xr c (mask 2 2))) (bv m c)) rfl) $$ Hst
  iintro Hst
  -- block 2 of group 2 goes to its rows of the result
  ihave Hsh := (p16_stageHas2_of m c 2 0 rfl (by decide)) $$ Hst
  iapply (op_copy2 m K c 2 0 1 rfl rfl) $$ [Hsh Hpa Htk]
  · isplitr; · iexact Hrec
    isplitl [Hsh]; · iexact Hsh
    isplitl [Hpa]; · iexact Hpa
    iexact Htk
  iintro Hcc
  -- the transfer of step 3 of group 0 has read its source: the share of slot 0 comes back
  iapply (wait_send' m K c 0 3 (Orem ((payList c).drop 21)) (insert (SemLoc.dma (copyS 2 0), ()) W) (p16_above0_drop c 21) (src := gs0 4) (dst := gs0 0) (Q := Kt)) $$ [Hcrs Hats HO]
  · isplitr; · iexact Hrec
    isplitr; · iexact Hlev
    isplitl [Hcrs]; · iexact Hcrs
    isplitl [Hats]; · iexact Hats
    iexact HO
  iintro ⟨Hsp, Hats, HO⟩
  ihave Hsp := (Entails.of_eq (p16_sendPay_3 m c 0)) $$ Hsp
  rw [wp_ret]
  imodintro
  iapply HK
  isplitl [Hat]; · iexact Hat
  isplitl [Hpd]; · iexact Hpd
  isplitl [Hg]; · iapply (Entails.of_eq (p16_slotHas_2 m c 2 fullShare.right).symm); iexact Hg
  isplitl [Hb16]; · iexact Hb16
  isplitl [Hcc]; · iexact Hcc
  isplitl [HO]; · iexists _; iexact HO
  isplitl [Hats]; · iexact Hats
  iexact Hsp

/-! ## Part 19 -/

theorem part19 : Part19Spec m K := by
  intro c v2 v85 c1_i32_587 Kt
  iintro ⟨#Hrec, #Hlev, Hcrr, Hatr, ⟨%W, HO⟩, Hcr, Hat, Hb16, HK⟩
  simp only [k0_part19, semSignalWord, semWaitWord, Prog.lift, Prog.bind_op, Prog.bind_ret, Prog.pure_eq_ret, wp_deviceId]
  -- slot 4 of group 0 has been filled by the partner
  iapply (wait_recv' m K c 0 3 (Orem ((payList c).drop 21)) W (p16_above2_drop21 c) (src := gs0 0) (dst := gs0 4) (Q := Kt)) $$ [Hcrr Hatr HO]
  · isplitr; · iexact Hrec
    isplitr; · iexact Hlev
    isplitl [Hcrr]; · iexact Hcrr
    isplitl [Hatr]; · iexact Hatr
    iexact HO
  iintro ⟨Hrp, Hatr, HO⟩
  ihave Hs04 := (Entails.of_eq (p16_recvPay_3 m c 0)) $$ Hrp
  -- block 2 of group 0 has landed
  iapply (wait_copy' m K c 0 2 (Orem ((payList c).drop 21)) (insert (SemLoc.dma (recvS 0 3), ()) W) (p16_above0_drop c 21) (src := ss0 0) (dst := cw0) (Q := Kt)) $$ [Hcr Hat HO]
  · isplitr; · iexact Hrec
    isplitr; · iexact Hlev
    isplitl [Hcr]; · iexact Hcr
    isplitl [Hat]; · iexact Hat
    iexact HO
  iintro ⟨Hpay, Hat, HO⟩
  ihave Hpd := (copyPay_split m c 0 2) $$ Hpay
  icases Hpd with ⟨Hpd, Hst⟩
  ihave Hst := (Entails.of_eq (p16_stageAny_par0 c 2 0 rfl)) $$ Hst
  ihave Hg := (Entails.of_eq (p16_slotHas_0 m c 4 fullShare)) $$ Hs04
  iapply (op_load_gs0 m c 4 fullShare _) $$ Hg
  iintro Hg
  iapply (op_load_b16 m c fullShare _) $$ Hb16
  iintro Hb16
  iapply (op_load_ss0_any m c 0) $$ Hst
  iintro %x Hst
  iapply (op_store_ss0 m c 0 (prod352 (sv0 m (xr c (mask 0 4))) (bv m c)) rfl) $$ Hst
  iintro Hst
  rw [wp_ret]
  imodintro
  iapply HK
  isplitl [Hatr]; · iexact Hatr
  isplitl [Hg]; · iapply (Entails.of_eq (p16_slotHas_0 m c 4 fullShare).symm); iexact Hg
  isplitl [HO]; · iexists _; iexact HO
  isplitl [Hat]; · iexact Hat
  isplitl [Hpd]; · iexact Hpd
  isplitl [Hb16]; · iexact Hb16
  iapply (Entails.of_eq (p16_stageHas_0 m c 4).symm)
  iapply (p16_stageHas0_of m c 4 0 rfl (by decide))
  iexact Hst

/-! ## Part 20 -/

theorem part20 : Part20Spec m K := by
  intro c v94 Kt
  iintro ⟨#Hrec, #Hlev, Hsh, Hpa, Htk, Hcrs, Hats, ⟨%W, HO⟩, Hcrr, Hatr, Hcr, Hat, Hb16, HK⟩
  simp only [k0_part20, semSignalWord, semWaitWord, Prog.lift, Prog.bind_op, Prog.bind_ret, Prog.pure_eq_ret, wp_deviceId]
  -- block 4 of group 0 goes to its rows of the result
  ihave Hsh := (Entails.of_eq (p16_stageHas_0 m c 4)) $$ Hsh
  iapply (op_copy0 m K c 4 0 4 rfl rfl) $$ [Hsh Hpa Htk]
  · isplitr; · iexact Hrec
    isplitl [Hsh]; · iexact Hsh
    isplitl [Hpa]; · iexact Hpa
    iexact Htk
  iintro Hcc
  -- step 3 of group 1: the source share comes back, slot 4 is filled
  iapply (wait_send' m K c 1 3 (Orem ((payList c).drop 21)) W (p16_above0_drop c 21) (src := gs1 4) (dst := gs1 0) (Q := Kt)) $$ [Hcrs Hats HO]
  · isplitr; · iexact Hrec
    isplitr; · iexact Hlev
    isplitl [Hcrs]; · iexact Hcrs
    isplitl [Hats]; · iexact Hats
    iexact HO
  iintro ⟨Hsp, Hats, HO⟩
  ihave Hsp := (Entails.of_eq (p16_sendPay_3 m c 1)) $$ Hsp
  iapply (wait_recv' m K c 1 3 (Orem ((payList c).drop 21)) (insert (SemLoc.dma (sendS 1 3), ()) W) (p16_above2_drop21 c) (src := gs1 0) (dst := gs1 4) (Q := Kt)) $$ [Hcrr Hatr HO]
  · isplitr; · iexact Hrec
    isplitr; · iexact Hlev
    isplitl [Hcrr]; · iexact Hcrr
    isplitl [Hatr]; · iexact Hatr
    iexact HO
  iintro ⟨Hrp, Hatr, HO⟩
  ihave Hs14 := (Entails.of_eq (p16_recvPay_3 m c 1)) $$ Hrp
  -- block 2 of group 1 has landed
  iapply (wait_copy' m K c 1 2 (Orem ((payList c).drop 21)) (insert (SemLoc.dma (recvS 1 3), ()) (insert (SemLoc.dma (sendS 1 3), ()) W)) (p16_above0_drop c 21) (src := ss1 0) (dst := cw12) (Q := Kt)) $$ [Hcr Hat HO]
  · isplitr; · iexact Hrec
    isplitr; · iexact Hlev
    isplitl [Hcr]; · iexact Hcr
    isplitl [Hat]; · iexact Hat
    iexact HO
  iintro ⟨Hpay, Hat, HO⟩
  ihave Hpd := (copyPay_split m c 1 2) $$ Hpay
  icases Hpd with ⟨Hpd, Hst⟩
  ihave Hg := (Entails.of_eq (p16_slotHas_1 m c 4 fullShare)) $$ Hs14
  iapply (op_load_gs1 m c 4 fullShare _) $$ Hg
  iintro Hg
  iapply (op_load_b16 m c fullShare _) $$ Hb16
  iintro Hb16
  rw [wp_ret]
  imodintro
  iapply HK
  · ipureintro; rfl
  isplitl [Hcc]; · iexact Hcc
  isplitl [Hats]; · iexact Hats
  isplitl [Hsp]; · iexact Hsp
  isplitl [Hatr]; · iexact Hatr
  isplitl [Hg]; · iapply (Entails.of_eq (p16_slotHas_1 m c 4 fullShare).symm); iexact Hg
  isplitl [HO]; · iexists _; iexact HO
  isplitl [Hat]; · iexact Hat
  isplitl [Hpd]; · iexact Hpd
  isplitl [Hst]; · iexact Hst
  iexact Hb16

/-! ## Part 21 -/

theorem part21 : Part21Spec m K := by
  intro c v2 v103 Kt
  iintro ⟨#Hrec, #Hlev, Hst, Hpa, Htk, Hcrs, Hats, ⟨%W, HO⟩, Hcrr, Hatr, HK⟩
  simp only [k0_part21, semSignalWord, semWaitWord, Prog.lift, Prog.bind_op, Prog.bind_ret, Prog.pure_eq_ret, wp_deviceId]
  ihave Hst := (Entails.of_eq (p16_stageAny_1 c 0)) $$ Hst
  iapply (op_load_ss1_any m c 0) $$ Hst
  iintro %x Hst
  iapply (op_store_ss1 m c 0 (prod336 (sv1 m (xr c (mask 1 4))) (bv m c)) rfl) $$ Hst
  iintro Hst
  -- block 4 of group 1 goes to its rows of the result
  ihave Hsh := (p16_stageHas1_of m c 4 0 rfl (by decide)) $$ Hst
  iapply (op_copy1 m K c 4 0 1 rfl rfl) $$ [Hsh Hpa Htk]
  · isplitr; · iexact Hrec
    isplitl [Hsh]; · iexact Hsh
    isplitl [Hpa]; · iexact Hpa
    iexact Htk
  iintro Hcc
  -- step 3 of group 2: the source share comes back, slot 4 is filled
  iapply (wait_send' m K c 2 3 (Orem ((payList c).drop 21)) W (p16_above0_drop c 21) (src := gs2 4) (dst := gs2 0) (Q := Kt)) $$ [Hcrs Hats HO]
  · isplitr; · iexact Hrec
    isplitr; · iexact Hlev
    isplitl [Hcrs]; · iexact Hcrs
    isplitl [Hats]; · iexact Hats
    iexact HO
  iintro ⟨Hsp, Hats, HO⟩
  ihave Hsp := (Entails.of_eq (p16_sendPay_3 m c 2)) $$ Hsp
  iapply (wait_recv' m K c 2 3 (Orem ((payList c).drop 21)) (insert (SemLoc.dma (sendS 2 3), ()) W) (p16_above2_drop21 c) (src := gs2 0) (dst := gs2 4) (Q := Kt)) $$ [Hcrr Hatr HO]
  · isplitr; · iexact Hrec
    isplitr; · iexact Hlev
    isplitl [Hcrr]; · iexact Hcrr
    isplitl [Hatr]; · iexact Hatr
    iexact HO
  iintro ⟨Hrp, Hatr, HO⟩
  ihave Hs24 := (Entails.of_eq (p16_recvPay_3 m c 2)) $$ Hrp
  rw [wp_ret]
  imodintro
  iapply HK
  isplitl [Hcc]; · iexact Hcc
  isplitl [Hats]; · iexact Hats
  isplitl [Hsp]; · iexact Hsp
  isplitl [HO]; · iexists _; iexact HO
  isplitl [Hatr]; · iexact Hatr
  iexact Hs24

/-! ## Part 22 -/

theorem part22 : Part22Spec m K := by
  intro c v2 Kt
  iintro ⟨#Hrec, #Hlev, Hcr, Hat, ⟨%W, HO⟩, Hs24, Hb16, Hpa, Htk, HK⟩
  simp only [k0_part22, semSignalWord, semWaitWord, Prog.lift, Prog.bind_op, Prog.bind_ret, Prog.pure_eq_ret, wp_deviceId]
  -- block 2 of group 2 has landed
  iapply (wait_copy' m K c 2 2 (Orem ((payList c).drop 21)) W (p16_above0_drop c 21) (src := ss2 0) (dst := cw12) (Q := Kt)) $$ [Hcr Hat HO]
  · isplitr; · iexact Hrec
    isplitr; · iexact Hlev
    isplitl [Hcr]; · iexact Hcr
    isplitl [Hat]; · iexact Hat
    iexact HO
  iintro ⟨Hpay, Hat, HO⟩
  ihave Hpd := (copyPay_split m c 2 2) $$ Hpay
  icases Hpd with ⟨Hpd, Hst⟩
  ihave Hst := (Entails.of_eq (p16_stageAny_par2 c 2 0 rfl)) $$ Hst
  ihave Hg := (Entails.of_eq (p16_slotHas_2 m c 4 fullShare)) $$ Hs24
  iapply (op_load_gs2 m c 4 fullShare _) $$ Hg
  iintro Hg
  iapply (op_load_b16 m c fullShare _) $$ Hb16
  iintro Hb16
  iapply (op_load_ss2_any m c 0) $$ Hst
  iintro %x Hst
  iapply (op_store_ss2 m c 0 (prod336 (sv2 m (xr c (mask 2 4))) (bv m c)) rfl) $$ Hst
  iintro Hst
  -- block 4 of group 2 goes to its rows of the result
  ihave Hsh := (p16_stageHas2_of m c 4 0 rfl (by decide)) $$ Hst
  iapply (op_copy2 m K c 4 0 3 rfl rfl) $$ [Hsh Hpa Htk]
  · isplitr; · iexact Hrec
    isplitl [Hsh]; · iexact Hsh
    isplitl [Hpa]; · iexact Hpa
    iexact Htk
  iintro Hcc
  rw [wp_ret]
  imodintro
  iapply HK
  isplitl [HO]; · iexists _; iexact HO
  isplitl [Hat]; · iexact Hat
  isplitl [Hpd]; · iexact Hpd
  isplitl [Hg]; · iapply (Entails.of_eq (p16_slotHas_2 m c 4 fullShare).symm); iexact Hg
  isplitl [Hb16]; · iexact Hb16
  iexact Hcc

/-- info: 'Cert.KernelIdeal.DM.part16' depends on axioms: [propext, Classical.choice, Quot.sound] -/
#guard_msgs in #print axioms part16
/-- info: 'Cert.KernelIdeal.DM.part17' depends on axioms: [propext, Classical.choice, Quot.sound] -/
#guard_msgs in #print axioms part17
/-- info: 'Cert.KernelIdeal.DM.part18' depends on axioms: [propext, Classical.choice, Quot.sound] -/
#guard_msgs in #print axioms part18
/-- info: 'Cert.KernelIdeal.DM.part19' depends on axioms: [propext, Classical.choice, Quot.sound] -/
#guard_msgs in #print axioms part19
/-- info: 'Cert.KernelIdeal.DM.part20' depends on axioms: [propext, Classical.choice, Quot.sound] -/
#guard_msgs in #print axioms part20
/-- info: 'Cert.KernelIdeal.DM.part21' depends on axioms: [propext, Classical.choice, Quot.sound] -/
#guard_msgs in #print axioms part21
/-- info: 'Cert.KernelIdeal.DM.part22' depends on axioms: [propext, Classical.choice, Quot.sound] -/
#guard_msgs in #print axioms part22

end Cert.KernelIdeal.DM

end
-- ==== Proof.Parts_23_30.lean ====
import proofs.«900891_g7700000000000892_dist_matmul_m_i_outrep_m1024_n1024_k512_v7x_i8_f32_1_alg».proof.Proof.PartSpecs
import proofs.«900891_g7700000000000892_dist_matmul_m_i_outrep_m1024_n1024_k512_v7x_i8_f32_1_alg».proof.Proof.OpsSend
import proofs.«900891_g7700000000000892_dist_matmul_m_i_outrep_m1024_n1024_k512_v7x_i8_f32_1_alg».proof.Proof.OpsWait
import proofs.«900891_g7700000000000892_dist_matmul_m_i_outrep_m1024_n1024_k512_v7x_i8_f32_1_alg».proof.Proof.OpsStore
import proofs.«900891_g7700000000000892_dist_matmul_m_i_outrep_m1024_n1024_k512_v7x_i8_f32_1_alg».proof.Proof.OpsCopy
import proofs.«900891_g7700000000000892_dist_matmul_m_i_outrep_m1024_n1024_k512_v7x_i8_f32_1_alg».proof.Proof.Launch

/-!
The runs of the body's parts 23 to 30: each part stepped operation by operation from the pieces of state its table
lists to the pieces it leaves. The waits hand over what their cells' duties carry: a send wait the share of the
source slot, a receive wait the filled target, a copy wait the product block in its rows of the result and the free
stage slot. A transfer of one of the last two steps takes one part of the filled slot 3; a product is stored from a
kept share of its slot and the narrowed right factor into the free stage slot and copied out from there.
-/

set_option maxRecDepth 16384

noncomputable section

namespace Cert.KernelIdeal.DM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ)

/-- A product block stored into its stage slot is that block sitting there. -/
theorem p23_stage_wrap0 (c : Dev nD) (j : Fin 8) (p : Fin 2) (hp : par j = p) (hj : j ≠ 7) :
    holdsPts c (ss0 p) fullShare (prod352 (sv0 m (xr c (mask 0 j))) (bv m c)) ⊢ stageHas0 m c j := by
  subst hp
  unfold stageHas0
  iintro H
  iexists _
  isplitr
  · ipureintro; unfold stageOK0; rw [if_neg hj]
  · iexact H

theorem p23_stage_wrap1 (c : Dev nD) (j : Fin 8) (p : Fin 2) (hp : par j = p) (hj : j ≠ 7) :
    holdsPts c (ss1 p) fullShare (prod336 (sv1 m (xr c (mask 1 j))) (bv m c)) ⊢ stageHas1 m c j := by
  subst hp
  unfold stageHas1
  iintro H
  iexists _
  isplitr
  · ipureintro; unfold stageOK1; rw [if_neg hj]
  · iexact H

theorem p23_stage_wrap2 (c : Dev nD) (j : Fin 8) (p : Fin 2) (hp : par j = p) (hj : j ≠ 7) :
    holdsPts c (ss2 p) fullShare (prod336 (sv2 m (xr c (mask 2 j))) (bv m c)) ⊢ stageHas2 m c j := by
  subst hp
  unfold stageHas2
  iintro H
  iexists _
  isplitr
  · ipureintro; unfold stageOK2; rw [if_neg hj]
  · iexact H

theorem part23 : Part23Spec m K := by
  intro c v2 v173 Kt
  simp only [k0_part23, semSignalWord, semWaitWord, Prog.lift, Prog.bind_op, Prog.bind_ret, Prog.pure_eq_ret, wp_deviceId]
  iintro H
  icases H with ⟨#Hrec, #Hlev, Hc1, H⟩
  icases H with ⟨Hat1, HO, Hc2, H⟩
  icases H with ⟨Hat2, Hd, Ht1, H⟩
  icases H with ⟨Ht2, HK⟩
  icases HO with ⟨%W, HO⟩
  have hab : Above 3 (Orem ((payList c).drop 21)) := by
    show Above 3 (Orem [owedStep c 0 6, owedStep c 0 7, owedStep c 1 6, owedStep c 1 7, owedStep c 2 6, owedStep c 2 7])
    refine above_Orem fun x hx => ?_
    simp only [List.mem_cons, List.mem_nil_iff, _root_.or_false] at hx
    rcases hx with rfl | rfl | rfl | rfl | rfl | rfl <;> exact above_owedStep c _ _ (by decide)
  iapply (wait_send' m K c 0 2 (Orem ((payList c).drop 21)) _ (above_mono hab (by decide)) (src := gs0 3) (dst := gs0 1) (Q := Kt)) $$ [Hc1 Hat1 HO]
  · isplitr; · iexact Hrec
    isplitr; · iexact Hlev
    isplitl [Hc1]; · iexact Hc1
    isplitl [Hat1]; · iexact Hat1
    iexact HO
  iintro ⟨Hs1, Hat1, HO⟩
  ihave Hs1 := (Entails.of_eq (show (sendPay m c 0 2 : sProp 𝕄) = slotHas m c 0 1 fullShare.left.left from rfl)) $$ Hs1
  iapply (wait_recv' m K c 0 2 (Orem ((payList c).drop 21)) _ hab (src := gs0 1) (dst := gs0 3) (Q := Kt)) $$ [Hc2 Hat2 HO]
  · isplitr; · iexact Hrec
    isplitr; · iexact Hlev
    isplitl [Hc2]; · iexact Hc2
    isplitl [Hat2]; · iexact Hat2
    iexact HO
  iintro ⟨Hs3, Hat2, HO⟩
  ihave Hs3 := (Entails.of_eq (show (recvPay m c 0 2 : sProp 𝕄) = slotHas m c 0 3 fullShare from rfl)) $$ Hs3
  ihave Hs3 := (slot3_cut m c 0) $$ Hs3
  icases Hs3 with ⟨Hs3t, Hs3b, Hs3r⟩
  ihave Hs3t := (Entails.of_eq (show (slotTop m c 0 3 fullShare.left : sProp 𝕄) = holdsPts c (ga0 3) (qs 6) (topA (sv0 m (xr c (mask 0 3)))) from rfl)) $$ Hs3t
  iapply (op_send_g0a m K c (dev22_eq c) (by decide +kernel) (by decide +kernel) (Orem ((payList c).drop 22)) _) $$ [Hs3t Hd HO Ht1 Ht2]
  · isplitr; · iexact Hrec
    isplitl [Hs3t]; · iexact Hs3t
    isplitl [Hd]; · iexact Hd
    isplitl [HO]; · iexact HO
    isplitl [Ht1]; · iexact Ht1
    iexact Ht2
  iintro ⟨Hcs, HO⟩
  rw [wp_ret]; imodintro
  iapply HK
  isplitl [Hat1]; · iexact Hat1
  isplitl [Hs1]; · iexact Hs1
  isplitl [Hat2]; · iexact Hat2
  isplitl [Hs3b]; · iexact Hs3b
  isplitl [Hs3r]; · iexact Hs3r
  isplitl [HO]; · iexists _; iexact HO
  iexact Hcs

theorem part24 : Part24Spec m K := by
  intro c v2 v201 Kt
  simp only [k0_part24, semSignalWord, semWaitWord, Prog.lift, Prog.bind_op, Prog.bind_ret, Prog.pure_eq_ret, wp_deviceId]
  iintro H
  icases H with ⟨#Hrec, #Hlev, Hs3b, H⟩
  icases H with ⟨Hd, Ht1, Ht2, H⟩
  icases H with ⟨HO, Hc1, Hat1, H⟩
  icases H with ⟨Hc2, Hat2, HK⟩
  icases HO with ⟨%W, HO⟩
  ihave Hs3b := (Entails.of_eq (show (slotBot m c 0 3 fullShare.left : sProp 𝕄) = holdsPts c (gb0 3) (qs 7) (botA (sv0 m (xr c (mask 0 3)))) from rfl)) $$ Hs3b
  iapply (op_send_g0b m K c (dev23_eq c) (by decide +kernel) (by decide +kernel) (Orem ((payList c).drop 23)) _) $$ [Hs3b Hd HO Ht1 Ht2]
  · isplitr; · iexact Hrec
    isplitl [Hs3b]; · iexact Hs3b
    isplitl [Hd]; · iexact Hd
    isplitl [HO]; · iexact HO
    isplitl [Ht1]; · iexact Ht1
    iexact Ht2
  iintro ⟨Hcs, HO⟩
  have hab : Above 3 (Orem ((payList c).drop 23)) := by
    show Above 3 (Orem [owedStep c 1 6, owedStep c 1 7, owedStep c 2 6, owedStep c 2 7])
    refine above_Orem fun x hx => ?_
    simp only [List.mem_cons, List.mem_nil_iff, _root_.or_false] at hx
    rcases hx with rfl | rfl | rfl | rfl <;> exact above_owedStep c _ _ (by decide)
  iapply (wait_send' m K c 1 2 (Orem ((payList c).drop 23)) _ (above_mono hab (by decide)) (src := gs1 3) (dst := gs1 1) (Q := Kt)) $$ [Hc1 Hat1 HO]
  · isplitr; · iexact Hrec
    isplitr; · iexact Hlev
    isplitl [Hc1]; · iexact Hc1
    isplitl [Hat1]; · iexact Hat1
    iexact HO
  iintro ⟨Hs1, Hat1, HO⟩
  ihave Hs1 := (Entails.of_eq (show (sendPay m c 1 2 : sProp 𝕄) = slotHas m c 1 1 fullShare.left.left from rfl)) $$ Hs1
  iapply (wait_recv' m K c 1 2 (Orem ((payList c).drop 23)) _ hab (src := gs1 1) (dst := gs1 3) (Q := Kt)) $$ [Hc2 Hat2 HO]
  · isplitr; · iexact Hrec
    isplitr; · iexact Hlev
    isplitl [Hc2]; · iexact Hc2
    isplitl [Hat2]; · iexact Hat2
    iexact HO
  iintro ⟨Hs3, Hat2, HO⟩
  ihave Hs3 := (Entails.of_eq (show (recvPay m c 1 2 : sProp 𝕄) = slotHas m c 1 3 fullShare from rfl)) $$ Hs3
  ihave Hs3 := (slot3_cut m c 1) $$ Hs3
  icases Hs3 with ⟨Hs3t, Hs3b, Hs3r⟩
  rw [wp_ret]; imodintro
  iapply HK
  isplitl [Hcs]; · iexact Hcs
  isplitl [Hat1]; · iexact Hat1
  isplitl [Hs1]; · iexact Hs1
  isplitl [HO]; · iexists _; iexact HO
  isplitl [Hat2]; · iexact Hat2
  isplitl [Hs3t]; · iexact Hs3t
  isplitl [Hs3b]; · iexact Hs3b
  iexact Hs3r

theorem part25 : Part25Spec m K := by
  intro c v2 v229 Kt
  simp only [k0_part25, semSignalWord, semWaitWord, Prog.lift, Prog.bind_op, Prog.bind_ret, Prog.pure_eq_ret, wp_deviceId]
  iintro H
  icases H with ⟨#Hrec, #Hlev, Hs3t, H⟩
  icases H with ⟨Hd6, Ht16, Ht26, H⟩
  icases H with ⟨HO, Hs3b, Hd7, H⟩
  icases H with ⟨Ht17, Ht27, Hc1, H⟩
  icases H with ⟨Hat1, HK⟩
  icases HO with ⟨%W, HO⟩
  ihave Hs3t := (Entails.of_eq (show (slotTop m c 1 3 fullShare.left : sProp 𝕄) = holdsPts c (ga1 3) (qs 6) (topB (sv1 m (xr c (mask 1 3)))) from rfl)) $$ Hs3t
  iapply (op_send_g1a m K c (dev24_eq c) (by decide +kernel) (by decide +kernel) (Orem ((payList c).drop 24)) _) $$ [Hs3t Hd6 HO Ht16 Ht26]
  · isplitr; · iexact Hrec
    isplitl [Hs3t]; · iexact Hs3t
    isplitl [Hd6]; · iexact Hd6
    isplitl [HO]; · iexact HO
    isplitl [Ht16]; · iexact Ht16
    iexact Ht26
  iintro ⟨Hcs6, HO⟩
  ihave Hs3b := (Entails.of_eq (show (slotBot m c 1 3 fullShare.left : sProp 𝕄) = holdsPts c (gb1 3) (qs 7) (botB (sv1 m (xr c (mask 1 3)))) from rfl)) $$ Hs3b
  iapply (op_send_g1b m K c (dev25_eq c) (by decide +kernel) (by decide +kernel) (Orem ((payList c).drop 25)) _) $$ [Hs3b Hd7 HO Ht17 Ht27]
  · isplitr; · iexact Hrec
    isplitl [Hs3b]; · iexact Hs3b
    isplitl [Hd7]; · iexact Hd7
    isplitl [HO]; · iexact HO
    isplitl [Ht17]; · iexact Ht17
    iexact Ht27
  iintro ⟨Hcs7, HO⟩
  have hab : Above 3 (Orem ((payList c).drop 25)) := by
    show Above 3 (Orem [owedStep c 2 6, owedStep c 2 7])
    refine above_Orem fun x hx => ?_
    simp only [List.mem_cons, List.mem_nil_iff, _root_.or_false] at hx
    rcases hx with rfl | rfl <;> exact above_owedStep c _ _ (by decide)
  iapply (wait_send' m K c 2 2 (Orem ((payList c).drop 25)) _ (above_mono hab (by decide)) (src := gs2 3) (dst := gs2 1) (Q := Kt)) $$ [Hc1 Hat1 HO]
  · isplitr; · iexact Hrec
    isplitr; · iexact Hlev
    isplitl [Hc1]; · iexact Hc1
    isplitl [Hat1]; · iexact Hat1
    iexact HO
  iintro ⟨Hs1, Hat1, HO⟩
  ihave Hs1 := (Entails.of_eq (show (sendPay m c 2 2 : sProp 𝕄) = slotHas m c 2 1 fullShare.left.left from rfl)) $$ Hs1
  rw [wp_ret]; imodintro
  iapply HK
  isplitl [Hcs6]; · iexact Hcs6
  isplitl [Hcs7]; · iexact Hcs7
  isplitl [HO]; · iexists _; iexact HO
  isplitl [Hat1]; · iexact Hat1
  iexact Hs1

theorem part26 : Part26Spec m K := by
  intro c v2 v567 Kt
  simp only [k0_part26, semSignalWord, semWaitWord, Prog.lift, Prog.bind_op, Prog.bind_ret, Prog.pure_eq_ret, wp_deviceId]
  iintro H
  icases H with ⟨#Hrec, #Hlev, Hc2, H⟩
  icases H with ⟨Hat2, HO, Hd, H⟩
  icases H with ⟨Ht1, Ht2, HK⟩
  icases HO with ⟨%W, HO⟩
  have hab : Above 3 (Orem ((payList c).drop 25)) := by
    show Above 3 (Orem [owedStep c 2 6, owedStep c 2 7])
    refine above_Orem fun x hx => ?_
    simp only [List.mem_cons, List.mem_nil_iff, _root_.or_false] at hx
    rcases hx with rfl | rfl <;> exact above_owedStep c _ _ (by decide)
  iapply (wait_recv' m K c 2 2 (Orem ((payList c).drop 25)) _ hab (src := gs2 1) (dst := gs2 3) (Q := Kt)) $$ [Hc2 Hat2 HO]
  · isplitr; · iexact Hrec
    isplitr; · iexact Hlev
    isplitl [Hc2]; · iexact Hc2
    isplitl [Hat2]; · iexact Hat2
    iexact HO
  iintro ⟨Hs3, Hat2, HO⟩
  ihave Hs3 := (Entails.of_eq (show (recvPay m c 2 2 : sProp 𝕄) = slotHas m c 2 3 fullShare from rfl)) $$ Hs3
  ihave Hs3 := (slot3_cut m c 2) $$ Hs3
  icases Hs3 with ⟨Hs3t, Hs3b, Hs3r⟩
  ihave Hs3t := (Entails.of_eq (show (slotTop m c 2 3 fullShare.left : sProp 𝕄) = holdsPts c (ga2 3) (qs 6) (topB (sv2 m (xr c (mask 2 3)))) from rfl)) $$ Hs3t
  iapply (op_send_g2a m K c (dev26_eq c) (by decide +kernel) (by decide +kernel) (Orem ((payList c).drop 26)) _) $$ [Hs3t Hd HO Ht1 Ht2]
  · isplitr; · iexact Hrec
    isplitl [Hs3t]; · iexact Hs3t
    isplitl [Hd]; · iexact Hd
    isplitl [HO]; · iexact HO
    isplitl [Ht1]; · iexact Ht1
    iexact Ht2
  iintro ⟨Hcs, HO⟩
  rw [wp_ret]; imodintro
  iapply HK
  isplitl [Hat2]; · iexact Hat2
  isplitl [Hs3b]; · iexact Hs3b
  isplitl [Hs3r]; · iexact Hs3r
  isplitl [HO]; · iexists _; iexact HO
  iexact Hcs

theorem part27 : Part27Spec m K := by
  intro c v2 Kt
  simp only [k0_part27, semSignalWord, semWaitWord, Prog.lift, Prog.bind_op, Prog.bind_ret, Prog.pure_eq_ret, wp_deviceId]
  iintro H
  icases H with ⟨#Hrec, #Hlev, Hs3b, H⟩
  icases H with ⟨Hd, Ht1, Ht2, H⟩
  icases H with ⟨HO, Hcc, Hatc, H⟩
  icases H with ⟨Hg, Hb, Hp, H⟩
  icases H with ⟨Htc, HK⟩
  icases HO with ⟨%W, HO⟩
  ihave Hs3b := (Entails.of_eq (show (slotBot m c 2 3 fullShare.left : sProp 𝕄) = holdsPts c (gb2 3) (qs 7) (botB (sv2 m (xr c (mask 2 3)))) from rfl)) $$ Hs3b
  iapply (op_send_g2b m K c (dev27_eq c) (by decide +kernel) (by decide +kernel) (Orem ((payList c).drop 27)) _) $$ [Hs3b Hd HO Ht1 Ht2]
  · isplitr; · iexact Hrec
    isplitl [Hs3b]; · iexact Hs3b
    isplitl [Hd]; · iexact Hd
    isplitl [HO]; · iexact HO
    isplitl [Ht1]; · iexact Ht1
    iexact Ht2
  iintro ⟨Hcs, HO⟩
  have hab : Above 0 (Orem ((payList c).drop 27)) := above_zero 0
  iapply (wait_copy' m K c 0 1 (Orem ((payList c).drop 27)) _ hab (src := ss0 1) (dst := cw0) (Q := Kt)) $$ [Hcc Hatc HO]
  · isplitr; · iexact Hrec
    isplitr; · iexact Hlev
    isplitl [Hcc]; · iexact Hcc
    isplitl [Hatc]; · iexact Hatc
    iexact HO
  iintro ⟨Hcp, Hatc, HO⟩
  ihave Hcp := (copyPay_split m c 0 1) $$ Hcp
  icases Hcp with ⟨Hdone, Hs⟩
  ihave Hs := (Entails.of_eq (show (stageAny c 0 (par 1) : sProp 𝕄) = anyPts c (ss0 1) from rfl)) $$ Hs
  ihave Hg := (Entails.of_eq (show (slotHas m c 0 3 fullShare.right : sProp 𝕄) = holdsPts c (gs0 3) fullShare.right (sv0 m (xr c (mask 0 3))) from rfl)) $$ Hg
  iapply (op_load_gs0 m c 3 fullShare.right _) $$ Hg; iintro Hg
  iapply (op_load_b16 m c fullShare _) $$ Hb; iintro Hb
  iapply (op_load_ss0_any m c 1) $$ Hs; iintro %old Hs
  iapply (op_store_ss0 m c 1 (prod352 (sv0 m (xr c (mask 0 3))) (bv m c)) rfl) $$ Hs; iintro Hs
  ihave Hs := (p23_stage_wrap0 m c 3 1 rfl (by decide)) $$ Hs
  iapply (op_copy0 m K c 3 1 2 (by decide) (by decide)) $$ [Hs Hp Htc]
  · isplitr; · iexact Hrec
    isplitl [Hs]; · iexact Hs
    isplitl [Hp]; · iexact Hp
    iexact Htc
  iintro Hcc3
  ihave Hg := (Entails.of_eq (show (holdsPts c (gs0 3) fullShare.right (sv0 m (xr c (mask 0 3))) : sProp 𝕄) = slotHas m c 0 3 fullShare.right from rfl)) $$ Hg
  rw [wp_ret]; imodintro
  iapply HK
  isplitl [Hcs]; · iexact Hcs
  isplitl [HO]; · iexists _; iexact HO
  isplitl [Hatc]; · iexact Hatc
  isplitl [Hdone]; · iexact Hdone
  isplitl [Hg]; · iexact Hg
  isplitl [Hb]; · iexact Hb
  iexact Hcc3

theorem part28 : Part28Spec m K := by
  intro c v2 Kt
  simp only [k0_part28, semSignalWord, semWaitWord, Prog.lift, Prog.bind_op, Prog.bind_ret, Prog.pure_eq_ret, wp_deviceId]
  iintro H
  icases H with ⟨#Hrec, #Hlev, Hcc1, H⟩
  icases H with ⟨Hatc1, HO, Hg1, H⟩
  icases H with ⟨Hb, Hp, Htc, H⟩
  icases H with ⟨Hcc2, Hatc2, Hg2, HK⟩
  icases HO with ⟨%W, HO⟩
  have hab : Above 0 (Orem ((payList c).drop 27)) := above_zero 0
  iapply (wait_copy' m K c 1 1 (Orem ((payList c).drop 27)) _ hab (src := ss1 1) (dst := cw12) (Q := Kt)) $$ [Hcc1 Hatc1 HO]
  · isplitr; · iexact Hrec
    isplitr; · iexact Hlev
    isplitl [Hcc1]; · iexact Hcc1
    isplitl [Hatc1]; · iexact Hatc1
    iexact HO
  iintro ⟨Hcp, Hatc1, HO⟩
  ihave Hcp := (copyPay_split m c 1 1) $$ Hcp
  icases Hcp with ⟨Hdone1, Hs⟩
  ihave Hs := (Entails.of_eq (show (stageAny c 1 (par 1) : sProp 𝕄) = anyPts c (ss1 1) from rfl)) $$ Hs
  ihave Hg1 := (Entails.of_eq (show (slotHas m c 1 3 fullShare.right : sProp 𝕄) = holdsPts c (gs1 3) fullShare.right (sv1 m (xr c (mask 1 3))) from rfl)) $$ Hg1
  iapply (op_load_gs1 m c 3 fullShare.right _) $$ Hg1; iintro Hg1
  iapply (op_load_b16 m c fullShare _) $$ Hb; iintro Hb
  iapply (op_load_ss1_any m c 1) $$ Hs; iintro %old Hs
  iapply (op_store_ss1 m c 1 (prod336 (sv1 m (xr c (mask 1 3))) (bv m c)) rfl) $$ Hs; iintro Hs
  ihave Hs := (p23_stage_wrap1 m c 3 1 rfl (by decide)) $$ Hs
  iapply (op_copy1 m K c 3 1 7 (by decide) (by decide)) $$ [Hs Hp Htc]
  · isplitr; · iexact Hrec
    isplitl [Hs]; · iexact Hs
    isplitl [Hp]; · iexact Hp
    iexact Htc
  iintro Hcc3
  iapply (wait_copy' m K c 2 1 (Orem ((payList c).drop 27)) _ hab (src := ss2 1) (dst := cw12) (Q := Kt)) $$ [Hcc2 Hatc2 HO]
  · isplitr; · iexact Hrec
    isplitr; · iexact Hlev
    isplitl [Hcc2]; · iexact Hcc2
    isplitl [Hatc2]; · iexact Hatc2
    iexact HO
  iintro ⟨Hcp, Hatc2, HO⟩
  ihave Hcp := (copyPay_split m c 2 1) $$ Hcp
  icases Hcp with ⟨Hdone2, Hs2⟩
  ihave Hg2 := (Entails.of_eq (show (slotHas m c 2 3 fullShare.right : sProp 𝕄) = holdsPts c (gs2 3) fullShare.right (sv2 m (xr c (mask 2 3))) from rfl)) $$ Hg2
  iapply (op_load_gs2 m c 3 fullShare.right _) $$ Hg2; iintro Hg2
  iapply (op_load_b16 m c fullShare _) $$ Hb; iintro Hb
  ihave Hg1 := (Entails.of_eq (show (holdsPts c (gs1 3) fullShare.right (sv1 m (xr c (mask 1 3))) : sProp 𝕄) = slotHas m c 1 3 fullShare.right from rfl)) $$ Hg1
  ihave Hg2 := (Entails.of_eq (show (holdsPts c (gs2 3) fullShare.right (sv2 m (xr c (mask 2 3))) : sProp 𝕄) = slotHas m c 2 3 fullShare.right from rfl)) $$ Hg2
  rw [wp_ret]; imodintro
  iapply HK $$ %_ %⟨rfl, rfl⟩
  isplitl [Hatc1]; · iexact Hatc1
  isplitl [Hdone1]; · iexact Hdone1
  isplitl [Hg1]; · iexact Hg1
  isplitl [Hb]; · iexact Hb
  isplitl [Hcc3]; · iexact Hcc3
  isplitl [HO]; · iexists _; iexact HO
  isplitl [Hatc2]; · iexact Hatc2
  isplitl [Hdone2]; · iexact Hdone2
  isplitl [Hs2]; · iexact Hs2
  iexact Hg2

theorem part29 : Part29Spec m K := by
  intro c v2 v182 Kt
  simp only [k0_part29, semSignalWord, semWaitWord, Prog.lift, Prog.bind_op, Prog.bind_ret, Prog.pure_eq_ret, wp_deviceId]
  iintro H
  icases H with ⟨#Hrec, #Hlev, Hs, H⟩
  icases H with ⟨Hp, Htc, Hc1, H⟩
  icases H with ⟨Hat1, HO, HK⟩
  icases HO with ⟨%W, HO⟩
  ihave Hs := (Entails.of_eq (show (stageAny c 2 1 : sProp 𝕄) = anyPts c (ss2 1) from rfl)) $$ Hs
  iapply (op_load_ss2_any m c 1) $$ Hs; iintro %old Hs
  iapply (op_store_ss2 m c 1 (prod336 (sv2 m (xr c (mask 2 3))) (bv m c)) rfl) $$ Hs; iintro Hs
  ihave Hs := (p23_stage_wrap2 m c 3 1 rfl (by decide)) $$ Hs
  iapply (op_copy2 m K c 3 1 5 (by decide) (by decide)) $$ [Hs Hp Htc]
  · isplitr; · iexact Hrec
    isplitl [Hs]; · iexact Hs
    isplitl [Hp]; · iexact Hp
    iexact Htc
  iintro Hcc3
  have hab : Above 0 (Orem ((payList c).drop 27)) := above_zero 0
  iapply (wait_send' m K c 0 4 (Orem ((payList c).drop 27)) _ hab (src := gs0 5) (dst := gs0 1) (Q := Kt)) $$ [Hc1 Hat1 HO]
  · isplitr; · iexact Hrec
    isplitr; · iexact Hlev
    isplitl [Hc1]; · iexact Hc1
    isplitl [Hat1]; · iexact Hat1
    iexact HO
  iintro ⟨Hs1, Hat1, HO⟩
  ihave Hs1 := (Entails.of_eq (show (sendPay m c 0 4 : sProp 𝕄) = slotHas m c 0 1 fullShare.left.right from rfl)) $$ Hs1
  rw [wp_ret]; imodintro
  iapply HK
  isplitl [Hcc3]; · iexact Hcc3
  isplitl [HO]; · iexists _; iexact HO
  isplitl [Hat1]; · iexact Hat1
  iexact Hs1

theorem part30 : Part30Spec m K := by
  intro c v2 Kt
  simp only [k0_part30, semSignalWord, semWaitWord, Prog.lift, Prog.bind_op, Prog.bind_ret, Prog.pure_eq_ret, wp_deviceId]
  iintro H
  icases H with ⟨#Hrec, #Hlev, Hc2, H⟩
  icases H with ⟨Hat2, HO, Hcc, H⟩
  icases H with ⟨Hatc, Hb, Hp, H⟩
  icases H with ⟨Htc, HK⟩
  icases HO with ⟨%W, HO⟩
  have hab : Above 3 (Orem ((payList c).drop 27)) := above_zero 3
  iapply (wait_recv' m K c 0 4 (Orem ((payList c).drop 27)) _ hab (src := gs0 1) (dst := gs0 5) (Q := Kt)) $$ [Hc2 Hat2 HO]
  · isplitr; · iexact Hrec
    isplitr; · iexact Hlev
    isplitl [Hc2]; · iexact Hc2
    isplitl [Hat2]; · iexact Hat2
    iexact HO
  iintro ⟨Hg, Hat2, HO⟩
  ihave Hg := (Entails.of_eq (show (recvPay m c 0 4 : sProp 𝕄) = holdsPts c (gs0 5) fullShare (sv0 m (xr c (mask 0 5))) from rfl)) $$ Hg
  iapply (wait_copy' m K c 0 3 (Orem ((payList c).drop 27)) _ (above_mono hab (by decide)) (src := ss0 1) (dst := cw0) (Q := Kt)) $$ [Hcc Hatc HO]
  · isplitr; · iexact Hrec
    isplitr; · iexact Hlev
    isplitl [Hcc]; · iexact Hcc
    isplitl [Hatc]; · iexact Hatc
    iexact HO
  iintro ⟨Hcp, Hatc, HO⟩
  ihave Hcp := (copyPay_split m c 0 3) $$ Hcp
  icases Hcp with ⟨Hdone, Hs⟩
  ihave Hs := (Entails.of_eq (show (stageAny c 0 (par 3) : sProp 𝕄) = anyPts c (ss0 1) from rfl)) $$ Hs
  iapply (op_load_gs0 m c 5 fullShare _) $$ Hg; iintro Hg
  iapply (op_load_b16 m c fullShare _) $$ Hb; iintro Hb
  iapply (op_load_ss0_any m c 1) $$ Hs; iintro %old Hs
  iapply (op_store_ss0 m c 1 (prod352 (sv0 m (xr c (mask 0 5))) (bv m c)) rfl) $$ Hs; iintro Hs
  ihave Hs := (p23_stage_wrap0 m c 5 1 rfl (by decide)) $$ Hs
  iapply (op_copy0 m K c 5 1 5 (by decide) (by decide)) $$ [Hs Hp Htc]
  · isplitr; · iexact Hrec
    isplitl [Hs]; · iexact Hs
    isplitl [Hp]; · iexact Hp
    iexact Htc
  iintro Hcc5
  ihave Hg := (Entails.of_eq (show (holdsPts c (gs0 5) fullShare (sv0 m (xr c (mask 0 5))) : sProp 𝕄) = slotHas m c 0 5 fullShare from rfl)) $$ Hg
  rw [wp_ret]; imodintro
  iapply HK
  isplitl [Hat2]; · iexact Hat2
  isplitl [Hg]; · iexact Hg
  isplitl [HO]; · iexists _; iexact HO
  isplitl [Hatc]; · iexact Hatc
  isplitl [Hdone]; · iexact Hdone
  isplitl [Hb]; · iexact Hb
  iexact Hcc5

/-- info: 'Cert.KernelIdeal.DM.part23' depends on axioms: [propext, Classical.choice, Quot.sound] -/
#guard_msgs in #print axioms part23

/-- info: 'Cert.KernelIdeal.DM.part24' depends on axioms: [propext, Classical.choice, Quot.sound] -/
#guard_msgs in #print axioms part24

/-- info: 'Cert.KernelIdeal.DM.part25' depends on axioms: [propext, Classical.choice, Quot.sound] -/
#guard_msgs in #print axioms part25

/-- info: 'Cert.KernelIdeal.DM.part26' depends on axioms: [propext, Classical.choice, Quot.sound] -/
#guard_msgs in #print axioms part26

/-- info: 'Cert.KernelIdeal.DM.part27' depends on axioms: [propext, Classical.choice, Quot.sound] -/
#guard_msgs in #print axioms part27

/-- info: 'Cert.KernelIdeal.DM.part28' depends on axioms: [propext, Classical.choice, Quot.sound] -/
#guard_msgs in #print axioms part28

/-- info: 'Cert.KernelIdeal.DM.part29' depends on axioms: [propext, Classical.choice, Quot.sound] -/
#guard_msgs in #print axioms part29

/-- info: 'Cert.KernelIdeal.DM.part30' depends on axioms: [propext, Classical.choice, Quot.sound] -/
#guard_msgs in #print axioms part30

end Cert.KernelIdeal.DM

end
-- ==== Proof.Parts_31_37.lean ====
import proofs.«900891_g7700000000000892_dist_matmul_m_i_outrep_m1024_n1024_k512_v7x_i8_f32_1_alg».proof.Proof.PartSpecs
import proofs.«900891_g7700000000000892_dist_matmul_m_i_outrep_m1024_n1024_k512_v7x_i8_f32_1_alg».proof.Proof.OpsSend
import proofs.«900891_g7700000000000892_dist_matmul_m_i_outrep_m1024_n1024_k512_v7x_i8_f32_1_alg».proof.Proof.OpsWait
import proofs.«900891_g7700000000000892_dist_matmul_m_i_outrep_m1024_n1024_k512_v7x_i8_f32_1_alg».proof.Proof.OpsStore
import proofs.«900891_g7700000000000892_dist_matmul_m_i_outrep_m1024_n1024_k512_v7x_i8_f32_1_alg».proof.Proof.OpsCopy
import proofs.«900891_g7700000000000892_dist_matmul_m_i_outrep_m1024_n1024_k512_v7x_i8_f32_1_alg».proof.Proof.Launch

/-!
Seven parts of a device's body late in the exchange, when nothing is owed any more: the waits on the transfers of
steps 4 and 5 of the three row groups, the product blocks 5 and 6 of each group multiplied into their stage slots, and
the copies of those blocks into the result. A send wait gives back the share of the source slot its transfer read; a
receive wait gives the target slot filled with the partner's rows; a copy wait gives the block's rows of the result and
frees the stage slot for the next product.
-/

set_option maxRecDepth 16384

noncomputable section

namespace Cert.KernelIdeal.DM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ)

/-- Once all twenty-seven payments are made nothing is owed, so every wait is allowed. -/
theorem above_paid (c : Dev nD) (n : ℕ) : Above n (Orem ((payList c).drop 27)) := above_zero n

/-- A product block other than the last, stored in its stage slot, is that block of its group. -/
theorem stage_has0 (c : Dev nD) (j : Fin 8) (p : Fin 2) (hp : par j = p) (hj : j ≠ 7) :
    holdsPts c (ss0 p) fullShare (prod352 (sv0 m (xr c (mask 0 j))) (bv m c)) ⊢ stageHas m c 0 j := by
  subst hp
  iintro H
  iapply (Entails.of_eq (show stageHas0 m c j = stageHas m c 0 j from rfl))
  unfold stageHas0; iexists _; isplitr
  · ipureintro; unfold stageOK0; rw [if_neg hj]
  · iexact H
theorem stage_has1 (c : Dev nD) (j : Fin 8) (p : Fin 2) (hp : par j = p) (hj : j ≠ 7) :
    holdsPts c (ss1 p) fullShare (prod336 (sv1 m (xr c (mask 1 j))) (bv m c)) ⊢ stageHas m c 1 j := by
  subst hp
  iintro H
  iapply (Entails.of_eq (show stageHas1 m c j = stageHas m c 1 j from rfl))
  unfold stageHas1; iexists _; isplitr
  · ipureintro; unfold stageOK1; rw [if_neg hj]
  · iexact H
theorem stage_has2 (c : Dev nD) (j : Fin 8) (p : Fin 2) (hp : par j = p) (hj : j ≠ 7) :
    holdsPts c (ss2 p) fullShare (prod336 (sv2 m (xr c (mask 2 j))) (bv m c)) ⊢ stageHas m c 2 j := by
  subst hp
  iintro H
  iapply (Entails.of_eq (show stageHas2 m c j = stageHas m c 2 j from rfl))
  unfold stageHas2; iexists _; isplitr
  · ipureintro; unfold stageOK2; rw [if_neg hj]
  · iexact H

/-- Part 31: the waits on the send, the receive and the copy cell before product block 5 of group 1, and that block. -/
theorem part31 : Part31Spec m K := by
  intro c v2 v210 Kt
  simp only [k0_part31, semSignalWord, semWaitWord, Prog.lift, Prog.bind_op, Prog.bind_ret, Prog.pure_eq_ret, wp_deviceId]
  iintro ⟨#Hrec, #Hlev, Hcs, Has, ⟨%W, HO⟩, Hcr, Har, Hcc, Hac, Hb, HK⟩
  iapply (wait_send' m K c 1 4 (Orem ((payList c).drop 27)) _ (above_paid c _)) $$ [Hcs Has HO]
  · isplitr; · iexact Hrec
    isplitr; · iexact Hlev
    isplitl [Hcs]; · iexact Hcs
    isplitl [Has]; · iexact Has
    iexact HO
  iintro ⟨Hps, Has, HO⟩
  iapply (wait_recv' m K c 1 4 (Orem ((payList c).drop 27)) _ (above_paid c _)) $$ [Hcr Har HO]
  · isplitr; · iexact Hrec
    isplitr; · iexact Hlev
    isplitl [Hcr]; · iexact Hcr
    isplitl [Har]; · iexact Har
    iexact HO
  iintro ⟨Hpr, Har, HO⟩
  iapply (wait_copy' m K c 1 3 (Orem ((payList c).drop 27)) _ (above_paid c _)) $$ [Hcc Hac HO]
  · isplitr; · iexact Hrec
    isplitr; · iexact Hlev
    isplitl [Hcc]; · iexact Hcc
    isplitl [Hac]; · iexact Hac
    iexact HO
  iintro ⟨Hpc, Hac, HO⟩
  ihave Hpc := (copyPay_split m c 1 3) $$ Hpc
  icases Hpc with ⟨Hdone, Hst⟩
  ihave Hps := (Entails.of_eq (show sendPay m c 1 4 = slotHas m c 1 1 fullShare.left.right from rfl)) $$ Hps
  ihave Hpr := (Entails.of_eq (show recvPay m c 1 4 = holdsPts c (gs1 5) fullShare (sv1 m (xr c (mask 1 5))) from rfl)) $$ Hpr
  ihave Hst := (Entails.of_eq (show stageAny (F := F) c 1 (par 3) = anyPts c (ss1 1) from rfl)) $$ Hst
  iapply (op_load_gs1 m c 5 fullShare _) $$ Hpr; iintro Hpr
  iapply (op_load_b16 m c fullShare _) $$ Hb; iintro Hb
  iapply (op_load_ss1_any m c 1) $$ Hst; iintro %x Hst
  iapply (op_store_ss1 m c 1 (prod336 (sv1 m (xr c (mask 1 5))) (bv m c)) rfl) $$ Hst; iintro Hst
  ihave Hpr := (Entails.of_eq (show holdsPts c (gs1 5) fullShare (sv1 m (xr c (mask 1 5))) = slotHas m c 1 5 fullShare from rfl)) $$ Hpr
  rw [wp_ret]; imodintro
  iapply HK
  isplitl [Has]; · iexact Has
  isplitl [Hps]; · iexact Hps
  isplitl [Har]; · iexact Har
  isplitl [Hpr]; · iexact Hpr
  isplitl [HO]; · iexists _; iexact HO
  isplitl [Hac]; · iexact Hac
  isplitl [Hdone]; · iexact Hdone
  isplitl [Hb]; · iexact Hb
  iapply (stage_has1 m c 5 1 rfl (by decide)); iexact Hst

/-- Part 32: product block 5 of group 1 copied out, and the waits on the transfer of step 4 of group 2. -/
theorem part32 : Part32Spec m K := by
  intro c v238 v708 c352_i32_1022 Kt
  simp only [k0_part32, semSignalWord, semWaitWord, Prog.lift, Prog.bind_op, Prog.bind_ret, Prog.pure_eq_ret, wp_deviceId]
  iintro ⟨#Hrec, #Hlev, Hsh, Hpa, Htk, Hcs, Has, ⟨%W, HO⟩, Hcr, Har, HK⟩
  ihave Hsh := (Entails.of_eq (show stageHas m c 1 5 = stageHas1 m c 5 from rfl)) $$ Hsh
  iapply (op_copy1 m K c 5 1 2 rfl rfl) $$ [Hsh Hpa Htk]
  · isplitr; · iexact Hrec
    isplitl [Hsh]; · iexact Hsh
    isplitl [Hpa]; · iexact Hpa
    iexact Htk
  iintro Hcc
  iapply (wait_send' m K c 2 4 (Orem ((payList c).drop 27)) _ (above_paid c _)) $$ [Hcs Has HO]
  · isplitr; · iexact Hrec
    isplitr; · iexact Hlev
    isplitl [Hcs]; · iexact Hcs
    isplitl [Has]; · iexact Has
    iexact HO
  iintro ⟨Hps, Has, HO⟩
  iapply (wait_recv' m K c 2 4 (Orem ((payList c).drop 27)) _ (above_paid c _)) $$ [Hcr Har HO]
  · isplitr; · iexact Hrec
    isplitr; · iexact Hlev
    isplitl [Hcr]; · iexact Hcr
    isplitl [Har]; · iexact Har
    iexact HO
  iintro ⟨Hpr, Har, HO⟩
  ihave Hps := (Entails.of_eq (show sendPay m c 2 4 = slotHas m c 2 1 fullShare.left.right from rfl)) $$ Hps
  ihave Hpr := (Entails.of_eq (show recvPay m c 2 4 = slotHas m c 2 5 fullShare from rfl)) $$ Hpr
  rw [wp_ret]; imodintro
  iapply HK
  isplitl [Hcc]; · iexact Hcc
  isplitl [Has]; · iexact Has
  isplitl [Hps]; · iexact Hps
  isplitl [HO]; · iexists _; iexact HO
  isplitl [Har]; · iexact Har
  iexact Hpr

/-- Part 33: the wait on the copy cell before product block 5 of group 2, that block stored and copied out, and the
    wait on the send cell of step 5 of group 0. -/
theorem part33 : Part33Spec m K := by
  intro c v2 v302 Kt
  simp only [k0_part33, semSignalWord, semWaitWord, Prog.lift, Prog.bind_op, Prog.bind_ret, Prog.pure_eq_ret, wp_deviceId]
  iintro ⟨#Hrec, #Hlev, Hcc, Hac, ⟨%W, HO⟩, Hsl, Hb, Hpa, Htk, Hcs, Has, HK⟩
  iapply (wait_copy' m K c 2 3 (Orem ((payList c).drop 27)) _ (above_paid c _)) $$ [Hcc Hac HO]
  · isplitr; · iexact Hrec
    isplitr; · iexact Hlev
    isplitl [Hcc]; · iexact Hcc
    isplitl [Hac]; · iexact Hac
    iexact HO
  iintro ⟨Hpc, Hac, HO⟩
  ihave Hpc := (copyPay_split m c 2 3) $$ Hpc
  icases Hpc with ⟨Hdone, Hst⟩
  ihave Hst := (Entails.of_eq (show stageAny (F := F) c 2 (par 3) = anyPts c (ss2 1) from rfl)) $$ Hst
  ihave Hsl := (Entails.of_eq (show slotHas m c 2 5 fullShare = holdsPts c (gs2 5) fullShare (sv2 m (xr c (mask 2 5))) from rfl)) $$ Hsl
  iapply (op_load_gs2 m c 5 fullShare _) $$ Hsl; iintro Hsl
  iapply (op_load_b16 m c fullShare _) $$ Hb; iintro Hb
  iapply (op_load_ss2_any m c 1) $$ Hst; iintro %x Hst
  iapply (op_store_ss2 m c 1 (prod336 (sv2 m (xr c (mask 2 5))) (bv m c)) rfl) $$ Hst; iintro Hst
  ihave Hsl := (Entails.of_eq (show holdsPts c (gs2 5) fullShare (sv2 m (xr c (mask 2 5))) = slotHas m c 2 5 fullShare from rfl)) $$ Hsl
  ihave Hst := (stage_has2 m c 5 1 rfl (by decide)) $$ Hst
  ihave Hst := (Entails.of_eq (show stageHas m c 2 5 = stageHas2 m c 5 from rfl)) $$ Hst
  iapply (op_copy2 m K c 5 1 7 rfl rfl) $$ [Hst Hpa Htk]
  · isplitr; · iexact Hrec
    isplitl [Hst]; · iexact Hst
    isplitl [Hpa]; · iexact Hpa
    iexact Htk
  iintro Hcn
  iapply (wait_send' m K c 0 5 (Orem ((payList c).drop 27)) _ (above_paid c _)) $$ [Hcs Has HO]
  · isplitr; · iexact Hrec
    isplitr; · iexact Hlev
    isplitl [Hcs]; · iexact Hcs
    isplitl [Has]; · iexact Has
    iexact HO
  iintro ⟨Hps, Has, HO⟩
  ihave Hps := (Entails.of_eq (show sendPay m c 0 5 = slotHas m c 0 2 fullShare.left from rfl)) $$ Hps
  rw [wp_ret]; imodintro
  iapply HK
  isplitl [Hac]; · iexact Hac
  isplitl [Hdone]; · iexact Hdone
  isplitl [Hsl]; · iexact Hsl
  isplitl [Hb]; · iexact Hb
  isplitl [Hcn]; · iexact Hcn
  isplitl [HO]; · iexists _; iexact HO
  isplitl [Has]; · iexact Has
  iexact Hps

/-- Part 34: the waits on the receive cell of step 5 of group 0 and on the copy cell before product block 6 of group 0,
    and that block stored and copied out. -/
theorem part34 : Part34Spec m K := by
  intro c v2 Kt
  simp only [k0_part34, semSignalWord, semWaitWord, Prog.lift, Prog.bind_op, Prog.bind_ret, Prog.pure_eq_ret, wp_deviceId]
  iintro ⟨#Hrec, #Hlev, Hcr, Har, ⟨%W, HO⟩, Hcc, Hac, Hb, Hpa, Htk, HK⟩
  iapply (wait_recv' m K c 0 5 (Orem ((payList c).drop 27)) _ (above_paid c _)) $$ [Hcr Har HO]
  · isplitr; · iexact Hrec
    isplitr; · iexact Hlev
    isplitl [Hcr]; · iexact Hcr
    isplitl [Har]; · iexact Har
    iexact HO
  iintro ⟨Hpr, Har, HO⟩
  iapply (wait_copy' m K c 0 4 (Orem ((payList c).drop 27)) _ (above_paid c _)) $$ [Hcc Hac HO]
  · isplitr; · iexact Hrec
    isplitr; · iexact Hlev
    isplitl [Hcc]; · iexact Hcc
    isplitl [Hac]; · iexact Hac
    iexact HO
  iintro ⟨Hpc, Hac, HO⟩
  ihave Hpc := (copyPay_split m c 0 4) $$ Hpc
  icases Hpc with ⟨Hdone, Hst⟩
  ihave Hst := (Entails.of_eq (show stageAny (F := F) c 0 (par 4) = anyPts c (ss0 0) from rfl)) $$ Hst
  ihave Hpr := (Entails.of_eq (show recvPay m c 0 5 = holdsPts c (gs0 6) fullShare (sv0 m (xr c (mask 0 6))) from rfl)) $$ Hpr
  iapply (op_load_gs0 m c 6 fullShare _) $$ Hpr; iintro Hpr
  iapply (op_load_b16 m c fullShare _) $$ Hb; iintro Hb
  iapply (op_load_ss0_any m c 0) $$ Hst; iintro %x Hst
  iapply (op_store_ss0 m c 0 (prod352 (sv0 m (xr c (mask 0 6))) (bv m c)) rfl) $$ Hst; iintro Hst
  ihave Hpr := (Entails.of_eq (show holdsPts c (gs0 6) fullShare (sv0 m (xr c (mask 0 6))) = slotHas m c 0 6 fullShare from rfl)) $$ Hpr
  ihave Hst := (stage_has0 m c 6 0 rfl (by decide)) $$ Hst
  ihave Hst := (Entails.of_eq (show stageHas m c 0 6 = stageHas0 m c 6 from rfl)) $$ Hst
  iapply (op_copy0 m K c 6 0 7 rfl rfl) $$ [Hst Hpa Htk]
  · isplitr; · iexact Hrec
    isplitl [Hst]; · iexact Hst
    isplitl [Hpa]; · iexact Hpa
    iexact Htk
  iintro Hcn
  rw [wp_ret]; imodintro
  iapply HK
  isplitl [Har]; · iexact Har
  isplitl [Hpr]; · iexact Hpr
  isplitl [HO]; · iexists _; iexact HO
  isplitl [Hac]; · iexact Hac
  isplitl [Hdone]; · iexact Hdone
  isplitl [Hb]; · iexact Hb
  iexact Hcn

/-- Part 35: the waits on the transfer of step 5 of group 1 and on the copy cell before product block 6 of group 1, and
    that block multiplied. -/
theorem part35 : Part35Spec m K := by
  intro c v321 Kt
  simp only [k0_part35, semSignalWord, semWaitWord, Prog.lift, Prog.bind_op, Prog.bind_ret, Prog.pure_eq_ret, wp_deviceId]
  iintro ⟨#Hrec, #Hlev, Hcs, Has, ⟨%W, HO⟩, Hcr, Har, Hcc, Hac, Hb, HK⟩
  iapply (wait_send' m K c 1 5 (Orem ((payList c).drop 27)) _ (above_paid c _)) $$ [Hcs Has HO]
  · isplitr; · iexact Hrec
    isplitr; · iexact Hlev
    isplitl [Hcs]; · iexact Hcs
    isplitl [Has]; · iexact Has
    iexact HO
  iintro ⟨Hps, Has, HO⟩
  iapply (wait_recv' m K c 1 5 (Orem ((payList c).drop 27)) _ (above_paid c _)) $$ [Hcr Har HO]
  · isplitr; · iexact Hrec
    isplitr; · iexact Hlev
    isplitl [Hcr]; · iexact Hcr
    isplitl [Har]; · iexact Har
    iexact HO
  iintro ⟨Hpr, Har, HO⟩
  iapply (wait_copy' m K c 1 4 (Orem ((payList c).drop 27)) _ (above_paid c _)) $$ [Hcc Hac HO]
  · isplitr; · iexact Hrec
    isplitr; · iexact Hlev
    isplitl [Hcc]; · iexact Hcc
    isplitl [Hac]; · iexact Hac
    iexact HO
  iintro ⟨Hpc, Hac, HO⟩
  ihave Hpc := (copyPay_split m c 1 4) $$ Hpc
  icases Hpc with ⟨Hdone, Hst⟩
  ihave Hst := (Entails.of_eq (show stageAny (F := F) c 1 (par 4) = stageAny c 1 0 from rfl)) $$ Hst
  ihave Hps := (Entails.of_eq (show sendPay m c 1 5 = slotHas m c 1 2 fullShare.left from rfl)) $$ Hps
  ihave Hpr := (Entails.of_eq (show recvPay m c 1 5 = holdsPts c (gs1 6) fullShare (sv1 m (xr c (mask 1 6))) from rfl)) $$ Hpr
  iapply (op_load_gs1 m c 6 fullShare _) $$ Hpr; iintro Hpr
  iapply (op_load_b16 m c fullShare _) $$ Hb; iintro Hb
  ihave Hpr := (Entails.of_eq (show holdsPts c (gs1 6) fullShare (sv1 m (xr c (mask 1 6))) = slotHas m c 1 6 fullShare from rfl)) $$ Hpr
  rw [wp_ret]; imodintro
  iapply HK $$ %_ %(by rfl)
  isplitl [Has]; · iexact Has
  isplitl [Hps]; · iexact Hps
  isplitl [Har]; · iexact Har
  isplitl [Hpr]; · iexact Hpr
  isplitl [HO]; · iexists _; iexact HO
  isplitl [Hac]; · iexact Hac
  isplitl [Hdone]; · iexact Hdone
  isplitl [Hst]; · iexact Hst
  iexact Hb

/-- Part 36: product block 6 of group 1 stored and copied out, and the waits on the transfer of step 5 of group 2. -/
theorem part36 : Part36Spec m K := by
  intro c v2 v340 Kt
  simp only [k0_part36, semSignalWord, semWaitWord, Prog.lift, Prog.bind_op, Prog.bind_ret, Prog.pure_eq_ret, wp_deviceId]
  iintro ⟨#Hrec, #Hlev, Hst, Hpa, Htk, Hcs, Has, ⟨%W, HO⟩, Hcr, Har, HK⟩
  ihave Hst := (Entails.of_eq (show stageAny (F := F) c 1 0 = anyPts c (ss1 0) from rfl)) $$ Hst
  iapply (op_load_ss1_any m c 0) $$ Hst; iintro %x Hst
  iapply (op_store_ss1 m c 0 (prod336 (sv1 m (xr c (mask 1 6))) (bv m c)) rfl) $$ Hst; iintro Hst
  ihave Hst := (stage_has1 m c 6 0 rfl (by decide)) $$ Hst
  ihave Hst := (Entails.of_eq (show stageHas m c 1 6 = stageHas1 m c 6 from rfl)) $$ Hst
  iapply (op_copy1 m K c 6 0 5 rfl rfl) $$ [Hst Hpa Htk]
  · isplitr; · iexact Hrec
    isplitl [Hst]; · iexact Hst
    isplitl [Hpa]; · iexact Hpa
    iexact Htk
  iintro Hcn
  iapply (wait_send' m K c 2 5 (Orem ((payList c).drop 27)) _ (above_paid c _)) $$ [Hcs Has HO]
  · isplitr; · iexact Hrec
    isplitr; · iexact Hlev
    isplitl [Hcs]; · iexact Hcs
    isplitl [Has]; · iexact Has
    iexact HO
  iintro ⟨Hps, Has, HO⟩
  iapply (wait_recv' m K c 2 5 (Orem ((payList c).drop 27)) _ (above_paid c _)) $$ [Hcr Har HO]
  · isplitr; · iexact Hrec
    isplitr; · iexact Hlev
    isplitl [Hcr]; · iexact Hcr
    isplitl [Har]; · iexact Har
    iexact HO
  iintro ⟨Hpr, Har, HO⟩
  ihave Hps := (Entails.of_eq (show sendPay m c 2 5 = slotHas m c 2 2 fullShare.left from rfl)) $$ Hps
  ihave Hpr := (Entails.of_eq (show recvPay m c 2 5 = slotHas m c 2 6 fullShare from rfl)) $$ Hpr
  rw [wp_ret]; imodintro
  iapply HK
  isplitl [Hcn]; · iexact Hcn
  isplitl [Has]; · iexact Has
  isplitl [Hps]; · iexact Hps
  isplitl [HO]; · iexists _; iexact HO
  isplitl [Har]; · iexact Har
  iexact Hpr

/-- Part 37: the wait on the copy cell before product block 6 of group 2, and that block stored and copied out. -/
theorem part37 : Part37Spec m K := by
  intro c v2 Kt
  simp only [k0_part37, semSignalWord, semWaitWord, Prog.lift, Prog.bind_op, Prog.bind_ret, Prog.pure_eq_ret, wp_deviceId]
  iintro ⟨#Hrec, #Hlev, Hcc, Hac, ⟨%W, HO⟩, Hsl, Hb, Hpa, Htk, HK⟩
  iapply (wait_copy' m K c 2 4 (Orem ((payList c).drop 27)) _ (above_paid c _)) $$ [Hcc Hac HO]
  · isplitr; · iexact Hrec
    isplitr; · iexact Hlev
    isplitl [Hcc]; · iexact Hcc
    isplitl [Hac]; · iexact Hac
    iexact HO
  iintro ⟨Hpc, Hac, HO⟩
  ihave Hpc := (copyPay_split m c 2 4) $$ Hpc
  icases Hpc with ⟨Hdone, Hst⟩
  ihave Hst := (Entails.of_eq (show stageAny (F := F) c 2 (par 4) = anyPts c (ss2 0) from rfl)) $$ Hst
  ihave Hsl := (Entails.of_eq (show slotHas m c 2 6 fullShare = holdsPts c (gs2 6) fullShare (sv2 m (xr c (mask 2 6))) from rfl)) $$ Hsl
  iapply (op_load_gs2 m c 6 fullShare _) $$ Hsl; iintro Hsl
  iapply (op_load_b16 m c fullShare _) $$ Hb; iintro Hb
  iapply (op_load_ss2_any m c 0) $$ Hst; iintro %x Hst
  iapply (op_store_ss2 m c 0 (prod336 (sv2 m (xr c (mask 2 6))) (bv m c)) rfl) $$ Hst; iintro Hst
  ihave Hsl := (Entails.of_eq (show holdsPts c (gs2 6) fullShare (sv2 m (xr c (mask 2 6))) = slotHas m c 2 6 fullShare from rfl)) $$ Hsl
  ihave Hst := (stage_has2 m c 6 0 rfl (by decide)) $$ Hst
  ihave Hst := (Entails.of_eq (show stageHas m c 2 6 = stageHas2 m c 6 from rfl)) $$ Hst
  iapply (op_copy2 m K c 6 0 2 rfl rfl) $$ [Hst Hpa Htk]
  · isplitr; · iexact Hrec
    isplitl [Hst]; · iexact Hst
    isplitl [Hpa]; · iexact Hpa
    iexact Htk
  iintro Hcn
  rw [wp_ret]; imodintro
  iapply HK
  isplitl [HO]; · iexists _; iexact HO
  isplitl [Hac]; · iexact Hac
  isplitl [Hdone]; · iexact Hdone
  isplitl [Hsl]; · iexact Hsl
  isplitl [Hb]; · iexact Hb
  iexact Hcn

/-- info: 'Cert.KernelIdeal.DM.part31' depends on axioms: [propext, Classical.choice, Quot.sound] -/
#guard_msgs in #print axioms part31

/-- info: 'Cert.KernelIdeal.DM.part32' depends on axioms: [propext, Classical.choice, Quot.sound] -/
#guard_msgs in #print axioms part32

/-- info: 'Cert.KernelIdeal.DM.part33' depends on axioms: [propext, Classical.choice, Quot.sound] -/
#guard_msgs in #print axioms part33

/-- info: 'Cert.KernelIdeal.DM.part34' depends on axioms: [propext, Classical.choice, Quot.sound] -/
#guard_msgs in #print axioms part34

/-- info: 'Cert.KernelIdeal.DM.part35' depends on axioms: [propext, Classical.choice, Quot.sound] -/
#guard_msgs in #print axioms part35

/-- info: 'Cert.KernelIdeal.DM.part36' depends on axioms: [propext, Classical.choice, Quot.sound] -/
#guard_msgs in #print axioms part36

/-- info: 'Cert.KernelIdeal.DM.part37' depends on axioms: [propext, Classical.choice, Quot.sound] -/
#guard_msgs in #print axioms part37

end Cert.KernelIdeal.DM

end
-- ==== Proof.Parts_38_45.lean ====
import proofs.«900891_g7700000000000892_dist_matmul_m_i_outrep_m1024_n1024_k512_v7x_i8_f32_1_alg».proof.Proof.PartSpecs
import proofs.«900891_g7700000000000892_dist_matmul_m_i_outrep_m1024_n1024_k512_v7x_i8_f32_1_alg».proof.Proof.OpsSend
import proofs.«900891_g7700000000000892_dist_matmul_m_i_outrep_m1024_n1024_k512_v7x_i8_f32_1_alg».proof.Proof.OpsWait
import proofs.«900891_g7700000000000892_dist_matmul_m_i_outrep_m1024_n1024_k512_v7x_i8_f32_1_alg».proof.Proof.OpsStore
import proofs.«900891_g7700000000000892_dist_matmul_m_i_outrep_m1024_n1024_k512_v7x_i8_f32_1_alg».proof.Proof.OpsCopy
import proofs.«900891_g7700000000000892_dist_matmul_m_i_outrep_m1024_n1024_k512_v7x_i8_f32_1_alg».proof.Proof.Launch

/-!
The runs of the body's parts 38 to 45: the last product block of each group, whose slot arrives in two parts. Each
part is stepped operation by operation from the pieces of state its table lists to the pieces it leaves. The waits on
the two last steps' cells hand over the share of each part of slot 3 that its transfer read and the filled part of
slot 7; the rows below 176 of the block are stored from the first part, the rows from 176 on from the second, and the
whole block is then copied into its rows of the result. The last waits of the program hand over the blocks 6 and 7 in
their rows of the result and free the stage slots.
-/

set_option maxRecDepth 16384

noncomputable section

namespace Cert.KernelIdeal.DM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ)

theorem part38 : Part38Spec m K := by
  intro c v509 Kt
  simp only [k0_part38, semSignalWord, semWaitWord, Prog.lift, Prog.bind_op, Prog.bind_ret, Prog.pure_eq_ret, wp_deviceId]
  iintro H
  icases H with ⟨#Hrec, #Hlev, Hcs, H⟩
  icases H with ⟨Hats, HO, Hcr, H⟩
  icases H with ⟨Hatr, Hcc, Hatc, H⟩
  icases H with ⟨Hb, HK⟩
  icases HO with ⟨%W, HO⟩
  have hab0 : Above 0 (Orem ((payList c).drop 27)) := above_zero 0
  have hab4 : Above 4 (Orem ((payList c).drop 27)) := above_zero 4
  iapply (wait_send' m K c 0 6 (Orem ((payList c).drop 27)) _ hab0 (src := qa0 7) (dst := qa0 3) (Q := Kt)) $$ [Hcs Hats HO]
  · isplitr; · iexact Hrec
    isplitr; · iexact Hlev
    isplitl [Hcs]; · iexact Hcs
    isplitl [Hats]; · iexact Hats
    iexact HO
  iintro ⟨Hs3, Hats, HO⟩
  ihave Hs3 := (Entails.of_eq (show (sendPay m c 0 6 : sProp 𝕄) = slotTop m c 0 3 fullShare.left from rfl)) $$ Hs3
  iapply (wait_recv' m K c 0 6 (Orem ((payList c).drop 27)) _ hab4 (src := qa0 3) (dst := qa0 7) (Q := Kt)) $$ [Hcr Hatr HO]
  · isplitr; · iexact Hrec
    isplitr; · iexact Hlev
    isplitl [Hcr]; · iexact Hcr
    isplitl [Hatr]; · iexact Hatr
    iexact HO
  iintro ⟨Hs7, Hatr, HO⟩
  ihave Hs7 := (Entails.of_eq (show (recvPay m c 0 6 : sProp 𝕄) = holdsPts c (ga0 7) fullShare (topA (sv0 m (xr c (mask 0 7)))) from rfl)) $$ Hs7
  iapply (wait_copy' m K c 0 5 (Orem ((payList c).drop 27)) _ hab0 (src := ss0 1) (dst := cw0) (Q := Kt)) $$ [Hcc Hatc HO]
  · isplitr; · iexact Hrec
    isplitr; · iexact Hlev
    isplitl [Hcc]; · iexact Hcc
    isplitl [Hatc]; · iexact Hatc
    iexact HO
  iintro ⟨Hcp, Hatc, HO⟩
  ihave Hcp := (copyPay_split m c 0 5) $$ Hcp
  icases Hcp with ⟨Hdone, Hs⟩
  ihave Hs := (Entails.of_eq (show (stageAny c 0 (par 5) : sProp 𝕄) = anyPts c (ss0 1) from rfl)) $$ Hs
  iapply (op_load_ga0 m c 7 fullShare _) $$ Hs7; iintro Hs7
  iapply (op_load_b16 m c fullShare _) $$ Hb; iintro Hb
  iapply (op_load_ss0_top_any m c) $$ Hs; iintro %old Hs
  iapply (op_store_ss0_top m c (prod176 (topA (sv0 m (xr c (mask 0 7)))) (bv m c)) rfl rfl) $$ Hs; iintro Hs
  ihave Hs7 := (Entails.of_eq (show (holdsPts c (ga0 7) fullShare (topA (sv0 m (xr c (mask 0 7)))) : sProp 𝕄) = slotTop m c 0 7 fullShare from rfl)) $$ Hs7
  ihave Hs := (Entails.of_eq (show (stageTop0 m c : sProp 𝕄) = stageTop m c 0 from rfl)) $$ Hs
  rw [wp_ret]; imodintro
  iapply HK
  isplitl [Hats]; · iexact Hats
  isplitl [Hs3]; · iexact Hs3
  isplitl [Hatr]; · iexact Hatr
  isplitl [Hs7]; · iexact Hs7
  isplitl [HO]; · iexists _; iexact HO
  isplitl [Hatc]; · iexact Hatc
  isplitl [Hdone]; · iexact Hdone
  isplitl [Hb]; · iexact Hb
  iexact Hs

theorem part39 : Part39Spec m K := by
  intro c v541 Kt
  simp only [k0_part39, semSignalWord, semWaitWord, Prog.lift, Prog.bind_op, Prog.bind_ret, Prog.pure_eq_ret, wp_deviceId]
  iintro H
  icases H with ⟨#Hrec, #Hlev, Hcs, H⟩
  icases H with ⟨Hats, HO, Hcr, H⟩
  icases H with ⟨Hatr, Hcc, Hatc, H⟩
  icases H with ⟨Hb, HK⟩
  icases HO with ⟨%W, HO⟩
  have hab0 : Above 0 (Orem ((payList c).drop 27)) := above_zero 0
  have hab4 : Above 4 (Orem ((payList c).drop 27)) := above_zero 4
  iapply (wait_send' m K c 1 6 (Orem ((payList c).drop 27)) _ hab0 (src := qa1 7) (dst := qa1 3) (Q := Kt)) $$ [Hcs Hats HO]
  · isplitr; · iexact Hrec
    isplitr; · iexact Hlev
    isplitl [Hcs]; · iexact Hcs
    isplitl [Hats]; · iexact Hats
    iexact HO
  iintro ⟨Hs3, Hats, HO⟩
  ihave Hs3 := (Entails.of_eq (show (sendPay m c 1 6 : sProp 𝕄) = slotTop m c 1 3 fullShare.left from rfl)) $$ Hs3
  iapply (wait_recv' m K c 1 6 (Orem ((payList c).drop 27)) _ hab4 (src := qa1 3) (dst := qa1 7) (Q := Kt)) $$ [Hcr Hatr HO]
  · isplitr; · iexact Hrec
    isplitr; · iexact Hlev
    isplitl [Hcr]; · iexact Hcr
    isplitl [Hatr]; · iexact Hatr
    iexact HO
  iintro ⟨Hs7, Hatr, HO⟩
  ihave Hs7 := (Entails.of_eq (show (recvPay m c 1 6 : sProp 𝕄) = holdsPts c (ga1 7) fullShare (topB (sv1 m (xr c (mask 1 7)))) from rfl)) $$ Hs7
  iapply (wait_copy' m K c 1 5 (Orem ((payList c).drop 27)) _ hab0 (src := ss1 1) (dst := cw12) (Q := Kt)) $$ [Hcc Hatc HO]
  · isplitr; · iexact Hrec
    isplitr; · iexact Hlev
    isplitl [Hcc]; · iexact Hcc
    isplitl [Hatc]; · iexact Hatc
    iexact HO
  iintro ⟨Hcp, Hatc, HO⟩
  ihave Hcp := (copyPay_split m c 1 5) $$ Hcp
  icases Hcp with ⟨Hdone, Hs⟩
  ihave Hs := (Entails.of_eq (show (stageAny c 1 (par 5) : sProp 𝕄) = anyPts c (ss1 1) from rfl)) $$ Hs
  iapply (op_load_ga1 m c 7 fullShare _) $$ Hs7; iintro Hs7
  iapply (op_load_b16 m c fullShare _) $$ Hb; iintro Hb
  iapply (op_load_ss1_top_any m c) $$ Hs; iintro %old Hs
  ihave Hs7 := (Entails.of_eq (show (holdsPts c (ga1 7) fullShare (topB (sv1 m (xr c (mask 1 7)))) : sProp 𝕄) = slotTop m c 1 7 fullShare from rfl)) $$ Hs7
  ihave Hs := (Entails.of_eq (show (anyPts c (ss1 1) : sProp 𝕄) = stageAny c 1 1 from rfl)) $$ Hs
  rw [wp_ret]; imodintro
  iapply HK $$ %_ %rfl
  isplitl [Hats]; · iexact Hats
  isplitl [Hs3]; · iexact Hs3
  isplitl [Hatr]; · iexact Hatr
  isplitl [Hs7]; · iexact Hs7
  isplitl [HO]; · iexists _; iexact HO
  isplitl [Hatc]; · iexact Hatc
  isplitl [Hdone]; · iexact Hdone
  isplitl [Hs]; · iexact Hs
  iexact Hb

theorem part40 : Part40Spec m K := by
  intro c v573 v884 Kt
  simp only [k0_part40, semSignalWord, semWaitWord, Prog.lift, Prog.bind_op, Prog.bind_ret, Prog.pure_eq_ret, wp_deviceId]
  iintro H
  icases H with ⟨#Hrec, #Hlev, Hs1, H⟩
  icases H with ⟨Hcs, Hats, HO, H⟩
  icases H with ⟨Hcr, Hatr, Hcc, H⟩
  icases H with ⟨Hatc, HK⟩
  icases HO with ⟨%W, HO⟩
  have hab0 : Above 0 (Orem ((payList c).drop 27)) := above_zero 0
  have hab4 : Above 4 (Orem ((payList c).drop 27)) := above_zero 4
  ihave Hs1 := (Entails.of_eq (show (stageAny c 1 1 : sProp 𝕄) = anyPts c (ss1 1) from rfl)) $$ Hs1
  iapply (op_store_ss1_top m c (prod176 (topB (sv1 m (xr c (mask 1 7)))) (bv m c)) rfl rfl) $$ Hs1; iintro Hs1
  iapply (wait_send' m K c 2 6 (Orem ((payList c).drop 27)) _ hab0 (src := qa2 7) (dst := qa2 3) (Q := Kt)) $$ [Hcs Hats HO]
  · isplitr; · iexact Hrec
    isplitr; · iexact Hlev
    isplitl [Hcs]; · iexact Hcs
    isplitl [Hats]; · iexact Hats
    iexact HO
  iintro ⟨Hs3, Hats, HO⟩
  ihave Hs3 := (Entails.of_eq (show (sendPay m c 2 6 : sProp 𝕄) = slotTop m c 2 3 fullShare.left from rfl)) $$ Hs3
  iapply (wait_recv' m K c 2 6 (Orem ((payList c).drop 27)) _ hab4 (src := qa2 3) (dst := qa2 7) (Q := Kt)) $$ [Hcr Hatr HO]
  · isplitr; · iexact Hrec
    isplitr; · iexact Hlev
    isplitl [Hcr]; · iexact Hcr
    isplitl [Hatr]; · iexact Hatr
    iexact HO
  iintro ⟨Hs7, Hatr, HO⟩
  ihave Hs7 := (Entails.of_eq (show (recvPay m c 2 6 : sProp 𝕄) = holdsPts c (ga2 7) fullShare (topB (sv2 m (xr c (mask 2 7)))) from rfl)) $$ Hs7
  iapply (wait_copy' m K c 2 5 (Orem ((payList c).drop 27)) _ hab0 (src := ss2 1) (dst := cw12) (Q := Kt)) $$ [Hcc Hatc HO]
  · isplitr; · iexact Hrec
    isplitr; · iexact Hlev
    isplitl [Hcc]; · iexact Hcc
    isplitl [Hatc]; · iexact Hatc
    iexact HO
  iintro ⟨Hcp, Hatc, HO⟩
  ihave Hcp := (copyPay_split m c 2 5) $$ Hcp
  icases Hcp with ⟨Hdone, Hs⟩
  ihave Hs := (Entails.of_eq (show (stageAny c 2 (par 5) : sProp 𝕄) = stageAny c 2 1 from rfl)) $$ Hs
  iapply (op_load_ga2 m c 7 fullShare _) $$ Hs7; iintro Hs7
  ihave Hs7 := (Entails.of_eq (show (holdsPts c (ga2 7) fullShare (topB (sv2 m (xr c (mask 2 7)))) : sProp 𝕄) = slotTop m c 2 7 fullShare from rfl)) $$ Hs7
  ihave Hs1 := (Entails.of_eq (show (stageTop1 m c : sProp 𝕄) = stageTop m c 1 from rfl)) $$ Hs1
  rw [wp_ret]; imodintro
  iapply HK $$ %_ %(by rfl)
  isplitl [Hs1]; · iexact Hs1
  isplitl [Hats]; · iexact Hats
  isplitl [Hs3]; · iexact Hs3
  isplitl [Hatr]; · iexact Hatr
  isplitl [Hs7]; · iexact Hs7
  isplitl [HO]; · iexists _; iexact HO
  isplitl [Hatc]; · iexact Hatc
  isplitl [Hdone]; · iexact Hdone
  iexact Hs

theorem part41 : Part41Spec m K := by
  intro c v520 Kt
  simp only [k0_part41, semSignalWord, semWaitWord, Prog.lift, Prog.bind_op, Prog.bind_ret, Prog.pure_eq_ret, wp_deviceId]
  iintro H
  icases H with ⟨#Hrec, #Hlev, Hb, H⟩
  icases H with ⟨Hs, Hcs, Hats, H⟩
  icases H with ⟨HO, Hcr, Hatr, HK⟩
  icases HO with ⟨%W, HO⟩
  have hab0 : Above 0 (Orem ((payList c).drop 27)) := above_zero 0
  have hab4 : Above 4 (Orem ((payList c).drop 27)) := above_zero 4
  iapply (op_load_b16 m c fullShare _) $$ Hb; iintro Hb
  ihave Hs := (Entails.of_eq (show (stageAny c 2 1 : sProp 𝕄) = anyPts c (ss2 1) from rfl)) $$ Hs
  iapply (op_load_ss2_top_any m c) $$ Hs; iintro %old Hs
  iapply (op_store_ss2_top m c (prod176 (topB (sv2 m (xr c (mask 2 7)))) (bv m c)) rfl rfl) $$ Hs; iintro Hs
  iapply (wait_send' m K c 0 7 (Orem ((payList c).drop 27)) _ hab0 (src := qb0 7) (dst := qb0 3) (Q := Kt)) $$ [Hcs Hats HO]
  · isplitr; · iexact Hrec
    isplitr; · iexact Hlev
    isplitl [Hcs]; · iexact Hcs
    isplitl [Hats]; · iexact Hats
    iexact HO
  iintro ⟨Hs3, Hats, HO⟩
  ihave Hs3 := (Entails.of_eq (show (sendPay m c 0 7 : sProp 𝕄) = slotBot m c 0 3 fullShare.left from rfl)) $$ Hs3
  iapply (wait_recv' m K c 0 7 (Orem ((payList c).drop 27)) _ hab4 (src := qb0 3) (dst := qb0 7) (Q := Kt)) $$ [Hcr Hatr HO]
  · isplitr; · iexact Hrec
    isplitr; · iexact Hlev
    isplitl [Hcr]; · iexact Hcr
    isplitl [Hatr]; · iexact Hatr
    iexact HO
  iintro ⟨Hs7, Hatr, HO⟩
  ihave Hs7 := (Entails.of_eq (show (recvPay m c 0 7 : sProp 𝕄) = holdsPts c (gb0 7) fullShare (botA (sv0 m (xr c (mask 0 7)))) from rfl)) $$ Hs7
  iapply (op_load_gb0 m c 7 fullShare _) $$ Hs7; iintro Hs7
  iapply (op_load_b16 m c fullShare _) $$ Hb; iintro Hb
  ihave Hs7 := (Entails.of_eq (show (holdsPts c (gb0 7) fullShare (botA (sv0 m (xr c (mask 0 7)))) : sProp 𝕄) = slotBot m c 0 7 fullShare from rfl)) $$ Hs7
  ihave Hs := (Entails.of_eq (show (stageTop2 m c : sProp 𝕄) = stageTop m c 2 from rfl)) $$ Hs
  rw [wp_ret]; imodintro
  iapply HK $$ %_ %⟨rfl, rfl, rfl⟩
  isplitl [Hb]; · iexact Hb
  isplitl [Hs]; · iexact Hs
  isplitl [Hats]; · iexact Hats
  isplitl [Hs3]; · iexact Hs3
  isplitl [HO]; · iexists _; iexact HO
  isplitl [Hatr]; · iexact Hatr
  iexact Hs7

theorem part42 : Part42Spec m K := by
  intro c v2 v552 Kt
  simp only [k0_part42, semSignalWord, semWaitWord, Prog.lift, Prog.bind_op, Prog.bind_ret, Prog.pure_eq_ret, wp_deviceId]
  iintro H
  icases H with ⟨#Hrec, #Hlev, Hs, H⟩
  icases H with ⟨Hp, Htc, Hcs, H⟩
  icases H with ⟨Hats, HO, HK⟩
  icases HO with ⟨%W, HO⟩
  have hab0 : Above 0 (Orem ((payList c).drop 27)) := above_zero 0
  ihave Hs := (Entails.of_eq (show (stageTop m c 0 : sProp 𝕄) = stageTop0 m c from rfl)) $$ Hs
  iapply (op_load_ss0_bot_any m c) $$ Hs; iintro %old Hs
  iapply (op_store_ss0_bot m c (prod176 (botA (sv0 m (xr c (mask 0 7)))) (bv m c)) rfl rfl) $$ Hs; iintro Hs
  iapply (op_copy0 m K c 7 1 6 (by decide) (by decide)) $$ [Hs Hp Htc]
  · isplitr; · iexact Hrec
    isplitl [Hs]; · iexact Hs
    isplitl [Hp]; · iexact Hp
    iexact Htc
  iintro Hcc
  iapply (wait_send' m K c 1 7 (Orem ((payList c).drop 27)) _ hab0 (src := qb1 7) (dst := qb1 3) (Q := Kt)) $$ [Hcs Hats HO]
  · isplitr; · iexact Hrec
    isplitr; · iexact Hlev
    isplitl [Hcs]; · iexact Hcs
    isplitl [Hats]; · iexact Hats
    iexact HO
  iintro ⟨Hs3, Hats, HO⟩
  ihave Hs3 := (Entails.of_eq (show (sendPay m c 1 7 : sProp 𝕄) = slotBot m c 1 3 fullShare.left from rfl)) $$ Hs3
  rw [wp_ret]; imodintro
  iapply HK
  isplitl [Hcc]; · iexact Hcc
  isplitl [HO]; · iexists _; iexact HO
  isplitl [Hats]; · iexact Hats
  iexact Hs3

theorem part43 : Part43Spec m K := by
  intro c v2 Kt
  simp only [k0_part43, semSignalWord, semWaitWord, Prog.lift, Prog.bind_op, Prog.bind_ret, Prog.pure_eq_ret, wp_deviceId]
  iintro H
  icases H with ⟨#Hrec, #Hlev, Hcr, H⟩
  icases H with ⟨Hatr, HO, Hb, H⟩
  icases H with ⟨Hs, Hp, Htc, H⟩
  icases H with ⟨Hcs, Hats, HK⟩
  icases HO with ⟨%W, HO⟩
  have hab0 : Above 0 (Orem ((payList c).drop 27)) := above_zero 0
  have hab4 : Above 4 (Orem ((payList c).drop 27)) := above_zero 4
  iapply (wait_recv' m K c 1 7 (Orem ((payList c).drop 27)) _ hab4 (src := qb1 3) (dst := qb1 7) (Q := Kt)) $$ [Hcr Hatr HO]
  · isplitr; · iexact Hrec
    isplitr; · iexact Hlev
    isplitl [Hcr]; · iexact Hcr
    isplitl [Hatr]; · iexact Hatr
    iexact HO
  iintro ⟨Hs7, Hatr, HO⟩
  ihave Hs7 := (Entails.of_eq (show (recvPay m c 1 7 : sProp 𝕄) = holdsPts c (gb1 7) fullShare (botB (sv1 m (xr c (mask 1 7)))) from rfl)) $$ Hs7
  iapply (op_load_gb1 m c 7 fullShare _) $$ Hs7; iintro Hs7
  iapply (op_load_b16 m c fullShare _) $$ Hb; iintro Hb
  ihave Hs := (Entails.of_eq (show (stageTop m c 1 : sProp 𝕄) = stageTop1 m c from rfl)) $$ Hs
  iapply (op_load_ss1_bot_any m c) $$ Hs; iintro %old Hs
  iapply (op_store_ss1_bot m c (prod160 (botB (sv1 m (xr c (mask 1 7)))) (bv m c)) rfl rfl) $$ Hs; iintro Hs
  iapply (op_copy1 m K c 7 1 6 (by decide) (by decide)) $$ [Hs Hp Htc]
  · isplitr; · iexact Hrec
    isplitl [Hs]; · iexact Hs
    isplitl [Hp]; · iexact Hp
    iexact Htc
  iintro Hcc
  iapply (wait_send' m K c 2 7 (Orem ((payList c).drop 27)) _ hab0 (src := qb2 7) (dst := qb2 3) (Q := Kt)) $$ [Hcs Hats HO]
  · isplitr; · iexact Hrec
    isplitr; · iexact Hlev
    isplitl [Hcs]; · iexact Hcs
    isplitl [Hats]; · iexact Hats
    iexact HO
  iintro ⟨Hs3, Hats, HO⟩
  ihave Hs3 := (Entails.of_eq (show (sendPay m c 2 7 : sProp 𝕄) = slotBot m c 2 3 fullShare.left from rfl)) $$ Hs3
  ihave Hs7 := (Entails.of_eq (show (holdsPts c (gb1 7) fullShare (botB (sv1 m (xr c (mask 1 7)))) : sProp 𝕄) = slotBot m c 1 7 fullShare from rfl)) $$ Hs7
  rw [wp_ret]; imodintro
  iapply HK
  isplitl [Hatr]; · iexact Hatr
  isplitl [Hs7]; · iexact Hs7
  isplitl [Hb]; · iexact Hb
  isplitl [Hcc]; · iexact Hcc
  isplitl [HO]; · iexists _; iexact HO
  isplitl [Hats]; · iexact Hats
  iexact Hs3

theorem part44 : Part44Spec m K := by
  intro c v2 v584 Kt
  simp only [k0_part44, semSignalWord, semWaitWord, Prog.lift, Prog.bind_op, Prog.bind_ret, Prog.pure_eq_ret, wp_deviceId]
  iintro H
  icases H with ⟨#Hrec, #Hlev, Hcr, H⟩
  icases H with ⟨Hatr, HO, Hb, H⟩
  icases H with ⟨Hs, Hp, Htc, HK⟩
  icases HO with ⟨%W, HO⟩
  have hab0 : Above 0 (Orem ((payList c).drop 27)) := above_zero 0
  have hab4 : Above 4 (Orem ((payList c).drop 27)) := above_zero 4
  iapply (wait_recv' m K c 2 7 (Orem ((payList c).drop 27)) _ hab4 (src := qb2 3) (dst := qb2 7) (Q := Kt)) $$ [Hcr Hatr HO]
  · isplitr; · iexact Hrec
    isplitr; · iexact Hlev
    isplitl [Hcr]; · iexact Hcr
    isplitl [Hatr]; · iexact Hatr
    iexact HO
  iintro ⟨Hs7, Hatr, HO⟩
  ihave Hs7 := (Entails.of_eq (show (recvPay m c 2 7 : sProp 𝕄) = holdsPts c (gb2 7) fullShare (botB (sv2 m (xr c (mask 2 7)))) from rfl)) $$ Hs7
  iapply (op_load_gb2 m c 7 fullShare _) $$ Hs7; iintro Hs7
  iapply (op_load_b16 m c fullShare _) $$ Hb; iintro Hb
  ihave Hs := (Entails.of_eq (show (stageTop m c 2 : sProp 𝕄) = stageTop2 m c from rfl)) $$ Hs
  iapply (op_load_ss2_bot_any m c) $$ Hs; iintro %old Hs
  iapply (op_store_ss2_bot m c (prod160 (botB (sv2 m (xr c (mask 2 7)))) (bv m c)) rfl rfl) $$ Hs; iintro Hs
  iapply (op_copy2 m K c 7 1 6 (by decide) (by decide)) $$ [Hs Hp Htc]
  · isplitr; · iexact Hrec
    isplitl [Hs]; · iexact Hs
    isplitl [Hp]; · iexact Hp
    iexact Htc
  iintro Hcc

  ihave Hs7 := (Entails.of_eq (show (holdsPts c (gb2 7) fullShare (botB (sv2 m (xr c (mask 2 7)))) : sProp 𝕄) = slotBot m c 2 7 fullShare from rfl)) $$ Hs7
  rw [wp_ret]; imodintro
  iapply HK
  isplitl [HO]; · iexists _; iexact HO
  isplitl [Hatr]; · iexact Hatr
  isplitl [Hs7]; · iexact Hs7
  isplitl [Hb]; · iexact Hb
  iexact Hcc

theorem part45 : Part45Spec m K := by
  intro c Kt
  simp only [k0_part45, semSignalWord, semWaitWord, Prog.lift, Prog.bind_op, Prog.bind_ret, Prog.pure_eq_ret, wp_deviceId]
  iintro H
  icases H with ⟨#Hrec, #Hlev, Hc1, H⟩
  icases H with ⟨Hat1, HO, Hc2, H⟩
  icases H with ⟨Hat2, Hc3, Hat3, H⟩
  icases H with ⟨Hc4, Hat4, Hc5, H⟩
  icases H with ⟨Hat5, HK⟩
  icases HO with ⟨%W, HO⟩
  have hab0 : Above 0 (Orem ((payList c).drop 27)) := above_zero 0
  iapply (wait_copy' m K c 0 6 (Orem ((payList c).drop 27)) _ hab0 (src := ss0 0) (dst := cw0) (Q := Kt)) $$ [Hc1 Hat1 HO]
  · isplitr; · iexact Hrec
    isplitr; · iexact Hlev
    isplitl [Hc1]; · iexact Hc1
    isplitl [Hat1]; · iexact Hat1
    iexact HO
  iintro ⟨Hcp1, Hat1, HO⟩
  ihave Hcp1 := (copyPay_split m c 0 6) $$ Hcp1
  icases Hcp1 with ⟨Hd1, Hs1⟩
  ihave Hs1 := (Entails.of_eq (show (stageAny c 0 (par 6) : sProp 𝕄) = stageAny c 0 0 from rfl)) $$ Hs1
  iapply (wait_copy' m K c 0 7 (Orem ((payList c).drop 27)) _ hab0 (src := ss0 1) (dst := cw0) (Q := Kt)) $$ [Hc2 Hat2 HO]
  · isplitr; · iexact Hrec
    isplitr; · iexact Hlev
    isplitl [Hc2]; · iexact Hc2
    isplitl [Hat2]; · iexact Hat2
    iexact HO
  iintro ⟨Hcp2, Hat2, HO⟩
  ihave Hcp2 := (copyPay_split m c 0 7) $$ Hcp2
  icases Hcp2 with ⟨Hd2, Hs2⟩
  ihave Hs2 := (Entails.of_eq (show (stageAny c 0 (par 7) : sProp 𝕄) = stageAny c 0 1 from rfl)) $$ Hs2
  iapply (wait_copy' m K c 1 6 (Orem ((payList c).drop 27)) _ hab0 (src := ss1 0) (dst := cw12) (Q := Kt)) $$ [Hc3 Hat3 HO]
  · isplitr; · iexact Hrec
    isplitr; · iexact Hlev
    isplitl [Hc3]; · iexact Hc3
    isplitl [Hat3]; · iexact Hat3
    iexact HO
  iintro ⟨Hcp3, Hat3, HO⟩
  ihave Hcp3 := (copyPay_split m c 1 6) $$ Hcp3
  icases Hcp3 with ⟨Hd3, Hs3⟩
  ihave Hs3 := (Entails.of_eq (show (stageAny c 1 (par 6) : sProp 𝕄) = stageAny c 1 0 from rfl)) $$ Hs3
  iapply (wait_copy' m K c 1 7 (Orem ((payList c).drop 27)) _ hab0 (src := ss1 1) (dst := cw12) (Q := Kt)) $$ [Hc4 Hat4 HO]
  · isplitr; · iexact Hrec
    isplitr; · iexact Hlev
    isplitl [Hc4]; · iexact Hc4
    isplitl [Hat4]; · iexact Hat4
    iexact HO
  iintro ⟨Hcp4, Hat4, HO⟩
  ihave Hcp4 := (copyPay_split m c 1 7) $$ Hcp4
  icases Hcp4 with ⟨Hd4, Hs4⟩
  ihave Hs4 := (Entails.of_eq (show (stageAny c 1 (par 7) : sProp 𝕄) = stageAny c 1 1 from rfl)) $$ Hs4
  iapply (wait_copy' m K c 2 6 (Orem ((payList c).drop 27)) _ hab0 (src := ss2 0) (dst := cw12) (Q := Kt)) $$ [Hc5 Hat5 HO]
  · isplitr; · iexact Hrec
    isplitr; · iexact Hlev
    isplitl [Hc5]; · iexact Hc5
    isplitl [Hat5]; · iexact Hat5
    iexact HO
  iintro ⟨Hcp5, Hat5, HO⟩
  ihave Hcp5 := (copyPay_split m c 2 6) $$ Hcp5
  icases Hcp5 with ⟨Hd5, Hs5⟩
  ihave Hs5 := (Entails.of_eq (show (stageAny c 2 (par 6) : sProp 𝕄) = stageAny c 2 0 from rfl)) $$ Hs5
  rw [wp_ret]; imodintro
  iapply HK
  isplitl [Hat1]; · iexact Hat1
  isplitl [Hd1]; · iexact Hd1
  isplitl [Hs1]; · iexact Hs1
  isplitl [Hat2]; · iexact Hat2
  isplitl [Hd2]; · iexact Hd2
  isplitl [Hs2]; · iexact Hs2
  isplitl [Hat3]; · iexact Hat3
  isplitl [Hd3]; · iexact Hd3
  isplitl [Hs3]; · iexact Hs3
  isplitl [Hat4]; · iexact Hat4
  isplitl [Hd4]; · iexact Hd4
  isplitl [Hs4]; · iexact Hs4
  isplitl [HO]; · iexists _; iexact HO
  isplitl [Hat5]; · iexact Hat5
  isplitl [Hd5]; · iexact Hd5
  iexact Hs5

/-- info: 'Cert.KernelIdeal.DM.part38' depends on axioms: [propext, Classical.choice, Quot.sound] -/
#guard_msgs in #print axioms part38

/-- info: 'Cert.KernelIdeal.DM.part39' depends on axioms: [propext, Classical.choice, Quot.sound] -/
#guard_msgs in #print axioms part39

/-- info: 'Cert.KernelIdeal.DM.part40' depends on axioms: [propext, Classical.choice, Quot.sound] -/
#guard_msgs in #print axioms part40

/-- info: 'Cert.KernelIdeal.DM.part41' depends on axioms: [propext, Classical.choice, Quot.sound] -/
#guard_msgs in #print axioms part41

/-- info: 'Cert.KernelIdeal.DM.part42' depends on axioms: [propext, Classical.choice, Quot.sound] -/
#guard_msgs in #print axioms part42

/-- info: 'Cert.KernelIdeal.DM.part43' depends on axioms: [propext, Classical.choice, Quot.sound] -/
#guard_msgs in #print axioms part43

/-- info: 'Cert.KernelIdeal.DM.part44' depends on axioms: [propext, Classical.choice, Quot.sound] -/
#guard_msgs in #print axioms part44

/-- info: 'Cert.KernelIdeal.DM.part45' depends on axioms: [propext, Classical.choice, Quot.sound] -/
#guard_msgs in #print axioms part45

end Cert.KernelIdeal.DM

end
-- ==== Proof.Tail.lean ====
import proofs.«900891_g7700000000000892_dist_matmul_m_i_outrep_m1024_n1024_k512_v7x_i8_f32_1_alg».proof.Proof.PartSpecs
import proofs.«900891_g7700000000000892_dist_matmul_m_i_outrep_m1024_n1024_k512_v7x_i8_f32_1_alg».proof.Proof.OpsWait
import proofs.«900891_g7700000000000892_dist_matmul_m_i_outrep_m1024_n1024_k512_v7x_i8_f32_1_alg».proof.Proof.OpsCopy

/-!
The end of a device's body: the wait on the copy of the last product block of the third group. Nothing is owed any
more; the block's rows of the result come back holding it, and its stage slot is free.
-/

set_option maxRecDepth 16384

noncomputable section

namespace Cert.KernelIdeal.DM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ)

theorem tail : TailSpec m K := by
  intro c Kt
  simp only [semSignalWord, semWaitWord, Prog.lift, Prog.bind_op, Prog.bind_ret, Prog.pure_eq_ret, wp_deviceId]
  iintro ⟨#Hrec, #Hlev, Hc, Hat, HO, HK⟩
  icases HO with ⟨%W, HO⟩
  iapply (wait_copy' m K c 2 7 (Orem ((payList c).drop 27)) W (show Above 0 (Orem ((payList c).drop 27)) from above_zero 0)) $$ [Hc Hat HO]
  · isplitr; · iexact Hrec
    isplitr; · iexact Hlev
    isplitl [Hc]; · iexact Hc
    isplitl [Hat]; · iexact Hat
    iexact HO
  iintro ⟨Hpay, Hat, HO⟩
  ihave Hp := (copyPay_split m c 2 7) $$ Hpay
  icases Hp with ⟨Hpd, Hst⟩
  ihave Hst := (Entails.of_eq (show stageAny (F := F) c 2 (par 7) = stageAny c 2 1 from rfl)) $$ Hst
  rw [wp_ret]; imodintro
  iapply HK
  isplitl [HO]; · iexists _; iexact HO
  isplitl [Hat]; · iexact Hat
  isplitl [Hpd]; · iexact Hpd
  iexact Hst

/-- info: 'Cert.KernelIdeal.DM.tail' depends on axioms: [propext, Classical.choice, Quot.sound] -/
#guard_msgs in #print axioms tail

end Cert.KernelIdeal.DM

end
-- ==== Proof.Whole.lean ====
import proofs.«900891_g7700000000000892_dist_matmul_m_i_outrep_m1024_n1024_k512_v7x_i8_f32_1_alg».proof.Proof.Launch
import proofs.«900891_g7700000000000892_dist_matmul_m_i_outrep_m1024_n1024_k512_v7x_i8_f32_1_alg».proof.Proof.Body
import proofs.«900891_g7700000000000892_dist_matmul_m_i_outrep_m1024_n1024_k512_v7x_i8_f32_1_alg».proof.Proof.BodyChain
import proofs.«900891_g7700000000000892_dist_matmul_m_i_outrep_m1024_n1024_k512_v7x_i8_f32_1_alg».proof.Proof.Parts_1_7
import proofs.«900891_g7700000000000892_dist_matmul_m_i_outrep_m1024_n1024_k512_v7x_i8_f32_1_alg».proof.Proof.Parts_8_15
import proofs.«900891_g7700000000000892_dist_matmul_m_i_outrep_m1024_n1024_k512_v7x_i8_f32_1_alg».proof.Proof.Parts_16_22
import proofs.«900891_g7700000000000892_dist_matmul_m_i_outrep_m1024_n1024_k512_v7x_i8_f32_1_alg».proof.Proof.Parts_23_30
import proofs.«900891_g7700000000000892_dist_matmul_m_i_outrep_m1024_n1024_k512_v7x_i8_f32_1_alg».proof.Proof.Parts_31_37
import proofs.«900891_g7700000000000892_dist_matmul_m_i_outrep_m1024_n1024_k512_v7x_i8_f32_1_alg».proof.Proof.Parts_38_45
import proofs.«900891_g7700000000000892_dist_matmul_m_i_outrep_m1024_n1024_k512_v7x_i8_f32_1_alg».proof.Proof.Tail

/-!
The whole run: every printed part's run and the tail's, composed along the body, give the body's run on one device
from what the launch hands it to what it hands back; the launch theorem then gives the run of all eight devices, at
the end of which every device's result buffer holds every product block in its rows and the arguments are unchanged.
-/

noncomputable section

namespace Cert.KernelIdeal.DM

open Cert.KernelIdeal Cert.KernelIdeal.Gen
open Idealize.ShloMosaic
open Idealize.ShloMosaic.TcCoe
open Idealize.SL.Sem

variable {F : FTy → Type} [FloatOps F]

theorem run_whole (m : (ℓ : Loc nD τ sig) → Buf (Elt F) ℓ) (ρ : Dev nD → PrngReg) :
    θ_run (defs (F := F)) (onTc (τ := τ) (main (F := F))) ⟨m, fun _ => 0, ρ⟩
      (fun r => ∀ c : Dev nD, outOK m c (r.2.mem ((c.tc : Thread nD τ).loc main_v1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  run_main m ρ fun c => body_obl_of m
    (fun K c Kt => middle m K (part1 m K) (part2 m K) (part3 m K) (part4 m K) (part5 m K) (part6 m K) (part7 m K) (part8 m K) (part9 m K) (part10 m K) (part11 m K) (part12 m K) (part13 m K) (part14 m K) (part15 m K) (part16 m K) (part17 m K) (part18 m K) (part19 m K) (part20 m K) (part21 m K) (part22 m K) (part23 m K) (part24 m K) (part25 m K) (part26 m K) (part27 m K) (part28 m K) (part29 m K) (part30 m K) (part31 m K) (part32 m K) (part33 m K) (part34 m K) (part35 m K) (part36 m K) (part37 m K) (part38 m K) (part39 m K) (part40 m K) (part41 m K) (part42 m K) (part43 m K) (part44 m K) (part45 m K) (tail m K) c Kt) c

end Cert.KernelIdeal.DM

end
-- ==== Proof.ValueLemmas.lean ====
import proofs.«900891_g7700000000000892_dist_matmul_m_i_outrep_m1024_n1024_k512_v7x_i8_f32_1_alg».proof.KernelIdeal
import proofs.«900891_g7700000000000892_dist_matmul_m_i_outrep_m1024_n1024_k512_v7x_i8_f32_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# The body's pure terms, read at an index, over the extended reals

Every value the body stores is one of three things: a block of rows of A or the whole of B
narrowed to sixteen bits, a leading unit axis added or dropped, or the product of a block of rows
with B accumulated into zero. Over the extended reals a change of format is the identity and a
product into a zero accumulator is the plain sum over the contraction coordinate, so each stored
term, read at coordinates, is either its argument at the same coordinates or the sum over k of
a (p, k) * b (k, q).

All statements are over variables of the literal vector types, with indices written by
coordinates.
-/

noncomputable section

namespace Cert.KernelIdeal.DM.Val

open Cert.KernelIdeal Cert.KernelIdeal.Gen Idealize.ShloMosaic Idealize.ShloMosaic.ValueIdx

/-! ## The narrowings: the argument at the same coordinates -/

/-- Rows of group 0 narrowed and given a leading unit axis: entry (u, p, k) is the argument's (p, k). -/
theorem pay1_apply (x : Vec Ideal S352x512 .f32) (u : Fin 1) (p : Fin 352) (k : Fin 512) :
    k0_pay1 (F := Ideal) x (ix3 u p k) = x (ix2 p k) := by
  unfold k0_pay1
  rw [shapeCast_ab_1ab_apply, truncf_apply, shapeCast_self]

/-- Rows of group 1 narrowed and given a leading unit axis. -/
theorem pay2_apply (x : Vec Ideal S336x512 .f32) (u : Fin 1) (p : Fin 336) (k : Fin 512) :
    k0_pay2 (F := Ideal) x (ix3 u p k) = x (ix2 p k) := by
  unfold k0_pay2
  rw [shapeCast_ab_1ab_apply, truncf_apply, shapeCast_self]

/-- Rows of group 2 narrowed. -/
theorem pay3_apply (x : Vec Ideal S336x512 .f32) (p : Fin 336) (k : Fin 512) :
    k0_pay3 (F := Ideal) x (ix2 p k) = x (ix2 p k) := by
  unfold k0_pay3
  rw [truncf_apply, shapeCast_self]

/-- A leading unit axis added to the narrowed rows of group 2. -/
theorem pay4_apply (y : FVec Ideal S336x512 .bf16) (u : Fin 1) (p : Fin 336) (k : Fin 512) :
    k0_pay4 (F := Ideal) y (ix3 u p k) = y (ix2 p k) := by
  unfold k0_pay4
  rw [shapeCast_ab_1ab_apply]

/-- Rows of group 2 narrowed and then given a leading unit axis. -/
theorem pay4_pay3_apply (x : Vec Ideal S336x512 .f32) (u : Fin 1) (p : Fin 336) (k : Fin 512) :
    k0_pay4 (F := Ideal) (k0_pay3 (F := Ideal) x) (ix3 u p k) = x (ix2 p k) := by
  rw [pay4_apply, pay3_apply]

/-- B narrowed: entry (k, q) is the argument's (k, q). -/
theorem pay5_apply (x : Vec Ideal S512x1024 .f32) (k : Fin 512) (q : Fin 1024) :
    k0_pay5 (F := Ideal) x (ix2 k q) = x (ix2 k q) := by
  unfold k0_pay5
  rw [shapeCast_self, truncf_apply, shapeCast_self]

/-! ## A leading unit axis added to, or dropped from, a block -/

/-- A product block [M, 1024] stored as [1, M, 1024]: entry (u, p, q) is the block's (p, q). -/
theorem pay7_apply (v : FVec Ideal S352x1024 .f32) (u : Fin 1) (p : Fin 352) (q : Fin 1024) :
    k0_pay7 (F := Ideal) v (ix3 u p q) = v (ix2 p q) := by
  unfold k0_pay7
  rw [shapeCast_ab_1ab_apply]

theorem pay13_apply (v : FVec Ideal S336x1024 .f32) (u : Fin 1) (p : Fin 336) (q : Fin 1024) :
    k0_pay13 (F := Ideal) v (ix3 u p q) = v (ix2 p q) := by
  unfold k0_pay13
  rw [shapeCast_ab_1ab_apply]

theorem pay19_apply (v : FVec Ideal S336x1024 .f32) (u : Fin 1) (p : Fin 336) (q : Fin 1024) :
    k0_pay19 (F := Ideal) v (ix3 u p q) = v (ix2 p q) := by
  unfold k0_pay19
  rw [shapeCast_ab_1ab_apply]

theorem pay30_apply (v : FVec Ideal S336x1024 .f32) (u : Fin 1) (p : Fin 336) (q : Fin 1024) :
    k0_pay30 (F := Ideal) v (ix3 u p q) = v (ix2 p q) := by
  unfold k0_pay30
  rw [shapeCast_ab_1ab_apply]

theorem pay34_apply (v : FVec Ideal S176x1024 .f32) (u : Fin 1) (p : Fin 176) (q : Fin 1024) :
    k0_pay34 (F := Ideal) v (ix3 u p q) = v (ix2 p q) := by
  unfold k0_pay34
  rw [shapeCast_ab_1ab_apply]

/-- A gathered block [1, M, 512] read as [M, 512]: entry (p, k) is the block's (0, p, k). -/
theorem pay23_apply (a : Vec Ideal S1x336x512 .bf16) (p : Fin 336) (k : Fin 512) :
    k0_pay23 (F := Ideal) a (ix2 p k) = a (ix3 (0 : Fin 1) p k) := by
  unfold k0_pay23
  rw [shapeCast_1ab_ab_apply]

theorem pay35_apply (a : Vec Ideal S1x176x512 .bf16) (p : Fin 176) (k : Fin 512) :
    k0_pay35 (F := Ideal) a (ix2 p k) = a (ix3 (0 : Fin 1) p k) := by
  unfold k0_pay35
  rw [shapeCast_1ab_ab_apply]

theorem pay37_apply (a : Vec Ideal S1x176x512 .bf16) (p : Fin 176) (k : Fin 512) :
    k0_pay37 (F := Ideal) a (ix2 p k) = a (ix3 (0 : Fin 1) p k) := by
  unfold k0_pay37
  rw [shapeCast_1ab_ab_apply]

/-! ## The four products into a zero accumulator

For each of the four row counts (352, 336, 176, 160) the dimension numbers contract axis 1 of the
left operand with axis 0 of the right one, so at output (p, q) and contraction coordinate k the
operands are read at (p, k) and (k, q). The four coordinate facts are stated per record at the
literal axes; the product read at (p, q) is then the sum over k : Fin 512. -/

/-! ### 352 rows -/

theorem lhs_352_0 (i : S352x1024.Idx) (q : dot_S352x512_S512x1024_S352x1024_1_0_0_1_n_n.contr.Idx) :
    (dot_S352x512_S512x1024_S352x1024_1_0_0_1_n_n.lhsIdx i q 0).val = (i 0).val := by
  unfold DotDims.lhsIdx
  rw [dif_neg (show ¬(0 : Fin S352x512.rank) ∈ dot_S352x512_S512x1024_S352x1024_1_0_0_1_n_n.lhsBatch by decide), dif_pos (show (0 : Fin S352x512.rank) ∈ dot_S352x512_S512x1024_S352x1024_1_0_0_1_n_n.lhsNonContracting by decide)]
  rfl
theorem lhs_352_1 (i : S352x1024.Idx) (q : dot_S352x512_S512x1024_S352x1024_1_0_0_1_n_n.contr.Idx) :
    (dot_S352x512_S512x1024_S352x1024_1_0_0_1_n_n.lhsIdx i q 1).val = (q ⟨0, by decide⟩).val :=
  dot_S352x512_S512x1024_S352x1024_1_0_0_1_n_n.lhsIdx_val_of_single rfl i q
theorem rhs_352_0 (i : S352x1024.Idx) (q : dot_S352x512_S512x1024_S352x1024_1_0_0_1_n_n.contr.Idx) :
    (dot_S352x512_S512x1024_S352x1024_1_0_0_1_n_n.rhsIdx i q 0).val = (q ⟨0, by decide⟩).val :=
  dot_S352x512_S512x1024_S352x1024_1_0_0_1_n_n.rhsIdx_val_of_single rfl i q
theorem rhs_352_1 (i : S352x1024.Idx) (q : dot_S352x512_S512x1024_S352x1024_1_0_0_1_n_n.contr.Idx) :
    (dot_S352x512_S512x1024_S352x1024_1_0_0_1_n_n.rhsIdx i q 1).val = (i 1).val := by
  unfold DotDims.rhsIdx
  rw [dif_neg (show ¬(1 : Fin S512x1024.rank) ∈ dot_S352x512_S512x1024_S352x1024_1_0_0_1_n_n.rhsBatch by decide), dif_pos (show (1 : Fin S512x1024.rank) ∈ dot_S352x512_S512x1024_S352x1024_1_0_0_1_n_n.rhsNonContracting by decide)]
  rfl

/-- A [352, 512] block times [512, 1024] into zero, at (p, q): the sum over k of a (p, k) * b (k, q). -/
theorem matmul352_apply (a : FVec Ideal S352x512 .bf16) (b : FVec Ideal S512x1024 .bf16) (p : Fin 352) (q : Fin 1024) :
    matmul dot_S352x512_S512x1024_S352x1024_1_0_0_1_n_n none a b (constant (F := Ideal) S352x1024 .f32 0x00000000#32) (ix2 p q)
      = ∑ k : Fin 512, a (ix2 p k) * b (ix2 k q) := by
  simp only [matmul]
  rw [Ideal.matmul_constant_zero_apply, ← Equiv.sum_comp (contrEquiv1 dot_S352x512_S512x1024_S352x1024_1_0_0_1_n_n 512 rfl rfl).symm]
  refine Finset.sum_congr rfl fun k _ => ?_
  have hk := contrEquiv1_symm_val dot_S352x512_S512x1024_S352x1024_1_0_0_1_n_n 512 rfl rfl k
  have el : dot_S352x512_S512x1024_S352x1024_1_0_0_1_n_n.lhsIdx (ix2 p q) ((contrEquiv1 dot_S352x512_S512x1024_S352x1024_1_0_0_1_n_n 512 rfl rfl).symm k) = ix2 p k := funext fun c => Fin.ext (by
    match c with
    | ⟨0, _⟩ => exact lhs_352_0 _ _
    | ⟨1, _⟩ => exact (lhs_352_1 _ _).trans hk)
  have er : dot_S352x512_S512x1024_S352x1024_1_0_0_1_n_n.rhsIdx (ix2 p q) ((contrEquiv1 dot_S352x512_S512x1024_S352x1024_1_0_0_1_n_n 512 rfl rfl).symm k) = ix2 k q := funext fun c => Fin.ext (by
    match c with
    | ⟨0, _⟩ => exact (rhs_352_0 _ _).trans hk
    | ⟨1, _⟩ => exact rhs_352_1 _ _)
  rw [el, er]

/-! ### 336 rows -/

theorem lhs_336_0 (i : S336x1024.Idx) (q : dot_S336x512_S512x1024_S336x1024_1_0_0_1_n_n.contr.Idx) :
    (dot_S336x512_S512x1024_S336x1024_1_0_0_1_n_n.lhsIdx i q 0).val = (i 0).val := by
  unfold DotDims.lhsIdx
  rw [dif_neg (show ¬(0 : Fin S336x512.rank) ∈ dot_S336x512_S512x1024_S336x1024_1_0_0_1_n_n.lhsBatch by decide), dif_pos (show (0 : Fin S336x512.rank) ∈ dot_S336x512_S512x1024_S336x1024_1_0_0_1_n_n.lhsNonContracting by decide)]
  rfl
theorem lhs_336_1 (i : S336x1024.Idx) (q : dot_S336x512_S512x1024_S336x1024_1_0_0_1_n_n.contr.Idx) :
    (dot_S336x512_S512x1024_S336x1024_1_0_0_1_n_n.lhsIdx i q 1).val = (q ⟨0, by decide⟩).val :=
  dot_S336x512_S512x1024_S336x1024_1_0_0_1_n_n.lhsIdx_val_of_single rfl i q
theorem rhs_336_0 (i : S336x1024.Idx) (q : dot_S336x512_S512x1024_S336x1024_1_0_0_1_n_n.contr.Idx) :
    (dot_S336x512_S512x1024_S336x1024_1_0_0_1_n_n.rhsIdx i q 0).val = (q ⟨0, by decide⟩).val :=
  dot_S336x512_S512x1024_S336x1024_1_0_0_1_n_n.rhsIdx_val_of_single rfl i q
theorem rhs_336_1 (i : S336x1024.Idx) (q : dot_S336x512_S512x1024_S336x1024_1_0_0_1_n_n.contr.Idx) :
    (dot_S336x512_S512x1024_S336x1024_1_0_0_1_n_n.rhsIdx i q 1).val = (i 1).val := by
  unfold DotDims.rhsIdx
  rw [dif_neg (show ¬(1 : Fin S512x1024.rank) ∈ dot_S336x512_S512x1024_S336x1024_1_0_0_1_n_n.rhsBatch by decide), dif_pos (show (1 : Fin S512x1024.rank) ∈ dot_S336x512_S512x1024_S336x1024_1_0_0_1_n_n.rhsNonContracting by decide)]
  rfl

/-- A [336, 512] block times [512, 1024] into zero, at (p, q). -/
theorem matmul336_apply (a : FVec Ideal S336x512 .bf16) (b : FVec Ideal S512x1024 .bf16) (p : Fin 336) (q : Fin 1024) :
    matmul dot_S336x512_S512x1024_S336x1024_1_0_0_1_n_n none a b (constant (F := Ideal) S336x1024 .f32 0x00000000#32) (ix2 p q)
      = ∑ k : Fin 512, a (ix2 p k) * b (ix2 k q) := by
  simp only [matmul]
  rw [Ideal.matmul_constant_zero_apply, ← Equiv.sum_comp (contrEquiv1 dot_S336x512_S512x1024_S336x1024_1_0_0_1_n_n 512 rfl rfl).symm]
  refine Finset.sum_congr rfl fun k _ => ?_
  have hk := contrEquiv1_symm_val dot_S336x512_S512x1024_S336x1024_1_0_0_1_n_n 512 rfl rfl k
  have el : dot_S336x512_S512x1024_S336x1024_1_0_0_1_n_n.lhsIdx (ix2 p q) ((contrEquiv1 dot_S336x512_S512x1024_S336x1024_1_0_0_1_n_n 512 rfl rfl).symm k) = ix2 p k := funext fun c => Fin.ext (by
    match c with
    | ⟨0, _⟩ => exact lhs_336_0 _ _
    | ⟨1, _⟩ => exact (lhs_336_1 _ _).trans hk)
  have er : dot_S336x512_S512x1024_S336x1024_1_0_0_1_n_n.rhsIdx (ix2 p q) ((contrEquiv1 dot_S336x512_S512x1024_S336x1024_1_0_0_1_n_n 512 rfl rfl).symm k) = ix2 k q := funext fun c => Fin.ext (by
    match c with
    | ⟨0, _⟩ => exact (rhs_336_0 _ _).trans hk
    | ⟨1, _⟩ => exact rhs_336_1 _ _)
  rw [el, er]

/-! ### 176 rows -/

theorem lhs_176_0 (i : S176x1024.Idx) (q : dot_S176x512_S512x1024_S176x1024_1_0_0_1_n_n.contr.Idx) :
    (dot_S176x512_S512x1024_S176x1024_1_0_0_1_n_n.lhsIdx i q 0).val = (i 0).val := by
  unfold DotDims.lhsIdx
  rw [dif_neg (show ¬(0 : Fin S176x512.rank) ∈ dot_S176x512_S512x1024_S176x1024_1_0_0_1_n_n.lhsBatch by decide), dif_pos (show (0 : Fin S176x512.rank) ∈ dot_S176x512_S512x1024_S176x1024_1_0_0_1_n_n.lhsNonContracting by decide)]
  rfl
theorem lhs_176_1 (i : S176x1024.Idx) (q : dot_S176x512_S512x1024_S176x1024_1_0_0_1_n_n.contr.Idx) :
    (dot_S176x512_S512x1024_S176x1024_1_0_0_1_n_n.lhsIdx i q 1).val = (q ⟨0, by decide⟩).val :=
  dot_S176x512_S512x1024_S176x1024_1_0_0_1_n_n.lhsIdx_val_of_single rfl i q
theorem rhs_176_0 (i : S176x1024.Idx) (q : dot_S176x512_S512x1024_S176x1024_1_0_0_1_n_n.contr.Idx) :
    (dot_S176x512_S512x1024_S176x1024_1_0_0_1_n_n.rhsIdx i q 0).val = (q ⟨0, by decide⟩).val :=
  dot_S176x512_S512x1024_S176x1024_1_0_0_1_n_n.rhsIdx_val_of_single rfl i q
theorem rhs_176_1 (i : S176x1024.Idx) (q : dot_S176x512_S512x1024_S176x1024_1_0_0_1_n_n.contr.Idx) :
    (dot_S176x512_S512x1024_S176x1024_1_0_0_1_n_n.rhsIdx i q 1).val = (i 1).val := by
  unfold DotDims.rhsIdx
  rw [dif_neg (show ¬(1 : Fin S512x1024.rank) ∈ dot_S176x512_S512x1024_S176x1024_1_0_0_1_n_n.rhsBatch by decide), dif_pos (show (1 : Fin S512x1024.rank) ∈ dot_S176x512_S512x1024_S176x1024_1_0_0_1_n_n.rhsNonContracting by decide)]
  rfl

/-- A [176, 512] block times [512, 1024] into zero, at (p, q). -/
theorem matmul176_apply (a : FVec Ideal S176x512 .bf16) (b : FVec Ideal S512x1024 .bf16) (p : Fin 176) (q : Fin 1024) :
    matmul dot_S176x512_S512x1024_S176x1024_1_0_0_1_n_n none a b (constant (F := Ideal) S176x1024 .f32 0x00000000#32) (ix2 p q)
      = ∑ k : Fin 512, a (ix2 p k) * b (ix2 k q) := by
  simp only [matmul]
  rw [Ideal.matmul_constant_zero_apply, ← Equiv.sum_comp (contrEquiv1 dot_S176x512_S512x1024_S176x1024_1_0_0_1_n_n 512 rfl rfl).symm]
  refine Finset.sum_congr rfl fun k _ => ?_
  have hk := contrEquiv1_symm_val dot_S176x512_S512x1024_S176x1024_1_0_0_1_n_n 512 rfl rfl k
  have el : dot_S176x512_S512x1024_S176x1024_1_0_0_1_n_n.lhsIdx (ix2 p q) ((contrEquiv1 dot_S176x512_S512x1024_S176x1024_1_0_0_1_n_n 512 rfl rfl).symm k) = ix2 p k := funext fun c => Fin.ext (by
    match c with
    | ⟨0, _⟩ => exact lhs_176_0 _ _
    | ⟨1, _⟩ => exact (lhs_176_1 _ _).trans hk)
  have er : dot_S176x512_S512x1024_S176x1024_1_0_0_1_n_n.rhsIdx (ix2 p q) ((contrEquiv1 dot_S176x512_S512x1024_S176x1024_1_0_0_1_n_n 512 rfl rfl).symm k) = ix2 k q := funext fun c => Fin.ext (by
    match c with
    | ⟨0, _⟩ => exact (rhs_176_0 _ _).trans hk
    | ⟨1, _⟩ => exact rhs_176_1 _ _)
  rw [el, er]

/-! ### 160 rows -/

theorem lhs_160_0 (i : S160x1024.Idx) (q : dot_S160x512_S512x1024_S160x1024_1_0_0_1_n_n.contr.Idx) :
    (dot_S160x512_S512x1024_S160x1024_1_0_0_1_n_n.lhsIdx i q 0).val = (i 0).val := by
  unfold DotDims.lhsIdx
  rw [dif_neg (show ¬(0 : Fin S160x512.rank) ∈ dot_S160x512_S512x1024_S160x1024_1_0_0_1_n_n.lhsBatch by decide), dif_pos (show (0 : Fin S160x512.rank) ∈ dot_S160x512_S512x1024_S160x1024_1_0_0_1_n_n.lhsNonContracting by decide)]
  rfl
theorem lhs_160_1 (i : S160x1024.Idx) (q : dot_S160x512_S512x1024_S160x1024_1_0_0_1_n_n.contr.Idx) :
    (dot_S160x512_S512x1024_S160x1024_1_0_0_1_n_n.lhsIdx i q 1).val = (q ⟨0, by decide⟩).val :=
  dot_S160x512_S512x1024_S160x1024_1_0_0_1_n_n.lhsIdx_val_of_single rfl i q
theorem rhs_160_0 (i : S160x1024.Idx) (q : dot_S160x512_S512x1024_S160x1024_1_0_0_1_n_n.contr.Idx) :
    (dot_S160x512_S512x1024_S160x1024_1_0_0_1_n_n.rhsIdx i q 0).val = (q ⟨0, by decide⟩).val :=
  dot_S160x512_S512x1024_S160x1024_1_0_0_1_n_n.rhsIdx_val_of_single rfl i q
theorem rhs_160_1 (i : S160x1024.Idx) (q : dot_S160x512_S512x1024_S160x1024_1_0_0_1_n_n.contr.Idx) :
    (dot_S160x512_S512x1024_S160x1024_1_0_0_1_n_n.rhsIdx i q 1).val = (i 1).val := by
  unfold DotDims.rhsIdx
  rw [dif_neg (show ¬(1 : Fin S512x1024.rank) ∈ dot_S160x512_S512x1024_S160x1024_1_0_0_1_n_n.rhsBatch by decide), dif_pos (show (1 : Fin S512x1024.rank) ∈ dot_S160x512_S512x1024_S160x1024_1_0_0_1_n_n.rhsNonContracting by decide)]
  rfl

/-- A [160, 512] block times [512, 1024] into zero, at (p, q). -/
theorem matmul160_apply (a : FVec Ideal S160x512 .bf16) (b : FVec Ideal S512x1024 .bf16) (p : Fin 160) (q : Fin 1024) :
    matmul dot_S160x512_S512x1024_S160x1024_1_0_0_1_n_n none a b (constant (F := Ideal) S160x1024 .f32 0x00000000#32) (ix2 p q)
      = ∑ k : Fin 512, a (ix2 p k) * b (ix2 k q) := by
  simp only [matmul]
  rw [Ideal.matmul_constant_zero_apply, ← Equiv.sum_comp (contrEquiv1 dot_S160x512_S512x1024_S160x1024_1_0_0_1_n_n 512 rfl rfl).symm]
  refine Finset.sum_congr rfl fun k _ => ?_
  have hk := contrEquiv1_symm_val dot_S160x512_S512x1024_S160x1024_1_0_0_1_n_n 512 rfl rfl k
  have el : dot_S160x512_S512x1024_S160x1024_1_0_0_1_n_n.lhsIdx (ix2 p q) ((contrEquiv1 dot_S160x512_S512x1024_S160x1024_1_0_0_1_n_n 512 rfl rfl).symm k) = ix2 p k := funext fun c => Fin.ext (by
    match c with
    | ⟨0, _⟩ => exact lhs_160_0 _ _
    | ⟨1, _⟩ => exact (lhs_160_1 _ _).trans hk)
  have er : dot_S160x512_S512x1024_S160x1024_1_0_0_1_n_n.rhsIdx (ix2 p q) ((contrEquiv1 dot_S160x512_S512x1024_S160x1024_1_0_0_1_n_n 512 rfl rfl).symm k) = ix2 k q := funext fun c => Fin.ext (by
    match c with
    | ⟨0, _⟩ => exact (rhs_160_0 _ _).trans hk
    | ⟨1, _⟩ => exact rhs_160_1 _ _)
  rw [el, er]

/-! ## The shapes in which a product is stored

A gathered block arrives as [1, M, 512]; the product is kept as [M, 1024] or stored as
[1, M, 1024]. One lemma per arrangement and row count; the shape-cast facts are arguments, so
that each stored term is an instance. -/

/-- [1, 352, 512] block, product stored as [1, 352, 1024]. -/
theorem dropMulAdd352 (a : FVec Ideal S1x352x512 .bf16) (b : FVec Ideal S512x1024 .bf16)
    (h₁ : S1x352x512.ShapeCasts S352x512) (h₂ : S352x1024.ShapeCasts S1x352x1024) (u : Fin 1) (p : Fin 352) (q : Fin 1024) :
    shapeCast S1x352x1024 (matmul dot_S352x512_S512x1024_S352x1024_1_0_0_1_n_n none (shapeCast S352x512 a h₁) b (constant (F := Ideal) S352x1024 .f32 0x00000000#32)) h₂ (ix3 u p q)
      = ∑ k : Fin 512, a (ix3 (0 : Fin 1) p k) * b (ix2 k q) := by
  rw [shapeCast_ab_1ab_apply, matmul352_apply]
  refine Finset.sum_congr rfl fun k _ => ?_
  rw [shapeCast_1ab_ab_apply]

/-- [1, 352, 512] block, product kept as [352, 1024]. -/
theorem dropMul352 (a : FVec Ideal S1x352x512 .bf16) (b : FVec Ideal S512x1024 .bf16)
    (h₁ : S1x352x512.ShapeCasts S352x512) (p : Fin 352) (q : Fin 1024) :
    matmul dot_S352x512_S512x1024_S352x1024_1_0_0_1_n_n none (shapeCast S352x512 a h₁) b (constant (F := Ideal) S352x1024 .f32 0x00000000#32) (ix2 p q)
      = ∑ k : Fin 512, a (ix3 (0 : Fin 1) p k) * b (ix2 k q) := by
  rw [matmul352_apply]
  refine Finset.sum_congr rfl fun k _ => ?_
  rw [shapeCast_1ab_ab_apply]

/-- [1, 336, 512] block, product stored as [1, 336, 1024]. -/
theorem dropMulAdd336 (a : FVec Ideal S1x336x512 .bf16) (b : FVec Ideal S512x1024 .bf16)
    (h₁ : S1x336x512.ShapeCasts S336x512) (h₂ : S336x1024.ShapeCasts S1x336x1024) (u : Fin 1) (p : Fin 336) (q : Fin 1024) :
    shapeCast S1x336x1024 (matmul dot_S336x512_S512x1024_S336x1024_1_0_0_1_n_n none (shapeCast S336x512 a h₁) b (constant (F := Ideal) S336x1024 .f32 0x00000000#32)) h₂ (ix3 u p q)
      = ∑ k : Fin 512, a (ix3 (0 : Fin 1) p k) * b (ix2 k q) := by
  rw [shapeCast_ab_1ab_apply, matmul336_apply]
  refine Finset.sum_congr rfl fun k _ => ?_
  rw [shapeCast_1ab_ab_apply]

/-- [1, 336, 512] block, product kept as [336, 1024]. -/
theorem dropMul336 (a : FVec Ideal S1x336x512 .bf16) (b : FVec Ideal S512x1024 .bf16)
    (h₁ : S1x336x512.ShapeCasts S336x512) (p : Fin 336) (q : Fin 1024) :
    matmul dot_S336x512_S512x1024_S336x1024_1_0_0_1_n_n none (shapeCast S336x512 a h₁) b (constant (F := Ideal) S336x1024 .f32 0x00000000#32) (ix2 p q)
      = ∑ k : Fin 512, a (ix3 (0 : Fin 1) p k) * b (ix2 k q) := by
  rw [matmul336_apply]
  refine Finset.sum_congr rfl fun k _ => ?_
  rw [shapeCast_1ab_ab_apply]

/-- [336, 512] block, product stored as [1, 336, 1024]. -/
theorem mulAdd336 (a : FVec Ideal S336x512 .bf16) (b : FVec Ideal S512x1024 .bf16)
    (h₂ : S336x1024.ShapeCasts S1x336x1024) (u : Fin 1) (p : Fin 336) (q : Fin 1024) :
    shapeCast S1x336x1024 (matmul dot_S336x512_S512x1024_S336x1024_1_0_0_1_n_n none a b (constant (F := Ideal) S336x1024 .f32 0x00000000#32)) h₂ (ix3 u p q)
      = ∑ k : Fin 512, a (ix2 p k) * b (ix2 k q) := by
  rw [shapeCast_ab_1ab_apply, matmul336_apply]

/-- [1, 176, 512] block, product stored as [1, 176, 1024]. -/
theorem dropMulAdd176 (a : FVec Ideal S1x176x512 .bf16) (b : FVec Ideal S512x1024 .bf16)
    (h₁ : S1x176x512.ShapeCasts S176x512) (h₂ : S176x1024.ShapeCasts S1x176x1024) (u : Fin 1) (p : Fin 176) (q : Fin 1024) :
    shapeCast S1x176x1024 (matmul dot_S176x512_S512x1024_S176x1024_1_0_0_1_n_n none (shapeCast S176x512 a h₁) b (constant (F := Ideal) S176x1024 .f32 0x00000000#32)) h₂ (ix3 u p q)
      = ∑ k : Fin 512, a (ix3 (0 : Fin 1) p k) * b (ix2 k q) := by
  rw [shapeCast_ab_1ab_apply, matmul176_apply]
  refine Finset.sum_congr rfl fun k _ => ?_
  rw [shapeCast_1ab_ab_apply]

/-- [1, 176, 512] block, product kept as [176, 1024]. -/
theorem dropMul176 (a : FVec Ideal S1x176x512 .bf16) (b : FVec Ideal S512x1024 .bf16)
    (h₁ : S1x176x512.ShapeCasts S176x512) (p : Fin 176) (q : Fin 1024) :
    matmul dot_S176x512_S512x1024_S176x1024_1_0_0_1_n_n none (shapeCast S176x512 a h₁) b (constant (F := Ideal) S176x1024 .f32 0x00000000#32) (ix2 p q)
      = ∑ k : Fin 512, a (ix3 (0 : Fin 1) p k) * b (ix2 k q) := by
  rw [matmul176_apply]
  refine Finset.sum_congr rfl fun k _ => ?_
  rw [shapeCast_1ab_ab_apply]

/-- [176, 512] block, product stored as [1, 176, 1024]. -/
theorem mulAdd176 (a : FVec Ideal S176x512 .bf16) (b : FVec Ideal S512x1024 .bf16)
    (h₂ : S176x1024.ShapeCasts S1x176x1024) (u : Fin 1) (p : Fin 176) (q : Fin 1024) :
    shapeCast S1x176x1024 (matmul dot_S176x512_S512x1024_S176x1024_1_0_0_1_n_n none a b (constant (F := Ideal) S176x1024 .f32 0x00000000#32)) h₂ (ix3 u p q)
      = ∑ k : Fin 512, a (ix2 p k) * b (ix2 k q) := by
  rw [shapeCast_ab_1ab_apply, matmul176_apply]

/-- [1, 160, 512] block, product stored as [1, 160, 1024]. -/
theorem dropMulAdd160 (a : FVec Ideal S1x160x512 .bf16) (b : FVec Ideal S512x1024 .bf16)
    (h₁ : S1x160x512.ShapeCasts S160x512) (h₂ : S160x1024.ShapeCasts S1x160x1024) (u : Fin 1) (p : Fin 160) (q : Fin 1024) :
    shapeCast S1x160x1024 (matmul dot_S160x512_S512x1024_S160x1024_1_0_0_1_n_n none (shapeCast S160x512 a h₁) b (constant (F := Ideal) S160x1024 .f32 0x00000000#32)) h₂ (ix3 u p q)
      = ∑ k : Fin 512, a (ix3 (0 : Fin 1) p k) * b (ix2 k q) := by
  rw [shapeCast_ab_1ab_apply, matmul160_apply]
  refine Finset.sum_congr rfl fun k _ => ?_
  rw [shapeCast_1ab_ab_apply]

/-! ## Each stored product, by name

Group 0 has 352 rows, groups 1 and 2 have 336; the last gathered slot is multiplied in two row
ranges, [0, 176) and [176, M), so its blocks have 176 rows, and 176 or 160. -/

/-! ### Group 0, whole slots: [1, 352, 512] to [1, 352, 1024] -/

theorem pay10_apply (a : Vec Ideal S1x352x512 .bf16) (b : Vec Ideal S512x1024 .bf16) (u : Fin 1) (p : Fin 352) (q : Fin 1024) :
    k0_pay10 (F := Ideal) a b (ix3 u p q) = ∑ k : Fin 512, a (ix3 (0 : Fin 1) p k) * b (ix2 k q) := by
  unfold k0_pay10; exact dropMulAdd352 a b _ _ u p q
theorem pay14_apply (a : Vec Ideal S1x352x512 .bf16) (b : Vec Ideal S512x1024 .bf16) (u : Fin 1) (p : Fin 352) (q : Fin 1024) :
    k0_pay14 (F := Ideal) a b (ix3 u p q) = ∑ k : Fin 512, a (ix3 (0 : Fin 1) p k) * b (ix2 k q) := by
  unfold k0_pay14; exact dropMulAdd352 a b _ _ u p q
theorem pay17_apply (a : Vec Ideal S1x352x512 .bf16) (b : Vec Ideal S512x1024 .bf16) (u : Fin 1) (p : Fin 352) (q : Fin 1024) :
    k0_pay17 (F := Ideal) a b (ix3 u p q) = ∑ k : Fin 512, a (ix3 (0 : Fin 1) p k) * b (ix2 k q) := by
  unfold k0_pay17; exact dropMulAdd352 a b _ _ u p q
theorem pay21_apply (a : Vec Ideal S1x352x512 .bf16) (b : Vec Ideal S512x1024 .bf16) (u : Fin 1) (p : Fin 352) (q : Fin 1024) :
    k0_pay21 (F := Ideal) a b (ix3 u p q) = ∑ k : Fin 512, a (ix3 (0 : Fin 1) p k) * b (ix2 k q) := by
  unfold k0_pay21; exact dropMulAdd352 a b _ _ u p q
theorem pay25_apply (a : Vec Ideal S1x352x512 .bf16) (b : Vec Ideal S512x1024 .bf16) (u : Fin 1) (p : Fin 352) (q : Fin 1024) :
    k0_pay25 (F := Ideal) a b (ix3 u p q) = ∑ k : Fin 512, a (ix3 (0 : Fin 1) p k) * b (ix2 k q) := by
  unfold k0_pay25; exact dropMulAdd352 a b _ _ u p q
theorem pay28_apply (a : Vec Ideal S1x352x512 .bf16) (b : Vec Ideal S512x1024 .bf16) (u : Fin 1) (p : Fin 352) (q : Fin 1024) :
    k0_pay28 (F := Ideal) a b (ix3 u p q) = ∑ k : Fin 512, a (ix3 (0 : Fin 1) p k) * b (ix2 k q) := by
  unfold k0_pay28; exact dropMulAdd352 a b _ _ u p q

/-- Group 0's first slot: the product is carried as [352, 1024] and the unit axis added at the store. -/
theorem pay6_apply (a : Vec Ideal S1x352x512 .bf16) (b : Vec Ideal S512x1024 .bf16) (p : Fin 352) (q : Fin 1024) :
    k0_pay6 (F := Ideal) a b (ix2 p q) = ∑ k : Fin 512, a (ix3 (0 : Fin 1) p k) * b (ix2 k q) := by
  unfold k0_pay6; exact dropMul352 a b _ p q
theorem pay7_pay6_apply (a : Vec Ideal S1x352x512 .bf16) (b : Vec Ideal S512x1024 .bf16) (u : Fin 1) (p : Fin 352) (q : Fin 1024) :
    k0_pay7 (F := Ideal) (k0_pay6 (F := Ideal) a b) (ix3 u p q) = ∑ k : Fin 512, a (ix3 (0 : Fin 1) p k) * b (ix2 k q) := by
  rw [pay7_apply, pay6_apply]

/-! ### Groups 1 and 2, whole slots: [1, 336, 512] to [1, 336, 1024] -/

theorem pay8_apply (a : Vec Ideal S1x336x512 .bf16) (b : Vec Ideal S512x1024 .bf16) (u : Fin 1) (p : Fin 336) (q : Fin 1024) :
    k0_pay8 (F := Ideal) a b (ix3 u p q) = ∑ k : Fin 512, a (ix3 (0 : Fin 1) p k) * b (ix2 k q) := by
  unfold k0_pay8; exact dropMulAdd336 a b _ _ u p q
theorem pay9_apply (a : Vec Ideal S1x336x512 .bf16) (b : Vec Ideal S512x1024 .bf16) (u : Fin 1) (p : Fin 336) (q : Fin 1024) :
    k0_pay9 (F := Ideal) a b (ix3 u p q) = ∑ k : Fin 512, a (ix3 (0 : Fin 1) p k) * b (ix2 k q) := by
  unfold k0_pay9; exact dropMulAdd336 a b _ _ u p q
theorem pay11_apply (a : Vec Ideal S1x336x512 .bf16) (b : Vec Ideal S512x1024 .bf16) (u : Fin 1) (p : Fin 336) (q : Fin 1024) :
    k0_pay11 (F := Ideal) a b (ix3 u p q) = ∑ k : Fin 512, a (ix3 (0 : Fin 1) p k) * b (ix2 k q) := by
  unfold k0_pay11; exact dropMulAdd336 a b _ _ u p q
theorem pay15_apply (a : Vec Ideal S1x336x512 .bf16) (b : Vec Ideal S512x1024 .bf16) (u : Fin 1) (p : Fin 336) (q : Fin 1024) :
    k0_pay15 (F := Ideal) a b (ix3 u p q) = ∑ k : Fin 512, a (ix3 (0 : Fin 1) p k) * b (ix2 k q) := by
  unfold k0_pay15; exact dropMulAdd336 a b _ _ u p q
theorem pay16_apply (a : Vec Ideal S1x336x512 .bf16) (b : Vec Ideal S512x1024 .bf16) (u : Fin 1) (p : Fin 336) (q : Fin 1024) :
    k0_pay16 (F := Ideal) a b (ix3 u p q) = ∑ k : Fin 512, a (ix3 (0 : Fin 1) p k) * b (ix2 k q) := by
  unfold k0_pay16; exact dropMulAdd336 a b _ _ u p q
theorem pay20_apply (a : Vec Ideal S1x336x512 .bf16) (b : Vec Ideal S512x1024 .bf16) (u : Fin 1) (p : Fin 336) (q : Fin 1024) :
    k0_pay20 (F := Ideal) a b (ix3 u p q) = ∑ k : Fin 512, a (ix3 (0 : Fin 1) p k) * b (ix2 k q) := by
  unfold k0_pay20; exact dropMulAdd336 a b _ _ u p q
theorem pay22_apply (a : Vec Ideal S1x336x512 .bf16) (b : Vec Ideal S512x1024 .bf16) (u : Fin 1) (p : Fin 336) (q : Fin 1024) :
    k0_pay22 (F := Ideal) a b (ix3 u p q) = ∑ k : Fin 512, a (ix3 (0 : Fin 1) p k) * b (ix2 k q) := by
  unfold k0_pay22; exact dropMulAdd336 a b _ _ u p q
theorem pay26_apply (a : Vec Ideal S1x336x512 .bf16) (b : Vec Ideal S512x1024 .bf16) (u : Fin 1) (p : Fin 336) (q : Fin 1024) :
    k0_pay26 (F := Ideal) a b (ix3 u p q) = ∑ k : Fin 512, a (ix3 (0 : Fin 1) p k) * b (ix2 k q) := by
  unfold k0_pay26; exact dropMulAdd336 a b _ _ u p q
theorem pay27_apply (a : Vec Ideal S1x336x512 .bf16) (b : Vec Ideal S512x1024 .bf16) (u : Fin 1) (p : Fin 336) (q : Fin 1024) :
    k0_pay27 (F := Ideal) a b (ix3 u p q) = ∑ k : Fin 512, a (ix3 (0 : Fin 1) p k) * b (ix2 k q) := by
  unfold k0_pay27; exact dropMulAdd336 a b _ _ u p q
theorem pay31_apply (a : Vec Ideal S1x336x512 .bf16) (b : Vec Ideal S512x1024 .bf16) (u : Fin 1) (p : Fin 336) (q : Fin 1024) :
    k0_pay31 (F := Ideal) a b (ix3 u p q) = ∑ k : Fin 512, a (ix3 (0 : Fin 1) p k) * b (ix2 k q) := by
  unfold k0_pay31; exact dropMulAdd336 a b _ _ u p q

/-- Products carried as [336, 1024], the unit axis added at the store. -/
theorem pay12_apply (a : Vec Ideal S1x336x512 .bf16) (b : Vec Ideal S512x1024 .bf16) (p : Fin 336) (q : Fin 1024) :
    k0_pay12 (F := Ideal) a b (ix2 p q) = ∑ k : Fin 512, a (ix3 (0 : Fin 1) p k) * b (ix2 k q) := by
  unfold k0_pay12; exact dropMul336 a b _ p q
theorem pay18_apply (a : Vec Ideal S1x336x512 .bf16) (b : Vec Ideal S512x1024 .bf16) (p : Fin 336) (q : Fin 1024) :
    k0_pay18 (F := Ideal) a b (ix2 p q) = ∑ k : Fin 512, a (ix3 (0 : Fin 1) p k) * b (ix2 k q) := by
  unfold k0_pay18; exact dropMul336 a b _ p q
theorem pay29_apply (a : Vec Ideal S1x336x512 .bf16) (b : Vec Ideal S512x1024 .bf16) (p : Fin 336) (q : Fin 1024) :
    k0_pay29 (F := Ideal) a b (ix2 p q) = ∑ k : Fin 512, a (ix3 (0 : Fin 1) p k) * b (ix2 k q) := by
  unfold k0_pay29; exact dropMul336 a b _ p q
theorem pay13_pay12_apply (a : Vec Ideal S1x336x512 .bf16) (b : Vec Ideal S512x1024 .bf16) (u : Fin 1) (p : Fin 336) (q : Fin 1024) :
    k0_pay13 (F := Ideal) (k0_pay12 (F := Ideal) a b) (ix3 u p q) = ∑ k : Fin 512, a (ix3 (0 : Fin 1) p k) * b (ix2 k q) := by
  rw [pay13_apply, pay12_apply]
theorem pay19_pay18_apply (a : Vec Ideal S1x336x512 .bf16) (b : Vec Ideal S512x1024 .bf16) (u : Fin 1) (p : Fin 336) (q : Fin 1024) :
    k0_pay19 (F := Ideal) (k0_pay18 (F := Ideal) a b) (ix3 u p q) = ∑ k : Fin 512, a (ix3 (0 : Fin 1) p k) * b (ix2 k q) := by
  rw [pay19_apply, pay18_apply]
theorem pay30_pay29_apply (a : Vec Ideal S1x336x512 .bf16) (b : Vec Ideal S512x1024 .bf16) (u : Fin 1) (p : Fin 336) (q : Fin 1024) :
    k0_pay30 (F := Ideal) (k0_pay29 (F := Ideal) a b) (ix3 u p q) = ∑ k : Fin 512, a (ix3 (0 : Fin 1) p k) * b (ix2 k q) := by
  rw [pay30_apply, pay29_apply]

/-- The unit axis dropped before the product and added after it, in two steps. -/
theorem pay24_apply (a : FVec Ideal S336x512 .bf16) (b : Vec Ideal S512x1024 .bf16) (u : Fin 1) (p : Fin 336) (q : Fin 1024) :
    k0_pay24 (F := Ideal) a b (ix3 u p q) = ∑ k : Fin 512, a (ix2 p k) * b (ix2 k q) := by
  unfold k0_pay24; exact mulAdd336 a b _ u p q
theorem pay24_pay23_apply (a : Vec Ideal S1x336x512 .bf16) (b : Vec Ideal S512x1024 .bf16) (u : Fin 1) (p : Fin 336) (q : Fin 1024) :
    k0_pay24 (F := Ideal) (k0_pay23 (F := Ideal) a) b (ix3 u p q) = ∑ k : Fin 512, a (ix3 (0 : Fin 1) p k) * b (ix2 k q) := by
  rw [pay24_apply]
  refine Finset.sum_congr rfl fun k _ => ?_
  rw [pay23_apply]

/-! ### The last slot, rows [0, 176): [1, 176, 512] to [1, 176, 1024] -/

theorem pay32_apply (a : Vec Ideal S1x176x512 .bf16) (b : Vec Ideal S512x1024 .bf16) (u : Fin 1) (p : Fin 176) (q : Fin 1024) :
    k0_pay32 (F := Ideal) a b (ix3 u p q) = ∑ k : Fin 512, a (ix3 (0 : Fin 1) p k) * b (ix2 k q) := by
  unfold k0_pay32; exact dropMulAdd176 a b _ _ u p q
theorem pay33_apply (a : Vec Ideal S1x176x512 .bf16) (b : Vec Ideal S512x1024 .bf16) (p : Fin 176) (q : Fin 1024) :
    k0_pay33 (F := Ideal) a b (ix2 p q) = ∑ k : Fin 512, a (ix3 (0 : Fin 1) p k) * b (ix2 k q) := by
  unfold k0_pay33; exact dropMul176 a b _ p q
theorem pay34_pay33_apply (a : Vec Ideal S1x176x512 .bf16) (b : Vec Ideal S512x1024 .bf16) (u : Fin 1) (p : Fin 176) (q : Fin 1024) :
    k0_pay34 (F := Ideal) (k0_pay33 (F := Ideal) a b) (ix3 u p q) = ∑ k : Fin 512, a (ix3 (0 : Fin 1) p k) * b (ix2 k q) := by
  rw [pay34_apply, pay33_apply]
theorem pay36_apply (a : FVec Ideal S176x512 .bf16) (b : Vec Ideal S512x1024 .bf16) (u : Fin 1) (p : Fin 176) (q : Fin 1024) :
    k0_pay36 (F := Ideal) a b (ix3 u p q) = ∑ k : Fin 512, a (ix2 p k) * b (ix2 k q) := by
  unfold k0_pay36; exact mulAdd176 a b _ u p q
theorem pay36_pay35_apply (a : Vec Ideal S1x176x512 .bf16) (b : Vec Ideal S512x1024 .bf16) (u : Fin 1) (p : Fin 176) (q : Fin 1024) :
    k0_pay36 (F := Ideal) (k0_pay35 (F := Ideal) a) b (ix3 u p q) = ∑ k : Fin 512, a (ix3 (0 : Fin 1) p k) * b (ix2 k q) := by
  rw [pay36_apply]
  refine Finset.sum_congr rfl fun k _ => ?_
  rw [pay35_apply]

/-! ### The last slot, rows [176, M): 176 rows in group 0, 160 in groups 1 and 2 -/

/-- Group 0: the zero accumulator is passed in as an argument. -/
theorem pay38_apply (a : FVec Ideal S176x512 .bf16) (b : Vec Ideal S512x1024 .bf16) (u : Fin 1) (p : Fin 176) (q : Fin 1024) :
    k0_pay38 (F := Ideal) a b (constant (F := Ideal) S176x1024 .f32 0x00000000#32) (ix3 u p q)
      = ∑ k : Fin 512, a (ix2 p k) * b (ix2 k q) := by
  unfold k0_pay38; exact mulAdd176 a b _ u p q
theorem pay38_pay37_apply (a : Vec Ideal S1x176x512 .bf16) (b : Vec Ideal S512x1024 .bf16) (u : Fin 1) (p : Fin 176) (q : Fin 1024) :
    k0_pay38 (F := Ideal) (k0_pay37 (F := Ideal) a) b (constant (F := Ideal) S176x1024 .f32 0x00000000#32) (ix3 u p q)
      = ∑ k : Fin 512, a (ix3 (0 : Fin 1) p k) * b (ix2 k q) := by
  rw [pay38_apply]
  refine Finset.sum_congr rfl fun k _ => ?_
  rw [pay37_apply]
theorem pay39_apply (a : Vec Ideal S1x160x512 .bf16) (b : Vec Ideal S512x1024 .bf16) (u : Fin 1) (p : Fin 160) (q : Fin 1024) :
    k0_pay39 (F := Ideal) a b (ix3 u p q) = ∑ k : Fin 512, a (ix3 (0 : Fin 1) p k) * b (ix2 k q) := by
  unfold k0_pay39; exact dropMulAdd160 a b _ _ u p q
theorem pay40_apply (a : Vec Ideal S1x160x512 .bf16) (b : Vec Ideal S512x1024 .bf16) (u : Fin 1) (p : Fin 160) (q : Fin 1024) :
    k0_pay40 (F := Ideal) a b (ix3 u p q) = ∑ k : Fin 512, a (ix3 (0 : Fin 1) p k) * b (ix2 k q) := by
  unfold k0_pay40; exact dropMulAdd160 a b _ _ u p q

/-- info: 'Cert.KernelIdeal.DM.Val.matmul352_apply' depends on axioms: [propext, Classical.choice, Quot.sound] -/
#guard_msgs in #print axioms matmul352_apply
/-- info: 'Cert.KernelIdeal.DM.Val.pay38_pay37_apply' depends on axioms: [propext, Classical.choice, Quot.sound] -/
#guard_msgs in #print axioms pay38_pay37_apply
/-- info: 'Cert.KernelIdeal.DM.Val.pay40_apply' depends on axioms: [propext, Classical.choice, Quot.sound] -/
#guard_msgs in #print axioms pay40_apply

end Cert.KernelIdeal.DM.Val

end
-- ==== Proof.RefValue.lean ====
import proofs.«900891_g7700000000000892_dist_matmul_m_i_outrep_m1024_n1024_k512_v7x_i8_f32_1_alg».proof.Defs
import proofs.«900891_g7700000000000892_dist_matmul_m_i_outrep_m1024_n1024_k512_v7x_i8_f32_1_alg».proof.Proof.Gen.ReferenceIdeal
import proofs.«900891_g7700000000000892_dist_matmul_m_i_outrep_m1024_n1024_k512_v7x_i8_f32_1_alg».proof.Proof.Gen.Pre_finite_inputs_ReferenceIdeal
import proofs.«900891_g7700000000000892_dist_matmul_m_i_outrep_m1024_n1024_k512_v7x_i8_f32_1_alg».proof.Proof.Gen.ReferenceIdeal.Run
import proofs.«900891_g7700000000000892_dist_matmul_m_i_outrep_m1024_n1024_k512_v7x_i8_f32_1_alg».proof.Proof.Gen.ReferenceIdeal.Read
import Idealize.ShloMosaic.Lib.ValueIdx
import Idealize.ShloMosaic.Lib.Layout

/-!
# The reference side: it runs, and its result is the product, entry by entry

The reference is one matrix product of the whole arrays A : [8192, 512] and B : [512, 1024].
Its frame conjunct is its run with the result dropped. Read at (i, q) its result is the sum over
k of A (i, k) * B (k, q). Device o of the mesh holds rows [o * 1024, (o + 1) * 1024) of A, so
entry (r, k) of its block is entry (o * 1024 + r, k) of A, and row o * 1024 + r of the reference's
result is the product of row r of that block with B.
-/

noncomputable section

namespace Cert.ReferenceIdeal.RefValue

open Cert.ReferenceIdeal Idealize.ShloMosaic Idealize.ShloMosaic.TcCoe Idealize.SL.Sem Idealize.ShloMosaic.ValueIdx

/-- The reference terminates without a fault and leaves its two arguments unchanged. -/
theorem frame_ri : Cert.frame_ReferenceIdeal :=
  fun m ρ _ => (θ_run Cert.ReferenceIdeal.defs _ _).mono (fun _ h c => (h c).2)
    (Cert.ReferenceIdeal.Value.run (F := Ideal) m ρ)

/-- The reference's result at (i, q): the sum over k of A (i, k) * B (k, q). -/
theorem ref_apply (A : FVec Ideal S8192x512 .f32) (B : FVec Ideal S512x1024 .f32)
    (i : Fin 8192) (q : Fin 1024) :
    Host.dotGeneral (F := Ideal) dot_S8192x512_S512x1024_S8192x1024_1_0_0_1_n_n none A B (ix2 i q)
      = ∑ k : Fin 512, A (ix2 i k) * B (ix2 k q) := by
  show Read.val_main_v0 (F := Ideal) A B (ix2 i q) = _
  rw [Read.val_main_v0_apply]
  refine Finset.sum_congr rfl fun k _ => ?_
  have el : Read.lidx_main_v0 (ix2 i q) k = ix2 i k := funext fun a => Fin.ext (by
    match a with
    | ⟨0, _⟩ => rfl
    | ⟨1, _⟩ => rfl)
  have er : Read.ridx_main_v0 (ix2 i q) k = ix2 k q := funext fun a => Fin.ext (by
    match a with
    | ⟨0, _⟩ => rfl
    | ⟨1, _⟩ => rfl)
  rw [el, er]

/-- Block o of an [8192, 512] array cut along the rows into eight: entry (r, k) of the block is
    entry (i, k) of the whole array, for the row i = o * 1024 + r. -/
theorem block_rows_at {α : Type} (o : Fin 8) (W : (⟨2, ![8192, 512]⟩ : Shape).Idx → α)
    (h : Layout.Tiles ⟨2, ![1024, 512]⟩ ⟨2, ![8192, 512]⟩ 0 8) (r : Fin 1024) (k : Fin 512)
    (i : Fin 8192) (hi : i.val = o.val * 1024 + r.val) :
    Layout.block ⟨2, ![1024, 512]⟩ ⟨2, ![8192, 512]⟩ 0 8 o W h (ix2 r k) = W (ix2 i k) := by
  rw [Layout.block_apply]
  refine congrArg W (funext fun a => Fin.ext ?_)
  match a with
  | ⟨0, _⟩ => exact ((Layout.idx_rows_val h o (ix2 r k)).1).trans hi.symm
  | ⟨1, _⟩ => exact (Layout.idx_rows_val h o (ix2 r k)).2

/-- The row of the whole array that row r of block o is. -/
def wholeRow (o : Fin 8) (r : Fin 1024) : Fin 8192 :=
  ⟨o.val * 1024 + r.val, by have := o.isLt; have := r.isLt; omega⟩

theorem wholeRow_val (o : Fin 8) (r : Fin 1024) : (wholeRow o r).val = o.val * 1024 + r.val := rfl

/-- The same with the row written out. -/
theorem block_rows_apply {α : Type} (o : Fin 8) (W : (⟨2, ![8192, 512]⟩ : Shape).Idx → α)
    (h : Layout.Tiles ⟨2, ![1024, 512]⟩ ⟨2, ![8192, 512]⟩ 0 8) (r : Fin 1024) (k : Fin 512) :
    Layout.block ⟨2, ![1024, 512]⟩ ⟨2, ![8192, 512]⟩ 0 8 o W h (ix2 r k) = W (ix2 (wholeRow o r) k) :=
  block_rows_at o W h r k (wholeRow o r) rfl

/-- Row o * 1024 + r of the reference's result is row r of block o of A times B. -/
theorem ref_at_block (A : FVec Ideal S8192x512 .f32) (B : FVec Ideal S512x1024 .f32)
    (h : Layout.Tiles ⟨2, ![1024, 512]⟩ ⟨2, ![8192, 512]⟩ 0 8) (o : Fin 8) (r : Fin 1024) (q : Fin 1024) :
    Host.dotGeneral (F := Ideal) dot_S8192x512_S512x1024_S8192x1024_1_0_0_1_n_n none A B (ix2 (wholeRow o r) q)
      = ∑ k : Fin 512, Layout.block ⟨2, ![1024, 512]⟩ ⟨2, ![8192, 512]⟩ 0 8 o A h (ix2 r k) * B (ix2 k q) := by
  rw [ref_apply]
  refine Finset.sum_congr rfl fun k _ => ?_
  rw [block_rows_apply]

/-- The whole product as one function of the whole arrays: entry j is the sum over k of A (j 0, k) * B (k, j 1). -/
def prodAB (A : FVec Ideal S8192x512 .f32) (B : FVec Ideal S512x1024 .f32) : FVec Ideal S8192x1024 .f32 :=
  fun j => ∑ k : Fin 512, A (ix2 (j 0) k) * B (ix2 k (j 1))

theorem prodAB_apply (A : FVec Ideal S8192x512 .f32) (B : FVec Ideal S512x1024 .f32) (i : Fin 8192) (q : Fin 1024) :
    prodAB A B (ix2 i q) = ∑ k : Fin 512, A (ix2 i k) * B (ix2 k q) := rfl

/-- The reference's result is that function. -/
theorem ref_eq_prodAB (A : FVec Ideal S8192x512 .f32) (B : FVec Ideal S512x1024 .f32) :
    Host.dotGeneral (F := Ideal) dot_S8192x512_S512x1024_S8192x1024_1_0_0_1_n_n none A B = prodAB A B := by
  funext j
  obtain ⟨i, q, rfl⟩ : ∃ (i : Fin 8192) (q : Fin 1024), j = ix2 i q := ⟨j 0, j 1, eq_ix2 j⟩
  exact ref_apply A B i q

/-- Row o * 1024 + r of the whole product is row r of block o of A times B. -/
theorem prodAB_at_block (A : FVec Ideal S8192x512 .f32) (B : FVec Ideal S512x1024 .f32)
    (h : Layout.Tiles ⟨2, ![1024, 512]⟩ ⟨2, ![8192, 512]⟩ 0 8) (o : Fin 8) (r : Fin 1024) (q : Fin 1024) :
    prodAB A B (ix2 (wholeRow o r) q)
      = ∑ k : Fin 512, Layout.block ⟨2, ![1024, 512]⟩ ⟨2, ![8192, 512]⟩ 0 8 o A h (ix2 r k) * B (ix2 k q) := by
  rw [← ref_eq_prodAB]
  exact ref_at_block A B h o r q

/-- info: 'Cert.ReferenceIdeal.RefValue.frame_ri' depends on axioms: [propext, Classical.choice, Quot.sound] -/
#guard_msgs in #print axioms frame_ri
/-- info: 'Cert.ReferenceIdeal.RefValue.ref_at_block' depends on axioms: [propext, Classical.choice, Quot.sound] -/
#guard_msgs in #print axioms ref_at_block
/-- info: 'Cert.ReferenceIdeal.RefValue.prodAB_at_block' depends on axioms: [propext, Classical.choice, Quot.sound] -/
#guard_msgs in #print axioms prodAB_at_block

end Cert.ReferenceIdeal.RefValue

end
-- ==== Proof.Value.lean ====
import proofs.«900891_g7700000000000892_dist_matmul_m_i_outrep_m1024_n1024_k512_v7x_i8_f32_1_alg».proof.Defs
import proofs.«900891_g7700000000000892_dist_matmul_m_i_outrep_m1024_n1024_k512_v7x_i8_f32_1_alg».proof.Proof.State
import proofs.«900891_g7700000000000892_dist_matmul_m_i_outrep_m1024_n1024_k512_v7x_i8_f32_1_alg».proof.Proof.ValueLemmas
import proofs.«900891_g7700000000000892_dist_matmul_m_i_outrep_m1024_n1024_k512_v7x_i8_f32_1_alg».proof.Proof.RefValue
import proofs.«900891_g7700000000000892_dist_matmul_m_i_outrep_m1024_n1024_k512_v7x_i8_f32_1_alg».proof.Proof.Gen.Pre_finite_inputs_Kernel

/-!
# Every device's result is the whole product

On device c the result buffer is written in 24 pieces: for each of the three row groups and each
of the eight gather slots, the rows of the product that belong to the device whose rows the slot
holds. Read through its piece, each block is a sum over k of a slot's entries times the narrowed
right factor's; the slot's entries are rows of the owner's block of A, the owner's block is its
rows of the whole A, and so the block is those rows of the whole product. The 24 pieces cover
all 8192 rows.
-/

noncomputable section

namespace Cert.KernelIdeal.DM.Val

open Cert.KernelIdeal Cert.KernelIdeal.Gen Cert.KernelIdeal.DM
open Idealize.ShloMosaic Idealize.ShloMosaic.TcCoe Idealize.ShloMosaic.ValueIdx
open Idealize.ShloMosaic.Pipeline (Window)
open Idealize.SL.Sem

/-! ## Coordinates under a rectangle of unit strides -/

/-- Coordinate a of the image of j under a unit-stride rectangle is the offset plus j's coordinate. -/
theorem emb_unit_val {s : Shape} (off size : Fin s.rank → Nat) (inb : ∀ a, off a + size a ≤ s.size a)
    (j : (Rect.unit off size inb).shape.Idx) (a : Fin s.rank) :
    ((Rect.unit off size inb).emb j a : ℕ) = off a + (j a).val := by
  rw [Rect.emb_apply]
  show off a + 1 * (j a).val = _
  omega

theorem idx_unit_val {s : Shape} (off size : Fin s.rank → Nat) (inb : ∀ a, off a + size a ≤ s.size a)
    (j : (Rect.unit off size inb).shape.Idx) (a : Fin s.rank) :
    ((Rect.unit off size inb).toLoadRect.idx j a : ℕ) = off a + (j a).val := by
  rw [LoadRect.idx_apply]
  show off a + 1 * (j a).val = _
  omega

/-! ## The staged inputs are the arguments -/

variable (m : (ℓ : Loc nD τ sig) → Buf (Elt Ideal) ℓ)

/-- The one block of the left factor's window is the whole of the device's block of A. -/
theorem xstg_apply (o : Dev nD) (r : Fin 1024) (k : Fin 512) :
    xstg (F := Ideal) m o (ix2 r k) = m ((o : Thread nD τ).loc main_arg0) (ix2 r k) := by
  unfold xstg
  show m ((o : Thread nD τ).loc main_arg0) ((win0_0.rect t0_0).emb (ix2 r k)) = _
  refine congrArg _ (funext fun a => Fin.ext ?_)
  exact Window.rect_emb_val_of_index_zero win0_0 t0_0 a rfl (ix2 r k)

/-- The one block of the right factor's window is the whole of B. -/
theorem ystg_apply (c : Dev nD) (k : Fin 512) (q : Fin 1024) :
    ystg (F := Ideal) m c (ix2 k q) = m ((c : Thread nD τ).loc main_arg1) (ix2 k q) := by
  unfold ystg
  show m ((c : Thread nD τ).loc main_arg1) ((win0_1.rect t0_0).emb (ix2 k q)) = _
  refine congrArg _ (funext fun a => Fin.ext ?_)
  exact Window.rect_emb_val_of_index_zero win0_1 t0_0 a rfl (ix2 k q)

/-! ## What a gather slot holds, and the narrowed right factor, entry by entry -/

/-- Entry (0, p, k) of the narrowed rows of group 0 of device o's block: entry (p, k) of the block. -/
theorem sv0_apply (o : Dev nD) (p : Fin 352) (k : Fin 512) (i : Fin 1024) (hi : i.val = p.val) :
    sv0 (F := Ideal) m o (ix3 (0 : Fin 1) p k) = m ((o : Thread nD τ).loc main_arg0) (ix2 i k) := by
  unfold sv0
  rw [pay1_apply]
  show xstg (F := Ideal) m o ((Rect.unit (s := S1024x512) ![0, 0] S352x512.size _).toLoadRect.idx (ix2 p k)) = _
  have e : (Rect.unit (s := S1024x512) ![0, 0] S352x512.size inb_S1024x512_S352x512_0_0).toLoadRect.idx (ix2 p k) = ix2 i k :=
    funext fun a => Fin.ext (by
      rw [idx_unit_val]
      match a with
      | ⟨0, _⟩ => exact (Nat.zero_add _).trans hi.symm
      | ⟨1, _⟩ => exact Nat.zero_add _)
  rw [e, xstg_apply]

/-- Group 1: entry (0, p, k) of the slot's value is entry (352 + p, k) of the block. -/
theorem sv1_apply (o : Dev nD) (p : Fin 336) (k : Fin 512) (i : Fin 1024) (hi : i.val = 352 + p.val) :
    sv1 (F := Ideal) m o (ix3 (0 : Fin 1) p k) = m ((o : Thread nD τ).loc main_arg0) (ix2 i k) := by
  unfold sv1
  rw [pay2_apply]
  show xstg (F := Ideal) m o ((Rect.unit (s := S1024x512) ![352, 0] S336x512.size _).toLoadRect.idx (ix2 p k)) = _
  have e : (Rect.unit (s := S1024x512) ![352, 0] S336x512.size inb_S1024x512_S336x512_352_0).toLoadRect.idx (ix2 p k) = ix2 i k :=
    funext fun a => Fin.ext (by
      rw [idx_unit_val]
      match a with
      | ⟨0, _⟩ => exact hi.symm
      | ⟨1, _⟩ => exact Nat.zero_add _)
  rw [e, xstg_apply]

/-- Group 2: entry (0, p, k) of the slot's value is entry (688 + p, k) of the block. -/
theorem sv2_apply (o : Dev nD) (p : Fin 336) (k : Fin 512) (i : Fin 1024) (hi : i.val = 688 + p.val) :
    sv2 (F := Ideal) m o (ix3 (0 : Fin 1) p k) = m ((o : Thread nD τ).loc main_arg0) (ix2 i k) := by
  unfold sv2
  rw [pay4_pay3_apply]
  show xstg (F := Ideal) m o ((Rect.unit (s := S1024x512) ![688, 0] S336x512.size _).toLoadRect.idx (ix2 p k)) = _
  have e : (Rect.unit (s := S1024x512) ![688, 0] S336x512.size inb_S1024x512_S336x512_688_0).toLoadRect.idx (ix2 p k) = ix2 i k :=
    funext fun a => Fin.ext (by
      rw [idx_unit_val]
      match a with
      | ⟨0, _⟩ => exact hi.symm
      | ⟨1, _⟩ => exact Nat.zero_add _)
  rw [e, xstg_apply]

/-- The narrowed right factor is the device's copy of B. -/
theorem bv_apply (c : Dev nD) (k : Fin 512) (q : Fin 1024) :
    bv (F := Ideal) m c (ix2 k q) = m ((c : Thread nD τ).loc main_arg1) (ix2 k q) := by
  unfold bv
  rw [pay5_apply]
  show ystg (F := Ideal) m c ((Rect.unit (s := S512x1024) ![0, 0] S512x1024.size _).toLoadRect.idx (ix2 k q)) = _
  have e : (Rect.unit (s := S512x1024) ![0, 0] S512x1024.size inb_S512x1024_S512x1024_0_0).toLoadRect.idx (ix2 k q) = ix2 k q :=
    funext fun a => Fin.ext (by
      rw [idx_unit_val]
      match a with
      | ⟨0, _⟩ => exact Nat.zero_add _
      | ⟨1, _⟩ => exact Nat.zero_add _)
  rw [e, ystg_apply]

/-! ## The four products, entry by entry -/

theorem prod352_apply (a : Vec Ideal S1x352x512 .bf16) (b : Vec Ideal S512x1024 .bf16) (p : Fin 352) (q : Fin 1024) :
    prod352 (F := Ideal) a b (ix2 p q) = ∑ k : Fin 512, a (ix3 (0 : Fin 1) p k) * b (ix2 k q) := by
  unfold prod352; exact dropMul352 a b _ p q
theorem prod336_apply (a : Vec Ideal S1x336x512 .bf16) (b : Vec Ideal S512x1024 .bf16) (p : Fin 336) (q : Fin 1024) :
    prod336 (F := Ideal) a b (ix2 p q) = ∑ k : Fin 512, a (ix3 (0 : Fin 1) p k) * b (ix2 k q) := by
  unfold prod336; exact dropMul336 a b _ p q
theorem prod176_apply (a : Vec Ideal S1x176x512 .bf16) (b : Vec Ideal S512x1024 .bf16) (p : Fin 176) (q : Fin 1024) :
    prod176 (F := Ideal) a b (ix2 p q) = ∑ k : Fin 512, a (ix3 (0 : Fin 1) p k) * b (ix2 k q) := by
  unfold prod176; exact dropMul176 a b _ p q
theorem prod160_apply (a : Vec Ideal S1x160x512 .bf16) (b : Vec Ideal S512x1024 .bf16) (p : Fin 160) (q : Fin 1024) :
    prod160 (F := Ideal) a b (ix2 p q) = ∑ k : Fin 512, a (ix3 (0 : Fin 1) p k) * b (ix2 k q) := by
  unfold prod160
  rw [matmul160_apply]
  refine Finset.sum_congr rfl fun k _ => ?_
  rw [shapeCast_1ab_ab_apply]

/-! ## Row ranges of a slot's value and of a product block -/

theorem topA_apply {e : EltTy} (v : Vec Ideal S1x352x512 e) (u : Fin 1) (p : Fin 176) (k : Fin 512) (i : Fin 352) (hi : i.val = p.val) :
    topA v (ix3 u p k) = v (ix3 u i k) := by
  unfold topA
  refine congrArg v (funext fun a => Fin.ext ?_)
  rw [emb_unit_val]
  match a with
  | ⟨0, _⟩ => exact Nat.zero_add _
  | ⟨1, _⟩ => exact (Nat.zero_add _).trans hi.symm
  | ⟨2, _⟩ => exact Nat.zero_add _
theorem botA_apply {e : EltTy} (v : Vec Ideal S1x352x512 e) (u : Fin 1) (p : Fin 176) (k : Fin 512) (i : Fin 352) (hi : i.val = 176 + p.val) :
    botA v (ix3 u p k) = v (ix3 u i k) := by
  unfold botA
  refine congrArg v (funext fun a => Fin.ext ?_)
  rw [emb_unit_val]
  match a with
  | ⟨0, _⟩ => exact Nat.zero_add _
  | ⟨1, _⟩ => exact hi.symm
  | ⟨2, _⟩ => exact Nat.zero_add _
theorem topB_apply {e : EltTy} (v : Vec Ideal S1x336x512 e) (u : Fin 1) (p : Fin 176) (k : Fin 512) (i : Fin 336) (hi : i.val = p.val) :
    topB v (ix3 u p k) = v (ix3 u i k) := by
  unfold topB
  refine congrArg v (funext fun a => Fin.ext ?_)
  rw [emb_unit_val]
  match a with
  | ⟨0, _⟩ => exact Nat.zero_add _
  | ⟨1, _⟩ => exact (Nat.zero_add _).trans hi.symm
  | ⟨2, _⟩ => exact Nat.zero_add _
theorem botB_apply {e : EltTy} (v : Vec Ideal S1x336x512 e) (u : Fin 1) (p : Fin 160) (k : Fin 512) (i : Fin 336) (hi : i.val = 176 + p.val) :
    botB v (ix3 u p k) = v (ix3 u i k) := by
  unfold botB
  refine congrArg v (funext fun a => Fin.ext ?_)
  rw [emb_unit_val]
  match a with
  | ⟨0, _⟩ => exact Nat.zero_add _
  | ⟨1, _⟩ => exact hi.symm
  | ⟨2, _⟩ => exact Nat.zero_add _

theorem topRA_apply {e : EltTy} (v : Vec Ideal S352x1024 e) (p : Fin 176) (q : Fin 1024) (i : Fin 352) (hi : i.val = p.val) :
    topRA v (ix2 p q) = v (ix2 i q) := by
  unfold topRA
  refine congrArg v (funext fun a => Fin.ext ?_)
  rw [emb_unit_val]
  match a with
  | ⟨0, _⟩ => exact (Nat.zero_add _).trans hi.symm
  | ⟨1, _⟩ => exact Nat.zero_add _
theorem botRA_apply {e : EltTy} (v : Vec Ideal S352x1024 e) (p : Fin 176) (q : Fin 1024) (i : Fin 352) (hi : i.val = 176 + p.val) :
    botRA v (ix2 p q) = v (ix2 i q) := by
  unfold botRA
  refine congrArg v (funext fun a => Fin.ext ?_)
  rw [emb_unit_val]
  match a with
  | ⟨0, _⟩ => exact hi.symm
  | ⟨1, _⟩ => exact Nat.zero_add _
theorem topRB_apply {e : EltTy} (v : Vec Ideal S336x1024 e) (p : Fin 176) (q : Fin 1024) (i : Fin 336) (hi : i.val = p.val) :
    topRB v (ix2 p q) = v (ix2 i q) := by
  unfold topRB
  refine congrArg v (funext fun a => Fin.ext ?_)
  rw [emb_unit_val]
  match a with
  | ⟨0, _⟩ => exact (Nat.zero_add _).trans hi.symm
  | ⟨1, _⟩ => exact Nat.zero_add _
theorem botRB_apply {e : EltTy} (v : Vec Ideal S336x1024 e) (p : Fin 160) (q : Fin 1024) (i : Fin 336) (hi : i.val = 176 + p.val) :
    botRB v (ix2 p q) = v (ix2 i q) := by
  unfold botRB
  refine congrArg v (funext fun a => Fin.ext ?_)
  rw [emb_unit_val]
  match a with
  | ⟨0, _⟩ => exact hi.symm
  | ⟨1, _⟩ => exact Nat.zero_add _

/-! ## Reading the result through one of its pieces -/

open Cert.ReferenceIdeal.RefValue (wholeRow wholeRow_val prodAB prodAB_at_block ref_eq_prodAB)

/-- Entry (p, q) of the piece of group 0 that belongs to device xr c k is entry ((xr c k) * 1024 + p, q) of the result. -/
theorem read_op0 (c : Dev nD) (k : Fin 8) (X : Buf (Elt Ideal) ((c : Thread nD τ).loc main_v1)) (p : Fin 352) (q : Fin 1024)
    (i : Fin 8192) (hi : i.val = (xr c k).val * 1024 + p.val) :
    (op0 c k).view.read (Elt Ideal) X (ix2 p q) = X (ix2 i q) := by
  unfold op0
  show X ((Rect.unit (s := S8192x1024) (k0_off1 c (BitVec.ofNat 32 k.val)) S352x1024.size _).emb (ix2 p q)) = _
  refine congrArg X (funext fun a => Fin.ext ?_)
  rw [emb_unit_val]
  have h0 : k0_off1 c (BitVec.ofNat 32 k.val) 0 = (xr c k).val * 1024 := congrFun (off1_eq c k) 0
  have h1 : k0_off1 c (BitVec.ofNat 32 k.val) 1 = 0 := congrFun (off1_eq c k) 1
  match a with
  | ⟨0, _⟩ => show k0_off1 c (BitVec.ofNat 32 k.val) 0 + p.val = i.val; omega
  | ⟨1, _⟩ => show k0_off1 c (BitVec.ofNat 32 k.val) 1 + q.val = q.val; omega

/-- The pieces of groups 1 (r = 0) and 2 (r = 1): rows from (xr c k) * 1024 + 352 + 336 * r on. -/
theorem read_op12 (c : Dev nD) (k : Fin 8) (r : Fin 2) (X : Buf (Elt Ideal) ((c : Thread nD τ).loc main_v1)) (p : Fin 336) (q : Fin 1024)
    (i : Fin 8192) (hi : i.val = (xr c k).val * 1024 + (352 + 336 * r.val) + p.val) :
    (op12 c k r).view.read (Elt Ideal) X (ix2 p q) = X (ix2 i q) := by
  unfold op12
  show X ((Rect.unit (s := S8192x1024) (k0_off2 c (BitVec.ofNat 32 k.val) (BitVec.ofNat 32 (352 + 336 * r.val))) S336x1024.size _).emb (ix2 p q)) = _
  refine congrArg X (funext fun a => Fin.ext ?_)
  rw [emb_unit_val]
  have h0 : k0_off2 c (BitVec.ofNat 32 k.val) (BitVec.ofNat 32 (352 + 336 * r.val)) 0 = (xr c k).val * 1024 + (352 + 336 * r.val) :=
    congrFun (off2_eq c k r) 0
  have h1 : k0_off2 c (BitVec.ofNat 32 k.val) (BitVec.ofNat 32 (352 + 336 * r.val)) 1 = 0 := congrFun (off2_eq c k r) 1
  match a with
  | ⟨0, _⟩ => show k0_off2 c (BitVec.ofNat 32 k.val) (BitVec.ofNat 32 (352 + 336 * r.val)) 0 + p.val = i.val; omega
  | ⟨1, _⟩ => show k0_off2 c (BitVec.ofNat 32 k.val) (BitVec.ofNat 32 (352 + 336 * r.val)) 1 + q.val = q.val; omega

/-! ## A product block, entry by entry, whichever way it was made

Blocks 0 to 6 are one product of the slot's rows; block 7 is two products, of the slot's rows
below 176 and from 176 on. Either way entry (p, q) is the sum over k of the slot's (0, p, k) times
the narrowed right factor's (k, q). -/

theorem stage0_pt (c : Dev nD) (j : Fin 8) (V : Vec Ideal S352x1024 .f32) (h : stageOK0 (F := Ideal) m c j V)
    (p : Fin 352) (q : Fin 1024) :
    V (ix2 p q) = ∑ k : Fin 512, sv0 (F := Ideal) m (xr c (mask 0 j)) (ix3 (0 : Fin 1) p k) * bv (F := Ideal) m c (ix2 k q) := by
  unfold stageOK0 at h
  by_cases hj : j = 7
  · rw [if_pos hj] at h
    subst hj
    obtain ⟨ht, hb⟩ := h
    by_cases hp : p.val < 176
    · rw [← topRA_apply V ⟨p.val, hp⟩ q p rfl, ht, prod176_apply]
      refine Finset.sum_congr rfl fun k _ => ?_
      rw [topA_apply _ 0 ⟨p.val, hp⟩ k p rfl]
    · have hp' : p.val - 176 < 176 := by have := p.isLt; omega
      have e : p.val = 176 + (p.val - 176) := by omega
      rw [← botRA_apply V ⟨p.val - 176, hp'⟩ q p e, hb, prod176_apply]
      refine Finset.sum_congr rfl fun k _ => ?_
      rw [botA_apply _ 0 ⟨p.val - 176, hp'⟩ k p e]
  · rw [if_neg hj] at h
    rw [h, prod352_apply]

theorem stage1_pt (c : Dev nD) (j : Fin 8) (V : Vec Ideal S336x1024 .f32) (h : stageOK1 (F := Ideal) m c j V)
    (p : Fin 336) (q : Fin 1024) :
    V (ix2 p q) = ∑ k : Fin 512, sv1 (F := Ideal) m (xr c (mask 1 j)) (ix3 (0 : Fin 1) p k) * bv (F := Ideal) m c (ix2 k q) := by
  unfold stageOK1 at h
  by_cases hj : j = 7
  · rw [if_pos hj] at h
    subst hj
    obtain ⟨ht, hb⟩ := h
    by_cases hp : p.val < 176
    · rw [← topRB_apply V ⟨p.val, hp⟩ q p rfl, ht, prod176_apply]
      refine Finset.sum_congr rfl fun k _ => ?_
      rw [topB_apply _ 0 ⟨p.val, hp⟩ k p rfl]
    · have hp' : p.val - 176 < 160 := by have := p.isLt; omega
      have e : p.val = 176 + (p.val - 176) := by omega
      rw [← botRB_apply V ⟨p.val - 176, hp'⟩ q p e, hb, prod160_apply]
      refine Finset.sum_congr rfl fun k _ => ?_
      rw [botB_apply _ 0 ⟨p.val - 176, hp'⟩ k p e]
  · rw [if_neg hj] at h
    rw [h, prod336_apply]

theorem stage2_pt (c : Dev nD) (j : Fin 8) (V : Vec Ideal S336x1024 .f32) (h : stageOK2 (F := Ideal) m c j V)
    (p : Fin 336) (q : Fin 1024) :
    V (ix2 p q) = ∑ k : Fin 512, sv2 (F := Ideal) m (xr c (mask 2 j)) (ix3 (0 : Fin 1) p k) * bv (F := Ideal) m c (ix2 k q) := by
  unfold stageOK2 at h
  by_cases hj : j = 7
  · rw [if_pos hj] at h
    subst hj
    obtain ⟨ht, hb⟩ := h
    by_cases hp : p.val < 176
    · rw [← topRB_apply V ⟨p.val, hp⟩ q p rfl, ht, prod176_apply]
      refine Finset.sum_congr rfl fun k _ => ?_
      rw [topB_apply _ 0 ⟨p.val, hp⟩ k p rfl]
    · have hp' : p.val - 176 < 160 := by have := p.isLt; omega
      have e : p.val = 176 + (p.val - 176) := by omega
      rw [← botRB_apply V ⟨p.val - 176, hp'⟩ q p e, hb, prod160_apply]
      refine Finset.sum_congr rfl fun k _ => ?_
      rw [botB_apply _ 0 ⟨p.val - 176, hp'⟩ k p e]
  · rw [if_neg hj] at h
    rw [h, prod336_apply]

/-! ## The rows of a piece, in terms of the arguments -/

/-- Row r of a block of A times column q of B. -/
def rowProd (Ao : FVec Ideal S1024x512 .f32) (Bc : FVec Ideal S512x1024 .f32) (r : Fin 1024) (q : Fin 1024) : EReal :=
  ∑ k : Fin 512, Ao (ix2 r k) * Bc (ix2 k q)

/-- Row r of device o's block of A times column q of device c's copy of B. -/
abbrev rowSum (c o : Dev nD) (r : Fin 1024) (q : Fin 1024) : EReal :=
  rowProd (m ((o : Thread nD τ).loc main_arg0)) (m ((c : Thread nD τ).loc main_arg1)) r q

theorem piece0 (c : Dev nD) (X : Buf (Elt Ideal) ((c : Thread nD τ).loc main_v1)) (h : outOK (F := Ideal) m c X)
    (j : Fin 8) (p : Fin 352) (q : Fin 1024) (r : Fin 1024) (hr : r.val = p.val) :
    @Eq EReal (X (ix2 (wholeRow (xr c (mask 0 j)) r) q)) (rowSum m c (xr c (mask 0 j)) r q) := by
  have hV := stage0_pt m c j _ (h.1 j) p q
  rw [read_op0 c (mask 0 j) X p q (wholeRow (xr c (mask 0 j)) r) (by rw [wholeRow_val, hr])] at hV
  rw [hV]
  refine Finset.sum_congr rfl fun k _ => ?_
  exact congrArg₂ (fun x y : EReal => x * y) (sv0_apply m _ p k r hr) (bv_apply m c k q)

theorem piece1 (c : Dev nD) (X : Buf (Elt Ideal) ((c : Thread nD τ).loc main_v1)) (h : outOK (F := Ideal) m c X)
    (j : Fin 8) (p : Fin 336) (q : Fin 1024) (r : Fin 1024) (hr : r.val = 352 + p.val) :
    @Eq EReal (X (ix2 (wholeRow (xr c (mask 1 j)) r) q)) (rowSum m c (xr c (mask 1 j)) r q) := by
  have hV := stage1_pt m c j _ (h.2.1 j) p q
  rw [read_op12 c (mask 1 j) 0 X p q (wholeRow (xr c (mask 1 j)) r) (by
    rw [wholeRow_val, hr]; show _ = _ + (352 + 336 * 0) + _; omega)] at hV
  rw [hV]
  refine Finset.sum_congr rfl fun k _ => ?_
  exact congrArg₂ (fun x y : EReal => x * y) (sv1_apply m _ p k r hr) (bv_apply m c k q)

theorem piece2 (c : Dev nD) (X : Buf (Elt Ideal) ((c : Thread nD τ).loc main_v1)) (h : outOK (F := Ideal) m c X)
    (j : Fin 8) (p : Fin 336) (q : Fin 1024) (r : Fin 1024) (hr : r.val = 688 + p.val) :
    @Eq EReal (X (ix2 (wholeRow (xr c (mask 2 j)) r) q)) (rowSum m c (xr c (mask 2 j)) r q) := by
  have hV := stage2_pt m c j _ (h.2.2 j) p q
  rw [read_op12 c (mask 2 j) 1 X p q (wholeRow (xr c (mask 2 j)) r) (by
    rw [wholeRow_val, hr]; show _ = _ + (352 + 336 * 1) + _; omega)] at hV
  rw [hV]
  refine Finset.sum_congr rfl fun k _ => ?_
  exact congrArg₂ (fun x y : EReal => x * y) (sv2_apply m _ p k r hr) (bv_apply m c k q)

/-! ## Against the reference -/

variable (m' : (ℓ : Loc Cert.ReferenceIdeal.nD Cert.ReferenceIdeal.τ Cert.ReferenceIdeal.sig) → Buf (Elt Ideal) ℓ)

/-- With each device holding its block of A and a copy of B, a row of a piece is the matching row of the whole product. -/
theorem rowSum_eq_ref (hagree : ∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1))
    (c o : Dev nD) (r : Fin 1024) (q : Fin 1024) :
    rowSum m c o r q = prodAB (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (ix2 (wholeRow o r) q) := by
  show rowProd (m ((o.tc : Thread nD τ).loc main_arg0)) (m ((c.tc : Thread nD τ).loc main_arg1)) r q = _
  rw [(hagree o).1, (hagree c).2]
  exact (prodAB_at_block _ _ _ o r q).symm

/-- For every owner and every row group some slot of the group holds that owner's rows. -/
theorem exists_slot : ∀ (c o : Dev nD) (g : Fin 3), ∃ j : Fin 8, xr c (mask g j) = o := by decide

/-- The result buffer of every device is the whole product of the reference's arrays. -/
theorem outOK_eq_ref (hagree : ∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1))
    (c : Dev Cert.KernelIdeal.nD) (X : Buf (Elt Ideal) ((c.tc : Thread Cert.KernelIdeal.nD Cert.KernelIdeal.τ).loc Cert.KernelIdeal.main_v1))
    (h : outOK (F := Ideal) m c X) :
    X = prodAB (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) := by
  refine funext fun (i : S8192x1024.Idx) => ?_
  obtain ⟨i0, q, rfl⟩ : ∃ (i0 : Fin 8192) (q : Fin 1024), i = ix2 i0 q := ⟨i 0, i 1, eq_ix2 i⟩
  have hlt := i0.isLt
  obtain ⟨o, r, rfl⟩ : ∃ (o : Fin 8) (r : Fin 1024), i0 = wholeRow o r :=
    ⟨⟨i0.val / 1024, by omega⟩, ⟨i0.val % 1024, Nat.mod_lt _ (by decide)⟩, Fin.ext (by
      show i0.val = i0.val / 1024 * 1024 + i0.val % 1024; omega)⟩
  have hr := r.isLt
  by_cases h0 : r.val < 352
  · obtain ⟨j, hj⟩ := exists_slot c o 0
    have e := piece0 m c X h j ⟨r.val, h0⟩ q r rfl
    rw [hj] at e
    rw [e, rowSum_eq_ref m m' hagree]
  · by_cases h1 : r.val < 688
    · obtain ⟨j, hj⟩ := exists_slot c o 1
      have e := piece1 m c X h j ⟨r.val - 352, by omega⟩ q r (by show r.val = 352 + (r.val - 352); omega)
      rw [hj] at e
      rw [e, rowSum_eq_ref m m' hagree]
    · obtain ⟨j, hj⟩ := exists_slot c o 2
      have e := piece2 m c X h j ⟨r.val - 688, by omega⟩ q r (by show r.val = 688 + (r.val - 688); omega)
      rw [hj] at e
      rw [e, rowSum_eq_ref m m' hagree]

/-! ## The two programs agree -/

/-- From a run of the kernel that ends with every device's result holding every product block and
    the arguments unchanged: both programs run, every device's result is the reference's, and both
    leave their arguments unchanged. The run may use the kernel's precondition. -/
theorem algebraic_of_run_pre
    (hrun : ∀ (m : (ℓ : Loc Cert.KernelIdeal.nD Cert.KernelIdeal.τ Cert.KernelIdeal.sig) → Buf (Elt Ideal) ℓ) (ρ : Dev Cert.KernelIdeal.nD → PrngReg),
      Cert.Pre_KernelIdeal m →
      θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        outOK (F := Ideal) m c (r.2.mem ((c.tc : Thread Cert.KernelIdeal.nD Cert.KernelIdeal.τ).loc Cert.KernelIdeal.main_v1))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))) :
    Cert.algebraic_KernelIdeal_ReferenceIdeal :=
  fun m ρ m' ρ' hpre hagree =>
    ⟨prodAB (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)),
      (θ_run (Cert.KernelIdeal.defs (F := Ideal)) _ _).mono
        (fun r h c => ⟨outOK_eq_ref m m' hagree c _ (h c).1, (h c).2⟩) (hrun m ρ hpre),
      (θ_run (Cert.ReferenceIdeal.defs (F := Ideal)) _ _).mono
        (fun r h => ⟨((h 0).1).trans (ref_eq_prodAB _ _), (h 0).2⟩)
        (Cert.ReferenceIdeal.Value.run (F := Ideal) m' ρ')⟩

/-- The same from a run that needs no precondition. -/
theorem algebraic_of_run
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        outOK (F := Ideal) m c (r.2.mem ((c.tc : Thread Cert.KernelIdeal.nD Cert.KernelIdeal.τ).loc Cert.KernelIdeal.main_v1))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))) :
    Cert.algebraic_KernelIdeal_ReferenceIdeal :=
  algebraic_of_run_pre fun m ρ _ => hrun m ρ

/-- info: 'Cert.KernelIdeal.DM.Val.outOK_eq_ref' depends on axioms: [propext, Classical.choice, Quot.sound] -/
#guard_msgs in #print axioms outOK_eq_ref
/-- info: 'Cert.KernelIdeal.DM.Val.algebraic_of_run' depends on axioms: [propext, Classical.choice, Quot.sound] -/
#guard_msgs in #print axioms algebraic_of_run

end Cert.KernelIdeal.DM.Val

end
-- ==== Proof.Bits.Cells.lean ====
import proofs.«900891_g7700000000000892_dist_matmul_m_i_outrep_m1024_n1024_k512_v7x_i8_f32_1_alg».proof.Kernel
import proofs.«900891_g7700000000000892_dist_matmul_m_i_outrep_m1024_n1024_k512_v7x_i8_f32_1_alg».proof.Proof.Gen.Kernel

/-!
The mesh arithmetic of the gather: eight devices indexed by three bits, a partner being the device whose index
differs by a fixed mask (`xr c k`, bitwise exclusive or), and the table `mask` that says, for each of the three
row groups, which device's rows sit in slot `j` of a device's gather buffer: slot `j` of device `c` holds the
rows of device `xr c (mask g j)`. The kernel's printed device chains and row offsets are these, decided over
the mesh.
-/

noncomputable section

namespace Cert.Kernel.DM

open Idealize.ShloMosaic Idealize.ShloMosaic.TcCoe
open Cert.Kernel Cert.Kernel.Gen

/-- The device whose index differs from `c`'s by the mask `k`. -/
def xr (c : Dev nD) (k : Fin 8) : Dev nD := ⟨c.val ^^^ k.val, by revert c k; decide⟩

theorem xr_xr : ∀ (c : Dev nD) (k : Fin 8), xr (xr c k) k = c := by decide
theorem xr_zero : ∀ c : Dev nD, xr c 0 = c := by decide
theorem xr_inj : ∀ (c : Dev nD) (k k' : Fin 8), xr c k = xr c k' → k = k' := by decide

/-- The exchange direction of round `r` in row group `g`: each group walks the three directions 1, 3, 4 in its own
    rotation. -/
def ord : Fin 3 → Fin 3 → Fin 8 := ![![1, 3, 4], ![3, 4, 1], ![4, 1, 3]]

/-- Slot `j` of row group `g`'s gather buffer on device `c` holds the rows of device `xr c (mask g j)`. -/
def mask : Fin 3 → Fin 8 → Fin 8 := ![![0, 1, 3, 2, 4, 5, 7, 6], ![0, 3, 4, 7, 1, 2, 5, 6], ![0, 4, 1, 5, 3, 7, 2, 6]]

theorem mask_inj : ∀ (g : Fin 3) (j j' : Fin 8), mask g j = mask g j' → j = j' := by decide
theorem mask_surj : ∀ (g : Fin 3) (k : Fin 8), ∃ j, mask g j = k := by decide

/-! The printed device chains. -/
theorem dev1_eq : ∀ c : Dev nD, (⟨k0_dev1 c, k0_dev1_lt c⟩ : Dev nD) = xr c 1 := by decide +kernel
theorem dev2_eq : ∀ c : Dev nD, (⟨k0_dev2 c, k0_dev2_lt c⟩ : Dev nD) = xr c 3 := by decide +kernel
theorem dev3_eq : ∀ c : Dev nD, (⟨k0_dev3 c, k0_dev3_lt c⟩ : Dev nD) = xr c 4 := by decide +kernel
theorem dev4_eq : ∀ c : Dev nD, (⟨k0_dev4 c, k0_dev4_lt c⟩ : Dev nD) = xr c 1 := by decide +kernel
theorem dev5_eq : ∀ c : Dev nD, (⟨k0_dev5 c, k0_dev5_lt c⟩ : Dev nD) = xr c 3 := by decide +kernel
theorem dev6_eq : ∀ c : Dev nD, (⟨k0_dev6 c, k0_dev6_lt c⟩ : Dev nD) = xr c 4 := by decide +kernel
theorem dev7_eq : ∀ c : Dev nD, (⟨k0_dev7 c, k0_dev7_lt c⟩ : Dev nD) = xr c 3 := by decide +kernel
theorem dev8_eq : ∀ c : Dev nD, (⟨k0_dev8 c, k0_dev8_lt c⟩ : Dev nD) = xr c 4 := by decide +kernel
theorem dev9_eq : ∀ c : Dev nD, (⟨k0_dev9 c, k0_dev9_lt c⟩ : Dev nD) = xr c 1 := by decide +kernel
theorem dev10_eq : ∀ c : Dev nD, (⟨k0_dev10 c, k0_dev10_lt c⟩ : Dev nD) = xr c 4 := by decide +kernel
theorem dev11_eq : ∀ c : Dev nD, (⟨k0_dev11 c, k0_dev11_lt c⟩ : Dev nD) = xr c 1 := by decide +kernel
theorem dev12_eq : ∀ c : Dev nD, (⟨k0_dev12 c, k0_dev12_lt c⟩ : Dev nD) = xr c 3 := by decide +kernel
theorem dev13_eq : ∀ c : Dev nD, (⟨k0_dev13 c, k0_dev13_lt c⟩ : Dev nD) = xr c 3 := by decide +kernel
theorem dev14_eq : ∀ c : Dev nD, (⟨k0_dev14 c, k0_dev14_lt c⟩ : Dev nD) = xr c 4 := by decide +kernel
theorem dev15_eq : ∀ c : Dev nD, (⟨k0_dev15 c, k0_dev15_lt c⟩ : Dev nD) = xr c 4 := by decide +kernel
theorem dev16_eq : ∀ c : Dev nD, (⟨k0_dev16 c, k0_dev16_lt c⟩ : Dev nD) = xr c 1 := by decide +kernel
theorem dev17_eq : ∀ c : Dev nD, (⟨k0_dev17 c, k0_dev17_lt c⟩ : Dev nD) = xr c 1 := by decide +kernel
theorem dev18_eq : ∀ c : Dev nD, (⟨k0_dev18 c, k0_dev18_lt c⟩ : Dev nD) = xr c 3 := by decide +kernel
theorem dev19_eq : ∀ c : Dev nD, (⟨k0_dev19 c, k0_dev19_lt c⟩ : Dev nD) = xr c 4 := by decide +kernel
theorem dev20_eq : ∀ c : Dev nD, (⟨k0_dev20 c, k0_dev20_lt c⟩ : Dev nD) = xr c 1 := by decide +kernel
theorem dev21_eq : ∀ c : Dev nD, (⟨k0_dev21 c, k0_dev21_lt c⟩ : Dev nD) = xr c 3 := by decide +kernel
theorem dev22_eq : ∀ c : Dev nD, (⟨k0_dev22 c, k0_dev22_lt c⟩ : Dev nD) = xr c 4 := by decide +kernel
theorem dev23_eq : ∀ c : Dev nD, (⟨k0_dev23 c, k0_dev23_lt c⟩ : Dev nD) = xr c 4 := by decide +kernel
theorem dev24_eq : ∀ c : Dev nD, (⟨k0_dev24 c, k0_dev24_lt c⟩ : Dev nD) = xr c 1 := by decide +kernel
theorem dev25_eq : ∀ c : Dev nD, (⟨k0_dev25 c, k0_dev25_lt c⟩ : Dev nD) = xr c 1 := by decide +kernel
theorem dev26_eq : ∀ c : Dev nD, (⟨k0_dev26 c, k0_dev26_lt c⟩ : Dev nD) = xr c 3 := by decide +kernel
theorem dev27_eq : ∀ c : Dev nD, (⟨k0_dev27 c, k0_dev27_lt c⟩ : Dev nD) = xr c 3 := by decide +kernel

/-! The printed row offsets of the result's pieces. -/
theorem off1_eq : ∀ (c : Dev nD) (k : Fin 8), k0_off1 c (BitVec.ofNat 32 k.val) = ![(xr c k).val * 1024, 0] := by decide +kernel
theorem off2_eq : ∀ (c : Dev nD) (k : Fin 8) (r : Fin 2), k0_off2 c (BitVec.ofNat 32 k.val) (BitVec.ofNat 32 (352 + 336 * r.val)) = ![(xr c k).val * 1024 + (352 + 336 * r.val), 0] := by decide +kernel

end Cert.Kernel.DM

end
-- ==== Proof.Bits.Sched.lean ====
import proofs.«900891_g7700000000000892_dist_matmul_m_i_outrep_m1024_n1024_k512_v7x_i8_f32_1_alg».proof.Proof.Bits.Cells
import proofs.«900891_g7700000000000892_dist_matmul_m_i_outrep_m1024_n1024_k512_v7x_i8_f32_1_alg».proof.Proof.Gen.Kernel.Skeleton
import proofs.«900891_g7700000000000892_dist_matmul_m_i_outrep_m1024_n1024_k512_v7x_i8_f32_1_alg».proof.Proof.Gen.Kernel.Launch
import proofs.«900891_g7700000000000892_dist_matmul_m_i_outrep_m1024_n1024_k512_v7x_i8_f32_1_alg».proof.Proof.Gen.Kernel.Points
import Idealize.ShloMosaic.Lib.Pipeline.Launch
import Idealize.ShloMosaic.Lib.Pipeline.Kit
import Idealize.ShloMosaic.Lib.Tactic

/-!
The exchange protocol of the gather as a schedule of rounds.

Every device owns 73 semaphore cells: the entry barrier, and for each of the three row groups eight send cells,
eight receive cells and eight copy cells. Each cell lives one round. The barrier's round has three unit duties, one
per neighbour (the devices at masks 1, 3 and 4); a neighbour's signal hands over the slots of ITS gather buffers
that this device will later fill, so that no transfer can land before its target has entered the kernel. A receive
cell's one duty is paid by the partner's transfer and hands back the filled slot, which then holds the partner's
source slot. A send cell's duty returns the share of the source slot that the transfer was reading. A copy cell's
duty is paid by the device's own copy of a finished product block into its rows of the result.

What a slot holds is named from the start: slot `k` of group `g` on device `c` holds the narrowed rows of group `g`
of the block of the left factor owned by device `xr c (mask g k)`.
-/

noncomputable section

namespace Cert.Kernel.DM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duty names `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Buffers -/

abbrev aM : Memref sig .tc .vmem S1024x512 .f32 := Memref.whole cc0_stg0_0
abbrev bM : Memref sig .tc .vmem S512x1024 .f32 := Memref.whole cc0_stg1_0
abbrev oM : Memref sig .tc .hbm S8192x1024 .f32 := Memref.whole main_v1
abbrev b16M : Memref sig .tc .vmem S512x1024 .bf16 := Memref.whole cc0_scratch0
abbrev g0M : Memref sig .tc .vmem S8x352x512 .bf16 := Memref.whole cc0_scratch1
abbrev g1M : Memref sig .tc .vmem S8x336x512 .bf16 := Memref.whole cc0_scratch2
abbrev g2M : Memref sig .tc .vmem S8x336x512 .bf16 := Memref.whole cc0_scratch3
abbrev s0M : Memref sig .tc .vmem S2x352x1024 .f32 := Memref.whole cc0_scratch4
abbrev s1M : Memref sig .tc .vmem S2x336x1024 .f32 := Memref.whole cc0_scratch5
abbrev s2M : Memref sig .tc .vmem S2x336x1024 .f32 := Memref.whole cc0_scratch6

/-- Slot `k` of the first group's gather buffer, and of the other two groups'. -/
def gs0 (k : Fin 8) : Memref sig .tc .vmem S1x352x512 .bf16 :=
  g0M.slice (Rect.unit (s := S8x352x512) ![k.val, 0, 0] S1x352x512.size (by revert k; decide)) (fun _ => rfl)
def gs1 (k : Fin 8) : Memref sig .tc .vmem S1x336x512 .bf16 :=
  g1M.slice (Rect.unit (s := S8x336x512) ![k.val, 0, 0] S1x336x512.size (by revert k; decide)) (fun _ => rfl)
def gs2 (k : Fin 8) : Memref sig .tc .vmem S1x336x512 .bf16 :=
  g2M.slice (Rect.unit (s := S8x336x512) ![k.val, 0, 0] S1x336x512.size (by revert k; decide)) (fun _ => rfl)

/-- The two parts of a slot that the last exchange moves separately: rows below 176, and the rest. -/
def ga0 (k : Fin 8) : Memref sig .tc .vmem S1x176x512 .bf16 :=
  g0M.slice (Rect.unit (s := S8x352x512) ![k.val, 0, 0] S1x176x512.size (by revert k; decide)) (fun _ => rfl)
def gb0 (k : Fin 8) : Memref sig .tc .vmem S1x176x512 .bf16 :=
  g0M.slice (Rect.unit (s := S8x352x512) ![k.val, 176, 0] S1x176x512.size (by revert k; decide)) (fun _ => rfl)
def ga1 (k : Fin 8) : Memref sig .tc .vmem S1x176x512 .bf16 :=
  g1M.slice (Rect.unit (s := S8x336x512) ![k.val, 0, 0] S1x176x512.size (by revert k; decide)) (fun _ => rfl)
def gb1 (k : Fin 8) : Memref sig .tc .vmem S1x160x512 .bf16 :=
  g1M.slice (Rect.unit (s := S8x336x512) ![k.val, 176, 0] S1x160x512.size (by revert k; decide)) (fun _ => rfl)
def ga2 (k : Fin 8) : Memref sig .tc .vmem S1x176x512 .bf16 :=
  g2M.slice (Rect.unit (s := S8x336x512) ![k.val, 0, 0] S1x176x512.size (by revert k; decide)) (fun _ => rfl)
def gb2 (k : Fin 8) : Memref sig .tc .vmem S1x160x512 .bf16 :=
  g2M.slice (Rect.unit (s := S8x336x512) ![k.val, 176, 0] S1x160x512.size (by revert k; decide)) (fun _ => rfl)

/-! ## Cells -/

/-- The entry barrier's semaphore. -/
abbrev barS : Sem sig := (SemArray.scalar (sig.barrier 0 rfl) : Sems sig S_).sem

/-- The send, receive and copy semaphore of group `g` at position `k`: the three arrays lie one after the other. -/
def sendS (g : Fin 3) (k : Fin 8) : DmaSem sig := ⟨2 + 8 * g.val + k.val, by revert g k; decide⟩
def recvS (g : Fin 3) (k : Fin 8) : DmaSem sig := ⟨26 + 8 * g.val + k.val, by revert g k; decide⟩
def copyS (g : Fin 3) (k : Fin 8) : DmaSem sig := ⟨50 + 8 * g.val + k.val, by revert g k; decide⟩

abbrev barCell (c : Dev nD) : GSem nD τ sig := ((c : Thread nD τ), .reg barS)
abbrev sendCell (c : Dev nD) (g : Fin 3) (k : Fin 8) : GSem nD τ sig := ((c : Thread nD τ), .dma (sendS g k))
abbrev recvCell (c : Dev nD) (g : Fin 3) (k : Fin 8) : GSem nD τ sig := ((c : Thread nD τ), .dma (recvS g k))
abbrev copyCell (c : Dev nD) (g : Fin 3) (k : Fin 8) : GSem nD τ sig := ((c : Thread nD τ), .dma (copyS g k))

/-- The three neighbours of the entry handshake, in the order they are signalled. -/
def dir : Fin 3 → Fin 8 := ![1, 3, 4]

/-- Exchange step `st` of a group: the round of the doubling it belongs to, its source slot and its target slot. The
    last two steps are the two parts of the move of slot 3 to slot 7. -/
def rnd : Fin 8 → Fin 3 := ![0, 1, 1, 2, 2, 2, 2, 2]
def srcSlot : Fin 8 → Fin 8 := ![0, 0, 1, 0, 1, 2, 3, 3]
def dstSlot : Fin 8 → Fin 8 := ![1, 2, 3, 4, 5, 6, 7, 7]

/-- The partner of device `c` in step `st` of group `g`. -/
def partner (c : Dev nD) (g : Fin 3) (st : Fin 8) : Dev nD := xr c (ord g (rnd st))

theorem partner_partner : ∀ (c : Dev nD) (g : Fin 3) (st : Fin 8), partner (partner c g st) g st = c := by decide
/-- A transfer keeps the origin: what lands in the partner's target slot is owned by the device the source slot's
    rows came from. -/
theorem origin_step : ∀ (c : Dev nD) (g : Fin 3) (st : Fin 8),
    xr (partner c g st) (mask g (dstSlot st)) = xr c (mask g (srcSlot st)) := by decide

/-! ## Named values -/

/-- A device's block of the left factor and its copy of the right factor, as the pipeline stages them. -/
def xstg (c : Dev nD) : (cc0_stg0_0 : Ref sig .tc).ty.Contents (Elt F) :=
  (win0_0.blk t0_0).view.read (Elt F) (m ((c : Thread nD τ).loc main_arg0))
def ystg (c : Dev nD) : (cc0_stg1_0 : Ref sig .tc).ty.Contents (Elt F) :=
  (win0_1.blk t0_0).view.read (Elt F) (m ((c : Thread nD τ).loc main_arg1))

/-- The narrowed rows of each group of device `o`'s block: what a gather slot whose origin is `o` holds. -/
def sv0 (o : Dev nD) : Vec F S1x352x512 .bf16 :=
  k0_pay1 ((aM : Memref sig .tc .vmem S1024x512 .f32).view.readAt (Elt F) (Rect.unit (s := S1024x512) ![0, 0] S352x512.size inb_S1024x512_S352x512_0_0).toLoadRect (xstg m o))
def sv1 (o : Dev nD) : Vec F S1x336x512 .bf16 :=
  k0_pay2 ((aM : Memref sig .tc .vmem S1024x512 .f32).view.readAt (Elt F) (Rect.unit (s := S1024x512) ![352, 0] S336x512.size inb_S1024x512_S336x512_352_0).toLoadRect (xstg m o))
def sv2 (o : Dev nD) : Vec F S1x336x512 .bf16 :=
  k0_pay4 (k0_pay3 ((aM : Memref sig .tc .vmem S1024x512 .f32).view.readAt (Elt F) (Rect.unit (s := S1024x512) ![688, 0] S336x512.size inb_S1024x512_S336x512_688_0).toLoadRect (xstg m o)))
/-- The narrowed right factor. -/
def bv (c : Dev nD) : Vec F S512x1024 .bf16 :=
  k0_pay5 ((bM : Memref sig .tc .vmem S512x1024 .f32).view.readAt (Elt F) (Rect.unit (s := S512x1024) ![0, 0] S512x1024.size inb_S512x1024_S512x1024_0_0).toLoadRect (ystg m c))

/-- Rows below 176 of a slot's value, and the rows from 176 on. -/
def topA {e : EltTy} (v : Vec F S1x352x512 e) : Vec F S1x176x512 e :=
  fun i => v ((Rect.unit (s := S1x352x512) ![0, 0, 0] S1x176x512.size (by decide)).emb i)
def botA {e : EltTy} (v : Vec F S1x352x512 e) : Vec F S1x176x512 e :=
  fun i => v ((Rect.unit (s := S1x352x512) ![0, 176, 0] S1x176x512.size (by decide)).emb i)
def topB {e : EltTy} (v : Vec F S1x336x512 e) : Vec F S1x176x512 e :=
  fun i => v ((Rect.unit (s := S1x336x512) ![0, 0, 0] S1x176x512.size (by decide)).emb i)
def botB {e : EltTy} (v : Vec F S1x336x512 e) : Vec F S1x160x512 e :=
  fun i => v ((Rect.unit (s := S1x336x512) ![0, 176, 0] S1x160x512.size (by decide)).emb i)

/-- The product of a block of narrowed rows with the narrowed right factor, accumulated from zero. -/
def prod352 (a : Vec F S1x352x512 .bf16) (b : Vec F S512x1024 .bf16) : FVec F S352x1024 .f32 :=
  matmul dot_S352x512_S512x1024_S352x1024_1_0_0_1_n_n none (shapeCast S352x512 a shapeCasts_S1x352x512_S352x512) b (constant S352x1024 .f32 0x00000000#32)
def prod336 (a : Vec F S1x336x512 .bf16) (b : Vec F S512x1024 .bf16) : FVec F S336x1024 .f32 :=
  matmul dot_S336x512_S512x1024_S336x1024_1_0_0_1_n_n none (shapeCast S336x512 a shapeCasts_S1x336x512_S336x512) b (constant S336x1024 .f32 0x00000000#32)
def prod176 (a : Vec F S1x176x512 .bf16) (b : Vec F S512x1024 .bf16) : FVec F S176x1024 .f32 :=
  matmul dot_S176x512_S512x1024_S176x1024_1_0_0_1_n_n none (shapeCast S176x512 a shapeCasts_S1x176x512_S176x512) b (constant S176x1024 .f32 0x00000000#32)
def prod160 (a : Vec F S1x160x512 .bf16) (b : Vec F S512x1024 .bf16) : FVec F S160x1024 .f32 :=
  matmul dot_S160x512_S512x1024_S160x1024_1_0_0_1_n_n none (shapeCast S160x512 a shapeCasts_S1x160x512_S160x512) b (constant S160x1024 .f32 0x00000000#32)

/-! ## Assertions about a piece of a buffer -/

/-- The elements under `M` on device `c`, at some contents; and held at share `q`, reading `v` through `M`. Both are
    kept behind a constant that does not unfold, so that two of them are told apart by their arguments alone; the two
    theorems after them say what they are. -/
def AnySpec (F : FTy → Type) : Type :=
  { f : (sp : Space) → (s : Shape) → (e : EltTy) → Dev nD → Memref sig .tc sp s e → sProp (MT nD τ sig Unit (Elt F) ℕ UU ℕ) //
    f = fun sp s e c M => iprop(∃ g : Buf (Elt F) (M.view.loc (c : Thread nD τ)), M.view.loc (c : Thread nD τ) ↦[M.view.set]{fullShare} g) }
instance (F : FTy → Type) : Nonempty (AnySpec F) := ⟨⟨_, rfl⟩⟩
opaque anyImpl (F : FTy → Type) : AnySpec F := ⟨_, rfl⟩

def HoldsSpec (F : FTy → Type) : Type :=
  { f : (sp : Space) → (s : Shape) → (e : EltTy) → Dev nD → Memref sig .tc sp s e → PosShare TreeShare → (s.Idx → Elt F e) → sProp (MT nD τ sig Unit (Elt F) ℕ UU ℕ) //
    f = fun sp s e c M q v => iprop(∃ g : Buf (Elt F) (M.view.loc (c : Thread nD τ)), (M.view.loc (c : Thread nD τ) ↦[M.view.set]{q} g) ∗ ⌜M.view.read (Elt F) g = v⌝) }
instance (F : FTy → Type) : Nonempty (HoldsSpec F) := ⟨⟨_, rfl⟩⟩
opaque holdsImpl (F : FTy → Type) : HoldsSpec F := ⟨_, rfl⟩

def anyPts {sp : Space} {s : Shape} {e : EltTy} (c : Dev nD) (M : Memref sig .tc sp s e) : sProp 𝕄 :=
  (anyImpl F).1 sp s e c M
def holdsPts {sp : Space} {s : Shape} {e : EltTy} (c : Dev nD) (M : Memref sig .tc sp s e) (q : PosShare TreeShare) (v : s.Idx → Elt F e) : sProp 𝕄 :=
  (holdsImpl F).1 sp s e c M q v

omit [FloatOps F] in
theorem anyPts_eq {sp : Space} {s : Shape} {e : EltTy} (c : Dev nD) (M : Memref sig .tc sp s e) :
    anyPts (F := F) c M = iprop(∃ f : Buf (Elt F) (M.view.loc (c : Thread nD τ)), M.view.loc (c : Thread nD τ) ↦[M.view.set]{fullShare} f) :=
  congrFun (congrFun (congrFun (congrFun (congrFun (anyImpl F).2 sp) s) e) c) M
omit [FloatOps F] in
theorem holdsPts_eq {sp : Space} {s : Shape} {e : EltTy} (c : Dev nD) (M : Memref sig .tc sp s e) (q : PosShare TreeShare) (v : s.Idx → Elt F e) :
    holdsPts (F := F) c M q v = iprop(∃ f : Buf (Elt F) (M.view.loc (c : Thread nD τ)), (M.view.loc (c : Thread nD τ) ↦[M.view.set]{q} f) ∗ ⌜M.view.read (Elt F) f = v⌝) :=
  congrFun (congrFun (congrFun (congrFun (congrFun (congrFun (congrFun (holdsImpl F).2 sp) s) e) c) M) q) v

omit [FloatOps F] in
instance anyPts_storable {sp : Space} {s : Shape} {e : EltTy} (c : Dev nD) (M : Memref sig .tc sp s e) :
    BI.Storable (upEmb : UEmb _ 𝕄) (anyPts (F := F) c M) := by rw [anyPts_eq]; infer_instance
omit [FloatOps F] in
instance holdsPts_storable {sp : Space} {s : Shape} {e : EltTy} (c : Dev nD) (M : Memref sig .tc sp s e) (q) (v) :
    BI.Storable (upEmb : UEmb _ 𝕄) (holdsPts (F := F) c M q v) := by rw [holdsPts_eq]; infer_instance

/-! ## Stage slots and the result's pieces -/

/-- Stage slot `p` of each group, as a product block is copied out of it. -/
def ss0 (p : Fin 2) : Memref sig .tc .vmem S352x1024 .f32 :=
  (s0M.slice (Rect.unit (s := S2x352x1024) ![p.val, 0, 0] S1x352x1024.size (by revert p; decide)) (fun _ => rfl)).squeeze S352x1024 squeezes_S1x352x1024_S352x1024
def ss1 (p : Fin 2) : Memref sig .tc .vmem S336x1024 .f32 :=
  (s1M.slice (Rect.unit (s := S2x336x1024) ![p.val, 0, 0] S1x336x1024.size (by revert p; decide)) (fun _ => rfl)).squeeze S336x1024 squeezes_S1x336x1024_S336x1024
def ss2 (p : Fin 2) : Memref sig .tc .vmem S336x1024 .f32 :=
  (s2M.slice (Rect.unit (s := S2x336x1024) ![p.val, 0, 0] S1x336x1024.size (by revert p; decide)) (fun _ => rfl)).squeeze S336x1024 squeezes_S1x336x1024_S336x1024

/-- The rows of the result that hold the product of the first group's rows of device `xr c k`; and of the second
    (`r = 0`) and third (`r = 1`) groups'. -/
def op0 (c : Dev nD) (k : Fin 8) : Memref sig .tc .hbm S352x1024 .f32 :=
  oM.slice (Rect.unit (s := S8192x1024) (k0_off1 c (BitVec.ofNat 32 k.val)) S352x1024.size (k0_off1_inb c k)) (fun _ => rfl)
def op12 (c : Dev nD) (k : Fin 8) (r : Fin 2) : Memref sig .tc .hbm S336x1024 .f32 :=
  oM.slice (Rect.unit (s := S8192x1024) (k0_off2 c (BitVec.ofNat 32 k.val) (BitVec.ofNat 32 (352 + 336 * r.val))) S336x1024.size (k0_off2_inb c k r)) (fun _ => rfl)

/-- The stage slot a product block goes through: blocks alternate between the two. -/
def par (j : Fin 8) : Fin 2 := ⟨j.val % 2, Nat.mod_lt _ (by decide)⟩

def topRA {e : EltTy} (v : Vec F S352x1024 e) : Vec F S176x1024 e :=
  fun i => v ((Rect.unit (s := S352x1024) ![0, 0] S176x1024.size (by decide)).emb i)
def botRA {e : EltTy} (v : Vec F S352x1024 e) : Vec F S176x1024 e :=
  fun i => v ((Rect.unit (s := S352x1024) ![176, 0] S176x1024.size (by decide)).emb i)
def topRB {e : EltTy} (v : Vec F S336x1024 e) : Vec F S176x1024 e :=
  fun i => v ((Rect.unit (s := S336x1024) ![0, 0] S176x1024.size (by decide)).emb i)
def botRB {e : EltTy} (v : Vec F S336x1024 e) : Vec F S160x1024 e :=
  fun i => v ((Rect.unit (s := S336x1024) ![176, 0] S160x1024.size (by decide)).emb i)

/-- Product block `j` of each group on device `c`: one product of the slot's rows, except the last block, whose rows
    below 176 and from 176 on are two products of the two parts of slot 7. -/
def stageOK0 (c : Dev nD) (j : Fin 8) (v : Vec F S352x1024 .f32) : Prop :=
  if j = 7 then topRA v = prod176 (topA (sv0 m (xr c (mask 0 7)))) (bv m c) ∧ botRA v = prod176 (botA (sv0 m (xr c (mask 0 7)))) (bv m c)
  else v = prod352 (sv0 m (xr c (mask 0 j))) (bv m c)
def stageOK1 (c : Dev nD) (j : Fin 8) (v : Vec F S336x1024 .f32) : Prop :=
  if j = 7 then topRB v = prod176 (topB (sv1 m (xr c (mask 1 7)))) (bv m c) ∧ botRB v = prod160 (botB (sv1 m (xr c (mask 1 7)))) (bv m c)
  else v = prod336 (sv1 m (xr c (mask 1 j))) (bv m c)
def stageOK2 (c : Dev nD) (j : Fin 8) (v : Vec F S336x1024 .f32) : Prop :=
  if j = 7 then topRB v = prod176 (topB (sv2 m (xr c (mask 2 7)))) (bv m c) ∧ botRB v = prod160 (botB (sv2 m (xr c (mask 2 7)))) (bv m c)
  else v = prod336 (sv2 m (xr c (mask 2 j))) (bv m c)

/-! ## What each duty hands over -/

/-- The share of a source slot a transfer reads: the slot's kept half is the right one; the left half is cut among
    the transfers that read the slot at the same time. -/
def qs : Fin 8 → PosShare TreeShare :=
  ![fullShare.left.left.left, fullShare.left.left.right, fullShare.left.left, fullShare.left.right, fullShare.left.right,
    fullShare.left, fullShare.left, fullShare.left]

/-- The target of step `st` of group `g` on device `p`, at some contents: what `p` gives its partner at entry. -/
def dstAny (p : Dev nD) (g : Fin 3) (st : Fin 8) : sProp 𝕄 := match g with
  | 0 => if st = 6 then anyPts p (ga0 7) else if st = 7 then anyPts p (gb0 7) else anyPts p (gs0 (dstSlot st))
  | 1 => if st = 6 then anyPts p (ga1 7) else if st = 7 then anyPts p (gb1 7) else anyPts p (gs1 (dstSlot st))
  | 2 => if st = 6 then anyPts p (ga2 7) else if st = 7 then anyPts p (gb2 7) else anyPts p (gs2 (dstSlot st))

/-- A neighbour's entry signal: the targets on that neighbour of every step this device will run towards it, and
    that the neighbour's receive cells of those steps are at their first round. -/
def towards (d : Fin 3) : Finset (Fin 3 × Fin 8) := Finset.univ.filter fun gs => ord gs.1 (rnd gs.2) = dir d

omit [FloatOps F] in
instance dstAny_storable (p : Dev nD) (g : Fin 3) (st : Fin 8) : BI.Storable (upEmb : UEmb _ 𝕄) (dstAny (F := F) p g st) := by
  unfold dstAny
  fin_cases g <;> dsimp only <;> (repeat' split) <;> infer_instance

def barPay (c : Dev nD) (d : Fin 3) : sProp 𝕄 :=
  bigSep (towards d) fun gs : Fin 3 × Fin 8 =>
    iprop(dstAny (F := F) (xr c (dir d)) gs.1 gs.2 ∗ reached ER (recvCell (xr c (dir d)) gs.1 gs.2) 0)

/-- A landed transfer: the target holds the rows of the device the partner's source slot held. -/
def recvPay (c : Dev nD) (g : Fin 3) (st : Fin 8) : sProp 𝕄 := match g with
  | 0 => if st = 6 then holdsPts c (ga0 7) fullShare (topA (sv0 m (xr c (mask 0 7))))
      else if st = 7 then holdsPts c (gb0 7) fullShare (botA (sv0 m (xr c (mask 0 7))))
      else holdsPts c (gs0 (dstSlot st)) fullShare (sv0 m (xr c (mask 0 (dstSlot st))))
  | 1 => if st = 6 then holdsPts c (ga1 7) fullShare (topB (sv1 m (xr c (mask 1 7))))
      else if st = 7 then holdsPts c (gb1 7) fullShare (botB (sv1 m (xr c (mask 1 7))))
      else holdsPts c (gs1 (dstSlot st)) fullShare (sv1 m (xr c (mask 1 (dstSlot st))))
  | 2 => if st = 6 then holdsPts c (ga2 7) fullShare (topB (sv2 m (xr c (mask 2 7))))
      else if st = 7 then holdsPts c (gb2 7) fullShare (botB (sv2 m (xr c (mask 2 7))))
      else holdsPts c (gs2 (dstSlot st)) fullShare (sv2 m (xr c (mask 2 (dstSlot st))))

/-- A transfer fully read: the share of its source comes back. -/
def sendPay (c : Dev nD) (g : Fin 3) (st : Fin 8) : sProp 𝕄 := match g with
  | 0 => if st = 6 then holdsPts c (ga0 3) (qs st) (topA (sv0 m (xr c (mask 0 3))))
      else if st = 7 then holdsPts c (gb0 3) (qs st) (botA (sv0 m (xr c (mask 0 3))))
      else holdsPts c (gs0 (srcSlot st)) (qs st) (sv0 m (xr c (mask 0 (srcSlot st))))
  | 1 => if st = 6 then holdsPts c (ga1 3) (qs st) (topB (sv1 m (xr c (mask 1 3))))
      else if st = 7 then holdsPts c (gb1 3) (qs st) (botB (sv1 m (xr c (mask 1 3))))
      else holdsPts c (gs1 (srcSlot st)) (qs st) (sv1 m (xr c (mask 1 (srcSlot st))))
  | 2 => if st = 6 then holdsPts c (ga2 3) (qs st) (topB (sv2 m (xr c (mask 2 3))))
      else if st = 7 then holdsPts c (gb2 3) (qs st) (botB (sv2 m (xr c (mask 2 3))))
      else holdsPts c (gs2 (srcSlot st)) (qs st) (sv2 m (xr c (mask 2 (srcSlot st))))

/-- A product block copied out: its rows of the result hold it, and the stage slot is free again. -/
def copyPay (c : Dev nD) (g : Fin 3) (j : Fin 8) : sProp 𝕄 := match g with
  | 0 => iprop(∃ v, ⌜stageOK0 m c j v⌝ ∗ holdsPts c (op0 c (mask 0 j)) fullShare v ∗ holdsPts c (ss0 (par j)) fullShare v)
  | 1 => iprop(∃ v, ⌜stageOK1 m c j v⌝ ∗ holdsPts c (op12 c (mask 1 j) 0) fullShare v ∗ holdsPts c (ss1 (par j)) fullShare v)
  | 2 => iprop(∃ v, ⌜stageOK2 m c j v⌝ ∗ holdsPts c (op12 c (mask 2 j) 1) fullShare v ∗ holdsPts c (ss2 (par j)) fullShare v)

/-! ## The schedule -/

/-- Which array, group and position a transfer semaphore is. -/
def qa (q : DmaSem sig) : ℕ := (q.val - 2) / 24
def qg (q : DmaSem sig) : Fin 3 := ⟨((q.val - 2) % 24) / 8, by omega⟩
def qk (q : DmaSem sig) : Fin 8 := ⟨(q.val - 2) % 8, by omega⟩

theorem qa_send : ∀ (g : Fin 3) (k : Fin 8), qa (sendS g k) = 0 := by decide
theorem qa_recv : ∀ (g : Fin 3) (k : Fin 8), qa (recvS g k) = 1 := by decide
theorem qa_copy : ∀ (g : Fin 3) (k : Fin 8), qa (copyS g k) = 2 := by decide
theorem qg_send : ∀ (g : Fin 3) (k : Fin 8), qg (sendS g k) = g := by decide
theorem qg_recv : ∀ (g : Fin 3) (k : Fin 8), qg (recvS g k) = g := by decide
theorem qg_copy : ∀ (g : Fin 3) (k : Fin 8), qg (copyS g k) = g := by decide
theorem qk_send : ∀ (g : Fin 3) (k : Fin 8), qk (sendS g k) = k := by decide
theorem qk_recv : ∀ (g : Fin 3) (k : Fin 8), qk (recvS g k) = k := by decide
theorem qk_copy : ∀ (g : Fin 3) (k : Fin 8), qk (copyS g k) = k := by decide
theorem two_le_send : ∀ (g : Fin 3) (k : Fin 8), 2 ≤ (sendS g k).val := by decide
theorem two_le_recv : ∀ (g : Fin 3) (k : Fin 8), 2 ≤ (recvS g k).val := by decide
theorem two_le_copy : ∀ (g : Fin 3) (k : Fin 8), 2 ≤ (copyS g k).val := by decide

/-- The credit of one exchange step, and of one copy of a product block. -/
def xferAmt (g : Fin 3) (st : Fin 8) : ℕ := match g with
  | 0 => if st = 6 then (ga0 0).view.dmaCredit else if st = 7 then (gb0 0).view.dmaCredit else (gs0 0).view.dmaCredit
  | 1 => if st = 6 then (ga1 0).view.dmaCredit else if st = 7 then (gb1 0).view.dmaCredit else (gs1 0).view.dmaCredit
  | 2 => if st = 6 then (ga2 0).view.dmaCredit else if st = 7 then (gb2 0).view.dmaCredit else (gs2 0).view.dmaCredit
def copyAmt (g : Fin 3) : ℕ := match g with
  | 0 => (op0 0 0).view.dmaCredit
  | 1 => (op12 0 0 0).view.dmaCredit
  | 2 => (op12 0 0 1).view.dmaCredit

theorem xferAmt_pos (g : Fin 3) (st : Fin 8) : 0 < xferAmt g st := by
  unfold xferAmt
  fin_cases g <;> dsimp only <;> (repeat' split) <;> exact View.dmaCredit_pos _ (by decide)
theorem copyAmt_pos (g : Fin 3) : 0 < copyAmt g := by
  unfold copyAmt
  fin_cases g <;> exact View.dmaCredit_pos _ (by decide)

def amtOf (q : DmaSem sig) : ℕ := if qa q = 2 then copyAmt (qg q) else xferAmt (qg q) (qk q)

theorem amtOf_pos (q : DmaSem sig) : 0 < amtOf q := by
  unfold amtOf; split
  · exact copyAmt_pos _
  · exact xferAmt_pos _ _

def dmaPay (c : Dev nD) (q : DmaSem sig) : sProp 𝕄 :=
  if qa q = 0 then sendPay m c (qg q) (qk q) else if qa q = 1 then recvPay m c (qg q) (qk q) else copyPay m c (qg q) (qk q)

/-- One round. A barrier cell has three unit duties, one per neighbour; each transfer cell of the three arrays one
    duty of the credit of what it moves. -/
def Rd : Rounds.Schedule (GSem nD τ sig) (Fin 3) 𝕄 where
  duties g r := if r = 0 ∧ g.1.2 = .tc then
      (match g.2 with | .reg s => if s = barS then Finset.univ else ∅ | .dma q => if 2 ≤ q.val then {0} else ∅) else ∅
  unitless _ := False
  amount g _ _ := match g.2 with | .reg _ => 1 | .dma q => amtOf q
  payload g _ d := match g.2 with
    | .reg s => if s = barS then barPay g.1.1 d else iprop(emp)
    | .dma q => if 2 ≤ q.val then dmaPay m g.1.1 q else iprop(emp)
  amount_pos g _ _ _ := by
    rcases g with ⟨t, sm⟩
    cases sm with
    | reg s => exact Nat.one_pos
    | dma q => exact amtOf_pos q

/-! ## The schedule's tables -/

omit [FloatOps F] in
instance barPay_storable (c : Dev nD) (d : Fin 3) : BI.Storable (upEmb : UEmb _ 𝕄) (barPay (F := F) c d) := by
  unfold barPay; infer_instance

instance Rd_payload_storable (x : GSem nD τ sig) (r : ℕ) (d : Fin 3) :
    BI.Storable (upEmb : UEmb _ 𝕄) ((Rd (F := F) m).payload x r d) := by
  rcases x with ⟨t, sm⟩
  cases sm with
  | reg s =>
    show BI.Storable upEmb (if s = barS then barPay t.1 d else iprop(emp))
    split <;> infer_instance
  | dma q =>
    show BI.Storable upEmb (if 2 ≤ q.val then dmaPay m t.1 q else iprop(emp))
    unfold dmaPay sendPay recvPay copyPay
    (repeat' split) <;> infer_instance

section Tables
variable (c : Dev nD) (g : Fin 3) (k : Fin 8)

theorem duties_bar : (Rd (F := F) m).duties (barCell c) 0 = Finset.univ := by
  dsimp only [Rd]; rw [if_pos ⟨rfl, rfl⟩]; exact if_pos rfl
theorem duties_send : (Rd (F := F) m).duties (sendCell c g k) 0 = {0} := by
  dsimp only [Rd]; rw [if_pos ⟨rfl, rfl⟩]; exact if_pos (two_le_send g k)
theorem duties_recv : (Rd (F := F) m).duties (recvCell c g k) 0 = {0} := by
  dsimp only [Rd]; rw [if_pos ⟨rfl, rfl⟩]; exact if_pos (two_le_recv g k)
theorem duties_copy : (Rd (F := F) m).duties (copyCell c g k) 0 = {0} := by
  dsimp only [Rd]; rw [if_pos ⟨rfl, rfl⟩]; exact if_pos (two_le_copy g k)
theorem duties_later (x : GSem nD τ sig) : ∀ r, 1 ≤ r → (Rd (F := F) m).duties x r = ∅ :=
  fun r hr => by dsimp only [Rd]; rw [if_neg fun h => by omega]

theorem amount_bar (d : Fin 3) : (Rd (F := F) m).amount (barCell c) 0 d = 1 := rfl
theorem amount_send (d : Fin 3) : (Rd (F := F) m).amount (sendCell c g k) 0 d = xferAmt g k := by
  show amtOf (sendS g k) = _; unfold amtOf; rw [qa_send, qg_send, qk_send]; exact if_neg (by decide)
theorem amount_recv (d : Fin 3) : (Rd (F := F) m).amount (recvCell c g k) 0 d = xferAmt g k := by
  show amtOf (recvS g k) = _; unfold amtOf; rw [qa_recv, qg_recv, qk_recv]; exact if_neg (by decide)
theorem amount_copy (d : Fin 3) : (Rd (F := F) m).amount (copyCell c g k) 0 d = copyAmt g := by
  show amtOf (copyS g k) = _; unfold amtOf; rw [qa_copy, qg_copy]; exact if_pos rfl

theorem payload_bar (d : Fin 3) : (Rd (F := F) m).payload (barCell c) 0 d = barPay c d := by
  dsimp only [Rd]; exact if_pos rfl
theorem payload_send (d : Fin 3) : (Rd (F := F) m).payload (sendCell c g k) 0 d = sendPay m c g k := by
  dsimp only [Rd]; rw [if_pos (two_le_send g k)]; unfold dmaPay; rw [qa_send, qg_send, qk_send]; exact if_pos rfl
theorem payload_recv (d : Fin 3) : (Rd (F := F) m).payload (recvCell c g k) 0 d = recvPay m c g k := by
  dsimp only [Rd]; rw [if_pos (two_le_recv g k)]; unfold dmaPay; rw [qa_recv, qg_recv, qk_recv, if_neg (by decide)]; exact if_pos rfl
theorem payload_copy (d : Fin 3) : (Rd (F := F) m).payload (copyCell c g k) 0 d = copyPay m c g k := by
  dsimp only [Rd]; rw [if_pos (two_le_copy g k)]; unfold dmaPay; rw [qa_copy, qg_copy, qk_copy, if_neg (by decide)]; exact if_neg (by decide)

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c g k) 0 = xferAmt g k := by
  unfold Schedule.expect Schedule.amountOf; rw [duties_send, Finset.sum_singleton, amount_send]
theorem expect_recv : (Rd (F := F) m).expect (recvCell c g k) 0 = xferAmt g k := by
  unfold Schedule.expect Schedule.amountOf; rw [duties_recv, Finset.sum_singleton, amount_recv]
theorem expect_copy : (Rd (F := F) m).expect (copyCell c g k) 0 = copyAmt g := by
  unfold Schedule.expect Schedule.amountOf; rw [duties_copy, Finset.sum_singleton, amount_copy]

/-- The whole of a barrier round: the three neighbours' hand-overs. -/
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [(0 : Fin 3), 1, 2] (by decide) (by decide)]
  simp only [bigSepL_cons_cons, bigSepL_singleton, payload_bar]
  rfl
theorem rest_send : bigSep ((Rd (F := F) m).duties (sendCell c g k) 0 \ ∅) (fun d => (Rd (F := F) m).payload (sendCell c g k) 0 d) = sendPay m c g k := by
  rw [Finset.sdiff_empty, duties_send, bigSep_singleton, payload_send]
theorem rest_recv : bigSep ((Rd (F := F) m).duties (recvCell c g k) 0 \ ∅) (fun d => (Rd (F := F) m).payload (recvCell c g k) 0 d) = recvPay m c g k := by
  rw [Finset.sdiff_empty, duties_recv, bigSep_singleton, payload_recv]
theorem rest_copy : bigSep ((Rd (F := F) m).duties (copyCell c g k) 0 \ ∅) (fun d => (Rd (F := F) m).payload (copyCell c g k) 0 d) = copyPay m c g k := by
  rw [Finset.sdiff_empty, duties_copy, bigSep_singleton, payload_copy]

end Tables

end Cert.Kernel.DM

end
-- ==== Proof.Bits.LaunchSetup.lean ====
import proofs.«900891_g7700000000000892_dist_matmul_m_i_outrep_m1024_n1024_k512_v7x_i8_f32_1_alg».proof.Proof.Bits.Sched

/-!
The cells of the protocol enumerated for the launch, and the protocol's ghost state.

Each device has seventy-three cells: the barrier cell (the runtime's barrier semaphore, not scoped to the kernel) and
its own seventy-two DMA semaphores, three arrays (send, receive, copy) of three row groups by eight steps. They are
indexed by a sum type so that a conjunction over all of them splits by part without being written out. Stated for
any schedule with three duty names: the persistent records every device may hold of every cell, what stays with
one device (its positions and the tokens of the duties it pays), the funding of all cells from the launch element,
the allocation of every cell's invariant in one step over all devices, and the dealing of the minted tokens to their
payers (a barrier duty to the neighbour at its mask, a receive duty to the partner of its step).
-/

noncomputable section

namespace Cert.Kernel.DM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The enumeration -/

/-- A device's own semaphores by array (0 send, 1 receive, 2 copy), row group and step. -/
abbrev OIx : Type := Fin 3 × Fin 3 × Fin 8
/-- A device's cells: the barrier cell, or one of its own. -/
abbrev CIx : Type := Unit ⊕ OIx

/-- The three arrays of own semaphores. -/
def arrS : Fin 3 → Fin 3 → Fin 8 → DmaSem sig := ![sendS, recvS, copyS]

/-- The kernel's own (scoped) semaphore cells. -/
def osem (k : OIx) : SemLoc sig := .dma (arrS k.1 k.2.1 k.2.2)

/-- All of a device's cells. -/
def csem : CIx → SemLoc sig
  | .inl _ => .reg barS
  | .inr k => osem k

/-- The cell of a device under an index. -/
abbrev kcell (ck : Dev nD × CIx) : GSem nD τ sig := ((ck.1 : Thread nD τ), csem ck.2)

theorem kcell_bar (c : Dev nD) : kcell (c, .inl ()) = barCell c := rfl
theorem kcell_send (c : Dev nD) (g : Fin 3) (k : Fin 8) : kcell (c, .inr (0, g, k)) = sendCell c g k := rfl
theorem kcell_recv (c : Dev nD) (g : Fin 3) (k : Fin 8) : kcell (c, .inr (1, g, k)) = recvCell c g k := rfl
theorem kcell_copy (c : Dev nD) (g : Fin 3) (k : Fin 8) : kcell (c, .inr (2, g, k)) = copyCell c g k := rfl

/-- The own semaphores are scoped, pairwise distinct, and none is a staging semaphore. -/
theorem ownSemFacts : Pipeline.OwnSemFacts cfg0.spec osem := by decide +kernel

theorem csem_injective : Function.Injective csem := by decide +kernel

theorem kcell_injective : Function.Injective (kcell : Dev nD × CIx → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- The cells of all devices. -/
def allCells : Finset (GSem nD τ sig) := Finset.univ.map ⟨kcell, kcell_injective⟩

/-- A device's minted duty tokens: the barrier cell's three duties, and the one duty of each own cell. -/
abbrev TIx : Type := Fin 3 ⊕ OIx

def tokOf (cj : Dev nD × TIx) : GSem nD τ sig × ℕ × Fin 3 :=
  match cj.2 with
  | .inl d => (kcell (cj.1, .inl ()), 0, d)
  | .inr k => (kcell (cj.1, .inr k), 0, 0)

theorem tokOf_injective : Function.Injective tokOf := by
  rintro ⟨c, j⟩ ⟨c', j'⟩ h
  have h1 : c = c' := by
    have := congrArg (fun x : GSem nD τ sig × ℕ × Fin 3 => x.1.1.1) h
    rcases j with d | k <;> rcases j' with d' | k' <;> exact this
  subst h1
  rcases j with d | k <;> rcases j' with d' | k'
  · have h2 : d = d' := congrArg (fun x : GSem nD τ sig × ℕ × Fin 3 => x.2.2) h
    rw [h2]
  · have h2 : csem (.inl ()) = csem (.inr k') := congrArg (fun x : GSem nD τ sig × ℕ × Fin 3 => x.1.2) h
    exact absurd (csem_injective h2) (fun h' => by cases h')
  · have h2 : csem (.inr k) = csem (.inl ()) := congrArg (fun x : GSem nD τ sig × ℕ × Fin 3 => x.1.2) h
    exact absurd (csem_injective h2) (fun h' => by cases h')
  · have h2 : csem (.inr k) = csem (.inr k') := congrArg (fun x : GSem nD τ sig × ℕ × Fin 3 => x.1.2) h
    rw [Sum.inr.inj (csem_injective h2)]

/-- The duty tokens of all devices' cells. -/
def allToks : Finset (GSem nD τ sig × ℕ × Fin 3) := Finset.univ.map ⟨tokOf, tokOf_injective⟩

/-! ## Conjunctions over the index, by part -/

theorem bigSep_fin3 {M : Type} [URA M] (Φ : Fin 3 → sProp M) : bigSep Finset.univ Φ = iprop(Φ 0 ∗ Φ 1 ∗ Φ 2) :=
  bigSep_univ_eq_bigSepL [0, 1, 2] (by decide) (by decide) Φ

/-- Over a device's cells: the barrier cell, then its own. -/
theorem bigSep_CIx {M : Type} [URA M] (Φ : CIx → sProp M) :
    bigSep Finset.univ Φ = iprop(Φ (.inl ()) ∗ bigSep Finset.univ fun k : OIx => Φ (.inr k)) := by
  rw [bigSep_univ_sum, bigSep_univ_of_subsingleton ()]
  rfl

/-- Over a device's own cells: the send, the receive and the copy array. -/
theorem bigSep_OIx {M : Type} [URA M] (Φ : OIx → sProp M) :
    bigSep Finset.univ Φ = iprop((bigSep Finset.univ fun gk : Fin 3 × Fin 8 => Φ (0, gk)) ∗ (bigSep Finset.univ fun gk : Fin 3 × Fin 8 => Φ (1, gk))
      ∗ bigSep Finset.univ fun gk : Fin 3 × Fin 8 => Φ (2, gk)) := by
  rw [bigSep_univ_prod, bigSep_fin3]

/-- A family of conjuncts indexed by device and by `j`, each dealt to another device by a bijection depending on `j`. -/
theorem bigSep_deal {M : Type} [URA M] {J : Type} [Fintype J] (e : J → Dev nD ≃ Dev nD) (Φ : Dev nD → J → sProp M) :
    (bigSep Finset.univ fun c : Dev nD => bigSep Finset.univ fun j : J => Φ c j)
      = bigSep Finset.univ fun c : Dev nD => bigSep Finset.univ fun j : J => Φ (e j c) j := by
  rw [bigSep_univ_comm (fun (c : Dev nD) (j : J) => Φ c j), bigSep_univ_comm (fun (c : Dev nD) (j : J) => Φ (e j c) j)]
  exact bigSep_congr fun j _ => bigSep_univ_equiv (e j) (fun c => Φ c j)

/-- Exclusive or with a fixed mask, and the partner map of a step, as bijections of the devices. -/
def xrE (k : Fin 8) : Dev nD ≃ Dev nD := ⟨fun c => xr c k, fun c => xr c k, fun c => xr_xr c k, fun c => xr_xr c k⟩
def partnerE (g : Fin 3) (st : Fin 8) : Dev nD ≃ Dev nD :=
  ⟨fun c => partner c g st, fun c => partner c g st, fun c => partner_partner c g st, fun c => partner_partner c g st⟩

/-! ## The protocol's ghost state, per device -/

section Ghost

variable (Rd : Rounds.Schedule (GSem nD τ sig) (Fin 3) (MT nD τ sig Unit (Elt F) ℕ UU ℕ))

/-- What every device may hold of every cell, being persistent: that a name carries the cell's invariant, and that the
    cell has reached round 0. -/
def records (K : Dev nD × CIx → ℕ) : sProp 𝕄 :=
  iprop((bigSep Finset.univ fun ck : Dev nD × CIx => cellInv ER Rd (K ck) (kcell ck))
    ∗ bigSep Finset.univ fun ck : Dev nD × CIx => reached ER (kcell ck) 0)

instance records_persistent (K : Dev nD × CIx → ℕ) : BI.Persistent (records Rd K) := by unfold records; infer_instance

omit [FloatOps F] in
theorem records_inv (K : Dev nD × CIx → ℕ) (ck : Dev nD × CIx) : records Rd K ⊢ cellInv ER Rd (K ck) (kcell ck) :=
  sep_elim_left.trans (bigSep_elim (Finset.mem_univ ck))
omit [FloatOps F] in
theorem records_reached (K : Dev nD × CIx → ℕ) (ck : Dev nD × CIx) : records Rd K ⊢ reached ER (kcell ck) 0 :=
  sep_elim_right.trans (bigSep_elim (Finset.mem_univ ck))

/-- The tokens of the duties device `c` pays: one unit on each neighbour's barrier cell, the transfer onto its partner's
    receive cell in every step, and the one duty of each of its own send and copy cells. -/
def payToks (c : Dev nD) : sProp 𝕄 :=
  iprop((bigSep Finset.univ fun d : Fin 3 => dutyTok ER (barCell (xr c (dir d))) 0 d)
    ∗ bigSep Finset.univ fun gk : Fin 3 × Fin 8 =>
        iprop(dutyTok ER (recvCell (partner c gk.1 gk.2) gk.1 gk.2) 0 0 ∗ dutyTok ER (sendCell c gk.1 gk.2) 0 0 ∗ dutyTok ER (copyCell c gk.1 gk.2) 0 0))

/-- What stays with device `c` alone: its position at round 0 of each of its cells, and the tokens it pays with. -/
def linear (c : Dev nD) : sProp 𝕄 :=
  iprop((bigSep Finset.univ fun k : CIx => atPos ER (kcell (c, k)) 0 ∅ 0) ∗ payToks c)

/-- The protocol's ghost state device `c` starts from, the invariants at the names `K`. -/
def ghost (K : Dev nD × CIx → ℕ) (c : Dev nD) : sProp 𝕄 := iprop(records Rd K ∗ linear c)

/-! ## Funding the cells -/

/-- The duty tokens of device `c`'s own cells, as minted. -/
def toks (c : Dev nD) : sProp 𝕄 :=
  iprop((bigSep Finset.univ fun d : Fin 3 => dutyTok ER (barCell c) 0 d) ∗ bigSep Finset.univ fun k : OIx => dutyTok ER (kcell (c, .inr k)) 0 0)

/-- What the launch element deals device `c`: the round state, the position and the reached mark of each of its cells, and
    their duty tokens. -/
def G (c : Dev nD) : sProp 𝕄 :=
  iprop((bigSep Finset.univ fun k : CIx => roundState ER Rd (kcell (c, k)) 0)
    ∗ (bigSep Finset.univ fun k : CIx => iprop(atPos ER (kcell (c, k)) 0 ∅ 0 ∗ reached ER (kcell (c, k)) 0)) ∗ toks c)

/-- What the allocation of all invariants at once makes of it. -/
def G' (c : Dev nD) : sProp 𝕄 := iprop(∃ K, ghost Rd K c)

omit [FloatOps F] in
theorem fund_cells : BI.own (ER (initOf allCells allToks)) ⊢ (|==> bigSep Finset.univ (G Rd) : sProp 𝕄) := by
  have hX (Φ : GSem nD τ sig → sProp 𝕄) : bigSep allCells Φ = bigSep Finset.univ fun c : Dev nD => bigSep Finset.univ fun k : CIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER Rd allCells allToks) $$ HX with ⟨Hst, Hr, Hat, Htok⟩
  imodintro
  ihave Hst' := (Entails.of_eq (hX fun g => roundState ER Rd g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- The counters of a device's cells at zero, from the launch's two groups. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [unscopedSems0_eq, bigSep_CIx]
  unfold Pipeline.ownSems0
  iintro ⟨HS, HB⟩
  isplitl [HB]; · iexact HB
  iexact HS

omit [FloatOps F] in
/-- Each cell of a device gets its invariant, at some name. -/
theorem core_alloc [∀ g r d, BI.Storable (upEmb : UEmb _ (MT nD τ sig Unit (Elt F) ℕ UU ℕ)) (Rd.payload g r d)] (c : Dev nD) :
    iprop(Pipeline.ownSems0 (Ix := Unit) (Name := ℕ) (U := UU) (Lvl := ℕ) (Val := Elt F) (τ := τ) osem c ∗ unscopedSems0 c ∗ G Rd c)
      ⊢ |={Set.univ}=> iprop((bigSep Finset.univ fun k : CIx => iprop(∃ κ : ℕ, cellInv ER Rd κ (kcell (c, k))))
          ∗ (bigSep Finset.univ fun k : CIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER Rd (kcell (c, k)) 0)
      ⊢ (|={Set.univ}=> bigSep Finset.univ fun k : CIx => iprop(∃ κ : ℕ, cellInv ER Rd κ (kcell (c, k))) : sProp 𝕄) from by
        rw [← bigSep_sep']
        exact (bigSep_mono fun k _ => (Rounds.body_intro ER Rd (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt to their payers: a barrier cell's duty `d` to the neighbour at mask `dir d`, a receive cell's duty to
    the partner of its step; the send and copy cells' stay. -/
theorem toks_around : (bigSep Finset.univ fun c : Dev nD => (toks c : sProp 𝕄)) ⊢ bigSep Finset.univ fun c : Dev nD => payToks c := by
  have hB := bigSep_deal (fun d : Fin 3 => xrE (dir d)) (fun (c : Dev nD) (d : Fin 3) => (dutyTok ER (barCell c) 0 d : sProp 𝕄))
  have hR := bigSep_deal (fun gk : Fin 3 × Fin 8 => partnerE gk.1 gk.2)
    (fun (c : Dev nD) (gk : Fin 3 × Fin 8) => (dutyTok ER (recvCell c gk.1 gk.2) 0 0 : sProp 𝕄))
  unfold toks payToks
  simp only [bigSep_OIx, bigSep_sep']
  iintro ⟨HB, HS, HR, HC⟩
  isplitl [HB]; · iapply (Entails.of_eq hB); iexact HB
  isplitl [HR]; · iapply (Entails.of_eq hR); iexact HR
  isplitl [HS]; · iexact HS
  iexact HC

omit [FloatOps F] in
theorem regroup :
    (bigSep Finset.univ fun c : Dev nD => iprop((bigSep Finset.univ fun k : CIx => iprop(∃ κ : ℕ, cellInv ER Rd κ (kcell (c, k))))
          ∗ (bigSep Finset.univ fun k : CIx => iprop(atPos ER (kcell (c, k)) 0 ∅ 0 ∗ reached ER (kcell (c, k)) 0)) ∗ toks c) : sProp 𝕄)
      ⊢ bigSep Finset.univ (G' Rd) := by
  rw [bigSep_sep', bigSep_sep', ← bigSep_univ_prod (fun ck : Dev nD × CIx => iprop(∃ κ : ℕ, cellInv ER Rd κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER Rd κ (kcell ck) : sProp 𝕄))) $$ HI
  icases HK with ⟨%K, #HI⟩
  ihave Htk := (toks_around (F := F)) $$ Htok
  iapply (bigSep_with_persistent (R := records Rd K) (Ψ := G' Rd) (Φ := linear) fun c _ => by
    unfold G' ghost; iintro H; iexists K; iexact H)
  isplitr
  · unfold records; isplitl; · iexact HI
    iexact HR
  · unfold linear
    rw [bigSep_sep']
    isplitl [Hat]; · iexact Hat
    iexact Htk

omit [FloatOps F] in
/-- The global step: the own and the unscoped semaphores of every device at once. -/
theorem glob [∀ g r d, BI.Storable (upEmb : UEmb _ (MT nD τ sig Unit (Elt F) ℕ UU ℕ)) (Rd.payload g r d)] : (bigSep Finset.univ fun c => iprop(Pipeline.ownSems0 (Ix := Unit) (Name := ℕ) (U := UU) (Lvl := ℕ) (Val := Elt F) (τ := τ) osem c ∗ unscopedSems0 c ∗ G Rd c) : sProp 𝕄)
    ⊢ |={Set.univ}=> bigSep Finset.univ (G' Rd) :=
  ((bigSep_mono fun c _ => core_alloc Rd c).trans (bigSep_fupd _ _)).trans (BI.fupd_mono (regroup Rd))

end Ghost

/-! ## The launch element -/

section Fund

variable (Rd : Rounds.Schedule (GSem nD τ sig) (Fin 3) (MT nD τ sig Unit (Elt F) ℕ UU ℕ))

/-- The launch element: the pipeline's staging cells in the first copy of the algebra, the protocol's cells in the second. -/
def u₀ : UU :=
  (initOf (Pipeline.cells cfgs cellOf_inj) (Pipeline.launchToks cfgs cellOf_inj), initOf allCells allToks)

omit [FloatOps F] in
theorem fund_all :
    (ownU u₀ : sProp 𝕄) ⊢ |={Set.univ}=> iprop(BI.own (EP (initOf (Pipeline.cells cfgs cellOf_inj) (Pipeline.launchToks cfgs cellOf_inj))) ∗ bigSep Finset.univ (G Rd)) := by
  unfold u₀
  iintro Hu
  ihave H := (ownU_pair _ _) $$ Hu
  icases H with ⟨HP, HX⟩
  imod (fund_cells Rd) $$ HX with HG
  imodintro
  isplitl [HP] <;> iassumption

end Fund

/-- info: 'Cert.Kernel.DM.glob' depends on axioms: [propext, Classical.choice, Quot.sound] -/
#guard_msgs in #print axioms glob

/-- info: 'Cert.Kernel.DM.fund_all' depends on axioms: [propext, Classical.choice, Quot.sound] -/
#guard_msgs in #print axioms fund_all

end Cert.Kernel.DM

end
-- ==== Proof.Bits.State.lean ====
import proofs.«900891_g7700000000000892_dist_matmul_m_i_outrep_m1024_n1024_k512_v7x_i8_f32_1_alg».proof.Proof.Bits.Sched
import proofs.«900891_g7700000000000892_dist_matmul_m_i_outrep_m1024_n1024_k512_v7x_i8_f32_1_alg».proof.Proof.Bits.LaunchSetup

/-!
What a device owes and in which order it pays; the levels that keep every wait below what is still owed.

A device pays, in program order: one unit to each neighbour's barrier; then, step by step, the credit of each transfer
to its partner's receive cell. A wait is allowed when the waited cell's level lies below the level of every cell still
owed. Send, copy and staging cells sit at level 0, the barrier at 1, the receive cells of steps 0, 1, 3 at 2, of steps
2, 4, 5 at 3, of the two last steps at 4: each receive wait of the program comes before the first payment of a higher
level's step that is still to start, and after every payment at its own level or below.
-/

noncomputable section

namespace Cert.Kernel.DM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## Levels -/

def L (g : GSem nD τ sig) : Finset Unit := if g.1.2 = .tc then {()} else ∅

/-- The level of a receive cell's step. -/
def stLv : Fin 8 → ℕ := ![2, 2, 3, 2, 3, 3, 4, 4]

def lv (g : GSem nD τ sig) (_ : Unit) : ℕ := match g.2 with
  | .reg s => if s = barS then 1 else 0
  | .dma q => if 2 ≤ q.val ∧ qa q = 1 then stLv (qk q) else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by
  show (if (barS : Sem sig) = barS then 1 else 0) = 1
  exact if_pos rfl
theorem lv_send : ∀ (c : Dev nD) (g : Fin 3) (k : Fin 8), lv (sendCell c g k) () = 0 := by
  intro c g k; show (if 2 ≤ (sendS g k).val ∧ qa (sendS g k) = 1 then _ else 0) = 0
  rw [qa_send]; exact if_neg (fun h => absurd h.2 (by decide))
theorem lv_copy : ∀ (c : Dev nD) (g : Fin 3) (k : Fin 8), lv (copyCell c g k) () = 0 := by
  intro c g k; show (if 2 ≤ (copyS g k).val ∧ qa (copyS g k) = 1 then _ else 0) = 0
  rw [qa_copy]; exact if_neg (fun h => absurd h.2 (by decide))
theorem lv_recv : ∀ (c : Dev nD) (g : Fin 3) (k : Fin 8), lv (recvCell c g k) () = stLv k := by
  intro c g k; show (if 2 ≤ (recvS g k).val ∧ qa (recvS g k) = 1 then stLv (qk (recvS g k)) else 0) = _
  rw [qa_recv, qk_recv]; exact if_pos ⟨two_le_recv g k, rfl⟩

/-- Everything owed in `O` is owed to a TensorCore cell of level above `n`. -/
def Above (n : ℕ) (O : CellTallies nD τ sig Unit) : Prop :=
  ∀ (g : GSem nD τ sig) (u : Unit), 0 < O g u → g.1.2 = .tc ∧ n < lv g u

theorem above_zero (n : ℕ) : Above n (0 : CellTallies nD τ sig Unit) := fun g u h => absurd h (Nat.lt_irrefl 0)
theorem above_add {n : ℕ} {O O' : CellTallies nD τ sig Unit} (h : Above n O) (h' : Above n O') : Above n (O + O') := by
  intro g u hg
  rw [Pi.add_apply, Finsupp.add_apply] at hg
  rcases Nat.add_pos_iff_pos_or_pos.mp hg with h1 | h1
  · exact h g u h1
  · exact h' g u h1
theorem above_tally {n k : ℕ} (g : GSem nD τ sig) (hg : g.1.2 = .tc) (hn : n < lv g ()) : Above n (tallyAt g () k) := by
  intro g' u h
  rw [tallyAt_apply] at h
  by_cases e : g' = g ∧ u = ()
  · rw [e.1]; exact ⟨hg, hn⟩
  · rw [if_neg e] at h; exact absurd h (Nat.lt_irrefl 0)
theorem above_mono {n n' : ℕ} {O : CellTallies nD τ sig Unit} (h : Above n O) (hn : n' ≤ n) : Above n' O :=
  fun g u hg => ⟨(h g u hg).1, Nat.lt_of_le_of_lt hn (h g u hg).2⟩

omit [FloatOps F] in
/-- A wait on a TensorCore cell of level `n` while everything owed lies above `n`. -/
theorem mayWait_of_above (c : Dev nD) (sm : SemLoc sig) (O : CellTallies nD τ sig Unit)
    (hO : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by
      have := (hO g u hg).1
      rcases g with ⟨⟨d, κ⟩, s⟩
      simp only at this; subst this
      exact Finset.mem_singleton_self _)
    (fun p hp => by rw [Finset.mem_singleton.mp hp])
    (fun g u hg => (hO g u hg).2)

/-! ## What a device owes, in the order it pays -/

/-- The credit device `c` owes its partner's receive cell for step `st` of group `g`. -/
def owedStep (c : Dev nD) (g : Fin 3) (st : Fin 8) : CellTallies nD τ sig Unit :=
  tallyAt (recvCell (partner c g st) g st) () (xferAmt g st)
/-- The unit device `c` owes the barrier of its neighbour in direction `d`. -/
def owedBar (c : Dev nD) (d : Fin 3) : CellTallies nD τ sig Unit := tallyAt (barCell (xr c (dir d))) () 1

/-- What is still owed when the payments in `l` are still to come, the head paid first. -/
def Orem : List (CellTallies nD τ sig Unit) → CellTallies nD τ sig Unit
  | [] => 0
  | x :: xs => Orem xs + x

/-- The payments of device `c` in program order. -/
def payList (c : Dev nD) : List (CellTallies nD τ sig Unit) :=
  [owedBar c 0, owedBar c 1, owedBar c 2,
   owedStep c 0 0, owedStep c 1 0, owedStep c 2 0,
   owedStep c 0 1, owedStep c 1 1, owedStep c 2 1,
   owedStep c 0 3, owedStep c 1 3, owedStep c 2 3,
   owedStep c 0 2, owedStep c 0 4, owedStep c 1 2, owedStep c 1 4, owedStep c 2 2, owedStep c 2 4,
   owedStep c 0 5, owedStep c 1 5, owedStep c 2 5,
   owedStep c 0 6, owedStep c 0 7, owedStep c 1 6, owedStep c 1 7, owedStep c 2 6, owedStep c 2 7]

def O₀ (c : Dev nD) : CellTallies nD τ sig Unit := Orem (payList c)

/-- What the others owe device `c`: its barrier's three units and each receive cell's transfer, listed as `payList`
    lists what `c` owes them. -/
def ownStep (c : Dev nD) (g : Fin 3) (st : Fin 8) : CellTallies nD τ sig Unit := tallyAt (recvCell c g st) () (xferAmt g st)
def ownBar (c : Dev nD) : CellTallies nD τ sig Unit := tallyAt (barCell c) () 1
def ownList (c : Dev nD) : List (CellTallies nD τ sig Unit) :=
  [ownBar c, ownBar c, ownBar c,
   ownStep c 0 0, ownStep c 1 0, ownStep c 2 0,
   ownStep c 0 1, ownStep c 1 1, ownStep c 2 1,
   ownStep c 0 3, ownStep c 1 3, ownStep c 2 3,
   ownStep c 0 2, ownStep c 0 4, ownStep c 1 2, ownStep c 1 4, ownStep c 2 2, ownStep c 2 4,
   ownStep c 0 5, ownStep c 1 5, ownStep c 2 5,
   ownStep c 0 6, ownStep c 0 7, ownStep c 1 6, ownStep c 1 7, ownStep c 2 6, ownStep c 2 7]

theorem above_owedStep (c : Dev nD) (g : Fin 3) (st : Fin 8) {n : ℕ} (h : n < stLv st) : Above n (owedStep c g st) :=
  above_tally _ rfl (by rw [lv_recv]; exact h)
theorem above_owedBar (c : Dev nD) (d : Fin 3) : Above 0 (owedBar c d) :=
  above_tally _ rfl (by rw [lv_bar]; decide)

/-! ## What a device's body starts from and ends with -/

variable (m : (ℓ : Loc nD τ sig) → Buf (Elt F) ℓ)

/-- The one grid point. -/
theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The ghost state at some names, the credit of everything others will pay this device (three units on its barrier,
    each receive cell's transfer) as one token, and the levels. -/
def start (c : Dev nD) : sProp 𝕄 :=
  iprop((∃ K, ghost (Rd m) K c) ∗ cred (Orem (ownList c)) ∗ levAts L lv)

/-- A whole buffer of device `c` at some contents. -/
def anyBuf (c : Dev nD) (b : Ref sig .tc) : sProp 𝕄 :=
  iprop(∃ f : Buf (Elt F) ((c : Thread nD τ).loc b), ((c : Thread nD τ).loc b) ↦{fullShare} f)

/-- The seven scratch buffers, each whole at some contents. -/
def scr (c : Dev nD) : sProp 𝕄 :=
  iprop(anyBuf c cc0_scratch0 ∗ anyBuf c cc0_scratch1 ∗ anyBuf c cc0_scratch2 ∗ anyBuf c cc0_scratch3
    ∗ anyBuf c cc0_scratch4 ∗ anyBuf c cc0_scratch5 ∗ anyBuf c cc0_scratch6)

/-- The result buffer holds every product block in its rows: the block of group `g` and slot `j`, whose rows of the
    left factor belong to device `xr c (mask g j)`, read through its piece of the result. -/
def outOK (c : Dev nD) (X : Buf (Elt F) ((c : Thread nD τ).loc main_v1)) : Prop :=
  (∀ j : Fin 8, stageOK0 m c j ((op0 c (mask 0 j)).view.read (Elt F) X))
  ∧ (∀ j : Fin 8, stageOK1 m c j ((op12 c (mask 1 j) 0).view.read (Elt F) X))
  ∧ (∀ j : Fin 8, stageOK2 m c j ((op12 c (mask 2 j) 1).view.read (Elt F) X))

def Φ₀ (c : Dev nD) : sProp 𝕄 :=
  iprop(start m c ∗ (((c : Thread nD τ).loc main_v1) ↦{fullShare} m ((c : Thread nD τ).loc main_v1)) ∗ scr c)

/-- After the body: the scratch buffers back, the result holding every product block, the 72 own cells closed. -/
def Φ₁ (c : Dev nD) : sProp 𝕄 :=
  iprop(scr c ∗ (∃ X, ⌜outOK m c X⌝ ∗ (((c : Thread nD τ).loc main_v1) ↦{fullShare} X))
    ∗ bigSep Finset.univ fun k : OIx => semVal (kcell (c, Sum.inr k)) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => ystg m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A staged input held whole at a named value. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xstg m c) ∗ stg c cc0_stg1_0 (ystg m c))

/-- The body as the pipeline calls it at the one grid point. -/
abbrev theBody : Prog (TpuEff nD τ sig (Elt F) Λ₀ .tc) PUnit := bodyAt0 (F := F) t0_0

end Cert.Kernel.DM

end
-- ==== Proof.Bits.Launch.lean ====
import proofs.«900891_g7700000000000892_dist_matmul_m_i_outrep_m1024_n1024_k512_v7x_i8_f32_1_alg».proof.Proof.Bits.State

/-!
The launch: from the body obligation of every device to the run of the whole mesh.

The launch element funds the pipeline's staging cells and the protocol's cells; one step over all devices allocates
every cell's invariant and deals the duty tokens to their payers; the credit the launch deals a device is the credit
of everything it waits for, since what the devices owe, summed over the mesh, is what they wait for; the staging
waits lie below everything a device owes. The result array is no window's: it enters the region as the rest of the
unscoped buffers and is read back from the last point's assertion against the final state.
-/

noncomputable section

namespace Cert.Kernel.DM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The launch credit -/

theorem sum_owedStep (g : Fin 3) (st : Fin 8) : ∑ d : Dev nD, owedStep d g st = ∑ d : Dev nD, ownStep d g st :=
  Equiv.sum_comp (partnerE g st) (fun d : Dev nD => ownStep d g st)
theorem sum_owedBar (dd : Fin 3) : ∑ d : Dev nD, owedBar d dd = ∑ d : Dev nD, ownBar d :=
  Equiv.sum_comp (xrE (dir dd)) (fun d : Dev nD => ownBar d)

/-- Summed over the devices, what is owed is what is waited for. -/
theorem sum_O₀ : (∑ d : Dev nD, O₀ d) = ∑ d : Dev nD, Orem (ownList d) := by
  simp only [O₀, payList, ownList, Orem, Finset.sum_add_distrib, sum_owedStep, sum_owedBar]

/-- What a device waits for is on its own cells. -/
theorem ownList_on (d : Dev nD) (g : GSem nD τ sig) (h : Orem (ownList d) g ≠ 0) : g.1 = (d.tc : Thread nD τ) := by
  by_contra hne
  apply h
  have hc (sm : SemLoc sig) (n : ℕ) : (tallyAt (((d.tc : Thread nD τ), sm) : GSem nD τ sig) () n : CellTallies nD τ sig Unit) g = 0 :=
    tallyAt_ne_cell (fun e => hne (congrArg Prod.fst e)) () n
  simp only [ownList, ownStep, ownBar, Orem, Pi.add_apply, Pi.zero_apply, hc, add_zero]

omit [FloatOps F] in
/-- The launch deals device `c` the credit of everything it waits for. -/
theorem launchCred_eq (c : Dev nD) : (Pipeline.launchCred O₀ c : sProp 𝕄) = cred (Orem (ownList c)) :=
  Pipeline.launchCred_of_sum O₀ (fun d => Orem (ownList d)) sum_O₀ ownList_on c

/-! ## The staging waits -/

/-- Everything a device owes lies above level 0. -/
theorem above_Orem {n : ℕ} {l : List (CellTallies nD τ sig Unit)} (h : ∀ x ∈ l, Above n x) : Above n (Orem l) := by
  induction l with
  | nil => exact above_zero n
  | cons x xs ih => exact above_add (ih fun y hy => h y (List.mem_cons_of_mem _ hy)) (h x List.mem_cons_self)

theorem above_O₀ (c : Dev nD) : Above 0 (O₀ c) := by
  have hb (d : Fin 3) : Above 0 (owedBar c d) := above_owedBar c d
  have hs (g : Fin 3) (st : Fin 8) : Above 0 (owedStep c g st) := above_owedStep c g st (by revert st; decide)
  refine above_Orem ?_
  unfold payList
  simp only [List.forall_mem_cons, hb, hs, true_and]
  intro x hx; cases hx

variable (m : (ℓ : Loc nD τ sig) → Buf (Elt F) ℓ)

theorem waits (c : Dev nD) : (levAts L lv : sProp 𝕄) ⊢ Pipeline.cellsWaits cfgs (dats m) () 0 c :=
  Pipeline.cellsWaits_intro cfgs (dats m) () 0 c fun w s t =>
    mayWait_of_above c _ _ (by
      have h0 : lv ((c : Thread nD τ), SemLoc.dma (((cfgs 0).win w).sem s)) () = 0 := by
        fin_cases w <;> fin_cases s <;> rfl
      rw [h0]
      rcases t with ⟨_ | _, ht⟩
      · exact above_O₀ c
      · exact above_zero 0)

/-! ## The theorem's side conditions -/

theorem share_eq (c : Dev nD) (w : Fin cfg0.W) : (dats m 0 c).share w = fullShare := by unfold Dat.share; split <;> rfl

/-- What a device carries into the region beside the pipeline's own: its start and the result array as launched. -/
def X₀ (c : Dev nD) : sProp 𝕄 :=
  iprop(start m c ∗ (((c : Thread nD τ).loc main_v1) ↦{fullShare} m ((c : Thread nD τ).loc main_v1)))
/-- What it carries out: the result array holding every product block. -/
def Y₁ (c : Dev nD) : sProp 𝕄 :=
  iprop(∃ X, ⌜outOK m c X⌝ ∗ (((c : Thread nD τ).loc main_v1) ↦{fullShare} X))

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Rd m) c)
      ⊢ |={Set.univ}=> iprop(X₀ m c ∗ emp) := by
  rw [Pipeline.unscopedRestP_none, unscopedRest0_eq, launchCred_eq]
  iintro ⟨Hout, Hlev, Hcr, -, HG⟩
  imodintro
  unfold X₀ start G'
  isplitl
  · isplitr [Hout]
    · isplitl [HG]; · iexact HG
      isplitl [Hcr]; · iexact Hcr
      iexact Hlev
    · iexact Hout
  · iempintro

theorem phi0_intro (c : Dev nD) :
    iprop(X₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X₀ scr anyBuf
  iintro ⟨⟨Hs, Ho⟩, -, Hr⟩
  isplitl [Hs]; · iexact Hs
  isplitl [Ho]; · iexact Ho
  iexact Hr

theorem phi1_exit (c : Dev nD) :
    (dats m 0 c).Φ (Fin.last cfg0.N) ⊢ iprop(Y₁ m c ∗ Pipeline.ownSems0 osem c ∗ Pipeline.scopedRest cfg0.spec c) := by
  rw [show (dats m 0 c).Φ (Fin.last cfg0.N) = Φ₁ m c from rfl, scopedRest0_eq]
  unfold Φ₁ Y₁ scr anyBuf Pipeline.ownSems0
  iintro ⟨Hr, Ho, Hz⟩
  isplitl [Ho]; · iexact Ho
  isplitl [Hz]; · iexact Hz
  iexact Hr

/-! ## The run -/

set_option maxRecDepth 65536 in
/-- At the compiled mesh of eight devices, for any float values, from any memory with zero counters, given the body
    obligation of every device: every weakly fair execution of the program terminates, and every final state has each
    device's result array holding every product block in its rows and both factors unchanged. -/
theorem run_main (m : (ℓ : Loc nD τ sig) → Buf (Elt F) ℓ) (ρ : Dev nD → PrngReg)
    (hbody : ∀ c : Dev nD, BodyObligation (dats (F := F) m 0 c) (defs₀ (F := F)) 𝒱₀ () Set.univ) :
    θ_run (defs (F := F)) (onTc (τ := τ) (main (F := F))) ⟨m, fun _ => 0, ρ⟩
      (fun r => ∀ c : Dev nD, outOK m c (r.2.mem ((c.tc : Thread nD τ).loc main_v1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (Rd m)) (G' := G' (Rd m)) (u₀ := u₀)
    (hu₀ := fund_all (Rd m))
    (hglob := glob (Rd m))
    (hA := fun _ _ => rfl) (hpf := fun _ k => k.elim0)
    (X := X₀ m) (Y := Y₁ m) (Z := fun _ => iprop(emp))
    (hX := start_intro m ρ) (hin := phi0_intro m) (hout := phi1_exit m)
    (QY := fun c s => outOK m c (s.mem ((c.tc : Thread nD τ).loc main_v1)))
    (hY := fun c s' => by
      unfold Y₁
      iintro ⟨⟨%X, %hX, Hx⟩, -, HSI⟩
      icombine HSI Hx gives %hx
      imodintro
      isplitr
      · ipureintro
        rw [Buf.eq_of_forall_mem_univ hx]; exact hX
      iexact HSI)
    (hQ := fun s h c => ⟨(h c).2.2,
      ((h c).1 0).trans ((dats (F := F) m 0 c).arrAt_in (0 : Fin 2) rfl _),
      ((h c).1 1).trans ((dats (F := F) m 0 c).arrAt_in (1 : Fin 2) rfl _)⟩)

/-- info: 'Cert.Kernel.DM.run_main' depends on axioms: [propext, Classical.choice, Quot.sound] -/
#guard_msgs in #print axioms run_main

end Cert.Kernel.DM

end
-- ==== Proof.Bits.Atoms.lean ====
import proofs.«900891_g7700000000000892_dist_matmul_m_i_outrep_m1024_n1024_k512_v7x_i8_f32_1_alg».proof.Proof.Bits.State

/-!
The few assertions about a device's buffers that pass between the steps of its body and are not already named with
the schedule: the two staged inputs held whole, and a stage slot whose rows below 176 already hold the first part of
the last product block.
-/

noncomputable section

namespace Cert.Kernel.DM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The device's block of the left factor, and its copy of the right factor, staged whole. -/
def inA (c : Dev nD) : sProp 𝕄 := ((c : Thread nD τ).loc cc0_stg0_0) ↦{fullShare} xstg m c
def inB (c : Dev nD) : sProp 𝕄 := ((c : Thread nD τ).loc cc0_stg1_0) ↦{fullShare} ystg m c

/-- Stage slot 1 of each group once the rows below 176 of the last product block are in it. -/
def stageTop0 (c : Dev nD) : sProp 𝕄 :=
  iprop(∃ f : Buf (Elt F) ((ss0 1).view.loc (c : Thread nD τ)), ((ss0 1).view.loc (c : Thread nD τ) ↦[(ss0 1).view.set]{fullShare} f)
    ∗ ⌜topRA ((ss0 1).view.read (Elt F) f) = prod176 (topA (sv0 m (xr c (mask 0 7)))) (bv m c)⌝)
def stageTop1 (c : Dev nD) : sProp 𝕄 :=
  iprop(∃ f : Buf (Elt F) ((ss1 1).view.loc (c : Thread nD τ)), ((ss1 1).view.loc (c : Thread nD τ) ↦[(ss1 1).view.set]{fullShare} f)
    ∗ ⌜topRB ((ss1 1).view.read (Elt F) f) = prod176 (topB (sv1 m (xr c (mask 1 7)))) (bv m c)⌝)
def stageTop2 (c : Dev nD) : sProp 𝕄 :=
  iprop(∃ f : Buf (Elt F) ((ss2 1).view.loc (c : Thread nD τ)), ((ss2 1).view.loc (c : Thread nD τ) ↦[(ss2 1).view.set]{fullShare} f)
    ∗ ⌜topRB ((ss2 1).view.read (Elt F) f) = prod176 (topB (sv2 m (xr c (mask 2 7)))) (bv m c)⌝)

/-- Product block `j` of each group sitting in its stage slot. -/
def stageHas0 (c : Dev nD) (j : Fin 8) : sProp 𝕄 := iprop(∃ w, ⌜stageOK0 m c j w⌝ ∗ holdsPts c (ss0 (par j)) fullShare w)
def stageHas1 (c : Dev nD) (j : Fin 8) : sProp 𝕄 := iprop(∃ w, ⌜stageOK1 m c j w⌝ ∗ holdsPts c (ss1 (par j)) fullShare w)
def stageHas2 (c : Dev nD) (j : Fin 8) : sProp 𝕄 := iprop(∃ w, ⌜stageOK2 m c j w⌝ ∗ holdsPts c (ss2 (par j)) fullShare w)

/-- Product block `j` of each group landed in its rows of the result. -/
def pieceDone0 (c : Dev nD) (j : Fin 8) : sProp 𝕄 := iprop(∃ w, ⌜stageOK0 m c j w⌝ ∗ holdsPts c (op0 c (mask 0 j)) fullShare w)
def pieceDone1 (c : Dev nD) (j : Fin 8) : sProp 𝕄 := iprop(∃ w, ⌜stageOK1 m c j w⌝ ∗ holdsPts c (op12 c (mask 1 j) 0) fullShare w)
def pieceDone2 (c : Dev nD) (j : Fin 8) : sProp 𝕄 := iprop(∃ w, ⌜stageOK2 m c j w⌝ ∗ holdsPts c (op12 c (mask 2 j) 1) fullShare w)

/-! ## By group -/

/-- Slot `k` of group `g`'s gather buffer at some contents; filled, at share `q`; the two parts of a filled slot. -/
def slotAny (c : Dev nD) (g : Fin 3) (k : Fin 8) : sProp 𝕄 := match g with
  | 0 => anyPts c (gs0 k) | 1 => anyPts c (gs1 k) | 2 => anyPts c (gs2 k)
def slotHas (c : Dev nD) (g : Fin 3) (k : Fin 8) (q : PosShare TreeShare) : sProp 𝕄 := match g with
  | 0 => holdsPts c (gs0 k) q (sv0 m (xr c (mask 0 k)))
  | 1 => holdsPts c (gs1 k) q (sv1 m (xr c (mask 1 k)))
  | 2 => holdsPts c (gs2 k) q (sv2 m (xr c (mask 2 k)))
def slotTop (c : Dev nD) (g : Fin 3) (k : Fin 8) (q : PosShare TreeShare) : sProp 𝕄 := match g with
  | 0 => holdsPts c (ga0 k) q (topA (sv0 m (xr c (mask 0 k))))
  | 1 => holdsPts c (ga1 k) q (topB (sv1 m (xr c (mask 1 k))))
  | 2 => holdsPts c (ga2 k) q (topB (sv2 m (xr c (mask 2 k))))
def slotBot (c : Dev nD) (g : Fin 3) (k : Fin 8) (q : PosShare TreeShare) : sProp 𝕄 := match g with
  | 0 => holdsPts c (gb0 k) q (botA (sv0 m (xr c (mask 0 k))))
  | 1 => holdsPts c (gb1 k) q (botB (sv1 m (xr c (mask 1 k))))
  | 2 => holdsPts c (gb2 k) q (botB (sv2 m (xr c (mask 2 k))))
def stageAny (c : Dev nD) (g : Fin 3) (p : Fin 2) : sProp 𝕄 := match g with
  | 0 => anyPts c (ss0 p) | 1 => anyPts c (ss1 p) | 2 => anyPts c (ss2 p)
def stageHas (c : Dev nD) (g : Fin 3) (j : Fin 8) : sProp 𝕄 := match g with
  | 0 => stageHas0 m c j | 1 => stageHas1 m c j | 2 => stageHas2 m c j
def stageTop (c : Dev nD) (g : Fin 3) : sProp 𝕄 := match g with
  | 0 => stageTop0 m c | 1 => stageTop1 m c | 2 => stageTop2 m c
def pieceAny (c : Dev nD) (g : Fin 3) (j : Fin 8) : sProp 𝕄 := match g with
  | 0 => anyPts c (op0 c (mask 0 j)) | 1 => anyPts c (op12 c (mask 1 j) 0) | 2 => anyPts c (op12 c (mask 2 j) 1)
def pieceDone (c : Dev nD) (g : Fin 3) (j : Fin 8) : sProp 𝕄 := match g with
  | 0 => pieceDone0 m c j | 1 => pieceDone1 m c j | 2 => pieceDone2 m c j

/-! ## What the body's first step has in hand, and what its last step must have -/

/-- Everything the body starts from, piece by piece: the shared records and levels, what is owed, the credit of what
    the others will pay, the positions and duty tokens of the device's cells, the staged inputs, and every buffer cut
    into the pieces the program handles: slot 0 of each gather buffer kept, the other slots as the targets to hand over
    at entry, the stage slots, the pieces of the result. -/
def Init (K : Dev nD × CIx → ℕ) (c : Dev nD) : sProp 𝕄 :=
  iprop(records (Rd m) K ∗ levAts L lv ∗ (∃ W, owes (c : Thread nD τ) (O₀ c) W)
    ∗ cred (tallyAt (barCell c) () 3)
    ∗ (bigSep Finset.univ fun gk : Fin 3 × Fin 8 => cred (tallyAt (recvCell c gk.1 gk.2) () (xferAmt gk.1 gk.2)))
    ∗ linear c
    ∗ inA m c ∗ inB m c ∗ anyPts c b16M
    ∗ (bigSep Finset.univ fun g : Fin 3 => slotAny c g 0)
    ∗ (bigSep Finset.univ fun gk : Fin 3 × Fin 8 => dstAny c gk.1 gk.2)
    ∗ (bigSep Finset.univ fun gp : Fin 3 × Fin 2 => stageAny c gp.1 gp.2)
    ∗ (bigSep Finset.univ fun gj : Fin 3 × Fin 8 => pieceAny c gj.1 gj.2))

/-- The shares of a group's gather buffer at the end: slot 0 in the four shares it was cut in, slot 1 in three, slot 2
    in two, slot 3 as its kept half and the two parts of the other half, slots 4 to 6 whole, slot 7 in its two parts. -/
def laneEnd (c : Dev nD) (g : Fin 3) : sProp 𝕄 :=
  iprop(slotHas m c g 0 fullShare.left.left.left ∗ slotHas m c g 0 fullShare.left.left.right ∗ slotHas m c g 0 fullShare.left.right ∗ slotHas m c g 0 fullShare.right
    ∗ slotHas m c g 1 fullShare.left.left ∗ slotHas m c g 1 fullShare.left.right ∗ slotHas m c g 1 fullShare.right
    ∗ slotHas m c g 2 fullShare.left ∗ slotHas m c g 2 fullShare.right
    ∗ slotTop m c g 3 fullShare.left ∗ slotBot m c g 3 fullShare.left ∗ slotHas m c g 3 fullShare.right
    ∗ slotHas m c g 4 fullShare ∗ slotHas m c g 5 fullShare ∗ slotHas m c g 6 fullShare
    ∗ slotTop m c g 7 fullShare ∗ slotBot m c g 7 fullShare)

/-- Everything in hand after the body's last wait. -/
def Final (K : Dev nD × CIx → ℕ) (c : Dev nD) : sProp 𝕄 :=
  iprop(records (Rd m) K ∗ (∃ W, owes (c : Thread nD τ) 0 W)
    ∗ (bigSep Finset.univ fun k : OIx => atPos ER (kcell (c, Sum.inr k)) 1 ∅ 0)
    ∗ inA m c ∗ inB m c ∗ holdsPts c b16M fullShare (bv m c)
    ∗ (bigSep Finset.univ fun g : Fin 3 => laneEnd m c g)
    ∗ (bigSep Finset.univ fun gp : Fin 3 × Fin 2 => stageAny c gp.1 gp.2)
    ∗ (bigSep Finset.univ fun gj : Fin 3 × Fin 8 => pieceDone m c gj.1 gj.2))

end Cert.Kernel.DM

end
-- ==== Proof.Bits.BodyWrap.lean ====
import proofs.«900891_g7700000000000892_dist_matmul_m_i_outrep_m1024_n1024_k512_v7x_i8_f32_1_alg».proof.Proof.Bits.Atoms
set_option maxRecDepth 16384

/-!
The body obligation of the launch theorem at the one grid point, from the run of a device's body: the pipeline's two
windows are opened, the staged inputs are named, and the run is applied.
-/
noncomputable section
namespace Cert.Kernel.DM
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (K : Dev nD × CIx → ℕ)

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The run of device `c`'s body from what the launch hands it to what it hands back. -/
def SoundBody : Prop :=
  ∀ (c : Dev nD) (Kt : PUnit → sProp 𝕄),
    iprop(bodyPre m c ∗ (bodyPost m c -∗ Kt ⟨⟩))
      ⊢ wp frame (wpE (defs₀ (F := F)) 𝒱₀ (c : Thread nD τ) none) Set.univ (cc0_body aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9) Kt

theorem body_obligation (h : SoundBody m) (c : Dev nD) : BodyObligation (dats (F := F) m 0 c) (defs₀ (F := F)) 𝒱₀ () Set.univ := fun t => by
  rw [fin_N t]
  rw [bigSep_W, bigSep_W]
  simp only [owns_whole_eq]
  show bodyPre m c ⊢ wp frame (wpE (defs₀ (F := F)) 𝒱₀ (c : Thread nD τ) none) Set.univ (cc0_body aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9) (fun _ => bodyPost m c)
  iintro H
  iapply (h c fun _ => bodyPost m c)
  isplitl [H]
  · iexact H
  · iintro H; iexact H

end Cert.Kernel.DM
end
-- ==== Proof.Bits.OpsWait.lean ====
import proofs.«900891_g7700000000000892_dist_matmul_m_i_outrep_m1024_n1024_k512_v7x_i8_f32_1_alg».proof.Proof.Bits.Atoms
import Idealize.ShloMosaic.Lib.Rounds
import Idealize.ShloMosaic.Rules.Auth
import Idealize.ShloMosaic.Rules.Footprints

/-!
The waits of a device on its own transfer cells, the closing of those cells, and the bookkeeping around them.

Each of a device's seventy-two transfer cells lives one round with one duty, so a wait for the cell's whole amount is
a wait for the rest of its round: it hands over the duty's payload (the share of the source back, the filled target,
or the copied product block with its stage slot) and moves the device to round 1, from where no round has a duty and
the cell can be closed, its counter at zero. A wait is allowed when everything the device still owes lies above the
waited cell's level. Beside the three waits: the split of the launch credit into one token per cell, and the
conjunctions over (group, step) written out term by term.
-/

noncomputable section

namespace Cert.Kernel.DM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Conjunctions over (group, step), term by term -/

/-- A conjunction over the twenty-four (group, step) pairs, in lexicographic order. -/
theorem bigSep_gk {M : Type} [URA M] (Φ : Fin 3 × Fin 8 → sProp M) :
    bigSep Finset.univ Φ = iprop(Φ (0, 0) ∗ Φ (0, 1) ∗ Φ (0, 2) ∗ Φ (0, 3) ∗ Φ (0, 4) ∗ Φ (0, 5) ∗ Φ (0, 6) ∗ Φ (0, 7) ∗ Φ (1, 0) ∗ Φ (1, 1) ∗ Φ (1, 2) ∗ Φ (1, 3) ∗ Φ (1, 4) ∗ Φ (1, 5) ∗ Φ (1, 6) ∗ Φ (1, 7) ∗ Φ (2, 0) ∗ Φ (2, 1) ∗ Φ (2, 2) ∗ Φ (2, 3) ∗ Φ (2, 4) ∗ Φ (2, 5) ∗ Φ (2, 6) ∗ Φ (2, 7)) := by
  rw [bigSep_univ_eq_bigSepL [(0, 0), (0, 1), (0, 2), (0, 3), (0, 4), (0, 5), (0, 6), (0, 7), (1, 0), (1, 1), (1, 2), (1, 3), (1, 4), (1, 5), (1, 6), (1, 7), (2, 0), (2, 1), (2, 2), (2, 3), (2, 4), (2, 5), (2, 6), (2, 7)] (by decide) (by decide)]
  simp only [bigSepL_cons_cons, bigSepL_singleton]
  rfl

variable (m : (ℓ : Loc nD τ sig) → Buf (Elt F) ℓ) (K : Dev nD × CIx → ℕ) (c : Dev nD)

omit [FloatOps F] in
/-- What stays with a device, by kind of cell: its positions on the barrier cell and on the three arrays of transfer
    cells, the three barrier tokens it pays its neighbours with, and the tokens of its partners' receive cells, of its
    own send cells and of its own copy cells. -/
theorem linear_eq :
    (linear c : sProp 𝕄) = iprop((atPos ER (barCell c) 0 ∅ 0
        ∗ (bigSep Finset.univ fun gk : Fin 3 × Fin 8 => atPos ER (sendCell c gk.1 gk.2) 0 ∅ 0)
        ∗ (bigSep Finset.univ fun gk : Fin 3 × Fin 8 => atPos ER (recvCell c gk.1 gk.2) 0 ∅ 0)
        ∗ (bigSep Finset.univ fun gk : Fin 3 × Fin 8 => atPos ER (copyCell c gk.1 gk.2) 0 ∅ 0))
      ∗ (dutyTok ER (barCell (xr c (dir 0))) 0 0 ∗ dutyTok ER (barCell (xr c (dir 1))) 0 1 ∗ dutyTok ER (barCell (xr c (dir 2))) 0 2)
      ∗ (bigSep Finset.univ fun gk : Fin 3 × Fin 8 => dutyTok ER (recvCell (partner c gk.1 gk.2) gk.1 gk.2) 0 0)
      ∗ (bigSep Finset.univ fun gk : Fin 3 × Fin 8 => dutyTok ER (sendCell c gk.1 gk.2) 0 0)
      ∗ (bigSep Finset.univ fun gk : Fin 3 × Fin 8 => dutyTok ER (copyCell c gk.1 gk.2) 0 0)) := by
  unfold linear payToks
  rw [bigSep_CIx, bigSep_OIx, bigSep_fin3]
  simp only [bigSep_sep']
  rfl

/-! ## The launch credit, one token per cell -/

omit [FloatOps F] in
/-- The credit of everything others pay a device: three units on its barrier cell, and each receive cell's transfer. -/
theorem credits_split :
    (cred (Orem (ownList c)) : sProp 𝕄) ⊢ iprop(cred (tallyAt (barCell c) () 3)
      ∗ bigSep Finset.univ fun gk : Fin 3 × Fin 8 => cred (tallyAt (recvCell c gk.1 gk.2) () (xferAmt gk.1 gk.2))) := by
  have h3 : (tallyAt (barCell c) () 3 : CellTallies nD τ sig Unit)
      = tallyAt (barCell c) () 1 + (tallyAt (barCell c) () 1 + tallyAt (barCell c) () 1) := by
    rw [tallyAt_add, tallyAt_add]
  rw [bigSep_gk, h3]
  simp only [ownList, Orem, ownStep, ownBar]
  iintro H
  icases H with ⟨⟨⟨⟨⟨⟨⟨⟨⟨⟨⟨⟨⟨⟨⟨⟨⟨⟨⟨⟨⟨⟨⟨⟨⟨⟨⟨-, S2_7⟩, S2_6⟩, S1_7⟩, S1_6⟩, S0_7⟩, S0_6⟩, S2_5⟩, S1_5⟩, S0_5⟩, S2_4⟩, S2_2⟩, S1_4⟩, S1_2⟩, S0_4⟩, S0_2⟩, S2_3⟩, S1_3⟩, S0_3⟩, S2_1⟩, S1_1⟩, S0_1⟩, S2_0⟩, S1_0⟩, S0_0⟩, B3⟩, B2⟩, B1⟩
  isplitl [B1 B2 B3]
  · isplitl [B1]; · iexact B1
    isplitl [B2]; · iexact B2
    iexact B3
  isplitl [S0_0]; · iexact S0_0
  isplitl [S0_1]; · iexact S0_1
  isplitl [S0_2]; · iexact S0_2
  isplitl [S0_3]; · iexact S0_3
  isplitl [S0_4]; · iexact S0_4
  isplitl [S0_5]; · iexact S0_5
  isplitl [S0_6]; · iexact S0_6
  isplitl [S0_7]; · iexact S0_7
  isplitl [S1_0]; · iexact S1_0
  isplitl [S1_1]; · iexact S1_1
  isplitl [S1_2]; · iexact S1_2
  isplitl [S1_3]; · iexact S1_3
  isplitl [S1_4]; · iexact S1_4
  isplitl [S1_5]; · iexact S1_5
  isplitl [S1_6]; · iexact S1_6
  isplitl [S1_7]; · iexact S1_7
  isplitl [S2_0]; · iexact S2_0
  isplitl [S2_1]; · iexact S2_1
  isplitl [S2_2]; · iexact S2_2
  isplitl [S2_3]; · iexact S2_3
  isplitl [S2_4]; · iexact S2_4
  isplitl [S2_5]; · iexact S2_5
  isplitl [S2_6]; · iexact S2_6
  iexact S2_7

/-! ## The three waits -/

/-- The wait on the send cell of step `st` of group `g`: the share of the source slot comes back. -/
theorem wait_send (g : Fin 3) (st : Fin 8) (O : CellTallies nD τ sig Unit) (W : Waits sig Unit) (hab : Above 0 O)
    {sp sp' : Space} {s s' : Shape} {e e' : EltTy} {sem : DmaSem sig}
    {src : Memref sig .tc sp' s' e'} {κ' : Kind} {dst : Memref sig κ' sp s e}
    {hsrc : src.view.WordExact} {hdst : dst.view.WordExact}
    (hsem : sem = sendS g st) (hamt : dst.view.dmaCredit = xferAmt g st)
    {α : Type} {Q : α → sProp 𝕄} {k : PUnit → Prog (TpuEff nD τ sig (Elt F) Λ₀ .tc) α} :
    iprop(records (Rd m) K ∗ levAts L lv ∗ cred (tallyAt (sendCell c g st) () (xferAmt g st))
        ∗ atPos ER (sendCell c g st) 0 ∅ 0 ∗ owes (c : Thread nD τ) O W)
      ⊢ iprop(((sendPay m c g st ∗ atPos ER (sendCell c g st) 1 ∅ 0
              ∗ owes (c : Thread nD τ) O (insert (SemLoc.dma (sendS g st), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hsem
  iintro ⟨#Hrec, #Hlev, Hc, Hat, HO⟩ Hk
  iapply (Rounds.wp_wait_rest_token 𝒱₀ ER (Rd m) (c : Thread nD τ) none (κ := K (c, Sum.inr (0, g, st)))
      (w := .waitDma2 (sendS g st) src dst hsrc hdst) (sm := .dma (sendS g st)) (k' := dst.view.dmaCredit)
      (wpE_waitDma2_eq 𝒱₀ (c : Thread nD τ) none Set.univ) (Set.mem_univ _) () (O := O) (W := W) (R := 0) (m := 0) (T := ∅)
      (by rw [Nat.zero_add, hamt, expect_send])) $$ [Hc HO Hat]
  · isplitr; · iapply (records_inv (Rd m) K (c, Sum.inr (0, g, st))); iexact Hrec
    isplitl [Hc]; · rw [hamt]; iexact Hc
    isplitl [HO]; · iexact HO
    isplitr; · iapply (mayWait_of_above c (.dma (sendS g st)) O (by rw [lv_send]; exact hab)); iexact Hlev
    iexact Hat
  iintro ⟨HO, Hat, -, Hpay⟩
  iapply Hk
  isplitl [Hpay]; · iapply (Entails.of_eq (rest_send m c g st)); iexact Hpay
  isplitl [Hat]; · iexact Hat
  iexact HO

/-- The wait on the receive cell of step `st` of group `g`: the target slot comes filled with the partner's rows. -/
theorem wait_recv (g : Fin 3) (st : Fin 8) (O : CellTallies nD τ sig Unit) (W : Waits sig Unit) (hab : Above (stLv st) O)
    {sp sp' : Space} {s s' : Shape} {e e' : EltTy} {sem : DmaSem sig}
    {src : Memref sig .tc sp' s' e'} {κ' : Kind} {dst : Memref sig κ' sp s e}
    {hsrc : src.view.WordExact} {hdst : dst.view.WordExact}
    (hsem : sem = recvS g st) (hamt : dst.view.dmaCredit = xferAmt g st)
    {α : Type} {Q : α → sProp 𝕄} {k : PUnit → Prog (TpuEff nD τ sig (Elt F) Λ₀ .tc) α} :
    iprop(records (Rd m) K ∗ levAts L lv ∗ cred (tallyAt (recvCell c g st) () (xferAmt g st))
        ∗ atPos ER (recvCell c g st) 0 ∅ 0 ∗ owes (c : Thread nD τ) O W)
      ⊢ iprop(((recvPay m c g st ∗ atPos ER (recvCell c g st) 1 ∅ 0
              ∗ owes (c : Thread nD τ) O (insert (SemLoc.dma (recvS g st), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hsem
  iintro ⟨#Hrec, #Hlev, Hc, Hat, HO⟩ Hk
  iapply (Rounds.wp_wait_rest_token 𝒱₀ ER (Rd m) (c : Thread nD τ) none (κ := K (c, Sum.inr (1, g, st)))
      (w := .waitDma2 (recvS g st) src dst hsrc hdst) (sm := .dma (recvS g st)) (k' := dst.view.dmaCredit)
      (wpE_waitDma2_eq 𝒱₀ (c : Thread nD τ) none Set.univ) (Set.mem_univ _) () (O := O) (W := W) (R := 0) (m := 0) (T := ∅)
      (by rw [Nat.zero_add, hamt, expect_recv])) $$ [Hc HO Hat]
  · isplitr; · iapply (records_inv (Rd m) K (c, Sum.inr (1, g, st))); iexact Hrec
    isplitl [Hc]; · rw [hamt]; iexact Hc
    isplitl [HO]; · iexact HO
    isplitr; · iapply (mayWait_of_above c (.dma (recvS g st)) O (by rw [lv_recv]; exact hab)); iexact Hlev
    iexact Hat
  iintro ⟨HO, Hat, -, Hpay⟩
  iapply Hk
  isplitl [Hpay]; · iapply (Entails.of_eq (rest_recv m c g st)); iexact Hpay
  isplitl [Hat]; · iexact Hat
  iexact HO

/-- The wait on the copy cell of product block `j` of group `g`: the block's rows of the result hold it, and its
    stage slot is free again. -/
theorem wait_copy (g : Fin 3) (j : Fin 8) (O : CellTallies nD τ sig Unit) (W : Waits sig Unit) (hab : Above 0 O)
    {sp sp' : Space} {s s' : Shape} {e e' : EltTy} {sem : DmaSem sig}
    {src : Memref sig .tc sp' s' e'} {κ' : Kind} {dst : Memref sig κ' sp s e}
    {hsrc : src.view.WordExact} {hdst : dst.view.WordExact}
    (hsem : sem = copyS g j) (hamt : dst.view.dmaCredit = copyAmt g)
    {α : Type} {Q : α → sProp 𝕄} {k : PUnit → Prog (TpuEff nD τ sig (Elt F) Λ₀ .tc) α} :
    iprop(records (Rd m) K ∗ levAts L lv ∗ cred (tallyAt (copyCell c g j) () (copyAmt g))
        ∗ atPos ER (copyCell c g j) 0 ∅ 0 ∗ owes (c : Thread nD τ) O W)
      ⊢ iprop(((copyPay m c g j ∗ atPos ER (copyCell c g j) 1 ∅ 0
              ∗ owes (c : Thread nD τ) O (insert (SemLoc.dma (copyS g j), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hsem
  iintro ⟨#Hrec, #Hlev, Hc, Hat, HO⟩ Hk
  iapply (Rounds.wp_wait_rest_token 𝒱₀ ER (Rd m) (c : Thread nD τ) none (κ := K (c, Sum.inr (2, g, j)))
      (w := .waitDma2 (copyS g j) src dst hsrc hdst) (sm := .dma (copyS g j)) (k' := dst.view.dmaCredit)
      (wpE_waitDma2_eq 𝒱₀ (c : Thread nD τ) none Set.univ) (Set.mem_univ _) () (O := O) (W := W) (R := 0) (m := 0) (T := ∅)
      (by rw [Nat.zero_add, hamt, expect_copy])) $$ [Hc HO Hat]
  · isplitr; · iapply (records_inv (Rd m) K (c, Sum.inr (2, g, j))); iexact Hrec
    isplitl [Hc]; · rw [hamt]; iexact Hc
    isplitl [HO]; · iexact HO
    isplitr; · iapply (mayWait_of_above c (.dma (copyS g j)) O (by rw [lv_copy]; exact hab)); iexact Hlev
    iexact Hat
  iintro ⟨HO, Hat, -, Hpay⟩
  iapply Hk
  isplitl [Hpay]; · iapply (Entails.of_eq (rest_copy m c g j)); iexact Hpay
  isplitl [Hat]; · iexact Hat
  iexact HO

/-! ## Closing the own cells -/

/-- An own transfer cell past its one round is closed: its counter is at zero and stays. -/
theorem close_cell (k : OIx) :
    iprop(records (Rd m) K ∗ atPos ER (kcell (c, Sum.inr k)) 1 ∅ 0) ⊢ (|={Set.univ}=> semVal (kcell (c, Sum.inr k)) 0 : sProp 𝕄) := by
  iintro ⟨#Hrec, Hat⟩
  iapply (Rounds.cell_close ER (Rd m) (Set.mem_univ (K (c, Sum.inr k))) (fun h => h) (R := 1) (duties_later m (kcell (c, Sum.inr k))))
  isplitr; · iapply (records_inv (Rd m) K (c, Sum.inr k)); iexact Hrec
  iexact Hat

theorem close_send (g : Fin 3) (st : Fin 8) :
    iprop(records (Rd m) K ∗ atPos ER (sendCell c g st) 1 ∅ 0) ⊢ (|={Set.univ}=> semVal (sendCell c g st) 0 : sProp 𝕄) :=
  close_cell m K c (0, g, st)
theorem close_recv (g : Fin 3) (st : Fin 8) :
    iprop(records (Rd m) K ∗ atPos ER (recvCell c g st) 1 ∅ 0) ⊢ (|={Set.univ}=> semVal (recvCell c g st) 0 : sProp 𝕄) :=
  close_cell m K c (1, g, st)
theorem close_copy (g : Fin 3) (j : Fin 8) :
    iprop(records (Rd m) K ∗ atPos ER (copyCell c g j) 1 ∅ 0) ⊢ (|={Set.univ}=> semVal (copyCell c g j) 0 : sProp 𝕄) :=
  close_cell m K c (2, g, j)

/-- All seventy-two own cells, each past its one round, closed at once. -/
theorem close_all :
    iprop(records (Rd m) K
        ∗ (bigSep Finset.univ fun gk : Fin 3 × Fin 8 => atPos ER (sendCell c gk.1 gk.2) 1 ∅ 0)
        ∗ (bigSep Finset.univ fun gk : Fin 3 × Fin 8 => atPos ER (recvCell c gk.1 gk.2) 1 ∅ 0)
        ∗ (bigSep Finset.univ fun gk : Fin 3 × Fin 8 => atPos ER (copyCell c gk.1 gk.2) 1 ∅ 0))
      ⊢ (|={Set.univ}=> bigSep Finset.univ fun k : OIx => semVal (kcell (c, Sum.inr k)) 0 : sProp 𝕄) := by
  have h : iprop(records (Rd m) K ∗ bigSep Finset.univ fun k : OIx => atPos ER (kcell (c, Sum.inr k)) 1 ∅ 0)
      ⊢ (|={Set.univ}=> bigSep Finset.univ fun k : OIx => semVal (kcell (c, Sum.inr k)) 0 : sProp 𝕄) :=
    (bigSep_with_persistent (R := records (Rd m) K) (Φ := fun k : OIx => (atPos ER (kcell (c, Sum.inr k)) 1 ∅ 0 : sProp 𝕄))
      (Ψ := fun k : OIx => iprop(|={Set.univ}=> semVal (kcell (c, Sum.inr k)) 0)) fun k _ => close_cell m K c k).trans (bigSep_fupd _ _)
  iintro ⟨#Hrec, HS, HR, HC⟩
  iapply h
  isplitr; · iexact Hrec
  rw [bigSep_OIx]
  isplitl [HS]; · iexact HS
  isplitl [HR]; · iexact HR
  iexact HC

/-! ## The waits as printed

A wait names a target view only for its credit, which on this chip depends on the view's shape and element type alone:
steps 0 to 5 move a whole slot, the two last steps the two parts of one, flattened to rows by lanes; a copy moves a
product block. With the target's shape fixed by the step, the amount is the step's. -/

/-- The shape of the target of a transfer wait, and of a copy wait. -/
def xferShape (g : Fin 3) (st : Fin 8) : Shape := match g with
  | 0 => if st = 6 then S176x512 else if st = 7 then S176x512 else S1x352x512
  | 1 => if st = 6 then S176x512 else if st = 7 then S160x512 else S1x336x512
  | 2 => if st = 6 then S176x512 else if st = 7 then S160x512 else S1x336x512
def copyShape (g : Fin 3) : Shape := match g with
  | 0 => S352x1024
  | 1 => S336x1024
  | 2 => S336x1024

/-! The targets the printed waits name: a slot, one of the two parts of a slot flattened to rows by lanes, or the first
rows of the result (a copy wait names them whatever piece the copy wrote: only the credit matters). -/
abbrev qa0 (k : Fin 8) : Memref sig .tc .vmem S176x512 .bf16 := (ga0 k).squeeze S176x512 squeezes_S1x176x512_S176x512
abbrev qb0 (k : Fin 8) : Memref sig .tc .vmem S176x512 .bf16 := (gb0 k).squeeze S176x512 squeezes_S1x176x512_S176x512
abbrev qa1 (k : Fin 8) : Memref sig .tc .vmem S176x512 .bf16 := (ga1 k).squeeze S176x512 squeezes_S1x176x512_S176x512
abbrev qb1 (k : Fin 8) : Memref sig .tc .vmem S160x512 .bf16 := (gb1 k).squeeze S160x512 squeezes_S1x160x512_S160x512
abbrev qa2 (k : Fin 8) : Memref sig .tc .vmem S176x512 .bf16 := (ga2 k).squeeze S176x512 squeezes_S1x176x512_S176x512
abbrev qb2 (k : Fin 8) : Memref sig .tc .vmem S160x512 .bf16 := (gb2 k).squeeze S160x512 squeezes_S1x160x512_S160x512
abbrev cw0 : Memref sig .tc .hbm S352x1024 .f32 :=
  oM.slice (Rect.unit (s := S8192x1024) ![0, 0] S352x1024.size inb_S8192x1024_S352x1024_0_0) (fun _ => rfl)
abbrev cw12 : Memref sig .tc .hbm S336x1024 .f32 :=
  oM.slice (Rect.unit (s := S8192x1024) ![0, 0] S336x1024.size inb_S8192x1024_S336x1024_0_0) (fun _ => rfl)

theorem xferCredit_eq : ∀ (g : Fin 3) (st : Fin 8), RefSig.tileCredit (xferShape g st) .bf16 = xferAmt g st := by decide
theorem copyCredit_eq : ∀ g : Fin 3, RefSig.tileCredit (copyShape g) .f32 = copyAmt g := by decide

theorem amt_xfer (g : Fin 3) (st : Fin 8) {sp : Space} (dst : Memref sig .tc sp (xferShape g st) .bf16) :
    dst.view.dmaCredit = xferAmt g st := xferCredit_eq g st
theorem amt_copy (g : Fin 3) {sp : Space} (dst : Memref sig .tc sp (copyShape g) .f32) :
    dst.view.dmaCredit = copyAmt g := copyCredit_eq g

/-- The same, its two side conditions decided: for the printed wait of this step, whose target has the step's shape. -/
theorem wait_send' (g : Fin 3) (st : Fin 8) (O : CellTallies nD τ sig Unit) (W : Waits sig Unit) (hab : Above 0 O)
    {sp sp' : Space} {s' : Shape} {e' : EltTy}
    {src : Memref sig .tc sp' s' e'} {dst : Memref sig .tc sp (xferShape g st) .bf16}
    {hsrc : src.view.WordExact} {hdst : dst.view.WordExact}
    {α : Type} {Q : α → sProp 𝕄} {k : PUnit → Prog (TpuEff nD τ sig (Elt F) Λ₀ .tc) α} :
    iprop(records (Rd m) K ∗ levAts L lv ∗ cred (tallyAt (sendCell c g st) () (xferAmt g st))
        ∗ atPos ER (sendCell c g st) 0 ∅ 0 ∗ owes (c : Thread nD τ) O W)
      ⊢ iprop(((sendPay m c g st ∗ atPos ER (sendCell c g st) 1 ∅ 0
              ∗ owes (c : Thread nD τ) O (insert (SemLoc.dma (sendS g st), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS g st) src dst hsrc hdst) k) Q) :=
  wait_send m K c g st O W hab rfl (amt_xfer g st dst)

/-- The same, its two side conditions decided: for the printed wait of this step, whose target has the step's shape. -/
theorem wait_recv' (g : Fin 3) (st : Fin 8) (O : CellTallies nD τ sig Unit) (W : Waits sig Unit) (hab : Above (stLv st) O)
    {sp sp' : Space} {s' : Shape} {e' : EltTy}
    {src : Memref sig .tc sp' s' e'} {dst : Memref sig .tc sp (xferShape g st) .bf16}
    {hsrc : src.view.WordExact} {hdst : dst.view.WordExact}
    {α : Type} {Q : α → sProp 𝕄} {k : PUnit → Prog (TpuEff nD τ sig (Elt F) Λ₀ .tc) α} :
    iprop(records (Rd m) K ∗ levAts L lv ∗ cred (tallyAt (recvCell c g st) () (xferAmt g st))
        ∗ atPos ER (recvCell c g st) 0 ∅ 0 ∗ owes (c : Thread nD τ) O W)
      ⊢ iprop(((recvPay m c g st ∗ atPos ER (recvCell c g st) 1 ∅ 0
              ∗ owes (c : Thread nD τ) O (insert (SemLoc.dma (recvS g st), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS g st) src dst hsrc hdst) k) Q) :=
  wait_recv m K c g st O W hab rfl (amt_xfer g st dst)

/-- The same, its two side conditions decided: for the printed wait of this step, whose target has the step's shape. -/
theorem wait_copy' (g : Fin 3) (j : Fin 8) (O : CellTallies nD τ sig Unit) (W : Waits sig Unit) (hab : Above 0 O)
    {sp sp' : Space} {s' : Shape} {e' : EltTy}
    {src : Memref sig .tc sp' s' e'} {dst : Memref sig .tc sp (copyShape g) .f32}
    {hsrc : src.view.WordExact} {hdst : dst.view.WordExact}
    {α : Type} {Q : α → sProp 𝕄} {k : PUnit → Prog (TpuEff nD τ sig (Elt F) Λ₀ .tc) α} :
    iprop(records (Rd m) K ∗ levAts L lv ∗ cred (tallyAt (copyCell c g j) () (copyAmt g))
        ∗ atPos ER (copyCell c g j) 0 ∅ 0 ∗ owes (c : Thread nD τ) O W)
      ⊢ iprop(((copyPay m c g j ∗ atPos ER (copyCell c g j) 1 ∅ 0
              ∗ owes (c : Thread nD τ) O (insert (SemLoc.dma (copyS g j), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (copyS g j) src dst hsrc hdst) k) Q) :=
  wait_copy m K c g j O W hab rfl (amt_copy g dst)

/-- info: 'Cert.Kernel.DM.bigSep_gk' depends on axioms: [propext, Classical.choice, Quot.sound] -/
#guard_msgs in #print axioms bigSep_gk

/-- info: 'Cert.Kernel.DM.linear_eq' depends on axioms: [propext, Classical.choice, Quot.sound] -/
#guard_msgs in #print axioms linear_eq

/-- info: 'Cert.Kernel.DM.credits_split' depends on axioms: [propext, Classical.choice, Quot.sound] -/
#guard_msgs in #print axioms credits_split

/-- info: 'Cert.Kernel.DM.wait_send' depends on axioms: [propext, Classical.choice, Quot.sound] -/
#guard_msgs in #print axioms wait_send

/-- info: 'Cert.Kernel.DM.wait_recv' depends on axioms: [propext, Classical.choice, Quot.sound] -/
#guard_msgs in #print axioms wait_recv

/-- info: 'Cert.Kernel.DM.wait_copy' depends on axioms: [propext, Classical.choice, Quot.sound] -/
#guard_msgs in #print axioms wait_copy

/-- info: 'Cert.Kernel.DM.close_cell' depends on axioms: [propext, Classical.choice, Quot.sound] -/
#guard_msgs in #print axioms close_cell

/-- info: 'Cert.Kernel.DM.close_send' depends on axioms: [propext, Classical.choice, Quot.sound] -/
#guard_msgs in #print axioms close_send

/-- info: 'Cert.Kernel.DM.close_recv' depends on axioms: [propext, Classical.choice, Quot.sound] -/
#guard_msgs in #print axioms close_recv

/-- info: 'Cert.Kernel.DM.close_copy' depends on axioms: [propext, Classical.choice, Quot.sound] -/
#guard_msgs in #print axioms close_copy

/-- info: 'Cert.Kernel.DM.close_all' depends on axioms: [propext, Classical.choice, Quot.sound] -/
#guard_msgs in #print axioms close_all

/-- info: 'Cert.Kernel.DM.wait_send'' depends on axioms: [propext, Classical.choice, Quot.sound] -/
#guard_msgs in #print axioms wait_send'

/-- info: 'Cert.Kernel.DM.wait_recv'' depends on axioms: [propext, Classical.choice, Quot.sound] -/
#guard_msgs in #print axioms wait_recv'

/-- info: 'Cert.Kernel.DM.wait_copy'' depends on axioms: [propext, Classical.choice, Quot.sound] -/
#guard_msgs in #print axioms wait_copy'

/-- info: 'Cert.Kernel.DM.amt_xfer' depends on axioms: [propext, Classical.choice, Quot.sound] -/
#guard_msgs in #print axioms amt_xfer

/-- info: 'Cert.Kernel.DM.amt_copy' depends on axioms: [propext, Classical.choice, Quot.sound] -/
#guard_msgs in #print axioms amt_copy

end Cert.Kernel.DM

end
-- ==== Proof.Bits.OpsCopy.lean ====
import proofs.«900891_g7700000000000892_dist_matmul_m_i_outrep_m1024_n1024_k512_v7x_i8_f32_1_alg».proof.Proof.Bits.Atoms

/-!
Moving a device's buffers between the forms the steps of its body use.

A finished product block is copied from its stage slot into its rows of the result: the copy's landing hands back,
on the copy cell, those rows holding the block and the stage slot free again. Around the body the result buffer is
cut into its 24 pieces (three row groups for each of the eight devices' rows) and put together again once every
piece holds its block; the gather buffers are cut into their eight slots, the stage buffers into their two, and the
two slots that the last exchange moves in two parts into their rows below 176 and the rest. A filled slot is shared
by halves between the loads that read it and the transfers that read it at the same time, and the halves are put
together again at the end.
-/

noncomputable section

namespace Cert.Kernel.DM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-! ## Conjunctions over two and over eight -/

theorem bigSep_fin2 {M : Type} [URA M] (Φ : Fin 2 → sProp M) : bigSep Finset.univ Φ = iprop(Φ 0 ∗ Φ 1) :=
  bigSep_univ_eq_bigSepL [0, 1] (by decide) (by decide) Φ

theorem bigSep_fin8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The copy of a product block into the result -/

/-- The copy rule at this schedule: a full stage slot reading `w` and the free rows of the result pay the copy cell's
    one duty, whose payload is made of the rows now reading `w` and the slot, still reading `w`. -/
theorem op_copy_gen {s : Shape} (g : Fin 3) (j : Fin 8) (src : Memref sig .tc .vmem s .f32) (dst : Memref sig .tc .hbm s .f32)
    (hN : dst.view.amount (.dma (copyS g j)) = copyAmt g) (w : s.Idx → Elt F .f32)
    (hpay : iprop(holdsPts c dst fullShare w ∗ holdsPts c src fullShare w) ⊢ copyPay m c g j)
    {hsrc : src.view.WordExact} {hdst : dst.view.WordExact}
    {hsem : DmaTarget.Typed (nD := nD) .vmem (.dma (copyS g j)) (.here dst : DmaTarget nD τ sig (c : Thread nD τ).2 .hbm s .f32)}
    {α : Type} {Q : α → sProp 𝕄} {kk : PUnit → Prog (TpuEff nD τ sig (Elt F) Λ₀ .tc) α} :
    iprop(records (Rd m) K ∗ holdsPts c src fullShare w ∗ anyPts c dst ∗ dutyTok ER (copyCell c g j) 0 0)
      ⊢ iprop((cred (tallyAt (copyCell c g j) () (copyAmt g)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.here dst) (.dma (copyS g j)) hsrc hdst hsem) kk) Q) := by
  simp only [holdsPts_eq, anyPts_eq]
  iintro ⟨#Hrec, ⟨%fs, Hsrc, %hfs⟩, ⟨%fd, Hdst⟩, Htok⟩ Hk
  ihave #HI := (records_inv (Rd m) K (c, .inr (2, g, j))) $$ Hrec
  ihave #Hr := (records_reached (Rd m) K (c, .inr (2, g, j))) $$ Hrec
  iapply (Rounds.wp_copy_pointsTo 𝒱₀ ER (Rd m) (c : Thread nD τ) none (src := src) (dst := dst) (q := fullShare) (fs := fs) (fd := fd)
      (r := 0) (d := 0) (κ := K (c, .inr (2, g, j)))
      (by rw [duties_copy]; exact Finset.mem_singleton_self _) () (copyAmt g) hN (amount_copy m c g j 0)
      (by
        rw [payload_copy]
        refine BIBase.Entails.trans ?_ hpay
        simp only [holdsPts_eq]
        iintro ⟨Hd, Hs⟩
        isplitl [Hd]
        · iexists (dst.view.write (Elt F) fd (src.view.read (Elt F) fs) Finset.univ)
          isplitl [Hd]; · iexact Hd
          ipureintro; rw [View.read_write_univ]; exact hfs
        · iexists fs
          isplitl [Hs]; · iexact Hs
          ipureintro; exact hfs)) $$ [Hsrc Hdst Htok]
  · isplitr; · iexact HI
    isplitl [Hsrc]; · iexact Hsrc
    isplitl [Hdst]; · iexact Hdst
    isplitl [Htok]; · iexact Htok
    iexact Hr
  iexact Hk

theorem op_copy0 (j : Fin 8) (p : Fin 2) (k : Fin 8) (hp : par j = p) (hk : mask 0 j = k)
    {hsrc : (ss0 p).view.WordExact} {hdst : (op0 c k).view.WordExact}
    {hsem : DmaTarget.Typed (nD := nD) .vmem (.dma (copyS 0 j)) (.here (op0 c k) : DmaTarget nD τ sig (c : Thread nD τ).2 .hbm S352x1024 .f32)}
    {α : Type} {Q : α → sProp 𝕄} {kk : PUnit → Prog (TpuEff nD τ sig (Elt F) Λ₀ .tc) α} :
    iprop(records (Rd m) K ∗ stageHas0 m c j ∗ pieceAny c 0 j ∗ dutyTok ER (copyCell c 0 j) 0 0)
      ⊢ iprop((cred (tallyAt (copyCell c 0 j) () (copyAmt 0)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (ss0 p) (.here (op0 c k)) (.dma (copyS 0 j)) hsrc hdst hsem) kk) Q) := by
  subst hp hk
  unfold stageHas0
  rw [show pieceAny (F := F) c 0 j = anyPts c (op0 c (mask 0 j)) from rfl]
  iintro ⟨#Hrec, ⟨%w, %hw, Hs⟩, Hd, Htok⟩
  iapply (op_copy_gen m K c 0 j (ss0 (par j)) (op0 c (mask 0 j)) rfl w
      (by
        unfold copyPay
        iintro ⟨Hd, Hs⟩
        iexists w
        isplitr; · ipureintro; exact hw
        isplitl [Hd]; · iexact Hd
        iexact Hs))
  isplitr; · iexact Hrec
  isplitl [Hs]; · iexact Hs
  isplitl [Hd]; · iexact Hd
  iexact Htok

theorem op_copy1 (j : Fin 8) (p : Fin 2) (k : Fin 8) (hp : par j = p) (hk : mask 1 j = k)
    {hsrc : (ss1 p).view.WordExact} {hdst : (op12 c k 0).view.WordExact}
    {hsem : DmaTarget.Typed (nD := nD) .vmem (.dma (copyS 1 j)) (.here (op12 c k 0) : DmaTarget nD τ sig (c : Thread nD τ).2 .hbm S336x1024 .f32)}
    {α : Type} {Q : α → sProp 𝕄} {kk : PUnit → Prog (TpuEff nD τ sig (Elt F) Λ₀ .tc) α} :
    iprop(records (Rd m) K ∗ stageHas1 m c j ∗ pieceAny c 1 j ∗ dutyTok ER (copyCell c 1 j) 0 0)
      ⊢ iprop((cred (tallyAt (copyCell c 1 j) () (copyAmt 1)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (ss1 p) (.here (op12 c k 0)) (.dma (copyS 1 j)) hsrc hdst hsem) kk) Q) := by
  subst hp hk
  unfold stageHas1
  rw [show pieceAny (F := F) c 1 j = anyPts c (op12 c (mask 1 j) 0) from rfl]
  iintro ⟨#Hrec, ⟨%w, %hw, Hs⟩, Hd, Htok⟩
  iapply (op_copy_gen m K c 1 j (ss1 (par j)) (op12 c (mask 1 j) 0) rfl w
      (by
        unfold copyPay
        iintro ⟨Hd, Hs⟩
        iexists w
        isplitr; · ipureintro; exact hw
        isplitl [Hd]; · iexact Hd
        iexact Hs))
  isplitr; · iexact Hrec
  isplitl [Hs]; · iexact Hs
  isplitl [Hd]; · iexact Hd
  iexact Htok

theorem op_copy2 (j : Fin 8) (p : Fin 2) (k : Fin 8) (hp : par j = p) (hk : mask 2 j = k)
    {hsrc : (ss2 p).view.WordExact} {hdst : (op12 c k 1).view.WordExact}
    {hsem : DmaTarget.Typed (nD := nD) .vmem (.dma (copyS 2 j)) (.here (op12 c k 1) : DmaTarget nD τ sig (c : Thread nD τ).2 .hbm S336x1024 .f32)}
    {α : Type} {Q : α → sProp 𝕄} {kk : PUnit → Prog (TpuEff nD τ sig (Elt F) Λ₀ .tc) α} :
    iprop(records (Rd m) K ∗ stageHas2 m c j ∗ pieceAny c 2 j ∗ dutyTok ER (copyCell c 2 j) 0 0)
      ⊢ iprop((cred (tallyAt (copyCell c 2 j) () (copyAmt 2)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (ss2 p) (.here (op12 c k 1)) (.dma (copyS 2 j)) hsrc hdst hsem) kk) Q) := by
  subst hp hk
  unfold stageHas2
  rw [show pieceAny (F := F) c 2 j = anyPts c (op12 c (mask 2 j) 1) from rfl]
  iintro ⟨#Hrec, ⟨%w, %hw, Hs⟩, Hd, Htok⟩
  iapply (op_copy_gen m K c 2 j (ss2 (par j)) (op12 c (mask 2 j) 1) rfl w
      (by
        unfold copyPay
        iintro ⟨Hd, Hs⟩
        iexists w
        isplitr; · ipureintro; exact hw
        isplitl [Hd]; · iexact Hd
        iexact Hs))
  isplitr; · iexact Hrec
  isplitl [Hs]; · iexact Hs
  isplitl [Hd]; · iexact Hd
  iexact Htok

omit [FloatOps F] in
/-- What a piece holds may be forgotten. -/
theorem holdsPts_any {sp : Space} {s : Shape} {e : EltTy} (M : Memref sig .tc sp s e) (v : s.Idx → Elt F e) :
    holdsPts c M fullShare v ⊢ anyPts c M := by
  simp only [holdsPts_eq, anyPts_eq]
  iintro ⟨%f, H, -⟩
  iexists f
  iexact H

/-- A landed copy: the block in its rows of the result, and the stage slot free again. -/
theorem copyPay_split0 (j : Fin 8) : copyPay m c 0 j ⊢ iprop(pieceDone0 m c j ∗ anyPts c (ss0 (par j))) := by
  rw [show copyPay m c 0 j = iprop(∃ v, ⌜stageOK0 m c j v⌝ ∗ holdsPts c (op0 c (mask 0 j)) fullShare v ∗ holdsPts c (ss0 (par j)) fullShare v) from rfl]
  unfold pieceDone0
  iintro ⟨%v, %hv, Hd, Hs⟩
  isplitl [Hd]
  · iexists v
    isplitr; · ipureintro; exact hv
    iexact Hd
  · iapply (holdsPts_any c (ss0 (par j)) v)
    iexact Hs
theorem copyPay_split1 (j : Fin 8) : copyPay m c 1 j ⊢ iprop(pieceDone1 m c j ∗ anyPts c (ss1 (par j))) := by
  rw [show copyPay m c 1 j = iprop(∃ v, ⌜stageOK1 m c j v⌝ ∗ holdsPts c (op12 c (mask 1 j) 0) fullShare v ∗ holdsPts c (ss1 (par j)) fullShare v) from rfl]
  unfold pieceDone1
  iintro ⟨%v, %hv, Hd, Hs⟩
  isplitl [Hd]
  · iexists v
    isplitr; · ipureintro; exact hv
    iexact Hd
  · iapply (holdsPts_any c (ss1 (par j)) v)
    iexact Hs
theorem copyPay_split2 (j : Fin 8) : copyPay m c 2 j ⊢ iprop(pieceDone2 m c j ∗ anyPts c (ss2 (par j))) := by
  rw [show copyPay m c 2 j = iprop(∃ v, ⌜stageOK2 m c j v⌝ ∗ holdsPts c (op12 c (mask 2 j) 1) fullShare v ∗ holdsPts c (ss2 (par j)) fullShare v) from rfl]
  unfold pieceDone2
  iintro ⟨%v, %hv, Hd, Hs⟩
  isplitl [Hd]
  · iexists v
    isplitr; · ipureintro; exact hv
    iexact Hd
  · iapply (holdsPts_any c (ss2 (par j)) v)
    iexact Hs
theorem copyPay_split (g : Fin 3) (j : Fin 8) : copyPay m c g j ⊢ iprop(pieceDone m c g j ∗ stageAny c g (par j)) := by
  match g with
  | 0 => exact copyPay_split0 m c j
  | 1 => exact copyPay_split1 m c j
  | 2 => exact copyPay_split2 m c j

/-! ## A buffer cut into a family of pieces -/

section Family
variable {sp : Space} {s : Shape} {e : EltTy}

omit [FloatOps F] in
/-- Pieces on pairwise disjoint element sets, each at contents of its own satisfying a property that only looks at the
    piece, are one points-to over their union at contents satisfying every piece's property. -/
theorem any_join_family {ℓ : Loc nD τ sig} {T : Type} [DecidableEq T] (S : Finset T) (Kt : T → Finset (Idx ℓ)) (P : T → Buf (Elt F) ℓ → Prop)
    (hP : ∀ t (f g : Buf (Elt F) ℓ), (∀ i ∈ Kt t, f i = g i) → P t f → P t g)
    (hd : ∀ t ∈ S, ∀ t' ∈ S, t ≠ t' → Disjoint (Kt t) (Kt t')) (f₀ : Buf (Elt F) ℓ) (q : PosShare TreeShare) :
    (bigSep S (fun t => iprop(∃ f : Buf (Elt F) ℓ, (ℓ ↦[Kt t]{q} f) ∗ ⌜P t f⌝)) : sProp 𝕄)
      ⊢ iprop(∃ g : Buf (Elt F) ℓ, (ℓ ↦[S.biUnion Kt]{q} g) ∗ ⌜∀ t ∈ S, P t g⌝) := by
  classical
  induction S using Finset.induction_on with
  | empty =>
    iintro -
    iexists f₀
    isplitl
    · rw [Finset.biUnion_empty, pointsTo_empty]; iempintro
    · ipureintro; intro t ht; exact absurd ht (Finset.notMem_empty _)
  | insert t S ht ih =>
    rw [bigSep_insert ht, Finset.biUnion_insert]
    have hd' : Disjoint (Kt t) (S.biUnion Kt) :=
      (Finset.disjoint_biUnion_right _ _ _).mpr fun t' ht' =>
        hd t (Finset.mem_insert_self _ _) t' (Finset.mem_insert_of_mem ht') (fun e => ht (e ▸ ht'))
    refine (show iprop((∃ f : Buf (Elt F) ℓ, (ℓ ↦[Kt t]{q} f) ∗ ⌜P t f⌝)
        ∗ bigSep S (fun t => iprop(∃ f : Buf (Elt F) ℓ, (ℓ ↦[Kt t]{q} f) ∗ ⌜P t f⌝))) ⊢ _ from ?_)
    iintro ⟨⟨%f, Ht, %hf⟩, HS⟩
    ihave H := (ih fun t₁ h₁ t₂ h₂ => hd t₁ (Finset.mem_insert_of_mem h₁) t₂ (Finset.mem_insert_of_mem h₂)) $$ HS
    icases H with ⟨%g, HS, %hg⟩
    iexists (S.biUnion Kt).piecewise g f
    isplitl
    · iapply (pointsTo_join hd')
      isplitl [Ht]; · iexact Ht
      iexact HS
    · ipureintro
      intro t' ht'
      rcases Finset.mem_insert.mp ht' with h | h
      · rw [h]
        exact hP t f _ (fun i hi => (Finset.piecewise_eq_of_notMem _ _ _ (Finset.disjoint_left.mp hd' hi)).symm) hf
      · exact hP t' g _ (fun i hi => (Finset.piecewise_eq_of_mem _ _ _ (Finset.mem_biUnion.mpr ⟨t', h, hi⟩)).symm) (hg t' h)

omit [FloatOps F] in
/-- A view's elements are those of a family of its rectangles that covers its shape. -/
theorem set_eq_biUnion_slices (v : View sig .tc sp s e) {T : Type} [DecidableEq T] (S : Finset T) (R : T → Rect s)
    (hcov : ∀ x : s.Idx, ∃ t ∈ S, x ∈ (R t).set) : v.set = S.biUnion fun t => (v.slice (R t)).set := by
  ext i
  rw [Finset.mem_biUnion]
  constructor
  · intro hi
    obtain ⟨x, -, rfl⟩ := Finset.mem_map.mp hi
    obtain ⟨t, ht, hx⟩ := hcov x
    exact ⟨t, ht, by rw [View.set_slice]; exact Finset.mem_map_of_mem _ hx⟩
  · rintro ⟨t, -, hi⟩
    exact View.set_slice_subset v (R t) hi

omit [FloatOps F] in
theorem slices_disjoint (v : View sig .tc sp s e) {r r' : Rect s} (h : Disjoint r.set r'.set) : Disjoint (v.slice r).set (v.slice r').set := by
  rw [View.set_slice, View.set_slice]; exact (Finset.disjoint_map _).mpr h

end Family

/-! ## The rows of the result's pieces -/

theorem xr_surj : ∀ (c d : Dev nD), ∃ k : Fin 8, xr c k = d := by decide

/-- The first row of a group's rows inside a device's 1024 rows, and how many rows the group has. -/
def rowOff : Fin 3 → ℕ := ![0, 352, 688]
def rowLen : Fin 3 → ℕ := ![352, 336, 336]

theorem rowOff_len : ∀ g : Fin 3, rowOff g + rowLen g ≤ 1024 := by decide
theorem rows_apart : ∀ g g' : Fin 3, g ≠ g' → rowOff g + rowLen g ≤ rowOff g' ∨ rowOff g' + rowLen g' ≤ rowOff g := by decide

/-- The rectangle of the result that holds the product of group `g`'s rows of device `xr c k`. -/
def pieceRect (g : Fin 3) (k : Fin 8) : Rect S8192x1024 := match g with
  | 0 => Rect.unit (s := S8192x1024) (k0_off1 c (BitVec.ofNat 32 k.val)) S352x1024.size (k0_off1_inb c k)
  | 1 => Rect.unit (s := S8192x1024) (k0_off2 c (BitVec.ofNat 32 k.val) (BitVec.ofNat 32 (352 + 336 * (0 : Fin 2).val))) S336x1024.size (k0_off2_inb c k 0)
  | 2 => Rect.unit (s := S8192x1024) (k0_off2 c (BitVec.ofNat 32 k.val) (BitVec.ofNat 32 (352 + 336 * (1 : Fin 2).val))) S336x1024.size (k0_off2_inb c k 1)

theorem mem_pieceRect (g : Fin 3) (k : Fin 8) (i : S8192x1024.Idx) :
    i ∈ (pieceRect c g k).set ↔ (xr c k).val * 1024 + rowOff g ≤ (i 0).val ∧ (i 0).val < (xr c k).val * 1024 + rowOff g + rowLen g := by
  have h1 : (i 1).val < 1024 := (i 1).isLt
  match g with
  | 0 =>
    unfold pieceRect
    rw [Rect.mem_set_unit, off1_eq]
    constructor
    · intro h; have := h 0; simp [rowOff, rowLen] at this ⊢; omega
    · intro h a; simp [rowOff, rowLen] at h; fin_cases a <;> simp <;> omega
  | 1 =>
    unfold pieceRect
    rw [Rect.mem_set_unit, off2_eq]
    constructor
    · intro h; have := h 0; simp [rowOff, rowLen] at this ⊢; omega
    · intro h a; simp [rowOff, rowLen] at h; fin_cases a <;> simp <;> omega
  | 2 =>
    unfold pieceRect
    rw [Rect.mem_set_unit, off2_eq]
    constructor
    · intro h; have := h 0; simp [rowOff, rowLen] at this ⊢; omega
    · intro h a; simp [rowOff, rowLen] at h; fin_cases a <;> simp <;> omega

theorem pieceRect_disj (gj gj' : Fin 3 × Fin 8) (hne : gj ≠ gj') :
    Disjoint (pieceRect c gj.1 (mask gj.1 gj.2)).set (pieceRect c gj'.1 (mask gj'.1 gj'.2)).set := by
  obtain ⟨g, j⟩ := gj
  obtain ⟨g', j'⟩ := gj'
  refine Finset.disjoint_left.mpr fun i hi hi' => ?_
  rw [mem_pieceRect] at hi hi'
  have hg := rowOff_len g
  have hg' := rowOff_len g'
  have hx : (xr c (mask g j)).val = (xr c (mask g' j')).val := by dsimp only at hi hi'; omega
  have hk : mask g j = mask g' j' := xr_inj c _ _ (Fin.ext hx)
  by_cases hgg : g = g'
  · subst hgg
    exact hne (by rw [mask_inj g j j' hk])
  · have := rows_apart g g' hgg
    dsimp only at hi hi'
    omega

theorem pieceRect_cover (x : S8192x1024.Idx) : ∃ gj ∈ (Finset.univ : Finset (Fin 3 × Fin 8)), x ∈ (pieceRect c gj.1 (mask gj.1 gj.2)).set := by
  have h0 : (x 0).val < 8192 := (x 0).isLt
  obtain ⟨k, hk⟩ := xr_surj c ⟨(x 0).val / 1024, by show _ < 8; omega⟩
  have hkv : (xr c k).val = (x 0).val / 1024 := congrArg Fin.val hk
  have key : ∀ g : Fin 3, rowOff g ≤ (x 0).val % 1024 → (x 0).val % 1024 < rowOff g + rowLen g →
      ∃ gj ∈ (Finset.univ : Finset (Fin 3 × Fin 8)), x ∈ (pieceRect c gj.1 (mask gj.1 gj.2)).set := by
    intro g h1 h2
    obtain ⟨j, hj⟩ := mask_surj g k
    refine ⟨(g, j), Finset.mem_univ _, ?_⟩
    rw [mem_pieceRect]
    dsimp only
    rw [hj, hkv]
    omega
  by_cases ha : (x 0).val % 1024 < 352
  · exact key 0 (by simp [rowOff]) (by simp [rowOff, rowLen]; omega)
  · by_cases hb : (x 0).val % 1024 < 688
    · exact key 1 (by simp [rowOff]; omega) (by simp [rowOff, rowLen]; omega)
    · exact key 2 (by simp [rowOff]; omega) (by simp [rowOff, rowLen]; omega)

/-- The elements of the result buffer under the piece of group `gj.1` at slot `gj.2`. -/
def pieceSet (gj : Fin 3 × Fin 8) : Finset (Idx ((c : Thread nD τ).loc main_v1)) :=
  ((oM : Memref sig .tc .hbm S8192x1024 .f32).view.slice (pieceRect c gj.1 (mask gj.1 gj.2))).set

/-- The result buffer's elements are those of its 24 pieces. -/
theorem out_univ_eq : (Finset.univ : Finset (Idx ((c : Thread nD τ).loc main_v1))) = (Finset.univ : Finset (Fin 3 × Fin 8)).biUnion (pieceSet c) :=
  (View.set_whole main_v1).symm.trans
    (set_eq_biUnion_slices (oM : Memref sig .tc .hbm S8192x1024 .f32).view Finset.univ (fun gj : Fin 3 × Fin 8 => pieceRect c gj.1 (mask gj.1 gj.2)) (pieceRect_cover c))

theorem out_pieces_disj : ∀ t ∈ (Finset.univ : Finset (Fin 3 × Fin 8)), ∀ t' ∈ (Finset.univ : Finset (Fin 3 × Fin 8)), t ≠ t' →
    Disjoint (pieceSet c t) (pieceSet c t') :=
  fun t _ t' _ hne => slices_disjoint _ (pieceRect_disj c t t' hne)

omit [FloatOps F] in
theorem piece_intro (gj : Fin 3 × Fin 8) (X : Buf (Elt F) ((c : Thread nD τ).loc main_v1)) :
    ((((c : Thread nD τ).loc main_v1) ↦[pieceSet c gj]{fullShare} X) : sProp 𝕄) ⊢ pieceAny c gj.1 gj.2 := by
  obtain ⟨g, j⟩ := gj
  match g with
  | 0 =>
    show (((op0 c (mask 0 j)).view.loc (c : Thread nD τ) ↦[(op0 c (mask 0 j)).view.set]{fullShare} X) : sProp 𝕄) ⊢ anyPts c (op0 c (mask 0 j))
    simp only [anyPts_eq]; iintro H; iexists X; iexact H
  | 1 =>
    show (((op12 c (mask 1 j) 0).view.loc (c : Thread nD τ) ↦[(op12 c (mask 1 j) 0).view.set]{fullShare} X) : sProp 𝕄) ⊢ anyPts c (op12 c (mask 1 j) 0)
    simp only [anyPts_eq]; iintro H; iexists X; iexact H
  | 2 =>
    show (((op12 c (mask 2 j) 1).view.loc (c : Thread nD τ) ↦[(op12 c (mask 2 j) 1).view.set]{fullShare} X) : sProp 𝕄) ⊢ anyPts c (op12 c (mask 2 j) 1)
    simp only [anyPts_eq]; iintro H; iexists X; iexact H

/-- What a landed piece says of the whole buffer's contents. -/
def pieceOK (gj : Fin 3 × Fin 8) (X : Buf (Elt F) ((c : Thread nD τ).loc main_v1)) : Prop := match gj.1 with
  | 0 => stageOK0 m c gj.2 ((op0 c (mask 0 gj.2)).view.read (Elt F) X)
  | 1 => stageOK1 m c gj.2 ((op12 c (mask 1 gj.2) 0).view.read (Elt F) X)
  | 2 => stageOK2 m c gj.2 ((op12 c (mask 2 gj.2) 1).view.read (Elt F) X)

omit [FloatOps F] in
/-- A property of what a memref reads only looks at the memref's elements. -/
theorem ok_congr {sp : Space} {s : Shape} {e : EltTy} (M : Memref sig .tc sp s e) (P : (s.Idx → Elt F e) → Prop)
    (f g : Buf (Elt F) (M.view.loc (c : Thread nD τ))) (h : ∀ i ∈ M.view.set, f i = g i) :
    P (M.view.read (Elt F) f) → P (M.view.read (Elt F) g) := by
  rw [View.read_congr h]; exact id

theorem pieceOK_congr0 (j : Fin 8) (f g : Buf (Elt F) ((c : Thread nD τ).loc main_v1))
    (h : ∀ i ∈ pieceSet c (0, j), f i = g i) : pieceOK m c (0, j) f → pieceOK m c (0, j) g := by
  have h' : ∀ i ∈ (op0 c (mask 0 j)).view.set, f i = g i := h
  show stageOK0 m c j ((op0 c (mask 0 j)).view.read (Elt F) f) → stageOK0 m c j ((op0 c (mask 0 j)).view.read (Elt F) g)
  rw [View.read_congr h']; exact id

theorem pieceOK_congr1 (j : Fin 8) (f g : Buf (Elt F) ((c : Thread nD τ).loc main_v1))
    (h : ∀ i ∈ pieceSet c (1, j), f i = g i) : pieceOK m c (1, j) f → pieceOK m c (1, j) g := by
  have h' : ∀ i ∈ (op12 c (mask 1 j) 0).view.set, f i = g i := h
  show stageOK1 m c j ((op12 c (mask 1 j) 0).view.read (Elt F) f) → stageOK1 m c j ((op12 c (mask 1 j) 0).view.read (Elt F) g)
  rw [View.read_congr h']; exact id

theorem pieceOK_congr2 (j : Fin 8) (f g : Buf (Elt F) ((c : Thread nD τ).loc main_v1))
    (h : ∀ i ∈ pieceSet c (2, j), f i = g i) : pieceOK m c (2, j) f → pieceOK m c (2, j) g := by
  have h' : ∀ i ∈ (op12 c (mask 2 j) 1).view.set, f i = g i := h
  show stageOK2 m c j ((op12 c (mask 2 j) 1).view.read (Elt F) f) → stageOK2 m c j ((op12 c (mask 2 j) 1).view.read (Elt F) g)
  rw [View.read_congr h']; exact id

theorem pieceOK_congr (gj : Fin 3 × Fin 8) (f g : Buf (Elt F) ((c : Thread nD τ).loc main_v1))
    (h : ∀ i ∈ pieceSet c gj, f i = g i) : pieceOK m c gj f → pieceOK m c gj g := by
  obtain ⟨g', j⟩ := gj
  have hg : ∀ x : Fin 3, x = 0 ∨ x = 1 ∨ x = 2 := by decide
  rcases hg g' with rfl | rfl | rfl
  · exact pieceOK_congr0 m c j f g h
  · exact pieceOK_congr1 m c j f g h
  · exact pieceOK_congr2 m c j f g h

theorem piece_elim (gj : Fin 3 × Fin 8) :
    pieceDone m c gj.1 gj.2 ⊢ iprop(∃ f : Buf (Elt F) ((c : Thread nD τ).loc main_v1),
      (((c : Thread nD τ).loc main_v1) ↦[pieceSet c gj]{fullShare} f) ∗ ⌜pieceOK m c gj f⌝) := by
  obtain ⟨g, j⟩ := gj
  match g with
  | 0 =>
    show pieceDone0 m c j ⊢ iprop(∃ f : Buf (Elt F) ((op0 c (mask 0 j)).view.loc (c : Thread nD τ)),
      ((op0 c (mask 0 j)).view.loc (c : Thread nD τ) ↦[(op0 c (mask 0 j)).view.set]{fullShare} f) ∗ ⌜stageOK0 m c j ((op0 c (mask 0 j)).view.read (Elt F) f)⌝)
    unfold pieceDone0; simp only [holdsPts_eq]
    iintro ⟨%w, %hw, %f, H, %hf⟩
    iexists f
    isplitl [H]; · iexact H
    ipureintro; rw [hf]; exact hw
  | 1 =>
    show pieceDone1 m c j ⊢ iprop(∃ f : Buf (Elt F) ((op12 c (mask 1 j) 0).view.loc (c : Thread nD τ)),
      ((op12 c (mask 1 j) 0).view.loc (c : Thread nD τ) ↦[(op12 c (mask 1 j) 0).view.set]{fullShare} f) ∗ ⌜stageOK1 m c j ((op12 c (mask 1 j) 0).view.read (Elt F) f)⌝)
    unfold pieceDone1; simp only [holdsPts_eq]
    iintro ⟨%w, %hw, %f, H, %hf⟩
    iexists f
    isplitl [H]; · iexact H
    ipureintro; rw [hf]; exact hw
  | 2 =>
    show pieceDone2 m c j ⊢ iprop(∃ f : Buf (Elt F) ((op12 c (mask 2 j) 1).view.loc (c : Thread nD τ)),
      ((op12 c (mask 2 j) 1).view.loc (c : Thread nD τ) ↦[(op12 c (mask 2 j) 1).view.set]{fullShare} f) ∗ ⌜stageOK2 m c j ((op12 c (mask 2 j) 1).view.read (Elt F) f)⌝)
    unfold pieceDone2; simp only [holdsPts_eq]
    iintro ⟨%w, %hw, %f, H, %hf⟩
    iexists f
    isplitl [H]; · iexact H
    ipureintro; rw [hf]; exact hw

/-! ## The result buffer and its 24 pieces -/

omit [FloatOps F] in
theorem out_split (X : Buf (Elt F) ((c : Thread nD τ).loc main_v1)) :
    ((((c : Thread nD τ).loc main_v1) ↦{fullShare} X) : sProp 𝕄)
      ⊢ bigSep Finset.univ fun gj : Fin 3 × Fin 8 => pieceAny c gj.1 gj.2 := by
  rw [out_univ_eq c, pointsTo_biUnion _ _ (out_pieces_disj c)]
  exact bigSep_mono fun gj _ => piece_intro c gj X

theorem out_join :
    (bigSep Finset.univ fun gj : Fin 3 × Fin 8 => pieceDone m c gj.1 gj.2)
      ⊢ iprop(∃ X, ⌜outOK m c X⌝ ∗ (((c : Thread nD τ).loc main_v1) ↦{fullShare} X)) := by
  refine BIBase.Entails.trans (bigSep_mono fun gj _ => piece_elim m c gj) ?_
  refine BIBase.Entails.trans (any_join_family Finset.univ (pieceSet c) (pieceOK m c) (pieceOK_congr m c) (out_pieces_disj c)
    (m ((c : Thread nD τ).loc main_v1)) fullShare) ?_
  rw [← out_univ_eq c]
  iintro ⟨%X, H, %hX⟩
  iexists X
  isplitr
  · ipureintro
    exact ⟨fun j => hX (0, j) (Finset.mem_univ _), fun j => hX (1, j) (Finset.mem_univ _), fun j => hX (2, j) (Finset.mem_univ _)⟩
  · iexact H

/-! ## Shares of a filled piece -/

omit [FloatOps F] in
/-- Two contents that read alike through a view agree on the view's elements. -/
theorem read_eq_on {sp : Space} {s : Shape} {e : EltTy} (v : View sig .tc sp s e) {f g : v.ty.Contents (Elt F)}
    (h : v.read (Elt F) f = v.read (Elt F) g) : ∀ i ∈ v.set, f i = g i := by
  intro i hi
  obtain ⟨x, -, rfl⟩ := Finset.mem_map.mp hi
  have hx := congrFun h x
  rw [View.read_apply, View.read_apply] at hx
  exact (cast_inj _).mp hx

omit [FloatOps F] in
theorem share_split {sp : Space} {s : Shape} {e : EltTy} (M : Memref sig .tc sp s e) (q : PosShare TreeShare) (v : s.Idx → Elt F e) :
    holdsPts c M q v ⊢ iprop(holdsPts c M q.left v ∗ holdsPts c M q.right v) := by
  simp only [holdsPts_eq]
  iintro ⟨%f, H, %hf⟩
  ihave H2 := (pointsTo_share (PosShare.mem_left_op_right q)).1 $$ H
  icases H2 with ⟨Hl, Hr⟩
  isplitl [Hl]
  · iexists f
    isplitl [Hl]; · iexact Hl
    ipureintro; exact hf
  · iexists f
    isplitl [Hr]; · iexact Hr
    ipureintro; exact hf
omit [FloatOps F] in
theorem share_join {sp : Space} {s : Shape} {e : EltTy} (M : Memref sig .tc sp s e) (q : PosShare TreeShare) (v : s.Idx → Elt F e) :
    iprop(holdsPts c M q.left v ∗ holdsPts c M q.right v) ⊢ holdsPts c M q v := by
  simp only [holdsPts_eq]
  iintro ⟨⟨%f, Hl, %hf⟩, ⟨%f', Hr, %hf'⟩⟩
  ihave Hr' := (Entails.of_eq (pointsTo_congr (q := q.right) (read_eq_on M.view (hf'.trans hf.symm)))) $$ Hr
  iexists f
  isplitl [Hl Hr']
  · iapply (pointsTo_share (PosShare.mem_left_op_right q)).2
    isplitl [Hl]; · iexact Hl
    iexact Hr'
  · ipureintro; exact hf

/-! ## Rectangles cut along one axis -/

/-- A unit-stride rectangle cut in two along the axis `a₀`. -/
theorem unit_split_axis {s : Shape} (a₀ : Fin s.rank) (o sz oa sza ob szb : Fin s.rank → ℕ)
    (inb : ∀ a, o a + sz a ≤ s.size a) (inba : ∀ a, oa a + sza a ≤ s.size a) (inbb : ∀ a, ob a + szb a ≤ s.size a)
    (hoff : ∀ a, a ≠ a₀ → oa a = o a ∧ ob a = o a ∧ sza a = sz a ∧ szb a = sz a)
    (h0 : oa a₀ = o a₀ ∧ ob a₀ = o a₀ + sza a₀ ∧ sz a₀ = sza a₀ + szb a₀) :
    (Rect.unit o sz inb).set = (Rect.unit oa sza inba).set ∪ (Rect.unit ob szb inbb).set := by
  ext i
  rw [Finset.mem_union, Rect.mem_set_unit, Rect.mem_set_unit, Rect.mem_set_unit]
  constructor
  · intro h
    by_cases hi : (i a₀ : ℕ) < ob a₀
    · left; intro a
      by_cases ha : a = a₀
      · subst ha; have := h a; omega
      · have := h a; have := hoff a ha; omega
    · right; intro a
      by_cases ha : a = a₀
      · subst ha; have := h a; omega
      · have := h a; have := hoff a ha; omega
  · rintro (h | h) <;> intro a <;> by_cases ha : a = a₀
    · subst ha; have := h a; omega
    · have := h a; have := hoff a ha; omega
    · subst ha; have := h a; omega
    · have := h a; have := hoff a ha; omega

theorem unit_disj_axis {s : Shape} (a₀ : Fin s.rank) (oa sza ob szb : Fin s.rank → ℕ)
    (inba : ∀ a, oa a + sza a ≤ s.size a) (inbb : ∀ a, ob a + szb a ≤ s.size a) (h : oa a₀ + sza a₀ ≤ ob a₀) :
    Disjoint (Rect.unit oa sza inba).set (Rect.unit ob szb inbb).set :=
  Rect.unit_disjoint a₀ (Or.inl h)

/-! ## Pieces of one buffer: the general lemmas -/

section Generic
variable {sp : Space} {s : Shape} {e : EltTy}

omit [FloatOps F] in
/-- A rectangle of a memref cut in two. -/
theorem slice_cut2 (Mw : Memref sig .tc sp s e) (r ra rb : Rect s) (hr : ∀ a, r.stride a = 1) (ha : ∀ a, ra.stride a = 1) (hb : ∀ a, rb.stride a = 1)
    (hS : r.set = ra.set ∪ rb.set) (hd : Disjoint ra.set rb.set) (q : PosShare TreeShare) (f : Buf (Elt F) (Mw.view.loc (c : Thread nD τ))) :
    ((Mw.view.loc (c : Thread nD τ) ↦[(Mw.slice r hr).view.set]{q} f : sProp 𝕄)
      ⊣⊢ iprop((Mw.view.loc (c : Thread nD τ) ↦[(Mw.slice ra ha).view.set]{q} f) ∗ (Mw.view.loc (c : Thread nD τ) ↦[(Mw.slice rb hb).view.set]{q} f))) := by
  show ((Mw.view.loc (c : Thread nD τ) ↦[(Mw.view.slice r).set]{q} f : sProp 𝕄)
      ⊣⊢ iprop((Mw.view.loc (c : Thread nD τ) ↦[(Mw.view.slice ra).set]{q} f) ∗ (Mw.view.loc (c : Thread nD τ) ↦[(Mw.view.slice rb).set]{q} f)))
  rw [View.set_slice, View.set_slice, View.set_slice, hS, Finset.map_union]
  exact pointsTo_union ((Finset.disjoint_map _).mpr hd)

omit [FloatOps F] in
/-- Reading a rectangle inside a rectangle. -/
theorem read_slice_sub (Mw : Memref sig .tc sp s e) (o oa oρ rsz sz : Fin s.rank → ℕ)
    (inb : ∀ a, o a + rsz a ≤ s.size a) (inba : ∀ a, oa a + sz a ≤ s.size a) (inbρ : ∀ a, oρ a + sz a ≤ rsz a)
    (h : ∀ a, oa a = o a + oρ a) (f : Mw.view.ty.Contents (Elt F)) (x : (⟨s.rank, sz⟩ : Shape).Idx) :
    (Mw.slice (Rect.unit oa sz inba) (fun _ => rfl)).view.read (Elt F) f x
      = (Mw.slice (Rect.unit o rsz inb) (fun _ => rfl)).view.read (Elt F) f ((Rect.unit (s := ⟨s.rank, rsz⟩) oρ sz inbρ).emb x) := by
  rw [View.read_apply, View.read_apply]
  have he : (Mw.slice (Rect.unit oa sz inba) (fun _ => rfl)).view.emb x
      = (Mw.slice (Rect.unit o rsz inb) (fun _ => rfl)).view.emb ((Rect.unit (s := ⟨s.rank, rsz⟩) oρ sz inbρ).emb x) := by
    show Mw.view.emb ((Rect.unit oa sz inba).emb x) = Mw.view.emb ((Rect.unit o rsz inb).emb ((Rect.unit (s := ⟨s.rank, rsz⟩) oρ sz inbρ).emb x))
    congr 1
    funext a
    apply Fin.ext
    simp only [Rect.emb_apply, Rect.off_unit, Rect.stride_unit, Nat.one_mul, h a]
    omega
  rw [he]

end Generic

section Generic2
variable {sp : Space} {s : Shape} {e : EltTy}

omit [FloatOps F] in
/-- Two rectangles of a memref, held at different contents, joined. -/
theorem slice_join2 (Mw : Memref sig .tc sp s e) (r ra rb : Rect s) (hr : ∀ a, r.stride a = 1) (ha : ∀ a, ra.stride a = 1) (hb : ∀ a, rb.stride a = 1)
    (hS : r.set = ra.set ∪ rb.set) (hd : Disjoint ra.set rb.set) (q : PosShare TreeShare) (fa fb : Buf (Elt F) (Mw.view.loc (c : Thread nD τ))) :
    (iprop((Mw.view.loc (c : Thread nD τ) ↦[(Mw.slice ra ha).view.set]{q} fa) ∗ (Mw.view.loc (c : Thread nD τ) ↦[(Mw.slice rb hb).view.set]{q} fb)) : sProp 𝕄)
      ⊢ (Mw.view.loc (c : Thread nD τ) ↦[(Mw.slice r hr).view.set]{q} ((Mw.slice rb hb).view.set.piecewise fb fa)) := by
  show (iprop((Mw.view.loc (c : Thread nD τ) ↦[(Mw.view.slice ra).set]{q} fa) ∗ (Mw.view.loc (c : Thread nD τ) ↦[(Mw.view.slice rb).set]{q} fb)) : sProp 𝕄)
      ⊢ (Mw.view.loc (c : Thread nD τ) ↦[(Mw.view.slice r).set]{q} ((Mw.view.slice rb).set.piecewise fb fa))
  rw [View.set_slice, View.set_slice, View.set_slice, hS, Finset.map_union]
  exact pointsTo_join ((Finset.disjoint_map _).mpr hd)

end Generic2

/-! ## The two parts of a slot: sets and readings -/

theorem gs0_rects (k : Fin 8) :
    (Rect.unit (s := S8x352x512) ![k.val, 0, 0] S1x352x512.size (by revert k; decide)).set
      = (Rect.unit (s := S8x352x512) ![k.val, 0, 0] S1x176x512.size (by revert k; decide)).set
        ∪ (Rect.unit (s := S8x352x512) ![k.val, 176, 0] S1x176x512.size (by revert k; decide)).set :=
  unit_split_axis (s := S8x352x512) 1 _ _ _ _ _ _ _ _ _
    (by intro a ha; fin_cases a <;> first | exact absurd rfl ha | simp)
    (by simp)
theorem gs0_rects_disj (k : Fin 8) :
    Disjoint (Rect.unit (s := S8x352x512) ![k.val, 0, 0] S1x176x512.size (by revert k; decide)).set
      (Rect.unit (s := S8x352x512) ![k.val, 176, 0] S1x176x512.size (by revert k; decide)).set :=
  unit_disj_axis (s := S8x352x512) 1 _ _ _ _ _ _ (by simp)

omit [FloatOps F] in
theorem gs0_cut_pts (k : Fin 8) (q : PosShare TreeShare) (f : Buf (Elt F) ((gs0 k).view.loc (c : Thread nD τ))) :
    (((gs0 k).view.loc (c : Thread nD τ) ↦[(gs0 k).view.set]{q} f : sProp 𝕄)
      ⊣⊢ iprop(((ga0 k).view.loc (c : Thread nD τ) ↦[(ga0 k).view.set]{q} f) ∗ ((gb0 k).view.loc (c : Thread nD τ) ↦[(gb0 k).view.set]{q} f))) :=
  slice_cut2 c g0M _ _ _ (fun _ => rfl) (fun _ => rfl) (fun _ => rfl) (gs0_rects k) (gs0_rects_disj k) q f

omit [FloatOps F] in
theorem gs0_join_pts (k : Fin 8) (q : PosShare TreeShare) (fa : Buf (Elt F) ((ga0 k).view.loc (c : Thread nD τ))) (fb : Buf (Elt F) ((gb0 k).view.loc (c : Thread nD τ))) :
    (iprop(((ga0 k).view.loc (c : Thread nD τ) ↦[(ga0 k).view.set]{q} fa) ∗ ((gb0 k).view.loc (c : Thread nD τ) ↦[(gb0 k).view.set]{q} fb)) : sProp 𝕄)
      ⊢ ((gs0 k).view.loc (c : Thread nD τ) ↦[(gs0 k).view.set]{q} ((gb0 k).view.set.piecewise fb fa)) :=
  slice_join2 c g0M _ _ _ (fun _ => rfl) (fun _ => rfl) (fun _ => rfl) (gs0_rects k) (gs0_rects_disj k) q fa fb

omit [FloatOps F] in
theorem read_ga0 (k : Fin 8) (f : Buf (Elt F) ((gs0 k).view.loc (c : Thread nD τ))) :
    (ga0 k).view.read (Elt F) f = topA ((gs0 k).view.read (Elt F) f) :=
  funext fun x => read_slice_sub g0M ![k.val, 0, 0] ![k.val, 0, 0] ![0, 0, 0] S1x352x512.size S1x176x512.size _ _ _
    (by intro a; fin_cases a <;> simp) f x
omit [FloatOps F] in
theorem read_gb0 (k : Fin 8) (f : Buf (Elt F) ((gs0 k).view.loc (c : Thread nD τ))) :
    (gb0 k).view.read (Elt F) f = botA ((gs0 k).view.read (Elt F) f) :=
  funext fun x => read_slice_sub g0M ![k.val, 0, 0] ![k.val, 176, 0] ![0, 176, 0] S1x352x512.size S1x176x512.size _ _ _
    (by intro a; fin_cases a <;> simp) f x

theorem gs1_rects (k : Fin 8) :
    (Rect.unit (s := S8x336x512) ![k.val, 0, 0] S1x336x512.size (by revert k; decide)).set
      = (Rect.unit (s := S8x336x512) ![k.val, 0, 0] S1x176x512.size (by revert k; decide)).set
        ∪ (Rect.unit (s := S8x336x512) ![k.val, 176, 0] S1x160x512.size (by revert k; decide)).set :=
  unit_split_axis (s := S8x336x512) 1 _ _ _ _ _ _ _ _ _
    (by intro a ha; fin_cases a <;> first | exact absurd rfl ha | simp)
    (by simp)
theorem gs1_rects_disj (k : Fin 8) :
    Disjoint (Rect.unit (s := S8x336x512) ![k.val, 0, 0] S1x176x512.size (by revert k; decide)).set
      (Rect.unit (s := S8x336x512) ![k.val, 176, 0] S1x160x512.size (by revert k; decide)).set :=
  unit_disj_axis (s := S8x336x512) 1 _ _ _ _ _ _ (by simp)

omit [FloatOps F] in
theorem gs1_cut_pts (k : Fin 8) (q : PosShare TreeShare) (f : Buf (Elt F) ((gs1 k).view.loc (c : Thread nD τ))) :
    (((gs1 k).view.loc (c : Thread nD τ) ↦[(gs1 k).view.set]{q} f : sProp 𝕄)
      ⊣⊢ iprop(((ga1 k).view.loc (c : Thread nD τ) ↦[(ga1 k).view.set]{q} f) ∗ ((gb1 k).view.loc (c : Thread nD τ) ↦[(gb1 k).view.set]{q} f))) :=
  slice_cut2 c g1M _ _ _ (fun _ => rfl) (fun _ => rfl) (fun _ => rfl) (gs1_rects k) (gs1_rects_disj k) q f

omit [FloatOps F] in
theorem gs1_join_pts (k : Fin 8) (q : PosShare TreeShare) (fa : Buf (Elt F) ((ga1 k).view.loc (c : Thread nD τ))) (fb : Buf (Elt F) ((gb1 k).view.loc (c : Thread nD τ))) :
    (iprop(((ga1 k).view.loc (c : Thread nD τ) ↦[(ga1 k).view.set]{q} fa) ∗ ((gb1 k).view.loc (c : Thread nD τ) ↦[(gb1 k).view.set]{q} fb)) : sProp 𝕄)
      ⊢ ((gs1 k).view.loc (c : Thread nD τ) ↦[(gs1 k).view.set]{q} ((gb1 k).view.set.piecewise fb fa)) :=
  slice_join2 c g1M _ _ _ (fun _ => rfl) (fun _ => rfl) (fun _ => rfl) (gs1_rects k) (gs1_rects_disj k) q fa fb

omit [FloatOps F] in
theorem read_ga1 (k : Fin 8) (f : Buf (Elt F) ((gs1 k).view.loc (c : Thread nD τ))) :
    (ga1 k).view.read (Elt F) f = topB ((gs1 k).view.read (Elt F) f) :=
  funext fun x => read_slice_sub g1M ![k.val, 0, 0] ![k.val, 0, 0] ![0, 0, 0] S1x336x512.size S1x176x512.size _ _ _
    (by intro a; fin_cases a <;> simp) f x
omit [FloatOps F] in
theorem read_gb1 (k : Fin 8) (f : Buf (Elt F) ((gs1 k).view.loc (c : Thread nD τ))) :
    (gb1 k).view.read (Elt F) f = botB ((gs1 k).view.read (Elt F) f) :=
  funext fun x => read_slice_sub g1M ![k.val, 0, 0] ![k.val, 176, 0] ![0, 176, 0] S1x336x512.size S1x160x512.size _ _ _
    (by intro a; fin_cases a <;> simp) f x

theorem gs2_rects (k : Fin 8) :
    (Rect.unit (s := S8x336x512) ![k.val, 0, 0] S1x336x512.size (by revert k; decide)).set
      = (Rect.unit (s := S8x336x512) ![k.val, 0, 0] S1x176x512.size (by revert k; decide)).set
        ∪ (Rect.unit (s := S8x336x512) ![k.val, 176, 0] S1x160x512.size (by revert k; decide)).set :=
  unit_split_axis (s := S8x336x512) 1 _ _ _ _ _ _ _ _ _
    (by intro a ha; fin_cases a <;> first | exact absurd rfl ha | simp)
    (by simp)
theorem gs2_rects_disj (k : Fin 8) :
    Disjoint (Rect.unit (s := S8x336x512) ![k.val, 0, 0] S1x176x512.size (by revert k; decide)).set
      (Rect.unit (s := S8x336x512) ![k.val, 176, 0] S1x160x512.size (by revert k; decide)).set :=
  unit_disj_axis (s := S8x336x512) 1 _ _ _ _ _ _ (by simp)

omit [FloatOps F] in
theorem gs2_cut_pts (k : Fin 8) (q : PosShare TreeShare) (f : Buf (Elt F) ((gs2 k).view.loc (c : Thread nD τ))) :
    (((gs2 k).view.loc (c : Thread nD τ) ↦[(gs2 k).view.set]{q} f : sProp 𝕄)
      ⊣⊢ iprop(((ga2 k).view.loc (c : Thread nD τ) ↦[(ga2 k).view.set]{q} f) ∗ ((gb2 k).view.loc (c : Thread nD τ) ↦[(gb2 k).view.set]{q} f))) :=
  slice_cut2 c g2M _ _ _ (fun _ => rfl) (fun _ => rfl) (fun _ => rfl) (gs2_rects k) (gs2_rects_disj k) q f

omit [FloatOps F] in
theorem gs2_join_pts (k : Fin 8) (q : PosShare TreeShare) (fa : Buf (Elt F) ((ga2 k).view.loc (c : Thread nD τ))) (fb : Buf (Elt F) ((gb2 k).view.loc (c : Thread nD τ))) :
    (iprop(((ga2 k).view.loc (c : Thread nD τ) ↦[(ga2 k).view.set]{q} fa) ∗ ((gb2 k).view.loc (c : Thread nD τ) ↦[(gb2 k).view.set]{q} fb)) : sProp 𝕄)
      ⊢ ((gs2 k).view.loc (c : Thread nD τ) ↦[(gs2 k).view.set]{q} ((gb2 k).view.set.piecewise fb fa)) :=
  slice_join2 c g2M _ _ _ (fun _ => rfl) (fun _ => rfl) (fun _ => rfl) (gs2_rects k) (gs2_rects_disj k) q fa fb

omit [FloatOps F] in
theorem read_ga2 (k : Fin 8) (f : Buf (Elt F) ((gs2 k).view.loc (c : Thread nD τ))) :
    (ga2 k).view.read (Elt F) f = topB ((gs2 k).view.read (Elt F) f) :=
  funext fun x => read_slice_sub g2M ![k.val, 0, 0] ![k.val, 0, 0] ![0, 0, 0] S1x336x512.size S1x176x512.size _ _ _
    (by intro a; fin_cases a <;> simp) f x
omit [FloatOps F] in
theorem read_gb2 (k : Fin 8) (f : Buf (Elt F) ((gs2 k).view.loc (c : Thread nD τ))) :
    (gb2 k).view.read (Elt F) f = botB ((gs2 k).view.read (Elt F) f) :=
  funext fun x => read_slice_sub g2M ![k.val, 0, 0] ![k.val, 176, 0] ![0, 176, 0] S1x336x512.size S1x160x512.size _ _ _
    (by intro a; fin_cases a <;> simp) f x

/-! ## A slot's value from the values of its two parts -/

/-- Two functions on a shape that agree on two rectangles covering it are equal. -/
theorem ext_of_cover {s : Shape} {α : Type} (u v : s.Idx → α) (ra rb : Rect s) (hcov : ∀ x, x ∈ ra.set ∨ x ∈ rb.set)
    (ha : ∀ y, u (ra.emb y) = v (ra.emb y)) (hb : ∀ y, u (rb.emb y) = v (rb.emb y)) : u = v := by
  funext x
  rcases hcov x with h | h
  · obtain ⟨y, hy⟩ := ra.exists_idx_of_mem h
    rw [← hy]; exact ha y
  · obtain ⟨y, hy⟩ := rb.exists_idx_of_mem h
    rw [← hy]; exact hb y

omit [FloatOps F] in
theorem top_bot_extA {e : EltTy} (u v : Vec F S1x352x512 e) (ht : topA u = topA v) (hb : botA u = botA v) : u = v :=
  ext_of_cover u v (Rect.unit (s := S1x352x512) ![0, 0, 0] S1x176x512.size (by decide)) (Rect.unit (s := S1x352x512) ![0, 176, 0] S1x176x512.size (by decide))
    (fun x => by
      have h0 := (x 0).isLt; have h1 := (x 1).isLt; have h2 := (x 2).isLt
      by_cases hx : (x 1).val < 176
      · exact Or.inl (Rect.mem_set_unit.mpr fun a => by fin_cases a <;> simp at h0 h1 h2 ⊢ <;> omega)
      · exact Or.inr (Rect.mem_set_unit.mpr fun a => by fin_cases a <;> simp at h0 h1 h2 ⊢ <;> omega))
    (fun y => congrFun ht y) (fun y => congrFun hb y)
omit [FloatOps F] in
theorem top_bot_extB {e : EltTy} (u v : Vec F S1x336x512 e) (ht : topB u = topB v) (hb : botB u = botB v) : u = v :=
  ext_of_cover u v (Rect.unit (s := S1x336x512) ![0, 0, 0] S1x176x512.size (by decide)) (Rect.unit (s := S1x336x512) ![0, 176, 0] S1x160x512.size (by decide))
    (fun x => by
      have h0 := (x 0).isLt; have h1 := (x 1).isLt; have h2 := (x 2).isLt
      by_cases hx : (x 1).val < 176
      · exact Or.inl (Rect.mem_set_unit.mpr fun a => by fin_cases a <;> simp at h0 h1 h2 ⊢ <;> omega)
      · exact Or.inr (Rect.mem_set_unit.mpr fun a => by fin_cases a <;> simp at h0 h1 h2 ⊢ <;> omega))
    (fun y => congrFun ht y) (fun y => congrFun hb y)

omit [FloatOps F] in
theorem gs0_read_join (k : Fin 8) (fa : Buf (Elt F) ((ga0 k).view.loc (c : Thread nD τ))) (fb : Buf (Elt F) ((gb0 k).view.loc (c : Thread nD τ)))
    (v : Vec F S1x352x512 .bf16) (hfa : (ga0 k).view.read (Elt F) fa = topA v) (hfb : (gb0 k).view.read (Elt F) fb = botA v) :
    (gs0 k).view.read (Elt F) ((gb0 k).view.set.piecewise fb fa) = v := by
  have hd : Disjoint (α := Finset (Idx ((c : Thread nD τ).loc cc0_scratch1))) (ga0 k).view.set (gb0 k).view.set :=
    slices_disjoint (g0M : Memref sig .tc .vmem S8x352x512 .bf16).view (gs0_rects_disj k)
  have h1 : (ga0 k).view.read (Elt F) ((gb0 k).view.set.piecewise fb fa) = (ga0 k).view.read (Elt F) fa :=
    View.read_congr fun i hi => Finset.piecewise_eq_of_notMem _ _ _ (Finset.disjoint_left.mp hd hi)
  have h2 : (gb0 k).view.read (Elt F) ((gb0 k).view.set.piecewise fb fa) = (gb0 k).view.read (Elt F) fb :=
    View.read_congr fun i hi => Finset.piecewise_eq_of_mem _ _ _ hi
  apply top_bot_extA
  · exact (read_ga0 c k ((gb0 k).view.set.piecewise fb fa)).symm.trans (h1.trans hfa)
  · exact (read_gb0 c k ((gb0 k).view.set.piecewise fb fa)).symm.trans (h2.trans hfb)

omit [FloatOps F] in
theorem gs1_read_join (k : Fin 8) (fa : Buf (Elt F) ((ga1 k).view.loc (c : Thread nD τ))) (fb : Buf (Elt F) ((gb1 k).view.loc (c : Thread nD τ)))
    (v : Vec F S1x336x512 .bf16) (hfa : (ga1 k).view.read (Elt F) fa = topB v) (hfb : (gb1 k).view.read (Elt F) fb = botB v) :
    (gs1 k).view.read (Elt F) ((gb1 k).view.set.piecewise fb fa) = v := by
  have hd : Disjoint (α := Finset (Idx ((c : Thread nD τ).loc cc0_scratch2))) (ga1 k).view.set (gb1 k).view.set :=
    slices_disjoint (g1M : Memref sig .tc .vmem S8x336x512 .bf16).view (gs1_rects_disj k)
  have h1 : (ga1 k).view.read (Elt F) ((gb1 k).view.set.piecewise fb fa) = (ga1 k).view.read (Elt F) fa :=
    View.read_congr fun i hi => Finset.piecewise_eq_of_notMem _ _ _ (Finset.disjoint_left.mp hd hi)
  have h2 : (gb1 k).view.read (Elt F) ((gb1 k).view.set.piecewise fb fa) = (gb1 k).view.read (Elt F) fb :=
    View.read_congr fun i hi => Finset.piecewise_eq_of_mem _ _ _ hi
  apply top_bot_extB
  · exact (read_ga1 c k ((gb1 k).view.set.piecewise fb fa)).symm.trans (h1.trans hfa)
  · exact (read_gb1 c k ((gb1 k).view.set.piecewise fb fa)).symm.trans (h2.trans hfb)

omit [FloatOps F] in
theorem gs2_read_join (k : Fin 8) (fa : Buf (Elt F) ((ga2 k).view.loc (c : Thread nD τ))) (fb : Buf (Elt F) ((gb2 k).view.loc (c : Thread nD τ)))
    (v : Vec F S1x336x512 .bf16) (hfa : (ga2 k).view.read (Elt F) fa = topB v) (hfb : (gb2 k).view.read (Elt F) fb = botB v) :
    (gs2 k).view.read (Elt F) ((gb2 k).view.set.piecewise fb fa) = v := by
  have hd : Disjoint (α := Finset (Idx ((c : Thread nD τ).loc cc0_scratch3))) (ga2 k).view.set (gb2 k).view.set :=
    slices_disjoint (g2M : Memref sig .tc .vmem S8x336x512 .bf16).view (gs2_rects_disj k)
  have h1 : (ga2 k).view.read (Elt F) ((gb2 k).view.set.piecewise fb fa) = (ga2 k).view.read (Elt F) fa :=
    View.read_congr fun i hi => Finset.piecewise_eq_of_notMem _ _ _ (Finset.disjoint_left.mp hd hi)
  have h2 : (gb2 k).view.read (Elt F) ((gb2 k).view.set.piecewise fb fa) = (gb2 k).view.read (Elt F) fb :=
    View.read_congr fun i hi => Finset.piecewise_eq_of_mem _ _ _ hi
  apply top_bot_extB
  · exact (read_ga2 c k ((gb2 k).view.set.piecewise fb fa)).symm.trans (h1.trans hfa)
  · exact (read_gb2 c k ((gb2 k).view.set.piecewise fb fa)).symm.trans (h2.trans hfb)

/-! ## The two parts of a slot -/

omit [FloatOps F] in
theorem gs0_parts (k : Fin 8) : anyPts (F := F) c (gs0 k) ⊢ iprop(anyPts c (ga0 k) ∗ anyPts c (gb0 k)) := by
  simp only [anyPts_eq]
  iintro ⟨%f, H⟩
  ihave H := (gs0_cut_pts c k fullShare f).1 $$ H
  icases H with ⟨Ha, Hb⟩
  isplitl [Ha]
  · iexists f; iexact Ha
  · iexists f; iexact Hb
omit [FloatOps F] in
theorem gs0_unparts (k : Fin 8) : iprop(anyPts (F := F) c (ga0 k) ∗ anyPts c (gb0 k)) ⊢ anyPts c (gs0 k) := by
  simp only [anyPts_eq]
  iintro ⟨⟨%fa, Ha⟩, ⟨%fb, Hb⟩⟩
  iexists ((gb0 k).view.set.piecewise fb fa)
  iapply (gs0_join_pts c k fullShare fa fb)
  isplitl [Ha]; · iexact Ha
  iexact Hb
omit [FloatOps F] in
theorem gs0_parts_val (k : Fin 8) (q : PosShare TreeShare) (v : Vec F S1x352x512 .bf16) :
    holdsPts c (gs0 k) q v ⊢ iprop(holdsPts c (ga0 k) q (topA v) ∗ holdsPts c (gb0 k) q (botA v)) := by
  simp only [holdsPts_eq]
  iintro ⟨%f, H, %hf⟩
  ihave H := (gs0_cut_pts c k q f).1 $$ H
  icases H with ⟨Ha, Hb⟩
  isplitl [Ha]
  · iexists f
    isplitl [Ha]; · iexact Ha
    ipureintro; rw [read_ga0 c k f, hf]
  · iexists f
    isplitl [Hb]; · iexact Hb
    ipureintro; rw [read_gb0 c k f, hf]
omit [FloatOps F] in
theorem gs0_unparts_val (k : Fin 8) (q : PosShare TreeShare) (v : Vec F S1x352x512 .bf16) :
    iprop(holdsPts c (ga0 k) q (topA v) ∗ holdsPts c (gb0 k) q (botA v)) ⊢ holdsPts c (gs0 k) q v := by
  simp only [holdsPts_eq]
  iintro ⟨⟨%fa, Ha, %hfa⟩, ⟨%fb, Hb, %hfb⟩⟩
  iexists ((gb0 k).view.set.piecewise fb fa)
  isplitl
  · iapply (gs0_join_pts c k q fa fb)
    isplitl [Ha]; · iexact Ha
    iexact Hb
  · ipureintro
    exact gs0_read_join c k fa fb v hfa hfb

omit [FloatOps F] in
theorem gs1_parts (k : Fin 8) : anyPts (F := F) c (gs1 k) ⊢ iprop(anyPts c (ga1 k) ∗ anyPts c (gb1 k)) := by
  simp only [anyPts_eq]
  iintro ⟨%f, H⟩
  ihave H := (gs1_cut_pts c k fullShare f).1 $$ H
  icases H with ⟨Ha, Hb⟩
  isplitl [Ha]
  · iexists f; iexact Ha
  · iexists f; iexact Hb
omit [FloatOps F] in
theorem gs1_unparts (k : Fin 8) : iprop(anyPts (F := F) c (ga1 k) ∗ anyPts c (gb1 k)) ⊢ anyPts c (gs1 k) := by
  simp only [anyPts_eq]
  iintro ⟨⟨%fa, Ha⟩, ⟨%fb, Hb⟩⟩
  iexists ((gb1 k).view.set.piecewise fb fa)
  iapply (gs1_join_pts c k fullShare fa fb)
  isplitl [Ha]; · iexact Ha
  iexact Hb
omit [FloatOps F] in
theorem gs1_parts_val (k : Fin 8) (q : PosShare TreeShare) (v : Vec F S1x336x512 .bf16) :
    holdsPts c (gs1 k) q v ⊢ iprop(holdsPts c (ga1 k) q (topB v) ∗ holdsPts c (gb1 k) q (botB v)) := by
  simp only [holdsPts_eq]
  iintro ⟨%f, H, %hf⟩
  ihave H := (gs1_cut_pts c k q f).1 $$ H
  icases H with ⟨Ha, Hb⟩
  isplitl [Ha]
  · iexists f
    isplitl [Ha]; · iexact Ha
    ipureintro; rw [read_ga1 c k f, hf]
  · iexists f
    isplitl [Hb]; · iexact Hb
    ipureintro; rw [read_gb1 c k f, hf]
omit [FloatOps F] in
theorem gs1_unparts_val (k : Fin 8) (q : PosShare TreeShare) (v : Vec F S1x336x512 .bf16) :
    iprop(holdsPts c (ga1 k) q (topB v) ∗ holdsPts c (gb1 k) q (botB v)) ⊢ holdsPts c (gs1 k) q v := by
  simp only [holdsPts_eq]
  iintro ⟨⟨%fa, Ha, %hfa⟩, ⟨%fb, Hb, %hfb⟩⟩
  iexists ((gb1 k).view.set.piecewise fb fa)
  isplitl
  · iapply (gs1_join_pts c k q fa fb)
    isplitl [Ha]; · iexact Ha
    iexact Hb
  · ipureintro
    exact gs1_read_join c k fa fb v hfa hfb

omit [FloatOps F] in
theorem gs2_parts (k : Fin 8) : anyPts (F := F) c (gs2 k) ⊢ iprop(anyPts c (ga2 k) ∗ anyPts c (gb2 k)) := by
  simp only [anyPts_eq]
  iintro ⟨%f, H⟩
  ihave H := (gs2_cut_pts c k fullShare f).1 $$ H
  icases H with ⟨Ha, Hb⟩
  isplitl [Ha]
  · iexists f; iexact Ha
  · iexists f; iexact Hb
omit [FloatOps F] in
theorem gs2_unparts (k : Fin 8) : iprop(anyPts (F := F) c (ga2 k) ∗ anyPts c (gb2 k)) ⊢ anyPts c (gs2 k) := by
  simp only [anyPts_eq]
  iintro ⟨⟨%fa, Ha⟩, ⟨%fb, Hb⟩⟩
  iexists ((gb2 k).view.set.piecewise fb fa)
  iapply (gs2_join_pts c k fullShare fa fb)
  isplitl [Ha]; · iexact Ha
  iexact Hb
omit [FloatOps F] in
theorem gs2_parts_val (k : Fin 8) (q : PosShare TreeShare) (v : Vec F S1x336x512 .bf16) :
    holdsPts c (gs2 k) q v ⊢ iprop(holdsPts c (ga2 k) q (topB v) ∗ holdsPts c (gb2 k) q (botB v)) := by
  simp only [holdsPts_eq]
  iintro ⟨%f, H, %hf⟩
  ihave H := (gs2_cut_pts c k q f).1 $$ H
  icases H with ⟨Ha, Hb⟩
  isplitl [Ha]
  · iexists f
    isplitl [Ha]; · iexact Ha
    ipureintro; rw [read_ga2 c k f, hf]
  · iexists f
    isplitl [Hb]; · iexact Hb
    ipureintro; rw [read_gb2 c k f, hf]
omit [FloatOps F] in
theorem gs2_unparts_val (k : Fin 8) (q : PosShare TreeShare) (v : Vec F S1x336x512 .bf16) :
    iprop(holdsPts c (ga2 k) q (topB v) ∗ holdsPts c (gb2 k) q (botB v)) ⊢ holdsPts c (gs2 k) q v := by
  simp only [holdsPts_eq]
  iintro ⟨⟨%fa, Ha, %hfa⟩, ⟨%fb, Hb, %hfb⟩⟩
  iexists ((gb2 k).view.set.piecewise fb fa)
  isplitl
  · iapply (gs2_join_pts c k q fa fb)
    isplitl [Ha]; · iexact Ha
    iexact Hb
  · ipureintro
    exact gs2_read_join c k fa fb v hfa hfb

/-! ## A filled slot cut for the transfers that read it, by group

Slot 0 is read by the steps 0, 1 and 3 at once, slot 1 by the steps 2 and 4, slot 2 by step 5, slot 3 by the two parts
of the last step, each part its own rows; the right half stays with the device's own loads. -/

omit [FloatOps F] in
theorem cut4 {sp : Space} {s : Shape} {e : EltTy} (M : Memref sig .tc sp s e) (v : s.Idx → Elt F e) :
    holdsPts c M fullShare v ⊢ iprop(holdsPts c M fullShare.left.left.left v ∗ holdsPts c M fullShare.left.left.right v
      ∗ holdsPts c M fullShare.left.right v ∗ holdsPts c M fullShare.right v) := by
  iintro H
  ihave H := (share_split c M fullShare v) $$ H
  icases H with ⟨HL, HR⟩
  ihave HL := (share_split c M fullShare.left v) $$ HL
  icases HL with ⟨HLL, HLR⟩
  ihave HLL := (share_split c M fullShare.left.left v) $$ HLL
  icases HLL with ⟨HLLL, HLLR⟩
  isplitl [HLLL]; · iexact HLLL
  isplitl [HLLR]; · iexact HLLR
  isplitl [HLR]; · iexact HLR
  iexact HR
omit [FloatOps F] in
theorem cut3 {sp : Space} {s : Shape} {e : EltTy} (M : Memref sig .tc sp s e) (v : s.Idx → Elt F e) :
    holdsPts c M fullShare v ⊢ iprop(holdsPts c M fullShare.left.left v ∗ holdsPts c M fullShare.left.right v ∗ holdsPts c M fullShare.right v) := by
  iintro H
  ihave H := (share_split c M fullShare v) $$ H
  icases H with ⟨HL, HR⟩
  ihave HL := (share_split c M fullShare.left v) $$ HL
  icases HL with ⟨HLL, HLR⟩
  isplitl [HLL]; · iexact HLL
  isplitl [HLR]; · iexact HLR
  iexact HR
omit [FloatOps F] in
theorem uncut4 {sp : Space} {s : Shape} {e : EltTy} (M : Memref sig .tc sp s e) (v : s.Idx → Elt F e) :
    iprop(holdsPts c M fullShare.left.left.left v ∗ holdsPts c M fullShare.left.left.right v
      ∗ holdsPts c M fullShare.left.right v ∗ holdsPts c M fullShare.right v) ⊢ holdsPts c M fullShare v := by
  iintro ⟨HLLL, HLLR, HLR, HR⟩
  iapply (share_join c M fullShare v)
  isplitr [HR]
  · iapply (share_join c M fullShare.left v)
    isplitr [HLR]
    · iapply (share_join c M fullShare.left.left v)
      isplitl [HLLL]; · iexact HLLL
      iexact HLLR
    · iexact HLR
  · iexact HR
omit [FloatOps F] in
theorem uncut3 {sp : Space} {s : Shape} {e : EltTy} (M : Memref sig .tc sp s e) (v : s.Idx → Elt F e) :
    iprop(holdsPts c M fullShare.left.left v ∗ holdsPts c M fullShare.left.right v ∗ holdsPts c M fullShare.right v) ⊢ holdsPts c M fullShare v := by
  iintro ⟨HLL, HLR, HR⟩
  iapply (share_join c M fullShare v)
  isplitr [HR]
  · iapply (share_join c M fullShare.left v)
    isplitl [HLL]; · iexact HLL
    iexact HLR
  · iexact HR

theorem slot0_cut (g : Fin 3) : slotHas m c g 0 fullShare
    ⊢ iprop(slotHas m c g 0 fullShare.left.left.left ∗ slotHas m c g 0 fullShare.left.left.right ∗ slotHas m c g 0 fullShare.left.right ∗ slotHas m c g 0 fullShare.right) := by
  match g with
  | 0 => exact cut4 c (gs0 0) _
  | 1 => exact cut4 c (gs1 0) _
  | 2 => exact cut4 c (gs2 0) _
theorem slot1_cut (g : Fin 3) : slotHas m c g 1 fullShare
    ⊢ iprop(slotHas m c g 1 fullShare.left.left ∗ slotHas m c g 1 fullShare.left.right ∗ slotHas m c g 1 fullShare.right) := by
  match g with
  | 0 => exact cut3 c (gs0 1) _
  | 1 => exact cut3 c (gs1 1) _
  | 2 => exact cut3 c (gs2 1) _
theorem slot2_cut (g : Fin 3) : slotHas m c g 2 fullShare ⊢ iprop(slotHas m c g 2 fullShare.left ∗ slotHas m c g 2 fullShare.right) := by
  match g with
  | 0 => exact share_split c (gs0 2) fullShare _
  | 1 => exact share_split c (gs1 2) fullShare _
  | 2 => exact share_split c (gs2 2) fullShare _
theorem slot3_cut (g : Fin 3) : slotHas m c g 3 fullShare
    ⊢ iprop(slotTop m c g 3 fullShare.left ∗ slotBot m c g 3 fullShare.left ∗ slotHas m c g 3 fullShare.right) := by
  match g with
  | 0 =>
    show holdsPts c (gs0 3) fullShare (sv0 m (xr c (mask 0 3))) ⊢ iprop(holdsPts c (ga0 3) fullShare.left (topA (sv0 m (xr c (mask 0 3)))) ∗ holdsPts c (gb0 3) fullShare.left (botA (sv0 m (xr c (mask 0 3)))) ∗ holdsPts c (gs0 3) fullShare.right (sv0 m (xr c (mask 0 3))))
    iintro H
    ihave H := (share_split c (gs0 3) fullShare _) $$ H
    icases H with ⟨HL, HR⟩
    ihave HL := (gs0_parts_val c 3 fullShare.left _) $$ HL
    icases HL with ⟨Ha, Hb⟩
    isplitl [Ha]; · iexact Ha
    isplitl [Hb]; · iexact Hb
    iexact HR
  | 1 =>
    show holdsPts c (gs1 3) fullShare (sv1 m (xr c (mask 1 3))) ⊢ iprop(holdsPts c (ga1 3) fullShare.left (topB (sv1 m (xr c (mask 1 3)))) ∗ holdsPts c (gb1 3) fullShare.left (botB (sv1 m (xr c (mask 1 3)))) ∗ holdsPts c (gs1 3) fullShare.right (sv1 m (xr c (mask 1 3))))
    iintro H
    ihave H := (share_split c (gs1 3) fullShare _) $$ H
    icases H with ⟨HL, HR⟩
    ihave HL := (gs1_parts_val c 3 fullShare.left _) $$ HL
    icases HL with ⟨Ha, Hb⟩
    isplitl [Ha]; · iexact Ha
    isplitl [Hb]; · iexact Hb
    iexact HR
  | 2 =>
    show holdsPts c (gs2 3) fullShare (sv2 m (xr c (mask 2 3))) ⊢ iprop(holdsPts c (ga2 3) fullShare.left (topB (sv2 m (xr c (mask 2 3)))) ∗ holdsPts c (gb2 3) fullShare.left (botB (sv2 m (xr c (mask 2 3)))) ∗ holdsPts c (gs2 3) fullShare.right (sv2 m (xr c (mask 2 3))))
    iintro H
    ihave H := (share_split c (gs2 3) fullShare _) $$ H
    icases H with ⟨HL, HR⟩
    ihave HL := (gs2_parts_val c 3 fullShare.left _) $$ HL
    icases HL with ⟨Ha, Hb⟩
    isplitl [Ha]; · iexact Ha
    isplitl [Hb]; · iexact Hb
    iexact HR
/-- A slot in its two parts, read as one (for a load of the whole slot). -/
theorem slot_whole (g : Fin 3) (k : Fin 8) (q : PosShare TreeShare) : iprop(slotTop m c g k q ∗ slotBot m c g k q) ⊢ slotHas m c g k q := by
  match g with
  | 0 => exact gs0_unparts_val c k q _
  | 1 => exact gs1_unparts_val c k q _
  | 2 => exact gs2_unparts_val c k q _
theorem slot_halves (g : Fin 3) (k : Fin 8) (q : PosShare TreeShare) : slotHas m c g k q ⊢ iprop(slotTop m c g k q ∗ slotBot m c g k q) := by
  match g with
  | 0 => exact gs0_parts_val c k q _
  | 1 => exact gs1_parts_val c k q _
  | 2 => exact gs2_parts_val c k q _

/-! ## A buffer whole and as its one piece -/

omit [FloatOps F] in
theorem anyBuf_whole (b : Ref sig .tc) : anyBuf (F := F) c b = anyPts c (Memref.whole b) := by
  unfold anyBuf; simp only [anyPts_eq]
  simp only [Memref.view_whole, View.set_whole]

/-! ## A whole buffer cut into a family of rectangles -/

section Whole
variable (b : Ref sig .tc) {T : Type} [DecidableEq T] [Fintype T] (R : T → Rect b.ty.shape) (hR : ∀ t a, (R t).stride a = 1)

omit [FloatOps F] in
theorem whole_univ_eq (hcov : ∀ x : b.ty.shape.Idx, ∃ t ∈ (Finset.univ : Finset T), x ∈ (R t).set) :
    (Finset.univ : Finset (Idx ((c : Thread nD τ).loc b))) = (Finset.univ : Finset T).biUnion fun t => ((View.whole b).slice (R t)).set :=
  (View.set_whole b).symm.trans (set_eq_biUnion_slices (View.whole b) Finset.univ R hcov)

omit [FloatOps F] in
theorem whole_split (hcov : ∀ x : b.ty.shape.Idx, ∃ t ∈ (Finset.univ : Finset T), x ∈ (R t).set)
    (hd : ∀ t t', t ≠ t' → Disjoint (R t).set (R t').set) :
    anyBuf (F := F) c b ⊢ bigSep Finset.univ fun t => anyPts c ((Memref.whole b).slice (R t) (hR t)) := by
  have key : ∀ f : Buf (Elt F) ((c : Thread nD τ).loc b), ((((c : Thread nD τ).loc b) ↦{fullShare} f) : sProp 𝕄)
      ⊢ bigSep Finset.univ fun t => anyPts c ((Memref.whole b).slice (R t) (hR t)) := by
    intro f
    rw [whole_univ_eq c b R hcov, pointsTo_biUnion _ _ (fun t _ t' _ hne => slices_disjoint (View.whole b) (hd t t' hne))]
    refine bigSep_mono fun t _ => ?_
    show ((((Memref.whole b).slice (R t) (hR t)).view.loc (c : Thread nD τ) ↦[((Memref.whole b).slice (R t) (hR t)).view.set]{fullShare} f) : sProp 𝕄)
      ⊢ anyPts c ((Memref.whole b).slice (R t) (hR t))
    simp only [anyPts_eq]; iintro H; iexists f; iexact H
  unfold anyBuf
  iintro ⟨%f, H⟩
  iapply (key f)
  iexact H

omit [FloatOps F] in
theorem whole_join (hcov : ∀ x : b.ty.shape.Idx, ∃ t ∈ (Finset.univ : Finset T), x ∈ (R t).set)
    (hd : ∀ t t', t ≠ t' → Disjoint (R t).set (R t').set) (f₀ : Buf (Elt F) ((c : Thread nD τ).loc b)) :
    (bigSep Finset.univ fun t => anyPts (F := F) c ((Memref.whole b).slice (R t) (hR t))) ⊢ anyBuf c b := by
  refine BIBase.Entails.trans (bigSep_mono fun t _ =>
    (show anyPts (F := F) c ((Memref.whole b).slice (R t) (hR t)) ⊢ iprop(∃ f : Buf (Elt F) ((c : Thread nD τ).loc b),
        (((c : Thread nD τ).loc b) ↦[((View.whole b).slice (R t)).set]{fullShare} f) ∗ ⌜True⌝) from by
      rw [anyPts_eq]
      show iprop(∃ f : Buf (Elt F) ((c : Thread nD τ).loc b), (((c : Thread nD τ).loc b) ↦[((View.whole b).slice (R t)).set]{fullShare} f)) ⊢ _
      iintro ⟨%f, H⟩; iexists f; isplitl [H]; · iexact H
      ipureintro; trivial)) ?_
  refine BIBase.Entails.trans (any_join_family (ℓ := (c : Thread nD τ).loc b) Finset.univ (fun t => ((View.whole b).slice (R t)).set) (fun _ _ => True)
    (fun _ _ _ _ h => h) (fun t _ t' _ hne => slices_disjoint (View.whole b) (hd t t' hne)) f₀ fullShare) ?_
  rw [← whole_univ_eq c b R hcov]
  unfold anyBuf
  iintro ⟨%X, H, -⟩
  iexists X
  iexact H

end Whole

section Squeeze
variable {sp : Space} {s s' : Shape} {e : EltTy}

omit [FloatOps F] in
theorem anyPts_squeeze (M : Memref sig .tc sp s e) (h : s.Squeezes s') : anyPts (F := F) c (M.squeeze s' h) = anyPts c M := by
  simp only [anyPts_eq]
  show iprop(∃ f : Buf (Elt F) (M.view.loc (c : Thread nD τ)), M.view.loc (c : Thread nD τ) ↦[(M.view.reshape s' h.numel_eq).set]{fullShare} f) = _
  rw [View.set_reshape]

end Squeeze

/-! ## The slots of the gather and stage buffers -/

theorem slabA_inb : ∀ k : Fin 8, ∀ a, (![k.val, 0, 0] : Fin 3 → ℕ) a + S1x352x512.size a ≤ S8x352x512.size a := by decide
/-- Slab `k` of the leading axis. -/
def slabA (k : Fin 8) : Rect S8x352x512 := Rect.unit (s := S8x352x512) ![k.val, 0, 0] S1x352x512.size (slabA_inb k)
theorem slabA_cover (x : S8x352x512.Idx) : ∃ k ∈ (Finset.univ : Finset (Fin 8)), x ∈ (slabA k).set := by
  have h0 : (x 0).val < 8 := (x 0).isLt
  have h1 := (x 1).isLt
  have h2 := (x 2).isLt
  refine ⟨⟨(x 0).val, h0⟩, Finset.mem_univ _, Rect.mem_set_unit.mpr fun a => ?_⟩
  fin_cases a <;> simp at h1 h2 ⊢ <;> omega
theorem slabA_disj (k k' : Fin 8) (h : k ≠ k') : Disjoint (slabA k).set (slabA k').set :=
  Rect.unit_disjoint 0 (by have := Fin.val_ne_of_ne h; simp; omega)

theorem slabB_inb : ∀ k : Fin 8, ∀ a, (![k.val, 0, 0] : Fin 3 → ℕ) a + S1x336x512.size a ≤ S8x336x512.size a := by decide
/-- Slab `k` of the leading axis. -/
def slabB (k : Fin 8) : Rect S8x336x512 := Rect.unit (s := S8x336x512) ![k.val, 0, 0] S1x336x512.size (slabB_inb k)
theorem slabB_cover (x : S8x336x512.Idx) : ∃ k ∈ (Finset.univ : Finset (Fin 8)), x ∈ (slabB k).set := by
  have h0 : (x 0).val < 8 := (x 0).isLt
  have h1 := (x 1).isLt
  have h2 := (x 2).isLt
  refine ⟨⟨(x 0).val, h0⟩, Finset.mem_univ _, Rect.mem_set_unit.mpr fun a => ?_⟩
  fin_cases a <;> simp at h1 h2 ⊢ <;> omega
theorem slabB_disj (k k' : Fin 8) (h : k ≠ k') : Disjoint (slabB k).set (slabB k').set :=
  Rect.unit_disjoint 0 (by have := Fin.val_ne_of_ne h; simp; omega)

theorem stgA_inb : ∀ k : Fin 2, ∀ a, (![k.val, 0, 0] : Fin 3 → ℕ) a + S1x352x1024.size a ≤ S2x352x1024.size a := by decide
/-- Slab `k` of the leading axis. -/
def stgA (k : Fin 2) : Rect S2x352x1024 := Rect.unit (s := S2x352x1024) ![k.val, 0, 0] S1x352x1024.size (stgA_inb k)
theorem stgA_cover (x : S2x352x1024.Idx) : ∃ k ∈ (Finset.univ : Finset (Fin 2)), x ∈ (stgA k).set := by
  have h0 : (x 0).val < 2 := (x 0).isLt
  have h1 := (x 1).isLt
  have h2 := (x 2).isLt
  refine ⟨⟨(x 0).val, h0⟩, Finset.mem_univ _, Rect.mem_set_unit.mpr fun a => ?_⟩
  fin_cases a <;> simp at h1 h2 ⊢ <;> omega
theorem stgA_disj (k k' : Fin 2) (h : k ≠ k') : Disjoint (stgA k).set (stgA k').set :=
  Rect.unit_disjoint 0 (by have := Fin.val_ne_of_ne h; simp; omega)

theorem stgB_inb : ∀ k : Fin 2, ∀ a, (![k.val, 0, 0] : Fin 3 → ℕ) a + S1x336x1024.size a ≤ S2x336x1024.size a := by decide
/-- Slab `k` of the leading axis. -/
def stgB (k : Fin 2) : Rect S2x336x1024 := Rect.unit (s := S2x336x1024) ![k.val, 0, 0] S1x336x1024.size (stgB_inb k)
theorem stgB_cover (x : S2x336x1024.Idx) : ∃ k ∈ (Finset.univ : Finset (Fin 2)), x ∈ (stgB k).set := by
  have h0 : (x 0).val < 2 := (x 0).isLt
  have h1 := (x 1).isLt
  have h2 := (x 2).isLt
  refine ⟨⟨(x 0).val, h0⟩, Finset.mem_univ _, Rect.mem_set_unit.mpr fun a => ?_⟩
  fin_cases a <;> simp at h1 h2 ⊢ <;> omega
theorem stgB_disj (k k' : Fin 2) (h : k ≠ k') : Disjoint (stgB k).set (stgB k').set :=
  Rect.unit_disjoint 0 (by have := Fin.val_ne_of_ne h; simp; omega)

omit [FloatOps F] in
theorem gs0_split8 : anyBuf (F := F) c cc0_scratch1 ⊢ iprop(anyPts c (gs0 0) ∗ anyPts c (gs0 1) ∗ anyPts c (gs0 2) ∗ anyPts c (gs0 3)
    ∗ anyPts c (gs0 4) ∗ anyPts c (gs0 5) ∗ anyPts c (gs0 6) ∗ anyPts c (gs0 7)) := by
  refine BIBase.Entails.trans (whole_split c cc0_scratch1 slabA (fun _ _ => rfl) slabA_cover slabA_disj) ?_
  exact Entails.of_eq (bigSep_fin8 (fun k : Fin 8 => anyPts (F := F) c (gs0 k)))

omit [FloatOps F] in
theorem gs0_join8 : iprop(anyPts (F := F) c (gs0 0) ∗ anyPts c (gs0 1) ∗ anyPts c (gs0 2) ∗ anyPts c (gs0 3)
    ∗ anyPts c (gs0 4) ∗ anyPts c (gs0 5) ∗ anyPts c (gs0 6) ∗ anyPts c (gs0 7)) ⊢ anyBuf c cc0_scratch1 := by
  have key : ∀ f₀ : Buf (Elt F) ((c : Thread nD τ).loc cc0_scratch1),
      iprop(anyPts (F := F) c (gs0 0) ∗ anyPts c (gs0 1) ∗ anyPts c (gs0 2) ∗ anyPts c (gs0 3)
        ∗ anyPts c (gs0 4) ∗ anyPts c (gs0 5) ∗ anyPts c (gs0 6) ∗ anyPts c (gs0 7)) ⊢ anyBuf c cc0_scratch1 := fun f₀ =>
    BIBase.Entails.trans (Entails.of_eq (bigSep_fin8 (fun k : Fin 8 => anyPts (F := F) c (gs0 k))).symm)
      (whole_join c cc0_scratch1 slabA (fun _ _ => rfl) slabA_cover slabA_disj f₀)
  simp only [anyPts_eq]
  iintro ⟨⟨%f0, H0⟩, H⟩
  iapply (key f0)
  simp only [anyPts_eq]
  isplitl [H0]; · iexists f0; iexact H0
  iexact H

omit [FloatOps F] in
theorem gs1_split8 : anyBuf (F := F) c cc0_scratch2 ⊢ iprop(anyPts c (gs1 0) ∗ anyPts c (gs1 1) ∗ anyPts c (gs1 2) ∗ anyPts c (gs1 3)
    ∗ anyPts c (gs1 4) ∗ anyPts c (gs1 5) ∗ anyPts c (gs1 6) ∗ anyPts c (gs1 7)) := by
  refine BIBase.Entails.trans (whole_split c cc0_scratch2 slabB (fun _ _ => rfl) slabB_cover slabB_disj) ?_
  exact Entails.of_eq (bigSep_fin8 (fun k : Fin 8 => anyPts (F := F) c (gs1 k)))

omit [FloatOps F] in
theorem gs1_join8 : iprop(anyPts (F := F) c (gs1 0) ∗ anyPts c (gs1 1) ∗ anyPts c (gs1 2) ∗ anyPts c (gs1 3)
    ∗ anyPts c (gs1 4) ∗ anyPts c (gs1 5) ∗ anyPts c (gs1 6) ∗ anyPts c (gs1 7)) ⊢ anyBuf c cc0_scratch2 := by
  have key : ∀ f₀ : Buf (Elt F) ((c : Thread nD τ).loc cc0_scratch2),
      iprop(anyPts (F := F) c (gs1 0) ∗ anyPts c (gs1 1) ∗ anyPts c (gs1 2) ∗ anyPts c (gs1 3)
        ∗ anyPts c (gs1 4) ∗ anyPts c (gs1 5) ∗ anyPts c (gs1 6) ∗ anyPts c (gs1 7)) ⊢ anyBuf c cc0_scratch2 := fun f₀ =>
    BIBase.Entails.trans (Entails.of_eq (bigSep_fin8 (fun k : Fin 8 => anyPts (F := F) c (gs1 k))).symm)
      (whole_join c cc0_scratch2 slabB (fun _ _ => rfl) slabB_cover slabB_disj f₀)
  simp only [anyPts_eq]
  iintro ⟨⟨%f0, H0⟩, H⟩
  iapply (key f0)
  simp only [anyPts_eq]
  isplitl [H0]; · iexists f0; iexact H0
  iexact H

omit [FloatOps F] in
theorem gs2_split8 : anyBuf (F := F) c cc0_scratch3 ⊢ iprop(anyPts c (gs2 0) ∗ anyPts c (gs2 1) ∗ anyPts c (gs2 2) ∗ anyPts c (gs2 3)
    ∗ anyPts c (gs2 4) ∗ anyPts c (gs2 5) ∗ anyPts c (gs2 6) ∗ anyPts c (gs2 7)) := by
  refine BIBase.Entails.trans (whole_split c cc0_scratch3 slabB (fun _ _ => rfl) slabB_cover slabB_disj) ?_
  exact Entails.of_eq (bigSep_fin8 (fun k : Fin 8 => anyPts (F := F) c (gs2 k)))

omit [FloatOps F] in
theorem gs2_join8 : iprop(anyPts (F := F) c (gs2 0) ∗ anyPts c (gs2 1) ∗ anyPts c (gs2 2) ∗ anyPts c (gs2 3)
    ∗ anyPts c (gs2 4) ∗ anyPts c (gs2 5) ∗ anyPts c (gs2 6) ∗ anyPts c (gs2 7)) ⊢ anyBuf c cc0_scratch3 := by
  have key : ∀ f₀ : Buf (Elt F) ((c : Thread nD τ).loc cc0_scratch3),
      iprop(anyPts (F := F) c (gs2 0) ∗ anyPts c (gs2 1) ∗ anyPts c (gs2 2) ∗ anyPts c (gs2 3)
        ∗ anyPts c (gs2 4) ∗ anyPts c (gs2 5) ∗ anyPts c (gs2 6) ∗ anyPts c (gs2 7)) ⊢ anyBuf c cc0_scratch3 := fun f₀ =>
    BIBase.Entails.trans (Entails.of_eq (bigSep_fin8 (fun k : Fin 8 => anyPts (F := F) c (gs2 k))).symm)
      (whole_join c cc0_scratch3 slabB (fun _ _ => rfl) slabB_cover slabB_disj f₀)
  simp only [anyPts_eq]
  iintro ⟨⟨%f0, H0⟩, H⟩
  iapply (key f0)
  simp only [anyPts_eq]
  isplitl [H0]; · iexists f0; iexact H0
  iexact H

omit [FloatOps F] in
theorem ss0_unsq (p : Fin 2) : anyPts (F := F) c (ss0 p) = anyPts c ((Memref.whole cc0_scratch4).slice (stgA p) (fun _ => rfl)) :=
  anyPts_squeeze c ((Memref.whole cc0_scratch4).slice (stgA p) (fun _ => rfl)) squeezes_S1x352x1024_S352x1024

omit [FloatOps F] in
theorem ss1_unsq (p : Fin 2) : anyPts (F := F) c (ss1 p) = anyPts c ((Memref.whole cc0_scratch5).slice (stgB p) (fun _ => rfl)) :=
  anyPts_squeeze c ((Memref.whole cc0_scratch5).slice (stgB p) (fun _ => rfl)) squeezes_S1x336x1024_S336x1024

omit [FloatOps F] in
theorem ss2_unsq (p : Fin 2) : anyPts (F := F) c (ss2 p) = anyPts c ((Memref.whole cc0_scratch6).slice (stgB p) (fun _ => rfl)) :=
  anyPts_squeeze c ((Memref.whole cc0_scratch6).slice (stgB p) (fun _ => rfl)) squeezes_S1x336x1024_S336x1024

/-! ## The scratch buffers and their pieces -/

omit [FloatOps F] in
theorem b16_split : anyBuf (F := F) c cc0_scratch0 ⊢ anyPts c b16M := by
  exact Entails.of_eq (anyBuf_whole c cc0_scratch0)
omit [FloatOps F] in
theorem b16_join (v : S512x1024.Idx → Elt F .bf16) : holdsPts c b16M fullShare v ⊢ anyBuf c cc0_scratch0 := by
  exact (holdsPts_any c b16M v).trans (Entails.of_eq (anyBuf_whole c cc0_scratch0).symm)

omit [FloatOps F] in
theorem gs0_split : anyBuf (F := F) c cc0_scratch1 ⊢ iprop(slotAny c 0 0 ∗ bigSep Finset.univ fun st : Fin 8 => dstAny c 0 st) := by
  rw [bigSep_fin8 (fun st : Fin 8 => dstAny (F := F) c 0 st)]
  show anyBuf (F := F) c _ ⊢ iprop(anyPts c (gs0 0) ∗ anyPts c (gs0 1) ∗ anyPts c (gs0 2) ∗ anyPts c (gs0 3) ∗ anyPts c (gs0 4)
    ∗ anyPts c (gs0 5) ∗ anyPts c (gs0 6) ∗ anyPts c (ga0 7) ∗ anyPts c (gb0 7))
  refine BIBase.Entails.trans (gs0_split8 c) ?_
  iintro ⟨H0, H1, H2, H3, H4, H5, H6, H7⟩
  ihave H7 := (gs0_parts c 7) $$ H7
  icases H7 with ⟨H7a, H7b⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7a]; · iexact H7a
  iexact H7b
theorem gs0_join : laneEnd m c 0 ⊢ anyBuf c cc0_scratch1 := by
  unfold laneEnd
  show iprop(holdsPts c (gs0 0) fullShare.left.left.left (sv0 m (xr c (mask 0 0))) ∗ holdsPts c (gs0 0) fullShare.left.left.right (sv0 m (xr c (mask 0 0)))
      ∗ holdsPts c (gs0 0) fullShare.left.right (sv0 m (xr c (mask 0 0))) ∗ holdsPts c (gs0 0) fullShare.right (sv0 m (xr c (mask 0 0)))
      ∗ holdsPts c (gs0 1) fullShare.left.left (sv0 m (xr c (mask 0 1))) ∗ holdsPts c (gs0 1) fullShare.left.right (sv0 m (xr c (mask 0 1))) ∗ holdsPts c (gs0 1) fullShare.right (sv0 m (xr c (mask 0 1)))
      ∗ holdsPts c (gs0 2) fullShare.left (sv0 m (xr c (mask 0 2))) ∗ holdsPts c (gs0 2) fullShare.right (sv0 m (xr c (mask 0 2)))
      ∗ holdsPts c (ga0 3) fullShare.left (topA (sv0 m (xr c (mask 0 3)))) ∗ holdsPts c (gb0 3) fullShare.left (botA (sv0 m (xr c (mask 0 3)))) ∗ holdsPts c (gs0 3) fullShare.right (sv0 m (xr c (mask 0 3)))
      ∗ holdsPts c (gs0 4) fullShare (sv0 m (xr c (mask 0 4))) ∗ holdsPts c (gs0 5) fullShare (sv0 m (xr c (mask 0 5))) ∗ holdsPts c (gs0 6) fullShare (sv0 m (xr c (mask 0 6)))
      ∗ holdsPts c (ga0 7) fullShare (topA (sv0 m (xr c (mask 0 7)))) ∗ holdsPts c (gb0 7) fullShare (botA (sv0 m (xr c (mask 0 7))))) ⊢ anyBuf c _
  iintro ⟨A0, A1, A2, A3, B0, B1, B2, C0, C1, D0, D1, D2, E4, E5, E6, T7, U7⟩
  iapply (gs0_join8 c)
  isplitl [A0 A1 A2 A3]
  · iapply (holdsPts_any c (gs0 0) (sv0 m (xr c (mask 0 0))))
    iapply (uncut4 c (gs0 0) (sv0 m (xr c (mask 0 0))))
    isplitl [A0]; · iexact A0
    isplitl [A1]; · iexact A1
    isplitl [A2]; · iexact A2
    iexact A3
  isplitl [B0 B1 B2]
  · iapply (holdsPts_any c (gs0 1) (sv0 m (xr c (mask 0 1))))
    iapply (uncut3 c (gs0 1) (sv0 m (xr c (mask 0 1))))
    isplitl [B0]; · iexact B0
    isplitl [B1]; · iexact B1
    iexact B2
  isplitl [C0 C1]
  · iapply (holdsPts_any c (gs0 2) (sv0 m (xr c (mask 0 2))))
    iapply (share_join c (gs0 2) fullShare (sv0 m (xr c (mask 0 2))))
    isplitl [C0]; · iexact C0
    iexact C1
  isplitl [D0 D1 D2]
  · ihave D2 := (gs0_parts_val c 3 fullShare.right (sv0 m (xr c (mask 0 3)))) $$ D2
    icases D2 with ⟨D2a, D2b⟩
    iapply (gs0_unparts c 3)
    isplitl [D0 D2a]
    · iapply (holdsPts_any c (ga0 3) (topA (sv0 m (xr c (mask 0 3)))))
      iapply (share_join c (ga0 3) fullShare (topA (sv0 m (xr c (mask 0 3)))))
      isplitl [D0]; · iexact D0
      iexact D2a
    · iapply (holdsPts_any c (gb0 3) (botA (sv0 m (xr c (mask 0 3)))))
      iapply (share_join c (gb0 3) fullShare (botA (sv0 m (xr c (mask 0 3)))))
      isplitl [D1]; · iexact D1
      iexact D2b
  isplitl [E4]; · iapply (holdsPts_any c (gs0 4) (sv0 m (xr c (mask 0 4)))); iexact E4
  isplitl [E5]; · iapply (holdsPts_any c (gs0 5) (sv0 m (xr c (mask 0 5)))); iexact E5
  isplitl [E6]; · iapply (holdsPts_any c (gs0 6) (sv0 m (xr c (mask 0 6)))); iexact E6
  iapply (gs0_unparts c 7)
  isplitl [T7]
  · iapply (holdsPts_any c (ga0 7) (topA (sv0 m (xr c (mask 0 7))))); iexact T7
  · iapply (holdsPts_any c (gb0 7) (botA (sv0 m (xr c (mask 0 7))))); iexact U7

omit [FloatOps F] in
theorem gs1_split : anyBuf (F := F) c cc0_scratch2 ⊢ iprop(slotAny c 1 0 ∗ bigSep Finset.univ fun st : Fin 8 => dstAny c 1 st) := by
  rw [bigSep_fin8 (fun st : Fin 8 => dstAny (F := F) c 1 st)]
  show anyBuf (F := F) c _ ⊢ iprop(anyPts c (gs1 0) ∗ anyPts c (gs1 1) ∗ anyPts c (gs1 2) ∗ anyPts c (gs1 3) ∗ anyPts c (gs1 4)
    ∗ anyPts c (gs1 5) ∗ anyPts c (gs1 6) ∗ anyPts c (ga1 7) ∗ anyPts c (gb1 7))
  refine BIBase.Entails.trans (gs1_split8 c) ?_
  iintro ⟨H0, H1, H2, H3, H4, H5, H6, H7⟩
  ihave H7 := (gs1_parts c 7) $$ H7
  icases H7 with ⟨H7a, H7b⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7a]; · iexact H7a
  iexact H7b
theorem gs1_join : laneEnd m c 1 ⊢ anyBuf c cc0_scratch2 := by
  unfold laneEnd
  show iprop(holdsPts c (gs1 0) fullShare.left.left.left (sv1 m (xr c (mask 1 0))) ∗ holdsPts c (gs1 0) fullShare.left.left.right (sv1 m (xr c (mask 1 0)))
      ∗ holdsPts c (gs1 0) fullShare.left.right (sv1 m (xr c (mask 1 0))) ∗ holdsPts c (gs1 0) fullShare.right (sv1 m (xr c (mask 1 0)))
      ∗ holdsPts c (gs1 1) fullShare.left.left (sv1 m (xr c (mask 1 1))) ∗ holdsPts c (gs1 1) fullShare.left.right (sv1 m (xr c (mask 1 1))) ∗ holdsPts c (gs1 1) fullShare.right (sv1 m (xr c (mask 1 1)))
      ∗ holdsPts c (gs1 2) fullShare.left (sv1 m (xr c (mask 1 2))) ∗ holdsPts c (gs1 2) fullShare.right (sv1 m (xr c (mask 1 2)))
      ∗ holdsPts c (ga1 3) fullShare.left (topB (sv1 m (xr c (mask 1 3)))) ∗ holdsPts c (gb1 3) fullShare.left (botB (sv1 m (xr c (mask 1 3)))) ∗ holdsPts c (gs1 3) fullShare.right (sv1 m (xr c (mask 1 3)))
      ∗ holdsPts c (gs1 4) fullShare (sv1 m (xr c (mask 1 4))) ∗ holdsPts c (gs1 5) fullShare (sv1 m (xr c (mask 1 5))) ∗ holdsPts c (gs1 6) fullShare (sv1 m (xr c (mask 1 6)))
      ∗ holdsPts c (ga1 7) fullShare (topB (sv1 m (xr c (mask 1 7)))) ∗ holdsPts c (gb1 7) fullShare (botB (sv1 m (xr c (mask 1 7))))) ⊢ anyBuf c _
  iintro ⟨A0, A1, A2, A3, B0, B1, B2, C0, C1, D0, D1, D2, E4, E5, E6, T7, U7⟩
  iapply (gs1_join8 c)
  isplitl [A0 A1 A2 A3]
  · iapply (holdsPts_any c (gs1 0) (sv1 m (xr c (mask 1 0))))
    iapply (uncut4 c (gs1 0) (sv1 m (xr c (mask 1 0))))
    isplitl [A0]; · iexact A0
    isplitl [A1]; · iexact A1
    isplitl [A2]; · iexact A2
    iexact A3
  isplitl [B0 B1 B2]
  · iapply (holdsPts_any c (gs1 1) (sv1 m (xr c (mask 1 1))))
    iapply (uncut3 c (gs1 1) (sv1 m (xr c (mask 1 1))))
    isplitl [B0]; · iexact B0
    isplitl [B1]; · iexact B1
    iexact B2
  isplitl [C0 C1]
  · iapply (holdsPts_any c (gs1 2) (sv1 m (xr c (mask 1 2))))
    iapply (share_join c (gs1 2) fullShare (sv1 m (xr c (mask 1 2))))
    isplitl [C0]; · iexact C0
    iexact C1
  isplitl [D0 D1 D2]
  · ihave D2 := (gs1_parts_val c 3 fullShare.right (sv1 m (xr c (mask 1 3)))) $$ D2
    icases D2 with ⟨D2a, D2b⟩
    iapply (gs1_unparts c 3)
    isplitl [D0 D2a]
    · iapply (holdsPts_any c (ga1 3) (topB (sv1 m (xr c (mask 1 3)))))
      iapply (share_join c (ga1 3) fullShare (topB (sv1 m (xr c (mask 1 3)))))
      isplitl [D0]; · iexact D0
      iexact D2a
    · iapply (holdsPts_any c (gb1 3) (botB (sv1 m (xr c (mask 1 3)))))
      iapply (share_join c (gb1 3) fullShare (botB (sv1 m (xr c (mask 1 3)))))
      isplitl [D1]; · iexact D1
      iexact D2b
  isplitl [E4]; · iapply (holdsPts_any c (gs1 4) (sv1 m (xr c (mask 1 4)))); iexact E4
  isplitl [E5]; · iapply (holdsPts_any c (gs1 5) (sv1 m (xr c (mask 1 5)))); iexact E5
  isplitl [E6]; · iapply (holdsPts_any c (gs1 6) (sv1 m (xr c (mask 1 6)))); iexact E6
  iapply (gs1_unparts c 7)
  isplitl [T7]
  · iapply (holdsPts_any c (ga1 7) (topB (sv1 m (xr c (mask 1 7))))); iexact T7
  · iapply (holdsPts_any c (gb1 7) (botB (sv1 m (xr c (mask 1 7))))); iexact U7

omit [FloatOps F] in
theorem gs2_split : anyBuf (F := F) c cc0_scratch3 ⊢ iprop(slotAny c 2 0 ∗ bigSep Finset.univ fun st : Fin 8 => dstAny c 2 st) := by
  rw [bigSep_fin8 (fun st : Fin 8 => dstAny (F := F) c 2 st)]
  show anyBuf (F := F) c _ ⊢ iprop(anyPts c (gs2 0) ∗ anyPts c (gs2 1) ∗ anyPts c (gs2 2) ∗ anyPts c (gs2 3) ∗ anyPts c (gs2 4)
    ∗ anyPts c (gs2 5) ∗ anyPts c (gs2 6) ∗ anyPts c (ga2 7) ∗ anyPts c (gb2 7))
  refine BIBase.Entails.trans (gs2_split8 c) ?_
  iintro ⟨H0, H1, H2, H3, H4, H5, H6, H7⟩
  ihave H7 := (gs2_parts c 7) $$ H7
  icases H7 with ⟨H7a, H7b⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7a]; · iexact H7a
  iexact H7b
theorem gs2_join : laneEnd m c 2 ⊢ anyBuf c cc0_scratch3 := by
  unfold laneEnd
  show iprop(holdsPts c (gs2 0) fullShare.left.left.left (sv2 m (xr c (mask 2 0))) ∗ holdsPts c (gs2 0) fullShare.left.left.right (sv2 m (xr c (mask 2 0)))
      ∗ holdsPts c (gs2 0) fullShare.left.right (sv2 m (xr c (mask 2 0))) ∗ holdsPts c (gs2 0) fullShare.right (sv2 m (xr c (mask 2 0)))
      ∗ holdsPts c (gs2 1) fullShare.left.left (sv2 m (xr c (mask 2 1))) ∗ holdsPts c (gs2 1) fullShare.left.right (sv2 m (xr c (mask 2 1))) ∗ holdsPts c (gs2 1) fullShare.right (sv2 m (xr c (mask 2 1)))
      ∗ holdsPts c (gs2 2) fullShare.left (sv2 m (xr c (mask 2 2))) ∗ holdsPts c (gs2 2) fullShare.right (sv2 m (xr c (mask 2 2)))
      ∗ holdsPts c (ga2 3) fullShare.left (topB (sv2 m (xr c (mask 2 3)))) ∗ holdsPts c (gb2 3) fullShare.left (botB (sv2 m (xr c (mask 2 3)))) ∗ holdsPts c (gs2 3) fullShare.right (sv2 m (xr c (mask 2 3)))
      ∗ holdsPts c (gs2 4) fullShare (sv2 m (xr c (mask 2 4))) ∗ holdsPts c (gs2 5) fullShare (sv2 m (xr c (mask 2 5))) ∗ holdsPts c (gs2 6) fullShare (sv2 m (xr c (mask 2 6)))
      ∗ holdsPts c (ga2 7) fullShare (topB (sv2 m (xr c (mask 2 7)))) ∗ holdsPts c (gb2 7) fullShare (botB (sv2 m (xr c (mask 2 7))))) ⊢ anyBuf c _
  iintro ⟨A0, A1, A2, A3, B0, B1, B2, C0, C1, D0, D1, D2, E4, E5, E6, T7, U7⟩
  iapply (gs2_join8 c)
  isplitl [A0 A1 A2 A3]
  · iapply (holdsPts_any c (gs2 0) (sv2 m (xr c (mask 2 0))))
    iapply (uncut4 c (gs2 0) (sv2 m (xr c (mask 2 0))))
    isplitl [A0]; · iexact A0
    isplitl [A1]; · iexact A1
    isplitl [A2]; · iexact A2
    iexact A3
  isplitl [B0 B1 B2]
  · iapply (holdsPts_any c (gs2 1) (sv2 m (xr c (mask 2 1))))
    iapply (uncut3 c (gs2 1) (sv2 m (xr c (mask 2 1))))
    isplitl [B0]; · iexact B0
    isplitl [B1]; · iexact B1
    iexact B2
  isplitl [C0 C1]
  · iapply (holdsPts_any c (gs2 2) (sv2 m (xr c (mask 2 2))))
    iapply (share_join c (gs2 2) fullShare (sv2 m (xr c (mask 2 2))))
    isplitl [C0]; · iexact C0
    iexact C1
  isplitl [D0 D1 D2]
  · ihave D2 := (gs2_parts_val c 3 fullShare.right (sv2 m (xr c (mask 2 3)))) $$ D2
    icases D2 with ⟨D2a, D2b⟩
    iapply (gs2_unparts c 3)
    isplitl [D0 D2a]
    · iapply (holdsPts_any c (ga2 3) (topB (sv2 m (xr c (mask 2 3)))))
      iapply (share_join c (ga2 3) fullShare (topB (sv2 m (xr c (mask 2 3)))))
      isplitl [D0]; · iexact D0
      iexact D2a
    · iapply (holdsPts_any c (gb2 3) (botB (sv2 m (xr c (mask 2 3)))))
      iapply (share_join c (gb2 3) fullShare (botB (sv2 m (xr c (mask 2 3)))))
      isplitl [D1]; · iexact D1
      iexact D2b
  isplitl [E4]; · iapply (holdsPts_any c (gs2 4) (sv2 m (xr c (mask 2 4)))); iexact E4
  isplitl [E5]; · iapply (holdsPts_any c (gs2 5) (sv2 m (xr c (mask 2 5)))); iexact E5
  isplitl [E6]; · iapply (holdsPts_any c (gs2 6) (sv2 m (xr c (mask 2 6)))); iexact E6
  iapply (gs2_unparts c 7)
  isplitl [T7]
  · iapply (holdsPts_any c (ga2 7) (topB (sv2 m (xr c (mask 2 7))))); iexact T7
  · iapply (holdsPts_any c (gb2 7) (botB (sv2 m (xr c (mask 2 7))))); iexact U7

omit [FloatOps F] in
theorem ss0_split : anyBuf (F := F) c cc0_scratch4 ⊢ iprop(stageAny c 0 0 ∗ stageAny c 0 1) := by
  show anyBuf (F := F) c cc0_scratch4 ⊢ iprop(anyPts c (ss0 0) ∗ anyPts c (ss0 1))
  rw [ss0_unsq c 0, ss0_unsq c 1]
  refine BIBase.Entails.trans (whole_split c cc0_scratch4 stgA (fun _ _ => rfl) stgA_cover stgA_disj) ?_
  exact Entails.of_eq (bigSep_fin2 (fun p : Fin 2 => anyPts (F := F) c ((Memref.whole cc0_scratch4).slice (stgA p) (fun _ => rfl))))
omit [FloatOps F] in
theorem ss0_join : iprop(stageAny (F := F) c 0 0 ∗ stageAny c 0 1) ⊢ anyBuf c cc0_scratch4 := by
  show iprop(anyPts (F := F) c (ss0 0) ∗ anyPts c (ss0 1)) ⊢ anyBuf c cc0_scratch4
  rw [ss0_unsq c 0, ss0_unsq c 1]
  have key : ∀ f₀ : Buf (Elt F) ((c : Thread nD τ).loc cc0_scratch4),
      iprop(anyPts (F := F) c ((Memref.whole cc0_scratch4).slice (stgA 0) (fun _ => rfl)) ∗ anyPts c ((Memref.whole cc0_scratch4).slice (stgA 1) (fun _ => rfl))) ⊢ anyBuf c cc0_scratch4 := fun f₀ =>
    BIBase.Entails.trans (Entails.of_eq (bigSep_fin2 (fun p : Fin 2 => anyPts (F := F) c ((Memref.whole cc0_scratch4).slice (stgA p) (fun _ => rfl)))).symm)
      (whole_join c cc0_scratch4 stgA (fun _ _ => rfl) stgA_cover stgA_disj f₀)
  simp only [anyPts_eq]
  iintro ⟨⟨%f0, H0⟩, H⟩
  iapply (key f0)
  simp only [anyPts_eq]
  isplitl [H0]; · iexists f0; iexact H0
  iexact H

omit [FloatOps F] in
theorem ss1_split : anyBuf (F := F) c cc0_scratch5 ⊢ iprop(stageAny c 1 0 ∗ stageAny c 1 1) := by
  show anyBuf (F := F) c cc0_scratch5 ⊢ iprop(anyPts c (ss1 0) ∗ anyPts c (ss1 1))
  rw [ss1_unsq c 0, ss1_unsq c 1]
  refine BIBase.Entails.trans (whole_split c cc0_scratch5 stgB (fun _ _ => rfl) stgB_cover stgB_disj) ?_
  exact Entails.of_eq (bigSep_fin2 (fun p : Fin 2 => anyPts (F := F) c ((Memref.whole cc0_scratch5).slice (stgB p) (fun _ => rfl))))
omit [FloatOps F] in
theorem ss1_join : iprop(stageAny (F := F) c 1 0 ∗ stageAny c 1 1) ⊢ anyBuf c cc0_scratch5 := by
  show iprop(anyPts (F := F) c (ss1 0) ∗ anyPts c (ss1 1)) ⊢ anyBuf c cc0_scratch5
  rw [ss1_unsq c 0, ss1_unsq c 1]
  have key : ∀ f₀ : Buf (Elt F) ((c : Thread nD τ).loc cc0_scratch5),
      iprop(anyPts (F := F) c ((Memref.whole cc0_scratch5).slice (stgB 0) (fun _ => rfl)) ∗ anyPts c ((Memref.whole cc0_scratch5).slice (stgB 1) (fun _ => rfl))) ⊢ anyBuf c cc0_scratch5 := fun f₀ =>
    BIBase.Entails.trans (Entails.of_eq (bigSep_fin2 (fun p : Fin 2 => anyPts (F := F) c ((Memref.whole cc0_scratch5).slice (stgB p) (fun _ => rfl)))).symm)
      (whole_join c cc0_scratch5 stgB (fun _ _ => rfl) stgB_cover stgB_disj f₀)
  simp only [anyPts_eq]
  iintro ⟨⟨%f0, H0⟩, H⟩
  iapply (key f0)
  simp only [anyPts_eq]
  isplitl [H0]; · iexists f0; iexact H0
  iexact H

omit [FloatOps F] in
theorem ss2_split : anyBuf (F := F) c cc0_scratch6 ⊢ iprop(stageAny c 2 0 ∗ stageAny c 2 1) := by
  show anyBuf (F := F) c cc0_scratch6 ⊢ iprop(anyPts c (ss2 0) ∗ anyPts c (ss2 1))
  rw [ss2_unsq c 0, ss2_unsq c 1]
  refine BIBase.Entails.trans (whole_split c cc0_scratch6 stgB (fun _ _ => rfl) stgB_cover stgB_disj) ?_
  exact Entails.of_eq (bigSep_fin2 (fun p : Fin 2 => anyPts (F := F) c ((Memref.whole cc0_scratch6).slice (stgB p) (fun _ => rfl))))
omit [FloatOps F] in
theorem ss2_join : iprop(stageAny (F := F) c 2 0 ∗ stageAny c 2 1) ⊢ anyBuf c cc0_scratch6 := by
  show iprop(anyPts (F := F) c (ss2 0) ∗ anyPts c (ss2 1)) ⊢ anyBuf c cc0_scratch6
  rw [ss2_unsq c 0, ss2_unsq c 1]
  have key : ∀ f₀ : Buf (Elt F) ((c : Thread nD τ).loc cc0_scratch6),
      iprop(anyPts (F := F) c ((Memref.whole cc0_scratch6).slice (stgB 0) (fun _ => rfl)) ∗ anyPts c ((Memref.whole cc0_scratch6).slice (stgB 1) (fun _ => rfl))) ⊢ anyBuf c cc0_scratch6 := fun f₀ =>
    BIBase.Entails.trans (Entails.of_eq (bigSep_fin2 (fun p : Fin 2 => anyPts (F := F) c ((Memref.whole cc0_scratch6).slice (stgB p) (fun _ => rfl)))).symm)
      (whole_join c cc0_scratch6 stgB (fun _ _ => rfl) stgB_cover stgB_disj f₀)
  simp only [anyPts_eq]
  iintro ⟨⟨%f0, H0⟩, H⟩
  iapply (key f0)
  simp only [anyPts_eq]
  isplitl [H0]; · iexists f0; iexact H0
  iexact H

/-! The seven scratch buffers cut into the pieces the body starts from, and put together from the pieces it ends with. -/

omit [FloatOps F] in
theorem scr_split : scr (F := F) c
    ⊢ iprop(anyPts c b16M ∗ (bigSep Finset.univ fun g : Fin 3 => slotAny c g 0) ∗ (bigSep Finset.univ fun gk : Fin 3 × Fin 8 => dstAny c gk.1 gk.2)
        ∗ bigSep Finset.univ fun gp : Fin 3 × Fin 2 => stageAny c gp.1 gp.2) := by
  rw [bigSep_fin3 (fun g : Fin 3 => slotAny (F := F) c g 0), bigSep_univ_prod (fun gk : Fin 3 × Fin 8 => dstAny (F := F) c gk.1 gk.2), bigSep_fin3,
    bigSep_univ_prod (fun gp : Fin 3 × Fin 2 => stageAny (F := F) c gp.1 gp.2), bigSep_fin3]
  simp only [bigSep_fin2]
  show scr (F := F) c ⊢ iprop(anyPts c b16M ∗ (slotAny c 0 0 ∗ slotAny c 1 0 ∗ slotAny c 2 0)
    ∗ ((bigSep Finset.univ fun st : Fin 8 => dstAny c 0 st) ∗ (bigSep Finset.univ fun st : Fin 8 => dstAny c 1 st) ∗ (bigSep Finset.univ fun st : Fin 8 => dstAny c 2 st))
    ∗ ((stageAny c 0 0 ∗ stageAny c 0 1) ∗ (stageAny c 1 0 ∗ stageAny c 1 1) ∗ (stageAny c 2 0 ∗ stageAny c 2 1)))
  unfold scr
  iintro ⟨B, G0, G1, G2, S0, S1, S2⟩
  ihave B := (b16_split c) $$ B
  ihave G0 := (gs0_split c) $$ G0
  icases G0 with ⟨G0a, G0b⟩
  ihave G1 := (gs1_split c) $$ G1
  icases G1 with ⟨G1a, G1b⟩
  ihave G2 := (gs2_split c) $$ G2
  icases G2 with ⟨G2a, G2b⟩
  ihave S0 := (ss0_split c) $$ S0
  ihave S1 := (ss1_split c) $$ S1
  ihave S2 := (ss2_split c) $$ S2
  isplitl [B]; · iexact B
  isplitl [G0a G1a G2a]
  · isplitl [G0a]; · iexact G0a
    isplitl [G1a]; · iexact G1a
    iexact G2a
  isplitl [G0b G1b G2b]
  · isplitl [G0b]; · iexact G0b
    isplitl [G1b]; · iexact G1b
    iexact G2b
  isplitl [S0]; · iexact S0
  isplitl [S1]; · iexact S1
  iexact S2
theorem scr_join : iprop(holdsPts c b16M fullShare (bv m c) ∗ (bigSep Finset.univ fun g : Fin 3 => laneEnd m c g)
        ∗ bigSep Finset.univ fun gp : Fin 3 × Fin 2 => stageAny c gp.1 gp.2)
    ⊢ scr c := by
  rw [bigSep_fin3 (fun g : Fin 3 => laneEnd m c g), bigSep_univ_prod (fun gp : Fin 3 × Fin 2 => stageAny (F := F) c gp.1 gp.2), bigSep_fin3]
  simp only [bigSep_fin2]
  show iprop(holdsPts c b16M fullShare (bv m c) ∗ (laneEnd m c 0 ∗ laneEnd m c 1 ∗ laneEnd m c 2)
    ∗ ((stageAny c 0 0 ∗ stageAny c 0 1) ∗ (stageAny c 1 0 ∗ stageAny c 1 1) ∗ (stageAny c 2 0 ∗ stageAny c 2 1))) ⊢ scr c
  unfold scr
  iintro ⟨B, ⟨L0, L1, L2⟩, S0, S1, S2⟩
  isplitl [B]; · iapply (b16_join c (bv m c)); iexact B
  isplitl [L0]; · iapply (gs0_join m c); iexact L0
  isplitl [L1]; · iapply (gs1_join m c); iexact L1
  isplitl [L2]; · iapply (gs2_join m c); iexact L2
  isplitl [S0]; · iapply (ss0_join c); iexact S0
  isplitl [S1]; · iapply (ss1_join c); iexact S1
  iapply (ss2_join c); iexact S2

/-- info: 'Cert.Kernel.DM.op_copy0' depends on axioms: [propext, Classical.choice, Quot.sound] -/
#guard_msgs in #print axioms op_copy0
/-- info: 'Cert.Kernel.DM.out_join' depends on axioms: [propext, Classical.choice, Quot.sound] -/
#guard_msgs in #print axioms out_join
/-- info: 'Cert.Kernel.DM.scr_join' depends on axioms: [propext, Classical.choice, Quot.sound] -/
#guard_msgs in #print axioms scr_join

end Cert.Kernel.DM

end
-- ==== Proof.Bits.BodyEnds.lean ====
import proofs.«900891_g7700000000000892_dist_matmul_m_i_outrep_m1024_n1024_k512_v7x_i8_f32_1_alg».proof.Proof.Bits.Atoms
import proofs.«900891_g7700000000000892_dist_matmul_m_i_outrep_m1024_n1024_k512_v7x_i8_f32_1_alg».proof.Proof.Bits.OpsWait
import proofs.«900891_g7700000000000892_dist_matmul_m_i_outrep_m1024_n1024_k512_v7x_i8_f32_1_alg».proof.Proof.Bits.OpsCopy

/-!
The two ends of a device's body. At the start, what the launch hands the body is opened into the pieces its steps
handle: the staged inputs are named, the ghost state is opened into the shared records and what stays with the
device, the one credit token is split, and the buffers are cut. At the end, the device's own cells are closed and the
pieces are joined back into what the body must hand over.
-/

noncomputable section

namespace Cert.Kernel.DM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The staged inputs, named -/

/-- Both windows are fetched at the one point: each staging buffer holds its whole array. -/
theorem before_0 (c : Dev nD) (d) : (dats m 0 c).before (0 : Fin 2) t₀ d = xstg m c := by
  unfold Dat.before; rw [if_pos (fetch0_0 t₀)]; rfl
theorem before_1 (c : Dev nD) (d) : (dats m 0 c).before (1 : Fin 2) t₀ d = ystg m c := by
  unfold Dat.before; rw [if_pos (fetch0_1 t₀)]; rfl

/-! ## The start -/

/-- From what the launch hands the body to the pieces its first step has in hand, given how the credit token splits
    and how the result and the scratch buffers are cut. -/
theorem prologue_of
    (hcred : ∀ c : Dev nD, (cred (Orem (ownList c)) : sProp 𝕄)
      ⊢ iprop(cred (tallyAt (barCell c) () 3) ∗ bigSep Finset.univ fun gk : Fin 3 × Fin 8 => cred (tallyAt (recvCell c gk.1 gk.2) () (xferAmt gk.1 gk.2))))
    (hout : ∀ (c : Dev nD) (X : Buf (Elt F) ((c : Thread nD τ).loc main_v1)),
      ((((c : Thread nD τ).loc main_v1) ↦{fullShare} X) : sProp 𝕄) ⊢ bigSep Finset.univ fun gj : Fin 3 × Fin 8 => pieceAny c gj.1 gj.2)
    (hscr : ∀ c : Dev nD, (scr c : sProp 𝕄)
      ⊢ iprop(anyPts c b16M ∗ (bigSep Finset.univ fun g : Fin 3 => slotAny c g 0)
          ∗ (bigSep Finset.univ fun gk : Fin 3 × Fin 8 => dstAny c gk.1 gk.2)
          ∗ (bigSep Finset.univ fun gp : Fin 3 × Fin 2 => stageAny c gp.1 gp.2)))
    (c : Dev nD) : bodyPre m c ⊢ (iprop(∃ K, Init m K c) : sProp 𝕄) := by
  unfold bodyPre Φ₀ start ghost
  iintro ⟨⟨⟨⟨%K, #Hrec, Hlin⟩, Hcr, #Hlev⟩, Ho, Hscr⟩, Howes, ⟨%d0, %g0, %hg0, Ha⟩, ⟨%d1, %g1, %hg1, Hb⟩⟩
  have hx : g0 = xstg m c := by rw [hg0]; exact before_0 m c d0
  have hy : g1 = ystg m c := by rw [hg1]; exact before_1 m c d1
  subst hx; subst hy
  unfold Dat.owesAt Pipeline.owesWithin
  icases Howes with ⟨%W, %hW, HO⟩
  ihave Hc := (hcred c) $$ Hcr
  icases Hc with ⟨Hc3, Hcs⟩
  ihave Hp := (hout c _) $$ Ho
  ihave Hs := (hscr c) $$ Hscr
  icases Hs with ⟨Hb16, Hs0, Hdst, Hstage⟩
  iexists K
  unfold Init inA inB
  isplitr; · iexact Hrec
  isplitr; · iexact Hlev
  isplitl [HO]; · iexists W; iexact HO
  isplitl [Hc3]; · iexact Hc3
  isplitl [Hcs]; · iexact Hcs
  isplitl [Hlin]; · iexact Hlin
  isplitl [Ha]; · iexact Ha
  isplitl [Hb]; · iexact Hb
  isplitl [Hb16]; · iexact Hb16
  isplitl [Hs0]; · iexact Hs0
  isplitl [Hdst]; · iexact Hdst
  isplitl [Hstage]; · iexact Hstage
  iexact Hp

/-! ## The end -/

/-- From what is in hand after the last wait to what the body hands back, given how the device's own cells close and
    how the scratch buffers and the result are joined. -/
theorem epilogue_of
    (hclose : ∀ (K : Dev nD × CIx → ℕ) (c : Dev nD),
      iprop(records (Rd m) K ∗ bigSep Finset.univ fun k : OIx => atPos ER (kcell (c, Sum.inr k)) 1 ∅ 0)
        ⊢ (|={Set.univ}=> bigSep Finset.univ fun k : OIx => semVal (kcell (c, Sum.inr k)) 0 : sProp 𝕄))
    (hsj : ∀ c : Dev nD, iprop(holdsPts c b16M fullShare (bv m c) ∗ (bigSep Finset.univ fun g : Fin 3 => laneEnd m c g)
        ∗ (bigSep Finset.univ fun gp : Fin 3 × Fin 2 => stageAny c gp.1 gp.2)) ⊢ (scr c : sProp 𝕄))
    (hoj : ∀ c : Dev nD, (bigSep Finset.univ fun gj : Fin 3 × Fin 8 => pieceDone m c gj.1 gj.2)
        ⊢ (iprop(∃ X, ⌜outOK m c X⌝ ∗ (((c : Thread nD τ).loc main_v1) ↦{fullShare} X)) : sProp 𝕄))
    (K : Dev nD × CIx → ℕ) (c : Dev nD) : Final m K c ⊢ (|={Set.univ}=> bodyPost m c : sProp 𝕄) := by
  unfold Final inA inB
  iintro ⟨#Hrec, ⟨%W, HO⟩, Hat, Ha, Hb, Hb16, Hlanes, Hstage, Hpieces⟩
  imod (hclose K c) $$ [Hat] with Hz
  · isplitr; · iexact Hrec
    iexact Hat
  imodintro
  ihave Hscr := (hsj c) $$ [Hb16 Hlanes Hstage]
  · isplitl [Hb16]; · iexact Hb16
    isplitl [Hlanes] <;> iassumption
  ihave Hout := (hoj c) $$ Hpieces
  unfold bodyPost Φ₁ Dat.owesAt Pipeline.owesWithin
  isplitl [Hscr Hout Hz]
  · isplitl [Hscr]; · iexact Hscr
    isplitl [Hout]; · iexact Hout
    iexact Hz
  isplitl [HO]
  · iexists W
    isplitr; · ipureintro; exact fun _ _ => Or.inl trivial
    iexact HO
  isplitl [Ha]
  · iexists _
    isplitr; · ipureintro; rfl
    iexact Ha
  · iexists _
    isplitr; · ipureintro; rfl
    iexact Hb

/-! ## The two ends -/

/-- The own cells close from their positions past their one round, array by array. -/
theorem close_own (K : Dev nD × CIx → ℕ) (c : Dev nD) :
    iprop(records (Rd m) K ∗ bigSep Finset.univ fun k : OIx => atPos ER (kcell (c, Sum.inr k)) 1 ∅ 0)
      ⊢ (|={Set.univ}=> bigSep Finset.univ fun k : OIx => semVal (kcell (c, Sum.inr k)) 0 : sProp 𝕄) := by
  rw [bigSep_OIx (fun k : OIx => (atPos ER (kcell (c, Sum.inr k)) 1 ∅ 0 : sProp 𝕄))]
  exact close_all m K c

theorem prologue (c : Dev nD) : bodyPre m c ⊢ (iprop(∃ K, Init m K c) : sProp 𝕄) :=
  prologue_of m (fun c => credits_split c) (fun c X => out_split c X) (fun c => scr_split c) c

theorem epilogue (K : Dev nD × CIx → ℕ) (c : Dev nD) : Final m K c ⊢ (|={Set.univ}=> bodyPost m c : sProp 𝕄) :=
  epilogue_of m (close_own m) (fun c => scr_join m c) (fun c => out_join m c) K c

/-- info: 'Cert.Kernel.DM.prologue' depends on axioms: [propext, Classical.choice, Quot.sound] -/
#guard_msgs in #print axioms prologue

/-- info: 'Cert.Kernel.DM.epilogue' depends on axioms: [propext, Classical.choice, Quot.sound] -/
#guard_msgs in #print axioms epilogue

end Cert.Kernel.DM

end
-- ==== Proof.Bits.ChainSpecs.lean ====
/- GENERATED by: bun scratch/gen_partspecs.js "$KIT/certs/proofs/900891_g7700000000000892_dist_matmul_m_i_outrep_m1024_n1024_k512_v7x_i8_f32_1_alg" "proofs.«900891_g7700000000000892_dist_matmul_m_i_outrep_m1024_n1024_k512_v7x_i8_f32_1_alg».proof" "chainspecs" "--prog" "Kernel" "--sub" "Bits" (run from the unit directory; the script is filed beside this module): the
   pieces of state a device's body starts from and ends with, listed one by one. -/
import proofs.«900891_g7700000000000892_dist_matmul_m_i_outrep_m1024_n1024_k512_v7x_i8_f32_1_alg».proof.Proof.Bits.Atoms
set_option maxRecDepth 16384
noncomputable section
namespace Cert.Kernel.DM
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (K : Dev nD × CIx → ℕ)

/-- Everything the body starts from, one piece at a time. -/
def InitChain (c : Dev nD) : sProp 𝕄 :=
  iprop(records (Rd m) K ∗ levAts L lv
    ∗ (∃ W, owes (c : Thread nD τ) (Orem ((payList c).drop 0)) W)
    ∗ cred (tallyAt (barCell c) () 3)
    ∗ cred (tallyAt (recvCell c 0 0) () (xferAmt 0 0))
    ∗ cred (tallyAt (recvCell c 0 1) () (xferAmt 0 1))
    ∗ cred (tallyAt (recvCell c 0 2) () (xferAmt 0 2))
    ∗ cred (tallyAt (recvCell c 0 3) () (xferAmt 0 3))
    ∗ cred (tallyAt (recvCell c 0 4) () (xferAmt 0 4))
    ∗ cred (tallyAt (recvCell c 0 5) () (xferAmt 0 5))
    ∗ cred (tallyAt (recvCell c 0 6) () (xferAmt 0 6))
    ∗ cred (tallyAt (recvCell c 0 7) () (xferAmt 0 7))
    ∗ cred (tallyAt (recvCell c 1 0) () (xferAmt 1 0))
    ∗ cred (tallyAt (recvCell c 1 1) () (xferAmt 1 1))
    ∗ cred (tallyAt (recvCell c 1 2) () (xferAmt 1 2))
    ∗ cred (tallyAt (recvCell c 1 3) () (xferAmt 1 3))
    ∗ cred (tallyAt (recvCell c 1 4) () (xferAmt 1 4))
    ∗ cred (tallyAt (recvCell c 1 5) () (xferAmt 1 5))
    ∗ cred (tallyAt (recvCell c 1 6) () (xferAmt 1 6))
    ∗ cred (tallyAt (recvCell c 1 7) () (xferAmt 1 7))
    ∗ cred (tallyAt (recvCell c 2 0) () (xferAmt 2 0))
    ∗ cred (tallyAt (recvCell c 2 1) () (xferAmt 2 1))
    ∗ cred (tallyAt (recvCell c 2 2) () (xferAmt 2 2))
    ∗ cred (tallyAt (recvCell c 2 3) () (xferAmt 2 3))
    ∗ cred (tallyAt (recvCell c 2 4) () (xferAmt 2 4))
    ∗ cred (tallyAt (recvCell c 2 5) () (xferAmt 2 5))
    ∗ cred (tallyAt (recvCell c 2 6) () (xferAmt 2 6))
    ∗ cred (tallyAt (recvCell c 2 7) () (xferAmt 2 7))
    ∗ atPos ER (barCell c) 0 ∅ 0
    ∗ atPos ER (sendCell c 0 0) 0 ∅ 0
    ∗ atPos ER (sendCell c 0 1) 0 ∅ 0
    ∗ atPos ER (sendCell c 0 2) 0 ∅ 0
    ∗ atPos ER (sendCell c 0 3) 0 ∅ 0
    ∗ atPos ER (sendCell c 0 4) 0 ∅ 0
    ∗ atPos ER (sendCell c 0 5) 0 ∅ 0
    ∗ atPos ER (sendCell c 0 6) 0 ∅ 0
    ∗ atPos ER (sendCell c 0 7) 0 ∅ 0
    ∗ atPos ER (sendCell c 1 0) 0 ∅ 0
    ∗ atPos ER (sendCell c 1 1) 0 ∅ 0
    ∗ atPos ER (sendCell c 1 2) 0 ∅ 0
    ∗ atPos ER (sendCell c 1 3) 0 ∅ 0
    ∗ atPos ER (sendCell c 1 4) 0 ∅ 0
    ∗ atPos ER (sendCell c 1 5) 0 ∅ 0
    ∗ atPos ER (sendCell c 1 6) 0 ∅ 0
    ∗ atPos ER (sendCell c 1 7) 0 ∅ 0
    ∗ atPos ER (sendCell c 2 0) 0 ∅ 0
    ∗ atPos ER (sendCell c 2 1) 0 ∅ 0
    ∗ atPos ER (sendCell c 2 2) 0 ∅ 0
    ∗ atPos ER (sendCell c 2 3) 0 ∅ 0
    ∗ atPos ER (sendCell c 2 4) 0 ∅ 0
    ∗ atPos ER (sendCell c 2 5) 0 ∅ 0
    ∗ atPos ER (sendCell c 2 6) 0 ∅ 0
    ∗ atPos ER (sendCell c 2 7) 0 ∅ 0
    ∗ atPos ER (recvCell c 0 0) 0 ∅ 0
    ∗ atPos ER (recvCell c 0 1) 0 ∅ 0
    ∗ atPos ER (recvCell c 0 2) 0 ∅ 0
    ∗ atPos ER (recvCell c 0 3) 0 ∅ 0
    ∗ atPos ER (recvCell c 0 4) 0 ∅ 0
    ∗ atPos ER (recvCell c 0 5) 0 ∅ 0
    ∗ atPos ER (recvCell c 0 6) 0 ∅ 0
    ∗ atPos ER (recvCell c 0 7) 0 ∅ 0
    ∗ atPos ER (recvCell c 1 0) 0 ∅ 0
    ∗ atPos ER (recvCell c 1 1) 0 ∅ 0
    ∗ atPos ER (recvCell c 1 2) 0 ∅ 0
    ∗ atPos ER (recvCell c 1 3) 0 ∅ 0
    ∗ atPos ER (recvCell c 1 4) 0 ∅ 0
    ∗ atPos ER (recvCell c 1 5) 0 ∅ 0
    ∗ atPos ER (recvCell c 1 6) 0 ∅ 0
    ∗ atPos ER (recvCell c 1 7) 0 ∅ 0
    ∗ atPos ER (recvCell c 2 0) 0 ∅ 0
    ∗ atPos ER (recvCell c 2 1) 0 ∅ 0
    ∗ atPos ER (recvCell c 2 2) 0 ∅ 0
    ∗ atPos ER (recvCell c 2 3) 0 ∅ 0
    ∗ atPos ER (recvCell c 2 4) 0 ∅ 0
    ∗ atPos ER (recvCell c 2 5) 0 ∅ 0
    ∗ atPos ER (recvCell c 2 6) 0 ∅ 0
    ∗ atPos ER (recvCell c 2 7) 0 ∅ 0
    ∗ atPos ER (copyCell c 0 0) 0 ∅ 0
    ∗ atPos ER (copyCell c 0 1) 0 ∅ 0
    ∗ atPos ER (copyCell c 0 2) 0 ∅ 0
    ∗ atPos ER (copyCell c 0 3) 0 ∅ 0
    ∗ atPos ER (copyCell c 0 4) 0 ∅ 0
    ∗ atPos ER (copyCell c 0 5) 0 ∅ 0
    ∗ atPos ER (copyCell c 0 6) 0 ∅ 0
    ∗ atPos ER (copyCell c 0 7) 0 ∅ 0
    ∗ atPos ER (copyCell c 1 0) 0 ∅ 0
    ∗ atPos ER (copyCell c 1 1) 0 ∅ 0
    ∗ atPos ER (copyCell c 1 2) 0 ∅ 0
    ∗ atPos ER (copyCell c 1 3) 0 ∅ 0
    ∗ atPos ER (copyCell c 1 4) 0 ∅ 0
    ∗ atPos ER (copyCell c 1 5) 0 ∅ 0
    ∗ atPos ER (copyCell c 1 6) 0 ∅ 0
    ∗ atPos ER (copyCell c 1 7) 0 ∅ 0
    ∗ atPos ER (copyCell c 2 0) 0 ∅ 0
    ∗ atPos ER (copyCell c 2 1) 0 ∅ 0
    ∗ atPos ER (copyCell c 2 2) 0 ∅ 0
    ∗ atPos ER (copyCell c 2 3) 0 ∅ 0
    ∗ atPos ER (copyCell c 2 4) 0 ∅ 0
    ∗ atPos ER (copyCell c 2 5) 0 ∅ 0
    ∗ atPos ER (copyCell c 2 6) 0 ∅ 0
    ∗ atPos ER (copyCell c 2 7) 0 ∅ 0
    ∗ dutyTok ER (barCell (xr c (dir 0))) 0 0
    ∗ dutyTok ER (barCell (xr c (dir 1))) 0 1
    ∗ dutyTok ER (barCell (xr c (dir 2))) 0 2
    ∗ dutyTok ER (recvCell (partner c 0 0) 0 0) 0 0
    ∗ dutyTok ER (recvCell (partner c 0 1) 0 1) 0 0
    ∗ dutyTok ER (recvCell (partner c 0 2) 0 2) 0 0
    ∗ dutyTok ER (recvCell (partner c 0 3) 0 3) 0 0
    ∗ dutyTok ER (recvCell (partner c 0 4) 0 4) 0 0
    ∗ dutyTok ER (recvCell (partner c 0 5) 0 5) 0 0
    ∗ dutyTok ER (recvCell (partner c 0 6) 0 6) 0 0
    ∗ dutyTok ER (recvCell (partner c 0 7) 0 7) 0 0
    ∗ dutyTok ER (recvCell (partner c 1 0) 1 0) 0 0
    ∗ dutyTok ER (recvCell (partner c 1 1) 1 1) 0 0
    ∗ dutyTok ER (recvCell (partner c 1 2) 1 2) 0 0
    ∗ dutyTok ER (recvCell (partner c 1 3) 1 3) 0 0
    ∗ dutyTok ER (recvCell (partner c 1 4) 1 4) 0 0
    ∗ dutyTok ER (recvCell (partner c 1 5) 1 5) 0 0
    ∗ dutyTok ER (recvCell (partner c 1 6) 1 6) 0 0
    ∗ dutyTok ER (recvCell (partner c 1 7) 1 7) 0 0
    ∗ dutyTok ER (recvCell (partner c 2 0) 2 0) 0 0
    ∗ dutyTok ER (recvCell (partner c 2 1) 2 1) 0 0
    ∗ dutyTok ER (recvCell (partner c 2 2) 2 2) 0 0
    ∗ dutyTok ER (recvCell (partner c 2 3) 2 3) 0 0
    ∗ dutyTok ER (recvCell (partner c 2 4) 2 4) 0 0
    ∗ dutyTok ER (recvCell (partner c 2 5) 2 5) 0 0
    ∗ dutyTok ER (recvCell (partner c 2 6) 2 6) 0 0
    ∗ dutyTok ER (recvCell (partner c 2 7) 2 7) 0 0
    ∗ dutyTok ER (sendCell c 0 0) 0 0
    ∗ dutyTok ER (sendCell c 0 1) 0 0
    ∗ dutyTok ER (sendCell c 0 2) 0 0
    ∗ dutyTok ER (sendCell c 0 3) 0 0
    ∗ dutyTok ER (sendCell c 0 4) 0 0
    ∗ dutyTok ER (sendCell c 0 5) 0 0
    ∗ dutyTok ER (sendCell c 0 6) 0 0
    ∗ dutyTok ER (sendCell c 0 7) 0 0
    ∗ dutyTok ER (sendCell c 1 0) 0 0
    ∗ dutyTok ER (sendCell c 1 1) 0 0
    ∗ dutyTok ER (sendCell c 1 2) 0 0
    ∗ dutyTok ER (sendCell c 1 3) 0 0
    ∗ dutyTok ER (sendCell c 1 4) 0 0
    ∗ dutyTok ER (sendCell c 1 5) 0 0
    ∗ dutyTok ER (sendCell c 1 6) 0 0
    ∗ dutyTok ER (sendCell c 1 7) 0 0
    ∗ dutyTok ER (sendCell c 2 0) 0 0
    ∗ dutyTok ER (sendCell c 2 1) 0 0
    ∗ dutyTok ER (sendCell c 2 2) 0 0
    ∗ dutyTok ER (sendCell c 2 3) 0 0
    ∗ dutyTok ER (sendCell c 2 4) 0 0
    ∗ dutyTok ER (sendCell c 2 5) 0 0
    ∗ dutyTok ER (sendCell c 2 6) 0 0
    ∗ dutyTok ER (sendCell c 2 7) 0 0
    ∗ dutyTok ER (copyCell c 0 0) 0 0
    ∗ dutyTok ER (copyCell c 0 1) 0 0
    ∗ dutyTok ER (copyCell c 0 2) 0 0
    ∗ dutyTok ER (copyCell c 0 3) 0 0
    ∗ dutyTok ER (copyCell c 0 4) 0 0
    ∗ dutyTok ER (copyCell c 0 5) 0 0
    ∗ dutyTok ER (copyCell c 0 6) 0 0
    ∗ dutyTok ER (copyCell c 0 7) 0 0
    ∗ dutyTok ER (copyCell c 1 0) 0 0
    ∗ dutyTok ER (copyCell c 1 1) 0 0
    ∗ dutyTok ER (copyCell c 1 2) 0 0
    ∗ dutyTok ER (copyCell c 1 3) 0 0
    ∗ dutyTok ER (copyCell c 1 4) 0 0
    ∗ dutyTok ER (copyCell c 1 5) 0 0
    ∗ dutyTok ER (copyCell c 1 6) 0 0
    ∗ dutyTok ER (copyCell c 1 7) 0 0
    ∗ dutyTok ER (copyCell c 2 0) 0 0
    ∗ dutyTok ER (copyCell c 2 1) 0 0
    ∗ dutyTok ER (copyCell c 2 2) 0 0
    ∗ dutyTok ER (copyCell c 2 3) 0 0
    ∗ dutyTok ER (copyCell c 2 4) 0 0
    ∗ dutyTok ER (copyCell c 2 5) 0 0
    ∗ dutyTok ER (copyCell c 2 6) 0 0
    ∗ dutyTok ER (copyCell c 2 7) 0 0
    ∗ inA m c
    ∗ inB m c
    ∗ anyPts c b16M
    ∗ slotAny c 0 0
    ∗ slotAny c 1 0
    ∗ slotAny c 2 0
    ∗ dstAny c 0 0
    ∗ dstAny c 0 1
    ∗ dstAny c 0 2
    ∗ dstAny c 0 3
    ∗ dstAny c 0 4
    ∗ dstAny c 0 5
    ∗ dstAny c 0 6
    ∗ dstAny c 0 7
    ∗ dstAny c 1 0
    ∗ dstAny c 1 1
    ∗ dstAny c 1 2
    ∗ dstAny c 1 3
    ∗ dstAny c 1 4
    ∗ dstAny c 1 5
    ∗ dstAny c 1 6
    ∗ dstAny c 1 7
    ∗ dstAny c 2 0
    ∗ dstAny c 2 1
    ∗ dstAny c 2 2
    ∗ dstAny c 2 3
    ∗ dstAny c 2 4
    ∗ dstAny c 2 5
    ∗ dstAny c 2 6
    ∗ dstAny c 2 7
    ∗ stageAny c 0 0
    ∗ stageAny c 0 1
    ∗ stageAny c 1 0
    ∗ stageAny c 1 1
    ∗ stageAny c 2 0
    ∗ stageAny c 2 1
    ∗ pieceAny c 0 0
    ∗ pieceAny c 0 1
    ∗ pieceAny c 0 2
    ∗ pieceAny c 0 3
    ∗ pieceAny c 0 4
    ∗ pieceAny c 0 5
    ∗ pieceAny c 0 6
    ∗ pieceAny c 0 7
    ∗ pieceAny c 1 0
    ∗ pieceAny c 1 1
    ∗ pieceAny c 1 2
    ∗ pieceAny c 1 3
    ∗ pieceAny c 1 4
    ∗ pieceAny c 1 5
    ∗ pieceAny c 1 6
    ∗ pieceAny c 1 7
    ∗ pieceAny c 2 0
    ∗ pieceAny c 2 1
    ∗ pieceAny c 2 2
    ∗ pieceAny c 2 3
    ∗ pieceAny c 2 4
    ∗ pieceAny c 2 5
    ∗ pieceAny c 2 6
    ∗ pieceAny c 2 7)

/-- Everything the body ends with, one piece at a time. -/
def FinalChain (c : Dev nD) : sProp 𝕄 :=
  iprop(records (Rd m) K
    ∗ (∃ W, owes (c : Thread nD τ) (Orem ((payList c).drop 27)) W)
    ∗ atPos ER (sendCell c 0 0) 1 ∅ 0
    ∗ atPos ER (sendCell c 0 1) 1 ∅ 0
    ∗ atPos ER (sendCell c 0 2) 1 ∅ 0
    ∗ atPos ER (sendCell c 0 3) 1 ∅ 0
    ∗ atPos ER (sendCell c 0 4) 1 ∅ 0
    ∗ atPos ER (sendCell c 0 5) 1 ∅ 0
    ∗ atPos ER (sendCell c 0 6) 1 ∅ 0
    ∗ atPos ER (sendCell c 0 7) 1 ∅ 0
    ∗ atPos ER (sendCell c 1 0) 1 ∅ 0
    ∗ atPos ER (sendCell c 1 1) 1 ∅ 0
    ∗ atPos ER (sendCell c 1 2) 1 ∅ 0
    ∗ atPos ER (sendCell c 1 3) 1 ∅ 0
    ∗ atPos ER (sendCell c 1 4) 1 ∅ 0
    ∗ atPos ER (sendCell c 1 5) 1 ∅ 0
    ∗ atPos ER (sendCell c 1 6) 1 ∅ 0
    ∗ atPos ER (sendCell c 1 7) 1 ∅ 0
    ∗ atPos ER (sendCell c 2 0) 1 ∅ 0
    ∗ atPos ER (sendCell c 2 1) 1 ∅ 0
    ∗ atPos ER (sendCell c 2 2) 1 ∅ 0
    ∗ atPos ER (sendCell c 2 3) 1 ∅ 0
    ∗ atPos ER (sendCell c 2 4) 1 ∅ 0
    ∗ atPos ER (sendCell c 2 5) 1 ∅ 0
    ∗ atPos ER (sendCell c 2 6) 1 ∅ 0
    ∗ atPos ER (sendCell c 2 7) 1 ∅ 0
    ∗ atPos ER (recvCell c 0 0) 1 ∅ 0
    ∗ atPos ER (recvCell c 0 1) 1 ∅ 0
    ∗ atPos ER (recvCell c 0 2) 1 ∅ 0
    ∗ atPos ER (recvCell c 0 3) 1 ∅ 0
    ∗ atPos ER (recvCell c 0 4) 1 ∅ 0
    ∗ atPos ER (recvCell c 0 5) 1 ∅ 0
    ∗ atPos ER (recvCell c 0 6) 1 ∅ 0
    ∗ atPos ER (recvCell c 0 7) 1 ∅ 0
    ∗ atPos ER (recvCell c 1 0) 1 ∅ 0
    ∗ atPos ER (recvCell c 1 1) 1 ∅ 0
    ∗ atPos ER (recvCell c 1 2) 1 ∅ 0
    ∗ atPos ER (recvCell c 1 3) 1 ∅ 0
    ∗ atPos ER (recvCell c 1 4) 1 ∅ 0
    ∗ atPos ER (recvCell c 1 5) 1 ∅ 0
    ∗ atPos ER (recvCell c 1 6) 1 ∅ 0
    ∗ atPos ER (recvCell c 1 7) 1 ∅ 0
    ∗ atPos ER (recvCell c 2 0) 1 ∅ 0
    ∗ atPos ER (recvCell c 2 1) 1 ∅ 0
    ∗ atPos ER (recvCell c 2 2) 1 ∅ 0
    ∗ atPos ER (recvCell c 2 3) 1 ∅ 0
    ∗ atPos ER (recvCell c 2 4) 1 ∅ 0
    ∗ atPos ER (recvCell c 2 5) 1 ∅ 0
    ∗ atPos ER (recvCell c 2 6) 1 ∅ 0
    ∗ atPos ER (recvCell c 2 7) 1 ∅ 0
    ∗ atPos ER (copyCell c 0 0) 1 ∅ 0
    ∗ atPos ER (copyCell c 0 1) 1 ∅ 0
    ∗ atPos ER (copyCell c 0 2) 1 ∅ 0
    ∗ atPos ER (copyCell c 0 3) 1 ∅ 0
    ∗ atPos ER (copyCell c 0 4) 1 ∅ 0
    ∗ atPos ER (copyCell c 0 5) 1 ∅ 0
    ∗ atPos ER (copyCell c 0 6) 1 ∅ 0
    ∗ atPos ER (copyCell c 0 7) 1 ∅ 0
    ∗ atPos ER (copyCell c 1 0) 1 ∅ 0
    ∗ atPos ER (copyCell c 1 1) 1 ∅ 0
    ∗ atPos ER (copyCell c 1 2) 1 ∅ 0
    ∗ atPos ER (copyCell c 1 3) 1 ∅ 0
    ∗ atPos ER (copyCell c 1 4) 1 ∅ 0
    ∗ atPos ER (copyCell c 1 5) 1 ∅ 0
    ∗ atPos ER (copyCell c 1 6) 1 ∅ 0
    ∗ atPos ER (copyCell c 1 7) 1 ∅ 0
    ∗ atPos ER (copyCell c 2 0) 1 ∅ 0
    ∗ atPos ER (copyCell c 2 1) 1 ∅ 0
    ∗ atPos ER (copyCell c 2 2) 1 ∅ 0
    ∗ atPos ER (copyCell c 2 3) 1 ∅ 0
    ∗ atPos ER (copyCell c 2 4) 1 ∅ 0
    ∗ atPos ER (copyCell c 2 5) 1 ∅ 0
    ∗ atPos ER (copyCell c 2 6) 1 ∅ 0
    ∗ atPos ER (copyCell c 2 7) 1 ∅ 0
    ∗ inA m c
    ∗ inB m c
    ∗ holdsPts c b16M fullShare (bv m c)
    ∗ slotHas m c 0 0 fullShare.left.left.left
    ∗ slotHas m c 0 0 fullShare.left.left.right
    ∗ slotHas m c 0 0 fullShare.left.right
    ∗ slotHas m c 0 0 fullShare.right
    ∗ slotHas m c 0 1 fullShare.left.left
    ∗ slotHas m c 0 1 fullShare.left.right
    ∗ slotHas m c 0 1 fullShare.right
    ∗ slotHas m c 0 2 fullShare.left
    ∗ slotHas m c 0 2 fullShare.right
    ∗ slotTop m c 0 3 fullShare.left
    ∗ slotBot m c 0 3 fullShare.left
    ∗ slotHas m c 0 3 fullShare.right
    ∗ slotHas m c 0 4 fullShare
    ∗ slotHas m c 0 5 fullShare
    ∗ slotHas m c 0 6 fullShare
    ∗ slotTop m c 0 7 fullShare
    ∗ slotBot m c 0 7 fullShare
    ∗ slotHas m c 1 0 fullShare.left.left.left
    ∗ slotHas m c 1 0 fullShare.left.left.right
    ∗ slotHas m c 1 0 fullShare.left.right
    ∗ slotHas m c 1 0 fullShare.right
    ∗ slotHas m c 1 1 fullShare.left.left
    ∗ slotHas m c 1 1 fullShare.left.right
    ∗ slotHas m c 1 1 fullShare.right
    ∗ slotHas m c 1 2 fullShare.left
    ∗ slotHas m c 1 2 fullShare.right
    ∗ slotTop m c 1 3 fullShare.left
    ∗ slotBot m c 1 3 fullShare.left
    ∗ slotHas m c 1 3 fullShare.right
    ∗ slotHas m c 1 4 fullShare
    ∗ slotHas m c 1 5 fullShare
    ∗ slotHas m c 1 6 fullShare
    ∗ slotTop m c 1 7 fullShare
    ∗ slotBot m c 1 7 fullShare
    ∗ slotHas m c 2 0 fullShare.left.left.left
    ∗ slotHas m c 2 0 fullShare.left.left.right
    ∗ slotHas m c 2 0 fullShare.left.right
    ∗ slotHas m c 2 0 fullShare.right
    ∗ slotHas m c 2 1 fullShare.left.left
    ∗ slotHas m c 2 1 fullShare.left.right
    ∗ slotHas m c 2 1 fullShare.right
    ∗ slotHas m c 2 2 fullShare.left
    ∗ slotHas m c 2 2 fullShare.right
    ∗ slotTop m c 2 3 fullShare.left
    ∗ slotBot m c 2 3 fullShare.left
    ∗ slotHas m c 2 3 fullShare.right
    ∗ slotHas m c 2 4 fullShare
    ∗ slotHas m c 2 5 fullShare
    ∗ slotHas m c 2 6 fullShare
    ∗ slotTop m c 2 7 fullShare
    ∗ slotBot m c 2 7 fullShare
    ∗ stageAny c 0 0
    ∗ stageAny c 0 1
    ∗ stageAny c 1 0
    ∗ stageAny c 1 1
    ∗ stageAny c 2 0
    ∗ stageAny c 2 1
    ∗ pieceDone m c 0 0
    ∗ pieceDone m c 0 1
    ∗ pieceDone m c 0 2
    ∗ pieceDone m c 0 3
    ∗ pieceDone m c 0 4
    ∗ pieceDone m c 0 5
    ∗ pieceDone m c 0 6
    ∗ pieceDone m c 0 7
    ∗ pieceDone m c 1 0
    ∗ pieceDone m c 1 1
    ∗ pieceDone m c 1 2
    ∗ pieceDone m c 1 3
    ∗ pieceDone m c 1 4
    ∗ pieceDone m c 1 5
    ∗ pieceDone m c 1 6
    ∗ pieceDone m c 1 7
    ∗ pieceDone m c 2 0
    ∗ pieceDone m c 2 1
    ∗ pieceDone m c 2 2
    ∗ pieceDone m c 2 3
    ∗ pieceDone m c 2 4
    ∗ pieceDone m c 2 5
    ∗ pieceDone m c 2 6
    ∗ pieceDone m c 2 7)

end Cert.Kernel.DM
end
-- ==== Proof.Bits.ChainEnds.lean ====
import proofs.«900891_g7700000000000892_dist_matmul_m_i_outrep_m1024_n1024_k512_v7x_i8_f32_1_alg».proof.Proof.Bits.ChainSpecs
import proofs.«900891_g7700000000000892_dist_matmul_m_i_outrep_m1024_n1024_k512_v7x_i8_f32_1_alg».proof.Proof.Bits.OpsWait
import proofs.«900891_g7700000000000892_dist_matmul_m_i_outrep_m1024_n1024_k512_v7x_i8_f32_1_alg».proof.Proof.Bits.OpsCopy

/-!
What a device's body starts from and ends with, as the conjunctions over cells, slots and pieces in which the two
ends of the body state it, against the same pieces listed one by one: each indexed conjunction is its list of
conjuncts in lexicographic order, and the nesting of the conjunctions is immaterial.
-/

noncomputable section

namespace Cert.Kernel.DM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ)

/-- A conjunction over the stage slots of the three groups, listed. -/
theorem bigSep_gp {M : Type} [URA M] (Φ : Fin 3 × Fin 2 → sProp M) :
    bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ

omit [FloatOps F] in
theorem sep_assoc_eq (P Q R : sProp 𝕄) : iprop((P ∗ Q) ∗ R) = iprop(P ∗ Q ∗ R) :=
  BI.Entails.antisymm (Laws.sep_assoc (P := P) (Q := Q) (R := R)).1 (Laws.sep_assoc (P := P) (Q := Q) (R := R)).2

theorem init_chain (c : Dev nD) : Init m K c ⊢ InitChain m K c := by
  refine Entails.of_eq ?_
  unfold Init InitChain
  rw [linear_eq c]
  simp only [bigSep_gk, bigSep_fin3, bigSep_gp, sep_assoc_eq]
  rfl

theorem final_chain (c : Dev nD) : FinalChain m K c ⊢ Final m K c := by
  refine Entails.of_eq ?_
  unfold Final FinalChain laneEnd
  rw [bigSep_OIx (fun k : OIx => (atPos ER (kcell (c, Sum.inr k)) 1 ∅ 0 : sProp 𝕄))]
  simp only [bigSep_gk, bigSep_fin3, bigSep_gp, sep_assoc_eq]
  rfl

/-- info: 'Cert.Kernel.DM.init_chain' depends on axioms: [propext, Classical.choice, Quot.sound] -/
#guard_msgs in #print axioms init_chain

/-- info: 'Cert.Kernel.DM.final_chain' depends on axioms: [propext, Classical.choice, Quot.sound] -/
#guard_msgs in #print axioms final_chain

end Cert.Kernel.DM

end
-- ==== Proof.Bits.Body.lean ====
import proofs.«900891_g7700000000000892_dist_matmul_m_i_outrep_m1024_n1024_k512_v7x_i8_f32_1_alg».proof.Proof.Bits.BodyWrap
import proofs.«900891_g7700000000000892_dist_matmul_m_i_outrep_m1024_n1024_k512_v7x_i8_f32_1_alg».proof.Proof.Bits.BodyEnds
import proofs.«900891_g7700000000000892_dist_matmul_m_i_outrep_m1024_n1024_k512_v7x_i8_f32_1_alg».proof.Proof.Bits.ChainEnds

/-!
The run of a device's body, assembled: the start opens what the launch hands over into the listed pieces, the middle
runs the program from those to the listed pieces of the end, and the end closes the own cells, joins the pieces and
hands back what the pipeline expects. The end's closing is an update, absorbed by the program's postcondition.
-/

noncomputable section

namespace Cert.Kernel.DM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The body's run from the run of its middle, between the pieces listed one by one. -/
theorem sound_body_of
    (hmid : ∀ (K : Dev nD × CIx → ℕ) (c : Dev nD) (Kt : PUnit → sProp 𝕄),
      iprop(InitChain m K c ∗ (FinalChain m K c -∗ Kt ⟨⟩))
        ⊢ wp frame (wpE (defs₀ (F := F)) 𝒱₀ (c : Thread nD τ) none) Set.univ (cc0_body aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9) Kt) :
    SoundBody m := by
  intro c Kt
  iintro ⟨Hpre, HK⟩
  ihave H := (prologue m c) $$ Hpre
  icases H with ⟨%K, Hinit⟩
  ihave Hchain := (init_chain m K c) $$ Hinit
  iapply (wp_fupd frame (wpE (defs₀ (F := F)) 𝒱₀ (c : Thread nD τ) none) Set.univ _ Kt)
  iapply (hmid K c (fun r => iprop(|={Set.univ}[frame]=> Kt r)))
  isplitl [Hchain]; · iexact Hchain
  iintro Hfin
  ihave Hfinal := (final_chain m K c) $$ Hfin
  imod (epilogue m K c) $$ Hfinal with Hpost
  imodintro
  iapply HK; iexact Hpost

/-- The library's body obligation on every device, from the run of the middle. -/
theorem body_obl_of
    (hmid : ∀ (K : Dev nD × CIx → ℕ) (c : Dev nD) (Kt : PUnit → sProp 𝕄),
      iprop(InitChain m K c ∗ (FinalChain m K c -∗ Kt ⟨⟩))
        ⊢ wp frame (wpE (defs₀ (F := F)) 𝒱₀ (c : Thread nD τ) none) Set.univ (cc0_body aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9) Kt)
    (c : Dev nD) : BodyObligation (dats (F := F) m 0 c) (defs₀ (F := F)) 𝒱₀ () Set.univ :=
  body_obligation m (sound_body_of m hmid) c

/-- info: 'Cert.Kernel.DM.sound_body_of' depends on axioms: [propext, Classical.choice, Quot.sound] -/
#guard_msgs in #print axioms sound_body_of

end Cert.Kernel.DM

end
-- ==== Proof.Bits.SepAC.lean ====
import proofs.«900891_g7700000000000892_dist_matmul_m_i_outrep_m1024_n1024_k512_v7x_i8_f32_1_alg».proof.Proof.Bits.Atoms

/-!
Separating conjunction of assertions over the body's state is associative and commutative as an equality, with the empty
assertion as its unit: what lets a conjunction of many pieces be reordered in one step.
-/

noncomputable section

namespace Cert.Kernel.DM

open Cert.Kernel Cert.Kernel.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig Unit (Elt F) ℕ UU ℕ

theorem sepc_assoc (P Q R : sProp 𝕄) : iprop((P ∗ Q) ∗ R) = iprop(P ∗ Q ∗ R) :=
  BI.Entails.antisymm (Laws.sep_assoc (P := P) (Q := Q) (R := R)).1 (Laws.sep_assoc (P := P) (Q := Q) (R := R)).2
theorem sepc_comm (P Q : sProp 𝕄) : iprop(P ∗ Q) = iprop(Q ∗ P) :=
  BI.Entails.antisymm (Laws.sep_comm (P := P) (Q := Q)).1 (Laws.sep_comm (P := Q) (Q := P)).1
theorem sepc_left_comm (P Q R : sProp 𝕄) : iprop(P ∗ Q ∗ R) = iprop(Q ∗ P ∗ R) := by
  rw [← sepc_assoc, ← sepc_assoc, sepc_comm P Q]
theorem sepc_emp_left (P : sProp 𝕄) : iprop(emp ∗ P) = P :=
  BI.Entails.antisymm (Laws.emp_sep (P := P)).1 (Laws.emp_sep (P := P)).2
theorem sepc_emp_right (P : sProp 𝕄) : iprop(P ∗ emp) = P :=
  BI.Entails.antisymm (Laws.sep_emp (P := P)).1 (Laws.sep_emp (P := P)).2

instance sepc_isAssoc : Std.Associative (α := sProp 𝕄) (fun a b => iprop(a ∗ b)) := ⟨sepc_assoc⟩
instance sepc_isComm : Std.Commutative (α := sProp 𝕄) (fun a b => iprop(a ∗ b)) := ⟨sepc_comm⟩

/-- Two pieces held separately are held together. -/
theorem pair_intro (P Q : sProp 𝕄) : P ⊢ iprop(Q -∗ P ∗ Q) := by
  iintro HP HQ
  isplitl [HP]
  · iexact HP
  · iexact HQ

end Cert.Kernel.DM

end
-- ==== Proof.Bits.ChainDefs.lean ====
/- GENERATED by: bun scratch/gen_partspecs.js "$KIT/certs/proofs/900891_g7700000000000892_dist_matmul_m_i_outrep_m1024_n1024_k512_v7x_i8_f32_1_alg" "proofs.«900891_g7700000000000892_dist_matmul_m_i_outrep_m1024_n1024_k512_v7x_i8_f32_1_alg».proof" "chaindefs" "--prog" "Kernel" "--sub" "Bits" (run from the unit directory; the script is filed beside this module): the
   pieces of the body's state in bundles — those of the start not yet taken, step by step, and those only the end
   needs, as they accumulate. -/
import proofs.«900891_g7700000000000892_dist_matmul_m_i_outrep_m1024_n1024_k512_v7x_i8_f32_1_alg».proof.Proof.Bits.ChainSpecs
import proofs.«900891_g7700000000000892_dist_matmul_m_i_outrep_m1024_n1024_k512_v7x_i8_f32_1_alg».proof.Proof.Bits.SepAC
set_option maxRecDepth 16384
noncomputable section
namespace Cert.Kernel.DM
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (K : Dev nD × CIx → ℕ)

/-- The pieces of the start first taken at step 45, and those taken later. -/
def InitFrom45 (m : (ℓ : Loc nD τ sig) → Buf (Elt F) ℓ) (K : Dev nD × CIx → ℕ) (c : Dev nD) : sProp 𝕄 :=
  iprop(atPos ER (copyCell c 0 6) 0 ∅ 0
      ∗ atPos ER (copyCell c 0 7) 0 ∅ 0
      ∗ atPos ER (copyCell c 1 6) 0 ∅ 0
      ∗ atPos ER (copyCell c 1 7) 0 ∅ 0
      ∗ atPos ER (copyCell c 2 6) 0 ∅ 0)

/-- The pieces of the start first taken at step 44, and those taken later. -/
def InitFrom44 (m : (ℓ : Loc nD τ sig) → Buf (Elt F) ℓ) (K : Dev nD × CIx → ℕ) (c : Dev nD) : sProp 𝕄 :=
  iprop(cred (tallyAt (recvCell c 2 7) () (xferAmt 2 7))
      ∗ atPos ER (recvCell c 2 7) 0 ∅ 0
      ∗ dutyTok ER (copyCell c 2 7) 0 0
      ∗ pieceAny c 2 7
      ∗ InitFrom45 m K c)

/-- The pieces of the start first taken at step 43, and those taken later. -/
def InitFrom43 (m : (ℓ : Loc nD τ sig) → Buf (Elt F) ℓ) (K : Dev nD × CIx → ℕ) (c : Dev nD) : sProp 𝕄 :=
  iprop(cred (tallyAt (recvCell c 1 7) () (xferAmt 1 7))
      ∗ atPos ER (sendCell c 2 7) 0 ∅ 0
      ∗ atPos ER (recvCell c 1 7) 0 ∅ 0
      ∗ dutyTok ER (copyCell c 1 7) 0 0
      ∗ pieceAny c 1 7
      ∗ InitFrom44 m K c)

/-- The pieces of the start first taken at step 42, and those taken later. -/
def InitFrom42 (m : (ℓ : Loc nD τ sig) → Buf (Elt F) ℓ) (K : Dev nD × CIx → ℕ) (c : Dev nD) : sProp 𝕄 :=
  iprop(atPos ER (sendCell c 1 7) 0 ∅ 0
      ∗ dutyTok ER (copyCell c 0 7) 0 0
      ∗ pieceAny c 0 7
      ∗ InitFrom43 m K c)

/-- The pieces of the start first taken at step 41, and those taken later. -/
def InitFrom41 (m : (ℓ : Loc nD τ sig) → Buf (Elt F) ℓ) (K : Dev nD × CIx → ℕ) (c : Dev nD) : sProp 𝕄 :=
  iprop(cred (tallyAt (recvCell c 0 7) () (xferAmt 0 7))
      ∗ atPos ER (sendCell c 0 7) 0 ∅ 0
      ∗ atPos ER (recvCell c 0 7) 0 ∅ 0
      ∗ InitFrom42 m K c)

/-- The pieces of the start first taken at step 40, and those taken later. -/
def InitFrom40 (m : (ℓ : Loc nD τ sig) → Buf (Elt F) ℓ) (K : Dev nD × CIx → ℕ) (c : Dev nD) : sProp 𝕄 :=
  iprop(cred (tallyAt (recvCell c 2 6) () (xferAmt 2 6))
      ∗ atPos ER (sendCell c 2 6) 0 ∅ 0
      ∗ atPos ER (recvCell c 2 6) 0 ∅ 0
      ∗ atPos ER (copyCell c 2 5) 0 ∅ 0
      ∗ InitFrom41 m K c)

/-- The pieces of the start first taken at step 39, and those taken later. -/
def InitFrom39 (m : (ℓ : Loc nD τ sig) → Buf (Elt F) ℓ) (K : Dev nD × CIx → ℕ) (c : Dev nD) : sProp 𝕄 :=
  iprop(cred (tallyAt (recvCell c 1 6) () (xferAmt 1 6))
      ∗ atPos ER (sendCell c 1 6) 0 ∅ 0
      ∗ atPos ER (recvCell c 1 6) 0 ∅ 0
      ∗ atPos ER (copyCell c 1 5) 0 ∅ 0
      ∗ InitFrom40 m K c)

/-- The pieces of the start first taken at step 38, and those taken later. -/
def InitFrom38 (m : (ℓ : Loc nD τ sig) → Buf (Elt F) ℓ) (K : Dev nD × CIx → ℕ) (c : Dev nD) : sProp 𝕄 :=
  iprop(cred (tallyAt (recvCell c 0 6) () (xferAmt 0 6))
      ∗ atPos ER (sendCell c 0 6) 0 ∅ 0
      ∗ atPos ER (recvCell c 0 6) 0 ∅ 0
      ∗ atPos ER (copyCell c 0 5) 0 ∅ 0
      ∗ InitFrom39 m K c)

/-- The pieces of the start first taken at step 37, and those taken later. -/
def InitFrom37 (m : (ℓ : Loc nD τ sig) → Buf (Elt F) ℓ) (K : Dev nD × CIx → ℕ) (c : Dev nD) : sProp 𝕄 :=
  iprop(atPos ER (copyCell c 2 4) 0 ∅ 0
      ∗ dutyTok ER (copyCell c 2 6) 0 0
      ∗ pieceAny c 2 6
      ∗ InitFrom38 m K c)

/-- The pieces of the start first taken at step 36, and those taken later. -/
def InitFrom36 (m : (ℓ : Loc nD τ sig) → Buf (Elt F) ℓ) (K : Dev nD × CIx → ℕ) (c : Dev nD) : sProp 𝕄 :=
  iprop(cred (tallyAt (recvCell c 2 5) () (xferAmt 2 5))
      ∗ atPos ER (sendCell c 2 5) 0 ∅ 0
      ∗ atPos ER (recvCell c 2 5) 0 ∅ 0
      ∗ dutyTok ER (copyCell c 1 6) 0 0
      ∗ pieceAny c 1 6
      ∗ InitFrom37 m K c)

/-- The pieces of the start first taken at step 35, and those taken later. -/
def InitFrom35 (m : (ℓ : Loc nD τ sig) → Buf (Elt F) ℓ) (K : Dev nD × CIx → ℕ) (c : Dev nD) : sProp 𝕄 :=
  iprop(cred (tallyAt (recvCell c 1 5) () (xferAmt 1 5))
      ∗ atPos ER (sendCell c 1 5) 0 ∅ 0
      ∗ atPos ER (recvCell c 1 5) 0 ∅ 0
      ∗ atPos ER (copyCell c 1 4) 0 ∅ 0
      ∗ InitFrom36 m K c)

/-- The pieces of the start first taken at step 34, and those taken later. -/
def InitFrom34 (m : (ℓ : Loc nD τ sig) → Buf (Elt F) ℓ) (K : Dev nD × CIx → ℕ) (c : Dev nD) : sProp 𝕄 :=
  iprop(cred (tallyAt (recvCell c 0 5) () (xferAmt 0 5))
      ∗ atPos ER (recvCell c 0 5) 0 ∅ 0
      ∗ atPos ER (copyCell c 0 4) 0 ∅ 0
      ∗ dutyTok ER (copyCell c 0 6) 0 0
      ∗ pieceAny c 0 6
      ∗ InitFrom35 m K c)

/-- The pieces of the start first taken at step 33, and those taken later. -/
def InitFrom33 (m : (ℓ : Loc nD τ sig) → Buf (Elt F) ℓ) (K : Dev nD × CIx → ℕ) (c : Dev nD) : sProp 𝕄 :=
  iprop(atPos ER (sendCell c 0 5) 0 ∅ 0
      ∗ atPos ER (copyCell c 2 3) 0 ∅ 0
      ∗ dutyTok ER (copyCell c 2 5) 0 0
      ∗ pieceAny c 2 5
      ∗ InitFrom34 m K c)

/-- The pieces of the start first taken at step 32, and those taken later. -/
def InitFrom32 (m : (ℓ : Loc nD τ sig) → Buf (Elt F) ℓ) (K : Dev nD × CIx → ℕ) (c : Dev nD) : sProp 𝕄 :=
  iprop(cred (tallyAt (recvCell c 2 4) () (xferAmt 2 4))
      ∗ atPos ER (sendCell c 2 4) 0 ∅ 0
      ∗ atPos ER (recvCell c 2 4) 0 ∅ 0
      ∗ dutyTok ER (copyCell c 1 5) 0 0
      ∗ pieceAny c 1 5
      ∗ InitFrom33 m K c)

/-- The pieces of the start first taken at step 31, and those taken later. -/
def InitFrom31 (m : (ℓ : Loc nD τ sig) → Buf (Elt F) ℓ) (K : Dev nD × CIx → ℕ) (c : Dev nD) : sProp 𝕄 :=
  iprop(cred (tallyAt (recvCell c 1 4) () (xferAmt 1 4))
      ∗ atPos ER (sendCell c 1 4) 0 ∅ 0
      ∗ atPos ER (recvCell c 1 4) 0 ∅ 0
      ∗ atPos ER (copyCell c 1 3) 0 ∅ 0
      ∗ InitFrom32 m K c)

/-- The pieces of the start first taken at step 30, and those taken later. -/
def InitFrom30 (m : (ℓ : Loc nD τ sig) → Buf (Elt F) ℓ) (K : Dev nD × CIx → ℕ) (c : Dev nD) : sProp 𝕄 :=
  iprop(cred (tallyAt (recvCell c 0 4) () (xferAmt 0 4))
      ∗ atPos ER (recvCell c 0 4) 0 ∅ 0
      ∗ atPos ER (copyCell c 0 3) 0 ∅ 0
      ∗ dutyTok ER (copyCell c 0 5) 0 0
      ∗ pieceAny c 0 5
      ∗ InitFrom31 m K c)

/-- The pieces of the start first taken at step 29, and those taken later. -/
def InitFrom29 (m : (ℓ : Loc nD τ sig) → Buf (Elt F) ℓ) (K : Dev nD × CIx → ℕ) (c : Dev nD) : sProp 𝕄 :=
  iprop(atPos ER (sendCell c 0 4) 0 ∅ 0
      ∗ dutyTok ER (copyCell c 2 3) 0 0
      ∗ pieceAny c 2 3
      ∗ InitFrom30 m K c)

/-- The pieces of the start first taken at step 28, and those taken later. -/
def InitFrom28 (m : (ℓ : Loc nD τ sig) → Buf (Elt F) ℓ) (K : Dev nD × CIx → ℕ) (c : Dev nD) : sProp 𝕄 :=
  iprop(atPos ER (copyCell c 1 1) 0 ∅ 0
      ∗ atPos ER (copyCell c 2 1) 0 ∅ 0
      ∗ dutyTok ER (copyCell c 1 3) 0 0
      ∗ pieceAny c 1 3
      ∗ InitFrom29 m K c)

/-- The pieces of the start first taken at step 27, and those taken later. -/
def InitFrom27 (m : (ℓ : Loc nD τ sig) → Buf (Elt F) ℓ) (K : Dev nD × CIx → ℕ) (c : Dev nD) : sProp 𝕄 :=
  iprop(atPos ER (copyCell c 0 1) 0 ∅ 0
      ∗ dutyTok ER (recvCell (partner c 2 7) 2 7) 0 0
      ∗ dutyTok ER (sendCell c 2 7) 0 0
      ∗ dutyTok ER (copyCell c 0 3) 0 0
      ∗ pieceAny c 0 3
      ∗ InitFrom28 m K c)

/-- The pieces of the start first taken at step 26, and those taken later. -/
def InitFrom26 (m : (ℓ : Loc nD τ sig) → Buf (Elt F) ℓ) (K : Dev nD × CIx → ℕ) (c : Dev nD) : sProp 𝕄 :=
  iprop(cred (tallyAt (recvCell c 2 2) () (xferAmt 2 2))
      ∗ atPos ER (recvCell c 2 2) 0 ∅ 0
      ∗ dutyTok ER (recvCell (partner c 2 6) 2 6) 0 0
      ∗ dutyTok ER (sendCell c 2 6) 0 0
      ∗ InitFrom27 m K c)

/-- The pieces of the start first taken at step 25, and those taken later. -/
def InitFrom25 (m : (ℓ : Loc nD τ sig) → Buf (Elt F) ℓ) (K : Dev nD × CIx → ℕ) (c : Dev nD) : sProp 𝕄 :=
  iprop(atPos ER (sendCell c 2 2) 0 ∅ 0
      ∗ dutyTok ER (recvCell (partner c 1 6) 1 6) 0 0
      ∗ dutyTok ER (recvCell (partner c 1 7) 1 7) 0 0
      ∗ dutyTok ER (sendCell c 1 6) 0 0
      ∗ dutyTok ER (sendCell c 1 7) 0 0
      ∗ InitFrom26 m K c)

/-- The pieces of the start first taken at step 24, and those taken later. -/
def InitFrom24 (m : (ℓ : Loc nD τ sig) → Buf (Elt F) ℓ) (K : Dev nD × CIx → ℕ) (c : Dev nD) : sProp 𝕄 :=
  iprop(cred (tallyAt (recvCell c 1 2) () (xferAmt 1 2))
      ∗ atPos ER (sendCell c 1 2) 0 ∅ 0
      ∗ atPos ER (recvCell c 1 2) 0 ∅ 0
      ∗ dutyTok ER (recvCell (partner c 0 7) 0 7) 0 0
      ∗ dutyTok ER (sendCell c 0 7) 0 0
      ∗ InitFrom25 m K c)

/-- The pieces of the start first taken at step 23, and those taken later. -/
def InitFrom23 (m : (ℓ : Loc nD τ sig) → Buf (Elt F) ℓ) (K : Dev nD × CIx → ℕ) (c : Dev nD) : sProp 𝕄 :=
  iprop(cred (tallyAt (recvCell c 0 2) () (xferAmt 0 2))
      ∗ atPos ER (sendCell c 0 2) 0 ∅ 0
      ∗ atPos ER (recvCell c 0 2) 0 ∅ 0
      ∗ dutyTok ER (recvCell (partner c 0 6) 0 6) 0 0
      ∗ dutyTok ER (sendCell c 0 6) 0 0
      ∗ InitFrom24 m K c)

/-- The pieces of the start first taken at step 22, and those taken later. -/
def InitFrom22 (m : (ℓ : Loc nD τ sig) → Buf (Elt F) ℓ) (K : Dev nD × CIx → ℕ) (c : Dev nD) : sProp 𝕄 :=
  iprop(atPos ER (copyCell c 2 2) 0 ∅ 0
      ∗ dutyTok ER (copyCell c 2 4) 0 0
      ∗ pieceAny c 2 4
      ∗ InitFrom23 m K c)

/-- The pieces of the start first taken at step 21, and those taken later. -/
def InitFrom21 (m : (ℓ : Loc nD τ sig) → Buf (Elt F) ℓ) (K : Dev nD × CIx → ℕ) (c : Dev nD) : sProp 𝕄 :=
  iprop(cred (tallyAt (recvCell c 2 3) () (xferAmt 2 3))
      ∗ atPos ER (sendCell c 2 3) 0 ∅ 0
      ∗ atPos ER (recvCell c 2 3) 0 ∅ 0
      ∗ dutyTok ER (copyCell c 1 4) 0 0
      ∗ pieceAny c 1 4
      ∗ InitFrom22 m K c)

/-- The pieces of the start first taken at step 20, and those taken later. -/
def InitFrom20 (m : (ℓ : Loc nD τ sig) → Buf (Elt F) ℓ) (K : Dev nD × CIx → ℕ) (c : Dev nD) : sProp 𝕄 :=
  iprop(cred (tallyAt (recvCell c 1 3) () (xferAmt 1 3))
      ∗ atPos ER (sendCell c 1 3) 0 ∅ 0
      ∗ atPos ER (recvCell c 1 3) 0 ∅ 0
      ∗ atPos ER (copyCell c 1 2) 0 ∅ 0
      ∗ dutyTok ER (copyCell c 0 4) 0 0
      ∗ pieceAny c 0 4
      ∗ InitFrom21 m K c)

/-- The pieces of the start first taken at step 19, and those taken later. -/
def InitFrom19 (m : (ℓ : Loc nD τ sig) → Buf (Elt F) ℓ) (K : Dev nD × CIx → ℕ) (c : Dev nD) : sProp 𝕄 :=
  iprop(cred (tallyAt (recvCell c 0 3) () (xferAmt 0 3))
      ∗ atPos ER (recvCell c 0 3) 0 ∅ 0
      ∗ atPos ER (copyCell c 0 2) 0 ∅ 0
      ∗ InitFrom20 m K c)

/-- The pieces of the start first taken at step 18, and those taken later. -/
def InitFrom18 (m : (ℓ : Loc nD τ sig) → Buf (Elt F) ℓ) (K : Dev nD × CIx → ℕ) (c : Dev nD) : sProp 𝕄 :=
  iprop(atPos ER (sendCell c 0 3) 0 ∅ 0
      ∗ atPos ER (copyCell c 2 0) 0 ∅ 0
      ∗ dutyTok ER (copyCell c 2 2) 0 0
      ∗ pieceAny c 2 2
      ∗ InitFrom19 m K c)

/-- The pieces of the start first taken at step 17, and those taken later. -/
def InitFrom17 (m : (ℓ : Loc nD τ sig) → Buf (Elt F) ℓ) (K : Dev nD × CIx → ℕ) (c : Dev nD) : sProp 𝕄 :=
  iprop(atPos ER (copyCell c 1 0) 0 ∅ 0
      ∗ dutyTok ER (copyCell c 0 2) 0 0
      ∗ dutyTok ER (copyCell c 1 2) 0 0
      ∗ pieceAny c 0 2
      ∗ pieceAny c 1 2
      ∗ InitFrom18 m K c)

/-- The pieces of the start first taken at step 16, and those taken later. -/
def InitFrom16 (m : (ℓ : Loc nD τ sig) → Buf (Elt F) ℓ) (K : Dev nD × CIx → ℕ) (c : Dev nD) : sProp 𝕄 :=
  iprop(atPos ER (copyCell c 0 0) 0 ∅ 0
      ∗ dutyTok ER (recvCell (partner c 2 5) 2 5) 0 0
      ∗ dutyTok ER (sendCell c 2 5) 0 0
      ∗ InitFrom17 m K c)

/-- The pieces of the start first taken at step 15, and those taken later. -/
def InitFrom15 (m : (ℓ : Loc nD τ sig) → Buf (Elt F) ℓ) (K : Dev nD × CIx → ℕ) (c : Dev nD) : sProp 𝕄 :=
  iprop(cred (tallyAt (recvCell c 2 1) () (xferAmt 2 1))
      ∗ atPos ER (sendCell c 2 1) 0 ∅ 0
      ∗ atPos ER (recvCell c 2 1) 0 ∅ 0
      ∗ dutyTok ER (recvCell (partner c 1 5) 1 5) 0 0
      ∗ dutyTok ER (sendCell c 1 5) 0 0
      ∗ InitFrom16 m K c)

/-- The pieces of the start first taken at step 14, and those taken later. -/
def InitFrom14 (m : (ℓ : Loc nD τ sig) → Buf (Elt F) ℓ) (K : Dev nD × CIx → ℕ) (c : Dev nD) : sProp 𝕄 :=
  iprop(cred (tallyAt (recvCell c 1 1) () (xferAmt 1 1))
      ∗ atPos ER (sendCell c 1 1) 0 ∅ 0
      ∗ atPos ER (recvCell c 1 1) 0 ∅ 0
      ∗ dutyTok ER (recvCell (partner c 0 5) 0 5) 0 0
      ∗ dutyTok ER (sendCell c 0 5) 0 0
      ∗ InitFrom15 m K c)

/-- The pieces of the start first taken at step 13, and those taken later. -/
def InitFrom13 (m : (ℓ : Loc nD τ sig) → Buf (Elt F) ℓ) (K : Dev nD × CIx → ℕ) (c : Dev nD) : sProp 𝕄 :=
  iprop(cred (tallyAt (recvCell c 0 1) () (xferAmt 0 1))
      ∗ atPos ER (sendCell c 0 1) 0 ∅ 0
      ∗ atPos ER (recvCell c 0 1) 0 ∅ 0
      ∗ dutyTok ER (copyCell c 2 1) 0 0
      ∗ pieceAny c 2 1
      ∗ InitFrom14 m K c)

/-- The pieces of the start first taken at step 12, and those taken later. -/
def InitFrom12 (m : (ℓ : Loc nD τ sig) → Buf (Elt F) ℓ) (K : Dev nD × CIx → ℕ) (c : Dev nD) : sProp 𝕄 :=
  iprop(dutyTok ER (copyCell c 0 1) 0 0
      ∗ dutyTok ER (copyCell c 1 1) 0 0
      ∗ stageAny c 1 1
      ∗ stageAny c 2 1
      ∗ pieceAny c 0 1
      ∗ pieceAny c 1 1
      ∗ InitFrom13 m K c)

/-- The pieces of the start first taken at step 11, and those taken later. -/
def InitFrom11 (m : (ℓ : Loc nD τ sig) → Buf (Elt F) ℓ) (K : Dev nD × CIx → ℕ) (c : Dev nD) : sProp 𝕄 :=
  iprop(dutyTok ER (recvCell (partner c 2 2) 2 2) 0 0
      ∗ dutyTok ER (recvCell (partner c 2 4) 2 4) 0 0
      ∗ dutyTok ER (sendCell c 2 2) 0 0
      ∗ dutyTok ER (sendCell c 2 4) 0 0
      ∗ stageAny c 0 1
      ∗ InitFrom12 m K c)

/-- The pieces of the start first taken at step 10, and those taken later. -/
def InitFrom10 (m : (ℓ : Loc nD τ sig) → Buf (Elt F) ℓ) (K : Dev nD × CIx → ℕ) (c : Dev nD) : sProp 𝕄 :=
  iprop(cred (tallyAt (recvCell c 2 0) () (xferAmt 2 0))
      ∗ atPos ER (sendCell c 2 0) 0 ∅ 0
      ∗ atPos ER (recvCell c 2 0) 0 ∅ 0
      ∗ dutyTok ER (recvCell (partner c 1 4) 1 4) 0 0
      ∗ dutyTok ER (sendCell c 1 4) 0 0
      ∗ InitFrom11 m K c)

/-- The pieces of the start first taken at step 9, and those taken later. -/
def InitFrom9 (m : (ℓ : Loc nD τ sig) → Buf (Elt F) ℓ) (K : Dev nD × CIx → ℕ) (c : Dev nD) : sProp 𝕄 :=
  iprop(cred (tallyAt (recvCell c 1 0) () (xferAmt 1 0))
      ∗ atPos ER (sendCell c 1 0) 0 ∅ 0
      ∗ atPos ER (recvCell c 1 0) 0 ∅ 0
      ∗ dutyTok ER (recvCell (partner c 1 2) 1 2) 0 0
      ∗ dutyTok ER (sendCell c 1 2) 0 0
      ∗ InitFrom10 m K c)

/-- The pieces of the start first taken at step 8, and those taken later. -/
def InitFrom8 (m : (ℓ : Loc nD τ sig) → Buf (Elt F) ℓ) (K : Dev nD × CIx → ℕ) (c : Dev nD) : sProp 𝕄 :=
  iprop(cred (tallyAt (recvCell c 0 0) () (xferAmt 0 0))
      ∗ atPos ER (recvCell c 0 0) 0 ∅ 0
      ∗ dutyTok ER (recvCell (partner c 0 2) 0 2) 0 0
      ∗ dutyTok ER (recvCell (partner c 0 4) 0 4) 0 0
      ∗ dutyTok ER (sendCell c 0 2) 0 0
      ∗ dutyTok ER (sendCell c 0 4) 0 0
      ∗ InitFrom9 m K c)

/-- The pieces of the start first taken at step 7, and those taken later. -/
def InitFrom7 (m : (ℓ : Loc nD τ sig) → Buf (Elt F) ℓ) (K : Dev nD × CIx → ℕ) (c : Dev nD) : sProp 𝕄 :=
  iprop(atPos ER (sendCell c 0 0) 0 ∅ 0
      ∗ dutyTok ER (copyCell c 2 0) 0 0
      ∗ stageAny c 2 0
      ∗ pieceAny c 2 0
      ∗ InitFrom8 m K c)

/-- The pieces of the start first taken at step 6, and those taken later. -/
def InitFrom6 (m : (ℓ : Loc nD τ sig) → Buf (Elt F) ℓ) (K : Dev nD × CIx → ℕ) (c : Dev nD) : sProp 𝕄 :=
  iprop(dutyTok ER (copyCell c 0 0) 0 0
      ∗ dutyTok ER (copyCell c 1 0) 0 0
      ∗ stageAny c 0 0
      ∗ stageAny c 1 0
      ∗ pieceAny c 0 0
      ∗ pieceAny c 1 0
      ∗ InitFrom7 m K c)

/-- The pieces of the start first taken at step 5, and those taken later. -/
def InitFrom5 (m : (ℓ : Loc nD τ sig) → Buf (Elt F) ℓ) (K : Dev nD × CIx → ℕ) (c : Dev nD) : sProp 𝕄 :=
  iprop(dutyTok ER (recvCell (partner c 1 3) 1 3) 0 0
      ∗ dutyTok ER (recvCell (partner c 2 3) 2 3) 0 0
      ∗ dutyTok ER (sendCell c 1 3) 0 0
      ∗ dutyTok ER (sendCell c 2 3) 0 0
      ∗ inB m c
      ∗ anyPts c b16M
      ∗ InitFrom6 m K c)

/-- The pieces of the start first taken at step 4, and those taken later. -/
def InitFrom4 (m : (ℓ : Loc nD τ sig) → Buf (Elt F) ℓ) (K : Dev nD × CIx → ℕ) (c : Dev nD) : sProp 𝕄 :=
  iprop(dutyTok ER (recvCell (partner c 0 3) 0 3) 0 0
      ∗ dutyTok ER (recvCell (partner c 1 1) 1 1) 0 0
      ∗ dutyTok ER (recvCell (partner c 2 1) 2 1) 0 0
      ∗ dutyTok ER (sendCell c 0 3) 0 0
      ∗ dutyTok ER (sendCell c 1 1) 0 0
      ∗ dutyTok ER (sendCell c 2 1) 0 0
      ∗ InitFrom5 m K c)

/-- The pieces of the start first taken at step 3, and those taken later. -/
def InitFrom3 (m : (ℓ : Loc nD τ sig) → Buf (Elt F) ℓ) (K : Dev nD × CIx → ℕ) (c : Dev nD) : sProp 𝕄 :=
  iprop(dutyTok ER (recvCell (partner c 0 1) 0 1) 0 0
      ∗ dutyTok ER (recvCell (partner c 2 0) 2 0) 0 0
      ∗ dutyTok ER (sendCell c 0 1) 0 0
      ∗ dutyTok ER (sendCell c 2 0) 0 0
      ∗ InitFrom4 m K c)

/-- The pieces of the start first taken at step 2, and those taken later. -/
def InitFrom2 (m : (ℓ : Loc nD τ sig) → Buf (Elt F) ℓ) (K : Dev nD × CIx → ℕ) (c : Dev nD) : sProp 𝕄 :=
  iprop(cred (tallyAt (barCell c) () 3)
      ∗ atPos ER (barCell c) 0 ∅ 0
      ∗ dutyTok ER (recvCell (partner c 0 0) 0 0) 0 0
      ∗ dutyTok ER (recvCell (partner c 1 0) 1 0) 0 0
      ∗ dutyTok ER (sendCell c 0 0) 0 0
      ∗ dutyTok ER (sendCell c 1 0) 0 0
      ∗ slotAny c 2 0
      ∗ InitFrom3 m K c)

/-- The pieces of the start first taken at step 1, and those taken later. -/
def InitFrom1 (m : (ℓ : Loc nD τ sig) → Buf (Elt F) ℓ) (K : Dev nD × CIx → ℕ) (c : Dev nD) : sProp 𝕄 :=
  iprop((∃ W, owes (c : Thread nD τ) (Orem ((payList c).drop 0)) W)
      ∗ dutyTok ER (barCell (xr c (dir 0))) 0 0
      ∗ dutyTok ER (barCell (xr c (dir 1))) 0 1
      ∗ dutyTok ER (barCell (xr c (dir 2))) 0 2
      ∗ inA m c
      ∗ slotAny c 0 0
      ∗ slotAny c 1 0
      ∗ dstAny c 0 0
      ∗ dstAny c 0 1
      ∗ dstAny c 0 2
      ∗ dstAny c 0 3
      ∗ dstAny c 0 4
      ∗ dstAny c 0 5
      ∗ dstAny c 0 6
      ∗ dstAny c 0 7
      ∗ dstAny c 1 0
      ∗ dstAny c 1 1
      ∗ dstAny c 1 2
      ∗ dstAny c 1 3
      ∗ dstAny c 1 4
      ∗ dstAny c 1 5
      ∗ dstAny c 1 6
      ∗ dstAny c 1 7
      ∗ dstAny c 2 0
      ∗ dstAny c 2 1
      ∗ dstAny c 2 2
      ∗ dstAny c 2 3
      ∗ dstAny c 2 4
      ∗ dstAny c 2 5
      ∗ dstAny c 2 6
      ∗ dstAny c 2 7
      ∗ InitFrom2 m K c)

/-- The pieces only the end needs, up to step 1. -/
def Done1 (m : (ℓ : Loc nD τ sig) → Buf (Elt F) ℓ) (K : Dev nD × CIx → ℕ) (c : Dev nD) : sProp 𝕄 :=
  iprop(inA m c)

/-- The pieces only the end needs, up to step 2. -/
def Done2 (m : (ℓ : Loc nD τ sig) → Buf (Elt F) ℓ) (K : Dev nD × CIx → ℕ) (c : Dev nD) : sProp 𝕄 :=
  iprop(Done1 m K c
      ∗ atPos ER (barCell c) 1 ∅ 0)

/-- The pieces only the end needs, up to step 5. -/
def Done5 (m : (ℓ : Loc nD τ sig) → Buf (Elt F) ℓ) (K : Dev nD × CIx → ℕ) (c : Dev nD) : sProp 𝕄 :=
  iprop(Done2 m K c
      ∗ inB m c
      ∗ slotHas m c 0 0 fullShare.right)

/-- The pieces only the end needs, up to step 6. -/
def Done6 (m : (ℓ : Loc nD τ sig) → Buf (Elt F) ℓ) (K : Dev nD × CIx → ℕ) (c : Dev nD) : sProp 𝕄 :=
  iprop(Done5 m K c
      ∗ slotHas m c 1 0 fullShare.right)

/-- The pieces only the end needs, up to step 7. -/
def Done7 (m : (ℓ : Loc nD τ sig) → Buf (Elt F) ℓ) (K : Dev nD × CIx → ℕ) (c : Dev nD) : sProp 𝕄 :=
  iprop(Done6 m K c
      ∗ slotHas m c 2 0 fullShare.right
      ∗ atPos ER (sendCell c 0 0) 1 ∅ 0
      ∗ slotHas m c 0 0 fullShare.left.left.left)

/-- The pieces only the end needs, up to step 8. -/
def Done8 (m : (ℓ : Loc nD τ sig) → Buf (Elt F) ℓ) (K : Dev nD × CIx → ℕ) (c : Dev nD) : sProp 𝕄 :=
  iprop(Done7 m K c
      ∗ atPos ER (recvCell c 0 0) 1 ∅ 0)

/-- The pieces only the end needs, up to step 9. -/
def Done9 (m : (ℓ : Loc nD τ sig) → Buf (Elt F) ℓ) (K : Dev nD × CIx → ℕ) (c : Dev nD) : sProp 𝕄 :=
  iprop(Done8 m K c
      ∗ atPos ER (sendCell c 1 0) 1 ∅ 0
      ∗ slotHas m c 1 0 fullShare.left.left.left
      ∗ atPos ER (recvCell c 1 0) 1 ∅ 0)

/-- The pieces only the end needs, up to step 10. -/
def Done10 (m : (ℓ : Loc nD τ sig) → Buf (Elt F) ℓ) (K : Dev nD × CIx → ℕ) (c : Dev nD) : sProp 𝕄 :=
  iprop(Done9 m K c
      ∗ atPos ER (sendCell c 2 0) 1 ∅ 0
      ∗ slotHas m c 2 0 fullShare.left.left.left
      ∗ atPos ER (recvCell c 2 0) 1 ∅ 0)

/-- The pieces only the end needs, up to step 11. -/
def Done11 (m : (ℓ : Loc nD τ sig) → Buf (Elt F) ℓ) (K : Dev nD × CIx → ℕ) (c : Dev nD) : sProp 𝕄 :=
  iprop(Done10 m K c
      ∗ slotHas m c 0 1 fullShare.right)

/-- The pieces only the end needs, up to step 12. -/
def Done12 (m : (ℓ : Loc nD τ sig) → Buf (Elt F) ℓ) (K : Dev nD × CIx → ℕ) (c : Dev nD) : sProp 𝕄 :=
  iprop(Done11 m K c
      ∗ slotHas m c 1 1 fullShare.right
      ∗ slotHas m c 2 1 fullShare.right)

/-- The pieces only the end needs, up to step 13. -/
def Done13 (m : (ℓ : Loc nD τ sig) → Buf (Elt F) ℓ) (K : Dev nD × CIx → ℕ) (c : Dev nD) : sProp 𝕄 :=
  iprop(Done12 m K c
      ∗ atPos ER (sendCell c 0 1) 1 ∅ 0
      ∗ slotHas m c 0 0 fullShare.left.left.right
      ∗ atPos ER (recvCell c 0 1) 1 ∅ 0)

/-- The pieces only the end needs, up to step 14. -/
def Done14 (m : (ℓ : Loc nD τ sig) → Buf (Elt F) ℓ) (K : Dev nD × CIx → ℕ) (c : Dev nD) : sProp 𝕄 :=
  iprop(Done13 m K c
      ∗ atPos ER (sendCell c 1 1) 1 ∅ 0
      ∗ slotHas m c 1 0 fullShare.left.left.right
      ∗ atPos ER (recvCell c 1 1) 1 ∅ 0)

/-- The pieces only the end needs, up to step 15. -/
def Done15 (m : (ℓ : Loc nD τ sig) → Buf (Elt F) ℓ) (K : Dev nD × CIx → ℕ) (c : Dev nD) : sProp 𝕄 :=
  iprop(Done14 m K c
      ∗ atPos ER (sendCell c 2 1) 1 ∅ 0
      ∗ slotHas m c 2 0 fullShare.left.left.right
      ∗ atPos ER (recvCell c 2 1) 1 ∅ 0)

/-- The pieces only the end needs, up to step 16. -/
def Done16 (m : (ℓ : Loc nD τ sig) → Buf (Elt F) ℓ) (K : Dev nD × CIx → ℕ) (c : Dev nD) : sProp 𝕄 :=
  iprop(Done15 m K c
      ∗ atPos ER (copyCell c 0 0) 1 ∅ 0
      ∗ pieceDone m c 0 0
      ∗ slotHas m c 0 2 fullShare.right)

/-- The pieces only the end needs, up to step 17. -/
def Done17 (m : (ℓ : Loc nD τ sig) → Buf (Elt F) ℓ) (K : Dev nD × CIx → ℕ) (c : Dev nD) : sProp 𝕄 :=
  iprop(Done16 m K c
      ∗ atPos ER (copyCell c 1 0) 1 ∅ 0
      ∗ pieceDone m c 1 0
      ∗ slotHas m c 1 2 fullShare.right)

/-- The pieces only the end needs, up to step 18. -/
def Done18 (m : (ℓ : Loc nD τ sig) → Buf (Elt F) ℓ) (K : Dev nD × CIx → ℕ) (c : Dev nD) : sProp 𝕄 :=
  iprop(Done17 m K c
      ∗ atPos ER (copyCell c 2 0) 1 ∅ 0
      ∗ pieceDone m c 2 0
      ∗ slotHas m c 2 2 fullShare.right
      ∗ atPos ER (sendCell c 0 3) 1 ∅ 0
      ∗ slotHas m c 0 0 fullShare.left.right)

/-- The pieces only the end needs, up to step 19. -/
def Done19 (m : (ℓ : Loc nD τ sig) → Buf (Elt F) ℓ) (K : Dev nD × CIx → ℕ) (c : Dev nD) : sProp 𝕄 :=
  iprop(Done18 m K c
      ∗ atPos ER (recvCell c 0 3) 1 ∅ 0
      ∗ slotHas m c 0 4 fullShare
      ∗ atPos ER (copyCell c 0 2) 1 ∅ 0
      ∗ pieceDone m c 0 2)

/-- The pieces only the end needs, up to step 20. -/
def Done20 (m : (ℓ : Loc nD τ sig) → Buf (Elt F) ℓ) (K : Dev nD × CIx → ℕ) (c : Dev nD) : sProp 𝕄 :=
  iprop(Done19 m K c
      ∗ atPos ER (sendCell c 1 3) 1 ∅ 0
      ∗ slotHas m c 1 0 fullShare.left.right
      ∗ atPos ER (recvCell c 1 3) 1 ∅ 0
      ∗ slotHas m c 1 4 fullShare
      ∗ atPos ER (copyCell c 1 2) 1 ∅ 0
      ∗ pieceDone m c 1 2)

/-- The pieces only the end needs, up to step 21. -/
def Done21 (m : (ℓ : Loc nD τ sig) → Buf (Elt F) ℓ) (K : Dev nD × CIx → ℕ) (c : Dev nD) : sProp 𝕄 :=
  iprop(Done20 m K c
      ∗ atPos ER (sendCell c 2 3) 1 ∅ 0
      ∗ slotHas m c 2 0 fullShare.left.right
      ∗ atPos ER (recvCell c 2 3) 1 ∅ 0)

/-- The pieces only the end needs, up to step 22. -/
def Done22 (m : (ℓ : Loc nD τ sig) → Buf (Elt F) ℓ) (K : Dev nD × CIx → ℕ) (c : Dev nD) : sProp 𝕄 :=
  iprop(Done21 m K c
      ∗ atPos ER (copyCell c 2 2) 1 ∅ 0
      ∗ pieceDone m c 2 2
      ∗ slotHas m c 2 4 fullShare)

/-- The pieces only the end needs, up to step 23. -/
def Done23 (m : (ℓ : Loc nD τ sig) → Buf (Elt F) ℓ) (K : Dev nD × CIx → ℕ) (c : Dev nD) : sProp 𝕄 :=
  iprop(Done22 m K c
      ∗ atPos ER (sendCell c 0 2) 1 ∅ 0
      ∗ slotHas m c 0 1 fullShare.left.left
      ∗ atPos ER (recvCell c 0 2) 1 ∅ 0)

/-- The pieces only the end needs, up to step 24. -/
def Done24 (m : (ℓ : Loc nD τ sig) → Buf (Elt F) ℓ) (K : Dev nD × CIx → ℕ) (c : Dev nD) : sProp 𝕄 :=
  iprop(Done23 m K c
      ∗ atPos ER (sendCell c 1 2) 1 ∅ 0
      ∗ slotHas m c 1 1 fullShare.left.left
      ∗ atPos ER (recvCell c 1 2) 1 ∅ 0)

/-- The pieces only the end needs, up to step 25. -/
def Done25 (m : (ℓ : Loc nD τ sig) → Buf (Elt F) ℓ) (K : Dev nD × CIx → ℕ) (c : Dev nD) : sProp 𝕄 :=
  iprop(Done24 m K c
      ∗ atPos ER (sendCell c 2 2) 1 ∅ 0
      ∗ slotHas m c 2 1 fullShare.left.left)

/-- The pieces only the end needs, up to step 26. -/
def Done26 (m : (ℓ : Loc nD τ sig) → Buf (Elt F) ℓ) (K : Dev nD × CIx → ℕ) (c : Dev nD) : sProp 𝕄 :=
  iprop(Done25 m K c
      ∗ atPos ER (recvCell c 2 2) 1 ∅ 0)

/-- The pieces only the end needs, up to step 27. -/
def Done27 (m : (ℓ : Loc nD τ sig) → Buf (Elt F) ℓ) (K : Dev nD × CIx → ℕ) (c : Dev nD) : sProp 𝕄 :=
  iprop(Done26 m K c
      ∗ atPos ER (copyCell c 0 1) 1 ∅ 0
      ∗ pieceDone m c 0 1
      ∗ slotHas m c 0 3 fullShare.right)

/-- The pieces only the end needs, up to step 28. -/
def Done28 (m : (ℓ : Loc nD τ sig) → Buf (Elt F) ℓ) (K : Dev nD × CIx → ℕ) (c : Dev nD) : sProp 𝕄 :=
  iprop(Done27 m K c
      ∗ atPos ER (copyCell c 1 1) 1 ∅ 0
      ∗ pieceDone m c 1 1
      ∗ slotHas m c 1 3 fullShare.right
      ∗ atPos ER (copyCell c 2 1) 1 ∅ 0
      ∗ pieceDone m c 2 1
      ∗ slotHas m c 2 3 fullShare.right)

/-- The pieces only the end needs, up to step 29. -/
def Done29 (m : (ℓ : Loc nD τ sig) → Buf (Elt F) ℓ) (K : Dev nD × CIx → ℕ) (c : Dev nD) : sProp 𝕄 :=
  iprop(Done28 m K c
      ∗ atPos ER (sendCell c 0 4) 1 ∅ 0
      ∗ slotHas m c 0 1 fullShare.left.right)

/-- The pieces only the end needs, up to step 30. -/
def Done30 (m : (ℓ : Loc nD τ sig) → Buf (Elt F) ℓ) (K : Dev nD × CIx → ℕ) (c : Dev nD) : sProp 𝕄 :=
  iprop(Done29 m K c
      ∗ atPos ER (recvCell c 0 4) 1 ∅ 0
      ∗ slotHas m c 0 5 fullShare
      ∗ atPos ER (copyCell c 0 3) 1 ∅ 0
      ∗ pieceDone m c 0 3)

/-- The pieces only the end needs, up to step 31. -/
def Done31 (m : (ℓ : Loc nD τ sig) → Buf (Elt F) ℓ) (K : Dev nD × CIx → ℕ) (c : Dev nD) : sProp 𝕄 :=
  iprop(Done30 m K c
      ∗ atPos ER (sendCell c 1 4) 1 ∅ 0
      ∗ slotHas m c 1 1 fullShare.left.right
      ∗ atPos ER (recvCell c 1 4) 1 ∅ 0
      ∗ slotHas m c 1 5 fullShare
      ∗ atPos ER (copyCell c 1 3) 1 ∅ 0
      ∗ pieceDone m c 1 3)

/-- The pieces only the end needs, up to step 32. -/
def Done32 (m : (ℓ : Loc nD τ sig) → Buf (Elt F) ℓ) (K : Dev nD × CIx → ℕ) (c : Dev nD) : sProp 𝕄 :=
  iprop(Done31 m K c
      ∗ atPos ER (sendCell c 2 4) 1 ∅ 0
      ∗ slotHas m c 2 1 fullShare.left.right
      ∗ atPos ER (recvCell c 2 4) 1 ∅ 0)

/-- The pieces only the end needs, up to step 33. -/
def Done33 (m : (ℓ : Loc nD τ sig) → Buf (Elt F) ℓ) (K : Dev nD × CIx → ℕ) (c : Dev nD) : sProp 𝕄 :=
  iprop(Done32 m K c
      ∗ atPos ER (copyCell c 2 3) 1 ∅ 0
      ∗ pieceDone m c 2 3
      ∗ slotHas m c 2 5 fullShare
      ∗ atPos ER (sendCell c 0 5) 1 ∅ 0
      ∗ slotHas m c 0 2 fullShare.left)

/-- The pieces only the end needs, up to step 34. -/
def Done34 (m : (ℓ : Loc nD τ sig) → Buf (Elt F) ℓ) (K : Dev nD × CIx → ℕ) (c : Dev nD) : sProp 𝕄 :=
  iprop(Done33 m K c
      ∗ atPos ER (recvCell c 0 5) 1 ∅ 0
      ∗ slotHas m c 0 6 fullShare
      ∗ atPos ER (copyCell c 0 4) 1 ∅ 0
      ∗ pieceDone m c 0 4)

/-- The pieces only the end needs, up to step 35. -/
def Done35 (m : (ℓ : Loc nD τ sig) → Buf (Elt F) ℓ) (K : Dev nD × CIx → ℕ) (c : Dev nD) : sProp 𝕄 :=
  iprop(Done34 m K c
      ∗ atPos ER (sendCell c 1 5) 1 ∅ 0
      ∗ slotHas m c 1 2 fullShare.left
      ∗ atPos ER (recvCell c 1 5) 1 ∅ 0
      ∗ slotHas m c 1 6 fullShare
      ∗ atPos ER (copyCell c 1 4) 1 ∅ 0
      ∗ pieceDone m c 1 4)

/-- The pieces only the end needs, up to step 36. -/
def Done36 (m : (ℓ : Loc nD τ sig) → Buf (Elt F) ℓ) (K : Dev nD × CIx → ℕ) (c : Dev nD) : sProp 𝕄 :=
  iprop(Done35 m K c
      ∗ atPos ER (sendCell c 2 5) 1 ∅ 0
      ∗ slotHas m c 2 2 fullShare.left
      ∗ atPos ER (recvCell c 2 5) 1 ∅ 0)

/-- The pieces only the end needs, up to step 37. -/
def Done37 (m : (ℓ : Loc nD τ sig) → Buf (Elt F) ℓ) (K : Dev nD × CIx → ℕ) (c : Dev nD) : sProp 𝕄 :=
  iprop(Done36 m K c
      ∗ atPos ER (copyCell c 2 4) 1 ∅ 0
      ∗ pieceDone m c 2 4
      ∗ slotHas m c 2 6 fullShare)

/-- The pieces only the end needs, up to step 38. -/
def Done38 (m : (ℓ : Loc nD τ sig) → Buf (Elt F) ℓ) (K : Dev nD × CIx → ℕ) (c : Dev nD) : sProp 𝕄 :=
  iprop(Done37 m K c
      ∗ atPos ER (sendCell c 0 6) 1 ∅ 0
      ∗ slotTop m c 0 3 fullShare.left
      ∗ atPos ER (recvCell c 0 6) 1 ∅ 0
      ∗ slotTop m c 0 7 fullShare
      ∗ atPos ER (copyCell c 0 5) 1 ∅ 0
      ∗ pieceDone m c 0 5)

/-- The pieces only the end needs, up to step 39. -/
def Done39 (m : (ℓ : Loc nD τ sig) → Buf (Elt F) ℓ) (K : Dev nD × CIx → ℕ) (c : Dev nD) : sProp 𝕄 :=
  iprop(Done38 m K c
      ∗ atPos ER (sendCell c 1 6) 1 ∅ 0
      ∗ slotTop m c 1 3 fullShare.left
      ∗ atPos ER (recvCell c 1 6) 1 ∅ 0
      ∗ slotTop m c 1 7 fullShare
      ∗ atPos ER (copyCell c 1 5) 1 ∅ 0
      ∗ pieceDone m c 1 5)

/-- The pieces only the end needs, up to step 40. -/
def Done40 (m : (ℓ : Loc nD τ sig) → Buf (Elt F) ℓ) (K : Dev nD × CIx → ℕ) (c : Dev nD) : sProp 𝕄 :=
  iprop(Done39 m K c
      ∗ atPos ER (sendCell c 2 6) 1 ∅ 0
      ∗ slotTop m c 2 3 fullShare.left
      ∗ atPos ER (recvCell c 2 6) 1 ∅ 0
      ∗ slotTop m c 2 7 fullShare
      ∗ atPos ER (copyCell c 2 5) 1 ∅ 0
      ∗ pieceDone m c 2 5)

/-- The pieces only the end needs, up to step 41. -/
def Done41 (m : (ℓ : Loc nD τ sig) → Buf (Elt F) ℓ) (K : Dev nD × CIx → ℕ) (c : Dev nD) : sProp 𝕄 :=
  iprop(Done40 m K c
      ∗ atPos ER (sendCell c 0 7) 1 ∅ 0
      ∗ slotBot m c 0 3 fullShare.left
      ∗ atPos ER (recvCell c 0 7) 1 ∅ 0
      ∗ slotBot m c 0 7 fullShare)

/-- The pieces only the end needs, up to step 42. -/
def Done42 (m : (ℓ : Loc nD τ sig) → Buf (Elt F) ℓ) (K : Dev nD × CIx → ℕ) (c : Dev nD) : sProp 𝕄 :=
  iprop(Done41 m K c
      ∗ atPos ER (sendCell c 1 7) 1 ∅ 0
      ∗ slotBot m c 1 3 fullShare.left)

/-- The pieces only the end needs, up to step 43. -/
def Done43 (m : (ℓ : Loc nD τ sig) → Buf (Elt F) ℓ) (K : Dev nD × CIx → ℕ) (c : Dev nD) : sProp 𝕄 :=
  iprop(Done42 m K c
      ∗ atPos ER (recvCell c 1 7) 1 ∅ 0
      ∗ slotBot m c 1 7 fullShare
      ∗ atPos ER (sendCell c 2 7) 1 ∅ 0
      ∗ slotBot m c 2 3 fullShare.left)

/-- The pieces only the end needs, up to step 44. -/
def Done44 (m : (ℓ : Loc nD τ sig) → Buf (Elt F) ℓ) (K : Dev nD × CIx → ℕ) (c : Dev nD) : sProp 𝕄 :=
  iprop(Done43 m K c
      ∗ atPos ER (recvCell c 2 7) 1 ∅ 0
      ∗ slotBot m c 2 7 fullShare
      ∗ holdsPts c b16M fullShare (bv m c))

/-- The pieces only the end needs, up to step 45. -/
def Done45 (m : (ℓ : Loc nD τ sig) → Buf (Elt F) ℓ) (K : Dev nD × CIx → ℕ) (c : Dev nD) : sProp 𝕄 :=
  iprop(Done44 m K c
      ∗ atPos ER (copyCell c 0 6) 1 ∅ 0
      ∗ pieceDone m c 0 6
      ∗ stageAny c 0 0
      ∗ atPos ER (copyCell c 0 7) 1 ∅ 0
      ∗ pieceDone m c 0 7
      ∗ stageAny c 0 1
      ∗ atPos ER (copyCell c 1 6) 1 ∅ 0
      ∗ pieceDone m c 1 6
      ∗ stageAny c 1 0
      ∗ atPos ER (copyCell c 1 7) 1 ∅ 0
      ∗ pieceDone m c 1 7
      ∗ stageAny c 1 1
      ∗ atPos ER (copyCell c 2 6) 1 ∅ 0
      ∗ pieceDone m c 2 6
      ∗ stageAny c 2 0)

/-- The pieces only the end needs, up to step 46. -/
def Done46 (m : (ℓ : Loc nD τ sig) → Buf (Elt F) ℓ) (K : Dev nD × CIx → ℕ) (c : Dev nD) : sProp 𝕄 :=
  iprop(Done45 m K c
      ∗ (∃ W, owes (c : Thread nD τ) (Orem ((payList c).drop 27)) W)
      ∗ atPos ER (copyCell c 2 7) 1 ∅ 0
      ∗ pieceDone m c 2 7
      ∗ stageAny c 2 1)

end Cert.Kernel.DM
end
-- ==== Proof.Bits.ChainEqs1.lean ====
/- GENERATED by: bun scratch/gen_partspecs.js "$KIT/certs/proofs/900891_g7700000000000892_dist_matmul_m_i_outrep_m1024_n1024_k512_v7x_i8_f32_1_alg" "proofs.«900891_g7700000000000892_dist_matmul_m_i_outrep_m1024_n1024_k512_v7x_i8_f32_1_alg».proof" "chaineqs" "1" "12" "--prog" "Kernel" "--sub" "Bits" (run from the unit directory; the script is filed beside this module): the
   state before each step of the body regrouped as that step's pieces and the rest, steps 1 to 12. -/
import proofs.«900891_g7700000000000892_dist_matmul_m_i_outrep_m1024_n1024_k512_v7x_i8_f32_1_alg».proof.Proof.Bits.ChainDefs
set_option maxRecDepth 16384
noncomputable section
namespace Cert.Kernel.DM
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (K : Dev nD × CIx → ℕ)

attribute [local irreducible] cred atPos dutyTok owes reached records inA inB slotAny slotHas slotTop slotBot stageAny stageHas stageTop pieceAny pieceDone dstAny anyPts holdsPts Orem payList tallyAt xferAmt copyAmt partner xr mask

set_option maxHeartbeats 2000000 in
theorem eq_start (c : Dev nD) : InitChain m K c = (iprop(records (Rd m) K ∗ levAts L lv ∗ atPos ER (copyCell c 2 7) 0 ∅ 0
      ∗ InitFrom1 m K c) : sProp 𝕄) := by
  unfold InitChain InitFrom1 InitFrom2 InitFrom3 InitFrom4 InitFrom5 InitFrom6 InitFrom7 InitFrom8 InitFrom9 InitFrom10 InitFrom11 InitFrom12 InitFrom13 InitFrom14 InitFrom15 InitFrom16 InitFrom17 InitFrom18 InitFrom19 InitFrom20 InitFrom21 InitFrom22 InitFrom23 InitFrom24 InitFrom25 InitFrom26 InitFrom27 InitFrom28 InitFrom29 InitFrom30 InitFrom31 InitFrom32 InitFrom33 InitFrom34 InitFrom35 InitFrom36 InitFrom37 InitFrom38 InitFrom39 InitFrom40 InitFrom41 InitFrom42 InitFrom43 InitFrom44 InitFrom45
  ac_rfl

set_option maxHeartbeats 2000000 in
theorem eq_step1 (c : Dev nD) :
    (iprop(atPos ER (copyCell c 2 7) 0 ∅ 0
      ∗ InitFrom1 m K c) : sProp 𝕄)
    = iprop((dutyTok ER (barCell (xr c (dir 0))) 0 0
      ∗ dstAny c 0 0
      ∗ dstAny c 1 3
      ∗ dstAny c 1 4
      ∗ dstAny c 1 5
      ∗ dstAny c 1 6
      ∗ dstAny c 1 7
      ∗ dstAny c 2 1
      ∗ dstAny c 2 2
      ∗ (∃ W, owes (c : Thread nD τ) (Orem ((payList c).drop 0)) W)
      ∗ dutyTok ER (barCell (xr c (dir 1))) 0 1
      ∗ dstAny c 0 1
      ∗ dstAny c 0 2
      ∗ dstAny c 1 0
      ∗ dstAny c 2 3
      ∗ dstAny c 2 4
      ∗ dstAny c 2 5
      ∗ dstAny c 2 6
      ∗ dstAny c 2 7
      ∗ dutyTok ER (barCell (xr c (dir 2))) 0 2
      ∗ dstAny c 0 3
      ∗ dstAny c 0 4
      ∗ dstAny c 0 5
      ∗ dstAny c 0 6
      ∗ dstAny c 0 7
      ∗ dstAny c 1 1
      ∗ dstAny c 1 2
      ∗ dstAny c 2 0
      ∗ inA m c
      ∗ slotAny c 0 0
      ∗ slotAny c 1 0)
      ∗ (atPos ER (copyCell c 2 7) 0 ∅ 0
      ∗ InitFrom2 m K c)) := by
  unfold InitFrom1
  ac_rfl

set_option maxHeartbeats 2000000 in
theorem eq_step2 (c : Dev nD) :
    (iprop(((∃ W, owes (c : Thread nD τ) (Orem ((payList c).drop 3)) W)
      ∗ inA m c
      ∗ slotHas m c 0 0 fullShare.left.left.left
      ∗ slotHas m c 0 0 fullShare.left.left.right
      ∗ slotHas m c 0 0 fullShare.left.right
      ∗ slotHas m c 0 0 fullShare.right
      ∗ slotHas m c 1 0 fullShare.left.left.left
      ∗ slotHas m c 1 0 fullShare.left.left.right
      ∗ slotHas m c 1 0 fullShare.left.right
      ∗ slotHas m c 1 0 fullShare.right)
      ∗ (atPos ER (copyCell c 2 7) 0 ∅ 0
      ∗ InitFrom2 m K c)) : sProp 𝕄)
    = iprop((slotAny c 2 0
      ∗ cred (tallyAt (barCell c) () 3)
      ∗ atPos ER (barCell c) 0 ∅ 0
      ∗ (∃ W, owes (c : Thread nD τ) (Orem ((payList c).drop 3)) W)
      ∗ slotHas m c 0 0 fullShare.left.left.left
      ∗ dutyTok ER (sendCell c 0 0) 0 0
      ∗ dutyTok ER (recvCell (partner c 0 0) 0 0) 0 0
      ∗ slotHas m c 1 0 fullShare.left.left.left
      ∗ dutyTok ER (sendCell c 1 0) 0 0
      ∗ dutyTok ER (recvCell (partner c 1 0) 1 0) 0 0)
      ∗ (atPos ER (copyCell c 2 7) 0 ∅ 0
      ∗ slotHas m c 0 0 fullShare.left.left.right
      ∗ slotHas m c 0 0 fullShare.left.right
      ∗ slotHas m c 0 0 fullShare.right
      ∗ slotHas m c 1 0 fullShare.left.left.right
      ∗ slotHas m c 1 0 fullShare.left.right
      ∗ slotHas m c 1 0 fullShare.right
      ∗ Done1 m K c
      ∗ InitFrom3 m K c)) := by
  unfold InitFrom2 Done1
  ac_rfl

set_option maxHeartbeats 2000000 in
theorem eq_step3 (c : Dev nD) :
    (iprop((slotHas m c 2 0 fullShare.left.left.left
      ∗ slotHas m c 2 0 fullShare.left.left.right
      ∗ slotHas m c 2 0 fullShare.left.right
      ∗ slotHas m c 2 0 fullShare.right
      ∗ atPos ER (barCell c) 1 ∅ 0
      ∗ dstAny (partner c 0 1) 0 1
      ∗ dstAny (partner c 0 2) 0 2
      ∗ dstAny (partner c 0 3) 0 3
      ∗ dstAny (partner c 0 4) 0 4
      ∗ dstAny (partner c 0 5) 0 5
      ∗ dstAny (partner c 0 6) 0 6
      ∗ dstAny (partner c 0 7) 0 7
      ∗ dstAny (partner c 1 1) 1 1
      ∗ dstAny (partner c 1 2) 1 2
      ∗ dstAny (partner c 1 3) 1 3
      ∗ dstAny (partner c 1 4) 1 4
      ∗ dstAny (partner c 1 5) 1 5
      ∗ dstAny (partner c 1 6) 1 6
      ∗ dstAny (partner c 1 7) 1 7
      ∗ dstAny (partner c 2 0) 2 0
      ∗ dstAny (partner c 2 1) 2 1
      ∗ dstAny (partner c 2 2) 2 2
      ∗ dstAny (partner c 2 3) 2 3
      ∗ dstAny (partner c 2 4) 2 4
      ∗ dstAny (partner c 2 5) 2 5
      ∗ dstAny (partner c 2 6) 2 6
      ∗ dstAny (partner c 2 7) 2 7
      ∗ cred (tallyAt (sendCell c 0 0) () (xferAmt 0 0))
      ∗ (∃ W, owes (c : Thread nD τ) (Orem ((payList c).drop 5)) W)
      ∗ cred (tallyAt (sendCell c 1 0) () (xferAmt 1 0)))
      ∗ (atPos ER (copyCell c 2 7) 0 ∅ 0
      ∗ slotHas m c 0 0 fullShare.left.left.right
      ∗ slotHas m c 0 0 fullShare.left.right
      ∗ slotHas m c 0 0 fullShare.right
      ∗ slotHas m c 1 0 fullShare.left.left.right
      ∗ slotHas m c 1 0 fullShare.left.right
      ∗ slotHas m c 1 0 fullShare.right
      ∗ Done1 m K c
      ∗ InitFrom3 m K c)) : sProp 𝕄)
    = iprop((slotHas m c 2 0 fullShare.left.left.left
      ∗ dstAny (partner c 2 0) 2 0
      ∗ dutyTok ER (sendCell c 2 0) 0 0
      ∗ dutyTok ER (recvCell (partner c 2 0) 2 0) 0 0
      ∗ (∃ W, owes (c : Thread nD τ) (Orem ((payList c).drop 5)) W)
      ∗ slotHas m c 0 0 fullShare.left.left.right
      ∗ dstAny (partner c 0 1) 0 1
      ∗ dutyTok ER (sendCell c 0 1) 0 0
      ∗ dutyTok ER (recvCell (partner c 0 1) 0 1) 0 0)
      ∗ (atPos ER (copyCell c 2 7) 0 ∅ 0
      ∗ slotHas m c 0 0 fullShare.left.right
      ∗ slotHas m c 0 0 fullShare.right
      ∗ slotHas m c 1 0 fullShare.left.left.right
      ∗ slotHas m c 1 0 fullShare.left.right
      ∗ slotHas m c 1 0 fullShare.right
      ∗ slotHas m c 2 0 fullShare.left.left.right
      ∗ slotHas m c 2 0 fullShare.left.right
      ∗ slotHas m c 2 0 fullShare.right
      ∗ dstAny (partner c 0 2) 0 2
      ∗ dstAny (partner c 0 3) 0 3
      ∗ dstAny (partner c 0 4) 0 4
      ∗ dstAny (partner c 0 5) 0 5
      ∗ dstAny (partner c 0 6) 0 6
      ∗ dstAny (partner c 0 7) 0 7
      ∗ dstAny (partner c 1 1) 1 1
      ∗ dstAny (partner c 1 2) 1 2
      ∗ dstAny (partner c 1 3) 1 3
      ∗ dstAny (partner c 1 4) 1 4
      ∗ dstAny (partner c 1 5) 1 5
      ∗ dstAny (partner c 1 6) 1 6
      ∗ dstAny (partner c 1 7) 1 7
      ∗ dstAny (partner c 2 1) 2 1
      ∗ dstAny (partner c 2 2) 2 2
      ∗ dstAny (partner c 2 3) 2 3
      ∗ dstAny (partner c 2 4) 2 4
      ∗ dstAny (partner c 2 5) 2 5
      ∗ dstAny (partner c 2 6) 2 6
      ∗ dstAny (partner c 2 7) 2 7
      ∗ cred (tallyAt (sendCell c 0 0) () (xferAmt 0 0))
      ∗ cred (tallyAt (sendCell c 1 0) () (xferAmt 1 0))
      ∗ Done2 m K c
      ∗ InitFrom4 m K c)) := by
  unfold InitFrom3 Done2
  ac_rfl

set_option maxHeartbeats 2000000 in
theorem eq_step4 (c : Dev nD) :
    (iprop((cred (tallyAt (sendCell c 2 0) () (xferAmt 2 0))
      ∗ (∃ W, owes (c : Thread nD τ) (Orem ((payList c).drop 7)) W)
      ∗ cred (tallyAt (sendCell c 0 1) () (xferAmt 0 1)))
      ∗ (atPos ER (copyCell c 2 7) 0 ∅ 0
      ∗ slotHas m c 0 0 fullShare.left.right
      ∗ slotHas m c 0 0 fullShare.right
      ∗ slotHas m c 1 0 fullShare.left.left.right
      ∗ slotHas m c 1 0 fullShare.left.right
      ∗ slotHas m c 1 0 fullShare.right
      ∗ slotHas m c 2 0 fullShare.left.left.right
      ∗ slotHas m c 2 0 fullShare.left.right
      ∗ slotHas m c 2 0 fullShare.right
      ∗ dstAny (partner c 0 2) 0 2
      ∗ dstAny (partner c 0 3) 0 3
      ∗ dstAny (partner c 0 4) 0 4
      ∗ dstAny (partner c 0 5) 0 5
      ∗ dstAny (partner c 0 6) 0 6
      ∗ dstAny (partner c 0 7) 0 7
      ∗ dstAny (partner c 1 1) 1 1
      ∗ dstAny (partner c 1 2) 1 2
      ∗ dstAny (partner c 1 3) 1 3
      ∗ dstAny (partner c 1 4) 1 4
      ∗ dstAny (partner c 1 5) 1 5
      ∗ dstAny (partner c 1 6) 1 6
      ∗ dstAny (partner c 1 7) 1 7
      ∗ dstAny (partner c 2 1) 2 1
      ∗ dstAny (partner c 2 2) 2 2
      ∗ dstAny (partner c 2 3) 2 3
      ∗ dstAny (partner c 2 4) 2 4
      ∗ dstAny (partner c 2 5) 2 5
      ∗ dstAny (partner c 2 6) 2 6
      ∗ dstAny (partner c 2 7) 2 7
      ∗ cred (tallyAt (sendCell c 0 0) () (xferAmt 0 0))
      ∗ cred (tallyAt (sendCell c 1 0) () (xferAmt 1 0))
      ∗ Done2 m K c
      ∗ InitFrom4 m K c)) : sProp 𝕄)
    = iprop((slotHas m c 1 0 fullShare.left.left.right
      ∗ dstAny (partner c 1 1) 1 1
      ∗ dutyTok ER (sendCell c 1 1) 0 0
      ∗ dutyTok ER (recvCell (partner c 1 1) 1 1) 0 0
      ∗ (∃ W, owes (c : Thread nD τ) (Orem ((payList c).drop 7)) W)
      ∗ slotHas m c 2 0 fullShare.left.left.right
      ∗ dstAny (partner c 2 1) 2 1
      ∗ dutyTok ER (sendCell c 2 1) 0 0
      ∗ dutyTok ER (recvCell (partner c 2 1) 2 1) 0 0
      ∗ slotHas m c 0 0 fullShare.left.right
      ∗ dstAny (partner c 0 3) 0 3
      ∗ dutyTok ER (sendCell c 0 3) 0 0
      ∗ dutyTok ER (recvCell (partner c 0 3) 0 3) 0 0)
      ∗ (atPos ER (copyCell c 2 7) 0 ∅ 0
      ∗ slotHas m c 0 0 fullShare.right
      ∗ slotHas m c 1 0 fullShare.left.right
      ∗ slotHas m c 1 0 fullShare.right
      ∗ slotHas m c 2 0 fullShare.left.right
      ∗ slotHas m c 2 0 fullShare.right
      ∗ dstAny (partner c 0 2) 0 2
      ∗ dstAny (partner c 0 4) 0 4
      ∗ dstAny (partner c 0 5) 0 5
      ∗ dstAny (partner c 0 6) 0 6
      ∗ dstAny (partner c 0 7) 0 7
      ∗ dstAny (partner c 1 2) 1 2
      ∗ dstAny (partner c 1 3) 1 3
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 3) 2 3
      ∗ dstAny (partner c 2 4) 2 4
      ∗ dstAny (partner c 2 5) 2 5
      ∗ dstAny (partner c 2 6) 2 6
      ∗ dstAny (partner c 2 7) 2 7
      ∗ cred (tallyAt (sendCell c 0 0) () (xferAmt 0 0))
      ∗ cred (tallyAt (sendCell c 1 0) () (xferAmt 1 0))
      ∗ cred (tallyAt (sendCell c 2 0) () (xferAmt 2 0))
      ∗ cred (tallyAt (sendCell c 0 1) () (xferAmt 0 1))
      ∗ Done2 m K c
      ∗ InitFrom5 m K c)) := by
  unfold InitFrom4
  ac_rfl

set_option maxHeartbeats 2000000 in
theorem eq_step5 (c : Dev nD) :
    (iprop((cred (tallyAt (sendCell c 1 1) () (xferAmt 1 1))
      ∗ cred (tallyAt (sendCell c 2 1) () (xferAmt 2 1))
      ∗ (∃ W, owes (c : Thread nD τ) (Orem ((payList c).drop 10)) W)
      ∗ cred (tallyAt (sendCell c 0 3) () (xferAmt 0 3)))
      ∗ (atPos ER (copyCell c 2 7) 0 ∅ 0
      ∗ slotHas m c 0 0 fullShare.right
      ∗ slotHas m c 1 0 fullShare.left.right
      ∗ slotHas m c 1 0 fullShare.right
      ∗ slotHas m c 2 0 fullShare.left.right
      ∗ slotHas m c 2 0 fullShare.right
      ∗ dstAny (partner c 0 2) 0 2
      ∗ dstAny (partner c 0 4) 0 4
      ∗ dstAny (partner c 0 5) 0 5
      ∗ dstAny (partner c 0 6) 0 6
      ∗ dstAny (partner c 0 7) 0 7
      ∗ dstAny (partner c 1 2) 1 2
      ∗ dstAny (partner c 1 3) 1 3
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 3) 2 3
      ∗ dstAny (partner c 2 4) 2 4
      ∗ dstAny (partner c 2 5) 2 5
      ∗ dstAny (partner c 2 6) 2 6
      ∗ dstAny (partner c 2 7) 2 7
      ∗ cred (tallyAt (sendCell c 0 0) () (xferAmt 0 0))
      ∗ cred (tallyAt (sendCell c 1 0) () (xferAmt 1 0))
      ∗ cred (tallyAt (sendCell c 2 0) () (xferAmt 2 0))
      ∗ cred (tallyAt (sendCell c 0 1) () (xferAmt 0 1))
      ∗ Done2 m K c
      ∗ InitFrom5 m K c)) : sProp 𝕄)
    = iprop((slotHas m c 1 0 fullShare.left.right
      ∗ dstAny (partner c 1 3) 1 3
      ∗ dutyTok ER (sendCell c 1 3) 0 0
      ∗ dutyTok ER (recvCell (partner c 1 3) 1 3) 0 0
      ∗ (∃ W, owes (c : Thread nD τ) (Orem ((payList c).drop 10)) W)
      ∗ slotHas m c 2 0 fullShare.left.right
      ∗ dstAny (partner c 2 3) 2 3
      ∗ dutyTok ER (sendCell c 2 3) 0 0
      ∗ dutyTok ER (recvCell (partner c 2 3) 2 3) 0 0
      ∗ inB m c
      ∗ anyPts c b16M
      ∗ slotHas m c 0 0 fullShare.right)
      ∗ (atPos ER (copyCell c 2 7) 0 ∅ 0
      ∗ slotHas m c 1 0 fullShare.right
      ∗ slotHas m c 2 0 fullShare.right
      ∗ dstAny (partner c 0 2) 0 2
      ∗ dstAny (partner c 0 4) 0 4
      ∗ dstAny (partner c 0 5) 0 5
      ∗ dstAny (partner c 0 6) 0 6
      ∗ dstAny (partner c 0 7) 0 7
      ∗ dstAny (partner c 1 2) 1 2
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 0 0) () (xferAmt 0 0))
      ∗ cred (tallyAt (sendCell c 1 0) () (xferAmt 1 0))
      ∗ cred (tallyAt (sendCell c 2 0) () (xferAmt 2 0))
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ Done2 m K c
      ∗ InitFrom6 m K c)) := by
  unfold InitFrom5
  ac_rfl

set_option maxHeartbeats 2000000 in
theorem eq_step6 (c : Dev nD) :
    (iprop((cred (tallyAt (sendCell c 1 3) () (xferAmt 1 3))
      ∗ (∃ W, owes (c : Thread nD τ) (Orem ((payList c).drop 12)) W)
      ∗ cred (tallyAt (sendCell c 2 3) () (xferAmt 2 3))
      ∗ inB m c
      ∗ holdsPts c b16M fullShare (bv m c)
      ∗ slotHas m c 0 0 fullShare.right)
      ∗ (atPos ER (copyCell c 2 7) 0 ∅ 0
      ∗ slotHas m c 1 0 fullShare.right
      ∗ slotHas m c 2 0 fullShare.right
      ∗ dstAny (partner c 0 2) 0 2
      ∗ dstAny (partner c 0 4) 0 4
      ∗ dstAny (partner c 0 5) 0 5
      ∗ dstAny (partner c 0 6) 0 6
      ∗ dstAny (partner c 0 7) 0 7
      ∗ dstAny (partner c 1 2) 1 2
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 0 0) () (xferAmt 0 0))
      ∗ cred (tallyAt (sendCell c 1 0) () (xferAmt 1 0))
      ∗ cred (tallyAt (sendCell c 2 0) () (xferAmt 2 0))
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ Done2 m K c
      ∗ InitFrom6 m K c)) : sProp 𝕄)
    = iprop((stageAny c 0 0
      ∗ pieceAny c 0 0
      ∗ dutyTok ER (copyCell c 0 0) 0 0
      ∗ slotHas m c 1 0 fullShare.right
      ∗ holdsPts c b16M fullShare (bv m c)
      ∗ stageAny c 1 0
      ∗ pieceAny c 1 0
      ∗ dutyTok ER (copyCell c 1 0) 0 0)
      ∗ (atPos ER (copyCell c 2 7) 0 ∅ 0
      ∗ slotHas m c 2 0 fullShare.right
      ∗ dstAny (partner c 0 2) 0 2
      ∗ dstAny (partner c 0 4) 0 4
      ∗ dstAny (partner c 0 5) 0 5
      ∗ dstAny (partner c 0 6) 0 6
      ∗ dstAny (partner c 0 7) 0 7
      ∗ dstAny (partner c 1 2) 1 2
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 0 0) () (xferAmt 0 0))
      ∗ cred (tallyAt (sendCell c 1 0) () (xferAmt 1 0))
      ∗ cred (tallyAt (sendCell c 2 0) () (xferAmt 2 0))
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ (∃ W, owes (c : Thread nD τ) (Orem ((payList c).drop 12)) W)
      ∗ cred (tallyAt (sendCell c 2 3) () (xferAmt 2 3))
      ∗ Done5 m K c
      ∗ InitFrom7 m K c)) := by
  unfold InitFrom6 Done5
  ac_rfl

set_option maxHeartbeats 2000000 in
theorem eq_step7 (c : Dev nD) :
    (iprop((cred (tallyAt (copyCell c 0 0) () (copyAmt 0))
      ∗ slotHas m c 1 0 fullShare.right
      ∗ holdsPts c b16M fullShare (bv m c)
      ∗ cred (tallyAt (copyCell c 1 0) () (copyAmt 1)))
      ∗ (atPos ER (copyCell c 2 7) 0 ∅ 0
      ∗ slotHas m c 2 0 fullShare.right
      ∗ dstAny (partner c 0 2) 0 2
      ∗ dstAny (partner c 0 4) 0 4
      ∗ dstAny (partner c 0 5) 0 5
      ∗ dstAny (partner c 0 6) 0 6
      ∗ dstAny (partner c 0 7) 0 7
      ∗ dstAny (partner c 1 2) 1 2
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 0 0) () (xferAmt 0 0))
      ∗ cred (tallyAt (sendCell c 1 0) () (xferAmt 1 0))
      ∗ cred (tallyAt (sendCell c 2 0) () (xferAmt 2 0))
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ (∃ W, owes (c : Thread nD τ) (Orem ((payList c).drop 12)) W)
      ∗ cred (tallyAt (sendCell c 2 3) () (xferAmt 2 3))
      ∗ Done5 m K c
      ∗ InitFrom7 m K c)) : sProp 𝕄)
    = iprop((slotHas m c 2 0 fullShare.right
      ∗ holdsPts c b16M fullShare (bv m c)
      ∗ stageAny c 2 0
      ∗ pieceAny c 2 0
      ∗ dutyTok ER (copyCell c 2 0) 0 0
      ∗ cred (tallyAt (sendCell c 0 0) () (xferAmt 0 0))
      ∗ atPos ER (sendCell c 0 0) 0 ∅ 0
      ∗ (∃ W, owes (c : Thread nD τ) (Orem ((payList c).drop 12)) W))
      ∗ (atPos ER (copyCell c 2 7) 0 ∅ 0
      ∗ dstAny (partner c 0 2) 0 2
      ∗ dstAny (partner c 0 4) 0 4
      ∗ dstAny (partner c 0 5) 0 5
      ∗ dstAny (partner c 0 6) 0 6
      ∗ dstAny (partner c 0 7) 0 7
      ∗ dstAny (partner c 1 2) 1 2
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 1 0) () (xferAmt 1 0))
      ∗ cred (tallyAt (sendCell c 2 0) () (xferAmt 2 0))
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ Done6 m K c
      ∗ InitFrom8 m K c)) := by
  unfold InitFrom7 Done6
  ac_rfl

set_option maxHeartbeats 2000000 in
theorem eq_step8 (c : Dev nD) :
    (iprop((slotHas m c 2 0 fullShare.right
      ∗ holdsPts c b16M fullShare (bv m c)
      ∗ cred (tallyAt (copyCell c 2 0) () (copyAmt 2))
      ∗ (∃ W, owes (c : Thread nD τ) (Orem ((payList c).drop 12)) W)
      ∗ atPos ER (sendCell c 0 0) 1 ∅ 0
      ∗ slotHas m c 0 0 fullShare.left.left.left)
      ∗ (atPos ER (copyCell c 2 7) 0 ∅ 0
      ∗ dstAny (partner c 0 2) 0 2
      ∗ dstAny (partner c 0 4) 0 4
      ∗ dstAny (partner c 0 5) 0 5
      ∗ dstAny (partner c 0 6) 0 6
      ∗ dstAny (partner c 0 7) 0 7
      ∗ dstAny (partner c 1 2) 1 2
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 1 0) () (xferAmt 1 0))
      ∗ cred (tallyAt (sendCell c 2 0) () (xferAmt 2 0))
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ Done6 m K c
      ∗ InitFrom8 m K c)) : sProp 𝕄)
    = iprop((cred (tallyAt (recvCell c 0 0) () (xferAmt 0 0))
      ∗ atPos ER (recvCell c 0 0) 0 ∅ 0
      ∗ (∃ W, owes (c : Thread nD τ) (Orem ((payList c).drop 12)) W)
      ∗ dstAny (partner c 0 2) 0 2
      ∗ dutyTok ER (sendCell c 0 2) 0 0
      ∗ dutyTok ER (recvCell (partner c 0 2) 0 2) 0 0
      ∗ dstAny (partner c 0 4) 0 4
      ∗ dutyTok ER (sendCell c 0 4) 0 0
      ∗ dutyTok ER (recvCell (partner c 0 4) 0 4) 0 0)
      ∗ (atPos ER (copyCell c 2 7) 0 ∅ 0
      ∗ dstAny (partner c 0 5) 0 5
      ∗ dstAny (partner c 0 6) 0 6
      ∗ dstAny (partner c 0 7) 0 7
      ∗ dstAny (partner c 1 2) 1 2
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 1 0) () (xferAmt 1 0))
      ∗ cred (tallyAt (sendCell c 2 0) () (xferAmt 2 0))
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ holdsPts c b16M fullShare (bv m c)
      ∗ cred (tallyAt (copyCell c 2 0) () (copyAmt 2))
      ∗ Done7 m K c
      ∗ InitFrom9 m K c)) := by
  unfold InitFrom8 Done7
  ac_rfl

set_option maxHeartbeats 2000000 in
theorem eq_step9 (c : Dev nD) :
    (iprop((atPos ER (recvCell c 0 0) 1 ∅ 0
      ∗ slotHas m c 0 1 fullShare.right
      ∗ cred (tallyAt (sendCell c 0 2) () (xferAmt 0 2))
      ∗ (∃ W, owes (c : Thread nD τ) (Orem ((payList c).drop 14)) W)
      ∗ cred (tallyAt (sendCell c 0 4) () (xferAmt 0 4)))
      ∗ (atPos ER (copyCell c 2 7) 0 ∅ 0
      ∗ dstAny (partner c 0 5) 0 5
      ∗ dstAny (partner c 0 6) 0 6
      ∗ dstAny (partner c 0 7) 0 7
      ∗ dstAny (partner c 1 2) 1 2
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 1 0) () (xferAmt 1 0))
      ∗ cred (tallyAt (sendCell c 2 0) () (xferAmt 2 0))
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ holdsPts c b16M fullShare (bv m c)
      ∗ cred (tallyAt (copyCell c 2 0) () (copyAmt 2))
      ∗ Done7 m K c
      ∗ InitFrom9 m K c)) : sProp 𝕄)
    = iprop((cred (tallyAt (sendCell c 1 0) () (xferAmt 1 0))
      ∗ atPos ER (sendCell c 1 0) 0 ∅ 0
      ∗ (∃ W, owes (c : Thread nD τ) (Orem ((payList c).drop 14)) W)
      ∗ cred (tallyAt (recvCell c 1 0) () (xferAmt 1 0))
      ∗ atPos ER (recvCell c 1 0) 0 ∅ 0
      ∗ dstAny (partner c 1 2) 1 2
      ∗ dutyTok ER (sendCell c 1 2) 0 0
      ∗ dutyTok ER (recvCell (partner c 1 2) 1 2) 0 0)
      ∗ (atPos ER (copyCell c 2 7) 0 ∅ 0
      ∗ dstAny (partner c 0 5) 0 5
      ∗ dstAny (partner c 0 6) 0 6
      ∗ dstAny (partner c 0 7) 0 7
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 2 0) () (xferAmt 2 0))
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ holdsPts c b16M fullShare (bv m c)
      ∗ cred (tallyAt (copyCell c 2 0) () (copyAmt 2))
      ∗ slotHas m c 0 1 fullShare.right
      ∗ cred (tallyAt (sendCell c 0 2) () (xferAmt 0 2))
      ∗ cred (tallyAt (sendCell c 0 4) () (xferAmt 0 4))
      ∗ Done8 m K c
      ∗ InitFrom10 m K c)) := by
  unfold InitFrom9 Done8
  ac_rfl

set_option maxHeartbeats 2000000 in
theorem eq_step10 (c : Dev nD) :
    (iprop((atPos ER (sendCell c 1 0) 1 ∅ 0
      ∗ slotHas m c 1 0 fullShare.left.left.left
      ∗ atPos ER (recvCell c 1 0) 1 ∅ 0
      ∗ slotHas m c 1 1 fullShare.left.right
      ∗ slotHas m c 1 1 fullShare.right
      ∗ (∃ W, owes (c : Thread nD τ) (Orem ((payList c).drop 15)) W)
      ∗ cred (tallyAt (sendCell c 1 2) () (xferAmt 1 2)))
      ∗ (atPos ER (copyCell c 2 7) 0 ∅ 0
      ∗ dstAny (partner c 0 5) 0 5
      ∗ dstAny (partner c 0 6) 0 6
      ∗ dstAny (partner c 0 7) 0 7
      ∗ dstAny (partner c 1 4) 1 4
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 2 0) () (xferAmt 2 0))
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ holdsPts c b16M fullShare (bv m c)
      ∗ cred (tallyAt (copyCell c 2 0) () (copyAmt 2))
      ∗ slotHas m c 0 1 fullShare.right
      ∗ cred (tallyAt (sendCell c 0 2) () (xferAmt 0 2))
      ∗ cred (tallyAt (sendCell c 0 4) () (xferAmt 0 4))
      ∗ Done8 m K c
      ∗ InitFrom10 m K c)) : sProp 𝕄)
    = iprop((slotHas m c 1 1 fullShare.left.right
      ∗ dstAny (partner c 1 4) 1 4
      ∗ dutyTok ER (sendCell c 1 4) 0 0
      ∗ dutyTok ER (recvCell (partner c 1 4) 1 4) 0 0
      ∗ (∃ W, owes (c : Thread nD τ) (Orem ((payList c).drop 15)) W)
      ∗ cred (tallyAt (sendCell c 2 0) () (xferAmt 2 0))
      ∗ atPos ER (sendCell c 2 0) 0 ∅ 0
      ∗ cred (tallyAt (recvCell c 2 0) () (xferAmt 2 0))
      ∗ atPos ER (recvCell c 2 0) 0 ∅ 0)
      ∗ (atPos ER (copyCell c 2 7) 0 ∅ 0
      ∗ dstAny (partner c 0 5) 0 5
      ∗ dstAny (partner c 0 6) 0 6
      ∗ dstAny (partner c 0 7) 0 7
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ holdsPts c b16M fullShare (bv m c)
      ∗ cred (tallyAt (copyCell c 2 0) () (copyAmt 2))
      ∗ slotHas m c 0 1 fullShare.right
      ∗ cred (tallyAt (sendCell c 0 2) () (xferAmt 0 2))
      ∗ cred (tallyAt (sendCell c 0 4) () (xferAmt 0 4))
      ∗ slotHas m c 1 1 fullShare.right
      ∗ cred (tallyAt (sendCell c 1 2) () (xferAmt 1 2))
      ∗ Done9 m K c
      ∗ InitFrom11 m K c)) := by
  unfold InitFrom10 Done9
  ac_rfl

set_option maxHeartbeats 2000000 in
theorem eq_step11 (c : Dev nD) :
    (iprop((cred (tallyAt (sendCell c 1 4) () (xferAmt 1 4))
      ∗ atPos ER (sendCell c 2 0) 1 ∅ 0
      ∗ slotHas m c 2 0 fullShare.left.left.left
      ∗ (∃ W, owes (c : Thread nD τ) (Orem ((payList c).drop 16)) W)
      ∗ atPos ER (recvCell c 2 0) 1 ∅ 0
      ∗ slotHas m c 2 1 fullShare.left.left
      ∗ slotHas m c 2 1 fullShare.left.right
      ∗ slotHas m c 2 1 fullShare.right)
      ∗ (atPos ER (copyCell c 2 7) 0 ∅ 0
      ∗ dstAny (partner c 0 5) 0 5
      ∗ dstAny (partner c 0 6) 0 6
      ∗ dstAny (partner c 0 7) 0 7
      ∗ dstAny (partner c 1 5) 1 5
      ∗ dstAny (partner c 1 6) 1 6
      ∗ dstAny (partner c 1 7) 1 7
      ∗ dstAny (partner c 2 2) 2 2
      ∗ dstAny (partner c 2 4) 2 4
      ∗ dstAny (partner c 2 5) 2 5
      ∗ dstAny (partner c 2 6) 2 6
      ∗ dstAny (partner c 2 7) 2 7
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ holdsPts c b16M fullShare (bv m c)
      ∗ cred (tallyAt (copyCell c 2 0) () (copyAmt 2))
      ∗ slotHas m c 0 1 fullShare.right
      ∗ cred (tallyAt (sendCell c 0 2) () (xferAmt 0 2))
      ∗ cred (tallyAt (sendCell c 0 4) () (xferAmt 0 4))
      ∗ slotHas m c 1 1 fullShare.right
      ∗ cred (tallyAt (sendCell c 1 2) () (xferAmt 1 2))
      ∗ Done9 m K c
      ∗ InitFrom11 m K c)) : sProp 𝕄)
    = iprop((slotHas m c 2 1 fullShare.left.left
      ∗ dstAny (partner c 2 2) 2 2
      ∗ dutyTok ER (sendCell c 2 2) 0 0
      ∗ dutyTok ER (recvCell (partner c 2 2) 2 2) 0 0
      ∗ (∃ W, owes (c : Thread nD τ) (Orem ((payList c).drop 16)) W)
      ∗ slotHas m c 2 1 fullShare.left.right
      ∗ dstAny (partner c 2 4) 2 4
      ∗ dutyTok ER (sendCell c 2 4) 0 0
      ∗ dutyTok ER (recvCell (partner c 2 4) 2 4) 0 0
      ∗ slotHas m c 0 1 fullShare.right
      ∗ holdsPts c b16M fullShare (bv m c)
      ∗ stageAny c 0 1)
      ∗ (atPos ER (copyCell c 2 7) 0 ∅ 0
      ∗ dstAny (partner c 0 5) 0 5
      ∗ dstAny (partner c 0 6) 0 6
      ∗ dstAny (partner c 0 7) 0 7
      ∗ dstAny (partner c 1 5) 1 5
      ∗ dstAny (partner c 1 6) 1 6
      ∗ dstAny (partner c 1 7) 1 7
      ∗ dstAny (partner c 2 5) 2 5
      ∗ dstAny (partner c 2 6) 2 6
      ∗ dstAny (partner c 2 7) 2 7
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ slotHas m c 1 1 fullShare.right
      ∗ cred (tallyAt (sendCell c 1 2) () (xferAmt 1 2))
      ∗ cred (tallyAt (sendCell c 1 4) () (xferAmt 1 4))
      ∗ slotHas m c 2 1 fullShare.right
      ∗ Done10 m K c
      ∗ InitFrom12 m K c)) := by
  unfold InitFrom11 Done10
  ac_rfl

set_option maxHeartbeats 2000000 in
theorem eq_step12 (c : Dev nD) :
    (iprop((cred (tallyAt (sendCell c 2 2) () (xferAmt 2 2))
      ∗ (∃ W, owes (c : Thread nD τ) (Orem ((payList c).drop 18)) W)
      ∗ cred (tallyAt (sendCell c 2 4) () (xferAmt 2 4))
      ∗ slotHas m c 0 1 fullShare.right
      ∗ holdsPts c b16M fullShare (bv m c)
      ∗ stageHas m c 0 1)
      ∗ (atPos ER (copyCell c 2 7) 0 ∅ 0
      ∗ dstAny (partner c 0 5) 0 5
      ∗ dstAny (partner c 0 6) 0 6
      ∗ dstAny (partner c 0 7) 0 7
      ∗ dstAny (partner c 1 5) 1 5
      ∗ dstAny (partner c 1 6) 1 6
      ∗ dstAny (partner c 1 7) 1 7
      ∗ dstAny (partner c 2 5) 2 5
      ∗ dstAny (partner c 2 6) 2 6
      ∗ dstAny (partner c 2 7) 2 7
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ slotHas m c 1 1 fullShare.right
      ∗ cred (tallyAt (sendCell c 1 2) () (xferAmt 1 2))
      ∗ cred (tallyAt (sendCell c 1 4) () (xferAmt 1 4))
      ∗ slotHas m c 2 1 fullShare.right
      ∗ Done10 m K c
      ∗ InitFrom12 m K c)) : sProp 𝕄)
    = iprop((stageHas m c 0 1
      ∗ pieceAny c 0 1
      ∗ dutyTok ER (copyCell c 0 1) 0 0
      ∗ slotHas m c 1 1 fullShare.right
      ∗ holdsPts c b16M fullShare (bv m c)
      ∗ stageAny c 1 1
      ∗ pieceAny c 1 1
      ∗ dutyTok ER (copyCell c 1 1) 0 0
      ∗ slotHas m c 2 1 fullShare.right
      ∗ stageAny c 2 1)
      ∗ (atPos ER (copyCell c 2 7) 0 ∅ 0
      ∗ dstAny (partner c 0 5) 0 5
      ∗ dstAny (partner c 0 6) 0 6
      ∗ dstAny (partner c 0 7) 0 7
      ∗ dstAny (partner c 1 5) 1 5
      ∗ dstAny (partner c 1 6) 1 6
      ∗ dstAny (partner c 1 7) 1 7
      ∗ dstAny (partner c 2 5) 2 5
      ∗ dstAny (partner c 2 6) 2 6
      ∗ dstAny (partner c 2 7) 2 7
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ (∃ W, owes (c : Thread nD τ) (Orem ((payList c).drop 18)) W)
      ∗ cred (tallyAt (sendCell c 2 4) () (xferAmt 2 4))
      ∗ Done11 m K c
      ∗ InitFrom13 m K c)) := by
  unfold InitFrom12 Done11
  ac_rfl

end Cert.Kernel.DM
end
-- ==== Proof.Bits.ChainEqs2.lean ====
/- GENERATED by: bun scratch/gen_partspecs.js "$KIT/certs/proofs/900891_g7700000000000892_dist_matmul_m_i_outrep_m1024_n1024_k512_v7x_i8_f32_1_alg" "proofs.«900891_g7700000000000892_dist_matmul_m_i_outrep_m1024_n1024_k512_v7x_i8_f32_1_alg».proof" "chaineqs" "13" "24" "--prog" "Kernel" "--sub" "Bits" (run from the unit directory; the script is filed beside this module): the
   state before each step of the body regrouped as that step's pieces and the rest, steps 13 to 24. -/
import proofs.«900891_g7700000000000892_dist_matmul_m_i_outrep_m1024_n1024_k512_v7x_i8_f32_1_alg».proof.Proof.Bits.ChainDefs
set_option maxRecDepth 16384
noncomputable section
namespace Cert.Kernel.DM
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (K : Dev nD × CIx → ℕ)

attribute [local irreducible] cred atPos dutyTok owes reached records inA inB slotAny slotHas slotTop slotBot stageAny stageHas stageTop pieceAny pieceDone dstAny anyPts holdsPts Orem payList tallyAt xferAmt copyAmt partner xr mask

set_option maxHeartbeats 2000000 in
theorem eq_step13 (c : Dev nD) :
    (iprop((cred (tallyAt (copyCell c 0 1) () (copyAmt 0))
      ∗ slotHas m c 1 1 fullShare.right
      ∗ holdsPts c b16M fullShare (bv m c)
      ∗ cred (tallyAt (copyCell c 1 1) () (copyAmt 1))
      ∗ slotHas m c 2 1 fullShare.right
      ∗ stageAny c 2 1)
      ∗ (atPos ER (copyCell c 2 7) 0 ∅ 0
      ∗ dstAny (partner c 0 5) 0 5
      ∗ dstAny (partner c 0 6) 0 6
      ∗ dstAny (partner c 0 7) 0 7
      ∗ dstAny (partner c 1 5) 1 5
      ∗ dstAny (partner c 1 6) 1 6
      ∗ dstAny (partner c 1 7) 1 7
      ∗ dstAny (partner c 2 5) 2 5
      ∗ dstAny (partner c 2 6) 2 6
      ∗ dstAny (partner c 2 7) 2 7
      ∗ cred (tallyAt (sendCell c 0 1) () (xferAmt 0 1))
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ (∃ W, owes (c : Thread nD τ) (Orem ((payList c).drop 18)) W)
      ∗ cred (tallyAt (sendCell c 2 4) () (xferAmt 2 4))
      ∗ Done11 m K c
      ∗ InitFrom13 m K c)) : sProp 𝕄)
    = iprop((stageAny c 2 1
      ∗ pieceAny c 2 1
      ∗ dutyTok ER (copyCell c 2 1) 0 0
      ∗ cred (tallyAt (sendCell c 0 1) () (xferAmt 0 1))
      ∗ atPos ER (sendCell c 0 1) 0 ∅ 0
      ∗ (∃ W, owes (c : Thread nD τ) (Orem ((payList c).drop 18)) W)
      ∗ cred (tallyAt (recvCell c 0 1) () (xferAmt 0 1))
      ∗ atPos ER (recvCell c 0 1) 0 ∅ 0)
      ∗ (atPos ER (copyCell c 2 7) 0 ∅ 0
      ∗ dstAny (partner c 0 5) 0 5
      ∗ dstAny (partner c 0 6) 0 6
      ∗ dstAny (partner c 0 7) 0 7
      ∗ dstAny (partner c 1 5) 1 5
      ∗ dstAny (partner c 1 6) 1 6
      ∗ dstAny (partner c 1 7) 1 7
      ∗ dstAny (partner c 2 5) 2 5
      ∗ dstAny (partner c 2 6) 2 6
      ∗ dstAny (partner c 2 7) 2 7
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ holdsPts c b16M fullShare (bv m c)
      ∗ cred (tallyAt (copyCell c 1 1) () (copyAmt 1))
      ∗ Done12 m K c
      ∗ InitFrom14 m K c)) := by
  unfold InitFrom13 Done12
  ac_rfl

set_option maxHeartbeats 2000000 in
theorem eq_step14 (c : Dev nD) :
    (iprop((cred (tallyAt (copyCell c 2 1) () (copyAmt 2))
      ∗ atPos ER (sendCell c 0 1) 1 ∅ 0
      ∗ slotHas m c 0 0 fullShare.left.left.right
      ∗ (∃ W, owes (c : Thread nD τ) (Orem ((payList c).drop 18)) W)
      ∗ atPos ER (recvCell c 0 1) 1 ∅ 0
      ∗ slotHas m c 0 2 fullShare.left
      ∗ slotHas m c 0 2 fullShare.right)
      ∗ (atPos ER (copyCell c 2 7) 0 ∅ 0
      ∗ dstAny (partner c 0 5) 0 5
      ∗ dstAny (partner c 0 6) 0 6
      ∗ dstAny (partner c 0 7) 0 7
      ∗ dstAny (partner c 1 5) 1 5
      ∗ dstAny (partner c 1 6) 1 6
      ∗ dstAny (partner c 1 7) 1 7
      ∗ dstAny (partner c 2 5) 2 5
      ∗ dstAny (partner c 2 6) 2 6
      ∗ dstAny (partner c 2 7) 2 7
      ∗ cred (tallyAt (sendCell c 1 1) () (xferAmt 1 1))
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ holdsPts c b16M fullShare (bv m c)
      ∗ cred (tallyAt (copyCell c 1 1) () (copyAmt 1))
      ∗ Done12 m K c
      ∗ InitFrom14 m K c)) : sProp 𝕄)
    = iprop((slotHas m c 0 2 fullShare.left
      ∗ dstAny (partner c 0 5) 0 5
      ∗ dutyTok ER (sendCell c 0 5) 0 0
      ∗ dutyTok ER (recvCell (partner c 0 5) 0 5) 0 0
      ∗ (∃ W, owes (c : Thread nD τ) (Orem ((payList c).drop 18)) W)
      ∗ cred (tallyAt (sendCell c 1 1) () (xferAmt 1 1))
      ∗ atPos ER (sendCell c 1 1) 0 ∅ 0
      ∗ cred (tallyAt (recvCell c 1 1) () (xferAmt 1 1))
      ∗ atPos ER (recvCell c 1 1) 0 ∅ 0)
      ∗ (atPos ER (copyCell c 2 7) 0 ∅ 0
      ∗ dstAny (partner c 0 6) 0 6
      ∗ dstAny (partner c 0 7) 0 7
      ∗ dstAny (partner c 1 5) 1 5
      ∗ dstAny (partner c 1 6) 1 6
      ∗ dstAny (partner c 1 7) 1 7
      ∗ dstAny (partner c 2 5) 2 5
      ∗ dstAny (partner c 2 6) 2 6
      ∗ dstAny (partner c 2 7) 2 7
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ holdsPts c b16M fullShare (bv m c)
      ∗ cred (tallyAt (copyCell c 1 1) () (copyAmt 1))
      ∗ cred (tallyAt (copyCell c 2 1) () (copyAmt 2))
      ∗ slotHas m c 0 2 fullShare.right
      ∗ Done13 m K c
      ∗ InitFrom15 m K c)) := by
  unfold InitFrom14 Done13
  ac_rfl

set_option maxHeartbeats 2000000 in
theorem eq_step15 (c : Dev nD) :
    (iprop((cred (tallyAt (sendCell c 0 5) () (xferAmt 0 5))
      ∗ atPos ER (sendCell c 1 1) 1 ∅ 0
      ∗ slotHas m c 1 0 fullShare.left.left.right
      ∗ (∃ W, owes (c : Thread nD τ) (Orem ((payList c).drop 19)) W)
      ∗ atPos ER (recvCell c 1 1) 1 ∅ 0
      ∗ slotHas m c 1 2 fullShare.left
      ∗ slotHas m c 1 2 fullShare.right)
      ∗ (atPos ER (copyCell c 2 7) 0 ∅ 0
      ∗ dstAny (partner c 0 6) 0 6
      ∗ dstAny (partner c 0 7) 0 7
      ∗ dstAny (partner c 1 5) 1 5
      ∗ dstAny (partner c 1 6) 1 6
      ∗ dstAny (partner c 1 7) 1 7
      ∗ dstAny (partner c 2 5) 2 5
      ∗ dstAny (partner c 2 6) 2 6
      ∗ dstAny (partner c 2 7) 2 7
      ∗ cred (tallyAt (sendCell c 2 1) () (xferAmt 2 1))
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ holdsPts c b16M fullShare (bv m c)
      ∗ cred (tallyAt (copyCell c 1 1) () (copyAmt 1))
      ∗ cred (tallyAt (copyCell c 2 1) () (copyAmt 2))
      ∗ slotHas m c 0 2 fullShare.right
      ∗ Done13 m K c
      ∗ InitFrom15 m K c)) : sProp 𝕄)
    = iprop((slotHas m c 1 2 fullShare.left
      ∗ dstAny (partner c 1 5) 1 5
      ∗ dutyTok ER (sendCell c 1 5) 0 0
      ∗ dutyTok ER (recvCell (partner c 1 5) 1 5) 0 0
      ∗ (∃ W, owes (c : Thread nD τ) (Orem ((payList c).drop 19)) W)
      ∗ cred (tallyAt (sendCell c 2 1) () (xferAmt 2 1))
      ∗ atPos ER (sendCell c 2 1) 0 ∅ 0
      ∗ cred (tallyAt (recvCell c 2 1) () (xferAmt 2 1))
      ∗ atPos ER (recvCell c 2 1) 0 ∅ 0)
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 5) 2 5
      ∗ dstAny (partner c 2 6) 2 6
      ∗ dstAny (partner c 2 7) 2 7
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ holdsPts c b16M fullShare (bv m c)
      ∗ cred (tallyAt (copyCell c 1 1) () (copyAmt 1))
      ∗ cred (tallyAt (copyCell c 2 1) () (copyAmt 2))
      ∗ slotHas m c 0 2 fullShare.right
      ∗ cred (tallyAt (sendCell c 0 5) () (xferAmt 0 5))
      ∗ slotHas m c 1 2 fullShare.right
      ∗ Done14 m K c
      ∗ InitFrom16 m K c)) := by
  unfold InitFrom15 Done14
  ac_rfl

set_option maxHeartbeats 2000000 in
theorem eq_step16 (c : Dev nD) :
    (iprop((cred (tallyAt (sendCell c 1 5) () (xferAmt 1 5))
      ∗ atPos ER (sendCell c 2 1) 1 ∅ 0
      ∗ slotHas m c 2 0 fullShare.left.left.right
      ∗ (∃ W, owes (c : Thread nD τ) (Orem ((payList c).drop 20)) W)
      ∗ atPos ER (recvCell c 2 1) 1 ∅ 0
      ∗ slotHas m c 2 2 fullShare.left
      ∗ slotHas m c 2 2 fullShare.right)
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 5) 2 5
      ∗ dstAny (partner c 2 6) 2 6
      ∗ dstAny (partner c 2 7) 2 7
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 0 0) () (copyAmt 0))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ holdsPts c b16M fullShare (bv m c)
      ∗ cred (tallyAt (copyCell c 1 1) () (copyAmt 1))
      ∗ cred (tallyAt (copyCell c 2 1) () (copyAmt 2))
      ∗ slotHas m c 0 2 fullShare.right
      ∗ cred (tallyAt (sendCell c 0 5) () (xferAmt 0 5))
      ∗ slotHas m c 1 2 fullShare.right
      ∗ Done14 m K c
      ∗ InitFrom16 m K c)) : sProp 𝕄)
    = iprop((slotHas m c 2 2 fullShare.left
      ∗ dstAny (partner c 2 5) 2 5
      ∗ dutyTok ER (sendCell c 2 5) 0 0
      ∗ dutyTok ER (recvCell (partner c 2 5) 2 5) 0 0
      ∗ (∃ W, owes (c : Thread nD τ) (Orem ((payList c).drop 20)) W)
      ∗ cred (tallyAt (copyCell c 0 0) () (copyAmt 0))
      ∗ atPos ER (copyCell c 0 0) 0 ∅ 0
      ∗ slotHas m c 0 2 fullShare.right
      ∗ holdsPts c b16M fullShare (bv m c))
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ slotHas m c 1 2 fullShare.right
      ∗ cred (tallyAt (sendCell c 1 5) () (xferAmt 1 5))
      ∗ slotHas m c 2 2 fullShare.right
      ∗ Done15 m K c
      ∗ InitFrom17 m K c)) := by
  unfold InitFrom16 Done15
  ac_rfl

set_option maxHeartbeats 2000000 in
theorem eq_step17 (c : Dev nD) :
    (iprop((cred (tallyAt (sendCell c 2 5) () (xferAmt 2 5))
      ∗ (∃ W, owes (c : Thread nD τ) (Orem ((payList c).drop 21)) W)
      ∗ atPos ER (copyCell c 0 0) 1 ∅ 0
      ∗ pieceDone m c 0 0
      ∗ slotHas m c 0 2 fullShare.right
      ∗ holdsPts c b16M fullShare (bv m c)
      ∗ stageHas m c 0 2)
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 1 0) () (copyAmt 1))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ slotHas m c 1 2 fullShare.right
      ∗ cred (tallyAt (sendCell c 1 5) () (xferAmt 1 5))
      ∗ slotHas m c 2 2 fullShare.right
      ∗ Done15 m K c
      ∗ InitFrom17 m K c)) : sProp 𝕄)
    = iprop((stageHas m c 0 2
      ∗ pieceAny c 0 2
      ∗ dutyTok ER (copyCell c 0 2) 0 0
      ∗ cred (tallyAt (copyCell c 1 0) () (copyAmt 1))
      ∗ atPos ER (copyCell c 1 0) 0 ∅ 0
      ∗ (∃ W, owes (c : Thread nD τ) (Orem ((payList c).drop 21)) W)
      ∗ slotHas m c 1 2 fullShare.right
      ∗ holdsPts c b16M fullShare (bv m c)
      ∗ pieceAny c 1 2
      ∗ dutyTok ER (copyCell c 1 2) 0 0)
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ slotHas m c 2 2 fullShare.right
      ∗ cred (tallyAt (sendCell c 2 5) () (xferAmt 2 5))
      ∗ Done16 m K c
      ∗ InitFrom18 m K c)) := by
  unfold InitFrom17 Done16
  ac_rfl

set_option maxHeartbeats 2000000 in
theorem eq_step18 (c : Dev nD) :
    (iprop((cred (tallyAt (copyCell c 0 2) () (copyAmt 0))
      ∗ (∃ W, owes (c : Thread nD τ) (Orem ((payList c).drop 21)) W)
      ∗ atPos ER (copyCell c 1 0) 1 ∅ 0
      ∗ pieceDone m c 1 0
      ∗ slotHas m c 1 2 fullShare.right
      ∗ holdsPts c b16M fullShare (bv m c)
      ∗ cred (tallyAt (copyCell c 1 2) () (copyAmt 1)))
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 0 3) () (xferAmt 0 3))
      ∗ cred (tallyAt (sendCell c 1 3) () (xferAmt 1 3))
      ∗ cred (tallyAt (sendCell c 2 3) () (xferAmt 2 3))
      ∗ cred (tallyAt (copyCell c 2 0) () (copyAmt 2))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ slotHas m c 2 2 fullShare.right
      ∗ cred (tallyAt (sendCell c 2 5) () (xferAmt 2 5))
      ∗ Done16 m K c
      ∗ InitFrom18 m K c)) : sProp 𝕄)
    = iprop((cred (tallyAt (copyCell c 2 0) () (copyAmt 2))
      ∗ atPos ER (copyCell c 2 0) 0 ∅ 0
      ∗ (∃ W, owes (c : Thread nD τ) (Orem ((payList c).drop 21)) W)
      ∗ slotHas m c 2 2 fullShare.right
      ∗ holdsPts c b16M fullShare (bv m c)
      ∗ pieceAny c 2 2
      ∗ dutyTok ER (copyCell c 2 2) 0 0
      ∗ cred (tallyAt (sendCell c 0 3) () (xferAmt 0 3))
      ∗ atPos ER (sendCell c 0 3) 0 ∅ 0)
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 1 3) () (xferAmt 1 3))
      ∗ cred (tallyAt (sendCell c 2 3) () (xferAmt 2 3))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 2) () (copyAmt 0))
      ∗ cred (tallyAt (copyCell c 1 2) () (copyAmt 1))
      ∗ Done17 m K c
      ∗ InitFrom19 m K c)) := by
  unfold InitFrom18 Done17
  ac_rfl

set_option maxHeartbeats 2000000 in
theorem eq_step19 (c : Dev nD) :
    (iprop((atPos ER (copyCell c 2 0) 1 ∅ 0
      ∗ pieceDone m c 2 0
      ∗ slotHas m c 2 2 fullShare.right
      ∗ holdsPts c b16M fullShare (bv m c)
      ∗ cred (tallyAt (copyCell c 2 2) () (copyAmt 2))
      ∗ (∃ W, owes (c : Thread nD τ) (Orem ((payList c).drop 21)) W)
      ∗ atPos ER (sendCell c 0 3) 1 ∅ 0
      ∗ slotHas m c 0 0 fullShare.left.right)
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 1 3) () (xferAmt 1 3))
      ∗ cred (tallyAt (sendCell c 2 3) () (xferAmt 2 3))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 2) () (copyAmt 0))
      ∗ cred (tallyAt (copyCell c 1 2) () (copyAmt 1))
      ∗ Done17 m K c
      ∗ InitFrom19 m K c)) : sProp 𝕄)
    = iprop((cred (tallyAt (recvCell c 0 3) () (xferAmt 0 3))
      ∗ atPos ER (recvCell c 0 3) 0 ∅ 0
      ∗ (∃ W, owes (c : Thread nD τ) (Orem ((payList c).drop 21)) W)
      ∗ cred (tallyAt (copyCell c 0 2) () (copyAmt 0))
      ∗ atPos ER (copyCell c 0 2) 0 ∅ 0
      ∗ holdsPts c b16M fullShare (bv m c))
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 1 3) () (xferAmt 1 3))
      ∗ cred (tallyAt (sendCell c 2 3) () (xferAmt 2 3))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 1 2) () (copyAmt 1))
      ∗ cred (tallyAt (copyCell c 2 2) () (copyAmt 2))
      ∗ Done18 m K c
      ∗ InitFrom20 m K c)) := by
  unfold InitFrom19 Done18
  ac_rfl

set_option maxHeartbeats 2000000 in
theorem eq_step20 (c : Dev nD) :
    (iprop((atPos ER (recvCell c 0 3) 1 ∅ 0
      ∗ slotHas m c 0 4 fullShare
      ∗ (∃ W, owes (c : Thread nD τ) (Orem ((payList c).drop 21)) W)
      ∗ atPos ER (copyCell c 0 2) 1 ∅ 0
      ∗ pieceDone m c 0 2
      ∗ holdsPts c b16M fullShare (bv m c)
      ∗ stageHas m c 0 4)
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 1 3) () (xferAmt 1 3))
      ∗ cred (tallyAt (sendCell c 2 3) () (xferAmt 2 3))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 1 2) () (copyAmt 1))
      ∗ cred (tallyAt (copyCell c 2 2) () (copyAmt 2))
      ∗ Done18 m K c
      ∗ InitFrom20 m K c)) : sProp 𝕄)
    = iprop((stageHas m c 0 4
      ∗ pieceAny c 0 4
      ∗ dutyTok ER (copyCell c 0 4) 0 0
      ∗ cred (tallyAt (sendCell c 1 3) () (xferAmt 1 3))
      ∗ atPos ER (sendCell c 1 3) 0 ∅ 0
      ∗ (∃ W, owes (c : Thread nD τ) (Orem ((payList c).drop 21)) W)
      ∗ cred (tallyAt (recvCell c 1 3) () (xferAmt 1 3))
      ∗ atPos ER (recvCell c 1 3) 0 ∅ 0
      ∗ cred (tallyAt (copyCell c 1 2) () (copyAmt 1))
      ∗ atPos ER (copyCell c 1 2) 0 ∅ 0
      ∗ holdsPts c b16M fullShare (bv m c))
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 2 3) () (xferAmt 2 3))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 2 2) () (copyAmt 2))
      ∗ Done19 m K c
      ∗ InitFrom21 m K c)) := by
  unfold InitFrom20 Done19
  ac_rfl

set_option maxHeartbeats 2000000 in
theorem eq_step21 (c : Dev nD) :
    (iprop((cred (tallyAt (copyCell c 0 4) () (copyAmt 0))
      ∗ atPos ER (sendCell c 1 3) 1 ∅ 0
      ∗ slotHas m c 1 0 fullShare.left.right
      ∗ atPos ER (recvCell c 1 3) 1 ∅ 0
      ∗ slotHas m c 1 4 fullShare
      ∗ (∃ W, owes (c : Thread nD τ) (Orem ((payList c).drop 21)) W)
      ∗ atPos ER (copyCell c 1 2) 1 ∅ 0
      ∗ pieceDone m c 1 2
      ∗ stageAny c 1 0
      ∗ holdsPts c b16M fullShare (bv m c))
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 2 3) () (xferAmt 2 3))
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 2 2) () (copyAmt 2))
      ∗ Done19 m K c
      ∗ InitFrom21 m K c)) : sProp 𝕄)
    = iprop((stageAny c 1 0
      ∗ pieceAny c 1 4
      ∗ dutyTok ER (copyCell c 1 4) 0 0
      ∗ cred (tallyAt (sendCell c 2 3) () (xferAmt 2 3))
      ∗ atPos ER (sendCell c 2 3) 0 ∅ 0
      ∗ (∃ W, owes (c : Thread nD τ) (Orem ((payList c).drop 21)) W)
      ∗ cred (tallyAt (recvCell c 2 3) () (xferAmt 2 3))
      ∗ atPos ER (recvCell c 2 3) 0 ∅ 0)
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 2 2) () (copyAmt 2))
      ∗ cred (tallyAt (copyCell c 0 4) () (copyAmt 0))
      ∗ holdsPts c b16M fullShare (bv m c)
      ∗ Done20 m K c
      ∗ InitFrom22 m K c)) := by
  unfold InitFrom21 Done20
  ac_rfl

set_option maxHeartbeats 2000000 in
theorem eq_step22 (c : Dev nD) :
    (iprop((cred (tallyAt (copyCell c 1 4) () (copyAmt 1))
      ∗ atPos ER (sendCell c 2 3) 1 ∅ 0
      ∗ slotHas m c 2 0 fullShare.left.right
      ∗ (∃ W, owes (c : Thread nD τ) (Orem ((payList c).drop 21)) W)
      ∗ atPos ER (recvCell c 2 3) 1 ∅ 0
      ∗ slotHas m c 2 4 fullShare)
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 2 2) () (copyAmt 2))
      ∗ cred (tallyAt (copyCell c 0 4) () (copyAmt 0))
      ∗ holdsPts c b16M fullShare (bv m c)
      ∗ Done20 m K c
      ∗ InitFrom22 m K c)) : sProp 𝕄)
    = iprop((cred (tallyAt (copyCell c 2 2) () (copyAmt 2))
      ∗ atPos ER (copyCell c 2 2) 0 ∅ 0
      ∗ (∃ W, owes (c : Thread nD τ) (Orem ((payList c).drop 21)) W)
      ∗ slotHas m c 2 4 fullShare
      ∗ holdsPts c b16M fullShare (bv m c)
      ∗ pieceAny c 2 4
      ∗ dutyTok ER (copyCell c 2 4) 0 0)
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ Done21 m K c
      ∗ InitFrom23 m K c)) := by
  unfold InitFrom22 Done21
  ac_rfl

set_option maxHeartbeats 2000000 in
theorem eq_step23 (c : Dev nD) :
    (iprop(((∃ W, owes (c : Thread nD τ) (Orem ((payList c).drop 21)) W)
      ∗ atPos ER (copyCell c 2 2) 1 ∅ 0
      ∗ pieceDone m c 2 2
      ∗ slotHas m c 2 4 fullShare
      ∗ holdsPts c b16M fullShare (bv m c)
      ∗ cred (tallyAt (copyCell c 2 4) () (copyAmt 2)))
      ∗ (atPos ER (copyCell c 2 7) 0 ∅ 0
      ∗ dstAny (partner c 0 6) 0 6
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 0 2) () (xferAmt 0 2))
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ Done21 m K c
      ∗ InitFrom23 m K c)) : sProp 𝕄)
    = iprop((cred (tallyAt (sendCell c 0 2) () (xferAmt 0 2))
      ∗ atPos ER (sendCell c 0 2) 0 ∅ 0
      ∗ (∃ W, owes (c : Thread nD τ) (Orem ((payList c).drop 21)) W)
      ∗ cred (tallyAt (recvCell c 0 2) () (xferAmt 0 2))
      ∗ atPos ER (recvCell c 0 2) 0 ∅ 0
      ∗ dstAny (partner c 0 6) 0 6
      ∗ dutyTok ER (sendCell c 0 6) 0 0
      ∗ dutyTok ER (recvCell (partner c 0 6) 0 6) 0 0)
      ∗ (atPos ER (copyCell c 2 7) 0 ∅ 0
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ holdsPts c b16M fullShare (bv m c)
      ∗ cred (tallyAt (copyCell c 2 4) () (copyAmt 2))
      ∗ Done22 m K c
      ∗ InitFrom24 m K c)) := by
  unfold InitFrom23 Done22
  ac_rfl

set_option maxHeartbeats 2000000 in
theorem eq_step24 (c : Dev nD) :
    (iprop((atPos ER (sendCell c 0 2) 1 ∅ 0
      ∗ slotHas m c 0 1 fullShare.left.left
      ∗ atPos ER (recvCell c 0 2) 1 ∅ 0
      ∗ slotBot m c 0 3 fullShare.left
      ∗ slotHas m c 0 3 fullShare.right
      ∗ (∃ W, owes (c : Thread nD τ) (Orem ((payList c).drop 22)) W)
      ∗ cred (tallyAt (sendCell c 0 6) () (xferAmt 0 6)))
      ∗ (atPos ER (copyCell c 2 7) 0 ∅ 0
      ∗ dstAny (partner c 0 7) 0 7
      ∗ dstAny (partner c 1 6) 1 6
      ∗ dstAny (partner c 1 7) 1 7
      ∗ dstAny (partner c 2 6) 2 6
      ∗ dstAny (partner c 2 7) 2 7
      ∗ cred (tallyAt (sendCell c 0 4) () (xferAmt 0 4))
      ∗ cred (tallyAt (sendCell c 1 2) () (xferAmt 1 2))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ holdsPts c b16M fullShare (bv m c)
      ∗ cred (tallyAt (copyCell c 2 4) () (copyAmt 2))
      ∗ Done22 m K c
      ∗ InitFrom24 m K c)) : sProp 𝕄)
    = iprop((slotBot m c 0 3 fullShare.left
      ∗ dstAny (partner c 0 7) 0 7
      ∗ dutyTok ER (sendCell c 0 7) 0 0
      ∗ dutyTok ER (recvCell (partner c 0 7) 0 7) 0 0
      ∗ (∃ W, owes (c : Thread nD τ) (Orem ((payList c).drop 22)) W)
      ∗ cred (tallyAt (sendCell c 1 2) () (xferAmt 1 2))
      ∗ atPos ER (sendCell c 1 2) 0 ∅ 0
      ∗ cred (tallyAt (recvCell c 1 2) () (xferAmt 1 2))
      ∗ atPos ER (recvCell c 1 2) 0 ∅ 0)
      ∗ (atPos ER (copyCell c 2 7) 0 ∅ 0
      ∗ dstAny (partner c 1 6) 1 6
      ∗ dstAny (partner c 1 7) 1 7
      ∗ dstAny (partner c 2 6) 2 6
      ∗ dstAny (partner c 2 7) 2 7
      ∗ cred (tallyAt (sendCell c 0 4) () (xferAmt 0 4))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ holdsPts c b16M fullShare (bv m c)
      ∗ cred (tallyAt (copyCell c 2 4) () (copyAmt 2))
      ∗ slotHas m c 0 3 fullShare.right
      ∗ cred (tallyAt (sendCell c 0 6) () (xferAmt 0 6))
      ∗ Done23 m K c
      ∗ InitFrom25 m K c)) := by
  unfold InitFrom24 Done23
  ac_rfl

end Cert.Kernel.DM
end
-- ==== Proof.Bits.ChainEqs3.lean ====
/- GENERATED by: bun scratch/gen_partspecs.js "$KIT/certs/proofs/900891_g7700000000000892_dist_matmul_m_i_outrep_m1024_n1024_k512_v7x_i8_f32_1_alg" "proofs.«900891_g7700000000000892_dist_matmul_m_i_outrep_m1024_n1024_k512_v7x_i8_f32_1_alg».proof" "chaineqs" "25" "36" "--prog" "Kernel" "--sub" "Bits" (run from the unit directory; the script is filed beside this module): the
   state before each step of the body regrouped as that step's pieces and the rest, steps 25 to 36. -/
import proofs.«900891_g7700000000000892_dist_matmul_m_i_outrep_m1024_n1024_k512_v7x_i8_f32_1_alg».proof.Proof.Bits.ChainDefs
set_option maxRecDepth 16384
noncomputable section
namespace Cert.Kernel.DM
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (K : Dev nD × CIx → ℕ)

attribute [local irreducible] cred atPos dutyTok owes reached records inA inB slotAny slotHas slotTop slotBot stageAny stageHas stageTop pieceAny pieceDone dstAny anyPts holdsPts Orem payList tallyAt xferAmt copyAmt partner xr mask

set_option maxHeartbeats 2000000 in
theorem eq_step25 (c : Dev nD) :
    (iprop((cred (tallyAt (sendCell c 0 7) () (xferAmt 0 7))
      ∗ atPos ER (sendCell c 1 2) 1 ∅ 0
      ∗ slotHas m c 1 1 fullShare.left.left
      ∗ (∃ W, owes (c : Thread nD τ) (Orem ((payList c).drop 23)) W)
      ∗ atPos ER (recvCell c 1 2) 1 ∅ 0
      ∗ slotTop m c 1 3 fullShare.left
      ∗ slotBot m c 1 3 fullShare.left
      ∗ slotHas m c 1 3 fullShare.right)
      ∗ (atPos ER (copyCell c 2 7) 0 ∅ 0
      ∗ dstAny (partner c 1 6) 1 6
      ∗ dstAny (partner c 1 7) 1 7
      ∗ dstAny (partner c 2 6) 2 6
      ∗ dstAny (partner c 2 7) 2 7
      ∗ cred (tallyAt (sendCell c 0 4) () (xferAmt 0 4))
      ∗ cred (tallyAt (sendCell c 1 4) () (xferAmt 1 4))
      ∗ cred (tallyAt (sendCell c 2 2) () (xferAmt 2 2))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ holdsPts c b16M fullShare (bv m c)
      ∗ cred (tallyAt (copyCell c 2 4) () (copyAmt 2))
      ∗ slotHas m c 0 3 fullShare.right
      ∗ cred (tallyAt (sendCell c 0 6) () (xferAmt 0 6))
      ∗ Done23 m K c
      ∗ InitFrom25 m K c)) : sProp 𝕄)
    = iprop((slotTop m c 1 3 fullShare.left
      ∗ dstAny (partner c 1 6) 1 6
      ∗ dutyTok ER (sendCell c 1 6) 0 0
      ∗ dutyTok ER (recvCell (partner c 1 6) 1 6) 0 0
      ∗ (∃ W, owes (c : Thread nD τ) (Orem ((payList c).drop 23)) W)
      ∗ slotBot m c 1 3 fullShare.left
      ∗ dstAny (partner c 1 7) 1 7
      ∗ dutyTok ER (sendCell c 1 7) 0 0
      ∗ dutyTok ER (recvCell (partner c 1 7) 1 7) 0 0
      ∗ cred (tallyAt (sendCell c 2 2) () (xferAmt 2 2))
      ∗ atPos ER (sendCell c 2 2) 0 ∅ 0)
      ∗ (atPos ER (copyCell c 2 7) 0 ∅ 0
      ∗ dstAny (partner c 2 6) 2 6
      ∗ dstAny (partner c 2 7) 2 7
      ∗ cred (tallyAt (sendCell c 0 4) () (xferAmt 0 4))
      ∗ cred (tallyAt (sendCell c 1 4) () (xferAmt 1 4))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ holdsPts c b16M fullShare (bv m c)
      ∗ cred (tallyAt (copyCell c 2 4) () (copyAmt 2))
      ∗ slotHas m c 0 3 fullShare.right
      ∗ cred (tallyAt (sendCell c 0 6) () (xferAmt 0 6))
      ∗ cred (tallyAt (sendCell c 0 7) () (xferAmt 0 7))
      ∗ slotHas m c 1 3 fullShare.right
      ∗ Done24 m K c
      ∗ InitFrom26 m K c)) := by
  unfold InitFrom25 Done24
  ac_rfl

set_option maxHeartbeats 2000000 in
theorem eq_step26 (c : Dev nD) :
    (iprop((cred (tallyAt (sendCell c 1 6) () (xferAmt 1 6))
      ∗ cred (tallyAt (sendCell c 1 7) () (xferAmt 1 7))
      ∗ (∃ W, owes (c : Thread nD τ) (Orem ((payList c).drop 25)) W)
      ∗ atPos ER (sendCell c 2 2) 1 ∅ 0
      ∗ slotHas m c 2 1 fullShare.left.left)
      ∗ (atPos ER (copyCell c 2 7) 0 ∅ 0
      ∗ dstAny (partner c 2 6) 2 6
      ∗ dstAny (partner c 2 7) 2 7
      ∗ cred (tallyAt (sendCell c 0 4) () (xferAmt 0 4))
      ∗ cred (tallyAt (sendCell c 1 4) () (xferAmt 1 4))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ holdsPts c b16M fullShare (bv m c)
      ∗ cred (tallyAt (copyCell c 2 4) () (copyAmt 2))
      ∗ slotHas m c 0 3 fullShare.right
      ∗ cred (tallyAt (sendCell c 0 6) () (xferAmt 0 6))
      ∗ cred (tallyAt (sendCell c 0 7) () (xferAmt 0 7))
      ∗ slotHas m c 1 3 fullShare.right
      ∗ Done24 m K c
      ∗ InitFrom26 m K c)) : sProp 𝕄)
    = iprop((cred (tallyAt (recvCell c 2 2) () (xferAmt 2 2))
      ∗ atPos ER (recvCell c 2 2) 0 ∅ 0
      ∗ (∃ W, owes (c : Thread nD τ) (Orem ((payList c).drop 25)) W)
      ∗ dstAny (partner c 2 6) 2 6
      ∗ dutyTok ER (sendCell c 2 6) 0 0
      ∗ dutyTok ER (recvCell (partner c 2 6) 2 6) 0 0)
      ∗ (atPos ER (copyCell c 2 7) 0 ∅ 0
      ∗ dstAny (partner c 2 7) 2 7
      ∗ cred (tallyAt (sendCell c 0 4) () (xferAmt 0 4))
      ∗ cred (tallyAt (sendCell c 1 4) () (xferAmt 1 4))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ holdsPts c b16M fullShare (bv m c)
      ∗ cred (tallyAt (copyCell c 2 4) () (copyAmt 2))
      ∗ slotHas m c 0 3 fullShare.right
      ∗ cred (tallyAt (sendCell c 0 6) () (xferAmt 0 6))
      ∗ cred (tallyAt (sendCell c 0 7) () (xferAmt 0 7))
      ∗ slotHas m c 1 3 fullShare.right
      ∗ cred (tallyAt (sendCell c 1 6) () (xferAmt 1 6))
      ∗ cred (tallyAt (sendCell c 1 7) () (xferAmt 1 7))
      ∗ Done25 m K c
      ∗ InitFrom27 m K c)) := by
  unfold InitFrom26 Done25
  ac_rfl

set_option maxHeartbeats 2000000 in
theorem eq_step27 (c : Dev nD) :
    (iprop((atPos ER (recvCell c 2 2) 1 ∅ 0
      ∗ slotBot m c 2 3 fullShare.left
      ∗ slotHas m c 2 3 fullShare.right
      ∗ (∃ W, owes (c : Thread nD τ) (Orem ((payList c).drop 26)) W)
      ∗ cred (tallyAt (sendCell c 2 6) () (xferAmt 2 6)))
      ∗ (atPos ER (copyCell c 2 7) 0 ∅ 0
      ∗ dstAny (partner c 2 7) 2 7
      ∗ cred (tallyAt (sendCell c 0 4) () (xferAmt 0 4))
      ∗ cred (tallyAt (sendCell c 1 4) () (xferAmt 1 4))
      ∗ cred (tallyAt (sendCell c 2 4) () (xferAmt 2 4))
      ∗ cred (tallyAt (copyCell c 0 1) () (copyAmt 0))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ holdsPts c b16M fullShare (bv m c)
      ∗ cred (tallyAt (copyCell c 2 4) () (copyAmt 2))
      ∗ slotHas m c 0 3 fullShare.right
      ∗ cred (tallyAt (sendCell c 0 6) () (xferAmt 0 6))
      ∗ cred (tallyAt (sendCell c 0 7) () (xferAmt 0 7))
      ∗ slotHas m c 1 3 fullShare.right
      ∗ cred (tallyAt (sendCell c 1 6) () (xferAmt 1 6))
      ∗ cred (tallyAt (sendCell c 1 7) () (xferAmt 1 7))
      ∗ Done25 m K c
      ∗ InitFrom27 m K c)) : sProp 𝕄)
    = iprop((slotBot m c 2 3 fullShare.left
      ∗ dstAny (partner c 2 7) 2 7
      ∗ dutyTok ER (sendCell c 2 7) 0 0
      ∗ dutyTok ER (recvCell (partner c 2 7) 2 7) 0 0
      ∗ (∃ W, owes (c : Thread nD τ) (Orem ((payList c).drop 26)) W)
      ∗ cred (tallyAt (copyCell c 0 1) () (copyAmt 0))
      ∗ atPos ER (copyCell c 0 1) 0 ∅ 0
      ∗ slotHas m c 0 3 fullShare.right
      ∗ holdsPts c b16M fullShare (bv m c)
      ∗ pieceAny c 0 3
      ∗ dutyTok ER (copyCell c 0 3) 0 0)
      ∗ (atPos ER (copyCell c 2 7) 0 ∅ 0
      ∗ cred (tallyAt (sendCell c 0 4) () (xferAmt 0 4))
      ∗ cred (tallyAt (sendCell c 1 4) () (xferAmt 1 4))
      ∗ cred (tallyAt (sendCell c 2 4) () (xferAmt 2 4))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ slotHas m c 1 3 fullShare.right
      ∗ cred (tallyAt (sendCell c 1 6) () (xferAmt 1 6))
      ∗ cred (tallyAt (sendCell c 1 7) () (xferAmt 1 7))
      ∗ slotHas m c 2 3 fullShare.right
      ∗ cred (tallyAt (sendCell c 2 6) () (xferAmt 2 6))
      ∗ Done26 m K c
      ∗ InitFrom28 m K c)) := by
  unfold InitFrom27 Done26
  ac_rfl

set_option maxHeartbeats 2000000 in
theorem eq_step28 (c : Dev nD) :
    (iprop((cred (tallyAt (sendCell c 2 7) () (xferAmt 2 7))
      ∗ (∃ W, owes (c : Thread nD τ) (Orem ((payList c).drop 27)) W)
      ∗ atPos ER (copyCell c 0 1) 1 ∅ 0
      ∗ pieceDone m c 0 1
      ∗ slotHas m c 0 3 fullShare.right
      ∗ holdsPts c b16M fullShare (bv m c)
      ∗ cred (tallyAt (copyCell c 0 3) () (copyAmt 0)))
      ∗ (atPos ER (copyCell c 2 7) 0 ∅ 0
      ∗ cred (tallyAt (sendCell c 0 4) () (xferAmt 0 4))
      ∗ cred (tallyAt (sendCell c 1 4) () (xferAmt 1 4))
      ∗ cred (tallyAt (sendCell c 2 4) () (xferAmt 2 4))
      ∗ cred (tallyAt (copyCell c 1 1) () (copyAmt 1))
      ∗ cred (tallyAt (copyCell c 2 1) () (copyAmt 2))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ slotHas m c 1 3 fullShare.right
      ∗ cred (tallyAt (sendCell c 1 6) () (xferAmt 1 6))
      ∗ cred (tallyAt (sendCell c 1 7) () (xferAmt 1 7))
      ∗ slotHas m c 2 3 fullShare.right
      ∗ cred (tallyAt (sendCell c 2 6) () (xferAmt 2 6))
      ∗ Done26 m K c
      ∗ InitFrom28 m K c)) : sProp 𝕄)
    = iprop((cred (tallyAt (copyCell c 1 1) () (copyAmt 1))
      ∗ atPos ER (copyCell c 1 1) 0 ∅ 0
      ∗ (∃ W, owes (c : Thread nD τ) (Orem ((payList c).drop 27)) W)
      ∗ slotHas m c 1 3 fullShare.right
      ∗ holdsPts c b16M fullShare (bv m c)
      ∗ pieceAny c 1 3
      ∗ dutyTok ER (copyCell c 1 3) 0 0
      ∗ cred (tallyAt (copyCell c 2 1) () (copyAmt 2))
      ∗ atPos ER (copyCell c 2 1) 0 ∅ 0
      ∗ slotHas m c 2 3 fullShare.right)
      ∗ (atPos ER (copyCell c 2 7) 0 ∅ 0
      ∗ cred (tallyAt (sendCell c 0 4) () (xferAmt 0 4))
      ∗ cred (tallyAt (sendCell c 1 4) () (xferAmt 1 4))
      ∗ cred (tallyAt (sendCell c 2 4) () (xferAmt 2 4))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 3) () (copyAmt 0))
      ∗ Done27 m K c
      ∗ InitFrom29 m K c)) := by
  unfold InitFrom28 Done27
  ac_rfl

set_option maxHeartbeats 2000000 in
theorem eq_step29 (c : Dev nD) :
    (iprop((atPos ER (copyCell c 1 1) 1 ∅ 0
      ∗ pieceDone m c 1 1
      ∗ slotHas m c 1 3 fullShare.right
      ∗ holdsPts c b16M fullShare (bv m c)
      ∗ cred (tallyAt (copyCell c 1 3) () (copyAmt 1))
      ∗ (∃ W, owes (c : Thread nD τ) (Orem ((payList c).drop 27)) W)
      ∗ atPos ER (copyCell c 2 1) 1 ∅ 0
      ∗ pieceDone m c 2 1
      ∗ stageAny c 2 1
      ∗ slotHas m c 2 3 fullShare.right)
      ∗ (atPos ER (copyCell c 2 7) 0 ∅ 0
      ∗ cred (tallyAt (sendCell c 0 4) () (xferAmt 0 4))
      ∗ cred (tallyAt (sendCell c 1 4) () (xferAmt 1 4))
      ∗ cred (tallyAt (sendCell c 2 4) () (xferAmt 2 4))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 3) () (copyAmt 0))
      ∗ Done27 m K c
      ∗ InitFrom29 m K c)) : sProp 𝕄)
    = iprop((stageAny c 2 1
      ∗ pieceAny c 2 3
      ∗ dutyTok ER (copyCell c 2 3) 0 0
      ∗ cred (tallyAt (sendCell c 0 4) () (xferAmt 0 4))
      ∗ atPos ER (sendCell c 0 4) 0 ∅ 0
      ∗ (∃ W, owes (c : Thread nD τ) (Orem ((payList c).drop 27)) W))
      ∗ (atPos ER (copyCell c 2 7) 0 ∅ 0
      ∗ cred (tallyAt (sendCell c 1 4) () (xferAmt 1 4))
      ∗ cred (tallyAt (sendCell c 2 4) () (xferAmt 2 4))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 3) () (copyAmt 0))
      ∗ holdsPts c b16M fullShare (bv m c)
      ∗ cred (tallyAt (copyCell c 1 3) () (copyAmt 1))
      ∗ Done28 m K c
      ∗ InitFrom30 m K c)) := by
  unfold InitFrom29 Done28
  ac_rfl

set_option maxHeartbeats 2000000 in
theorem eq_step30 (c : Dev nD) :
    (iprop((cred (tallyAt (copyCell c 2 3) () (copyAmt 2))
      ∗ (∃ W, owes (c : Thread nD τ) (Orem ((payList c).drop 27)) W)
      ∗ atPos ER (sendCell c 0 4) 1 ∅ 0
      ∗ slotHas m c 0 1 fullShare.left.right)
      ∗ (atPos ER (copyCell c 2 7) 0 ∅ 0
      ∗ cred (tallyAt (sendCell c 1 4) () (xferAmt 1 4))
      ∗ cred (tallyAt (sendCell c 2 4) () (xferAmt 2 4))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 3) () (copyAmt 0))
      ∗ holdsPts c b16M fullShare (bv m c)
      ∗ cred (tallyAt (copyCell c 1 3) () (copyAmt 1))
      ∗ Done28 m K c
      ∗ InitFrom30 m K c)) : sProp 𝕄)
    = iprop((cred (tallyAt (recvCell c 0 4) () (xferAmt 0 4))
      ∗ atPos ER (recvCell c 0 4) 0 ∅ 0
      ∗ (∃ W, owes (c : Thread nD τ) (Orem ((payList c).drop 27)) W)
      ∗ cred (tallyAt (copyCell c 0 3) () (copyAmt 0))
      ∗ atPos ER (copyCell c 0 3) 0 ∅ 0
      ∗ holdsPts c b16M fullShare (bv m c)
      ∗ pieceAny c 0 5
      ∗ dutyTok ER (copyCell c 0 5) 0 0)
      ∗ (atPos ER (copyCell c 2 7) 0 ∅ 0
      ∗ cred (tallyAt (sendCell c 1 4) () (xferAmt 1 4))
      ∗ cred (tallyAt (sendCell c 2 4) () (xferAmt 2 4))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 1 3) () (copyAmt 1))
      ∗ cred (tallyAt (copyCell c 2 3) () (copyAmt 2))
      ∗ Done29 m K c
      ∗ InitFrom31 m K c)) := by
  unfold InitFrom30 Done29
  ac_rfl

set_option maxHeartbeats 2000000 in
theorem eq_step31 (c : Dev nD) :
    (iprop((atPos ER (recvCell c 0 4) 1 ∅ 0
      ∗ slotHas m c 0 5 fullShare
      ∗ (∃ W, owes (c : Thread nD τ) (Orem ((payList c).drop 27)) W)
      ∗ atPos ER (copyCell c 0 3) 1 ∅ 0
      ∗ pieceDone m c 0 3
      ∗ holdsPts c b16M fullShare (bv m c)
      ∗ cred (tallyAt (copyCell c 0 5) () (copyAmt 0)))
      ∗ (atPos ER (copyCell c 2 7) 0 ∅ 0
      ∗ cred (tallyAt (sendCell c 1 4) () (xferAmt 1 4))
      ∗ cred (tallyAt (sendCell c 2 4) () (xferAmt 2 4))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 1 3) () (copyAmt 1))
      ∗ cred (tallyAt (copyCell c 2 3) () (copyAmt 2))
      ∗ Done29 m K c
      ∗ InitFrom31 m K c)) : sProp 𝕄)
    = iprop((cred (tallyAt (sendCell c 1 4) () (xferAmt 1 4))
      ∗ atPos ER (sendCell c 1 4) 0 ∅ 0
      ∗ (∃ W, owes (c : Thread nD τ) (Orem ((payList c).drop 27)) W)
      ∗ cred (tallyAt (recvCell c 1 4) () (xferAmt 1 4))
      ∗ atPos ER (recvCell c 1 4) 0 ∅ 0
      ∗ cred (tallyAt (copyCell c 1 3) () (copyAmt 1))
      ∗ atPos ER (copyCell c 1 3) 0 ∅ 0
      ∗ holdsPts c b16M fullShare (bv m c))
      ∗ (atPos ER (copyCell c 2 7) 0 ∅ 0
      ∗ cred (tallyAt (sendCell c 2 4) () (xferAmt 2 4))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 2 3) () (copyAmt 2))
      ∗ cred (tallyAt (copyCell c 0 5) () (copyAmt 0))
      ∗ Done30 m K c
      ∗ InitFrom32 m K c)) := by
  unfold InitFrom31 Done30
  ac_rfl

set_option maxHeartbeats 2000000 in
theorem eq_step32 (c : Dev nD) :
    (iprop((atPos ER (sendCell c 1 4) 1 ∅ 0
      ∗ slotHas m c 1 1 fullShare.left.right
      ∗ atPos ER (recvCell c 1 4) 1 ∅ 0
      ∗ slotHas m c 1 5 fullShare
      ∗ (∃ W, owes (c : Thread nD τ) (Orem ((payList c).drop 27)) W)
      ∗ atPos ER (copyCell c 1 3) 1 ∅ 0
      ∗ pieceDone m c 1 3
      ∗ holdsPts c b16M fullShare (bv m c)
      ∗ stageHas m c 1 5)
      ∗ (atPos ER (copyCell c 2 7) 0 ∅ 0
      ∗ cred (tallyAt (sendCell c 2 4) () (xferAmt 2 4))
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 2 3) () (copyAmt 2))
      ∗ cred (tallyAt (copyCell c 0 5) () (copyAmt 0))
      ∗ Done30 m K c
      ∗ InitFrom32 m K c)) : sProp 𝕄)
    = iprop((stageHas m c 1 5
      ∗ pieceAny c 1 5
      ∗ dutyTok ER (copyCell c 1 5) 0 0
      ∗ cred (tallyAt (sendCell c 2 4) () (xferAmt 2 4))
      ∗ atPos ER (sendCell c 2 4) 0 ∅ 0
      ∗ (∃ W, owes (c : Thread nD τ) (Orem ((payList c).drop 27)) W)
      ∗ cred (tallyAt (recvCell c 2 4) () (xferAmt 2 4))
      ∗ atPos ER (recvCell c 2 4) 0 ∅ 0)
      ∗ (atPos ER (copyCell c 2 7) 0 ∅ 0
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 2 3) () (copyAmt 2))
      ∗ cred (tallyAt (copyCell c 0 5) () (copyAmt 0))
      ∗ holdsPts c b16M fullShare (bv m c)
      ∗ Done31 m K c
      ∗ InitFrom33 m K c)) := by
  unfold InitFrom32 Done31
  ac_rfl

set_option maxHeartbeats 2000000 in
theorem eq_step33 (c : Dev nD) :
    (iprop((cred (tallyAt (copyCell c 1 5) () (copyAmt 1))
      ∗ atPos ER (sendCell c 2 4) 1 ∅ 0
      ∗ slotHas m c 2 1 fullShare.left.right
      ∗ (∃ W, owes (c : Thread nD τ) (Orem ((payList c).drop 27)) W)
      ∗ atPos ER (recvCell c 2 4) 1 ∅ 0
      ∗ slotHas m c 2 5 fullShare)
      ∗ (atPos ER (copyCell c 2 7) 0 ∅ 0
      ∗ cred (tallyAt (sendCell c 0 5) () (xferAmt 0 5))
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 2 3) () (copyAmt 2))
      ∗ cred (tallyAt (copyCell c 0 5) () (copyAmt 0))
      ∗ holdsPts c b16M fullShare (bv m c)
      ∗ Done31 m K c
      ∗ InitFrom33 m K c)) : sProp 𝕄)
    = iprop((cred (tallyAt (copyCell c 2 3) () (copyAmt 2))
      ∗ atPos ER (copyCell c 2 3) 0 ∅ 0
      ∗ (∃ W, owes (c : Thread nD τ) (Orem ((payList c).drop 27)) W)
      ∗ slotHas m c 2 5 fullShare
      ∗ holdsPts c b16M fullShare (bv m c)
      ∗ pieceAny c 2 5
      ∗ dutyTok ER (copyCell c 2 5) 0 0
      ∗ cred (tallyAt (sendCell c 0 5) () (xferAmt 0 5))
      ∗ atPos ER (sendCell c 0 5) 0 ∅ 0)
      ∗ (atPos ER (copyCell c 2 7) 0 ∅ 0
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 5) () (copyAmt 0))
      ∗ cred (tallyAt (copyCell c 1 5) () (copyAmt 1))
      ∗ Done32 m K c
      ∗ InitFrom34 m K c)) := by
  unfold InitFrom33 Done32
  ac_rfl

set_option maxHeartbeats 2000000 in
theorem eq_step34 (c : Dev nD) :
    (iprop((atPos ER (copyCell c 2 3) 1 ∅ 0
      ∗ pieceDone m c 2 3
      ∗ slotHas m c 2 5 fullShare
      ∗ holdsPts c b16M fullShare (bv m c)
      ∗ cred (tallyAt (copyCell c 2 5) () (copyAmt 2))
      ∗ (∃ W, owes (c : Thread nD τ) (Orem ((payList c).drop 27)) W)
      ∗ atPos ER (sendCell c 0 5) 1 ∅ 0
      ∗ slotHas m c 0 2 fullShare.left)
      ∗ (atPos ER (copyCell c 2 7) 0 ∅ 0
      ∗ cred (tallyAt (sendCell c 1 5) () (xferAmt 1 5))
      ∗ cred (tallyAt (sendCell c 2 5) () (xferAmt 2 5))
      ∗ cred (tallyAt (copyCell c 0 4) () (copyAmt 0))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 5) () (copyAmt 0))
      ∗ cred (tallyAt (copyCell c 1 5) () (copyAmt 1))
      ∗ Done32 m K c
      ∗ InitFrom34 m K c)) : sProp 𝕄)
    = iprop((cred (tallyAt (recvCell c 0 5) () (xferAmt 0 5))
      ∗ atPos ER (recvCell c 0 5) 0 ∅ 0
      ∗ (∃ W, owes (c : Thread nD τ) (Orem ((payList c).drop 27)) W)
      ∗ cred (tallyAt (copyCell c 0 4) () (copyAmt 0))
      ∗ atPos ER (copyCell c 0 4) 0 ∅ 0
      ∗ holdsPts c b16M fullShare (bv m c)
      ∗ pieceAny c 0 6
      ∗ dutyTok ER (copyCell c 0 6) 0 0)
      ∗ (atPos ER (copyCell c 2 7) 0 ∅ 0
      ∗ cred (tallyAt (sendCell c 1 5) () (xferAmt 1 5))
      ∗ cred (tallyAt (sendCell c 2 5) () (xferAmt 2 5))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 5) () (copyAmt 0))
      ∗ cred (tallyAt (copyCell c 1 5) () (copyAmt 1))
      ∗ cred (tallyAt (copyCell c 2 5) () (copyAmt 2))
      ∗ Done33 m K c
      ∗ InitFrom35 m K c)) := by
  unfold InitFrom34 Done33
  ac_rfl

set_option maxHeartbeats 2000000 in
theorem eq_step35 (c : Dev nD) :
    (iprop((atPos ER (recvCell c 0 5) 1 ∅ 0
      ∗ slotHas m c 0 6 fullShare
      ∗ (∃ W, owes (c : Thread nD τ) (Orem ((payList c).drop 27)) W)
      ∗ atPos ER (copyCell c 0 4) 1 ∅ 0
      ∗ pieceDone m c 0 4
      ∗ holdsPts c b16M fullShare (bv m c)
      ∗ cred (tallyAt (copyCell c 0 6) () (copyAmt 0)))
      ∗ (atPos ER (copyCell c 2 7) 0 ∅ 0
      ∗ cred (tallyAt (sendCell c 1 5) () (xferAmt 1 5))
      ∗ cred (tallyAt (sendCell c 2 5) () (xferAmt 2 5))
      ∗ cred (tallyAt (copyCell c 1 4) () (copyAmt 1))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 5) () (copyAmt 0))
      ∗ cred (tallyAt (copyCell c 1 5) () (copyAmt 1))
      ∗ cred (tallyAt (copyCell c 2 5) () (copyAmt 2))
      ∗ Done33 m K c
      ∗ InitFrom35 m K c)) : sProp 𝕄)
    = iprop((cred (tallyAt (sendCell c 1 5) () (xferAmt 1 5))
      ∗ atPos ER (sendCell c 1 5) 0 ∅ 0
      ∗ (∃ W, owes (c : Thread nD τ) (Orem ((payList c).drop 27)) W)
      ∗ cred (tallyAt (recvCell c 1 5) () (xferAmt 1 5))
      ∗ atPos ER (recvCell c 1 5) 0 ∅ 0
      ∗ cred (tallyAt (copyCell c 1 4) () (copyAmt 1))
      ∗ atPos ER (copyCell c 1 4) 0 ∅ 0
      ∗ holdsPts c b16M fullShare (bv m c))
      ∗ (atPos ER (copyCell c 2 7) 0 ∅ 0
      ∗ cred (tallyAt (sendCell c 2 5) () (xferAmt 2 5))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 5) () (copyAmt 0))
      ∗ cred (tallyAt (copyCell c 1 5) () (copyAmt 1))
      ∗ cred (tallyAt (copyCell c 2 5) () (copyAmt 2))
      ∗ cred (tallyAt (copyCell c 0 6) () (copyAmt 0))
      ∗ Done34 m K c
      ∗ InitFrom36 m K c)) := by
  unfold InitFrom35 Done34
  ac_rfl

set_option maxHeartbeats 2000000 in
theorem eq_step36 (c : Dev nD) :
    (iprop((atPos ER (sendCell c 1 5) 1 ∅ 0
      ∗ slotHas m c 1 2 fullShare.left
      ∗ atPos ER (recvCell c 1 5) 1 ∅ 0
      ∗ slotHas m c 1 6 fullShare
      ∗ (∃ W, owes (c : Thread nD τ) (Orem ((payList c).drop 27)) W)
      ∗ atPos ER (copyCell c 1 4) 1 ∅ 0
      ∗ pieceDone m c 1 4
      ∗ stageAny c 1 0
      ∗ holdsPts c b16M fullShare (bv m c))
      ∗ (atPos ER (copyCell c 2 7) 0 ∅ 0
      ∗ cred (tallyAt (sendCell c 2 5) () (xferAmt 2 5))
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 5) () (copyAmt 0))
      ∗ cred (tallyAt (copyCell c 1 5) () (copyAmt 1))
      ∗ cred (tallyAt (copyCell c 2 5) () (copyAmt 2))
      ∗ cred (tallyAt (copyCell c 0 6) () (copyAmt 0))
      ∗ Done34 m K c
      ∗ InitFrom36 m K c)) : sProp 𝕄)
    = iprop((stageAny c 1 0
      ∗ pieceAny c 1 6
      ∗ dutyTok ER (copyCell c 1 6) 0 0
      ∗ cred (tallyAt (sendCell c 2 5) () (xferAmt 2 5))
      ∗ atPos ER (sendCell c 2 5) 0 ∅ 0
      ∗ (∃ W, owes (c : Thread nD τ) (Orem ((payList c).drop 27)) W)
      ∗ cred (tallyAt (recvCell c 2 5) () (xferAmt 2 5))
      ∗ atPos ER (recvCell c 2 5) 0 ∅ 0)
      ∗ (atPos ER (copyCell c 2 7) 0 ∅ 0
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 5) () (copyAmt 0))
      ∗ cred (tallyAt (copyCell c 1 5) () (copyAmt 1))
      ∗ cred (tallyAt (copyCell c 2 5) () (copyAmt 2))
      ∗ cred (tallyAt (copyCell c 0 6) () (copyAmt 0))
      ∗ holdsPts c b16M fullShare (bv m c)
      ∗ Done35 m K c
      ∗ InitFrom37 m K c)) := by
  unfold InitFrom36 Done35
  ac_rfl

end Cert.Kernel.DM
end
-- ==== Proof.Bits.ChainEqs4.lean ====
/- GENERATED by: bun scratch/gen_partspecs.js "$KIT/certs/proofs/900891_g7700000000000892_dist_matmul_m_i_outrep_m1024_n1024_k512_v7x_i8_f32_1_alg" "proofs.«900891_g7700000000000892_dist_matmul_m_i_outrep_m1024_n1024_k512_v7x_i8_f32_1_alg».proof" "chaineqs" "37" "47" "--prog" "Kernel" "--sub" "Bits" (run from the unit directory; the script is filed beside this module): the
   state before each step of the body regrouped as that step's pieces and the rest, steps 37 to 47. -/
import proofs.«900891_g7700000000000892_dist_matmul_m_i_outrep_m1024_n1024_k512_v7x_i8_f32_1_alg».proof.Proof.Bits.ChainDefs
set_option maxRecDepth 16384
noncomputable section
namespace Cert.Kernel.DM
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (K : Dev nD × CIx → ℕ)

attribute [local irreducible] cred atPos dutyTok owes reached records inA inB slotAny slotHas slotTop slotBot stageAny stageHas stageTop pieceAny pieceDone dstAny anyPts holdsPts Orem payList tallyAt xferAmt copyAmt partner xr mask

set_option maxHeartbeats 2000000 in
theorem eq_step37 (c : Dev nD) :
    (iprop((cred (tallyAt (copyCell c 1 6) () (copyAmt 1))
      ∗ atPos ER (sendCell c 2 5) 1 ∅ 0
      ∗ slotHas m c 2 2 fullShare.left
      ∗ (∃ W, owes (c : Thread nD τ) (Orem ((payList c).drop 27)) W)
      ∗ atPos ER (recvCell c 2 5) 1 ∅ 0
      ∗ slotHas m c 2 6 fullShare)
      ∗ (atPos ER (copyCell c 2 7) 0 ∅ 0
      ∗ cred (tallyAt (copyCell c 2 4) () (copyAmt 2))
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 5) () (copyAmt 0))
      ∗ cred (tallyAt (copyCell c 1 5) () (copyAmt 1))
      ∗ cred (tallyAt (copyCell c 2 5) () (copyAmt 2))
      ∗ cred (tallyAt (copyCell c 0 6) () (copyAmt 0))
      ∗ holdsPts c b16M fullShare (bv m c)
      ∗ Done35 m K c
      ∗ InitFrom37 m K c)) : sProp 𝕄)
    = iprop((cred (tallyAt (copyCell c 2 4) () (copyAmt 2))
      ∗ atPos ER (copyCell c 2 4) 0 ∅ 0
      ∗ (∃ W, owes (c : Thread nD τ) (Orem ((payList c).drop 27)) W)
      ∗ slotHas m c 2 6 fullShare
      ∗ holdsPts c b16M fullShare (bv m c)
      ∗ pieceAny c 2 6
      ∗ dutyTok ER (copyCell c 2 6) 0 0)
      ∗ (atPos ER (copyCell c 2 7) 0 ∅ 0
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 5) () (copyAmt 0))
      ∗ cred (tallyAt (copyCell c 1 5) () (copyAmt 1))
      ∗ cred (tallyAt (copyCell c 2 5) () (copyAmt 2))
      ∗ cred (tallyAt (copyCell c 0 6) () (copyAmt 0))
      ∗ cred (tallyAt (copyCell c 1 6) () (copyAmt 1))
      ∗ Done36 m K c
      ∗ InitFrom38 m K c)) := by
  unfold InitFrom37 Done36
  ac_rfl

set_option maxHeartbeats 2000000 in
theorem eq_step38 (c : Dev nD) :
    (iprop(((∃ W, owes (c : Thread nD τ) (Orem ((payList c).drop 27)) W)
      ∗ atPos ER (copyCell c 2 4) 1 ∅ 0
      ∗ pieceDone m c 2 4
      ∗ slotHas m c 2 6 fullShare
      ∗ holdsPts c b16M fullShare (bv m c)
      ∗ cred (tallyAt (copyCell c 2 6) () (copyAmt 2)))
      ∗ (atPos ER (copyCell c 2 7) 0 ∅ 0
      ∗ cred (tallyAt (sendCell c 0 6) () (xferAmt 0 6))
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 0 5) () (copyAmt 0))
      ∗ cred (tallyAt (copyCell c 1 5) () (copyAmt 1))
      ∗ cred (tallyAt (copyCell c 2 5) () (copyAmt 2))
      ∗ cred (tallyAt (copyCell c 0 6) () (copyAmt 0))
      ∗ cred (tallyAt (copyCell c 1 6) () (copyAmt 1))
      ∗ Done36 m K c
      ∗ InitFrom38 m K c)) : sProp 𝕄)
    = iprop((cred (tallyAt (sendCell c 0 6) () (xferAmt 0 6))
      ∗ atPos ER (sendCell c 0 6) 0 ∅ 0
      ∗ (∃ W, owes (c : Thread nD τ) (Orem ((payList c).drop 27)) W)
      ∗ cred (tallyAt (recvCell c 0 6) () (xferAmt 0 6))
      ∗ atPos ER (recvCell c 0 6) 0 ∅ 0
      ∗ cred (tallyAt (copyCell c 0 5) () (copyAmt 0))
      ∗ atPos ER (copyCell c 0 5) 0 ∅ 0
      ∗ holdsPts c b16M fullShare (bv m c))
      ∗ (atPos ER (copyCell c 2 7) 0 ∅ 0
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 1 5) () (copyAmt 1))
      ∗ cred (tallyAt (copyCell c 2 5) () (copyAmt 2))
      ∗ cred (tallyAt (copyCell c 0 6) () (copyAmt 0))
      ∗ cred (tallyAt (copyCell c 1 6) () (copyAmt 1))
      ∗ cred (tallyAt (copyCell c 2 6) () (copyAmt 2))
      ∗ Done37 m K c
      ∗ InitFrom39 m K c)) := by
  unfold InitFrom38 Done37
  ac_rfl

set_option maxHeartbeats 2000000 in
theorem eq_step39 (c : Dev nD) :
    (iprop((atPos ER (sendCell c 0 6) 1 ∅ 0
      ∗ slotTop m c 0 3 fullShare.left
      ∗ atPos ER (recvCell c 0 6) 1 ∅ 0
      ∗ slotTop m c 0 7 fullShare
      ∗ (∃ W, owes (c : Thread nD τ) (Orem ((payList c).drop 27)) W)
      ∗ atPos ER (copyCell c 0 5) 1 ∅ 0
      ∗ pieceDone m c 0 5
      ∗ holdsPts c b16M fullShare (bv m c)
      ∗ stageTop m c 0)
      ∗ (atPos ER (copyCell c 2 7) 0 ∅ 0
      ∗ cred (tallyAt (sendCell c 0 7) () (xferAmt 0 7))
      ∗ cred (tallyAt (sendCell c 1 6) () (xferAmt 1 6))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 1 5) () (copyAmt 1))
      ∗ cred (tallyAt (copyCell c 2 5) () (copyAmt 2))
      ∗ cred (tallyAt (copyCell c 0 6) () (copyAmt 0))
      ∗ cred (tallyAt (copyCell c 1 6) () (copyAmt 1))
      ∗ cred (tallyAt (copyCell c 2 6) () (copyAmt 2))
      ∗ Done37 m K c
      ∗ InitFrom39 m K c)) : sProp 𝕄)
    = iprop((cred (tallyAt (sendCell c 1 6) () (xferAmt 1 6))
      ∗ atPos ER (sendCell c 1 6) 0 ∅ 0
      ∗ (∃ W, owes (c : Thread nD τ) (Orem ((payList c).drop 27)) W)
      ∗ cred (tallyAt (recvCell c 1 6) () (xferAmt 1 6))
      ∗ atPos ER (recvCell c 1 6) 0 ∅ 0
      ∗ cred (tallyAt (copyCell c 1 5) () (copyAmt 1))
      ∗ atPos ER (copyCell c 1 5) 0 ∅ 0
      ∗ holdsPts c b16M fullShare (bv m c))
      ∗ (atPos ER (copyCell c 2 7) 0 ∅ 0
      ∗ cred (tallyAt (sendCell c 0 7) () (xferAmt 0 7))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 2 5) () (copyAmt 2))
      ∗ cred (tallyAt (copyCell c 0 6) () (copyAmt 0))
      ∗ cred (tallyAt (copyCell c 1 6) () (copyAmt 1))
      ∗ cred (tallyAt (copyCell c 2 6) () (copyAmt 2))
      ∗ stageTop m c 0
      ∗ Done38 m K c
      ∗ InitFrom40 m K c)) := by
  unfold InitFrom39 Done38
  ac_rfl

set_option maxHeartbeats 2000000 in
theorem eq_step40 (c : Dev nD) :
    (iprop((atPos ER (sendCell c 1 6) 1 ∅ 0
      ∗ slotTop m c 1 3 fullShare.left
      ∗ atPos ER (recvCell c 1 6) 1 ∅ 0
      ∗ slotTop m c 1 7 fullShare
      ∗ (∃ W, owes (c : Thread nD τ) (Orem ((payList c).drop 27)) W)
      ∗ atPos ER (copyCell c 1 5) 1 ∅ 0
      ∗ pieceDone m c 1 5
      ∗ stageAny c 1 1
      ∗ holdsPts c b16M fullShare (bv m c))
      ∗ (atPos ER (copyCell c 2 7) 0 ∅ 0
      ∗ cred (tallyAt (sendCell c 0 7) () (xferAmt 0 7))
      ∗ cred (tallyAt (sendCell c 1 7) () (xferAmt 1 7))
      ∗ cred (tallyAt (sendCell c 2 6) () (xferAmt 2 6))
      ∗ cred (tallyAt (sendCell c 2 7) () (xferAmt 2 7))
      ∗ cred (tallyAt (copyCell c 2 5) () (copyAmt 2))
      ∗ cred (tallyAt (copyCell c 0 6) () (copyAmt 0))
      ∗ cred (tallyAt (copyCell c 1 6) () (copyAmt 1))
      ∗ cred (tallyAt (copyCell c 2 6) () (copyAmt 2))
      ∗ stageTop m c 0
      ∗ Done38 m K c
      ∗ InitFrom40 m K c)) : sProp 𝕄)
    = iprop((stageAny c 1 1
      ∗ cred (tallyAt (sendCell c 2 6) () (xferAmt 2 6))
      ∗ atPos ER (sendCell c 2 6) 0 ∅ 0
      ∗ (∃ W, owes (c : Thread nD τ) (Orem ((payList c).drop 27)) W)
      ∗ cred (tallyAt (recvCell c 2 6) () (xferAmt 2 6))
      ∗ atPos ER (recvCell c 2 6) 0 ∅ 0
      ∗ cred (tallyAt (copyCell c 2 5) () (copyAmt 2))
      ∗ atPos ER (copyCell c 2 5) 0 ∅ 0)
      ∗ (atPos ER (copyCell c 2 7) 0 ∅ 0
      ∗ cred (tallyAt (sendCell c 0 7) () (xferAmt 0 7))
      ∗ cred (tallyAt (sendCell c 1 7) () (xferAmt 1 7))
      ∗ cred (tallyAt (sendCell c 2 7) () (xferAmt 2 7))
      ∗ cred (tallyAt (copyCell c 0 6) () (copyAmt 0))
      ∗ cred (tallyAt (copyCell c 1 6) () (copyAmt 1))
      ∗ cred (tallyAt (copyCell c 2 6) () (copyAmt 2))
      ∗ stageTop m c 0
      ∗ holdsPts c b16M fullShare (bv m c)
      ∗ Done39 m K c
      ∗ InitFrom41 m K c)) := by
  unfold InitFrom40 Done39
  ac_rfl

set_option maxHeartbeats 2000000 in
theorem eq_step41 (c : Dev nD) :
    (iprop((stageTop m c 1
      ∗ atPos ER (sendCell c 2 6) 1 ∅ 0
      ∗ slotTop m c 2 3 fullShare.left
      ∗ atPos ER (recvCell c 2 6) 1 ∅ 0
      ∗ slotTop m c 2 7 fullShare
      ∗ (∃ W, owes (c : Thread nD τ) (Orem ((payList c).drop 27)) W)
      ∗ atPos ER (copyCell c 2 5) 1 ∅ 0
      ∗ pieceDone m c 2 5
      ∗ stageAny c 2 1)
      ∗ (atPos ER (copyCell c 2 7) 0 ∅ 0
      ∗ cred (tallyAt (sendCell c 0 7) () (xferAmt 0 7))
      ∗ cred (tallyAt (sendCell c 1 7) () (xferAmt 1 7))
      ∗ cred (tallyAt (sendCell c 2 7) () (xferAmt 2 7))
      ∗ cred (tallyAt (copyCell c 0 6) () (copyAmt 0))
      ∗ cred (tallyAt (copyCell c 1 6) () (copyAmt 1))
      ∗ cred (tallyAt (copyCell c 2 6) () (copyAmt 2))
      ∗ stageTop m c 0
      ∗ holdsPts c b16M fullShare (bv m c)
      ∗ Done39 m K c
      ∗ InitFrom41 m K c)) : sProp 𝕄)
    = iprop((holdsPts c b16M fullShare (bv m c)
      ∗ stageAny c 2 1
      ∗ cred (tallyAt (sendCell c 0 7) () (xferAmt 0 7))
      ∗ atPos ER (sendCell c 0 7) 0 ∅ 0
      ∗ (∃ W, owes (c : Thread nD τ) (Orem ((payList c).drop 27)) W)
      ∗ cred (tallyAt (recvCell c 0 7) () (xferAmt 0 7))
      ∗ atPos ER (recvCell c 0 7) 0 ∅ 0)
      ∗ (atPos ER (copyCell c 2 7) 0 ∅ 0
      ∗ cred (tallyAt (sendCell c 1 7) () (xferAmt 1 7))
      ∗ cred (tallyAt (sendCell c 2 7) () (xferAmt 2 7))
      ∗ cred (tallyAt (copyCell c 0 6) () (copyAmt 0))
      ∗ cred (tallyAt (copyCell c 1 6) () (copyAmt 1))
      ∗ cred (tallyAt (copyCell c 2 6) () (copyAmt 2))
      ∗ stageTop m c 0
      ∗ stageTop m c 1
      ∗ Done40 m K c
      ∗ InitFrom42 m K c)) := by
  unfold InitFrom41 Done40
  ac_rfl

set_option maxHeartbeats 2000000 in
theorem eq_step42 (c : Dev nD) :
    (iprop((holdsPts c b16M fullShare (bv m c)
      ∗ stageTop m c 2
      ∗ atPos ER (sendCell c 0 7) 1 ∅ 0
      ∗ slotBot m c 0 3 fullShare.left
      ∗ (∃ W, owes (c : Thread nD τ) (Orem ((payList c).drop 27)) W)
      ∗ atPos ER (recvCell c 0 7) 1 ∅ 0
      ∗ slotBot m c 0 7 fullShare)
      ∗ (atPos ER (copyCell c 2 7) 0 ∅ 0
      ∗ cred (tallyAt (sendCell c 1 7) () (xferAmt 1 7))
      ∗ cred (tallyAt (sendCell c 2 7) () (xferAmt 2 7))
      ∗ cred (tallyAt (copyCell c 0 6) () (copyAmt 0))
      ∗ cred (tallyAt (copyCell c 1 6) () (copyAmt 1))
      ∗ cred (tallyAt (copyCell c 2 6) () (copyAmt 2))
      ∗ stageTop m c 0
      ∗ stageTop m c 1
      ∗ Done40 m K c
      ∗ InitFrom42 m K c)) : sProp 𝕄)
    = iprop((stageTop m c 0
      ∗ pieceAny c 0 7
      ∗ dutyTok ER (copyCell c 0 7) 0 0
      ∗ cred (tallyAt (sendCell c 1 7) () (xferAmt 1 7))
      ∗ atPos ER (sendCell c 1 7) 0 ∅ 0
      ∗ (∃ W, owes (c : Thread nD τ) (Orem ((payList c).drop 27)) W))
      ∗ (atPos ER (copyCell c 2 7) 0 ∅ 0
      ∗ cred (tallyAt (sendCell c 2 7) () (xferAmt 2 7))
      ∗ cred (tallyAt (copyCell c 0 6) () (copyAmt 0))
      ∗ cred (tallyAt (copyCell c 1 6) () (copyAmt 1))
      ∗ cred (tallyAt (copyCell c 2 6) () (copyAmt 2))
      ∗ stageTop m c 1
      ∗ holdsPts c b16M fullShare (bv m c)
      ∗ stageTop m c 2
      ∗ Done41 m K c
      ∗ InitFrom43 m K c)) := by
  unfold InitFrom42 Done41
  ac_rfl

set_option maxHeartbeats 2000000 in
theorem eq_step43 (c : Dev nD) :
    (iprop((cred (tallyAt (copyCell c 0 7) () (copyAmt 0))
      ∗ (∃ W, owes (c : Thread nD τ) (Orem ((payList c).drop 27)) W)
      ∗ atPos ER (sendCell c 1 7) 1 ∅ 0
      ∗ slotBot m c 1 3 fullShare.left)
      ∗ (atPos ER (copyCell c 2 7) 0 ∅ 0
      ∗ cred (tallyAt (sendCell c 2 7) () (xferAmt 2 7))
      ∗ cred (tallyAt (copyCell c 0 6) () (copyAmt 0))
      ∗ cred (tallyAt (copyCell c 1 6) () (copyAmt 1))
      ∗ cred (tallyAt (copyCell c 2 6) () (copyAmt 2))
      ∗ stageTop m c 1
      ∗ holdsPts c b16M fullShare (bv m c)
      ∗ stageTop m c 2
      ∗ Done41 m K c
      ∗ InitFrom43 m K c)) : sProp 𝕄)
    = iprop((cred (tallyAt (recvCell c 1 7) () (xferAmt 1 7))
      ∗ atPos ER (recvCell c 1 7) 0 ∅ 0
      ∗ (∃ W, owes (c : Thread nD τ) (Orem ((payList c).drop 27)) W)
      ∗ holdsPts c b16M fullShare (bv m c)
      ∗ stageTop m c 1
      ∗ pieceAny c 1 7
      ∗ dutyTok ER (copyCell c 1 7) 0 0
      ∗ cred (tallyAt (sendCell c 2 7) () (xferAmt 2 7))
      ∗ atPos ER (sendCell c 2 7) 0 ∅ 0)
      ∗ (atPos ER (copyCell c 2 7) 0 ∅ 0
      ∗ cred (tallyAt (copyCell c 0 6) () (copyAmt 0))
      ∗ cred (tallyAt (copyCell c 1 6) () (copyAmt 1))
      ∗ cred (tallyAt (copyCell c 2 6) () (copyAmt 2))
      ∗ stageTop m c 2
      ∗ cred (tallyAt (copyCell c 0 7) () (copyAmt 0))
      ∗ Done42 m K c
      ∗ InitFrom44 m K c)) := by
  unfold InitFrom43 Done42
  ac_rfl

set_option maxHeartbeats 2000000 in
theorem eq_step44 (c : Dev nD) :
    (iprop((atPos ER (recvCell c 1 7) 1 ∅ 0
      ∗ slotBot m c 1 7 fullShare
      ∗ holdsPts c b16M fullShare (bv m c)
      ∗ cred (tallyAt (copyCell c 1 7) () (copyAmt 1))
      ∗ (∃ W, owes (c : Thread nD τ) (Orem ((payList c).drop 27)) W)
      ∗ atPos ER (sendCell c 2 7) 1 ∅ 0
      ∗ slotBot m c 2 3 fullShare.left)
      ∗ (atPos ER (copyCell c 2 7) 0 ∅ 0
      ∗ cred (tallyAt (copyCell c 0 6) () (copyAmt 0))
      ∗ cred (tallyAt (copyCell c 1 6) () (copyAmt 1))
      ∗ cred (tallyAt (copyCell c 2 6) () (copyAmt 2))
      ∗ stageTop m c 2
      ∗ cred (tallyAt (copyCell c 0 7) () (copyAmt 0))
      ∗ Done42 m K c
      ∗ InitFrom44 m K c)) : sProp 𝕄)
    = iprop((cred (tallyAt (recvCell c 2 7) () (xferAmt 2 7))
      ∗ atPos ER (recvCell c 2 7) 0 ∅ 0
      ∗ (∃ W, owes (c : Thread nD τ) (Orem ((payList c).drop 27)) W)
      ∗ holdsPts c b16M fullShare (bv m c)
      ∗ stageTop m c 2
      ∗ pieceAny c 2 7
      ∗ dutyTok ER (copyCell c 2 7) 0 0)
      ∗ (atPos ER (copyCell c 2 7) 0 ∅ 0
      ∗ cred (tallyAt (copyCell c 0 6) () (copyAmt 0))
      ∗ cred (tallyAt (copyCell c 1 6) () (copyAmt 1))
      ∗ cred (tallyAt (copyCell c 2 6) () (copyAmt 2))
      ∗ cred (tallyAt (copyCell c 0 7) () (copyAmt 0))
      ∗ cred (tallyAt (copyCell c 1 7) () (copyAmt 1))
      ∗ Done43 m K c
      ∗ InitFrom45 m K c)) := by
  unfold InitFrom44 Done43
  ac_rfl

set_option maxHeartbeats 2000000 in
theorem eq_step45 (c : Dev nD) :
    (iprop(((∃ W, owes (c : Thread nD τ) (Orem ((payList c).drop 27)) W)
      ∗ atPos ER (recvCell c 2 7) 1 ∅ 0
      ∗ slotBot m c 2 7 fullShare
      ∗ holdsPts c b16M fullShare (bv m c)
      ∗ cred (tallyAt (copyCell c 2 7) () (copyAmt 2)))
      ∗ (atPos ER (copyCell c 2 7) 0 ∅ 0
      ∗ cred (tallyAt (copyCell c 0 6) () (copyAmt 0))
      ∗ cred (tallyAt (copyCell c 1 6) () (copyAmt 1))
      ∗ cred (tallyAt (copyCell c 2 6) () (copyAmt 2))
      ∗ cred (tallyAt (copyCell c 0 7) () (copyAmt 0))
      ∗ cred (tallyAt (copyCell c 1 7) () (copyAmt 1))
      ∗ Done43 m K c
      ∗ InitFrom45 m K c)) : sProp 𝕄)
    = iprop((cred (tallyAt (copyCell c 0 6) () (copyAmt 0))
      ∗ atPos ER (copyCell c 0 6) 0 ∅ 0
      ∗ (∃ W, owes (c : Thread nD τ) (Orem ((payList c).drop 27)) W)
      ∗ cred (tallyAt (copyCell c 0 7) () (copyAmt 0))
      ∗ atPos ER (copyCell c 0 7) 0 ∅ 0
      ∗ cred (tallyAt (copyCell c 1 6) () (copyAmt 1))
      ∗ atPos ER (copyCell c 1 6) 0 ∅ 0
      ∗ cred (tallyAt (copyCell c 1 7) () (copyAmt 1))
      ∗ atPos ER (copyCell c 1 7) 0 ∅ 0
      ∗ cred (tallyAt (copyCell c 2 6) () (copyAmt 2))
      ∗ atPos ER (copyCell c 2 6) 0 ∅ 0)
      ∗ (atPos ER (copyCell c 2 7) 0 ∅ 0
      ∗ cred (tallyAt (copyCell c 2 7) () (copyAmt 2))
      ∗ Done44 m K c)) := by
  unfold InitFrom45 Done44
  ac_rfl

set_option maxHeartbeats 2000000 in
theorem eq_step46 (c : Dev nD) :
    (iprop((atPos ER (copyCell c 0 6) 1 ∅ 0
      ∗ pieceDone m c 0 6
      ∗ stageAny c 0 0
      ∗ atPos ER (copyCell c 0 7) 1 ∅ 0
      ∗ pieceDone m c 0 7
      ∗ stageAny c 0 1
      ∗ atPos ER (copyCell c 1 6) 1 ∅ 0
      ∗ pieceDone m c 1 6
      ∗ stageAny c 1 0
      ∗ atPos ER (copyCell c 1 7) 1 ∅ 0
      ∗ pieceDone m c 1 7
      ∗ stageAny c 1 1
      ∗ (∃ W, owes (c : Thread nD τ) (Orem ((payList c).drop 27)) W)
      ∗ atPos ER (copyCell c 2 6) 1 ∅ 0
      ∗ pieceDone m c 2 6
      ∗ stageAny c 2 0)
      ∗ (atPos ER (copyCell c 2 7) 0 ∅ 0
      ∗ cred (tallyAt (copyCell c 2 7) () (copyAmt 2))
      ∗ Done44 m K c)) : sProp 𝕄)
    = iprop((cred (tallyAt (copyCell c 2 7) () (copyAmt 2))
      ∗ atPos ER (copyCell c 2 7) 0 ∅ 0
      ∗ (∃ W, owes (c : Thread nD τ) (Orem ((payList c).drop 27)) W))
      ∗ (Done45 m K c)) := by
  unfold Done45
  ac_rfl

set_option maxHeartbeats 2000000 in
theorem eq_end (c : Dev nD) :
    (iprop(records (Rd m) K ∗ ((∃ W, owes (c : Thread nD τ) (Orem ((payList c).drop 27)) W)
      ∗ atPos ER (copyCell c 2 7) 1 ∅ 0
      ∗ pieceDone m c 2 7
      ∗ stageAny c 2 1)
      ∗ (Done45 m K c)) : sProp 𝕄)
    = iprop(atPos ER (barCell c) 1 ∅ 0 ∗ FinalChain m K c) := by
  unfold FinalChain Done45 Done44 Done43 Done42 Done41 Done40 Done39 Done38 Done37 Done36 Done35 Done34 Done33 Done32 Done31 Done30 Done29 Done28 Done27 Done26 Done25 Done24 Done23 Done22 Done21 Done20 Done19 Done18 Done17 Done16 Done15 Done14 Done13 Done12 Done11 Done10 Done9 Done8 Done7 Done6 Done5 Done2 Done1
  ac_rfl

end Cert.Kernel.DM
end
-- ==== Proof.Bits.PartSpecs.lean ====
/- GENERATED by: bun scratch/gen_partspecs.js "$KIT/certs/proofs/900891_g7700000000000892_dist_matmul_m_i_outrep_m1024_n1024_k512_v7x_i8_f32_1_alg" "proofs.«900891_g7700000000000892_dist_matmul_m_i_outrep_m1024_n1024_k512_v7x_i8_f32_1_alg».proof" "specs" "--prog" "Kernel" "--sub" "Bits" (run from the unit directory; the script is filed beside this module): the
   statement of each printed part's run, as a table of the pieces of state its operations consume and leave. -/
import proofs.«900891_g7700000000000892_dist_matmul_m_i_outrep_m1024_n1024_k512_v7x_i8_f32_1_alg».proof.Proof.Bits.Atoms
set_option maxRecDepth 16384
noncomputable section
namespace Cert.Kernel.DM
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (K : Dev nD × CIx → ℕ)

/-- The narrowed rows of the third group of the device's own block, before they are given their leading unit axis. -/
def rows2 (c : Dev nD) : FVec F S336x512 .bf16 :=
  k0_pay3 ((aM : Memref sig .tc .vmem S1024x512 .f32).view.readAt (Elt F) (Rect.unit (s := S1024x512) ![688, 0] S336x512.size inb_S1024x512_S336x512_688_0).toLoadRect (xstg m c))

/-- Part 1: the entry signal to neighbour 0; the entry signal to neighbour 1; the entry signal to neighbour 2; a load of rows of the left factor; the load of slot 0 of group 0 before it is filled; the fill of slot 0 of group 0; a load of rows of the left factor; the load of slot 0 of group 1 before it is filled; the fill of slot 0 of group 1; a load of rows of the left factor. -/
def Part1Spec : Prop :=
  ∀ (c : Dev nD)  (Kt : (Σ' (d0 : Dev nD) (v2 : BitVec 32) (v3 : Sems sig S_), FVec F S336x512 .bf16) → sProp 𝕄),
    iprop(records (Rd m) K ∗ levAts L lv
        ∗ dutyTok ER (barCell (xr c (dir 0))) 0 0
        ∗ dstAny c 0 0
        ∗ dstAny c 1 3
        ∗ dstAny c 1 4
        ∗ dstAny c 1 5
        ∗ dstAny c 1 6
        ∗ dstAny c 1 7
        ∗ dstAny c 2 1
        ∗ dstAny c 2 2
        ∗ (∃ W, owes (c : Thread nD τ) (Orem ((payList c).drop 0)) W)
        ∗ dutyTok ER (barCell (xr c (dir 1))) 0 1
        ∗ dstAny c 0 1
        ∗ dstAny c 0 2
        ∗ dstAny c 1 0
        ∗ dstAny c 2 3
        ∗ dstAny c 2 4
        ∗ dstAny c 2 5
        ∗ dstAny c 2 6
        ∗ dstAny c 2 7
        ∗ dutyTok ER (barCell (xr c (dir 2))) 0 2
        ∗ dstAny c 0 3
        ∗ dstAny c 0 4
        ∗ dstAny c 0 5
        ∗ dstAny c 0 6
        ∗ dstAny c 0 7
        ∗ dstAny c 1 1
        ∗ dstAny c 1 2
        ∗ dstAny c 2 0
        ∗ inA m c
        ∗ slotAny c 0 0
        ∗ slotAny c 1 0
        ∗ (∀ r : (Σ' (d0 : Dev nD) (v2 : BitVec 32) (v3 : Sems sig S_), FVec F S336x512 .bf16), ⌜r.1 = c ∧ r.2.2.1 = (SemArray.scalar (sig.barrier 0 rfl) : Sems sig S_) ∧ r.2.2.2 = rows2 m c⌝ -∗ iprop((∃ W, owes (c : Thread nD τ) (Orem ((payList c).drop 3)) W)
        ∗ inA m c
        ∗ slotHas m c 0 0 fullShare.left.left.left
        ∗ slotHas m c 0 0 fullShare.left.left.right
        ∗ slotHas m c 0 0 fullShare.left.right
        ∗ slotHas m c 0 0 fullShare.right
        ∗ slotHas m c 1 0 fullShare.left.left.left
        ∗ slotHas m c 1 0 fullShare.left.left.right
        ∗ slotHas m c 1 0 fullShare.left.right
        ∗ slotHas m c 1 0 fullShare.right) -∗ Kt r))
      ⊢ wp frame (wpE (defs₀ (F := F)) 𝒱₀ (c : Thread nD τ) none) Set.univ (k0_part1 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 ) Kt

/-- Part 2: the load of slot 0 of group 2 before it is filled; the fill of slot 0 of group 2; the barrier wait; the transfer of step 0 of group 0; the transfer of step 0 of group 1. -/
def Part2Spec : Prop :=
  ∀ (c : Dev nD) (v2 : BitVec 32) (Kt : (Σ' (v31 : BitVec 32) (v40 : BitVec 32), BitVec 32) → sProp 𝕄),
    iprop(records (Rd m) K ∗ levAts L lv
        ∗ slotAny c 2 0
        ∗ cred (tallyAt (barCell c) () 3)
        ∗ atPos ER (barCell c) 0 ∅ 0
        ∗ (∃ W, owes (c : Thread nD τ) (Orem ((payList c).drop 3)) W)
        ∗ slotHas m c 0 0 fullShare.left.left.left
        ∗ dutyTok ER (sendCell c 0 0) 0 0
        ∗ dutyTok ER (recvCell (partner c 0 0) 0 0) 0 0
        ∗ slotHas m c 1 0 fullShare.left.left.left
        ∗ dutyTok ER (sendCell c 1 0) 0 0
        ∗ dutyTok ER (recvCell (partner c 1 0) 1 0) 0 0
        ∗ (∀ r : (Σ' (v31 : BitVec 32) (v40 : BitVec 32), BitVec 32), iprop(slotHas m c 2 0 fullShare.left.left.left
        ∗ slotHas m c 2 0 fullShare.left.left.right
        ∗ slotHas m c 2 0 fullShare.left.right
        ∗ slotHas m c 2 0 fullShare.right
        ∗ atPos ER (barCell c) 1 ∅ 0
        ∗ dstAny (partner c 0 1) 0 1
        ∗ dstAny (partner c 0 2) 0 2
        ∗ dstAny (partner c 0 3) 0 3
        ∗ dstAny (partner c 0 4) 0 4
        ∗ dstAny (partner c 0 5) 0 5
        ∗ dstAny (partner c 0 6) 0 6
        ∗ dstAny (partner c 0 7) 0 7
        ∗ dstAny (partner c 1 1) 1 1
        ∗ dstAny (partner c 1 2) 1 2
        ∗ dstAny (partner c 1 3) 1 3
        ∗ dstAny (partner c 1 4) 1 4
        ∗ dstAny (partner c 1 5) 1 5
        ∗ dstAny (partner c 1 6) 1 6
        ∗ dstAny (partner c 1 7) 1 7
        ∗ dstAny (partner c 2 0) 2 0
        ∗ dstAny (partner c 2 1) 2 1
        ∗ dstAny (partner c 2 2) 2 2
        ∗ dstAny (partner c 2 3) 2 3
        ∗ dstAny (partner c 2 4) 2 4
        ∗ dstAny (partner c 2 5) 2 5
        ∗ dstAny (partner c 2 6) 2 6
        ∗ dstAny (partner c 2 7) 2 7
        ∗ cred (tallyAt (sendCell c 0 0) () (xferAmt 0 0))
        ∗ (∃ W, owes (c : Thread nD τ) (Orem ((payList c).drop 5)) W)
        ∗ cred (tallyAt (sendCell c 1 0) () (xferAmt 1 0))) -∗ Kt r))
      ⊢ wp frame (wpE (defs₀ (F := F)) 𝒱₀ (c : Thread nD τ) none) Set.univ (k0_part2 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 (SemArray.scalar (sig.barrier 0 rfl)) (rows2 m c)) Kt

/-- Part 3: the transfer of step 0 of group 2; the transfer of step 1 of group 0. -/
def Part3Spec : Prop :=
  ∀ (c : Dev nD) (v2 : BitVec 32) (v49 : BitVec 32) (Kt : (Σ' (v58 : BitVec 32), BitVec 32) → sProp 𝕄),
    iprop(records (Rd m) K ∗ levAts L lv
        ∗ slotHas m c 2 0 fullShare.left.left.left
        ∗ dstAny (partner c 2 0) 2 0
        ∗ dutyTok ER (sendCell c 2 0) 0 0
        ∗ dutyTok ER (recvCell (partner c 2 0) 2 0) 0 0
        ∗ (∃ W, owes (c : Thread nD τ) (Orem ((payList c).drop 5)) W)
        ∗ slotHas m c 0 0 fullShare.left.left.right
        ∗ dstAny (partner c 0 1) 0 1
        ∗ dutyTok ER (sendCell c 0 1) 0 0
        ∗ dutyTok ER (recvCell (partner c 0 1) 0 1) 0 0
        ∗ (∀ r : (Σ' (v58 : BitVec 32), BitVec 32), iprop(cred (tallyAt (sendCell c 2 0) () (xferAmt 2 0))
        ∗ (∃ W, owes (c : Thread nD τ) (Orem ((payList c).drop 7)) W)
        ∗ cred (tallyAt (sendCell c 0 1) () (xferAmt 0 1))) -∗ Kt r))
      ⊢ wp frame (wpE (defs₀ (F := F)) 𝒱₀ (c : Thread nD τ) none) Set.univ (k0_part3 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v49) Kt

/-- Part 4: the transfer of step 1 of group 1; the transfer of step 1 of group 2; the transfer of step 3 of group 0. -/
def Part4Spec : Prop :=
  ∀ (c : Dev nD) (v2 : BitVec 32) (Kt : (Σ' (v76 : BitVec 32) (v85 : BitVec 32) (v94 : BitVec 32) (v95 : BitVec 32), BitVec 32) → sProp 𝕄),
    iprop(records (Rd m) K ∗ levAts L lv
        ∗ slotHas m c 1 0 fullShare.left.left.right
        ∗ dstAny (partner c 1 1) 1 1
        ∗ dutyTok ER (sendCell c 1 1) 0 0
        ∗ dutyTok ER (recvCell (partner c 1 1) 1 1) 0 0
        ∗ (∃ W, owes (c : Thread nD τ) (Orem ((payList c).drop 7)) W)
        ∗ slotHas m c 2 0 fullShare.left.left.right
        ∗ dstAny (partner c 2 1) 2 1
        ∗ dutyTok ER (sendCell c 2 1) 0 0
        ∗ dutyTok ER (recvCell (partner c 2 1) 2 1) 0 0
        ∗ slotHas m c 0 0 fullShare.left.right
        ∗ dstAny (partner c 0 3) 0 3
        ∗ dutyTok ER (sendCell c 0 3) 0 0
        ∗ dutyTok ER (recvCell (partner c 0 3) 0 3) 0 0
        ∗ (∀ r : (Σ' (v76 : BitVec 32) (v85 : BitVec 32) (v94 : BitVec 32) (v95 : BitVec 32), BitVec 32), iprop(cred (tallyAt (sendCell c 1 1) () (xferAmt 1 1))
        ∗ cred (tallyAt (sendCell c 2 1) () (xferAmt 2 1))
        ∗ (∃ W, owes (c : Thread nD τ) (Orem ((payList c).drop 10)) W)
        ∗ cred (tallyAt (sendCell c 0 3) () (xferAmt 0 3))) -∗ Kt r))
      ⊢ wp frame (wpE (defs₀ (F := F)) 𝒱₀ (c : Thread nD τ) none) Set.univ (k0_part4 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 5: the transfer of step 3 of group 1; the transfer of step 3 of group 2; the load of the right factor; the load of the narrowed right factor's buffer before it is filled; the fill of the narrowed right factor; the load of slot 0 of group 0; a load of the narrowed right factor. -/
def Part5Spec : Prop :=
  ∀ (c : Dev nD) (v2 : BitVec 32) (v95 : BitVec 32) (c0_i32_118 : BitVec 32) (Kt : (Σ' (v103 : BitVec 32), FVec F S352x1024 .f32) → sProp 𝕄),
    iprop(records (Rd m) K ∗ levAts L lv
        ∗ slotHas m c 1 0 fullShare.left.right
        ∗ dstAny (partner c 1 3) 1 3
        ∗ dutyTok ER (sendCell c 1 3) 0 0
        ∗ dutyTok ER (recvCell (partner c 1 3) 1 3) 0 0
        ∗ (∃ W, owes (c : Thread nD τ) (Orem ((payList c).drop 10)) W)
        ∗ slotHas m c 2 0 fullShare.left.right
        ∗ dstAny (partner c 2 3) 2 3
        ∗ dutyTok ER (sendCell c 2 3) 0 0
        ∗ dutyTok ER (recvCell (partner c 2 3) 2 3) 0 0
        ∗ inB m c
        ∗ anyPts c b16M
        ∗ slotHas m c 0 0 fullShare.right
        ∗ (∀ r : (Σ' (v103 : BitVec 32), FVec F S352x1024 .f32), ⌜r.2 = prod352 (sv0 m (xr c (mask 0 0))) (bv m c)⌝ -∗ iprop(cred (tallyAt (sendCell c 1 3) () (xferAmt 1 3))
        ∗ (∃ W, owes (c : Thread nD τ) (Orem ((payList c).drop 12)) W)
        ∗ cred (tallyAt (sendCell c 2 3) () (xferAmt 2 3))
        ∗ inB m c
        ∗ holdsPts c b16M fullShare (bv m c)
        ∗ slotHas m c 0 0 fullShare.right) -∗ Kt r))
      ⊢ wp frame (wpE (defs₀ (F := F)) 𝒱₀ (c : Thread nD τ) none) Set.univ (k0_part5 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v95 c0_i32_118) Kt

/-- Part 6: the load of stage slot 0 of group 0 before its store; the store of product block 0 of group 0; the copy of product block 0 of group 0 into the result; the load of slot 0 of group 1; a load of the narrowed right factor; the load of stage slot 0 of group 1 before its store; the store of product block 0 of group 1; the copy of product block 0 of group 1 into the result. -/
def Part6Spec : Prop :=
  ∀ (c : Dev nD) (v2 : BitVec 32) (Kt : (PUnit) → sProp 𝕄),
    iprop(records (Rd m) K ∗ levAts L lv
        ∗ stageAny c 0 0
        ∗ pieceAny c 0 0
        ∗ dutyTok ER (copyCell c 0 0) 0 0
        ∗ slotHas m c 1 0 fullShare.right
        ∗ holdsPts c b16M fullShare (bv m c)
        ∗ stageAny c 1 0
        ∗ pieceAny c 1 0
        ∗ dutyTok ER (copyCell c 1 0) 0 0
        ∗ (∀ r : (PUnit), iprop(cred (tallyAt (copyCell c 0 0) () (copyAmt 0))
        ∗ slotHas m c 1 0 fullShare.right
        ∗ holdsPts c b16M fullShare (bv m c)
        ∗ cred (tallyAt (copyCell c 1 0) () (copyAmt 1))) -∗ Kt r))
      ⊢ wp frame (wpE (defs₀ (F := F)) 𝒱₀ (c : Thread nD τ) none) Set.univ (k0_part6 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 (prod352 (sv0 m (xr c (mask 0 0))) (bv m c))) Kt

/-- Part 7: the load of slot 0 of group 2; a load of the narrowed right factor; the load of stage slot 0 of group 2 before its store; the store of product block 0 of group 2; the copy of product block 0 of group 2 into the result; the wait on the send cell 0 of group 0. -/
def Part7Spec : Prop :=
  ∀ (c : Dev nD) (v2 : BitVec 32) (v31 : BitVec 32) (Kt : (PUnit) → sProp 𝕄),
    iprop(records (Rd m) K ∗ levAts L lv
        ∗ slotHas m c 2 0 fullShare.right
        ∗ holdsPts c b16M fullShare (bv m c)
        ∗ stageAny c 2 0
        ∗ pieceAny c 2 0
        ∗ dutyTok ER (copyCell c 2 0) 0 0
        ∗ cred (tallyAt (sendCell c 0 0) () (xferAmt 0 0))
        ∗ atPos ER (sendCell c 0 0) 0 ∅ 0
        ∗ (∃ W, owes (c : Thread nD τ) (Orem ((payList c).drop 12)) W)
        ∗ (∀ r : (PUnit), iprop(slotHas m c 2 0 fullShare.right
        ∗ holdsPts c b16M fullShare (bv m c)
        ∗ cred (tallyAt (copyCell c 2 0) () (copyAmt 2))
        ∗ (∃ W, owes (c : Thread nD τ) (Orem ((payList c).drop 12)) W)
        ∗ atPos ER (sendCell c 0 0) 1 ∅ 0
        ∗ slotHas m c 0 0 fullShare.left.left.left) -∗ Kt r))
      ⊢ wp frame (wpE (defs₀ (F := F)) 𝒱₀ (c : Thread nD τ) none) Set.univ (k0_part7 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v31) Kt

/-- Part 8: the wait on the recv cell 0 of group 0; the transfer of step 2 of group 0; the transfer of step 4 of group 0. -/
def Part8Spec : Prop :=
  ∀ (c : Dev nD) (v2 : BitVec 32) (Kt : (Σ' (v173 : BitVec 32), BitVec 32) → sProp 𝕄),
    iprop(records (Rd m) K ∗ levAts L lv
        ∗ cred (tallyAt (recvCell c 0 0) () (xferAmt 0 0))
        ∗ atPos ER (recvCell c 0 0) 0 ∅ 0
        ∗ (∃ W, owes (c : Thread nD τ) (Orem ((payList c).drop 12)) W)
        ∗ dstAny (partner c 0 2) 0 2
        ∗ dutyTok ER (sendCell c 0 2) 0 0
        ∗ dutyTok ER (recvCell (partner c 0 2) 0 2) 0 0
        ∗ dstAny (partner c 0 4) 0 4
        ∗ dutyTok ER (sendCell c 0 4) 0 0
        ∗ dutyTok ER (recvCell (partner c 0 4) 0 4) 0 0
        ∗ (∀ r : (Σ' (v173 : BitVec 32), BitVec 32), iprop(atPos ER (recvCell c 0 0) 1 ∅ 0
        ∗ slotHas m c 0 1 fullShare.right
        ∗ cred (tallyAt (sendCell c 0 2) () (xferAmt 0 2))
        ∗ (∃ W, owes (c : Thread nD τ) (Orem ((payList c).drop 14)) W)
        ∗ cred (tallyAt (sendCell c 0 4) () (xferAmt 0 4))) -∗ Kt r))
      ⊢ wp frame (wpE (defs₀ (F := F)) 𝒱₀ (c : Thread nD τ) none) Set.univ (k0_part8 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 9: the wait on the send cell 0 of group 1; the wait on the recv cell 0 of group 1; the transfer of step 2 of group 1. -/
def Part9Spec : Prop :=
  ∀ (c : Dev nD) (v2 : BitVec 32) (v40 : BitVec 32) (Kt : (Σ' (v201 : BitVec 32) (v210 : BitVec 32), BitVec 32) → sProp 𝕄),
    iprop(records (Rd m) K ∗ levAts L lv
        ∗ cred (tallyAt (sendCell c 1 0) () (xferAmt 1 0))
        ∗ atPos ER (sendCell c 1 0) 0 ∅ 0
        ∗ (∃ W, owes (c : Thread nD τ) (Orem ((payList c).drop 14)) W)
        ∗ cred (tallyAt (recvCell c 1 0) () (xferAmt 1 0))
        ∗ atPos ER (recvCell c 1 0) 0 ∅ 0
        ∗ dstAny (partner c 1 2) 1 2
        ∗ dutyTok ER (sendCell c 1 2) 0 0
        ∗ dutyTok ER (recvCell (partner c 1 2) 1 2) 0 0
        ∗ (∀ r : (Σ' (v201 : BitVec 32) (v210 : BitVec 32), BitVec 32), iprop(atPos ER (sendCell c 1 0) 1 ∅ 0
        ∗ slotHas m c 1 0 fullShare.left.left.left
        ∗ atPos ER (recvCell c 1 0) 1 ∅ 0
        ∗ slotHas m c 1 1 fullShare.left.right
        ∗ slotHas m c 1 1 fullShare.right
        ∗ (∃ W, owes (c : Thread nD τ) (Orem ((payList c).drop 15)) W)
        ∗ cred (tallyAt (sendCell c 1 2) () (xferAmt 1 2))) -∗ Kt r))
      ⊢ wp frame (wpE (defs₀ (F := F)) 𝒱₀ (c : Thread nD τ) none) Set.univ (k0_part9 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v40) Kt

/-- Part 10: the transfer of step 4 of group 1; the wait on the send cell 0 of group 2; the wait on the recv cell 0 of group 2. -/
def Part10Spec : Prop :=
  ∀ (c : Dev nD) (v2 : BitVec 32) (v49 : BitVec 32) (v211 : BitVec 32) (Kt : (BitVec 32) → sProp 𝕄),
    iprop(records (Rd m) K ∗ levAts L lv
        ∗ slotHas m c 1 1 fullShare.left.right
        ∗ dstAny (partner c 1 4) 1 4
        ∗ dutyTok ER (sendCell c 1 4) 0 0
        ∗ dutyTok ER (recvCell (partner c 1 4) 1 4) 0 0
        ∗ (∃ W, owes (c : Thread nD τ) (Orem ((payList c).drop 15)) W)
        ∗ cred (tallyAt (sendCell c 2 0) () (xferAmt 2 0))
        ∗ atPos ER (sendCell c 2 0) 0 ∅ 0
        ∗ cred (tallyAt (recvCell c 2 0) () (xferAmt 2 0))
        ∗ atPos ER (recvCell c 2 0) 0 ∅ 0
        ∗ (∀ r : (BitVec 32), iprop(cred (tallyAt (sendCell c 1 4) () (xferAmt 1 4))
        ∗ atPos ER (sendCell c 2 0) 1 ∅ 0
        ∗ slotHas m c 2 0 fullShare.left.left.left
        ∗ (∃ W, owes (c : Thread nD τ) (Orem ((payList c).drop 16)) W)
        ∗ atPos ER (recvCell c 2 0) 1 ∅ 0
        ∗ slotHas m c 2 1 fullShare.left.left
        ∗ slotHas m c 2 1 fullShare.left.right
        ∗ slotHas m c 2 1 fullShare.right) -∗ Kt r))
      ⊢ wp frame (wpE (defs₀ (F := F)) 𝒱₀ (c : Thread nD τ) none) Set.univ (k0_part10 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v49 v211) Kt

/-- Part 11: the transfer of step 2 of group 2; the transfer of step 4 of group 2; the load of slot 1 of group 0; a load of the narrowed right factor; the load of stage slot 1 of group 0 before its store; the store of product block 1 of group 0. -/
def Part11Spec : Prop :=
  ∀ (c : Dev nD) (v2 : BitVec 32) (Kt : (BitVec 32) → sProp 𝕄),
    iprop(records (Rd m) K ∗ levAts L lv
        ∗ slotHas m c 2 1 fullShare.left.left
        ∗ dstAny (partner c 2 2) 2 2
        ∗ dutyTok ER (sendCell c 2 2) 0 0
        ∗ dutyTok ER (recvCell (partner c 2 2) 2 2) 0 0
        ∗ (∃ W, owes (c : Thread nD τ) (Orem ((payList c).drop 16)) W)
        ∗ slotHas m c 2 1 fullShare.left.right
        ∗ dstAny (partner c 2 4) 2 4
        ∗ dutyTok ER (sendCell c 2 4) 0 0
        ∗ dutyTok ER (recvCell (partner c 2 4) 2 4) 0 0
        ∗ slotHas m c 0 1 fullShare.right
        ∗ holdsPts c b16M fullShare (bv m c)
        ∗ stageAny c 0 1
        ∗ (∀ r : (BitVec 32), iprop(cred (tallyAt (sendCell c 2 2) () (xferAmt 2 2))
        ∗ (∃ W, owes (c : Thread nD τ) (Orem ((payList c).drop 18)) W)
        ∗ cred (tallyAt (sendCell c 2 4) () (xferAmt 2 4))
        ∗ slotHas m c 0 1 fullShare.right
        ∗ holdsPts c b16M fullShare (bv m c)
        ∗ stageHas m c 0 1) -∗ Kt r))
      ⊢ wp frame (wpE (defs₀ (F := F)) 𝒱₀ (c : Thread nD τ) none) Set.univ (k0_part11 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 12: the copy of product block 1 of group 0 into the result; the load of slot 1 of group 1; a load of the narrowed right factor; the load of stage slot 1 of group 1 before its store; the store of product block 1 of group 1; the copy of product block 1 of group 1 into the result; the load of slot 1 of group 2; a load of the narrowed right factor; the load of stage slot 1 of group 2 before its store. -/
def Part12Spec : Prop :=
  ∀ (c : Dev nD) (v2 : BitVec 32) (Kt : (Σ' (v280 : FVec F S336x1024 .f32), Vec F S1x336x1024 .f32) → sProp 𝕄),
    iprop(records (Rd m) K ∗ levAts L lv
        ∗ stageHas m c 0 1
        ∗ pieceAny c 0 1
        ∗ dutyTok ER (copyCell c 0 1) 0 0
        ∗ slotHas m c 1 1 fullShare.right
        ∗ holdsPts c b16M fullShare (bv m c)
        ∗ stageAny c 1 1
        ∗ pieceAny c 1 1
        ∗ dutyTok ER (copyCell c 1 1) 0 0
        ∗ slotHas m c 2 1 fullShare.right
        ∗ stageAny c 2 1
        ∗ (∀ r : (Σ' (v280 : FVec F S336x1024 .f32), Vec F S1x336x1024 .f32), ⌜r.1 = prod336 (sv2 m (xr c (mask 2 1))) (bv m c)⌝ -∗ iprop(cred (tallyAt (copyCell c 0 1) () (copyAmt 0))
        ∗ slotHas m c 1 1 fullShare.right
        ∗ holdsPts c b16M fullShare (bv m c)
        ∗ cred (tallyAt (copyCell c 1 1) () (copyAmt 1))
        ∗ slotHas m c 2 1 fullShare.right
        ∗ stageAny c 2 1) -∗ Kt r))
      ⊢ wp frame (wpE (defs₀ (F := F)) 𝒱₀ (c : Thread nD τ) none) Set.univ (k0_part12 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 13: the store of product block 1 of group 2; the copy of product block 1 of group 2 into the result; the wait on the send cell 1 of group 0; the wait on the recv cell 1 of group 0. -/
def Part13Spec : Prop :=
  ∀ (c : Dev nD) (v2 : BitVec 32) (v58 : BitVec 32) (v281 : Vec F S1x336x1024 .f32) (Kt : (BitVec 32) → sProp 𝕄),
    iprop(records (Rd m) K ∗ levAts L lv
        ∗ stageAny c 2 1
        ∗ pieceAny c 2 1
        ∗ dutyTok ER (copyCell c 2 1) 0 0
        ∗ cred (tallyAt (sendCell c 0 1) () (xferAmt 0 1))
        ∗ atPos ER (sendCell c 0 1) 0 ∅ 0
        ∗ (∃ W, owes (c : Thread nD τ) (Orem ((payList c).drop 18)) W)
        ∗ cred (tallyAt (recvCell c 0 1) () (xferAmt 0 1))
        ∗ atPos ER (recvCell c 0 1) 0 ∅ 0
        ∗ (∀ r : (BitVec 32), iprop(cred (tallyAt (copyCell c 2 1) () (copyAmt 2))
        ∗ atPos ER (sendCell c 0 1) 1 ∅ 0
        ∗ slotHas m c 0 0 fullShare.left.left.right
        ∗ (∃ W, owes (c : Thread nD τ) (Orem ((payList c).drop 18)) W)
        ∗ atPos ER (recvCell c 0 1) 1 ∅ 0
        ∗ slotHas m c 0 2 fullShare.left
        ∗ slotHas m c 0 2 fullShare.right) -∗ Kt r))
      ⊢ wp frame (wpE (defs₀ (F := F)) 𝒱₀ (c : Thread nD τ) none) Set.univ (k0_part13 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v58 (prod336 (sv2 m (xr c (mask 2 1))) (bv m c)) v281) Kt

/-- Part 14: the transfer of step 5 of group 0; the wait on the send cell 1 of group 1; the wait on the recv cell 1 of group 1. -/
def Part14Spec : Prop :=
  ∀ (c : Dev nD) (v2 : BitVec 32) (v67 : BitVec 32) (v302 : BitVec 32) (Kt : (BitVec 32) → sProp 𝕄),
    iprop(records (Rd m) K ∗ levAts L lv
        ∗ slotHas m c 0 2 fullShare.left
        ∗ dstAny (partner c 0 5) 0 5
        ∗ dutyTok ER (sendCell c 0 5) 0 0
        ∗ dutyTok ER (recvCell (partner c 0 5) 0 5) 0 0
        ∗ (∃ W, owes (c : Thread nD τ) (Orem ((payList c).drop 18)) W)
        ∗ cred (tallyAt (sendCell c 1 1) () (xferAmt 1 1))
        ∗ atPos ER (sendCell c 1 1) 0 ∅ 0
        ∗ cred (tallyAt (recvCell c 1 1) () (xferAmt 1 1))
        ∗ atPos ER (recvCell c 1 1) 0 ∅ 0
        ∗ (∀ r : (BitVec 32), iprop(cred (tallyAt (sendCell c 0 5) () (xferAmt 0 5))
        ∗ atPos ER (sendCell c 1 1) 1 ∅ 0
        ∗ slotHas m c 1 0 fullShare.left.left.right
        ∗ (∃ W, owes (c : Thread nD τ) (Orem ((payList c).drop 19)) W)
        ∗ atPos ER (recvCell c 1 1) 1 ∅ 0
        ∗ slotHas m c 1 2 fullShare.left
        ∗ slotHas m c 1 2 fullShare.right) -∗ Kt r))
      ⊢ wp frame (wpE (defs₀ (F := F)) 𝒱₀ (c : Thread nD τ) none) Set.univ (k0_part14 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v67 v302) Kt

/-- Part 15: the transfer of step 5 of group 1; the wait on the send cell 1 of group 2; the wait on the recv cell 1 of group 2. -/
def Part15Spec : Prop :=
  ∀ (c : Dev nD) (v2 : BitVec 32) (v76 : BitVec 32) (v321 : BitVec 32) (Kt : (Σ' (v340 : BitVec 32), BitVec 32) → sProp 𝕄),
    iprop(records (Rd m) K ∗ levAts L lv
        ∗ slotHas m c 1 2 fullShare.left
        ∗ dstAny (partner c 1 5) 1 5
        ∗ dutyTok ER (sendCell c 1 5) 0 0
        ∗ dutyTok ER (recvCell (partner c 1 5) 1 5) 0 0
        ∗ (∃ W, owes (c : Thread nD τ) (Orem ((payList c).drop 19)) W)
        ∗ cred (tallyAt (sendCell c 2 1) () (xferAmt 2 1))
        ∗ atPos ER (sendCell c 2 1) 0 ∅ 0
        ∗ cred (tallyAt (recvCell c 2 1) () (xferAmt 2 1))
        ∗ atPos ER (recvCell c 2 1) 0 ∅ 0
        ∗ (∀ r : (Σ' (v340 : BitVec 32), BitVec 32), iprop(cred (tallyAt (sendCell c 1 5) () (xferAmt 1 5))
        ∗ atPos ER (sendCell c 2 1) 1 ∅ 0
        ∗ slotHas m c 2 0 fullShare.left.left.right
        ∗ (∃ W, owes (c : Thread nD τ) (Orem ((payList c).drop 20)) W)
        ∗ atPos ER (recvCell c 2 1) 1 ∅ 0
        ∗ slotHas m c 2 2 fullShare.left
        ∗ slotHas m c 2 2 fullShare.right) -∗ Kt r))
      ⊢ wp frame (wpE (defs₀ (F := F)) 𝒱₀ (c : Thread nD τ) none) Set.univ (k0_part15 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v76 v321) Kt

/-- Part 16: the transfer of step 5 of group 2; the wait on the copy cell 0 of group 0; the load of slot 2 of group 0; a load of the narrowed right factor; the load of stage slot 0 of group 0 before its store; the store of product block 2 of group 0. -/
def Part16Spec : Prop :=
  ∀ (c : Dev nD) (v2 : BitVec 32) (v341 : BitVec 32) (Kt : (PUnit) → sProp 𝕄),
    iprop(records (Rd m) K ∗ levAts L lv
        ∗ slotHas m c 2 2 fullShare.left
        ∗ dstAny (partner c 2 5) 2 5
        ∗ dutyTok ER (sendCell c 2 5) 0 0
        ∗ dutyTok ER (recvCell (partner c 2 5) 2 5) 0 0
        ∗ (∃ W, owes (c : Thread nD τ) (Orem ((payList c).drop 20)) W)
        ∗ cred (tallyAt (copyCell c 0 0) () (copyAmt 0))
        ∗ atPos ER (copyCell c 0 0) 0 ∅ 0
        ∗ slotHas m c 0 2 fullShare.right
        ∗ holdsPts c b16M fullShare (bv m c)
        ∗ (∀ r : (PUnit), iprop(cred (tallyAt (sendCell c 2 5) () (xferAmt 2 5))
        ∗ (∃ W, owes (c : Thread nD τ) (Orem ((payList c).drop 21)) W)
        ∗ atPos ER (copyCell c 0 0) 1 ∅ 0
        ∗ pieceDone m c 0 0
        ∗ slotHas m c 0 2 fullShare.right
        ∗ holdsPts c b16M fullShare (bv m c)
        ∗ stageHas m c 0 2) -∗ Kt r))
      ⊢ wp frame (wpE (defs₀ (F := F)) 𝒱₀ (c : Thread nD τ) none) Set.univ (k0_part16 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v341) Kt

/-- Part 17: the copy of product block 2 of group 0 into the result; the wait on the copy cell 0 of group 1; the load of slot 2 of group 1; a load of the narrowed right factor; the load of stage slot 0 of group 1 before its store; the store of product block 2 of group 1; the copy of product block 2 of group 1 into the result. -/
def Part17Spec : Prop :=
  ∀ (c : Dev nD) (v2 : BitVec 32) (Kt : (PUnit) → sProp 𝕄),
    iprop(records (Rd m) K ∗ levAts L lv
        ∗ stageHas m c 0 2
        ∗ pieceAny c 0 2
        ∗ dutyTok ER (copyCell c 0 2) 0 0
        ∗ cred (tallyAt (copyCell c 1 0) () (copyAmt 1))
        ∗ atPos ER (copyCell c 1 0) 0 ∅ 0
        ∗ (∃ W, owes (c : Thread nD τ) (Orem ((payList c).drop 21)) W)
        ∗ slotHas m c 1 2 fullShare.right
        ∗ holdsPts c b16M fullShare (bv m c)
        ∗ pieceAny c 1 2
        ∗ dutyTok ER (copyCell c 1 2) 0 0
        ∗ (∀ r : (PUnit), iprop(cred (tallyAt (copyCell c 0 2) () (copyAmt 0))
        ∗ (∃ W, owes (c : Thread nD τ) (Orem ((payList c).drop 21)) W)
        ∗ atPos ER (copyCell c 1 0) 1 ∅ 0
        ∗ pieceDone m c 1 0
        ∗ slotHas m c 1 2 fullShare.right
        ∗ holdsPts c b16M fullShare (bv m c)
        ∗ cred (tallyAt (copyCell c 1 2) () (copyAmt 1))) -∗ Kt r))
      ⊢ wp frame (wpE (defs₀ (F := F)) 𝒱₀ (c : Thread nD τ) none) Set.univ (k0_part17 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 18: the wait on the copy cell 0 of group 2; the load of slot 2 of group 2; a load of the narrowed right factor; the load of stage slot 0 of group 2 before its store; the store of product block 2 of group 2; the copy of product block 2 of group 2 into the result; the wait on the send cell 3 of group 0. -/
def Part18Spec : Prop :=
  ∀ (c : Dev nD) (v2 : BitVec 32) (Kt : (BitVec 32) → sProp 𝕄),
    iprop(records (Rd m) K ∗ levAts L lv
        ∗ cred (tallyAt (copyCell c 2 0) () (copyAmt 2))
        ∗ atPos ER (copyCell c 2 0) 0 ∅ 0
        ∗ (∃ W, owes (c : Thread nD τ) (Orem ((payList c).drop 21)) W)
        ∗ slotHas m c 2 2 fullShare.right
        ∗ holdsPts c b16M fullShare (bv m c)
        ∗ pieceAny c 2 2
        ∗ dutyTok ER (copyCell c 2 2) 0 0
        ∗ cred (tallyAt (sendCell c 0 3) () (xferAmt 0 3))
        ∗ atPos ER (sendCell c 0 3) 0 ∅ 0
        ∗ (∀ r : (BitVec 32), iprop(atPos ER (copyCell c 2 0) 1 ∅ 0
        ∗ pieceDone m c 2 0
        ∗ slotHas m c 2 2 fullShare.right
        ∗ holdsPts c b16M fullShare (bv m c)
        ∗ cred (tallyAt (copyCell c 2 2) () (copyAmt 2))
        ∗ (∃ W, owes (c : Thread nD τ) (Orem ((payList c).drop 21)) W)
        ∗ atPos ER (sendCell c 0 3) 1 ∅ 0
        ∗ slotHas m c 0 0 fullShare.left.right) -∗ Kt r))
      ⊢ wp frame (wpE (defs₀ (F := F)) 𝒱₀ (c : Thread nD τ) none) Set.univ (k0_part18 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 19: the wait on the recv cell 3 of group 0; the wait on the copy cell 2 of group 0; the load of slot 4 of group 0; a load of the narrowed right factor; the load of stage slot 0 of group 0 before its store; the store of product block 4 of group 0. -/
def Part19Spec : Prop :=
  ∀ (c : Dev nD) (v2 : BitVec 32) (v85 : BitVec 32) (c1_i32_587 : BitVec 32) (Kt : (PUnit) → sProp 𝕄),
    iprop(records (Rd m) K ∗ levAts L lv
        ∗ cred (tallyAt (recvCell c 0 3) () (xferAmt 0 3))
        ∗ atPos ER (recvCell c 0 3) 0 ∅ 0
        ∗ (∃ W, owes (c : Thread nD τ) (Orem ((payList c).drop 21)) W)
        ∗ cred (tallyAt (copyCell c 0 2) () (copyAmt 0))
        ∗ atPos ER (copyCell c 0 2) 0 ∅ 0
        ∗ holdsPts c b16M fullShare (bv m c)
        ∗ (∀ r : (PUnit), iprop(atPos ER (recvCell c 0 3) 1 ∅ 0
        ∗ slotHas m c 0 4 fullShare
        ∗ (∃ W, owes (c : Thread nD τ) (Orem ((payList c).drop 21)) W)
        ∗ atPos ER (copyCell c 0 2) 1 ∅ 0
        ∗ pieceDone m c 0 2
        ∗ holdsPts c b16M fullShare (bv m c)
        ∗ stageHas m c 0 4) -∗ Kt r))
      ⊢ wp frame (wpE (defs₀ (F := F)) 𝒱₀ (c : Thread nD τ) none) Set.univ (k0_part19 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v85 c1_i32_587) Kt

/-- Part 20: the copy of product block 4 of group 0 into the result; the wait on the send cell 3 of group 1; the wait on the recv cell 3 of group 1; the wait on the copy cell 2 of group 1; the load of slot 4 of group 1; a load of the narrowed right factor. -/
def Part20Spec : Prop :=
  ∀ (c : Dev nD) (v94 : BitVec 32) (Kt : (FVec F S336x1024 .f32) → sProp 𝕄),
    iprop(records (Rd m) K ∗ levAts L lv
        ∗ stageHas m c 0 4
        ∗ pieceAny c 0 4
        ∗ dutyTok ER (copyCell c 0 4) 0 0
        ∗ cred (tallyAt (sendCell c 1 3) () (xferAmt 1 3))
        ∗ atPos ER (sendCell c 1 3) 0 ∅ 0
        ∗ (∃ W, owes (c : Thread nD τ) (Orem ((payList c).drop 21)) W)
        ∗ cred (tallyAt (recvCell c 1 3) () (xferAmt 1 3))
        ∗ atPos ER (recvCell c 1 3) 0 ∅ 0
        ∗ cred (tallyAt (copyCell c 1 2) () (copyAmt 1))
        ∗ atPos ER (copyCell c 1 2) 0 ∅ 0
        ∗ holdsPts c b16M fullShare (bv m c)
        ∗ (∀ r : (FVec F S336x1024 .f32), ⌜r = prod336 (sv1 m (xr c (mask 1 4))) (bv m c)⌝ -∗ iprop(cred (tallyAt (copyCell c 0 4) () (copyAmt 0))
        ∗ atPos ER (sendCell c 1 3) 1 ∅ 0
        ∗ slotHas m c 1 0 fullShare.left.right
        ∗ atPos ER (recvCell c 1 3) 1 ∅ 0
        ∗ slotHas m c 1 4 fullShare
        ∗ (∃ W, owes (c : Thread nD τ) (Orem ((payList c).drop 21)) W)
        ∗ atPos ER (copyCell c 1 2) 1 ∅ 0
        ∗ pieceDone m c 1 2
        ∗ stageAny c 1 0
        ∗ holdsPts c b16M fullShare (bv m c)) -∗ Kt r))
      ⊢ wp frame (wpE (defs₀ (F := F)) 𝒱₀ (c : Thread nD τ) none) Set.univ (k0_part20 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v94) Kt

/-- Part 21: the load of stage slot 0 of group 1 before its store; the store of product block 4 of group 1; the copy of product block 4 of group 1 into the result; the wait on the send cell 3 of group 2; the wait on the recv cell 3 of group 2. -/
def Part21Spec : Prop :=
  ∀ (c : Dev nD) (v2 : BitVec 32) (v103 : BitVec 32) (Kt : (PUnit) → sProp 𝕄),
    iprop(records (Rd m) K ∗ levAts L lv
        ∗ stageAny c 1 0
        ∗ pieceAny c 1 4
        ∗ dutyTok ER (copyCell c 1 4) 0 0
        ∗ cred (tallyAt (sendCell c 2 3) () (xferAmt 2 3))
        ∗ atPos ER (sendCell c 2 3) 0 ∅ 0
        ∗ (∃ W, owes (c : Thread nD τ) (Orem ((payList c).drop 21)) W)
        ∗ cred (tallyAt (recvCell c 2 3) () (xferAmt 2 3))
        ∗ atPos ER (recvCell c 2 3) 0 ∅ 0
        ∗ (∀ r : (PUnit), iprop(cred (tallyAt (copyCell c 1 4) () (copyAmt 1))
        ∗ atPos ER (sendCell c 2 3) 1 ∅ 0
        ∗ slotHas m c 2 0 fullShare.left.right
        ∗ (∃ W, owes (c : Thread nD τ) (Orem ((payList c).drop 21)) W)
        ∗ atPos ER (recvCell c 2 3) 1 ∅ 0
        ∗ slotHas m c 2 4 fullShare) -∗ Kt r))
      ⊢ wp frame (wpE (defs₀ (F := F)) 𝒱₀ (c : Thread nD τ) none) Set.univ (k0_part21 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v103 (prod336 (sv1 m (xr c (mask 1 4))) (bv m c))) Kt

/-- Part 22: the wait on the copy cell 2 of group 2; the load of slot 4 of group 2; a load of the narrowed right factor; the load of stage slot 0 of group 2 before its store; the store of product block 4 of group 2; the copy of product block 4 of group 2 into the result. -/
def Part22Spec : Prop :=
  ∀ (c : Dev nD) (v2 : BitVec 32) (Kt : (PUnit) → sProp 𝕄),
    iprop(records (Rd m) K ∗ levAts L lv
        ∗ cred (tallyAt (copyCell c 2 2) () (copyAmt 2))
        ∗ atPos ER (copyCell c 2 2) 0 ∅ 0
        ∗ (∃ W, owes (c : Thread nD τ) (Orem ((payList c).drop 21)) W)
        ∗ slotHas m c 2 4 fullShare
        ∗ holdsPts c b16M fullShare (bv m c)
        ∗ pieceAny c 2 4
        ∗ dutyTok ER (copyCell c 2 4) 0 0
        ∗ (∀ r : (PUnit), iprop((∃ W, owes (c : Thread nD τ) (Orem ((payList c).drop 21)) W)
        ∗ atPos ER (copyCell c 2 2) 1 ∅ 0
        ∗ pieceDone m c 2 2
        ∗ slotHas m c 2 4 fullShare
        ∗ holdsPts c b16M fullShare (bv m c)
        ∗ cred (tallyAt (copyCell c 2 4) () (copyAmt 2))) -∗ Kt r))
      ⊢ wp frame (wpE (defs₀ (F := F)) 𝒱₀ (c : Thread nD τ) none) Set.univ (k0_part22 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 23: the wait on the send cell 2 of group 0; the wait on the recv cell 2 of group 0; the transfer of step 6 of group 0. -/
def Part23Spec : Prop :=
  ∀ (c : Dev nD) (v2 : BitVec 32) (v173 : BitVec 32) (Kt : (Σ' (v509 : BitVec 32), BitVec 32) → sProp 𝕄),
    iprop(records (Rd m) K ∗ levAts L lv
        ∗ cred (tallyAt (sendCell c 0 2) () (xferAmt 0 2))
        ∗ atPos ER (sendCell c 0 2) 0 ∅ 0
        ∗ (∃ W, owes (c : Thread nD τ) (Orem ((payList c).drop 21)) W)
        ∗ cred (tallyAt (recvCell c 0 2) () (xferAmt 0 2))
        ∗ atPos ER (recvCell c 0 2) 0 ∅ 0
        ∗ dstAny (partner c 0 6) 0 6
        ∗ dutyTok ER (sendCell c 0 6) 0 0
        ∗ dutyTok ER (recvCell (partner c 0 6) 0 6) 0 0
        ∗ (∀ r : (Σ' (v509 : BitVec 32), BitVec 32), iprop(atPos ER (sendCell c 0 2) 1 ∅ 0
        ∗ slotHas m c 0 1 fullShare.left.left
        ∗ atPos ER (recvCell c 0 2) 1 ∅ 0
        ∗ slotBot m c 0 3 fullShare.left
        ∗ slotHas m c 0 3 fullShare.right
        ∗ (∃ W, owes (c : Thread nD τ) (Orem ((payList c).drop 22)) W)
        ∗ cred (tallyAt (sendCell c 0 6) () (xferAmt 0 6))) -∗ Kt r))
      ⊢ wp frame (wpE (defs₀ (F := F)) 𝒱₀ (c : Thread nD τ) none) Set.univ (k0_part23 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v173) Kt

/-- Part 24: the transfer of step 7 of group 0; the wait on the send cell 2 of group 1; the wait on the recv cell 2 of group 1. -/
def Part24Spec : Prop :=
  ∀ (c : Dev nD) (v2 : BitVec 32) (v201 : BitVec 32) (Kt : (BitVec 32) → sProp 𝕄),
    iprop(records (Rd m) K ∗ levAts L lv
        ∗ slotBot m c 0 3 fullShare.left
        ∗ dstAny (partner c 0 7) 0 7
        ∗ dutyTok ER (sendCell c 0 7) 0 0
        ∗ dutyTok ER (recvCell (partner c 0 7) 0 7) 0 0
        ∗ (∃ W, owes (c : Thread nD τ) (Orem ((payList c).drop 22)) W)
        ∗ cred (tallyAt (sendCell c 1 2) () (xferAmt 1 2))
        ∗ atPos ER (sendCell c 1 2) 0 ∅ 0
        ∗ cred (tallyAt (recvCell c 1 2) () (xferAmt 1 2))
        ∗ atPos ER (recvCell c 1 2) 0 ∅ 0
        ∗ (∀ r : (BitVec 32), iprop(cred (tallyAt (sendCell c 0 7) () (xferAmt 0 7))
        ∗ atPos ER (sendCell c 1 2) 1 ∅ 0
        ∗ slotHas m c 1 1 fullShare.left.left
        ∗ (∃ W, owes (c : Thread nD τ) (Orem ((payList c).drop 23)) W)
        ∗ atPos ER (recvCell c 1 2) 1 ∅ 0
        ∗ slotTop m c 1 3 fullShare.left
        ∗ slotBot m c 1 3 fullShare.left
        ∗ slotHas m c 1 3 fullShare.right) -∗ Kt r))
      ⊢ wp frame (wpE (defs₀ (F := F)) 𝒱₀ (c : Thread nD τ) none) Set.univ (k0_part24 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v201) Kt

/-- Part 25: the transfer of step 6 of group 1; the transfer of step 7 of group 1; the wait on the send cell 2 of group 2. -/
def Part25Spec : Prop :=
  ∀ (c : Dev nD) (v2 : BitVec 32) (v229 : BitVec 32) (Kt : (Σ' (v552 : BitVec 32), BitVec 32) → sProp 𝕄),
    iprop(records (Rd m) K ∗ levAts L lv
        ∗ slotTop m c 1 3 fullShare.left
        ∗ dstAny (partner c 1 6) 1 6
        ∗ dutyTok ER (sendCell c 1 6) 0 0
        ∗ dutyTok ER (recvCell (partner c 1 6) 1 6) 0 0
        ∗ (∃ W, owes (c : Thread nD τ) (Orem ((payList c).drop 23)) W)
        ∗ slotBot m c 1 3 fullShare.left
        ∗ dstAny (partner c 1 7) 1 7
        ∗ dutyTok ER (sendCell c 1 7) 0 0
        ∗ dutyTok ER (recvCell (partner c 1 7) 1 7) 0 0
        ∗ cred (tallyAt (sendCell c 2 2) () (xferAmt 2 2))
        ∗ atPos ER (sendCell c 2 2) 0 ∅ 0
        ∗ (∀ r : (Σ' (v552 : BitVec 32), BitVec 32), iprop(cred (tallyAt (sendCell c 1 6) () (xferAmt 1 6))
        ∗ cred (tallyAt (sendCell c 1 7) () (xferAmt 1 7))
        ∗ (∃ W, owes (c : Thread nD τ) (Orem ((payList c).drop 25)) W)
        ∗ atPos ER (sendCell c 2 2) 1 ∅ 0
        ∗ slotHas m c 2 1 fullShare.left.left) -∗ Kt r))
      ⊢ wp frame (wpE (defs₀ (F := F)) 𝒱₀ (c : Thread nD τ) none) Set.univ (k0_part25 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v229) Kt

/-- Part 26: the wait on the recv cell 2 of group 2; the transfer of step 6 of group 2. -/
def Part26Spec : Prop :=
  ∀ (c : Dev nD) (v2 : BitVec 32) (v567 : BitVec 32) (Kt : (Σ' (v573 : BitVec 32), BitVec 32) → sProp 𝕄),
    iprop(records (Rd m) K ∗ levAts L lv
        ∗ cred (tallyAt (recvCell c 2 2) () (xferAmt 2 2))
        ∗ atPos ER (recvCell c 2 2) 0 ∅ 0
        ∗ (∃ W, owes (c : Thread nD τ) (Orem ((payList c).drop 25)) W)
        ∗ dstAny (partner c 2 6) 2 6
        ∗ dutyTok ER (sendCell c 2 6) 0 0
        ∗ dutyTok ER (recvCell (partner c 2 6) 2 6) 0 0
        ∗ (∀ r : (Σ' (v573 : BitVec 32), BitVec 32), iprop(atPos ER (recvCell c 2 2) 1 ∅ 0
        ∗ slotBot m c 2 3 fullShare.left
        ∗ slotHas m c 2 3 fullShare.right
        ∗ (∃ W, owes (c : Thread nD τ) (Orem ((payList c).drop 26)) W)
        ∗ cred (tallyAt (sendCell c 2 6) () (xferAmt 2 6))) -∗ Kt r))
      ⊢ wp frame (wpE (defs₀ (F := F)) 𝒱₀ (c : Thread nD τ) none) Set.univ (k0_part26 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v567) Kt

/-- Part 27: the transfer of step 7 of group 2; the wait on the copy cell 1 of group 0; the load of slot 3 of group 0; a load of the narrowed right factor; the load of stage slot 1 of group 0 before its store; the store of product block 3 of group 0; the copy of product block 3 of group 0 into the result. -/
def Part27Spec : Prop :=
  ∀ (c : Dev nD) (v2 : BitVec 32) (Kt : (PUnit) → sProp 𝕄),
    iprop(records (Rd m) K ∗ levAts L lv
        ∗ slotBot m c 2 3 fullShare.left
        ∗ dstAny (partner c 2 7) 2 7
        ∗ dutyTok ER (sendCell c 2 7) 0 0
        ∗ dutyTok ER (recvCell (partner c 2 7) 2 7) 0 0
        ∗ (∃ W, owes (c : Thread nD τ) (Orem ((payList c).drop 26)) W)
        ∗ cred (tallyAt (copyCell c 0 1) () (copyAmt 0))
        ∗ atPos ER (copyCell c 0 1) 0 ∅ 0
        ∗ slotHas m c 0 3 fullShare.right
        ∗ holdsPts c b16M fullShare (bv m c)
        ∗ pieceAny c 0 3
        ∗ dutyTok ER (copyCell c 0 3) 0 0
        ∗ (∀ r : (PUnit), iprop(cred (tallyAt (sendCell c 2 7) () (xferAmt 2 7))
        ∗ (∃ W, owes (c : Thread nD τ) (Orem ((payList c).drop 27)) W)
        ∗ atPos ER (copyCell c 0 1) 1 ∅ 0
        ∗ pieceDone m c 0 1
        ∗ slotHas m c 0 3 fullShare.right
        ∗ holdsPts c b16M fullShare (bv m c)
        ∗ cred (tallyAt (copyCell c 0 3) () (copyAmt 0))) -∗ Kt r))
      ⊢ wp frame (wpE (defs₀ (F := F)) 𝒱₀ (c : Thread nD τ) none) Set.univ (k0_part27 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 28: the wait on the copy cell 1 of group 1; the load of slot 3 of group 1; a load of the narrowed right factor; the load of stage slot 1 of group 1 before its store; the store of product block 3 of group 1; the copy of product block 3 of group 1 into the result; the wait on the copy cell 1 of group 2; the load of slot 3 of group 2; a load of the narrowed right factor. -/
def Part28Spec : Prop :=
  ∀ (c : Dev nD) (v2 : BitVec 32) (Kt : (Σ' (v641 : FVec F S336x512 .bf16), Vec F S512x1024 .bf16) → sProp 𝕄),
    iprop(records (Rd m) K ∗ levAts L lv
        ∗ cred (tallyAt (copyCell c 1 1) () (copyAmt 1))
        ∗ atPos ER (copyCell c 1 1) 0 ∅ 0
        ∗ (∃ W, owes (c : Thread nD τ) (Orem ((payList c).drop 27)) W)
        ∗ slotHas m c 1 3 fullShare.right
        ∗ holdsPts c b16M fullShare (bv m c)
        ∗ pieceAny c 1 3
        ∗ dutyTok ER (copyCell c 1 3) 0 0
        ∗ cred (tallyAt (copyCell c 2 1) () (copyAmt 2))
        ∗ atPos ER (copyCell c 2 1) 0 ∅ 0
        ∗ slotHas m c 2 3 fullShare.right
        ∗ (∀ r : (Σ' (v641 : FVec F S336x512 .bf16), Vec F S512x1024 .bf16), ⌜r.1 = k0_pay23 (sv2 m (xr c (mask 2 3))) ∧ r.2 = bv m c⌝ -∗ iprop(atPos ER (copyCell c 1 1) 1 ∅ 0
        ∗ pieceDone m c 1 1
        ∗ slotHas m c 1 3 fullShare.right
        ∗ holdsPts c b16M fullShare (bv m c)
        ∗ cred (tallyAt (copyCell c 1 3) () (copyAmt 1))
        ∗ (∃ W, owes (c : Thread nD τ) (Orem ((payList c).drop 27)) W)
        ∗ atPos ER (copyCell c 2 1) 1 ∅ 0
        ∗ pieceDone m c 2 1
        ∗ stageAny c 2 1
        ∗ slotHas m c 2 3 fullShare.right) -∗ Kt r))
      ⊢ wp frame (wpE (defs₀ (F := F)) 𝒱₀ (c : Thread nD τ) none) Set.univ (k0_part28 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 29: the load of stage slot 1 of group 2 before its store; the store of product block 3 of group 2; the copy of product block 3 of group 2 into the result; the wait on the send cell 4 of group 0. -/
def Part29Spec : Prop :=
  ∀ (c : Dev nD) (v2 : BitVec 32) (v182 : BitVec 32) (Kt : (PUnit) → sProp 𝕄),
    iprop(records (Rd m) K ∗ levAts L lv
        ∗ stageAny c 2 1
        ∗ pieceAny c 2 3
        ∗ dutyTok ER (copyCell c 2 3) 0 0
        ∗ cred (tallyAt (sendCell c 0 4) () (xferAmt 0 4))
        ∗ atPos ER (sendCell c 0 4) 0 ∅ 0
        ∗ (∃ W, owes (c : Thread nD τ) (Orem ((payList c).drop 27)) W)
        ∗ (∀ r : (PUnit), iprop(cred (tallyAt (copyCell c 2 3) () (copyAmt 2))
        ∗ (∃ W, owes (c : Thread nD τ) (Orem ((payList c).drop 27)) W)
        ∗ atPos ER (sendCell c 0 4) 1 ∅ 0
        ∗ slotHas m c 0 1 fullShare.left.right) -∗ Kt r))
      ⊢ wp frame (wpE (defs₀ (F := F)) 𝒱₀ (c : Thread nD τ) none) Set.univ (k0_part29 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v182 (k0_pay23 (sv2 m (xr c (mask 2 3)))) (bv m c)) Kt

/-- Part 30: the wait on the recv cell 4 of group 0; the wait on the copy cell 3 of group 0; the load of slot 5 of group 0; a load of the narrowed right factor; the load of stage slot 1 of group 0 before its store; the store of product block 5 of group 0; the copy of product block 5 of group 0 into the result. -/
def Part30Spec : Prop :=
  ∀ (c : Dev nD) (v2 : BitVec 32) (Kt : (PUnit) → sProp 𝕄),
    iprop(records (Rd m) K ∗ levAts L lv
        ∗ cred (tallyAt (recvCell c 0 4) () (xferAmt 0 4))
        ∗ atPos ER (recvCell c 0 4) 0 ∅ 0
        ∗ (∃ W, owes (c : Thread nD τ) (Orem ((payList c).drop 27)) W)
        ∗ cred (tallyAt (copyCell c 0 3) () (copyAmt 0))
        ∗ atPos ER (copyCell c 0 3) 0 ∅ 0
        ∗ holdsPts c b16M fullShare (bv m c)
        ∗ pieceAny c 0 5
        ∗ dutyTok ER (copyCell c 0 5) 0 0
        ∗ (∀ r : (PUnit), iprop(atPos ER (recvCell c 0 4) 1 ∅ 0
        ∗ slotHas m c 0 5 fullShare
        ∗ (∃ W, owes (c : Thread nD τ) (Orem ((payList c).drop 27)) W)
        ∗ atPos ER (copyCell c 0 3) 1 ∅ 0
        ∗ pieceDone m c 0 3
        ∗ holdsPts c b16M fullShare (bv m c)
        ∗ cred (tallyAt (copyCell c 0 5) () (copyAmt 0))) -∗ Kt r))
      ⊢ wp frame (wpE (defs₀ (F := F)) 𝒱₀ (c : Thread nD τ) none) Set.univ (k0_part30 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 31: the wait on the send cell 4 of group 1; the wait on the recv cell 4 of group 1; the wait on the copy cell 3 of group 1; the load of slot 5 of group 1; a load of the narrowed right factor; the load of stage slot 1 of group 1 before its store; the store of product block 5 of group 1. -/
def Part31Spec : Prop :=
  ∀ (c : Dev nD) (v2 : BitVec 32) (v210 : BitVec 32) (Kt : (Σ' (v708 : BitVec 32), BitVec 32) → sProp 𝕄),
    iprop(records (Rd m) K ∗ levAts L lv
        ∗ cred (tallyAt (sendCell c 1 4) () (xferAmt 1 4))
        ∗ atPos ER (sendCell c 1 4) 0 ∅ 0
        ∗ (∃ W, owes (c : Thread nD τ) (Orem ((payList c).drop 27)) W)
        ∗ cred (tallyAt (recvCell c 1 4) () (xferAmt 1 4))
        ∗ atPos ER (recvCell c 1 4) 0 ∅ 0
        ∗ cred (tallyAt (copyCell c 1 3) () (copyAmt 1))
        ∗ atPos ER (copyCell c 1 3) 0 ∅ 0
        ∗ holdsPts c b16M fullShare (bv m c)
        ∗ (∀ r : (Σ' (v708 : BitVec 32), BitVec 32), iprop(atPos ER (sendCell c 1 4) 1 ∅ 0
        ∗ slotHas m c 1 1 fullShare.left.right
        ∗ atPos ER (recvCell c 1 4) 1 ∅ 0
        ∗ slotHas m c 1 5 fullShare
        ∗ (∃ W, owes (c : Thread nD τ) (Orem ((payList c).drop 27)) W)
        ∗ atPos ER (copyCell c 1 3) 1 ∅ 0
        ∗ pieceDone m c 1 3
        ∗ holdsPts c b16M fullShare (bv m c)
        ∗ stageHas m c 1 5) -∗ Kt r))
      ⊢ wp frame (wpE (defs₀ (F := F)) 𝒱₀ (c : Thread nD τ) none) Set.univ (k0_part31 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 v2 v210) Kt

/-- Part 32: the copy of product block 5 of group 1 into the result; the wait on the send cell 4 of group 2; the wait on the recv cell 4 of group 2. -/
def Part32Spec : Prop :=
  ∀ (c : Dev nD) (v238 : BitVec 32) (v708 : BitVec 32) (c352_i32_1022 : BitVec 32) (Kt : (PUnit) → sProp 𝕄),
    iprop(records (Rd m) K ∗ levAts L lv
        ∗ stageHas m c 1 5
        ∗ pieceAny c 1 5
        ∗ dutyTok ER (copyCell c 1 5) 0 0
        ∗ cred (tallyAt (sendCell c 2 4) () (xferAmt 2 4))
        ∗ atPos ER (sendCell c 2 4) 0 ∅ 0
        ∗ (∃ W, owes (c : Thread nD τ) (Orem ((payList c).drop 27)) W)
        ∗ cred (tallyAt (recvCell c 2 4) () (xferAmt 2 4))
        ∗ atPos ER (recvCell c 2 4) 0 ∅ 0
        ∗ (∀ r : (PUnit), iprop(cred (tallyAt (copyCell c 1 5) () (copyAmt 1))
        ∗ atPos ER (sendCell c 2 4) 1 ∅ 0
        ∗ slotHas m c 2 1 fullShare.left.right
        ∗ (∃ W, owes (c : Thread nD τ) (Orem ((payList c).drop 27)) W)
        ∗ atPos ER (recvCell c 2 4) 1 ∅ 0
        ∗ slotHas m c 2 5 fullShare) -∗ Kt r))
      ⊢ wp frame (wpE (defs₀ (F := F)) 𝒱₀ (c : Thread nD τ) none) Set.univ (k0_part32 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v238 v708 c352_i32_1022) Kt

/-- Part 33: the wait on the copy cell 3 of group 2; the load of slot 5 of group 2; a load of the narrowed right factor; the load of stage slot 1 of group 2 before its store; the store of product block 5 of group 2; the copy of product block 5 of group 2 into the result; the wait on the send cell 5 of group 0. -/
def Part33Spec : Prop :=
  ∀ (c : Dev nD) (v2 : BitVec 32) (v302 : BitVec 32) (Kt : (PUnit) → sProp 𝕄),
    iprop(records (Rd m) K ∗ levAts L lv
        ∗ cred (tallyAt (copyCell c 2 3) () (copyAmt 2))
        ∗ atPos ER (copyCell c 2 3) 0 ∅ 0
        ∗ (∃ W, owes (c : Thread nD τ) (Orem ((payList c).drop 27)) W)
        ∗ slotHas m c 2 5 fullShare
        ∗ holdsPts c b16M fullShare (bv m c)
        ∗ pieceAny c 2 5
        ∗ dutyTok ER (copyCell c 2 5) 0 0
        ∗ cred (tallyAt (sendCell c 0 5) () (xferAmt 0 5))
        ∗ atPos ER (sendCell c 0 5) 0 ∅ 0
        ∗ (∀ r : (PUnit), iprop(atPos ER (copyCell c 2 3) 1 ∅ 0
        ∗ pieceDone m c 2 3
        ∗ slotHas m c 2 5 fullShare
        ∗ holdsPts c b16M fullShare (bv m c)
        ∗ cred (tallyAt (copyCell c 2 5) () (copyAmt 2))
        ∗ (∃ W, owes (c : Thread nD τ) (Orem ((payList c).drop 27)) W)
        ∗ atPos ER (sendCell c 0 5) 1 ∅ 0
        ∗ slotHas m c 0 2 fullShare.left) -∗ Kt r))
      ⊢ wp frame (wpE (defs₀ (F := F)) 𝒱₀ (c : Thread nD τ) none) Set.univ (k0_part33 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v302) Kt

/-- Part 34: the wait on the recv cell 5 of group 0; the wait on the copy cell 4 of group 0; the load of slot 6 of group 0; a load of the narrowed right factor; the load of stage slot 0 of group 0 before its store; the store of product block 6 of group 0; the copy of product block 6 of group 0 into the result. -/
def Part34Spec : Prop :=
  ∀ (c : Dev nD) (v2 : BitVec 32) (Kt : (PUnit) → sProp 𝕄),
    iprop(records (Rd m) K ∗ levAts L lv
        ∗ cred (tallyAt (recvCell c 0 5) () (xferAmt 0 5))
        ∗ atPos ER (recvCell c 0 5) 0 ∅ 0
        ∗ (∃ W, owes (c : Thread nD τ) (Orem ((payList c).drop 27)) W)
        ∗ cred (tallyAt (copyCell c 0 4) () (copyAmt 0))
        ∗ atPos ER (copyCell c 0 4) 0 ∅ 0
        ∗ holdsPts c b16M fullShare (bv m c)
        ∗ pieceAny c 0 6
        ∗ dutyTok ER (copyCell c 0 6) 0 0
        ∗ (∀ r : (PUnit), iprop(atPos ER (recvCell c 0 5) 1 ∅ 0
        ∗ slotHas m c 0 6 fullShare
        ∗ (∃ W, owes (c : Thread nD τ) (Orem ((payList c).drop 27)) W)
        ∗ atPos ER (copyCell c 0 4) 1 ∅ 0
        ∗ pieceDone m c 0 4
        ∗ holdsPts c b16M fullShare (bv m c)
        ∗ cred (tallyAt (copyCell c 0 6) () (copyAmt 0))) -∗ Kt r))
      ⊢ wp frame (wpE (defs₀ (F := F)) 𝒱₀ (c : Thread nD τ) none) Set.univ (k0_part34 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 35: the wait on the send cell 5 of group 1; the wait on the recv cell 5 of group 1; the wait on the copy cell 4 of group 1; the load of slot 6 of group 1; a load of the narrowed right factor. -/
def Part35Spec : Prop :=
  ∀ (c : Dev nD) (v321 : BitVec 32) (Kt : (FVec F S336x1024 .f32) → sProp 𝕄),
    iprop(records (Rd m) K ∗ levAts L lv
        ∗ cred (tallyAt (sendCell c 1 5) () (xferAmt 1 5))
        ∗ atPos ER (sendCell c 1 5) 0 ∅ 0
        ∗ (∃ W, owes (c : Thread nD τ) (Orem ((payList c).drop 27)) W)
        ∗ cred (tallyAt (recvCell c 1 5) () (xferAmt 1 5))
        ∗ atPos ER (recvCell c 1 5) 0 ∅ 0
        ∗ cred (tallyAt (copyCell c 1 4) () (copyAmt 1))
        ∗ atPos ER (copyCell c 1 4) 0 ∅ 0
        ∗ holdsPts c b16M fullShare (bv m c)
        ∗ (∀ r : (FVec F S336x1024 .f32), ⌜r = prod336 (sv1 m (xr c (mask 1 6))) (bv m c)⌝ -∗ iprop(atPos ER (sendCell c 1 5) 1 ∅ 0
        ∗ slotHas m c 1 2 fullShare.left
        ∗ atPos ER (recvCell c 1 5) 1 ∅ 0
        ∗ slotHas m c 1 6 fullShare
        ∗ (∃ W, owes (c : Thread nD τ) (Orem ((payList c).drop 27)) W)
        ∗ atPos ER (copyCell c 1 4) 1 ∅ 0
        ∗ pieceDone m c 1 4
        ∗ stageAny c 1 0
        ∗ holdsPts c b16M fullShare (bv m c)) -∗ Kt r))
      ⊢ wp frame (wpE (defs₀ (F := F)) 𝒱₀ (c : Thread nD τ) none) Set.univ (k0_part35 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 v321) Kt

/-- Part 36: the load of stage slot 0 of group 1 before its store; the store of product block 6 of group 1; the copy of product block 6 of group 1 into the result; the wait on the send cell 5 of group 2; the wait on the recv cell 5 of group 2. -/
def Part36Spec : Prop :=
  ∀ (c : Dev nD) (v2 : BitVec 32) (v340 : BitVec 32) (Kt : (PUnit) → sProp 𝕄),
    iprop(records (Rd m) K ∗ levAts L lv
        ∗ stageAny c 1 0
        ∗ pieceAny c 1 6
        ∗ dutyTok ER (copyCell c 1 6) 0 0
        ∗ cred (tallyAt (sendCell c 2 5) () (xferAmt 2 5))
        ∗ atPos ER (sendCell c 2 5) 0 ∅ 0
        ∗ (∃ W, owes (c : Thread nD τ) (Orem ((payList c).drop 27)) W)
        ∗ cred (tallyAt (recvCell c 2 5) () (xferAmt 2 5))
        ∗ atPos ER (recvCell c 2 5) 0 ∅ 0
        ∗ (∀ r : (PUnit), iprop(cred (tallyAt (copyCell c 1 6) () (copyAmt 1))
        ∗ atPos ER (sendCell c 2 5) 1 ∅ 0
        ∗ slotHas m c 2 2 fullShare.left
        ∗ (∃ W, owes (c : Thread nD τ) (Orem ((payList c).drop 27)) W)
        ∗ atPos ER (recvCell c 2 5) 1 ∅ 0
        ∗ slotHas m c 2 6 fullShare) -∗ Kt r))
      ⊢ wp frame (wpE (defs₀ (F := F)) 𝒱₀ (c : Thread nD τ) none) Set.univ (k0_part36 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v340 (prod336 (sv1 m (xr c (mask 1 6))) (bv m c))) Kt

/-- Part 37: the wait on the copy cell 4 of group 2; the load of slot 6 of group 2; a load of the narrowed right factor; the load of stage slot 0 of group 2 before its store; the store of product block 6 of group 2; the copy of product block 6 of group 2 into the result. -/
def Part37Spec : Prop :=
  ∀ (c : Dev nD) (v2 : BitVec 32) (Kt : (PUnit) → sProp 𝕄),
    iprop(records (Rd m) K ∗ levAts L lv
        ∗ cred (tallyAt (copyCell c 2 4) () (copyAmt 2))
        ∗ atPos ER (copyCell c 2 4) 0 ∅ 0
        ∗ (∃ W, owes (c : Thread nD τ) (Orem ((payList c).drop 27)) W)
        ∗ slotHas m c 2 6 fullShare
        ∗ holdsPts c b16M fullShare (bv m c)
        ∗ pieceAny c 2 6
        ∗ dutyTok ER (copyCell c 2 6) 0 0
        ∗ (∀ r : (PUnit), iprop((∃ W, owes (c : Thread nD τ) (Orem ((payList c).drop 27)) W)
        ∗ atPos ER (copyCell c 2 4) 1 ∅ 0
        ∗ pieceDone m c 2 4
        ∗ slotHas m c 2 6 fullShare
        ∗ holdsPts c b16M fullShare (bv m c)
        ∗ cred (tallyAt (copyCell c 2 6) () (copyAmt 2))) -∗ Kt r))
      ⊢ wp frame (wpE (defs₀ (F := F)) 𝒱₀ (c : Thread nD τ) none) Set.univ (k0_part37 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 38: the wait on the send cell 6 of group 0; the wait on the recv cell 6 of group 0; the wait on the copy cell 5 of group 0; the load of slot 7 (rows below 176) of group 0; a load of the narrowed right factor; the load of stage slot 1 of group 0 before its store; the store of the rows below 176 of the last block of group 0. -/
def Part38Spec : Prop :=
  ∀ (c : Dev nD) (v509 : BitVec 32) (Kt : (PUnit) → sProp 𝕄),
    iprop(records (Rd m) K ∗ levAts L lv
        ∗ cred (tallyAt (sendCell c 0 6) () (xferAmt 0 6))
        ∗ atPos ER (sendCell c 0 6) 0 ∅ 0
        ∗ (∃ W, owes (c : Thread nD τ) (Orem ((payList c).drop 27)) W)
        ∗ cred (tallyAt (recvCell c 0 6) () (xferAmt 0 6))
        ∗ atPos ER (recvCell c 0 6) 0 ∅ 0
        ∗ cred (tallyAt (copyCell c 0 5) () (copyAmt 0))
        ∗ atPos ER (copyCell c 0 5) 0 ∅ 0
        ∗ holdsPts c b16M fullShare (bv m c)
        ∗ (∀ r : (PUnit), iprop(atPos ER (sendCell c 0 6) 1 ∅ 0
        ∗ slotTop m c 0 3 fullShare.left
        ∗ atPos ER (recvCell c 0 6) 1 ∅ 0
        ∗ slotTop m c 0 7 fullShare
        ∗ (∃ W, owes (c : Thread nD τ) (Orem ((payList c).drop 27)) W)
        ∗ atPos ER (copyCell c 0 5) 1 ∅ 0
        ∗ pieceDone m c 0 5
        ∗ holdsPts c b16M fullShare (bv m c)
        ∗ stageTop m c 0) -∗ Kt r))
      ⊢ wp frame (wpE (defs₀ (F := F)) 𝒱₀ (c : Thread nD τ) none) Set.univ (k0_part38 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 v509) Kt

/-- Part 39: the wait on the send cell 6 of group 1; the wait on the recv cell 6 of group 1; the wait on the copy cell 5 of group 1; the load of slot 7 (rows below 176) of group 1; a load of the narrowed right factor; the load of stage slot 1 of group 1 before its store. -/
def Part39Spec : Prop :=
  ∀ (c : Dev nD) (v541 : BitVec 32) (Kt : (Σ' (v883 : FVec F S176x1024 .f32), Vec F S1x176x1024 .f32) → sProp 𝕄),
    iprop(records (Rd m) K ∗ levAts L lv
        ∗ cred (tallyAt (sendCell c 1 6) () (xferAmt 1 6))
        ∗ atPos ER (sendCell c 1 6) 0 ∅ 0
        ∗ (∃ W, owes (c : Thread nD τ) (Orem ((payList c).drop 27)) W)
        ∗ cred (tallyAt (recvCell c 1 6) () (xferAmt 1 6))
        ∗ atPos ER (recvCell c 1 6) 0 ∅ 0
        ∗ cred (tallyAt (copyCell c 1 5) () (copyAmt 1))
        ∗ atPos ER (copyCell c 1 5) 0 ∅ 0
        ∗ holdsPts c b16M fullShare (bv m c)
        ∗ (∀ r : (Σ' (v883 : FVec F S176x1024 .f32), Vec F S1x176x1024 .f32), ⌜r.1 = prod176 (topB (sv1 m (xr c (mask 1 7)))) (bv m c)⌝ -∗ iprop(atPos ER (sendCell c 1 6) 1 ∅ 0
        ∗ slotTop m c 1 3 fullShare.left
        ∗ atPos ER (recvCell c 1 6) 1 ∅ 0
        ∗ slotTop m c 1 7 fullShare
        ∗ (∃ W, owes (c : Thread nD τ) (Orem ((payList c).drop 27)) W)
        ∗ atPos ER (copyCell c 1 5) 1 ∅ 0
        ∗ pieceDone m c 1 5
        ∗ stageAny c 1 1
        ∗ holdsPts c b16M fullShare (bv m c)) -∗ Kt r))
      ⊢ wp frame (wpE (defs₀ (F := F)) 𝒱₀ (c : Thread nD τ) none) Set.univ (k0_part39 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 v541) Kt

/-- Part 40: the store of the rows below 176 of the last block of group 1; the wait on the send cell 6 of group 2; the wait on the recv cell 6 of group 2; the wait on the copy cell 5 of group 2; the load of slot 7 (rows below 176) of group 2. -/
def Part40Spec : Prop :=
  ∀ (c : Dev nD) (v573 : BitVec 32) (v884 : Vec F S1x176x1024 .f32) (Kt : (FVec F S176x512 .bf16) → sProp 𝕄),
    iprop(records (Rd m) K ∗ levAts L lv
        ∗ stageAny c 1 1
        ∗ cred (tallyAt (sendCell c 2 6) () (xferAmt 2 6))
        ∗ atPos ER (sendCell c 2 6) 0 ∅ 0
        ∗ (∃ W, owes (c : Thread nD τ) (Orem ((payList c).drop 27)) W)
        ∗ cred (tallyAt (recvCell c 2 6) () (xferAmt 2 6))
        ∗ atPos ER (recvCell c 2 6) 0 ∅ 0
        ∗ cred (tallyAt (copyCell c 2 5) () (copyAmt 2))
        ∗ atPos ER (copyCell c 2 5) 0 ∅ 0
        ∗ (∀ r : (FVec F S176x512 .bf16), ⌜r = k0_pay35 (topB (sv2 m (xr c (mask 2 7))))⌝ -∗ iprop(stageTop m c 1
        ∗ atPos ER (sendCell c 2 6) 1 ∅ 0
        ∗ slotTop m c 2 3 fullShare.left
        ∗ atPos ER (recvCell c 2 6) 1 ∅ 0
        ∗ slotTop m c 2 7 fullShare
        ∗ (∃ W, owes (c : Thread nD τ) (Orem ((payList c).drop 27)) W)
        ∗ atPos ER (copyCell c 2 5) 1 ∅ 0
        ∗ pieceDone m c 2 5
        ∗ stageAny c 2 1) -∗ Kt r))
      ⊢ wp frame (wpE (defs₀ (F := F)) 𝒱₀ (c : Thread nD τ) none) Set.univ (k0_part40 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 v573 (prod176 (topB (sv1 m (xr c (mask 1 7)))) (bv m c)) v884) Kt

/-- Part 41: a load of the narrowed right factor; the load of stage slot 1 of group 2 before its store; the store of the rows below 176 of the last block of group 2; the wait on the send cell 7 of group 0; the wait on the recv cell 7 of group 0; the load of slot 7 (rows from 176) of group 0; a load of the narrowed right factor. -/
def Part41Spec : Prop :=
  ∀ (c : Dev nD) (v520 : BitVec 32) (Kt : (Σ' (v928 : FVec F S176x512 .bf16) (v929 : Vec F S512x1024 .bf16), FVec F S176x1024 .f32) → sProp 𝕄),
    iprop(records (Rd m) K ∗ levAts L lv
        ∗ holdsPts c b16M fullShare (bv m c)
        ∗ stageAny c 2 1
        ∗ cred (tallyAt (sendCell c 0 7) () (xferAmt 0 7))
        ∗ atPos ER (sendCell c 0 7) 0 ∅ 0
        ∗ (∃ W, owes (c : Thread nD τ) (Orem ((payList c).drop 27)) W)
        ∗ cred (tallyAt (recvCell c 0 7) () (xferAmt 0 7))
        ∗ atPos ER (recvCell c 0 7) 0 ∅ 0
        ∗ (∀ r : (Σ' (v928 : FVec F S176x512 .bf16) (v929 : Vec F S512x1024 .bf16), FVec F S176x1024 .f32), ⌜r.1 = k0_pay37 (botA (sv0 m (xr c (mask 0 7)))) ∧ r.2.1 = bv m c ∧ r.2.2 = constant S176x1024 .f32 0x00000000#32⌝ -∗ iprop(holdsPts c b16M fullShare (bv m c)
        ∗ stageTop m c 2
        ∗ atPos ER (sendCell c 0 7) 1 ∅ 0
        ∗ slotBot m c 0 3 fullShare.left
        ∗ (∃ W, owes (c : Thread nD τ) (Orem ((payList c).drop 27)) W)
        ∗ atPos ER (recvCell c 0 7) 1 ∅ 0
        ∗ slotBot m c 0 7 fullShare) -∗ Kt r))
      ⊢ wp frame (wpE (defs₀ (F := F)) 𝒱₀ (c : Thread nD τ) none) Set.univ (k0_part41 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 v520 (k0_pay35 (topB (sv2 m (xr c (mask 2 7)))))) Kt

/-- Part 42: the load of stage slot 1 of group 0 before its store; the store of the rows from 176 of the last block of group 0; the copy of product block 7 of group 0 into the result; the wait on the send cell 7 of group 1. -/
def Part42Spec : Prop :=
  ∀ (c : Dev nD) (v2 : BitVec 32) (v552 : BitVec 32) (Kt : (PUnit) → sProp 𝕄),
    iprop(records (Rd m) K ∗ levAts L lv
        ∗ stageTop m c 0
        ∗ pieceAny c 0 7
        ∗ dutyTok ER (copyCell c 0 7) 0 0
        ∗ cred (tallyAt (sendCell c 1 7) () (xferAmt 1 7))
        ∗ atPos ER (sendCell c 1 7) 0 ∅ 0
        ∗ (∃ W, owes (c : Thread nD τ) (Orem ((payList c).drop 27)) W)
        ∗ (∀ r : (PUnit), iprop(cred (tallyAt (copyCell c 0 7) () (copyAmt 0))
        ∗ (∃ W, owes (c : Thread nD τ) (Orem ((payList c).drop 27)) W)
        ∗ atPos ER (sendCell c 1 7) 1 ∅ 0
        ∗ slotBot m c 1 3 fullShare.left) -∗ Kt r))
      ⊢ wp frame (wpE (defs₀ (F := F)) 𝒱₀ (c : Thread nD τ) none) Set.univ (k0_part42 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v552 (k0_pay37 (botA (sv0 m (xr c (mask 0 7))))) (bv m c) (constant S176x1024 .f32 0x00000000#32)) Kt

/-- Part 43: the wait on the recv cell 7 of group 1; the load of slot 7 (rows from 176) of group 1; a load of the narrowed right factor; the load of stage slot 1 of group 1 before its store; the store of the rows from 176 of the last block of group 1; the copy of product block 7 of group 1 into the result; the wait on the send cell 7 of group 2. -/
def Part43Spec : Prop :=
  ∀ (c : Dev nD) (v2 : BitVec 32) (Kt : (PUnit) → sProp 𝕄),
    iprop(records (Rd m) K ∗ levAts L lv
        ∗ cred (tallyAt (recvCell c 1 7) () (xferAmt 1 7))
        ∗ atPos ER (recvCell c 1 7) 0 ∅ 0
        ∗ (∃ W, owes (c : Thread nD τ) (Orem ((payList c).drop 27)) W)
        ∗ holdsPts c b16M fullShare (bv m c)
        ∗ stageTop m c 1
        ∗ pieceAny c 1 7
        ∗ dutyTok ER (copyCell c 1 7) 0 0
        ∗ cred (tallyAt (sendCell c 2 7) () (xferAmt 2 7))
        ∗ atPos ER (sendCell c 2 7) 0 ∅ 0
        ∗ (∀ r : (PUnit), iprop(atPos ER (recvCell c 1 7) 1 ∅ 0
        ∗ slotBot m c 1 7 fullShare
        ∗ holdsPts c b16M fullShare (bv m c)
        ∗ cred (tallyAt (copyCell c 1 7) () (copyAmt 1))
        ∗ (∃ W, owes (c : Thread nD τ) (Orem ((payList c).drop 27)) W)
        ∗ atPos ER (sendCell c 2 7) 1 ∅ 0
        ∗ slotBot m c 2 3 fullShare.left) -∗ Kt r))
      ⊢ wp frame (wpE (defs₀ (F := F)) 𝒱₀ (c : Thread nD τ) none) Set.univ (k0_part43 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2) Kt

/-- Part 44: the wait on the recv cell 7 of group 2; the load of slot 7 (rows from 176) of group 2; a load of the narrowed right factor; the load of stage slot 1 of group 2 before its store; the store of the rows from 176 of the last block of group 2; the copy of product block 7 of group 2 into the result. -/
def Part44Spec : Prop :=
  ∀ (c : Dev nD) (v2 : BitVec 32) (v584 : BitVec 32) (Kt : (PUnit) → sProp 𝕄),
    iprop(records (Rd m) K ∗ levAts L lv
        ∗ cred (tallyAt (recvCell c 2 7) () (xferAmt 2 7))
        ∗ atPos ER (recvCell c 2 7) 0 ∅ 0
        ∗ (∃ W, owes (c : Thread nD τ) (Orem ((payList c).drop 27)) W)
        ∗ holdsPts c b16M fullShare (bv m c)
        ∗ stageTop m c 2
        ∗ pieceAny c 2 7
        ∗ dutyTok ER (copyCell c 2 7) 0 0
        ∗ (∀ r : (PUnit), iprop((∃ W, owes (c : Thread nD τ) (Orem ((payList c).drop 27)) W)
        ∗ atPos ER (recvCell c 2 7) 1 ∅ 0
        ∗ slotBot m c 2 7 fullShare
        ∗ holdsPts c b16M fullShare (bv m c)
        ∗ cred (tallyAt (copyCell c 2 7) () (copyAmt 2))) -∗ Kt r))
      ⊢ wp frame (wpE (defs₀ (F := F)) 𝒱₀ (c : Thread nD τ) none) Set.univ (k0_part44 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 c v2 v584) Kt

/-- Part 45: the wait on the copy cell 6 of group 0; the wait on the copy cell 7 of group 0; the wait on the copy cell 6 of group 1; the wait on the copy cell 7 of group 1; the wait on the copy cell 6 of group 2. -/
def Part45Spec : Prop :=
  ∀ (c : Dev nD)  (Kt : (PUnit) → sProp 𝕄),
    iprop(records (Rd m) K ∗ levAts L lv
        ∗ cred (tallyAt (copyCell c 0 6) () (copyAmt 0))
        ∗ atPos ER (copyCell c 0 6) 0 ∅ 0
        ∗ (∃ W, owes (c : Thread nD τ) (Orem ((payList c).drop 27)) W)
        ∗ cred (tallyAt (copyCell c 0 7) () (copyAmt 0))
        ∗ atPos ER (copyCell c 0 7) 0 ∅ 0
        ∗ cred (tallyAt (copyCell c 1 6) () (copyAmt 1))
        ∗ atPos ER (copyCell c 1 6) 0 ∅ 0
        ∗ cred (tallyAt (copyCell c 1 7) () (copyAmt 1))
        ∗ atPos ER (copyCell c 1 7) 0 ∅ 0
        ∗ cred (tallyAt (copyCell c 2 6) () (copyAmt 2))
        ∗ atPos ER (copyCell c 2 6) 0 ∅ 0
        ∗ (∀ r : (PUnit), iprop(atPos ER (copyCell c 0 6) 1 ∅ 0
        ∗ pieceDone m c 0 6
        ∗ stageAny c 0 0
        ∗ atPos ER (copyCell c 0 7) 1 ∅ 0
        ∗ pieceDone m c 0 7
        ∗ stageAny c 0 1
        ∗ atPos ER (copyCell c 1 6) 1 ∅ 0
        ∗ pieceDone m c 1 6
        ∗ stageAny c 1 0
        ∗ atPos ER (copyCell c 1 7) 1 ∅ 0
        ∗ pieceDone m c 1 7
        ∗ stageAny c 1 1
        ∗ (∃ W, owes (c : Thread nD τ) (Orem ((payList c).drop 27)) W)
        ∗ atPos ER (copyCell c 2 6) 1 ∅ 0
        ∗ pieceDone m c 2 6
        ∗ stageAny c 2 0) -∗ Kt r))
      ⊢ wp frame (wpE (defs₀ (F := F)) 𝒱₀ (c : Thread nD τ) none) Set.univ (k0_part45 aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9 ) Kt

/-- The tail of the body after its last printed part: the wait on the last copy. -/
def TailSpec : Prop :=
  ∀ (c : Dev nD) (Kt : PUnit → sProp 𝕄),
    iprop(records (Rd m) K ∗ levAts L lv
        ∗ cred (tallyAt (copyCell c 2 7) () (copyAmt 2))
        ∗ atPos ER (copyCell c 2 7) 0 ∅ 0
        ∗ (∃ W, owes (c : Thread nD τ) (Orem ((payList c).drop 27)) W)
        ∗ (iprop((∃ W, owes (c : Thread nD τ) (Orem ((payList c).drop 27)) W)
        ∗ atPos ER (copyCell c 2 7) 1 ∅ 0
        ∗ pieceDone m c 2 7
        ∗ stageAny c 2 1) -∗ Kt ⟨⟩))
      ⊢ wp frame (wpE (defs₀ (F := F)) 𝒱₀ (c : Thread nD τ) none) Set.univ (do
          let v1025 : DmaSems sig S1x1 := cc0_scratch9.slice (Rect.unit (s := S3x8) ![2, 7] S1x1.size inb_S3x8_S1x1_2_7)
          let v1026 : DmaSems sig S_ := v1025.squeeze S_ squeezes_S1x1_S_
          let v1027 : Memref sig .tc .hbm S336x1024 .f32 := oM.slice (Rect.unit (s := S8192x1024) ![0, 0] S336x1024.size inb_S8192x1024_S336x1024_0_0) (fun _ => rfl)
          let v1028 : Memref sig .tc .vmem S1x336x1024 .f32 := s2M.slice (Rect.unit (s := S2x336x1024) ![1, 0, 0] S1x336x1024.size inb_S2x336x1024_S1x336x1024_1_0_0) (fun _ => rfl)
          let v1029 : Memref sig .tc .vmem S336x1024 .f32 := v1028.squeeze S336x1024 squeezes_S1x336x1024_S336x1024
          Prog.lift (.waitDma2 v1026.sem v1029 v1027 ((View.wordExact_bits rfl).reshape _ _) (View.wordExact_bits rfl))
          pure ⟨⟩ : Prog (TpuEff nD τ sig (Elt F) Λ₀ .tc) PUnit) Kt

end Cert.Kernel.DM
end
-- ==== Proof.Bits.BodyChain.lean ====
/- GENERATED by: bun scratch/gen_partspecs.js "$KIT/certs/proofs/900891_g7700000000000892_dist_matmul_m_i_outrep_m1024_n1024_k512_v7x_i8_f32_1_alg" "proofs.«900891_g7700000000000892_dist_matmul_m_i_outrep_m1024_n1024_k512_v7x_i8_f32_1_alg».proof" "chain2" "ChainEqs1,ChainEqs2,ChainEqs3,ChainEqs4" "--prog" "Kernel" "--sub" "Bits" (run from the unit directory; the script is filed beside this module): the
   parts' runs applied one after the other along the body; the state is held as one conjunction, regrouped before each
   step as that step's pieces and the rest. -/
import proofs.«900891_g7700000000000892_dist_matmul_m_i_outrep_m1024_n1024_k512_v7x_i8_f32_1_alg».proof.Proof.Bits.ChainEqs1
import proofs.«900891_g7700000000000892_dist_matmul_m_i_outrep_m1024_n1024_k512_v7x_i8_f32_1_alg».proof.Proof.Bits.ChainEqs2
import proofs.«900891_g7700000000000892_dist_matmul_m_i_outrep_m1024_n1024_k512_v7x_i8_f32_1_alg».proof.Proof.Bits.ChainEqs3
import proofs.«900891_g7700000000000892_dist_matmul_m_i_outrep_m1024_n1024_k512_v7x_i8_f32_1_alg».proof.Proof.Bits.ChainEqs4
import proofs.«900891_g7700000000000892_dist_matmul_m_i_outrep_m1024_n1024_k512_v7x_i8_f32_1_alg».proof.Proof.Bits.PartSpecs
set_option maxRecDepth 16384
noncomputable section
namespace Cert.Kernel.DM
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (K : Dev nD × CIx → ℕ)

set_option maxHeartbeats 4000000 in
theorem middle (h1 : Part1Spec m K) (h2 : Part2Spec m K) (h3 : Part3Spec m K) (h4 : Part4Spec m K) (h5 : Part5Spec m K) (h6 : Part6Spec m K) (h7 : Part7Spec m K) (h8 : Part8Spec m K) (h9 : Part9Spec m K) (h10 : Part10Spec m K) (h11 : Part11Spec m K) (h12 : Part12Spec m K) (h13 : Part13Spec m K) (h14 : Part14Spec m K) (h15 : Part15Spec m K) (h16 : Part16Spec m K) (h17 : Part17Spec m K) (h18 : Part18Spec m K) (h19 : Part19Spec m K) (h20 : Part20Spec m K) (h21 : Part21Spec m K) (h22 : Part22Spec m K) (h23 : Part23Spec m K) (h24 : Part24Spec m K) (h25 : Part25Spec m K) (h26 : Part26Spec m K) (h27 : Part27Spec m K) (h28 : Part28Spec m K) (h29 : Part29Spec m K) (h30 : Part30Spec m K) (h31 : Part31Spec m K) (h32 : Part32Spec m K) (h33 : Part33Spec m K) (h34 : Part34Spec m K) (h35 : Part35Spec m K) (h36 : Part36Spec m K) (h37 : Part37Spec m K) (h38 : Part38Spec m K) (h39 : Part39Spec m K) (h40 : Part40Spec m K) (h41 : Part41Spec m K) (h42 : Part42Spec m K) (h43 : Part43Spec m K) (h44 : Part44Spec m K) (h45 : Part45Spec m K) (hT : TailSpec m K) (c : Dev nD) (Kt : PUnit → sProp 𝕄) :
    iprop(InitChain m K c ∗ (FinalChain m K c -∗ Kt ⟨⟩))
      ⊢ wp frame (wpE (defs₀ (F := F)) 𝒱₀ (c : Thread nD τ) none) Set.univ (cc0_body aM (Memref.isWhole_whole _) bM (Memref.isWhole_whole _) oM (Memref.isWhole_whole _) b16M (Memref.isWhole_whole _) g0M (Memref.isWhole_whole _) g1M (Memref.isWhole_whole _) g2M (Memref.isWhole_whole _) s0M (Memref.isWhole_whole _) s1M (Memref.isWhole_whole _) s2M (Memref.isWhole_whole _) cc0_scratch7 cc0_scratch8 cc0_scratch9) Kt := by
  unfold cc0_body
  simp only [wp_bind]
  iintro ⟨HS, HFin⟩
  ihave HS := (Entails.of_eq (eq_start m K c)) $$ HS
  icases HS with ⟨#Hrec, #Hlev, HS⟩
  -- step 1
  ihave HS := (Entails.of_eq (eq_step1 m K c)) $$ HS
  icases HS with ⟨Hpre, HFr⟩
  icases Hpre with ⟨A1_0, A1_1, A1_2, A1_3, A1_4, A1_5, A1_6, A1_7, A1_8, A1_9, A1_10, A1_11, A1_12, A1_13, A1_14, A1_15, A1_16, A1_17, A1_18, A1_19, A1_20, A1_21, A1_22, A1_23, A1_24, A1_25, A1_26, A1_27, A1_28, A1_29, A1_30⟩
  iapply (h1 c _)
  iframe A1_0 A1_1 A1_2 A1_3 A1_4 A1_5 A1_6 A1_7 A1_8 A1_9 A1_10 A1_11 A1_12 A1_13 A1_14 A1_15 A1_16 A1_17 A1_18 A1_19 A1_20 A1_21 A1_22 A1_23 A1_24 A1_25 A1_26 A1_27 A1_28 A1_29 A1_30
  isplitr
  · iexact Hrec
  isplitr
  · iexact Hlev
  iintro %r1 %hr1 Hpost
  obtain ⟨d0_1, v2_1, v3_1, lst_1⟩ := r1
  dsimp only at hr1
  obtain ⟨hdev1, rfl, rfl⟩ := hr1
  subst d0_1
  dsimp only
  icombine Hpost HFr as HS
  -- step 2
  ihave HS := (Entails.of_eq (eq_step2 m K c)) $$ HS
  icases HS with ⟨Hpre, HFr⟩
  icases Hpre with ⟨A2_0, A2_1, A2_2, A2_3, A2_4, A2_5, A2_6, A2_7, A2_8, A2_9⟩
  iapply (h2 c _ _)
  iframe A2_0 A2_1 A2_2 A2_3 A2_4 A2_5 A2_6 A2_7 A2_8 A2_9
  isplitr
  · iexact Hrec
  isplitr
  · iexact Hlev
  iintro %r2 Hpost
  obtain ⟨v31_2, v40_2, lst_2⟩ := r2
  dsimp only
  icombine Hpost HFr as HS
  -- step 3
  ihave HS := (Entails.of_eq (eq_step3 m K c)) $$ HS
  icases HS with ⟨Hpre, HFr⟩
  icases Hpre with ⟨A3_0, A3_1, A3_2, A3_3, A3_4, A3_5, A3_6, A3_7, A3_8⟩
  iapply (h3 c _ _ _)
  iframe A3_0 A3_1 A3_2 A3_3 A3_4 A3_5 A3_6 A3_7 A3_8
  isplitr
  · iexact Hrec
  isplitr
  · iexact Hlev
  iintro %r3 Hpost
  obtain ⟨v58_3, lst_3⟩ := r3
  dsimp only
  icombine Hpost HFr as HS
  -- step 4
  ihave HS := (Entails.of_eq (eq_step4 m K c)) $$ HS
  icases HS with ⟨Hpre, HFr⟩
  icases Hpre with ⟨A4_0, A4_1, A4_2, A4_3, A4_4, A4_5, A4_6, A4_7, A4_8, A4_9, A4_10, A4_11, A4_12⟩
  iapply (h4 c _ _)
  iframe A4_0 A4_1 A4_2 A4_3 A4_4 A4_5 A4_6 A4_7 A4_8 A4_9 A4_10 A4_11 A4_12
  isplitr
  · iexact Hrec
  isplitr
  · iexact Hlev
  iintro %r4 Hpost
  obtain ⟨v76_4, v85_4, v94_4, v95_4, lst_4⟩ := r4
  dsimp only
  icombine Hpost HFr as HS
  -- step 5
  ihave HS := (Entails.of_eq (eq_step5 m K c)) $$ HS
  icases HS with ⟨Hpre, HFr⟩
  icases Hpre with ⟨A5_0, A5_1, A5_2, A5_3, A5_4, A5_5, A5_6, A5_7, A5_8, A5_9, A5_10, A5_11⟩
  iapply (h5 c _ _ _ _)
  iframe A5_0 A5_1 A5_2 A5_3 A5_4 A5_5 A5_6 A5_7 A5_8 A5_9 A5_10 A5_11
  isplitr
  · iexact Hrec
  isplitr
  · iexact Hlev
  iintro %r5 %hr5 Hpost
  obtain ⟨v103_5, lst_5⟩ := r5
  dsimp only at hr5
  subst hr5
  dsimp only
  icombine Hpost HFr as HS
  -- step 6
  ihave HS := (Entails.of_eq (eq_step6 m K c)) $$ HS
  icases HS with ⟨Hpre, HFr⟩
  icases Hpre with ⟨A6_0, A6_1, A6_2, A6_3, A6_4, A6_5, A6_6, A6_7⟩
  iapply (h6 c _ _)
  iframe A6_0 A6_1 A6_2 A6_3 A6_4 A6_5 A6_6 A6_7
  isplitr
  · iexact Hrec
  isplitr
  · iexact Hlev
  iintro %r6 Hpost
  icombine Hpost HFr as HS
  -- step 7
  ihave HS := (Entails.of_eq (eq_step7 m K c)) $$ HS
  icases HS with ⟨Hpre, HFr⟩
  icases Hpre with ⟨A7_0, A7_1, A7_2, A7_3, A7_4, A7_5, A7_6, A7_7⟩
  iapply (h7 c _ _ _)
  iframe A7_0 A7_1 A7_2 A7_3 A7_4 A7_5 A7_6 A7_7
  isplitr
  · iexact Hrec
  isplitr
  · iexact Hlev
  iintro %r7 Hpost
  icombine Hpost HFr as HS
  -- step 8
  ihave HS := (Entails.of_eq (eq_step8 m K c)) $$ HS
  icases HS with ⟨Hpre, HFr⟩
  icases Hpre with ⟨A8_0, A8_1, A8_2, A8_3, A8_4, A8_5, A8_6, A8_7, A8_8⟩
  iapply (h8 c _ _)
  iframe A8_0 A8_1 A8_2 A8_3 A8_4 A8_5 A8_6 A8_7 A8_8
  isplitr
  · iexact Hrec
  isplitr
  · iexact Hlev
  iintro %r8 Hpost
  obtain ⟨v173_8, lst_8⟩ := r8
  dsimp only
  icombine Hpost HFr as HS
  -- step 9
  ihave HS := (Entails.of_eq (eq_step9 m K c)) $$ HS
  icases HS with ⟨Hpre, HFr⟩
  icases Hpre with ⟨A9_0, A9_1, A9_2, A9_3, A9_4, A9_5, A9_6, A9_7⟩
  iapply (h9 c _ _ _)
  iframe A9_0 A9_1 A9_2 A9_3 A9_4 A9_5 A9_6 A9_7
  isplitr
  · iexact Hrec
  isplitr
  · iexact Hlev
  iintro %r9 Hpost
  obtain ⟨v201_9, v210_9, lst_9⟩ := r9
  dsimp only
  icombine Hpost HFr as HS
  -- step 10
  ihave HS := (Entails.of_eq (eq_step10 m K c)) $$ HS
  icases HS with ⟨Hpre, HFr⟩
  icases Hpre with ⟨A10_0, A10_1, A10_2, A10_3, A10_4, A10_5, A10_6, A10_7, A10_8⟩
  iapply (h10 c _ _ _ _)
  iframe A10_0 A10_1 A10_2 A10_3 A10_4 A10_5 A10_6 A10_7 A10_8
  isplitr
  · iexact Hrec
  isplitr
  · iexact Hlev
  iintro %r10 Hpost
  icombine Hpost HFr as HS
  -- step 11
  ihave HS := (Entails.of_eq (eq_step11 m K c)) $$ HS
  icases HS with ⟨Hpre, HFr⟩
  icases Hpre with ⟨A11_0, A11_1, A11_2, A11_3, A11_4, A11_5, A11_6, A11_7, A11_8, A11_9, A11_10, A11_11⟩
  iapply (h11 c _ _)
  iframe A11_0 A11_1 A11_2 A11_3 A11_4 A11_5 A11_6 A11_7 A11_8 A11_9 A11_10 A11_11
  isplitr
  · iexact Hrec
  isplitr
  · iexact Hlev
  iintro %r11 Hpost
  icombine Hpost HFr as HS
  -- step 12
  ihave HS := (Entails.of_eq (eq_step12 m K c)) $$ HS
  icases HS with ⟨Hpre, HFr⟩
  icases Hpre with ⟨A12_0, A12_1, A12_2, A12_3, A12_4, A12_5, A12_6, A12_7, A12_8, A12_9⟩
  iapply (h12 c _ _)
  iframe A12_0 A12_1 A12_2 A12_3 A12_4 A12_5 A12_6 A12_7 A12_8 A12_9
  isplitr
  · iexact Hrec
  isplitr
  · iexact Hlev
  iintro %r12 %hr12 Hpost
  obtain ⟨v280_12, lst_12⟩ := r12
  dsimp only at hr12
  subst hr12
  dsimp only
  icombine Hpost HFr as HS
  -- step 13
  ihave HS := (Entails.of_eq (eq_step13 m K c)) $$ HS
  icases HS with ⟨Hpre, HFr⟩
  icases Hpre with ⟨A13_0, A13_1, A13_2, A13_3, A13_4, A13_5, A13_6, A13_7⟩
  iapply (h13 c _ _ _ _)
  iframe A13_0 A13_1 A13_2 A13_3 A13_4 A13_5 A13_6 A13_7
  isplitr
  · iexact Hrec
  isplitr
  · iexact Hlev
  iintro %r13 Hpost
  icombine Hpost HFr as HS
  -- step 14
  ihave HS := (Entails.of_eq (eq_step14 m K c)) $$ HS
  icases HS with ⟨Hpre, HFr⟩
  icases Hpre with ⟨A14_0, A14_1, A14_2, A14_3, A14_4, A14_5, A14_6, A14_7, A14_8⟩
  iapply (h14 c _ _ _ _)
  iframe A14_0 A14_1 A14_2 A14_3 A14_4 A14_5 A14_6 A14_7 A14_8
  isplitr
  · iexact Hrec
  isplitr
  · iexact Hlev
  iintro %r14 Hpost
  icombine Hpost HFr as HS
  -- step 15
  ihave HS := (Entails.of_eq (eq_step15 m K c)) $$ HS
  icases HS with ⟨Hpre, HFr⟩
  icases Hpre with ⟨A15_0, A15_1, A15_2, A15_3, A15_4, A15_5, A15_6, A15_7, A15_8⟩
  iapply (h15 c _ _ _ _)
  iframe A15_0 A15_1 A15_2 A15_3 A15_4 A15_5 A15_6 A15_7 A15_8
  isplitr
  · iexact Hrec
  isplitr
  · iexact Hlev
  iintro %r15 Hpost
  obtain ⟨v340_15, lst_15⟩ := r15
  dsimp only
  icombine Hpost HFr as HS
  -- step 16
  ihave HS := (Entails.of_eq (eq_step16 m K c)) $$ HS
  icases HS with ⟨Hpre, HFr⟩
  icases Hpre with ⟨A16_0, A16_1, A16_2, A16_3, A16_4, A16_5, A16_6, A16_7, A16_8⟩
  iapply (h16 c _ _ _)
  iframe A16_0 A16_1 A16_2 A16_3 A16_4 A16_5 A16_6 A16_7 A16_8
  isplitr
  · iexact Hrec
  isplitr
  · iexact Hlev
  iintro %r16 Hpost
  icombine Hpost HFr as HS
  -- step 17
  ihave HS := (Entails.of_eq (eq_step17 m K c)) $$ HS
  icases HS with ⟨Hpre, HFr⟩
  icases Hpre with ⟨A17_0, A17_1, A17_2, A17_3, A17_4, A17_5, A17_6, A17_7, A17_8, A17_9⟩
  iapply (h17 c _ _)
  iframe A17_0 A17_1 A17_2 A17_3 A17_4 A17_5 A17_6 A17_7 A17_8 A17_9
  isplitr
  · iexact Hrec
  isplitr
  · iexact Hlev
  iintro %r17 Hpost
  icombine Hpost HFr as HS
  -- step 18
  ihave HS := (Entails.of_eq (eq_step18 m K c)) $$ HS
  icases HS with ⟨Hpre, HFr⟩
  icases Hpre with ⟨A18_0, A18_1, A18_2, A18_3, A18_4, A18_5, A18_6, A18_7, A18_8⟩
  iapply (h18 c _ _)
  iframe A18_0 A18_1 A18_2 A18_3 A18_4 A18_5 A18_6 A18_7 A18_8
  isplitr
  · iexact Hrec
  isplitr
  · iexact Hlev
  iintro %r18 Hpost
  icombine Hpost HFr as HS
  -- step 19
  ihave HS := (Entails.of_eq (eq_step19 m K c)) $$ HS
  icases HS with ⟨Hpre, HFr⟩
  icases Hpre with ⟨A19_0, A19_1, A19_2, A19_3, A19_4, A19_5⟩
  iapply (h19 c _ _ _ _)
  iframe A19_0 A19_1 A19_2 A19_3 A19_4 A19_5
  isplitr
  · iexact Hrec
  isplitr
  · iexact Hlev
  iintro %r19 Hpost
  icombine Hpost HFr as HS
  -- step 20
  ihave HS := (Entails.of_eq (eq_step20 m K c)) $$ HS
  icases HS with ⟨Hpre, HFr⟩
  icases Hpre with ⟨A20_0, A20_1, A20_2, A20_3, A20_4, A20_5, A20_6, A20_7, A20_8, A20_9, A20_10⟩
  iapply (h20 c _ _)
  iframe A20_0 A20_1 A20_2 A20_3 A20_4 A20_5 A20_6 A20_7 A20_8 A20_9 A20_10
  isplitr
  · iexact Hrec
  isplitr
  · iexact Hlev
  iintro %r20 %hr20 Hpost
  subst hr20
  icombine Hpost HFr as HS
  -- step 21
  ihave HS := (Entails.of_eq (eq_step21 m K c)) $$ HS
  icases HS with ⟨Hpre, HFr⟩
  icases Hpre with ⟨A21_0, A21_1, A21_2, A21_3, A21_4, A21_5, A21_6, A21_7⟩
  iapply (h21 c _ _ _)
  iframe A21_0 A21_1 A21_2 A21_3 A21_4 A21_5 A21_6 A21_7
  isplitr
  · iexact Hrec
  isplitr
  · iexact Hlev
  iintro %r21 Hpost
  icombine Hpost HFr as HS
  -- step 22
  ihave HS := (Entails.of_eq (eq_step22 m K c)) $$ HS
  icases HS with ⟨Hpre, HFr⟩
  icases Hpre with ⟨A22_0, A22_1, A22_2, A22_3, A22_4, A22_5, A22_6⟩
  iapply (h22 c _ _)
  iframe A22_0 A22_1 A22_2 A22_3 A22_4 A22_5 A22_6
  isplitr
  · iexact Hrec
  isplitr
  · iexact Hlev
  iintro %r22 Hpost
  icombine Hpost HFr as HS
  -- step 23
  ihave HS := (Entails.of_eq (eq_step23 m K c)) $$ HS
  icases HS with ⟨Hpre, HFr⟩
  icases Hpre with ⟨A23_0, A23_1, A23_2, A23_3, A23_4, A23_5, A23_6, A23_7⟩
  iapply (h23 c _ _ _)
  iframe A23_0 A23_1 A23_2 A23_3 A23_4 A23_5 A23_6 A23_7
  isplitr
  · iexact Hrec
  isplitr
  · iexact Hlev
  iintro %r23 Hpost
  obtain ⟨v509_23, lst_23⟩ := r23
  dsimp only
  icombine Hpost HFr as HS
  -- step 24
  ihave HS := (Entails.of_eq (eq_step24 m K c)) $$ HS
  icases HS with ⟨Hpre, HFr⟩
  icases Hpre with ⟨A24_0, A24_1, A24_2, A24_3, A24_4, A24_5, A24_6, A24_7, A24_8⟩
  iapply (h24 c _ _ _)
  iframe A24_0 A24_1 A24_2 A24_3 A24_4 A24_5 A24_6 A24_7 A24_8
  isplitr
  · iexact Hrec
  isplitr
  · iexact Hlev
  iintro %r24 Hpost
  icombine Hpost HFr as HS
  -- step 25
  ihave HS := (Entails.of_eq (eq_step25 m K c)) $$ HS
  icases HS with ⟨Hpre, HFr⟩
  icases Hpre with ⟨A25_0, A25_1, A25_2, A25_3, A25_4, A25_5, A25_6, A25_7, A25_8, A25_9, A25_10⟩
  iapply (h25 c _ _ _)
  iframe A25_0 A25_1 A25_2 A25_3 A25_4 A25_5 A25_6 A25_7 A25_8 A25_9 A25_10
  isplitr
  · iexact Hrec
  isplitr
  · iexact Hlev
  iintro %r25 Hpost
  obtain ⟨v552_25, lst_25⟩ := r25
  dsimp only
  icombine Hpost HFr as HS
  -- step 26
  ihave HS := (Entails.of_eq (eq_step26 m K c)) $$ HS
  icases HS with ⟨Hpre, HFr⟩
  icases Hpre with ⟨A26_0, A26_1, A26_2, A26_3, A26_4, A26_5⟩
  iapply (h26 c _ _ _)
  iframe A26_0 A26_1 A26_2 A26_3 A26_4 A26_5
  isplitr
  · iexact Hrec
  isplitr
  · iexact Hlev
  iintro %r26 Hpost
  obtain ⟨v573_26, lst_26⟩ := r26
  dsimp only
  icombine Hpost HFr as HS
  -- step 27
  ihave HS := (Entails.of_eq (eq_step27 m K c)) $$ HS
  icases HS with ⟨Hpre, HFr⟩
  icases Hpre with ⟨A27_0, A27_1, A27_2, A27_3, A27_4, A27_5, A27_6, A27_7, A27_8, A27_9, A27_10⟩
  iapply (h27 c _ _)
  iframe A27_0 A27_1 A27_2 A27_3 A27_4 A27_5 A27_6 A27_7 A27_8 A27_9 A27_10
  isplitr
  · iexact Hrec
  isplitr
  · iexact Hlev
  iintro %r27 Hpost
  icombine Hpost HFr as HS
  -- step 28
  ihave HS := (Entails.of_eq (eq_step28 m K c)) $$ HS
  icases HS with ⟨Hpre, HFr⟩
  icases Hpre with ⟨A28_0, A28_1, A28_2, A28_3, A28_4, A28_5, A28_6, A28_7, A28_8, A28_9⟩
  iapply (h28 c _ _)
  iframe A28_0 A28_1 A28_2 A28_3 A28_4 A28_5 A28_6 A28_7 A28_8 A28_9
  isplitr
  · iexact Hrec
  isplitr
  · iexact Hlev
  iintro %r28 %hr28 Hpost
  obtain ⟨v641_28, lst_28⟩ := r28
  dsimp only at hr28
  obtain ⟨rfl, rfl⟩ := hr28
  dsimp only
  icombine Hpost HFr as HS
  -- step 29
  ihave HS := (Entails.of_eq (eq_step29 m K c)) $$ HS
  icases HS with ⟨Hpre, HFr⟩
  icases Hpre with ⟨A29_0, A29_1, A29_2, A29_3, A29_4, A29_5⟩
  iapply (h29 c _ _ _)
  iframe A29_0 A29_1 A29_2 A29_3 A29_4 A29_5
  isplitr
  · iexact Hrec
  isplitr
  · iexact Hlev
  iintro %r29 Hpost
  icombine Hpost HFr as HS
  -- step 30
  ihave HS := (Entails.of_eq (eq_step30 m K c)) $$ HS
  icases HS with ⟨Hpre, HFr⟩
  icases Hpre with ⟨A30_0, A30_1, A30_2, A30_3, A30_4, A30_5, A30_6, A30_7⟩
  iapply (h30 c _ _)
  iframe A30_0 A30_1 A30_2 A30_3 A30_4 A30_5 A30_6 A30_7
  isplitr
  · iexact Hrec
  isplitr
  · iexact Hlev
  iintro %r30 Hpost
  icombine Hpost HFr as HS
  -- step 31
  ihave HS := (Entails.of_eq (eq_step31 m K c)) $$ HS
  icases HS with ⟨Hpre, HFr⟩
  icases Hpre with ⟨A31_0, A31_1, A31_2, A31_3, A31_4, A31_5, A31_6, A31_7⟩
  iapply (h31 c _ _ _)
  iframe A31_0 A31_1 A31_2 A31_3 A31_4 A31_5 A31_6 A31_7
  isplitr
  · iexact Hrec
  isplitr
  · iexact Hlev
  iintro %r31 Hpost
  obtain ⟨v708_31, lst_31⟩ := r31
  dsimp only
  icombine Hpost HFr as HS
  -- step 32
  ihave HS := (Entails.of_eq (eq_step32 m K c)) $$ HS
  icases HS with ⟨Hpre, HFr⟩
  icases Hpre with ⟨A32_0, A32_1, A32_2, A32_3, A32_4, A32_5, A32_6, A32_7⟩
  iapply (h32 c _ _ _ _)
  iframe A32_0 A32_1 A32_2 A32_3 A32_4 A32_5 A32_6 A32_7
  isplitr
  · iexact Hrec
  isplitr
  · iexact Hlev
  iintro %r32 Hpost
  icombine Hpost HFr as HS
  -- step 33
  ihave HS := (Entails.of_eq (eq_step33 m K c)) $$ HS
  icases HS with ⟨Hpre, HFr⟩
  icases Hpre with ⟨A33_0, A33_1, A33_2, A33_3, A33_4, A33_5, A33_6, A33_7, A33_8⟩
  iapply (h33 c _ _ _)
  iframe A33_0 A33_1 A33_2 A33_3 A33_4 A33_5 A33_6 A33_7 A33_8
  isplitr
  · iexact Hrec
  isplitr
  · iexact Hlev
  iintro %r33 Hpost
  icombine Hpost HFr as HS
  -- step 34
  ihave HS := (Entails.of_eq (eq_step34 m K c)) $$ HS
  icases HS with ⟨Hpre, HFr⟩
  icases Hpre with ⟨A34_0, A34_1, A34_2, A34_3, A34_4, A34_5, A34_6, A34_7⟩
  iapply (h34 c _ _)
  iframe A34_0 A34_1 A34_2 A34_3 A34_4 A34_5 A34_6 A34_7
  isplitr
  · iexact Hrec
  isplitr
  · iexact Hlev
  iintro %r34 Hpost
  icombine Hpost HFr as HS
  -- step 35
  ihave HS := (Entails.of_eq (eq_step35 m K c)) $$ HS
  icases HS with ⟨Hpre, HFr⟩
  icases Hpre with ⟨A35_0, A35_1, A35_2, A35_3, A35_4, A35_5, A35_6, A35_7⟩
  iapply (h35 c _ _)
  iframe A35_0 A35_1 A35_2 A35_3 A35_4 A35_5 A35_6 A35_7
  isplitr
  · iexact Hrec
  isplitr
  · iexact Hlev
  iintro %r35 %hr35 Hpost
  subst hr35
  icombine Hpost HFr as HS
  -- step 36
  ihave HS := (Entails.of_eq (eq_step36 m K c)) $$ HS
  icases HS with ⟨Hpre, HFr⟩
  icases Hpre with ⟨A36_0, A36_1, A36_2, A36_3, A36_4, A36_5, A36_6, A36_7⟩
  iapply (h36 c _ _ _)
  iframe A36_0 A36_1 A36_2 A36_3 A36_4 A36_5 A36_6 A36_7
  isplitr
  · iexact Hrec
  isplitr
  · iexact Hlev
  iintro %r36 Hpost
  icombine Hpost HFr as HS
  -- step 37
  ihave HS := (Entails.of_eq (eq_step37 m K c)) $$ HS
  icases HS with ⟨Hpre, HFr⟩
  icases Hpre with ⟨A37_0, A37_1, A37_2, A37_3, A37_4, A37_5, A37_6⟩
  iapply (h37 c _ _)
  iframe A37_0 A37_1 A37_2 A37_3 A37_4 A37_5 A37_6
  isplitr
  · iexact Hrec
  isplitr
  · iexact Hlev
  iintro %r37 Hpost
  icombine Hpost HFr as HS
  -- step 38
  ihave HS := (Entails.of_eq (eq_step38 m K c)) $$ HS
  icases HS with ⟨Hpre, HFr⟩
  icases Hpre with ⟨A38_0, A38_1, A38_2, A38_3, A38_4, A38_5, A38_6, A38_7⟩
  iapply (h38 c _ _)
  iframe A38_0 A38_1 A38_2 A38_3 A38_4 A38_5 A38_6 A38_7
  isplitr
  · iexact Hrec
  isplitr
  · iexact Hlev
  iintro %r38 Hpost
  icombine Hpost HFr as HS
  -- step 39
  ihave HS := (Entails.of_eq (eq_step39 m K c)) $$ HS
  icases HS with ⟨Hpre, HFr⟩
  icases Hpre with ⟨A39_0, A39_1, A39_2, A39_3, A39_4, A39_5, A39_6, A39_7⟩
  iapply (h39 c _ _)
  iframe A39_0 A39_1 A39_2 A39_3 A39_4 A39_5 A39_6 A39_7
  isplitr
  · iexact Hrec
  isplitr
  · iexact Hlev
  iintro %r39 %hr39 Hpost
  obtain ⟨v883_39, lst_39⟩ := r39
  dsimp only at hr39
  subst hr39
  dsimp only
  icombine Hpost HFr as HS
  -- step 40
  ihave HS := (Entails.of_eq (eq_step40 m K c)) $$ HS
  icases HS with ⟨Hpre, HFr⟩
  icases Hpre with ⟨A40_0, A40_1, A40_2, A40_3, A40_4, A40_5, A40_6, A40_7⟩
  iapply (h40 c _ _ _)
  iframe A40_0 A40_1 A40_2 A40_3 A40_4 A40_5 A40_6 A40_7
  isplitr
  · iexact Hrec
  isplitr
  · iexact Hlev
  iintro %r40 %hr40 Hpost
  subst hr40
  icombine Hpost HFr as HS
  -- step 41
  ihave HS := (Entails.of_eq (eq_step41 m K c)) $$ HS
  icases HS with ⟨Hpre, HFr⟩
  icases Hpre with ⟨A41_0, A41_1, A41_2, A41_3, A41_4, A41_5, A41_6⟩
  iapply (h41 c _ _)
  iframe A41_0 A41_1 A41_2 A41_3 A41_4 A41_5 A41_6
  isplitr
  · iexact Hrec
  isplitr
  · iexact Hlev
  iintro %r41 %hr41 Hpost
  obtain ⟨v928_41, v929_41, lst_41⟩ := r41
  dsimp only at hr41
  obtain ⟨rfl, rfl, rfl⟩ := hr41
  dsimp only
  icombine Hpost HFr as HS
  -- step 42
  ihave HS := (Entails.of_eq (eq_step42 m K c)) $$ HS
  icases HS with ⟨Hpre, HFr⟩
  icases Hpre with ⟨A42_0, A42_1, A42_2, A42_3, A42_4, A42_5⟩
  iapply (h42 c _ _ _)
  iframe A42_0 A42_1 A42_2 A42_3 A42_4 A42_5
  isplitr
  · iexact Hrec
  isplitr
  · iexact Hlev
  iintro %r42 Hpost
  icombine Hpost HFr as HS
  -- step 43
  ihave HS := (Entails.of_eq (eq_step43 m K c)) $$ HS
  icases HS with ⟨Hpre, HFr⟩
  icases Hpre with ⟨A43_0, A43_1, A43_2, A43_3, A43_4, A43_5, A43_6, A43_7, A43_8⟩
  iapply (h43 c _ _)
  iframe A43_0 A43_1 A43_2 A43_3 A43_4 A43_5 A43_6 A43_7 A43_8
  isplitr
  · iexact Hrec
  isplitr
  · iexact Hlev
  iintro %r43 Hpost
  icombine Hpost HFr as HS
  -- step 44
  ihave HS := (Entails.of_eq (eq_step44 m K c)) $$ HS
  icases HS with ⟨Hpre, HFr⟩
  icases Hpre with ⟨A44_0, A44_1, A44_2, A44_3, A44_4, A44_5, A44_6⟩
  iapply (h44 c _ _ _)
  iframe A44_0 A44_1 A44_2 A44_3 A44_4 A44_5 A44_6
  isplitr
  · iexact Hrec
  isplitr
  · iexact Hlev
  iintro %r44 Hpost
  icombine Hpost HFr as HS
  -- step 45
  ihave HS := (Entails.of_eq (eq_step45 m K c)) $$ HS
  icases HS with ⟨Hpre, HFr⟩
  icases Hpre with ⟨A45_0, A45_1, A45_2, A45_3, A45_4, A45_5, A45_6, A45_7, A45_8, A45_9, A45_10⟩
  iapply (h45 c _)
  iframe A45_0 A45_1 A45_2 A45_3 A45_4 A45_5 A45_6 A45_7 A45_8 A45_9 A45_10
  isplitr
  · iexact Hrec
  isplitr
  · iexact Hlev
  iintro %r45 Hpost
  icombine Hpost HFr as HS
  -- step 46
  ihave HS := (Entails.of_eq (eq_step46 m K c)) $$ HS
  icases HS with ⟨Hpre, HFr⟩
  icases Hpre with ⟨A46_0, A46_1, A46_2⟩
  iapply (hT c _)
  iframe A46_0 A46_1 A46_2
  isplitr
  · iexact Hrec
  isplitr
  · iexact Hlev
  iintro Hpost
  icombine Hpost HFr as HS
  -- the end
  simp only [wp_pure]
  imodintro
  iapply HFin
  ihave HS := (pair_intro _ _) $$ Hrec HS
  ihave HS := (Entails.of_eq (eq_end m K c)) $$ HS
  icases HS with ⟨-, HS⟩
  iexact HS

end Cert.Kernel.DM
end
-- ==== Proof.Bits.OpsSend.lean ====
import proofs.«900891_g7700000000000892_dist_matmul_m_i_outrep_m1024_n1024_k512_v7x_i8_f32_1_alg».proof.Proof.Bits.Atoms

/-!
The steps of a device's body that speak to other devices: the entry signal to a neighbour, the wait on the own
barrier, and the transfer of one exchange step to its partner.

A signal to the neighbour in direction `d` pays duty `d` of that neighbour's barrier round and hands over this
device's own target slots of every step the neighbour runs towards it. The wait for the three units of the own
barrier returns, from the three neighbours, the target slots on them of all twenty-four steps. A transfer reads the
share of its source slot that the step holds, writes the partner's target slot it was given, and pays the partner's
receive cell: the landed target read through its view is the source's reading, and a step keeps the origin of the
rows it moves, so what lands is what the partner's schedule says its slot holds.
-/

noncomputable section

namespace Cert.Kernel.DM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-! ## Reading a landed transfer -/

omit [FloatOps F] in
/-- Between two views re-indexed the same way: the target, read at its own indices after the source's reading was
    written through the re-indexed target, reads as the source does at its own indices. -/
theorem read_write_reshape {κ κ' : Kind} {sp sp' : Space} {s s' : Shape} {e : EltTy} (S : View sig κ sp s e) (D : View sig κ' sp' s e)
    (h : s'.numel = s.numel) (fd : D.ty.Contents (Elt F)) (fs : S.ty.Contents (Elt F)) :
    D.read (Elt F) ((D.reshape s' h).write (Elt F) fd ((S.reshape s' h).read (Elt F) fs) Finset.univ) = S.read (Elt F) fs := by
  funext x
  have hD : ∀ (G : D.ty.Contents (Elt F)) (y : s'.Idx),
      (D.reshape s' h).read (Elt F) G y = D.read (Elt F) G (Shape.reshapeEquiv h y) := fun _ _ => rfl
  have hS : ∀ y : s'.Idx, (S.reshape s' h).read (Elt F) fs y = S.read (Elt F) fs (Shape.reshapeEquiv h y) := fun _ => rfl
  have h1 := congrFun (View.read_write_univ (v := D.reshape s' h) fd ((S.reshape s' h).read (Elt F) fs)) ((Shape.reshapeEquiv h).symm x)
  rw [hD, hS, Equiv.apply_symm_apply] at h1
  exact h1

/-! ## The three neighbours' hand-overs together -/

theorem towards_cover : (Finset.univ : Finset (Fin 3 × Fin 8)) = towards 0 ∪ (towards 1 ∪ towards 2) := by decide
theorem towards_disj0 : Disjoint (towards 0) (towards 1 ∪ towards 2) := by decide
theorem towards_disj1 : Disjoint (towards 1) (towards 2) := by decide

omit [FloatOps F] in
/-- A neighbour's hand-over, its targets named by the steps' partner. -/
theorem barPay_targets (d : Fin 3) :
    barPay (F := F) c d ⊢ bigSep (towards d) fun gs : Fin 3 × Fin 8 => dstAny (F := F) (partner c gs.1 gs.2) gs.1 gs.2 := by
  have e : barPay (F := F) c d = bigSep (towards d) fun gs : Fin 3 × Fin 8 =>
      iprop(dstAny (F := F) (partner c gs.1 gs.2) gs.1 gs.2 ∗ reached ER (recvCell (partner c gs.1 gs.2) gs.1 gs.2) 0) := by
    unfold barPay
    refine bigSep_congr fun gs hgs => ?_
    have h : xr c (dir d) = partner c gs.1 gs.2 := by unfold partner; rw [(Finset.mem_filter.mp hgs).2]
    rw [h]
  rw [e, bigSep_sep']
  iintro ⟨H, -⟩; iexact H

omit [FloatOps F] in
theorem barPay_all :
    iprop(barPay (F := F) c 0 ∗ barPay c 1 ∗ barPay c 2)
      ⊢ bigSep Finset.univ fun gs : Fin 3 × Fin 8 => dstAny (F := F) (partner c gs.1 gs.2) gs.1 gs.2 := by
  have e : (bigSep Finset.univ fun gs : Fin 3 × Fin 8 => dstAny (F := F) (partner c gs.1 gs.2) gs.1 gs.2)
      = iprop((bigSep (towards 0) fun gs : Fin 3 × Fin 8 => dstAny (F := F) (partner c gs.1 gs.2) gs.1 gs.2)
          ∗ (bigSep (towards 1) fun gs : Fin 3 × Fin 8 => dstAny (F := F) (partner c gs.1 gs.2) gs.1 gs.2)
          ∗ bigSep (towards 2) fun gs : Fin 3 × Fin 8 => dstAny (F := F) (partner c gs.1 gs.2) gs.1 gs.2) := by
    rw [towards_cover, bigSep_union towards_disj0, bigSep_union towards_disj1]; rfl
  rw [e]
  iintro ⟨H0, H1, H2⟩
  isplitl [H0]; · iapply (barPay_targets c 0); iexact H0
  isplitl [H1]; · iapply (barPay_targets c 1); iexact H1
  iapply (barPay_targets c 2); iexact H2

/-! ## The entry handshake -/

/-- The entry signal to the neighbour in direction `d`. -/
theorem op_signal (d : Fin 3) {n : Dev nD} (hn : n = xr c (dir d)) {a : ℕ} (ha : a = 1)
    (R : CellTallies nD τ sig Unit) (W : Waits sig Unit)
    {α : Type} {Q : α → sProp 𝕄} {k : PUnit → Prog (TpuEff nD τ sig (Elt F) Λ₀ .tc) α} :
    iprop(records (Rd m) K ∗ owes (c : Thread nD τ) (R + owedBar c d) W ∗ dutyTok ER (barCell (xr c (dir d))) 0 d
        ∗ bigSep (towards d) (fun gs : Fin 3 × Fin 8 => dstAny (F := F) c gs.1 gs.2))
      ⊢ iprop((owes (c : Thread nD τ) R W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS a) k) Q) := by
  subst hn ha
  iintro ⟨#Hrec, HO, Htok, Hdst⟩ Hk
  iapply (Rounds.wp_signal 𝒱₀ ER (Rd m) (c : Thread nD τ) none (dst := (xr c (dir d) : Thread nD τ)) (κ := K (xr c (dir d), .inl ()))
      (d := d) (by rw [duties_bar]; exact Finset.mem_univ _) (amount_bar m (xr c (dir d)) d) () R rfl) $$ [HO Htok Hdst]
  · isplitr; · iapply (records_inv (Rd m) K (xr c (dir d), .inl ())); iexact Hrec
    isplitl [HO]; · iexact HO
    isplitl [Htok]; · iexact Htok
    isplitl [Hdst]
    · rw [payload_bar]; unfold barPay; rw [xr_xr, bigSep_sep']
      isplitl [Hdst]; · iexact Hdst
      iapply (bigSep_intro_persistent (R := records (Rd m) K) (S := towards d)
        (Φ := fun gs : Fin 3 × Fin 8 => reached ER (recvCell c gs.1 gs.2) 0)
        fun gs _ => records_reached (Rd m) K (c, .inr (1, gs.1, gs.2)))
      iexact Hrec
    · iapply (records_reached (Rd m) K (xr c (dir d), .inl ())); iexact Hrec
  iexact Hk

/-- The wait for the three units of the own barrier. -/
theorem op_barwait {a : ℕ} (ha : a = 3) (O : CellTallies nD τ sig Unit) (hO : Above 1 O) (W : Waits sig Unit)
    {α : Type} {Q : α → sProp 𝕄} {k : PUnit → Prog (TpuEff nD τ sig (Elt F) Λ₀ .tc) α} :
    iprop(records (Rd m) K ∗ levAts L lv ∗ cred (tallyAt (barCell c) () 3)
        ∗ atPos ER (barCell c) 0 ∅ 0 ∗ owes (c : Thread nD τ) O W)
      ⊢ iprop(((owes (c : Thread nD τ) O (insert (SemLoc.reg barS, ()) W) ∗ atPos ER (barCell c) 1 ∅ 0
              ∗ bigSep Finset.univ (fun gs : Fin 3 × Fin 8 => dstAny (F := F) (partner c gs.1 gs.2) gs.1 gs.2))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  iintro ⟨#Hrec, #Hlev, Hc, Hat, HO⟩ Hk
  iapply (Rounds.wp_wait_rest_token 𝒱₀ ER (Rd m) (c : Thread nD τ) none (κ := K (c, .inl ()))
      (wpE_semWait_eq 𝒱₀ (c : Thread nD τ) none Set.univ) (Set.mem_univ _) () (O := O) (W := W) (R := 0) (m := 0) (T := ∅)
      (by rw [expect_bar])) $$ [Hc HO Hat]
  · isplitr; · iapply (records_inv (Rd m) K (c, .inl ())); iexact Hrec
    isplitl [Hc]; · iexact Hc
    isplitl [HO]; · iexact HO
    isplitr; · iapply (mayWait_of_above c (.reg barS) O (by rw [lv_bar]; exact hO)); iexact Hlev
    iexact Hat
  iintro ⟨HO, Hat, -, Hpay⟩
  ihave Hp := (Entails.of_eq (rest_bar m c)) $$ Hpay
  iapply Hk
  isplitl [HO]; · iexact HO
  isplitl [Hat]; · iexact Hat
  iapply (barPay_all c); iexact Hp

/-! ## A transfer of one exchange step -/

/-- The transfer of step `st` of group `g`, through whatever views the source share and the target are held: the two
    duties' payloads are made from the source share and from the target rewritten. -/
theorem op_send_raw (g : Fin 3) (st : Fin 8) {s : Shape} {src dst : Memref sig .tc .vmem s .bf16}
    (fs : Buf (Elt F) (src.view.loc (c : Thread nD τ))) (fd : Buf (Elt F) (dst.view.loc (partner c g st : Thread nD τ)))
    (hN : dst.view.dmaCredit = xferAmt g st)
    (hpay₁ : (src.view.loc (c : Thread nD τ) ↦[src.view.set]{qs st} fs : sProp 𝕄) ⊢ sendPay m c g st)
    (hpay₂ : (dst.view.loc (partner c g st : Thread nD τ) ↦[dst.view.set]{fullShare}
        (dst.view.write (Elt F) fd (src.view.read (Elt F) fs) Finset.univ) : sProp 𝕄) ⊢ recvPay m (partner c g st) g st)
    (R : CellTallies nD τ sig Unit) (W : Waits sig Unit)
    {hsc : (dst : Memref sig (Dev.tc (partner c g st) : Thread nD τ).2.kind .vmem s .bf16).view.ref.isScScratch = false}
    {hsrc : src.view.WordExact} {hdst : dst.view.WordExact}
    {hsem : DmaTarget.Typed .vmem (.dma (recvS g st)) (.remote (Dev.tc (partner c g st) : Thread nD τ) dst (.dma (sendS g st)) hsc)}
    {α : Type} {Q : α → sProp 𝕄} {k : PUnit → Prog (TpuEff nD τ sig (Elt F) Λ₀ .tc) α} :
    iprop(records (Rd m) K ∗ (src.view.loc (c : Thread nD τ) ↦[src.view.set]{qs st} fs)
        ∗ (dst.view.loc (partner c g st : Thread nD τ) ↦[dst.view.set]{fullShare} fd)
        ∗ owes (c : Thread nD τ) (R + owedStep c g st) W
        ∗ dutyTok ER (sendCell c g st) 0 0 ∗ dutyTok ER (recvCell (partner c g st) g st) 0 0)
      ⊢ iprop(((cred (tallyAt (sendCell c g st) () (xferAmt g st)) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc (partner c g st) : Thread nD τ) dst (.dma (sendS g st)) hsc) (.dma (recvS g st)) hsrc hdst hsem) k) Q) := by
  iintro ⟨#Hrec, Hs, Hd, HO, Ht1, Ht2⟩ Hk
  iapply (Rounds.wp_send_pointsTo 𝒱₀ ER (Rd m) (c : Thread nD τ) none (c' := (partner c g st : Thread nD τ)) (src := src) (dst := dst)
      (q := qs st) (fs := fs) (fd := fd)
      (κ₁ := K (c, .inr (0, g, st))) (κ₂ := K (partner c g st, .inr (1, g, st)))
      (r₁ := 0) (r₂ := 0) (d₁ := 0) (d₂ := 0)
      (by rw [duties_send]; exact Finset.mem_singleton_self _) (by rw [duties_recv]; exact Finset.mem_singleton_self _)
      () () (xferAmt g st) (show dst.view.amount (.dma (recvS g st)) = xferAmt g st from hN) (amount_send m c g st 0) (amount_recv m (partner c g st) g st 0) R rfl (W := W)
      (by rw [payload_send]; exact hpay₁) (by rw [payload_recv]; exact hpay₂)) $$ [Hs Hd HO Ht1 Ht2]
  · isplitr; · iapply (records_inv (Rd m) K (c, .inr (0, g, st))); iexact Hrec
    isplitr; · iapply (records_inv (Rd m) K (partner c g st, .inr (1, g, st))); iexact Hrec
    isplitl [Hs]; · iexact Hs
    isplitl [Hd]; · iexact Hd
    isplitl [HO]; · iexact HO
    isplitl [Ht1]; · iexact Ht1
    isplitr; · iapply (records_reached (Rd m) K (c, .inr (0, g, st))); iexact Hrec
    isplitl [Ht2]; · iexact Ht2
    iapply (records_reached (Rd m) K (partner c g st, .inr (1, g, st))); iexact Hrec
  iexact Hk

/-! ### Row group 0: a whole slot, the rows below 176 of slot 3, the rows from 176 on -/

theorem op_send_g0 (st : Fin 8) (hst : st.val ≤ 5) {n : Dev nD} (hn : n = partner c 0 st)
    {sS sR : DmaSem sig} (hsS : sS = sendS 0 st) (hsR : sR = recvS 0 st)
    (R : CellTallies nD τ sig Unit) (W : Waits sig Unit)
    {hsc : ((gs0 (dstSlot st)) : Memref sig (Dev.tc n : Thread nD τ).2.kind .vmem S1x352x512 .bf16).view.ref.isScScratch = false}
    {hsrc : (gs0 (srcSlot st)).view.WordExact} {hdst : (gs0 (dstSlot st)).view.WordExact}
    {hsem : DmaTarget.Typed .vmem (.dma sR) (.remote (Dev.tc n : Thread nD τ) (gs0 (dstSlot st)) (.dma sS) hsc)}
    {α : Type} {Q : α → sProp 𝕄} {k : PUnit → Prog (TpuEff nD τ sig (Elt F) Λ₀ .tc) α} :
    iprop(records (Rd m) K ∗ holdsPts c (gs0 (srcSlot st)) (qs st) (sv0 m (xr c (mask 0 (srcSlot st)))) ∗ dstAny (F := F) (partner c 0 st) 0 st
        ∗ owes (c : Thread nD τ) (R + owedStep c 0 st) W
        ∗ dutyTok ER (sendCell c 0 st) 0 0 ∗ dutyTok ER (recvCell (partner c 0 st) 0 st) 0 0)
      ⊢ iprop(((cred (tallyAt (sendCell c 0 st) () (xferAmt 0 st)) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gs0 (srcSlot st)) (.remote (Dev.tc n : Thread nD τ) (gs0 (dstSlot st)) (.dma sS) hsc) (.dma sR) hsrc hdst hsem) k) Q) := by
  subst hn hsS hsR
  have h6 : st ≠ 6 := by rintro rfl; exact absurd hst (by decide)
  have h7 : st ≠ 7 := by rintro rfl; exact absurd hst (by decide)
  have eA : dstAny (F := F) (partner c 0 st) 0 st = anyPts (partner c 0 st) (gs0 (dstSlot st)) := by
    unfold dstAny; simp only [if_neg h6, if_neg h7]
  have eS : sendPay m c 0 st = holdsPts c (gs0 (srcSlot st)) (qs st) (sv0 m (xr c (mask 0 (srcSlot st)))) := by
    unfold sendPay; simp only [if_neg h6, if_neg h7]
  have eR : recvPay m (partner c 0 st) 0 st
      = holdsPts (partner c 0 st) (gs0 (dstSlot st)) fullShare (sv0 m (xr c (mask 0 (srcSlot st)))) := by
    unfold recvPay; simp only [if_neg h6, if_neg h7, origin_step]
  have hN : (gs0 (dstSlot st)).view.dmaCredit = xferAmt 0 st := by
    (unfold xferAmt; simp only [if_neg h6, if_neg h7]) <;> rfl
  rw [eA]; simp only [holdsPts_eq, anyPts_eq]
  iintro ⟨#Hrec, ⟨%fs, Hs, %hv⟩, ⟨%fd, Hd⟩, HO, Ht1, Ht2⟩ Hk
  iapply (op_send_raw m K c 0 st (src := gs0 (srcSlot st)) (dst := gs0 (dstSlot st)) fs fd hN
      (by rw [eS]; simp only [holdsPts_eq]; iintro H; iexists fs; isplitl [H]; · iexact H
          ipureintro; exact hv)
      (by rw [eR]; simp only [holdsPts_eq]; iintro H; iexists _; isplitl [H]; · iexact H
          ipureintro; rw [View.read_write_univ]; exact hv) R W) $$ [Hs Hd HO Ht1 Ht2]
  · isplitr; · iexact Hrec
    isplitl [Hs]; · iexact Hs
    isplitl [Hd]; · iexact Hd
    isplitl [HO]; · iexact HO
    isplitl [Ht1] <;> iassumption
  iexact Hk

theorem op_send_g0a {n : Dev nD} (hn : n = partner c 0 6)
    {sS sR : DmaSem sig} (hsS : sS = sendS 0 6) (hsR : sR = recvS 0 6)
    (R : CellTallies nD τ sig Unit) (W : Waits sig Unit)
    {hsc : (((ga0 7).squeeze S176x512 squeezes_S1x176x512_S176x512) : Memref sig (Dev.tc n : Thread nD τ).2.kind .vmem S176x512 .bf16).view.ref.isScScratch = false}
    {hsrc : ((ga0 3).squeeze S176x512 squeezes_S1x176x512_S176x512).view.WordExact} {hdst : ((ga0 7).squeeze S176x512 squeezes_S1x176x512_S176x512).view.WordExact}
    {hsem : DmaTarget.Typed .vmem (.dma sR) (.remote (Dev.tc n : Thread nD τ) ((ga0 7).squeeze S176x512 squeezes_S1x176x512_S176x512) (.dma sS) hsc)}
    {α : Type} {Q : α → sProp 𝕄} {k : PUnit → Prog (TpuEff nD τ sig (Elt F) Λ₀ .tc) α} :
    iprop(records (Rd m) K ∗ holdsPts c (ga0 3) (qs 6) (topA (sv0 m (xr c (mask 0 3)))) ∗ dstAny (F := F) (partner c 0 6) 0 6
        ∗ owes (c : Thread nD τ) (R + owedStep c 0 6) W
        ∗ dutyTok ER (sendCell c 0 6) 0 0 ∗ dutyTok ER (recvCell (partner c 0 6) 0 6) 0 0)
      ⊢ iprop(((cred (tallyAt (sendCell c 0 6) () (xferAmt 0 6)) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((ga0 3).squeeze S176x512 squeezes_S1x176x512_S176x512) (.remote (Dev.tc n : Thread nD τ) ((ga0 7).squeeze S176x512 squeezes_S1x176x512_S176x512) (.dma sS) hsc) (.dma sR) hsrc hdst hsem) k) Q) := by
  subst hn hsS hsR
  have hN : ((ga0 7).squeeze S176x512 squeezes_S1x176x512_S176x512).view.dmaCredit = xferAmt 0 6 := rfl
  have eS : sendPay m c 0 6 = holdsPts c (ga0 3) (qs 6) (topA (sv0 m (xr c (mask 0 3)))) := rfl
  have eR : recvPay m (partner c 0 6) 0 6
      = holdsPts (partner c 0 6) (ga0 7) fullShare (topA (sv0 m (xr c (mask 0 3)))) := by
    have h : xr (partner c 0 6) (mask 0 7) = xr c (mask 0 3) := origin_step c 0 6
    rw [← h]; rfl
  have es : ((ga0 3).squeeze S176x512 squeezes_S1x176x512_S176x512).view.set = (ga0 3).view.set := View.set_reshape _ _
  have ed : ((ga0 7).squeeze S176x512 squeezes_S1x176x512_S176x512).view.set = (ga0 7).view.set := View.set_reshape _ _
  have eA : dstAny (F := F) (partner c 0 6) 0 6 = anyPts (partner c 0 6) (ga0 7) := rfl
  rw [eA]; simp only [holdsPts_eq, anyPts_eq]
  iintro ⟨#Hrec, ⟨%fs, Hs, %hv⟩, ⟨%fd, Hd⟩, HO, Ht1, Ht2⟩ Hk
  iapply (op_send_raw m K c 0 6 (src := (ga0 3).squeeze S176x512 squeezes_S1x176x512_S176x512) (dst := (ga0 7).squeeze S176x512 squeezes_S1x176x512_S176x512) fs fd hN
      (by rw [eS, es]; simp only [holdsPts_eq]; iintro H; iexists fs; isplitl [H]; · iexact H
          ipureintro; exact hv)
      (by rw [eR, ed]; simp only [holdsPts_eq]; iintro H; iexists _; isplitl [H]; · iexact H
          ipureintro; exact (read_write_reshape (ga0 3).view (ga0 7).view _ fd fs).trans hv) R W) $$ [Hs Hd HO Ht1 Ht2]
  · isplitr; · iexact Hrec
    isplitl [Hs]; · rw [es]; iexact Hs
    isplitl [Hd]; · rw [ed]; iexact Hd
    isplitl [HO]; · iexact HO
    isplitl [Ht1] <;> iassumption
  iexact Hk

theorem op_send_g0b {n : Dev nD} (hn : n = partner c 0 7)
    {sS sR : DmaSem sig} (hsS : sS = sendS 0 7) (hsR : sR = recvS 0 7)
    (R : CellTallies nD τ sig Unit) (W : Waits sig Unit)
    {hsc : (((gb0 7).squeeze S176x512 squeezes_S1x176x512_S176x512) : Memref sig (Dev.tc n : Thread nD τ).2.kind .vmem S176x512 .bf16).view.ref.isScScratch = false}
    {hsrc : ((gb0 3).squeeze S176x512 squeezes_S1x176x512_S176x512).view.WordExact} {hdst : ((gb0 7).squeeze S176x512 squeezes_S1x176x512_S176x512).view.WordExact}
    {hsem : DmaTarget.Typed .vmem (.dma sR) (.remote (Dev.tc n : Thread nD τ) ((gb0 7).squeeze S176x512 squeezes_S1x176x512_S176x512) (.dma sS) hsc)}
    {α : Type} {Q : α → sProp 𝕄} {k : PUnit → Prog (TpuEff nD τ sig (Elt F) Λ₀ .tc) α} :
    iprop(records (Rd m) K ∗ holdsPts c (gb0 3) (qs 7) (botA (sv0 m (xr c (mask 0 3)))) ∗ dstAny (F := F) (partner c 0 7) 0 7
        ∗ owes (c : Thread nD τ) (R + owedStep c 0 7) W
        ∗ dutyTok ER (sendCell c 0 7) 0 0 ∗ dutyTok ER (recvCell (partner c 0 7) 0 7) 0 0)
      ⊢ iprop(((cred (tallyAt (sendCell c 0 7) () (xferAmt 0 7)) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((gb0 3).squeeze S176x512 squeezes_S1x176x512_S176x512) (.remote (Dev.tc n : Thread nD τ) ((gb0 7).squeeze S176x512 squeezes_S1x176x512_S176x512) (.dma sS) hsc) (.dma sR) hsrc hdst hsem) k) Q) := by
  subst hn hsS hsR
  have hN : ((gb0 7).squeeze S176x512 squeezes_S1x176x512_S176x512).view.dmaCredit = xferAmt 0 7 := rfl
  have eS : sendPay m c 0 7 = holdsPts c (gb0 3) (qs 7) (botA (sv0 m (xr c (mask 0 3)))) := rfl
  have eR : recvPay m (partner c 0 7) 0 7
      = holdsPts (partner c 0 7) (gb0 7) fullShare (botA (sv0 m (xr c (mask 0 3)))) := by
    have h : xr (partner c 0 7) (mask 0 7) = xr c (mask 0 3) := origin_step c 0 7
    rw [← h]; rfl
  have es : ((gb0 3).squeeze S176x512 squeezes_S1x176x512_S176x512).view.set = (gb0 3).view.set := View.set_reshape _ _
  have ed : ((gb0 7).squeeze S176x512 squeezes_S1x176x512_S176x512).view.set = (gb0 7).view.set := View.set_reshape _ _
  have eA : dstAny (F := F) (partner c 0 7) 0 7 = anyPts (partner c 0 7) (gb0 7) := rfl
  rw [eA]; simp only [holdsPts_eq, anyPts_eq]
  iintro ⟨#Hrec, ⟨%fs, Hs, %hv⟩, ⟨%fd, Hd⟩, HO, Ht1, Ht2⟩ Hk
  iapply (op_send_raw m K c 0 7 (src := (gb0 3).squeeze S176x512 squeezes_S1x176x512_S176x512) (dst := (gb0 7).squeeze S176x512 squeezes_S1x176x512_S176x512) fs fd hN
      (by rw [eS, es]; simp only [holdsPts_eq]; iintro H; iexists fs; isplitl [H]; · iexact H
          ipureintro; exact hv)
      (by rw [eR, ed]; simp only [holdsPts_eq]; iintro H; iexists _; isplitl [H]; · iexact H
          ipureintro; exact (read_write_reshape (gb0 3).view (gb0 7).view _ fd fs).trans hv) R W) $$ [Hs Hd HO Ht1 Ht2]
  · isplitr; · iexact Hrec
    isplitl [Hs]; · rw [es]; iexact Hs
    isplitl [Hd]; · rw [ed]; iexact Hd
    isplitl [HO]; · iexact HO
    isplitl [Ht1] <;> iassumption
  iexact Hk

/-! ### Row group 1: a whole slot, the rows below 176 of slot 3, the rows from 176 on -/

theorem op_send_g1 (st : Fin 8) (hst : st.val ≤ 5) {n : Dev nD} (hn : n = partner c 1 st)
    {sS sR : DmaSem sig} (hsS : sS = sendS 1 st) (hsR : sR = recvS 1 st)
    (R : CellTallies nD τ sig Unit) (W : Waits sig Unit)
    {hsc : ((gs1 (dstSlot st)) : Memref sig (Dev.tc n : Thread nD τ).2.kind .vmem S1x336x512 .bf16).view.ref.isScScratch = false}
    {hsrc : (gs1 (srcSlot st)).view.WordExact} {hdst : (gs1 (dstSlot st)).view.WordExact}
    {hsem : DmaTarget.Typed .vmem (.dma sR) (.remote (Dev.tc n : Thread nD τ) (gs1 (dstSlot st)) (.dma sS) hsc)}
    {α : Type} {Q : α → sProp 𝕄} {k : PUnit → Prog (TpuEff nD τ sig (Elt F) Λ₀ .tc) α} :
    iprop(records (Rd m) K ∗ holdsPts c (gs1 (srcSlot st)) (qs st) (sv1 m (xr c (mask 1 (srcSlot st)))) ∗ dstAny (F := F) (partner c 1 st) 1 st
        ∗ owes (c : Thread nD τ) (R + owedStep c 1 st) W
        ∗ dutyTok ER (sendCell c 1 st) 0 0 ∗ dutyTok ER (recvCell (partner c 1 st) 1 st) 0 0)
      ⊢ iprop(((cred (tallyAt (sendCell c 1 st) () (xferAmt 1 st)) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gs1 (srcSlot st)) (.remote (Dev.tc n : Thread nD τ) (gs1 (dstSlot st)) (.dma sS) hsc) (.dma sR) hsrc hdst hsem) k) Q) := by
  subst hn hsS hsR
  have h6 : st ≠ 6 := by rintro rfl; exact absurd hst (by decide)
  have h7 : st ≠ 7 := by rintro rfl; exact absurd hst (by decide)
  have eA : dstAny (F := F) (partner c 1 st) 1 st = anyPts (partner c 1 st) (gs1 (dstSlot st)) := by
    unfold dstAny; simp only [if_neg h6, if_neg h7]
  have eS : sendPay m c 1 st = holdsPts c (gs1 (srcSlot st)) (qs st) (sv1 m (xr c (mask 1 (srcSlot st)))) := by
    unfold sendPay; simp only [if_neg h6, if_neg h7]
  have eR : recvPay m (partner c 1 st) 1 st
      = holdsPts (partner c 1 st) (gs1 (dstSlot st)) fullShare (sv1 m (xr c (mask 1 (srcSlot st)))) := by
    unfold recvPay; simp only [if_neg h6, if_neg h7, origin_step]
  have hN : (gs1 (dstSlot st)).view.dmaCredit = xferAmt 1 st := by
    (unfold xferAmt; simp only [if_neg h6, if_neg h7]) <;> rfl
  rw [eA]; simp only [holdsPts_eq, anyPts_eq]
  iintro ⟨#Hrec, ⟨%fs, Hs, %hv⟩, ⟨%fd, Hd⟩, HO, Ht1, Ht2⟩ Hk
  iapply (op_send_raw m K c 1 st (src := gs1 (srcSlot st)) (dst := gs1 (dstSlot st)) fs fd hN
      (by rw [eS]; simp only [holdsPts_eq]; iintro H; iexists fs; isplitl [H]; · iexact H
          ipureintro; exact hv)
      (by rw [eR]; simp only [holdsPts_eq]; iintro H; iexists _; isplitl [H]; · iexact H
          ipureintro; rw [View.read_write_univ]; exact hv) R W) $$ [Hs Hd HO Ht1 Ht2]
  · isplitr; · iexact Hrec
    isplitl [Hs]; · iexact Hs
    isplitl [Hd]; · iexact Hd
    isplitl [HO]; · iexact HO
    isplitl [Ht1] <;> iassumption
  iexact Hk

theorem op_send_g1a {n : Dev nD} (hn : n = partner c 1 6)
    {sS sR : DmaSem sig} (hsS : sS = sendS 1 6) (hsR : sR = recvS 1 6)
    (R : CellTallies nD τ sig Unit) (W : Waits sig Unit)
    {hsc : (((ga1 7).squeeze S176x512 squeezes_S1x176x512_S176x512) : Memref sig (Dev.tc n : Thread nD τ).2.kind .vmem S176x512 .bf16).view.ref.isScScratch = false}
    {hsrc : ((ga1 3).squeeze S176x512 squeezes_S1x176x512_S176x512).view.WordExact} {hdst : ((ga1 7).squeeze S176x512 squeezes_S1x176x512_S176x512).view.WordExact}
    {hsem : DmaTarget.Typed .vmem (.dma sR) (.remote (Dev.tc n : Thread nD τ) ((ga1 7).squeeze S176x512 squeezes_S1x176x512_S176x512) (.dma sS) hsc)}
    {α : Type} {Q : α → sProp 𝕄} {k : PUnit → Prog (TpuEff nD τ sig (Elt F) Λ₀ .tc) α} :
    iprop(records (Rd m) K ∗ holdsPts c (ga1 3) (qs 6) (topB (sv1 m (xr c (mask 1 3)))) ∗ dstAny (F := F) (partner c 1 6) 1 6
        ∗ owes (c : Thread nD τ) (R + owedStep c 1 6) W
        ∗ dutyTok ER (sendCell c 1 6) 0 0 ∗ dutyTok ER (recvCell (partner c 1 6) 1 6) 0 0)
      ⊢ iprop(((cred (tallyAt (sendCell c 1 6) () (xferAmt 1 6)) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((ga1 3).squeeze S176x512 squeezes_S1x176x512_S176x512) (.remote (Dev.tc n : Thread nD τ) ((ga1 7).squeeze S176x512 squeezes_S1x176x512_S176x512) (.dma sS) hsc) (.dma sR) hsrc hdst hsem) k) Q) := by
  subst hn hsS hsR
  have hN : ((ga1 7).squeeze S176x512 squeezes_S1x176x512_S176x512).view.dmaCredit = xferAmt 1 6 := rfl
  have eS : sendPay m c 1 6 = holdsPts c (ga1 3) (qs 6) (topB (sv1 m (xr c (mask 1 3)))) := rfl
  have eR : recvPay m (partner c 1 6) 1 6
      = holdsPts (partner c 1 6) (ga1 7) fullShare (topB (sv1 m (xr c (mask 1 3)))) := by
    have h : xr (partner c 1 6) (mask 1 7) = xr c (mask 1 3) := origin_step c 1 6
    rw [← h]; rfl
  have es : ((ga1 3).squeeze S176x512 squeezes_S1x176x512_S176x512).view.set = (ga1 3).view.set := View.set_reshape _ _
  have ed : ((ga1 7).squeeze S176x512 squeezes_S1x176x512_S176x512).view.set = (ga1 7).view.set := View.set_reshape _ _
  have eA : dstAny (F := F) (partner c 1 6) 1 6 = anyPts (partner c 1 6) (ga1 7) := rfl
  rw [eA]; simp only [holdsPts_eq, anyPts_eq]
  iintro ⟨#Hrec, ⟨%fs, Hs, %hv⟩, ⟨%fd, Hd⟩, HO, Ht1, Ht2⟩ Hk
  iapply (op_send_raw m K c 1 6 (src := (ga1 3).squeeze S176x512 squeezes_S1x176x512_S176x512) (dst := (ga1 7).squeeze S176x512 squeezes_S1x176x512_S176x512) fs fd hN
      (by rw [eS, es]; simp only [holdsPts_eq]; iintro H; iexists fs; isplitl [H]; · iexact H
          ipureintro; exact hv)
      (by rw [eR, ed]; simp only [holdsPts_eq]; iintro H; iexists _; isplitl [H]; · iexact H
          ipureintro; exact (read_write_reshape (ga1 3).view (ga1 7).view _ fd fs).trans hv) R W) $$ [Hs Hd HO Ht1 Ht2]
  · isplitr; · iexact Hrec
    isplitl [Hs]; · rw [es]; iexact Hs
    isplitl [Hd]; · rw [ed]; iexact Hd
    isplitl [HO]; · iexact HO
    isplitl [Ht1] <;> iassumption
  iexact Hk

theorem op_send_g1b {n : Dev nD} (hn : n = partner c 1 7)
    {sS sR : DmaSem sig} (hsS : sS = sendS 1 7) (hsR : sR = recvS 1 7)
    (R : CellTallies nD τ sig Unit) (W : Waits sig Unit)
    {hsc : (((gb1 7).squeeze S160x512 squeezes_S1x160x512_S160x512) : Memref sig (Dev.tc n : Thread nD τ).2.kind .vmem S160x512 .bf16).view.ref.isScScratch = false}
    {hsrc : ((gb1 3).squeeze S160x512 squeezes_S1x160x512_S160x512).view.WordExact} {hdst : ((gb1 7).squeeze S160x512 squeezes_S1x160x512_S160x512).view.WordExact}
    {hsem : DmaTarget.Typed .vmem (.dma sR) (.remote (Dev.tc n : Thread nD τ) ((gb1 7).squeeze S160x512 squeezes_S1x160x512_S160x512) (.dma sS) hsc)}
    {α : Type} {Q : α → sProp 𝕄} {k : PUnit → Prog (TpuEff nD τ sig (Elt F) Λ₀ .tc) α} :
    iprop(records (Rd m) K ∗ holdsPts c (gb1 3) (qs 7) (botB (sv1 m (xr c (mask 1 3)))) ∗ dstAny (F := F) (partner c 1 7) 1 7
        ∗ owes (c : Thread nD τ) (R + owedStep c 1 7) W
        ∗ dutyTok ER (sendCell c 1 7) 0 0 ∗ dutyTok ER (recvCell (partner c 1 7) 1 7) 0 0)
      ⊢ iprop(((cred (tallyAt (sendCell c 1 7) () (xferAmt 1 7)) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((gb1 3).squeeze S160x512 squeezes_S1x160x512_S160x512) (.remote (Dev.tc n : Thread nD τ) ((gb1 7).squeeze S160x512 squeezes_S1x160x512_S160x512) (.dma sS) hsc) (.dma sR) hsrc hdst hsem) k) Q) := by
  subst hn hsS hsR
  have hN : ((gb1 7).squeeze S160x512 squeezes_S1x160x512_S160x512).view.dmaCredit = xferAmt 1 7 := rfl
  have eS : sendPay m c 1 7 = holdsPts c (gb1 3) (qs 7) (botB (sv1 m (xr c (mask 1 3)))) := rfl
  have eR : recvPay m (partner c 1 7) 1 7
      = holdsPts (partner c 1 7) (gb1 7) fullShare (botB (sv1 m (xr c (mask 1 3)))) := by
    have h : xr (partner c 1 7) (mask 1 7) = xr c (mask 1 3) := origin_step c 1 7
    rw [← h]; rfl
  have es : ((gb1 3).squeeze S160x512 squeezes_S1x160x512_S160x512).view.set = (gb1 3).view.set := View.set_reshape _ _
  have ed : ((gb1 7).squeeze S160x512 squeezes_S1x160x512_S160x512).view.set = (gb1 7).view.set := View.set_reshape _ _
  have eA : dstAny (F := F) (partner c 1 7) 1 7 = anyPts (partner c 1 7) (gb1 7) := rfl
  rw [eA]; simp only [holdsPts_eq, anyPts_eq]
  iintro ⟨#Hrec, ⟨%fs, Hs, %hv⟩, ⟨%fd, Hd⟩, HO, Ht1, Ht2⟩ Hk
  iapply (op_send_raw m K c 1 7 (src := (gb1 3).squeeze S160x512 squeezes_S1x160x512_S160x512) (dst := (gb1 7).squeeze S160x512 squeezes_S1x160x512_S160x512) fs fd hN
      (by rw [eS, es]; simp only [holdsPts_eq]; iintro H; iexists fs; isplitl [H]; · iexact H
          ipureintro; exact hv)
      (by rw [eR, ed]; simp only [holdsPts_eq]; iintro H; iexists _; isplitl [H]; · iexact H
          ipureintro; exact (read_write_reshape (gb1 3).view (gb1 7).view _ fd fs).trans hv) R W) $$ [Hs Hd HO Ht1 Ht2]
  · isplitr; · iexact Hrec
    isplitl [Hs]; · rw [es]; iexact Hs
    isplitl [Hd]; · rw [ed]; iexact Hd
    isplitl [HO]; · iexact HO
    isplitl [Ht1] <;> iassumption
  iexact Hk

/-! ### Row group 2: a whole slot, the rows below 176 of slot 3, the rows from 176 on -/

theorem op_send_g2 (st : Fin 8) (hst : st.val ≤ 5) {n : Dev nD} (hn : n = partner c 2 st)
    {sS sR : DmaSem sig} (hsS : sS = sendS 2 st) (hsR : sR = recvS 2 st)
    (R : CellTallies nD τ sig Unit) (W : Waits sig Unit)
    {hsc : ((gs2 (dstSlot st)) : Memref sig (Dev.tc n : Thread nD τ).2.kind .vmem S1x336x512 .bf16).view.ref.isScScratch = false}
    {hsrc : (gs2 (srcSlot st)).view.WordExact} {hdst : (gs2 (dstSlot st)).view.WordExact}
    {hsem : DmaTarget.Typed .vmem (.dma sR) (.remote (Dev.tc n : Thread nD τ) (gs2 (dstSlot st)) (.dma sS) hsc)}
    {α : Type} {Q : α → sProp 𝕄} {k : PUnit → Prog (TpuEff nD τ sig (Elt F) Λ₀ .tc) α} :
    iprop(records (Rd m) K ∗ holdsPts c (gs2 (srcSlot st)) (qs st) (sv2 m (xr c (mask 2 (srcSlot st)))) ∗ dstAny (F := F) (partner c 2 st) 2 st
        ∗ owes (c : Thread nD τ) (R + owedStep c 2 st) W
        ∗ dutyTok ER (sendCell c 2 st) 0 0 ∗ dutyTok ER (recvCell (partner c 2 st) 2 st) 0 0)
      ⊢ iprop(((cred (tallyAt (sendCell c 2 st) () (xferAmt 2 st)) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gs2 (srcSlot st)) (.remote (Dev.tc n : Thread nD τ) (gs2 (dstSlot st)) (.dma sS) hsc) (.dma sR) hsrc hdst hsem) k) Q) := by
  subst hn hsS hsR
  have h6 : st ≠ 6 := by rintro rfl; exact absurd hst (by decide)
  have h7 : st ≠ 7 := by rintro rfl; exact absurd hst (by decide)
  have eA : dstAny (F := F) (partner c 2 st) 2 st = anyPts (partner c 2 st) (gs2 (dstSlot st)) := by
    unfold dstAny; simp only [if_neg h6, if_neg h7]
  have eS : sendPay m c 2 st = holdsPts c (gs2 (srcSlot st)) (qs st) (sv2 m (xr c (mask 2 (srcSlot st)))) := by
    unfold sendPay; simp only [if_neg h6, if_neg h7]
  have eR : recvPay m (partner c 2 st) 2 st
      = holdsPts (partner c 2 st) (gs2 (dstSlot st)) fullShare (sv2 m (xr c (mask 2 (srcSlot st)))) := by
    unfold recvPay; simp only [if_neg h6, if_neg h7, origin_step]
  have hN : (gs2 (dstSlot st)).view.dmaCredit = xferAmt 2 st := by
    (unfold xferAmt; simp only [if_neg h6, if_neg h7]) <;> rfl
  rw [eA]; simp only [holdsPts_eq, anyPts_eq]
  iintro ⟨#Hrec, ⟨%fs, Hs, %hv⟩, ⟨%fd, Hd⟩, HO, Ht1, Ht2⟩ Hk
  iapply (op_send_raw m K c 2 st (src := gs2 (srcSlot st)) (dst := gs2 (dstSlot st)) fs fd hN
      (by rw [eS]; simp only [holdsPts_eq]; iintro H; iexists fs; isplitl [H]; · iexact H
          ipureintro; exact hv)
      (by rw [eR]; simp only [holdsPts_eq]; iintro H; iexists _; isplitl [H]; · iexact H
          ipureintro; rw [View.read_write_univ]; exact hv) R W) $$ [Hs Hd HO Ht1 Ht2]
  · isplitr; · iexact Hrec
    isplitl [Hs]; · iexact Hs
    isplitl [Hd]; · iexact Hd
    isplitl [HO]; · iexact HO
    isplitl [Ht1] <;> iassumption
  iexact Hk

theorem op_send_g2a {n : Dev nD} (hn : n = partner c 2 6)
    {sS sR : DmaSem sig} (hsS : sS = sendS 2 6) (hsR : sR = recvS 2 6)
    (R : CellTallies nD τ sig Unit) (W : Waits sig Unit)
    {hsc : (((ga2 7).squeeze S176x512 squeezes_S1x176x512_S176x512) : Memref sig (Dev.tc n : Thread nD τ).2.kind .vmem S176x512 .bf16).view.ref.isScScratch = false}
    {hsrc : ((ga2 3).squeeze S176x512 squeezes_S1x176x512_S176x512).view.WordExact} {hdst : ((ga2 7).squeeze S176x512 squeezes_S1x176x512_S176x512).view.WordExact}
    {hsem : DmaTarget.Typed .vmem (.dma sR) (.remote (Dev.tc n : Thread nD τ) ((ga2 7).squeeze S176x512 squeezes_S1x176x512_S176x512) (.dma sS) hsc)}
    {α : Type} {Q : α → sProp 𝕄} {k : PUnit → Prog (TpuEff nD τ sig (Elt F) Λ₀ .tc) α} :
    iprop(records (Rd m) K ∗ holdsPts c (ga2 3) (qs 6) (topB (sv2 m (xr c (mask 2 3)))) ∗ dstAny (F := F) (partner c 2 6) 2 6
        ∗ owes (c : Thread nD τ) (R + owedStep c 2 6) W
        ∗ dutyTok ER (sendCell c 2 6) 0 0 ∗ dutyTok ER (recvCell (partner c 2 6) 2 6) 0 0)
      ⊢ iprop(((cred (tallyAt (sendCell c 2 6) () (xferAmt 2 6)) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((ga2 3).squeeze S176x512 squeezes_S1x176x512_S176x512) (.remote (Dev.tc n : Thread nD τ) ((ga2 7).squeeze S176x512 squeezes_S1x176x512_S176x512) (.dma sS) hsc) (.dma sR) hsrc hdst hsem) k) Q) := by
  subst hn hsS hsR
  have hN : ((ga2 7).squeeze S176x512 squeezes_S1x176x512_S176x512).view.dmaCredit = xferAmt 2 6 := rfl
  have eS : sendPay m c 2 6 = holdsPts c (ga2 3) (qs 6) (topB (sv2 m (xr c (mask 2 3)))) := rfl
  have eR : recvPay m (partner c 2 6) 2 6
      = holdsPts (partner c 2 6) (ga2 7) fullShare (topB (sv2 m (xr c (mask 2 3)))) := by
    have h : xr (partner c 2 6) (mask 2 7) = xr c (mask 2 3) := origin_step c 2 6
    rw [← h]; rfl
  have es : ((ga2 3).squeeze S176x512 squeezes_S1x176x512_S176x512).view.set = (ga2 3).view.set := View.set_reshape _ _
  have ed : ((ga2 7).squeeze S176x512 squeezes_S1x176x512_S176x512).view.set = (ga2 7).view.set := View.set_reshape _ _
  have eA : dstAny (F := F) (partner c 2 6) 2 6 = anyPts (partner c 2 6) (ga2 7) := rfl
  rw [eA]; simp only [holdsPts_eq, anyPts_eq]
  iintro ⟨#Hrec, ⟨%fs, Hs, %hv⟩, ⟨%fd, Hd⟩, HO, Ht1, Ht2⟩ Hk
  iapply (op_send_raw m K c 2 6 (src := (ga2 3).squeeze S176x512 squeezes_S1x176x512_S176x512) (dst := (ga2 7).squeeze S176x512 squeezes_S1x176x512_S176x512) fs fd hN
      (by rw [eS, es]; simp only [holdsPts_eq]; iintro H; iexists fs; isplitl [H]; · iexact H
          ipureintro; exact hv)
      (by rw [eR, ed]; simp only [holdsPts_eq]; iintro H; iexists _; isplitl [H]; · iexact H
          ipureintro; exact (read_write_reshape (ga2 3).view (ga2 7).view _ fd fs).trans hv) R W) $$ [Hs Hd HO Ht1 Ht2]
  · isplitr; · iexact Hrec
    isplitl [Hs]; · rw [es]; iexact Hs
    isplitl [Hd]; · rw [ed]; iexact Hd
    isplitl [HO]; · iexact HO
    isplitl [Ht1] <;> iassumption
  iexact Hk

theorem op_send_g2b {n : Dev nD} (hn : n = partner c 2 7)
    {sS sR : DmaSem sig} (hsS : sS = sendS 2 7) (hsR : sR = recvS 2 7)
    (R : CellTallies nD τ sig Unit) (W : Waits sig Unit)
    {hsc : (((gb2 7).squeeze S160x512 squeezes_S1x160x512_S160x512) : Memref sig (Dev.tc n : Thread nD τ).2.kind .vmem S160x512 .bf16).view.ref.isScScratch = false}
    {hsrc : ((gb2 3).squeeze S160x512 squeezes_S1x160x512_S160x512).view.WordExact} {hdst : ((gb2 7).squeeze S160x512 squeezes_S1x160x512_S160x512).view.WordExact}
    {hsem : DmaTarget.Typed .vmem (.dma sR) (.remote (Dev.tc n : Thread nD τ) ((gb2 7).squeeze S160x512 squeezes_S1x160x512_S160x512) (.dma sS) hsc)}
    {α : Type} {Q : α → sProp 𝕄} {k : PUnit → Prog (TpuEff nD τ sig (Elt F) Λ₀ .tc) α} :
    iprop(records (Rd m) K ∗ holdsPts c (gb2 3) (qs 7) (botB (sv2 m (xr c (mask 2 3)))) ∗ dstAny (F := F) (partner c 2 7) 2 7
        ∗ owes (c : Thread nD τ) (R + owedStep c 2 7) W
        ∗ dutyTok ER (sendCell c 2 7) 0 0 ∗ dutyTok ER (recvCell (partner c 2 7) 2 7) 0 0)
      ⊢ iprop(((cred (tallyAt (sendCell c 2 7) () (xferAmt 2 7)) ∗ owes (c : Thread nD τ) R W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((gb2 3).squeeze S160x512 squeezes_S1x160x512_S160x512) (.remote (Dev.tc n : Thread nD τ) ((gb2 7).squeeze S160x512 squeezes_S1x160x512_S160x512) (.dma sS) hsc) (.dma sR) hsrc hdst hsem) k) Q) := by
  subst hn hsS hsR
  have hN : ((gb2 7).squeeze S160x512 squeezes_S1x160x512_S160x512).view.dmaCredit = xferAmt 2 7 := rfl
  have eS : sendPay m c 2 7 = holdsPts c (gb2 3) (qs 7) (botB (sv2 m (xr c (mask 2 3)))) := rfl
  have eR : recvPay m (partner c 2 7) 2 7
      = holdsPts (partner c 2 7) (gb2 7) fullShare (botB (sv2 m (xr c (mask 2 3)))) := by
    have h : xr (partner c 2 7) (mask 2 7) = xr c (mask 2 3) := origin_step c 2 7
    rw [← h]; rfl
  have es : ((gb2 3).squeeze S160x512 squeezes_S1x160x512_S160x512).view.set = (gb2 3).view.set := View.set_reshape _ _
  have ed : ((gb2 7).squeeze S160x512 squeezes_S1x160x512_S160x512).view.set = (gb2 7).view.set := View.set_reshape _ _
  have eA : dstAny (F := F) (partner c 2 7) 2 7 = anyPts (partner c 2 7) (gb2 7) := rfl
  rw [eA]; simp only [holdsPts_eq, anyPts_eq]
  iintro ⟨#Hrec, ⟨%fs, Hs, %hv⟩, ⟨%fd, Hd⟩, HO, Ht1, Ht2⟩ Hk
  iapply (op_send_raw m K c 2 7 (src := (gb2 3).squeeze S160x512 squeezes_S1x160x512_S160x512) (dst := (gb2 7).squeeze S160x512 squeezes_S1x160x512_S160x512) fs fd hN
      (by rw [eS, es]; simp only [holdsPts_eq]; iintro H; iexists fs; isplitl [H]; · iexact H
          ipureintro; exact hv)
      (by rw [eR, ed]; simp only [holdsPts_eq]; iintro H; iexists _; isplitl [H]; · iexact H
          ipureintro; exact (read_write_reshape (gb2 3).view (gb2 7).view _ fd fs).trans hv) R W) $$ [Hs Hd HO Ht1 Ht2]
  · isplitr; · iexact Hrec
    isplitl [Hs]; · rw [es]; iexact Hs
    isplitl [Hd]; · rw [ed]; iexact Hd
    isplitl [HO]; · iexact HO
    isplitl [Ht1] <;> iassumption
  iexact Hk

/-- info: 'Cert.Kernel.DM.op_signal' depends on axioms: [propext, Classical.choice, Quot.sound] -/
#guard_msgs in #print axioms op_signal

/-- info: 'Cert.Kernel.DM.op_barwait' depends on axioms: [propext, Classical.choice, Quot.sound] -/
#guard_msgs in #print axioms op_barwait

/-- info: 'Cert.Kernel.DM.op_send_g0' depends on axioms: [propext, Classical.choice, Quot.sound] -/
#guard_msgs in #print axioms op_send_g0

/-- info: 'Cert.Kernel.DM.op_send_g0a' depends on axioms: [propext, Classical.choice, Quot.sound] -/
#guard_msgs in #print axioms op_send_g0a

/-- info: 'Cert.Kernel.DM.op_send_g0b' depends on axioms: [propext, Classical.choice, Quot.sound] -/
#guard_msgs in #print axioms op_send_g0b

/-- info: 'Cert.Kernel.DM.op_send_g1' depends on axioms: [propext, Classical.choice, Quot.sound] -/
#guard_msgs in #print axioms op_send_g1

/-- info: 'Cert.Kernel.DM.op_send_g1a' depends on axioms: [propext, Classical.choice, Quot.sound] -/
#guard_msgs in #print axioms op_send_g1a

/-- info: 'Cert.Kernel.DM.op_send_g1b' depends on axioms: [propext, Classical.choice, Quot.sound] -/
#guard_msgs in #print axioms op_send_g1b

/-- info: 'Cert.Kernel.DM.op_send_g2' depends on axioms: [propext, Classical.choice, Quot.sound] -/
#guard_msgs in #print axioms op_send_g2

/-- info: 'Cert.Kernel.DM.op_send_g2a' depends on axioms: [propext, Classical.choice, Quot.sound] -/
#guard_msgs in #print axioms op_send_g2a

/-- info: 'Cert.Kernel.DM.op_send_g2b' depends on axioms: [propext, Classical.choice, Quot.sound] -/
#guard_msgs in #print axioms op_send_g2b

end Cert.Kernel.DM

end
-- ==== Proof.Bits.OpsStore.lean ====
import proofs.«900891_g7700000000000892_dist_matmul_m_i_outrep_m1024_n1024_k512_v7x_i8_f32_1_alg».proof.Proof.Bits.Atoms
import Idealize.ShloMosaic.Lib.Pipeline.Value

/-!
Loads and stores of a device's body on pieces of its buffers.

A load through a rectangle of a buffer needs only the elements under that rectangle, at any share, and reads what
they hold; a store through a rectangle needs them whole and leaves the payload under them. A gather slot is a
rectangle of its buffer, so a load or a store at the slot's coordinates acts on the slot alone. A stage slot is the
same rectangle of its buffer seen without its leading unit axis: the elements are the same, and the block written
with a leading unit axis is read back, without it, as the block itself. The last product block is written in two
parts, rows below 176 and the rest, each a smaller rectangle inside the slot: the first store leaves the slot holding
the first product in its upper rows, the second leaves the lower rows holding the second product and the upper rows
as they were.
-/

noncomputable section

namespace Cert.Kernel.DM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A band of rows of a slot seen without its leading unit axis

Slot `p` of a buffer of shape `[P, M, N]` is the rectangle `[p, 0, 0] : 1 × M × N`; seen without its leading axis it
has shape `[M, N]`. The rows `o ≤ · < o + n` of that view are the rectangle `[p, o, 0] : 1 × n × N` of the buffer. -/

section Band
variable {P Mr N p o n : ℕ}

/-- Row `i` of the band, placed in the buffer through the slot's view, is row `i` of the band's own rectangle. -/
theorem band_emb (h1 : ∀ a, (![p, 0, 0] : Fin 3 → ℕ) a + (![1, Mr, N] : Fin 3 → ℕ) a ≤ (⟨3, ![P, Mr, N]⟩ : Shape).size a)
    (h2 : ∀ a, (![o, 0] : Fin 2 → ℕ) a + (![n, N] : Fin 2 → ℕ) a ≤ (⟨2, ![Mr, N]⟩ : Shape).size a)
    (h3 : ∀ a, (![p, o, 0] : Fin 3 → ℕ) a + (![1, n, N] : Fin 3 → ℕ) a ≤ (⟨3, ![P, Mr, N]⟩ : Shape).size a)
    (hq : (⟨2, ![Mr, N]⟩ : Shape).numel = (⟨3, ![1, Mr, N]⟩ : Shape).numel)
    (hq' : (⟨2, ![n, N]⟩ : Shape).numel = (⟨3, ![1, n, N]⟩ : Shape).numel)
    (i : (⟨2, ![n, N]⟩ : Shape).Idx) :
    (Rect.unit (s := ⟨3, ![P, Mr, N]⟩) ![p, 0, 0] ![1, Mr, N] h1).emb
        (Shape.reshapeEquiv hq ((Rect.unit (s := ⟨2, ![Mr, N]⟩) ![o, 0] ![n, N] h2).emb i))
      = (Rect.unit (s := ⟨3, ![P, Mr, N]⟩) ![p, o, 0] ![1, n, N] h3).emb (Shape.reshapeEquiv hq' i) := by
  rw [Shape.reshapeEquiv_cons_one, Shape.reshapeEquiv_cons_one]
  funext a
  apply Fin.ext
  rw [Rect.emb_apply, Rect.emb_apply]
  simp only [Rect.off_unit, Rect.stride_unit, Nat.one_mul]
  match a with
  | ⟨0, _⟩ => rfl
  | ⟨1, _⟩ =>
    show 0 + ((Rect.unit (s := ⟨2, ![Mr, N]⟩) ![o, 0] ![n, N] h2).emb i 0 : ℕ) = o + (i 0 : ℕ)
    rw [Rect.emb_apply]; simp only [Rect.off_unit, Rect.stride_unit, Nat.one_mul]
    show 0 + (o + (i 0 : ℕ)) = o + (i 0 : ℕ)
    omega
  | ⟨2, _⟩ =>
    show 0 + ((Rect.unit (s := ⟨2, ![Mr, N]⟩) ![o, 0] ![n, N] h2).emb i 1 : ℕ) = 0 + (i 1 : ℕ)
    rw [Rect.emb_apply]; simp only [Rect.off_unit, Rect.stride_unit, Nat.one_mul]
    show 0 + (0 + (i 1 : ℕ)) = 0 + (i 1 : ℕ)
    omega

/-- A row outside the band, placed in the buffer through the slot's view, lies outside the band's rectangle. -/
theorem band_not_mem (h1 : ∀ a, (![p, 0, 0] : Fin 3 → ℕ) a + (![1, Mr, N] : Fin 3 → ℕ) a ≤ (⟨3, ![P, Mr, N]⟩ : Shape).size a)
    (h3 : ∀ a, (![p, o, 0] : Fin 3 → ℕ) a + (![1, n, N] : Fin 3 → ℕ) a ≤ (⟨3, ![P, Mr, N]⟩ : Shape).size a)
    (hq : (⟨2, ![Mr, N]⟩ : Shape).numel = (⟨3, ![1, Mr, N]⟩ : Shape).numel)
    (j : (⟨2, ![Mr, N]⟩ : Shape).Idx) (hj : ¬ (o ≤ (j 0 : ℕ) ∧ (j 0 : ℕ) < o + n)) :
    (Rect.unit (s := ⟨3, ![P, Mr, N]⟩) ![p, 0, 0] ![1, Mr, N] h1).emb (Shape.reshapeEquiv hq j)
      ∉ (Rect.unit (s := ⟨3, ![P, Mr, N]⟩) ![p, o, 0] ![1, n, N] h3).set := by
  rw [Rect.mem_set_unit]
  intro h
  have h' := h (1 : Fin 3)
  rw [Rect.emb_apply, Shape.reshapeEquiv_cons_one] at h'
  simp only [Rect.off_unit, Rect.stride_unit, Nat.one_mul] at h'
  apply hj
  change o ≤ 0 + (j 0 : ℕ) ∧ 0 + (j 0 : ℕ) < o + n at h'
  omega

end Band

section PartOfSlot
variable {κ : Kind} {sp : Space} {s s' : Shape} {e : EltTy} {Val : EltTy → Type}

/-- Read back, through a slot's view without its unit axes, an element just written through a smaller rectangle. -/
theorem sq_read_write_mem (V : View sig κ sp s e) (r r₁ : Rect s) (h : s'.numel = r.shape.numel) (f : V.ty.Contents Val)
    (w : r₁.shape.Idx → Val e) (i : s'.Idx) (y : r₁.shape.Idx) (hy : r.emb (Shape.reshapeEquiv h i) = r₁.emb y) :
    ((V.slice r).reshape s' h).read Val ((V.slice r₁).write Val f w Finset.univ) i = w y := by
  have he : ((V.slice r).reshape s' h).emb i = (V.slice r₁).emb y := by
    show V.emb (r.emb (Shape.reshapeEquiv h i)) = V.emb (r₁.emb y)
    rw [hy]
  have hw := View.write_emb_of_mem (v := V.slice r₁) (Val := Val) f w (M := Finset.univ) (x := y) (Finset.mem_univ y)
  rw [View.read_apply]
  show _root_.cast _ ((V.slice r₁).write Val f w Finset.univ (((V.slice r).reshape s' h).emb i)) = w y
  rw [he, hw, cast_cast, cast_eq]

/-- An element outside the smaller rectangle reads as before the write. -/
theorem sq_read_write_not_mem (V : View sig κ sp s e) (r r₁ : Rect s) (h : s'.numel = r.shape.numel) (f : V.ty.Contents Val)
    (w : r₁.shape.Idx → Val e) (j : s'.Idx) (hj : r.emb (Shape.reshapeEquiv h j) ∉ r₁.set) :
    ((V.slice r).reshape s' h).read Val ((V.slice r₁).write Val f w Finset.univ) j = ((V.slice r).reshape s' h).read Val f j := by
  have hn : ((V.slice r).reshape s' h).emb j ∉ (V.slice r₁).setOn Finset.univ := by
    rw [View.setOn_univ, View.set_slice]
    show V.emb (r.emb (Shape.reshapeEquiv h j)) ∉ _
    rw [Finset.mem_map']
    exact hj
  have hw := View.write_of_not_mem (v := V.slice r₁) (Val := Val) f w Finset.univ hn
  rw [View.read_apply, View.read_apply]
  show _root_.cast _ ((V.slice r₁).write Val f w Finset.univ (((V.slice r).reshape s' h).emb j)) = _root_.cast _ (f (((V.slice r).reshape s' h).emb j))
  rw [hw]

end PartOfSlot

section BandValue
variable {κ : Kind} {sp : Space} {e : EltTy} {Val : EltTy → Type} {P Mr N p o n : ℕ}

/-- A block written with a leading unit axis through the band's rectangle is read back, through the slot's view without
    that axis, as the block itself on the band's rows, -/
theorem band_read_write (V : View sig κ sp ⟨3, ![P, Mr, N]⟩ e)
    (h1 : ∀ a, (![p, 0, 0] : Fin 3 → ℕ) a + (![1, Mr, N] : Fin 3 → ℕ) a ≤ (⟨3, ![P, Mr, N]⟩ : Shape).size a)
    (h2 : ∀ a, (![o, 0] : Fin 2 → ℕ) a + (![n, N] : Fin 2 → ℕ) a ≤ (⟨2, ![Mr, N]⟩ : Shape).size a)
    (h3 : ∀ a, (![p, o, 0] : Fin 3 → ℕ) a + (![1, n, N] : Fin 3 → ℕ) a ≤ (⟨3, ![P, Mr, N]⟩ : Shape).size a)
    (hq : (⟨2, ![Mr, N]⟩ : Shape).numel = (⟨3, ![1, Mr, N]⟩ : Shape).numel)
    (hc : (⟨3, ![1, n, N]⟩ : Shape).numel = (⟨2, ![n, N]⟩ : Shape).numel)
    (f : V.ty.Contents Val) (X : (⟨2, ![n, N]⟩ : Shape).Idx → Val e) (i : (⟨2, ![n, N]⟩ : Shape).Idx) :
    ((V.slice (Rect.unit ![p, 0, 0] ![1, Mr, N] h1)).reshape ⟨2, ![Mr, N]⟩ hq).read Val
        ((V.slice (Rect.unit ![p, o, 0] ![1, n, N] h3)).write Val f (shapeCast ⟨3, ![1, n, N]⟩ X hc) Finset.univ)
        ((Rect.unit (s := ⟨2, ![Mr, N]⟩) ![o, 0] ![n, N] h2).emb i) = X i := by
  rw [sq_read_write_mem V _ _ hq f _ _ (Shape.reshapeEquiv hc.symm i) (band_emb h1 h2 h3 hq hc.symm i)]
  show X (Shape.reshapeEquiv hc (Shape.reshapeEquiv hc.symm i)) = X i
  rw [Shape.reshapeEquiv_reshapeEquiv, Shape.reshapeEquiv_self]

/-- and the rows outside the band read as before. -/
theorem band_read_keep (V : View sig κ sp ⟨3, ![P, Mr, N]⟩ e)
    (h1 : ∀ a, (![p, 0, 0] : Fin 3 → ℕ) a + (![1, Mr, N] : Fin 3 → ℕ) a ≤ (⟨3, ![P, Mr, N]⟩ : Shape).size a)
    (h3 : ∀ a, (![p, o, 0] : Fin 3 → ℕ) a + (![1, n, N] : Fin 3 → ℕ) a ≤ (⟨3, ![P, Mr, N]⟩ : Shape).size a)
    (hq : (⟨2, ![Mr, N]⟩ : Shape).numel = (⟨3, ![1, Mr, N]⟩ : Shape).numel)
    (f : V.ty.Contents Val) (w : (⟨3, ![1, n, N]⟩ : Shape).Idx → Val e)
    (j : (⟨2, ![Mr, N]⟩ : Shape).Idx) (hj : ¬ (o ≤ (j 0 : ℕ) ∧ (j 0 : ℕ) < o + n)) :
    ((V.slice (Rect.unit ![p, 0, 0] ![1, Mr, N] h1)).reshape ⟨2, ![Mr, N]⟩ hq).read Val
        ((V.slice (Rect.unit ![p, o, 0] ![1, n, N] h3)).write Val f w Finset.univ) j
      = ((V.slice (Rect.unit ![p, 0, 0] ![1, Mr, N] h1)).reshape ⟨2, ![Mr, N]⟩ hq).read Val f j :=
  sq_read_write_not_mem V _ _ hq f w j (band_not_mem h1 h3 hq j hj)

end BandValue

variable (m : (ℓ : Loc nD τ sig) → Buf (Elt F) ℓ) (c : Dev nD)
include m

/-! ## Any buffer, any rectangle -/

theorem op_load_any {cs : CoreSpace} {s : Shape} {e : EltTy} (M : Memref sig .tc cs s e) (r : Rect s) (hr : ∀ a, r.stride a = 1)
    {hl : M.view.LoadsAt r.toLoadRect} {α : Type} {Q : α → sProp 𝕄} {k : (r.shape.Idx → Elt F e) → Prog (TpuEff nD τ sig (Elt F) Λ₀ .tc) α} :
    anyPts c (M.slice r hr) ⊢ iprop((∀ x, anyPts c (M.slice r hr) -∗ wp frame (wpE (defs₀ (F := F)) 𝒱₀ (c : Thread nD τ) none) Set.univ (k x) Q)
      -∗ wp frame (wpE (defs₀ (F := F)) 𝒱₀ (c : Thread nD τ) none) Set.univ (.op (.load M r.toLoadRect hl) k) Q) := by
  simp only [anyPts_eq]
  iintro H Hk
  icases H with ⟨%f, Hp⟩
  iapply (wp_load 𝒱₀ (c : Thread nD τ) none Set.univ (m := M) (r := r.toLoadRect) (S := (M.slice r hr).view.set) (q := fullShare) (f := f)
    (Finset.subset_of_eq (View.set_slice (v := M.view) r).symm)) $$ Hp
  iintro Hp
  iapply Hk $$ %(M.view.readAt (Elt F) r.toLoadRect f)
  iexists f
  iexact Hp

theorem op_load_holds {cs : CoreSpace} {s : Shape} {e : EltTy} (M : Memref sig .tc cs s e) (r : Rect s) (hr : ∀ a, r.stride a = 1)
    (q : PosShare TreeShare) (v : r.shape.Idx → Elt F e)
    {hl : M.view.LoadsAt r.toLoadRect} {α : Type} {Q : α → sProp 𝕄} {k : (r.shape.Idx → Elt F e) → Prog (TpuEff nD τ sig (Elt F) Λ₀ .tc) α} :
    holdsPts c (M.slice r hr) q v ⊢ iprop((holdsPts c (M.slice r hr) q v -∗ wp frame (wpE (defs₀ (F := F)) 𝒱₀ (c : Thread nD τ) none) Set.univ (k v) Q)
      -∗ wp frame (wpE (defs₀ (F := F)) 𝒱₀ (c : Thread nD τ) none) Set.univ (.op (.load M r.toLoadRect hl) k) Q) := by
  simp only [holdsPts_eq]
  iintro H Hk
  icases H with ⟨%f, Hp, %hv⟩
  iapply (wp_load 𝒱₀ (c : Thread nD τ) none Set.univ (m := M) (r := r.toLoadRect) (S := (M.slice r hr).view.set) (q := q) (f := f)
    (Finset.subset_of_eq (View.set_slice (v := M.view) r).symm)) $$ Hp
  iintro Hp
  subst hv
  iapply Hk
  iexists f
  isplitl [Hp]
  · iexact Hp
  · ipureintro; rfl

theorem op_store_slice {cs : CoreSpace} {s : Shape} {e : EltTy} (M : Memref sig .tc cs s e) (r : Rect s) (hr : ∀ a, r.stride a = 1)
    {w : r.shape.Idx → Elt F e} {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    anyPts c (M.slice r hr) ⊢ iprop((holdsPts c (M.slice r hr) fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store M r w Finset.univ hx hm) k) Q) := by
  simp only [anyPts_eq, holdsPts_eq]
  iintro H Hk
  icases H with ⟨%f, Hp⟩
  iapply (wp_store 𝒱₀ (c : Thread nD τ) none Set.univ (m := M) (r := r) (w := w) (Mk := Finset.univ) (S := (M.slice r hr).view.set) (f := f)
    (Finset.Subset.refl _)) $$ Hp
  iintro Hp
  iapply Hk
  iexists ((M.access r).write (Elt F) f w Finset.univ)
  isplitl [Hp]
  · iexact Hp
  · ipureintro; exact View.read_write_univ (v := M.access r) f w

theorem op_load_any_sq {cs : CoreSpace} {s : Shape} {e : EltTy} (M : Memref sig .tc cs s e) (r : Rect s) (hr : ∀ a, r.stride a = 1)
    (s' : Shape) (hsq : r.shape.Squeezes s')
    {hl : M.view.LoadsAt r.toLoadRect} {α : Type} {Q : α → sProp 𝕄} {k : (r.shape.Idx → Elt F e) → Prog (TpuEff nD τ sig (Elt F) Λ₀ .tc) α} :
    anyPts c ((M.slice r hr).squeeze s' hsq) ⊢ iprop((∀ x, anyPts c ((M.slice r hr).squeeze s' hsq) -∗ wp frame (wpE (defs₀ (F := F)) 𝒱₀ (c : Thread nD τ) none) Set.univ (k x) Q)
      -∗ wp frame (wpE (defs₀ (F := F)) 𝒱₀ (c : Thread nD τ) none) Set.univ (.op (.load M r.toLoadRect hl) k) Q) := by
  simp only [anyPts_eq]
  iintro H Hk
  icases H with ⟨%f, Hp⟩
  iapply (wp_load 𝒱₀ (c : Thread nD τ) none Set.univ (m := M) (r := r.toLoadRect) (S := ((M.slice r hr).squeeze s' hsq).view.set) (q := fullShare) (f := f)
    (Finset.subset_of_eq ((View.set_slice (v := M.view) r).symm.trans (View.set_reshape (v := M.view.slice r) hsq.numel_eq).symm))) $$ Hp
  iintro Hp
  iapply Hk $$ %(M.view.readAt (Elt F) r.toLoadRect f)
  iexists f
  iexact Hp

theorem op_store_sq {cs : CoreSpace} {s : Shape} {e : EltTy} (M : Memref sig .tc cs s e) (r : Rect s) (hr : ∀ a, r.stride a = 1)
    (s' : Shape) (hsq : r.shape.Squeezes s') (X : s'.Idx → Elt F e) (hc : s'.ShapeCasts r.shape)
    {w : r.shape.Idx → Elt F e} (hw : w = shapeCast r.shape X hc)
    {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    anyPts c ((M.slice r hr).squeeze s' hsq) ⊢ iprop((holdsPts c ((M.slice r hr).squeeze s' hsq) fullShare X -∗ wp frame (wpE (defs₀ (F := F)) 𝒱₀ (c : Thread nD τ) none) Set.univ (k ⟨⟩) Q)
      -∗ wp frame (wpE (defs₀ (F := F)) 𝒱₀ (c : Thread nD τ) none) Set.univ (.op (.store M r w Finset.univ hx hm) k) Q) := by
  simp only [anyPts_eq, holdsPts_eq]
  iintro H Hk
  icases H with ⟨%f, Hp⟩
  iapply (wp_store 𝒱₀ (c : Thread nD τ) none Set.univ (m := M) (r := r) (w := w) (Mk := Finset.univ) (S := ((M.slice r hr).squeeze s' hsq).view.set) (f := f)
    (Finset.subset_of_eq (View.set_reshape (v := M.access r) hsq.numel_eq).symm)) $$ Hp
  iintro Hp
  iapply Hk
  iexists ((M.access r).write (Elt F) f w Finset.univ)
  isplitl [Hp]
  · iexact Hp
  · ipureintro
    funext i
    show (M.access r).read (Elt F) ((M.access r).write (Elt F) f w Finset.univ) (Shape.reshapeEquiv hsq.numel_eq i) = X i
    rw [View.read_write_univ, hw]
    show X (Shape.reshapeEquiv hc (Shape.reshapeEquiv hsq.numel_eq i)) = X i
    rw [Shape.reshapeEquiv_reshapeEquiv, Shape.reshapeEquiv_self]

section Generic2
variable {cs : CoreSpace} {s : Shape} {e : EltTy}

/-- The elements of a smaller rectangle lie under the slot's view. -/
theorem sq_sub (M : Memref sig .tc cs s e) (r : Rect s) (hr : ∀ a, r.stride a = 1) (s' : Shape) (hsq : r.shape.Squeezes s')
    (r₁ : Rect s) (hsub : r₁.set ⊆ r.set) : (M.view.slice r₁).set ⊆ ((M.slice r hr).squeeze s' hsq).view.set := by
  have e1 : ((M.slice r hr).squeeze s' hsq).view.set = r.set.map M.view.emb :=
    (View.set_reshape (v := M.view.slice r) hsq.numel_eq).trans (View.set_slice (v := M.view) r)
  rw [e1, View.set_slice]
  exact Finset.map_subset_map.mpr hsub

/-- A load at the coordinates of a smaller rectangle inside a slot held without its unit axes. -/
theorem op_load_part_sq (M : Memref sig .tc cs s e) (r : Rect s) (hr : ∀ a, r.stride a = 1) (s' : Shape) (hsq : r.shape.Squeezes s')
    (r₁ : Rect s) (hsub : r₁.set ⊆ r.set) (f : Buf (Elt F) (((M.slice r hr).squeeze s' hsq).view.loc (c : Thread nD τ)))
    {hl : M.view.LoadsAt r₁.toLoadRect} {α : Type} {Q : α → sProp 𝕄} {k : (r₁.shape.Idx → Elt F e) → Prog (TpuEff nD τ sig (Elt F) Λ₀ .tc) α} :
    (((M.slice r hr).squeeze s' hsq).view.loc (c : Thread nD τ) ↦[((M.slice r hr).squeeze s' hsq).view.set]{fullShare} f)
      ⊢ iprop((∀ x, (((M.slice r hr).squeeze s' hsq).view.loc (c : Thread nD τ) ↦[((M.slice r hr).squeeze s' hsq).view.set]{fullShare} f) -∗ wp frame (wpE (defs₀ (F := F)) 𝒱₀ (c : Thread nD τ) none) Set.univ (k x) Q)
      -∗ wp frame (wpE (defs₀ (F := F)) 𝒱₀ (c : Thread nD τ) none) Set.univ (.op (.load M r₁.toLoadRect hl) k) Q) := by
  iintro Hp Hk
  iapply (wp_load 𝒱₀ (c : Thread nD τ) none Set.univ (m := M) (r := r₁.toLoadRect) (S := ((M.slice r hr).squeeze s' hsq).view.set) (q := fullShare) (f := f)
    ((Finset.subset_of_eq (View.set_slice (v := M.view) r₁).symm).trans (sq_sub m M r hr s' hsq r₁ hsub))) $$ Hp
  iintro Hp
  iapply Hk $$ %_
  iexact Hp

/-- A store through a smaller rectangle inside a slot held without its unit axes. -/
theorem op_store_part_sq (M : Memref sig .tc cs s e) (r : Rect s) (hr : ∀ a, r.stride a = 1) (s' : Shape) (hsq : r.shape.Squeezes s')
    (r₁ : Rect s) (hsub : r₁.set ⊆ r.set) (f : Buf (Elt F) (((M.slice r hr).squeeze s' hsq).view.loc (c : Thread nD τ)))
    {w : r₁.shape.Idx → Elt F e} {hx : (M.access r₁).Stores Finset.univ} {hm : (Finset.univ : Finset r₁.shape.Idx) = Finset.univ ∨ ∀ a, r₁.stride a = 1}
    {α : Type} {Q : α → sProp 𝕄} {k : PUnit → Prog (TpuEff nD τ sig (Elt F) Λ₀ .tc) α} :
    (((M.slice r hr).squeeze s' hsq).view.loc (c : Thread nD τ) ↦[((M.slice r hr).squeeze s' hsq).view.set]{fullShare} f)
      ⊢ iprop(((((M.slice r hr).squeeze s' hsq).view.loc (c : Thread nD τ) ↦[((M.slice r hr).squeeze s' hsq).view.set]{fullShare}
            ((M.access r₁).write (Elt F) f w Finset.univ)) -∗ wp frame (wpE (defs₀ (F := F)) 𝒱₀ (c : Thread nD τ) none) Set.univ (k ⟨⟩) Q)
      -∗ wp frame (wpE (defs₀ (F := F)) 𝒱₀ (c : Thread nD τ) none) Set.univ (.op (.store M r₁ w Finset.univ hx hm) k) Q) := by
  iintro Hp Hk
  iapply (wp_store 𝒱₀ (c : Thread nD τ) none Set.univ (m := M) (r := r₁) (w := w) (Mk := Finset.univ) (S := ((M.slice r hr).squeeze s' hsq).view.set) (f := f)
    (sq_sub m M r hr s' hsq r₁ hsub)) $$ Hp
  iintro Hp
  iapply Hk
  iexact Hp

end Generic2

/-! ## The body's buffers -/

theorem op_load_A (R : LoadRect S1024x512) {hl : (aM : Memref sig .tc .vmem S1024x512 .f32).view.LoadsAt R}
    {α : Type} {Q : α → sProp 𝕄} {k : (R.shape.Idx → Elt F .f32) → Prog (TpuEff nD τ sig (Elt F) Λ₀ .tc) α} :
    inA m c ⊢ iprop((inA m c -∗ wp frame (wpE (defs₀ (F := F)) 𝒱₀ (c : Thread nD τ) none) Set.univ (k ((aM : Memref sig .tc .vmem S1024x512 .f32).view.readAt (Elt F) R (xstg m c))) Q)
      -∗ wp frame (wpE (defs₀ (F := F)) 𝒱₀ (c : Thread nD τ) none) Set.univ (.op (.load aM R hl) k) Q) := by
  unfold inA
  iintro H Hk
  iapply (wp_load 𝒱₀ (c : Thread nD τ) none Set.univ (m := aM) (r := R) (S := Finset.univ) (q := fullShare) (f := xstg m c) (Finset.subset_univ _)) $$ H
  iintro H
  iapply Hk
  iexact H

theorem op_load_B (R : LoadRect S512x1024) {hl : (bM : Memref sig .tc .vmem S512x1024 .f32).view.LoadsAt R}
    {α : Type} {Q : α → sProp 𝕄} {k : (R.shape.Idx → Elt F .f32) → Prog (TpuEff nD τ sig (Elt F) Λ₀ .tc) α} :
    inB m c ⊢ iprop((inB m c -∗ wp frame (wpE (defs₀ (F := F)) 𝒱₀ (c : Thread nD τ) none) Set.univ (k ((bM : Memref sig .tc .vmem S512x1024 .f32).view.readAt (Elt F) R (ystg m c))) Q)
      -∗ wp frame (wpE (defs₀ (F := F)) 𝒱₀ (c : Thread nD τ) none) Set.univ (.op (.load bM R hl) k) Q) := by
  unfold inB
  iintro H Hk
  iapply (wp_load 𝒱₀ (c : Thread nD τ) none Set.univ (m := bM) (r := R) (S := Finset.univ) (q := fullShare) (f := ystg m c) (Finset.subset_univ _)) $$ H
  iintro H
  iapply Hk
  iexact H

theorem op_load_b16_any  {hinb : ∀ a, (![0, 0] : Fin 2 → Nat) a + S512x1024.size a ≤ S512x1024.size a}
    {hl : (b16M : Memref sig .tc .vmem S512x1024 .bf16).view.LoadsAt (Rect.unit (s := S512x1024) ![0, 0] S512x1024.size hinb).toLoadRect}
    {α : Type} {Q : α → sProp 𝕄} {k : Vec F S512x1024 .bf16 → Prog (TpuEff nD τ sig (Elt F) Λ₀ .tc) α} :
    anyPts c b16M ⊢ iprop((∀ x, anyPts c b16M -∗ wp frame (wpE (defs₀ (F := F)) 𝒱₀ (c : Thread nD τ) none) Set.univ (k x) Q)
      -∗ wp frame (wpE (defs₀ (F := F)) 𝒱₀ (c : Thread nD τ) none) Set.univ (.op (.load b16M (Rect.unit (s := S512x1024) ![0, 0] S512x1024.size hinb).toLoadRect hl) k) Q) := by
  simp only [anyPts_eq]
  iintro H Hk
  icases H with ⟨%f, Hp⟩
  iapply (wp_load 𝒱₀ (c : Thread nD τ) none Set.univ (m := b16M) (r := (Rect.unit (s := S512x1024) ![0, 0] S512x1024.size hinb).toLoadRect) (S := (b16M : Memref sig .tc .vmem S512x1024 .bf16).view.set) (q := fullShare) (f := f)
    (View.setOn_subset_set _ _)) $$ Hp
  iintro Hp
  iapply Hk $$ %_
  iexists f
  iexact Hp

theorem op_store_b16  {w : Vec F S512x1024 .bf16} {hinb : ∀ a, (![0, 0] : Fin 2 → Nat) a + S512x1024.size a ≤ S512x1024.size a}
    {hx : ((b16M : Memref sig .tc .vmem S512x1024 .bf16).access (Rect.unit (s := S512x1024) ![0, 0] S512x1024.size hinb)).Stores Finset.univ} {hm : (Finset.univ : Finset (Rect.unit (s := S512x1024) ![0, 0] S512x1024.size hinb).shape.Idx) = Finset.univ ∨ ∀ a, (Rect.unit (s := S512x1024) ![0, 0] S512x1024.size hinb).stride a = 1}
    {α : Type} {Q : α → sProp 𝕄} {k : PUnit → Prog (TpuEff nD τ sig (Elt F) Λ₀ .tc) α} :
    anyPts c (b16M) ⊢ iprop((holdsPts c (b16M) fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store b16M (Rect.unit (s := S512x1024) ![0, 0] S512x1024.size hinb) w Finset.univ hx hm) k) Q) := by
  simp only [anyPts_eq, holdsPts_eq]
  iintro H Hk
  icases H with ⟨%f, Hp⟩
  iapply (wp_store 𝒱₀ (c : Thread nD τ) none Set.univ (m := b16M) (r := (Rect.unit (s := S512x1024) ![0, 0] S512x1024.size hinb)) (w := w) (Mk := Finset.univ) (S := (b16M : Memref sig .tc .vmem S512x1024 .bf16).view.set) (f := f)
    (View.set_slice_subset _ _)) $$ Hp
  iintro Hp
  have hz : (![0, 0] : Fin 2 → Nat) = fun _ => 0 := funext fun a => by fin_cases a <;> rfl
  rw [show ((b16M : Memref sig .tc .vmem S512x1024 .bf16).access (Rect.unit (s := S512x1024) ![0, 0] S512x1024.size hinb)).write (Elt F) f w Finset.univ = w from
    Memref.write_access_unit_zero_univ (Elt F) cc0_scratch0 hz hinb f w]
  iapply Hk
  iexists w
  isplitl [Hp]
  · iexact Hp
  · ipureintro; rfl

theorem op_load_b16  (q : PosShare TreeShare) (v : Vec F S512x1024 .bf16) {hinb : ∀ a, (![0, 0] : Fin 2 → Nat) a + S512x1024.size a ≤ S512x1024.size a}
    {hl : (b16M : Memref sig .tc .vmem S512x1024 .bf16).view.LoadsAt (Rect.unit (s := S512x1024) ![0, 0] S512x1024.size hinb).toLoadRect}
    {α : Type} {Q : α → sProp 𝕄} {k : Vec F S512x1024 .bf16 → Prog (TpuEff nD τ sig (Elt F) Λ₀ .tc) α} :
    holdsPts c (b16M) q v ⊢ iprop((holdsPts c (b16M) q v -∗ wp frame (wpE (defs₀ (F := F)) 𝒱₀ (c : Thread nD τ) none) Set.univ (k v) Q)
      -∗ wp frame (wpE (defs₀ (F := F)) 𝒱₀ (c : Thread nD τ) none) Set.univ (.op (.load b16M (Rect.unit (s := S512x1024) ![0, 0] S512x1024.size hinb).toLoadRect hl) k) Q) := by
  simp only [holdsPts_eq]
  iintro H Hk
  icases H with ⟨%f, Hp, %hv⟩
  iapply (wp_load 𝒱₀ (c : Thread nD τ) none Set.univ (m := b16M) (r := (Rect.unit (s := S512x1024) ![0, 0] S512x1024.size hinb).toLoadRect) (S := (b16M : Memref sig .tc .vmem S512x1024 .bf16).view.set) (q := q) (f := f)
    (View.setOn_subset_set _ _)) $$ Hp
  iintro Hp
  have hz : (![0, 0] : Fin 2 → Nat) = fun _ => 0 := funext fun a => by fin_cases a <;> rfl
  rw [show (b16M : Memref sig .tc .vmem S512x1024 .bf16).view.readAt (Elt F) (Rect.unit (s := S512x1024) ![0, 0] S512x1024.size hinb).toLoadRect f = v from
    (Memref.readAt_unit_zero (Elt F) cc0_scratch0 hz hinb f).trans hv]
  iapply Hk
  iexists f
  isplitl [Hp]
  · iexact Hp
  · ipureintro; exact hv

theorem op_load_gs0_any (j : Fin 8) {hinb : ∀ a, (![j.val, 0, 0] : Fin 3 → Nat) a + S1x352x512.size a ≤ S8x352x512.size a}
    {hl : (g0M : Memref sig .tc .vmem S8x352x512 .bf16).view.LoadsAt (Rect.unit (s := S8x352x512) ![j.val, 0, 0] S1x352x512.size hinb).toLoadRect}
    {α : Type} {Q : α → sProp 𝕄} {k : Vec F S1x352x512 .bf16 → Prog (TpuEff nD τ sig (Elt F) Λ₀ .tc) α} :
    anyPts c (gs0 j) ⊢ iprop((∀ x, anyPts c (gs0 j) -∗ wp frame (wpE (defs₀ (F := F)) 𝒱₀ (c : Thread nD τ) none) Set.univ (k x) Q)
      -∗ wp frame (wpE (defs₀ (F := F)) 𝒱₀ (c : Thread nD τ) none) Set.univ (.op (.load g0M (Rect.unit (s := S8x352x512) ![j.val, 0, 0] S1x352x512.size hinb).toLoadRect hl) k) Q) := by
  exact op_load_any m c g0M (Rect.unit (s := S8x352x512) ![j.val, 0, 0] S1x352x512.size hinb) (fun _ => rfl)

theorem op_store_gs0 (j : Fin 8) {w : Vec F S1x352x512 .bf16} {hinb : ∀ a, (![j.val, 0, 0] : Fin 3 → Nat) a + S1x352x512.size a ≤ S8x352x512.size a}
    {hx : ((g0M : Memref sig .tc .vmem S8x352x512 .bf16).access (Rect.unit (s := S8x352x512) ![j.val, 0, 0] S1x352x512.size hinb)).Stores Finset.univ} {hm : (Finset.univ : Finset (Rect.unit (s := S8x352x512) ![j.val, 0, 0] S1x352x512.size hinb).shape.Idx) = Finset.univ ∨ ∀ a, (Rect.unit (s := S8x352x512) ![j.val, 0, 0] S1x352x512.size hinb).stride a = 1}
    {α : Type} {Q : α → sProp 𝕄} {k : PUnit → Prog (TpuEff nD τ sig (Elt F) Λ₀ .tc) α} :
    anyPts c (gs0 j) ⊢ iprop((holdsPts c (gs0 j) fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store g0M (Rect.unit (s := S8x352x512) ![j.val, 0, 0] S1x352x512.size hinb) w Finset.univ hx hm) k) Q) := by
  exact op_store_slice m c g0M (Rect.unit (s := S8x352x512) ![j.val, 0, 0] S1x352x512.size hinb) (fun _ => rfl)

theorem op_load_gs0 (j : Fin 8) (q : PosShare TreeShare) (v : Vec F S1x352x512 .bf16) {hinb : ∀ a, (![j.val, 0, 0] : Fin 3 → Nat) a + S1x352x512.size a ≤ S8x352x512.size a}
    {hl : (g0M : Memref sig .tc .vmem S8x352x512 .bf16).view.LoadsAt (Rect.unit (s := S8x352x512) ![j.val, 0, 0] S1x352x512.size hinb).toLoadRect}
    {α : Type} {Q : α → sProp 𝕄} {k : Vec F S1x352x512 .bf16 → Prog (TpuEff nD τ sig (Elt F) Λ₀ .tc) α} :
    holdsPts c (gs0 j) q v ⊢ iprop((holdsPts c (gs0 j) q v -∗ wp frame (wpE (defs₀ (F := F)) 𝒱₀ (c : Thread nD τ) none) Set.univ (k v) Q)
      -∗ wp frame (wpE (defs₀ (F := F)) 𝒱₀ (c : Thread nD τ) none) Set.univ (.op (.load g0M (Rect.unit (s := S8x352x512) ![j.val, 0, 0] S1x352x512.size hinb).toLoadRect hl) k) Q) := by
  exact op_load_holds m c g0M (Rect.unit (s := S8x352x512) ![j.val, 0, 0] S1x352x512.size hinb) (fun _ => rfl) q v

theorem op_load_ga0 (j : Fin 8) (q : PosShare TreeShare) (v : Vec F S1x176x512 .bf16) {hinb : ∀ a, (![j.val, 0, 0] : Fin 3 → Nat) a + S1x176x512.size a ≤ S8x352x512.size a}
    {hl : (g0M : Memref sig .tc .vmem S8x352x512 .bf16).view.LoadsAt (Rect.unit (s := S8x352x512) ![j.val, 0, 0] S1x176x512.size hinb).toLoadRect}
    {α : Type} {Q : α → sProp 𝕄} {k : Vec F S1x176x512 .bf16 → Prog (TpuEff nD τ sig (Elt F) Λ₀ .tc) α} :
    holdsPts c (ga0 j) q v ⊢ iprop((holdsPts c (ga0 j) q v -∗ wp frame (wpE (defs₀ (F := F)) 𝒱₀ (c : Thread nD τ) none) Set.univ (k v) Q)
      -∗ wp frame (wpE (defs₀ (F := F)) 𝒱₀ (c : Thread nD τ) none) Set.univ (.op (.load g0M (Rect.unit (s := S8x352x512) ![j.val, 0, 0] S1x176x512.size hinb).toLoadRect hl) k) Q) := by
  exact op_load_holds m c g0M (Rect.unit (s := S8x352x512) ![j.val, 0, 0] S1x176x512.size hinb) (fun _ => rfl) q v

theorem op_load_gb0 (j : Fin 8) (q : PosShare TreeShare) (v : Vec F S1x176x512 .bf16) {hinb : ∀ a, (![j.val, 176, 0] : Fin 3 → Nat) a + S1x176x512.size a ≤ S8x352x512.size a}
    {hl : (g0M : Memref sig .tc .vmem S8x352x512 .bf16).view.LoadsAt (Rect.unit (s := S8x352x512) ![j.val, 176, 0] S1x176x512.size hinb).toLoadRect}
    {α : Type} {Q : α → sProp 𝕄} {k : Vec F S1x176x512 .bf16 → Prog (TpuEff nD τ sig (Elt F) Λ₀ .tc) α} :
    holdsPts c (gb0 j) q v ⊢ iprop((holdsPts c (gb0 j) q v -∗ wp frame (wpE (defs₀ (F := F)) 𝒱₀ (c : Thread nD τ) none) Set.univ (k v) Q)
      -∗ wp frame (wpE (defs₀ (F := F)) 𝒱₀ (c : Thread nD τ) none) Set.univ (.op (.load g0M (Rect.unit (s := S8x352x512) ![j.val, 176, 0] S1x176x512.size hinb).toLoadRect hl) k) Q) := by
  exact op_load_holds m c g0M (Rect.unit (s := S8x352x512) ![j.val, 176, 0] S1x176x512.size hinb) (fun _ => rfl) q v

theorem op_load_ss0_any (p : Fin 2) {hinb : ∀ a, (![p.val, 0, 0] : Fin 3 → Nat) a + S1x352x1024.size a ≤ S2x352x1024.size a}
    {hl : (s0M : Memref sig .tc .vmem S2x352x1024 .f32).view.LoadsAt (Rect.unit (s := S2x352x1024) ![p.val, 0, 0] S1x352x1024.size hinb).toLoadRect}
    {α : Type} {Q : α → sProp 𝕄} {k : Vec F S1x352x1024 .f32 → Prog (TpuEff nD τ sig (Elt F) Λ₀ .tc) α} :
    anyPts c (ss0 p) ⊢ iprop((∀ x, anyPts c (ss0 p) -∗ wp frame (wpE (defs₀ (F := F)) 𝒱₀ (c : Thread nD τ) none) Set.univ (k x) Q)
      -∗ wp frame (wpE (defs₀ (F := F)) 𝒱₀ (c : Thread nD τ) none) Set.univ (.op (.load s0M (Rect.unit (s := S2x352x1024) ![p.val, 0, 0] S1x352x1024.size hinb).toLoadRect hl) k) Q) := by
  exact op_load_any_sq m c s0M (Rect.unit (s := S2x352x1024) ![p.val, 0, 0] S1x352x1024.size hinb) (fun _ => rfl) S352x1024 squeezes_S1x352x1024_S352x1024

theorem op_store_ss0 (p : Fin 2) (X : Vec F S352x1024 .f32) {w : Vec F S1x352x1024 .f32}
    (hw : w = shapeCast S1x352x1024 X shapeCasts_S352x1024_S1x352x1024) {hinb : ∀ a, (![p.val, 0, 0] : Fin 3 → Nat) a + S1x352x1024.size a ≤ S2x352x1024.size a}
    {hx : ((s0M : Memref sig .tc .vmem S2x352x1024 .f32).access (Rect.unit (s := S2x352x1024) ![p.val, 0, 0] S1x352x1024.size hinb)).Stores Finset.univ} {hm : (Finset.univ : Finset (Rect.unit (s := S2x352x1024) ![p.val, 0, 0] S1x352x1024.size hinb).shape.Idx) = Finset.univ ∨ ∀ a, (Rect.unit (s := S2x352x1024) ![p.val, 0, 0] S1x352x1024.size hinb).stride a = 1}
    {α : Type} {Q : α → sProp 𝕄} {k : PUnit → Prog (TpuEff nD τ sig (Elt F) Λ₀ .tc) α} :
    anyPts c (ss0 p) ⊢ iprop((holdsPts c (ss0 p) fullShare X -∗ wp frame (wpE (defs₀ (F := F)) 𝒱₀ (c : Thread nD τ) none) Set.univ (k ⟨⟩) Q)
      -∗ wp frame (wpE (defs₀ (F := F)) 𝒱₀ (c : Thread nD τ) none) Set.univ (.op (.store s0M (Rect.unit (s := S2x352x1024) ![p.val, 0, 0] S1x352x1024.size hinb) w Finset.univ hx hm) k) Q) := by
  exact op_store_sq m c s0M (Rect.unit (s := S2x352x1024) ![p.val, 0, 0] S1x352x1024.size hinb) (fun _ => rfl) S352x1024 squeezes_S1x352x1024_S352x1024 X shapeCasts_S352x1024_S1x352x1024 hw

theorem op_load_ss0_top_any  {hinb : ∀ a, (![1, 0, 0] : Fin 3 → Nat) a + S1x176x1024.size a ≤ S2x352x1024.size a}
    {hl : (s0M : Memref sig .tc .vmem S2x352x1024 .f32).view.LoadsAt (Rect.unit (s := S2x352x1024) ![1, 0, 0] S1x176x1024.size hinb).toLoadRect}
    {α : Type} {Q : α → sProp 𝕄} {k : Vec F S1x176x1024 .f32 → Prog (TpuEff nD τ sig (Elt F) Λ₀ .tc) α} :
    anyPts c (ss0 1) ⊢ iprop((∀ x, anyPts c (ss0 1) -∗ wp frame (wpE (defs₀ (F := F)) 𝒱₀ (c : Thread nD τ) none) Set.univ (k x) Q)
      -∗ wp frame (wpE (defs₀ (F := F)) 𝒱₀ (c : Thread nD τ) none) Set.univ (.op (.load s0M (Rect.unit (s := S2x352x1024) ![1, 0, 0] S1x176x1024.size hinb).toLoadRect hl) k) Q) := by
  simp only [anyPts_eq]
  iintro H Hk
  icases H with ⟨%f, Hp⟩
  have H1 : ((ss0 1).view.loc (c : Thread nD τ) ↦[(ss0 1).view.set]{fullShare} f) ⊢ iprop((∀ x, ((ss0 1).view.loc (c : Thread nD τ) ↦[(ss0 1).view.set]{fullShare} f) -∗ wp frame (wpE (defs₀ (F := F)) 𝒱₀ (c : Thread nD τ) none) Set.univ (k x) Q)
      -∗ wp frame (wpE (defs₀ (F := F)) 𝒱₀ (c : Thread nD τ) none) Set.univ (.op (.load s0M (Rect.unit (s := S2x352x1024) ![1, 0, 0] S1x176x1024.size hinb).toLoadRect hl) k) Q) :=
    op_load_part_sq m c s0M (Rect.unit (s := S2x352x1024) ![(1 : Fin 2).val, 0, 0] S1x352x1024.size (by decide)) (fun _ => rfl) S352x1024 squeezes_S1x352x1024_S352x1024 (Rect.unit (s := S2x352x1024) ![1, 0, 0] S1x176x1024.size hinb) (Rect.set_subset_of_span _ _ (fun _ => rfl) (fun a => by
      show (![(1 : Fin 2).val, 0, 0] : Fin 3 → ℕ) a ≤ (![1, 0, 0] : Fin 3 → ℕ) a
        ∧ (![1, 0, 0] : Fin 3 → ℕ) a + 1 * S1x176x1024.size a ≤ (![(1 : Fin 2).val, 0, 0] : Fin 3 → ℕ) a + S1x352x1024.size a + (1 - 1)
      revert a; decide)) f
  iapply H1 $$ Hp
  iintro %x Hp
  iapply Hk $$ %x
  iexists f
  iexact Hp

theorem op_store_ss0_top (X : Vec F S176x1024 .f32) {w : Vec F S1x176x1024 .f32}
    (hw : w = shapeCast S1x176x1024 X shapeCasts_S176x1024_S1x176x1024)
    (hX : X = prod176 (topA (sv0 m (xr c (mask 0 7)))) (bv m c)) {hinb : ∀ a, (![1, 0, 0] : Fin 3 → Nat) a + S1x176x1024.size a ≤ S2x352x1024.size a}
    {hx : ((s0M : Memref sig .tc .vmem S2x352x1024 .f32).access (Rect.unit (s := S2x352x1024) ![1, 0, 0] S1x176x1024.size hinb)).Stores Finset.univ} {hm : (Finset.univ : Finset (Rect.unit (s := S2x352x1024) ![1, 0, 0] S1x176x1024.size hinb).shape.Idx) = Finset.univ ∨ ∀ a, (Rect.unit (s := S2x352x1024) ![1, 0, 0] S1x176x1024.size hinb).stride a = 1}
    {α : Type} {Q : α → sProp 𝕄} {k : PUnit → Prog (TpuEff nD τ sig (Elt F) Λ₀ .tc) α} :
    anyPts c (ss0 1) ⊢ iprop((stageTop0 m c -∗ wp frame (wpE (defs₀ (F := F)) 𝒱₀ (c : Thread nD τ) none) Set.univ (k ⟨⟩) Q)
      -∗ wp frame (wpE (defs₀ (F := F)) 𝒱₀ (c : Thread nD τ) none) Set.univ (.op (.store s0M (Rect.unit (s := S2x352x1024) ![1, 0, 0] S1x176x1024.size hinb) w Finset.univ hx hm) k) Q) := by
  subst hw
  simp only [anyPts_eq]; unfold stageTop0
  iintro H Hk
  icases H with ⟨%f, Hp⟩
  have H1 : ((ss0 1).view.loc (c : Thread nD τ) ↦[(ss0 1).view.set]{fullShare} f) ⊢ iprop((((ss0 1).view.loc (c : Thread nD τ) ↦[(ss0 1).view.set]{fullShare} (((s0M : Memref sig .tc .vmem S2x352x1024 .f32).access (Rect.unit (s := S2x352x1024) ![1, 0, 0] S1x176x1024.size hinb)).write (Elt F) f (shapeCast S1x176x1024 X shapeCasts_S176x1024_S1x176x1024) Finset.univ)) -∗ wp frame (wpE (defs₀ (F := F)) 𝒱₀ (c : Thread nD τ) none) Set.univ (k ⟨⟩) Q)
      -∗ wp frame (wpE (defs₀ (F := F)) 𝒱₀ (c : Thread nD τ) none) Set.univ (.op (.store s0M (Rect.unit (s := S2x352x1024) ![1, 0, 0] S1x176x1024.size hinb) (shapeCast S1x176x1024 X shapeCasts_S176x1024_S1x176x1024) Finset.univ hx hm) k) Q) :=
    op_store_part_sq m c s0M (Rect.unit (s := S2x352x1024) ![(1 : Fin 2).val, 0, 0] S1x352x1024.size (by decide)) (fun _ => rfl) S352x1024 squeezes_S1x352x1024_S352x1024 (Rect.unit (s := S2x352x1024) ![1, 0, 0] S1x176x1024.size hinb) (Rect.set_subset_of_span _ _ (fun _ => rfl) (fun a => by
      show (![(1 : Fin 2).val, 0, 0] : Fin 3 → ℕ) a ≤ (![1, 0, 0] : Fin 3 → ℕ) a
        ∧ (![1, 0, 0] : Fin 3 → ℕ) a + 1 * S1x176x1024.size a ≤ (![(1 : Fin 2).val, 0, 0] : Fin 3 → ℕ) a + S1x352x1024.size a + (1 - 1)
      revert a; decide)) f
  iapply H1 $$ Hp
  iintro Hp
  iapply Hk
  iexists (((s0M : Memref sig .tc .vmem S2x352x1024 .f32).access (Rect.unit (s := S2x352x1024) ![1, 0, 0] S1x176x1024.size hinb)).write (Elt F) f (shapeCast S1x176x1024 X shapeCasts_S176x1024_S1x176x1024) Finset.univ)
  isplitl [Hp]
  · iexact Hp
  · ipureintro
    rw [hX.symm]
    funext i
    exact band_read_write (V := (s0M : Memref sig .tc .vmem S2x352x1024 .f32).view) (P := 2) (Mr := 352) (N := 1024) (p := 1) (o := 0) (n := 176)
      (by decide) (by decide) (by decide) squeezes_S1x352x1024_S352x1024.numel_eq shapeCasts_S176x1024_S1x176x1024 f X i

theorem op_load_ss0_bot_any  {hinb : ∀ a, (![1, 176, 0] : Fin 3 → Nat) a + S1x176x1024.size a ≤ S2x352x1024.size a}
    {hl : (s0M : Memref sig .tc .vmem S2x352x1024 .f32).view.LoadsAt (Rect.unit (s := S2x352x1024) ![1, 176, 0] S1x176x1024.size hinb).toLoadRect}
    {α : Type} {Q : α → sProp 𝕄} {k : Vec F S1x176x1024 .f32 → Prog (TpuEff nD τ sig (Elt F) Λ₀ .tc) α} :
    stageTop0 m c ⊢ iprop((∀ x, stageTop0 m c -∗ wp frame (wpE (defs₀ (F := F)) 𝒱₀ (c : Thread nD τ) none) Set.univ (k x) Q)
      -∗ wp frame (wpE (defs₀ (F := F)) 𝒱₀ (c : Thread nD τ) none) Set.univ (.op (.load s0M (Rect.unit (s := S2x352x1024) ![1, 176, 0] S1x176x1024.size hinb).toLoadRect hl) k) Q) := by
  unfold stageTop0
  iintro H Hk
  icases H with ⟨%f, Hp, %hf⟩
  have H1 : ((ss0 1).view.loc (c : Thread nD τ) ↦[(ss0 1).view.set]{fullShare} f) ⊢ iprop((∀ x, ((ss0 1).view.loc (c : Thread nD τ) ↦[(ss0 1).view.set]{fullShare} f) -∗ wp frame (wpE (defs₀ (F := F)) 𝒱₀ (c : Thread nD τ) none) Set.univ (k x) Q)
      -∗ wp frame (wpE (defs₀ (F := F)) 𝒱₀ (c : Thread nD τ) none) Set.univ (.op (.load s0M (Rect.unit (s := S2x352x1024) ![1, 176, 0] S1x176x1024.size hinb).toLoadRect hl) k) Q) :=
    op_load_part_sq m c s0M (Rect.unit (s := S2x352x1024) ![(1 : Fin 2).val, 0, 0] S1x352x1024.size (by decide)) (fun _ => rfl) S352x1024 squeezes_S1x352x1024_S352x1024 (Rect.unit (s := S2x352x1024) ![1, 176, 0] S1x176x1024.size hinb) (Rect.set_subset_of_span _ _ (fun _ => rfl) (fun a => by
      show (![(1 : Fin 2).val, 0, 0] : Fin 3 → ℕ) a ≤ (![1, 176, 0] : Fin 3 → ℕ) a
        ∧ (![1, 176, 0] : Fin 3 → ℕ) a + 1 * S1x176x1024.size a ≤ (![(1 : Fin 2).val, 0, 0] : Fin 3 → ℕ) a + S1x352x1024.size a + (1 - 1)
      revert a; decide)) f
  iapply H1 $$ Hp
  iintro %x Hp
  iapply Hk $$ %x
  iexists f
  isplitl [Hp]
  · iexact Hp
  · ipureintro; exact hf

theorem op_store_ss0_bot (X : Vec F S176x1024 .f32) {w : Vec F S1x176x1024 .f32}
    (hw : w = shapeCast S1x176x1024 X shapeCasts_S176x1024_S1x176x1024)
    (hX : X = prod176 (botA (sv0 m (xr c (mask 0 7)))) (bv m c)) {hinb : ∀ a, (![1, 176, 0] : Fin 3 → Nat) a + S1x176x1024.size a ≤ S2x352x1024.size a}
    {hx : ((s0M : Memref sig .tc .vmem S2x352x1024 .f32).access (Rect.unit (s := S2x352x1024) ![1, 176, 0] S1x176x1024.size hinb)).Stores Finset.univ} {hm : (Finset.univ : Finset (Rect.unit (s := S2x352x1024) ![1, 176, 0] S1x176x1024.size hinb).shape.Idx) = Finset.univ ∨ ∀ a, (Rect.unit (s := S2x352x1024) ![1, 176, 0] S1x176x1024.size hinb).stride a = 1}
    {α : Type} {Q : α → sProp 𝕄} {k : PUnit → Prog (TpuEff nD τ sig (Elt F) Λ₀ .tc) α} :
    stageTop0 m c ⊢ iprop((stageHas0 m c 7 -∗ wp frame (wpE (defs₀ (F := F)) 𝒱₀ (c : Thread nD τ) none) Set.univ (k ⟨⟩) Q)
      -∗ wp frame (wpE (defs₀ (F := F)) 𝒱₀ (c : Thread nD τ) none) Set.univ (.op (.store s0M (Rect.unit (s := S2x352x1024) ![1, 176, 0] S1x176x1024.size hinb) w Finset.univ hx hm) k) Q) := by
  subst hw
  unfold stageTop0 stageHas0
  iintro H Hk
  icases H with ⟨%f, Hp, %hf⟩
  have H1 : ((ss0 1).view.loc (c : Thread nD τ) ↦[(ss0 1).view.set]{fullShare} f) ⊢ iprop((((ss0 1).view.loc (c : Thread nD τ) ↦[(ss0 1).view.set]{fullShare} (((s0M : Memref sig .tc .vmem S2x352x1024 .f32).access (Rect.unit (s := S2x352x1024) ![1, 176, 0] S1x176x1024.size hinb)).write (Elt F) f (shapeCast S1x176x1024 X shapeCasts_S176x1024_S1x176x1024) Finset.univ)) -∗ wp frame (wpE (defs₀ (F := F)) 𝒱₀ (c : Thread nD τ) none) Set.univ (k ⟨⟩) Q)
      -∗ wp frame (wpE (defs₀ (F := F)) 𝒱₀ (c : Thread nD τ) none) Set.univ (.op (.store s0M (Rect.unit (s := S2x352x1024) ![1, 176, 0] S1x176x1024.size hinb) (shapeCast S1x176x1024 X shapeCasts_S176x1024_S1x176x1024) Finset.univ hx hm) k) Q) :=
    op_store_part_sq m c s0M (Rect.unit (s := S2x352x1024) ![(1 : Fin 2).val, 0, 0] S1x352x1024.size (by decide)) (fun _ => rfl) S352x1024 squeezes_S1x352x1024_S352x1024 (Rect.unit (s := S2x352x1024) ![1, 176, 0] S1x176x1024.size hinb) (Rect.set_subset_of_span _ _ (fun _ => rfl) (fun a => by
      show (![(1 : Fin 2).val, 0, 0] : Fin 3 → ℕ) a ≤ (![1, 176, 0] : Fin 3 → ℕ) a
        ∧ (![1, 176, 0] : Fin 3 → ℕ) a + 1 * S1x176x1024.size a ≤ (![(1 : Fin 2).val, 0, 0] : Fin 3 → ℕ) a + S1x352x1024.size a + (1 - 1)
      revert a; decide)) f
  iapply H1 $$ Hp
  iintro Hp
  iapply Hk
  iexists ((ss0 1).view.read (Elt F) (((s0M : Memref sig .tc .vmem S2x352x1024 .f32).access (Rect.unit (s := S2x352x1024) ![1, 176, 0] S1x176x1024.size hinb)).write (Elt F) f (shapeCast S1x176x1024 X shapeCasts_S176x1024_S1x176x1024) Finset.univ))
  isplitr
  · ipureintro
    unfold stageOK0
    rw [if_pos rfl]
    refine ⟨?_, ?_⟩
    · rw [hf.symm]
      funext i
      refine band_read_keep (V := (s0M : Memref sig .tc .vmem S2x352x1024 .f32).view) (P := 2) (Mr := 352) (N := 1024) (p := 1) (o := 176) (n := 176)
        (by decide) (by decide) squeezes_S1x352x1024_S352x1024.numel_eq f _ _ (fun h => ?_)
      have hi : ((i 0 : Fin 176) : ℕ) < 176 := (i 0).isLt
      change 176 ≤ 0 + 1 * ((i 0 : Fin 176) : ℕ) ∧ _ at h
      omega
    · rw [hX.symm]
      funext i
      exact band_read_write (V := (s0M : Memref sig .tc .vmem S2x352x1024 .f32).view) (P := 2) (Mr := 352) (N := 1024) (p := 1) (o := 176) (n := 176)
        (by decide) (by decide) (by decide) squeezes_S1x352x1024_S352x1024.numel_eq shapeCasts_S176x1024_S1x176x1024 f X i
  · simp only [holdsPts_eq]
    iexists (((s0M : Memref sig .tc .vmem S2x352x1024 .f32).access (Rect.unit (s := S2x352x1024) ![1, 176, 0] S1x176x1024.size hinb)).write (Elt F) f (shapeCast S1x176x1024 X shapeCasts_S176x1024_S1x176x1024) Finset.univ)
    isplitl [Hp]
    · iexact Hp
    · ipureintro; rfl

theorem op_load_gs1_any (j : Fin 8) {hinb : ∀ a, (![j.val, 0, 0] : Fin 3 → Nat) a + S1x336x512.size a ≤ S8x336x512.size a}
    {hl : (g1M : Memref sig .tc .vmem S8x336x512 .bf16).view.LoadsAt (Rect.unit (s := S8x336x512) ![j.val, 0, 0] S1x336x512.size hinb).toLoadRect}
    {α : Type} {Q : α → sProp 𝕄} {k : Vec F S1x336x512 .bf16 → Prog (TpuEff nD τ sig (Elt F) Λ₀ .tc) α} :
    anyPts c (gs1 j) ⊢ iprop((∀ x, anyPts c (gs1 j) -∗ wp frame (wpE (defs₀ (F := F)) 𝒱₀ (c : Thread nD τ) none) Set.univ (k x) Q)
      -∗ wp frame (wpE (defs₀ (F := F)) 𝒱₀ (c : Thread nD τ) none) Set.univ (.op (.load g1M (Rect.unit (s := S8x336x512) ![j.val, 0, 0] S1x336x512.size hinb).toLoadRect hl) k) Q) := by
  exact op_load_any m c g1M (Rect.unit (s := S8x336x512) ![j.val, 0, 0] S1x336x512.size hinb) (fun _ => rfl)

theorem op_store_gs1 (j : Fin 8) {w : Vec F S1x336x512 .bf16} {hinb : ∀ a, (![j.val, 0, 0] : Fin 3 → Nat) a + S1x336x512.size a ≤ S8x336x512.size a}
    {hx : ((g1M : Memref sig .tc .vmem S8x336x512 .bf16).access (Rect.unit (s := S8x336x512) ![j.val, 0, 0] S1x336x512.size hinb)).Stores Finset.univ} {hm : (Finset.univ : Finset (Rect.unit (s := S8x336x512) ![j.val, 0, 0] S1x336x512.size hinb).shape.Idx) = Finset.univ ∨ ∀ a, (Rect.unit (s := S8x336x512) ![j.val, 0, 0] S1x336x512.size hinb).stride a = 1}
    {α : Type} {Q : α → sProp 𝕄} {k : PUnit → Prog (TpuEff nD τ sig (Elt F) Λ₀ .tc) α} :
    anyPts c (gs1 j) ⊢ iprop((holdsPts c (gs1 j) fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store g1M (Rect.unit (s := S8x336x512) ![j.val, 0, 0] S1x336x512.size hinb) w Finset.univ hx hm) k) Q) := by
  exact op_store_slice m c g1M (Rect.unit (s := S8x336x512) ![j.val, 0, 0] S1x336x512.size hinb) (fun _ => rfl)

theorem op_load_gs1 (j : Fin 8) (q : PosShare TreeShare) (v : Vec F S1x336x512 .bf16) {hinb : ∀ a, (![j.val, 0, 0] : Fin 3 → Nat) a + S1x336x512.size a ≤ S8x336x512.size a}
    {hl : (g1M : Memref sig .tc .vmem S8x336x512 .bf16).view.LoadsAt (Rect.unit (s := S8x336x512) ![j.val, 0, 0] S1x336x512.size hinb).toLoadRect}
    {α : Type} {Q : α → sProp 𝕄} {k : Vec F S1x336x512 .bf16 → Prog (TpuEff nD τ sig (Elt F) Λ₀ .tc) α} :
    holdsPts c (gs1 j) q v ⊢ iprop((holdsPts c (gs1 j) q v -∗ wp frame (wpE (defs₀ (F := F)) 𝒱₀ (c : Thread nD τ) none) Set.univ (k v) Q)
      -∗ wp frame (wpE (defs₀ (F := F)) 𝒱₀ (c : Thread nD τ) none) Set.univ (.op (.load g1M (Rect.unit (s := S8x336x512) ![j.val, 0, 0] S1x336x512.size hinb).toLoadRect hl) k) Q) := by
  exact op_load_holds m c g1M (Rect.unit (s := S8x336x512) ![j.val, 0, 0] S1x336x512.size hinb) (fun _ => rfl) q v

theorem op_load_ga1 (j : Fin 8) (q : PosShare TreeShare) (v : Vec F S1x176x512 .bf16) {hinb : ∀ a, (![j.val, 0, 0] : Fin 3 → Nat) a + S1x176x512.size a ≤ S8x336x512.size a}
    {hl : (g1M : Memref sig .tc .vmem S8x336x512 .bf16).view.LoadsAt (Rect.unit (s := S8x336x512) ![j.val, 0, 0] S1x176x512.size hinb).toLoadRect}
    {α : Type} {Q : α → sProp 𝕄} {k : Vec F S1x176x512 .bf16 → Prog (TpuEff nD τ sig (Elt F) Λ₀ .tc) α} :
    holdsPts c (ga1 j) q v ⊢ iprop((holdsPts c (ga1 j) q v -∗ wp frame (wpE (defs₀ (F := F)) 𝒱₀ (c : Thread nD τ) none) Set.univ (k v) Q)
      -∗ wp frame (wpE (defs₀ (F := F)) 𝒱₀ (c : Thread nD τ) none) Set.univ (.op (.load g1M (Rect.unit (s := S8x336x512) ![j.val, 0, 0] S1x176x512.size hinb).toLoadRect hl) k) Q) := by
  exact op_load_holds m c g1M (Rect.unit (s := S8x336x512) ![j.val, 0, 0] S1x176x512.size hinb) (fun _ => rfl) q v

theorem op_load_gb1 (j : Fin 8) (q : PosShare TreeShare) (v : Vec F S1x160x512 .bf16) {hinb : ∀ a, (![j.val, 176, 0] : Fin 3 → Nat) a + S1x160x512.size a ≤ S8x336x512.size a}
    {hl : (g1M : Memref sig .tc .vmem S8x336x512 .bf16).view.LoadsAt (Rect.unit (s := S8x336x512) ![j.val, 176, 0] S1x160x512.size hinb).toLoadRect}
    {α : Type} {Q : α → sProp 𝕄} {k : Vec F S1x160x512 .bf16 → Prog (TpuEff nD τ sig (Elt F) Λ₀ .tc) α} :
    holdsPts c (gb1 j) q v ⊢ iprop((holdsPts c (gb1 j) q v -∗ wp frame (wpE (defs₀ (F := F)) 𝒱₀ (c : Thread nD τ) none) Set.univ (k v) Q)
      -∗ wp frame (wpE (defs₀ (F := F)) 𝒱₀ (c : Thread nD τ) none) Set.univ (.op (.load g1M (Rect.unit (s := S8x336x512) ![j.val, 176, 0] S1x160x512.size hinb).toLoadRect hl) k) Q) := by
  exact op_load_holds m c g1M (Rect.unit (s := S8x336x512) ![j.val, 176, 0] S1x160x512.size hinb) (fun _ => rfl) q v

theorem op_load_ss1_any (p : Fin 2) {hinb : ∀ a, (![p.val, 0, 0] : Fin 3 → Nat) a + S1x336x1024.size a ≤ S2x336x1024.size a}
    {hl : (s1M : Memref sig .tc .vmem S2x336x1024 .f32).view.LoadsAt (Rect.unit (s := S2x336x1024) ![p.val, 0, 0] S1x336x1024.size hinb).toLoadRect}
    {α : Type} {Q : α → sProp 𝕄} {k : Vec F S1x336x1024 .f32 → Prog (TpuEff nD τ sig (Elt F) Λ₀ .tc) α} :
    anyPts c (ss1 p) ⊢ iprop((∀ x, anyPts c (ss1 p) -∗ wp frame (wpE (defs₀ (F := F)) 𝒱₀ (c : Thread nD τ) none) Set.univ (k x) Q)
      -∗ wp frame (wpE (defs₀ (F := F)) 𝒱₀ (c : Thread nD τ) none) Set.univ (.op (.load s1M (Rect.unit (s := S2x336x1024) ![p.val, 0, 0] S1x336x1024.size hinb).toLoadRect hl) k) Q) := by
  exact op_load_any_sq m c s1M (Rect.unit (s := S2x336x1024) ![p.val, 0, 0] S1x336x1024.size hinb) (fun _ => rfl) S336x1024 squeezes_S1x336x1024_S336x1024

theorem op_store_ss1 (p : Fin 2) (X : Vec F S336x1024 .f32) {w : Vec F S1x336x1024 .f32}
    (hw : w = shapeCast S1x336x1024 X shapeCasts_S336x1024_S1x336x1024) {hinb : ∀ a, (![p.val, 0, 0] : Fin 3 → Nat) a + S1x336x1024.size a ≤ S2x336x1024.size a}
    {hx : ((s1M : Memref sig .tc .vmem S2x336x1024 .f32).access (Rect.unit (s := S2x336x1024) ![p.val, 0, 0] S1x336x1024.size hinb)).Stores Finset.univ} {hm : (Finset.univ : Finset (Rect.unit (s := S2x336x1024) ![p.val, 0, 0] S1x336x1024.size hinb).shape.Idx) = Finset.univ ∨ ∀ a, (Rect.unit (s := S2x336x1024) ![p.val, 0, 0] S1x336x1024.size hinb).stride a = 1}
    {α : Type} {Q : α → sProp 𝕄} {k : PUnit → Prog (TpuEff nD τ sig (Elt F) Λ₀ .tc) α} :
    anyPts c (ss1 p) ⊢ iprop((holdsPts c (ss1 p) fullShare X -∗ wp frame (wpE (defs₀ (F := F)) 𝒱₀ (c : Thread nD τ) none) Set.univ (k ⟨⟩) Q)
      -∗ wp frame (wpE (defs₀ (F := F)) 𝒱₀ (c : Thread nD τ) none) Set.univ (.op (.store s1M (Rect.unit (s := S2x336x1024) ![p.val, 0, 0] S1x336x1024.size hinb) w Finset.univ hx hm) k) Q) := by
  exact op_store_sq m c s1M (Rect.unit (s := S2x336x1024) ![p.val, 0, 0] S1x336x1024.size hinb) (fun _ => rfl) S336x1024 squeezes_S1x336x1024_S336x1024 X shapeCasts_S336x1024_S1x336x1024 hw

theorem op_load_ss1_top_any  {hinb : ∀ a, (![1, 0, 0] : Fin 3 → Nat) a + S1x176x1024.size a ≤ S2x336x1024.size a}
    {hl : (s1M : Memref sig .tc .vmem S2x336x1024 .f32).view.LoadsAt (Rect.unit (s := S2x336x1024) ![1, 0, 0] S1x176x1024.size hinb).toLoadRect}
    {α : Type} {Q : α → sProp 𝕄} {k : Vec F S1x176x1024 .f32 → Prog (TpuEff nD τ sig (Elt F) Λ₀ .tc) α} :
    anyPts c (ss1 1) ⊢ iprop((∀ x, anyPts c (ss1 1) -∗ wp frame (wpE (defs₀ (F := F)) 𝒱₀ (c : Thread nD τ) none) Set.univ (k x) Q)
      -∗ wp frame (wpE (defs₀ (F := F)) 𝒱₀ (c : Thread nD τ) none) Set.univ (.op (.load s1M (Rect.unit (s := S2x336x1024) ![1, 0, 0] S1x176x1024.size hinb).toLoadRect hl) k) Q) := by
  simp only [anyPts_eq]
  iintro H Hk
  icases H with ⟨%f, Hp⟩
  have H1 : ((ss1 1).view.loc (c : Thread nD τ) ↦[(ss1 1).view.set]{fullShare} f) ⊢ iprop((∀ x, ((ss1 1).view.loc (c : Thread nD τ) ↦[(ss1 1).view.set]{fullShare} f) -∗ wp frame (wpE (defs₀ (F := F)) 𝒱₀ (c : Thread nD τ) none) Set.univ (k x) Q)
      -∗ wp frame (wpE (defs₀ (F := F)) 𝒱₀ (c : Thread nD τ) none) Set.univ (.op (.load s1M (Rect.unit (s := S2x336x1024) ![1, 0, 0] S1x176x1024.size hinb).toLoadRect hl) k) Q) :=
    op_load_part_sq m c s1M (Rect.unit (s := S2x336x1024) ![(1 : Fin 2).val, 0, 0] S1x336x1024.size (by decide)) (fun _ => rfl) S336x1024 squeezes_S1x336x1024_S336x1024 (Rect.unit (s := S2x336x1024) ![1, 0, 0] S1x176x1024.size hinb) (Rect.set_subset_of_span _ _ (fun _ => rfl) (fun a => by
      show (![(1 : Fin 2).val, 0, 0] : Fin 3 → ℕ) a ≤ (![1, 0, 0] : Fin 3 → ℕ) a
        ∧ (![1, 0, 0] : Fin 3 → ℕ) a + 1 * S1x176x1024.size a ≤ (![(1 : Fin 2).val, 0, 0] : Fin 3 → ℕ) a + S1x336x1024.size a + (1 - 1)
      revert a; decide)) f
  iapply H1 $$ Hp
  iintro %x Hp
  iapply Hk $$ %x
  iexists f
  iexact Hp

theorem op_store_ss1_top (X : Vec F S176x1024 .f32) {w : Vec F S1x176x1024 .f32}
    (hw : w = shapeCast S1x176x1024 X shapeCasts_S176x1024_S1x176x1024)
    (hX : X = prod176 (topB (sv1 m (xr c (mask 1 7)))) (bv m c)) {hinb : ∀ a, (![1, 0, 0] : Fin 3 → Nat) a + S1x176x1024.size a ≤ S2x336x1024.size a}
    {hx : ((s1M : Memref sig .tc .vmem S2x336x1024 .f32).access (Rect.unit (s := S2x336x1024) ![1, 0, 0] S1x176x1024.size hinb)).Stores Finset.univ} {hm : (Finset.univ : Finset (Rect.unit (s := S2x336x1024) ![1, 0, 0] S1x176x1024.size hinb).shape.Idx) = Finset.univ ∨ ∀ a, (Rect.unit (s := S2x336x1024) ![1, 0, 0] S1x176x1024.size hinb).stride a = 1}
    {α : Type} {Q : α → sProp 𝕄} {k : PUnit → Prog (TpuEff nD τ sig (Elt F) Λ₀ .tc) α} :
    anyPts c (ss1 1) ⊢ iprop((stageTop1 m c -∗ wp frame (wpE (defs₀ (F := F)) 𝒱₀ (c : Thread nD τ) none) Set.univ (k ⟨⟩) Q)
      -∗ wp frame (wpE (defs₀ (F := F)) 𝒱₀ (c : Thread nD τ) none) Set.univ (.op (.store s1M (Rect.unit (s := S2x336x1024) ![1, 0, 0] S1x176x1024.size hinb) w Finset.univ hx hm) k) Q) := by
  subst hw
  simp only [anyPts_eq]; unfold stageTop1
  iintro H Hk
  icases H with ⟨%f, Hp⟩
  have H1 : ((ss1 1).view.loc (c : Thread nD τ) ↦[(ss1 1).view.set]{fullShare} f) ⊢ iprop((((ss1 1).view.loc (c : Thread nD τ) ↦[(ss1 1).view.set]{fullShare} (((s1M : Memref sig .tc .vmem S2x336x1024 .f32).access (Rect.unit (s := S2x336x1024) ![1, 0, 0] S1x176x1024.size hinb)).write (Elt F) f (shapeCast S1x176x1024 X shapeCasts_S176x1024_S1x176x1024) Finset.univ)) -∗ wp frame (wpE (defs₀ (F := F)) 𝒱₀ (c : Thread nD τ) none) Set.univ (k ⟨⟩) Q)
      -∗ wp frame (wpE (defs₀ (F := F)) 𝒱₀ (c : Thread nD τ) none) Set.univ (.op (.store s1M (Rect.unit (s := S2x336x1024) ![1, 0, 0] S1x176x1024.size hinb) (shapeCast S1x176x1024 X shapeCasts_S176x1024_S1x176x1024) Finset.univ hx hm) k) Q) :=
    op_store_part_sq m c s1M (Rect.unit (s := S2x336x1024) ![(1 : Fin 2).val, 0, 0] S1x336x1024.size (by decide)) (fun _ => rfl) S336x1024 squeezes_S1x336x1024_S336x1024 (Rect.unit (s := S2x336x1024) ![1, 0, 0] S1x176x1024.size hinb) (Rect.set_subset_of_span _ _ (fun _ => rfl) (fun a => by
      show (![(1 : Fin 2).val, 0, 0] : Fin 3 → ℕ) a ≤ (![1, 0, 0] : Fin 3 → ℕ) a
        ∧ (![1, 0, 0] : Fin 3 → ℕ) a + 1 * S1x176x1024.size a ≤ (![(1 : Fin 2).val, 0, 0] : Fin 3 → ℕ) a + S1x336x1024.size a + (1 - 1)
      revert a; decide)) f
  iapply H1 $$ Hp
  iintro Hp
  iapply Hk
  iexists (((s1M : Memref sig .tc .vmem S2x336x1024 .f32).access (Rect.unit (s := S2x336x1024) ![1, 0, 0] S1x176x1024.size hinb)).write (Elt F) f (shapeCast S1x176x1024 X shapeCasts_S176x1024_S1x176x1024) Finset.univ)
  isplitl [Hp]
  · iexact Hp
  · ipureintro
    rw [hX.symm]
    funext i
    exact band_read_write (V := (s1M : Memref sig .tc .vmem S2x336x1024 .f32).view) (P := 2) (Mr := 336) (N := 1024) (p := 1) (o := 0) (n := 176)
      (by decide) (by decide) (by decide) squeezes_S1x336x1024_S336x1024.numel_eq shapeCasts_S176x1024_S1x176x1024 f X i

theorem op_load_ss1_bot_any  {hinb : ∀ a, (![1, 176, 0] : Fin 3 → Nat) a + S1x160x1024.size a ≤ S2x336x1024.size a}
    {hl : (s1M : Memref sig .tc .vmem S2x336x1024 .f32).view.LoadsAt (Rect.unit (s := S2x336x1024) ![1, 176, 0] S1x160x1024.size hinb).toLoadRect}
    {α : Type} {Q : α → sProp 𝕄} {k : Vec F S1x160x1024 .f32 → Prog (TpuEff nD τ sig (Elt F) Λ₀ .tc) α} :
    stageTop1 m c ⊢ iprop((∀ x, stageTop1 m c -∗ wp frame (wpE (defs₀ (F := F)) 𝒱₀ (c : Thread nD τ) none) Set.univ (k x) Q)
      -∗ wp frame (wpE (defs₀ (F := F)) 𝒱₀ (c : Thread nD τ) none) Set.univ (.op (.load s1M (Rect.unit (s := S2x336x1024) ![1, 176, 0] S1x160x1024.size hinb).toLoadRect hl) k) Q) := by
  unfold stageTop1
  iintro H Hk
  icases H with ⟨%f, Hp, %hf⟩
  have H1 : ((ss1 1).view.loc (c : Thread nD τ) ↦[(ss1 1).view.set]{fullShare} f) ⊢ iprop((∀ x, ((ss1 1).view.loc (c : Thread nD τ) ↦[(ss1 1).view.set]{fullShare} f) -∗ wp frame (wpE (defs₀ (F := F)) 𝒱₀ (c : Thread nD τ) none) Set.univ (k x) Q)
      -∗ wp frame (wpE (defs₀ (F := F)) 𝒱₀ (c : Thread nD τ) none) Set.univ (.op (.load s1M (Rect.unit (s := S2x336x1024) ![1, 176, 0] S1x160x1024.size hinb).toLoadRect hl) k) Q) :=
    op_load_part_sq m c s1M (Rect.unit (s := S2x336x1024) ![(1 : Fin 2).val, 0, 0] S1x336x1024.size (by decide)) (fun _ => rfl) S336x1024 squeezes_S1x336x1024_S336x1024 (Rect.unit (s := S2x336x1024) ![1, 176, 0] S1x160x1024.size hinb) (Rect.set_subset_of_span _ _ (fun _ => rfl) (fun a => by
      show (![(1 : Fin 2).val, 0, 0] : Fin 3 → ℕ) a ≤ (![1, 176, 0] : Fin 3 → ℕ) a
        ∧ (![1, 176, 0] : Fin 3 → ℕ) a + 1 * S1x160x1024.size a ≤ (![(1 : Fin 2).val, 0, 0] : Fin 3 → ℕ) a + S1x336x1024.size a + (1 - 1)
      revert a; decide)) f
  iapply H1 $$ Hp
  iintro %x Hp
  iapply Hk $$ %x
  iexists f
  isplitl [Hp]
  · iexact Hp
  · ipureintro; exact hf

theorem op_store_ss1_bot (X : Vec F S160x1024 .f32) {w : Vec F S1x160x1024 .f32}
    (hw : w = shapeCast S1x160x1024 X shapeCasts_S160x1024_S1x160x1024)
    (hX : X = prod160 (botB (sv1 m (xr c (mask 1 7)))) (bv m c)) {hinb : ∀ a, (![1, 176, 0] : Fin 3 → Nat) a + S1x160x1024.size a ≤ S2x336x1024.size a}
    {hx : ((s1M : Memref sig .tc .vmem S2x336x1024 .f32).access (Rect.unit (s := S2x336x1024) ![1, 176, 0] S1x160x1024.size hinb)).Stores Finset.univ} {hm : (Finset.univ : Finset (Rect.unit (s := S2x336x1024) ![1, 176, 0] S1x160x1024.size hinb).shape.Idx) = Finset.univ ∨ ∀ a, (Rect.unit (s := S2x336x1024) ![1, 176, 0] S1x160x1024.size hinb).stride a = 1}
    {α : Type} {Q : α → sProp 𝕄} {k : PUnit → Prog (TpuEff nD τ sig (Elt F) Λ₀ .tc) α} :
    stageTop1 m c ⊢ iprop((stageHas1 m c 7 -∗ wp frame (wpE (defs₀ (F := F)) 𝒱₀ (c : Thread nD τ) none) Set.univ (k ⟨⟩) Q)
      -∗ wp frame (wpE (defs₀ (F := F)) 𝒱₀ (c : Thread nD τ) none) Set.univ (.op (.store s1M (Rect.unit (s := S2x336x1024) ![1, 176, 0] S1x160x1024.size hinb) w Finset.univ hx hm) k) Q) := by
  subst hw
  unfold stageTop1 stageHas1
  iintro H Hk
  icases H with ⟨%f, Hp, %hf⟩
  have H1 : ((ss1 1).view.loc (c : Thread nD τ) ↦[(ss1 1).view.set]{fullShare} f) ⊢ iprop((((ss1 1).view.loc (c : Thread nD τ) ↦[(ss1 1).view.set]{fullShare} (((s1M : Memref sig .tc .vmem S2x336x1024 .f32).access (Rect.unit (s := S2x336x1024) ![1, 176, 0] S1x160x1024.size hinb)).write (Elt F) f (shapeCast S1x160x1024 X shapeCasts_S160x1024_S1x160x1024) Finset.univ)) -∗ wp frame (wpE (defs₀ (F := F)) 𝒱₀ (c : Thread nD τ) none) Set.univ (k ⟨⟩) Q)
      -∗ wp frame (wpE (defs₀ (F := F)) 𝒱₀ (c : Thread nD τ) none) Set.univ (.op (.store s1M (Rect.unit (s := S2x336x1024) ![1, 176, 0] S1x160x1024.size hinb) (shapeCast S1x160x1024 X shapeCasts_S160x1024_S1x160x1024) Finset.univ hx hm) k) Q) :=
    op_store_part_sq m c s1M (Rect.unit (s := S2x336x1024) ![(1 : Fin 2).val, 0, 0] S1x336x1024.size (by decide)) (fun _ => rfl) S336x1024 squeezes_S1x336x1024_S336x1024 (Rect.unit (s := S2x336x1024) ![1, 176, 0] S1x160x1024.size hinb) (Rect.set_subset_of_span _ _ (fun _ => rfl) (fun a => by
      show (![(1 : Fin 2).val, 0, 0] : Fin 3 → ℕ) a ≤ (![1, 176, 0] : Fin 3 → ℕ) a
        ∧ (![1, 176, 0] : Fin 3 → ℕ) a + 1 * S1x160x1024.size a ≤ (![(1 : Fin 2).val, 0, 0] : Fin 3 → ℕ) a + S1x336x1024.size a + (1 - 1)
      revert a; decide)) f
  iapply H1 $$ Hp
  iintro Hp
  iapply Hk
  iexists ((ss1 1).view.read (Elt F) (((s1M : Memref sig .tc .vmem S2x336x1024 .f32).access (Rect.unit (s := S2x336x1024) ![1, 176, 0] S1x160x1024.size hinb)).write (Elt F) f (shapeCast S1x160x1024 X shapeCasts_S160x1024_S1x160x1024) Finset.univ))
  isplitr
  · ipureintro
    unfold stageOK1
    rw [if_pos rfl]
    refine ⟨?_, ?_⟩
    · rw [hf.symm]
      funext i
      refine band_read_keep (V := (s1M : Memref sig .tc .vmem S2x336x1024 .f32).view) (P := 2) (Mr := 336) (N := 1024) (p := 1) (o := 176) (n := 160)
        (by decide) (by decide) squeezes_S1x336x1024_S336x1024.numel_eq f _ _ (fun h => ?_)
      have hi : ((i 0 : Fin 176) : ℕ) < 176 := (i 0).isLt
      change 176 ≤ 0 + 1 * ((i 0 : Fin 176) : ℕ) ∧ _ at h
      omega
    · rw [hX.symm]
      funext i
      exact band_read_write (V := (s1M : Memref sig .tc .vmem S2x336x1024 .f32).view) (P := 2) (Mr := 336) (N := 1024) (p := 1) (o := 176) (n := 160)
        (by decide) (by decide) (by decide) squeezes_S1x336x1024_S336x1024.numel_eq shapeCasts_S160x1024_S1x160x1024 f X i
  · simp only [holdsPts_eq]
    iexists (((s1M : Memref sig .tc .vmem S2x336x1024 .f32).access (Rect.unit (s := S2x336x1024) ![1, 176, 0] S1x160x1024.size hinb)).write (Elt F) f (shapeCast S1x160x1024 X shapeCasts_S160x1024_S1x160x1024) Finset.univ)
    isplitl [Hp]
    · iexact Hp
    · ipureintro; rfl

theorem op_load_gs2_any (j : Fin 8) {hinb : ∀ a, (![j.val, 0, 0] : Fin 3 → Nat) a + S1x336x512.size a ≤ S8x336x512.size a}
    {hl : (g2M : Memref sig .tc .vmem S8x336x512 .bf16).view.LoadsAt (Rect.unit (s := S8x336x512) ![j.val, 0, 0] S1x336x512.size hinb).toLoadRect}
    {α : Type} {Q : α → sProp 𝕄} {k : Vec F S1x336x512 .bf16 → Prog (TpuEff nD τ sig (Elt F) Λ₀ .tc) α} :
    anyPts c (gs2 j) ⊢ iprop((∀ x, anyPts c (gs2 j) -∗ wp frame (wpE (defs₀ (F := F)) 𝒱₀ (c : Thread nD τ) none) Set.univ (k x) Q)
      -∗ wp frame (wpE (defs₀ (F := F)) 𝒱₀ (c : Thread nD τ) none) Set.univ (.op (.load g2M (Rect.unit (s := S8x336x512) ![j.val, 0, 0] S1x336x512.size hinb).toLoadRect hl) k) Q) := by
  exact op_load_any m c g2M (Rect.unit (s := S8x336x512) ![j.val, 0, 0] S1x336x512.size hinb) (fun _ => rfl)

theorem op_store_gs2 (j : Fin 8) {w : Vec F S1x336x512 .bf16} {hinb : ∀ a, (![j.val, 0, 0] : Fin 3 → Nat) a + S1x336x512.size a ≤ S8x336x512.size a}
    {hx : ((g2M : Memref sig .tc .vmem S8x336x512 .bf16).access (Rect.unit (s := S8x336x512) ![j.val, 0, 0] S1x336x512.size hinb)).Stores Finset.univ} {hm : (Finset.univ : Finset (Rect.unit (s := S8x336x512) ![j.val, 0, 0] S1x336x512.size hinb).shape.Idx) = Finset.univ ∨ ∀ a, (Rect.unit (s := S8x336x512) ![j.val, 0, 0] S1x336x512.size hinb).stride a = 1}
    {α : Type} {Q : α → sProp 𝕄} {k : PUnit → Prog (TpuEff nD τ sig (Elt F) Λ₀ .tc) α} :
    anyPts c (gs2 j) ⊢ iprop((holdsPts c (gs2 j) fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store g2M (Rect.unit (s := S8x336x512) ![j.val, 0, 0] S1x336x512.size hinb) w Finset.univ hx hm) k) Q) := by
  exact op_store_slice m c g2M (Rect.unit (s := S8x336x512) ![j.val, 0, 0] S1x336x512.size hinb) (fun _ => rfl)

theorem op_load_gs2 (j : Fin 8) (q : PosShare TreeShare) (v : Vec F S1x336x512 .bf16) {hinb : ∀ a, (![j.val, 0, 0] : Fin 3 → Nat) a + S1x336x512.size a ≤ S8x336x512.size a}
    {hl : (g2M : Memref sig .tc .vmem S8x336x512 .bf16).view.LoadsAt (Rect.unit (s := S8x336x512) ![j.val, 0, 0] S1x336x512.size hinb).toLoadRect}
    {α : Type} {Q : α → sProp 𝕄} {k : Vec F S1x336x512 .bf16 → Prog (TpuEff nD τ sig (Elt F) Λ₀ .tc) α} :
    holdsPts c (gs2 j) q v ⊢ iprop((holdsPts c (gs2 j) q v -∗ wp frame (wpE (defs₀ (F := F)) 𝒱₀ (c : Thread nD τ) none) Set.univ (k v) Q)
      -∗ wp frame (wpE (defs₀ (F := F)) 𝒱₀ (c : Thread nD τ) none) Set.univ (.op (.load g2M (Rect.unit (s := S8x336x512) ![j.val, 0, 0] S1x336x512.size hinb).toLoadRect hl) k) Q) := by
  exact op_load_holds m c g2M (Rect.unit (s := S8x336x512) ![j.val, 0, 0] S1x336x512.size hinb) (fun _ => rfl) q v

theorem op_load_ga2 (j : Fin 8) (q : PosShare TreeShare) (v : Vec F S1x176x512 .bf16) {hinb : ∀ a, (![j.val, 0, 0] : Fin 3 → Nat) a + S1x176x512.size a ≤ S8x336x512.size a}
    {hl : (g2M : Memref sig .tc .vmem S8x336x512 .bf16).view.LoadsAt (Rect.unit (s := S8x336x512) ![j.val, 0, 0] S1x176x512.size hinb).toLoadRect}
    {α : Type} {Q : α → sProp 𝕄} {k : Vec F S1x176x512 .bf16 → Prog (TpuEff nD τ sig (Elt F) Λ₀ .tc) α} :
    holdsPts c (ga2 j) q v ⊢ iprop((holdsPts c (ga2 j) q v -∗ wp frame (wpE (defs₀ (F := F)) 𝒱₀ (c : Thread nD τ) none) Set.univ (k v) Q)
      -∗ wp frame (wpE (defs₀ (F := F)) 𝒱₀ (c : Thread nD τ) none) Set.univ (.op (.load g2M (Rect.unit (s := S8x336x512) ![j.val, 0, 0] S1x176x512.size hinb).toLoadRect hl) k) Q) := by
  exact op_load_holds m c g2M (Rect.unit (s := S8x336x512) ![j.val, 0, 0] S1x176x512.size hinb) (fun _ => rfl) q v

theorem op_load_gb2 (j : Fin 8) (q : PosShare TreeShare) (v : Vec F S1x160x512 .bf16) {hinb : ∀ a, (![j.val, 176, 0] : Fin 3 → Nat) a + S1x160x512.size a ≤ S8x336x512.size a}
    {hl : (g2M : Memref sig .tc .vmem S8x336x512 .bf16).view.LoadsAt (Rect.unit (s := S8x336x512) ![j.val, 176, 0] S1x160x512.size hinb).toLoadRect}
    {α : Type} {Q : α → sProp 𝕄} {k : Vec F S1x160x512 .bf16 → Prog (TpuEff nD τ sig (Elt F) Λ₀ .tc) α} :
    holdsPts c (gb2 j) q v ⊢ iprop((holdsPts c (gb2 j) q v -∗ wp frame (wpE (defs₀ (F := F)) 𝒱₀ (c : Thread nD τ) none) Set.univ (k v) Q)
      -∗ wp frame (wpE (defs₀ (F := F)) 𝒱₀ (c : Thread nD τ) none) Set.univ (.op (.load g2M (Rect.unit (s := S8x336x512) ![j.val, 176, 0] S1x160x512.size hinb).toLoadRect hl) k) Q) := by
  exact op_load_holds m c g2M (Rect.unit (s := S8x336x512) ![j.val, 176, 0] S1x160x512.size hinb) (fun _ => rfl) q v

theorem op_load_ss2_any (p : Fin 2) {hinb : ∀ a, (![p.val, 0, 0] : Fin 3 → Nat) a + S1x336x1024.size a ≤ S2x336x1024.size a}
    {hl : (s2M : Memref sig .tc .vmem S2x336x1024 .f32).view.LoadsAt (Rect.unit (s := S2x336x1024) ![p.val, 0, 0] S1x336x1024.size hinb).toLoadRect}
    {α : Type} {Q : α → sProp 𝕄} {k : Vec F S1x336x1024 .f32 → Prog (TpuEff nD τ sig (Elt F) Λ₀ .tc) α} :
    anyPts c (ss2 p) ⊢ iprop((∀ x, anyPts c (ss2 p) -∗ wp frame (wpE (defs₀ (F := F)) 𝒱₀ (c : Thread nD τ) none) Set.univ (k x) Q)
      -∗ wp frame (wpE (defs₀ (F := F)) 𝒱₀ (c : Thread nD τ) none) Set.univ (.op (.load s2M (Rect.unit (s := S2x336x1024) ![p.val, 0, 0] S1x336x1024.size hinb).toLoadRect hl) k) Q) := by
  exact op_load_any_sq m c s2M (Rect.unit (s := S2x336x1024) ![p.val, 0, 0] S1x336x1024.size hinb) (fun _ => rfl) S336x1024 squeezes_S1x336x1024_S336x1024

theorem op_store_ss2 (p : Fin 2) (X : Vec F S336x1024 .f32) {w : Vec F S1x336x1024 .f32}
    (hw : w = shapeCast S1x336x1024 X shapeCasts_S336x1024_S1x336x1024) {hinb : ∀ a, (![p.val, 0, 0] : Fin 3 → Nat) a + S1x336x1024.size a ≤ S2x336x1024.size a}
    {hx : ((s2M : Memref sig .tc .vmem S2x336x1024 .f32).access (Rect.unit (s := S2x336x1024) ![p.val, 0, 0] S1x336x1024.size hinb)).Stores Finset.univ} {hm : (Finset.univ : Finset (Rect.unit (s := S2x336x1024) ![p.val, 0, 0] S1x336x1024.size hinb).shape.Idx) = Finset.univ ∨ ∀ a, (Rect.unit (s := S2x336x1024) ![p.val, 0, 0] S1x336x1024.size hinb).stride a = 1}
    {α : Type} {Q : α → sProp 𝕄} {k : PUnit → Prog (TpuEff nD τ sig (Elt F) Λ₀ .tc) α} :
    anyPts c (ss2 p) ⊢ iprop((holdsPts c (ss2 p) fullShare X -∗ wp frame (wpE (defs₀ (F := F)) 𝒱₀ (c : Thread nD τ) none) Set.univ (k ⟨⟩) Q)
      -∗ wp frame (wpE (defs₀ (F := F)) 𝒱₀ (c : Thread nD τ) none) Set.univ (.op (.store s2M (Rect.unit (s := S2x336x1024) ![p.val, 0, 0] S1x336x1024.size hinb) w Finset.univ hx hm) k) Q) := by
  exact op_store_sq m c s2M (Rect.unit (s := S2x336x1024) ![p.val, 0, 0] S1x336x1024.size hinb) (fun _ => rfl) S336x1024 squeezes_S1x336x1024_S336x1024 X shapeCasts_S336x1024_S1x336x1024 hw

theorem op_load_ss2_top_any  {hinb : ∀ a, (![1, 0, 0] : Fin 3 → Nat) a + S1x176x1024.size a ≤ S2x336x1024.size a}
    {hl : (s2M : Memref sig .tc .vmem S2x336x1024 .f32).view.LoadsAt (Rect.unit (s := S2x336x1024) ![1, 0, 0] S1x176x1024.size hinb).toLoadRect}
    {α : Type} {Q : α → sProp 𝕄} {k : Vec F S1x176x1024 .f32 → Prog (TpuEff nD τ sig (Elt F) Λ₀ .tc) α} :
    anyPts c (ss2 1) ⊢ iprop((∀ x, anyPts c (ss2 1) -∗ wp frame (wpE (defs₀ (F := F)) 𝒱₀ (c : Thread nD τ) none) Set.univ (k x) Q)
      -∗ wp frame (wpE (defs₀ (F := F)) 𝒱₀ (c : Thread nD τ) none) Set.univ (.op (.load s2M (Rect.unit (s := S2x336x1024) ![1, 0, 0] S1x176x1024.size hinb).toLoadRect hl) k) Q) := by
  simp only [anyPts_eq]
  iintro H Hk
  icases H with ⟨%f, Hp⟩
  have H1 : ((ss2 1).view.loc (c : Thread nD τ) ↦[(ss2 1).view.set]{fullShare} f) ⊢ iprop((∀ x, ((ss2 1).view.loc (c : Thread nD τ) ↦[(ss2 1).view.set]{fullShare} f) -∗ wp frame (wpE (defs₀ (F := F)) 𝒱₀ (c : Thread nD τ) none) Set.univ (k x) Q)
      -∗ wp frame (wpE (defs₀ (F := F)) 𝒱₀ (c : Thread nD τ) none) Set.univ (.op (.load s2M (Rect.unit (s := S2x336x1024) ![1, 0, 0] S1x176x1024.size hinb).toLoadRect hl) k) Q) :=
    op_load_part_sq m c s2M (Rect.unit (s := S2x336x1024) ![(1 : Fin 2).val, 0, 0] S1x336x1024.size (by decide)) (fun _ => rfl) S336x1024 squeezes_S1x336x1024_S336x1024 (Rect.unit (s := S2x336x1024) ![1, 0, 0] S1x176x1024.size hinb) (Rect.set_subset_of_span _ _ (fun _ => rfl) (fun a => by
      show (![(1 : Fin 2).val, 0, 0] : Fin 3 → ℕ) a ≤ (![1, 0, 0] : Fin 3 → ℕ) a
        ∧ (![1, 0, 0] : Fin 3 → ℕ) a + 1 * S1x176x1024.size a ≤ (![(1 : Fin 2).val, 0, 0] : Fin 3 → ℕ) a + S1x336x1024.size a + (1 - 1)
      revert a; decide)) f
  iapply H1 $$ Hp
  iintro %x Hp
  iapply Hk $$ %x
  iexists f
  iexact Hp

theorem op_store_ss2_top (X : Vec F S176x1024 .f32) {w : Vec F S1x176x1024 .f32}
    (hw : w = shapeCast S1x176x1024 X shapeCasts_S176x1024_S1x176x1024)
    (hX : X = prod176 (topB (sv2 m (xr c (mask 2 7)))) (bv m c)) {hinb : ∀ a, (![1, 0, 0] : Fin 3 → Nat) a + S1x176x1024.size a ≤ S2x336x1024.size a}
    {hx : ((s2M : Memref sig .tc .vmem S2x336x1024 .f32).access (Rect.unit (s := S2x336x1024) ![1, 0, 0] S1x176x1024.size hinb)).Stores Finset.univ} {hm : (Finset.univ : Finset (Rect.unit (s := S2x336x1024) ![1, 0, 0] S1x176x1024.size hinb).shape.Idx) = Finset.univ ∨ ∀ a, (Rect.unit (s := S2x336x1024) ![1, 0, 0] S1x176x1024.size hinb).stride a = 1}
    {α : Type} {Q : α → sProp 𝕄} {k : PUnit → Prog (TpuEff nD τ sig (Elt F) Λ₀ .tc) α} :
    anyPts c (ss2 1) ⊢ iprop((stageTop2 m c -∗ wp frame (wpE (defs₀ (F := F)) 𝒱₀ (c : Thread nD τ) none) Set.univ (k ⟨⟩) Q)
      -∗ wp frame (wpE (defs₀ (F := F)) 𝒱₀ (c : Thread nD τ) none) Set.univ (.op (.store s2M (Rect.unit (s := S2x336x1024) ![1, 0, 0] S1x176x1024.size hinb) w Finset.univ hx hm) k) Q) := by
  subst hw
  simp only [anyPts_eq]; unfold stageTop2
  iintro H Hk
  icases H with ⟨%f, Hp⟩
  have H1 : ((ss2 1).view.loc (c : Thread nD τ) ↦[(ss2 1).view.set]{fullShare} f) ⊢ iprop((((ss2 1).view.loc (c : Thread nD τ) ↦[(ss2 1).view.set]{fullShare} (((s2M : Memref sig .tc .vmem S2x336x1024 .f32).access (Rect.unit (s := S2x336x1024) ![1, 0, 0] S1x176x1024.size hinb)).write (Elt F) f (shapeCast S1x176x1024 X shapeCasts_S176x1024_S1x176x1024) Finset.univ)) -∗ wp frame (wpE (defs₀ (F := F)) 𝒱₀ (c : Thread nD τ) none) Set.univ (k ⟨⟩) Q)
      -∗ wp frame (wpE (defs₀ (F := F)) 𝒱₀ (c : Thread nD τ) none) Set.univ (.op (.store s2M (Rect.unit (s := S2x336x1024) ![1, 0, 0] S1x176x1024.size hinb) (shapeCast S1x176x1024 X shapeCasts_S176x1024_S1x176x1024) Finset.univ hx hm) k) Q) :=
    op_store_part_sq m c s2M (Rect.unit (s := S2x336x1024) ![(1 : Fin 2).val, 0, 0] S1x336x1024.size (by decide)) (fun _ => rfl) S336x1024 squeezes_S1x336x1024_S336x1024 (Rect.unit (s := S2x336x1024) ![1, 0, 0] S1x176x1024.size hinb) (Rect.set_subset_of_span _ _ (fun _ => rfl) (fun a => by
      show (![(1 : Fin 2).val, 0, 0] : Fin 3 → ℕ) a ≤ (![1, 0, 0] : Fin 3 → ℕ) a
        ∧ (![1, 0, 0] : Fin 3 → ℕ) a + 1 * S1x176x1024.size a ≤ (![(1 : Fin 2).val, 0, 0] : Fin 3 → ℕ) a + S1x336x1024.size a + (1 - 1)
      revert a; decide)) f
  iapply H1 $$ Hp
  iintro Hp
  iapply Hk
  iexists (((s2M : Memref sig .tc .vmem S2x336x1024 .f32).access (Rect.unit (s := S2x336x1024) ![1, 0, 0] S1x176x1024.size hinb)).write (Elt F) f (shapeCast S1x176x1024 X shapeCasts_S176x1024_S1x176x1024) Finset.univ)
  isplitl [Hp]
  · iexact Hp
  · ipureintro
    rw [hX.symm]
    funext i
    exact band_read_write (V := (s2M : Memref sig .tc .vmem S2x336x1024 .f32).view) (P := 2) (Mr := 336) (N := 1024) (p := 1) (o := 0) (n := 176)
      (by decide) (by decide) (by decide) squeezes_S1x336x1024_S336x1024.numel_eq shapeCasts_S176x1024_S1x176x1024 f X i

theorem op_load_ss2_bot_any  {hinb : ∀ a, (![1, 176, 0] : Fin 3 → Nat) a + S1x160x1024.size a ≤ S2x336x1024.size a}
    {hl : (s2M : Memref sig .tc .vmem S2x336x1024 .f32).view.LoadsAt (Rect.unit (s := S2x336x1024) ![1, 176, 0] S1x160x1024.size hinb).toLoadRect}
    {α : Type} {Q : α → sProp 𝕄} {k : Vec F S1x160x1024 .f32 → Prog (TpuEff nD τ sig (Elt F) Λ₀ .tc) α} :
    stageTop2 m c ⊢ iprop((∀ x, stageTop2 m c -∗ wp frame (wpE (defs₀ (F := F)) 𝒱₀ (c : Thread nD τ) none) Set.univ (k x) Q)
      -∗ wp frame (wpE (defs₀ (F := F)) 𝒱₀ (c : Thread nD τ) none) Set.univ (.op (.load s2M (Rect.unit (s := S2x336x1024) ![1, 176, 0] S1x160x1024.size hinb).toLoadRect hl) k) Q) := by
  unfold stageTop2
  iintro H Hk
  icases H with ⟨%f, Hp, %hf⟩
  have H1 : ((ss2 1).view.loc (c : Thread nD τ) ↦[(ss2 1).view.set]{fullShare} f) ⊢ iprop((∀ x, ((ss2 1).view.loc (c : Thread nD τ) ↦[(ss2 1).view.set]{fullShare} f) -∗ wp frame (wpE (defs₀ (F := F)) 𝒱₀ (c : Thread nD τ) none) Set.univ (k x) Q)
      -∗ wp frame (wpE (defs₀ (F := F)) 𝒱₀ (c : Thread nD τ) none) Set.univ (.op (.load s2M (Rect.unit (s := S2x336x1024) ![1, 176, 0] S1x160x1024.size hinb).toLoadRect hl) k) Q) :=
    op_load_part_sq m c s2M (Rect.unit (s := S2x336x1024) ![(1 : Fin 2).val, 0, 0] S1x336x1024.size (by decide)) (fun _ => rfl) S336x1024 squeezes_S1x336x1024_S336x1024 (Rect.unit (s := S2x336x1024) ![1, 176, 0] S1x160x1024.size hinb) (Rect.set_subset_of_span _ _ (fun _ => rfl) (fun a => by
      show (![(1 : Fin 2).val, 0, 0] : Fin 3 → ℕ) a ≤ (![1, 176, 0] : Fin 3 → ℕ) a
        ∧ (![1, 176, 0] : Fin 3 → ℕ) a + 1 * S1x160x1024.size a ≤ (![(1 : Fin 2).val, 0, 0] : Fin 3 → ℕ) a + S1x336x1024.size a + (1 - 1)
      revert a; decide)) f
  iapply H1 $$ Hp
  iintro %x Hp
  iapply Hk $$ %x
  iexists f
  isplitl [Hp]
  · iexact Hp
  · ipureintro; exact hf

theorem op_store_ss2_bot (X : Vec F S160x1024 .f32) {w : Vec F S1x160x1024 .f32}
    (hw : w = shapeCast S1x160x1024 X shapeCasts_S160x1024_S1x160x1024)
    (hX : X = prod160 (botB (sv2 m (xr c (mask 2 7)))) (bv m c)) {hinb : ∀ a, (![1, 176, 0] : Fin 3 → Nat) a + S1x160x1024.size a ≤ S2x336x1024.size a}
    {hx : ((s2M : Memref sig .tc .vmem S2x336x1024 .f32).access (Rect.unit (s := S2x336x1024) ![1, 176, 0] S1x160x1024.size hinb)).Stores Finset.univ} {hm : (Finset.univ : Finset (Rect.unit (s := S2x336x1024) ![1, 176, 0] S1x160x1024.size hinb).shape.Idx) = Finset.univ ∨ ∀ a, (Rect.unit (s := S2x336x1024) ![1, 176, 0] S1x160x1024.size hinb).stride a = 1}
    {α : Type} {Q : α → sProp 𝕄} {k : PUnit → Prog (TpuEff nD τ sig (Elt F) Λ₀ .tc) α} :
    stageTop2 m c ⊢ iprop((stageHas2 m c 7 -∗ wp frame (wpE (defs₀ (F := F)) 𝒱₀ (c : Thread nD τ) none) Set.univ (k ⟨⟩) Q)
      -∗ wp frame (wpE (defs₀ (F := F)) 𝒱₀ (c : Thread nD τ) none) Set.univ (.op (.store s2M (Rect.unit (s := S2x336x1024) ![1, 176, 0] S1x160x1024.size hinb) w Finset.univ hx hm) k) Q) := by
  subst hw
  unfold stageTop2 stageHas2
  iintro H Hk
  icases H with ⟨%f, Hp, %hf⟩
  have H1 : ((ss2 1).view.loc (c : Thread nD τ) ↦[(ss2 1).view.set]{fullShare} f) ⊢ iprop((((ss2 1).view.loc (c : Thread nD τ) ↦[(ss2 1).view.set]{fullShare} (((s2M : Memref sig .tc .vmem S2x336x1024 .f32).access (Rect.unit (s := S2x336x1024) ![1, 176, 0] S1x160x1024.size hinb)).write (Elt F) f (shapeCast S1x160x1024 X shapeCasts_S160x1024_S1x160x1024) Finset.univ)) -∗ wp frame (wpE (defs₀ (F := F)) 𝒱₀ (c : Thread nD τ) none) Set.univ (k ⟨⟩) Q)
      -∗ wp frame (wpE (defs₀ (F := F)) 𝒱₀ (c : Thread nD τ) none) Set.univ (.op (.store s2M (Rect.unit (s := S2x336x1024) ![1, 176, 0] S1x160x1024.size hinb) (shapeCast S1x160x1024 X shapeCasts_S160x1024_S1x160x1024) Finset.univ hx hm) k) Q) :=
    op_store_part_sq m c s2M (Rect.unit (s := S2x336x1024) ![(1 : Fin 2).val, 0, 0] S1x336x1024.size (by decide)) (fun _ => rfl) S336x1024 squeezes_S1x336x1024_S336x1024 (Rect.unit (s := S2x336x1024) ![1, 176, 0] S1x160x1024.size hinb) (Rect.set_subset_of_span _ _ (fun _ => rfl) (fun a => by
      show (![(1 : Fin 2).val, 0, 0] : Fin 3 → ℕ) a ≤ (![1, 176, 0] : Fin 3 → ℕ) a
        ∧ (![1, 176, 0] : Fin 3 → ℕ) a + 1 * S1x160x1024.size a ≤ (![(1 : Fin 2).val, 0, 0] : Fin 3 → ℕ) a + S1x336x1024.size a + (1 - 1)
      revert a; decide)) f
  iapply H1 $$ Hp
  iintro Hp
  iapply Hk
  iexists ((ss2 1).view.read (Elt F) (((s2M : Memref sig .tc .vmem S2x336x1024 .f32).access (Rect.unit (s := S2x336x1024) ![1, 176, 0] S1x160x1024.size hinb)).write (Elt F) f (shapeCast S1x160x1024 X shapeCasts_S160x1024_S1x160x1024) Finset.univ))
  isplitr
  · ipureintro
    unfold stageOK2
    rw [if_pos rfl]
    refine ⟨?_, ?_⟩
    · rw [hf.symm]
      funext i
      refine band_read_keep (V := (s2M : Memref sig .tc .vmem S2x336x1024 .f32).view) (P := 2) (Mr := 336) (N := 1024) (p := 1) (o := 176) (n := 160)
        (by decide) (by decide) squeezes_S1x336x1024_S336x1024.numel_eq f _ _ (fun h => ?_)
      have hi : ((i 0 : Fin 176) : ℕ) < 176 := (i 0).isLt
      change 176 ≤ 0 + 1 * ((i 0 : Fin 176) : ℕ) ∧ _ at h
      omega
    · rw [hX.symm]
      funext i
      exact band_read_write (V := (s2M : Memref sig .tc .vmem S2x336x1024 .f32).view) (P := 2) (Mr := 336) (N := 1024) (p := 1) (o := 176) (n := 160)
        (by decide) (by decide) (by decide) squeezes_S1x336x1024_S336x1024.numel_eq shapeCasts_S160x1024_S1x160x1024 f X i
  · simp only [holdsPts_eq]
    iexists (((s2M : Memref sig .tc .vmem S2x336x1024 .f32).access (Rect.unit (s := S2x336x1024) ![1, 176, 0] S1x160x1024.size hinb)).write (Elt F) f (shapeCast S1x160x1024 X shapeCasts_S160x1024_S1x160x1024) Finset.univ)
    isplitl [Hp]
    · iexact Hp
    · ipureintro; rfl

/-- info: 'Cert.Kernel.DM.op_store_ss0' depends on axioms: [propext, Classical.choice, Quot.sound] -/
#guard_msgs in #print axioms op_store_ss0

/-- info: 'Cert.Kernel.DM.op_store_ss0_bot' depends on axioms: [propext, Classical.choice, Quot.sound] -/
#guard_msgs in #print axioms op_store_ss0_bot

/-- info: 'Cert.Kernel.DM.op_store_ss1_bot' depends on axioms: [propext, Classical.choice, Quot.sound] -/
#guard_msgs in #print axioms op_store_ss1_bot

/-- info: 'Cert.Kernel.DM.op_store_ss2_bot' depends on axioms: [propext, Classical.choice, Quot.sound] -/
#guard_msgs in #print axioms op_store_ss2_bot

end Cert.Kernel.DM

end
-- ==== Proof.Bits.Parts_1_7.lean ====
import proofs.«900891_g7700000000000892_dist_matmul_m_i_outrep_m1024_n1024_k512_v7x_i8_f32_1_alg».proof.Proof.Bits.PartSpecs
import proofs.«900891_g7700000000000892_dist_matmul_m_i_outrep_m1024_n1024_k512_v7x_i8_f32_1_alg».proof.Proof.Bits.OpsSend
import proofs.«900891_g7700000000000892_dist_matmul_m_i_outrep_m1024_n1024_k512_v7x_i8_f32_1_alg».proof.Proof.Bits.OpsWait
import proofs.«900891_g7700000000000892_dist_matmul_m_i_outrep_m1024_n1024_k512_v7x_i8_f32_1_alg».proof.Proof.Bits.OpsStore
import proofs.«900891_g7700000000000892_dist_matmul_m_i_outrep_m1024_n1024_k512_v7x_i8_f32_1_alg».proof.Proof.Bits.OpsCopy
import proofs.«900891_g7700000000000892_dist_matmul_m_i_outrep_m1024_n1024_k512_v7x_i8_f32_1_alg».proof.Proof.Bits.Launch

/-!
The first seven parts of a device's body, each run from the pieces of state its steps consume to the pieces they
leave: the three entry signals and the fills of slot 0 of the gather buffers, the wait on the own barrier, the first
nine transfers, the narrowed right factor, and the first product block of each group stored and copied out.
-/

set_option maxRecDepth 16384

noncomputable section

namespace Cert.Kernel.DM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ)

/-! ## A filled slot as a transfer's source -/

private theorem src_g0 (c : Dev nD) (st k : Fin 8) (q : PosShare TreeShare) (hk : srcSlot st = k) (hq : qs st = q) :
    slotHas m c 0 k q ⊢ holdsPts c (gs0 (srcSlot st)) (qs st) (sv0 m (xr c (mask 0 (srcSlot st)))) := by
  subst hk hq; exact Entails.of_eq rfl
private theorem src_g1 (c : Dev nD) (st k : Fin 8) (q : PosShare TreeShare) (hk : srcSlot st = k) (hq : qs st = q) :
    slotHas m c 1 k q ⊢ holdsPts c (gs1 (srcSlot st)) (qs st) (sv1 m (xr c (mask 1 (srcSlot st)))) := by
  subst hk hq; exact Entails.of_eq rfl
private theorem src_g2 (c : Dev nD) (st k : Fin 8) (q : PosShare TreeShare) (hk : srcSlot st = k) (hq : qs st = q) :
    slotHas m c 2 k q ⊢ holdsPts c (gs2 (srcSlot st)) (qs st) (sv2 m (xr c (mask 2 (srcSlot st)))) := by
  subst hk hq; exact Entails.of_eq rfl

/-! ## The targets handed to each neighbour at entry; slot 0 once filled -/

omit [FloatOps F] in
private theorem towards0_intro (c : Dev nD) :
    iprop(dstAny (F := F) c 0 0 ∗ dstAny c 1 3 ∗ dstAny c 1 4 ∗ dstAny c 1 5 ∗ dstAny c 1 6 ∗ dstAny c 1 7 ∗ dstAny c 2 1 ∗ dstAny c 2 2)
      ⊢ bigSep (towards 0) fun gs : Fin 3 × Fin 8 => dstAny (F := F) c gs.1 gs.2 :=
  by
  rw [bigSep_eq_bigSepL_of_eq (S := towards 0) [(0, 0), (1, 3), (1, 4), (1, 5), (1, 6), (1, 7), (2, 1), (2, 2)] (by decide) (by decide)]
  exact .rfl
omit [FloatOps F] in
private theorem towards1_intro (c : Dev nD) :
    iprop(dstAny (F := F) c 0 1 ∗ dstAny c 0 2 ∗ dstAny c 1 0 ∗ dstAny c 2 3 ∗ dstAny c 2 4 ∗ dstAny c 2 5 ∗ dstAny c 2 6 ∗ dstAny c 2 7)
      ⊢ bigSep (towards 1) fun gs : Fin 3 × Fin 8 => dstAny (F := F) c gs.1 gs.2 :=
  by
  rw [bigSep_eq_bigSepL_of_eq (S := towards 1) [(0, 1), (0, 2), (1, 0), (2, 3), (2, 4), (2, 5), (2, 6), (2, 7)] (by decide) (by decide)]
  exact .rfl
omit [FloatOps F] in
private theorem towards2_intro (c : Dev nD) :
    iprop(dstAny (F := F) c 0 3 ∗ dstAny c 0 4 ∗ dstAny c 0 5 ∗ dstAny c 0 6 ∗ dstAny c 0 7 ∗ dstAny c 1 1 ∗ dstAny c 1 2 ∗ dstAny c 2 0)
      ⊢ bigSep (towards 2) fun gs : Fin 3 × Fin 8 => dstAny (F := F) c gs.1 gs.2 :=
  by
  rw [bigSep_eq_bigSepL_of_eq (S := towards 2) [(0, 3), (0, 4), (0, 5), (0, 6), (0, 7), (1, 1), (1, 2), (2, 0)] (by decide) (by decide)]
  exact .rfl

private theorem fill0 (c : Dev nD) : holdsPts c (gs0 0) fullShare (sv0 m c) ⊢ slotHas m c 0 0 fullShare := by
  have e : slotHas m c 0 0 fullShare = holdsPts c (gs0 0) fullShare (sv0 m c) := by
    show holdsPts c (gs0 0) fullShare (sv0 m (xr c (mask 0 0))) = _
    rw [show mask 0 0 = 0 from rfl, xr_zero]
  rw [e]
private theorem fill1 (c : Dev nD) : holdsPts c (gs1 0) fullShare (sv1 m c) ⊢ slotHas m c 1 0 fullShare := by
  have e : slotHas m c 1 0 fullShare = holdsPts c (gs1 0) fullShare (sv1 m c) := by
    show holdsPts c (gs1 0) fullShare (sv1 m (xr c (mask 1 0))) = _
    rw [show mask 1 0 = 0 from rfl, xr_zero]
  rw [e]

/-! ## What is owed after the entry signals lies above the barrier's level -/

private theorem above1_drop3 (c : Dev nD) : Above 1 (Orem ((payList c).drop 3)) := by
  have hs (g : Fin 3) (st : Fin 8) : Above 1 (owedStep c g st) := above_owedStep c g st (by revert st; decide)
  refine above_Orem ?_
  unfold payList
  simp only [List.drop_succ_cons, List.drop_zero, List.forall_mem_cons, hs, true_and]
  intro x hx; cases hx

/-- The twenty-four targets handed over at the barrier, one by one. -/
private theorem dst_all (c : Dev nD) :
    (bigSep Finset.univ fun gs : Fin 3 × Fin 8 => dstAny (F := F) (partner c gs.1 gs.2) gs.1 gs.2)
      ⊢ iprop(dstAny (F := F) (partner c 0 0) 0 0 ∗ dstAny (partner c 0 1) 0 1 ∗ dstAny (partner c 0 2) 0 2 ∗ dstAny (partner c 0 3) 0 3
        ∗ dstAny (partner c 0 4) 0 4 ∗ dstAny (partner c 0 5) 0 5 ∗ dstAny (partner c 0 6) 0 6 ∗ dstAny (partner c 0 7) 0 7
        ∗ dstAny (partner c 1 0) 1 0 ∗ dstAny (partner c 1 1) 1 1 ∗ dstAny (partner c 1 2) 1 2 ∗ dstAny (partner c 1 3) 1 3
        ∗ dstAny (partner c 1 4) 1 4 ∗ dstAny (partner c 1 5) 1 5 ∗ dstAny (partner c 1 6) 1 6 ∗ dstAny (partner c 1 7) 1 7
        ∗ dstAny (partner c 2 0) 2 0 ∗ dstAny (partner c 2 1) 2 1 ∗ dstAny (partner c 2 2) 2 2 ∗ dstAny (partner c 2 3) 2 3
        ∗ dstAny (partner c 2 4) 2 4 ∗ dstAny (partner c 2 5) 2 5 ∗ dstAny (partner c 2 6) 2 6 ∗ dstAny (partner c 2 7) 2 7) :=
  Entails.of_eq (bigSep_gk _)

/-- The third group's slot 0 once the narrowed rows of the device's own block are stored in it. -/
private theorem fill2 (c : Dev nD) :
    holdsPts c (gs2 0) fullShare (shapeCast S1x336x512 (rows2 m c) shapeCasts_S336x512_S1x336x512) ⊢ slotHas m c 2 0 fullShare := by
  have e : slotHas m c 2 0 fullShare = holdsPts c (gs2 0) fullShare (sv2 m c) := by
    show holdsPts c (gs2 0) fullShare (sv2 m (xr c (mask 2 0))) = _
    rw [show mask 2 0 = 0 from rfl, xr_zero]
  rw [e]; exact Entails.of_eq rfl

/-! ## A product block in its stage slot -/

private theorem stageHas0_of (c : Dev nD) (j : Fin 8) (p : Fin 2) (hp : par j = p) (hj : j ≠ 7) :
    holdsPts c (ss0 p) fullShare (prod352 (sv0 m (xr c (mask 0 j))) (bv m c)) ⊢ stageHas0 m c j := by
  subst hp
  unfold stageHas0
  iintro H
  iexists _
  isplitr
  · ipureintro; unfold stageOK0; rw [if_neg hj]
  · iexact H
private theorem stageHas1_of (c : Dev nD) (j : Fin 8) (p : Fin 2) (hp : par j = p) (hj : j ≠ 7) :
    holdsPts c (ss1 p) fullShare (prod336 (sv1 m (xr c (mask 1 j))) (bv m c)) ⊢ stageHas1 m c j := by
  subst hp
  unfold stageHas1
  iintro H
  iexists _
  isplitr
  · ipureintro; unfold stageOK1; rw [if_neg hj]
  · iexact H
private theorem stageHas2_of (c : Dev nD) (j : Fin 8) (p : Fin 2) (hp : par j = p) (hj : j ≠ 7) :
    holdsPts c (ss2 p) fullShare (prod336 (sv2 m (xr c (mask 2 j))) (bv m c)) ⊢ stageHas2 m c j := by
  subst hp
  unfold stageHas2
  iintro H
  iexists _
  isplitr
  · ipureintro; unfold stageOK2; rw [if_neg hj]
  · iexact H

/-! ## Everything still owed lies above level 0 -/

private theorem owed_above0 (c : Dev nD) : ∀ x ∈ payList c, Above 0 x := by
  have hb (d : Fin 3) : Above 0 (owedBar c d) := above_owedBar c d
  have hs (g : Fin 3) (st : Fin 8) : Above 0 (owedStep c g st) := above_owedStep c g st (by revert st; decide)
  unfold payList
  simp only [List.forall_mem_cons, hb, hs, true_and]
  intro x hx; cases hx

private theorem rest_above0 (c : Dev nD) (n : ℕ) : Above 0 (Orem ((payList c).drop n)) :=
  above_Orem fun x hx => owed_above0 c x (List.mem_of_mem_drop hx)

/-- Part 1: the three entry signals, the fills of slot 0 of groups 0 and 1, and the load of the third group's rows. -/
theorem part1 : Part1Spec m K := by
  intro c Kt
  simp only [k0_part1, semSignalWord, semWaitWord, Prog.lift, Prog.bind_op, Prog.bind_ret, Prog.pure_eq_ret, wp_deviceId]
  iintro ⟨#Hrec, #Hlev, Ht0, A00, A13, A14, A15, A16, A17, A21, A22, ⟨%W, HO⟩, Ht1, B01, B02, B10, B23, B24, B25, B26, B27,
    Ht2, C03, C04, C05, C06, C07, C11, C12, C20, HA, Hs0, Hs1, HK⟩
  ihave Hd0 := (towards0_intro (F := F) c) $$ [A00 A13 A14 A15 A16 A17 A21 A22]
  · isplitl [A00]; · iexact A00
    isplitl [A13]; · iexact A13
    isplitl [A14]; · iexact A14
    isplitl [A15]; · iexact A15
    isplitl [A16]; · iexact A16
    isplitl [A17]; · iexact A17
    isplitl [A21]; · iexact A21
    iexact A22
  iapply (op_signal m K c 0 (dev1_eq c) (by decide) (Orem ((payList c).drop 1)) W) $$ [HO Ht0 Hd0]
  · isplitr; · iexact Hrec
    isplitl [HO]; · iexact HO
    isplitl [Ht0]; · iexact Ht0
    iexact Hd0
  iintro HO
  ihave Hd1 := (towards1_intro (F := F) c) $$ [B01 B02 B10 B23 B24 B25 B26 B27]
  · isplitl [B01]; · iexact B01
    isplitl [B02]; · iexact B02
    isplitl [B10]; · iexact B10
    isplitl [B23]; · iexact B23
    isplitl [B24]; · iexact B24
    isplitl [B25]; · iexact B25
    isplitl [B26]; · iexact B26
    iexact B27
  iapply (op_signal m K c 1 (dev2_eq c) (by decide) (Orem ((payList c).drop 2)) W) $$ [HO Ht1 Hd1]
  · isplitr; · iexact Hrec
    isplitl [HO]; · iexact HO
    isplitl [Ht1]; · iexact Ht1
    iexact Hd1
  iintro HO
  ihave Hd2 := (towards2_intro (F := F) c) $$ [C03 C04 C05 C06 C07 C11 C12 C20]
  · isplitl [C03]; · iexact C03
    isplitl [C04]; · iexact C04
    isplitl [C05]; · iexact C05
    isplitl [C06]; · iexact C06
    isplitl [C07]; · iexact C07
    isplitl [C11]; · iexact C11
    isplitl [C12]; · iexact C12
    iexact C20
  iapply (op_signal m K c 2 (dev3_eq c) (by decide) (Orem ((payList c).drop 3)) W) $$ [HO Ht2 Hd2]
  · isplitr; · iexact Hrec
    isplitl [HO]; · iexact HO
    isplitl [Ht2]; · iexact Ht2
    iexact Hd2
  iintro HO
  iapply (op_load_A m c _) $$ HA; iintro HA
  ihave Hs0 := (Entails.of_eq (show slotAny (F := F) c 0 0 = anyPts c (gs0 0) from rfl)) $$ Hs0
  iapply (op_load_gs0_any m c 0) $$ Hs0; iintro %x0 Hs0
  iapply (op_store_gs0 m c 0 (w := sv0 m c)) $$ Hs0; iintro Hs0
  ihave Hs0 := (fill0 m c) $$ Hs0
  ihave Hs0 := (slot0_cut m c 0) $$ Hs0
  icases Hs0 with ⟨Hs0a, Hs0b, Hs0c, Hs0d⟩
  iapply (op_load_A m c _) $$ HA; iintro HA
  ihave Hs1 := (Entails.of_eq (show slotAny (F := F) c 1 0 = anyPts c (gs1 0) from rfl)) $$ Hs1
  iapply (op_load_gs1_any m c 0) $$ Hs1; iintro %x1 Hs1
  iapply (op_store_gs1 m c 0 (w := sv1 m c)) $$ Hs1; iintro Hs1
  ihave Hs1 := (fill1 m c) $$ Hs1
  ihave Hs1 := (slot0_cut m c 1) $$ Hs1
  icases Hs1 with ⟨Hs1a, Hs1b, Hs1c, Hs1d⟩
  iapply (op_load_A m c _) $$ HA; iintro HA
  rw [wp_ret]; imodintro
  iapply HK $$ %_ %⟨rfl, rfl, rfl⟩
  isplitl [HO]; · iexists W; iexact HO
  isplitl [HA]; · iexact HA
  isplitl [Hs0a]; · iexact Hs0a
  isplitl [Hs0b]; · iexact Hs0b
  isplitl [Hs0c]; · iexact Hs0c
  isplitl [Hs0d]; · iexact Hs0d
  isplitl [Hs1a]; · iexact Hs1a
  isplitl [Hs1b]; · iexact Hs1b
  isplitl [Hs1c]; · iexact Hs1c
  iexact Hs1d

/-- Part 2: the fill of slot 0 of group 2, the wait on the own barrier, the transfers of step 0 of groups 0 and 1. -/
theorem part2 : Part2Spec m K := by
  intro c v2 Kt
  simp only [k0_part2, semSignalWord, semWaitWord, Prog.lift, Prog.bind_op, Prog.bind_ret, Prog.pure_eq_ret, wp_deviceId]
  iintro ⟨#Hrec, #Hlev, Hs2, Hcb, Hatb, ⟨%W, HO⟩, Hs00, Hts00, Htr00, Hs10, Hts10, Htr10, HK⟩
  ihave Hs2 := (Entails.of_eq (show slotAny (F := F) c 2 0 = anyPts c (gs2 0) from rfl)) $$ Hs2
  iapply (op_load_gs2_any m c 0) $$ Hs2; iintro %x Hs2
  iapply (op_store_gs2 m c 0) $$ Hs2; iintro Hs2
  ihave Hs2 := (fill2 m c) $$ Hs2
  ihave Hs2 := (slot0_cut m c 2) $$ Hs2
  icases Hs2 with ⟨Hs2a, Hs2b, Hs2c, Hs2d⟩
  iapply (op_barwait m K c (by decide) (Orem ((payList c).drop 3)) (above1_drop3 c) W) $$ [Hcb Hatb HO]
  · isplitr; · iexact Hrec
    isplitr; · iexact Hlev
    isplitl [Hcb]; · iexact Hcb
    isplitl [Hatb]; · iexact Hatb
    iexact HO
  iintro ⟨HO, Hatb, Hdst⟩
  ihave Hdst := (dst_all c) $$ Hdst
  icases Hdst with ⟨D00, D01, D02, D03, D04, D05, D06, D07, D10, D11, D12, D13, D14, D15, D16, D17, D20, D21, D22, D23, D24, D25, D26, D27⟩
  iapply (op_send_g0 m K c 0 (by decide) (dev4_eq c) (by decide +kernel) (by decide +kernel) (Orem ((payList c).drop 4)) (insert (SemLoc.reg barS, ()) W)) $$ [Hs00 D00 HO Hts00 Htr00]
  · isplitr; · iexact Hrec
    isplitl [Hs00]; · iapply (src_g0 m c 0 0 fullShare.left.left.left rfl rfl); iexact Hs00
    isplitl [D00]; · iexact D00
    isplitl [HO]; · iexact HO
    isplitl [Hts00]; · iexact Hts00
    iexact Htr00
  iintro ⟨Hc00, HO⟩
  iapply (op_send_g1 m K c 0 (by decide) (dev5_eq c) (by decide +kernel) (by decide +kernel) (Orem ((payList c).drop 5)) (insert (SemLoc.reg barS, ()) W)) $$ [Hs10 D10 HO Hts10 Htr10]
  · isplitr; · iexact Hrec
    isplitl [Hs10]; · iapply (src_g1 m c 0 0 fullShare.left.left.left rfl rfl); iexact Hs10
    isplitl [D10]; · iexact D10
    isplitl [HO]; · iexact HO
    isplitl [Hts10]; · iexact Hts10
    iexact Htr10
  iintro ⟨Hc10, HO⟩
  rw [wp_ret]; imodintro
  iapply HK
  isplitl [Hs2a]; · iexact Hs2a
  isplitl [Hs2b]; · iexact Hs2b
  isplitl [Hs2c]; · iexact Hs2c
  isplitl [Hs2d]; · iexact Hs2d
  isplitl [Hatb]; · iexact Hatb
  isplitl [D01]; · iexact D01
  isplitl [D02]; · iexact D02
  isplitl [D03]; · iexact D03
  isplitl [D04]; · iexact D04
  isplitl [D05]; · iexact D05
  isplitl [D06]; · iexact D06
  isplitl [D07]; · iexact D07
  isplitl [D11]; · iexact D11
  isplitl [D12]; · iexact D12
  isplitl [D13]; · iexact D13
  isplitl [D14]; · iexact D14
  isplitl [D15]; · iexact D15
  isplitl [D16]; · iexact D16
  isplitl [D17]; · iexact D17
  isplitl [D20]; · iexact D20
  isplitl [D21]; · iexact D21
  isplitl [D22]; · iexact D22
  isplitl [D23]; · iexact D23
  isplitl [D24]; · iexact D24
  isplitl [D25]; · iexact D25
  isplitl [D26]; · iexact D26
  isplitl [D27]; · iexact D27
  isplitl [Hc00]; · iexact Hc00
  isplitl [HO]; · iexists (insert (SemLoc.reg barS, ()) W); iexact HO
  iexact Hc10

/-- Part 3: the transfers of step 0 of group 2 and of step 1 of group 0. -/
theorem part3 : Part3Spec m K := by
  intro c v2 v49 Kt
  simp only [k0_part3, semSignalWord, semWaitWord, Prog.lift, Prog.bind_op, Prog.bind_ret, Prog.pure_eq_ret, wp_deviceId]
  iintro ⟨#Hrec, #Hlev, Hs20, Hd20, Hts20, Htr20, ⟨%W, HO⟩, Hs01, Hd01, Hts01, Htr01, HK⟩
  iapply (op_send_g2 m K c 0 (by decide) (dev6_eq c) (by decide +kernel) (by decide +kernel) (Orem ((payList c).drop 6)) W) $$ [Hs20 Hd20 HO Hts20 Htr20]
  · isplitr; · iexact Hrec
    isplitl [Hs20]; · iapply (src_g2 m c 0 0 fullShare.left.left.left rfl rfl); iexact Hs20
    isplitl [Hd20]; · iexact Hd20
    isplitl [HO]; · iexact HO
    isplitl [Hts20]; · iexact Hts20
    iexact Htr20
  iintro ⟨Hc20, HO⟩
  iapply (op_send_g0 m K c 1 (by decide) (dev7_eq c) (by decide +kernel) (by decide +kernel) (Orem ((payList c).drop 7)) W) $$ [Hs01 Hd01 HO Hts01 Htr01]
  · isplitr; · iexact Hrec
    isplitl [Hs01]; · iapply (src_g0 m c 1 0 fullShare.left.left.right rfl rfl); iexact Hs01
    isplitl [Hd01]; · iexact Hd01
    isplitl [HO]; · iexact HO
    isplitl [Hts01]; · iexact Hts01
    iexact Htr01
  iintro ⟨Hc01, HO⟩
  rw [wp_ret]; imodintro
  iapply HK
  isplitl [Hc20]; · iexact Hc20
  isplitl [HO]; · iexists W; iexact HO
  iexact Hc01

/-- Part 4: the transfers of step 1 of groups 1 and 2 and of step 3 of group 0. -/
theorem part4 : Part4Spec m K := by
  intro c v2 Kt
  simp only [k0_part4, semSignalWord, semWaitWord, Prog.lift, Prog.bind_op, Prog.bind_ret, Prog.pure_eq_ret, wp_deviceId]
  iintro ⟨#Hrec, #Hlev, Hs11, Hd11, Hts11, Htr11, ⟨%W, HO⟩, Hs21, Hd21, Hts21, Htr21, Hs03, Hd03, Hts03, Htr03, HK⟩
  iapply (op_send_g1 m K c 1 (by decide) (dev8_eq c) (by decide +kernel) (by decide +kernel) (Orem ((payList c).drop 8)) W) $$ [Hs11 Hd11 HO Hts11 Htr11]
  · isplitr; · iexact Hrec
    isplitl [Hs11]; · iapply (src_g1 m c 1 0 fullShare.left.left.right rfl rfl); iexact Hs11
    isplitl [Hd11]; · iexact Hd11
    isplitl [HO]; · iexact HO
    isplitl [Hts11]; · iexact Hts11
    iexact Htr11
  iintro ⟨Hc11, HO⟩
  iapply (op_send_g2 m K c 1 (by decide) (dev9_eq c) (by decide +kernel) (by decide +kernel) (Orem ((payList c).drop 9)) W) $$ [Hs21 Hd21 HO Hts21 Htr21]
  · isplitr; · iexact Hrec
    isplitl [Hs21]; · iapply (src_g2 m c 1 0 fullShare.left.left.right rfl rfl); iexact Hs21
    isplitl [Hd21]; · iexact Hd21
    isplitl [HO]; · iexact HO
    isplitl [Hts21]; · iexact Hts21
    iexact Htr21
  iintro ⟨Hc21, HO⟩
  iapply (op_send_g0 m K c 3 (by decide) (dev10_eq c) (by decide +kernel) (by decide +kernel) (Orem ((payList c).drop 10)) W) $$ [Hs03 Hd03 HO Hts03 Htr03]
  · isplitr; · iexact Hrec
    isplitl [Hs03]; · iapply (src_g0 m c 3 0 fullShare.left.right rfl rfl); iexact Hs03
    isplitl [Hd03]; · iexact Hd03
    isplitl [HO]; · iexact HO
    isplitl [Hts03]; · iexact Hts03
    iexact Htr03
  iintro ⟨Hc03, HO⟩
  rw [wp_ret]; imodintro
  iapply HK
  isplitl [Hc11]; · iexact Hc11
  isplitl [Hc21]; · iexact Hc21
  isplitl [HO]; · iexists W; iexact HO
  iexact Hc03

/-- Part 5: the transfers of step 3 of groups 1 and 2, the narrowed right factor, and the loads of the first product of
    group 0. -/
theorem part5 : Part5Spec m K := by
  intro c v2 v95 c0_i32_118 Kt
  simp only [k0_part5, semSignalWord, semWaitWord, Prog.lift, Prog.bind_op, Prog.bind_ret, Prog.pure_eq_ret, wp_deviceId]
  iintro ⟨#Hrec, #Hlev, Hs13, Hd13, Hts13, Htr13, ⟨%W, HO⟩, Hs23, Hd23, Hts23, Htr23, HB, Hb16, Hs00, HK⟩
  iapply (op_send_g1 m K c 3 (by decide) (dev11_eq c) (by decide +kernel) (by decide +kernel) (Orem ((payList c).drop 11)) W) $$ [Hs13 Hd13 HO Hts13 Htr13]
  · isplitr; · iexact Hrec
    isplitl [Hs13]; · iapply (src_g1 m c 3 0 fullShare.left.right rfl rfl); iexact Hs13
    isplitl [Hd13]; · iexact Hd13
    isplitl [HO]; · iexact HO
    isplitl [Hts13]; · iexact Hts13
    iexact Htr13
  iintro ⟨Hc13, HO⟩
  iapply (op_send_g2 m K c 3 (by decide) (dev12_eq c) (by decide +kernel) (by decide +kernel) (Orem ((payList c).drop 12)) W) $$ [Hs23 Hd23 HO Hts23 Htr23]
  · isplitr; · iexact Hrec
    isplitl [Hs23]; · iapply (src_g2 m c 3 0 fullShare.left.right rfl rfl); iexact Hs23
    isplitl [Hd23]; · iexact Hd23
    isplitl [HO]; · iexact HO
    isplitl [Hts23]; · iexact Hts23
    iexact Htr23
  iintro ⟨Hc23, HO⟩
  iapply (op_load_B m c _) $$ HB; iintro HB
  iapply (op_load_b16_any m c) $$ Hb16; iintro %x Hb16
  iapply (op_store_b16 m c (w := bv m c)) $$ Hb16; iintro Hb16
  ihave Hs00 := (Entails.of_eq (show slotHas m c 0 0 fullShare.right = holdsPts c (gs0 0) fullShare.right (sv0 m (xr c (mask 0 0))) from rfl)) $$ Hs00
  iapply (op_load_gs0 m c 0 fullShare.right _) $$ Hs00; iintro Hs00
  iapply (op_load_b16 m c fullShare _) $$ Hb16; iintro Hb16
  rw [wp_ret]; imodintro
  iapply HK $$ %_ %rfl
  isplitl [Hc13]; · iexact Hc13
  isplitl [HO]; · iexists W; iexact HO
  isplitl [Hc23]; · iexact Hc23
  isplitl [HB]; · iexact HB
  isplitl [Hb16]; · iexact Hb16
  iapply (Entails.of_eq (show holdsPts c (gs0 0) fullShare.right (sv0 m (xr c (mask 0 0))) = slotHas m c 0 0 fullShare.right from rfl)); iexact Hs00

/-- Part 6: the first product blocks of groups 0 and 1 stored into their stage slots and copied into the result. -/
theorem part6 : Part6Spec m K := by
  intro c v2 Kt
  simp only [k0_part6, semSignalWord, semWaitWord, Prog.lift, Prog.bind_op, Prog.bind_ret, Prog.pure_eq_ret, wp_deviceId]
  iintro ⟨#Hrec, #Hlev, Hst0, Hp0, Htc0, Hs10, Hb16, Hst1, Hp1, Htc1, HK⟩
  ihave Hst0 := (Entails.of_eq (show stageAny (F := F) c 0 0 = anyPts c (ss0 0) from rfl)) $$ Hst0
  iapply (op_load_ss0_any m c 0) $$ Hst0; iintro %x Hst0
  iapply (op_store_ss0 m c 0 (prod352 (sv0 m (xr c (mask 0 0))) (bv m c)) rfl) $$ Hst0; iintro Hst0
  ihave Hst0 := (stageHas0_of m c 0 0 rfl (by decide)) $$ Hst0
  iapply (op_copy0 m K c 0 0 0 rfl rfl) $$ [Hst0 Hp0 Htc0]
  · isplitr; · iexact Hrec
    isplitl [Hst0]; · iexact Hst0
    isplitl [Hp0]; · iexact Hp0
    iexact Htc0
  iintro Hcc0
  ihave Hs10 := (Entails.of_eq (show slotHas m c 1 0 fullShare.right = holdsPts c (gs1 0) fullShare.right (sv1 m (xr c (mask 1 0))) from rfl)) $$ Hs10
  iapply (op_load_gs1 m c 0 fullShare.right _) $$ Hs10; iintro Hs10
  iapply (op_load_b16 m c fullShare _) $$ Hb16; iintro Hb16
  ihave Hst1 := (Entails.of_eq (show stageAny (F := F) c 1 0 = anyPts c (ss1 0) from rfl)) $$ Hst1
  iapply (op_load_ss1_any m c 0) $$ Hst1; iintro %y Hst1
  iapply (op_store_ss1 m c 0 (prod336 (sv1 m (xr c (mask 1 0))) (bv m c)) rfl) $$ Hst1; iintro Hst1
  ihave Hst1 := (stageHas1_of m c 0 0 rfl (by decide)) $$ Hst1
  iapply (op_copy1 m K c 0 0 0 rfl rfl) $$ [Hst1 Hp1 Htc1]
  · isplitr; · iexact Hrec
    isplitl [Hst1]; · iexact Hst1
    isplitl [Hp1]; · iexact Hp1
    iexact Htc1
  iintro Hcc1
  rw [wp_ret]; imodintro
  iapply HK
  isplitl [Hcc0]; · iexact Hcc0
  isplitl [Hs10]; · iapply (Entails.of_eq (show holdsPts c (gs1 0) fullShare.right (sv1 m (xr c (mask 1 0))) = slotHas m c 1 0 fullShare.right from rfl)); iexact Hs10
  isplitl [Hb16]; · iexact Hb16
  iexact Hcc1

/-- Part 7: the first product block of group 2 stored and copied out, and the wait on the send cell of step 0 of group 0. -/
theorem part7 : Part7Spec m K := by
  intro c v2 v31 Kt
  simp only [k0_part7, semSignalWord, semWaitWord, Prog.lift, Prog.bind_op, Prog.bind_ret, Prog.pure_eq_ret, wp_deviceId]
  iintro ⟨#Hrec, #Hlev, Hs20, Hb16, Hst2, Hp2, Htc2, Hcs, Hat, ⟨%W, HO⟩, HK⟩
  ihave Hs20 := (Entails.of_eq (show slotHas m c 2 0 fullShare.right = holdsPts c (gs2 0) fullShare.right (sv2 m (xr c (mask 2 0))) from rfl)) $$ Hs20
  iapply (op_load_gs2 m c 0 fullShare.right _) $$ Hs20; iintro Hs20
  iapply (op_load_b16 m c fullShare _) $$ Hb16; iintro Hb16
  ihave Hst2 := (Entails.of_eq (show stageAny (F := F) c 2 0 = anyPts c (ss2 0) from rfl)) $$ Hst2
  iapply (op_load_ss2_any m c 0) $$ Hst2; iintro %y Hst2
  iapply (op_store_ss2 m c 0 (prod336 (sv2 m (xr c (mask 2 0))) (bv m c)) rfl) $$ Hst2; iintro Hst2
  ihave Hst2 := (stageHas2_of m c 0 0 rfl (by decide)) $$ Hst2
  iapply (op_copy2 m K c 0 0 0 rfl rfl) $$ [Hst2 Hp2 Htc2]
  · isplitr; · iexact Hrec
    isplitl [Hst2]; · iexact Hst2
    isplitl [Hp2]; · iexact Hp2
    iexact Htc2
  iintro Hcc2
  iapply (wait_send' m K c 0 0 (Orem ((payList c).drop 12)) W (rest_above0 c 12) (src := gs0 1) (dst := gs0 0) (Q := Kt)) $$ [Hcs Hat HO]
  · isplitr; · iexact Hrec
    isplitr; · iexact Hlev
    isplitl [Hcs]; · iexact Hcs
    isplitl [Hat]; · iexact Hat
    iexact HO
  iintro ⟨Hpay, Hat, HO⟩
  ihave Hpay := (Entails.of_eq (show sendPay m c 0 0 = slotHas m c 0 0 fullShare.left.left.left from rfl)) $$ Hpay
  rw [wp_ret]; imodintro
  iapply HK
  isplitl [Hs20]; · iapply (Entails.of_eq (show holdsPts c (gs2 0) fullShare.right (sv2 m (xr c (mask 2 0))) = slotHas m c 2 0 fullShare.right from rfl)); iexact Hs20
  isplitl [Hb16]; · iexact Hb16
  isplitl [Hcc2]; · iexact Hcc2
  isplitl [HO]; · iexists (insert (SemLoc.dma (sendS 0 0), ()) W); iexact HO
  isplitl [Hat]; · iexact Hat
  iexact Hpay

/-- info: 'Cert.Kernel.DM.part1' depends on axioms: [propext, Classical.choice, Quot.sound] -/
#guard_msgs in #print axioms part1

/-- info: 'Cert.Kernel.DM.part2' depends on axioms: [propext, Classical.choice, Quot.sound] -/
#guard_msgs in #print axioms part2

/-- info: 'Cert.Kernel.DM.part3' depends on axioms: [propext, Classical.choice, Quot.sound] -/
#guard_msgs in #print axioms part3

/-- info: 'Cert.Kernel.DM.part4' depends on axioms: [propext, Classical.choice, Quot.sound] -/
#guard_msgs in #print axioms part4

/-- info: 'Cert.Kernel.DM.part5' depends on axioms: [propext, Classical.choice, Quot.sound] -/
#guard_msgs in #print axioms part5

/-- info: 'Cert.Kernel.DM.part6' depends on axioms: [propext, Classical.choice, Quot.sound] -/
#guard_msgs in #print axioms part6

/-- info: 'Cert.Kernel.DM.part7' depends on axioms: [propext, Classical.choice, Quot.sound] -/
#guard_msgs in #print axioms part7

end Cert.Kernel.DM

end
-- ==== Proof.Bits.Parts_8_15.lean ====
import proofs.«900891_g7700000000000892_dist_matmul_m_i_outrep_m1024_n1024_k512_v7x_i8_f32_1_alg».proof.Proof.Bits.PartSpecs
import proofs.«900891_g7700000000000892_dist_matmul_m_i_outrep_m1024_n1024_k512_v7x_i8_f32_1_alg».proof.Proof.Bits.OpsSend
import proofs.«900891_g7700000000000892_dist_matmul_m_i_outrep_m1024_n1024_k512_v7x_i8_f32_1_alg».proof.Proof.Bits.OpsWait
import proofs.«900891_g7700000000000892_dist_matmul_m_i_outrep_m1024_n1024_k512_v7x_i8_f32_1_alg».proof.Proof.Bits.OpsStore
import proofs.«900891_g7700000000000892_dist_matmul_m_i_outrep_m1024_n1024_k512_v7x_i8_f32_1_alg».proof.Proof.Bits.OpsCopy
import proofs.«900891_g7700000000000892_dist_matmul_m_i_outrep_m1024_n1024_k512_v7x_i8_f32_1_alg».proof.Proof.Bits.Launch

/-!
The runs of parts 8 to 15 of a device's body: the waits that close the first two rounds of the exchange, the transfers
those waits free, and the second product block of each group stored and copied out. Each part is stepped one effect at
a time from the pieces of state its statement lists, and hands the statement's pieces on.
-/

set_option maxRecDepth 16384

noncomputable section

namespace Cert.Kernel.DM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What is still owed lies above the waited cells -/

theorem p8_above2_drop12 (c : Dev nD) : Above 2 (Orem ((payList c).drop 12)) := by
  refine above_Orem fun x hx => ?_
  rw [show (payList c).drop 12 = [owedStep c 0 2, owedStep c 0 4, owedStep c 1 2, owedStep c 1 4, owedStep c 2 2, owedStep c 2 4, owedStep c 0 5, owedStep c 1 5, owedStep c 2 5, owedStep c 0 6, owedStep c 0 7, owedStep c 1 6, owedStep c 1 7, owedStep c 2 6, owedStep c 2 7] from rfl] at hx
  simp only [List.mem_cons, List.not_mem_nil, or_false] at hx
  rcases hx with rfl | rfl | rfl | rfl | rfl | rfl | rfl | rfl | rfl | rfl | rfl | rfl | rfl | rfl | rfl
  all_goals exact above_owedStep c _ _ (by decide)
theorem p8_above0_drop12 (c : Dev nD) : Above 0 (Orem ((payList c).drop 12)) := above_mono (p8_above2_drop12 c) (by decide)

theorem p8_above2_drop14 (c : Dev nD) : Above 2 (Orem ((payList c).drop 14)) := by
  refine above_Orem fun x hx => ?_
  rw [show (payList c).drop 14 = [owedStep c 1 2, owedStep c 1 4, owedStep c 2 2, owedStep c 2 4, owedStep c 0 5, owedStep c 1 5, owedStep c 2 5, owedStep c 0 6, owedStep c 0 7, owedStep c 1 6, owedStep c 1 7, owedStep c 2 6, owedStep c 2 7] from rfl] at hx
  simp only [List.mem_cons, List.not_mem_nil, or_false] at hx
  rcases hx with rfl | rfl | rfl | rfl | rfl | rfl | rfl | rfl | rfl | rfl | rfl | rfl | rfl
  all_goals exact above_owedStep c _ _ (by decide)
theorem p8_above0_drop14 (c : Dev nD) : Above 0 (Orem ((payList c).drop 14)) := above_mono (p8_above2_drop14 c) (by decide)

theorem p8_above2_drop16 (c : Dev nD) : Above 2 (Orem ((payList c).drop 16)) := by
  refine above_Orem fun x hx => ?_
  rw [show (payList c).drop 16 = [owedStep c 2 2, owedStep c 2 4, owedStep c 0 5, owedStep c 1 5, owedStep c 2 5, owedStep c 0 6, owedStep c 0 7, owedStep c 1 6, owedStep c 1 7, owedStep c 2 6, owedStep c 2 7] from rfl] at hx
  simp only [List.mem_cons, List.not_mem_nil, or_false] at hx
  rcases hx with rfl | rfl | rfl | rfl | rfl | rfl | rfl | rfl | rfl | rfl | rfl
  all_goals exact above_owedStep c _ _ (by decide)
theorem p8_above0_drop16 (c : Dev nD) : Above 0 (Orem ((payList c).drop 16)) := above_mono (p8_above2_drop16 c) (by decide)

theorem p8_above2_drop18 (c : Dev nD) : Above 2 (Orem ((payList c).drop 18)) := by
  refine above_Orem fun x hx => ?_
  rw [show (payList c).drop 18 = [owedStep c 0 5, owedStep c 1 5, owedStep c 2 5, owedStep c 0 6, owedStep c 0 7, owedStep c 1 6, owedStep c 1 7, owedStep c 2 6, owedStep c 2 7] from rfl] at hx
  simp only [List.mem_cons, List.not_mem_nil, or_false] at hx
  rcases hx with rfl | rfl | rfl | rfl | rfl | rfl | rfl | rfl | rfl
  all_goals exact above_owedStep c _ _ (by decide)
theorem p8_above0_drop18 (c : Dev nD) : Above 0 (Orem ((payList c).drop 18)) := above_mono (p8_above2_drop18 c) (by decide)

theorem p8_above2_drop19 (c : Dev nD) : Above 2 (Orem ((payList c).drop 19)) := by
  refine above_Orem fun x hx => ?_
  rw [show (payList c).drop 19 = [owedStep c 1 5, owedStep c 2 5, owedStep c 0 6, owedStep c 0 7, owedStep c 1 6, owedStep c 1 7, owedStep c 2 6, owedStep c 2 7] from rfl] at hx
  simp only [List.mem_cons, List.not_mem_nil, or_false] at hx
  rcases hx with rfl | rfl | rfl | rfl | rfl | rfl | rfl | rfl
  all_goals exact above_owedStep c _ _ (by decide)
theorem p8_above0_drop19 (c : Dev nD) : Above 0 (Orem ((payList c).drop 19)) := above_mono (p8_above2_drop19 c) (by decide)

theorem p8_above2_drop20 (c : Dev nD) : Above 2 (Orem ((payList c).drop 20)) := by
  refine above_Orem fun x hx => ?_
  rw [show (payList c).drop 20 = [owedStep c 2 5, owedStep c 0 6, owedStep c 0 7, owedStep c 1 6, owedStep c 1 7, owedStep c 2 6, owedStep c 2 7] from rfl] at hx
  simp only [List.mem_cons, List.not_mem_nil, or_false] at hx
  rcases hx with rfl | rfl | rfl | rfl | rfl | rfl | rfl
  all_goals exact above_owedStep c _ _ (by decide)
theorem p8_above0_drop20 (c : Dev nD) : Above 0 (Orem ((payList c).drop 20)) := above_mono (p8_above2_drop20 c) (by decide)

variable (m : (ℓ : Loc nD τ sig) → Buf (Elt F) ℓ) (K : Dev nD × CIx → ℕ)

/-- A filled slot at the share a step reads it at, as the transfer of that step takes it. -/
theorem p8_src0 (c : Dev nD) (k st : Fin 8) (q : PosShare TreeShare) (hk : srcSlot st = k) (hq : qs st = q) :
    slotHas m c 0 k q = holdsPts c (gs0 (srcSlot st)) (qs st) (sv0 m (xr c (mask 0 (srcSlot st)))) := by subst hk hq; rfl
theorem p8_src1 (c : Dev nD) (k st : Fin 8) (q : PosShare TreeShare) (hk : srcSlot st = k) (hq : qs st = q) :
    slotHas m c 1 k q = holdsPts c (gs1 (srcSlot st)) (qs st) (sv1 m (xr c (mask 1 (srcSlot st)))) := by subst hk hq; rfl
theorem p8_src2 (c : Dev nD) (k st : Fin 8) (q : PosShare TreeShare) (hk : srcSlot st = k) (hq : qs st = q) :
    slotHas m c 2 k q = holdsPts c (gs2 (srcSlot st)) (qs st) (sv2 m (xr c (mask 2 (srcSlot st)))) := by subst hk hq; rfl

/-- The by-group pieces at a named group. -/
theorem p8_slot0 (c : Dev nD) (k : Fin 8) (q : PosShare TreeShare) : slotHas m c 0 k q = holdsPts c (gs0 k) q (sv0 m (xr c (mask 0 k))) := rfl
theorem p8_slot1 (c : Dev nD) (k : Fin 8) (q : PosShare TreeShare) : slotHas m c 1 k q = holdsPts c (gs1 k) q (sv1 m (xr c (mask 1 k))) := rfl
theorem p8_slot2 (c : Dev nD) (k : Fin 8) (q : PosShare TreeShare) : slotHas m c 2 k q = holdsPts c (gs2 k) q (sv2 m (xr c (mask 2 k))) := rfl
omit [FloatOps F] in
theorem p8_stageAny0 (c : Dev nD) (p : Fin 2) : stageAny (F := F) c 0 p = anyPts c (ss0 p) := rfl
omit [FloatOps F] in
theorem p8_stageAny1 (c : Dev nD) (p : Fin 2) : stageAny (F := F) c 1 p = anyPts c (ss1 p) := rfl
omit [FloatOps F] in
theorem p8_stageAny2 (c : Dev nD) (p : Fin 2) : stageAny (F := F) c 2 p = anyPts c (ss2 p) := rfl

/-- A stored product block, other than the last, is the block its stage slot is to hold. -/
theorem p8_stageHas0 (c : Dev nD) (j : Fin 8) (p : Fin 2) (hp : par j = p) (hj : j ≠ 7) :
    holdsPts c (ss0 p) fullShare (prod352 (sv0 m (xr c (mask 0 j))) (bv m c)) ⊢ stageHas m c 0 j := by
  subst hp
  show _ ⊢ stageHas0 m c j
  unfold stageHas0
  iintro H; iexists _; isplitr
  · ipureintro; unfold stageOK0; rw [if_neg hj]
  · iexact H
theorem p8_stageHas1 (c : Dev nD) (j : Fin 8) (p : Fin 2) (hp : par j = p) (hj : j ≠ 7) :
    holdsPts c (ss1 p) fullShare (prod336 (sv1 m (xr c (mask 1 j))) (bv m c)) ⊢ stageHas m c 1 j := by
  subst hp
  show _ ⊢ stageHas1 m c j
  unfold stageHas1
  iintro H; iexists _; isplitr
  · ipureintro; unfold stageOK1; rw [if_neg hj]
  · iexact H
theorem p8_stageHas2 (c : Dev nD) (j : Fin 8) (p : Fin 2) (hp : par j = p) (hj : j ≠ 7) :
    holdsPts c (ss2 p) fullShare (prod336 (sv2 m (xr c (mask 2 j))) (bv m c)) ⊢ stageHas m c 2 j := by
  subst hp
  show _ ⊢ stageHas2 m c j
  unfold stageHas2
  iintro H; iexists _; isplitr
  · ipureintro; unfold stageOK2; rw [if_neg hj]
  · iexact H

theorem p8_stageHasG0 (c : Dev nD) (j : Fin 8) : stageHas m c 0 j = stageHas0 m c j := rfl
theorem p8_stageHasG1 (c : Dev nD) (j : Fin 8) : stageHas m c 1 j = stageHas1 m c j := rfl
theorem p8_stageHasG2 (c : Dev nD) (j : Fin 8) : stageHas m c 2 j = stageHas2 m c j := rfl

/-! ## The parts -/

theorem part8 : Part8Spec m K := by
  intro c v2 Kt
  simp only [k0_part8, semSignalWord, semWaitWord, Prog.lift, Prog.bind_op, Prog.bind_ret, Prog.pure_eq_ret, wp_deviceId]
  iintro ⟨#Hrec, #Hlev, Hc, Hat, HO, Hd2, Hts2, Htr2, Hd4, Hts4, Htr4, HK⟩
  icases HO with ⟨%W, HO⟩
  iapply (wait_recv' m K c 0 0 (Orem ((payList c).drop 12)) _ (p8_above2_drop12 c)) $$ [Hc Hat HO]
  · isplitr; · iexact Hrec
    isplitr; · iexact Hlev
    isplitl [Hc]; · iexact Hc
    isplitl [Hat]; · iexact Hat
    iexact HO
  iintro ⟨Hpay, Hat, HO⟩
  ihave Hs := (Entails.of_eq (show recvPay m c 0 0 = slotHas m c 0 1 fullShare from rfl)) $$ Hpay
  ihave Hs := (slot1_cut m c 0) $$ Hs
  icases Hs with ⟨HLL, HLR, HR⟩
  ihave HLL := (Entails.of_eq (p8_src0 m c 1 2 fullShare.left.left rfl rfl)) $$ HLL
  iapply (op_send_g0 m K c 2 (by decide) (dev13_eq c) (by decide +kernel) (by decide +kernel) (Orem ((payList c).drop 13)) _) $$ [HLL Hd2 HO Hts2 Htr2]
  · isplitr; · iexact Hrec
    isplitl [HLL]; · iexact HLL
    isplitl [Hd2]; · iexact Hd2
    isplitl [HO]; · iexact HO
    isplitl [Hts2]; · iexact Hts2
    iexact Htr2
  iintro ⟨Hc2, HO⟩
  ihave HLR := (Entails.of_eq (p8_src0 m c 1 4 fullShare.left.right rfl rfl)) $$ HLR
  iapply (op_send_g0 m K c 4 (by decide) (dev14_eq c) (by decide +kernel) (by decide +kernel) (Orem ((payList c).drop 14)) _) $$ [HLR Hd4 HO Hts4 Htr4]
  · isplitr; · iexact Hrec
    isplitl [HLR]; · iexact HLR
    isplitl [Hd4]; · iexact Hd4
    isplitl [HO]; · iexact HO
    isplitl [Hts4]; · iexact Hts4
    iexact Htr4
  iintro ⟨Hc4, HO⟩
  rw [wp_ret]; imodintro
  iapply HK
  isplitl [Hat]; · iexact Hat
  isplitl [HR]; · iexact HR
  isplitl [Hc2]; · iexact Hc2
  isplitl [HO]; · iexists _; iexact HO
  iexact Hc4

theorem part9 : Part9Spec m K := by
  intro c v2 v40 Kt
  simp only [k0_part9, semSignalWord, semWaitWord, Prog.lift, Prog.bind_op, Prog.bind_ret, Prog.pure_eq_ret, wp_deviceId]
  iintro ⟨#Hrec, #Hlev, Hcs, Hats, HO, Hcr, Hatr, Hd2, Hts2, Htr2, HK⟩
  icases HO with ⟨%W, HO⟩
  iapply (wait_send' m K c 1 0 (Orem ((payList c).drop 14)) _ (p8_above0_drop14 c)) $$ [Hcs Hats HO]
  · isplitr; · iexact Hrec
    isplitr; · iexact Hlev
    isplitl [Hcs]; · iexact Hcs
    isplitl [Hats]; · iexact Hats
    iexact HO
  iintro ⟨Hps, Hats, HO⟩
  ihave Hps := (Entails.of_eq (show sendPay m c 1 0 = slotHas m c 1 0 fullShare.left.left.left from rfl)) $$ Hps
  iapply (wait_recv' m K c 1 0 (Orem ((payList c).drop 14)) _ (p8_above2_drop14 c)) $$ [Hcr Hatr HO]
  · isplitr; · iexact Hrec
    isplitr; · iexact Hlev
    isplitl [Hcr]; · iexact Hcr
    isplitl [Hatr]; · iexact Hatr
    iexact HO
  iintro ⟨Hpr, Hatr, HO⟩
  ihave Hs := (Entails.of_eq (show recvPay m c 1 0 = slotHas m c 1 1 fullShare from rfl)) $$ Hpr
  ihave Hs := (slot1_cut m c 1) $$ Hs
  icases Hs with ⟨HLL, HLR, HR⟩
  ihave HLL := (Entails.of_eq (p8_src1 m c 1 2 fullShare.left.left rfl rfl)) $$ HLL
  iapply (op_send_g1 m K c 2 (by decide) (dev15_eq c) (by decide +kernel) (by decide +kernel) (Orem ((payList c).drop 15)) _) $$ [HLL Hd2 HO Hts2 Htr2]
  · isplitr; · iexact Hrec
    isplitl [HLL]; · iexact HLL
    isplitl [Hd2]; · iexact Hd2
    isplitl [HO]; · iexact HO
    isplitl [Hts2]; · iexact Hts2
    iexact Htr2
  iintro ⟨Hc2, HO⟩
  rw [wp_ret]; imodintro
  iapply HK
  isplitl [Hats]; · iexact Hats
  isplitl [Hps]; · iexact Hps
  isplitl [Hatr]; · iexact Hatr
  isplitl [HLR]; · iexact HLR
  isplitl [HR]; · iexact HR
  isplitl [HO]; · iexists _; iexact HO
  iexact Hc2

theorem part10 : Part10Spec m K := by
  intro c v2 v49 v211 Kt
  simp only [k0_part10, semSignalWord, semWaitWord, Prog.lift, Prog.bind_op, Prog.bind_ret, Prog.pure_eq_ret, wp_deviceId]
  iintro ⟨#Hrec, #Hlev, Hs4, Hd4, Hts4, Htr4, HO, Hcs, Hats, Hcr, Hatr, HK⟩
  icases HO with ⟨%W, HO⟩
  ihave Hs4 := (Entails.of_eq (p8_src1 m c 1 4 fullShare.left.right rfl rfl)) $$ Hs4
  iapply (op_send_g1 m K c 4 (by decide) (dev16_eq c) (by decide +kernel) (by decide +kernel) (Orem ((payList c).drop 16)) _) $$ [Hs4 Hd4 HO Hts4 Htr4]
  · isplitr; · iexact Hrec
    isplitl [Hs4]; · iexact Hs4
    isplitl [Hd4]; · iexact Hd4
    isplitl [HO]; · iexact HO
    isplitl [Hts4]; · iexact Hts4
    iexact Htr4
  iintro ⟨Hc4, HO⟩
  iapply (wait_send' m K c 2 0 (Orem ((payList c).drop 16)) _ (p8_above0_drop16 c)) $$ [Hcs Hats HO]
  · isplitr; · iexact Hrec
    isplitr; · iexact Hlev
    isplitl [Hcs]; · iexact Hcs
    isplitl [Hats]; · iexact Hats
    iexact HO
  iintro ⟨Hps, Hats, HO⟩
  ihave Hps := (Entails.of_eq (show sendPay m c 2 0 = slotHas m c 2 0 fullShare.left.left.left from rfl)) $$ Hps
  iapply (wait_recv' m K c 2 0 (Orem ((payList c).drop 16)) _ (p8_above2_drop16 c)) $$ [Hcr Hatr HO]
  · isplitr; · iexact Hrec
    isplitr; · iexact Hlev
    isplitl [Hcr]; · iexact Hcr
    isplitl [Hatr]; · iexact Hatr
    iexact HO
  iintro ⟨Hpr, Hatr, HO⟩
  ihave Hs := (Entails.of_eq (show recvPay m c 2 0 = slotHas m c 2 1 fullShare from rfl)) $$ Hpr
  ihave Hs := (slot1_cut m c 2) $$ Hs
  icases Hs with ⟨HLL, HLR, HR⟩
  rw [wp_ret]; imodintro
  iapply HK
  isplitl [Hc4]; · iexact Hc4
  isplitl [Hats]; · iexact Hats
  isplitl [Hps]; · iexact Hps
  isplitl [HO]; · iexists _; iexact HO
  isplitl [Hatr]; · iexact Hatr
  isplitl [HLL]; · iexact HLL
  isplitl [HLR]; · iexact HLR
  iexact HR

theorem part11 : Part11Spec m K := by
  intro c v2 Kt
  simp only [k0_part11, semSignalWord, semWaitWord, Prog.lift, Prog.bind_op, Prog.bind_ret, Prog.pure_eq_ret, wp_deviceId]
  iintro ⟨#Hrec, #Hlev, Hs2, Hd2, Hts2, Htr2, HO, Hs4, Hd4, Hts4, Htr4, Hg, Hb, Hst, HK⟩
  icases HO with ⟨%W, HO⟩
  ihave Hs2 := (Entails.of_eq (p8_src2 m c 1 2 fullShare.left.left rfl rfl)) $$ Hs2
  iapply (op_send_g2 m K c 2 (by decide) (dev17_eq c) (by decide +kernel) (by decide +kernel) (Orem ((payList c).drop 17)) _) $$ [Hs2 Hd2 HO Hts2 Htr2]
  · isplitr; · iexact Hrec
    isplitl [Hs2]; · iexact Hs2
    isplitl [Hd2]; · iexact Hd2
    isplitl [HO]; · iexact HO
    isplitl [Hts2]; · iexact Hts2
    iexact Htr2
  iintro ⟨Hc2, HO⟩
  ihave Hs4 := (Entails.of_eq (p8_src2 m c 1 4 fullShare.left.right rfl rfl)) $$ Hs4
  iapply (op_send_g2 m K c 4 (by decide) (dev18_eq c) (by decide +kernel) (by decide +kernel) (Orem ((payList c).drop 18)) _) $$ [Hs4 Hd4 HO Hts4 Htr4]
  · isplitr; · iexact Hrec
    isplitl [Hs4]; · iexact Hs4
    isplitl [Hd4]; · iexact Hd4
    isplitl [HO]; · iexact HO
    isplitl [Hts4]; · iexact Hts4
    iexact Htr4
  iintro ⟨Hc4, HO⟩
  ihave Hg := (Entails.of_eq (p8_slot0 m c 1 fullShare.right)) $$ Hg
  iapply (op_load_gs0 m c 1 fullShare.right _) $$ Hg; iintro Hg
  iapply (op_load_b16 m c fullShare _) $$ Hb; iintro Hb
  ihave Hst := (Entails.of_eq (p8_stageAny0 c 1)) $$ Hst
  iapply (op_load_ss0_any m c 1) $$ Hst; iintro %x Hst
  iapply (op_store_ss0 m c 1 (prod352 (sv0 m (xr c (mask 0 1))) (bv m c)) rfl) $$ Hst; iintro Hst
  ihave Hst := (p8_stageHas0 m c 1 1 rfl (by decide)) $$ Hst
  ihave Hg := (Entails.of_eq (p8_slot0 m c 1 fullShare.right).symm) $$ Hg
  rw [wp_ret]; imodintro
  iapply HK
  isplitl [Hc2]; · iexact Hc2
  isplitl [HO]; · iexists _; iexact HO
  isplitl [Hc4]; · iexact Hc4
  isplitl [Hg]; · iexact Hg
  isplitl [Hb]; · iexact Hb
  iexact Hst

theorem part12 : Part12Spec m K := by
  intro c v2 Kt
  simp only [k0_part12, semSignalWord, semWaitWord, Prog.lift, Prog.bind_op, Prog.bind_ret, Prog.pure_eq_ret, wp_deviceId]
  iintro ⟨#Hrec, #Hlev, Hsh0, Hp0, Htc0, Hg1, Hb, Hst1, Hp1, Htc1, Hg2, Hst2, HK⟩
  ihave Hsh0 := (Entails.of_eq (p8_stageHasG0 m c 1)) $$ Hsh0
  iapply (op_copy0 m K c 1 1 1 rfl rfl) $$ [Hsh0 Hp0 Htc0]
  · isplitr; · iexact Hrec
    isplitl [Hsh0]; · iexact Hsh0
    isplitl [Hp0]; · iexact Hp0
    iexact Htc0
  iintro Hcc0
  ihave Hg1 := (Entails.of_eq (p8_slot1 m c 1 fullShare.right)) $$ Hg1
  iapply (op_load_gs1 m c 1 fullShare.right _) $$ Hg1; iintro Hg1
  iapply (op_load_b16 m c fullShare _) $$ Hb; iintro Hb
  ihave Hst1 := (Entails.of_eq (p8_stageAny1 c 1)) $$ Hst1
  iapply (op_load_ss1_any m c 1) $$ Hst1; iintro %x1 Hst1
  iapply (op_store_ss1 m c 1 (prod336 (sv1 m (xr c (mask 1 1))) (bv m c)) rfl) $$ Hst1; iintro Hst1
  ihave Hst1 := (p8_stageHas1 m c 1 1 rfl (by decide)) $$ Hst1
  ihave Hst1 := (Entails.of_eq (p8_stageHasG1 m c 1)) $$ Hst1
  iapply (op_copy1 m K c 1 1 3 rfl rfl) $$ [Hst1 Hp1 Htc1]
  · isplitr; · iexact Hrec
    isplitl [Hst1]; · iexact Hst1
    isplitl [Hp1]; · iexact Hp1
    iexact Htc1
  iintro Hcc1
  ihave Hg2 := (Entails.of_eq (p8_slot2 m c 1 fullShare.right)) $$ Hg2
  iapply (op_load_gs2 m c 1 fullShare.right _) $$ Hg2; iintro Hg2
  iapply (op_load_b16 m c fullShare _) $$ Hb; iintro Hb
  ihave Hst2 := (Entails.of_eq (p8_stageAny2 c 1)) $$ Hst2
  iapply (op_load_ss2_any m c 1) $$ Hst2; iintro %x2 Hst2
  ihave Hg1 := (Entails.of_eq (p8_slot1 m c 1 fullShare.right).symm) $$ Hg1
  ihave Hg2 := (Entails.of_eq (p8_slot2 m c 1 fullShare.right).symm) $$ Hg2
  ihave Hst2 := (Entails.of_eq (p8_stageAny2 (F := F) c 1).symm) $$ Hst2
  rw [wp_ret]; imodintro
  iapply HK
  · ipureintro; rfl
  isplitl [Hcc0]; · iexact Hcc0
  isplitl [Hg1]; · iexact Hg1
  isplitl [Hb]; · iexact Hb
  isplitl [Hcc1]; · iexact Hcc1
  isplitl [Hg2]; · iexact Hg2
  iexact Hst2

theorem part13 : Part13Spec m K := by
  intro c v2 v58 v281 Kt
  simp only [k0_part13, semSignalWord, semWaitWord, Prog.lift, Prog.bind_op, Prog.bind_ret, Prog.pure_eq_ret, wp_deviceId]
  iintro ⟨#Hrec, #Hlev, Hst, Hpc, Htc, Hcs, Hats, HO, Hcr, Hatr, HK⟩
  icases HO with ⟨%W, HO⟩
  ihave Hst := (Entails.of_eq (p8_stageAny2 (F := F) c 1)) $$ Hst
  iapply (op_store_ss2 m c 1 (prod336 (sv2 m (xr c (mask 2 1))) (bv m c)) rfl) $$ Hst; iintro Hst
  ihave Hst := (p8_stageHas2 m c 1 1 rfl (by decide)) $$ Hst
  ihave Hst := (Entails.of_eq (p8_stageHasG2 m c 1)) $$ Hst
  iapply (op_copy2 m K c 1 1 4 rfl rfl) $$ [Hst Hpc Htc]
  · isplitr; · iexact Hrec
    isplitl [Hst]; · iexact Hst
    isplitl [Hpc]; · iexact Hpc
    iexact Htc
  iintro Hcc
  iapply (wait_send' m K c 0 1 (Orem ((payList c).drop 18)) _ (p8_above0_drop18 c)) $$ [Hcs Hats HO]
  · isplitr; · iexact Hrec
    isplitr; · iexact Hlev
    isplitl [Hcs]; · iexact Hcs
    isplitl [Hats]; · iexact Hats
    iexact HO
  iintro ⟨Hps, Hats, HO⟩
  ihave Hps := (Entails.of_eq (show sendPay m c 0 1 = slotHas m c 0 0 fullShare.left.left.right from rfl)) $$ Hps
  iapply (wait_recv' m K c 0 1 (Orem ((payList c).drop 18)) _ (p8_above2_drop18 c)) $$ [Hcr Hatr HO]
  · isplitr; · iexact Hrec
    isplitr; · iexact Hlev
    isplitl [Hcr]; · iexact Hcr
    isplitl [Hatr]; · iexact Hatr
    iexact HO
  iintro ⟨Hpr, Hatr, HO⟩
  ihave Hs := (Entails.of_eq (show recvPay m c 0 1 = slotHas m c 0 2 fullShare from rfl)) $$ Hpr
  ihave Hs := (slot2_cut m c 0) $$ Hs
  icases Hs with ⟨HL, HR⟩
  rw [wp_ret]; imodintro
  iapply HK
  isplitl [Hcc]; · iexact Hcc
  isplitl [Hats]; · iexact Hats
  isplitl [Hps]; · iexact Hps
  isplitl [HO]; · iexists _; iexact HO
  isplitl [Hatr]; · iexact Hatr
  isplitl [HL]; · iexact HL
  iexact HR

theorem part14 : Part14Spec m K := by
  intro c v2 v67 v302 Kt
  simp only [k0_part14, semSignalWord, semWaitWord, Prog.lift, Prog.bind_op, Prog.bind_ret, Prog.pure_eq_ret, wp_deviceId]
  iintro ⟨#Hrec, #Hlev, Hs5, Hd5, Hts5, Htr5, HO, Hcs, Hats, Hcr, Hatr, HK⟩
  icases HO with ⟨%W, HO⟩
  ihave Hs5 := (Entails.of_eq (p8_src0 m c 2 5 fullShare.left rfl rfl)) $$ Hs5
  iapply (op_send_g0 m K c 5 (by decide) (dev19_eq c) (by decide +kernel) (by decide +kernel) (Orem ((payList c).drop 19)) _) $$ [Hs5 Hd5 HO Hts5 Htr5]
  · isplitr; · iexact Hrec
    isplitl [Hs5]; · iexact Hs5
    isplitl [Hd5]; · iexact Hd5
    isplitl [HO]; · iexact HO
    isplitl [Hts5]; · iexact Hts5
    iexact Htr5
  iintro ⟨Hc5, HO⟩
  iapply (wait_send' m K c 1 1 (Orem ((payList c).drop 19)) _ (p8_above0_drop19 c)) $$ [Hcs Hats HO]
  · isplitr; · iexact Hrec
    isplitr; · iexact Hlev
    isplitl [Hcs]; · iexact Hcs
    isplitl [Hats]; · iexact Hats
    iexact HO
  iintro ⟨Hps, Hats, HO⟩
  ihave Hps := (Entails.of_eq (show sendPay m c 1 1 = slotHas m c 1 0 fullShare.left.left.right from rfl)) $$ Hps
  iapply (wait_recv' m K c 1 1 (Orem ((payList c).drop 19)) _ (p8_above2_drop19 c)) $$ [Hcr Hatr HO]
  · isplitr; · iexact Hrec
    isplitr; · iexact Hlev
    isplitl [Hcr]; · iexact Hcr
    isplitl [Hatr]; · iexact Hatr
    iexact HO
  iintro ⟨Hpr, Hatr, HO⟩
  ihave Hs := (Entails.of_eq (show recvPay m c 1 1 = slotHas m c 1 2 fullShare from rfl)) $$ Hpr
  ihave Hs := (slot2_cut m c 1) $$ Hs
  icases Hs with ⟨HL, HR⟩
  rw [wp_ret]; imodintro
  iapply HK
  isplitl [Hc5]; · iexact Hc5
  isplitl [Hats]; · iexact Hats
  isplitl [Hps]; · iexact Hps
  isplitl [HO]; · iexists _; iexact HO
  isplitl [Hatr]; · iexact Hatr
  isplitl [HL]; · iexact HL
  iexact HR

theorem part15 : Part15Spec m K := by
  intro c v2 v76 v321 Kt
  simp only [k0_part15, semSignalWord, semWaitWord, Prog.lift, Prog.bind_op, Prog.bind_ret, Prog.pure_eq_ret, wp_deviceId]
  iintro ⟨#Hrec, #Hlev, Hs5, Hd5, Hts5, Htr5, HO, Hcs, Hats, Hcr, Hatr, HK⟩
  icases HO with ⟨%W, HO⟩
  ihave Hs5 := (Entails.of_eq (p8_src1 m c 2 5 fullShare.left rfl rfl)) $$ Hs5
  iapply (op_send_g1 m K c 5 (by decide) (dev20_eq c) (by decide +kernel) (by decide +kernel) (Orem ((payList c).drop 20)) _) $$ [Hs5 Hd5 HO Hts5 Htr5]
  · isplitr; · iexact Hrec
    isplitl [Hs5]; · iexact Hs5
    isplitl [Hd5]; · iexact Hd5
    isplitl [HO]; · iexact HO
    isplitl [Hts5]; · iexact Hts5
    iexact Htr5
  iintro ⟨Hc5, HO⟩
  iapply (wait_send' m K c 2 1 (Orem ((payList c).drop 20)) _ (p8_above0_drop20 c)) $$ [Hcs Hats HO]
  · isplitr; · iexact Hrec
    isplitr; · iexact Hlev
    isplitl [Hcs]; · iexact Hcs
    isplitl [Hats]; · iexact Hats
    iexact HO
  iintro ⟨Hps, Hats, HO⟩
  ihave Hps := (Entails.of_eq (show sendPay m c 2 1 = slotHas m c 2 0 fullShare.left.left.right from rfl)) $$ Hps
  iapply (wait_recv' m K c 2 1 (Orem ((payList c).drop 20)) _ (p8_above2_drop20 c)) $$ [Hcr Hatr HO]
  · isplitr; · iexact Hrec
    isplitr; · iexact Hlev
    isplitl [Hcr]; · iexact Hcr
    isplitl [Hatr]; · iexact Hatr
    iexact HO
  iintro ⟨Hpr, Hatr, HO⟩
  ihave Hs := (Entails.of_eq (show recvPay m c 2 1 = slotHas m c 2 2 fullShare from rfl)) $$ Hpr
  ihave Hs := (slot2_cut m c 2) $$ Hs
  icases Hs with ⟨HL, HR⟩
  rw [wp_ret]; imodintro
  iapply HK
  isplitl [Hc5]; · iexact Hc5
  isplitl [Hats]; · iexact Hats
  isplitl [Hps]; · iexact Hps
  isplitl [HO]; · iexists _; iexact HO
  isplitl [Hatr]; · iexact Hatr
  isplitl [HL]; · iexact HL
  iexact HR

/-- info: 'Cert.Kernel.DM.part8' depends on axioms: [propext, Classical.choice, Quot.sound] -/
#guard_msgs in #print axioms part8

/-- info: 'Cert.Kernel.DM.part9' depends on axioms: [propext, Classical.choice, Quot.sound] -/
#guard_msgs in #print axioms part9

/-- info: 'Cert.Kernel.DM.part10' depends on axioms: [propext, Classical.choice, Quot.sound] -/
#guard_msgs in #print axioms part10

/-- info: 'Cert.Kernel.DM.part11' depends on axioms: [propext, Classical.choice, Quot.sound] -/
#guard_msgs in #print axioms part11

/-- info: 'Cert.Kernel.DM.part12' depends on axioms: [propext, Classical.choice, Quot.sound] -/
#guard_msgs in #print axioms part12

/-- info: 'Cert.Kernel.DM.part13' depends on axioms: [propext, Classical.choice, Quot.sound] -/
#guard_msgs in #print axioms part13

/-- info: 'Cert.Kernel.DM.part14' depends on axioms: [propext, Classical.choice, Quot.sound] -/
#guard_msgs in #print axioms part14

/-- info: 'Cert.Kernel.DM.part15' depends on axioms: [propext, Classical.choice, Quot.sound] -/
#guard_msgs in #print axioms part15

end Cert.Kernel.DM

end
-- ==== Proof.Bits.Parts_16_22.lean ====
import proofs.«900891_g7700000000000892_dist_matmul_m_i_outrep_m1024_n1024_k512_v7x_i8_f32_1_alg».proof.Proof.Bits.PartSpecs
import proofs.«900891_g7700000000000892_dist_matmul_m_i_outrep_m1024_n1024_k512_v7x_i8_f32_1_alg».proof.Proof.Bits.OpsSend
import proofs.«900891_g7700000000000892_dist_matmul_m_i_outrep_m1024_n1024_k512_v7x_i8_f32_1_alg».proof.Proof.Bits.OpsWait
import proofs.«900891_g7700000000000892_dist_matmul_m_i_outrep_m1024_n1024_k512_v7x_i8_f32_1_alg».proof.Proof.Bits.OpsStore
import proofs.«900891_g7700000000000892_dist_matmul_m_i_outrep_m1024_n1024_k512_v7x_i8_f32_1_alg».proof.Proof.Bits.OpsCopy
import proofs.«900891_g7700000000000892_dist_matmul_m_i_outrep_m1024_n1024_k512_v7x_i8_f32_1_alg».proof.Proof.Bits.Launch

/-!
Parts 16 to 22 of a device's body: the last transfer of the third exchange round, and the product
blocks of slots 2 and 4 of the three row groups, each stored into its stage slot and copied into
its rows of the result once the copy that used the stage slot before has landed.
-/

set_option maxRecDepth 16384

noncomputable section

namespace Cert.Kernel.DM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ)

/-! ## What is still owed from the twenty-first payment on lies above the levels waited at -/

theorem p16_above0_payList (c : Dev nD) : ∀ x ∈ payList c, Above 0 x := by
  have hb (d : Fin 3) : Above 0 (owedBar c d) := above_owedBar c d
  have hs (g : Fin 3) (st : Fin 8) : Above 0 (owedStep c g st) := above_owedStep c g st (by revert st; decide)
  unfold payList
  simp only [List.forall_mem_cons, hb, hs, true_and]
  intro x hx; cases hx

/-- Whatever is still to be paid lies above level 0. -/
theorem p16_above0_drop (c : Dev nD) (n : ℕ) : Above 0 (Orem ((payList c).drop n)) :=
  above_Orem fun x hx => p16_above0_payList c x (List.mem_of_mem_drop hx)

/-- After the twenty-first payment only the two last steps of each group are owed: level 4. -/
theorem p16_above2_drop21 (c : Dev nD) : Above 2 (Orem ((payList c).drop 21)) := by
  refine above_Orem ?_
  show ∀ x ∈ [owedStep c 0 6, owedStep c 0 7, owedStep c 1 6, owedStep c 1 7, owedStep c 2 6, owedStep c 2 7], Above 2 x
  have hs (g : Fin 3) (st : Fin 8) (h : 2 < stLv st) : Above 2 (owedStep c g st) := above_owedStep c g st h
  simp only [List.forall_mem_cons, hs _ _ (show 2 < stLv 6 by decide), hs _ _ (show 2 < stLv 7 by decide), true_and]
  intro x hx; cases hx

/-! ## The per-group spellings of the atoms, and the next payment -/

theorem p16_slotHas_0 (c : Dev nD) (k : Fin 8) (q : PosShare TreeShare) :
    slotHas m c 0 k q = holdsPts c (gs0 k) q (sv0 m (xr c (mask 0 k))) := rfl
theorem p16_slotHas_1 (c : Dev nD) (k : Fin 8) (q : PosShare TreeShare) :
    slotHas m c 1 k q = holdsPts c (gs1 k) q (sv1 m (xr c (mask 1 k))) := rfl
theorem p16_slotHas_2 (c : Dev nD) (k : Fin 8) (q : PosShare TreeShare) :
    slotHas m c 2 k q = holdsPts c (gs2 k) q (sv2 m (xr c (mask 2 k))) := rfl
omit [FloatOps F] in
theorem p16_stageAny_0 (c : Dev nD) (p : Fin 2) : stageAny (F := F) c 0 p = anyPts c (ss0 p) := rfl
omit [FloatOps F] in
theorem p16_stageAny_1 (c : Dev nD) (p : Fin 2) : stageAny (F := F) c 1 p = anyPts c (ss1 p) := rfl
omit [FloatOps F] in
theorem p16_stageAny_2 (c : Dev nD) (p : Fin 2) : stageAny (F := F) c 2 p = anyPts c (ss2 p) := rfl
theorem p16_stageHas_0 (c : Dev nD) (j : Fin 8) : stageHas m c 0 j = stageHas0 m c j := rfl
theorem p16_stageHas_1 (c : Dev nD) (j : Fin 8) : stageHas m c 1 j = stageHas1 m c j := rfl
theorem p16_stageHas_2 (c : Dev nD) (j : Fin 8) : stageHas m c 2 j = stageHas2 m c j := rfl

/-- A landed step-3 transfer hands back the share of slot 0 it read, and fills slot 4. -/
theorem p16_sendPay_3 (c : Dev nD) (g : Fin 3) : sendPay m c g 3 = slotHas m c g 0 fullShare.left.right := by
  fin_cases g <;> rfl
theorem p16_recvPay_3 (c : Dev nD) (g : Fin 3) : recvPay m c g 3 = slotHas m c g 4 fullShare := by
  fin_cases g <;> rfl

/-- The twenty-first payment is the transfer of step 5 of group 2. -/
theorem p16_Orem_drop20 (c : Dev nD) : Orem ((payList c).drop 20) = Orem ((payList c).drop 21) + owedStep c 2 5 := rfl

omit [FloatOps F] in
theorem p16_stageAny_par0 (c : Dev nD) (j : Fin 8) (p : Fin 2) (h : par j = p) : stageAny (F := F) c 0 (par j) = anyPts c (ss0 p) := by
  subst h; rfl
omit [FloatOps F] in
theorem p16_stageAny_par1 (c : Dev nD) (j : Fin 8) (p : Fin 2) (h : par j = p) : stageAny (F := F) c 1 (par j) = anyPts c (ss1 p) := by
  subst h; rfl
omit [FloatOps F] in
theorem p16_stageAny_par2 (c : Dev nD) (j : Fin 8) (p : Fin 2) (h : par j = p) : stageAny (F := F) c 2 (par j) = anyPts c (ss2 p) := by
  subst h; rfl

/-- A whole product block stored in its stage slot is product block j there (j below 7). -/
theorem p16_stageHas0_of (c : Dev nD) (j : Fin 8) (p : Fin 2) (hp : par j = p) (hj : j ≠ 7) :
    holdsPts c (ss0 p) fullShare (prod352 (sv0 m (xr c (mask 0 j))) (bv m c)) ⊢ stageHas0 m c j := by
  subst hp
  unfold stageHas0
  iintro H
  iexists (prod352 (sv0 m (xr c (mask 0 j))) (bv m c))
  isplitr; · ipureintro; unfold stageOK0; rw [if_neg hj]
  iexact H
theorem p16_stageHas1_of (c : Dev nD) (j : Fin 8) (p : Fin 2) (hp : par j = p) (hj : j ≠ 7) :
    holdsPts c (ss1 p) fullShare (prod336 (sv1 m (xr c (mask 1 j))) (bv m c)) ⊢ stageHas1 m c j := by
  subst hp
  unfold stageHas1
  iintro H
  iexists (prod336 (sv1 m (xr c (mask 1 j))) (bv m c))
  isplitr; · ipureintro; unfold stageOK1; rw [if_neg hj]
  iexact H
theorem p16_stageHas2_of (c : Dev nD) (j : Fin 8) (p : Fin 2) (hp : par j = p) (hj : j ≠ 7) :
    holdsPts c (ss2 p) fullShare (prod336 (sv2 m (xr c (mask 2 j))) (bv m c)) ⊢ stageHas2 m c j := by
  subst hp
  unfold stageHas2
  iintro H
  iexists (prod336 (sv2 m (xr c (mask 2 j))) (bv m c))
  isplitr; · ipureintro; unfold stageOK2; rw [if_neg hj]
  iexact H

/-! ## Part 16 -/

theorem part16 : Part16Spec m K := by
  intro c v2 v341 Kt
  rw [p16_Orem_drop20 c]
  iintro ⟨#Hrec, #Hlev, Hs22, Hdst, Htk1, Htk2, ⟨%W, HO⟩, Hcr, Hat, Hs02, Hb16, HK⟩
  simp only [k0_part16, semSignalWord, semWaitWord, Prog.lift, Prog.bind_op, Prog.bind_ret, Prog.pure_eq_ret, wp_deviceId]
  -- the transfer of step 5 of group 2, paid out of what is owed
  ihave Hs22 := (Entails.of_eq (p16_slotHas_2 m c 2 fullShare.left)) $$ Hs22
  iapply (op_send_g2 m K c 5 (by decide) (dev21_eq c) (by decide +kernel) (by decide +kernel) (Orem ((payList c).drop 21)) W) $$ [Hs22 Hdst HO Htk1 Htk2]
  · isplitr; · iexact Hrec
    isplitl [Hs22]; · iexact Hs22
    isplitl [Hdst]; · iexact Hdst
    isplitl [HO]; · iexact HO
    isplitl [Htk1]; · iexact Htk1
    iexact Htk2
  iintro ⟨Hcs, HO⟩
  -- block 0 of group 0 has landed: its stage slot is free again
  iapply (wait_copy' m K c 0 0 (Orem ((payList c).drop 21)) W (p16_above0_drop c 21) (src := ss0 0) (dst := cw0) (Q := Kt)) $$ [Hcr Hat HO]
  · isplitr; · iexact Hrec
    isplitr; · iexact Hlev
    isplitl [Hcr]; · iexact Hcr
    isplitl [Hat]; · iexact Hat
    iexact HO
  iintro ⟨Hpay, Hat, HO⟩
  ihave Hpd := (copyPay_split m c 0 0) $$ Hpay
  icases Hpd with ⟨Hpd, Hst⟩
  ihave Hst := (Entails.of_eq (p16_stageAny_par0 c 0 0 rfl)) $$ Hst
  -- slot 2 times the right factor, into stage slot 0
  ihave Hg := (Entails.of_eq (p16_slotHas_0 m c 2 fullShare.right)) $$ Hs02
  iapply (op_load_gs0 m c 2 fullShare.right _) $$ Hg
  iintro Hg
  iapply (op_load_b16 m c fullShare _) $$ Hb16
  iintro Hb16
  iapply (op_load_ss0_any m c 0) $$ Hst
  iintro %x Hst
  iapply (op_store_ss0 m c 0 (prod352 (sv0 m (xr c (mask 0 2))) (bv m c)) rfl) $$ Hst
  iintro Hst
  rw [wp_ret]
  imodintro
  iapply HK
  isplitl [Hcs]; · iexact Hcs
  isplitl [HO]; · iexists _; iexact HO
  isplitl [Hat]; · iexact Hat
  isplitl [Hpd]; · iexact Hpd
  isplitl [Hg]; · iapply (Entails.of_eq (p16_slotHas_0 m c 2 fullShare.right).symm); iexact Hg
  isplitl [Hb16]; · iexact Hb16
  iapply (Entails.of_eq (p16_stageHas_0 m c 2).symm)
  iapply (p16_stageHas0_of m c 2 0 rfl (by decide))
  iexact Hst

/-! ## Part 17 -/

theorem part17 : Part17Spec m K := by
  intro c v2 Kt
  iintro ⟨#Hrec, #Hlev, Hsh, Hpa, Htk, Hcr, Hat, ⟨%W, HO⟩, Hs12, Hb16, Hpa1, Htk1, HK⟩
  simp only [k0_part17, semSignalWord, semWaitWord, Prog.lift, Prog.bind_op, Prog.bind_ret, Prog.pure_eq_ret, wp_deviceId]
  -- block 2 of group 0 goes to its rows of the result
  ihave Hsh := (Entails.of_eq (p16_stageHas_0 m c 2)) $$ Hsh
  iapply (op_copy0 m K c 2 0 3 rfl rfl) $$ [Hsh Hpa Htk]
  · isplitr; · iexact Hrec
    isplitl [Hsh]; · iexact Hsh
    isplitl [Hpa]; · iexact Hpa
    iexact Htk
  iintro Hcc0
  -- block 0 of group 1 has landed
  iapply (wait_copy' m K c 1 0 (Orem ((payList c).drop 21)) W (p16_above0_drop c 21) (src := ss1 0) (dst := cw12) (Q := Kt)) $$ [Hcr Hat HO]
  · isplitr; · iexact Hrec
    isplitr; · iexact Hlev
    isplitl [Hcr]; · iexact Hcr
    isplitl [Hat]; · iexact Hat
    iexact HO
  iintro ⟨Hpay, Hat, HO⟩
  ihave Hpd := (copyPay_split m c 1 0) $$ Hpay
  icases Hpd with ⟨Hpd, Hst⟩
  ihave Hst := (Entails.of_eq (p16_stageAny_par1 c 0 0 rfl)) $$ Hst
  ihave Hg := (Entails.of_eq (p16_slotHas_1 m c 2 fullShare.right)) $$ Hs12
  iapply (op_load_gs1 m c 2 fullShare.right _) $$ Hg
  iintro Hg
  iapply (op_load_b16 m c fullShare _) $$ Hb16
  iintro Hb16
  iapply (op_load_ss1_any m c 0) $$ Hst
  iintro %x Hst
  iapply (op_store_ss1 m c 0 (prod336 (sv1 m (xr c (mask 1 2))) (bv m c)) rfl) $$ Hst
  iintro Hst
  -- block 2 of group 1 goes to its rows of the result
  ihave Hsh1 := (p16_stageHas1_of m c 2 0 rfl (by decide)) $$ Hst
  iapply (op_copy1 m K c 2 0 4 rfl rfl) $$ [Hsh1 Hpa1 Htk1]
  · isplitr; · iexact Hrec
    isplitl [Hsh1]; · iexact Hsh1
    isplitl [Hpa1]; · iexact Hpa1
    iexact Htk1
  iintro Hcc1
  rw [wp_ret]
  imodintro
  iapply HK
  isplitl [Hcc0]; · iexact Hcc0
  isplitl [HO]; · iexists _; iexact HO
  isplitl [Hat]; · iexact Hat
  isplitl [Hpd]; · iexact Hpd
  isplitl [Hg]; · iapply (Entails.of_eq (p16_slotHas_1 m c 2 fullShare.right).symm); iexact Hg
  isplitl [Hb16]; · iexact Hb16
  iexact Hcc1

/-! ## Part 18 -/

theorem part18 : Part18Spec m K := by
  intro c v2 Kt
  iintro ⟨#Hrec, #Hlev, Hcr, Hat, ⟨%W, HO⟩, Hs22, Hb16, Hpa, Htk, Hcrs, Hats, HK⟩
  simp only [k0_part18, semSignalWord, semWaitWord, Prog.lift, Prog.bind_op, Prog.bind_ret, Prog.pure_eq_ret, wp_deviceId]
  -- block 0 of group 2 has landed
  iapply (wait_copy' m K c 2 0 (Orem ((payList c).drop 21)) W (p16_above0_drop c 21) (src := ss2 0) (dst := cw12) (Q := Kt)) $$ [Hcr Hat HO]
  · isplitr; · iexact Hrec
    isplitr; · iexact Hlev
    isplitl [Hcr]; · iexact Hcr
    isplitl [Hat]; · iexact Hat
    iexact HO
  iintro ⟨Hpay, Hat, HO⟩
  ihave Hpd := (copyPay_split m c 2 0) $$ Hpay
  icases Hpd with ⟨Hpd, Hst⟩
  ihave Hst := (Entails.of_eq (p16_stageAny_par2 c 0 0 rfl)) $$ Hst
  ihave Hg := (Entails.of_eq (p16_slotHas_2 m c 2 fullShare.right)) $$ Hs22
  iapply (op_load_gs2 m c 2 fullShare.right _) $$ Hg
  iintro Hg
  iapply (op_load_b16 m c fullShare _) $$ Hb16
  iintro Hb16
  iapply (op_load_ss2_any m c 0) $$ Hst
  iintro %x Hst
  iapply (op_store_ss2 m c 0 (prod336 (sv2 m (xr c (mask 2 2))) (bv m c)) rfl) $$ Hst
  iintro Hst
  -- block 2 of group 2 goes to its rows of the result
  ihave Hsh := (p16_stageHas2_of m c 2 0 rfl (by decide)) $$ Hst
  iapply (op_copy2 m K c 2 0 1 rfl rfl) $$ [Hsh Hpa Htk]
  · isplitr; · iexact Hrec
    isplitl [Hsh]; · iexact Hsh
    isplitl [Hpa]; · iexact Hpa
    iexact Htk
  iintro Hcc
  -- the transfer of step 3 of group 0 has read its source: the share of slot 0 comes back
  iapply (wait_send' m K c 0 3 (Orem ((payList c).drop 21)) (insert (SemLoc.dma (copyS 2 0), ()) W) (p16_above0_drop c 21) (src := gs0 4) (dst := gs0 0) (Q := Kt)) $$ [Hcrs Hats HO]
  · isplitr; · iexact Hrec
    isplitr; · iexact Hlev
    isplitl [Hcrs]; · iexact Hcrs
    isplitl [Hats]; · iexact Hats
    iexact HO
  iintro ⟨Hsp, Hats, HO⟩
  ihave Hsp := (Entails.of_eq (p16_sendPay_3 m c 0)) $$ Hsp
  rw [wp_ret]
  imodintro
  iapply HK
  isplitl [Hat]; · iexact Hat
  isplitl [Hpd]; · iexact Hpd
  isplitl [Hg]; · iapply (Entails.of_eq (p16_slotHas_2 m c 2 fullShare.right).symm); iexact Hg
  isplitl [Hb16]; · iexact Hb16
  isplitl [Hcc]; · iexact Hcc
  isplitl [HO]; · iexists _; iexact HO
  isplitl [Hats]; · iexact Hats
  iexact Hsp

/-! ## Part 19 -/

theorem part19 : Part19Spec m K := by
  intro c v2 v85 c1_i32_587 Kt
  iintro ⟨#Hrec, #Hlev, Hcrr, Hatr, ⟨%W, HO⟩, Hcr, Hat, Hb16, HK⟩
  simp only [k0_part19, semSignalWord, semWaitWord, Prog.lift, Prog.bind_op, Prog.bind_ret, Prog.pure_eq_ret, wp_deviceId]
  -- slot 4 of group 0 has been filled by the partner
  iapply (wait_recv' m K c 0 3 (Orem ((payList c).drop 21)) W (p16_above2_drop21 c) (src := gs0 0) (dst := gs0 4) (Q := Kt)) $$ [Hcrr Hatr HO]
  · isplitr; · iexact Hrec
    isplitr; · iexact Hlev
    isplitl [Hcrr]; · iexact Hcrr
    isplitl [Hatr]; · iexact Hatr
    iexact HO
  iintro ⟨Hrp, Hatr, HO⟩
  ihave Hs04 := (Entails.of_eq (p16_recvPay_3 m c 0)) $$ Hrp
  -- block 2 of group 0 has landed
  iapply (wait_copy' m K c 0 2 (Orem ((payList c).drop 21)) (insert (SemLoc.dma (recvS 0 3), ()) W) (p16_above0_drop c 21) (src := ss0 0) (dst := cw0) (Q := Kt)) $$ [Hcr Hat HO]
  · isplitr; · iexact Hrec
    isplitr; · iexact Hlev
    isplitl [Hcr]; · iexact Hcr
    isplitl [Hat]; · iexact Hat
    iexact HO
  iintro ⟨Hpay, Hat, HO⟩
  ihave Hpd := (copyPay_split m c 0 2) $$ Hpay
  icases Hpd with ⟨Hpd, Hst⟩
  ihave Hst := (Entails.of_eq (p16_stageAny_par0 c 2 0 rfl)) $$ Hst
  ihave Hg := (Entails.of_eq (p16_slotHas_0 m c 4 fullShare)) $$ Hs04
  iapply (op_load_gs0 m c 4 fullShare _) $$ Hg
  iintro Hg
  iapply (op_load_b16 m c fullShare _) $$ Hb16
  iintro Hb16
  iapply (op_load_ss0_any m c 0) $$ Hst
  iintro %x Hst
  iapply (op_store_ss0 m c 0 (prod352 (sv0 m (xr c (mask 0 4))) (bv m c)) rfl) $$ Hst
  iintro Hst
  rw [wp_ret]
  imodintro
  iapply HK
  isplitl [Hatr]; · iexact Hatr
  isplitl [Hg]; · iapply (Entails.of_eq (p16_slotHas_0 m c 4 fullShare).symm); iexact Hg
  isplitl [HO]; · iexists _; iexact HO
  isplitl [Hat]; · iexact Hat
  isplitl [Hpd]; · iexact Hpd
  isplitl [Hb16]; · iexact Hb16
  iapply (Entails.of_eq (p16_stageHas_0 m c 4).symm)
  iapply (p16_stageHas0_of m c 4 0 rfl (by decide))
  iexact Hst

/-! ## Part 20 -/

theorem part20 : Part20Spec m K := by
  intro c v94 Kt
  iintro ⟨#Hrec, #Hlev, Hsh, Hpa, Htk, Hcrs, Hats, ⟨%W, HO⟩, Hcrr, Hatr, Hcr, Hat, Hb16, HK⟩
  simp only [k0_part20, semSignalWord, semWaitWord, Prog.lift, Prog.bind_op, Prog.bind_ret, Prog.pure_eq_ret, wp_deviceId]
  -- block 4 of group 0 goes to its rows of the result
  ihave Hsh := (Entails.of_eq (p16_stageHas_0 m c 4)) $$ Hsh
  iapply (op_copy0 m K c 4 0 4 rfl rfl) $$ [Hsh Hpa Htk]
  · isplitr; · iexact Hrec
    isplitl [Hsh]; · iexact Hsh
    isplitl [Hpa]; · iexact Hpa
    iexact Htk
  iintro Hcc
  -- step 3 of group 1: the source share comes back, slot 4 is filled
  iapply (wait_send' m K c 1 3 (Orem ((payList c).drop 21)) W (p16_above0_drop c 21) (src := gs1 4) (dst := gs1 0) (Q := Kt)) $$ [Hcrs Hats HO]
  · isplitr; · iexact Hrec
    isplitr; · iexact Hlev
    isplitl [Hcrs]; · iexact Hcrs
    isplitl [Hats]; · iexact Hats
    iexact HO
  iintro ⟨Hsp, Hats, HO⟩
  ihave Hsp := (Entails.of_eq (p16_sendPay_3 m c 1)) $$ Hsp
  iapply (wait_recv' m K c 1 3 (Orem ((payList c).drop 21)) (insert (SemLoc.dma (sendS 1 3), ()) W) (p16_above2_drop21 c) (src := gs1 0) (dst := gs1 4) (Q := Kt)) $$ [Hcrr Hatr HO]
  · isplitr; · iexact Hrec
    isplitr; · iexact Hlev
    isplitl [Hcrr]; · iexact Hcrr
    isplitl [Hatr]; · iexact Hatr
    iexact HO
  iintro ⟨Hrp, Hatr, HO⟩
  ihave Hs14 := (Entails.of_eq (p16_recvPay_3 m c 1)) $$ Hrp
  -- block 2 of group 1 has landed
  iapply (wait_copy' m K c 1 2 (Orem ((payList c).drop 21)) (insert (SemLoc.dma (recvS 1 3), ()) (insert (SemLoc.dma (sendS 1 3), ()) W)) (p16_above0_drop c 21) (src := ss1 0) (dst := cw12) (Q := Kt)) $$ [Hcr Hat HO]
  · isplitr; · iexact Hrec
    isplitr; · iexact Hlev
    isplitl [Hcr]; · iexact Hcr
    isplitl [Hat]; · iexact Hat
    iexact HO
  iintro ⟨Hpay, Hat, HO⟩
  ihave Hpd := (copyPay_split m c 1 2) $$ Hpay
  icases Hpd with ⟨Hpd, Hst⟩
  ihave Hg := (Entails.of_eq (p16_slotHas_1 m c 4 fullShare)) $$ Hs14
  iapply (op_load_gs1 m c 4 fullShare _) $$ Hg
  iintro Hg
  iapply (op_load_b16 m c fullShare _) $$ Hb16
  iintro Hb16
  rw [wp_ret]
  imodintro
  iapply HK
  · ipureintro; rfl
  isplitl [Hcc]; · iexact Hcc
  isplitl [Hats]; · iexact Hats
  isplitl [Hsp]; · iexact Hsp
  isplitl [Hatr]; · iexact Hatr
  isplitl [Hg]; · iapply (Entails.of_eq (p16_slotHas_1 m c 4 fullShare).symm); iexact Hg
  isplitl [HO]; · iexists _; iexact HO
  isplitl [Hat]; · iexact Hat
  isplitl [Hpd]; · iexact Hpd
  isplitl [Hst]; · iexact Hst
  iexact Hb16

/-! ## Part 21 -/

theorem part21 : Part21Spec m K := by
  intro c v2 v103 Kt
  iintro ⟨#Hrec, #Hlev, Hst, Hpa, Htk, Hcrs, Hats, ⟨%W, HO⟩, Hcrr, Hatr, HK⟩
  simp only [k0_part21, semSignalWord, semWaitWord, Prog.lift, Prog.bind_op, Prog.bind_ret, Prog.pure_eq_ret, wp_deviceId]
  ihave Hst := (Entails.of_eq (p16_stageAny_1 c 0)) $$ Hst
  iapply (op_load_ss1_any m c 0) $$ Hst
  iintro %x Hst
  iapply (op_store_ss1 m c 0 (prod336 (sv1 m (xr c (mask 1 4))) (bv m c)) rfl) $$ Hst
  iintro Hst
  -- block 4 of group 1 goes to its rows of the result
  ihave Hsh := (p16_stageHas1_of m c 4 0 rfl (by decide)) $$ Hst
  iapply (op_copy1 m K c 4 0 1 rfl rfl) $$ [Hsh Hpa Htk]
  · isplitr; · iexact Hrec
    isplitl [Hsh]; · iexact Hsh
    isplitl [Hpa]; · iexact Hpa
    iexact Htk
  iintro Hcc
  -- step 3 of group 2: the source share comes back, slot 4 is filled
  iapply (wait_send' m K c 2 3 (Orem ((payList c).drop 21)) W (p16_above0_drop c 21) (src := gs2 4) (dst := gs2 0) (Q := Kt)) $$ [Hcrs Hats HO]
  · isplitr; · iexact Hrec
    isplitr; · iexact Hlev
    isplitl [Hcrs]; · iexact Hcrs
    isplitl [Hats]; · iexact Hats
    iexact HO
  iintro ⟨Hsp, Hats, HO⟩
  ihave Hsp := (Entails.of_eq (p16_sendPay_3 m c 2)) $$ Hsp
  iapply (wait_recv' m K c 2 3 (Orem ((payList c).drop 21)) (insert (SemLoc.dma (sendS 2 3), ()) W) (p16_above2_drop21 c) (src := gs2 0) (dst := gs2 4) (Q := Kt)) $$ [Hcrr Hatr HO]
  · isplitr; · iexact Hrec
    isplitr; · iexact Hlev
    isplitl [Hcrr]; · iexact Hcrr
    isplitl [Hatr]; · iexact Hatr
    iexact HO
  iintro ⟨Hrp, Hatr, HO⟩
  ihave Hs24 := (Entails.of_eq (p16_recvPay_3 m c 2)) $$ Hrp
  rw [wp_ret]
  imodintro
  iapply HK
  isplitl [Hcc]; · iexact Hcc
  isplitl [Hats]; · iexact Hats
  isplitl [Hsp]; · iexact Hsp
  isplitl [HO]; · iexists _; iexact HO
  isplitl [Hatr]; · iexact Hatr
  iexact Hs24

/-! ## Part 22 -/

theorem part22 : Part22Spec m K := by
  intro c v2 Kt
  iintro ⟨#Hrec, #Hlev, Hcr, Hat, ⟨%W, HO⟩, Hs24, Hb16, Hpa, Htk, HK⟩
  simp only [k0_part22, semSignalWord, semWaitWord, Prog.lift, Prog.bind_op, Prog.bind_ret, Prog.pure_eq_ret, wp_deviceId]
  -- block 2 of group 2 has landed
  iapply (wait_copy' m K c 2 2 (Orem ((payList c).drop 21)) W (p16_above0_drop c 21) (src := ss2 0) (dst := cw12) (Q := Kt)) $$ [Hcr Hat HO]
  · isplitr; · iexact Hrec
    isplitr; · iexact Hlev
    isplitl [Hcr]; · iexact Hcr
    isplitl [Hat]; · iexact Hat
    iexact HO
  iintro ⟨Hpay, Hat, HO⟩
  ihave Hpd := (copyPay_split m c 2 2) $$ Hpay
  icases Hpd with ⟨Hpd, Hst⟩
  ihave Hst := (Entails.of_eq (p16_stageAny_par2 c 2 0 rfl)) $$ Hst
  ihave Hg := (Entails.of_eq (p16_slotHas_2 m c 4 fullShare)) $$ Hs24
  iapply (op_load_gs2 m c 4 fullShare _) $$ Hg
  iintro Hg
  iapply (op_load_b16 m c fullShare _) $$ Hb16
  iintro Hb16
  iapply (op_load_ss2_any m c 0) $$ Hst
  iintro %x Hst
  iapply (op_store_ss2 m c 0 (prod336 (sv2 m (xr c (mask 2 4))) (bv m c)) rfl) $$ Hst
  iintro Hst
  -- block 4 of group 2 goes to its rows of the result
  ihave Hsh := (p16_stageHas2_of m c 4 0 rfl (by decide)) $$ Hst
  iapply (op_copy2 m K c 4 0 3 rfl rfl) $$ [Hsh Hpa Htk]
  · isplitr; · iexact Hrec
    isplitl [Hsh]; · iexact Hsh
    isplitl [Hpa]; · iexact Hpa
    iexact Htk
  iintro Hcc
  rw [wp_ret]
  imodintro
  iapply HK
  isplitl [HO]; · iexists _; iexact HO
  isplitl [Hat]; · iexact Hat
  isplitl [Hpd]; · iexact Hpd
  isplitl [Hg]; · iapply (Entails.of_eq (p16_slotHas_2 m c 4 fullShare).symm); iexact Hg
  isplitl [Hb16]; · iexact Hb16
  iexact Hcc

/-- info: 'Cert.Kernel.DM.part16' depends on axioms: [propext, Classical.choice, Quot.sound] -/
#guard_msgs in #print axioms part16
/-- info: 'Cert.Kernel.DM.part17' depends on axioms: [propext, Classical.choice, Quot.sound] -/
#guard_msgs in #print axioms part17
/-- info: 'Cert.Kernel.DM.part18' depends on axioms: [propext, Classical.choice, Quot.sound] -/
#guard_msgs in #print axioms part18
/-- info: 'Cert.Kernel.DM.part19' depends on axioms: [propext, Classical.choice, Quot.sound] -/
#guard_msgs in #print axioms part19
/-- info: 'Cert.Kernel.DM.part20' depends on axioms: [propext, Classical.choice, Quot.sound] -/
#guard_msgs in #print axioms part20
/-- info: 'Cert.Kernel.DM.part21' depends on axioms: [propext, Classical.choice, Quot.sound] -/
#guard_msgs in #print axioms part21
/-- info: 'Cert.Kernel.DM.part22' depends on axioms: [propext, Classical.choice, Quot.sound] -/
#guard_msgs in #print axioms part22

end Cert.Kernel.DM

end
-- ==== Proof.Bits.Parts_23_30.lean ====
import proofs.«900891_g7700000000000892_dist_matmul_m_i_outrep_m1024_n1024_k512_v7x_i8_f32_1_alg».proof.Proof.Bits.PartSpecs
import proofs.«900891_g7700000000000892_dist_matmul_m_i_outrep_m1024_n1024_k512_v7x_i8_f32_1_alg».proof.Proof.Bits.OpsSend
import proofs.«900891_g7700000000000892_dist_matmul_m_i_outrep_m1024_n1024_k512_v7x_i8_f32_1_alg».proof.Proof.Bits.OpsWait
import proofs.«900891_g7700000000000892_dist_matmul_m_i_outrep_m1024_n1024_k512_v7x_i8_f32_1_alg».proof.Proof.Bits.OpsStore
import proofs.«900891_g7700000000000892_dist_matmul_m_i_outrep_m1024_n1024_k512_v7x_i8_f32_1_alg».proof.Proof.Bits.OpsCopy
import proofs.«900891_g7700000000000892_dist_matmul_m_i_outrep_m1024_n1024_k512_v7x_i8_f32_1_alg».proof.Proof.Bits.Launch

/-!
The runs of the body's parts 23 to 30: each part stepped operation by operation from the pieces of state its table
lists to the pieces it leaves. The waits hand over what their cells' duties carry: a send wait the share of the
source slot, a receive wait the filled target, a copy wait the product block in its rows of the result and the free
stage slot. A transfer of one of the last two steps takes one part of the filled slot 3; a product is stored from a
kept share of its slot and the narrowed right factor into the free stage slot and copied out from there.
-/

set_option maxRecDepth 16384

noncomputable section

namespace Cert.Kernel.DM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ)

/-- A product block stored into its stage slot is that block sitting there. -/
theorem p23_stage_wrap0 (c : Dev nD) (j : Fin 8) (p : Fin 2) (hp : par j = p) (hj : j ≠ 7) :
    holdsPts c (ss0 p) fullShare (prod352 (sv0 m (xr c (mask 0 j))) (bv m c)) ⊢ stageHas0 m c j := by
  subst hp
  unfold stageHas0
  iintro H
  iexists _
  isplitr
  · ipureintro; unfold stageOK0; rw [if_neg hj]
  · iexact H

theorem p23_stage_wrap1 (c : Dev nD) (j : Fin 8) (p : Fin 2) (hp : par j = p) (hj : j ≠ 7) :
    holdsPts c (ss1 p) fullShare (prod336 (sv1 m (xr c (mask 1 j))) (bv m c)) ⊢ stageHas1 m c j := by
  subst hp
  unfold stageHas1
  iintro H
  iexists _
  isplitr
  · ipureintro; unfold stageOK1; rw [if_neg hj]
  · iexact H

theorem p23_stage_wrap2 (c : Dev nD) (j : Fin 8) (p : Fin 2) (hp : par j = p) (hj : j ≠ 7) :
    holdsPts c (ss2 p) fullShare (prod336 (sv2 m (xr c (mask 2 j))) (bv m c)) ⊢ stageHas2 m c j := by
  subst hp
  unfold stageHas2
  iintro H
  iexists _
  isplitr
  · ipureintro; unfold stageOK2; rw [if_neg hj]
  · iexact H

theorem part23 : Part23Spec m K := by
  intro c v2 v173 Kt
  simp only [k0_part23, semSignalWord, semWaitWord, Prog.lift, Prog.bind_op, Prog.bind_ret, Prog.pure_eq_ret, wp_deviceId]
  iintro H
  icases H with ⟨#Hrec, #Hlev, Hc1, H⟩
  icases H with ⟨Hat1, HO, Hc2, H⟩
  icases H with ⟨Hat2, Hd, Ht1, H⟩
  icases H with ⟨Ht2, HK⟩
  icases HO with ⟨%W, HO⟩
  have hab : Above 3 (Orem ((payList c).drop 21)) := by
    show Above 3 (Orem [owedStep c 0 6, owedStep c 0 7, owedStep c 1 6, owedStep c 1 7, owedStep c 2 6, owedStep c 2 7])
    refine above_Orem fun x hx => ?_
    simp only [List.mem_cons, List.mem_nil_iff, _root_.or_false] at hx
    rcases hx with rfl | rfl | rfl | rfl | rfl | rfl <;> exact above_owedStep c _ _ (by decide)
  iapply (wait_send' m K c 0 2 (Orem ((payList c).drop 21)) _ (above_mono hab (by decide)) (src := gs0 3) (dst := gs0 1) (Q := Kt)) $$ [Hc1 Hat1 HO]
  · isplitr; · iexact Hrec
    isplitr; · iexact Hlev
    isplitl [Hc1]; · iexact Hc1
    isplitl [Hat1]; · iexact Hat1
    iexact HO
  iintro ⟨Hs1, Hat1, HO⟩
  ihave Hs1 := (Entails.of_eq (show (sendPay m c 0 2 : sProp 𝕄) = slotHas m c 0 1 fullShare.left.left from rfl)) $$ Hs1
  iapply (wait_recv' m K c 0 2 (Orem ((payList c).drop 21)) _ hab (src := gs0 1) (dst := gs0 3) (Q := Kt)) $$ [Hc2 Hat2 HO]
  · isplitr; · iexact Hrec
    isplitr; · iexact Hlev
    isplitl [Hc2]; · iexact Hc2
    isplitl [Hat2]; · iexact Hat2
    iexact HO
  iintro ⟨Hs3, Hat2, HO⟩
  ihave Hs3 := (Entails.of_eq (show (recvPay m c 0 2 : sProp 𝕄) = slotHas m c 0 3 fullShare from rfl)) $$ Hs3
  ihave Hs3 := (slot3_cut m c 0) $$ Hs3
  icases Hs3 with ⟨Hs3t, Hs3b, Hs3r⟩
  ihave Hs3t := (Entails.of_eq (show (slotTop m c 0 3 fullShare.left : sProp 𝕄) = holdsPts c (ga0 3) (qs 6) (topA (sv0 m (xr c (mask 0 3)))) from rfl)) $$ Hs3t
  iapply (op_send_g0a m K c (dev22_eq c) (by decide +kernel) (by decide +kernel) (Orem ((payList c).drop 22)) _) $$ [Hs3t Hd HO Ht1 Ht2]
  · isplitr; · iexact Hrec
    isplitl [Hs3t]; · iexact Hs3t
    isplitl [Hd]; · iexact Hd
    isplitl [HO]; · iexact HO
    isplitl [Ht1]; · iexact Ht1
    iexact Ht2
  iintro ⟨Hcs, HO⟩
  rw [wp_ret]; imodintro
  iapply HK
  isplitl [Hat1]; · iexact Hat1
  isplitl [Hs1]; · iexact Hs1
  isplitl [Hat2]; · iexact Hat2
  isplitl [Hs3b]; · iexact Hs3b
  isplitl [Hs3r]; · iexact Hs3r
  isplitl [HO]; · iexists _; iexact HO
  iexact Hcs

theorem part24 : Part24Spec m K := by
  intro c v2 v201 Kt
  simp only [k0_part24, semSignalWord, semWaitWord, Prog.lift, Prog.bind_op, Prog.bind_ret, Prog.pure_eq_ret, wp_deviceId]
  iintro H
  icases H with ⟨#Hrec, #Hlev, Hs3b, H⟩
  icases H with ⟨Hd, Ht1, Ht2, H⟩
  icases H with ⟨HO, Hc1, Hat1, H⟩
  icases H with ⟨Hc2, Hat2, HK⟩
  icases HO with ⟨%W, HO⟩
  ihave Hs3b := (Entails.of_eq (show (slotBot m c 0 3 fullShare.left : sProp 𝕄) = holdsPts c (gb0 3) (qs 7) (botA (sv0 m (xr c (mask 0 3)))) from rfl)) $$ Hs3b
  iapply (op_send_g0b m K c (dev23_eq c) (by decide +kernel) (by decide +kernel) (Orem ((payList c).drop 23)) _) $$ [Hs3b Hd HO Ht1 Ht2]
  · isplitr; · iexact Hrec
    isplitl [Hs3b]; · iexact Hs3b
    isplitl [Hd]; · iexact Hd
    isplitl [HO]; · iexact HO
    isplitl [Ht1]; · iexact Ht1
    iexact Ht2
  iintro ⟨Hcs, HO⟩
  have hab : Above 3 (Orem ((payList c).drop 23)) := by
    show Above 3 (Orem [owedStep c 1 6, owedStep c 1 7, owedStep c 2 6, owedStep c 2 7])
    refine above_Orem fun x hx => ?_
    simp only [List.mem_cons, List.mem_nil_iff, _root_.or_false] at hx
    rcases hx with rfl | rfl | rfl | rfl <;> exact above_owedStep c _ _ (by decide)
  iapply (wait_send' m K c 1 2 (Orem ((payList c).drop 23)) _ (above_mono hab (by decide)) (src := gs1 3) (dst := gs1 1) (Q := Kt)) $$ [Hc1 Hat1 HO]
  · isplitr; · iexact Hrec
    isplitr; · iexact Hlev
    isplitl [Hc1]; · iexact Hc1
    isplitl [Hat1]; · iexact Hat1
    iexact HO
  iintro ⟨Hs1, Hat1, HO⟩
  ihave Hs1 := (Entails.of_eq (show (sendPay m c 1 2 : sProp 𝕄) = slotHas m c 1 1 fullShare.left.left from rfl)) $$ Hs1
  iapply (wait_recv' m K c 1 2 (Orem ((payList c).drop 23)) _ hab (src := gs1 1) (dst := gs1 3) (Q := Kt)) $$ [Hc2 Hat2 HO]
  · isplitr; · iexact Hrec
    isplitr; · iexact Hlev
    isplitl [Hc2]; · iexact Hc2
    isplitl [Hat2]; · iexact Hat2
    iexact HO
  iintro ⟨Hs3, Hat2, HO⟩
  ihave Hs3 := (Entails.of_eq (show (recvPay m c 1 2 : sProp 𝕄) = slotHas m c 1 3 fullShare from rfl)) $$ Hs3
  ihave Hs3 := (slot3_cut m c 1) $$ Hs3
  icases Hs3 with ⟨Hs3t, Hs3b, Hs3r⟩
  rw [wp_ret]; imodintro
  iapply HK
  isplitl [Hcs]; · iexact Hcs
  isplitl [Hat1]; · iexact Hat1
  isplitl [Hs1]; · iexact Hs1
  isplitl [HO]; · iexists _; iexact HO
  isplitl [Hat2]; · iexact Hat2
  isplitl [Hs3t]; · iexact Hs3t
  isplitl [Hs3b]; · iexact Hs3b
  iexact Hs3r

theorem part25 : Part25Spec m K := by
  intro c v2 v229 Kt
  simp only [k0_part25, semSignalWord, semWaitWord, Prog.lift, Prog.bind_op, Prog.bind_ret, Prog.pure_eq_ret, wp_deviceId]
  iintro H
  icases H with ⟨#Hrec, #Hlev, Hs3t, H⟩
  icases H with ⟨Hd6, Ht16, Ht26, H⟩
  icases H with ⟨HO, Hs3b, Hd7, H⟩
  icases H with ⟨Ht17, Ht27, Hc1, H⟩
  icases H with ⟨Hat1, HK⟩
  icases HO with ⟨%W, HO⟩
  ihave Hs3t := (Entails.of_eq (show (slotTop m c 1 3 fullShare.left : sProp 𝕄) = holdsPts c (ga1 3) (qs 6) (topB (sv1 m (xr c (mask 1 3)))) from rfl)) $$ Hs3t
  iapply (op_send_g1a m K c (dev24_eq c) (by decide +kernel) (by decide +kernel) (Orem ((payList c).drop 24)) _) $$ [Hs3t Hd6 HO Ht16 Ht26]
  · isplitr; · iexact Hrec
    isplitl [Hs3t]; · iexact Hs3t
    isplitl [Hd6]; · iexact Hd6
    isplitl [HO]; · iexact HO
    isplitl [Ht16]; · iexact Ht16
    iexact Ht26
  iintro ⟨Hcs6, HO⟩
  ihave Hs3b := (Entails.of_eq (show (slotBot m c 1 3 fullShare.left : sProp 𝕄) = holdsPts c (gb1 3) (qs 7) (botB (sv1 m (xr c (mask 1 3)))) from rfl)) $$ Hs3b
  iapply (op_send_g1b m K c (dev25_eq c) (by decide +kernel) (by decide +kernel) (Orem ((payList c).drop 25)) _) $$ [Hs3b Hd7 HO Ht17 Ht27]
  · isplitr; · iexact Hrec
    isplitl [Hs3b]; · iexact Hs3b
    isplitl [Hd7]; · iexact Hd7
    isplitl [HO]; · iexact HO
    isplitl [Ht17]; · iexact Ht17
    iexact Ht27
  iintro ⟨Hcs7, HO⟩
  have hab : Above 3 (Orem ((payList c).drop 25)) := by
    show Above 3 (Orem [owedStep c 2 6, owedStep c 2 7])
    refine above_Orem fun x hx => ?_
    simp only [List.mem_cons, List.mem_nil_iff, _root_.or_false] at hx
    rcases hx with rfl | rfl <;> exact above_owedStep c _ _ (by decide)
  iapply (wait_send' m K c 2 2 (Orem ((payList c).drop 25)) _ (above_mono hab (by decide)) (src := gs2 3) (dst := gs2 1) (Q := Kt)) $$ [Hc1 Hat1 HO]
  · isplitr; · iexact Hrec
    isplitr; · iexact Hlev
    isplitl [Hc1]; · iexact Hc1
    isplitl [Hat1]; · iexact Hat1
    iexact HO
  iintro ⟨Hs1, Hat1, HO⟩
  ihave Hs1 := (Entails.of_eq (show (sendPay m c 2 2 : sProp 𝕄) = slotHas m c 2 1 fullShare.left.left from rfl)) $$ Hs1
  rw [wp_ret]; imodintro
  iapply HK
  isplitl [Hcs6]; · iexact Hcs6
  isplitl [Hcs7]; · iexact Hcs7
  isplitl [HO]; · iexists _; iexact HO
  isplitl [Hat1]; · iexact Hat1
  iexact Hs1

theorem part26 : Part26Spec m K := by
  intro c v2 v567 Kt
  simp only [k0_part26, semSignalWord, semWaitWord, Prog.lift, Prog.bind_op, Prog.bind_ret, Prog.pure_eq_ret, wp_deviceId]
  iintro H
  icases H with ⟨#Hrec, #Hlev, Hc2, H⟩
  icases H with ⟨Hat2, HO, Hd, H⟩
  icases H with ⟨Ht1, Ht2, HK⟩
  icases HO with ⟨%W, HO⟩
  have hab : Above 3 (Orem ((payList c).drop 25)) := by
    show Above 3 (Orem [owedStep c 2 6, owedStep c 2 7])
    refine above_Orem fun x hx => ?_
    simp only [List.mem_cons, List.mem_nil_iff, _root_.or_false] at hx
    rcases hx with rfl | rfl <;> exact above_owedStep c _ _ (by decide)
  iapply (wait_recv' m K c 2 2 (Orem ((payList c).drop 25)) _ hab (src := gs2 1) (dst := gs2 3) (Q := Kt)) $$ [Hc2 Hat2 HO]
  · isplitr; · iexact Hrec
    isplitr; · iexact Hlev
    isplitl [Hc2]; · iexact Hc2
    isplitl [Hat2]; · iexact Hat2
    iexact HO
  iintro ⟨Hs3, Hat2, HO⟩
  ihave Hs3 := (Entails.of_eq (show (recvPay m c 2 2 : sProp 𝕄) = slotHas m c 2 3 fullShare from rfl)) $$ Hs3
  ihave Hs3 := (slot3_cut m c 2) $$ Hs3
  icases Hs3 with ⟨Hs3t, Hs3b, Hs3r⟩
  ihave Hs3t := (Entails.of_eq (show (slotTop m c 2 3 fullShare.left : sProp 𝕄) = holdsPts c (ga2 3) (qs 6) (topB (sv2 m (xr c (mask 2 3)))) from rfl)) $$ Hs3t
  iapply (op_send_g2a m K c (dev26_eq c) (by decide +kernel) (by decide +kernel) (Orem ((payList c).drop 26)) _) $$ [Hs3t Hd HO Ht1 Ht2]
  · isplitr; · iexact Hrec
    isplitl [Hs3t]; · iexact Hs3t
    isplitl [Hd]; · iexact Hd
    isplitl [HO]; · iexact HO
    isplitl [Ht1]; · iexact Ht1
    iexact Ht2
  iintro ⟨Hcs, HO⟩
  rw [wp_ret]; imodintro
  iapply HK
  isplitl [Hat2]; · iexact Hat2
  isplitl [Hs3b]; · iexact Hs3b
  isplitl [Hs3r]; · iexact Hs3r
  isplitl [HO]; · iexists _; iexact HO
  iexact Hcs

theorem part27 : Part27Spec m K := by
  intro c v2 Kt
  simp only [k0_part27, semSignalWord, semWaitWord, Prog.lift, Prog.bind_op, Prog.bind_ret, Prog.pure_eq_ret, wp_deviceId]
  iintro H
  icases H with ⟨#Hrec, #Hlev, Hs3b, H⟩
  icases H with ⟨Hd, Ht1, Ht2, H⟩
  icases H with ⟨HO, Hcc, Hatc, H⟩
  icases H with ⟨Hg, Hb, Hp, H⟩
  icases H with ⟨Htc, HK⟩
  icases HO with ⟨%W, HO⟩
  ihave Hs3b := (Entails.of_eq (show (slotBot m c 2 3 fullShare.left : sProp 𝕄) = holdsPts c (gb2 3) (qs 7) (botB (sv2 m (xr c (mask 2 3)))) from rfl)) $$ Hs3b
  iapply (op_send_g2b m K c (dev27_eq c) (by decide +kernel) (by decide +kernel) (Orem ((payList c).drop 27)) _) $$ [Hs3b Hd HO Ht1 Ht2]
  · isplitr; · iexact Hrec
    isplitl [Hs3b]; · iexact Hs3b
    isplitl [Hd]; · iexact Hd
    isplitl [HO]; · iexact HO
    isplitl [Ht1]; · iexact Ht1
    iexact Ht2
  iintro ⟨Hcs, HO⟩
  have hab : Above 0 (Orem ((payList c).drop 27)) := above_zero 0
  iapply (wait_copy' m K c 0 1 (Orem ((payList c).drop 27)) _ hab (src := ss0 1) (dst := cw0) (Q := Kt)) $$ [Hcc Hatc HO]
  · isplitr; · iexact Hrec
    isplitr; · iexact Hlev
    isplitl [Hcc]; · iexact Hcc
    isplitl [Hatc]; · iexact Hatc
    iexact HO
  iintro ⟨Hcp, Hatc, HO⟩
  ihave Hcp := (copyPay_split m c 0 1) $$ Hcp
  icases Hcp with ⟨Hdone, Hs⟩
  ihave Hs := (Entails.of_eq (show (stageAny c 0 (par 1) : sProp 𝕄) = anyPts c (ss0 1) from rfl)) $$ Hs
  ihave Hg := (Entails.of_eq (show (slotHas m c 0 3 fullShare.right : sProp 𝕄) = holdsPts c (gs0 3) fullShare.right (sv0 m (xr c (mask 0 3))) from rfl)) $$ Hg
  iapply (op_load_gs0 m c 3 fullShare.right _) $$ Hg; iintro Hg
  iapply (op_load_b16 m c fullShare _) $$ Hb; iintro Hb
  iapply (op_load_ss0_any m c 1) $$ Hs; iintro %old Hs
  iapply (op_store_ss0 m c 1 (prod352 (sv0 m (xr c (mask 0 3))) (bv m c)) rfl) $$ Hs; iintro Hs
  ihave Hs := (p23_stage_wrap0 m c 3 1 rfl (by decide)) $$ Hs
  iapply (op_copy0 m K c 3 1 2 (by decide) (by decide)) $$ [Hs Hp Htc]
  · isplitr; · iexact Hrec
    isplitl [Hs]; · iexact Hs
    isplitl [Hp]; · iexact Hp
    iexact Htc
  iintro Hcc3
  ihave Hg := (Entails.of_eq (show (holdsPts c (gs0 3) fullShare.right (sv0 m (xr c (mask 0 3))) : sProp 𝕄) = slotHas m c 0 3 fullShare.right from rfl)) $$ Hg
  rw [wp_ret]; imodintro
  iapply HK
  isplitl [Hcs]; · iexact Hcs
  isplitl [HO]; · iexists _; iexact HO
  isplitl [Hatc]; · iexact Hatc
  isplitl [Hdone]; · iexact Hdone
  isplitl [Hg]; · iexact Hg
  isplitl [Hb]; · iexact Hb
  iexact Hcc3

theorem part28 : Part28Spec m K := by
  intro c v2 Kt
  simp only [k0_part28, semSignalWord, semWaitWord, Prog.lift, Prog.bind_op, Prog.bind_ret, Prog.pure_eq_ret, wp_deviceId]
  iintro H
  icases H with ⟨#Hrec, #Hlev, Hcc1, H⟩
  icases H with ⟨Hatc1, HO, Hg1, H⟩
  icases H with ⟨Hb, Hp, Htc, H⟩
  icases H with ⟨Hcc2, Hatc2, Hg2, HK⟩
  icases HO with ⟨%W, HO⟩
  have hab : Above 0 (Orem ((payList c).drop 27)) := above_zero 0
  iapply (wait_copy' m K c 1 1 (Orem ((payList c).drop 27)) _ hab (src := ss1 1) (dst := cw12) (Q := Kt)) $$ [Hcc1 Hatc1 HO]
  · isplitr; · iexact Hrec
    isplitr; · iexact Hlev
    isplitl [Hcc1]; · iexact Hcc1
    isplitl [Hatc1]; · iexact Hatc1
    iexact HO
  iintro ⟨Hcp, Hatc1, HO⟩
  ihave Hcp := (copyPay_split m c 1 1) $$ Hcp
  icases Hcp with ⟨Hdone1, Hs⟩
  ihave Hs := (Entails.of_eq (show (stageAny c 1 (par 1) : sProp 𝕄) = anyPts c (ss1 1) from rfl)) $$ Hs
  ihave Hg1 := (Entails.of_eq (show (slotHas m c 1 3 fullShare.right : sProp 𝕄) = holdsPts c (gs1 3) fullShare.right (sv1 m (xr c (mask 1 3))) from rfl)) $$ Hg1
  iapply (op_load_gs1 m c 3 fullShare.right _) $$ Hg1; iintro Hg1
  iapply (op_load_b16 m c fullShare _) $$ Hb; iintro Hb
  iapply (op_load_ss1_any m c 1) $$ Hs; iintro %old Hs
  iapply (op_store_ss1 m c 1 (prod336 (sv1 m (xr c (mask 1 3))) (bv m c)) rfl) $$ Hs; iintro Hs
  ihave Hs := (p23_stage_wrap1 m c 3 1 rfl (by decide)) $$ Hs
  iapply (op_copy1 m K c 3 1 7 (by decide) (by decide)) $$ [Hs Hp Htc]
  · isplitr; · iexact Hrec
    isplitl [Hs]; · iexact Hs
    isplitl [Hp]; · iexact Hp
    iexact Htc
  iintro Hcc3
  iapply (wait_copy' m K c 2 1 (Orem ((payList c).drop 27)) _ hab (src := ss2 1) (dst := cw12) (Q := Kt)) $$ [Hcc2 Hatc2 HO]
  · isplitr; · iexact Hrec
    isplitr; · iexact Hlev
    isplitl [Hcc2]; · iexact Hcc2
    isplitl [Hatc2]; · iexact Hatc2
    iexact HO
  iintro ⟨Hcp, Hatc2, HO⟩
  ihave Hcp := (copyPay_split m c 2 1) $$ Hcp
  icases Hcp with ⟨Hdone2, Hs2⟩
  ihave Hg2 := (Entails.of_eq (show (slotHas m c 2 3 fullShare.right : sProp 𝕄) = holdsPts c (gs2 3) fullShare.right (sv2 m (xr c (mask 2 3))) from rfl)) $$ Hg2
  iapply (op_load_gs2 m c 3 fullShare.right _) $$ Hg2; iintro Hg2
  iapply (op_load_b16 m c fullShare _) $$ Hb; iintro Hb
  ihave Hg1 := (Entails.of_eq (show (holdsPts c (gs1 3) fullShare.right (sv1 m (xr c (mask 1 3))) : sProp 𝕄) = slotHas m c 1 3 fullShare.right from rfl)) $$ Hg1
  ihave Hg2 := (Entails.of_eq (show (holdsPts c (gs2 3) fullShare.right (sv2 m (xr c (mask 2 3))) : sProp 𝕄) = slotHas m c 2 3 fullShare.right from rfl)) $$ Hg2
  rw [wp_ret]; imodintro
  iapply HK $$ %_ %⟨rfl, rfl⟩
  isplitl [Hatc1]; · iexact Hatc1
  isplitl [Hdone1]; · iexact Hdone1
  isplitl [Hg1]; · iexact Hg1
  isplitl [Hb]; · iexact Hb
  isplitl [Hcc3]; · iexact Hcc3
  isplitl [HO]; · iexists _; iexact HO
  isplitl [Hatc2]; · iexact Hatc2
  isplitl [Hdone2]; · iexact Hdone2
  isplitl [Hs2]; · iexact Hs2
  iexact Hg2

theorem part29 : Part29Spec m K := by
  intro c v2 v182 Kt
  simp only [k0_part29, semSignalWord, semWaitWord, Prog.lift, Prog.bind_op, Prog.bind_ret, Prog.pure_eq_ret, wp_deviceId]
  iintro H
  icases H with ⟨#Hrec, #Hlev, Hs, H⟩
  icases H with ⟨Hp, Htc, Hc1, H⟩
  icases H with ⟨Hat1, HO, HK⟩
  icases HO with ⟨%W, HO⟩
  ihave Hs := (Entails.of_eq (show (stageAny c 2 1 : sProp 𝕄) = anyPts c (ss2 1) from rfl)) $$ Hs
  iapply (op_load_ss2_any m c 1) $$ Hs; iintro %old Hs
  iapply (op_store_ss2 m c 1 (prod336 (sv2 m (xr c (mask 2 3))) (bv m c)) rfl) $$ Hs; iintro Hs
  ihave Hs := (p23_stage_wrap2 m c 3 1 rfl (by decide)) $$ Hs
  iapply (op_copy2 m K c 3 1 5 (by decide) (by decide)) $$ [Hs Hp Htc]
  · isplitr; · iexact Hrec
    isplitl [Hs]; · iexact Hs
    isplitl [Hp]; · iexact Hp
    iexact Htc
  iintro Hcc3
  have hab : Above 0 (Orem ((payList c).drop 27)) := above_zero 0
  iapply (wait_send' m K c 0 4 (Orem ((payList c).drop 27)) _ hab (src := gs0 5) (dst := gs0 1) (Q := Kt)) $$ [Hc1 Hat1 HO]
  · isplitr; · iexact Hrec
    isplitr; · iexact Hlev
    isplitl [Hc1]; · iexact Hc1
    isplitl [Hat1]; · iexact Hat1
    iexact HO
  iintro ⟨Hs1, Hat1, HO⟩
  ihave Hs1 := (Entails.of_eq (show (sendPay m c 0 4 : sProp 𝕄) = slotHas m c 0 1 fullShare.left.right from rfl)) $$ Hs1
  rw [wp_ret]; imodintro
  iapply HK
  isplitl [Hcc3]; · iexact Hcc3
  isplitl [HO]; · iexists _; iexact HO
  isplitl [Hat1]; · iexact Hat1
  iexact Hs1

theorem part30 : Part30Spec m K := by
  intro c v2 Kt
  simp only [k0_part30, semSignalWord, semWaitWord, Prog.lift, Prog.bind_op, Prog.bind_ret, Prog.pure_eq_ret, wp_deviceId]
  iintro H
  icases H with ⟨#Hrec, #Hlev, Hc2, H⟩
  icases H with ⟨Hat2, HO, Hcc, H⟩
  icases H with ⟨Hatc, Hb, Hp, H⟩
  icases H with ⟨Htc, HK⟩
  icases HO with ⟨%W, HO⟩
  have hab : Above 3 (Orem ((payList c).drop 27)) := above_zero 3
  iapply (wait_recv' m K c 0 4 (Orem ((payList c).drop 27)) _ hab (src := gs0 1) (dst := gs0 5) (Q := Kt)) $$ [Hc2 Hat2 HO]
  · isplitr; · iexact Hrec
    isplitr; · iexact Hlev
    isplitl [Hc2]; · iexact Hc2
    isplitl [Hat2]; · iexact Hat2
    iexact HO
  iintro ⟨Hg, Hat2, HO⟩
  ihave Hg := (Entails.of_eq (show (recvPay m c 0 4 : sProp 𝕄) = holdsPts c (gs0 5) fullShare (sv0 m (xr c (mask 0 5))) from rfl)) $$ Hg
  iapply (wait_copy' m K c 0 3 (Orem ((payList c).drop 27)) _ (above_mono hab (by decide)) (src := ss0 1) (dst := cw0) (Q := Kt)) $$ [Hcc Hatc HO]
  · isplitr; · iexact Hrec
    isplitr; · iexact Hlev
    isplitl [Hcc]; · iexact Hcc
    isplitl [Hatc]; · iexact Hatc
    iexact HO
  iintro ⟨Hcp, Hatc, HO⟩
  ihave Hcp := (copyPay_split m c 0 3) $$ Hcp
  icases Hcp with ⟨Hdone, Hs⟩
  ihave Hs := (Entails.of_eq (show (stageAny c 0 (par 3) : sProp 𝕄) = anyPts c (ss0 1) from rfl)) $$ Hs
  iapply (op_load_gs0 m c 5 fullShare _) $$ Hg; iintro Hg
  iapply (op_load_b16 m c fullShare _) $$ Hb; iintro Hb
  iapply (op_load_ss0_any m c 1) $$ Hs; iintro %old Hs
  iapply (op_store_ss0 m c 1 (prod352 (sv0 m (xr c (mask 0 5))) (bv m c)) rfl) $$ Hs; iintro Hs
  ihave Hs := (p23_stage_wrap0 m c 5 1 rfl (by decide)) $$ Hs
  iapply (op_copy0 m K c 5 1 5 (by decide) (by decide)) $$ [Hs Hp Htc]
  · isplitr; · iexact Hrec
    isplitl [Hs]; · iexact Hs
    isplitl [Hp]; · iexact Hp
    iexact Htc
  iintro Hcc5
  ihave Hg := (Entails.of_eq (show (holdsPts c (gs0 5) fullShare (sv0 m (xr c (mask 0 5))) : sProp 𝕄) = slotHas m c 0 5 fullShare from rfl)) $$ Hg
  rw [wp_ret]; imodintro
  iapply HK
  isplitl [Hat2]; · iexact Hat2
  isplitl [Hg]; · iexact Hg
  isplitl [HO]; · iexists _; iexact HO
  isplitl [Hatc]; · iexact Hatc
  isplitl [Hdone]; · iexact Hdone
  isplitl [Hb]; · iexact Hb
  iexact Hcc5

/-- info: 'Cert.Kernel.DM.part23' depends on axioms: [propext, Classical.choice, Quot.sound] -/
#guard_msgs in #print axioms part23

/-- info: 'Cert.Kernel.DM.part24' depends on axioms: [propext, Classical.choice, Quot.sound] -/
#guard_msgs in #print axioms part24

/-- info: 'Cert.Kernel.DM.part25' depends on axioms: [propext, Classical.choice, Quot.sound] -/
#guard_msgs in #print axioms part25

/-- info: 'Cert.Kernel.DM.part26' depends on axioms: [propext, Classical.choice, Quot.sound] -/
#guard_msgs in #print axioms part26

/-- info: 'Cert.Kernel.DM.part27' depends on axioms: [propext, Classical.choice, Quot.sound] -/
#guard_msgs in #print axioms part27

/-- info: 'Cert.Kernel.DM.part28' depends on axioms: [propext, Classical.choice, Quot.sound] -/
#guard_msgs in #print axioms part28

/-- info: 'Cert.Kernel.DM.part29' depends on axioms: [propext, Classical.choice, Quot.sound] -/
#guard_msgs in #print axioms part29

/-- info: 'Cert.Kernel.DM.part30' depends on axioms: [propext, Classical.choice, Quot.sound] -/
#guard_msgs in #print axioms part30

end Cert.Kernel.DM

end
-- ==== Proof.Bits.Parts_31_37.lean ====
import proofs.«900891_g7700000000000892_dist_matmul_m_i_outrep_m1024_n1024_k512_v7x_i8_f32_1_alg».proof.Proof.Bits.PartSpecs
import proofs.«900891_g7700000000000892_dist_matmul_m_i_outrep_m1024_n1024_k512_v7x_i8_f32_1_alg».proof.Proof.Bits.OpsSend
import proofs.«900891_g7700000000000892_dist_matmul_m_i_outrep_m1024_n1024_k512_v7x_i8_f32_1_alg».proof.Proof.Bits.OpsWait
import proofs.«900891_g7700000000000892_dist_matmul_m_i_outrep_m1024_n1024_k512_v7x_i8_f32_1_alg».proof.Proof.Bits.OpsStore
import proofs.«900891_g7700000000000892_dist_matmul_m_i_outrep_m1024_n1024_k512_v7x_i8_f32_1_alg».proof.Proof.Bits.OpsCopy
import proofs.«900891_g7700000000000892_dist_matmul_m_i_outrep_m1024_n1024_k512_v7x_i8_f32_1_alg».proof.Proof.Bits.Launch

/-!
Seven parts of a device's body late in the exchange, when nothing is owed any more: the waits on the transfers of
steps 4 and 5 of the three row groups, the product blocks 5 and 6 of each group multiplied into their stage slots, and
the copies of those blocks into the result. A send wait gives back the share of the source slot its transfer read; a
receive wait gives the target slot filled with the partner's rows; a copy wait gives the block's rows of the result and
frees the stage slot for the next product.
-/

set_option maxRecDepth 16384

noncomputable section

namespace Cert.Kernel.DM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ)

/-- Once all twenty-seven payments are made nothing is owed, so every wait is allowed. -/
theorem above_paid (c : Dev nD) (n : ℕ) : Above n (Orem ((payList c).drop 27)) := above_zero n

/-- A product block other than the last, stored in its stage slot, is that block of its group. -/
theorem stage_has0 (c : Dev nD) (j : Fin 8) (p : Fin 2) (hp : par j = p) (hj : j ≠ 7) :
    holdsPts c (ss0 p) fullShare (prod352 (sv0 m (xr c (mask 0 j))) (bv m c)) ⊢ stageHas m c 0 j := by
  subst hp
  iintro H
  iapply (Entails.of_eq (show stageHas0 m c j = stageHas m c 0 j from rfl))
  unfold stageHas0; iexists _; isplitr
  · ipureintro; unfold stageOK0; rw [if_neg hj]
  · iexact H
theorem stage_has1 (c : Dev nD) (j : Fin 8) (p : Fin 2) (hp : par j = p) (hj : j ≠ 7) :
    holdsPts c (ss1 p) fullShare (prod336 (sv1 m (xr c (mask 1 j))) (bv m c)) ⊢ stageHas m c 1 j := by
  subst hp
  iintro H
  iapply (Entails.of_eq (show stageHas1 m c j = stageHas m c 1 j from rfl))
  unfold stageHas1; iexists _; isplitr
  · ipureintro; unfold stageOK1; rw [if_neg hj]
  · iexact H
theorem stage_has2 (c : Dev nD) (j : Fin 8) (p : Fin 2) (hp : par j = p) (hj : j ≠ 7) :
    holdsPts c (ss2 p) fullShare (prod336 (sv2 m (xr c (mask 2 j))) (bv m c)) ⊢ stageHas m c 2 j := by
  subst hp
  iintro H
  iapply (Entails.of_eq (show stageHas2 m c j = stageHas m c 2 j from rfl))
  unfold stageHas2; iexists _; isplitr
  · ipureintro; unfold stageOK2; rw [if_neg hj]
  · iexact H

/-- Part 31: the waits on the send, the receive and the copy cell before product block 5 of group 1, and that block. -/
theorem part31 : Part31Spec m K := by
  intro c v2 v210 Kt
  simp only [k0_part31, semSignalWord, semWaitWord, Prog.lift, Prog.bind_op, Prog.bind_ret, Prog.pure_eq_ret, wp_deviceId]
  iintro ⟨#Hrec, #Hlev, Hcs, Has, ⟨%W, HO⟩, Hcr, Har, Hcc, Hac, Hb, HK⟩
  iapply (wait_send' m K c 1 4 (Orem ((payList c).drop 27)) _ (above_paid c _)) $$ [Hcs Has HO]
  · isplitr; · iexact Hrec
    isplitr; · iexact Hlev
    isplitl [Hcs]; · iexact Hcs
    isplitl [Has]; · iexact Has
    iexact HO
  iintro ⟨Hps, Has, HO⟩
  iapply (wait_recv' m K c 1 4 (Orem ((payList c).drop 27)) _ (above_paid c _)) $$ [Hcr Har HO]
  · isplitr; · iexact Hrec
    isplitr; · iexact Hlev
    isplitl [Hcr]; · iexact Hcr
    isplitl [Har]; · iexact Har
    iexact HO
  iintro ⟨Hpr, Har, HO⟩
  iapply (wait_copy' m K c 1 3 (Orem ((payList c).drop 27)) _ (above_paid c _)) $$ [Hcc Hac HO]
  · isplitr; · iexact Hrec
    isplitr; · iexact Hlev
    isplitl [Hcc]; · iexact Hcc
    isplitl [Hac]; · iexact Hac
    iexact HO
  iintro ⟨Hpc, Hac, HO⟩
  ihave Hpc := (copyPay_split m c 1 3) $$ Hpc
  icases Hpc with ⟨Hdone, Hst⟩
  ihave Hps := (Entails.of_eq (show sendPay m c 1 4 = slotHas m c 1 1 fullShare.left.right from rfl)) $$ Hps
  ihave Hpr := (Entails.of_eq (show recvPay m c 1 4 = holdsPts c (gs1 5) fullShare (sv1 m (xr c (mask 1 5))) from rfl)) $$ Hpr
  ihave Hst := (Entails.of_eq (show stageAny (F := F) c 1 (par 3) = anyPts c (ss1 1) from rfl)) $$ Hst
  iapply (op_load_gs1 m c 5 fullShare _) $$ Hpr; iintro Hpr
  iapply (op_load_b16 m c fullShare _) $$ Hb; iintro Hb
  iapply (op_load_ss1_any m c 1) $$ Hst; iintro %x Hst
  iapply (op_store_ss1 m c 1 (prod336 (sv1 m (xr c (mask 1 5))) (bv m c)) rfl) $$ Hst; iintro Hst
  ihave Hpr := (Entails.of_eq (show holdsPts c (gs1 5) fullShare (sv1 m (xr c (mask 1 5))) = slotHas m c 1 5 fullShare from rfl)) $$ Hpr
  rw [wp_ret]; imodintro
  iapply HK
  isplitl [Has]; · iexact Has
  isplitl [Hps]; · iexact Hps
  isplitl [Har]; · iexact Har
  isplitl [Hpr]; · iexact Hpr
  isplitl [HO]; · iexists _; iexact HO
  isplitl [Hac]; · iexact Hac
  isplitl [Hdone]; · iexact Hdone
  isplitl [Hb]; · iexact Hb
  iapply (stage_has1 m c 5 1 rfl (by decide)); iexact Hst

/-- Part 32: product block 5 of group 1 copied out, and the waits on the transfer of step 4 of group 2. -/
theorem part32 : Part32Spec m K := by
  intro c v238 v708 c352_i32_1022 Kt
  simp only [k0_part32, semSignalWord, semWaitWord, Prog.lift, Prog.bind_op, Prog.bind_ret, Prog.pure_eq_ret, wp_deviceId]
  iintro ⟨#Hrec, #Hlev, Hsh, Hpa, Htk, Hcs, Has, ⟨%W, HO⟩, Hcr, Har, HK⟩
  ihave Hsh := (Entails.of_eq (show stageHas m c 1 5 = stageHas1 m c 5 from rfl)) $$ Hsh
  iapply (op_copy1 m K c 5 1 2 rfl rfl) $$ [Hsh Hpa Htk]
  · isplitr; · iexact Hrec
    isplitl [Hsh]; · iexact Hsh
    isplitl [Hpa]; · iexact Hpa
    iexact Htk
  iintro Hcc
  iapply (wait_send' m K c 2 4 (Orem ((payList c).drop 27)) _ (above_paid c _)) $$ [Hcs Has HO]
  · isplitr; · iexact Hrec
    isplitr; · iexact Hlev
    isplitl [Hcs]; · iexact Hcs
    isplitl [Has]; · iexact Has
    iexact HO
  iintro ⟨Hps, Has, HO⟩
  iapply (wait_recv' m K c 2 4 (Orem ((payList c).drop 27)) _ (above_paid c _)) $$ [Hcr Har HO]
  · isplitr; · iexact Hrec
    isplitr; · iexact Hlev
    isplitl [Hcr]; · iexact Hcr
    isplitl [Har]; · iexact Har
    iexact HO
  iintro ⟨Hpr, Har, HO⟩
  ihave Hps := (Entails.of_eq (show sendPay m c 2 4 = slotHas m c 2 1 fullShare.left.right from rfl)) $$ Hps
  ihave Hpr := (Entails.of_eq (show recvPay m c 2 4 = slotHas m c 2 5 fullShare from rfl)) $$ Hpr
  rw [wp_ret]; imodintro
  iapply HK
  isplitl [Hcc]; · iexact Hcc
  isplitl [Has]; · iexact Has
  isplitl [Hps]; · iexact Hps
  isplitl [HO]; · iexists _; iexact HO
  isplitl [Har]; · iexact Har
  iexact Hpr

/-- Part 33: the wait on the copy cell before product block 5 of group 2, that block stored and copied out, and the
    wait on the send cell of step 5 of group 0. -/
theorem part33 : Part33Spec m K := by
  intro c v2 v302 Kt
  simp only [k0_part33, semSignalWord, semWaitWord, Prog.lift, Prog.bind_op, Prog.bind_ret, Prog.pure_eq_ret, wp_deviceId]
  iintro ⟨#Hrec, #Hlev, Hcc, Hac, ⟨%W, HO⟩, Hsl, Hb, Hpa, Htk, Hcs, Has, HK⟩
  iapply (wait_copy' m K c 2 3 (Orem ((payList c).drop 27)) _ (above_paid c _)) $$ [Hcc Hac HO]
  · isplitr; · iexact Hrec
    isplitr; · iexact Hlev
    isplitl [Hcc]; · iexact Hcc
    isplitl [Hac]; · iexact Hac
    iexact HO
  iintro ⟨Hpc, Hac, HO⟩
  ihave Hpc := (copyPay_split m c 2 3) $$ Hpc
  icases Hpc with ⟨Hdone, Hst⟩
  ihave Hst := (Entails.of_eq (show stageAny (F := F) c 2 (par 3) = anyPts c (ss2 1) from rfl)) $$ Hst
  ihave Hsl := (Entails.of_eq (show slotHas m c 2 5 fullShare = holdsPts c (gs2 5) fullShare (sv2 m (xr c (mask 2 5))) from rfl)) $$ Hsl
  iapply (op_load_gs2 m c 5 fullShare _) $$ Hsl; iintro Hsl
  iapply (op_load_b16 m c fullShare _) $$ Hb; iintro Hb
  iapply (op_load_ss2_any m c 1) $$ Hst; iintro %x Hst
  iapply (op_store_ss2 m c 1 (prod336 (sv2 m (xr c (mask 2 5))) (bv m c)) rfl) $$ Hst; iintro Hst
  ihave Hsl := (Entails.of_eq (show holdsPts c (gs2 5) fullShare (sv2 m (xr c (mask 2 5))) = slotHas m c 2 5 fullShare from rfl)) $$ Hsl
  ihave Hst := (stage_has2 m c 5 1 rfl (by decide)) $$ Hst
  ihave Hst := (Entails.of_eq (show stageHas m c 2 5 = stageHas2 m c 5 from rfl)) $$ Hst
  iapply (op_copy2 m K c 5 1 7 rfl rfl) $$ [Hst Hpa Htk]
  · isplitr; · iexact Hrec
    isplitl [Hst]; · iexact Hst
    isplitl [Hpa]; · iexact Hpa
    iexact Htk
  iintro Hcn
  iapply (wait_send' m K c 0 5 (Orem ((payList c).drop 27)) _ (above_paid c _)) $$ [Hcs Has HO]
  · isplitr; · iexact Hrec
    isplitr; · iexact Hlev
    isplitl [Hcs]; · iexact Hcs
    isplitl [Has]; · iexact Has
    iexact HO
  iintro ⟨Hps, Has, HO⟩
  ihave Hps := (Entails.of_eq (show sendPay m c 0 5 = slotHas m c 0 2 fullShare.left from rfl)) $$ Hps
  rw [wp_ret]; imodintro
  iapply HK
  isplitl [Hac]; · iexact Hac
  isplitl [Hdone]; · iexact Hdone
  isplitl [Hsl]; · iexact Hsl
  isplitl [Hb]; · iexact Hb
  isplitl [Hcn]; · iexact Hcn
  isplitl [HO]; · iexists _; iexact HO
  isplitl [Has]; · iexact Has
  iexact Hps

/-- Part 34: the waits on the receive cell of step 5 of group 0 and on the copy cell before product block 6 of group 0,
    and that block stored and copied out. -/
theorem part34 : Part34Spec m K := by
  intro c v2 Kt
  simp only [k0_part34, semSignalWord, semWaitWord, Prog.lift, Prog.bind_op, Prog.bind_ret, Prog.pure_eq_ret, wp_deviceId]
  iintro ⟨#Hrec, #Hlev, Hcr, Har, ⟨%W, HO⟩, Hcc, Hac, Hb, Hpa, Htk, HK⟩
  iapply (wait_recv' m K c 0 5 (Orem ((payList c).drop 27)) _ (above_paid c _)) $$ [Hcr Har HO]
  · isplitr; · iexact Hrec
    isplitr; · iexact Hlev
    isplitl [Hcr]; · iexact Hcr
    isplitl [Har]; · iexact Har
    iexact HO
  iintro ⟨Hpr, Har, HO⟩
  iapply (wait_copy' m K c 0 4 (Orem ((payList c).drop 27)) _ (above_paid c _)) $$ [Hcc Hac HO]
  · isplitr; · iexact Hrec
    isplitr; · iexact Hlev
    isplitl [Hcc]; · iexact Hcc
    isplitl [Hac]; · iexact Hac
    iexact HO
  iintro ⟨Hpc, Hac, HO⟩
  ihave Hpc := (copyPay_split m c 0 4) $$ Hpc
  icases Hpc with ⟨Hdone, Hst⟩
  ihave Hst := (Entails.of_eq (show stageAny (F := F) c 0 (par 4) = anyPts c (ss0 0) from rfl)) $$ Hst
  ihave Hpr := (Entails.of_eq (show recvPay m c 0 5 = holdsPts c (gs0 6) fullShare (sv0 m (xr c (mask 0 6))) from rfl)) $$ Hpr
  iapply (op_load_gs0 m c 6 fullShare _) $$ Hpr; iintro Hpr
  iapply (op_load_b16 m c fullShare _) $$ Hb; iintro Hb
  iapply (op_load_ss0_any m c 0) $$ Hst; iintro %x Hst
  iapply (op_store_ss0 m c 0 (prod352 (sv0 m (xr c (mask 0 6))) (bv m c)) rfl) $$ Hst; iintro Hst
  ihave Hpr := (Entails.of_eq (show holdsPts c (gs0 6) fullShare (sv0 m (xr c (mask 0 6))) = slotHas m c 0 6 fullShare from rfl)) $$ Hpr
  ihave Hst := (stage_has0 m c 6 0 rfl (by decide)) $$ Hst
  ihave Hst := (Entails.of_eq (show stageHas m c 0 6 = stageHas0 m c 6 from rfl)) $$ Hst
  iapply (op_copy0 m K c 6 0 7 rfl rfl) $$ [Hst Hpa Htk]
  · isplitr; · iexact Hrec
    isplitl [Hst]; · iexact Hst
    isplitl [Hpa]; · iexact Hpa
    iexact Htk
  iintro Hcn
  rw [wp_ret]; imodintro
  iapply HK
  isplitl [Har]; · iexact Har
  isplitl [Hpr]; · iexact Hpr
  isplitl [HO]; · iexists _; iexact HO
  isplitl [Hac]; · iexact Hac
  isplitl [Hdone]; · iexact Hdone
  isplitl [Hb]; · iexact Hb
  iexact Hcn

/-- Part 35: the waits on the transfer of step 5 of group 1 and on the copy cell before product block 6 of group 1, and
    that block multiplied. -/
theorem part35 : Part35Spec m K := by
  intro c v321 Kt
  simp only [k0_part35, semSignalWord, semWaitWord, Prog.lift, Prog.bind_op, Prog.bind_ret, Prog.pure_eq_ret, wp_deviceId]
  iintro ⟨#Hrec, #Hlev, Hcs, Has, ⟨%W, HO⟩, Hcr, Har, Hcc, Hac, Hb, HK⟩
  iapply (wait_send' m K c 1 5 (Orem ((payList c).drop 27)) _ (above_paid c _)) $$ [Hcs Has HO]
  · isplitr; · iexact Hrec
    isplitr; · iexact Hlev
    isplitl [Hcs]; · iexact Hcs
    isplitl [Has]; · iexact Has
    iexact HO
  iintro ⟨Hps, Has, HO⟩
  iapply (wait_recv' m K c 1 5 (Orem ((payList c).drop 27)) _ (above_paid c _)) $$ [Hcr Har HO]
  · isplitr; · iexact Hrec
    isplitr; · iexact Hlev
    isplitl [Hcr]; · iexact Hcr
    isplitl [Har]; · iexact Har
    iexact HO
  iintro ⟨Hpr, Har, HO⟩
  iapply (wait_copy' m K c 1 4 (Orem ((payList c).drop 27)) _ (above_paid c _)) $$ [Hcc Hac HO]
  · isplitr; · iexact Hrec
    isplitr; · iexact Hlev
    isplitl [Hcc]; · iexact Hcc
    isplitl [Hac]; · iexact Hac
    iexact HO
  iintro ⟨Hpc, Hac, HO⟩
  ihave Hpc := (copyPay_split m c 1 4) $$ Hpc
  icases Hpc with ⟨Hdone, Hst⟩
  ihave Hst := (Entails.of_eq (show stageAny (F := F) c 1 (par 4) = stageAny c 1 0 from rfl)) $$ Hst
  ihave Hps := (Entails.of_eq (show sendPay m c 1 5 = slotHas m c 1 2 fullShare.left from rfl)) $$ Hps
  ihave Hpr := (Entails.of_eq (show recvPay m c 1 5 = holdsPts c (gs1 6) fullShare (sv1 m (xr c (mask 1 6))) from rfl)) $$ Hpr
  iapply (op_load_gs1 m c 6 fullShare _) $$ Hpr; iintro Hpr
  iapply (op_load_b16 m c fullShare _) $$ Hb; iintro Hb
  ihave Hpr := (Entails.of_eq (show holdsPts c (gs1 6) fullShare (sv1 m (xr c (mask 1 6))) = slotHas m c 1 6 fullShare from rfl)) $$ Hpr
  rw [wp_ret]; imodintro
  iapply HK $$ %_ %(by rfl)
  isplitl [Has]; · iexact Has
  isplitl [Hps]; · iexact Hps
  isplitl [Har]; · iexact Har
  isplitl [Hpr]; · iexact Hpr
  isplitl [HO]; · iexists _; iexact HO
  isplitl [Hac]; · iexact Hac
  isplitl [Hdone]; · iexact Hdone
  isplitl [Hst]; · iexact Hst
  iexact Hb

/-- Part 36: product block 6 of group 1 stored and copied out, and the waits on the transfer of step 5 of group 2. -/
theorem part36 : Part36Spec m K := by
  intro c v2 v340 Kt
  simp only [k0_part36, semSignalWord, semWaitWord, Prog.lift, Prog.bind_op, Prog.bind_ret, Prog.pure_eq_ret, wp_deviceId]
  iintro ⟨#Hrec, #Hlev, Hst, Hpa, Htk, Hcs, Has, ⟨%W, HO⟩, Hcr, Har, HK⟩
  ihave Hst := (Entails.of_eq (show stageAny (F := F) c 1 0 = anyPts c (ss1 0) from rfl)) $$ Hst
  iapply (op_load_ss1_any m c 0) $$ Hst; iintro %x Hst
  iapply (op_store_ss1 m c 0 (prod336 (sv1 m (xr c (mask 1 6))) (bv m c)) rfl) $$ Hst; iintro Hst
  ihave Hst := (stage_has1 m c 6 0 rfl (by decide)) $$ Hst
  ihave Hst := (Entails.of_eq (show stageHas m c 1 6 = stageHas1 m c 6 from rfl)) $$ Hst
  iapply (op_copy1 m K c 6 0 5 rfl rfl) $$ [Hst Hpa Htk]
  · isplitr; · iexact Hrec
    isplitl [Hst]; · iexact Hst
    isplitl [Hpa]; · iexact Hpa
    iexact Htk
  iintro Hcn
  iapply (wait_send' m K c 2 5 (Orem ((payList c).drop 27)) _ (above_paid c _)) $$ [Hcs Has HO]
  · isplitr; · iexact Hrec
    isplitr; · iexact Hlev
    isplitl [Hcs]; · iexact Hcs
    isplitl [Has]; · iexact Has
    iexact HO
  iintro ⟨Hps, Has, HO⟩
  iapply (wait_recv' m K c 2 5 (Orem ((payList c).drop 27)) _ (above_paid c _)) $$ [Hcr Har HO]
  · isplitr; · iexact Hrec
    isplitr; · iexact Hlev
    isplitl [Hcr]; · iexact Hcr
    isplitl [Har]; · iexact Har
    iexact HO
  iintro ⟨Hpr, Har, HO⟩
  ihave Hps := (Entails.of_eq (show sendPay m c 2 5 = slotHas m c 2 2 fullShare.left from rfl)) $$ Hps
  ihave Hpr := (Entails.of_eq (show recvPay m c 2 5 = slotHas m c 2 6 fullShare from rfl)) $$ Hpr
  rw [wp_ret]; imodintro
  iapply HK
  isplitl [Hcn]; · iexact Hcn
  isplitl [Has]; · iexact Has
  isplitl [Hps]; · iexact Hps
  isplitl [HO]; · iexists _; iexact HO
  isplitl [Har]; · iexact Har
  iexact Hpr

/-- Part 37: the wait on the copy cell before product block 6 of group 2, and that block stored and copied out. -/
theorem part37 : Part37Spec m K := by
  intro c v2 Kt
  simp only [k0_part37, semSignalWord, semWaitWord, Prog.lift, Prog.bind_op, Prog.bind_ret, Prog.pure_eq_ret, wp_deviceId]
  iintro ⟨#Hrec, #Hlev, Hcc, Hac, ⟨%W, HO⟩, Hsl, Hb, Hpa, Htk, HK⟩
  iapply (wait_copy' m K c 2 4 (Orem ((payList c).drop 27)) _ (above_paid c _)) $$ [Hcc Hac HO]
  · isplitr; · iexact Hrec
    isplitr; · iexact Hlev
    isplitl [Hcc]; · iexact Hcc
    isplitl [Hac]; · iexact Hac
    iexact HO
  iintro ⟨Hpc, Hac, HO⟩
  ihave Hpc := (copyPay_split m c 2 4) $$ Hpc
  icases Hpc with ⟨Hdone, Hst⟩
  ihave Hst := (Entails.of_eq (show stageAny (F := F) c 2 (par 4) = anyPts c (ss2 0) from rfl)) $$ Hst
  ihave Hsl := (Entails.of_eq (show slotHas m c 2 6 fullShare = holdsPts c (gs2 6) fullShare (sv2 m (xr c (mask 2 6))) from rfl)) $$ Hsl
  iapply (op_load_gs2 m c 6 fullShare _) $$ Hsl; iintro Hsl
  iapply (op_load_b16 m c fullShare _) $$ Hb; iintro Hb
  iapply (op_load_ss2_any m c 0) $$ Hst; iintro %x Hst
  iapply (op_store_ss2 m c 0 (prod336 (sv2 m (xr c (mask 2 6))) (bv m c)) rfl) $$ Hst; iintro Hst
  ihave Hsl := (Entails.of_eq (show holdsPts c (gs2 6) fullShare (sv2 m (xr c (mask 2 6))) = slotHas m c 2 6 fullShare from rfl)) $$ Hsl
  ihave Hst := (stage_has2 m c 6 0 rfl (by decide)) $$ Hst
  ihave Hst := (Entails.of_eq (show stageHas m c 2 6 = stageHas2 m c 6 from rfl)) $$ Hst
  iapply (op_copy2 m K c 6 0 2 rfl rfl) $$ [Hst Hpa Htk]
  · isplitr; · iexact Hrec
    isplitl [Hst]; · iexact Hst
    isplitl [Hpa]; · iexact Hpa
    iexact Htk
  iintro Hcn
  rw [wp_ret]; imodintro
  iapply HK
  isplitl [HO]; · iexists _; iexact HO
  isplitl [Hac]; · iexact Hac
  isplitl [Hdone]; · iexact Hdone
  isplitl [Hsl]; · iexact Hsl
  isplitl [Hb]; · iexact Hb
  iexact Hcn

/-- info: 'Cert.Kernel.DM.part31' depends on axioms: [propext, Classical.choice, Quot.sound] -/
#guard_msgs in #print axioms part31

/-- info: 'Cert.Kernel.DM.part32' depends on axioms: [propext, Classical.choice, Quot.sound] -/
#guard_msgs in #print axioms part32

/-- info: 'Cert.Kernel.DM.part33' depends on axioms: [propext, Classical.choice, Quot.sound] -/
#guard_msgs in #print axioms part33

/-- info: 'Cert.Kernel.DM.part34' depends on axioms: [propext, Classical.choice, Quot.sound] -/
#guard_msgs in #print axioms part34

/-- info: 'Cert.Kernel.DM.part35' depends on axioms: [propext, Classical.choice, Quot.sound] -/
#guard_msgs in #print axioms part35

/-- info: 'Cert.Kernel.DM.part36' depends on axioms: [propext, Classical.choice, Quot.sound] -/
#guard_msgs in #print axioms part36

/-- info: 'Cert.Kernel.DM.part37' depends on axioms: [propext, Classical.choice, Quot.sound] -/
#guard_msgs in #print axioms part37

end Cert.Kernel.DM

end
-- ==== Proof.Bits.Parts_38_45.lean ====
import proofs.«900891_g7700000000000892_dist_matmul_m_i_outrep_m1024_n1024_k512_v7x_i8_f32_1_alg».proof.Proof.Bits.PartSpecs
import proofs.«900891_g7700000000000892_dist_matmul_m_i_outrep_m1024_n1024_k512_v7x_i8_f32_1_alg».proof.Proof.Bits.OpsSend
import proofs.«900891_g7700000000000892_dist_matmul_m_i_outrep_m1024_n1024_k512_v7x_i8_f32_1_alg».proof.Proof.Bits.OpsWait
import proofs.«900891_g7700000000000892_dist_matmul_m_i_outrep_m1024_n1024_k512_v7x_i8_f32_1_alg».proof.Proof.Bits.OpsStore
import proofs.«900891_g7700000000000892_dist_matmul_m_i_outrep_m1024_n1024_k512_v7x_i8_f32_1_alg».proof.Proof.Bits.OpsCopy
import proofs.«900891_g7700000000000892_dist_matmul_m_i_outrep_m1024_n1024_k512_v7x_i8_f32_1_alg».proof.Proof.Bits.Launch

/-!
The runs of the body's parts 38 to 45: the last product block of each group, whose slot arrives in two parts. Each
part is stepped operation by operation from the pieces of state its table lists to the pieces it leaves. The waits on
the two last steps' cells hand over the share of each part of slot 3 that its transfer read and the filled part of
slot 7; the rows below 176 of the block are stored from the first part, the rows from 176 on from the second, and the
whole block is then copied into its rows of the result. The last waits of the program hand over the blocks 6 and 7 in
their rows of the result and free the stage slots.
-/

set_option maxRecDepth 16384

noncomputable section

namespace Cert.Kernel.DM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ)

theorem part38 : Part38Spec m K := by
  intro c v509 Kt
  simp only [k0_part38, semSignalWord, semWaitWord, Prog.lift, Prog.bind_op, Prog.bind_ret, Prog.pure_eq_ret, wp_deviceId]
  iintro H
  icases H with ⟨#Hrec, #Hlev, Hcs, H⟩
  icases H with ⟨Hats, HO, Hcr, H⟩
  icases H with ⟨Hatr, Hcc, Hatc, H⟩
  icases H with ⟨Hb, HK⟩
  icases HO with ⟨%W, HO⟩
  have hab0 : Above 0 (Orem ((payList c).drop 27)) := above_zero 0
  have hab4 : Above 4 (Orem ((payList c).drop 27)) := above_zero 4
  iapply (wait_send' m K c 0 6 (Orem ((payList c).drop 27)) _ hab0 (src := qa0 7) (dst := qa0 3) (Q := Kt)) $$ [Hcs Hats HO]
  · isplitr; · iexact Hrec
    isplitr; · iexact Hlev
    isplitl [Hcs]; · iexact Hcs
    isplitl [Hats]; · iexact Hats
    iexact HO
  iintro ⟨Hs3, Hats, HO⟩
  ihave Hs3 := (Entails.of_eq (show (sendPay m c 0 6 : sProp 𝕄) = slotTop m c 0 3 fullShare.left from rfl)) $$ Hs3
  iapply (wait_recv' m K c 0 6 (Orem ((payList c).drop 27)) _ hab4 (src := qa0 3) (dst := qa0 7) (Q := Kt)) $$ [Hcr Hatr HO]
  · isplitr; · iexact Hrec
    isplitr; · iexact Hlev
    isplitl [Hcr]; · iexact Hcr
    isplitl [Hatr]; · iexact Hatr
    iexact HO
  iintro ⟨Hs7, Hatr, HO⟩
  ihave Hs7 := (Entails.of_eq (show (recvPay m c 0 6 : sProp 𝕄) = holdsPts c (ga0 7) fullShare (topA (sv0 m (xr c (mask 0 7)))) from rfl)) $$ Hs7
  iapply (wait_copy' m K c 0 5 (Orem ((payList c).drop 27)) _ hab0 (src := ss0 1) (dst := cw0) (Q := Kt)) $$ [Hcc Hatc HO]
  · isplitr; · iexact Hrec
    isplitr; · iexact Hlev
    isplitl [Hcc]; · iexact Hcc
    isplitl [Hatc]; · iexact Hatc
    iexact HO
  iintro ⟨Hcp, Hatc, HO⟩
  ihave Hcp := (copyPay_split m c 0 5) $$ Hcp
  icases Hcp with ⟨Hdone, Hs⟩
  ihave Hs := (Entails.of_eq (show (stageAny c 0 (par 5) : sProp 𝕄) = anyPts c (ss0 1) from rfl)) $$ Hs
  iapply (op_load_ga0 m c 7 fullShare _) $$ Hs7; iintro Hs7
  iapply (op_load_b16 m c fullShare _) $$ Hb; iintro Hb
  iapply (op_load_ss0_top_any m c) $$ Hs; iintro %old Hs
  iapply (op_store_ss0_top m c (prod176 (topA (sv0 m (xr c (mask 0 7)))) (bv m c)) rfl rfl) $$ Hs; iintro Hs
  ihave Hs7 := (Entails.of_eq (show (holdsPts c (ga0 7) fullShare (topA (sv0 m (xr c (mask 0 7)))) : sProp 𝕄) = slotTop m c 0 7 fullShare from rfl)) $$ Hs7
  ihave Hs := (Entails.of_eq (show (stageTop0 m c : sProp 𝕄) = stageTop m c 0 from rfl)) $$ Hs
  rw [wp_ret]; imodintro
  iapply HK
  isplitl [Hats]; · iexact Hats
  isplitl [Hs3]; · iexact Hs3
  isplitl [Hatr]; · iexact Hatr
  isplitl [Hs7]; · iexact Hs7
  isplitl [HO]; · iexists _; iexact HO
  isplitl [Hatc]; · iexact Hatc
  isplitl [Hdone]; · iexact Hdone
  isplitl [Hb]; · iexact Hb
  iexact Hs

theorem part39 : Part39Spec m K := by
  intro c v541 Kt
  simp only [k0_part39, semSignalWord, semWaitWord, Prog.lift, Prog.bind_op, Prog.bind_ret, Prog.pure_eq_ret, wp_deviceId]
  iintro H
  icases H with ⟨#Hrec, #Hlev, Hcs, H⟩
  icases H with ⟨Hats, HO, Hcr, H⟩
  icases H with ⟨Hatr, Hcc, Hatc, H⟩
  icases H with ⟨Hb, HK⟩
  icases HO with ⟨%W, HO⟩
  have hab0 : Above 0 (Orem ((payList c).drop 27)) := above_zero 0
  have hab4 : Above 4 (Orem ((payList c).drop 27)) := above_zero 4
  iapply (wait_send' m K c 1 6 (Orem ((payList c).drop 27)) _ hab0 (src := qa1 7) (dst := qa1 3) (Q := Kt)) $$ [Hcs Hats HO]
  · isplitr; · iexact Hrec
    isplitr; · iexact Hlev
    isplitl [Hcs]; · iexact Hcs
    isplitl [Hats]; · iexact Hats
    iexact HO
  iintro ⟨Hs3, Hats, HO⟩
  ihave Hs3 := (Entails.of_eq (show (sendPay m c 1 6 : sProp 𝕄) = slotTop m c 1 3 fullShare.left from rfl)) $$ Hs3
  iapply (wait_recv' m K c 1 6 (Orem ((payList c).drop 27)) _ hab4 (src := qa1 3) (dst := qa1 7) (Q := Kt)) $$ [Hcr Hatr HO]
  · isplitr; · iexact Hrec
    isplitr; · iexact Hlev
    isplitl [Hcr]; · iexact Hcr
    isplitl [Hatr]; · iexact Hatr
    iexact HO
  iintro ⟨Hs7, Hatr, HO⟩
  ihave Hs7 := (Entails.of_eq (show (recvPay m c 1 6 : sProp 𝕄) = holdsPts c (ga1 7) fullShare (topB (sv1 m (xr c (mask 1 7)))) from rfl)) $$ Hs7
  iapply (wait_copy' m K c 1 5 (Orem ((payList c).drop 27)) _ hab0 (src := ss1 1) (dst := cw12) (Q := Kt)) $$ [Hcc Hatc HO]
  · isplitr; · iexact Hrec
    isplitr; · iexact Hlev
    isplitl [Hcc]; · iexact Hcc
    isplitl [Hatc]; · iexact Hatc
    iexact HO
  iintro ⟨Hcp, Hatc, HO⟩
  ihave Hcp := (copyPay_split m c 1 5) $$ Hcp
  icases Hcp with ⟨Hdone, Hs⟩
  ihave Hs := (Entails.of_eq (show (stageAny c 1 (par 5) : sProp 𝕄) = anyPts c (ss1 1) from rfl)) $$ Hs
  iapply (op_load_ga1 m c 7 fullShare _) $$ Hs7; iintro Hs7
  iapply (op_load_b16 m c fullShare _) $$ Hb; iintro Hb
  iapply (op_load_ss1_top_any m c) $$ Hs; iintro %old Hs
  ihave Hs7 := (Entails.of_eq (show (holdsPts c (ga1 7) fullShare (topB (sv1 m (xr c (mask 1 7)))) : sProp 𝕄) = slotTop m c 1 7 fullShare from rfl)) $$ Hs7
  ihave Hs := (Entails.of_eq (show (anyPts c (ss1 1) : sProp 𝕄) = stageAny c 1 1 from rfl)) $$ Hs
  rw [wp_ret]; imodintro
  iapply HK $$ %_ %rfl
  isplitl [Hats]; · iexact Hats
  isplitl [Hs3]; · iexact Hs3
  isplitl [Hatr]; · iexact Hatr
  isplitl [Hs7]; · iexact Hs7
  isplitl [HO]; · iexists _; iexact HO
  isplitl [Hatc]; · iexact Hatc
  isplitl [Hdone]; · iexact Hdone
  isplitl [Hs]; · iexact Hs
  iexact Hb

theorem part40 : Part40Spec m K := by
  intro c v573 v884 Kt
  simp only [k0_part40, semSignalWord, semWaitWord, Prog.lift, Prog.bind_op, Prog.bind_ret, Prog.pure_eq_ret, wp_deviceId]
  iintro H
  icases H with ⟨#Hrec, #Hlev, Hs1, H⟩
  icases H with ⟨Hcs, Hats, HO, H⟩
  icases H with ⟨Hcr, Hatr, Hcc, H⟩
  icases H with ⟨Hatc, HK⟩
  icases HO with ⟨%W, HO⟩
  have hab0 : Above 0 (Orem ((payList c).drop 27)) := above_zero 0
  have hab4 : Above 4 (Orem ((payList c).drop 27)) := above_zero 4
  ihave Hs1 := (Entails.of_eq (show (stageAny c 1 1 : sProp 𝕄) = anyPts c (ss1 1) from rfl)) $$ Hs1
  iapply (op_store_ss1_top m c (prod176 (topB (sv1 m (xr c (mask 1 7)))) (bv m c)) rfl rfl) $$ Hs1; iintro Hs1
  iapply (wait_send' m K c 2 6 (Orem ((payList c).drop 27)) _ hab0 (src := qa2 7) (dst := qa2 3) (Q := Kt)) $$ [Hcs Hats HO]
  · isplitr; · iexact Hrec
    isplitr; · iexact Hlev
    isplitl [Hcs]; · iexact Hcs
    isplitl [Hats]; · iexact Hats
    iexact HO
  iintro ⟨Hs3, Hats, HO⟩
  ihave Hs3 := (Entails.of_eq (show (sendPay m c 2 6 : sProp 𝕄) = slotTop m c 2 3 fullShare.left from rfl)) $$ Hs3
  iapply (wait_recv' m K c 2 6 (Orem ((payList c).drop 27)) _ hab4 (src := qa2 3) (dst := qa2 7) (Q := Kt)) $$ [Hcr Hatr HO]
  · isplitr; · iexact Hrec
    isplitr; · iexact Hlev
    isplitl [Hcr]; · iexact Hcr
    isplitl [Hatr]; · iexact Hatr
    iexact HO
  iintro ⟨Hs7, Hatr, HO⟩
  ihave Hs7 := (Entails.of_eq (show (recvPay m c 2 6 : sProp 𝕄) = holdsPts c (ga2 7) fullShare (topB (sv2 m (xr c (mask 2 7)))) from rfl)) $$ Hs7
  iapply (wait_copy' m K c 2 5 (Orem ((payList c).drop 27)) _ hab0 (src := ss2 1) (dst := cw12) (Q := Kt)) $$ [Hcc Hatc HO]
  · isplitr; · iexact Hrec
    isplitr; · iexact Hlev
    isplitl [Hcc]; · iexact Hcc
    isplitl [Hatc]; · iexact Hatc
    iexact HO
  iintro ⟨Hcp, Hatc, HO⟩
  ihave Hcp := (copyPay_split m c 2 5) $$ Hcp
  icases Hcp with ⟨Hdone, Hs⟩
  ihave Hs := (Entails.of_eq (show (stageAny c 2 (par 5) : sProp 𝕄) = stageAny c 2 1 from rfl)) $$ Hs
  iapply (op_load_ga2 m c 7 fullShare _) $$ Hs7; iintro Hs7
  ihave Hs7 := (Entails.of_eq (show (holdsPts c (ga2 7) fullShare (topB (sv2 m (xr c (mask 2 7)))) : sProp 𝕄) = slotTop m c 2 7 fullShare from rfl)) $$ Hs7
  ihave Hs1 := (Entails.of_eq (show (stageTop1 m c : sProp 𝕄) = stageTop m c 1 from rfl)) $$ Hs1
  rw [wp_ret]; imodintro
  iapply HK $$ %_ %(by rfl)
  isplitl [Hs1]; · iexact Hs1
  isplitl [Hats]; · iexact Hats
  isplitl [Hs3]; · iexact Hs3
  isplitl [Hatr]; · iexact Hatr
  isplitl [Hs7]; · iexact Hs7
  isplitl [HO]; · iexists _; iexact HO
  isplitl [Hatc]; · iexact Hatc
  isplitl [Hdone]; · iexact Hdone
  iexact Hs

theorem part41 : Part41Spec m K := by
  intro c v520 Kt
  simp only [k0_part41, semSignalWord, semWaitWord, Prog.lift, Prog.bind_op, Prog.bind_ret, Prog.pure_eq_ret, wp_deviceId]
  iintro H
  icases H with ⟨#Hrec, #Hlev, Hb, H⟩
  icases H with ⟨Hs, Hcs, Hats, H⟩
  icases H with ⟨HO, Hcr, Hatr, HK⟩
  icases HO with ⟨%W, HO⟩
  have hab0 : Above 0 (Orem ((payList c).drop 27)) := above_zero 0
  have hab4 : Above 4 (Orem ((payList c).drop 27)) := above_zero 4
  iapply (op_load_b16 m c fullShare _) $$ Hb; iintro Hb
  ihave Hs := (Entails.of_eq (show (stageAny c 2 1 : sProp 𝕄) = anyPts c (ss2 1) from rfl)) $$ Hs
  iapply (op_load_ss2_top_any m c) $$ Hs; iintro %old Hs
  iapply (op_store_ss2_top m c (prod176 (topB (sv2 m (xr c (mask 2 7)))) (bv m c)) rfl rfl) $$ Hs; iintro Hs
  iapply (wait_send' m K c 0 7 (Orem ((payList c).drop 27)) _ hab0 (src := qb0 7) (dst := qb0 3) (Q := Kt)) $$ [Hcs Hats HO]
  · isplitr; · iexact Hrec
    isplitr; · iexact Hlev
    isplitl [Hcs]; · iexact Hcs
    isplitl [Hats]; · iexact Hats
    iexact HO
  iintro ⟨Hs3, Hats, HO⟩
  ihave Hs3 := (Entails.of_eq (show (sendPay m c 0 7 : sProp 𝕄) = slotBot m c 0 3 fullShare.left from rfl)) $$ Hs3
  iapply (wait_recv' m K c 0 7 (Orem ((payList c).drop 27)) _ hab4 (src := qb0 3) (dst := qb0 7) (Q := Kt)) $$ [Hcr Hatr HO]
  · isplitr; · iexact Hrec
    isplitr; · iexact Hlev
    isplitl [Hcr]; · iexact Hcr
    isplitl [Hatr]; · iexact Hatr
    iexact HO
  iintro ⟨Hs7, Hatr, HO⟩
  ihave Hs7 := (Entails.of_eq (show (recvPay m c 0 7 : sProp 𝕄) = holdsPts c (gb0 7) fullShare (botA (sv0 m (xr c (mask 0 7)))) from rfl)) $$ Hs7
  iapply (op_load_gb0 m c 7 fullShare _) $$ Hs7; iintro Hs7
  iapply (op_load_b16 m c fullShare _) $$ Hb; iintro Hb
  ihave Hs7 := (Entails.of_eq (show (holdsPts c (gb0 7) fullShare (botA (sv0 m (xr c (mask 0 7)))) : sProp 𝕄) = slotBot m c 0 7 fullShare from rfl)) $$ Hs7
  ihave Hs := (Entails.of_eq (show (stageTop2 m c : sProp 𝕄) = stageTop m c 2 from rfl)) $$ Hs
  rw [wp_ret]; imodintro
  iapply HK $$ %_ %⟨rfl, rfl, rfl⟩
  isplitl [Hb]; · iexact Hb
  isplitl [Hs]; · iexact Hs
  isplitl [Hats]; · iexact Hats
  isplitl [Hs3]; · iexact Hs3
  isplitl [HO]; · iexists _; iexact HO
  isplitl [Hatr]; · iexact Hatr
  iexact Hs7

theorem part42 : Part42Spec m K := by
  intro c v2 v552 Kt
  simp only [k0_part42, semSignalWord, semWaitWord, Prog.lift, Prog.bind_op, Prog.bind_ret, Prog.pure_eq_ret, wp_deviceId]
  iintro H
  icases H with ⟨#Hrec, #Hlev, Hs, H⟩
  icases H with ⟨Hp, Htc, Hcs, H⟩
  icases H with ⟨Hats, HO, HK⟩
  icases HO with ⟨%W, HO⟩
  have hab0 : Above 0 (Orem ((payList c).drop 27)) := above_zero 0
  ihave Hs := (Entails.of_eq (show (stageTop m c 0 : sProp 𝕄) = stageTop0 m c from rfl)) $$ Hs
  iapply (op_load_ss0_bot_any m c) $$ Hs; iintro %old Hs
  iapply (op_store_ss0_bot m c (prod176 (botA (sv0 m (xr c (mask 0 7)))) (bv m c)) rfl rfl) $$ Hs; iintro Hs
  iapply (op_copy0 m K c 7 1 6 (by decide) (by decide)) $$ [Hs Hp Htc]
  · isplitr; · iexact Hrec
    isplitl [Hs]; · iexact Hs
    isplitl [Hp]; · iexact Hp
    iexact Htc
  iintro Hcc
  iapply (wait_send' m K c 1 7 (Orem ((payList c).drop 27)) _ hab0 (src := qb1 7) (dst := qb1 3) (Q := Kt)) $$ [Hcs Hats HO]
  · isplitr; · iexact Hrec
    isplitr; · iexact Hlev
    isplitl [Hcs]; · iexact Hcs
    isplitl [Hats]; · iexact Hats
    iexact HO
  iintro ⟨Hs3, Hats, HO⟩
  ihave Hs3 := (Entails.of_eq (show (sendPay m c 1 7 : sProp 𝕄) = slotBot m c 1 3 fullShare.left from rfl)) $$ Hs3
  rw [wp_ret]; imodintro
  iapply HK
  isplitl [Hcc]; · iexact Hcc
  isplitl [HO]; · iexists _; iexact HO
  isplitl [Hats]; · iexact Hats
  iexact Hs3

theorem part43 : Part43Spec m K := by
  intro c v2 Kt
  simp only [k0_part43, semSignalWord, semWaitWord, Prog.lift, Prog.bind_op, Prog.bind_ret, Prog.pure_eq_ret, wp_deviceId]
  iintro H
  icases H with ⟨#Hrec, #Hlev, Hcr, H⟩
  icases H with ⟨Hatr, HO, Hb, H⟩
  icases H with ⟨Hs, Hp, Htc, H⟩
  icases H with ⟨Hcs, Hats, HK⟩
  icases HO with ⟨%W, HO⟩
  have hab0 : Above 0 (Orem ((payList c).drop 27)) := above_zero 0
  have hab4 : Above 4 (Orem ((payList c).drop 27)) := above_zero 4
  iapply (wait_recv' m K c 1 7 (Orem ((payList c).drop 27)) _ hab4 (src := qb1 3) (dst := qb1 7) (Q := Kt)) $$ [Hcr Hatr HO]
  · isplitr; · iexact Hrec
    isplitr; · iexact Hlev
    isplitl [Hcr]; · iexact Hcr
    isplitl [Hatr]; · iexact Hatr
    iexact HO
  iintro ⟨Hs7, Hatr, HO⟩
  ihave Hs7 := (Entails.of_eq (show (recvPay m c 1 7 : sProp 𝕄) = holdsPts c (gb1 7) fullShare (botB (sv1 m (xr c (mask 1 7)))) from rfl)) $$ Hs7
  iapply (op_load_gb1 m c 7 fullShare _) $$ Hs7; iintro Hs7
  iapply (op_load_b16 m c fullShare _) $$ Hb; iintro Hb
  ihave Hs := (Entails.of_eq (show (stageTop m c 1 : sProp 𝕄) = stageTop1 m c from rfl)) $$ Hs
  iapply (op_load_ss1_bot_any m c) $$ Hs; iintro %old Hs
  iapply (op_store_ss1_bot m c (prod160 (botB (sv1 m (xr c (mask 1 7)))) (bv m c)) rfl rfl) $$ Hs; iintro Hs
  iapply (op_copy1 m K c 7 1 6 (by decide) (by decide)) $$ [Hs Hp Htc]
  · isplitr; · iexact Hrec
    isplitl [Hs]; · iexact Hs
    isplitl [Hp]; · iexact Hp
    iexact Htc
  iintro Hcc
  iapply (wait_send' m K c 2 7 (Orem ((payList c).drop 27)) _ hab0 (src := qb2 7) (dst := qb2 3) (Q := Kt)) $$ [Hcs Hats HO]
  · isplitr; · iexact Hrec
    isplitr; · iexact Hlev
    isplitl [Hcs]; · iexact Hcs
    isplitl [Hats]; · iexact Hats
    iexact HO
  iintro ⟨Hs3, Hats, HO⟩
  ihave Hs3 := (Entails.of_eq (show (sendPay m c 2 7 : sProp 𝕄) = slotBot m c 2 3 fullShare.left from rfl)) $$ Hs3
  ihave Hs7 := (Entails.of_eq (show (holdsPts c (gb1 7) fullShare (botB (sv1 m (xr c (mask 1 7)))) : sProp 𝕄) = slotBot m c 1 7 fullShare from rfl)) $$ Hs7
  rw [wp_ret]; imodintro
  iapply HK
  isplitl [Hatr]; · iexact Hatr
  isplitl [Hs7]; · iexact Hs7
  isplitl [Hb]; · iexact Hb
  isplitl [Hcc]; · iexact Hcc
  isplitl [HO]; · iexists _; iexact HO
  isplitl [Hats]; · iexact Hats
  iexact Hs3

theorem part44 : Part44Spec m K := by
  intro c v2 v584 Kt
  simp only [k0_part44, semSignalWord, semWaitWord, Prog.lift, Prog.bind_op, Prog.bind_ret, Prog.pure_eq_ret, wp_deviceId]
  iintro H
  icases H with ⟨#Hrec, #Hlev, Hcr, H⟩
  icases H with ⟨Hatr, HO, Hb, H⟩
  icases H with ⟨Hs, Hp, Htc, HK⟩
  icases HO with ⟨%W, HO⟩
  have hab0 : Above 0 (Orem ((payList c).drop 27)) := above_zero 0
  have hab4 : Above 4 (Orem ((payList c).drop 27)) := above_zero 4
  iapply (wait_recv' m K c 2 7 (Orem ((payList c).drop 27)) _ hab4 (src := qb2 3) (dst := qb2 7) (Q := Kt)) $$ [Hcr Hatr HO]
  · isplitr; · iexact Hrec
    isplitr; · iexact Hlev
    isplitl [Hcr]; · iexact Hcr
    isplitl [Hatr]; · iexact Hatr
    iexact HO
  iintro ⟨Hs7, Hatr, HO⟩
  ihave Hs7 := (Entails.of_eq (show (recvPay m c 2 7 : sProp 𝕄) = holdsPts c (gb2 7) fullShare (botB (sv2 m (xr c (mask 2 7)))) from rfl)) $$ Hs7
  iapply (op_load_gb2 m c 7 fullShare _) $$ Hs7; iintro Hs7
  iapply (op_load_b16 m c fullShare _) $$ Hb; iintro Hb
  ihave Hs := (Entails.of_eq (show (stageTop m c 2 : sProp 𝕄) = stageTop2 m c from rfl)) $$ Hs
  iapply (op_load_ss2_bot_any m c) $$ Hs; iintro %old Hs
  iapply (op_store_ss2_bot m c (prod160 (botB (sv2 m (xr c (mask 2 7)))) (bv m c)) rfl rfl) $$ Hs; iintro Hs
  iapply (op_copy2 m K c 7 1 6 (by decide) (by decide)) $$ [Hs Hp Htc]
  · isplitr; · iexact Hrec
    isplitl [Hs]; · iexact Hs
    isplitl [Hp]; · iexact Hp
    iexact Htc
  iintro Hcc

  ihave Hs7 := (Entails.of_eq (show (holdsPts c (gb2 7) fullShare (botB (sv2 m (xr c (mask 2 7)))) : sProp 𝕄) = slotBot m c 2 7 fullShare from rfl)) $$ Hs7
  rw [wp_ret]; imodintro
  iapply HK
  isplitl [HO]; · iexists _; iexact HO
  isplitl [Hatr]; · iexact Hatr
  isplitl [Hs7]; · iexact Hs7
  isplitl [Hb]; · iexact Hb
  iexact Hcc

theorem part45 : Part45Spec m K := by
  intro c Kt
  simp only [k0_part45, semSignalWord, semWaitWord, Prog.lift, Prog.bind_op, Prog.bind_ret, Prog.pure_eq_ret, wp_deviceId]
  iintro H
  icases H with ⟨#Hrec, #Hlev, Hc1, H⟩
  icases H with ⟨Hat1, HO, Hc2, H⟩
  icases H with ⟨Hat2, Hc3, Hat3, H⟩
  icases H with ⟨Hc4, Hat4, Hc5, H⟩
  icases H with ⟨Hat5, HK⟩
  icases HO with ⟨%W, HO⟩
  have hab0 : Above 0 (Orem ((payList c).drop 27)) := above_zero 0
  iapply (wait_copy' m K c 0 6 (Orem ((payList c).drop 27)) _ hab0 (src := ss0 0) (dst := cw0) (Q := Kt)) $$ [Hc1 Hat1 HO]
  · isplitr; · iexact Hrec
    isplitr; · iexact Hlev
    isplitl [Hc1]; · iexact Hc1
    isplitl [Hat1]; · iexact Hat1
    iexact HO
  iintro ⟨Hcp1, Hat1, HO⟩
  ihave Hcp1 := (copyPay_split m c 0 6) $$ Hcp1
  icases Hcp1 with ⟨Hd1, Hs1⟩
  ihave Hs1 := (Entails.of_eq (show (stageAny c 0 (par 6) : sProp 𝕄) = stageAny c 0 0 from rfl)) $$ Hs1
  iapply (wait_copy' m K c 0 7 (Orem ((payList c).drop 27)) _ hab0 (src := ss0 1) (dst := cw0) (Q := Kt)) $$ [Hc2 Hat2 HO]
  · isplitr; · iexact Hrec
    isplitr; · iexact Hlev
    isplitl [Hc2]; · iexact Hc2
    isplitl [Hat2]; · iexact Hat2
    iexact HO
  iintro ⟨Hcp2, Hat2, HO⟩
  ihave Hcp2 := (copyPay_split m c 0 7) $$ Hcp2
  icases Hcp2 with ⟨Hd2, Hs2⟩
  ihave Hs2 := (Entails.of_eq (show (stageAny c 0 (par 7) : sProp 𝕄) = stageAny c 0 1 from rfl)) $$ Hs2
  iapply (wait_copy' m K c 1 6 (Orem ((payList c).drop 27)) _ hab0 (src := ss1 0) (dst := cw12) (Q := Kt)) $$ [Hc3 Hat3 HO]
  · isplitr; · iexact Hrec
    isplitr; · iexact Hlev
    isplitl [Hc3]; · iexact Hc3
    isplitl [Hat3]; · iexact Hat3
    iexact HO
  iintro ⟨Hcp3, Hat3, HO⟩
  ihave Hcp3 := (copyPay_split m c 1 6) $$ Hcp3
  icases Hcp3 with ⟨Hd3, Hs3⟩
  ihave Hs3 := (Entails.of_eq (show (stageAny c 1 (par 6) : sProp 𝕄) = stageAny c 1 0 from rfl)) $$ Hs3
  iapply (wait_copy' m K c 1 7 (Orem ((payList c).drop 27)) _ hab0 (src := ss1 1) (dst := cw12) (Q := Kt)) $$ [Hc4 Hat4 HO]
  · isplitr; · iexact Hrec
    isplitr; · iexact Hlev
    isplitl [Hc4]; · iexact Hc4
    isplitl [Hat4]; · iexact Hat4
    iexact HO
  iintro ⟨Hcp4, Hat4, HO⟩
  ihave Hcp4 := (copyPay_split m c 1 7) $$ Hcp4
  icases Hcp4 with ⟨Hd4, Hs4⟩
  ihave Hs4 := (Entails.of_eq (show (stageAny c 1 (par 7) : sProp 𝕄) = stageAny c 1 1 from rfl)) $$ Hs4
  iapply (wait_copy' m K c 2 6 (Orem ((payList c).drop 27)) _ hab0 (src := ss2 0) (dst := cw12) (Q := Kt)) $$ [Hc5 Hat5 HO]
  · isplitr; · iexact Hrec
    isplitr; · iexact Hlev
    isplitl [Hc5]; · iexact Hc5
    isplitl [Hat5]; · iexact Hat5
    iexact HO
  iintro ⟨Hcp5, Hat5, HO⟩
  ihave Hcp5 := (copyPay_split m c 2 6) $$ Hcp5
  icases Hcp5 with ⟨Hd5, Hs5⟩
  ihave Hs5 := (Entails.of_eq (show (stageAny c 2 (par 6) : sProp 𝕄) = stageAny c 2 0 from rfl)) $$ Hs5
  rw [wp_ret]; imodintro
  iapply HK
  isplitl [Hat1]; · iexact Hat1
  isplitl [Hd1]; · iexact Hd1
  isplitl [Hs1]; · iexact Hs1
  isplitl [Hat2]; · iexact Hat2
  isplitl [Hd2]; · iexact Hd2
  isplitl [Hs2]; · iexact Hs2
  isplitl [Hat3]; · iexact Hat3
  isplitl [Hd3]; · iexact Hd3
  isplitl [Hs3]; · iexact Hs3
  isplitl [Hat4]; · iexact Hat4
  isplitl [Hd4]; · iexact Hd4
  isplitl [Hs4]; · iexact Hs4
  isplitl [HO]; · iexists _; iexact HO
  isplitl [Hat5]; · iexact Hat5
  isplitl [Hd5]; · iexact Hd5
  iexact Hs5

/-- info: 'Cert.Kernel.DM.part38' depends on axioms: [propext, Classical.choice, Quot.sound] -/
#guard_msgs in #print axioms part38

/-- info: 'Cert.Kernel.DM.part39' depends on axioms: [propext, Classical.choice, Quot.sound] -/
#guard_msgs in #print axioms part39

/-- info: 'Cert.Kernel.DM.part40' depends on axioms: [propext, Classical.choice, Quot.sound] -/
#guard_msgs in #print axioms part40

/-- info: 'Cert.Kernel.DM.part41' depends on axioms: [propext, Classical.choice, Quot.sound] -/
#guard_msgs in #print axioms part41

/-- info: 'Cert.Kernel.DM.part42' depends on axioms: [propext, Classical.choice, Quot.sound] -/
#guard_msgs in #print axioms part42

/-- info: 'Cert.Kernel.DM.part43' depends on axioms: [propext, Classical.choice, Quot.sound] -/
#guard_msgs in #print axioms part43

/-- info: 'Cert.Kernel.DM.part44' depends on axioms: [propext, Classical.choice, Quot.sound] -/
#guard_msgs in #print axioms part44

/-- info: 'Cert.Kernel.DM.part45' depends on axioms: [propext, Classical.choice, Quot.sound] -/
#guard_msgs in #print axioms part45

end Cert.Kernel.DM

end
-- ==== Proof.Bits.Tail.lean ====
import proofs.«900891_g7700000000000892_dist_matmul_m_i_outrep_m1024_n1024_k512_v7x_i8_f32_1_alg».proof.Proof.Bits.PartSpecs
import proofs.«900891_g7700000000000892_dist_matmul_m_i_outrep_m1024_n1024_k512_v7x_i8_f32_1_alg».proof.Proof.Bits.OpsWait
import proofs.«900891_g7700000000000892_dist_matmul_m_i_outrep_m1024_n1024_k512_v7x_i8_f32_1_alg».proof.Proof.Bits.OpsCopy

/-!
The end of a device's body: the wait on the copy of the last product block of the third group. Nothing is owed any
more; the block's rows of the result come back holding it, and its stage slot is free.
-/

set_option maxRecDepth 16384

noncomputable section

namespace Cert.Kernel.DM

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ)

theorem tail : TailSpec m K := by
  intro c Kt
  simp only [semSignalWord, semWaitWord, Prog.lift, Prog.bind_op, Prog.bind_ret, Prog.pure_eq_ret, wp_deviceId]
  iintro ⟨#Hrec, #Hlev, Hc, Hat, HO, HK⟩
  icases HO with ⟨%W, HO⟩
  iapply (wait_copy' m K c 2 7 (Orem ((payList c).drop 27)) W (show Above 0 (Orem ((payList c).drop 27)) from above_zero 0)) $$ [Hc Hat HO]
  · isplitr; · iexact Hrec
    isplitr; · iexact Hlev
    isplitl [Hc]; · iexact Hc
    isplitl [Hat]; · iexact Hat
    iexact HO
  iintro ⟨Hpay, Hat, HO⟩
  ihave Hp := (copyPay_split m c 2 7) $$ Hpay
  icases Hp with ⟨Hpd, Hst⟩
  ihave Hst := (Entails.of_eq (show stageAny (F := F) c 2 (par 7) = stageAny c 2 1 from rfl)) $$ Hst
  rw [wp_ret]; imodintro
  iapply HK
  isplitl [HO]; · iexists _; iexact HO
  isplitl [Hat]; · iexact Hat
  isplitl [Hpd]; · iexact Hpd
  iexact Hst

/-- info: 'Cert.Kernel.DM.tail' depends on axioms: [propext, Classical.choice, Quot.sound] -/
#guard_msgs in #print axioms tail

end Cert.Kernel.DM

end
-- ==== Proof.Bits.Whole.lean ====
import proofs.«900891_g7700000000000892_dist_matmul_m_i_outrep_m1024_n1024_k512_v7x_i8_f32_1_alg».proof.Proof.Bits.Launch
import proofs.«900891_g7700000000000892_dist_matmul_m_i_outrep_m1024_n1024_k512_v7x_i8_f32_1_alg».proof.Proof.Bits.Body
import proofs.«900891_g7700000000000892_dist_matmul_m_i_outrep_m1024_n1024_k512_v7x_i8_f32_1_alg».proof.Proof.Bits.BodyChain
import proofs.«900891_g7700000000000892_dist_matmul_m_i_outrep_m1024_n1024_k512_v7x_i8_f32_1_alg».proof.Proof.Bits.Parts_1_7
import proofs.«900891_g7700000000000892_dist_matmul_m_i_outrep_m1024_n1024_k512_v7x_i8_f32_1_alg».proof.Proof.Bits.Parts_8_15
import proofs.«900891_g7700000000000892_dist_matmul_m_i_outrep_m1024_n1024_k512_v7x_i8_f32_1_alg».proof.Proof.Bits.Parts_16_22
import proofs.«900891_g7700000000000892_dist_matmul_m_i_outrep_m1024_n1024_k512_v7x_i8_f32_1_alg».proof.Proof.Bits.Parts_23_30
import proofs.«900891_g7700000000000892_dist_matmul_m_i_outrep_m1024_n1024_k512_v7x_i8_f32_1_alg».proof.Proof.Bits.Parts_31_37
import proofs.«900891_g7700000000000892_dist_matmul_m_i_outrep_m1024_n1024_k512_v7x_i8_f32_1_alg».proof.Proof.Bits.Parts_38_45
import proofs.«900891_g7700000000000892_dist_matmul_m_i_outrep_m1024_n1024_k512_v7x_i8_f32_1_alg».proof.Proof.Bits.Tail

/-!
The whole run: every printed part's run and the tail's, composed along the body, give the body's run on one device
from what the launch hands it to what it hands back; the launch theorem then gives the run of all eight devices, at
the end of which every device's result buffer holds every product block in its rows and the arguments are unchanged.
-/

noncomputable section

namespace Cert.Kernel.DM

open Cert.Kernel Cert.Kernel.Gen
open Idealize.ShloMosaic
open Idealize.ShloMosaic.TcCoe
open Idealize.SL.Sem

variable {F : FTy → Type} [FloatOps F]

theorem run_whole (m : (ℓ : Loc nD τ sig) → Buf (Elt F) ℓ) (ρ : Dev nD → PrngReg) :
    θ_run (defs (F := F)) (onTc (τ := τ) (main (F := F))) ⟨m, fun _ => 0, ρ⟩
      (fun r => ∀ c : Dev nD, outOK m c (r.2.mem ((c.tc : Thread nD τ).loc main_v1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  run_main m ρ fun c => body_obl_of m
    (fun K c Kt => middle m K (part1 m K) (part2 m K) (part3 m K) (part4 m K) (part5 m K) (part6 m K) (part7 m K) (part8 m K) (part9 m K) (part10 m K) (part11 m K) (part12 m K) (part13 m K) (part14 m K) (part15 m K) (part16 m K) (part17 m K) (part18 m K) (part19 m K) (part20 m K) (part21 m K) (part22 m K) (part23 m K) (part24 m K) (part25 m K) (part26 m K) (part27 m K) (part28 m K) (part29 m K) (part30 m K) (part31 m K) (part32 m K) (part33 m K) (part34 m K) (part35 m K) (part36 m K) (part37 m K) (part38 m K) (part39 m K) (part40 m K) (part41 m K) (part42 m K) (part43 m K) (part44 m K) (part45 m K) (tail m K) c Kt) c

end Cert.Kernel.DM

end
-- ==== Proof.lean ====
/- The proof of `Cert.Claim` (proofs.«900891_g7700000000000892_dist_matmul_m_i_outrep_m1024_n1024_k512_v7x_i8_f32_1_alg».proof.Defs) — frame_Kernel ∧ frame_KernelIdeal ∧ frame_ReferenceIdeal ∧ preserves_Kernel_KernelIdeal ∧ algebraic_KernelIdeal_ReferenceIdeal —: hand-written, untrusted.
   It must end in `theorem Cert.Proof.claim : Cert.Claim`; how it gets there is its own business
   (idealize/tests/proofs/02_vector_ops proves a bit-exact claim, 04_loops a frame). The witnesses of
   the programs' stated facts come first: the instances the generated Proof/Gen/ modules prove.
   Its author proves each claim OR witnesses that one is false. If a `holds`, `bitexact`, or `algebraic` claim
   fails at some input, do not weaken the claim until it holds: in `test_<name>.py` state
   `proofs.disproves(claim, *arrays)` in its place, with that input as `arrays`; run
   `python test_<name>.py regen`; and prove the disproof here (this file is not rewritten, and the claim to
   prove changes: a disproof adds no frame). A `frame` or `preserves` claim has no disproof.
   idealize/tests/proofs/README.md, "A value claim that is FALSE", says how; 02_vector_ops
   `Proof/Disproof.lean` and 10_ideal_fields `Proof/Widths.lean` are worked examples. -/
import proofs.«900891_g7700000000000892_dist_matmul_m_i_outrep_m1024_n1024_k512_v7x_i8_f32_1_alg».proof.Defs
import proofs.«900891_g7700000000000892_dist_matmul_m_i_outrep_m1024_n1024_k512_v7x_i8_f32_1_alg».proof.Proof.Gen.Kernel
import proofs.«900891_g7700000000000892_dist_matmul_m_i_outrep_m1024_n1024_k512_v7x_i8_f32_1_alg».proof.Proof.Gen.Kernel.Skeleton
import proofs.«900891_g7700000000000892_dist_matmul_m_i_outrep_m1024_n1024_k512_v7x_i8_f32_1_alg».proof.Proof.Gen.Kernel.Launch
import proofs.«900891_g7700000000000892_dist_matmul_m_i_outrep_m1024_n1024_k512_v7x_i8_f32_1_alg».proof.Proof.Gen.Kernel.Points
import proofs.«900891_g7700000000000892_dist_matmul_m_i_outrep_m1024_n1024_k512_v7x_i8_f32_1_alg».proof.Proof.Gen.Kernel.Frame
import proofs.«900891_g7700000000000892_dist_matmul_m_i_outrep_m1024_n1024_k512_v7x_i8_f32_1_alg».proof.Proof.Gen.KernelIdeal
import proofs.«900891_g7700000000000892_dist_matmul_m_i_outrep_m1024_n1024_k512_v7x_i8_f32_1_alg».proof.Proof.Gen.KernelIdeal.Skeleton
import proofs.«900891_g7700000000000892_dist_matmul_m_i_outrep_m1024_n1024_k512_v7x_i8_f32_1_alg».proof.Proof.Gen.KernelIdeal.Launch
import proofs.«900891_g7700000000000892_dist_matmul_m_i_outrep_m1024_n1024_k512_v7x_i8_f32_1_alg».proof.Proof.Gen.KernelIdeal.Points
import proofs.«900891_g7700000000000892_dist_matmul_m_i_outrep_m1024_n1024_k512_v7x_i8_f32_1_alg».proof.Proof.Gen.KernelIdeal.Frame
import proofs.«900891_g7700000000000892_dist_matmul_m_i_outrep_m1024_n1024_k512_v7x_i8_f32_1_alg».proof.Proof.Gen.ReferenceIdeal
import proofs.«900891_g7700000000000892_dist_matmul_m_i_outrep_m1024_n1024_k512_v7x_i8_f32_1_alg».proof.Proof.Gen.Pre_finite_inputs_Kernel
import proofs.«900891_g7700000000000892_dist_matmul_m_i_outrep_m1024_n1024_k512_v7x_i8_f32_1_alg».proof.Proof.Gen.Pre_finite_inputs_ReferenceIdeal
import proofs.«900891_g7700000000000892_dist_matmul_m_i_outrep_m1024_n1024_k512_v7x_i8_f32_1_alg».proof.Proof.Whole
import proofs.«900891_g7700000000000892_dist_matmul_m_i_outrep_m1024_n1024_k512_v7x_i8_f32_1_alg».proof.Proof.Value
import proofs.«900891_g7700000000000892_dist_matmul_m_i_outrep_m1024_n1024_k512_v7x_i8_f32_1_alg».proof.Proof.RefValue
import proofs.«900891_g7700000000000892_dist_matmul_m_i_outrep_m1024_n1024_k512_v7x_i8_f32_1_alg».proof.Proof.Bits.Whole
import Idealize.ShloMosaic.Adequacy
import Idealize.ShloMosaic.Init

noncomputable section

namespace Cert.Proof

open Idealize.ShloMosaic Idealize.SL.Sem Cert.Kernel

/-- The kernel on machine words runs to its end from any memory and leaves its two arguments as they were: the run of
    all eight devices, with what the result holds dropped. -/
theorem frame_k : @Cert.frame_Kernel Cert.Kernel.Gen.facts Cert.Pre_finite_inputs_Kernel.Gen.facts :=
  fun m ρ _ => (θ_run Cert.Kernel.defs _ _).mono (fun _ h c => ⟨(h c).2.1, (h c).2.2⟩)
    (Cert.Kernel.DM.run_whole (F := Bits) m ρ)

/-- The same for the idealized kernel. -/
theorem frame_ki : @Cert.frame_KernelIdeal Cert.KernelIdeal.Gen.facts Cert.Pre_finite_inputs_Kernel.Gen.facts :=
  fun m ρ _ => (θ_run Cert.KernelIdeal.defs _ _).mono (fun _ h c => ⟨(h c).2.1, (h c).2.2⟩)
    (Cert.KernelIdeal.DM.run_whole (F := Ideal) m ρ)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.ReferenceIdeal.RefValue.frame_ri, trivial,
  Cert.KernelIdeal.DM.Val.algebraic_of_run (fun m ρ => Cert.KernelIdeal.DM.run_whole (F := Ideal) m ρ)⟩

end Cert.Proof

end
